-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v633) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x512 : Shape := ⟨2, ![1024, 512]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x512 : S_.BroadcastsInDim S1024x512 (![] : Fin 0 → Fin S1024x512.rank)
  reducesTo_S1024x512_S_d0_1 : S1024x512.ReducesTo [0, 1] S_

variable [Facts]

def fn_part1 {F : FTy → Type} [FloatOps F] (main_arg4 : FVec F S1024x512 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x512 .f32 := Host.absf main_arg4
  let main_cst_6 : FVec F S_ .f32 := constant S_ .f32 0x7F800000#32
  let main_v20 : FVec F S1024x512 .f32 := broadcastInDim S1024x512 ![] bcast_S_S1024x512 main_cst_6
  let main_v21 : IVec S1024x512 1 := cmpf .olt main_v19 main_v20
  let main_c_7 : IVec S_ 1 := constantI S_ 1 1#1
  let main_v22 : IVec S_ 1 := (fun x v => Host.reduce IntOp.andi x v reducesTo_S1024x512_S_d0_1 h_S_) main_v21 main_c_7
  let main_v23 : IVec S_ 1 := andi main_v18 main_v22
  main_v23

def fn {F : FTy → Type} [FloatOps F] (main_arg0 : FVec F S1024x1024 .f32) (main_arg1 : FVec F S1024x512 .f32) (main_arg2 : FVec F S1024x1024 .f32) (main_arg3 : FVec F S1024x1024 .f32) (main_arg4 : FVec F S1024x512 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S1024x1024 : Shape := ⟨2, ![1024, 1024]⟩
abbrev S1024x512 : Shape := ⟨2, ![1024, 512]⟩
abbrev S_ : Shape := ⟨0, ![]⟩
abbrev S1048576 : Shape := ⟨1, ![1048576]⟩
abbrev S524288 : Shape := ⟨1, ![524288]⟩
abbrev S1 : Shape := ⟨1, ![1]⟩
abbrev S2621441 : Shape := ⟨1, ![2621441]⟩

abbrev nBuf : Space → Nat
  | .hbm => 97
  | .vmem => 247
  | .smem => 0
  | _ => 0

abbrev vmemTy0_0 (i : Nat) : BufTy := match i % 128 with
  | 0 => ⟨S1024x1024, .f32⟩
  | 1 => ⟨S1024x1024, .f32⟩
  | 2 => ⟨S1024x1024, .f32⟩
  | 3 => ⟨S1024x512, .f32⟩
  | 4 => ⟨S1024x1024, .f32⟩
  | 5 => ⟨S1024x1024, .f32⟩
  | 6 => ⟨S1024x512, .f32⟩
  | 7 => ⟨S1024x1024, .f32⟩
  | 8 => ⟨S1024x1024, .f32⟩
  | 9 => ⟨S1024x1024, .f32⟩
  | 10 => ⟨S1024x512, .f32⟩
  | 11 => ⟨S1024x512, .f32⟩
  | 12 => ⟨S1024x1024, .f32⟩
  | 13 => ⟨S1024x1024, .f32⟩
  | 14 => ⟨S1024x512, .f32⟩
  | 15 => ⟨S1024x1024, .f32⟩
  | 16 => ⟨S1024x1024, .f32⟩
  | 17 => ⟨S1024x512, .f32⟩
  | 18 => ⟨S1024x1024, .f32⟩
  | 19 => ⟨S1024x1024, .f32⟩
  | 20 => ⟨S1024x1024, .f32⟩
  | 21 => ⟨S1024x512, .f32⟩
  | 22 => ⟨S1024x512, .f32⟩
  | 23 => ⟨S1024x1024, .f32⟩
  | 24 => ⟨S1024x1024, .f32⟩
  | 25 => ⟨S1024x512, .f32⟩
  | 26 => ⟨S1024x1024, .f32⟩
  | 27 => ⟨S1024x1024, .f32⟩
  | 28 => ⟨S1024x512, .f32⟩
  | 29 => ⟨S1024x1024, .f32⟩
  | 30 => ⟨S1024x1024, .f32⟩
  | 31 => ⟨S1024x1024, .f32⟩
  | 32 => ⟨S1024x512, .f32⟩
  | 33 => ⟨S1024x512, .f32⟩
  | 34 => ⟨S1024x1024, .f32⟩
  | 35 => ⟨S1024x1024, .f32⟩
  | 36 => ⟨S1024x512, .f32⟩
  | 37 => ⟨S1024x1024, .f32⟩
  | 38 => ⟨S1024x1024, .f32⟩
  | 39 => ⟨S1024x512, .f32⟩
  | 40 => ⟨S1024x1024, .f32⟩
  | 41 => ⟨S1024x1024, .f32⟩
  | 42 => ⟨S1024x1024, .f32⟩
  | 43 => ⟨S1024x512, .f32⟩
  | 44 => ⟨S1024x512, .f32⟩
  | 45 => ⟨S1024x1024, .f32⟩
  | 46 => ⟨S1024x1024, .f32⟩
  | 47 => ⟨S1024x512, .f32⟩
  | 48 => ⟨S1024x1024, .f32⟩
  | 49 => ⟨S1024x1024, .f32⟩
  | 50 => ⟨S1024x512, .f32⟩
  | 51 => ⟨S1024x1024, .f32⟩
  | 52 => ⟨S1024x1024, .f32⟩
  | 53 => ⟨S1024x1024, .f32⟩
  | 54 => ⟨S1024x512, .f32⟩
  | 55 => ⟨S1024x512, .f32⟩
  | 56 => ⟨S1024x1024, .f32⟩
  | 57 => ⟨S1024x1024, .f32⟩
  | 58 => ⟨S1024x512, .f32⟩
  | 59 => ⟨S1024x1024, .f32⟩
  | 60 => ⟨S1024x1024, .f32⟩
  | 61 => ⟨S1024x512, .f32⟩
  | 62 => ⟨S1024x1024, .f32⟩
  | 63 => ⟨S1024x1024, .f32⟩
  | 64 => ⟨S1024x1024, .f32⟩
  | 65 => ⟨S1024x512, .f32⟩
  | 66 => ⟨S1024x512, .f32⟩
  | 67 => ⟨S1024x1024, .f32⟩
  | 68 => ⟨S1024x1024, .f32⟩
  | 69 => ⟨S1024x512, .f32⟩
  | 70 => ⟨S1024x1024, .f32⟩
  | 71 => ⟨S1024x1024, .f32⟩
  | 72 => ⟨S1024x512, .f32⟩
  | 73 => ⟨S1024x1024, .f32⟩
  | 74 => ⟨S1024x1024, .f32⟩
  | 75 => ⟨S1024x1024, .f32⟩
  | 76 => ⟨S1024x512, .f32⟩
  | 77 => ⟨S1024x512, .f32⟩
  | 78 => ⟨S1024x1024, .f32⟩
  | 79 => ⟨S1024x1024, .f32⟩
  | 80 => ⟨S1024x512, .f32⟩
  | 81 => ⟨S1024x1024, .f32⟩
  | 82 => ⟨S1024x1024, .f32⟩
  | 83 => ⟨S1024x512, .f32⟩
  | 84 => ⟨S1024x1024, .f32⟩
  | 85 => ⟨S1024x1024, .f32⟩
  | 86 => ⟨S1024x1024, .f32⟩
  | 87 => ⟨S1024x512, .f32⟩
  | 88 => ⟨S1024x512, .f32⟩
  | 89 => ⟨S1024x1024, .f32⟩
  | 90 => ⟨S1024x1024, .f32⟩
  | 91 => ⟨S1024x512, .f32⟩
  | 92 => ⟨S1024x1024, .f32⟩
  | 93 => ⟨S1024x1024, .f32⟩
  | 94 => ⟨S1024x512, .f32⟩
  | 95 => ⟨S1024x1024, .f32⟩
  | 96 => ⟨S1024x1024, .f32⟩
  | 97 => ⟨S1024x1024, .f32⟩
  | 98 => ⟨S1024x512, .f32⟩
  | 99 => ⟨S1024x512, .f32⟩
  | 100 => ⟨S1024x1024, .f32⟩
  | 101 => ⟨S1024x1024, .f32⟩
  | 102 => ⟨S1024x512, .f32⟩
  | 103 => ⟨S1024x1024, .f32⟩
  | 104 => ⟨S1024x1024, .f32⟩
  | 105 => ⟨S1024x512, .f32⟩
  | 106 => ⟨S1024x1024, .f32⟩
  | 107 => ⟨S1024x1024, .f32⟩
  | 108 => ⟨S1024x1024, .f32⟩
  | 109 => ⟨S1024x512, .f32⟩
  | 110 => ⟨S1024x512, .f32⟩
  | 111 => ⟨S1024x1024, .f32⟩
  | 112 => ⟨S1024x1024, .f32⟩
  | 113 => ⟨S1024x512, .f32⟩
  | 114 => ⟨S1024x1024, .f32⟩
  | 115 => ⟨S1024x1024, .f32⟩
  | 116 => ⟨S1024x512, .f32⟩
  | 117 => ⟨S1024x1024, .f32⟩
  | 118 => ⟨S1024x1024, .f32⟩
  | 119 => ⟨S1024x1024, .f32⟩
  | 120 => ⟨S1024x512, .f32⟩
  | 121 => ⟨S1024x512, .f32⟩
  | 122 => ⟨S1024x1024, .f32⟩
  | 123 => ⟨S1024x1024, .f32⟩
  | 124 => ⟨S1024x512, .f32⟩
  | 125 => ⟨S1024x1024, .f32⟩
  | 126 => ⟨S1024x1024, .f32⟩
  | 127 => ⟨S1024x512, .f32⟩
  | _ => ⟨S1024x1024, .f32⟩

abbrev vmemTy0_1 (i : Nat) : BufTy := match i % 128 with
  | 0 => ⟨S1024x1024, .f32⟩
  | 1 => ⟨S1024x1024, .f32⟩
  | 2 => ⟨S1024x1024, .f32⟩
  | 3 => ⟨S1024x512, .f32⟩
  | 4 => ⟨S1024x512, .f32⟩
  | 5 => ⟨S1024x1024, .f32⟩
  | 6 => ⟨S1024x1024, .f32⟩
  | 7 => ⟨S1024x512, .f32⟩
  | 8 => ⟨S1024x1024, .f32⟩
  | 9 => ⟨S1024x1024, .f32⟩
  | 10 => ⟨S1024x512, .f32⟩
  | 11 => ⟨S1024x1024, .f32⟩
  | 12 => ⟨S1024x1024, .f32⟩
  | 13 => ⟨S1024x1024, .f32⟩
  | 14 => ⟨S1024x512, .f32⟩
  | 15 => ⟨S1024x512, .f32⟩
  | 16 => ⟨S1024x1024, .f32⟩
  | 17 => ⟨S1024x1024, .f32⟩
  | 18 => ⟨S1024x512, .f32⟩
  | 19 => ⟨S1024x1024, .f32⟩
  | 20 => ⟨S1024x1024, .f32⟩
  | 21 => ⟨S1024x512, .f32⟩
  | 22 => ⟨S1024x1024, .f32⟩
  | 23 => ⟨S1024x1024, .f32⟩
  | 24 => ⟨S1024x1024, .f32⟩
  | 25 => ⟨S1024x512, .f32⟩
  | 26 => ⟨S1024x512, .f32⟩
  | 27 => ⟨S1024x1024, .f32⟩
  | 28 => ⟨S1024x1024, .f32⟩
  | 29 => ⟨S1024x512, .f32⟩
  | 30 => ⟨S1024x1024, .f32⟩
  | 31 => ⟨S1024x1024, .f32⟩
  | 32 => ⟨S1024x512, .f32⟩
  | 33 => ⟨S1024x1024, .f32⟩
  | 34 => ⟨S1024x1024, .f32⟩
  | 35 => ⟨S1024x1024, .f32⟩
  | 36 => ⟨S1024x512, .f32⟩
  | 37 => ⟨S1024x512, .f32⟩
  | 38 => ⟨S1024x1024, .f32⟩
  | 39 => ⟨S1024x1024, .f32⟩
  | 40 => ⟨S1024x512, .f32⟩
  | 41 => ⟨S1024x1024, .f32⟩
  | 42 => ⟨S1024x1024, .f32⟩
  | 43 => ⟨S1024x512, .f32⟩
  | 44 => ⟨S1024x1024, .f32⟩
  | 45 => ⟨S1024x1024, .f32⟩
  | 46 => ⟨S1024x1024, .f32⟩
  | 47 => ⟨S1024x512, .f32⟩
  | 48 => ⟨S1024x512, .f32⟩
  | 49 => ⟨S1024x1024, .f32⟩
  | 50 => ⟨S1024x1024, .f32⟩
  | 51 => ⟨S1024x512, .f32⟩
  | 52 => ⟨S1024x1024, .f32⟩
  | 53 => ⟨S1024x1024, .f32⟩
  | 54 => ⟨S1024x512, .f32⟩
  | 55 => ⟨S1024x1024, .f32⟩
  | 56 => ⟨S1024x1024, .f32⟩
  | 57 => ⟨S1024x1024, .f32⟩
  | 58 => ⟨S1024x512, .f32⟩
  | 59 => ⟨S1024x512, .f32⟩
  | 60 => ⟨S1024x1024, .f32⟩
  | 61 => ⟨S1024x1024, .f32⟩
  | 62 => ⟨S1024x512, .f32⟩
  | 63 => ⟨S1024x1024, .f32⟩
  | 64 => ⟨S1024x1024, .f32⟩
  | 65 => ⟨S1024x512, .f32⟩
  | 66 => ⟨S1024x1024, .f32⟩
  | 67 => ⟨S1024x1024, .f32⟩
  | 68 => ⟨S1024x1024, .f32⟩
  | 69 => ⟨S1024x512, .f32⟩
  | 70 => ⟨S1024x512, .f32⟩
  | 71 => ⟨S1024x1024, .f32⟩
  | 72 => ⟨S1024x1024, .f32⟩
  | 73 => ⟨S1024x512, .f32⟩
  | 74 => ⟨S1024x1024, .f32⟩
  | 75 => ⟨S1024x1024, .f32⟩
  | 76 => ⟨S1024x512, .f32⟩
  | 77 => ⟨S1024x1024, .f32⟩
  | 78 => ⟨S1024x1024, .f32⟩
  | 79 => ⟨S1024x1024, .f32⟩
  | 80 => ⟨S1024x512, .f32⟩
  | 81 => ⟨S1024x512, .f32⟩
  | 82 => ⟨S1024x1024, .f32⟩
  | 83 => ⟨S1024x1024, .f32⟩
  | 84 => ⟨S1024x512, .f32⟩
  | 85 => ⟨S1024x1024, .f32⟩
  | 86 => ⟨S1024x1024, .f32⟩
  | 87 => ⟨S1024x512, .f32⟩
  | 88 => ⟨S1024x1024, .f32⟩
  | 89 => ⟨S1024x1024, .f32⟩
  | 90 => ⟨S1024x1024, .f32⟩
  | 91 => ⟨S1024x512, .f32⟩
  | 92 => ⟨S1024x512, .f32⟩
  | 93 => ⟨S1024x1024, .f32⟩
  | 94 => ⟨S1024x1024, .f32⟩
  | 95 => ⟨S1024x512, .f32⟩
  | 96 => ⟨S1024x1024, .f32⟩
  | 97 => ⟨S1024x1024, .f32⟩
  | 98 => ⟨S1024x512, .f32⟩
  | 99 => ⟨S1024x1024, .f32⟩
  | 100 => ⟨S1024x1024, .f32⟩
  | 101 => ⟨S1024x1024, .f32⟩
  | 102 => ⟨S1024x512, .f32⟩
  | 103 => ⟨S1024x1024, .f32⟩
  | 104 => ⟨S1024x1024, .f32⟩
  | 105 => ⟨S1024x512, .f32⟩
  | 106 => ⟨S1024x1024, .f32⟩
  | 107 => ⟨S1024x1024, .f32⟩
  | 108 => ⟨S1024x512, .f32⟩
  | 109 => ⟨S1024x1024, .f32⟩
  | 110 => ⟨S1024x1024, .f32⟩
  | 111 => ⟨S1024x1024, .f32⟩
  | 112 => ⟨S1024x512, .f32⟩
  | 113 => ⟨S1024x1024, .f32⟩
  | 114 => ⟨S1024x1024, .f32⟩
  | 115 => ⟨S1024x512, .f32⟩
  | 116 => ⟨S1024x1024, .f32⟩
  | 117 => ⟨S1024x1024, .f32⟩
  | 118 => ⟨S1024x512, .f32⟩
  | _ => ⟨S1024x1024, .f32⟩

abbrev vmemTy (i : Nat) : BufTy := match i / 128 with
  | 0 => vmemTy0_0 i
  | 1 => vmemTy0_1 i
  | _ => ⟨S1024x1024, .f32⟩

abbrev bufTy : (tb : Table) → Fin (tcTables nBuf tb) → BufTy
  | .hbm, ⟨0, _⟩ => ⟨S1024x1024, .f32⟩
  | .hbm, ⟨1, _⟩ => ⟨S1024x512, .f32⟩
  | .hbm, ⟨2, _⟩ => ⟨S1024x1024, .f32⟩
  | .hbm, ⟨3, _⟩ => ⟨S1024x1024, .f32⟩
  | .hbm, ⟨4, _⟩ => ⟨S1024x512, .f32⟩
  | .hbm, ⟨5, _⟩ => ⟨S1024x1024, .f32⟩
  | .hbm, ⟨6, _⟩ => ⟨S1024x1024, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x512, .f32⟩
  | .hbm, ⟨17, _⟩ => ⟨S1024x1024, .f32⟩
  | .hbm, ⟨18, _⟩ => ⟨S1024x1024, .f32⟩
  | .hbm, ⟨19, _⟩ => ⟨S1024x512, .f32⟩
  | .hbm, ⟨20, _⟩ => ⟨S1024x1024, .f32⟩
  | .hbm, ⟨21, _⟩ => ⟨S1024x1024, .f32⟩
  | .hbm, ⟨22, _⟩ => ⟨S1024x512, .f32⟩
  | .hbm, ⟨23, _⟩ => ⟨S1024x1024, .f32⟩
  | .hbm, ⟨24, _⟩ => ⟨S1024x1024, .f32⟩
  | .hbm, ⟨25, _⟩ => ⟨S1024x512, .f32⟩
  | .hbm, ⟨26, _⟩ => ⟨S1024x1024, .f32⟩
  | .hbm, ⟨27, _⟩ => ⟨S1024x1024, .f32⟩
  | .hbm, ⟨28, _⟩ => ⟨S1024x512, .f32⟩
  | .hbm, ⟨29, _⟩ => ⟨S1024x1024, .f32⟩
  | .hbm, ⟨30, _⟩ => ⟨S1024x1024, .f32⟩
  | .hbm, ⟨31, _⟩ => ⟨S1024x512, .f32⟩
  | .hbm, ⟨32, _⟩ => ⟨S1024x1024, .f32⟩
  | .hbm, ⟨33, _⟩ => ⟨S1024x1024, .f32⟩
  | .hbm, ⟨34, _⟩ => ⟨S1024x512, .f32⟩
  | .hbm, ⟨35, _⟩ => ⟨S1024x1024, .f32⟩
  | .hbm, ⟨36, _⟩ => ⟨S1024x1024, .f32⟩
  | .hbm, ⟨37, _⟩ => ⟨S1024x512, .f32⟩
  | .hbm, ⟨38, _⟩ => ⟨S1024x1024, .f32⟩
  | .hbm, ⟨39, _⟩ => ⟨S1024x1024, .f32⟩
  | .hbm, ⟨40, _⟩ => ⟨S1024x512, .f32⟩
  | .hbm, ⟨41, _⟩ => ⟨S1024x1024, .f32⟩
  | .hbm, ⟨42, _⟩ => ⟨S1024x1024, .f32⟩
  | .hbm, ⟨43, _⟩ => ⟨S1024x512, .f32⟩
  | .hbm, ⟨44, _⟩ => ⟨S1024x1024, .f32⟩
  | .hbm, ⟨45, _⟩ => ⟨S1024x1024, .f32⟩
  | .hbm, ⟨46, _⟩ => ⟨S1024x512, .f32⟩
  | .hbm, ⟨47, _⟩ => ⟨S1024x1024, .f32⟩
  | .hbm, ⟨48, _⟩ => ⟨S1024x1024, .f32⟩
  | .hbm, ⟨49, _⟩ => ⟨S1024x512, .f32⟩
  | .hbm, ⟨50, _⟩ => ⟨S1024x1024, .f32⟩
  | .hbm, ⟨51, _⟩ => ⟨S1024x1024, .f32⟩
  | .hbm, ⟨52, _⟩ => ⟨S1024x512, .f32⟩
  | .hbm, ⟨53, _⟩ => ⟨S1024x1024, .f32⟩
  | .hbm, ⟨54, _⟩ => ⟨S1024x1024, .f32⟩
  | .hbm, ⟨55, _⟩ => ⟨S1024x512, .f32⟩
  | .hbm, ⟨56, _⟩ => ⟨S1024x1024, .f32⟩
  | .hbm, ⟨57, _⟩ => ⟨S1024x1024, .f32⟩
  | .hbm, ⟨58, _⟩ => ⟨S1024x512, .f32⟩
  | .hbm, ⟨59, _⟩ => ⟨S1024x1024, .f32⟩
  | .hbm, ⟨60, _⟩ => ⟨S1024x1024, .f32⟩
  | .hbm, ⟨61, _⟩ => ⟨S1024x512, .f32⟩
  | .hbm, ⟨62, _⟩ => ⟨S1024x1024, .f32⟩
  | .hbm, ⟨63, _⟩ => ⟨S1024x1024, .f32⟩
  | .hbm, ⟨64, _⟩ => ⟨S1024x512, .f32⟩
  | .hbm, ⟨65, _⟩ => ⟨S1024x1024, .f32⟩
  | .hbm, ⟨66, _⟩ => ⟨S1024x1024, .f32⟩
  | .hbm, ⟨67, _⟩ => ⟨S1024x512, .f32⟩
  | .hbm, ⟨68, _⟩ => ⟨S1024x1024, .f32⟩
  | .hbm, ⟨69, _⟩ => ⟨S1024x1024, .f32⟩
  | .hbm, ⟨70, _⟩ => ⟨S1024x512, .f32⟩
  | .hbm, ⟨71, _⟩ => ⟨S1024x1024, .f32⟩
  | .hbm, ⟨72, _⟩ => ⟨S1024x1024, .f32⟩
  | .hbm, ⟨73, _⟩ => ⟨S1024x512, .f32⟩
  | .hbm, ⟨74, _⟩ => ⟨S1024x1024, .f32⟩
  | .hbm, ⟨75, _⟩ => ⟨S1024x1024, .f32⟩
  | .hbm, ⟨76, _⟩ => ⟨S1024x512, .f32⟩
  | .hbm, ⟨77, _⟩ => ⟨S1024x1024, .f32⟩
  | .hbm, ⟨78, _⟩ => ⟨S1024x1024, .f32⟩
  | .hbm, ⟨79, _⟩ => ⟨S1024x512, .f32⟩
  | .hbm, ⟨80, _⟩ => ⟨S1024x1024, .f32⟩
  | .hbm, ⟨81, _⟩ => ⟨S_, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S_, .f32⟩
  | .hbm, ⟨86, _⟩ => ⟨S1024x1024, .f32⟩
  | .hbm, ⟨87, _⟩ => ⟨S1024x1024, .f32⟩
  | .hbm, ⟨88, _⟩ => ⟨S1024x512, .f32⟩
  | .hbm, ⟨89, _⟩ => ⟨S_, .f32⟩
  | .hbm, ⟨90, _⟩ => ⟨S1024x512, .f32⟩
  | .hbm, ⟨91, _⟩ => ⟨S1024x512, .f32⟩
  | .hbm, ⟨92, _⟩ => ⟨S1048576, .f32⟩
  | .hbm, ⟨93, _⟩ => ⟨S1048576, .f32⟩
  | .hbm, ⟨94, _⟩ => ⟨S524288, .f32⟩
  | .hbm, ⟨95, _⟩ => ⟨S1, .f32⟩
  | .hbm, ⟨96, _⟩ => ⟨S2621441, .f32⟩
  | .local _ .vmem, ⟨i, _⟩ => vmemTy i
  | _, _ => ⟨S1024x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 247 → Bool
  | ⟨i, _⟩ => dmaSemScopedAt i

abbrev sig : RefSig :=
  ofTc nBuf bufTy 0 247 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7_0 : Ref sig .tc := ⟨.hbm, 20, rfl⟩
abbrev main_v7_1 : Ref sig .tc := ⟨.hbm, 21, rfl⟩
abbrev main_v7_2 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v10_0 : Ref sig .tc := ⟨.hbm, 29, rfl⟩
abbrev main_v10_1 : Ref sig .tc := ⟨.hbm, 30, rfl⟩
abbrev main_v10_2 : Ref sig .tc := ⟨.hbm, 31, rfl⟩
abbrev main_v11_0 : Ref sig .tc := ⟨.hbm, 32, rfl⟩
abbrev main_v11_1 : Ref sig .tc := ⟨.hbm, 33, rfl⟩
abbrev main_v11_2 : Ref sig .tc := ⟨.hbm, 34, rfl⟩
abbrev main_v12_0 : Ref sig .tc := ⟨.hbm, 35, rfl⟩
abbrev main_v12_1 : Ref sig .tc := ⟨.hbm, 36, rfl⟩
abbrev main_v12_2 : Ref sig .tc := ⟨.hbm, 37, rfl⟩
abbrev main_v13_0 : Ref sig .tc := ⟨.hbm, 38, rfl⟩
abbrev main_v13_1 : Ref sig .tc := ⟨.hbm, 39, rfl⟩
abbrev main_v13_2 : Ref sig .tc := ⟨.hbm, 40, rfl⟩
abbrev main_v14_0 : Ref sig .tc := ⟨.hbm, 41, rfl⟩
abbrev main_v14_1 : Ref sig .tc := ⟨.hbm, 42, rfl⟩
abbrev main_v14_2 : Ref sig .tc := ⟨.hbm, 43, rfl⟩
abbrev main_v15_0 : Ref sig .tc := ⟨.hbm, 44, rfl⟩
abbrev main_v15_1 : Ref sig .tc := ⟨.hbm, 45, rfl⟩
abbrev main_v15_2 : Ref sig .tc := ⟨.hbm, 46, rfl⟩
abbrev main_v16_0 : Ref sig .tc := ⟨.hbm, 47, rfl⟩
abbrev main_v16_1 : Ref sig .tc := ⟨.hbm, 48, rfl⟩
abbrev main_v16_2 : Ref sig .tc := ⟨.hbm, 49, rfl⟩
abbrev main_v17_0 : Ref sig .tc := ⟨.hbm, 50, rfl⟩
abbrev main_v17_1 : Ref sig .tc := ⟨.hbm, 51, rfl⟩
abbrev main_v17_2 : Ref sig .tc := ⟨.hbm, 52, rfl⟩
abbrev main_v18_0 : Ref sig .tc := ⟨.hbm, 53, rfl⟩
abbrev main_v18_1 : Ref sig .tc := ⟨.hbm, 54, rfl⟩
abbrev main_v18_2 : Ref sig .tc := ⟨.hbm, 55, rfl⟩
abbrev main_v19_0 : Ref sig .tc := ⟨.hbm, 56, rfl⟩
abbrev main_v19_1 : Ref sig .tc := ⟨.hbm, 57, rfl⟩
abbrev main_v19_2 : Ref sig .tc := ⟨.hbm, 58, rfl⟩
abbrev main_v20_0 : Ref sig .tc := ⟨.hbm, 59, rfl⟩
abbrev main_v20_1 : Ref sig .tc := ⟨.hbm, 60, rfl⟩
abbrev main_v20_2 : Ref sig .tc := ⟨.hbm, 61, rfl⟩
abbrev main_v21_0 : Ref sig .tc := ⟨.hbm, 62, rfl⟩
abbrev main_v21_1 : Ref sig .tc := ⟨.hbm, 63, rfl⟩
abbrev main_v21_2 : Ref sig .tc := ⟨.hbm, 64, rfl⟩
abbrev main_v22_0 : Ref sig .tc := ⟨.hbm, 65, rfl⟩
abbrev main_v22_1 : Ref sig .tc := ⟨.hbm, 66, rfl⟩
abbrev main_v22_2 : Ref sig .tc := ⟨.hbm, 67, rfl⟩
abbrev main_v23_0 : Ref sig .tc := ⟨.hbm, 68, rfl⟩
abbrev main_v23_1 : Ref sig .tc := ⟨.hbm, 69, rfl⟩
abbrev main_v23_2 : Ref sig .tc := ⟨.hbm, 70, rfl⟩
abbrev main_v24_0 : Ref sig .tc := ⟨.hbm, 71, rfl⟩
abbrev main_v24_1 : Ref sig .tc := ⟨.hbm, 72, rfl⟩
abbrev main_v24_2 : Ref sig .tc := ⟨.hbm, 73, rfl⟩
abbrev main_v25_0 : Ref sig .tc := ⟨.hbm, 74, rfl⟩
abbrev main_v25_1 : Ref sig .tc := ⟨.hbm, 75, rfl⟩
abbrev main_v25_2 : Ref sig .tc := ⟨.hbm, 76, rfl⟩
abbrev main_v26_0 : Ref sig .tc := ⟨.hbm, 77, rfl⟩
abbrev main_v26_1 : Ref sig .tc := ⟨.hbm, 78, rfl⟩
abbrev main_v26_2 : Ref sig .tc := ⟨.hbm, 79, rfl⟩
abbrev main_v27 : Ref sig .tc := ⟨.hbm, 80, rfl⟩
abbrev main_cst_1 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_cst_2 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩
abbrev main_cst_3 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc4_stg0_0 : Ref sig .tc := ⟨.vmem, 40, rfl⟩
abbrev cc4_stg1_0 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg8_0 : Ref sig .tc := ⟨.vmem, 48, rfl⟩
abbrev cc4_stg9_0 : Ref sig .tc := ⟨.vmem, 49, rfl⟩
abbrev cc4_stg10_0 : Ref sig .tc := ⟨.vmem, 50, rfl⟩
abbrev cc5_stg0_0 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg8_0 : Ref sig .tc := ⟨.vmem, 59, rfl⟩
abbrev cc5_stg9_0 : Ref sig .tc := ⟨.vmem, 60, rfl⟩
abbrev cc5_stg10_0 : Ref sig .tc := ⟨.vmem, 61, rfl⟩
abbrev cc6_stg0_0 : Ref sig .tc := ⟨.vmem, 62, rfl⟩
abbrev cc6_stg1_0 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg6_0 : Ref sig .tc := ⟨.vmem, 68, rfl⟩
abbrev cc6_stg7_0 : Ref sig .tc := ⟨.vmem, 69, rfl⟩
abbrev cc6_stg8_0 : Ref sig .tc := ⟨.vmem, 70, rfl⟩
abbrev cc6_stg9_0 : Ref sig .tc := ⟨.vmem, 71, rfl⟩
abbrev cc6_stg10_0 : Ref sig .tc := ⟨.vmem, 72, rfl⟩
abbrev cc7_stg0_0 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg3_0 : Ref sig .tc := ⟨.vmem, 76, rfl⟩
abbrev cc7_stg4_0 : Ref sig .tc := ⟨.vmem, 77, rfl⟩
abbrev cc7_stg5_0 : Ref sig .tc := ⟨.vmem, 78, rfl⟩
abbrev cc7_stg6_0 : Ref sig .tc := ⟨.vmem, 79, rfl⟩
abbrev cc7_stg7_0 : Ref sig .tc := ⟨.vmem, 80, rfl⟩
abbrev cc7_stg8_0 : Ref sig .tc := ⟨.vmem, 81, rfl⟩
abbrev cc7_stg9_0 : Ref sig .tc := ⟨.vmem, 82, rfl⟩
abbrev cc7_stg10_0 : Ref sig .tc := ⟨.vmem, 83, rfl⟩
abbrev cc8_stg0_0 : Ref sig .tc := ⟨.vmem, 84, rfl⟩
abbrev cc8_stg1_0 : Ref sig .tc := ⟨.vmem, 85, rfl⟩
abbrev cc8_stg2_0 : Ref sig .tc := ⟨.vmem, 86, rfl⟩
abbrev cc8_stg3_0 : Ref sig .tc := ⟨.vmem, 87, rfl⟩
abbrev cc8_stg4_0 : Ref sig .tc := ⟨.vmem, 88, rfl⟩
abbrev cc8_stg5_0 : Ref sig .tc := ⟨.vmem, 89, rfl⟩
abbrev cc8_stg6_0 : Ref sig .tc := ⟨.vmem, 90, rfl⟩
abbrev cc8_stg7_0 : Ref sig .tc := ⟨.vmem, 91, rfl⟩
abbrev cc8_stg8_0 : Ref sig .tc := ⟨.vmem, 92, rfl⟩
abbrev cc8_stg9_0 : Ref sig .tc := ⟨.vmem, 93, rfl⟩
abbrev cc8_stg10_0 : Ref sig .tc := ⟨.vmem, 94, rfl⟩
abbrev cc9_stg0_0 : Ref sig .tc := ⟨.vmem, 95, rfl⟩
abbrev cc9_stg1_0 : Ref sig .tc := ⟨.vmem, 96, rfl⟩
abbrev cc9_stg2_0 : Ref sig .tc := ⟨.vmem, 97, rfl⟩
abbrev cc9_stg3_0 : Ref sig .tc := ⟨.vmem, 98, rfl⟩
abbrev cc9_stg4_0 : Ref sig .tc := ⟨.vmem, 99, rfl⟩
abbrev cc9_stg5_0 : Ref sig .tc := ⟨.vmem, 100, rfl⟩
abbrev cc9_stg6_0 : Ref sig .tc := ⟨.vmem, 101, rfl⟩
abbrev cc9_stg7_0 : Ref sig .tc := ⟨.vmem, 102, rfl⟩
abbrev cc9_stg8_0 : Ref sig .tc := ⟨.vmem, 103, rfl⟩
abbrev cc9_stg9_0 : Ref sig .tc := ⟨.vmem, 104, rfl⟩
abbrev cc9_stg10_0 : Ref sig .tc := ⟨.vmem, 105, rfl⟩
abbrev cc10_stg0_0 : Ref sig .tc := ⟨.vmem, 106, rfl⟩
abbrev cc10_stg1_0 : Ref sig .tc := ⟨.vmem, 107, rfl⟩
abbrev cc10_stg2_0 : Ref sig .tc := ⟨.vmem, 108, rfl⟩
abbrev cc10_stg3_0 : Ref sig .tc := ⟨.vmem, 109, rfl⟩
abbrev cc10_stg4_0 : Ref sig .tc := ⟨.vmem, 110, rfl⟩
abbrev cc10_stg5_0 : Ref sig .tc := ⟨.vmem, 111, rfl⟩
abbrev cc10_stg6_0 : Ref sig .tc := ⟨.vmem, 112, rfl⟩
abbrev cc10_stg7_0 : Ref sig .tc := ⟨.vmem, 113, rfl⟩
abbrev cc10_stg8_0 : Ref sig .tc := ⟨.vmem, 114, rfl⟩
abbrev cc10_stg9_0 : Ref sig .tc := ⟨.vmem, 115, rfl⟩
abbrev cc10_stg10_0 : Ref sig .tc := ⟨.vmem, 116, rfl⟩
abbrev cc11_stg0_0 : Ref sig .tc := ⟨.vmem, 117, rfl⟩
abbrev cc11_stg1_0 : Ref sig .tc := ⟨.vmem, 118, rfl⟩
abbrev cc11_stg2_0 : Ref sig .tc := ⟨.vmem, 119, rfl⟩
abbrev cc11_stg3_0 : Ref sig .tc := ⟨.vmem, 120, rfl⟩
abbrev cc11_stg4_0 : Ref sig .tc := ⟨.vmem, 121, rfl⟩
abbrev cc11_stg5_0 : Ref sig .tc := ⟨.vmem, 122, rfl⟩
abbrev cc11_stg6_0 : Ref sig .tc := ⟨.vmem, 123, rfl⟩
abbrev cc11_stg7_0 : Ref sig .tc := ⟨.vmem, 124, rfl⟩
abbrev cc11_stg8_0 : Ref sig .tc := ⟨.vmem, 125, rfl⟩
abbrev cc11_stg9_0 : Ref sig .tc := ⟨.vmem, 126, rfl⟩
abbrev cc11_stg10_0 : Ref sig .tc := ⟨.vmem, 127, rfl⟩
abbrev cc12_stg0_0 : Ref sig .tc := ⟨.vmem, 128, rfl⟩
abbrev cc12_stg1_0 : Ref sig .tc := ⟨.vmem, 129, rfl⟩
abbrev cc12_stg2_0 : Ref sig .tc := ⟨.vmem, 130, rfl⟩
abbrev cc12_stg3_0 : Ref sig .tc := ⟨.vmem, 131, rfl⟩
abbrev cc12_stg4_0 : Ref sig .tc := ⟨.vmem, 132, rfl⟩
abbrev cc12_stg5_0 : Ref sig .tc := ⟨.vmem, 133, rfl⟩
abbrev cc12_stg6_0 : Ref sig .tc := ⟨.vmem, 134, rfl⟩
abbrev cc12_stg7_0 : Ref sig .tc := ⟨.vmem, 135, rfl⟩
abbrev cc12_stg8_0 : Ref sig .tc := ⟨.vmem, 136, rfl⟩
abbrev cc12_stg9_0 : Ref sig .tc := ⟨.vmem, 137, rfl⟩
abbrev cc12_stg10_0 : Ref sig .tc := ⟨.vmem, 138, rfl⟩
abbrev cc13_stg0_0 : Ref sig .tc := ⟨.vmem, 139, rfl⟩
abbrev cc13_stg1_0 : Ref sig .tc := ⟨.vmem, 140, rfl⟩
abbrev cc13_stg2_0 : Ref sig .tc := ⟨.vmem, 141, rfl⟩
abbrev cc13_stg3_0 : Ref sig .tc := ⟨.vmem, 142, rfl⟩
abbrev cc13_stg4_0 : Ref sig .tc := ⟨.vmem, 143, rfl⟩
abbrev cc13_stg5_0 : Ref sig .tc := ⟨.vmem, 144, rfl⟩
abbrev cc13_stg6_0 : Ref sig .tc := ⟨.vmem, 145, rfl⟩
abbrev cc13_stg7_0 : Ref sig .tc := ⟨.vmem, 146, rfl⟩
abbrev cc13_stg8_0 : Ref sig .tc := ⟨.vmem, 147, rfl⟩
abbrev cc13_stg9_0 : Ref sig .tc := ⟨.vmem, 148, rfl⟩
abbrev cc13_stg10_0 : Ref sig .tc := ⟨.vmem, 149, rfl⟩
abbrev cc14_stg0_0 : Ref sig .tc := ⟨.vmem, 150, rfl⟩
abbrev cc14_stg1_0 : Ref sig .tc := ⟨.vmem, 151, rfl⟩
abbrev cc14_stg2_0 : Ref sig .tc := ⟨.vmem, 152, rfl⟩
abbrev cc14_stg3_0 : Ref sig .tc := ⟨.vmem, 153, rfl⟩
abbrev cc14_stg4_0 : Ref sig .tc := ⟨.vmem, 154, rfl⟩
abbrev cc14_stg5_0 : Ref sig .tc := ⟨.vmem, 155, rfl⟩
abbrev cc14_stg6_0 : Ref sig .tc := ⟨.vmem, 156, rfl⟩
abbrev cc14_stg7_0 : Ref sig .tc := ⟨.vmem, 157, rfl⟩
abbrev cc14_stg8_0 : Ref sig .tc := ⟨.vmem, 158, rfl⟩
abbrev cc14_stg9_0 : Ref sig .tc := ⟨.vmem, 159, rfl⟩
abbrev cc14_stg10_0 : Ref sig .tc := ⟨.vmem, 160, rfl⟩
abbrev cc15_stg0_0 : Ref sig .tc := ⟨.vmem, 161, rfl⟩
abbrev cc15_stg1_0 : Ref sig .tc := ⟨.vmem, 162, rfl⟩
abbrev cc15_stg2_0 : Ref sig .tc := ⟨.vmem, 163, rfl⟩
abbrev cc15_stg3_0 : Ref sig .tc := ⟨.vmem, 164, rfl⟩
abbrev cc15_stg4_0 : Ref sig .tc := ⟨.vmem, 165, rfl⟩
abbrev cc15_stg5_0 : Ref sig .tc := ⟨.vmem, 166, rfl⟩
abbrev cc15_stg6_0 : Ref sig .tc := ⟨.vmem, 167, rfl⟩
abbrev cc15_stg7_0 : Ref sig .tc := ⟨.vmem, 168, rfl⟩
abbrev cc15_stg8_0 : Ref sig .tc := ⟨.vmem, 169, rfl⟩
abbrev cc15_stg9_0 : Ref sig .tc := ⟨.vmem, 170, rfl⟩
abbrev cc15_stg10_0 : Ref sig .tc := ⟨.vmem, 171, rfl⟩
abbrev cc16_stg0_0 : Ref sig .tc := ⟨.vmem, 172, rfl⟩
abbrev cc16_stg1_0 : Ref sig .tc := ⟨.vmem, 173, rfl⟩
abbrev cc16_stg2_0 : Ref sig .tc := ⟨.vmem, 174, rfl⟩
abbrev cc16_stg3_0 : Ref sig .tc := ⟨.vmem, 175, rfl⟩
abbrev cc16_stg4_0 : Ref sig .tc := ⟨.vmem, 176, rfl⟩
abbrev cc16_stg5_0 : Ref sig .tc := ⟨.vmem, 177, rfl⟩
abbrev cc16_stg6_0 : Ref sig .tc := ⟨.vmem, 178, rfl⟩
abbrev cc16_stg7_0 : Ref sig .tc := ⟨.vmem, 179, rfl⟩
abbrev cc16_stg8_0 : Ref sig .tc := ⟨.vmem, 180, rfl⟩
abbrev cc16_stg9_0 : Ref sig .tc := ⟨.vmem, 181, rfl⟩
abbrev cc16_stg10_0 : Ref sig .tc := ⟨.vmem, 182, rfl⟩
abbrev cc17_stg0_0 : Ref sig .tc := ⟨.vmem, 183, rfl⟩
abbrev cc17_stg1_0 : Ref sig .tc := ⟨.vmem, 184, rfl⟩
abbrev cc17_stg2_0 : Ref sig .tc := ⟨.vmem, 185, rfl⟩
abbrev cc17_stg3_0 : Ref sig .tc := ⟨.vmem, 186, rfl⟩
abbrev cc17_stg4_0 : Ref sig .tc := ⟨.vmem, 187, rfl⟩
abbrev cc17_stg5_0 : Ref sig .tc := ⟨.vmem, 188, rfl⟩
abbrev cc17_stg6_0 : Ref sig .tc := ⟨.vmem, 189, rfl⟩
abbrev cc17_stg7_0 : Ref sig .tc := ⟨.vmem, 190, rfl⟩
abbrev cc17_stg8_0 : Ref sig .tc := ⟨.vmem, 191, rfl⟩
abbrev cc17_stg9_0 : Ref sig .tc := ⟨.vmem, 192, rfl⟩
abbrev cc17_stg10_0 : Ref sig .tc := ⟨.vmem, 193, rfl⟩
abbrev cc18_stg0_0 : Ref sig .tc := ⟨.vmem, 194, rfl⟩
abbrev cc18_stg1_0 : Ref sig .tc := ⟨.vmem, 195, rfl⟩
abbrev cc18_stg2_0 : Ref sig .tc := ⟨.vmem, 196, rfl⟩
abbrev cc18_stg3_0 : Ref sig .tc := ⟨.vmem, 197, rfl⟩
abbrev cc18_stg4_0 : Ref sig .tc := ⟨.vmem, 198, rfl⟩
abbrev cc18_stg5_0 : Ref sig .tc := ⟨.vmem, 199, rfl⟩
abbrev cc18_stg6_0 : Ref sig .tc := ⟨.vmem, 200, rfl⟩
abbrev cc18_stg7_0 : Ref sig .tc := ⟨.vmem, 201, rfl⟩
abbrev cc18_stg8_0 : Ref sig .tc := ⟨.vmem, 202, rfl⟩
abbrev cc18_stg9_0 : Ref sig .tc := ⟨.vmem, 203, rfl⟩
abbrev cc18_stg10_0 : Ref sig .tc := ⟨.vmem, 204, rfl⟩
abbrev cc19_stg0_0 : Ref sig .tc := ⟨.vmem, 205, rfl⟩
abbrev cc19_stg1_0 : Ref sig .tc := ⟨.vmem, 206, rfl⟩
abbrev cc19_stg2_0 : Ref sig .tc := ⟨.vmem, 207, rfl⟩
abbrev cc19_stg3_0 : Ref sig .tc := ⟨.vmem, 208, rfl⟩
abbrev cc19_stg4_0 : Ref sig .tc := ⟨.vmem, 209, rfl⟩
abbrev cc19_stg5_0 : Ref sig .tc := ⟨.vmem, 210, rfl⟩
abbrev cc19_stg6_0 : Ref sig .tc := ⟨.vmem, 211, rfl⟩
abbrev cc19_stg7_0 : Ref sig .tc := ⟨.vmem, 212, rfl⟩
abbrev cc19_stg8_0 : Ref sig .tc := ⟨.vmem, 213, rfl⟩
abbrev cc19_stg9_0 : Ref sig .tc := ⟨.vmem, 214, rfl⟩
abbrev cc19_stg10_0 : Ref sig .tc := ⟨.vmem, 215, rfl⟩
abbrev cc20_stg0_0 : Ref sig .tc := ⟨.vmem, 216, rfl⟩
abbrev cc20_stg1_0 : Ref sig .tc := ⟨.vmem, 217, rfl⟩
abbrev cc20_stg2_0 : Ref sig .tc := ⟨.vmem, 218, rfl⟩
abbrev cc20_stg3_0 : Ref sig .tc := ⟨.vmem, 219, rfl⟩
abbrev cc20_stg4_0 : Ref sig .tc := ⟨.vmem, 220, rfl⟩
abbrev cc20_stg5_0 : Ref sig .tc := ⟨.vmem, 221, rfl⟩
abbrev cc20_stg6_0 : Ref sig .tc := ⟨.vmem, 222, rfl⟩
abbrev cc20_stg7_0 : Ref sig .tc := ⟨.vmem, 223, rfl⟩
abbrev cc20_stg8_0 : Ref sig .tc := ⟨.vmem, 224, rfl⟩
abbrev cc20_stg9_0 : Ref sig .tc := ⟨.vmem, 225, rfl⟩
abbrev cc20_stg10_0 : Ref sig .tc := ⟨.vmem, 226, rfl⟩
abbrev cc21_stg0_0 : Ref sig .tc := ⟨.vmem, 227, rfl⟩
abbrev cc21_stg1_0 : Ref sig .tc := ⟨.vmem, 228, rfl⟩
abbrev cc21_stg2_0 : Ref sig .tc := ⟨.vmem, 229, rfl⟩
abbrev cc21_stg3_0 : Ref sig .tc := ⟨.vmem, 230, rfl⟩
abbrev cc21_stg4_0 : Ref sig .tc := ⟨.vmem, 231, rfl⟩
abbrev cc21_stg5_0 : Ref sig .tc := ⟨.vmem, 232, rfl⟩
abbrev cc21_stg6_0 : Ref sig .tc := ⟨.vmem, 233, rfl⟩
abbrev cc21_stg7_0 : Ref sig .tc := ⟨.vmem, 234, rfl⟩
abbrev cc21_stg8_0 : Ref sig .tc := ⟨.vmem, 235, rfl⟩
abbrev cc21_stg9_0 : Ref sig .tc := ⟨.vmem, 236, rfl⟩
abbrev cc22_stg0_0 : Ref sig .tc := ⟨.vmem, 237, rfl⟩
abbrev cc22_stg1_0 : Ref sig .tc := ⟨.vmem, 238, rfl⟩
abbrev cc22_stg2_0 : Ref sig .tc := ⟨.vmem, 239, rfl⟩
abbrev cc22_stg3_0 : Ref sig .tc := ⟨.vmem, 240, rfl⟩
abbrev cc22_stg4_0 : Ref sig .tc := ⟨.vmem, 241, rfl⟩
abbrev cc22_stg5_0 : Ref sig .tc := ⟨.vmem, 242, rfl⟩
abbrev cc22_stg6_0 : Ref sig .tc := ⟨.vmem, 243, rfl⟩
abbrev cc22_stg7_0 : Ref sig .tc := ⟨.vmem, 244, rfl⟩
abbrev cc22_stg8_0 : Ref sig .tc := ⟨.vmem, 245, rfl⟩
abbrev cc22_stg9_0 : Ref sig .tc := ⟨.vmem, 246, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc3_sem0_0 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc4_sem0_0 : DmaSem sig := 40
abbrev cc4_sem1_0 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem8_0 : DmaSem sig := 48
abbrev cc4_sem9_0 : DmaSem sig := 49
abbrev cc4_sem10_0 : DmaSem sig := 50
abbrev cc5_sem0_0 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem8_0 : DmaSem sig := 59
abbrev cc5_sem9_0 : DmaSem sig := 60
abbrev cc5_sem10_0 : DmaSem sig := 61
abbrev cc6_sem0_0 : DmaSem sig := 62
abbrev cc6_sem1_0 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem7_0 : DmaSem sig := 69
abbrev cc6_sem8_0 : DmaSem sig := 70
abbrev cc6_sem9_0 : DmaSem sig := 71
abbrev cc6_sem10_0 : DmaSem sig := 72
abbrev cc7_sem0_0 : DmaSem sig := 73
abbrev cc7_sem1_0 : DmaSem sig := 74
abbrev cc7_sem2_0 : DmaSem sig := 75
abbrev cc7_sem3_0 : DmaSem sig := 76
abbrev cc7_sem4_0 : DmaSem sig := 77
abbrev cc7_sem5_0 : DmaSem sig := 78
abbrev cc7_sem6_0 : DmaSem sig := 79
abbrev cc7_sem7_0 : DmaSem sig := 80
abbrev cc7_sem8_0 : DmaSem sig := 81
abbrev cc7_sem9_0 : DmaSem sig := 82
abbrev cc7_sem10_0 : DmaSem sig := 83
abbrev cc8_sem0_0 : DmaSem sig := 84
abbrev cc8_sem1_0 : DmaSem sig := 85
abbrev cc8_sem2_0 : DmaSem sig := 86
abbrev cc8_sem3_0 : DmaSem sig := 87
abbrev cc8_sem4_0 : DmaSem sig := 88
abbrev cc8_sem5_0 : DmaSem sig := 89
abbrev cc8_sem6_0 : DmaSem sig := 90
abbrev cc8_sem7_0 : DmaSem sig := 91
abbrev cc8_sem8_0 : DmaSem sig := 92
abbrev cc8_sem9_0 : DmaSem sig := 93
abbrev cc8_sem10_0 : DmaSem sig := 94
abbrev cc9_sem0_0 : DmaSem sig := 95
abbrev cc9_sem1_0 : DmaSem sig := 96
abbrev cc9_sem2_0 : DmaSem sig := 97
abbrev cc9_sem3_0 : DmaSem sig := 98
abbrev cc9_sem4_0 : DmaSem sig := 99
abbrev cc9_sem5_0 : DmaSem sig := 100
abbrev cc9_sem6_0 : DmaSem sig := 101
abbrev cc9_sem7_0 : DmaSem sig := 102
abbrev cc9_sem8_0 : DmaSem sig := 103
abbrev cc9_sem9_0 : DmaSem sig := 104
abbrev cc9_sem10_0 : DmaSem sig := 105
abbrev cc10_sem0_0 : DmaSem sig := 106
abbrev cc10_sem1_0 : DmaSem sig := 107
abbrev cc10_sem2_0 : DmaSem sig := 108
abbrev cc10_sem3_0 : DmaSem sig := 109
abbrev cc10_sem4_0 : DmaSem sig := 110
abbrev cc10_sem5_0 : DmaSem sig := 111
abbrev cc10_sem6_0 : DmaSem sig := 112
abbrev cc10_sem7_0 : DmaSem sig := 113
abbrev cc10_sem8_0 : DmaSem sig := 114
abbrev cc10_sem9_0 : DmaSem sig := 115
abbrev cc10_sem10_0 : DmaSem sig := 116
abbrev cc11_sem0_0 : DmaSem sig := 117
abbrev cc11_sem1_0 : DmaSem sig := 118
abbrev cc11_sem2_0 : DmaSem sig := 119
abbrev cc11_sem3_0 : DmaSem sig := 120
abbrev cc11_sem4_0 : DmaSem sig := 121
abbrev cc11_sem5_0 : DmaSem sig := 122
abbrev cc11_sem6_0 : DmaSem sig := 123
abbrev cc11_sem7_0 : DmaSem sig := 124
abbrev cc11_sem8_0 : DmaSem sig := 125
abbrev cc11_sem9_0 : DmaSem sig := 126
abbrev cc11_sem10_0 : DmaSem sig := 127
abbrev cc12_sem0_0 : DmaSem sig := 128
abbrev cc12_sem1_0 : DmaSem sig := 129
abbrev cc12_sem2_0 : DmaSem sig := 130
abbrev cc12_sem3_0 : DmaSem sig := 131
abbrev cc12_sem4_0 : DmaSem sig := 132
abbrev cc12_sem5_0 : DmaSem sig := 133
abbrev cc12_sem6_0 : DmaSem sig := 134
abbrev cc12_sem7_0 : DmaSem sig := 135
abbrev cc12_sem8_0 : DmaSem sig := 136
abbrev cc12_sem9_0 : DmaSem sig := 137
abbrev cc12_sem10_0 : DmaSem sig := 138
abbrev cc13_sem0_0 : DmaSem sig := 139
abbrev cc13_sem1_0 : DmaSem sig := 140
abbrev cc13_sem2_0 : DmaSem sig := 141
abbrev cc13_sem3_0 : DmaSem sig := 142
abbrev cc13_sem4_0 : DmaSem sig := 143
abbrev cc13_sem5_0 : DmaSem sig := 144
abbrev cc13_sem6_0 : DmaSem sig := 145
abbrev cc13_sem7_0 : DmaSem sig := 146
abbrev cc13_sem8_0 : DmaSem sig := 147
abbrev cc13_sem9_0 : DmaSem sig := 148
abbrev cc13_sem10_0 : DmaSem sig := 149
abbrev cc14_sem0_0 : DmaSem sig := 150
abbrev cc14_sem1_0 : DmaSem sig := 151
abbrev cc14_sem2_0 : DmaSem sig := 152
abbrev cc14_sem3_0 : DmaSem sig := 153
abbrev cc14_sem4_0 : DmaSem sig := 154
abbrev cc14_sem5_0 : DmaSem sig := 155
abbrev cc14_sem6_0 : DmaSem sig := 156
abbrev cc14_sem7_0 : DmaSem sig := 157
abbrev cc14_sem8_0 : DmaSem sig := 158
abbrev cc14_sem9_0 : DmaSem sig := 159
abbrev cc14_sem10_0 : DmaSem sig := 160
abbrev cc15_sem0_0 : DmaSem sig := 161
abbrev cc15_sem1_0 : DmaSem sig := 162
abbrev cc15_sem2_0 : DmaSem sig := 163
abbrev cc15_sem3_0 : DmaSem sig := 164
abbrev cc15_sem4_0 : DmaSem sig := 165
abbrev cc15_sem5_0 : DmaSem sig := 166
abbrev cc15_sem6_0 : DmaSem sig := 167
abbrev cc15_sem7_0 : DmaSem sig := 168
abbrev cc15_sem8_0 : DmaSem sig := 169
abbrev cc15_sem9_0 : DmaSem sig := 170
abbrev cc15_sem10_0 : DmaSem sig := 171
abbrev cc16_sem0_0 : DmaSem sig := 172
abbrev cc16_sem1_0 : DmaSem sig := 173
abbrev cc16_sem2_0 : DmaSem sig := 174
abbrev cc16_sem3_0 : DmaSem sig := 175
abbrev cc16_sem4_0 : DmaSem sig := 176
abbrev cc16_sem5_0 : DmaSem sig := 177
abbrev cc16_sem6_0 : DmaSem sig := 178
abbrev cc16_sem7_0 : DmaSem sig := 179
abbrev cc16_sem8_0 : DmaSem sig := 180
abbrev cc16_sem9_0 : DmaSem sig := 181
abbrev cc16_sem10_0 : DmaSem sig := 182
abbrev cc17_sem0_0 : DmaSem sig := 183
abbrev cc17_sem1_0 : DmaSem sig := 184
abbrev cc17_sem2_0 : DmaSem sig := 185
abbrev cc17_sem3_0 : DmaSem sig := 186
abbrev cc17_sem4_0 : DmaSem sig := 187
abbrev cc17_sem5_0 : DmaSem sig := 188
abbrev cc17_sem6_0 : DmaSem sig := 189
abbrev cc17_sem7_0 : DmaSem sig := 190
abbrev cc17_sem8_0 : DmaSem sig := 191
abbrev cc17_sem9_0 : DmaSem sig := 192
abbrev cc17_sem10_0 : DmaSem sig := 193
abbrev cc18_sem0_0 : DmaSem sig := 194
abbrev cc18_sem1_0 : DmaSem sig := 195
abbrev cc18_sem2_0 : DmaSem sig := 196
abbrev cc18_sem3_0 : DmaSem sig := 197
abbrev cc18_sem4_0 : DmaSem sig := 198
abbrev cc18_sem5_0 : DmaSem sig := 199
abbrev cc18_sem6_0 : DmaSem sig := 200
abbrev cc18_sem7_0 : DmaSem sig := 201
abbrev cc18_sem8_0 : DmaSem sig := 202
abbrev cc18_sem9_0 : DmaSem sig := 203
abbrev cc18_sem10_0 : DmaSem sig := 204
abbrev cc19_sem0_0 : DmaSem sig := 205
abbrev cc19_sem1_0 : DmaSem sig := 206
abbrev cc19_sem2_0 : DmaSem sig := 207
abbrev cc19_sem3_0 : DmaSem sig := 208
abbrev cc19_sem4_0 : DmaSem sig := 209
abbrev cc19_sem5_0 : DmaSem sig := 210
abbrev cc19_sem6_0 : DmaSem sig := 211
abbrev cc19_sem7_0 : DmaSem sig := 212
abbrev cc19_sem8_0 : DmaSem sig := 213
abbrev cc19_sem9_0 : DmaSem sig := 214
abbrev cc19_sem10_0 : DmaSem sig := 215
abbrev cc20_sem0_0 : DmaSem sig := 216
abbrev cc20_sem1_0 : DmaSem sig := 217
abbrev cc20_sem2_0 : DmaSem sig := 218
abbrev cc20_sem3_0 : DmaSem sig := 219
abbrev cc20_sem4_0 : DmaSem sig := 220
abbrev cc20_sem5_0 : DmaSem sig := 221
abbrev cc20_sem6_0 : DmaSem sig := 222
abbrev cc20_sem7_0 : DmaSem sig := 223
abbrev cc20_sem8_0 : DmaSem sig := 224
abbrev cc20_sem9_0 : DmaSem sig := 225
abbrev cc20_sem10_0 : DmaSem sig := 226
abbrev cc21_sem0_0 : DmaSem sig := 227
abbrev cc21_sem1_0 : DmaSem sig := 228
abbrev cc21_sem2_0 : DmaSem sig := 229
abbrev cc21_sem3_0 : DmaSem sig := 230
abbrev cc21_sem4_0 : DmaSem sig := 231
abbrev cc21_sem5_0 : DmaSem sig := 232
abbrev cc21_sem6_0 : DmaSem sig := 233
abbrev cc21_sem7_0 : DmaSem sig := 234
abbrev cc21_sem8_0 : DmaSem sig := 235
abbrev cc21_sem9_0 : DmaSem sig := 236
abbrev cc22_sem0_0 : DmaSem sig := 237
abbrev cc22_sem1_0 : DmaSem sig := 238
abbrev cc22_sem2_0 : DmaSem sig := 239
abbrev cc22_sem3_0 : DmaSem sig := 240
abbrev cc22_sem4_0 : DmaSem sig := 241
abbrev cc22_sem5_0 : DmaSem sig := 242
abbrev cc22_sem6_0 : DmaSem sig := 243
abbrev cc22_sem7_0 : DmaSem sig := 244
abbrev cc22_sem8_0 : DmaSem sig := 245
abbrev cc22_sem9_0 : DmaSem sig := 246

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := .none

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1024x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1024x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1024x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1024x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S1024x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S1024x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1024x512 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev grid2 : Pipeline.Grid := .none

abbrev stage2_0 : Fin 1 → Memref sig .tc .vmem S1024x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1024x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1024x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1024x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1024x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S1024x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S1024x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S1024x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S1024x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev grid3 : Pipeline.Grid := .none

abbrev stage3_0 : Fin 1 → Memref sig .tc .vmem S1024x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1024x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1024x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1024x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1024x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1024x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1024x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S1024x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1024x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev stage3_9 : Fin 1 → Memref sig .tc .vmem S1024x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))

abbrev stage3_10 : Fin 1 → Memref sig .tc .vmem S1024x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))

abbrev grid4 : Pipeline.Grid := .none

abbrev stage4_0 : Fin 1 → Memref sig .tc .vmem S1024x1024 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S1024x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S1024x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev stage4_4 : Fin 1 → Memref sig .tc .vmem S1024x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))

abbrev stage4_5 : Fin 1 → Memref sig .tc .vmem S1024x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))

abbrev stage4_6 : Fin 1 → Memref sig .tc .vmem S1024x1024 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))

abbrev stage4_7 : Fin 1 → Memref sig .tc .vmem S1024x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))

abbrev stage4_8 : Fin 1 → Memref sig .tc .vmem S1024x1024 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))

abbrev stage4_9 : Fin 1 → Memref sig .tc .vmem S1024x1024 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))

abbrev stage4_10 : Fin 1 → Memref sig .tc .vmem S1024x512 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))

abbrev grid5 : Pipeline.Grid := .none

abbrev stage5_0 : Fin 1 → Memref sig .tc .vmem S1024x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S1024x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))

abbrev stage5_2 : Fin 1 → Memref sig .tc .vmem S1024x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))

abbrev stage5_3 : Fin 1 → Memref sig .tc .vmem S1024x512 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))

abbrev stage5_4 : Fin 1 → Memref sig .tc .vmem S1024x512 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))

abbrev stage5_5 : Fin 1 → Memref sig .tc .vmem S1024x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))

abbrev stage5_6 : Fin 1 → Memref sig .tc .vmem S1024x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))

abbrev stage5_7 : Fin 1 → Memref sig .tc .vmem S1024x512 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))

abbrev stage5_8 : Fin 1 → Memref sig .tc .vmem S1024x1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))

abbrev stage5_9 : Fin 1 → Memref sig .tc .vmem S1024x1024 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))

abbrev stage5_10 : Fin 1 → Memref sig .tc .vmem S1024x512 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))

abbrev grid6 : Pipeline.Grid := .none

abbrev stage6_0 : Fin 1 → Memref sig .tc .vmem S1024x1024 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))

abbrev stage6_1 : Fin 1 → Memref sig .tc .vmem S1024x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))

abbrev stage6_2 : Fin 1 → Memref sig .tc .vmem S1024x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))

abbrev stage6_3 : Fin 1 → Memref sig .tc .vmem S1024x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))

abbrev stage6_4 : Fin 1 → Memref sig .tc .vmem S1024x512 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))

abbrev stage6_5 : Fin 1 → Memref sig .tc .vmem S1024x1024 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))

abbrev stage6_6 : Fin 1 → Memref sig .tc .vmem S1024x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))

abbrev stage6_7 : Fin 1 → Memref sig .tc .vmem S1024x512 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))

abbrev stage6_8 : Fin 1 → Memref sig .tc .vmem S1024x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))

abbrev stage6_9 : Fin 1 → Memref sig .tc .vmem S1024x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))

abbrev stage6_10 : Fin 1 → Memref sig .tc .vmem S1024x512 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))

abbrev grid7 : Pipeline.Grid := .none

abbrev stage7_0 : Fin 1 → Memref sig .tc .vmem S1024x1024 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S1024x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S1024x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S1024x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S1024x512 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S1024x1024 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S1024x1024 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev stage7_7 : Fin 1 → Memref sig .tc .vmem S1024x512 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))

abbrev stage7_8 : Fin 1 → Memref sig .tc .vmem S1024x1024 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))

abbrev stage7_9 : Fin 1 → Memref sig .tc .vmem S1024x1024 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))

abbrev stage7_10 : Fin 1 → Memref sig .tc .vmem S1024x512 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))

abbrev grid8 : Pipeline.Grid := .none

abbrev stage8_0 : Fin 1 → Memref sig .tc .vmem S1024x1024 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))

abbrev stage8_1 : Fin 1 → Memref sig .tc .vmem S1024x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))

abbrev stage8_2 : Fin 1 → Memref sig .tc .vmem S1024x1024 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))

abbrev stage8_3 : Fin 1 → Memref sig .tc .vmem S1024x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))

abbrev stage8_4 : Fin 1 → Memref sig .tc .vmem S1024x512 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))

abbrev stage8_5 : Fin 1 → Memref sig .tc .vmem S1024x1024 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))

abbrev stage8_6 : Fin 1 → Memref sig .tc .vmem S1024x1024 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))

abbrev stage8_7 : Fin 1 → Memref sig .tc .vmem S1024x512 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))

abbrev stage8_8 : Fin 1 → Memref sig .tc .vmem S1024x1024 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))

abbrev stage8_9 : Fin 1 → Memref sig .tc .vmem S1024x1024 .f32 := fun | 0 => Memref.whole cc8_stg9_0 | ⟨_ + 1, h⟩ => absurd h (Nat.not_lt.2 (Nat.le_add_left _ _))
abbrev sem8_9 : Fin 1 → DmaSem sig := fun | 0 => cc8_sem9_0 | ⟨_ + 1, h⟩ => absurd h (Nat.not_lt.2 (Nat.le_add_left _ _))

abbrev stage8_10 : Fin 1 → Memref sig .tc .vmem S1024x512 .f32 := fun | 0 => Memref.whole cc8_stg10_0 | ⟨_ + 1, h⟩ => absurd h (Nat.not_lt.2 (Nat.le_add_left _ _))
abbrev sem8_10 : Fin 1 → DmaSem sig := fun | 0 => cc8_sem10_0 | ⟨_ + 1, h⟩ => absurd h (Nat.not_lt.2 (Nat.le_add_left _ _))

abbrev grid9 : Pipeline.Grid := .none

abbrev stage9_0 : Fin 1 → Memref sig .tc .vmem S1024x1024 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))

abbrev stage9_1 : Fin 1 → Memref sig .tc .vmem S1024x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))

abbrev stage9_2 : Fin 1 → Memref sig .tc .vmem S1024x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))

abbrev stage9_3 : Fin 1 → Memref sig .tc .vmem S1024x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))

abbrev stage9_4 : Fin 1 → Memref sig .tc .vmem S1024x512 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))

abbrev stage9_5 : Fin 1 → Memref sig .tc .vmem S1024x1024 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))

abbrev stage9_6 : Fin 1 → Memref sig .tc .vmem S1024x1024 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))

abbrev stage9_7 : Fin 1 → Memref sig .tc .vmem S1024x512 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))

abbrev stage9_8 : Fin 1 → Memref sig .tc .vmem S1024x1024 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))

abbrev stage9_9 : Fin 1 → Memref sig .tc .vmem S1024x1024 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))

abbrev stage9_10 : Fin 1 → Memref sig .tc .vmem S1024x512 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))

abbrev grid10 : Pipeline.Grid := .none

abbrev stage10_0 : Fin 1 → Memref sig .tc .vmem S1024x1024 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))

abbrev stage10_1 : Fin 1 → Memref sig .tc .vmem S1024x1024 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))

abbrev stage10_2 : Fin 1 → Memref sig .tc .vmem S1024x1024 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))

abbrev stage10_3 : Fin 1 → Memref sig .tc .vmem S1024x512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))

abbrev stage10_4 : Fin 1 → Memref sig .tc .vmem S1024x512 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))

abbrev stage10_5 : Fin 1 → Memref sig .tc .vmem S1024x1024 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))

abbrev stage10_6 : Fin 1 → Memref sig .tc .vmem S1024x1024 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))

abbrev stage10_7 : Fin 1 → Memref sig .tc .vmem S1024x512 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))

abbrev stage10_8 : Fin 1 → Memref sig .tc .vmem S1024x1024 .f32 := fun | 0 => Memref.whole cc10_stg8_0 | ⟨_ + 1, h⟩ => absurd h (Nat.not_lt.2 (Nat.le_add_left _ _))
abbrev sem10_8 : Fin 1 → DmaSem sig := fun | 0 => cc10_sem8_0 | ⟨_ + 1, h⟩ => absurd h (Nat.not_lt.2 (Nat.le_add_left _ _))

abbrev stage10_9 : Fin 1 → Memref sig .tc .vmem S1024x1024 .f32 := fun | 0 => Memref.whole cc10_stg9_0 | ⟨_ + 1, h⟩ => absurd h (Nat.not_lt.2 (Nat.le_add_left _ _))
abbrev sem10_9 : Fin 1 → DmaSem sig := fun | 0 => cc10_sem9_0 | ⟨_ + 1, h⟩ => absurd h (Nat.not_lt.2 (Nat.le_add_left _ _))

abbrev stage10_10 : Fin 1 → Memref sig .tc .vmem S1024x512 .f32 := fun | 0 => Memref.whole cc10_stg10_0 | ⟨_ + 1, h⟩ => absurd h (Nat.not_lt.2 (Nat.le_add_left _ _))
abbrev sem10_10 : Fin 1 → DmaSem sig := fun | 0 => cc10_sem10_0 | ⟨_ + 1, h⟩ => absurd h (Nat.not_lt.2 (Nat.le_add_left _ _))

abbrev grid11 : Pipeline.Grid := .none

abbrev stage11_0 : Fin 1 → Memref sig .tc .vmem S1024x1024 .f32 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))

abbrev stage11_1 : Fin 1 → Memref sig .tc .vmem S1024x1024 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))

abbrev stage11_2 : Fin 1 → Memref sig .tc .vmem S1024x1024 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))

abbrev stage11_3 : Fin 1 → Memref sig .tc .vmem S1024x512 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))

abbrev stage11_4 : Fin 1 → Memref sig .tc .vmem S1024x512 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))

abbrev stage11_5 : Fin 1 → Memref sig .tc .vmem S1024x1024 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))

abbrev stage11_6 : Fin 1 → Memref sig .tc .vmem S1024x1024 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))

abbrev stage11_7 : Fin 1 → Memref sig .tc .vmem S1024x512 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))

abbrev stage11_8 : Fin 1 → Memref sig .tc .vmem S1024x1024 .f32 := fun | 0 => Memref.whole cc11_stg8_0 | ⟨_ + 1, h⟩ => absurd h (Nat.not_lt.2 (Nat.le_add_left _ _))
abbrev sem11_8 : Fin 1 → DmaSem sig := fun | 0 => cc11_sem8_0 | ⟨_ + 1, h⟩ => absurd h (Nat.not_lt.2 (Nat.le_add_left _ _))

abbrev stage11_9 : Fin 1 → Memref sig .tc .vmem S1024x1024 .f32 := fun | 0 => Memref.whole cc11_stg9_0 | ⟨_ + 1, h⟩ => absurd h (Nat.not_lt.2 (Nat.le_add_left _ _))
abbrev sem11_9 : Fin 1 → DmaSem sig := fun | 0 => cc11_sem9_0 | ⟨_ + 1, h⟩ => absurd h (Nat.not_lt.2 (Nat.le_add_left _ _))

abbrev stage11_10 : Fin 1 → Memref sig .tc .vmem S1024x512 .f32 := fun | 0 => Memref.whole cc11_stg10_0 | ⟨_ + 1, h⟩ => absurd h (Nat.not_lt.2 (Nat.le_add_left _ _))
abbrev sem11_10 : Fin 1 → DmaSem sig := fun | 0 => cc11_sem10_0 | ⟨_ + 1, h⟩ => absurd h (Nat.not_lt.2 (Nat.le_add_left _ _))

abbrev grid12 : Pipeline.Grid := .none

abbrev stage12_0 : Fin 1 → Memref sig .tc .vmem S1024x1024 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))

abbrev stage12_1 : Fin 1 → Memref sig .tc .vmem S1024x1024 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))

abbrev stage12_2 : Fin 1 → Memref sig .tc .vmem S1024x1024 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))

abbrev stage12_3 : Fin 1 → Memref sig .tc .vmem S1024x512 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))

abbrev stage12_4 : Fin 1 → Memref sig .tc .vmem S1024x512 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))

abbrev stage12_5 : Fin 1 → Memref sig .tc .vmem S1024x1024 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))

abbrev stage12_6 : Fin 1 → Memref sig .tc .vmem S1024x1024 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))

abbrev stage12_7 : Fin 1 → Memref sig .tc .vmem S1024x512 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))

abbrev stage12_8 : Fin 1 → Memref sig .tc .vmem S1024x1024 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))

abbrev stage12_9 : Fin 1 → Memref sig .tc .vmem S1024x1024 .f32 := fun | 0 => Memref.whole cc12_stg9_0 | ⟨_ + 1, h⟩ => absurd h (Nat.not_lt.2 (Nat.le_add_left _ _))
abbrev sem12_9 : Fin 1 → DmaSem sig := fun | 0 => cc12_sem9_0 | ⟨_ + 1, h⟩ => absurd h (Nat.not_lt.2 (Nat.le_add_left _ _))

abbrev stage12_10 : Fin 1 → Memref sig .tc .vmem S1024x512 .f32 := fun | 0 => Memref.whole cc12_stg10_0 | ⟨_ + 1, h⟩ => absurd h (Nat.not_lt.2 (Nat.le_add_left _ _))
abbrev sem12_10 : Fin 1 → DmaSem sig := fun | 0 => cc12_sem10_0 | ⟨_ + 1, h⟩ => absurd h (Nat.not_lt.2 (Nat.le_add_left _ _))

abbrev grid13 : Pipeline.Grid := .none

abbrev stage13_0 : Fin 1 → Memref sig .tc .vmem S1024x1024 .f32 := fun | 0 => Memref.whole cc13_stg0_0 | ⟨_ + 1, h⟩ => absurd h (Nat.not_lt.2 (Nat.le_add_left _ _))
abbrev sem13_0 : Fin 1 → DmaSem sig := fun | 0 => cc13_sem0_0 | ⟨_ + 1, h⟩ => absurd h (Nat.not_lt.2 (Nat.le_add_left _ _))

abbrev stage13_1 : Fin 1 → Memref sig .tc .vmem S1024x1024 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))

abbrev stage13_2 : Fin 1 → Memref sig .tc .vmem S1024x1024 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))

abbrev stage13_3 : Fin 1 → Memref sig .tc .vmem S1024x512 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))

abbrev stage13_4 : Fin 1 → Memref sig .tc .vmem S1024x512 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))

abbrev stage13_5 : Fin 1 → Memref sig .tc .vmem S1024x1024 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))

abbrev stage13_6 : Fin 1 → Memref sig .tc .vmem S1024x1024 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))

abbrev stage13_7 : Fin 1 → Memref sig .tc .vmem S1024x512 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))

abbrev stage13_8 : Fin 1 → Memref sig .tc .vmem S1024x1024 .f32 := fun | 0 => Memref.whole cc13_stg8_0 | ⟨_ + 1, h⟩ => absurd h (Nat.not_lt.2 (Nat.le_add_left _ _))
abbrev sem13_8 : Fin 1 → DmaSem sig := fun | 0 => cc13_sem8_0 | ⟨_ + 1, h⟩ => absurd h (Nat.not_lt.2 (Nat.le_add_left _ _))

abbrev stage13_9 : Fin 1 → Memref sig .tc .vmem S1024x1024 .f32 := fun | 0 => Memref.whole cc13_stg9_0 | ⟨_ + 1, h⟩ => absurd h (Nat.not_lt.2 (Nat.le_add_left _ _))
abbrev sem13_9 : Fin 1 → DmaSem sig := fun | 0 => cc13_sem9_0 | ⟨_ + 1, h⟩ => absurd h (Nat.not_lt.2 (Nat.le_add_left _ _))

abbrev stage13_10 : Fin 1 → Memref sig .tc .vmem S1024x512 .f32 := fun | 0 => Memref.whole cc13_stg10_0 | ⟨_ + 1, h⟩ => absurd h (Nat.not_lt.2 (Nat.le_add_left _ _))
abbrev sem13_10 : Fin 1 → DmaSem sig := fun | 0 => cc13_sem10_0 | ⟨_ + 1, h⟩ => absurd h (Nat.not_lt.2 (Nat.le_add_left _ _))

abbrev grid14 : Pipeline.Grid := .none

abbrev stage14_0 : Fin 1 → Memref sig .tc .vmem S1024x1024 .f32 := fun | 0 => Memref.whole cc14_stg0_0 | ⟨_ + 1, h⟩ => absurd h (Nat.not_lt.2 (Nat.le_add_left _ _))
abbrev sem14_0 : Fin 1 → DmaSem sig := fun | 0 => cc14_sem0_0 | ⟨_ + 1, h⟩ => absurd h (Nat.not_lt.2 (Nat.le_add_left _ _))

abbrev stage14_1 : Fin 1 → Memref sig .tc .vmem S1024x1024 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))

abbrev stage14_2 : Fin 1 → Memref sig .tc .vmem S1024x1024 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))

abbrev stage14_3 : Fin 1 → Memref sig .tc .vmem S1024x512 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))

abbrev stage14_4 : Fin 1 → Memref sig .tc .vmem S1024x512 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))

abbrev stage14_5 : Fin 1 → Memref sig .tc .vmem S1024x1024 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))

abbrev stage14_6 : Fin 1 → Memref sig .tc .vmem S1024x1024 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))

abbrev stage14_7 : Fin 1 → Memref sig .tc .vmem S1024x512 .f32 := fun | 0 => Memref.whole cc14_stg7_0 | ⟨_ + 1, h⟩ => absurd h (Nat.not_lt.2 (Nat.le_add_left _ _))
abbrev sem14_7 : Fin 1 → DmaSem sig := fun | 0 => cc14_sem7_0 | ⟨_ + 1, h⟩ => absurd h (Nat.not_lt.2 (Nat.le_add_left _ _))

abbrev stage14_8 : Fin 1 → Memref sig .tc .vmem S1024x1024 .f32 := fun | 0 => Memref.whole cc14_stg8_0 | ⟨_ + 1, h⟩ => absurd h (Nat.not_lt.2 (Nat.le_add_left _ _))
abbrev sem14_8 : Fin 1 → DmaSem sig := fun | 0 => cc14_sem8_0 | ⟨_ + 1, h⟩ => absurd h (Nat.not_lt.2 (Nat.le_add_left _ _))

abbrev stage14_9 : Fin 1 → Memref sig .tc .vmem S1024x1024 .f32 := fun | 0 => Memref.whole cc14_stg9_0 | ⟨_ + 1, h⟩ => absurd h (Nat.not_lt.2 (Nat.le_add_left _ _))
abbrev sem14_9 : Fin 1 → DmaSem sig := fun | 0 => cc14_sem9_0 | ⟨_ + 1, h⟩ => absurd h (Nat.not_lt.2 (Nat.le_add_left _ _))

abbrev stage14_10 : Fin 1 → Memref sig .tc .vmem S1024x512 .f32 := fun | 0 => Memref.whole cc14_stg10_0 | ⟨_ + 1, h⟩ => absurd h (Nat.not_lt.2 (Nat.le_add_left _ _))
abbrev sem14_10 : Fin 1 → DmaSem sig := fun | 0 => cc14_sem10_0 | ⟨_ + 1, h⟩ => absurd h (Nat.not_lt.2 (Nat.le_add_left _ _))

abbrev grid15 : Pipeline.Grid := .none

abbrev stage15_0 : Fin 1 → Memref sig .tc .vmem S1024x1024 .f32 := fun | 0 => Memref.whole cc15_stg0_0 | ⟨_ + 1, h⟩ => absurd h (Nat.not_lt.2 (Nat.le_add_left _ _))
abbrev sem15_0 : Fin 1 → DmaSem sig := fun | 0 => cc15_sem0_0 | ⟨_ + 1, h⟩ => absurd h (Nat.not_lt.2 (Nat.le_add_left _ _))

abbrev stage15_1 : Fin 1 → Memref sig .tc .vmem S1024x1024 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))

abbrev stage15_2 : Fin 1 → Memref sig .tc .vmem S1024x1024 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))

abbrev stage15_3 : Fin 1 → Memref sig .tc .vmem S1024x512 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))

abbrev stage15_4 : Fin 1 → Memref sig .tc .vmem S1024x512 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))

abbrev stage15_5 : Fin 1 → Memref sig .tc .vmem S1024x1024 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))

abbrev stage15_6 : Fin 1 → Memref sig .tc .vmem S1024x1024 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))

abbrev stage15_7 : Fin 1 → Memref sig .tc .vmem S1024x512 .f32 := fun | 0 => Memref.whole cc15_stg7_0 | ⟨_ + 1, h⟩ => absurd h (Nat.not_lt.2 (Nat.le_add_left _ _))
abbrev sem15_7 : Fin 1 → DmaSem sig := fun | 0 => cc15_sem7_0 | ⟨_ + 1, h⟩ => absurd h (Nat.not_lt.2 (Nat.le_add_left _ _))

abbrev stage15_8 : Fin 1 → Memref sig .tc .vmem S1024x1024 .f32 := fun | 0 => Memref.whole cc15_stg8_0 | ⟨_ + 1, h⟩ => absurd h (Nat.not_lt.2 (Nat.le_add_left _ _))
abbrev sem15_8 : Fin 1 → DmaSem sig := fun | 0 => cc15_sem8_0 | ⟨_ + 1, h⟩ => absurd h (Nat.not_lt.2 (Nat.le_add_left _ _))

abbrev stage15_9 : Fin 1 → Memref sig .tc .vmem S1024x1024 .f32 := fun | 0 => Memref.whole cc15_stg9_0 | ⟨_ + 1, h⟩ => absurd h (Nat.not_lt.2 (Nat.le_add_left _ _))
abbrev sem15_9 : Fin 1 → DmaSem sig := fun | 0 => cc15_sem9_0 | ⟨_ + 1, h⟩ => absurd h (Nat.not_lt.2 (Nat.le_add_left _ _))

abbrev stage15_10 : Fin 1 → Memref sig .tc .vmem S1024x512 .f32 := fun | 0 => Memref.whole cc15_stg10_0 | ⟨_ + 1, h⟩ => absurd h (Nat.not_lt.2 (Nat.le_add_left _ _))
abbrev sem15_10 : Fin 1 → DmaSem sig := fun | 0 => cc15_sem10_0 | ⟨_ + 1, h⟩ => absurd h (Nat.not_lt.2 (Nat.le_add_left _ _))

abbrev grid16 : Pipeline.Grid := .none

abbrev stage16_0 : Fin 1 → Memref sig .tc .vmem S1024x1024 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))

abbrev stage16_1 : Fin 1 → Memref sig .tc .vmem S1024x1024 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))

abbrev stage16_2 : Fin 1 → Memref sig .tc .vmem S1024x1024 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))

abbrev stage16_3 : Fin 1 → Memref sig .tc .vmem S1024x512 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))

abbrev stage16_4 : Fin 1 → Memref sig .tc .vmem S1024x512 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))

abbrev stage16_5 : Fin 1 → Memref sig .tc .vmem S1024x1024 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))

abbrev stage16_6 : Fin 1 → Memref sig .tc .vmem S1024x1024 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))

abbrev stage16_7 : Fin 1 → Memref sig .tc .vmem S1024x512 .f32 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))

abbrev stage16_8 : Fin 1 → Memref sig .tc .vmem S1024x1024 .f32 := fun | 0 => Memref.whole cc16_stg8_0 | ⟨_ + 1, h⟩ => absurd h (Nat.not_lt.2 (Nat.le_add_left _ _))
abbrev sem16_8 : Fin 1 → DmaSem sig := fun | 0 => cc16_sem8_0 | ⟨_ + 1, h⟩ => absurd h (Nat.not_lt.2 (Nat.le_add_left _ _))

abbrev stage16_9 : Fin 1 → Memref sig .tc .vmem S1024x1024 .f32 := fun | 0 => Memref.whole cc16_stg9_0 | ⟨_ + 1, h⟩ => absurd h (Nat.not_lt.2 (Nat.le_add_left _ _))
abbrev sem16_9 : Fin 1 → DmaSem sig := fun | 0 => cc16_sem9_0 | ⟨_ + 1, h⟩ => absurd h (Nat.not_lt.2 (Nat.le_add_left _ _))

abbrev stage16_10 : Fin 1 → Memref sig .tc .vmem S1024x512 .f32 := fun | 0 => Memref.whole cc16_stg10_0 | ⟨_ + 1, h⟩ => absurd h (Nat.not_lt.2 (Nat.le_add_left _ _))
abbrev sem16_10 : Fin 1 → DmaSem sig := fun | 0 => cc16_sem10_0 | ⟨_ + 1, h⟩ => absurd h (Nat.not_lt.2 (Nat.le_add_left _ _))

abbrev grid17 : Pipeline.Grid := .none

abbrev stage17_0 : Fin 1 → Memref sig .tc .vmem S1024x1024 .f32 := fun | 0 => Memref.whole cc17_stg0_0 | ⟨_ + 1, h⟩ => absurd h (Nat.not_lt.2 (Nat.le_add_left _ _))
abbrev sem17_0 : Fin 1 → DmaSem sig := fun | 0 => cc17_sem0_0 | ⟨_ + 1, h⟩ => absurd h (Nat.not_lt.2 (Nat.le_add_left _ _))

abbrev stage17_1 : Fin 1 → Memref sig .tc .vmem S1024x1024 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))

abbrev stage17_2 : Fin 1 → Memref sig .tc .vmem S1024x1024 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))

abbrev stage17_3 : Fin 1 → Memref sig .tc .vmem S1024x512 .f32 := fun | 0 => Memref.whole cc17_stg3_0 | ⟨_ + 1, h⟩ => absurd h (Nat.not_lt.2 (Nat.le_add_left _ _))
abbrev sem17_3 : Fin 1 → DmaSem sig := fun | 0 => cc17_sem3_0 | ⟨_ + 1, h⟩ => absurd h (Nat.not_lt.2 (Nat.le_add_left _ _))

abbrev stage17_4 : Fin 1 → Memref sig .tc .vmem S1024x512 .f32 := fun | 0 => Memref.whole cc17_stg4_0 | ⟨_ + 1, h⟩ => absurd h (Nat.not_lt.2 (Nat.le_add_left _ _))
abbrev sem17_4 : Fin 1 → DmaSem sig := fun | 0 => cc17_sem4_0 | ⟨_ + 1, h⟩ => absurd h (Nat.not_lt.2 (Nat.le_add_left _ _))

abbrev stage17_5 : Fin 1 → Memref sig .tc .vmem S1024x1024 .f32 := fun | 0 => Memref.whole cc17_stg5_0 | ⟨_ + 1, h⟩ => absurd h (Nat.not_lt.2 (Nat.le_add_left _ _))
abbrev sem17_5 : Fin 1 → DmaSem sig := fun | 0 => cc17_sem5_0 | ⟨_ + 1, h⟩ => absurd h (Nat.not_lt.2 (Nat.le_add_left _ _))

abbrev stage17_6 : Fin 1 → Memref sig .tc .vmem S1024x1024 .f32 := fun | 0 => Memref.whole cc17_stg6_0 | ⟨_ + 1, h⟩ => absurd h (Nat.not_lt.2 (Nat.le_add_left _ _))
abbrev sem17_6 : Fin 1 → DmaSem sig := fun | 0 => cc17_sem6_0 | ⟨_ + 1, h⟩ => absurd h (Nat.not_lt.2 (Nat.le_add_left _ _))

abbrev stage17_7 : Fin 1 → Memref sig .tc .vmem S1024x512 .f32 := fun | 0 => Memref.whole cc17_stg7_0 | ⟨_ + 1, h⟩ => absurd h (Nat.not_lt.2 (Nat.le_add_left _ _))
abbrev sem17_7 : Fin 1 → DmaSem sig := fun | 0 => cc17_sem7_0 | ⟨_ + 1, h⟩ => absurd h (Nat.not_lt.2 (Nat.le_add_left _ _))

abbrev stage17_8 : Fin 1 → Memref sig .tc .vmem S1024x1024 .f32 := fun | 0 => Memref.whole cc17_stg8_0 | ⟨_ + 1, h⟩ => absurd h (Nat.not_lt.2 (Nat.le_add_left _ _))
abbrev sem17_8 : Fin 1 → DmaSem sig := fun | 0 => cc17_sem8_0 | ⟨_ + 1, h⟩ => absurd h (Nat.not_lt.2 (Nat.le_add_left _ _))

abbrev stage17_9 : Fin 1 → Memref sig .tc .vmem S1024x1024 .f32 := fun | 0 => Memref.whole cc17_stg9_0 | ⟨_ + 1, h⟩ => absurd h (Nat.not_lt.2 (Nat.le_add_left _ _))
abbrev sem17_9 : Fin 1 → DmaSem sig := fun | 0 => cc17_sem9_0 | ⟨_ + 1, h⟩ => absurd h (Nat.not_lt.2 (Nat.le_add_left _ _))

abbrev stage17_10 : Fin 1 → Memref sig .tc .vmem S1024x512 .f32 := fun | 0 => Memref.whole cc17_stg10_0 | ⟨_ + 1, h⟩ => absurd h (Nat.not_lt.2 (Nat.le_add_left _ _))
abbrev sem17_10 : Fin 1 → DmaSem sig := fun | 0 => cc17_sem10_0 | ⟨_ + 1, h⟩ => absurd h (Nat.not_lt.2 (Nat.le_add_left _ _))

abbrev grid18 : Pipeline.Grid := .none

abbrev stage18_0 : Fin 1 → Memref sig .tc .vmem S1024x1024 .f32 := fun | 0 => Memref.whole cc18_stg0_0 | ⟨_ + 1, h⟩ => absurd h (Nat.not_lt.2 (Nat.le_add_left _ _))
abbrev sem18_0 : Fin 1 → DmaSem sig := fun | 0 => cc18_sem0_0 | ⟨_ + 1, h⟩ => absurd h (Nat.not_lt.2 (Nat.le_add_left _ _))

abbrev stage18_1 : Fin 1 → Memref sig .tc .vmem S1024x1024 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))

abbrev stage18_2 : Fin 1 → Memref sig .tc .vmem S1024x1024 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))

abbrev stage18_3 : Fin 1 → Memref sig .tc .vmem S1024x512 .f32 := fun | 0 => Memref.whole cc18_stg3_0 | ⟨_ + 1, h⟩ => absurd h (Nat.not_lt.2 (Nat.le_add_left _ _))
abbrev sem18_3 : Fin 1 → DmaSem sig := fun | 0 => cc18_sem3_0 | ⟨_ + 1, h⟩ => absurd h (Nat.not_lt.2 (Nat.le_add_left _ _))

abbrev stage18_4 : Fin 1 → Memref sig .tc .vmem S1024x512 .f32 := fun | 0 => Memref.whole cc18_stg4_0 | ⟨_ + 1, h⟩ => absurd h (Nat.not_lt.2 (Nat.le_add_left _ _))
abbrev sem18_4 : Fin 1 → DmaSem sig := fun | 0 => cc18_sem4_0 | ⟨_ + 1, h⟩ => absurd h (Nat.not_lt.2 (Nat.le_add_left _ _))

abbrev stage18_5 : Fin 1 → Memref sig .tc .vmem S1024x1024 .f32 := fun | 0 => Memref.whole cc18_stg5_0 | ⟨_ + 1, h⟩ => absurd h (Nat.not_lt.2 (Nat.le_add_left _ _))
abbrev sem18_5 : Fin 1 → DmaSem sig := fun | 0 => cc18_sem5_0 | ⟨_ + 1, h⟩ => absurd h (Nat.not_lt.2 (Nat.le_add_left _ _))

abbrev stage18_6 : Fin 1 → Memref sig .tc .vmem S1024x1024 .f32 := fun | 0 => Memref.whole cc18_stg6_0 | ⟨_ + 1, h⟩ => absurd h (Nat.not_lt.2 (Nat.le_add_left _ _))
abbrev sem18_6 : Fin 1 → DmaSem sig := fun | 0 => cc18_sem6_0 | ⟨_ + 1, h⟩ => absurd h (Nat.not_lt.2 (Nat.le_add_left _ _))

abbrev stage18_7 : Fin 1 → Memref sig .tc .vmem S1024x512 .f32 := fun | 0 => Memref.whole cc18_stg7_0 | ⟨_ + 1, h⟩ => absurd h (Nat.not_lt.2 (Nat.le_add_left _ _))
abbrev sem18_7 : Fin 1 → DmaSem sig := fun | 0 => cc18_sem7_0 | ⟨_ + 1, h⟩ => absurd h (Nat.not_lt.2 (Nat.le_add_left _ _))

abbrev stage18_8 : Fin 1 → Memref sig .tc .vmem S1024x1024 .f32 := fun | 0 => Memref.whole cc18_stg8_0 | ⟨_ + 1, h⟩ => absurd h (Nat.not_lt.2 (Nat.le_add_left _ _))
abbrev sem18_8 : Fin 1 → DmaSem sig := fun | 0 => cc18_sem8_0 | ⟨_ + 1, h⟩ => absurd h (Nat.not_lt.2 (Nat.le_add_left _ _))

abbrev stage18_9 : Fin 1 → Memref sig .tc .vmem S1024x1024 .f32 := fun | 0 => Memref.whole cc18_stg9_0 | ⟨_ + 1, h⟩ => absurd h (Nat.not_lt.2 (Nat.le_add_left _ _))
abbrev sem18_9 : Fin 1 → DmaSem sig := fun | 0 => cc18_sem9_0 | ⟨_ + 1, h⟩ => absurd h (Nat.not_lt.2 (Nat.le_add_left _ _))

abbrev stage18_10 : Fin 1 → Memref sig .tc .vmem S1024x512 .f32 := fun | 0 => Memref.whole cc18_stg10_0 | ⟨_ + 1, h⟩ => absurd h (Nat.not_lt.2 (Nat.le_add_left _ _))
abbrev sem18_10 : Fin 1 → DmaSem sig := fun | 0 => cc18_sem10_0 | ⟨_ + 1, h⟩ => absurd h (Nat.not_lt.2 (Nat.le_add_left _ _))

abbrev grid19 : Pipeline.Grid := .none

abbrev stage19_0 : Fin 1 → Memref sig .tc .vmem S1024x1024 .f32 := fun | 0 => Memref.whole cc19_stg0_0 | ⟨_ + 1, h⟩ => absurd h (Nat.not_lt.2 (Nat.le_add_left _ _))
abbrev sem19_0 : Fin 1 → DmaSem sig := fun | 0 => cc19_sem0_0 | ⟨_ + 1, h⟩ => absurd h (Nat.not_lt.2 (Nat.le_add_left _ _))

abbrev stage19_1 : Fin 1 → Memref sig .tc .vmem S1024x1024 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))

abbrev stage19_2 : Fin 1 → Memref sig .tc .vmem S1024x1024 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))

abbrev stage19_3 : Fin 1 → Memref sig .tc .vmem S1024x512 .f32 := fun | 0 => Memref.whole cc19_stg3_0 | ⟨_ + 1, h⟩ => absurd h (Nat.not_lt.2 (Nat.le_add_left _ _))
abbrev sem19_3 : Fin 1 → DmaSem sig := fun | 0 => cc19_sem3_0 | ⟨_ + 1, h⟩ => absurd h (Nat.not_lt.2 (Nat.le_add_left _ _))

abbrev stage19_4 : Fin 1 → Memref sig .tc .vmem S1024x512 .f32 := fun | 0 => Memref.whole cc19_stg4_0 | ⟨_ + 1, h⟩ => absurd h (Nat.not_lt.2 (Nat.le_add_left _ _))
abbrev sem19_4 : Fin 1 → DmaSem sig := fun | 0 => cc19_sem4_0 | ⟨_ + 1, h⟩ => absurd h (Nat.not_lt.2 (Nat.le_add_left _ _))

abbrev stage19_5 : Fin 1 → Memref sig .tc .vmem S1024x1024 .f32 := fun | 0 => Memref.whole cc19_stg5_0 | ⟨_ + 1, h⟩ => absurd h (Nat.not_lt.2 (Nat.le_add_left _ _))
abbrev sem19_5 : Fin 1 → DmaSem sig := fun | 0 => cc19_sem5_0 | ⟨_ + 1, h⟩ => absurd h (Nat.not_lt.2 (Nat.le_add_left _ _))

abbrev stage19_6 : Fin 1 → Memref sig .tc .vmem S1024x1024 .f32 := fun | 0 => Memref.whole cc19_stg6_0 | ⟨_ + 1, h⟩ => absurd h (Nat.not_lt.2 (Nat.le_add_left _ _))
abbrev sem19_6 : Fin 1 → DmaSem sig := fun | 0 => cc19_sem6_0 | ⟨_ + 1, h⟩ => absurd h (Nat.not_lt.2 (Nat.le_add_left _ _))

abbrev stage19_7 : Fin 1 → Memref sig .tc .vmem S1024x512 .f32 := fun | 0 => Memref.whole cc19_stg7_0 | ⟨_ + 1, h⟩ => absurd h (Nat.not_lt.2 (Nat.le_add_left _ _))
abbrev sem19_7 : Fin 1 → DmaSem sig := fun | 0 => cc19_sem7_0 | ⟨_ + 1, h⟩ => absurd h (Nat.not_lt.2 (Nat.le_add_left _ _))

abbrev stage19_8 : Fin 1 → Memref sig .tc .vmem S1024x1024 .f32 := fun | 0 => Memref.whole cc19_stg8_0 | ⟨_ + 1, h⟩ => absurd h (Nat.not_lt.2 (Nat.le_add_left _ _))
abbrev sem19_8 : Fin 1 → DmaSem sig := fun | 0 => cc19_sem8_0 | ⟨_ + 1, h⟩ => absurd h (Nat.not_lt.2 (Nat.le_add_left _ _))

abbrev stage19_9 : Fin 1 → Memref sig .tc .vmem S1024x1024 .f32 := fun | 0 => Memref.whole cc19_stg9_0 | ⟨_ + 1, h⟩ => absurd h (Nat.not_lt.2 (Nat.le_add_left _ _))
abbrev sem19_9 : Fin 1 → DmaSem sig := fun | 0 => cc19_sem9_0 | ⟨_ + 1, h⟩ => absurd h (Nat.not_lt.2 (Nat.le_add_left _ _))

abbrev stage19_10 : Fin 1 → Memref sig .tc .vmem S1024x512 .f32 := fun | 0 => Memref.whole cc19_stg10_0 | ⟨_ + 1, h⟩ => absurd h (Nat.not_lt.2 (Nat.le_add_left _ _))
abbrev sem19_10 : Fin 1 → DmaSem sig := fun | 0 => cc19_sem10_0 | ⟨_ + 1, h⟩ => absurd h (Nat.not_lt.2 (Nat.le_add_left _ _))

abbrev grid20 : Pipeline.Grid := .none

abbrev stage20_0 : Fin 1 → Memref sig .tc .vmem S1024x1024 .f32 := fun | 0 => Memref.whole cc20_stg0_0 | ⟨_ + 1, h⟩ => absurd h (Nat.not_lt.2 (Nat.le_add_left _ _))
abbrev sem20_0 : Fin 1 → DmaSem sig := fun | 0 => cc20_sem0_0 | ⟨_ + 1, h⟩ => absurd h (Nat.not_lt.2 (Nat.le_add_left _ _))

abbrev stage20_1 : Fin 1 → Memref sig .tc .vmem S1024x1024 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))

abbrev stage20_2 : Fin 1 → Memref sig .tc .vmem S1024x1024 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))

abbrev stage20_3 : Fin 1 → Memref sig .tc .vmem S1024x512 .f32 := fun | 0 => Memref.whole cc20_stg3_0 | ⟨_ + 1, h⟩ => absurd h (Nat.not_lt.2 (Nat.le_add_left _ _))
abbrev sem20_3 : Fin 1 → DmaSem sig := fun | 0 => cc20_sem3_0 | ⟨_ + 1, h⟩ => absurd h (Nat.not_lt.2 (Nat.le_add_left _ _))

abbrev stage20_4 : Fin 1 → Memref sig .tc .vmem S1024x512 .f32 := fun | 0 => Memref.whole cc20_stg4_0 | ⟨_ + 1, h⟩ => absurd h (Nat.not_lt.2 (Nat.le_add_left _ _))
abbrev sem20_4 : Fin 1 → DmaSem sig := fun | 0 => cc20_sem4_0 | ⟨_ + 1, h⟩ => absurd h (Nat.not_lt.2 (Nat.le_add_left _ _))

abbrev stage20_5 : Fin 1 → Memref sig .tc .vmem S1024x1024 .f32 := fun | 0 => Memref.whole cc20_stg5_0 | ⟨_ + 1, h⟩ => absurd h (Nat.not_lt.2 (Nat.le_add_left _ _))
abbrev sem20_5 : Fin 1 → DmaSem sig := fun | 0 => cc20_sem5_0 | ⟨_ + 1, h⟩ => absurd h (Nat.not_lt.2 (Nat.le_add_left _ _))

abbrev stage20_6 : Fin 1 → Memref sig .tc .vmem S1024x1024 .f32 := fun | 0 => Memref.whole cc20_stg6_0 | ⟨_ + 1, h⟩ => absurd h (Nat.not_lt.2 (Nat.le_add_left _ _))
abbrev sem20_6 : Fin 1 → DmaSem sig := fun | 0 => cc20_sem6_0 | ⟨_ + 1, h⟩ => absurd h (Nat.not_lt.2 (Nat.le_add_left _ _))

abbrev stage20_7 : Fin 1 → Memref sig .tc .vmem S1024x512 .f32 := fun | 0 => Memref.whole cc20_stg7_0 | ⟨_ + 1, h⟩ => absurd h (Nat.not_lt.2 (Nat.le_add_left _ _))
abbrev sem20_7 : Fin 1 → DmaSem sig := fun | 0 => cc20_sem7_0 | ⟨_ + 1, h⟩ => absurd h (Nat.not_lt.2 (Nat.le_add_left _ _))

abbrev stage20_8 : Fin 1 → Memref sig .tc .vmem S1024x1024 .f32 := fun | 0 => Memref.whole cc20_stg8_0 | ⟨_ + 1, h⟩ => absurd h (Nat.not_lt.2 (Nat.le_add_left _ _))
abbrev sem20_8 : Fin 1 → DmaSem sig := fun | 0 => cc20_sem8_0 | ⟨_ + 1, h⟩ => absurd h (Nat.not_lt.2 (Nat.le_add_left _ _))

abbrev stage20_9 : Fin 1 → Memref sig .tc .vmem S1024x1024 .f32 := fun | 0 => Memref.whole cc20_stg9_0 | ⟨_ + 1, h⟩ => absurd h (Nat.not_lt.2 (Nat.le_add_left _ _))
abbrev sem20_9 : Fin 1 → DmaSem sig := fun | 0 => cc20_sem9_0 | ⟨_ + 1, h⟩ => absurd h (Nat.not_lt.2 (Nat.le_add_left _ _))

abbrev stage20_10 : Fin 1 → Memref sig .tc .vmem S1024x512 .f32 := fun | 0 => Memref.whole cc20_stg10_0 | ⟨_ + 1, h⟩ => absurd h (Nat.not_lt.2 (Nat.le_add_left _ _))
abbrev sem20_10 : Fin 1 → DmaSem sig := fun | 0 => cc20_sem10_0 | ⟨_ + 1, h⟩ => absurd h (Nat.not_lt.2 (Nat.le_add_left _ _))

abbrev grid21 : Pipeline.Grid := .none

abbrev stage21_0 : Fin 1 → Memref sig .tc .vmem S1024x1024 .f32 := fun | 0 => Memref.whole cc21_stg0_0 | ⟨_ + 1, h⟩ => absurd h (Nat.not_lt.2 (Nat.le_add_left _ _))
abbrev sem21_0 : Fin 1 → DmaSem sig := fun | 0 => cc21_sem0_0 | ⟨_ + 1, h⟩ => absurd h (Nat.not_lt.2 (Nat.le_add_left _ _))

abbrev stage21_1 : Fin 1 → Memref sig .tc .vmem S1024x1024 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))

abbrev stage21_2 : Fin 1 → Memref sig .tc .vmem S1024x1024 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))

abbrev stage21_3 : Fin 1 → Memref sig .tc .vmem S1024x512 .f32 := fun | 0 => Memref.whole cc21_stg3_0 | ⟨_ + 1, h⟩ => absurd h (Nat.not_lt.2 (Nat.le_add_left _ _))
abbrev sem21_3 : Fin 1 → DmaSem sig := fun | 0 => cc21_sem3_0 | ⟨_ + 1, h⟩ => absurd h (Nat.not_lt.2 (Nat.le_add_left _ _))

abbrev stage21_4 : Fin 1 → Memref sig .tc .vmem S1024x1024 .f32 := fun | 0 => Memref.whole cc21_stg4_0 | ⟨_ + 1, h⟩ => absurd h (Nat.not_lt.2 (Nat.le_add_left _ _))
abbrev sem21_4 : Fin 1 → DmaSem sig := fun | 0 => cc21_sem4_0 | ⟨_ + 1, h⟩ => absurd h (Nat.not_lt.2 (Nat.le_add_left _ _))

abbrev stage21_5 : Fin 1 → Memref sig .tc .vmem S1024x1024 .f32 := fun | 0 => Memref.whole cc21_stg5_0 | ⟨_ + 1, h⟩ => absurd h (Nat.not_lt.2 (Nat.le_add_left _ _))
abbrev sem21_5 : Fin 1 → DmaSem sig := fun | 0 => cc21_sem5_0 | ⟨_ + 1, h⟩ => absurd h (Nat.not_lt.2 (Nat.le_add_left _ _))

abbrev stage21_6 : Fin 1 → Memref sig .tc .vmem S1024x512 .f32 := fun | 0 => Memref.whole cc21_stg6_0 | ⟨_ + 1, h⟩ => absurd h (Nat.not_lt.2 (Nat.le_add_left _ _))
abbrev sem21_6 : Fin 1 → DmaSem sig := fun | 0 => cc21_sem6_0 | ⟨_ + 1, h⟩ => absurd h (Nat.not_lt.2 (Nat.le_add_left _ _))

abbrev stage21_7 : Fin 1 → Memref sig .tc .vmem S1024x1024 .f32 := fun | 0 => Memref.whole cc21_stg7_0 | ⟨_ + 1, h⟩ => absurd h (Nat.not_lt.2 (Nat.le_add_left _ _))
abbrev sem21_7 : Fin 1 → DmaSem sig := fun | 0 => cc21_sem7_0 | ⟨_ + 1, h⟩ => absurd h (Nat.not_lt.2 (Nat.le_add_left _ _))

abbrev stage21_8 : Fin 1 → Memref sig .tc .vmem S1024x1024 .f32 := fun | 0 => Memref.whole cc21_stg8_0 | ⟨_ + 1, h⟩ => absurd h (Nat.not_lt.2 (Nat.le_add_left _ _))
abbrev sem21_8 : Fin 1 → DmaSem sig := fun | 0 => cc21_sem8_0 | ⟨_ + 1, h⟩ => absurd h (Nat.not_lt.2 (Nat.le_add_left _ _))

abbrev stage21_9 : Fin 1 → Memref sig .tc .vmem S1024x512 .f32 := fun | 0 => Memref.whole cc21_stg9_0 | ⟨_ + 1, h⟩ => absurd h (Nat.not_lt.2 (Nat.le_add_left _ _))
abbrev sem21_9 : Fin 1 → DmaSem sig := fun | 0 => cc21_sem9_0 | ⟨_ + 1, h⟩ => absurd h (Nat.not_lt.2 (Nat.le_add_left _ _))

abbrev grid22 : Pipeline.Grid := .none

abbrev stage22_0 : Fin 1 → Memref sig .tc .vmem S1024x1024 .f32 := fun | 0 => Memref.whole cc22_stg0_0 | ⟨_ + 1, h⟩ => absurd h (Nat.not_lt.2 (Nat.le_add_left _ _))
abbrev sem22_0 : Fin 1 → DmaSem sig := fun | 0 => cc22_sem0_0 | ⟨_ + 1, h⟩ => absurd h (Nat.not_lt.2 (Nat.le_add_left _ _))

abbrev stage22_1 : Fin 1 → Memref sig .tc .vmem S1024x1024 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))

abbrev stage22_2 : Fin 1 → Memref sig .tc .vmem S1024x1024 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))

abbrev stage22_3 : Fin 1 → Memref sig .tc .vmem S1024x512 .f32 := fun | 0 => Memref.whole cc22_stg3_0 | ⟨_ + 1, h⟩ => absurd h (Nat.not_lt.2 (Nat.le_add_left _ _))
abbrev sem22_3 : Fin 1 → DmaSem sig := fun | 0 => cc22_sem3_0 | ⟨_ + 1, h⟩ => absurd h (Nat.not_lt.2 (Nat.le_add_left _ _))

abbrev stage22_4 : Fin 1 → Memref sig .tc .vmem S1024x1024 .f32 := fun | 0 => Memref.whole cc22_stg4_0 | ⟨_ + 1, h⟩ => absurd h (Nat.not_lt.2 (Nat.le_add_left _ _))
abbrev sem22_4 : Fin 1 → DmaSem sig := fun | 0 => cc22_sem4_0 | ⟨_ + 1, h⟩ => absurd h (Nat.not_lt.2 (Nat.le_add_left _ _))

abbrev stage22_5 : Fin 1 → Memref sig .tc .vmem S1024x1024 .f32 := fun | 0 => Memref.whole cc22_stg5_0 | ⟨_ + 1, h⟩ => absurd h (Nat.not_lt.2 (Nat.le_add_left _ _))
abbrev sem22_5 : Fin 1 → DmaSem sig := fun | 0 => cc22_sem5_0 | ⟨_ + 1, h⟩ => absurd h (Nat.not_lt.2 (Nat.le_add_left _ _))

abbrev stage22_6 : Fin 1 → Memref sig .tc .vmem S1024x512 .f32 := fun | 0 => Memref.whole cc22_stg6_0 | ⟨_ + 1, h⟩ => absurd h (Nat.not_lt.2 (Nat.le_add_left _ _))
abbrev sem22_6 : Fin 1 → DmaSem sig := fun | 0 => cc22_sem6_0 | ⟨_ + 1, h⟩ => absurd h (Nat.not_lt.2 (Nat.le_add_left _ _))

abbrev stage22_7 : Fin 1 → Memref sig .tc .vmem S1024x1024 .f32 := fun | 0 => Memref.whole cc22_stg7_0 | ⟨_ + 1, h⟩ => absurd h (Nat.not_lt.2 (Nat.le_add_left _ _))
abbrev sem22_7 : Fin 1 → DmaSem sig := fun | 0 => cc22_sem7_0 | ⟨_ + 1, h⟩ => absurd h (Nat.not_lt.2 (Nat.le_add_left _ _))

abbrev stage22_8 : Fin 1 → Memref sig .tc .vmem S1024x1024 .f32 := fun | 0 => Memref.whole cc22_stg8_0 | ⟨_ + 1, h⟩ => absurd h (Nat.not_lt.2 (Nat.le_add_left _ _))
abbrev sem22_8 : Fin 1 → DmaSem sig := fun | 0 => cc22_sem8_0 | ⟨_ + 1, h⟩ => absurd h (Nat.not_lt.2 (Nat.le_add_left _ _))

abbrev stage22_9 : Fin 1 → Memref sig .tc .vmem S1024x512 .f32 := fun | 0 => Memref.whole cc22_stg9_0 | ⟨_ + 1, h⟩ => absurd h (Nat.not_lt.2 (Nat.le_add_left _ _))
abbrev sem22_9 : Fin 1 → DmaSem sig := fun | 0 => cc22_sem9_0 | ⟨_ + 1, h⟩ => absurd h (Nat.not_lt.2 (Nat.le_add_left _ _))

class Facts₀ : Prop where
  inb_S1024x1024_S1024x1024_0_0 : ∀ a, (![0, 0] : Fin 2 → Nat) a + S1024x1024.size a ≤ S1024x1024.size a
  h_S1024x1024 : 0 < S1024x1024.numel
  inb_S1024x512_S1024x512_0_0 : ∀ a, (![0, 0] : Fin 2 → Nat) a + S1024x512.size a ≤ S1024x512.size a
  h_S1024x512 : 0 < S1024x512.numel
  reducesTo_S1024x512_S_d0_1 : S1024x512.ReducesTo [0, 1] S_
  h_S_ : 0 < S_.numel
  shapeCasts_S1024x1024_S1024x1024 : S1024x1024.ShapeCasts S1024x1024
  shapeCasts_S1024x512_S1024x512 : S1024x512.ShapeCasts S1024x512
  bcast_S_S1024x1024 : S_.BroadcastsInDim S1024x1024 (![] : Fin 0 → Fin S1024x1024.rank)
  bcast_S_S1024x512 : S_.BroadcastsInDim S1024x512 (![] : Fin 0 → Fin S1024x512.rank)
  shapeCasts_S1024x1024_S1048576 : S1024x1024.ShapeCasts S1048576
  shapeCasts_S1024x512_S524288 : S1024x512.ShapeCasts S524288
  shapeCasts_S_S1 : S_.ShapeCasts S1
  concatenates_S1048576_S1048576_S524288_S1_S2621441_d0 : Shape.Concatenates [S1048576, S1048576, S524288, S1] S2621441 0
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x1024_S1024x1024_S1024x1024_1_1_0_0_n_n_wf : DotDims.WF S1024x1024 S1024x1024 S1024x1024 [1] [1] [0] [0] [] []
  dot_S1024x512_S1024x512_S1024x1024_1_1_0_0_n_n_wf : DotDims.WF S1024x512 S1024x512 S1024x1024 [1] [1] [0] [0] [] []
  dot_S1024x1024_S1024x1024_S1024x1024_0_0_1_1_n_n_wf : DotDims.WF S1024x1024 S1024x1024 S1024x1024 [0] [0] [1] [1] [] []
  dot_S1024x1024_S1024x512_S1024x512_0_0_1_1_n_n_wf : DotDims.WF S1024x1024 S1024x512 S1024x512 [0] [0] [1] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage1_0 : ∀ j, (stage1_0 j).IsWhole
  hstage1_1 : ∀ j, (stage1_1 j).IsWhole
  hstage1_2 : ∀ j, (stage1_2 j).IsWhole
  hstage1_3 : ∀ j, (stage1_3 j).IsWhole
  hstage1_4 : ∀ j, (stage1_4 j).IsWhole
  hstage1_5 : ∀ j, (stage1_5 j).IsWhole
  hstage1_6 : ∀ j, (stage1_6 j).IsWhole
  hstage1_7 : ∀ j, (stage1_7 j).IsWhole
  hstage1_8 : ∀ j, (stage1_8 j).IsWhole
  hstage1_9 : ∀ j, (stage1_9 j).IsWhole
  hstage1_10 : ∀ j, (stage1_10 j).IsWhole
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole
  hstage2_6 : ∀ j, (stage2_6 j).IsWhole
  hstage2_7 : ∀ j, (stage2_7 j).IsWhole
  hstage2_8 : ∀ j, (stage2_8 j).IsWhole
  hstage2_9 : ∀ j, (stage2_9 j).IsWhole
  hstage2_10 : ∀ j, (stage2_10 j).IsWhole
  hstage3_0 : ∀ j, (stage3_0 j).IsWhole
  hstage3_1 : ∀ j, (stage3_1 j).IsWhole
  hstage3_2 : ∀ j, (stage3_2 j).IsWhole
  hstage3_3 : ∀ j, (stage3_3 j).IsWhole
  hstage3_4 : ∀ j, (stage3_4 j).IsWhole
  hstage3_5 : ∀ j, (stage3_5 j).IsWhole
  hstage3_6 : ∀ j, (stage3_6 j).IsWhole
  hstage3_7 : ∀ j, (stage3_7 j).IsWhole
  hstage3_8 : ∀ j, (stage3_8 j).IsWhole
  hstage3_9 : ∀ j, (stage3_9 j).IsWhole
  hstage3_10 : ∀ j, (stage3_10 j).IsWhole
  hstage4_0 : ∀ j, (stage4_0 j).IsWhole
  hstage4_1 : ∀ j, (stage4_1 j).IsWhole
  hstage4_2 : ∀ j, (stage4_2 j).IsWhole
  hstage4_3 : ∀ j, (stage4_3 j).IsWhole
  hstage4_4 : ∀ j, (stage4_4 j).IsWhole
  hstage4_5 : ∀ j, (stage4_5 j).IsWhole
  hstage4_6 : ∀ j, (stage4_6 j).IsWhole
  hstage4_7 : ∀ j, (stage4_7 j).IsWhole
  hstage4_8 : ∀ j, (stage4_8 j).IsWhole
  hstage4_9 : ∀ j, (stage4_9 j).IsWhole
  hstage4_10 : ∀ j, (stage4_10 j).IsWhole
  hstage5_0 : ∀ j, (stage5_0 j).IsWhole
  hstage5_1 : ∀ j, (stage5_1 j).IsWhole
  hstage5_2 : ∀ j, (stage5_2 j).IsWhole
  hstage5_3 : ∀ j, (stage5_3 j).IsWhole
  hstage5_4 : ∀ j, (stage5_4 j).IsWhole
  hstage5_5 : ∀ j, (stage5_5 j).IsWhole
  hstage5_6 : ∀ j, (stage5_6 j).IsWhole
  hstage5_7 : ∀ j, (stage5_7 j).IsWhole
  hstage5_8 : ∀ j, (stage5_8 j).IsWhole
  hstage5_9 : ∀ j, (stage5_9 j).IsWhole
  hstage5_10 : ∀ j, (stage5_10 j).IsWhole
  hstage6_0 : ∀ j, (stage6_0 j).IsWhole
  hstage6_1 : ∀ j, (stage6_1 j).IsWhole
  hstage6_2 : ∀ j, (stage6_2 j).IsWhole
  hstage6_3 : ∀ j, (stage6_3 j).IsWhole
  hstage6_4 : ∀ j, (stage6_4 j).IsWhole
  hstage6_5 : ∀ j, (stage6_5 j).IsWhole
  hstage6_6 : ∀ j, (stage6_6 j).IsWhole
  hstage6_7 : ∀ j, (stage6_7 j).IsWhole
  hstage6_8 : ∀ j, (stage6_8 j).IsWhole
  hstage6_9 : ∀ j, (stage6_9 j).IsWhole
  hstage6_10 : ∀ j, (stage6_10 j).IsWhole
  hstage7_0 : ∀ j, (stage7_0 j).IsWhole
  hstage7_1 : ∀ j, (stage7_1 j).IsWhole
  hstage7_2 : ∀ j, (stage7_2 j).IsWhole
  hstage7_3 : ∀ j, (stage7_3 j).IsWhole
  hstage7_4 : ∀ j, (stage7_4 j).IsWhole
  hstage7_5 : ∀ j, (stage7_5 j).IsWhole
  hstage7_6 : ∀ j, (stage7_6 j).IsWhole
  hstage7_7 : ∀ j, (stage7_7 j).IsWhole
  hstage7_8 : ∀ j, (stage7_8 j).IsWhole
  hstage7_9 : ∀ j, (stage7_9 j).IsWhole
  hstage7_10 : ∀ j, (stage7_10 j).IsWhole
  hstage8_0 : ∀ j, (stage8_0 j).IsWhole
  hstage8_1 : ∀ j, (stage8_1 j).IsWhole
  hstage8_2 : ∀ j, (stage8_2 j).IsWhole
  hstage8_3 : ∀ j, (stage8_3 j).IsWhole
  hstage8_4 : ∀ j, (stage8_4 j).IsWhole
  hstage8_5 : ∀ j, (stage8_5 j).IsWhole
  hstage8_6 : ∀ j, (stage8_6 j).IsWhole
  hstage8_7 : ∀ j, (stage8_7 j).IsWhole
  hstage8_8 : ∀ j, (stage8_8 j).IsWhole
  hstage8_9 : ∀ j, (stage8_9 j).IsWhole
  hstage8_10 : ∀ j, (stage8_10 j).IsWhole
  hstage9_0 : ∀ j, (stage9_0 j).IsWhole
  hstage9_1 : ∀ j, (stage9_1 j).IsWhole
  hstage9_2 : ∀ j, (stage9_2 j).IsWhole
  hstage9_3 : ∀ j, (stage9_3 j).IsWhole
  hstage9_4 : ∀ j, (stage9_4 j).IsWhole
  hstage9_5 : ∀ j, (stage9_5 j).IsWhole
  hstage9_6 : ∀ j, (stage9_6 j).IsWhole
  hstage9_7 : ∀ j, (stage9_7 j).IsWhole
  hstage9_8 : ∀ j, (stage9_8 j).IsWhole
  hstage9_9 : ∀ j, (stage9_9 j).IsWhole
  hstage9_10 : ∀ j, (stage9_10 j).IsWhole
  hstage10_0 : ∀ j, (stage10_0 j).IsWhole
  hstage10_1 : ∀ j, (stage10_1 j).IsWhole
  hstage10_2 : ∀ j, (stage10_2 j).IsWhole
  hstage10_3 : ∀ j, (stage10_3 j).IsWhole
  hstage10_4 : ∀ j, (stage10_4 j).IsWhole
  hstage10_5 : ∀ j, (stage10_5 j).IsWhole
  hstage10_6 : ∀ j, (stage10_6 j).IsWhole
  hstage10_7 : ∀ j, (stage10_7 j).IsWhole
  hstage10_8 : ∀ j, (stage10_8 j).IsWhole
  hstage10_9 : ∀ j, (stage10_9 j).IsWhole
  hstage10_10 : ∀ j, (stage10_10 j).IsWhole
  hstage11_0 : ∀ j, (stage11_0 j).IsWhole
  hstage11_1 : ∀ j, (stage11_1 j).IsWhole
  hstage11_2 : ∀ j, (stage11_2 j).IsWhole
  hstage11_3 : ∀ j, (stage11_3 j).IsWhole
  hstage11_4 : ∀ j, (stage11_4 j).IsWhole
  hstage11_5 : ∀ j, (stage11_5 j).IsWhole
  hstage11_6 : ∀ j, (stage11_6 j).IsWhole
  hstage11_7 : ∀ j, (stage11_7 j).IsWhole
  hstage11_8 : ∀ j, (stage11_8 j).IsWhole
  hstage11_9 : ∀ j, (stage11_9 j).IsWhole
  hstage11_10 : ∀ j, (stage11_10 j).IsWhole
  hstage12_0 : ∀ j, (stage12_0 j).IsWhole
  hstage12_1 : ∀ j, (stage12_1 j).IsWhole
  hstage12_2 : ∀ j, (stage12_2 j).IsWhole
  hstage12_3 : ∀ j, (stage12_3 j).IsWhole
  hstage12_4 : ∀ j, (stage12_4 j).IsWhole
  hstage12_5 : ∀ j, (stage12_5 j).IsWhole
  hstage12_6 : ∀ j, (stage12_6 j).IsWhole
  hstage12_7 : ∀ j, (stage12_7 j).IsWhole
  hstage12_8 : ∀ j, (stage12_8 j).IsWhole
  hstage12_9 : ∀ j, (stage12_9 j).IsWhole
  hstage12_10 : ∀ j, (stage12_10 j).IsWhole
  hstage13_0 : ∀ j, (stage13_0 j).IsWhole
  hstage13_1 : ∀ j, (stage13_1 j).IsWhole
  hstage13_2 : ∀ j, (stage13_2 j).IsWhole
  hstage13_3 : ∀ j, (stage13_3 j).IsWhole
  hstage13_4 : ∀ j, (stage13_4 j).IsWhole
  hstage13_5 : ∀ j, (stage13_5 j).IsWhole
  hstage13_6 : ∀ j, (stage13_6 j).IsWhole
  hstage13_7 : ∀ j, (stage13_7 j).IsWhole
  hstage13_8 : ∀ j, (stage13_8 j).IsWhole
  hstage13_9 : ∀ j, (stage13_9 j).IsWhole
  hstage13_10 : ∀ j, (stage13_10 j).IsWhole
  hstage14_0 : ∀ j, (stage14_0 j).IsWhole
  hstage14_1 : ∀ j, (stage14_1 j).IsWhole
  hstage14_2 : ∀ j, (stage14_2 j).IsWhole
  hstage14_3 : ∀ j, (stage14_3 j).IsWhole
  hstage14_4 : ∀ j, (stage14_4 j).IsWhole
  hstage14_5 : ∀ j, (stage14_5 j).IsWhole
  hstage14_6 : ∀ j, (stage14_6 j).IsWhole
  hstage14_7 : ∀ j, (stage14_7 j).IsWhole
  hstage14_8 : ∀ j, (stage14_8 j).IsWhole
  hstage14_9 : ∀ j, (stage14_9 j).IsWhole
  hstage14_10 : ∀ j, (stage14_10 j).IsWhole
  hstage15_0 : ∀ j, (stage15_0 j).IsWhole
  hstage15_1 : ∀ j, (stage15_1 j).IsWhole
  hstage15_2 : ∀ j, (stage15_2 j).IsWhole
  hstage15_3 : ∀ j, (stage15_3 j).IsWhole
  hstage15_4 : ∀ j, (stage15_4 j).IsWhole
  hstage15_5 : ∀ j, (stage15_5 j).IsWhole
  hstage15_6 : ∀ j, (stage15_6 j).IsWhole
  hstage15_7 : ∀ j, (stage15_7 j).IsWhole
  hstage15_8 : ∀ j, (stage15_8 j).IsWhole
  hstage15_9 : ∀ j, (stage15_9 j).IsWhole
  hstage15_10 : ∀ j, (stage15_10 j).IsWhole
  hstage16_0 : ∀ j, (stage16_0 j).IsWhole
  hstage16_1 : ∀ j, (stage16_1 j).IsWhole
  hstage16_2 : ∀ j, (stage16_2 j).IsWhole
  hstage16_3 : ∀ j, (stage16_3 j).IsWhole
  hstage16_4 : ∀ j, (stage16_4 j).IsWhole
  hstage16_5 : ∀ j, (stage16_5 j).IsWhole
  hstage16_6 : ∀ j, (stage16_6 j).IsWhole
  hstage16_7 : ∀ j, (stage16_7 j).IsWhole
  hstage16_8 : ∀ j, (stage16_8 j).IsWhole
  hstage16_9 : ∀ j, (stage16_9 j).IsWhole
  hstage16_10 : ∀ j, (stage16_10 j).IsWhole
  hstage17_0 : ∀ j, (stage17_0 j).IsWhole
  hstage17_1 : ∀ j, (stage17_1 j).IsWhole
  hstage17_2 : ∀ j, (stage17_2 j).IsWhole
  hstage17_3 : ∀ j, (stage17_3 j).IsWhole
  hstage17_4 : ∀ j, (stage17_4 j).IsWhole
  hstage17_5 : ∀ j, (stage17_5 j).IsWhole
  hstage17_6 : ∀ j, (stage17_6 j).IsWhole
  hstage17_7 : ∀ j, (stage17_7 j).IsWhole
  hstage17_8 : ∀ j, (stage17_8 j).IsWhole
  hstage17_9 : ∀ j, (stage17_9 j).IsWhole
  hstage17_10 : ∀ j, (stage17_10 j).IsWhole
  hstage18_0 : ∀ j, (stage18_0 j).IsWhole
  hstage18_1 : ∀ j, (stage18_1 j).IsWhole
  hstage18_2 : ∀ j, (stage18_2 j).IsWhole
  hstage18_3 : ∀ j, (stage18_3 j).IsWhole
  hstage18_4 : ∀ j, (stage18_4 j).IsWhole
  hstage18_5 : ∀ j, (stage18_5 j).IsWhole
  hstage18_6 : ∀ j, (stage18_6 j).IsWhole
  hstage18_7 : ∀ j, (stage18_7 j).IsWhole
  hstage18_8 : ∀ j, (stage18_8 j).IsWhole
  hstage18_9 : ∀ j, (stage18_9 j).IsWhole
  hstage18_10 : ∀ j, (stage18_10 j).IsWhole
  hstage19_0 : ∀ j, (stage19_0 j).IsWhole
  hstage19_1 : ∀ j, (stage19_1 j).IsWhole
  hstage19_2 : ∀ j, (stage19_2 j).IsWhole
  hstage19_3 : ∀ j, (stage19_3 j).IsWhole
  hstage19_4 : ∀ j, (stage19_4 j).IsWhole
  hstage19_5 : ∀ j, (stage19_5 j).IsWhole
  hstage19_6 : ∀ j, (stage19_6 j).IsWhole
  hstage19_7 : ∀ j, (stage19_7 j).IsWhole
  hstage19_8 : ∀ j, (stage19_8 j).IsWhole
  hstage19_9 : ∀ j, (stage19_9 j).IsWhole
  hstage19_10 : ∀ j, (stage19_10 j).IsWhole
  hstage20_0 : ∀ j, (stage20_0 j).IsWhole
  hstage20_1 : ∀ j, (stage20_1 j).IsWhole
  hstage20_2 : ∀ j, (stage20_2 j).IsWhole
  hstage20_3 : ∀ j, (stage20_3 j).IsWhole
  hstage20_4 : ∀ j, (stage20_4 j).IsWhole
  hstage20_5 : ∀ j, (stage20_5 j).IsWhole
  hstage20_6 : ∀ j, (stage20_6 j).IsWhole
  hstage20_7 : ∀ j, (stage20_7 j).IsWhole
  hstage20_8 : ∀ j, (stage20_8 j).IsWhole
  hstage20_9 : ∀ j, (stage20_9 j).IsWhole
  hstage20_10 : ∀ j, (stage20_10 j).IsWhole
  hstage21_0 : ∀ j, (stage21_0 j).IsWhole
  hstage21_1 : ∀ j, (stage21_1 j).IsWhole
  hstage21_2 : ∀ j, (stage21_2 j).IsWhole
  hstage21_3 : ∀ j, (stage21_3 j).IsWhole
  hstage21_4 : ∀ j, (stage21_4 j).IsWhole
  hstage21_5 : ∀ j, (stage21_5 j).IsWhole
  hstage21_6 : ∀ j, (stage21_6 j).IsWhole
  hstage21_7 : ∀ j, (stage21_7 j).IsWhole
  hstage21_8 : ∀ j, (stage21_8 j).IsWhole
  hstage21_9 : ∀ j, (stage21_9 j).IsWhole
  hstage22_0 : ∀ j, (stage22_0 j).IsWhole
  hstage22_1 : ∀ j, (stage22_1 j).IsWhole
  hstage22_2 : ∀ j, (stage22_2 j).IsWhole
  hstage22_3 : ∀ j, (stage22_3 j).IsWhole
  hstage22_4 : ∀ j, (stage22_4 j).IsWhole
  hstage22_5 : ∀ j, (stage22_5 j).IsWhole
  hstage22_6 : ∀ j, (stage22_6 j).IsWhole
  hstage22_7 : ∀ j, (stage22_7 j).IsWhole
  hstage22_8 : ∀ j, (stage22_8 j).IsWhole
  hstage22_9 : ∀ j, (stage22_9 j).IsWhole

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x512_S1024x512_0_0_1_1_n_n : DotDims S1024x1024 S1024x512 S1024x512 where
  lhsContracting := [0]
  rhsContracting := [0]
  lhsNonContracting := [1]
  rhsNonContracting := [1]
  lhsBatch := []
  rhsBatch := []
  wf := dot_S1024x1024_S1024x512_S1024x512_0_0_1_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_v0_0) true false (stage0_4 0) (sem0_4 0) (Memref.isWhole_whole _) (hstage0_4 0)

abbrev win0_5 : Pipeline.Window sig grid0 :=
  Pipeline.Window.whole (Memref.whole main_v0_1) true false (stage0_5 0) (sem0_5 0) (Memref.isWhole_whole _) (hstage0_5 0)

abbrev win0_6 : Pipeline.Window sig grid0 :=
  Pipeline.Window.whole (Memref.whole main_v0_2) true false (stage0_6 0) (sem0_6 0) (Memref.isWhole_whole _) (hstage0_6 0)

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.whole (Memref.whole main_arg0) false false (stage1_0 0) (sem1_0 0) (Memref.isWhole_whole _) (hstage1_0 0)

abbrev win1_1 : Pipeline.Window sig grid1 :=
  Pipeline.Window.whole (Memref.whole main_v0_0) false false (stage1_1 0) (sem1_1 0) (Memref.isWhole_whole _) (hstage1_1 0)

abbrev win1_2 : Pipeline.Window sig grid1 :=
  Pipeline.Window.whole (Memref.whole main_v0_1) false false (stage1_2 0) (sem1_2 0) (Memref.isWhole_whole _) (hstage1_2 0)

abbrev win1_3 : Pipeline.Window sig grid1 :=
  Pipeline.Window.whole (Memref.whole main_v0_2) false false (stage1_3 0) (sem1_3 0) (Memref.isWhole_whole _) (hstage1_3 0)

abbrev win1_4 : Pipeline.Window sig grid1 :=
  Pipeline.Window.whole (Memref.whole main_arg1) false false (stage1_4 0) (sem1_4 0) (Memref.isWhole_whole _) (hstage1_4 0)

abbrev win1_5 : Pipeline.Window sig grid1 :=
  Pipeline.Window.whole (Memref.whole main_arg2) false false (stage1_5 0) (sem1_5 0) (Memref.isWhole_whole _) (hstage1_5 0)

abbrev win1_6 : Pipeline.Window sig grid1 :=
  Pipeline.Window.whole (Memref.whole main_arg3) false false (stage1_6 0) (sem1_6 0) (Memref.isWhole_whole _) (hstage1_6 0)

abbrev win1_7 : Pipeline.Window sig grid1 :=
  Pipeline.Window.whole (Memref.whole main_arg4) false false (stage1_7 0) (sem1_7 0) (Memref.isWhole_whole _) (hstage1_7 0)

abbrev win1_8 : Pipeline.Window sig grid1 :=
  Pipeline.Window.whole (Memref.whole main_v5_0) true false (stage1_8 0) (sem1_8 0) (Memref.isWhole_whole _) (hstage1_8 0)

abbrev win1_9 : Pipeline.Window sig grid1 :=
  Pipeline.Window.whole (Memref.whole main_v5_1) true false (stage1_9 0) (sem1_9 0) (Memref.isWhole_whole _) (hstage1_9 0)

abbrev win1_10 : Pipeline.Window sig grid1 :=
  Pipeline.Window.whole (Memref.whole main_v5_2) true false (stage1_10 0) (sem1_10 0) (Memref.isWhole_whole _) (hstage1_10 0)

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.whole (Memref.whole main_arg0) false false (stage2_0 0) (sem2_0 0) (Memref.isWhole_whole _) (hstage2_0 0)

abbrev win2_1 : Pipeline.Window sig grid2 :=
  Pipeline.Window.whole (Memref.whole main_v5_0) false false (stage2_1 0) (sem2_1 0) (Memref.isWhole_whole _) (hstage2_1 0)

abbrev win2_2 : Pipeline.Window sig grid2 :=
  Pipeline.Window.whole (Memref.whole main_v5_1) false false (stage2_2 0) (sem2_2 0) (Memref.isWhole_whole _) (hstage2_2 0)

abbrev win2_3 : Pipeline.Window sig grid2 :=
  Pipeline.Window.whole (Memref.whole main_v5_2) false false (stage2_3 0) (sem2_3 0) (Memref.isWhole_whole _) (hstage2_3 0)

abbrev win2_4 : Pipeline.Window sig grid2 :=
  Pipeline.Window.whole (Memref.whole main_arg1) false false (stage2_4 0) (sem2_4 0) (Memref.isWhole_whole _) (hstage2_4 0)

abbrev win2_5 : Pipeline.Window sig grid2 :=
  Pipeline.Window.whole (Memref.whole main_arg2) false false (stage2_5 0) (sem2_5 0) (Memref.isWhole_whole _) (hstage2_5 0)

abbrev win2_6 : Pipeline.Window sig grid2 :=
  Pipeline.Window.whole (Memref.whole main_arg3) false false (stage2_6 0) (sem2_6 0) (Memref.isWhole_whole _) (hstage2_6 0)

abbrev win2_7 : Pipeline.Window sig grid2 :=
  Pipeline.Window.whole (Memref.whole main_arg4) false false (stage2_7 0) (sem2_7 0) (Memref.isWhole_whole _) (hstage2_7 0)

abbrev win2_8 : Pipeline.Window sig grid2 :=
  Pipeline.Window.whole (Memref.whole main_v6_0) true false (stage2_8 0) (sem2_8 0) (Memref.isWhole_whole _) (hstage2_8 0)

abbrev win2_9 : Pipeline.Window sig grid2 :=
  Pipeline.Window.whole (Memref.whole main_v6_1) true false (stage2_9 0) (sem2_9 0) (Memref.isWhole_whole _) (hstage2_9 0)

abbrev win2_10 : Pipeline.Window sig grid2 :=
  Pipeline.Window.whole (Memref.whole main_v6_2) true false (stage2_10 0) (sem2_10 0) (Memref.isWhole_whole _) (hstage2_10 0)

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.whole (Memref.whole main_arg0) false false (stage3_0 0) (sem3_0 0) (Memref.isWhole_whole _) (hstage3_0 0)

abbrev win3_1 : Pipeline.Window sig grid3 :=
  Pipeline.Window.whole (Memref.whole main_v6_0) false false (stage3_1 0) (sem3_1 0) (Memref.isWhole_whole _) (hstage3_1 0)

abbrev win3_2 : Pipeline.Window sig grid3 :=
  Pipeline.Window.whole (Memref.whole main_v6_1) false false (stage3_2 0) (sem3_2 0) (Memref.isWhole_whole _) (hstage3_2 0)

abbrev win3_3 : Pipeline.Window sig grid3 :=
  Pipeline.Window.whole (Memref.whole main_v6_2) false false (stage3_3 0) (sem3_3 0) (Memref.isWhole_whole _) (hstage3_3 0)

abbrev win3_4 : Pipeline.Window sig grid3 :=
  Pipeline.Window.whole (Memref.whole main_arg1) false false (stage3_4 0) (sem3_4 0) (Memref.isWhole_whole _) (hstage3_4 0)

abbrev win3_5 : Pipeline.Window sig grid3 :=
  Pipeline.Window.whole (Memref.whole main_arg2) false false (stage3_5 0) (sem3_5 0) (Memref.isWhole_whole _) (hstage3_5 0)

abbrev win3_6 : Pipeline.Window sig grid3 :=
  Pipeline.Window.whole (Memref.whole main_arg3) false false (stage3_6 0) (sem3_6 0) (Memref.isWhole_whole _) (hstage3_6 0)

abbrev win3_7 : Pipeline.Window sig grid3 :=
  Pipeline.Window.whole (Memref.whole main_arg4) false false (stage3_7 0) (sem3_7 0) (Memref.isWhole_whole _) (hstage3_7 0)

abbrev win3_8 : Pipeline.Window sig grid3 :=
  Pipeline.Window.whole (Memref.whole main_v7_0) true false (stage3_8 0) (sem3_8 0) (Memref.isWhole_whole _) (hstage3_8 0)

abbrev win3_9 : Pipeline.Window sig grid3 :=
  Pipeline.Window.whole (Memref.whole main_v7_1) true false (stage3_9 0) (sem3_9 0) (Memref.isWhole_whole _) (hstage3_9 0)

abbrev win3_10 : Pipeline.Window sig grid3 :=
  Pipeline.Window.whole (Memref.whole main_v7_2) true false (stage3_10 0) (sem3_10 0) (Memref.isWhole_whole _) (hstage3_10 0)

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.whole (Memref.whole main_arg0) false false (stage4_0 0) (sem4_0 0) (Memref.isWhole_whole _) (hstage4_0 0)

abbrev win4_1 : Pipeline.Window sig grid4 :=
  Pipeline.Window.whole (Memref.whole main_v7_0) false false (stage4_1 0) (sem4_1 0) (Memref.isWhole_whole _) (hstage4_1 0)

abbrev win4_2 : Pipeline.Window sig grid4 :=
  Pipeline.Window.whole (Memref.whole main_v7_1) false false (stage4_2 0) (sem4_2 0) (Memref.isWhole_whole _) (hstage4_2 0)

abbrev win4_3 : Pipeline.Window sig grid4 :=
  Pipeline.Window.whole (Memref.whole main_v7_2) false false (stage4_3 0) (sem4_3 0) (Memref.isWhole_whole _) (hstage4_3 0)

abbrev win4_4 : Pipeline.Window sig grid4 :=
  Pipeline.Window.whole (Memref.whole main_arg1) false false (stage4_4 0) (sem4_4 0) (Memref.isWhole_whole _) (hstage4_4 0)

abbrev win4_5 : Pipeline.Window sig grid4 :=
  Pipeline.Window.whole (Memref.whole main_arg2) false false (stage4_5 0) (sem4_5 0) (Memref.isWhole_whole _) (hstage4_5 0)

abbrev win4_6 : Pipeline.Window sig grid4 :=
  Pipeline.Window.whole (Memref.whole main_arg3) false false (stage4_6 0) (sem4_6 0) (Memref.isWhole_whole _) (hstage4_6 0)

abbrev win4_7 : Pipeline.Window sig grid4 :=
  Pipeline.Window.whole (Memref.whole main_arg4) false false (stage4_7 0) (sem4_7 0) (Memref.isWhole_whole _) (hstage4_7 0)

abbrev win4_8 : Pipeline.Window sig grid4 :=
  Pipeline.Window.whole (Memref.whole main_v8_0) true false (stage4_8 0) (sem4_8 0) (Memref.isWhole_whole _) (hstage4_8 0)

abbrev win4_9 : Pipeline.Window sig grid4 :=
  Pipeline.Window.whole (Memref.whole main_v8_1) true false (stage4_9 0) (sem4_9 0) (Memref.isWhole_whole _) (hstage4_9 0)

abbrev win4_10 : Pipeline.Window sig grid4 :=
  Pipeline.Window.whole (Memref.whole main_v8_2) true false (stage4_10 0) (sem4_10 0) (Memref.isWhole_whole _) (hstage4_10 0)

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.whole (Memref.whole main_arg0) false false (stage5_0 0) (sem5_0 0) (Memref.isWhole_whole _) (hstage5_0 0)

abbrev win5_1 : Pipeline.Window sig grid5 :=
  Pipeline.Window.whole (Memref.whole main_v8_0) false false (stage5_1 0) (sem5_1 0) (Memref.isWhole_whole _) (hstage5_1 0)

abbrev win5_2 : Pipeline.Window sig grid5 :=
  Pipeline.Window.whole (Memref.whole main_v8_1) false false (stage5_2 0) (sem5_2 0) (Memref.isWhole_whole _) (hstage5_2 0)

abbrev win5_3 : Pipeline.Window sig grid5 :=
  Pipeline.Window.whole (Memref.whole main_v8_2) false false (stage5_3 0) (sem5_3 0) (Memref.isWhole_whole _) (hstage5_3 0)

abbrev win5_4 : Pipeline.Window sig grid5 :=
  Pipeline.Window.whole (Memref.whole main_arg1) false false (stage5_4 0) (sem5_4 0) (Memref.isWhole_whole _) (hstage5_4 0)

abbrev win5_5 : Pipeline.Window sig grid5 :=
  Pipeline.Window.whole (Memref.whole main_arg2) false false (stage5_5 0) (sem5_5 0) (Memref.isWhole_whole _) (hstage5_5 0)

abbrev win5_6 : Pipeline.Window sig grid5 :=
  Pipeline.Window.whole (Memref.whole main_arg3) false false (stage5_6 0) (sem5_6 0) (Memref.isWhole_whole _) (hstage5_6 0)

abbrev win5_7 : Pipeline.Window sig grid5 :=
  Pipeline.Window.whole (Memref.whole main_arg4) false false (stage5_7 0) (sem5_7 0) (Memref.isWhole_whole _) (hstage5_7 0)

abbrev win5_8 : Pipeline.Window sig grid5 :=
  Pipeline.Window.whole (Memref.whole main_v9_0) true false (stage5_8 0) (sem5_8 0) (Memref.isWhole_whole _) (hstage5_8 0)

abbrev win5_9 : Pipeline.Window sig grid5 :=
  Pipeline.Window.whole (Memref.whole main_v9_1) true false (stage5_9 0) (sem5_9 0) (Memref.isWhole_whole _) (hstage5_9 0)

abbrev win5_10 : Pipeline.Window sig grid5 :=
  Pipeline.Window.whole (Memref.whole main_v9_2) true false (stage5_10 0) (sem5_10 0) (Memref.isWhole_whole _) (hstage5_10 0)

abbrev win5 : Fin 11 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | ⟨_ + 11, h⟩ => absurd h (Nat.not_lt.2 (Nat.le_add_left _ _))
abbrev spec5 : Fin 11 → Pipeline.WinSpec sig grid5.rank := fun w => (win5 w).toWinSpec

abbrev win6_0 : Pipeline.Window sig grid6 :=
  Pipeline.Window.whole (Memref.whole main_arg0) false false (stage6_0 0) (sem6_0 0) (Memref.isWhole_whole _) (hstage6_0 0)

abbrev win6_1 : Pipeline.Window sig grid6 :=
  Pipeline.Window.whole (Memref.whole main_v9_0) false false (stage6_1 0) (sem6_1 0) (Memref.isWhole_whole _) (hstage6_1 0)

abbrev win6_2 : Pipeline.Window sig grid6 :=
  Pipeline.Window.whole (Memref.whole main_v9_1) false false (stage6_2 0) (sem6_2 0) (Memref.isWhole_whole _) (hstage6_2 0)

abbrev win6_3 : Pipeline.Window sig grid6 :=
  Pipeline.Window.whole (Memref.whole main_v9_2) false false (stage6_3 0) (sem6_3 0) (Memref.isWhole_whole _) (hstage6_3 0)

abbrev win6_4 : Pipeline.Window sig grid6 :=
  Pipeline.Window.whole (Memref.whole main_arg1) false false (stage6_4 0) (sem6_4 0) (Memref.isWhole_whole _) (hstage6_4 0)

abbrev win6_5 : Pipeline.Window sig grid6 :=
  Pipeline.Window.whole (Memref.whole main_arg2) false false (stage6_5 0) (sem6_5 0) (Memref.isWhole_whole _) (hstage6_5 0)

abbrev win6_6 : Pipeline.Window sig grid6 :=
  Pipeline.Window.whole (Memref.whole main_arg3) false false (stage6_6 0) (sem6_6 0) (Memref.isWhole_whole _) (hstage6_6 0)

abbrev win6_7 : Pipeline.Window sig grid6 :=
  Pipeline.Window.whole (Memref.whole main_arg4) false false (stage6_7 0) (sem6_7 0) (Memref.isWhole_whole _) (hstage6_7 0)

abbrev win6_8 : Pipeline.Window sig grid6 :=
  Pipeline.Window.whole (Memref.whole main_v10_0) true false (stage6_8 0) (sem6_8 0) (Memref.isWhole_whole _) (hstage6_8 0)

abbrev win6_9 : Pipeline.Window sig grid6 :=
  Pipeline.Window.whole (Memref.whole main_v10_1) true false (stage6_9 0) (sem6_9 0) (Memref.isWhole_whole _) (hstage6_9 0)

abbrev win6_10 : Pipeline.Window sig grid6 :=
  Pipeline.Window.whole (Memref.whole main_v10_2) true false (stage6_10 0) (sem6_10 0) (Memref.isWhole_whole _) (hstage6_10 0)

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.whole (Memref.whole main_arg0) false false (stage7_0 0) (sem7_0 0) (Memref.isWhole_whole _) (hstage7_0 0)

abbrev win7_1 : Pipeline.Window sig grid7 :=
  Pipeline.Window.whole (Memref.whole main_v10_0) false false (stage7_1 0) (sem7_1 0) (Memref.isWhole_whole _) (hstage7_1 0)

abbrev win7_2 : Pipeline.Window sig grid7 :=
  Pipeline.Window.whole (Memref.whole main_v10_1) false false (stage7_2 0) (sem7_2 0) (Memref.isWhole_whole _) (hstage7_2 0)

abbrev win7_3 : Pipeline.Window sig grid7 :=
  Pipeline.Window.whole (Memref.whole main_v10_2) false false (stage7_3 0) (sem7_3 0) (Memref.isWhole_whole _) (hstage7_3 0)

abbrev win7_4 : Pipeline.Window sig grid7 :=
  Pipeline.Window.whole (Memref.whole main_arg1) false false (stage7_4 0) (sem7_4 0) (Memref.isWhole_whole _) (hstage7_4 0)

abbrev win7_5 : Pipeline.Window sig grid7 :=
  Pipeline.Window.whole (Memref.whole main_arg2) false false (stage7_5 0) (sem7_5 0) (Memref.isWhole_whole _) (hstage7_5 0)

abbrev win7_6 : Pipeline.Window sig grid7 :=
  Pipeline.Window.whole (Memref.whole main_arg3) false false (stage7_6 0) (sem7_6 0) (Memref.isWhole_whole _) (hstage7_6 0)

abbrev win7_7 : Pipeline.Window sig grid7 :=
  Pipeline.Window.whole (Memref.whole main_arg4) false false (stage7_7 0) (sem7_7 0) (Memref.isWhole_whole _) (hstage7_7 0)

abbrev win7_8 : Pipeline.Window sig grid7 :=
  Pipeline.Window.whole (Memref.whole main_v11_0) true false (stage7_8 0) (sem7_8 0) (Memref.isWhole_whole _) (hstage7_8 0)

abbrev win7_9 : Pipeline.Window sig grid7 :=
  Pipeline.Window.whole (Memref.whole main_v11_1) true false (stage7_9 0) (sem7_9 0) (Memref.isWhole_whole _) (hstage7_9 0)

abbrev win7_10 : Pipeline.Window sig grid7 :=
  Pipeline.Window.whole (Memref.whole main_v11_2) true false (stage7_10 0) (sem7_10 0) (Memref.isWhole_whole _) (hstage7_10 0)

abbrev win7 : Fin 11 → Pipeline.Window sig grid7 := fun | 0 => win7_0 | 1 => win7_1 | 2 => win7_2 | 3 => win7_3 | 4 => win7_4 | 5 => win7_5 | 6 => win7_6 | 7 => win7_7 | 8 => win7_8 | 9 => win7_9 | 10 => win7_10 | ⟨_ + 11, h⟩ => absurd h (Nat.not_lt.2 (Nat.le_add_left _ _))
abbrev spec7 : Fin 11 → Pipeline.WinSpec sig grid7.rank := fun w => (win7 w).toWinSpec

abbrev win8_0 : Pipeline.Window sig grid8 :=
  Pipeline.Window.whole (Memref.whole main_arg0) false false (stage8_0 0) (sem8_0 0) (Memref.isWhole_whole _) (hstage8_0 0)

abbrev win8_1 : Pipeline.Window sig grid8 :=
  Pipeline.Window.whole (Memref.whole main_v11_0) false false (stage8_1 0) (sem8_1 0) (Memref.isWhole_whole _) (hstage8_1 0)

abbrev win8_2 : Pipeline.Window sig grid8 :=
  Pipeline.Window.whole (Memref.whole main_v11_1) false false (stage8_2 0) (sem8_2 0) (Memref.isWhole_whole _) (hstage8_2 0)

abbrev win8_3 : Pipeline.Window sig grid8 :=
  Pipeline.Window.whole (Memref.whole main_v11_2) false false (stage8_3 0) (sem8_3 0) (Memref.isWhole_whole _) (hstage8_3 0)

abbrev win8_4 : Pipeline.Window sig grid8 :=
  Pipeline.Window.whole (Memref.whole main_arg1) false false (stage8_4 0) (sem8_4 0) (Memref.isWhole_whole _) (hstage8_4 0)

abbrev win8_5 : Pipeline.Window sig grid8 :=
  Pipeline.Window.whole (Memref.whole main_arg2) false false (stage8_5 0) (sem8_5 0) (Memref.isWhole_whole _) (hstage8_5 0)

abbrev win8_6 : Pipeline.Window sig grid8 :=
  Pipeline.Window.whole (Memref.whole main_arg3) false false (stage8_6 0) (sem8_6 0) (Memref.isWhole_whole _) (hstage8_6 0)

abbrev win8_7 : Pipeline.Window sig grid8 :=
  Pipeline.Window.whole (Memref.whole main_arg4) false false (stage8_7 0) (sem8_7 0) (Memref.isWhole_whole _) (hstage8_7 0)

abbrev win8_8 : Pipeline.Window sig grid8 :=
  Pipeline.Window.whole (Memref.whole main_v12_0) true false (stage8_8 0) (sem8_8 0) (Memref.isWhole_whole _) (hstage8_8 0)

abbrev win8_9 : Pipeline.Window sig grid8 :=
  Pipeline.Window.whole (Memref.whole main_v12_1) true false (stage8_9 0) (sem8_9 0) (Memref.isWhole_whole _) (hstage8_9 0)

abbrev win8_10 : Pipeline.Window sig grid8 :=
  Pipeline.Window.whole (Memref.whole main_v12_2) true false (stage8_10 0) (sem8_10 0) (Memref.isWhole_whole _) (hstage8_10 0)

abbrev win8 : Fin 11 → Pipeline.Window sig grid8 := fun | 0 => win8_0 | 1 => win8_1 | 2 => win8_2 | 3 => win8_3 | 4 => win8_4 | 5 => win8_5 | 6 => win8_6 | 7 => win8_7 | 8 => win8_8 | 9 => win8_9 | 10 => win8_10 | ⟨_ + 11, h⟩ => absurd h (Nat.not_lt.2 (Nat.le_add_left _ _))
abbrev spec8 : Fin 11 → Pipeline.WinSpec sig grid8.rank := fun w => (win8 w).toWinSpec

abbrev win9_0 : Pipeline.Window sig grid9 :=
  Pipeline.Window.whole (Memref.whole main_arg0) false false (stage9_0 0) (sem9_0 0) (Memref.isWhole_whole _) (hstage9_0 0)

abbrev win9_1 : Pipeline.Window sig grid9 :=
  Pipeline.Window.whole (Memref.whole main_v12_0) false false (stage9_1 0) (sem9_1 0) (Memref.isWhole_whole _) (hstage9_1 0)

abbrev win9_2 : Pipeline.Window sig grid9 :=
  Pipeline.Window.whole (Memref.whole main_v12_1) false false (stage9_2 0) (sem9_2 0) (Memref.isWhole_whole _) (hstage9_2 0)

abbrev win9_3 : Pipeline.Window sig grid9 :=
  Pipeline.Window.whole (Memref.whole main_v12_2) false false (stage9_3 0) (sem9_3 0) (Memref.isWhole_whole _) (hstage9_3 0)

abbrev win9_4 : Pipeline.Window sig grid9 :=
  Pipeline.Window.whole (Memref.whole main_arg1) false false (stage9_4 0) (sem9_4 0) (Memref.isWhole_whole _) (hstage9_4 0)

abbrev win9_5 : Pipeline.Window sig grid9 :=
  Pipeline.Window.whole (Memref.whole main_arg2) false false (stage9_5 0) (sem9_5 0) (Memref.isWhole_whole _) (hstage9_5 0)

abbrev win9_6 : Pipeline.Window sig grid9 :=
  Pipeline.Window.whole (Memref.whole main_arg3) false false (stage9_6 0) (sem9_6 0) (Memref.isWhole_whole _) (hstage9_6 0)

abbrev win9_7 : Pipeline.Window sig grid9 :=
  Pipeline.Window.whole (Memref.whole main_arg4) false false (stage9_7 0) (sem9_7 0) (Memref.isWhole_whole _) (hstage9_7 0)

abbrev win9_8 : Pipeline.Window sig grid9 :=
  Pipeline.Window.whole (Memref.whole main_v13_0) true false (stage9_8 0) (sem9_8 0) (Memref.isWhole_whole _) (hstage9_8 0)

abbrev win9_9 : Pipeline.Window sig grid9 :=
  Pipeline.Window.whole (Memref.whole main_v13_1) true false (stage9_9 0) (sem9_9 0) (Memref.isWhole_whole _) (hstage9_9 0)

abbrev win9_10 : Pipeline.Window sig grid9 :=
  Pipeline.Window.whole (Memref.whole main_v13_2) true false (stage9_10 0) (sem9_10 0) (Memref.isWhole_whole _) (hstage9_10 0)

abbrev win9 : Fin 11 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | ⟨_ + 11, h⟩ => absurd h (Nat.not_lt.2 (Nat.le_add_left _ _))
abbrev spec9 : Fin 11 → Pipeline.WinSpec sig grid9.rank := fun w => (win9 w).toWinSpec

abbrev win10_0 : Pipeline.Window sig grid10 :=
  Pipeline.Window.whole (Memref.whole main_arg0) false false (stage10_0 0) (sem10_0 0) (Memref.isWhole_whole _) (hstage10_0 0)

abbrev win10_1 : Pipeline.Window sig grid10 :=
  Pipeline.Window.whole (Memref.whole main_v13_0) false false (stage10_1 0) (sem10_1 0) (Memref.isWhole_whole _) (hstage10_1 0)

abbrev win10_2 : Pipeline.Window sig grid10 :=
  Pipeline.Window.whole (Memref.whole main_v13_1) false false (stage10_2 0) (sem10_2 0) (Memref.isWhole_whole _) (hstage10_2 0)

abbrev win10_3 : Pipeline.Window sig grid10 :=
  Pipeline.Window.whole (Memref.whole main_v13_2) false false (stage10_3 0) (sem10_3 0) (Memref.isWhole_whole _) (hstage10_3 0)

abbrev win10_4 : Pipeline.Window sig grid10 :=
  Pipeline.Window.whole (Memref.whole main_arg1) false false (stage10_4 0) (sem10_4 0) (Memref.isWhole_whole _) (hstage10_4 0)

abbrev win10_5 : Pipeline.Window sig grid10 :=
  Pipeline.Window.whole (Memref.whole main_arg2) false false (stage10_5 0) (sem10_5 0) (Memref.isWhole_whole _) (hstage10_5 0)

abbrev win10_6 : Pipeline.Window sig grid10 :=
  Pipeline.Window.whole (Memref.whole main_arg3) false false (stage10_6 0) (sem10_6 0) (Memref.isWhole_whole _) (hstage10_6 0)

abbrev win10_7 : Pipeline.Window sig grid10 :=
  Pipeline.Window.whole (Memref.whole main_arg4) false false (stage10_7 0) (sem10_7 0) (Memref.isWhole_whole _) (hstage10_7 0)

abbrev win10_8 : Pipeline.Window sig grid10 :=
  Pipeline.Window.whole (Memref.whole main_v14_0) true false (stage10_8 0) (sem10_8 0) (Memref.isWhole_whole _) (hstage10_8 0)

abbrev win10_9 : Pipeline.Window sig grid10 :=
  Pipeline.Window.whole (Memref.whole main_v14_1) true false (stage10_9 0) (sem10_9 0) (Memref.isWhole_whole _) (hstage10_9 0)

abbrev win10_10 : Pipeline.Window sig grid10 :=
  Pipeline.Window.whole (Memref.whole main_v14_2) true false (stage10_10 0) (sem10_10 0) (Memref.isWhole_whole _) (hstage10_10 0)

abbrev win10 : Fin 11 → Pipeline.Window sig grid10 := fun | 0 => win10_0 | 1 => win10_1 | 2 => win10_2 | 3 => win10_3 | 4 => win10_4 | 5 => win10_5 | 6 => win10_6 | 7 => win10_7 | 8 => win10_8 | 9 => win10_9 | 10 => win10_10 | ⟨_ + 11, h⟩ => absurd h (Nat.not_lt.2 (Nat.le_add_left _ _))
abbrev spec10 : Fin 11 → Pipeline.WinSpec sig grid10.rank := fun w => (win10 w).toWinSpec

abbrev win11_0 : Pipeline.Window sig grid11 :=
  Pipeline.Window.whole (Memref.whole main_arg0) false false (stage11_0 0) (sem11_0 0) (Memref.isWhole_whole _) (hstage11_0 0)

abbrev win11_1 : Pipeline.Window sig grid11 :=
  Pipeline.Window.whole (Memref.whole main_v14_0) false false (stage11_1 0) (sem11_1 0) (Memref.isWhole_whole _) (hstage11_1 0)

abbrev win11_2 : Pipeline.Window sig grid11 :=
  Pipeline.Window.whole (Memref.whole main_v14_1) false false (stage11_2 0) (sem11_2 0) (Memref.isWhole_whole _) (hstage11_2 0)

abbrev win11_3 : Pipeline.Window sig grid11 :=
  Pipeline.Window.whole (Memref.whole main_v14_2) false false (stage11_3 0) (sem11_3 0) (Memref.isWhole_whole _) (hstage11_3 0)

abbrev win11_4 : Pipeline.Window sig grid11 :=
  Pipeline.Window.whole (Memref.whole main_arg1) false false (stage11_4 0) (sem11_4 0) (Memref.isWhole_whole _) (hstage11_4 0)

abbrev win11_5 : Pipeline.Window sig grid11 :=
  Pipeline.Window.whole (Memref.whole main_arg2) false false (stage11_5 0) (sem11_5 0) (Memref.isWhole_whole _) (hstage11_5 0)

abbrev win11_6 : Pipeline.Window sig grid11 :=
  Pipeline.Window.whole (Memref.whole main_arg3) false false (stage11_6 0) (sem11_6 0) (Memref.isWhole_whole _) (hstage11_6 0)

abbrev win11_7 : Pipeline.Window sig grid11 :=
  Pipeline.Window.whole (Memref.whole main_arg4) false false (stage11_7 0) (sem11_7 0) (Memref.isWhole_whole _) (hstage11_7 0)

abbrev win11_8 : Pipeline.Window sig grid11 :=
  Pipeline.Window.whole (Memref.whole main_v15_0) true false (stage11_8 0) (sem11_8 0) (Memref.isWhole_whole _) (hstage11_8 0)

abbrev win11_9 : Pipeline.Window sig grid11 :=
  Pipeline.Window.whole (Memref.whole main_v15_1) true false (stage11_9 0) (sem11_9 0) (Memref.isWhole_whole _) (hstage11_9 0)

abbrev win11_10 : Pipeline.Window sig grid11 :=
  Pipeline.Window.whole (Memref.whole main_v15_2) true false (stage11_10 0) (sem11_10 0) (Memref.isWhole_whole _) (hstage11_10 0)

abbrev win11 : Fin 11 → Pipeline.Window sig grid11 := fun | 0 => win11_0 | 1 => win11_1 | 2 => win11_2 | 3 => win11_3 | 4 => win11_4 | 5 => win11_5 | 6 => win11_6 | 7 => win11_7 | 8 => win11_8 | 9 => win11_9 | 10 => win11_10 | ⟨_ + 11, h⟩ => absurd h (Nat.not_lt.2 (Nat.le_add_left _ _))
abbrev spec11 : Fin 11 → Pipeline.WinSpec sig grid11.rank := fun w => (win11 w).toWinSpec

abbrev win12_0 : Pipeline.Window sig grid12 :=
  Pipeline.Window.whole (Memref.whole main_arg0) false false (stage12_0 0) (sem12_0 0) (Memref.isWhole_whole _) (hstage12_0 0)

abbrev win12_1 : Pipeline.Window sig grid12 :=
  Pipeline.Window.whole (Memref.whole main_v15_0) false false (stage12_1 0) (sem12_1 0) (Memref.isWhole_whole _) (hstage12_1 0)

abbrev win12_2 : Pipeline.Window sig grid12 :=
  Pipeline.Window.whole (Memref.whole main_v15_1) false false (stage12_2 0) (sem12_2 0) (Memref.isWhole_whole _) (hstage12_2 0)

abbrev win12_3 : Pipeline.Window sig grid12 :=
  Pipeline.Window.whole (Memref.whole main_v15_2) false false (stage12_3 0) (sem12_3 0) (Memref.isWhole_whole _) (hstage12_3 0)

abbrev win12_4 : Pipeline.Window sig grid12 :=
  Pipeline.Window.whole (Memref.whole main_arg1) false false (stage12_4 0) (sem12_4 0) (Memref.isWhole_whole _) (hstage12_4 0)

abbrev win12_5 : Pipeline.Window sig grid12 :=
  Pipeline.Window.whole (Memref.whole main_arg2) false false (stage12_5 0) (sem12_5 0) (Memref.isWhole_whole _) (hstage12_5 0)

abbrev win12_6 : Pipeline.Window sig grid12 :=
  Pipeline.Window.whole (Memref.whole main_arg3) false false (stage12_6 0) (sem12_6 0) (Memref.isWhole_whole _) (hstage12_6 0)

abbrev win12_7 : Pipeline.Window sig grid12 :=
  Pipeline.Window.whole (Memref.whole main_arg4) false false (stage12_7 0) (sem12_7 0) (Memref.isWhole_whole _) (hstage12_7 0)

abbrev win12_8 : Pipeline.Window sig grid12 :=
  Pipeline.Window.whole (Memref.whole main_v16_0) true false (stage12_8 0) (sem12_8 0) (Memref.isWhole_whole _) (hstage12_8 0)

abbrev win12_9 : Pipeline.Window sig grid12 :=
  Pipeline.Window.whole (Memref.whole main_v16_1) true false (stage12_9 0) (sem12_9 0) (Memref.isWhole_whole _) (hstage12_9 0)

abbrev win12_10 : Pipeline.Window sig grid12 :=
  Pipeline.Window.whole (Memref.whole main_v16_2) true false (stage12_10 0) (sem12_10 0) (Memref.isWhole_whole _) (hstage12_10 0)

abbrev win12 : Fin 11 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | ⟨_ + 11, h⟩ => absurd h (Nat.not_lt.2 (Nat.le_add_left _ _))
abbrev spec12 : Fin 11 → Pipeline.WinSpec sig grid12.rank := fun w => (win12 w).toWinSpec

abbrev win13_0 : Pipeline.Window sig grid13 :=
  Pipeline.Window.whole (Memref.whole main_arg0) false false (stage13_0 0) (sem13_0 0) (Memref.isWhole_whole _) (hstage13_0 0)

abbrev win13_1 : Pipeline.Window sig grid13 :=
  Pipeline.Window.whole (Memref.whole main_v16_0) false false (stage13_1 0) (sem13_1 0) (Memref.isWhole_whole _) (hstage13_1 0)

abbrev win13_2 : Pipeline.Window sig grid13 :=
  Pipeline.Window.whole (Memref.whole main_v16_1) false false (stage13_2 0) (sem13_2 0) (Memref.isWhole_whole _) (hstage13_2 0)

abbrev win13_3 : Pipeline.Window sig grid13 :=
  Pipeline.Window.whole (Memref.whole main_v16_2) false false (stage13_3 0) (sem13_3 0) (Memref.isWhole_whole _) (hstage13_3 0)

abbrev win13_4 : Pipeline.Window sig grid13 :=
  Pipeline.Window.whole (Memref.whole main_arg1) false false (stage13_4 0) (sem13_4 0) (Memref.isWhole_whole _) (hstage13_4 0)

abbrev win13_5 : Pipeline.Window sig grid13 :=
  Pipeline.Window.whole (Memref.whole main_arg2) false false (stage13_5 0) (sem13_5 0) (Memref.isWhole_whole _) (hstage13_5 0)

abbrev win13_6 : Pipeline.Window sig grid13 :=
  Pipeline.Window.whole (Memref.whole main_arg3) false false (stage13_6 0) (sem13_6 0) (Memref.isWhole_whole _) (hstage13_6 0)

abbrev win13_7 : Pipeline.Window sig grid13 :=
  Pipeline.Window.whole (Memref.whole main_arg4) false false (stage13_7 0) (sem13_7 0) (Memref.isWhole_whole _) (hstage13_7 0)

abbrev win13_8 : Pipeline.Window sig grid13 :=
  Pipeline.Window.whole (Memref.whole main_v17_0) true false (stage13_8 0) (sem13_8 0) (Memref.isWhole_whole _) (hstage13_8 0)

abbrev win13_9 : Pipeline.Window sig grid13 :=
  Pipeline.Window.whole (Memref.whole main_v17_1) true false (stage13_9 0) (sem13_9 0) (Memref.isWhole_whole _) (hstage13_9 0)

abbrev win13_10 : Pipeline.Window sig grid13 :=
  Pipeline.Window.whole (Memref.whole main_v17_2) true false (stage13_10 0) (sem13_10 0) (Memref.isWhole_whole _) (hstage13_10 0)

abbrev win13 : Fin 11 → Pipeline.Window sig grid13 := fun | 0 => win13_0 | 1 => win13_1 | 2 => win13_2 | 3 => win13_3 | 4 => win13_4 | 5 => win13_5 | 6 => win13_6 | 7 => win13_7 | 8 => win13_8 | 9 => win13_9 | 10 => win13_10 | ⟨_ + 11, h⟩ => absurd h (Nat.not_lt.2 (Nat.le_add_left _ _))
abbrev spec13 : Fin 11 → Pipeline.WinSpec sig grid13.rank := fun w => (win13 w).toWinSpec

abbrev win14_0 : Pipeline.Window sig grid14 :=
  Pipeline.Window.whole (Memref.whole main_arg0) false false (stage14_0 0) (sem14_0 0) (Memref.isWhole_whole _) (hstage14_0 0)

abbrev win14_1 : Pipeline.Window sig grid14 :=
  Pipeline.Window.whole (Memref.whole main_v17_0) false false (stage14_1 0) (sem14_1 0) (Memref.isWhole_whole _) (hstage14_1 0)

abbrev win14_2 : Pipeline.Window sig grid14 :=
  Pipeline.Window.whole (Memref.whole main_v17_1) false false (stage14_2 0) (sem14_2 0) (Memref.isWhole_whole _) (hstage14_2 0)

abbrev win14_3 : Pipeline.Window sig grid14 :=
  Pipeline.Window.whole (Memref.whole main_v17_2) false false (stage14_3 0) (sem14_3 0) (Memref.isWhole_whole _) (hstage14_3 0)

abbrev win14_4 : Pipeline.Window sig grid14 :=
  Pipeline.Window.whole (Memref.whole main_arg1) false false (stage14_4 0) (sem14_4 0) (Memref.isWhole_whole _) (hstage14_4 0)

abbrev win14_5 : Pipeline.Window sig grid14 :=
  Pipeline.Window.whole (Memref.whole main_arg2) false false (stage14_5 0) (sem14_5 0) (Memref.isWhole_whole _) (hstage14_5 0)

abbrev win14_6 : Pipeline.Window sig grid14 :=
  Pipeline.Window.whole (Memref.whole main_arg3) false false (stage14_6 0) (sem14_6 0) (Memref.isWhole_whole _) (hstage14_6 0)

abbrev win14_7 : Pipeline.Window sig grid14 :=
  Pipeline.Window.whole (Memref.whole main_arg4) false false (stage14_7 0) (sem14_7 0) (Memref.isWhole_whole _) (hstage14_7 0)

abbrev win14_8 : Pipeline.Window sig grid14 :=
  Pipeline.Window.whole (Memref.whole main_v18_0) true false (stage14_8 0) (sem14_8 0) (Memref.isWhole_whole _) (hstage14_8 0)

abbrev win14_9 : Pipeline.Window sig grid14 :=
  Pipeline.Window.whole (Memref.whole main_v18_1) true false (stage14_9 0) (sem14_9 0) (Memref.isWhole_whole _) (hstage14_9 0)

abbrev win14_10 : Pipeline.Window sig grid14 :=
  Pipeline.Window.whole (Memref.whole main_v18_2) true false (stage14_10 0) (sem14_10 0) (Memref.isWhole_whole _) (hstage14_10 0)

abbrev win14 : Fin 11 → Pipeline.Window sig grid14 := fun | 0 => win14_0 | 1 => win14_1 | 2 => win14_2 | 3 => win14_3 | 4 => win14_4 | 5 => win14_5 | 6 => win14_6 | 7 => win14_7 | 8 => win14_8 | 9 => win14_9 | 10 => win14_10 | ⟨_ + 11, h⟩ => absurd h (Nat.not_lt.2 (Nat.le_add_left _ _))
abbrev spec14 : Fin 11 → Pipeline.WinSpec sig grid14.rank := fun w => (win14 w).toWinSpec

abbrev win15_0 : Pipeline.Window sig grid15 :=
  Pipeline.Window.whole (Memref.whole main_arg0) false false (stage15_0 0) (sem15_0 0) (Memref.isWhole_whole _) (hstage15_0 0)

abbrev win15_1 : Pipeline.Window sig grid15 :=
  Pipeline.Window.whole (Memref.whole main_v18_0) false false (stage15_1 0) (sem15_1 0) (Memref.isWhole_whole _) (hstage15_1 0)

abbrev win15_2 : Pipeline.Window sig grid15 :=
  Pipeline.Window.whole (Memref.whole main_v18_1) false false (stage15_2 0) (sem15_2 0) (Memref.isWhole_whole _) (hstage15_2 0)

abbrev win15_3 : Pipeline.Window sig grid15 :=
  Pipeline.Window.whole (Memref.whole main_v18_2) false false (stage15_3 0) (sem15_3 0) (Memref.isWhole_whole _) (hstage15_3 0)

abbrev win15_4 : Pipeline.Window sig grid15 :=
  Pipeline.Window.whole (Memref.whole main_arg1) false false (stage15_4 0) (sem15_4 0) (Memref.isWhole_whole _) (hstage15_4 0)

abbrev win15_5 : Pipeline.Window sig grid15 :=
  Pipeline.Window.whole (Memref.whole main_arg2) false false (stage15_5 0) (sem15_5 0) (Memref.isWhole_whole _) (hstage15_5 0)

abbrev win15_6 : Pipeline.Window sig grid15 :=
  Pipeline.Window.whole (Memref.whole main_arg3) false false (stage15_6 0) (sem15_6 0) (Memref.isWhole_whole _) (hstage15_6 0)

abbrev win15_7 : Pipeline.Window sig grid15 :=
  Pipeline.Window.whole (Memref.whole main_arg4) false false (stage15_7 0) (sem15_7 0) (Memref.isWhole_whole _) (hstage15_7 0)

abbrev win15_8 : Pipeline.Window sig grid15 :=
  Pipeline.Window.whole (Memref.whole main_v19_0) true false (stage15_8 0) (sem15_8 0) (Memref.isWhole_whole _) (hstage15_8 0)

abbrev win15_9 : Pipeline.Window sig grid15 :=
  Pipeline.Window.whole (Memref.whole main_v19_1) true false (stage15_9 0) (sem15_9 0) (Memref.isWhole_whole _) (hstage15_9 0)

abbrev win15_10 : Pipeline.Window sig grid15 :=
  Pipeline.Window.whole (Memref.whole main_v19_2) true false (stage15_10 0) (sem15_10 0) (Memref.isWhole_whole _) (hstage15_10 0)

abbrev win15 : Fin 11 → Pipeline.Window sig grid15 := fun | 0 => win15_0 | 1 => win15_1 | 2 => win15_2 | 3 => win15_3 | 4 => win15_4 | 5 => win15_5 | 6 => win15_6 | 7 => win15_7 | 8 => win15_8 | 9 => win15_9 | 10 => win15_10 | ⟨_ + 11, h⟩ => absurd h (Nat.not_lt.2 (Nat.le_add_left _ _))
abbrev spec15 : Fin 11 → Pipeline.WinSpec sig grid15.rank := fun w => (win15 w).toWinSpec

abbrev win16_0 : Pipeline.Window sig grid16 :=
  Pipeline.Window.whole (Memref.whole main_arg0) false false (stage16_0 0) (sem16_0 0) (Memref.isWhole_whole _) (hstage16_0 0)

abbrev win16_1 : Pipeline.Window sig grid16 :=
  Pipeline.Window.whole (Memref.whole main_v19_0) false false (stage16_1 0) (sem16_1 0) (Memref.isWhole_whole _) (hstage16_1 0)

abbrev win16_2 : Pipeline.Window sig grid16 :=
  Pipeline.Window.whole (Memref.whole main_v19_1) false false (stage16_2 0) (sem16_2 0) (Memref.isWhole_whole _) (hstage16_2 0)

abbrev win16_3 : Pipeline.Window sig grid16 :=
  Pipeline.Window.whole (Memref.whole main_v19_2) false false (stage16_3 0) (sem16_3 0) (Memref.isWhole_whole _) (hstage16_3 0)

abbrev win16_4 : Pipeline.Window sig grid16 :=
  Pipeline.Window.whole (Memref.whole main_arg1) false false (stage16_4 0) (sem16_4 0) (Memref.isWhole_whole _) (hstage16_4 0)

abbrev win16_5 : Pipeline.Window sig grid16 :=
  Pipeline.Window.whole (Memref.whole main_arg2) false false (stage16_5 0) (sem16_5 0) (Memref.isWhole_whole _) (hstage16_5 0)

abbrev win16_6 : Pipeline.Window sig grid16 :=
  Pipeline.Window.whole (Memref.whole main_arg3) false false (stage16_6 0) (sem16_6 0) (Memref.isWhole_whole _) (hstage16_6 0)

abbrev win16_7 : Pipeline.Window sig grid16 :=
  Pipeline.Window.whole (Memref.whole main_arg4) false false (stage16_7 0) (sem16_7 0) (Memref.isWhole_whole _) (hstage16_7 0)

abbrev win16_8 : Pipeline.Window sig grid16 :=
  Pipeline.Window.whole (Memref.whole main_v20_0) true false (stage16_8 0) (sem16_8 0) (Memref.isWhole_whole _) (hstage16_8 0)

abbrev win16_9 : Pipeline.Window sig grid16 :=
  Pipeline.Window.whole (Memref.whole main_v20_1) true false (stage16_9 0) (sem16_9 0) (Memref.isWhole_whole _) (hstage16_9 0)

abbrev win16_10 : Pipeline.Window sig grid16 :=
  Pipeline.Window.whole (Memref.whole main_v20_2) true false (stage16_10 0) (sem16_10 0) (Memref.isWhole_whole _) (hstage16_10 0)

abbrev win16 : Fin 11 → Pipeline.Window sig grid16 := fun | 0 => win16_0 | 1 => win16_1 | 2 => win16_2 | 3 => win16_3 | 4 => win16_4 | 5 => win16_5 | 6 => win16_6 | 7 => win16_7 | 8 => win16_8 | 9 => win16_9 | 10 => win16_10 | ⟨_ + 11, h⟩ => absurd h (Nat.not_lt.2 (Nat.le_add_left _ _))
abbrev spec16 : Fin 11 → Pipeline.WinSpec sig grid16.rank := fun w => (win16 w).toWinSpec

abbrev win17_0 : Pipeline.Window sig grid17 :=
  Pipeline.Window.whole (Memref.whole main_arg0) false false (stage17_0 0) (sem17_0 0) (Memref.isWhole_whole _) (hstage17_0 0)

abbrev win17_1 : Pipeline.Window sig grid17 :=
  Pipeline.Window.whole (Memref.whole main_v20_0) false false (stage17_1 0) (sem17_1 0) (Memref.isWhole_whole _) (hstage17_1 0)

abbrev win17_2 : Pipeline.Window sig grid17 :=
  Pipeline.Window.whole (Memref.whole main_v20_1) false false (stage17_2 0) (sem17_2 0) (Memref.isWhole_whole _) (hstage17_2 0)

abbrev win17_3 : Pipeline.Window sig grid17 :=
  Pipeline.Window.whole (Memref.whole main_v20_2) false false (stage17_3 0) (sem17_3 0) (Memref.isWhole_whole _) (hstage17_3 0)

abbrev win17_4 : Pipeline.Window sig grid17 :=
  Pipeline.Window.whole (Memref.whole main_arg1) false false (stage17_4 0) (sem17_4 0) (Memref.isWhole_whole _) (hstage17_4 0)

abbrev win17_5 : Pipeline.Window sig grid17 :=
  Pipeline.Window.whole (Memref.whole main_arg2) false false (stage17_5 0) (sem17_5 0) (Memref.isWhole_whole _) (hstage17_5 0)

abbrev win17_6 : Pipeline.Window sig grid17 :=
  Pipeline.Window.whole (Memref.whole main_arg3) false false (stage17_6 0) (sem17_6 0) (Memref.isWhole_whole _) (hstage17_6 0)

abbrev win17_7 : Pipeline.Window sig grid17 :=
  Pipeline.Window.whole (Memref.whole main_arg4) false false (stage17_7 0) (sem17_7 0) (Memref.isWhole_whole _) (hstage17_7 0)

abbrev win17_8 : Pipeline.Window sig grid17 :=
  Pipeline.Window.whole (Memref.whole main_v21_0) true false (stage17_8 0) (sem17_8 0) (Memref.isWhole_whole _) (hstage17_8 0)

abbrev win17_9 : Pipeline.Window sig grid17 :=
  Pipeline.Window.whole (Memref.whole main_v21_1) true false (stage17_9 0) (sem17_9 0) (Memref.isWhole_whole _) (hstage17_9 0)

abbrev win17_10 : Pipeline.Window sig grid17 :=
  Pipeline.Window.whole (Memref.whole main_v21_2) true false (stage17_10 0) (sem17_10 0) (Memref.isWhole_whole _) (hstage17_10 0)

abbrev win17 : Fin 11 → Pipeline.Window sig grid17 := fun | 0 => win17_0 | 1 => win17_1 | 2 => win17_2 | 3 => win17_3 | 4 => win17_4 | 5 => win17_5 | 6 => win17_6 | 7 => win17_7 | 8 => win17_8 | 9 => win17_9 | 10 => win17_10 | ⟨_ + 11, h⟩ => absurd h (Nat.not_lt.2 (Nat.le_add_left _ _))
abbrev spec17 : Fin 11 → Pipeline.WinSpec sig grid17.rank := fun w => (win17 w).toWinSpec

abbrev win18_0 : Pipeline.Window sig grid18 :=
  Pipeline.Window.whole (Memref.whole main_arg0) false false (stage18_0 0) (sem18_0 0) (Memref.isWhole_whole _) (hstage18_0 0)

abbrev win18_1 : Pipeline.Window sig grid18 :=
  Pipeline.Window.whole (Memref.whole main_v21_0) false false (stage18_1 0) (sem18_1 0) (Memref.isWhole_whole _) (hstage18_1 0)

abbrev win18_2 : Pipeline.Window sig grid18 :=
  Pipeline.Window.whole (Memref.whole main_v21_1) false false (stage18_2 0) (sem18_2 0) (Memref.isWhole_whole _) (hstage18_2 0)

abbrev win18_3 : Pipeline.Window sig grid18 :=
  Pipeline.Window.whole (Memref.whole main_v21_2) false false (stage18_3 0) (sem18_3 0) (Memref.isWhole_whole _) (hstage18_3 0)

abbrev win18_4 : Pipeline.Window sig grid18 :=
  Pipeline.Window.whole (Memref.whole main_arg1) false false (stage18_4 0) (sem18_4 0) (Memref.isWhole_whole _) (hstage18_4 0)

abbrev win18_5 : Pipeline.Window sig grid18 :=
  Pipeline.Window.whole (Memref.whole main_arg2) false false (stage18_5 0) (sem18_5 0) (Memref.isWhole_whole _) (hstage18_5 0)

abbrev win18_6 : Pipeline.Window sig grid18 :=
  Pipeline.Window.whole (Memref.whole main_arg3) false false (stage18_6 0) (sem18_6 0) (Memref.isWhole_whole _) (hstage18_6 0)

abbrev win18_7 : Pipeline.Window sig grid18 :=
  Pipeline.Window.whole (Memref.whole main_arg4) false false (stage18_7 0) (sem18_7 0) (Memref.isWhole_whole _) (hstage18_7 0)

abbrev win18_8 : Pipeline.Window sig grid18 :=
  Pipeline.Window.whole (Memref.whole main_v22_0) true false (stage18_8 0) (sem18_8 0) (Memref.isWhole_whole _) (hstage18_8 0)

abbrev win18_9 : Pipeline.Window sig grid18 :=
  Pipeline.Window.whole (Memref.whole main_v22_1) true false (stage18_9 0) (sem18_9 0) (Memref.isWhole_whole _) (hstage18_9 0)

abbrev win18_10 : Pipeline.Window sig grid18 :=
  Pipeline.Window.whole (Memref.whole main_v22_2) true false (stage18_10 0) (sem18_10 0) (Memref.isWhole_whole _) (hstage18_10 0)

abbrev win18 : Fin 11 → Pipeline.Window sig grid18 := fun | 0 => win18_0 | 1 => win18_1 | 2 => win18_2 | 3 => win18_3 | 4 => win18_4 | 5 => win18_5 | 6 => win18_6 | 7 => win18_7 | 8 => win18_8 | 9 => win18_9 | 10 => win18_10 | ⟨_ + 11, h⟩ => absurd h (Nat.not_lt.2 (Nat.le_add_left _ _))
abbrev spec18 : Fin 11 → Pipeline.WinSpec sig grid18.rank := fun w => (win18 w).toWinSpec

abbrev win19_0 : Pipeline.Window sig grid19 :=
  Pipeline.Window.whole (Memref.whole main_arg0) false false (stage19_0 0) (sem19_0 0) (Memref.isWhole_whole _) (hstage19_0 0)

abbrev win19_1 : Pipeline.Window sig grid19 :=
  Pipeline.Window.whole (Memref.whole main_v22_0) false false (stage19_1 0) (sem19_1 0) (Memref.isWhole_whole _) (hstage19_1 0)

abbrev win19_2 : Pipeline.Window sig grid19 :=
  Pipeline.Window.whole (Memref.whole main_v22_1) false false (stage19_2 0) (sem19_2 0) (Memref.isWhole_whole _) (hstage19_2 0)

abbrev win19_3 : Pipeline.Window sig grid19 :=
  Pipeline.Window.whole (Memref.whole main_v22_2) false false (stage19_3 0) (sem19_3 0) (Memref.isWhole_whole _) (hstage19_3 0)

abbrev win19_4 : Pipeline.Window sig grid19 :=
  Pipeline.Window.whole (Memref.whole main_arg1) false false (stage19_4 0) (sem19_4 0) (Memref.isWhole_whole _) (hstage19_4 0)

abbrev win19_5 : Pipeline.Window sig grid19 :=
  Pipeline.Window.whole (Memref.whole main_arg2) false false (stage19_5 0) (sem19_5 0) (Memref.isWhole_whole _) (hstage19_5 0)

abbrev win19_6 : Pipeline.Window sig grid19 :=
  Pipeline.Window.whole (Memref.whole main_arg3) false false (stage19_6 0) (sem19_6 0) (Memref.isWhole_whole _) (hstage19_6 0)

abbrev win19_7 : Pipeline.Window sig grid19 :=
  Pipeline.Window.whole (Memref.whole main_arg4) false false (stage19_7 0) (sem19_7 0) (Memref.isWhole_whole _) (hstage19_7 0)

abbrev win19_8 : Pipeline.Window sig grid19 :=
  Pipeline.Window.whole (Memref.whole main_v23_0) true false (stage19_8 0) (sem19_8 0) (Memref.isWhole_whole _) (hstage19_8 0)

abbrev win19_9 : Pipeline.Window sig grid19 :=
  Pipeline.Window.whole (Memref.whole main_v23_1) true false (stage19_9 0) (sem19_9 0) (Memref.isWhole_whole _) (hstage19_9 0)

abbrev win19_10 : Pipeline.Window sig grid19 :=
  Pipeline.Window.whole (Memref.whole main_v23_2) true false (stage19_10 0) (sem19_10 0) (Memref.isWhole_whole _) (hstage19_10 0)

abbrev win19 : Fin 11 → Pipeline.Window sig grid19 := fun | 0 => win19_0 | 1 => win19_1 | 2 => win19_2 | 3 => win19_3 | 4 => win19_4 | 5 => win19_5 | 6 => win19_6 | 7 => win19_7 | 8 => win19_8 | 9 => win19_9 | 10 => win19_10 | ⟨_ + 11, h⟩ => absurd h (Nat.not_lt.2 (Nat.le_add_left _ _))
abbrev spec19 : Fin 11 → Pipeline.WinSpec sig grid19.rank := fun w => (win19 w).toWinSpec

abbrev win20_0 : Pipeline.Window sig grid20 :=
  Pipeline.Window.whole (Memref.whole main_arg0) false false (stage20_0 0) (sem20_0 0) (Memref.isWhole_whole _) (hstage20_0 0)

abbrev win20_1 : Pipeline.Window sig grid20 :=
  Pipeline.Window.whole (Memref.whole main_v23_0) false false (stage20_1 0) (sem20_1 0) (Memref.isWhole_whole _) (hstage20_1 0)

abbrev win20_2 : Pipeline.Window sig grid20 :=
  Pipeline.Window.whole (Memref.whole main_v23_1) false false (stage20_2 0) (sem20_2 0) (Memref.isWhole_whole _) (hstage20_2 0)

abbrev win20_3 : Pipeline.Window sig grid20 :=
  Pipeline.Window.whole (Memref.whole main_v23_2) false false (stage20_3 0) (sem20_3 0) (Memref.isWhole_whole _) (hstage20_3 0)

abbrev win20_4 : Pipeline.Window sig grid20 :=
  Pipeline.Window.whole (Memref.whole main_arg1) false false (stage20_4 0) (sem20_4 0) (Memref.isWhole_whole _) (hstage20_4 0)

abbrev win20_5 : Pipeline.Window sig grid20 :=
  Pipeline.Window.whole (Memref.whole main_arg2) false false (stage20_5 0) (sem20_5 0) (Memref.isWhole_whole _) (hstage20_5 0)

abbrev win20_6 : Pipeline.Window sig grid20 :=
  Pipeline.Window.whole (Memref.whole main_arg3) false false (stage20_6 0) (sem20_6 0) (Memref.isWhole_whole _) (hstage20_6 0)

abbrev win20_7 : Pipeline.Window sig grid20 :=
  Pipeline.Window.whole (Memref.whole main_arg4) false false (stage20_7 0) (sem20_7 0) (Memref.isWhole_whole _) (hstage20_7 0)

abbrev win20_8 : Pipeline.Window sig grid20 :=
  Pipeline.Window.whole (Memref.whole main_v24_0) true false (stage20_8 0) (sem20_8 0) (Memref.isWhole_whole _) (hstage20_8 0)

abbrev win20_9 : Pipeline.Window sig grid20 :=
  Pipeline.Window.whole (Memref.whole main_v24_1) true false (stage20_9 0) (sem20_9 0) (Memref.isWhole_whole _) (hstage20_9 0)

abbrev win20_10 : Pipeline.Window sig grid20 :=
  Pipeline.Window.whole (Memref.whole main_v24_2) true false (stage20_10 0) (sem20_10 0) (Memref.isWhole_whole _) (hstage20_10 0)

abbrev win20 : Fin 11 → Pipeline.Window sig grid20 := fun | 0 => win20_0 | 1 => win20_1 | 2 => win20_2 | 3 => win20_3 | 4 => win20_4 | 5 => win20_5 | 6 => win20_6 | 7 => win20_7 | 8 => win20_8 | 9 => win20_9 | 10 => win20_10 | ⟨_ + 11, h⟩ => absurd h (Nat.not_lt.2 (Nat.le_add_left _ _))
abbrev spec20 : Fin 11 → Pipeline.WinSpec sig grid20.rank := fun w => (win20 w).toWinSpec

abbrev win21_0 : Pipeline.Window sig grid21 :=
  Pipeline.Window.whole (Memref.whole main_arg0) false false (stage21_0 0) (sem21_0 0) (Memref.isWhole_whole _) (hstage21_0 0)

abbrev win21_1 : Pipeline.Window sig grid21 :=
  Pipeline.Window.whole (Memref.whole main_v0_0) false false (stage21_1 0) (sem21_1 0) (Memref.isWhole_whole _) (hstage21_1 0)

abbrev win21_2 : Pipeline.Window sig grid21 :=
  Pipeline.Window.whole (Memref.whole main_v0_1) false false (stage21_2 0) (sem21_2 0) (Memref.isWhole_whole _) (hstage21_2 0)

abbrev win21_3 : Pipeline.Window sig grid21 :=
  Pipeline.Window.whole (Memref.whole main_v0_2) false false (stage21_3 0) (sem21_3 0) (Memref.isWhole_whole _) (hstage21_3 0)

abbrev win21_4 : Pipeline.Window sig grid21 :=
  Pipeline.Window.whole (Memref.whole main_arg2) false false (stage21_4 0) (sem21_4 0) (Memref.isWhole_whole _) (hstage21_4 0)

abbrev win21_5 : Pipeline.Window sig grid21 :=
  Pipeline.Window.whole (Memref.whole main_arg3) false false (stage21_5 0) (sem21_5 0) (Memref.isWhole_whole _) (hstage21_5 0)

abbrev win21_6 : Pipeline.Window sig grid21 :=
  Pipeline.Window.whole (Memref.whole main_arg4) false false (stage21_6 0) (sem21_6 0) (Memref.isWhole_whole _) (hstage21_6 0)

abbrev win21_7 : Pipeline.Window sig grid21 :=
  Pipeline.Window.whole (Memref.whole main_v25_0) true false (stage21_7 0) (sem21_7 0) (Memref.isWhole_whole _) (hstage21_7 0)

abbrev win21_8 : Pipeline.Window sig grid21 :=
  Pipeline.Window.whole (Memref.whole main_v25_1) true false (stage21_8 0) (sem21_8 0) (Memref.isWhole_whole _) (hstage21_8 0)

abbrev win21_9 : Pipeline.Window sig grid21 :=
  Pipeline.Window.whole (Memref.whole main_v25_2) true false (stage21_9 0) (sem21_9 0) (Memref.isWhole_whole _) (hstage21_9 0)

abbrev win21 : Fin 10 → Pipeline.Window sig grid21 := fun | 0 => win21_0 | 1 => win21_1 | 2 => win21_2 | 3 => win21_3 | 4 => win21_4 | 5 => win21_5 | 6 => win21_6 | 7 => win21_7 | 8 => win21_8 | 9 => win21_9 | ⟨_ + 10, h⟩ => absurd h (Nat.not_lt.2 (Nat.le_add_left _ _))
abbrev spec21 : Fin 10 → Pipeline.WinSpec sig grid21.rank := fun w => (win21 w).toWinSpec

abbrev win22_0 : Pipeline.Window sig grid22 :=
  Pipeline.Window.whole (Memref.whole main_arg0) false false (stage22_0 0) (sem22_0 0) (Memref.isWhole_whole _) (hstage22_0 0)

abbrev win22_1 : Pipeline.Window sig grid22 :=
  Pipeline.Window.whole (Memref.whole main_v24_0) false false (stage22_1 0) (sem22_1 0) (Memref.isWhole_whole _) (hstage22_1 0)

abbrev win22_2 : Pipeline.Window sig grid22 :=
  Pipeline.Window.whole (Memref.whole main_v24_1) false false (stage22_2 0) (sem22_2 0) (Memref.isWhole_whole _) (hstage22_2 0)

abbrev win22_3 : Pipeline.Window sig grid22 :=
  Pipeline.Window.whole (Memref.whole main_v24_2) false false (stage22_3 0) (sem22_3 0) (Memref.isWhole_whole _) (hstage22_3 0)

abbrev win22_4 : Pipeline.Window sig grid22 :=
  Pipeline.Window.whole (Memref.whole main_arg2) false false (stage22_4 0) (sem22_4 0) (Memref.isWhole_whole _) (hstage22_4 0)

abbrev win22_5 : Pipeline.Window sig grid22 :=
  Pipeline.Window.whole (Memref.whole main_arg3) false false (stage22_5 0) (sem22_5 0) (Memref.isWhole_whole _) (hstage22_5 0)

abbrev win22_6 : Pipeline.Window sig grid22 :=
  Pipeline.Window.whole (Memref.whole main_arg4) false false (stage22_6 0) (sem22_6 0) (Memref.isWhole_whole _) (hstage22_6 0)

abbrev win22_7 : Pipeline.Window sig grid22 :=
  Pipeline.Window.whole (Memref.whole main_v26_0) true false (stage22_7 0) (sem22_7 0) (Memref.isWhole_whole _) (hstage22_7 0)

abbrev win22_8 : Pipeline.Window sig grid22 :=
  Pipeline.Window.whole (Memref.whole main_v26_1) true false (stage22_8 0) (sem22_8 0) (Memref.isWhole_whole _) (hstage22_8 0)

abbrev win22_9 : Pipeline.Window sig grid22 :=
  Pipeline.Window.whole (Memref.whole main_v26_2) true false (stage22_9 0) (sem22_9 0) (Memref.isWhole_whole _) (hstage22_9 0)

abbrev win22 : Fin 10 → Pipeline.Window sig grid22 := fun | 0 => win22_0 | 1 => win22_1 | 2 => win22_2 | 3 => win22_3 | 4 => win22_4 | 5 => win22_5 | 6 => win22_6 | 7 => win22_7 | 8 => win22_8 | 9 => win22_9 | ⟨_ + 10, h⟩ => absurd h (Nat.not_lt.2 (Nat.le_add_left _ _))
abbrev spec22 : Fin 10 → Pipeline.WinSpec sig grid22.rank := fun w => (win22 w).toWinSpec

class Facts : Prop extends Facts₀ where

variable [Facts]
-- ==== ReferenceIdeal.lean ====
abbrev S1024x1024 : Shape := ⟨2, ![1024, 1024]⟩
abbrev S1024x512 : Shape := ⟨2, ![1024, 512]⟩
abbrev S512x1024 : Shape := ⟨2, ![512, 1024]⟩
abbrev S_ : Shape := ⟨0, ![]⟩
abbrev S1048576 : Shape := ⟨1, ![1048576]⟩
abbrev S524288 : Shape := ⟨1, ![524288]⟩
abbrev S1 : Shape := ⟨1, ![1]⟩
abbrev S2621441 : Shape := ⟨1, ![2621441]⟩

abbrev nBuf : Space → Nat
  | .hbm => 724
  | .vmem => 0
  | .smem => 0
  | _ => 0

abbrev hbmTy0_0 (i : Nat) : BufTy := match i % 128 with
  | 0 => ⟨S1024x1024, .f32⟩
  | 1 => ⟨S1024x512, .f32⟩
  | 2 => ⟨S1024x1024, .f32⟩
  | 3 => ⟨S1024x1024, .f32⟩
  | 4 => ⟨S1024x512, .f32⟩
  | 5 => ⟨S1024x1024, .f32⟩
  | 6 => ⟨S1024x1024, .f32⟩
  | 7 => ⟨S1024x512, .f32⟩
  | 8 => ⟨S1024x1024, .f32⟩
  | 9 => ⟨S1024x1024, .f32⟩
  | 10 => ⟨S1024x512, .f32⟩
  | 11 => ⟨S1024x1024, .f32⟩
  | 12 => ⟨S1024x1024, .f32⟩
  | 13 => ⟨S1024x1024, .f32⟩
  | 14 => ⟨S1024x1024, .f32⟩
  | 15 => ⟨S1024x1024, .f32⟩
  | 16 => ⟨S1024x1024, .f32⟩
  | 17 => ⟨S1024x1024, .f32⟩
  | 18 => ⟨S1024x1024, .f32⟩
  | 19 => ⟨S1024x1024, .f32⟩
  | 20 => ⟨S1024x512, .f32⟩
  | 21 => ⟨S1024x512, .f32⟩
  | 22 => ⟨S512x1024, .f32⟩
  | 23 => ⟨S1024x1024, .f32⟩
  | 24 => ⟨S1024x1024, .f32⟩
  | 25 => ⟨S1024x512, .f32⟩
  | 26 => ⟨S1024x512, .f32⟩
  | 27 => ⟨S1024x512, .f32⟩
  | 28 => ⟨S_, .f32⟩
  | 29 => ⟨S1024x512, .f32⟩
  | 30 => ⟨S1024x512, .f32⟩
  | 31 => ⟨S1024x512, .f32⟩
  | 32 => ⟨S512x1024, .f32⟩
  | 33 => ⟨S1024x1024, .f32⟩
  | 34 => ⟨S1024x1024, .f32⟩
  | 35 => ⟨S1024x1024, .f32⟩
  | 36 => ⟨S1024x1024, .f32⟩
  | 37 => ⟨S1024x1024, .f32⟩
  | 38 => ⟨S_, .f32⟩
  | 39 => ⟨S1024x1024, .f32⟩
  | 40 => ⟨S1024x1024, .f32⟩
  | 41 => ⟨S1024x1024, .f32⟩
  | 42 => ⟨S_, .f32⟩
  | 43 => ⟨S1024x1024, .f32⟩
  | 44 => ⟨S1024x1024, .f32⟩
  | 45 => ⟨S1024x1024, .f32⟩
  | 46 => ⟨S_, .f32⟩
  | 47 => ⟨S1024x512, .f32⟩
  | 48 => ⟨S1024x512, .f32⟩
  | 49 => ⟨S1024x512, .f32⟩
  | 50 => ⟨S1024x1024, .f32⟩
  | 51 => ⟨S1024x1024, .f32⟩
  | 52 => ⟨S1024x1024, .f32⟩
  | 53 => ⟨S1024x1024, .f32⟩
  | 54 => ⟨S1024x1024, .f32⟩
  | 55 => ⟨S1024x1024, .f32⟩
  | 56 => ⟨S1024x1024, .f32⟩
  | 57 => ⟨S1024x1024, .f32⟩
  | 58 => ⟨S1024x1024, .f32⟩
  | 59 => ⟨S1024x512, .f32⟩
  | 60 => ⟨S1024x512, .f32⟩
  | 61 => ⟨S512x1024, .f32⟩
  | 62 => ⟨S1024x1024, .f32⟩
  | 63 => ⟨S1024x1024, .f32⟩
  | 64 => ⟨S1024x512, .f32⟩
  | 65 => ⟨S1024x512, .f32⟩
  | 66 => ⟨S1024x512, .f32⟩
  | 67 => ⟨S_, .f32⟩
  | 68 => ⟨S1024x512, .f32⟩
  | 69 => ⟨S1024x512, .f32⟩
  | 70 => ⟨S1024x512, .f32⟩
  | 71 => ⟨S_, .f32⟩
  | 72 => ⟨S1024x1024, .f32⟩
  | 73 => ⟨S1024x1024, .f32⟩
  | 74 => ⟨S1024x1024, .f32⟩
  | 75 => ⟨S_, .f32⟩
  | 76 => ⟨S1024x1024, .f32⟩
  | 77 => ⟨S1024x1024, .f32⟩
  | 78 => ⟨S1024x1024, .f32⟩
  | 79 => ⟨S_, .f32⟩
  | 80 => ⟨S1024x512, .f32⟩
  | 81 => ⟨S1024x512, .f32⟩
  | 82 => ⟨S1024x512, .f32⟩
  | 83 => ⟨S1024x1024, .f32⟩
  | 84 => ⟨S1024x1024, .f32⟩
  | 85 => ⟨S1024x1024, .f32⟩
  | 86 => ⟨S1024x1024, .f32⟩
  | 87 => ⟨S1024x1024, .f32⟩
  | 88 => ⟨S1024x1024, .f32⟩
  | 89 => ⟨S1024x1024, .f32⟩
  | 90 => ⟨S1024x1024, .f32⟩
  | 91 => ⟨S1024x1024, .f32⟩
  | 92 => ⟨S1024x512, .f32⟩
  | 93 => ⟨S1024x512, .f32⟩
  | 94 => ⟨S512x1024, .f32⟩
  | 95 => ⟨S1024x1024, .f32⟩
  | 96 => ⟨S1024x1024, .f32⟩
  | 97 => ⟨S1024x512, .f32⟩
  | 98 => ⟨S1024x512, .f32⟩
  | 99 => ⟨S1024x512, .f32⟩
  | 100 => ⟨S_, .f32⟩
  | 101 => ⟨S1024x512, .f32⟩
  | 102 => ⟨S1024x512, .f32⟩
  | 103 => ⟨S1024x512, .f32⟩
  | 104 => ⟨S_, .f32⟩
  | 105 => ⟨S1024x1024, .f32⟩
  | 106 => ⟨S1024x1024, .f32⟩
  | 107 => ⟨S1024x1024, .f32⟩
  | 108 => ⟨S_, .f32⟩
  | 109 => ⟨S1024x1024, .f32⟩
  | 110 => ⟨S1024x1024, .f32⟩
  | 111 => ⟨S1024x1024, .f32⟩
  | 112 => ⟨S_, .f32⟩
  | 113 => ⟨S1024x512, .f32⟩
  | 114 => ⟨S1024x512, .f32⟩
  | 115 => ⟨S1024x512, .f32⟩
  | 116 => ⟨S1024x1024, .f32⟩
  | 117 => ⟨S1024x1024, .f32⟩
  | 118 => ⟨S1024x1024, .f32⟩
  | 119 => ⟨S1024x1024, .f32⟩
  | 120 => ⟨S1024x1024, .f32⟩
  | 121 => ⟨S1024x1024, .f32⟩
  | 122 => ⟨S1024x1024, .f32⟩
  | 123 => ⟨S1024x1024, .f32⟩
  | 124 => ⟨S1024x1024, .f32⟩
  | 125 => ⟨S1024x512, .f32⟩
  | 126 => ⟨S1024x512, .f32⟩
  | 127 => ⟨S512x1024, .f32⟩
  | _ => ⟨S1024x1024, .f32⟩

abbrev hbmTy0_1 (i : Nat) : BufTy := match i % 128 with
  | 0 => ⟨S1024x1024, .f32⟩
  | 1 => ⟨S1024x1024, .f32⟩
  | 2 => ⟨S1024x512, .f32⟩
  | 3 => ⟨S1024x512, .f32⟩
  | 4 => ⟨S1024x512, .f32⟩
  | 5 => ⟨S_, .f32⟩
  | 6 => ⟨S1024x512, .f32⟩
  | 7 => ⟨S1024x512, .f32⟩
  | 8 => ⟨S1024x512, .f32⟩
  | 9 => ⟨S_, .f32⟩
  | 10 => ⟨S1024x1024, .f32⟩
  | 11 => ⟨S1024x1024, .f32⟩
  | 12 => ⟨S1024x1024, .f32⟩
  | 13 => ⟨S_, .f32⟩
  | 14 => ⟨S1024x1024, .f32⟩
  | 15 => ⟨S1024x1024, .f32⟩
  | 16 => ⟨S1024x1024, .f32⟩
  | 17 => ⟨S_, .f32⟩
  | 18 => ⟨S1024x512, .f32⟩
  | 19 => ⟨S1024x512, .f32⟩
  | 20 => ⟨S1024x512, .f32⟩
  | 21 => ⟨S1024x1024, .f32⟩
  | 22 => ⟨S1024x1024, .f32⟩
  | 23 => ⟨S1024x1024, .f32⟩
  | 24 => ⟨S1024x1024, .f32⟩
  | 25 => ⟨S1024x1024, .f32⟩
  | 26 => ⟨S1024x1024, .f32⟩
  | 27 => ⟨S1024x1024, .f32⟩
  | 28 => ⟨S1024x1024, .f32⟩
  | 29 => ⟨S1024x1024, .f32⟩
  | 30 => ⟨S1024x512, .f32⟩
  | 31 => ⟨S1024x512, .f32⟩
  | 32 => ⟨S512x1024, .f32⟩
  | 33 => ⟨S1024x1024, .f32⟩
  | 34 => ⟨S1024x1024, .f32⟩
  | 35 => ⟨S1024x512, .f32⟩
  | 36 => ⟨S1024x512, .f32⟩
  | 37 => ⟨S1024x512, .f32⟩
  | 38 => ⟨S_, .f32⟩
  | 39 => ⟨S1024x512, .f32⟩
  | 40 => ⟨S1024x512, .f32⟩
  | 41 => ⟨S1024x512, .f32⟩
  | 42 => ⟨S_, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S_, .f32⟩
  | 51 => ⟨S1024x512, .f32⟩
  | 52 => ⟨S1024x512, .f32⟩
  | 53 => ⟨S1024x512, .f32⟩
  | 54 => ⟨S1024x1024, .f32⟩
  | 55 => ⟨S1024x1024, .f32⟩
  | 56 => ⟨S1024x1024, .f32⟩
  | 57 => ⟨S1024x1024, .f32⟩
  | 58 => ⟨S1024x1024, .f32⟩
  | 59 => ⟨S1024x1024, .f32⟩
  | 60 => ⟨S1024x1024, .f32⟩
  | 61 => ⟨S1024x1024, .f32⟩
  | 62 => ⟨S1024x1024, .f32⟩
  | 63 => ⟨S1024x512, .f32⟩
  | 64 => ⟨S1024x512, .f32⟩
  | 65 => ⟨S512x1024, .f32⟩
  | 66 => ⟨S1024x1024, .f32⟩
  | 67 => ⟨S1024x1024, .f32⟩
  | 68 => ⟨S1024x512, .f32⟩
  | 69 => ⟨S1024x512, .f32⟩
  | 70 => ⟨S1024x512, .f32⟩
  | 71 => ⟨S_, .f32⟩
  | 72 => ⟨S1024x512, .f32⟩
  | 73 => ⟨S1024x512, .f32⟩
  | 74 => ⟨S1024x512, .f32⟩
  | 75 => ⟨S_, .f32⟩
  | 76 => ⟨S1024x1024, .f32⟩
  | 77 => ⟨S1024x1024, .f32⟩
  | 78 => ⟨S1024x1024, .f32⟩
  | 79 => ⟨S_, .f32⟩
  | 80 => ⟨S1024x1024, .f32⟩
  | 81 => ⟨S1024x1024, .f32⟩
  | 82 => ⟨S1024x1024, .f32⟩
  | 83 => ⟨S_, .f32⟩
  | 84 => ⟨S1024x512, .f32⟩
  | 85 => ⟨S1024x512, .f32⟩
  | 86 => ⟨S1024x512, .f32⟩
  | 87 => ⟨S1024x1024, .f32⟩
  | 88 => ⟨S1024x1024, .f32⟩
  | 89 => ⟨S1024x1024, .f32⟩
  | 90 => ⟨S1024x1024, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S1024x512, .f32⟩
  | 97 => ⟨S1024x512, .f32⟩
  | 98 => ⟨S512x1024, .f32⟩
  | 99 => ⟨S1024x1024, .f32⟩
  | 100 => ⟨S1024x1024, .f32⟩
  | 101 => ⟨S1024x512, .f32⟩
  | 102 => ⟨S1024x512, .f32⟩
  | 103 => ⟨S1024x512, .f32⟩
  | 104 => ⟨S_, .f32⟩
  | 105 => ⟨S1024x512, .f32⟩
  | 106 => ⟨S1024x512, .f32⟩
  | 107 => ⟨S1024x512, .f32⟩
  | 108 => ⟨S_, .f32⟩
  | 109 => ⟨S1024x1024, .f32⟩
  | 110 => ⟨S1024x1024, .f32⟩
  | 111 => ⟨S1024x1024, .f32⟩
  | 112 => ⟨S_, .f32⟩
  | 113 => ⟨S1024x1024, .f32⟩
  | 114 => ⟨S1024x1024, .f32⟩
  | 115 => ⟨S1024x1024, .f32⟩
  | 116 => ⟨S_, .f32⟩
  | 117 => ⟨S1024x512, .f32⟩
  | 118 => ⟨S1024x512, .f32⟩
  | 119 => ⟨S1024x512, .f32⟩
  | 120 => ⟨S1024x1024, .f32⟩
  | 121 => ⟨S1024x1024, .f32⟩
  | 122 => ⟨S1024x1024, .f32⟩
  | 123 => ⟨S1024x1024, .f32⟩
  | 124 => ⟨S1024x1024, .f32⟩
  | 125 => ⟨S1024x1024, .f32⟩
  | 126 => ⟨S1024x1024, .f32⟩
  | 127 => ⟨S1024x1024, .f32⟩
  | _ => ⟨S1024x1024, .f32⟩

abbrev hbmTy0_2 (i : Nat) : BufTy := match i % 128 with
  | 0 => ⟨S1024x1024, .f32⟩
  | 1 => ⟨S1024x512, .f32⟩
  | 2 => ⟨S1024x512, .f32⟩
  | 3 => ⟨S512x1024, .f32⟩
  | 4 => ⟨S1024x1024, .f32⟩
  | 5 => ⟨S1024x1024, .f32⟩
  | 6 => ⟨S1024x512, .f32⟩
  | 7 => ⟨S1024x512, .f32⟩
  | 8 => ⟨S1024x512, .f32⟩
  | 9 => ⟨S_, .f32⟩
  | 10 => ⟨S1024x512, .f32⟩
  | 11 => ⟨S1024x512, .f32⟩
  | 12 => ⟨S1024x512, .f32⟩
  | 13 => ⟨S_, .f32⟩
  | 14 => ⟨S1024x1024, .f32⟩
  | 15 => ⟨S1024x1024, .f32⟩
  | 16 => ⟨S1024x1024, .f32⟩
  | 17 => ⟨S_, .f32⟩
  | 18 => ⟨S1024x1024, .f32⟩
  | 19 => ⟨S1024x1024, .f32⟩
  | 20 => ⟨S1024x1024, .f32⟩
  | 21 => ⟨S_, .f32⟩
  | 22 => ⟨S1024x512, .f32⟩
  | 23 => ⟨S1024x512, .f32⟩
  | 24 => ⟨S1024x512, .f32⟩
  | 25 => ⟨S1024x1024, .f32⟩
  | 26 => ⟨S1024x1024, .f32⟩
  | 27 => ⟨S1024x1024, .f32⟩
  | 28 => ⟨S1024x1024, .f32⟩
  | 29 => ⟨S1024x1024, .f32⟩
  | 30 => ⟨S1024x1024, .f32⟩
  | 31 => ⟨S1024x1024, .f32⟩
  | 32 => ⟨S1024x1024, .f32⟩
  | 33 => ⟨S1024x1024, .f32⟩
  | 34 => ⟨S1024x512, .f32⟩
  | 35 => ⟨S1024x512, .f32⟩
  | 36 => ⟨S512x1024, .f32⟩
  | 37 => ⟨S1024x1024, .f32⟩
  | 38 => ⟨S1024x1024, .f32⟩
  | 39 => ⟨S1024x512, .f32⟩
  | 40 => ⟨S1024x512, .f32⟩
  | 41 => ⟨S1024x512, .f32⟩
  | 42 => ⟨S_, .f32⟩
  | 43 => ⟨S1024x512, .f32⟩
  | 44 => ⟨S1024x512, .f32⟩
  | 45 => ⟨S1024x512, .f32⟩
  | 46 => ⟨S_, .f32⟩
  | 47 => ⟨S1024x1024, .f32⟩
  | 48 => ⟨S1024x1024, .f32⟩
  | 49 => ⟨S1024x1024, .f32⟩
  | 50 => ⟨S_, .f32⟩
  | 51 => ⟨S1024x1024, .f32⟩
  | 52 => ⟨S1024x1024, .f32⟩
  | 53 => ⟨S1024x1024, .f32⟩
  | 54 => ⟨S_, .f32⟩
  | 55 => ⟨S1024x512, .f32⟩
  | 56 => ⟨S1024x512, .f32⟩
  | 57 => ⟨S1024x512, .f32⟩
  | 58 => ⟨S1024x1024, .f32⟩
  | 59 => ⟨S1024x1024, .f32⟩
  | 60 => ⟨S1024x1024, .f32⟩
  | 61 => ⟨S1024x1024, .f32⟩
  | 62 => ⟨S1024x1024, .f32⟩
  | 63 => ⟨S1024x1024, .f32⟩
  | 64 => ⟨S1024x1024, .f32⟩
  | 65 => ⟨S1024x1024, .f32⟩
  | 66 => ⟨S1024x1024, .f32⟩
  | 67 => ⟨S1024x512, .f32⟩
  | 68 => ⟨S1024x512, .f32⟩
  | 69 => ⟨S512x1024, .f32⟩
  | 70 => ⟨S1024x1024, .f32⟩
  | 71 => ⟨S1024x1024, .f32⟩
  | 72 => ⟨S1024x512, .f32⟩
  | 73 => ⟨S1024x512, .f32⟩
  | 74 => ⟨S1024x512, .f32⟩
  | 75 => ⟨S_, .f32⟩
  | 76 => ⟨S1024x512, .f32⟩
  | 77 => ⟨S1024x512, .f32⟩
  | 78 => ⟨S1024x512, .f32⟩
  | 79 => ⟨S_, .f32⟩
  | 80 => ⟨S1024x1024, .f32⟩
  | 81 => ⟨S1024x1024, .f32⟩
  | 82 => ⟨S1024x1024, .f32⟩
  | 83 => ⟨S_, .f32⟩
  | 84 => ⟨S1024x1024, .f32⟩
  | 85 => ⟨S1024x1024, .f32⟩
  | 86 => ⟨S1024x1024, .f32⟩
  | 87 => ⟨S_, .f32⟩
  | 88 => ⟨S1024x512, .f32⟩
  | 89 => ⟨S1024x512, .f32⟩
  | 90 => ⟨S1024x512, .f32⟩
  | 91 => ⟨S1024x1024, .f32⟩
  | 92 => ⟨S1024x1024, .f32⟩
  | 93 => ⟨S1024x1024, .f32⟩
  | 94 => ⟨S1024x1024, .f32⟩
  | 95 => ⟨S1024x1024, .f32⟩
  | 96 => ⟨S1024x1024, .f32⟩
  | 97 => ⟨S1024x1024, .f32⟩
  | 98 => ⟨S1024x1024, .f32⟩
  | 99 => ⟨S1024x1024, .f32⟩
  | 100 => ⟨S1024x512, .f32⟩
  | 101 => ⟨S1024x512, .f32⟩
  | 102 => ⟨S512x1024, .f32⟩
  | 103 => ⟨S1024x1024, .f32⟩
  | 104 => ⟨S1024x1024, .f32⟩
  | 105 => ⟨S1024x512, .f32⟩
  | 106 => ⟨S1024x512, .f32⟩
  | 107 => ⟨S1024x512, .f32⟩
  | 108 => ⟨S_, .f32⟩
  | 109 => ⟨S1024x512, .f32⟩
  | 110 => ⟨S1024x512, .f32⟩
  | 111 => ⟨S1024x512, .f32⟩
  | 112 => ⟨S_, .f32⟩
  | 113 => ⟨S1024x1024, .f32⟩
  | 114 => ⟨S1024x1024, .f32⟩
  | 115 => ⟨S1024x1024, .f32⟩
  | 116 => ⟨S_, .f32⟩
  | 117 => ⟨S1024x1024, .f32⟩
  | 118 => ⟨S1024x1024, .f32⟩
  | 119 => ⟨S1024x1024, .f32⟩
  | 120 => ⟨S_, .f32⟩
  | 121 => ⟨S1024x512, .f32⟩
  | 122 => ⟨S1024x512, .f32⟩
  | 123 => ⟨S1024x512, .f32⟩
  | 124 => ⟨S1024x1024, .f32⟩
  | 125 => ⟨S1024x1024, .f32⟩
  | 126 => ⟨S1024x1024, .f32⟩
  | 127 => ⟨S1024x1024, .f32⟩
  | _ => ⟨S1024x1024, .f32⟩

abbrev hbmTy0_3 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S1024x1024, .f32⟩
  | 5 => ⟨S1024x512, .f32⟩
  | 6 => ⟨S1024x512, .f32⟩
  | 7 => ⟨S512x1024, .f32⟩
  | 8 => ⟨S1024x1024, .f32⟩
  | 9 => ⟨S1024x1024, .f32⟩
  | 10 => ⟨S1024x512, .f32⟩
  | 11 => ⟨S1024x512, .f32⟩
  | 12 => ⟨S1024x512, .f32⟩
  | 13 => ⟨S_, .f32⟩
  | 14 => ⟨S1024x512, .f32⟩
  | 15 => ⟨S1024x512, .f32⟩
  | 16 => ⟨S1024x512, .f32⟩
  | 17 => ⟨S_, .f32⟩
  | 18 => ⟨S1024x1024, .f32⟩
  | 19 => ⟨S1024x1024, .f32⟩
  | 20 => ⟨S1024x1024, .f32⟩
  | 21 => ⟨S_, .f32⟩
  | 22 => ⟨S1024x1024, .f32⟩
  | 23 => ⟨S1024x1024, .f32⟩
  | 24 => ⟨S1024x1024, .f32⟩
  | 25 => ⟨S_, .f32⟩
  | 26 => ⟨S1024x512, .f32⟩
  | 27 => ⟨S1024x512, .f32⟩
  | 28 => ⟨S1024x512, .f32⟩
  | 29 => ⟨S1024x1024, .f32⟩
  | 30 => ⟨S1024x1024, .f32⟩
  | 31 => ⟨S1024x1024, .f32⟩
  | 32 => ⟨S1024x1024, .f32⟩
  | 33 => ⟨S1024x1024, .f32⟩
  | 34 => ⟨S1024x1024, .f32⟩
  | 35 => ⟨S1024x1024, .f32⟩
  | 36 => ⟨S1024x1024, .f32⟩
  | 37 => ⟨S1024x1024, .f32⟩
  | 38 => ⟨S1024x512, .f32⟩
  | 39 => ⟨S1024x512, .f32⟩
  | 40 => ⟨S512x1024, .f32⟩
  | 41 => ⟨S1024x1024, .f32⟩
  | 42 => ⟨S1024x1024, .f32⟩
  | 43 => ⟨S1024x512, .f32⟩
  | 44 => ⟨S1024x512, .f32⟩
  | 45 => ⟨S1024x512, .f32⟩
  | 46 => ⟨S_, .f32⟩
  | 47 => ⟨S1024x512, .f32⟩
  | 48 => ⟨S1024x512, .f32⟩
  | 49 => ⟨S1024x512, .f32⟩
  | 50 => ⟨S_, .f32⟩
  | 51 => ⟨S1024x1024, .f32⟩
  | 52 => ⟨S1024x1024, .f32⟩
  | 53 => ⟨S1024x1024, .f32⟩
  | 54 => ⟨S_, .f32⟩
  | 55 => ⟨S1024x1024, .f32⟩
  | 56 => ⟨S1024x1024, .f32⟩
  | 57 => ⟨S1024x1024, .f32⟩
  | 58 => ⟨S_, .f32⟩
  | 59 => ⟨S1024x512, .f32⟩
  | 60 => ⟨S1024x512, .f32⟩
  | 61 => ⟨S1024x512, .f32⟩
  | 62 => ⟨S1024x1024, .f32⟩
  | 63 => ⟨S1024x1024, .f32⟩
  | 64 => ⟨S1024x1024, .f32⟩
  | 65 => ⟨S1024x1024, .f32⟩
  | 66 => ⟨S1024x1024, .f32⟩
  | 67 => ⟨S1024x1024, .f32⟩
  | 68 => ⟨S1024x1024, .f32⟩
  | 69 => ⟨S1024x1024, .f32⟩
  | 70 => ⟨S1024x1024, .f32⟩
  | 71 => ⟨S1024x512, .f32⟩
  | 72 => ⟨S1024x512, .f32⟩
  | 73 => ⟨S512x1024, .f32⟩
  | 74 => ⟨S1024x1024, .f32⟩
  | 75 => ⟨S1024x1024, .f32⟩
  | 76 => ⟨S1024x512, .f32⟩
  | 77 => ⟨S1024x512, .f32⟩
  | 78 => ⟨S1024x512, .f32⟩
  | 79 => ⟨S_, .f32⟩
  | 80 => ⟨S1024x512, .f32⟩
  | 81 => ⟨S1024x512, .f32⟩
  | 82 => ⟨S1024x512, .f32⟩
  | 83 => ⟨S_, .f32⟩
  | 84 => ⟨S1024x1024, .f32⟩
  | 85 => ⟨S1024x1024, .f32⟩
  | 86 => ⟨S1024x1024, .f32⟩
  | 87 => ⟨S_, .f32⟩
  | 88 => ⟨S1024x1024, .f32⟩
  | 89 => ⟨S1024x1024, .f32⟩
  | 90 => ⟨S1024x1024, .f32⟩
  | 91 => ⟨S_, .f32⟩
  | 92 => ⟨S1024x512, .f32⟩
  | 93 => ⟨S1024x512, .f32⟩
  | 94 => ⟨S1024x512, .f32⟩
  | 95 => ⟨S1024x1024, .f32⟩
  | 96 => ⟨S1024x1024, .f32⟩
  | 97 => ⟨S1024x1024, .f32⟩
  | 98 => ⟨S1024x1024, .f32⟩
  | 99 => ⟨S1024x1024, .f32⟩
  | 100 => ⟨S1024x1024, .f32⟩
  | 101 => ⟨S1024x1024, .f32⟩
  | 102 => ⟨S1024x1024, .f32⟩
  | 103 => ⟨S1024x1024, .f32⟩
  | 104 => ⟨S1024x512, .f32⟩
  | 105 => ⟨S1024x512, .f32⟩
  | 106 => ⟨S512x1024, .f32⟩
  | 107 => ⟨S1024x1024, .f32⟩
  | 108 => ⟨S1024x1024, .f32⟩
  | 109 => ⟨S1024x512, .f32⟩
  | 110 => ⟨S1024x512, .f32⟩
  | 111 => ⟨S1024x512, .f32⟩
  | 112 => ⟨S_, .f32⟩
  | 113 => ⟨S1024x512, .f32⟩
  | 114 => ⟨S1024x512, .f32⟩
  | 115 => ⟨S1024x512, .f32⟩
  | 116 => ⟨S_, .f32⟩
  | 117 => ⟨S1024x1024, .f32⟩
  | 118 => ⟨S1024x1024, .f32⟩
  | 119 => ⟨S1024x1024, .f32⟩
  | 120 => ⟨S_, .f32⟩
  | 121 => ⟨S1024x1024, .f32⟩
  | 122 => ⟨S1024x1024, .f32⟩
  | 123 => ⟨S1024x1024, .f32⟩
  | 124 => ⟨S_, .f32⟩
  | 125 => ⟨S1024x512, .f32⟩
  | 126 => ⟨S1024x512, .f32⟩
  | 127 => ⟨S1024x512, .f32⟩
  | _ => ⟨S1024x1024, .f32⟩

abbrev hbmTy0_4 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S1024x1024, .f32⟩
  | 5 => ⟨S1024x1024, .f32⟩
  | 6 => ⟨S1024x1024, .f32⟩
  | 7 => ⟨S1024x1024, .f32⟩
  | 8 => ⟨S1024x1024, .f32⟩
  | 9 => ⟨S1024x512, .f32⟩
  | 10 => ⟨S1024x512, .f32⟩
  | 11 => ⟨S512x1024, .f32⟩
  | 12 => ⟨S1024x1024, .f32⟩
  | 13 => ⟨S1024x1024, .f32⟩
  | 14 => ⟨S1024x512, .f32⟩
  | 15 => ⟨S1024x512, .f32⟩
  | 16 => ⟨S1024x512, .f32⟩
  | 17 => ⟨S_, .f32⟩
  | 18 => ⟨S1024x512, .f32⟩
  | 19 => ⟨S1024x512, .f32⟩
  | 20 => ⟨S1024x512, .f32⟩
  | 21 => ⟨S_, .f32⟩
  | 22 => ⟨S1024x1024, .f32⟩
  | 23 => ⟨S1024x1024, .f32⟩
  | 24 => ⟨S1024x1024, .f32⟩
  | 25 => ⟨S_, .f32⟩
  | 26 => ⟨S1024x1024, .f32⟩
  | 27 => ⟨S1024x1024, .f32⟩
  | 28 => ⟨S1024x1024, .f32⟩
  | 29 => ⟨S_, .f32⟩
  | 30 => ⟨S1024x512, .f32⟩
  | 31 => ⟨S1024x512, .f32⟩
  | 32 => ⟨S1024x512, .f32⟩
  | 33 => ⟨S1024x1024, .f32⟩
  | 34 => ⟨S1024x1024, .f32⟩
  | 35 => ⟨S1024x1024, .f32⟩
  | 36 => ⟨S1024x1024, .f32⟩
  | 37 => ⟨S1024x1024, .f32⟩
  | 38 => ⟨S1024x1024, .f32⟩
  | 39 => ⟨S1024x1024, .f32⟩
  | 40 => ⟨S1024x1024, .f32⟩
  | 41 => ⟨S1024x1024, .f32⟩
  | 42 => ⟨S1024x512, .f32⟩
  | 43 => ⟨S1024x512, .f32⟩
  | 44 => ⟨S512x1024, .f32⟩
  | 45 => ⟨S1024x1024, .f32⟩
  | 46 => ⟨S1024x1024, .f32⟩
  | 47 => ⟨S1024x512, .f32⟩
  | 48 => ⟨S1024x512, .f32⟩
  | 49 => ⟨S1024x512, .f32⟩
  | 50 => ⟨S_, .f32⟩
  | 51 => ⟨S1024x512, .f32⟩
  | 52 => ⟨S1024x512, .f32⟩
  | 53 => ⟨S1024x512, .f32⟩
  | 54 => ⟨S_, .f32⟩
  | 55 => ⟨S1024x1024, .f32⟩
  | 56 => ⟨S1024x1024, .f32⟩
  | 57 => ⟨S1024x1024, .f32⟩
  | 58 => ⟨S_, .f32⟩
  | 59 => ⟨S1024x1024, .f32⟩
  | 60 => ⟨S1024x1024, .f32⟩
  | 61 => ⟨S1024x1024, .f32⟩
  | 62 => ⟨S_, .f32⟩
  | 63 => ⟨S1024x512, .f32⟩
  | 64 => ⟨S1024x512, .f32⟩
  | 65 => ⟨S1024x512, .f32⟩
  | 66 => ⟨S1024x1024, .f32⟩
  | 67 => ⟨S1024x1024, .f32⟩
  | 68 => ⟨S1024x1024, .f32⟩
  | 69 => ⟨S1024x1024, .f32⟩
  | 70 => ⟨S1024x1024, .f32⟩
  | 71 => ⟨S1024x1024, .f32⟩
  | 72 => ⟨S1024x1024, .f32⟩
  | 73 => ⟨S1024x1024, .f32⟩
  | 74 => ⟨S1024x1024, .f32⟩
  | 75 => ⟨S1024x512, .f32⟩
  | 76 => ⟨S1024x512, .f32⟩
  | 77 => ⟨S512x1024, .f32⟩
  | 78 => ⟨S1024x1024, .f32⟩
  | 79 => ⟨S1024x1024, .f32⟩
  | 80 => ⟨S1024x512, .f32⟩
  | 81 => ⟨S1024x512, .f32⟩
  | 82 => ⟨S1024x512, .f32⟩
  | 83 => ⟨S_, .f32⟩
  | 84 => ⟨S1024x512, .f32⟩
  | 85 => ⟨S1024x512, .f32⟩
  | 86 => ⟨S1024x512, .f32⟩
  | 87 => ⟨S_, .f32⟩
  | 88 => ⟨S1024x1024, .f32⟩
  | 89 => ⟨S1024x1024, .f32⟩
  | 90 => ⟨S1024x1024, .f32⟩
  | 91 => ⟨S_, .f32⟩
  | 92 => ⟨S1024x1024, .f32⟩
  | 93 => ⟨S1024x1024, .f32⟩
  | 94 => ⟨S1024x1024, .f32⟩
  | 95 => ⟨S_, .f32⟩
  | 96 => ⟨S1024x512, .f32⟩
  | 97 => ⟨S1024x512, .f32⟩
  | 98 => ⟨S1024x512, .f32⟩
  | 99 => ⟨S1024x1024, .f32⟩
  | 100 => ⟨S1024x1024, .f32⟩
  | 101 => ⟨S1024x1024, .f32⟩
  | 102 => ⟨S1024x1024, .f32⟩
  | 103 => ⟨S1024x1024, .f32⟩
  | 104 => ⟨S1024x1024, .f32⟩
  | 105 => ⟨S1024x1024, .f32⟩
  | 106 => ⟨S1024x1024, .f32⟩
  | 107 => ⟨S1024x1024, .f32⟩
  | 108 => ⟨S1024x512, .f32⟩
  | 109 => ⟨S1024x512, .f32⟩
  | 110 => ⟨S512x1024, .f32⟩
  | 111 => ⟨S1024x1024, .f32⟩
  | 112 => ⟨S1024x1024, .f32⟩
  | 113 => ⟨S1024x512, .f32⟩
  | 114 => ⟨S1024x512, .f32⟩
  | 115 => ⟨S1024x512, .f32⟩
  | 116 => ⟨S_, .f32⟩
  | 117 => ⟨S1024x512, .f32⟩
  | 118 => ⟨S1024x512, .f32⟩
  | 119 => ⟨S1024x512, .f32⟩
  | 120 => ⟨S_, .f32⟩
  | 121 => ⟨S1024x1024, .f32⟩
  | 122 => ⟨S1024x1024, .f32⟩
  | 123 => ⟨S1024x1024, .f32⟩
  | 124 => ⟨S_, .f32⟩
  | 125 => ⟨S1024x1024, .f32⟩
  | 126 => ⟨S1024x1024, .f32⟩
  | 127 => ⟨S1024x1024, .f32⟩
  | _ => ⟨S1024x1024, .f32⟩

abbrev hbmTy0_5 (i : Nat) : BufTy := match i % 128 with
  | 0 => ⟨S_, .f32⟩
  | 1 => ⟨S1024x512, .f32⟩
  | 2 => ⟨S1024x512, .f32⟩
  | 3 => ⟨S1024x512, .f32⟩
  | 4 => ⟨S1024x1024, .f32⟩
  | 5 => ⟨S1024x1024, .f32⟩
  | 6 => ⟨S1024x1024, .f32⟩
  | 7 => ⟨S1024x1024, .f32⟩
  | 8 => ⟨S1024x1024, .f32⟩
  | 9 => ⟨S1024x1024, .f32⟩
  | 10 => ⟨S1024x1024, .f32⟩
  | 11 => ⟨S1024x1024, .f32⟩
  | 12 => ⟨S1024x1024, .f32⟩
  | 13 => ⟨S1024x512, .f32⟩
  | 14 => ⟨S1024x512, .f32⟩
  | 15 => ⟨S512x1024, .f32⟩
  | 16 => ⟨S1024x1024, .f32⟩
  | 17 => ⟨S1024x1024, .f32⟩
  | 18 => ⟨S1024x512, .f32⟩
  | 19 => ⟨S1024x512, .f32⟩
  | 20 => ⟨S1024x512, .f32⟩
  | 21 => ⟨S_, .f32⟩
  | 22 => ⟨S1024x512, .f32⟩
  | 23 => ⟨S1024x512, .f32⟩
  | 24 => ⟨S1024x512, .f32⟩
  | 25 => ⟨S_, .f32⟩
  | 26 => ⟨S1024x1024, .f32⟩
  | 27 => ⟨S1024x1024, .f32⟩
  | 28 => ⟨S1024x1024, .f32⟩
  | 29 => ⟨S_, .f32⟩
  | 30 => ⟨S1024x1024, .f32⟩
  | 31 => ⟨S1024x1024, .f32⟩
  | 32 => ⟨S1024x1024, .f32⟩
  | 33 => ⟨S_, .f32⟩
  | 34 => ⟨S1024x512, .f32⟩
  | 35 => ⟨S1024x512, .f32⟩
  | 36 => ⟨S1024x512, .f32⟩
  | 37 => ⟨S1024x1024, .f32⟩
  | 38 => ⟨S1024x1024, .f32⟩
  | 39 => ⟨S1024x1024, .f32⟩
  | 40 => ⟨S1024x1024, .f32⟩
  | 41 => ⟨S1024x1024, .f32⟩
  | 42 => ⟨S1024x1024, .f32⟩
  | 43 => ⟨S1024x1024, .f32⟩
  | 44 => ⟨S1024x1024, .f32⟩
  | 45 => ⟨S1024x1024, .f32⟩
  | 46 => ⟨S1024x512, .f32⟩
  | 47 => ⟨S1024x512, .f32⟩
  | 48 => ⟨S1024x512, .f32⟩
  | 49 => ⟨S1024x1024, .f32⟩
  | 50 => ⟨S1024x1024, .f32⟩
  | 51 => ⟨S1024x1024, .f32⟩
  | 52 => ⟨S1024x1024, .f32⟩
  | 53 => ⟨S1024x1024, .f32⟩
  | 54 => ⟨S1024x1024, .f32⟩
  | 55 => ⟨S1024x1024, .f32⟩
  | 56 => ⟨S1024x1024, .f32⟩
  | 57 => ⟨S1024x1024, .f32⟩
  | 58 => ⟨S1024x512, .f32⟩
  | 59 => ⟨S1024x512, .f32⟩
  | 60 => ⟨S1024x512, .f32⟩
  | 61 => ⟨S1024x1024, .f32⟩
  | 62 => ⟨S_, .f32⟩
  | 63 => ⟨S1024x1024, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S1024x512, .f32⟩
  | 70 => ⟨S_, .f32⟩
  | 71 => ⟨S1024x512, .f32⟩
  | 72 => ⟨S1024x512, .f32⟩
  | 73 => ⟨S1024x512, .f32⟩
  | 74 => ⟨S1024x512, .f32⟩
  | 75 => ⟨S_, .f32⟩
  | 76 => ⟨S_, .f32⟩
  | 77 => ⟨S_, .f32⟩
  | 78 => ⟨S_, .f32⟩
  | 79 => ⟨S1048576, .f32⟩
  | 80 => ⟨S1048576, .f32⟩
  | 81 => ⟨S524288, .f32⟩
  | 82 => ⟨S1, .f32⟩
  | 83 => ⟨S2621441, .f32⟩
  | _ => ⟨S1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_2 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_3 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_4 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_5 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_6 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_cst_7 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_cst_8 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_9 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_cst_10 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_cst_11 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_cst_12 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_13 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_14 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_15 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_cst_16 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_cst_17 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_cst_18 : Ref sig .tc := ⟨.hbm, 178, rfl⟩
abbrev main_v154 : Ref sig .tc := ⟨.hbm, 179, rfl⟩
abbrev main_v155 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_v159 : Ref sig .tc := ⟨.hbm, 184, rfl⟩
abbrev main_v160 : Ref sig .tc := ⟨.hbm, 185, rfl⟩
abbrev main_v161 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_cst_19 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_cst_20 : Ref sig .tc := ⟨.hbm, 203, rfl⟩
abbrev main_v177 : Ref sig .tc := ⟨.hbm, 204, rfl⟩
abbrev main_v178 : Ref sig .tc := ⟨.hbm, 205, rfl⟩
abbrev main_v179 : Ref sig .tc := ⟨.hbm, 206, rfl⟩
abbrev main_cst_21 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_cst_22 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_v197 : Ref sig .tc := ⟨.hbm, 226, rfl⟩
abbrev main_v198 : Ref sig .tc := ⟨.hbm, 227, rfl⟩
abbrev main_v199 : Ref sig .tc := ⟨.hbm, 228, rfl⟩
abbrev main_v200 : Ref sig .tc := ⟨.hbm, 229, rfl⟩
abbrev main_v201 : Ref sig .tc := ⟨.hbm, 230, rfl⟩
abbrev main_v202 : Ref sig .tc := ⟨.hbm, 231, rfl⟩
abbrev main_cst_23 : Ref sig .tc := ⟨.hbm, 232, rfl⟩
abbrev main_v203 : Ref sig .tc := ⟨.hbm, 233, rfl⟩
abbrev main_v204 : Ref sig .tc := ⟨.hbm, 234, rfl⟩
abbrev main_v205 : Ref sig .tc := ⟨.hbm, 235, rfl⟩
abbrev main_cst_24 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_cst_25 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_cst_26 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_cst_27 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_cst_28 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_cst_29 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_cst_30 : Ref sig .tc := ⟨.hbm, 277, rfl⟩
abbrev main_v241 : Ref sig .tc := ⟨.hbm, 278, rfl⟩
abbrev main_v242 : Ref sig .tc := ⟨.hbm, 279, rfl⟩
abbrev main_v243 : Ref sig .tc := ⟨.hbm, 280, rfl⟩
abbrev main_v244 : Ref sig .tc := ⟨.hbm, 281, rfl⟩
abbrev main_v245 : Ref sig .tc := ⟨.hbm, 282, rfl⟩
abbrev main_v246 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_v253 : Ref sig .tc := ⟨.hbm, 290, rfl⟩
abbrev main_v254 : Ref sig .tc := ⟨.hbm, 291, rfl⟩
abbrev main_v255 : Ref sig .tc := ⟨.hbm, 292, rfl⟩
abbrev main_v256 : Ref sig .tc := ⟨.hbm, 293, rfl⟩
abbrev main_v257 : Ref sig .tc := ⟨.hbm, 294, rfl⟩
abbrev main_v258 : Ref sig .tc := ⟨.hbm, 295, rfl⟩
abbrev main_v259 : Ref sig .tc := ⟨.hbm, 296, rfl⟩
abbrev main_v260 : Ref sig .tc := ⟨.hbm, 297, rfl⟩
abbrev main_cst_31 : Ref sig .tc := ⟨.hbm, 298, rfl⟩
abbrev main_v261 : Ref sig .tc := ⟨.hbm, 299, rfl⟩
abbrev main_v262 : Ref sig .tc := ⟨.hbm, 300, rfl⟩
abbrev main_v263 : Ref sig .tc := ⟨.hbm, 301, rfl⟩
abbrev main_cst_32 : Ref sig .tc := ⟨.hbm, 302, rfl⟩
abbrev main_v264 : Ref sig .tc := ⟨.hbm, 303, rfl⟩
abbrev main_v265 : Ref sig .tc := ⟨.hbm, 304, rfl⟩
abbrev main_v266 : Ref sig .tc := ⟨.hbm, 305, rfl⟩
abbrev main_cst_33 : Ref sig .tc := ⟨.hbm, 306, rfl⟩
abbrev main_v267 : Ref sig .tc := ⟨.hbm, 307, rfl⟩
abbrev main_v268 : Ref sig .tc := ⟨.hbm, 308, rfl⟩
abbrev main_v269 : Ref sig .tc := ⟨.hbm, 309, rfl⟩
abbrev main_cst_34 : Ref sig .tc := ⟨.hbm, 310, rfl⟩
abbrev main_v270 : Ref sig .tc := ⟨.hbm, 311, rfl⟩
abbrev main_v271 : Ref sig .tc := ⟨.hbm, 312, rfl⟩
abbrev main_v272 : Ref sig .tc := ⟨.hbm, 313, rfl⟩
abbrev main_v273 : Ref sig .tc := ⟨.hbm, 314, rfl⟩
abbrev main_v274 : Ref sig .tc := ⟨.hbm, 315, rfl⟩
abbrev main_v275 : Ref sig .tc := ⟨.hbm, 316, rfl⟩
abbrev main_v276 : Ref sig .tc := ⟨.hbm, 317, rfl⟩
abbrev main_v277 : Ref sig .tc := ⟨.hbm, 318, rfl⟩
abbrev main_v278 : Ref sig .tc := ⟨.hbm, 319, rfl⟩
abbrev main_v279 : Ref sig .tc := ⟨.hbm, 320, rfl⟩
abbrev main_v280 : Ref sig .tc := ⟨.hbm, 321, rfl⟩
abbrev main_v281 : Ref sig .tc := ⟨.hbm, 322, rfl⟩
abbrev main_v282 : Ref sig .tc := ⟨.hbm, 323, rfl⟩
abbrev main_v283 : Ref sig .tc := ⟨.hbm, 324, rfl⟩
abbrev main_v284 : Ref sig .tc := ⟨.hbm, 325, rfl⟩
abbrev main_v285 : Ref sig .tc := ⟨.hbm, 326, rfl⟩
abbrev main_v286 : Ref sig .tc := ⟨.hbm, 327, rfl⟩
abbrev main_v287 : Ref sig .tc := ⟨.hbm, 328, rfl⟩
abbrev main_v288 : Ref sig .tc := ⟨.hbm, 329, rfl⟩
abbrev main_v289 : Ref sig .tc := ⟨.hbm, 330, rfl⟩
abbrev main_cst_35 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_cst_36 : Ref sig .tc := ⟨.hbm, 335, rfl⟩
abbrev main_v293 : Ref sig .tc := ⟨.hbm, 336, rfl⟩
abbrev main_v294 : Ref sig .tc := ⟨.hbm, 337, rfl⟩
abbrev main_v295 : Ref sig .tc := ⟨.hbm, 338, rfl⟩
abbrev main_cst_37 : Ref sig .tc := ⟨.hbm, 339, rfl⟩
abbrev main_v296 : Ref sig .tc := ⟨.hbm, 340, rfl⟩
abbrev main_v297 : Ref sig .tc := ⟨.hbm, 341, rfl⟩
abbrev main_v298 : Ref sig .tc := ⟨.hbm, 342, rfl⟩
abbrev main_cst_38 : Ref sig .tc := ⟨.hbm, 343, rfl⟩
abbrev main_v299 : Ref sig .tc := ⟨.hbm, 344, rfl⟩
abbrev main_v300 : Ref sig .tc := ⟨.hbm, 345, rfl⟩
abbrev main_v301 : Ref sig .tc := ⟨.hbm, 346, rfl⟩
abbrev main_v302 : Ref sig .tc := ⟨.hbm, 347, rfl⟩
abbrev main_v303 : Ref sig .tc := ⟨.hbm, 348, rfl⟩
abbrev main_v304 : Ref sig .tc := ⟨.hbm, 349, rfl⟩
abbrev main_v305 : Ref sig .tc := ⟨.hbm, 350, rfl⟩
abbrev main_v306 : Ref sig .tc := ⟨.hbm, 351, rfl⟩
abbrev main_v307 : Ref sig .tc := ⟨.hbm, 352, rfl⟩
abbrev main_v308 : Ref sig .tc := ⟨.hbm, 353, rfl⟩
abbrev main_v309 : Ref sig .tc := ⟨.hbm, 354, rfl⟩
abbrev main_v310 : Ref sig .tc := ⟨.hbm, 355, rfl⟩
abbrev main_v311 : Ref sig .tc := ⟨.hbm, 356, rfl⟩
abbrev main_v312 : Ref sig .tc := ⟨.hbm, 357, rfl⟩
abbrev main_v313 : Ref sig .tc := ⟨.hbm, 358, rfl⟩
abbrev main_v314 : Ref sig .tc := ⟨.hbm, 359, rfl⟩
abbrev main_v315 : Ref sig .tc := ⟨.hbm, 360, rfl⟩
abbrev main_v316 : Ref sig .tc := ⟨.hbm, 361, rfl⟩
abbrev main_v317 : Ref sig .tc := ⟨.hbm, 362, rfl⟩
abbrev main_v318 : Ref sig .tc := ⟨.hbm, 363, rfl⟩
abbrev main_cst_39 : Ref sig .tc := ⟨.hbm, 364, rfl⟩
abbrev main_v319 : Ref sig .tc := ⟨.hbm, 365, rfl⟩
abbrev main_v320 : Ref sig .tc := ⟨.hbm, 366, rfl⟩
abbrev main_v321 : Ref sig .tc := ⟨.hbm, 367, rfl⟩
abbrev main_cst_40 : Ref sig .tc := ⟨.hbm, 368, rfl⟩
abbrev main_v322 : Ref sig .tc := ⟨.hbm, 369, rfl⟩
abbrev main_v323 : Ref sig .tc := ⟨.hbm, 370, rfl⟩
abbrev main_v324 : Ref sig .tc := ⟨.hbm, 371, rfl⟩
abbrev main_cst_41 : Ref sig .tc := ⟨.hbm, 372, rfl⟩
abbrev main_v325 : Ref sig .tc := ⟨.hbm, 373, rfl⟩
abbrev main_v326 : Ref sig .tc := ⟨.hbm, 374, rfl⟩
abbrev main_v327 : Ref sig .tc := ⟨.hbm, 375, rfl⟩
abbrev main_cst_42 : Ref sig .tc := ⟨.hbm, 376, rfl⟩
abbrev main_v328 : Ref sig .tc := ⟨.hbm, 377, rfl⟩
abbrev main_v329 : Ref sig .tc := ⟨.hbm, 378, rfl⟩
abbrev main_v330 : Ref sig .tc := ⟨.hbm, 379, rfl⟩
abbrev main_v331 : Ref sig .tc := ⟨.hbm, 380, rfl⟩
abbrev main_v332 : Ref sig .tc := ⟨.hbm, 381, rfl⟩
abbrev main_v333 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩
abbrev main_v339 : Ref sig .tc := ⟨.hbm, 388, rfl⟩
abbrev main_v340 : Ref sig .tc := ⟨.hbm, 389, rfl⟩
abbrev main_v341 : Ref sig .tc := ⟨.hbm, 390, rfl⟩
abbrev main_v342 : Ref sig .tc := ⟨.hbm, 391, rfl⟩
abbrev main_v343 : Ref sig .tc := ⟨.hbm, 392, rfl⟩
abbrev main_v344 : Ref sig .tc := ⟨.hbm, 393, rfl⟩
abbrev main_v345 : Ref sig .tc := ⟨.hbm, 394, rfl⟩
abbrev main_v346 : Ref sig .tc := ⟨.hbm, 395, rfl⟩
abbrev main_v347 : Ref sig .tc := ⟨.hbm, 396, rfl⟩
abbrev main_cst_43 : Ref sig .tc := ⟨.hbm, 397, rfl⟩
abbrev main_v348 : Ref sig .tc := ⟨.hbm, 398, rfl⟩
abbrev main_v349 : Ref sig .tc := ⟨.hbm, 399, rfl⟩
abbrev main_v350 : Ref sig .tc := ⟨.hbm, 400, rfl⟩
abbrev main_cst_44 : Ref sig .tc := ⟨.hbm, 401, rfl⟩
abbrev main_v351 : Ref sig .tc := ⟨.hbm, 402, rfl⟩
abbrev main_v352 : Ref sig .tc := ⟨.hbm, 403, rfl⟩
abbrev main_v353 : Ref sig .tc := ⟨.hbm, 404, rfl⟩
abbrev main_cst_45 : Ref sig .tc := ⟨.hbm, 405, rfl⟩
abbrev main_v354 : Ref sig .tc := ⟨.hbm, 406, rfl⟩
abbrev main_v355 : Ref sig .tc := ⟨.hbm, 407, rfl⟩
abbrev main_v356 : Ref sig .tc := ⟨.hbm, 408, rfl⟩
abbrev main_cst_46 : Ref sig .tc := ⟨.hbm, 409, rfl⟩
abbrev main_v357 : Ref sig .tc := ⟨.hbm, 410, rfl⟩
abbrev main_v358 : Ref sig .tc := ⟨.hbm, 411, rfl⟩
abbrev main_v359 : Ref sig .tc := ⟨.hbm, 412, rfl⟩
abbrev main_v360 : Ref sig .tc := ⟨.hbm, 413, rfl⟩
abbrev main_v361 : Ref sig .tc := ⟨.hbm, 414, rfl⟩
abbrev main_v362 : Ref sig .tc := ⟨.hbm, 415, rfl⟩
abbrev main_v363 : Ref sig .tc := ⟨.hbm, 416, rfl⟩
abbrev main_v364 : Ref sig .tc := ⟨.hbm, 417, rfl⟩
abbrev main_v365 : Ref sig .tc := ⟨.hbm, 418, rfl⟩
abbrev main_v366 : Ref sig .tc := ⟨.hbm, 419, rfl⟩
abbrev main_v367 : Ref sig .tc := ⟨.hbm, 420, rfl⟩
abbrev main_v368 : Ref sig .tc := ⟨.hbm, 421, rfl⟩
abbrev main_v369 : Ref sig .tc := ⟨.hbm, 422, rfl⟩
abbrev main_v370 : Ref sig .tc := ⟨.hbm, 423, rfl⟩
abbrev main_v371 : Ref sig .tc := ⟨.hbm, 424, rfl⟩
abbrev main_v372 : Ref sig .tc := ⟨.hbm, 425, rfl⟩
abbrev main_v373 : Ref sig .tc := ⟨.hbm, 426, rfl⟩
abbrev main_v374 : Ref sig .tc := ⟨.hbm, 427, rfl⟩
abbrev main_v375 : Ref sig .tc := ⟨.hbm, 428, rfl⟩
abbrev main_v376 : Ref sig .tc := ⟨.hbm, 429, rfl⟩
abbrev main_cst_47 : Ref sig .tc := ⟨.hbm, 430, rfl⟩
abbrev main_v377 : Ref sig .tc := ⟨.hbm, 431, rfl⟩
abbrev main_v378 : Ref sig .tc := ⟨.hbm, 432, rfl⟩
abbrev main_v379 : Ref sig .tc := ⟨.hbm, 433, rfl⟩
abbrev main_cst_48 : Ref sig .tc := ⟨.hbm, 434, rfl⟩
abbrev main_v380 : Ref sig .tc := ⟨.hbm, 435, rfl⟩
abbrev main_v381 : Ref sig .tc := ⟨.hbm, 436, rfl⟩
abbrev main_v382 : Ref sig .tc := ⟨.hbm, 437, rfl⟩
abbrev main_cst_49 : Ref sig .tc := ⟨.hbm, 438, rfl⟩
abbrev main_v383 : Ref sig .tc := ⟨.hbm, 439, rfl⟩
abbrev main_v384 : Ref sig .tc := ⟨.hbm, 440, rfl⟩
abbrev main_v385 : Ref sig .tc := ⟨.hbm, 441, rfl⟩
abbrev main_cst_50 : Ref sig .tc := ⟨.hbm, 442, rfl⟩
abbrev main_v386 : Ref sig .tc := ⟨.hbm, 443, rfl⟩
abbrev main_v387 : Ref sig .tc := ⟨.hbm, 444, rfl⟩
abbrev main_v388 : Ref sig .tc := ⟨.hbm, 445, rfl⟩
abbrev main_v389 : Ref sig .tc := ⟨.hbm, 446, rfl⟩
abbrev main_v390 : Ref sig .tc := ⟨.hbm, 447, rfl⟩
abbrev main_v391 : Ref sig .tc := ⟨.hbm, 448, rfl⟩
abbrev main_v392 : Ref sig .tc := ⟨.hbm, 449, rfl⟩
abbrev main_v393 : Ref sig .tc := ⟨.hbm, 450, rfl⟩
abbrev main_v394 : Ref sig .tc := ⟨.hbm, 451, rfl⟩
abbrev main_v395 : Ref sig .tc := ⟨.hbm, 452, rfl⟩
abbrev main_v396 : Ref sig .tc := ⟨.hbm, 453, rfl⟩
abbrev main_v397 : Ref sig .tc := ⟨.hbm, 454, rfl⟩
abbrev main_v398 : Ref sig .tc := ⟨.hbm, 455, rfl⟩
abbrev main_v399 : Ref sig .tc := ⟨.hbm, 456, rfl⟩
abbrev main_v400 : Ref sig .tc := ⟨.hbm, 457, rfl⟩
abbrev main_v401 : Ref sig .tc := ⟨.hbm, 458, rfl⟩
abbrev main_v402 : Ref sig .tc := ⟨.hbm, 459, rfl⟩
abbrev main_v403 : Ref sig .tc := ⟨.hbm, 460, rfl⟩
abbrev main_v404 : Ref sig .tc := ⟨.hbm, 461, rfl⟩
abbrev main_v405 : Ref sig .tc := ⟨.hbm, 462, rfl⟩
abbrev main_cst_51 : Ref sig .tc := ⟨.hbm, 463, rfl⟩
abbrev main_v406 : Ref sig .tc := ⟨.hbm, 464, rfl⟩
abbrev main_v407 : Ref sig .tc := ⟨.hbm, 465, rfl⟩
abbrev main_v408 : Ref sig .tc := ⟨.hbm, 466, rfl⟩
abbrev main_cst_52 : Ref sig .tc := ⟨.hbm, 467, rfl⟩
abbrev main_v409 : Ref sig .tc := ⟨.hbm, 468, rfl⟩
abbrev main_v410 : Ref sig .tc := ⟨.hbm, 469, rfl⟩
abbrev main_v411 : Ref sig .tc := ⟨.hbm, 470, rfl⟩
abbrev main_cst_53 : Ref sig .tc := ⟨.hbm, 471, rfl⟩
abbrev main_v412 : Ref sig .tc := ⟨.hbm, 472, rfl⟩
abbrev main_v413 : Ref sig .tc := ⟨.hbm, 473, rfl⟩
abbrev main_v414 : Ref sig .tc := ⟨.hbm, 474, rfl⟩
abbrev main_cst_54 : Ref sig .tc := ⟨.hbm, 475, rfl⟩
abbrev main_v415 : Ref sig .tc := ⟨.hbm, 476, rfl⟩
abbrev main_v416 : Ref sig .tc := ⟨.hbm, 477, rfl⟩
abbrev main_v417 : Ref sig .tc := ⟨.hbm, 478, rfl⟩
abbrev main_v418 : Ref sig .tc := ⟨.hbm, 479, rfl⟩
abbrev main_v419 : Ref sig .tc := ⟨.hbm, 480, rfl⟩
abbrev main_v420 : Ref sig .tc := ⟨.hbm, 481, rfl⟩
abbrev main_v421 : Ref sig .tc := ⟨.hbm, 482, rfl⟩
abbrev main_v422 : Ref sig .tc := ⟨.hbm, 483, rfl⟩
abbrev main_v423 : Ref sig .tc := ⟨.hbm, 484, rfl⟩
abbrev main_v424 : Ref sig .tc := ⟨.hbm, 485, rfl⟩
abbrev main_v425 : Ref sig .tc := ⟨.hbm, 486, rfl⟩
abbrev main_v426 : Ref sig .tc := ⟨.hbm, 487, rfl⟩
abbrev main_v427 : Ref sig .tc := ⟨.hbm, 488, rfl⟩
abbrev main_v428 : Ref sig .tc := ⟨.hbm, 489, rfl⟩
abbrev main_v429 : Ref sig .tc := ⟨.hbm, 490, rfl⟩
abbrev main_v430 : Ref sig .tc := ⟨.hbm, 491, rfl⟩
abbrev main_v431 : Ref sig .tc := ⟨.hbm, 492, rfl⟩
abbrev main_v432 : Ref sig .tc := ⟨.hbm, 493, rfl⟩
abbrev main_v433 : Ref sig .tc := ⟨.hbm, 494, rfl⟩
abbrev main_v434 : Ref sig .tc := ⟨.hbm, 495, rfl⟩
abbrev main_cst_55 : Ref sig .tc := ⟨.hbm, 496, rfl⟩
abbrev main_v435 : Ref sig .tc := ⟨.hbm, 497, rfl⟩
abbrev main_v436 : Ref sig .tc := ⟨.hbm, 498, rfl⟩
abbrev main_v437 : Ref sig .tc := ⟨.hbm, 499, rfl⟩
abbrev main_cst_56 : Ref sig .tc := ⟨.hbm, 500, rfl⟩
abbrev main_v438 : Ref sig .tc := ⟨.hbm, 501, rfl⟩
abbrev main_v439 : Ref sig .tc := ⟨.hbm, 502, rfl⟩
abbrev main_v440 : Ref sig .tc := ⟨.hbm, 503, rfl⟩
abbrev main_cst_57 : Ref sig .tc := ⟨.hbm, 504, rfl⟩
abbrev main_v441 : Ref sig .tc := ⟨.hbm, 505, rfl⟩
abbrev main_v442 : Ref sig .tc := ⟨.hbm, 506, rfl⟩
abbrev main_v443 : Ref sig .tc := ⟨.hbm, 507, rfl⟩
abbrev main_cst_58 : Ref sig .tc := ⟨.hbm, 508, rfl⟩
abbrev main_v444 : Ref sig .tc := ⟨.hbm, 509, rfl⟩
abbrev main_v445 : Ref sig .tc := ⟨.hbm, 510, rfl⟩
abbrev main_v446 : Ref sig .tc := ⟨.hbm, 511, rfl⟩
abbrev main_v447 : Ref sig .tc := ⟨.hbm, 512, rfl⟩
abbrev main_v448 : Ref sig .tc := ⟨.hbm, 513, rfl⟩
abbrev main_v449 : Ref sig .tc := ⟨.hbm, 514, rfl⟩
abbrev main_v450 : Ref sig .tc := ⟨.hbm, 515, rfl⟩
abbrev main_v451 : Ref sig .tc := ⟨.hbm, 516, rfl⟩
abbrev main_v452 : Ref sig .tc := ⟨.hbm, 517, rfl⟩
abbrev main_v453 : Ref sig .tc := ⟨.hbm, 518, rfl⟩
abbrev main_v454 : Ref sig .tc := ⟨.hbm, 519, rfl⟩
abbrev main_v455 : Ref sig .tc := ⟨.hbm, 520, rfl⟩
abbrev main_v456 : Ref sig .tc := ⟨.hbm, 521, rfl⟩
abbrev main_v457 : Ref sig .tc := ⟨.hbm, 522, rfl⟩
abbrev main_v458 : Ref sig .tc := ⟨.hbm, 523, rfl⟩
abbrev main_v459 : Ref sig .tc := ⟨.hbm, 524, rfl⟩
abbrev main_v460 : Ref sig .tc := ⟨.hbm, 525, rfl⟩
abbrev main_v461 : Ref sig .tc := ⟨.hbm, 526, rfl⟩
abbrev main_v462 : Ref sig .tc := ⟨.hbm, 527, rfl⟩
abbrev main_v463 : Ref sig .tc := ⟨.hbm, 528, rfl⟩
abbrev main_cst_59 : Ref sig .tc := ⟨.hbm, 529, rfl⟩
abbrev main_v464 : Ref sig .tc := ⟨.hbm, 530, rfl⟩
abbrev main_v465 : Ref sig .tc := ⟨.hbm, 531, rfl⟩
abbrev main_v466 : Ref sig .tc := ⟨.hbm, 532, rfl⟩
abbrev main_cst_60 : Ref sig .tc := ⟨.hbm, 533, rfl⟩
abbrev main_v467 : Ref sig .tc := ⟨.hbm, 534, rfl⟩
abbrev main_v468 : Ref sig .tc := ⟨.hbm, 535, rfl⟩
abbrev main_v469 : Ref sig .tc := ⟨.hbm, 536, rfl⟩
abbrev main_cst_61 : Ref sig .tc := ⟨.hbm, 537, rfl⟩
abbrev main_v470 : Ref sig .tc := ⟨.hbm, 538, rfl⟩
abbrev main_v471 : Ref sig .tc := ⟨.hbm, 539, rfl⟩
abbrev main_v472 : Ref sig .tc := ⟨.hbm, 540, rfl⟩
abbrev main_cst_62 : Ref sig .tc := ⟨.hbm, 541, rfl⟩
abbrev main_v473 : Ref sig .tc := ⟨.hbm, 542, rfl⟩
abbrev main_v474 : Ref sig .tc := ⟨.hbm, 543, rfl⟩
abbrev main_v475 : Ref sig .tc := ⟨.hbm, 544, rfl⟩
abbrev main_v476 : Ref sig .tc := ⟨.hbm, 545, rfl⟩
abbrev main_v477 : Ref sig .tc := ⟨.hbm, 546, rfl⟩
abbrev main_v478 : Ref sig .tc := ⟨.hbm, 547, rfl⟩
abbrev main_v479 : Ref sig .tc := ⟨.hbm, 548, rfl⟩
abbrev main_v480 : Ref sig .tc := ⟨.hbm, 549, rfl⟩
abbrev main_v481 : Ref sig .tc := ⟨.hbm, 550, rfl⟩
abbrev main_v482 : Ref sig .tc := ⟨.hbm, 551, rfl⟩
abbrev main_v483 : Ref sig .tc := ⟨.hbm, 552, rfl⟩
abbrev main_v484 : Ref sig .tc := ⟨.hbm, 553, rfl⟩
abbrev main_v485 : Ref sig .tc := ⟨.hbm, 554, rfl⟩
abbrev main_v486 : Ref sig .tc := ⟨.hbm, 555, rfl⟩
abbrev main_v487 : Ref sig .tc := ⟨.hbm, 556, rfl⟩
abbrev main_v488 : Ref sig .tc := ⟨.hbm, 557, rfl⟩
abbrev main_v489 : Ref sig .tc := ⟨.hbm, 558, rfl⟩
abbrev main_v490 : Ref sig .tc := ⟨.hbm, 559, rfl⟩
abbrev main_v491 : Ref sig .tc := ⟨.hbm, 560, rfl⟩
abbrev main_v492 : Ref sig .tc := ⟨.hbm, 561, rfl⟩
abbrev main_cst_63 : Ref sig .tc := ⟨.hbm, 562, rfl⟩
abbrev main_v493 : Ref sig .tc := ⟨.hbm, 563, rfl⟩
abbrev main_v494 : Ref sig .tc := ⟨.hbm, 564, rfl⟩
abbrev main_v495 : Ref sig .tc := ⟨.hbm, 565, rfl⟩
abbrev main_cst_64 : Ref sig .tc := ⟨.hbm, 566, rfl⟩
abbrev main_v496 : Ref sig .tc := ⟨.hbm, 567, rfl⟩
abbrev main_v497 : Ref sig .tc := ⟨.hbm, 568, rfl⟩
abbrev main_v498 : Ref sig .tc := ⟨.hbm, 569, rfl⟩
abbrev main_cst_65 : Ref sig .tc := ⟨.hbm, 570, rfl⟩
abbrev main_v499 : Ref sig .tc := ⟨.hbm, 571, rfl⟩
abbrev main_v500 : Ref sig .tc := ⟨.hbm, 572, rfl⟩
abbrev main_v501 : Ref sig .tc := ⟨.hbm, 573, rfl⟩
abbrev main_cst_66 : Ref sig .tc := ⟨.hbm, 574, rfl⟩
abbrev main_v502 : Ref sig .tc := ⟨.hbm, 575, rfl⟩
abbrev main_v503 : Ref sig .tc := ⟨.hbm, 576, rfl⟩
abbrev main_v504 : Ref sig .tc := ⟨.hbm, 577, rfl⟩
abbrev main_v505 : Ref sig .tc := ⟨.hbm, 578, rfl⟩
abbrev main_v506 : Ref sig .tc := ⟨.hbm, 579, rfl⟩
abbrev main_v507 : Ref sig .tc := ⟨.hbm, 580, rfl⟩
abbrev main_v508 : Ref sig .tc := ⟨.hbm, 581, rfl⟩
abbrev main_v509 : Ref sig .tc := ⟨.hbm, 582, rfl⟩
abbrev main_v510 : Ref sig .tc := ⟨.hbm, 583, rfl⟩
abbrev main_v511 : Ref sig .tc := ⟨.hbm, 584, rfl⟩
abbrev main_v512 : Ref sig .tc := ⟨.hbm, 585, rfl⟩
abbrev main_v513 : Ref sig .tc := ⟨.hbm, 586, rfl⟩
abbrev main_v514 : Ref sig .tc := ⟨.hbm, 587, rfl⟩
abbrev main_v515 : Ref sig .tc := ⟨.hbm, 588, rfl⟩
abbrev main_v516 : Ref sig .tc := ⟨.hbm, 589, rfl⟩
abbrev main_v517 : Ref sig .tc := ⟨.hbm, 590, rfl⟩
abbrev main_v518 : Ref sig .tc := ⟨.hbm, 591, rfl⟩
abbrev main_v519 : Ref sig .tc := ⟨.hbm, 592, rfl⟩
abbrev main_v520 : Ref sig .tc := ⟨.hbm, 593, rfl⟩
abbrev main_v521 : Ref sig .tc := ⟨.hbm, 594, rfl⟩
abbrev main_cst_67 : Ref sig .tc := ⟨.hbm, 595, rfl⟩
abbrev main_v522 : Ref sig .tc := ⟨.hbm, 596, rfl⟩
abbrev main_v523 : Ref sig .tc := ⟨.hbm, 597, rfl⟩
abbrev main_v524 : Ref sig .tc := ⟨.hbm, 598, rfl⟩
abbrev main_cst_68 : Ref sig .tc := ⟨.hbm, 599, rfl⟩
abbrev main_v525 : Ref sig .tc := ⟨.hbm, 600, rfl⟩
abbrev main_v526 : Ref sig .tc := ⟨.hbm, 601, rfl⟩
abbrev main_v527 : Ref sig .tc := ⟨.hbm, 602, rfl⟩
abbrev main_cst_69 : Ref sig .tc := ⟨.hbm, 603, rfl⟩
abbrev main_v528 : Ref sig .tc := ⟨.hbm, 604, rfl⟩
abbrev main_v529 : Ref sig .tc := ⟨.hbm, 605, rfl⟩
abbrev main_v530 : Ref sig .tc := ⟨.hbm, 606, rfl⟩
abbrev main_cst_70 : Ref sig .tc := ⟨.hbm, 607, rfl⟩
abbrev main_v531 : Ref sig .tc := ⟨.hbm, 608, rfl⟩
abbrev main_v532 : Ref sig .tc := ⟨.hbm, 609, rfl⟩
abbrev main_v533 : Ref sig .tc := ⟨.hbm, 610, rfl⟩
abbrev main_v534 : Ref sig .tc := ⟨.hbm, 611, rfl⟩
abbrev main_v535 : Ref sig .tc := ⟨.hbm, 612, rfl⟩
abbrev main_v536 : Ref sig .tc := ⟨.hbm, 613, rfl⟩
abbrev main_v537 : Ref sig .tc := ⟨.hbm, 614, rfl⟩
abbrev main_v538 : Ref sig .tc := ⟨.hbm, 615, rfl⟩
abbrev main_v539 : Ref sig .tc := ⟨.hbm, 616, rfl⟩
abbrev main_v540 : Ref sig .tc := ⟨.hbm, 617, rfl⟩
abbrev main_v541 : Ref sig .tc := ⟨.hbm, 618, rfl⟩
abbrev main_v542 : Ref sig .tc := ⟨.hbm, 619, rfl⟩
abbrev main_v543 : Ref sig .tc := ⟨.hbm, 620, rfl⟩
abbrev main_v544 : Ref sig .tc := ⟨.hbm, 621, rfl⟩
abbrev main_v545 : Ref sig .tc := ⟨.hbm, 622, rfl⟩
abbrev main_v546 : Ref sig .tc := ⟨.hbm, 623, rfl⟩
abbrev main_v547 : Ref sig .tc := ⟨.hbm, 624, rfl⟩
abbrev main_v548 : Ref sig .tc := ⟨.hbm, 625, rfl⟩
abbrev main_v549 : Ref sig .tc := ⟨.hbm, 626, rfl⟩
abbrev main_v550 : Ref sig .tc := ⟨.hbm, 627, rfl⟩
abbrev main_cst_71 : Ref sig .tc := ⟨.hbm, 628, rfl⟩
abbrev main_v551 : Ref sig .tc := ⟨.hbm, 629, rfl⟩
abbrev main_v552 : Ref sig .tc := ⟨.hbm, 630, rfl⟩
abbrev main_v553 : Ref sig .tc := ⟨.hbm, 631, rfl⟩
abbrev main_cst_72 : Ref sig .tc := ⟨.hbm, 632, rfl⟩
abbrev main_v554 : Ref sig .tc := ⟨.hbm, 633, rfl⟩
abbrev main_v555 : Ref sig .tc := ⟨.hbm, 634, rfl⟩
abbrev main_v556 : Ref sig .tc := ⟨.hbm, 635, rfl⟩
abbrev main_cst_73 : Ref sig .tc := ⟨.hbm, 636, rfl⟩
abbrev main_v557 : Ref sig .tc := ⟨.hbm, 637, rfl⟩
abbrev main_v558 : Ref sig .tc := ⟨.hbm, 638, rfl⟩
abbrev main_v559 : Ref sig .tc := ⟨.hbm, 639, rfl⟩
abbrev main_cst_74 : Ref sig .tc := ⟨.hbm, 640, rfl⟩
abbrev main_v560 : Ref sig .tc := ⟨.hbm, 641, rfl⟩
abbrev main_v561 : Ref sig .tc := ⟨.hbm, 642, rfl⟩
abbrev main_v562 : Ref sig .tc := ⟨.hbm, 643, rfl⟩
abbrev main_v563 : Ref sig .tc := ⟨.hbm, 644, rfl⟩
abbrev main_v564 : Ref sig .tc := ⟨.hbm, 645, rfl⟩
abbrev main_v565 : Ref sig .tc := ⟨.hbm, 646, rfl⟩
abbrev main_v566 : Ref sig .tc := ⟨.hbm, 647, rfl⟩
abbrev main_v567 : Ref sig .tc := ⟨.hbm, 648, rfl⟩
abbrev main_v568 : Ref sig .tc := ⟨.hbm, 649, rfl⟩
abbrev main_v569 : Ref sig .tc := ⟨.hbm, 650, rfl⟩
abbrev main_v570 : Ref sig .tc := ⟨.hbm, 651, rfl⟩
abbrev main_v571 : Ref sig .tc := ⟨.hbm, 652, rfl⟩
abbrev main_v572 : Ref sig .tc := ⟨.hbm, 653, rfl⟩
abbrev main_v573 : Ref sig .tc := ⟨.hbm, 654, rfl⟩
abbrev main_v574 : Ref sig .tc := ⟨.hbm, 655, rfl⟩
abbrev main_v575 : Ref sig .tc := ⟨.hbm, 656, rfl⟩
abbrev main_v576 : Ref sig .tc := ⟨.hbm, 657, rfl⟩
abbrev main_v577 : Ref sig .tc := ⟨.hbm, 658, rfl⟩
abbrev main_v578 : Ref sig .tc := ⟨.hbm, 659, rfl⟩
abbrev main_v579 : Ref sig .tc := ⟨.hbm, 660, rfl⟩
abbrev main_cst_75 : Ref sig .tc := ⟨.hbm, 661, rfl⟩
abbrev main_v580 : Ref sig .tc := ⟨.hbm, 662, rfl⟩
abbrev main_v581 : Ref sig .tc := ⟨.hbm, 663, rfl⟩
abbrev main_v582 : Ref sig .tc := ⟨.hbm, 664, rfl⟩
abbrev main_cst_76 : Ref sig .tc := ⟨.hbm, 665, rfl⟩
abbrev main_v583 : Ref sig .tc := ⟨.hbm, 666, rfl⟩
abbrev main_v584 : Ref sig .tc := ⟨.hbm, 667, rfl⟩
abbrev main_v585 : Ref sig .tc := ⟨.hbm, 668, rfl⟩
abbrev main_cst_77 : Ref sig .tc := ⟨.hbm, 669, rfl⟩
abbrev main_v586 : Ref sig .tc := ⟨.hbm, 670, rfl⟩
abbrev main_v587 : Ref sig .tc := ⟨.hbm, 671, rfl⟩
abbrev main_v588 : Ref sig .tc := ⟨.hbm, 672, rfl⟩
abbrev main_cst_78 : Ref sig .tc := ⟨.hbm, 673, rfl⟩
abbrev main_v589 : Ref sig .tc := ⟨.hbm, 674, rfl⟩
abbrev main_v590 : Ref sig .tc := ⟨.hbm, 675, rfl⟩
abbrev main_v591 : Ref sig .tc := ⟨.hbm, 676, rfl⟩
abbrev main_v592 : Ref sig .tc := ⟨.hbm, 677, rfl⟩
abbrev main_v593 : Ref sig .tc := ⟨.hbm, 678, rfl⟩
abbrev main_v594 : Ref sig .tc := ⟨.hbm, 679, rfl⟩
abbrev main_v595 : Ref sig .tc := ⟨.hbm, 680, rfl⟩
abbrev main_v596 : Ref sig .tc := ⟨.hbm, 681, rfl⟩
abbrev main_v597 : Ref sig .tc := ⟨.hbm, 682, rfl⟩
abbrev main_v598 : Ref sig .tc := ⟨.hbm, 683, rfl⟩
abbrev main_v599 : Ref sig .tc := ⟨.hbm, 684, rfl⟩
abbrev main_v600 : Ref sig .tc := ⟨.hbm, 685, rfl⟩
abbrev main_v601 : Ref sig .tc := ⟨.hbm, 686, rfl⟩
abbrev main_v602 : Ref sig .tc := ⟨.hbm, 687, rfl⟩
abbrev main_v603 : Ref sig .tc := ⟨.hbm, 688, rfl⟩
abbrev main_v604 : Ref sig .tc := ⟨.hbm, 689, rfl⟩
abbrev main_v605 : Ref sig .tc := ⟨.hbm, 690, rfl⟩
abbrev main_v606 : Ref sig .tc := ⟨.hbm, 691, rfl⟩
abbrev main_v607 : Ref sig .tc := ⟨.hbm, 692, rfl⟩
abbrev main_v608 : Ref sig .tc := ⟨.hbm, 693, rfl⟩
abbrev main_v609 : Ref sig .tc := ⟨.hbm, 694, rfl⟩
abbrev main_v610 : Ref sig .tc := ⟨.hbm, 695, rfl⟩
abbrev main_v611 : Ref sig .tc := ⟨.hbm, 696, rfl⟩
abbrev main_v612 : Ref sig .tc := ⟨.hbm, 697, rfl⟩
abbrev main_v613 : Ref sig .tc := ⟨.hbm, 698, rfl⟩
abbrev main_v614 : Ref sig .tc := ⟨.hbm, 699, rfl⟩
abbrev main_v615 : Ref sig .tc := ⟨.hbm, 700, rfl⟩
abbrev main_v616 : Ref sig .tc := ⟨.hbm, 701, rfl⟩
abbrev main_cst_79 : Ref sig .tc := ⟨.hbm, 702, rfl⟩
abbrev main_v617 : Ref sig .tc := ⟨.hbm, 703, rfl⟩
abbrev main_v618 : Ref sig .tc := ⟨.hbm, 704, rfl⟩
abbrev main_v619 : Ref sig .tc := ⟨.hbm, 705, rfl⟩
abbrev main_cst_80 : Ref sig .tc := ⟨.hbm, 706, rfl⟩
abbrev main_v620 : Ref sig .tc := ⟨.hbm, 707, rfl⟩
abbrev main_v621 : Ref sig .tc := ⟨.hbm, 708, rfl⟩
abbrev main_v622 : Ref sig .tc := ⟨.hbm, 709, rfl⟩
abbrev main_cst_81 : Ref sig .tc := ⟨.hbm, 710, rfl⟩
abbrev main_v623 : Ref sig .tc := ⟨.hbm, 711, rfl⟩
abbrev main_v624 : Ref sig .tc := ⟨.hbm, 712, rfl⟩
abbrev main_v625 : Ref sig .tc := ⟨.hbm, 713, rfl⟩
abbrev main_v626 : Ref sig .tc := ⟨.hbm, 714, rfl⟩
abbrev main_cst_82 : Ref sig .tc := ⟨.hbm, 715, rfl⟩
abbrev main_v627 : Ref sig .tc := ⟨.hbm, 716, rfl⟩
abbrev main_cst_83 : Ref sig .tc := ⟨.hbm, 717, rfl⟩
abbrev main_v628 : Ref sig .tc := ⟨.hbm, 718, rfl⟩
abbrev main_v629 : Ref sig .tc := ⟨.hbm, 719, rfl⟩
abbrev main_v630 : Ref sig .tc := ⟨.hbm, 720, rfl⟩
abbrev main_v631 : Ref sig .tc := ⟨.hbm, 721, rfl⟩
abbrev main_v632 : Ref sig .tc := ⟨.hbm, 722, rfl⟩
abbrev main_v633 : Ref sig .tc := ⟨.hbm, 723, rfl⟩

abbrev nD : Nat := 1
abbrev τ : Topo := Topo.v7x

variable {F : FTy → Type} [FloatOps F]

class Facts₀ : Prop where
  transposes_S1024x1024_S1024x1024_1_0 : S1024x1024.Transposes [1, 0] S1024x1024
  transposes_S1024x512_S512x1024_1_0 : S1024x512.Transposes [1, 0] S512x1024
  bcast_S_S1024x512 : S_.BroadcastsInDim S1024x512 (![] : Fin 0 → Fin S1024x512.rank)
  bcast_S_S1024x1024 : S_.BroadcastsInDim S1024x1024 (![] : Fin 0 → Fin S1024x1024.rank)
  reducesTo_S1024x512_S_d0_1 : S1024x512.ReducesTo [0, 1] S_
  h_S_ : 0 < S_.numel
  shapeCasts_S1024x1024_S1048576 : S1024x1024.ShapeCasts S1048576
  shapeCasts_S1024x512_S524288 : S1024x512.ShapeCasts S524288
  bcast_S_S1 : S_.BroadcastsInDim S1 (![] : Fin 0 → Fin S1.rank)
  concatenates_S1048576_S1048576_S524288_S1_S2621441_d0 : Shape.Concatenates [S1048576, S1048576, S524288, S1] S2621441 0
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

class Facts : Prop extends Facts₀ where

variable [Facts]
-- ==== Proof.KBRegion22.lean ====
/-
  Region 22 of @main: the weight gradients `sᵢᵀ·(sᵢ·Wᵢ − sᵢ₊₁)` of the three layers at the free-phase states; one gridless
  kernel over whole arrays.
  Stated at a parameter `V`, the buffers' contents when the region is entered, and at any float instance:
  what each output buffer holds after the body (`out22_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)
theorem before22_3_of {c : Dev nD} (dat : Dat τ (Elt F) Unit ℕ (UR sig nD τ) ℕ cfg22 c) (hA : dat.A 3 = V c (Pipeline.arrRef spec22 3))
    (hafter : ∀ t, dat.after 3 t = iblk22 V c 3 t) (t : Fin cfg22.N) (d) : dat.before 3 t d = iblk22 V c 3 t :=
  (dat.before_in_eq_fetched 3 rfl (fun _ => rfl) (fun _ _ _ => rfl) (fun t => by rw [hafter]; unfold Dat.blockOf iblk22; rw [hA]; try rfl) t d).trans
    (by unfold Dat.fetched Dat.blockOf iblk22; rw [hA]; try rfl)
theorem before22_4_of {c : Dev nD} (dat : Dat τ (Elt F) Unit ℕ (UR sig nD τ) ℕ cfg22 c) (hA : dat.A 4 = V c (Pipeline.arrRef spec22 4))
    (hafter : ∀ t, dat.after 4 t = iblk22 V c 4 t) (t : Fin cfg22.N) (d) : dat.before 4 t d = iblk22 V c 4 t :=
  (dat.before_in_eq_fetched 4 rfl (fun _ => rfl) (fun _ _ _ => rfl) (fun t => by rw [hafter]; unfold Dat.blockOf iblk22; rw [hA]; try rfl) t d).trans
    (by unfold Dat.fetched Dat.blockOf iblk22; rw [hA]; try rfl)
theorem before22_5_of {c : Dev nD} (dat : Dat τ (Elt F) Unit ℕ (UR sig nD τ) ℕ cfg22 c) (hA : dat.A 5 = V c (Pipeline.arrRef spec22 5))
    (hafter : ∀ t, dat.after 5 t = iblk22 V c 5 t) (t : Fin cfg22.N) (d) : dat.before 5 t d = iblk22 V c 5 t :=
  (dat.before_in_eq_fetched 5 rfl (fun _ => rfl) (fun _ _ _ => rfl) (fun t => by rw [hafter]; unfold Dat.blockOf iblk22; rw [hA]; try rfl) t d).trans
    (by unfold Dat.fetched Dat.blockOf iblk22; rw [hA]; try rfl)
theorem before22_6_of {c : Dev nD} (dat : Dat τ (Elt F) Unit ℕ (UR sig nD τ) ℕ cfg22 c) (hA : dat.A 6 = V c (Pipeline.arrRef spec22 6))
    (hafter : ∀ t, dat.after 6 t = iblk22 V c 6 t) (t : Fin cfg22.N) (d) : dat.before 6 t d = iblk22 V c 6 t :=
  (dat.before_in_eq_fetched 6 rfl (fun _ => rfl) (fun _ _ _ => rfl) (fun t => by rw [hafter]; unfold Dat.blockOf iblk22; rw [hA]; try rfl) t d).trans
    (by unfold Dat.fetched Dat.blockOf iblk22; rw [hA]; try rfl)

/-- The whole-buffer rectangles the body loads and stores through. -/
abbrev rA22 : Rect S1024x1024 := Rect.unit (s := S1024x1024) ![0, 0] S1024x1024.size inb_S1024x1024_S1024x1024_0_0
abbrev rB22 : Rect S1024x512 := Rect.unit (s := S1024x512) ![0, 0] S1024x512.size inb_S1024x512_S1024x512_0_0

/-- One whole-buffer store covers its buffer. -/
theorem coverA22 (p0 : Vec F S1024x1024 .f32) (y : S1024x1024.Idx) :
    ∃ pc ∈ ([⟨rA22, p0⟩] : List (View.Piece (Elt F) S1024x1024 .f32)), y ∈ pc.1.set :=
  View.cover_of_tiled [⟨rA22, p0⟩] S1024x1024.size (by rfl) y
theorem coverB22 (p0 : Vec F S1024x512 .f32) (y : S1024x512.Idx) :
    ∃ pc ∈ ([⟨rB22, p0⟩] : List (View.Piece (Elt F) S1024x512 .f32)), y ∈ pc.1.set :=
  View.cover_of_tiled [⟨rB22, p0⟩] S1024x512.size (by rfl) y

/-- What the body leaves in each output buffer: its one whole-buffer store, of the payload of the inputs. -/
def out22_7 (x0 : Vec F S1024x1024 .f32) (x1 : Vec F S1024x1024 .f32) (x4 : Vec F S1024x1024 .f32) : Vec F S1024x1024 .f32 :=
  View.canon [⟨rA22, k22_pay3 (View.ld x0 rA22) (View.ld x1 rA22) (View.ld x4 rA22)⟩]
def out22_8 (x1 : Vec F S1024x1024 .f32) (x2 : Vec F S1024x1024 .f32) (x5 : Vec F S1024x1024 .f32) : Vec F S1024x1024 .f32 :=
  View.canon [⟨rA22, k22_pay4 (View.ld x1 rA22) (View.ld x2 rA22) (View.ld x5 rA22)⟩]
def out22_9 (x2 : Vec F S1024x1024 .f32) (x3 : Vec F S1024x512 .f32) (x6 : Vec F S1024x512 .f32) : Vec F S1024x512 .f32 :=
  View.canon [⟨rB22, k22_pay5 (View.ld x2 rA22) (View.ld x3 rB22) (View.ld x6 rB22)⟩]

set_option maxHeartbeats 4000000 in
/-- The body on whole buffers: the inputs' read and kept, each output's left at `out22_w` of the inputs'. -/
theorem sound_kernel22 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x512 .f32) (harg9 : arg9.IsWhole)
    (x0 : Vec F S1024x1024 .f32) (x1 : Vec F S1024x1024 .f32) (x2 : Vec F S1024x1024 .f32) (x3 : Vec F S1024x512 .f32) (x4 : Vec F S1024x1024 .f32) (x5 : Vec F S1024x1024 .f32) (x6 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out22_7 x0 x1 x4) ∗ owns (c : Thread nD τ) arg8 fullShare (out22_8 x1 x2 x5) ∗ owns (c : Thread nD τ) arg9 fullShare (out22_9 x2 x3 x6)) -∗ K ⟨⟩))
      ⊢ wp frame (wpE (defs₀ (F := F)) Variants.none c none) E (cc22__weight_grads_kernel arg0 harg0 arg1 harg1 arg2 harg2 arg3 harg3 arg4 harg4 arg5 harg5 arg6 harg6 arg7 harg7 arg8 harg8 arg9 harg9) K := by
  simp only [cc22__weight_grads_kernel_eq_skeleton]; unfold cc22__weight_grads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverA22 _)
  isplitl [H8]
  · iexists _; isplitr
    swap; · iexact H8
    ipureintro
    exact View.read_writes_eq_canon _ _ _ (coverA22 _)
  iexists _; isplitr
  swap; · iexact H9
  ipureintro
  exact View.read_writes_eq_canon _ _ _ (coverB22 _)

/-- The proof data of pipeline 22: the arrays as the region finds them; after the body each input's buffer at its
    block and each output's at the body's result; the scoped rest and the generator register untouched; nothing owed. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => iblk22 V c 3 t
    | ⟨4, _⟩ => iblk22 V c 4 t
    | ⟨5, _⟩ => iblk22 V c 5 t
    | ⟨6, _⟩ => iblk22 V c 6 t
    | ⟨7, _⟩ => out22_7 (iblk22 V c 0 t) (iblk22 V c 1 t) (iblk22 V c 4 t)
    | ⟨8, _⟩ => out22_8 (iblk22 V c 1 t) (iblk22 V c 2 t) (iblk22 V c 5 t)
    | ⟨9, _⟩ => out22_9 (iblk22 V c 2 t) (iblk22 V c 3 t) (iblk22 V c 6 t)
  Φ _ := Pipeline.ΦA spec22 c
  q _ := fullShare
  owed _ := 0

theorem A_eq22 (c : Dev nD) (w : Fin cfg22.W) : (dat22 V c).A w = V c (Pipeline.arrRef spec22 w) := by
  dsimp only [dat22]

theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = iblk22 V c 3 t := by dsimp only [dat22]
theorem after22_4 (c : Dev nD) (t : Fin cfg22.N) : (dat22 V c).after 4 t = iblk22 V c 4 t := by dsimp only [dat22]
theorem after22_5 (c : Dev nD) (t : Fin cfg22.N) : (dat22 V c).after 5 t = iblk22 V c 5 t := by dsimp only [dat22]
theorem after22_6 (c : Dev nD) (t : Fin cfg22.N) : (dat22 V c).after 6 t = iblk22 V c 6 t := by dsimp only [dat22]
theorem after22_7 (c : Dev nD) (t : Fin cfg22.N) : (dat22 V c).after 7 t = out22_7 (iblk22 V c 0 t) (iblk22 V c 1 t) (iblk22 V c 4 t) := by dsimp only [dat22]
theorem after22_8 (c : Dev nD) (t : Fin cfg22.N) : (dat22 V c).after 8 t = out22_8 (iblk22 V c 1 t) (iblk22 V c 2 t) (iblk22 V c 5 t) := by dsimp only [dat22]
theorem after22_9 (c : Dev nD) (t : Fin cfg22.N) : (dat22 V c).after 9 t = out22_9 (iblk22 V c 2 t) (iblk22 V c 3 t) (iblk22 V c 6 t) := by dsimp only [dat22]

theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d
theorem before22_3 (c : Dev nD) (t : Fin cfg22.N) (d) : (dat22 V c).before 3 t d = iblk22 V c 3 t :=
  before22_3_of V (dat22 V c) (A_eq22 V c 3) (after22_3 V c) t d
theorem before22_4 (c : Dev nD) (t : Fin cfg22.N) (d) : (dat22 V c).before 4 t d = iblk22 V c 4 t :=
  before22_4_of V (dat22 V c) (A_eq22 V c 4) (after22_4 V c) t d
theorem before22_5 (c : Dev nD) (t : Fin cfg22.N) (d) : (dat22 V c).before 5 t d = iblk22 V c 5 t :=
  before22_5_of V (dat22 V c) (A_eq22 V c 5) (after22_5 V c) t d
theorem before22_6 (c : Dev nD) (t : Fin cfg22.N) (d) : (dat22 V c).before 6 t d = iblk22 V c 6 t :=
  before22_6_of V (dat22 V c) (A_eq22 V c 6) (after22_6 V c) t d

/-- What the body is called with at the point, the windows one by one, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d))
    ∗ (∃ d, owns (c : Thread nD τ) (st22_4 t) fullShare ((dat22 V c).before 4 t d))
    ∗ (∃ d, owns (c : Thread nD τ) (st22_5 t) fullShare ((dat22 V c).before 5 t d))
    ∗ (∃ d, owns (c : Thread nD τ) (st22_6 t) fullShare ((dat22 V c).before 6 t d))
    ∗ (∃ d, owns (c : Thread nD τ) (st22_7 t) fullShare ((dat22 V c).before 7 t d))
    ∗ (∃ d, owns (c : Thread nD τ) (st22_8 t) fullShare ((dat22 V c).before 8 t d))
    ∗ (∃ d, owns (c : Thread nD τ) (st22_9 t) fullShare ((dat22 V c).before 9 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t)
    ∗ owns (c : Thread nD τ) (st22_4 t) fullShare ((dat22 V c).after 4 t)
    ∗ owns (c : Thread nD τ) (st22_5 t) fullShare ((dat22 V c).after 5 t)
    ∗ owns (c : Thread nD τ) (st22_6 t) fullShare ((dat22 V c).after 6 t)
    ∗ owns (c : Thread nD τ) (st22_7 t) fullShare ((dat22 V c).after 7 t)
    ∗ owns (c : Thread nD τ) (st22_8 t) fullShare ((dat22 V c).after 8 t)
    ∗ owns (c : Thread nD τ) (st22_9 t) fullShare ((dat22 V c).after 9 t))

theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2, before22_3, before22_4, before22_5, before22_6]
  rw [show (dat22 V c).Φ t.succ = (dat22 V c).Φ t.castSucc from rfl,
    show (dat22 V c).owesAt () t.succ = (dat22 V c).owesAt () t.castSucc from rfl,
    after22_0, after22_1, after22_2, after22_3, after22_4, after22_5, after22_6, after22_7, after22_8, after22_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel22 c Set.univ _ _ _ _ _ _ _ _ _ _ _ _ _ _ _ _ _ _ _ _ (iblk22 V c 0 t) (iblk22 V c 1 t) (iblk22 V c 2 t) (iblk22 V c 3 t) (iblk22 V c 4 t) (iblk22 V c 5 t) (iblk22 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at the region's point. -/
theorem body_obligation22 (c : Dev nD) : BodyObligation (dat22 (F := F) V c) (defs₀ (F := F)) Variants.none () Set.univ := fun t => by
  rw [bigSep_W22, bigSep_W22]
  exact sound_body22 V c t

end Cert.Kernel.Reg

end
-- ==== Proof.KBRegion21.lean ====
/-
  Region 21 of @main: the weight gradients `sᵢᵀ·(sᵢ·Wᵢ − sᵢ₊₁)` of the three layers at the free-phase states; one gridless
  kernel over whole arrays.
  Stated at a parameter `V`, the buffers' contents when the region is entered, and at any float instance:
  what each output buffer holds after the body (`out21_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)
theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)
theorem before21_4_of {c : Dev nD} (dat : Dat τ (Elt F) Unit ℕ (UR sig nD τ) ℕ cfg21 c) (hA : dat.A 4 = V c (Pipeline.arrRef spec21 4))
    (hafter : ∀ t, dat.after 4 t = iblk21 V c 4 t) (t : Fin cfg21.N) (d) : dat.before 4 t d = iblk21 V c 4 t :=
  (dat.before_in_eq_fetched 4 rfl (fun _ => rfl) (fun _ _ _ => rfl) (fun t => by rw [hafter]; unfold Dat.blockOf iblk21; rw [hA]; try rfl) t d).trans
    (by unfold Dat.fetched Dat.blockOf iblk21; rw [hA]; try rfl)
theorem before21_5_of {c : Dev nD} (dat : Dat τ (Elt F) Unit ℕ (UR sig nD τ) ℕ cfg21 c) (hA : dat.A 5 = V c (Pipeline.arrRef spec21 5))
    (hafter : ∀ t, dat.after 5 t = iblk21 V c 5 t) (t : Fin cfg21.N) (d) : dat.before 5 t d = iblk21 V c 5 t :=
  (dat.before_in_eq_fetched 5 rfl (fun _ => rfl) (fun _ _ _ => rfl) (fun t => by rw [hafter]; unfold Dat.blockOf iblk21; rw [hA]; try rfl) t d).trans
    (by unfold Dat.fetched Dat.blockOf iblk21; rw [hA]; try rfl)
theorem before21_6_of {c : Dev nD} (dat : Dat τ (Elt F) Unit ℕ (UR sig nD τ) ℕ cfg21 c) (hA : dat.A 6 = V c (Pipeline.arrRef spec21 6))
    (hafter : ∀ t, dat.after 6 t = iblk21 V c 6 t) (t : Fin cfg21.N) (d) : dat.before 6 t d = iblk21 V c 6 t :=
  (dat.before_in_eq_fetched 6 rfl (fun _ => rfl) (fun _ _ _ => rfl) (fun t => by rw [hafter]; unfold Dat.blockOf iblk21; rw [hA]; try rfl) t d).trans
    (by unfold Dat.fetched Dat.blockOf iblk21; rw [hA]; try rfl)

/-- The whole-buffer rectangles the body loads and stores through. -/
abbrev rA21 : Rect S1024x1024 := Rect.unit (s := S1024x1024) ![0, 0] S1024x1024.size inb_S1024x1024_S1024x1024_0_0
abbrev rB21 : Rect S1024x512 := Rect.unit (s := S1024x512) ![0, 0] S1024x512.size inb_S1024x512_S1024x512_0_0

/-- One whole-buffer store covers its buffer. -/
theorem coverA21 (p0 : Vec F S1024x1024 .f32) (y : S1024x1024.Idx) :
    ∃ pc ∈ ([⟨rA21, p0⟩] : List (View.Piece (Elt F) S1024x1024 .f32)), y ∈ pc.1.set :=
  View.cover_of_tiled [⟨rA21, p0⟩] S1024x1024.size (by rfl) y
theorem coverB21 (p0 : Vec F S1024x512 .f32) (y : S1024x512.Idx) :
    ∃ pc ∈ ([⟨rB21, p0⟩] : List (View.Piece (Elt F) S1024x512 .f32)), y ∈ pc.1.set :=
  View.cover_of_tiled [⟨rB21, p0⟩] S1024x512.size (by rfl) y

/-- What the body leaves in each output buffer: its one whole-buffer store, of the payload of the inputs. -/
def out21_7 (x0 : Vec F S1024x1024 .f32) (x1 : Vec F S1024x1024 .f32) (x4 : Vec F S1024x1024 .f32) : Vec F S1024x1024 .f32 :=
  View.canon [⟨rA21, k21_pay3 (View.ld x0 rA21) (View.ld x1 rA21) (View.ld x4 rA21)⟩]
def out21_8 (x1 : Vec F S1024x1024 .f32) (x2 : Vec F S1024x1024 .f32) (x5 : Vec F S1024x1024 .f32) : Vec F S1024x1024 .f32 :=
  View.canon [⟨rA21, k21_pay4 (View.ld x1 rA21) (View.ld x2 rA21) (View.ld x5 rA21)⟩]
def out21_9 (x2 : Vec F S1024x1024 .f32) (x3 : Vec F S1024x512 .f32) (x6 : Vec F S1024x512 .f32) : Vec F S1024x512 .f32 :=
  View.canon [⟨rB21, k21_pay5 (View.ld x2 rA21) (View.ld x3 rB21) (View.ld x6 rB21)⟩]

set_option maxHeartbeats 4000000 in
/-- The body on whole buffers: the inputs' read and kept, each output's left at `out21_w` of the inputs'. -/
theorem sound_kernel21 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x512 .f32) (harg9 : arg9.IsWhole)
    (x0 : Vec F S1024x1024 .f32) (x1 : Vec F S1024x1024 .f32) (x2 : Vec F S1024x1024 .f32) (x3 : Vec F S1024x512 .f32) (x4 : Vec F S1024x1024 .f32) (x5 : Vec F S1024x1024 .f32) (x6 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out21_7 x0 x1 x4) ∗ owns (c : Thread nD τ) arg8 fullShare (out21_8 x1 x2 x5) ∗ owns (c : Thread nD τ) arg9 fullShare (out21_9 x2 x3 x6)) -∗ K ⟨⟩))
      ⊢ wp frame (wpE (defs₀ (F := F)) Variants.none c none) E (cc21__weight_grads_kernel arg0 harg0 arg1 harg1 arg2 harg2 arg3 harg3 arg4 harg4 arg5 harg5 arg6 harg6 arg7 harg7 arg8 harg8 arg9 harg9) K := by
  simp only [cc21__weight_grads_kernel_eq_skeleton]; unfold cc21__weight_grads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverA21 _)
  isplitl [H8]
  · iexists _; isplitr
    swap; · iexact H8
    ipureintro
    exact View.read_writes_eq_canon _ _ _ (coverA21 _)
  iexists _; isplitr
  swap; · iexact H9
  ipureintro
  exact View.read_writes_eq_canon _ _ _ (coverB21 _)

/-- The proof data of pipeline 21: the arrays as the region finds them; after the body each input's buffer at its
    block and each output's at the body's result; the scoped rest and the generator register untouched; nothing owed. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => iblk21 V c 5 t
    | ⟨6, _⟩ => iblk21 V c 6 t
    | ⟨7, _⟩ => out21_7 (iblk21 V c 0 t) (iblk21 V c 1 t) (iblk21 V c 4 t)
    | ⟨8, _⟩ => out21_8 (iblk21 V c 1 t) (iblk21 V c 2 t) (iblk21 V c 5 t)
    | ⟨9, _⟩ => out21_9 (iblk21 V c 2 t) (iblk21 V c 3 t) (iblk21 V c 6 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = iblk21 V c 3 t := by dsimp only [dat21]
theorem after21_4 (c : Dev nD) (t : Fin cfg21.N) : (dat21 V c).after 4 t = iblk21 V c 4 t := by dsimp only [dat21]
theorem after21_5 (c : Dev nD) (t : Fin cfg21.N) : (dat21 V c).after 5 t = iblk21 V c 5 t := by dsimp only [dat21]
theorem after21_6 (c : Dev nD) (t : Fin cfg21.N) : (dat21 V c).after 6 t = iblk21 V c 6 t := by dsimp only [dat21]
theorem after21_7 (c : Dev nD) (t : Fin cfg21.N) : (dat21 V c).after 7 t = out21_7 (iblk21 V c 0 t) (iblk21 V c 1 t) (iblk21 V c 4 t) := by dsimp only [dat21]
theorem after21_8 (c : Dev nD) (t : Fin cfg21.N) : (dat21 V c).after 8 t = out21_8 (iblk21 V c 1 t) (iblk21 V c 2 t) (iblk21 V c 5 t) := by dsimp only [dat21]
theorem after21_9 (c : Dev nD) (t : Fin cfg21.N) : (dat21 V c).after 9 t = out21_9 (iblk21 V c 2 t) (iblk21 V c 3 t) (iblk21 V c 6 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d
theorem before21_3 (c : Dev nD) (t : Fin cfg21.N) (d) : (dat21 V c).before 3 t d = iblk21 V c 3 t :=
  before21_3_of V (dat21 V c) (A_eq21 V c 3) (after21_3 V c) t d
theorem before21_4 (c : Dev nD) (t : Fin cfg21.N) (d) : (dat21 V c).before 4 t d = iblk21 V c 4 t :=
  before21_4_of V (dat21 V c) (A_eq21 V c 4) (after21_4 V c) t d
theorem before21_5 (c : Dev nD) (t : Fin cfg21.N) (d) : (dat21 V c).before 5 t d = iblk21 V c 5 t :=
  before21_5_of V (dat21 V c) (A_eq21 V c 5) (after21_5 V c) t d
theorem before21_6 (c : Dev nD) (t : Fin cfg21.N) (d) : (dat21 V c).before 6 t d = iblk21 V c 6 t :=
  before21_6_of V (dat21 V c) (A_eq21 V c 6) (after21_6 V c) t d

/-- What the body is called with at the point, the windows one by one, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d))
    ∗ (∃ d, owns (c : Thread nD τ) (st21_5 t) fullShare ((dat21 V c).before 5 t d))
    ∗ (∃ d, owns (c : Thread nD τ) (st21_6 t) fullShare ((dat21 V c).before 6 t d))
    ∗ (∃ d, owns (c : Thread nD τ) (st21_7 t) fullShare ((dat21 V c).before 7 t d))
    ∗ (∃ d, owns (c : Thread nD τ) (st21_8 t) fullShare ((dat21 V c).before 8 t d))
    ∗ (∃ d, owns (c : Thread nD τ) (st21_9 t) fullShare ((dat21 V c).before 9 t d)))

/-- and what it returns. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t)
    ∗ owns (c : Thread nD τ) (st21_5 t) fullShare ((dat21 V c).after 5 t)
    ∗ owns (c : Thread nD τ) (st21_6 t) fullShare ((dat21 V c).after 6 t)
    ∗ owns (c : Thread nD τ) (st21_7 t) fullShare ((dat21 V c).after 7 t)
    ∗ owns (c : Thread nD τ) (st21_8 t) fullShare ((dat21 V c).after 8 t)
    ∗ owns (c : Thread nD τ) (st21_9 t) fullShare ((dat21 V c).after 9 t))

theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3, before21_4, before21_5, before21_6]
  rw [show (dat21 V c).Φ t.succ = (dat21 V c).Φ t.castSucc from rfl,
    show (dat21 V c).owesAt () t.succ = (dat21 V c).owesAt () t.castSucc from rfl,
    after21_0, after21_1, after21_2, after21_3, after21_4, after21_5, after21_6, after21_7, after21_8, after21_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel21 c Set.univ _ _ _ _ _ _ _ _ _ _ _ _ _ _ _ _ _ _ _ _ (iblk21 V c 0 t) (iblk21 V c 1 t) (iblk21 V c 2 t) (iblk21 V c 3 t) (iblk21 V c 4 t) (iblk21 V c 5 t) (iblk21 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at the region's point. -/
theorem body_obligation21 (c : Dev nD) : BodyObligation (dat21 (F := F) V c) (defs₀ (F := F)) Variants.none () Set.univ := fun t => by
  rw [bigSep_W21, bigSep_W21]
  exact sound_body21 V c t

end Cert.Kernel.Reg

end
-- ==== Proof.KBRegion20.lean ====
/-
  Region 20 of @main: a later relaxation step — each state moved by half its direct gradient, the states taken as
  independent —; one gridless kernel over whole arrays.
  Stated at a parameter `V`, the buffers' contents when the region is entered, and at any float instance:
  what each output buffer holds after the body (`out20_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)
theorem before20_4_of {c : Dev nD} (dat : Dat τ (Elt F) Unit ℕ (UR sig nD τ) ℕ cfg20 c) (hA : dat.A 4 = V c (Pipeline.arrRef spec20 4))
    (hafter : ∀ t, dat.after 4 t = iblk20 V c 4 t) (t : Fin cfg20.N) (d) : dat.before 4 t d = iblk20 V c 4 t :=
  (dat.before_in_eq_fetched 4 rfl (fun _ => rfl) (fun _ _ _ => rfl) (fun t => by rw [hafter]; unfold Dat.blockOf iblk20; rw [hA]; try rfl) t d).trans
    (by unfold Dat.fetched Dat.blockOf iblk20; rw [hA]; try rfl)
theorem before20_5_of {c : Dev nD} (dat : Dat τ (Elt F) Unit ℕ (UR sig nD τ) ℕ cfg20 c) (hA : dat.A 5 = V c (Pipeline.arrRef spec20 5))
    (hafter : ∀ t, dat.after 5 t = iblk20 V c 5 t) (t : Fin cfg20.N) (d) : dat.before 5 t d = iblk20 V c 5 t :=
  (dat.before_in_eq_fetched 5 rfl (fun _ => rfl) (fun _ _ _ => rfl) (fun t => by rw [hafter]; unfold Dat.blockOf iblk20; rw [hA]; try rfl) t d).trans
    (by unfold Dat.fetched Dat.blockOf iblk20; rw [hA]; try rfl)
theorem before20_6_of {c : Dev nD} (dat : Dat τ (Elt F) Unit ℕ (UR sig nD τ) ℕ cfg20 c) (hA : dat.A 6 = V c (Pipeline.arrRef spec20 6))
    (hafter : ∀ t, dat.after 6 t = iblk20 V c 6 t) (t : Fin cfg20.N) (d) : dat.before 6 t d = iblk20 V c 6 t :=
  (dat.before_in_eq_fetched 6 rfl (fun _ => rfl) (fun _ _ _ => rfl) (fun t => by rw [hafter]; unfold Dat.blockOf iblk20; rw [hA]; try rfl) t d).trans
    (by unfold Dat.fetched Dat.blockOf iblk20; rw [hA]; try rfl)
theorem before20_7_of {c : Dev nD} (dat : Dat τ (Elt F) Unit ℕ (UR sig nD τ) ℕ cfg20 c) (hA : dat.A 7 = V c (Pipeline.arrRef spec20 7))
    (hafter : ∀ t, dat.after 7 t = iblk20 V c 7 t) (t : Fin cfg20.N) (d) : dat.before 7 t d = iblk20 V c 7 t :=
  (dat.before_in_eq_fetched 7 rfl (fun _ => rfl) (fun _ _ _ => rfl) (fun t => by rw [hafter]; unfold Dat.blockOf iblk20; rw [hA]; try rfl) t d).trans
    (by unfold Dat.fetched Dat.blockOf iblk20; rw [hA]; try rfl)

/-- The whole-buffer rectangles the body loads and stores through. -/
abbrev rA20 : Rect S1024x1024 := Rect.unit (s := S1024x1024) ![0, 0] S1024x1024.size inb_S1024x1024_S1024x1024_0_0
abbrev rB20 : Rect S1024x512 := Rect.unit (s := S1024x512) ![0, 0] S1024x512.size inb_S1024x512_S1024x512_0_0

/-- One whole-buffer store covers its buffer. -/
theorem coverA20 (p0 : Vec F S1024x1024 .f32) (y : S1024x1024.Idx) :
    ∃ pc ∈ ([⟨rA20, p0⟩] : List (View.Piece (Elt F) S1024x1024 .f32)), y ∈ pc.1.set :=
  View.cover_of_tiled [⟨rA20, p0⟩] S1024x1024.size (by rfl) y
theorem coverB20 (p0 : Vec F S1024x512 .f32) (y : S1024x512.Idx) :
    ∃ pc ∈ ([⟨rB20, p0⟩] : List (View.Piece (Elt F) S1024x512 .f32)), y ∈ pc.1.set :=
  View.cover_of_tiled [⟨rB20, p0⟩] S1024x512.size (by rfl) y

/-- What the body leaves in each output buffer: its one whole-buffer store, of the payload of the inputs. -/
def out20_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA20, k20_pay8 (View.ld x0 rA20) (View.ld x1 rA20) (View.ld x2 rA20) (View.ld x5 rA20) (View.ld x6 rA20)⟩]
def out20_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA20, k20_pay1 (k20_pay4 (View.ld x2 rA20)) (k20_pay6 (View.ld x1 rA20) (View.ld x2 rA20) (View.ld x3 rB20) (View.ld x6 rA20) (View.ld x7 rB20))⟩]
def out20_10 (x2 : Vec F S1024x1024 .f32) (x3 : Vec F S1024x512 .f32) (x4 : Vec F S1024x512 .f32) (x7 : Vec F S1024x512 .f32) : Vec F S1024x512 .f32 :=
  View.canon [⟨rB20, k20_pay2 (k20_pay5 (View.ld x3 rB20)) (k20_pay7 (View.ld x2 rA20) (View.ld x3 rB20) (View.ld x4 rB20) (View.ld x7 rB20))⟩]

set_option maxHeartbeats 4000000 in
/-- The body on whole buffers: the inputs' read and kept, each output's left at `out20_w` of the inputs'. -/
theorem sound_kernel20 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out20_8 x0 x1 x2 x5 x6) ∗ owns (c : Thread nD τ) arg9 fullShare (out20_9 x1 x2 x3 x6 x7) ∗ owns (c : Thread nD τ) arg10 fullShare (out20_10 x2 x3 x4 x7)) -∗ K ⟨⟩))
      ⊢ wp frame (wpE (defs₀ (F := F)) Variants.none c none) E (cc20__state_update_kernel arg0 harg0 arg1 harg1 arg2 harg2 arg3 harg3 arg4 harg4 arg5 harg5 arg6 harg6 arg7 harg7 arg8 harg8 arg9 harg9 arg10 harg10) K := by
  simp only [cc20__state_update_kernel_eq_skeleton]; unfold cc20__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA20 _)
  isplitl [H9]
  · iexists _; isplitr
    swap; · iexact H9
    ipureintro
    exact View.read_writes_eq_canon _ _ _ (coverA20 _)
  iexists _; isplitr
  swap; · iexact H10
  ipureintro
  exact View.read_writes_eq_canon _ _ _ (coverB20 _)

/-- The proof data of pipeline 20: the arrays as the region finds them; after the body each input's buffer at its
    block and each output's at the body's result; the scoped rest and the generator register untouched; nothing owed. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => iblk20 V c 5 t
    | ⟨6, _⟩ => iblk20 V c 6 t
    | ⟨7, _⟩ => iblk20 V c 7 t
    | ⟨8, _⟩ => out20_8 (iblk20 V c 0 t) (iblk20 V c 1 t) (iblk20 V c 2 t) (iblk20 V c 5 t) (iblk20 V c 6 t)
    | ⟨9, _⟩ => out20_9 (iblk20 V c 1 t) (iblk20 V c 2 t) (iblk20 V c 3 t) (iblk20 V c 6 t) (iblk20 V c 7 t)
    | ⟨10, _⟩ => out20_10 (iblk20 V c 2 t) (iblk20 V c 3 t) (iblk20 V c 4 t) (iblk20 V c 7 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) : (dat20 V c).after 5 t = iblk20 V c 5 t := by dsimp only [dat20]
theorem after20_6 (c : Dev nD) (t : Fin cfg20.N) : (dat20 V c).after 6 t = iblk20 V c 6 t := by dsimp only [dat20]
theorem after20_7 (c : Dev nD) (t : Fin cfg20.N) : (dat20 V c).after 7 t = iblk20 V c 7 t := by dsimp only [dat20]
theorem after20_8 (c : Dev nD) (t : Fin cfg20.N) : (dat20 V c).after 8 t = out20_8 (iblk20 V c 0 t) (iblk20 V c 1 t) (iblk20 V c 2 t) (iblk20 V c 5 t) (iblk20 V c 6 t) := by dsimp only [dat20]
theorem after20_9 (c : Dev nD) (t : Fin cfg20.N) : (dat20 V c).after 9 t = out20_9 (iblk20 V c 1 t) (iblk20 V c 2 t) (iblk20 V c 3 t) (iblk20 V c 6 t) (iblk20 V c 7 t) := by dsimp only [dat20]
theorem after20_10 (c : Dev nD) (t : Fin cfg20.N) : (dat20 V c).after 10 t = out20_10 (iblk20 V c 2 t) (iblk20 V c 3 t) (iblk20 V c 4 t) (iblk20 V c 7 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d
theorem before20_4 (c : Dev nD) (t : Fin cfg20.N) (d) : (dat20 V c).before 4 t d = iblk20 V c 4 t :=
  before20_4_of V (dat20 V c) (A_eq20 V c 4) (after20_4 V c) t d
theorem before20_5 (c : Dev nD) (t : Fin cfg20.N) (d) : (dat20 V c).before 5 t d = iblk20 V c 5 t :=
  before20_5_of V (dat20 V c) (A_eq20 V c 5) (after20_5 V c) t d
theorem before20_6 (c : Dev nD) (t : Fin cfg20.N) (d) : (dat20 V c).before 6 t d = iblk20 V c 6 t :=
  before20_6_of V (dat20 V c) (A_eq20 V c 6) (after20_6 V c) t d
theorem before20_7 (c : Dev nD) (t : Fin cfg20.N) (d) : (dat20 V c).before 7 t d = iblk20 V c 7 t :=
  before20_7_of V (dat20 V c) (A_eq20 V c 7) (after20_7 V c) t d

/-- What the body is called with at the point, the windows one by one, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d))
    ∗ (∃ d, owns (c : Thread nD τ) (st20_6 t) fullShare ((dat20 V c).before 6 t d))
    ∗ (∃ d, owns (c : Thread nD τ) (st20_7 t) fullShare ((dat20 V c).before 7 t d))
    ∗ (∃ d, owns (c : Thread nD τ) (st20_8 t) fullShare ((dat20 V c).before 8 t d))
    ∗ (∃ d, owns (c : Thread nD τ) (st20_9 t) fullShare ((dat20 V c).before 9 t d))
    ∗ (∃ d, owns (c : Thread nD τ) (st20_10 t) fullShare ((dat20 V c).before 10 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t)
    ∗ owns (c : Thread nD τ) (st20_6 t) fullShare ((dat20 V c).after 6 t)
    ∗ owns (c : Thread nD τ) (st20_7 t) fullShare ((dat20 V c).after 7 t)
    ∗ owns (c : Thread nD τ) (st20_8 t) fullShare ((dat20 V c).after 8 t)
    ∗ owns (c : Thread nD τ) (st20_9 t) fullShare ((dat20 V c).after 9 t)
    ∗ owns (c : Thread nD τ) (st20_10 t) fullShare ((dat20 V c).after 10 t))

theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4, before20_5, before20_6, before20_7]
  rw [show (dat20 V c).Φ t.succ = (dat20 V c).Φ t.castSucc from rfl,
    show (dat20 V c).owesAt () t.succ = (dat20 V c).owesAt () t.castSucc from rfl,
    after20_0, after20_1, after20_2, after20_3, after20_4, after20_5, after20_6, after20_7, after20_8, after20_9, after20_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel20 c Set.univ _ _ _ _ _ _ _ _ _ _ _ _ _ _ _ _ _ _ _ _ _ _ (iblk20 V c 0 t) (iblk20 V c 1 t) (iblk20 V c 2 t) (iblk20 V c 3 t) (iblk20 V c 4 t) (iblk20 V c 5 t) (iblk20 V c 6 t) (iblk20 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation20 (c : Dev nD) : BodyObligation (dat20 (F := F) V c) (defs₀ (F := F)) Variants.none () Set.univ := fun t => by
  rw [bigSep_W20, bigSep_W20]
  exact sound_body20 V c t

end Cert.Kernel.Reg

end
-- ==== Proof.KBRegion19.lean ====
/-
  Region 19 of @main: a later relaxation step — each state moved by half its direct gradient, the states taken as
  independent —; one gridless kernel over whole arrays.
  Stated at a parameter `V`, the buffers' contents when the region is entered, and at any float instance:
  what each output buffer holds after the body (`out19_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)
theorem before19_3_of {c : Dev nD} (dat : Dat τ (Elt F) Unit ℕ (UR sig nD τ) ℕ cfg19 c) (hA : dat.A 3 = V c (Pipeline.arrRef spec19 3))
    (hafter : ∀ t, dat.after 3 t = iblk19 V c 3 t) (t : Fin cfg19.N) (d) : dat.before 3 t d = iblk19 V c 3 t :=
  (dat.before_in_eq_fetched 3 rfl (fun _ => rfl) (fun _ _ _ => rfl) (fun t => by rw [hafter]; unfold Dat.blockOf iblk19; rw [hA]; try rfl) t d).trans
    (by unfold Dat.fetched Dat.blockOf iblk19; rw [hA]; try rfl)
theorem before19_4_of {c : Dev nD} (dat : Dat τ (Elt F) Unit ℕ (UR sig nD τ) ℕ cfg19 c) (hA : dat.A 4 = V c (Pipeline.arrRef spec19 4))
    (hafter : ∀ t, dat.after 4 t = iblk19 V c 4 t) (t : Fin cfg19.N) (d) : dat.before 4 t d = iblk19 V c 4 t :=
  (dat.before_in_eq_fetched 4 rfl (fun _ => rfl) (fun _ _ _ => rfl) (fun t => by rw [hafter]; unfold Dat.blockOf iblk19; rw [hA]; try rfl) t d).trans
    (by unfold Dat.fetched Dat.blockOf iblk19; rw [hA]; try rfl)
theorem before19_5_of {c : Dev nD} (dat : Dat τ (Elt F) Unit ℕ (UR sig nD τ) ℕ cfg19 c) (hA : dat.A 5 = V c (Pipeline.arrRef spec19 5))
    (hafter : ∀ t, dat.after 5 t = iblk19 V c 5 t) (t : Fin cfg19.N) (d) : dat.before 5 t d = iblk19 V c 5 t :=
  (dat.before_in_eq_fetched 5 rfl (fun _ => rfl) (fun _ _ _ => rfl) (fun t => by rw [hafter]; unfold Dat.blockOf iblk19; rw [hA]; try rfl) t d).trans
    (by unfold Dat.fetched Dat.blockOf iblk19; rw [hA]; try rfl)
theorem before19_6_of {c : Dev nD} (dat : Dat τ (Elt F) Unit ℕ (UR sig nD τ) ℕ cfg19 c) (hA : dat.A 6 = V c (Pipeline.arrRef spec19 6))
    (hafter : ∀ t, dat.after 6 t = iblk19 V c 6 t) (t : Fin cfg19.N) (d) : dat.before 6 t d = iblk19 V c 6 t :=
  (dat.before_in_eq_fetched 6 rfl (fun _ => rfl) (fun _ _ _ => rfl) (fun t => by rw [hafter]; unfold Dat.blockOf iblk19; rw [hA]; try rfl) t d).trans
    (by unfold Dat.fetched Dat.blockOf iblk19; rw [hA]; try rfl)
theorem before19_7_of {c : Dev nD} (dat : Dat τ (Elt F) Unit ℕ (UR sig nD τ) ℕ cfg19 c) (hA : dat.A 7 = V c (Pipeline.arrRef spec19 7))
    (hafter : ∀ t, dat.after 7 t = iblk19 V c 7 t) (t : Fin cfg19.N) (d) : dat.before 7 t d = iblk19 V c 7 t :=
  (dat.before_in_eq_fetched 7 rfl (fun _ => rfl) (fun _ _ _ => rfl) (fun t => by rw [hafter]; unfold Dat.blockOf iblk19; rw [hA]; try rfl) t d).trans
    (by unfold Dat.fetched Dat.blockOf iblk19; rw [hA]; try rfl)

/-- The whole-buffer rectangles the body loads and stores through. -/
abbrev rA19 : Rect S1024x1024 := Rect.unit (s := S1024x1024) ![0, 0] S1024x1024.size inb_S1024x1024_S1024x1024_0_0
abbrev rB19 : Rect S1024x512 := Rect.unit (s := S1024x512) ![0, 0] S1024x512.size inb_S1024x512_S1024x512_0_0

/-- One whole-buffer store covers its buffer. -/
theorem coverA19 (p0 : Vec F S1024x1024 .f32) (y : S1024x1024.Idx) :
    ∃ pc ∈ ([⟨rA19, p0⟩] : List (View.Piece (Elt F) S1024x1024 .f32)), y ∈ pc.1.set :=
  View.cover_of_tiled [⟨rA19, p0⟩] S1024x1024.size (by rfl) y
theorem coverB19 (p0 : Vec F S1024x512 .f32) (y : S1024x512.Idx) :
    ∃ pc ∈ ([⟨rB19, p0⟩] : List (View.Piece (Elt F) S1024x512 .f32)), y ∈ pc.1.set :=
  View.cover_of_tiled [⟨rB19, p0⟩] S1024x512.size (by rfl) y

/-- What the body leaves in each output buffer: its one whole-buffer store, of the payload of the inputs. -/
def out19_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA19, k19_pay8 (View.ld x0 rA19) (View.ld x1 rA19) (View.ld x2 rA19) (View.ld x5 rA19) (View.ld x6 rA19)⟩]
def out19_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA19, k19_pay1 (k19_pay4 (View.ld x2 rA19)) (k19_pay6 (View.ld x1 rA19) (View.ld x2 rA19) (View.ld x3 rB19) (View.ld x6 rA19) (View.ld x7 rB19))⟩]
def out19_10 (x2 : Vec F S1024x1024 .f32) (x3 : Vec F S1024x512 .f32) (x4 : Vec F S1024x512 .f32) (x7 : Vec F S1024x512 .f32) : Vec F S1024x512 .f32 :=
  View.canon [⟨rB19, k19_pay2 (k19_pay5 (View.ld x3 rB19)) (k19_pay7 (View.ld x2 rA19) (View.ld x3 rB19) (View.ld x4 rB19) (View.ld x7 rB19))⟩]

set_option maxHeartbeats 4000000 in
/-- The body on whole buffers: the inputs' read and kept, each output's left at `out19_w` of the inputs'. -/
theorem sound_kernel19 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out19_8 x0 x1 x2 x5 x6) ∗ owns (c : Thread nD τ) arg9 fullShare (out19_9 x1 x2 x3 x6 x7) ∗ owns (c : Thread nD τ) arg10 fullShare (out19_10 x2 x3 x4 x7)) -∗ K ⟨⟩))
      ⊢ wp frame (wpE (defs₀ (F := F)) Variants.none c none) E (cc19__state_update_kernel arg0 harg0 arg1 harg1 arg2 harg2 arg3 harg3 arg4 harg4 arg5 harg5 arg6 harg6 arg7 harg7 arg8 harg8 arg9 harg9 arg10 harg10) K := by
  simp only [cc19__state_update_kernel_eq_skeleton]; unfold cc19__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA19 _)
  isplitl [H9]
  · iexists _; isplitr
    swap; · iexact H9
    ipureintro
    exact View.read_writes_eq_canon _ _ _ (coverA19 _)
  iexists _; isplitr
  swap; · iexact H10
  ipureintro
  exact View.read_writes_eq_canon _ _ _ (coverB19 _)

/-- The proof data of pipeline 19: the arrays as the region finds them; after the body each input's buffer at its
    block and each output's at the body's result; the scoped rest and the generator register untouched; nothing owed. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => iblk19 V c 4 t
    | ⟨5, _⟩ => iblk19 V c 5 t
    | ⟨6, _⟩ => iblk19 V c 6 t
    | ⟨7, _⟩ => iblk19 V c 7 t
    | ⟨8, _⟩ => out19_8 (iblk19 V c 0 t) (iblk19 V c 1 t) (iblk19 V c 2 t) (iblk19 V c 5 t) (iblk19 V c 6 t)
    | ⟨9, _⟩ => out19_9 (iblk19 V c 1 t) (iblk19 V c 2 t) (iblk19 V c 3 t) (iblk19 V c 6 t) (iblk19 V c 7 t)
    | ⟨10, _⟩ => out19_10 (iblk19 V c 2 t) (iblk19 V c 3 t) (iblk19 V c 4 t) (iblk19 V c 7 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = iblk19 V c 3 t := by dsimp only [dat19]
theorem after19_4 (c : Dev nD) (t : Fin cfg19.N) : (dat19 V c).after 4 t = iblk19 V c 4 t := by dsimp only [dat19]
theorem after19_5 (c : Dev nD) (t : Fin cfg19.N) : (dat19 V c).after 5 t = iblk19 V c 5 t := by dsimp only [dat19]
theorem after19_6 (c : Dev nD) (t : Fin cfg19.N) : (dat19 V c).after 6 t = iblk19 V c 6 t := by dsimp only [dat19]
theorem after19_7 (c : Dev nD) (t : Fin cfg19.N) : (dat19 V c).after 7 t = iblk19 V c 7 t := by dsimp only [dat19]
theorem after19_8 (c : Dev nD) (t : Fin cfg19.N) : (dat19 V c).after 8 t = out19_8 (iblk19 V c 0 t) (iblk19 V c 1 t) (iblk19 V c 2 t) (iblk19 V c 5 t) (iblk19 V c 6 t) := by dsimp only [dat19]
theorem after19_9 (c : Dev nD) (t : Fin cfg19.N) : (dat19 V c).after 9 t = out19_9 (iblk19 V c 1 t) (iblk19 V c 2 t) (iblk19 V c 3 t) (iblk19 V c 6 t) (iblk19 V c 7 t) := by dsimp only [dat19]
theorem after19_10 (c : Dev nD) (t : Fin cfg19.N) : (dat19 V c).after 10 t = out19_10 (iblk19 V c 2 t) (iblk19 V c 3 t) (iblk19 V c 4 t) (iblk19 V c 7 t) := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d
theorem before19_3 (c : Dev nD) (t : Fin cfg19.N) (d) : (dat19 V c).before 3 t d = iblk19 V c 3 t :=
  before19_3_of V (dat19 V c) (A_eq19 V c 3) (after19_3 V c) t d
theorem before19_4 (c : Dev nD) (t : Fin cfg19.N) (d) : (dat19 V c).before 4 t d = iblk19 V c 4 t :=
  before19_4_of V (dat19 V c) (A_eq19 V c 4) (after19_4 V c) t d
theorem before19_5 (c : Dev nD) (t : Fin cfg19.N) (d) : (dat19 V c).before 5 t d = iblk19 V c 5 t :=
  before19_5_of V (dat19 V c) (A_eq19 V c 5) (after19_5 V c) t d
theorem before19_6 (c : Dev nD) (t : Fin cfg19.N) (d) : (dat19 V c).before 6 t d = iblk19 V c 6 t :=
  before19_6_of V (dat19 V c) (A_eq19 V c 6) (after19_6 V c) t d
theorem before19_7 (c : Dev nD) (t : Fin cfg19.N) (d) : (dat19 V c).before 7 t d = iblk19 V c 7 t :=
  before19_7_of V (dat19 V c) (A_eq19 V c 7) (after19_7 V c) t d

/-- What the body is called with at the point, the windows one by one, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d))
    ∗ (∃ d, owns (c : Thread nD τ) (st19_4 t) fullShare ((dat19 V c).before 4 t d))
    ∗ (∃ d, owns (c : Thread nD τ) (st19_5 t) fullShare ((dat19 V c).before 5 t d))
    ∗ (∃ d, owns (c : Thread nD τ) (st19_6 t) fullShare ((dat19 V c).before 6 t d))
    ∗ (∃ d, owns (c : Thread nD τ) (st19_7 t) fullShare ((dat19 V c).before 7 t d))
    ∗ (∃ d, owns (c : Thread nD τ) (st19_8 t) fullShare ((dat19 V c).before 8 t d))
    ∗ (∃ d, owns (c : Thread nD τ) (st19_9 t) fullShare ((dat19 V c).before 9 t d))
    ∗ (∃ d, owns (c : Thread nD τ) (st19_10 t) fullShare ((dat19 V c).before 10 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t)
    ∗ owns (c : Thread nD τ) (st19_4 t) fullShare ((dat19 V c).after 4 t)
    ∗ owns (c : Thread nD τ) (st19_5 t) fullShare ((dat19 V c).after 5 t)
    ∗ owns (c : Thread nD τ) (st19_6 t) fullShare ((dat19 V c).after 6 t)
    ∗ owns (c : Thread nD τ) (st19_7 t) fullShare ((dat19 V c).after 7 t)
    ∗ owns (c : Thread nD τ) (st19_8 t) fullShare ((dat19 V c).after 8 t)
    ∗ owns (c : Thread nD τ) (st19_9 t) fullShare ((dat19 V c).after 9 t)
    ∗ owns (c : Thread nD τ) (st19_10 t) fullShare ((dat19 V c).after 10 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2, before19_3, before19_4, before19_5, before19_6, before19_7]
  rw [show (dat19 V c).Φ t.succ = (dat19 V c).Φ t.castSucc from rfl,
    show (dat19 V c).owesAt () t.succ = (dat19 V c).owesAt () t.castSucc from rfl,
    after19_0, after19_1, after19_2, after19_3, after19_4, after19_5, after19_6, after19_7, after19_8, after19_9, after19_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel19 c Set.univ _ _ _ _ _ _ _ _ _ _ _ _ _ _ _ _ _ _ _ _ _ _ (iblk19 V c 0 t) (iblk19 V c 1 t) (iblk19 V c 2 t) (iblk19 V c 3 t) (iblk19 V c 4 t) (iblk19 V c 5 t) (iblk19 V c 6 t) (iblk19 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation19 (c : Dev nD) : BodyObligation (dat19 (F := F) V c) (defs₀ (F := F)) Variants.none () Set.univ := fun t => by
  rw [bigSep_W19, bigSep_W19]
  exact sound_body19 V c t

end Cert.Kernel.Reg

end
-- ==== Proof.KBRegion18.lean ====
/-
  Region 18 of @main: a later relaxation step — each state moved by half its direct gradient, the states taken as
  independent —; one gridless kernel over whole arrays.
  Stated at a parameter `V`, the buffers' contents when the region is entered, and at any float instance:
  what each output buffer holds after the body (`out18_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)
theorem before18_5_of {c : Dev nD} (dat : Dat τ (Elt F) Unit ℕ (UR sig nD τ) ℕ cfg18 c) (hA : dat.A 5 = V c (Pipeline.arrRef spec18 5))
    (hafter : ∀ t, dat.after 5 t = iblk18 V c 5 t) (t : Fin cfg18.N) (d) : dat.before 5 t d = iblk18 V c 5 t :=
  (dat.before_in_eq_fetched 5 rfl (fun _ => rfl) (fun _ _ _ => rfl) (fun t => by rw [hafter]; unfold Dat.blockOf iblk18; rw [hA]; try rfl) t d).trans
    (by unfold Dat.fetched Dat.blockOf iblk18; rw [hA]; try rfl)
theorem before18_6_of {c : Dev nD} (dat : Dat τ (Elt F) Unit ℕ (UR sig nD τ) ℕ cfg18 c) (hA : dat.A 6 = V c (Pipeline.arrRef spec18 6))
    (hafter : ∀ t, dat.after 6 t = iblk18 V c 6 t) (t : Fin cfg18.N) (d) : dat.before 6 t d = iblk18 V c 6 t :=
  (dat.before_in_eq_fetched 6 rfl (fun _ => rfl) (fun _ _ _ => rfl) (fun t => by rw [hafter]; unfold Dat.blockOf iblk18; rw [hA]; try rfl) t d).trans
    (by unfold Dat.fetched Dat.blockOf iblk18; rw [hA]; try rfl)
theorem before18_7_of {c : Dev nD} (dat : Dat τ (Elt F) Unit ℕ (UR sig nD τ) ℕ cfg18 c) (hA : dat.A 7 = V c (Pipeline.arrRef spec18 7))
    (hafter : ∀ t, dat.after 7 t = iblk18 V c 7 t) (t : Fin cfg18.N) (d) : dat.before 7 t d = iblk18 V c 7 t :=
  (dat.before_in_eq_fetched 7 rfl (fun _ => rfl) (fun _ _ _ => rfl) (fun t => by rw [hafter]; unfold Dat.blockOf iblk18; rw [hA]; try rfl) t d).trans
    (by unfold Dat.fetched Dat.blockOf iblk18; rw [hA]; try rfl)

/-- The whole-buffer rectangles the body loads and stores through. -/
abbrev rA18 : Rect S1024x1024 := Rect.unit (s := S1024x1024) ![0, 0] S1024x1024.size inb_S1024x1024_S1024x1024_0_0
abbrev rB18 : Rect S1024x512 := Rect.unit (s := S1024x512) ![0, 0] S1024x512.size inb_S1024x512_S1024x512_0_0

/-- One whole-buffer store covers its buffer. -/
theorem coverA18 (p0 : Vec F S1024x1024 .f32) (y : S1024x1024.Idx) :
    ∃ pc ∈ ([⟨rA18, p0⟩] : List (View.Piece (Elt F) S1024x1024 .f32)), y ∈ pc.1.set :=
  View.cover_of_tiled [⟨rA18, p0⟩] S1024x1024.size (by rfl) y
theorem coverB18 (p0 : Vec F S1024x512 .f32) (y : S1024x512.Idx) :
    ∃ pc ∈ ([⟨rB18, p0⟩] : List (View.Piece (Elt F) S1024x512 .f32)), y ∈ pc.1.set :=
  View.cover_of_tiled [⟨rB18, p0⟩] S1024x512.size (by rfl) y

/-- What the body leaves in each output buffer: its one whole-buffer store, of the payload of the inputs. -/
def out18_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA18, k18_pay8 (View.ld x0 rA18) (View.ld x1 rA18) (View.ld x2 rA18) (View.ld x5 rA18) (View.ld x6 rA18)⟩]
def out18_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA18, k18_pay1 (k18_pay4 (View.ld x2 rA18)) (k18_pay6 (View.ld x1 rA18) (View.ld x2 rA18) (View.ld x3 rB18) (View.ld x6 rA18) (View.ld x7 rB18))⟩]
def out18_10 (x2 : Vec F S1024x1024 .f32) (x3 : Vec F S1024x512 .f32) (x4 : Vec F S1024x512 .f32) (x7 : Vec F S1024x512 .f32) : Vec F S1024x512 .f32 :=
  View.canon [⟨rB18, k18_pay2 (k18_pay5 (View.ld x3 rB18)) (k18_pay7 (View.ld x2 rA18) (View.ld x3 rB18) (View.ld x4 rB18) (View.ld x7 rB18))⟩]

set_option maxHeartbeats 4000000 in
/-- The body on whole buffers: the inputs' read and kept, each output's left at `out18_w` of the inputs'. -/
theorem sound_kernel18 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out18_8 x0 x1 x2 x5 x6) ∗ owns (c : Thread nD τ) arg9 fullShare (out18_9 x1 x2 x3 x6 x7) ∗ owns (c : Thread nD τ) arg10 fullShare (out18_10 x2 x3 x4 x7)) -∗ K ⟨⟩))
      ⊢ wp frame (wpE (defs₀ (F := F)) Variants.none c none) E (cc18__state_update_kernel arg0 harg0 arg1 harg1 arg2 harg2 arg3 harg3 arg4 harg4 arg5 harg5 arg6 harg6 arg7 harg7 arg8 harg8 arg9 harg9 arg10 harg10) K := by
  simp only [cc18__state_update_kernel_eq_skeleton]; unfold cc18__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA18 _)
  isplitl [H9]
  · iexists _; isplitr
    swap; · iexact H9
    ipureintro
    exact View.read_writes_eq_canon _ _ _ (coverA18 _)
  iexists _; isplitr
  swap; · iexact H10
  ipureintro
  exact View.read_writes_eq_canon _ _ _ (coverB18 _)

/-- The proof data of pipeline 18: the arrays as the region finds them; after the body each input's buffer at its
    block and each output's at the body's result; the scoped rest and the generator register untouched; nothing owed. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => iblk18 V c 5 t
    | ⟨6, _⟩ => iblk18 V c 6 t
    | ⟨7, _⟩ => iblk18 V c 7 t
    | ⟨8, _⟩ => out18_8 (iblk18 V c 0 t) (iblk18 V c 1 t) (iblk18 V c 2 t) (iblk18 V c 5 t) (iblk18 V c 6 t)
    | ⟨9, _⟩ => out18_9 (iblk18 V c 1 t) (iblk18 V c 2 t) (iblk18 V c 3 t) (iblk18 V c 6 t) (iblk18 V c 7 t)
    | ⟨10, _⟩ => out18_10 (iblk18 V c 2 t) (iblk18 V c 3 t) (iblk18 V c 4 t) (iblk18 V c 7 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = iblk18 V c 5 t := by dsimp only [dat18]
theorem after18_6 (c : Dev nD) (t : Fin cfg18.N) : (dat18 V c).after 6 t = iblk18 V c 6 t := by dsimp only [dat18]
theorem after18_7 (c : Dev nD) (t : Fin cfg18.N) : (dat18 V c).after 7 t = iblk18 V c 7 t := by dsimp only [dat18]
theorem after18_8 (c : Dev nD) (t : Fin cfg18.N) : (dat18 V c).after 8 t = out18_8 (iblk18 V c 0 t) (iblk18 V c 1 t) (iblk18 V c 2 t) (iblk18 V c 5 t) (iblk18 V c 6 t) := by dsimp only [dat18]
theorem after18_9 (c : Dev nD) (t : Fin cfg18.N) : (dat18 V c).after 9 t = out18_9 (iblk18 V c 1 t) (iblk18 V c 2 t) (iblk18 V c 3 t) (iblk18 V c 6 t) (iblk18 V c 7 t) := by dsimp only [dat18]
theorem after18_10 (c : Dev nD) (t : Fin cfg18.N) : (dat18 V c).after 10 t = out18_10 (iblk18 V c 2 t) (iblk18 V c 3 t) (iblk18 V c 4 t) (iblk18 V c 7 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d
theorem before18_5 (c : Dev nD) (t : Fin cfg18.N) (d) : (dat18 V c).before 5 t d = iblk18 V c 5 t :=
  before18_5_of V (dat18 V c) (A_eq18 V c 5) (after18_5 V c) t d
theorem before18_6 (c : Dev nD) (t : Fin cfg18.N) (d) : (dat18 V c).before 6 t d = iblk18 V c 6 t :=
  before18_6_of V (dat18 V c) (A_eq18 V c 6) (after18_6 V c) t d
theorem before18_7 (c : Dev nD) (t : Fin cfg18.N) (d) : (dat18 V c).before 7 t d = iblk18 V c 7 t :=
  before18_7_of V (dat18 V c) (A_eq18 V c 7) (after18_7 V c) t d

/-- What the body is called with at the point, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d))
    ∗ (∃ d, owns (c : Thread nD τ) (st18_6 t) fullShare ((dat18 V c).before 6 t d))
    ∗ (∃ d, owns (c : Thread nD τ) (st18_7 t) fullShare ((dat18 V c).before 7 t d))
    ∗ (∃ d, owns (c : Thread nD τ) (st18_8 t) fullShare ((dat18 V c).before 8 t d))
    ∗ (∃ d, owns (c : Thread nD τ) (st18_9 t) fullShare ((dat18 V c).before 9 t d))
    ∗ (∃ d, owns (c : Thread nD τ) (st18_10 t) fullShare ((dat18 V c).before 10 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t)
    ∗ owns (c : Thread nD τ) (st18_6 t) fullShare ((dat18 V c).after 6 t)
    ∗ owns (c : Thread nD τ) (st18_7 t) fullShare ((dat18 V c).after 7 t)
    ∗ owns (c : Thread nD τ) (st18_8 t) fullShare ((dat18 V c).after 8 t)
    ∗ owns (c : Thread nD τ) (st18_9 t) fullShare ((dat18 V c).after 9 t)
    ∗ owns (c : Thread nD τ) (st18_10 t) fullShare ((dat18 V c).after 10 t))

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4, before18_5, before18_6, before18_7]
  rw [show (dat18 V c).Φ t.succ = (dat18 V c).Φ t.castSucc from rfl,
    show (dat18 V c).owesAt () t.succ = (dat18 V c).owesAt () t.castSucc from rfl,
    after18_0, after18_1, after18_2, after18_3, after18_4, after18_5, after18_6, after18_7, after18_8, after18_9, after18_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel18 c Set.univ _ _ _ _ _ _ _ _ _ _ _ _ _ _ _ _ _ _ _ _ _ _ (iblk18 V c 0 t) (iblk18 V c 1 t) (iblk18 V c 2 t) (iblk18 V c 3 t) (iblk18 V c 4 t) (iblk18 V c 5 t) (iblk18 V c 6 t) (iblk18 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation18 (c : Dev nD) : BodyObligation (dat18 (F := F) V c) (defs₀ (F := F)) Variants.none () Set.univ := fun t => by
  rw [bigSep_W18, bigSep_W18]
  exact sound_body18 V c t

end Cert.Kernel.Reg

end
-- ==== Proof.KBRegion17.lean ====
/-
  Region 17 of @main: a later relaxation step — each state moved by half its direct gradient, the states taken as
  independent —; one gridless kernel over whole arrays.
  Stated at a parameter `V`, the buffers' contents when the region is entered, and at any float instance:
  what each output buffer holds after the body (`out17_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)
theorem before17_4_of {c : Dev nD} (dat : Dat τ (Elt F) Unit ℕ (UR sig nD τ) ℕ cfg17 c) (hA : dat.A 4 = V c (Pipeline.arrRef spec17 4))
    (hafter : ∀ t, dat.after 4 t = iblk17 V c 4 t) (t : Fin cfg17.N) (d) : dat.before 4 t d = iblk17 V c 4 t :=
  (dat.before_in_eq_fetched 4 rfl (fun _ => rfl) (fun _ _ _ => rfl) (fun t => by rw [hafter]; unfold Dat.blockOf iblk17; rw [hA]; try rfl) t d).trans
    (by unfold Dat.fetched Dat.blockOf iblk17; rw [hA]; try rfl)
theorem before17_5_of {c : Dev nD} (dat : Dat τ (Elt F) Unit ℕ (UR sig nD τ) ℕ cfg17 c) (hA : dat.A 5 = V c (Pipeline.arrRef spec17 5))
    (hafter : ∀ t, dat.after 5 t = iblk17 V c 5 t) (t : Fin cfg17.N) (d) : dat.before 5 t d = iblk17 V c 5 t :=
  (dat.before_in_eq_fetched 5 rfl (fun _ => rfl) (fun _ _ _ => rfl) (fun t => by rw [hafter]; unfold Dat.blockOf iblk17; rw [hA]; try rfl) t d).trans
    (by unfold Dat.fetched Dat.blockOf iblk17; rw [hA]; try rfl)
theorem before17_6_of {c : Dev nD} (dat : Dat τ (Elt F) Unit ℕ (UR sig nD τ) ℕ cfg17 c) (hA : dat.A 6 = V c (Pipeline.arrRef spec17 6))
    (hafter : ∀ t, dat.after 6 t = iblk17 V c 6 t) (t : Fin cfg17.N) (d) : dat.before 6 t d = iblk17 V c 6 t :=
  (dat.before_in_eq_fetched 6 rfl (fun _ => rfl) (fun _ _ _ => rfl) (fun t => by rw [hafter]; unfold Dat.blockOf iblk17; rw [hA]; try rfl) t d).trans
    (by unfold Dat.fetched Dat.blockOf iblk17; rw [hA]; try rfl)
theorem before17_7_of {c : Dev nD} (dat : Dat τ (Elt F) Unit ℕ (UR sig nD τ) ℕ cfg17 c) (hA : dat.A 7 = V c (Pipeline.arrRef spec17 7))
    (hafter : ∀ t, dat.after 7 t = iblk17 V c 7 t) (t : Fin cfg17.N) (d) : dat.before 7 t d = iblk17 V c 7 t :=
  (dat.before_in_eq_fetched 7 rfl (fun _ => rfl) (fun _ _ _ => rfl) (fun t => by rw [hafter]; unfold Dat.blockOf iblk17; rw [hA]; try rfl) t d).trans
    (by unfold Dat.fetched Dat.blockOf iblk17; rw [hA]; try rfl)

/-- The whole-buffer rectangles the body loads and stores through. -/
abbrev rA17 : Rect S1024x1024 := Rect.unit (s := S1024x1024) ![0, 0] S1024x1024.size inb_S1024x1024_S1024x1024_0_0
abbrev rB17 : Rect S1024x512 := Rect.unit (s := S1024x512) ![0, 0] S1024x512.size inb_S1024x512_S1024x512_0_0

/-- One whole-buffer store covers its buffer. -/
theorem coverA17 (p0 : Vec F S1024x1024 .f32) (y : S1024x1024.Idx) :
    ∃ pc ∈ ([⟨rA17, p0⟩] : List (View.Piece (Elt F) S1024x1024 .f32)), y ∈ pc.1.set :=
  View.cover_of_tiled [⟨rA17, p0⟩] S1024x1024.size (by rfl) y
theorem coverB17 (p0 : Vec F S1024x512 .f32) (y : S1024x512.Idx) :
    ∃ pc ∈ ([⟨rB17, p0⟩] : List (View.Piece (Elt F) S1024x512 .f32)), y ∈ pc.1.set :=
  View.cover_of_tiled [⟨rB17, p0⟩] S1024x512.size (by rfl) y

/-- What the body leaves in each output buffer: its one whole-buffer store, of the payload of the inputs. -/
def out17_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA17, k17_pay8 (View.ld x0 rA17) (View.ld x1 rA17) (View.ld x2 rA17) (View.ld x5 rA17) (View.ld x6 rA17)⟩]
def out17_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA17, k17_pay1 (k17_pay4 (View.ld x2 rA17)) (k17_pay6 (View.ld x1 rA17) (View.ld x2 rA17) (View.ld x3 rB17) (View.ld x6 rA17) (View.ld x7 rB17))⟩]
def out17_10 (x2 : Vec F S1024x1024 .f32) (x3 : Vec F S1024x512 .f32) (x4 : Vec F S1024x512 .f32) (x7 : Vec F S1024x512 .f32) : Vec F S1024x512 .f32 :=
  View.canon [⟨rB17, k17_pay2 (k17_pay5 (View.ld x3 rB17)) (k17_pay7 (View.ld x2 rA17) (View.ld x3 rB17) (View.ld x4 rB17) (View.ld x7 rB17))⟩]

set_option maxHeartbeats 4000000 in
/-- The body on whole buffers: the inputs' read and kept, each output's left at `out17_w` of the inputs'. -/
theorem sound_kernel17 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out17_8 x0 x1 x2 x5 x6) ∗ owns (c : Thread nD τ) arg9 fullShare (out17_9 x1 x2 x3 x6 x7) ∗ owns (c : Thread nD τ) arg10 fullShare (out17_10 x2 x3 x4 x7)) -∗ K ⟨⟩))
      ⊢ wp frame (wpE (defs₀ (F := F)) Variants.none c none) E (cc17__state_update_kernel arg0 harg0 arg1 harg1 arg2 harg2 arg3 harg3 arg4 harg4 arg5 harg5 arg6 harg6 arg7 harg7 arg8 harg8 arg9 harg9 arg10 harg10) K := by
  simp only [cc17__state_update_kernel_eq_skeleton]; unfold cc17__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA17 _)
  isplitl [H9]
  · iexists _; isplitr
    swap; · iexact H9
    ipureintro
    exact View.read_writes_eq_canon _ _ _ (coverA17 _)
  iexists _; isplitr
  swap; · iexact H10
  ipureintro
  exact View.read_writes_eq_canon _ _ _ (coverB17 _)

/-- The proof data of pipeline 17: the arrays as the region finds them; after the body each input's buffer at its
    block and each output's at the body's result; the scoped rest and the generator register untouched; nothing owed. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => iblk17 V c 5 t
    | ⟨6, _⟩ => iblk17 V c 6 t
    | ⟨7, _⟩ => iblk17 V c 7 t
    | ⟨8, _⟩ => out17_8 (iblk17 V c 0 t) (iblk17 V c 1 t) (iblk17 V c 2 t) (iblk17 V c 5 t) (iblk17 V c 6 t)
    | ⟨9, _⟩ => out17_9 (iblk17 V c 1 t) (iblk17 V c 2 t) (iblk17 V c 3 t) (iblk17 V c 6 t) (iblk17 V c 7 t)
    | ⟨10, _⟩ => out17_10 (iblk17 V c 2 t) (iblk17 V c 3 t) (iblk17 V c 4 t) (iblk17 V c 7 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) : (dat17 V c).after 5 t = iblk17 V c 5 t := by dsimp only [dat17]
theorem after17_6 (c : Dev nD) (t : Fin cfg17.N) : (dat17 V c).after 6 t = iblk17 V c 6 t := by dsimp only [dat17]
theorem after17_7 (c : Dev nD) (t : Fin cfg17.N) : (dat17 V c).after 7 t = iblk17 V c 7 t := by dsimp only [dat17]
theorem after17_8 (c : Dev nD) (t : Fin cfg17.N) : (dat17 V c).after 8 t = out17_8 (iblk17 V c 0 t) (iblk17 V c 1 t) (iblk17 V c 2 t) (iblk17 V c 5 t) (iblk17 V c 6 t) := by dsimp only [dat17]
theorem after17_9 (c : Dev nD) (t : Fin cfg17.N) : (dat17 V c).after 9 t = out17_9 (iblk17 V c 1 t) (iblk17 V c 2 t) (iblk17 V c 3 t) (iblk17 V c 6 t) (iblk17 V c 7 t) := by dsimp only [dat17]
theorem after17_10 (c : Dev nD) (t : Fin cfg17.N) : (dat17 V c).after 10 t = out17_10 (iblk17 V c 2 t) (iblk17 V c 3 t) (iblk17 V c 4 t) (iblk17 V c 7 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d
theorem before17_4 (c : Dev nD) (t : Fin cfg17.N) (d) : (dat17 V c).before 4 t d = iblk17 V c 4 t :=
  before17_4_of V (dat17 V c) (A_eq17 V c 4) (after17_4 V c) t d
theorem before17_5 (c : Dev nD) (t : Fin cfg17.N) (d) : (dat17 V c).before 5 t d = iblk17 V c 5 t :=
  before17_5_of V (dat17 V c) (A_eq17 V c 5) (after17_5 V c) t d
theorem before17_6 (c : Dev nD) (t : Fin cfg17.N) (d) : (dat17 V c).before 6 t d = iblk17 V c 6 t :=
  before17_6_of V (dat17 V c) (A_eq17 V c 6) (after17_6 V c) t d
theorem before17_7 (c : Dev nD) (t : Fin cfg17.N) (d) : (dat17 V c).before 7 t d = iblk17 V c 7 t :=
  before17_7_of V (dat17 V c) (A_eq17 V c 7) (after17_7 V c) t d

/-- What the body is called with at the point, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d))
    ∗ (∃ d, owns (c : Thread nD τ) (st17_6 t) fullShare ((dat17 V c).before 6 t d))
    ∗ (∃ d, owns (c : Thread nD τ) (st17_7 t) fullShare ((dat17 V c).before 7 t d))
    ∗ (∃ d, owns (c : Thread nD τ) (st17_8 t) fullShare ((dat17 V c).before 8 t d))
    ∗ (∃ d, owns (c : Thread nD τ) (st17_9 t) fullShare ((dat17 V c).before 9 t d))
    ∗ (∃ d, owns (c : Thread nD τ) (st17_10 t) fullShare ((dat17 V c).before 10 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t)
    ∗ owns (c : Thread nD τ) (st17_6 t) fullShare ((dat17 V c).after 6 t)
    ∗ owns (c : Thread nD τ) (st17_7 t) fullShare ((dat17 V c).after 7 t)
    ∗ owns (c : Thread nD τ) (st17_8 t) fullShare ((dat17 V c).after 8 t)
    ∗ owns (c : Thread nD τ) (st17_9 t) fullShare ((dat17 V c).after 9 t)
    ∗ owns (c : Thread nD τ) (st17_10 t) fullShare ((dat17 V c).after 10 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4, before17_5, before17_6, before17_7]
  rw [show (dat17 V c).Φ t.succ = (dat17 V c).Φ t.castSucc from rfl,
    show (dat17 V c).owesAt () t.succ = (dat17 V c).owesAt () t.castSucc from rfl,
    after17_0, after17_1, after17_2, after17_3, after17_4, after17_5, after17_6, after17_7, after17_8, after17_9, after17_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel17 c Set.univ _ _ _ _ _ _ _ _ _ _ _ _ _ _ _ _ _ _ _ _ _ _ (iblk17 V c 0 t) (iblk17 V c 1 t) (iblk17 V c 2 t) (iblk17 V c 3 t) (iblk17 V c 4 t) (iblk17 V c 5 t) (iblk17 V c 6 t) (iblk17 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation17 (c : Dev nD) : BodyObligation (dat17 (F := F) V c) (defs₀ (F := F)) Variants.none () Set.univ := fun t => by
  rw [bigSep_W17, bigSep_W17]
  exact sound_body17 V c t

end Cert.Kernel.Reg

end
-- ==== Proof.KBRegion16.lean ====
/-
  Region 16 of @main: a later relaxation step — each state moved by half its direct gradient, the states taken as
  independent —; one gridless kernel over whole arrays.
  Stated at a parameter `V`, the buffers' contents when the region is entered, and at any float instance:
  what each output buffer holds after the body (`out16_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)
theorem before16_5_of {c : Dev nD} (dat : Dat τ (Elt F) Unit ℕ (UR sig nD τ) ℕ cfg16 c) (hA : dat.A 5 = V c (Pipeline.arrRef spec16 5))
    (hafter : ∀ t, dat.after 5 t = iblk16 V c 5 t) (t : Fin cfg16.N) (d) : dat.before 5 t d = iblk16 V c 5 t :=
  (dat.before_in_eq_fetched 5 rfl (fun _ => rfl) (fun _ _ _ => rfl) (fun t => by rw [hafter]; unfold Dat.blockOf iblk16; rw [hA]; try rfl) t d).trans
    (by unfold Dat.fetched Dat.blockOf iblk16; rw [hA]; try rfl)
theorem before16_6_of {c : Dev nD} (dat : Dat τ (Elt F) Unit ℕ (UR sig nD τ) ℕ cfg16 c) (hA : dat.A 6 = V c (Pipeline.arrRef spec16 6))
    (hafter : ∀ t, dat.after 6 t = iblk16 V c 6 t) (t : Fin cfg16.N) (d) : dat.before 6 t d = iblk16 V c 6 t :=
  (dat.before_in_eq_fetched 6 rfl (fun _ => rfl) (fun _ _ _ => rfl) (fun t => by rw [hafter]; unfold Dat.blockOf iblk16; rw [hA]; try rfl) t d).trans
    (by unfold Dat.fetched Dat.blockOf iblk16; rw [hA]; try rfl)
theorem before16_7_of {c : Dev nD} (dat : Dat τ (Elt F) Unit ℕ (UR sig nD τ) ℕ cfg16 c) (hA : dat.A 7 = V c (Pipeline.arrRef spec16 7))
    (hafter : ∀ t, dat.after 7 t = iblk16 V c 7 t) (t : Fin cfg16.N) (d) : dat.before 7 t d = iblk16 V c 7 t :=
  (dat.before_in_eq_fetched 7 rfl (fun _ => rfl) (fun _ _ _ => rfl) (fun t => by rw [hafter]; unfold Dat.blockOf iblk16; rw [hA]; try rfl) t d).trans
    (by unfold Dat.fetched Dat.blockOf iblk16; rw [hA]; try rfl)

/-- The whole-buffer rectangles the body loads and stores through. -/
abbrev rA16 : Rect S1024x1024 := Rect.unit (s := S1024x1024) ![0, 0] S1024x1024.size inb_S1024x1024_S1024x1024_0_0
abbrev rB16 : Rect S1024x512 := Rect.unit (s := S1024x512) ![0, 0] S1024x512.size inb_S1024x512_S1024x512_0_0

/-- One whole-buffer store covers its buffer. -/
theorem coverA16 (p0 : Vec F S1024x1024 .f32) (y : S1024x1024.Idx) :
    ∃ pc ∈ ([⟨rA16, p0⟩] : List (View.Piece (Elt F) S1024x1024 .f32)), y ∈ pc.1.set :=
  View.cover_of_tiled [⟨rA16, p0⟩] S1024x1024.size (by rfl) y
theorem coverB16 (p0 : Vec F S1024x512 .f32) (y : S1024x512.Idx) :
    ∃ pc ∈ ([⟨rB16, p0⟩] : List (View.Piece (Elt F) S1024x512 .f32)), y ∈ pc.1.set :=
  View.cover_of_tiled [⟨rB16, p0⟩] S1024x512.size (by rfl) y

/-- What the body leaves in each output buffer: its one whole-buffer store, of the payload of the inputs. -/
def out16_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA16, k16_pay8 (View.ld x0 rA16) (View.ld x1 rA16) (View.ld x2 rA16) (View.ld x5 rA16) (View.ld x6 rA16)⟩]
def out16_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA16, k16_pay1 (k16_pay4 (View.ld x2 rA16)) (k16_pay6 (View.ld x1 rA16) (View.ld x2 rA16) (View.ld x3 rB16) (View.ld x6 rA16) (View.ld x7 rB16))⟩]
def out16_10 (x2 : Vec F S1024x1024 .f32) (x3 : Vec F S1024x512 .f32) (x4 : Vec F S1024x512 .f32) (x7 : Vec F S1024x512 .f32) : Vec F S1024x512 .f32 :=
  View.canon [⟨rB16, k16_pay2 (k16_pay5 (View.ld x3 rB16)) (k16_pay7 (View.ld x2 rA16) (View.ld x3 rB16) (View.ld x4 rB16) (View.ld x7 rB16))⟩]

set_option maxHeartbeats 4000000 in
/-- The body on whole buffers: the inputs' read and kept, each output's left at `out16_w` of the inputs'. -/
theorem sound_kernel16 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out16_8 x0 x1 x2 x5 x6) ∗ owns (c : Thread nD τ) arg9 fullShare (out16_9 x1 x2 x3 x6 x7) ∗ owns (c : Thread nD τ) arg10 fullShare (out16_10 x2 x3 x4 x7)) -∗ K ⟨⟩))
      ⊢ wp frame (wpE (defs₀ (F := F)) Variants.none c none) E (cc16__state_update_kernel arg0 harg0 arg1 harg1 arg2 harg2 arg3 harg3 arg4 harg4 arg5 harg5 arg6 harg6 arg7 harg7 arg8 harg8 arg9 harg9 arg10 harg10) K := by
  simp only [cc16__state_update_kernel_eq_skeleton]; unfold cc16__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA16 _)
  isplitl [H9]
  · iexists _; isplitr
    swap; · iexact H9
    ipureintro
    exact View.read_writes_eq_canon _ _ _ (coverA16 _)
  iexists _; isplitr
  swap; · iexact H10
  ipureintro
  exact View.read_writes_eq_canon _ _ _ (coverB16 _)

/-- The proof data of pipeline 16: the arrays as the region finds them; after the body each input's buffer at its
    block and each output's at the body's result; the scoped rest and the generator register untouched; nothing owed. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => iblk16 V c 6 t
    | ⟨7, _⟩ => iblk16 V c 7 t
    | ⟨8, _⟩ => out16_8 (iblk16 V c 0 t) (iblk16 V c 1 t) (iblk16 V c 2 t) (iblk16 V c 5 t) (iblk16 V c 6 t)
    | ⟨9, _⟩ => out16_9 (iblk16 V c 1 t) (iblk16 V c 2 t) (iblk16 V c 3 t) (iblk16 V c 6 t) (iblk16 V c 7 t)
    | ⟨10, _⟩ => out16_10 (iblk16 V c 2 t) (iblk16 V c 3 t) (iblk16 V c 4 t) (iblk16 V c 7 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = iblk16 V c 6 t := by dsimp only [dat16]
theorem after16_7 (c : Dev nD) (t : Fin cfg16.N) : (dat16 V c).after 7 t = iblk16 V c 7 t := by dsimp only [dat16]
theorem after16_8 (c : Dev nD) (t : Fin cfg16.N) : (dat16 V c).after 8 t = out16_8 (iblk16 V c 0 t) (iblk16 V c 1 t) (iblk16 V c 2 t) (iblk16 V c 5 t) (iblk16 V c 6 t) := by dsimp only [dat16]
theorem after16_9 (c : Dev nD) (t : Fin cfg16.N) : (dat16 V c).after 9 t = out16_9 (iblk16 V c 1 t) (iblk16 V c 2 t) (iblk16 V c 3 t) (iblk16 V c 6 t) (iblk16 V c 7 t) := by dsimp only [dat16]
theorem after16_10 (c : Dev nD) (t : Fin cfg16.N) : (dat16 V c).after 10 t = out16_10 (iblk16 V c 2 t) (iblk16 V c 3 t) (iblk16 V c 4 t) (iblk16 V c 7 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d
theorem before16_5 (c : Dev nD) (t : Fin cfg16.N) (d) : (dat16 V c).before 5 t d = iblk16 V c 5 t :=
  before16_5_of V (dat16 V c) (A_eq16 V c 5) (after16_5 V c) t d
theorem before16_6 (c : Dev nD) (t : Fin cfg16.N) (d) : (dat16 V c).before 6 t d = iblk16 V c 6 t :=
  before16_6_of V (dat16 V c) (A_eq16 V c 6) (after16_6 V c) t d
theorem before16_7 (c : Dev nD) (t : Fin cfg16.N) (d) : (dat16 V c).before 7 t d = iblk16 V c 7 t :=
  before16_7_of V (dat16 V c) (A_eq16 V c 7) (after16_7 V c) t d

/-- What the body is called with at the point, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d))
    ∗ (∃ d, owns (c : Thread nD τ) (st16_7 t) fullShare ((dat16 V c).before 7 t d))
    ∗ (∃ d, owns (c : Thread nD τ) (st16_8 t) fullShare ((dat16 V c).before 8 t d))
    ∗ (∃ d, owns (c : Thread nD τ) (st16_9 t) fullShare ((dat16 V c).before 9 t d))
    ∗ (∃ d, owns (c : Thread nD τ) (st16_10 t) fullShare ((dat16 V c).before 10 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t)
    ∗ owns (c : Thread nD τ) (st16_7 t) fullShare ((dat16 V c).after 7 t)
    ∗ owns (c : Thread nD τ) (st16_8 t) fullShare ((dat16 V c).after 8 t)
    ∗ owns (c : Thread nD τ) (st16_9 t) fullShare ((dat16 V c).after 9 t)
    ∗ owns (c : Thread nD τ) (st16_10 t) fullShare ((dat16 V c).after 10 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5, before16_6, before16_7]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6, after16_7, after16_8, after16_9, after16_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel16 c Set.univ _ _ _ _ _ _ _ _ _ _ _ _ _ _ _ _ _ _ _ _ _ _ (iblk16 V c 0 t) (iblk16 V c 1 t) (iblk16 V c 2 t) (iblk16 V c 3 t) (iblk16 V c 4 t) (iblk16 V c 5 t) (iblk16 V c 6 t) (iblk16 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation16 (c : Dev nD) : BodyObligation (dat16 (F := F) V c) (defs₀ (F := F)) Variants.none () Set.univ := fun t => by
  rw [bigSep_W16, bigSep_W16]
  exact sound_body16 V c t

end Cert.Kernel.Reg

end
-- ==== Proof.KBRegion15.lean ====
/-
  Region 15 of @main: a later relaxation step — each state moved by half its direct gradient, the states taken as
  independent —; one gridless kernel over whole arrays.
  Stated at a parameter `V`, the buffers' contents when the region is entered, and at any float instance:
  what each output buffer holds after the body (`out15_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)
theorem before15_4_of {c : Dev nD} (dat : Dat τ (Elt F) Unit ℕ (UR sig nD τ) ℕ cfg15 c) (hA : dat.A 4 = V c (Pipeline.arrRef spec15 4))
    (hafter : ∀ t, dat.after 4 t = iblk15 V c 4 t) (t : Fin cfg15.N) (d) : dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)
theorem before15_5_of {c : Dev nD} (dat : Dat τ (Elt F) Unit ℕ (UR sig nD τ) ℕ cfg15 c) (hA : dat.A 5 = V c (Pipeline.arrRef spec15 5))
    (hafter : ∀ t, dat.after 5 t = iblk15 V c 5 t) (t : Fin cfg15.N) (d) : dat.before 5 t d = iblk15 V c 5 t :=
  (dat.before_in_eq_fetched 5 rfl (fun _ => rfl) (fun _ _ _ => rfl) (fun t => by rw [hafter]; unfold Dat.blockOf iblk15; rw [hA]; try rfl) t d).trans
    (by unfold Dat.fetched Dat.blockOf iblk15; rw [hA]; try rfl)
theorem before15_6_of {c : Dev nD} (dat : Dat τ (Elt F) Unit ℕ (UR sig nD τ) ℕ cfg15 c) (hA : dat.A 6 = V c (Pipeline.arrRef spec15 6))
    (hafter : ∀ t, dat.after 6 t = iblk15 V c 6 t) (t : Fin cfg15.N) (d) : dat.before 6 t d = iblk15 V c 6 t :=
  (dat.before_in_eq_fetched 6 rfl (fun _ => rfl) (fun _ _ _ => rfl) (fun t => by rw [hafter]; unfold Dat.blockOf iblk15; rw [hA]; try rfl) t d).trans
    (by unfold Dat.fetched Dat.blockOf iblk15; rw [hA]; try rfl)
theorem before15_7_of {c : Dev nD} (dat : Dat τ (Elt F) Unit ℕ (UR sig nD τ) ℕ cfg15 c) (hA : dat.A 7 = V c (Pipeline.arrRef spec15 7))
    (hafter : ∀ t, dat.after 7 t = iblk15 V c 7 t) (t : Fin cfg15.N) (d) : dat.before 7 t d = iblk15 V c 7 t :=
  (dat.before_in_eq_fetched 7 rfl (fun _ => rfl) (fun _ _ _ => rfl) (fun t => by rw [hafter]; unfold Dat.blockOf iblk15; rw [hA]; try rfl) t d).trans
    (by unfold Dat.fetched Dat.blockOf iblk15; rw [hA]; try rfl)

/-- The whole-buffer rectangles the body loads and stores through. -/
abbrev rA15 : Rect S1024x1024 := Rect.unit (s := S1024x1024) ![0, 0] S1024x1024.size inb_S1024x1024_S1024x1024_0_0
abbrev rB15 : Rect S1024x512 := Rect.unit (s := S1024x512) ![0, 0] S1024x512.size inb_S1024x512_S1024x512_0_0

/-- One whole-buffer store covers its buffer. -/
theorem coverA15 (p0 : Vec F S1024x1024 .f32) (y : S1024x1024.Idx) :
    ∃ pc ∈ ([⟨rA15, p0⟩] : List (View.Piece (Elt F) S1024x1024 .f32)), y ∈ pc.1.set :=
  View.cover_of_tiled [⟨rA15, p0⟩] S1024x1024.size (by rfl) y
theorem coverB15 (p0 : Vec F S1024x512 .f32) (y : S1024x512.Idx) :
    ∃ pc ∈ ([⟨rB15, p0⟩] : List (View.Piece (Elt F) S1024x512 .f32)), y ∈ pc.1.set :=
  View.cover_of_tiled [⟨rB15, p0⟩] S1024x512.size (by rfl) y

/-- What the body leaves in each output buffer: its one whole-buffer store, of the payload of the inputs. -/
def out15_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA15, k15_pay8 (View.ld x0 rA15) (View.ld x1 rA15) (View.ld x2 rA15) (View.ld x5 rA15) (View.ld x6 rA15)⟩]
def out15_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA15, k15_pay1 (k15_pay4 (View.ld x2 rA15)) (k15_pay6 (View.ld x1 rA15) (View.ld x2 rA15) (View.ld x3 rB15) (View.ld x6 rA15) (View.ld x7 rB15))⟩]
def out15_10 (x2 : Vec F S1024x1024 .f32) (x3 : Vec F S1024x512 .f32) (x4 : Vec F S1024x512 .f32) (x7 : Vec F S1024x512 .f32) : Vec F S1024x512 .f32 :=
  View.canon [⟨rB15, k15_pay2 (k15_pay5 (View.ld x3 rB15)) (k15_pay7 (View.ld x2 rA15) (View.ld x3 rB15) (View.ld x4 rB15) (View.ld x7 rB15))⟩]

set_option maxHeartbeats 4000000 in
/-- The body on whole buffers: the inputs' read and kept, each output's left at `out15_w` of the inputs'. -/
theorem sound_kernel15 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out15_8 x0 x1 x2 x5 x6) ∗ owns (c : Thread nD τ) arg9 fullShare (out15_9 x1 x2 x3 x6 x7) ∗ owns (c : Thread nD τ) arg10 fullShare (out15_10 x2 x3 x4 x7)) -∗ K ⟨⟩))
      ⊢ wp frame (wpE (defs₀ (F := F)) Variants.none c none) E (cc15__state_update_kernel arg0 harg0 arg1 harg1 arg2 harg2 arg3 harg3 arg4 harg4 arg5 harg5 arg6 harg6 arg7 harg7 arg8 harg8 arg9 harg9 arg10 harg10) K := by
  simp only [cc15__state_update_kernel_eq_skeleton]; unfold cc15__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA15 _)
  isplitl [H9]
  · iexists _; isplitr
    swap; · iexact H9
    ipureintro
    exact View.read_writes_eq_canon _ _ _ (coverA15 _)
  iexists _; isplitr
  swap; · iexact H10
  ipureintro
  exact View.read_writes_eq_canon _ _ _ (coverB15 _)

/-- The proof data of pipeline 15: the arrays as the region finds them; after the body each input's buffer at its
    block and each output's at the body's result; the scoped rest and the generator register untouched; nothing owed. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => iblk15 V c 5 t
    | ⟨6, _⟩ => iblk15 V c 6 t
    | ⟨7, _⟩ => iblk15 V c 7 t
    | ⟨8, _⟩ => out15_8 (iblk15 V c 0 t) (iblk15 V c 1 t) (iblk15 V c 2 t) (iblk15 V c 5 t) (iblk15 V c 6 t)
    | ⟨9, _⟩ => out15_9 (iblk15 V c 1 t) (iblk15 V c 2 t) (iblk15 V c 3 t) (iblk15 V c 6 t) (iblk15 V c 7 t)
    | ⟨10, _⟩ => out15_10 (iblk15 V c 2 t) (iblk15 V c 3 t) (iblk15 V c 4 t) (iblk15 V c 7 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = iblk15 V c 5 t := by dsimp only [dat15]
theorem after15_6 (c : Dev nD) (t : Fin cfg15.N) : (dat15 V c).after 6 t = iblk15 V c 6 t := by dsimp only [dat15]
theorem after15_7 (c : Dev nD) (t : Fin cfg15.N) : (dat15 V c).after 7 t = iblk15 V c 7 t := by dsimp only [dat15]
theorem after15_8 (c : Dev nD) (t : Fin cfg15.N) : (dat15 V c).after 8 t = out15_8 (iblk15 V c 0 t) (iblk15 V c 1 t) (iblk15 V c 2 t) (iblk15 V c 5 t) (iblk15 V c 6 t) := by dsimp only [dat15]
theorem after15_9 (c : Dev nD) (t : Fin cfg15.N) : (dat15 V c).after 9 t = out15_9 (iblk15 V c 1 t) (iblk15 V c 2 t) (iblk15 V c 3 t) (iblk15 V c 6 t) (iblk15 V c 7 t) := by dsimp only [dat15]
theorem after15_10 (c : Dev nD) (t : Fin cfg15.N) : (dat15 V c).after 10 t = out15_10 (iblk15 V c 2 t) (iblk15 V c 3 t) (iblk15 V c 4 t) (iblk15 V c 7 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d
theorem before15_4 (c : Dev nD) (t : Fin cfg15.N) (d) : (dat15 V c).before 4 t d = iblk15 V c 4 t :=
  before15_4_of V (dat15 V c) (A_eq15 V c 4) (after15_4 V c) t d
theorem before15_5 (c : Dev nD) (t : Fin cfg15.N) (d) : (dat15 V c).before 5 t d = iblk15 V c 5 t :=
  before15_5_of V (dat15 V c) (A_eq15 V c 5) (after15_5 V c) t d
theorem before15_6 (c : Dev nD) (t : Fin cfg15.N) (d) : (dat15 V c).before 6 t d = iblk15 V c 6 t :=
  before15_6_of V (dat15 V c) (A_eq15 V c 6) (after15_6 V c) t d
theorem before15_7 (c : Dev nD) (t : Fin cfg15.N) (d) : (dat15 V c).before 7 t d = iblk15 V c 7 t :=
  before15_7_of V (dat15 V c) (A_eq15 V c 7) (after15_7 V c) t d

/-- What the body is called with at the point, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d))
    ∗ (∃ d, owns (c : Thread nD τ) (st15_6 t) fullShare ((dat15 V c).before 6 t d))
    ∗ (∃ d, owns (c : Thread nD τ) (st15_7 t) fullShare ((dat15 V c).before 7 t d))
    ∗ (∃ d, owns (c : Thread nD τ) (st15_8 t) fullShare ((dat15 V c).before 8 t d))
    ∗ (∃ d, owns (c : Thread nD τ) (st15_9 t) fullShare ((dat15 V c).before 9 t d))
    ∗ (∃ d, owns (c : Thread nD τ) (st15_10 t) fullShare ((dat15 V c).before 10 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t)
    ∗ owns (c : Thread nD τ) (st15_6 t) fullShare ((dat15 V c).after 6 t)
    ∗ owns (c : Thread nD τ) (st15_7 t) fullShare ((dat15 V c).after 7 t)
    ∗ owns (c : Thread nD τ) (st15_8 t) fullShare ((dat15 V c).after 8 t)
    ∗ owns (c : Thread nD τ) (st15_9 t) fullShare ((dat15 V c).after 9 t)
    ∗ owns (c : Thread nD τ) (st15_10 t) fullShare ((dat15 V c).after 10 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4, before15_5, before15_6, before15_7]
  rw [show (dat15 V c).Φ t.succ = (dat15 V c).Φ t.castSucc from rfl,
    show (dat15 V c).owesAt () t.succ = (dat15 V c).owesAt () t.castSucc from rfl,
    after15_0, after15_1, after15_2, after15_3, after15_4, after15_5, after15_6, after15_7, after15_8, after15_9, after15_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel15 c Set.univ _ _ _ _ _ _ _ _ _ _ _ _ _ _ _ _ _ _ _ _ _ _ (iblk15 V c 0 t) (iblk15 V c 1 t) (iblk15 V c 2 t) (iblk15 V c 3 t) (iblk15 V c 4 t) (iblk15 V c 5 t) (iblk15 V c 6 t) (iblk15 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation15 (c : Dev nD) : BodyObligation (dat15 (F := F) V c) (defs₀ (F := F)) Variants.none () Set.univ := fun t => by
  rw [bigSep_W15, bigSep_W15]
  exact sound_body15 V c t

end Cert.Kernel.Reg

end
-- ==== Proof.KBRegion14.lean ====
/-
  Region 14 of @main: a later relaxation step — each state moved by half its direct gradient, the states taken as
  independent —; one gridless kernel over whole arrays.
  Stated at a parameter `V`, the buffers' contents when the region is entered, and at any float instance:
  what each output buffer holds after the body (`out14_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)
theorem before14_6_of {c : Dev nD} (dat : Dat τ (Elt F) Unit ℕ (UR sig nD τ) ℕ cfg14 c) (hA : dat.A 6 = V c (Pipeline.arrRef spec14 6))
    (hafter : ∀ t, dat.after 6 t = iblk14 V c 6 t) (t : Fin cfg14.N) (d) : dat.before 6 t d = iblk14 V c 6 t :=
  (dat.before_in_eq_fetched 6 rfl (fun _ => rfl) (fun _ _ _ => rfl) (fun t => by rw [hafter]; unfold Dat.blockOf iblk14; rw [hA]; try rfl) t d).trans
    (by unfold Dat.fetched Dat.blockOf iblk14; rw [hA]; try rfl)
theorem before14_7_of {c : Dev nD} (dat : Dat τ (Elt F) Unit ℕ (UR sig nD τ) ℕ cfg14 c) (hA : dat.A 7 = V c (Pipeline.arrRef spec14 7))
    (hafter : ∀ t, dat.after 7 t = iblk14 V c 7 t) (t : Fin cfg14.N) (d) : dat.before 7 t d = iblk14 V c 7 t :=
  (dat.before_in_eq_fetched 7 rfl (fun _ => rfl) (fun _ _ _ => rfl) (fun t => by rw [hafter]; unfold Dat.blockOf iblk14; rw [hA]; try rfl) t d).trans
    (by unfold Dat.fetched Dat.blockOf iblk14; rw [hA]; try rfl)

/-- The whole-buffer rectangles the body loads and stores through. -/
abbrev rA14 : Rect S1024x1024 := Rect.unit (s := S1024x1024) ![0, 0] S1024x1024.size inb_S1024x1024_S1024x1024_0_0
abbrev rB14 : Rect S1024x512 := Rect.unit (s := S1024x512) ![0, 0] S1024x512.size inb_S1024x512_S1024x512_0_0

/-- One whole-buffer store covers its buffer. -/
theorem coverA14 (p0 : Vec F S1024x1024 .f32) (y : S1024x1024.Idx) :
    ∃ pc ∈ ([⟨rA14, p0⟩] : List (View.Piece (Elt F) S1024x1024 .f32)), y ∈ pc.1.set :=
  View.cover_of_tiled [⟨rA14, p0⟩] S1024x1024.size (by rfl) y
theorem coverB14 (p0 : Vec F S1024x512 .f32) (y : S1024x512.Idx) :
    ∃ pc ∈ ([⟨rB14, p0⟩] : List (View.Piece (Elt F) S1024x512 .f32)), y ∈ pc.1.set :=
  View.cover_of_tiled [⟨rB14, p0⟩] S1024x512.size (by rfl) y

/-- What the body leaves in each output buffer: its one whole-buffer store, of the payload of the inputs. -/
def out14_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA14, k14_pay8 (View.ld x0 rA14) (View.ld x1 rA14) (View.ld x2 rA14) (View.ld x5 rA14) (View.ld x6 rA14)⟩]
def out14_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA14, k14_pay1 (k14_pay4 (View.ld x2 rA14)) (k14_pay6 (View.ld x1 rA14) (View.ld x2 rA14) (View.ld x3 rB14) (View.ld x6 rA14) (View.ld x7 rB14))⟩]
def out14_10 (x2 : Vec F S1024x1024 .f32) (x3 : Vec F S1024x512 .f32) (x4 : Vec F S1024x512 .f32) (x7 : Vec F S1024x512 .f32) : Vec F S1024x512 .f32 :=
  View.canon [⟨rB14, k14_pay2 (k14_pay5 (View.ld x3 rB14)) (k14_pay7 (View.ld x2 rA14) (View.ld x3 rB14) (View.ld x4 rB14) (View.ld x7 rB14))⟩]

set_option maxHeartbeats 4000000 in
/-- The body on whole buffers: the inputs' read and kept, each output's left at `out14_w` of the inputs'. -/
theorem sound_kernel14 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out14_8 x0 x1 x2 x5 x6) ∗ owns (c : Thread nD τ) arg9 fullShare (out14_9 x1 x2 x3 x6 x7) ∗ owns (c : Thread nD τ) arg10 fullShare (out14_10 x2 x3 x4 x7)) -∗ K ⟨⟩))
      ⊢ wp frame (wpE (defs₀ (F := F)) Variants.none c none) E (cc14__state_update_kernel arg0 harg0 arg1 harg1 arg2 harg2 arg3 harg3 arg4 harg4 arg5 harg5 arg6 harg6 arg7 harg7 arg8 harg8 arg9 harg9 arg10 harg10) K := by
  simp only [cc14__state_update_kernel_eq_skeleton]; unfold cc14__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA14 _)
  isplitl [H9]
  · iexists _; isplitr
    swap; · iexact H9
    ipureintro
    exact View.read_writes_eq_canon _ _ _ (coverA14 _)
  iexists _; isplitr
  swap; · iexact H10
  ipureintro
  exact View.read_writes_eq_canon _ _ _ (coverB14 _)

/-- The proof data of pipeline 14: the arrays as the region finds them; after the body each input's buffer at its
    block and each output's at the body's result; the scoped rest and the generator register untouched; nothing owed. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => iblk14 V c 6 t
    | ⟨7, _⟩ => iblk14 V c 7 t
    | ⟨8, _⟩ => out14_8 (iblk14 V c 0 t) (iblk14 V c 1 t) (iblk14 V c 2 t) (iblk14 V c 5 t) (iblk14 V c 6 t)
    | ⟨9, _⟩ => out14_9 (iblk14 V c 1 t) (iblk14 V c 2 t) (iblk14 V c 3 t) (iblk14 V c 6 t) (iblk14 V c 7 t)
    | ⟨10, _⟩ => out14_10 (iblk14 V c 2 t) (iblk14 V c 3 t) (iblk14 V c 4 t) (iblk14 V c 7 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = iblk14 V c 6 t := by dsimp only [dat14]
theorem after14_7 (c : Dev nD) (t : Fin cfg14.N) : (dat14 V c).after 7 t = iblk14 V c 7 t := by dsimp only [dat14]
theorem after14_8 (c : Dev nD) (t : Fin cfg14.N) : (dat14 V c).after 8 t = out14_8 (iblk14 V c 0 t) (iblk14 V c 1 t) (iblk14 V c 2 t) (iblk14 V c 5 t) (iblk14 V c 6 t) := by dsimp only [dat14]
theorem after14_9 (c : Dev nD) (t : Fin cfg14.N) : (dat14 V c).after 9 t = out14_9 (iblk14 V c 1 t) (iblk14 V c 2 t) (iblk14 V c 3 t) (iblk14 V c 6 t) (iblk14 V c 7 t) := by dsimp only [dat14]
theorem after14_10 (c : Dev nD) (t : Fin cfg14.N) : (dat14 V c).after 10 t = out14_10 (iblk14 V c 2 t) (iblk14 V c 3 t) (iblk14 V c 4 t) (iblk14 V c 7 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d
theorem before14_6 (c : Dev nD) (t : Fin cfg14.N) (d) : (dat14 V c).before 6 t d = iblk14 V c 6 t :=
  before14_6_of V (dat14 V c) (A_eq14 V c 6) (after14_6 V c) t d
theorem before14_7 (c : Dev nD) (t : Fin cfg14.N) (d) : (dat14 V c).before 7 t d = iblk14 V c 7 t :=
  before14_7_of V (dat14 V c) (A_eq14 V c 7) (after14_7 V c) t d

/-- What the body is called with at the point, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d))
    ∗ (∃ d, owns (c : Thread nD τ) (st14_8 t) fullShare ((dat14 V c).before 8 t d))
    ∗ (∃ d, owns (c : Thread nD τ) (st14_9 t) fullShare ((dat14 V c).before 9 t d))
    ∗ (∃ d, owns (c : Thread nD τ) (st14_10 t) fullShare ((dat14 V c).before 10 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t)
    ∗ owns (c : Thread nD τ) (st14_8 t) fullShare ((dat14 V c).after 8 t)
    ∗ owns (c : Thread nD τ) (st14_9 t) fullShare ((dat14 V c).after 9 t)
    ∗ owns (c : Thread nD τ) (st14_10 t) fullShare ((dat14 V c).after 10 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5, before14_6, before14_7]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7, after14_8, after14_9, after14_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel14 c Set.univ _ _ _ _ _ _ _ _ _ _ _ _ _ _ _ _ _ _ _ _ _ _ (iblk14 V c 0 t) (iblk14 V c 1 t) (iblk14 V c 2 t) (iblk14 V c 3 t) (iblk14 V c 4 t) (iblk14 V c 5 t) (iblk14 V c 6 t) (iblk14 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation14 (c : Dev nD) : BodyObligation (dat14 (F := F) V c) (defs₀ (F := F)) Variants.none () Set.univ := fun t => by
  rw [bigSep_W14, bigSep_W14]
  exact sound_body14 V c t

end Cert.Kernel.Reg

end
-- ==== Proof.KBRegion13.lean ====
/-
  Region 13 of @main: a later relaxation step — each state moved by half its direct gradient, the states taken as
  independent —; one gridless kernel over whole arrays.
  Stated at a parameter `V`, the buffers' contents when the region is entered, and at any float instance:
  what each output buffer holds after the body (`out13_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)
theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)
theorem before13_7_of {c : Dev nD} (dat : Dat τ (Elt F) Unit ℕ (UR sig nD τ) ℕ cfg13 c) (hA : dat.A 7 = V c (Pipeline.arrRef spec13 7))
    (hafter : ∀ t, dat.after 7 t = iblk13 V c 7 t) (t : Fin cfg13.N) (d) : dat.before 7 t d = iblk13 V c 7 t :=
  (dat.before_in_eq_fetched 7 rfl (fun _ => rfl) (fun _ _ _ => rfl) (fun t => by rw [hafter]; unfold Dat.blockOf iblk13; rw [hA]; try rfl) t d).trans
    (by unfold Dat.fetched Dat.blockOf iblk13; rw [hA]; try rfl)

/-- The whole-buffer rectangles the body loads and stores through. -/
abbrev rA13 : Rect S1024x1024 := Rect.unit (s := S1024x1024) ![0, 0] S1024x1024.size inb_S1024x1024_S1024x1024_0_0
abbrev rB13 : Rect S1024x512 := Rect.unit (s := S1024x512) ![0, 0] S1024x512.size inb_S1024x512_S1024x512_0_0

/-- One whole-buffer store covers its buffer. -/
theorem coverA13 (p0 : Vec F S1024x1024 .f32) (y : S1024x1024.Idx) :
    ∃ pc ∈ ([⟨rA13, p0⟩] : List (View.Piece (Elt F) S1024x1024 .f32)), y ∈ pc.1.set :=
  View.cover_of_tiled [⟨rA13, p0⟩] S1024x1024.size (by rfl) y
theorem coverB13 (p0 : Vec F S1024x512 .f32) (y : S1024x512.Idx) :
    ∃ pc ∈ ([⟨rB13, p0⟩] : List (View.Piece (Elt F) S1024x512 .f32)), y ∈ pc.1.set :=
  View.cover_of_tiled [⟨rB13, p0⟩] S1024x512.size (by rfl) y

/-- What the body leaves in each output buffer: its one whole-buffer store, of the payload of the inputs. -/
def out13_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA13, k13_pay8 (View.ld x0 rA13) (View.ld x1 rA13) (View.ld x2 rA13) (View.ld x5 rA13) (View.ld x6 rA13)⟩]
def out13_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA13, k13_pay1 (k13_pay4 (View.ld x2 rA13)) (k13_pay6 (View.ld x1 rA13) (View.ld x2 rA13) (View.ld x3 rB13) (View.ld x6 rA13) (View.ld x7 rB13))⟩]
def out13_10 (x2 : Vec F S1024x1024 .f32) (x3 : Vec F S1024x512 .f32) (x4 : Vec F S1024x512 .f32) (x7 : Vec F S1024x512 .f32) : Vec F S1024x512 .f32 :=
  View.canon [⟨rB13, k13_pay2 (k13_pay5 (View.ld x3 rB13)) (k13_pay7 (View.ld x2 rA13) (View.ld x3 rB13) (View.ld x4 rB13) (View.ld x7 rB13))⟩]

set_option maxHeartbeats 4000000 in
/-- The body on whole buffers: the inputs' read and kept, each output's left at `out13_w` of the inputs'. -/
theorem sound_kernel13 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out13_8 x0 x1 x2 x5 x6) ∗ owns (c : Thread nD τ) arg9 fullShare (out13_9 x1 x2 x3 x6 x7) ∗ owns (c : Thread nD τ) arg10 fullShare (out13_10 x2 x3 x4 x7)) -∗ K ⟨⟩))
      ⊢ wp frame (wpE (defs₀ (F := F)) Variants.none c none) E (cc13__state_update_kernel arg0 harg0 arg1 harg1 arg2 harg2 arg3 harg3 arg4 harg4 arg5 harg5 arg6 harg6 arg7 harg7 arg8 harg8 arg9 harg9 arg10 harg10) K := by
  simp only [cc13__state_update_kernel_eq_skeleton]; unfold cc13__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA13 _)
  isplitl [H9]
  · iexists _; isplitr
    swap; · iexact H9
    ipureintro
    exact View.read_writes_eq_canon _ _ _ (coverA13 _)
  iexists _; isplitr
  swap; · iexact H10
  ipureintro
  exact View.read_writes_eq_canon _ _ _ (coverB13 _)

/-- The proof data of pipeline 13: the arrays as the region finds them; after the body each input's buffer at its
    block and each output's at the body's result; the scoped rest and the generator register untouched; nothing owed. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => iblk13 V c 7 t
    | ⟨8, _⟩ => out13_8 (iblk13 V c 0 t) (iblk13 V c 1 t) (iblk13 V c 2 t) (iblk13 V c 5 t) (iblk13 V c 6 t)
    | ⟨9, _⟩ => out13_9 (iblk13 V c 1 t) (iblk13 V c 2 t) (iblk13 V c 3 t) (iblk13 V c 6 t) (iblk13 V c 7 t)
    | ⟨10, _⟩ => out13_10 (iblk13 V c 2 t) (iblk13 V c 3 t) (iblk13 V c 4 t) (iblk13 V c 7 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = iblk13 V c 7 t := by dsimp only [dat13]
theorem after13_8 (c : Dev nD) (t : Fin cfg13.N) : (dat13 V c).after 8 t = out13_8 (iblk13 V c 0 t) (iblk13 V c 1 t) (iblk13 V c 2 t) (iblk13 V c 5 t) (iblk13 V c 6 t) := by dsimp only [dat13]
theorem after13_9 (c : Dev nD) (t : Fin cfg13.N) : (dat13 V c).after 9 t = out13_9 (iblk13 V c 1 t) (iblk13 V c 2 t) (iblk13 V c 3 t) (iblk13 V c 6 t) (iblk13 V c 7 t) := by dsimp only [dat13]
theorem after13_10 (c : Dev nD) (t : Fin cfg13.N) : (dat13 V c).after 10 t = out13_10 (iblk13 V c 2 t) (iblk13 V c 3 t) (iblk13 V c 4 t) (iblk13 V c 7 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d
theorem before13_7 (c : Dev nD) (t : Fin cfg13.N) (d) : (dat13 V c).before 7 t d = iblk13 V c 7 t :=
  before13_7_of V (dat13 V c) (A_eq13 V c 7) (after13_7 V c) t d

/-- What the body is called with at the point, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d))
    ∗ (∃ d, owns (c : Thread nD τ) (st13_8 t) fullShare ((dat13 V c).before 8 t d))
    ∗ (∃ d, owns (c : Thread nD τ) (st13_9 t) fullShare ((dat13 V c).before 9 t d))
    ∗ (∃ d, owns (c : Thread nD τ) (st13_10 t) fullShare ((dat13 V c).before 10 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t)
    ∗ owns (c : Thread nD τ) (st13_8 t) fullShare ((dat13 V c).after 8 t)
    ∗ owns (c : Thread nD τ) (st13_9 t) fullShare ((dat13 V c).after 9 t)
    ∗ owns (c : Thread nD τ) (st13_10 t) fullShare ((dat13 V c).after 10 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6, before13_7]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7, after13_8, after13_9, after13_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel13 c Set.univ _ _ _ _ _ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) (iblk13 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation13 (c : Dev nD) : BodyObligation (dat13 (F := F) V c) (defs₀ (F := F)) Variants.none () Set.univ := fun t => by
  rw [bigSep_W13, bigSep_W13]
  exact sound_body13 V c t

end Cert.Kernel.Reg

end
-- ==== Proof.KBRegion12.lean ====
/-
  Region 12 of @main: a later relaxation step — each state moved by half its direct gradient, the states taken as
  independent —; one gridless kernel over whole arrays.
  Stated at a parameter `V`, the buffers' contents when the region is entered, and at any float instance:
  what each output buffer holds after the body (`out12_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

/-- The whole-buffer rectangles the body loads and stores through. -/
abbrev rA12 : Rect S1024x1024 := Rect.unit (s := S1024x1024) ![0, 0] S1024x1024.size inb_S1024x1024_S1024x1024_0_0
abbrev rB12 : Rect S1024x512 := Rect.unit (s := S1024x512) ![0, 0] S1024x512.size inb_S1024x512_S1024x512_0_0

/-- One whole-buffer store covers its buffer. -/
theorem coverA12 (p0 : Vec F S1024x1024 .f32) (y : S1024x1024.Idx) :
    ∃ pc ∈ ([⟨rA12, p0⟩] : List (View.Piece (Elt F) S1024x1024 .f32)), y ∈ pc.1.set :=
  View.cover_of_tiled [⟨rA12, p0⟩] S1024x1024.size (by rfl) y
theorem coverB12 (p0 : Vec F S1024x512 .f32) (y : S1024x512.Idx) :
    ∃ pc ∈ ([⟨rB12, p0⟩] : List (View.Piece (Elt F) S1024x512 .f32)), y ∈ pc.1.set :=
  View.cover_of_tiled [⟨rB12, p0⟩] S1024x512.size (by rfl) y

/-- What the body leaves in each output buffer: its one whole-buffer store, of the payload of the inputs. -/
def out12_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA12, k12_pay8 (View.ld x0 rA12) (View.ld x1 rA12) (View.ld x2 rA12) (View.ld x5 rA12) (View.ld x6 rA12)⟩]
def out12_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA12, k12_pay1 (k12_pay4 (View.ld x2 rA12)) (k12_pay6 (View.ld x1 rA12) (View.ld x2 rA12) (View.ld x3 rB12) (View.ld x6 rA12) (View.ld x7 rB12))⟩]
def out12_10 (x2 : Vec F S1024x1024 .f32) (x3 : Vec F S1024x512 .f32) (x4 : Vec F S1024x512 .f32) (x7 : Vec F S1024x512 .f32) : Vec F S1024x512 .f32 :=
  View.canon [⟨rB12, k12_pay2 (k12_pay5 (View.ld x3 rB12)) (k12_pay7 (View.ld x2 rA12) (View.ld x3 rB12) (View.ld x4 rB12) (View.ld x7 rB12))⟩]

set_option maxHeartbeats 4000000 in
/-- The body on whole buffers: the inputs' read and kept, each output's left at `out12_w` of the inputs'. -/
theorem sound_kernel12 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out12_8 x0 x1 x2 x5 x6) ∗ owns (c : Thread nD τ) arg9 fullShare (out12_9 x1 x2 x3 x6 x7) ∗ owns (c : Thread nD τ) arg10 fullShare (out12_10 x2 x3 x4 x7)) -∗ K ⟨⟩))
      ⊢ wp frame (wpE (defs₀ (F := F)) Variants.none c none) E (cc12__state_update_kernel arg0 harg0 arg1 harg1 arg2 harg2 arg3 harg3 arg4 harg4 arg5 harg5 arg6 harg6 arg7 harg7 arg8 harg8 arg9 harg9 arg10 harg10) K := by
  simp only [cc12__state_update_kernel_eq_skeleton]; unfold cc12__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA12 _)
  isplitl [H9]
  · iexists _; isplitr
    swap; · iexact H9
    ipureintro
    exact View.read_writes_eq_canon _ _ _ (coverA12 _)
  iexists _; isplitr
  swap; · iexact H10
  ipureintro
  exact View.read_writes_eq_canon _ _ _ (coverB12 _)

/-- The proof data of pipeline 12: the arrays as the region finds them; after the body each input's buffer at its
    block and each output's at the body's result; the scoped rest and the generator register untouched; nothing owed. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => out12_8 (iblk12 V c 0 t) (iblk12 V c 1 t) (iblk12 V c 2 t) (iblk12 V c 5 t) (iblk12 V c 6 t)
    | ⟨9, _⟩ => out12_9 (iblk12 V c 1 t) (iblk12 V c 2 t) (iblk12 V c 3 t) (iblk12 V c 6 t) (iblk12 V c 7 t)
    | ⟨10, _⟩ => out12_10 (iblk12 V c 2 t) (iblk12 V c 3 t) (iblk12 V c 4 t) (iblk12 V c 7 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = out12_8 (iblk12 V c 0 t) (iblk12 V c 1 t) (iblk12 V c 2 t) (iblk12 V c 5 t) (iblk12 V c 6 t) := by dsimp only [dat12]
theorem after12_9 (c : Dev nD) (t : Fin cfg12.N) : (dat12 V c).after 9 t = out12_9 (iblk12 V c 1 t) (iblk12 V c 2 t) (iblk12 V c 3 t) (iblk12 V c 6 t) (iblk12 V c 7 t) := by dsimp only [dat12]
theorem after12_10 (c : Dev nD) (t : Fin cfg12.N) : (dat12 V c).after 10 t = out12_10 (iblk12 V c 2 t) (iblk12 V c 3 t) (iblk12 V c 4 t) (iblk12 V c 7 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d

/-- What the body is called with at the point, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel12 c Set.univ _ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation12 (c : Dev nD) : BodyObligation (dat12 (F := F) V c) (defs₀ (F := F)) Variants.none () Set.univ := fun t => by
  rw [bigSep_W12, bigSep_W12]
  exact sound_body12 V c t

end Cert.Kernel.Reg

end
-- ==== Proof.KBRegion11.lean ====
/-
  Region 11 of @main: a later relaxation step — each state moved by half its direct gradient, the states taken as
  independent —; one gridless kernel over whole arrays.
  Stated at a parameter `V`, the buffers' contents when the region is entered, and at any float instance:
  what each output buffer holds after the body (`out11_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)
theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)
theorem before11_7_of {c : Dev nD} (dat : Dat τ (Elt F) Unit ℕ (UR sig nD τ) ℕ cfg11 c) (hA : dat.A 7 = V c (Pipeline.arrRef spec11 7))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)

/-- The whole-buffer rectangles the body loads and stores through. -/
abbrev rA11 : Rect S1024x1024 := Rect.unit (s := S1024x1024) ![0, 0] S1024x1024.size inb_S1024x1024_S1024x1024_0_0
abbrev rB11 : Rect S1024x512 := Rect.unit (s := S1024x512) ![0, 0] S1024x512.size inb_S1024x512_S1024x512_0_0

/-- One whole-buffer store covers its buffer. -/
theorem coverA11 (p0 : Vec F S1024x1024 .f32) (y : S1024x1024.Idx) :
    ∃ pc ∈ ([⟨rA11, p0⟩] : List (View.Piece (Elt F) S1024x1024 .f32)), y ∈ pc.1.set :=
  View.cover_of_tiled [⟨rA11, p0⟩] S1024x1024.size (by rfl) y
theorem coverB11 (p0 : Vec F S1024x512 .f32) (y : S1024x512.Idx) :
    ∃ pc ∈ ([⟨rB11, p0⟩] : List (View.Piece (Elt F) S1024x512 .f32)), y ∈ pc.1.set :=
  View.cover_of_tiled [⟨rB11, p0⟩] S1024x512.size (by rfl) y

/-- What the body leaves in each output buffer: its one whole-buffer store, of the payload of the inputs. -/
def out11_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA11, k11_pay8 (View.ld x0 rA11) (View.ld x1 rA11) (View.ld x2 rA11) (View.ld x5 rA11) (View.ld x6 rA11)⟩]
def out11_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA11, k11_pay1 (k11_pay4 (View.ld x2 rA11)) (k11_pay6 (View.ld x1 rA11) (View.ld x2 rA11) (View.ld x3 rB11) (View.ld x6 rA11) (View.ld x7 rB11))⟩]
def out11_10 (x2 : Vec F S1024x1024 .f32) (x3 : Vec F S1024x512 .f32) (x4 : Vec F S1024x512 .f32) (x7 : Vec F S1024x512 .f32) : Vec F S1024x512 .f32 :=
  View.canon [⟨rB11, k11_pay2 (k11_pay5 (View.ld x3 rB11)) (k11_pay7 (View.ld x2 rA11) (View.ld x3 rB11) (View.ld x4 rB11) (View.ld x7 rB11))⟩]

set_option maxHeartbeats 4000000 in
/-- The body on whole buffers: the inputs' read and kept, each output's left at `out11_w` of the inputs'. -/
theorem sound_kernel11 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out11_8 x0 x1 x2 x5 x6) ∗ owns (c : Thread nD τ) arg9 fullShare (out11_9 x1 x2 x3 x6 x7) ∗ owns (c : Thread nD τ) arg10 fullShare (out11_10 x2 x3 x4 x7)) -∗ K ⟨⟩))
      ⊢ wp frame (wpE (defs₀ (F := F)) Variants.none c none) E (cc11__state_update_kernel arg0 harg0 arg1 harg1 arg2 harg2 arg3 harg3 arg4 harg4 arg5 harg5 arg6 harg6 arg7 harg7 arg8 harg8 arg9 harg9 arg10 harg10) K := by
  simp only [cc11__state_update_kernel_eq_skeleton]; unfold cc11__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA11 _)
  isplitl [H9]
  · iexists _; isplitr
    swap; · iexact H9
    ipureintro
    exact View.read_writes_eq_canon _ _ _ (coverA11 _)
  iexists _; isplitr
  swap; · iexact H10
  ipureintro
  exact View.read_writes_eq_canon _ _ _ (coverB11 _)

/-- The proof data of pipeline 11: the arrays as the region finds them; after the body each input's buffer at its
    block and each output's at the body's result; the scoped rest and the generator register untouched; nothing owed. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => out11_8 (iblk11 V c 0 t) (iblk11 V c 1 t) (iblk11 V c 2 t) (iblk11 V c 5 t) (iblk11 V c 6 t)
    | ⟨9, _⟩ => out11_9 (iblk11 V c 1 t) (iblk11 V c 2 t) (iblk11 V c 3 t) (iblk11 V c 6 t) (iblk11 V c 7 t)
    | ⟨10, _⟩ => out11_10 (iblk11 V c 2 t) (iblk11 V c 3 t) (iblk11 V c 4 t) (iblk11 V c 7 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = out11_8 (iblk11 V c 0 t) (iblk11 V c 1 t) (iblk11 V c 2 t) (iblk11 V c 5 t) (iblk11 V c 6 t) := by dsimp only [dat11]
theorem after11_9 (c : Dev nD) (t : Fin cfg11.N) : (dat11 V c).after 9 t = out11_9 (iblk11 V c 1 t) (iblk11 V c 2 t) (iblk11 V c 3 t) (iblk11 V c 6 t) (iblk11 V c 7 t) := by dsimp only [dat11]
theorem after11_10 (c : Dev nD) (t : Fin cfg11.N) : (dat11 V c).after 10 t = out11_10 (iblk11 V c 2 t) (iblk11 V c 3 t) (iblk11 V c 4 t) (iblk11 V c 7 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d
theorem before11_7 (c : Dev nD) (t : Fin cfg11.N) (d) : (dat11 V c).before 7 t d = iblk11 V c 7 t :=
  before11_7_of V (dat11 V c) (A_eq11 V c 7) (after11_7 V c) t d

/-- What the body is called with at the point, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d))
    ∗ (∃ d, owns (c : Thread nD τ) (st11_8 t) fullShare ((dat11 V c).before 8 t d))
    ∗ (∃ d, owns (c : Thread nD τ) (st11_9 t) fullShare ((dat11 V c).before 9 t d))
    ∗ (∃ d, owns (c : Thread nD τ) (st11_10 t) fullShare ((dat11 V c).before 10 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t)
    ∗ owns (c : Thread nD τ) (st11_8 t) fullShare ((dat11 V c).after 8 t)
    ∗ owns (c : Thread nD τ) (st11_9 t) fullShare ((dat11 V c).after 9 t)
    ∗ owns (c : Thread nD τ) (st11_10 t) fullShare ((dat11 V c).after 10 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7, after11_8, after11_9, after11_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel11 c Set.univ _ _ _ _ _ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) (iblk11 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation11 (c : Dev nD) : BodyObligation (dat11 (F := F) V c) (defs₀ (F := F)) Variants.none () Set.univ := fun t => by
  rw [bigSep_W11, bigSep_W11]
  exact sound_body11 V c t

end Cert.Kernel.Reg

end
-- ==== Proof.KBRegion10.lean ====
/-
  Region 10 of @main: a later relaxation step — each state moved by half its direct gradient, the states taken as
  independent —; one gridless kernel over whole arrays.
  Stated at a parameter `V`, the buffers' contents when the region is entered, and at any float instance:
  what each output buffer holds after the body (`out10_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-- The whole-buffer rectangles the body loads and stores through. -/
abbrev rA10 : Rect S1024x1024 := Rect.unit (s := S1024x1024) ![0, 0] S1024x1024.size inb_S1024x1024_S1024x1024_0_0
abbrev rB10 : Rect S1024x512 := Rect.unit (s := S1024x512) ![0, 0] S1024x512.size inb_S1024x512_S1024x512_0_0

/-- One whole-buffer store covers its buffer. -/
theorem coverA10 (p0 : Vec F S1024x1024 .f32) (y : S1024x1024.Idx) :
    ∃ pc ∈ ([⟨rA10, p0⟩] : List (View.Piece (Elt F) S1024x1024 .f32)), y ∈ pc.1.set :=
  View.cover_of_tiled [⟨rA10, p0⟩] S1024x1024.size (by rfl) y
theorem coverB10 (p0 : Vec F S1024x512 .f32) (y : S1024x512.Idx) :
    ∃ pc ∈ ([⟨rB10, p0⟩] : List (View.Piece (Elt F) S1024x512 .f32)), y ∈ pc.1.set :=
  View.cover_of_tiled [⟨rB10, p0⟩] S1024x512.size (by rfl) y

/-- What the body leaves in each output buffer: its one whole-buffer store, of the payload of the inputs. -/
def out10_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA10, k10_pay8 (View.ld x0 rA10) (View.ld x1 rA10) (View.ld x2 rA10) (View.ld x5 rA10) (View.ld x6 rA10)⟩]
def out10_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA10, k10_pay1 (k10_pay4 (View.ld x2 rA10)) (k10_pay6 (View.ld x1 rA10) (View.ld x2 rA10) (View.ld x3 rB10) (View.ld x6 rA10) (View.ld x7 rB10))⟩]
def out10_10 (x2 : Vec F S1024x1024 .f32) (x3 : Vec F S1024x512 .f32) (x4 : Vec F S1024x512 .f32) (x7 : Vec F S1024x512 .f32) : Vec F S1024x512 .f32 :=
  View.canon [⟨rB10, k10_pay2 (k10_pay5 (View.ld x3 rB10)) (k10_pay7 (View.ld x2 rA10) (View.ld x3 rB10) (View.ld x4 rB10) (View.ld x7 rB10))⟩]

set_option maxHeartbeats 4000000 in
/-- The body on whole buffers: the inputs' read and kept, each output's left at `out10_w` of the inputs'. -/
theorem sound_kernel10 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out10_8 x0 x1 x2 x5 x6) ∗ owns (c : Thread nD τ) arg9 fullShare (out10_9 x1 x2 x3 x6 x7) ∗ owns (c : Thread nD τ) arg10 fullShare (out10_10 x2 x3 x4 x7)) -∗ K ⟨⟩))
      ⊢ wp frame (wpE (defs₀ (F := F)) Variants.none c none) E (cc10__state_update_kernel arg0 harg0 arg1 harg1 arg2 harg2 arg3 harg3 arg4 harg4 arg5 harg5 arg6 harg6 arg7 harg7 arg8 harg8 arg9 harg9 arg10 harg10) K := by
  simp only [cc10__state_update_kernel_eq_skeleton]; unfold cc10__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA10 _)
  isplitl [H9]
  · iexists _; isplitr
    swap; · iexact H9
    ipureintro
    exact View.read_writes_eq_canon _ _ _ (coverA10 _)
  iexists _; isplitr
  swap; · iexact H10
  ipureintro
  exact View.read_writes_eq_canon _ _ _ (coverB10 _)

/-- The proof data of pipeline 10: the arrays as the region finds them; after the body each input's buffer at its
    block and each output's at the body's result; the scoped rest and the generator register untouched; nothing owed. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => out10_8 (iblk10 V c 0 t) (iblk10 V c 1 t) (iblk10 V c 2 t) (iblk10 V c 5 t) (iblk10 V c 6 t)
    | ⟨9, _⟩ => out10_9 (iblk10 V c 1 t) (iblk10 V c 2 t) (iblk10 V c 3 t) (iblk10 V c 6 t) (iblk10 V c 7 t)
    | ⟨10, _⟩ => out10_10 (iblk10 V c 2 t) (iblk10 V c 3 t) (iblk10 V c 4 t) (iblk10 V c 7 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = out10_8 (iblk10 V c 0 t) (iblk10 V c 1 t) (iblk10 V c 2 t) (iblk10 V c 5 t) (iblk10 V c 6 t) := by dsimp only [dat10]
theorem after10_9 (c : Dev nD) (t : Fin cfg10.N) : (dat10 V c).after 9 t = out10_9 (iblk10 V c 1 t) (iblk10 V c 2 t) (iblk10 V c 3 t) (iblk10 V c 6 t) (iblk10 V c 7 t) := by dsimp only [dat10]
theorem after10_10 (c : Dev nD) (t : Fin cfg10.N) : (dat10 V c).after 10 t = out10_10 (iblk10 V c 2 t) (iblk10 V c 3 t) (iblk10 V c 4 t) (iblk10 V c 7 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d

/-- What the body is called with at the point, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d))
    ∗ (∃ d, owns (c : Thread nD τ) (st10_10 t) fullShare ((dat10 V c).before 10 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t)
    ∗ owns (c : Thread nD τ) (st10_10 t) fullShare ((dat10 V c).after 10 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9, after10_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel10 c Set.univ _ _ _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation10 (c : Dev nD) : BodyObligation (dat10 (F := F) V c) (defs₀ (F := F)) Variants.none () Set.univ := fun t => by
  rw [bigSep_W10, bigSep_W10]
  exact sound_body10 V c t

end Cert.Kernel.Reg

end
-- ==== Proof.KBRegion9.lean ====
/-
  Region 9 of @main: a later relaxation step — each state moved by half its direct gradient, the states taken as
  independent —; one gridless kernel over whole arrays.
  Stated at a parameter `V`, the buffers' contents when the region is entered, and at any float instance:
  what each output buffer holds after the body (`out9_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-- The whole-buffer rectangles the body loads and stores through. -/
abbrev rA9 : Rect S1024x1024 := Rect.unit (s := S1024x1024) ![0, 0] S1024x1024.size inb_S1024x1024_S1024x1024_0_0
abbrev rB9 : Rect S1024x512 := Rect.unit (s := S1024x512) ![0, 0] S1024x512.size inb_S1024x512_S1024x512_0_0

/-- One whole-buffer store covers its buffer. -/
theorem coverA9 (p0 : Vec F S1024x1024 .f32) (y : S1024x1024.Idx) :
    ∃ pc ∈ ([⟨rA9, p0⟩] : List (View.Piece (Elt F) S1024x1024 .f32)), y ∈ pc.1.set :=
  View.cover_of_tiled [⟨rA9, p0⟩] S1024x1024.size (by rfl) y
theorem coverB9 (p0 : Vec F S1024x512 .f32) (y : S1024x512.Idx) :
    ∃ pc ∈ ([⟨rB9, p0⟩] : List (View.Piece (Elt F) S1024x512 .f32)), y ∈ pc.1.set :=
  View.cover_of_tiled [⟨rB9, p0⟩] S1024x512.size (by rfl) y

/-- What the body leaves in each output buffer: its one whole-buffer store, of the payload of the inputs. -/
def out9_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA9, k9_pay8 (View.ld x0 rA9) (View.ld x1 rA9) (View.ld x2 rA9) (View.ld x5 rA9) (View.ld x6 rA9)⟩]
def out9_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA9, k9_pay1 (k9_pay4 (View.ld x2 rA9)) (k9_pay6 (View.ld x1 rA9) (View.ld x2 rA9) (View.ld x3 rB9) (View.ld x6 rA9) (View.ld x7 rB9))⟩]
def out9_10 (x2 : Vec F S1024x1024 .f32) (x3 : Vec F S1024x512 .f32) (x4 : Vec F S1024x512 .f32) (x7 : Vec F S1024x512 .f32) : Vec F S1024x512 .f32 :=
  View.canon [⟨rB9, k9_pay2 (k9_pay5 (View.ld x3 rB9)) (k9_pay7 (View.ld x2 rA9) (View.ld x3 rB9) (View.ld x4 rB9) (View.ld x7 rB9))⟩]

set_option maxHeartbeats 4000000 in
/-- The body on whole buffers: the inputs' read and kept, each output's left at `out9_w` of the inputs'. -/
theorem sound_kernel9 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out9_8 x0 x1 x2 x5 x6) ∗ owns (c : Thread nD τ) arg9 fullShare (out9_9 x1 x2 x3 x6 x7) ∗ owns (c : Thread nD τ) arg10 fullShare (out9_10 x2 x3 x4 x7)) -∗ K ⟨⟩))
      ⊢ wp frame (wpE (defs₀ (F := F)) Variants.none c none) E (cc9__state_update_kernel arg0 harg0 arg1 harg1 arg2 harg2 arg3 harg3 arg4 harg4 arg5 harg5 arg6 harg6 arg7 harg7 arg8 harg8 arg9 harg9 arg10 harg10) K := by
  simp only [cc9__state_update_kernel_eq_skeleton]; unfold cc9__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA9 _)
  isplitl [H9]
  · iexists _; isplitr
    swap; · iexact H9
    ipureintro
    exact View.read_writes_eq_canon _ _ _ (coverA9 _)
  iexists _; isplitr
  swap; · iexact H10
  ipureintro
  exact View.read_writes_eq_canon _ _ _ (coverB9 _)

/-- The proof data of pipeline 9: the arrays as the region finds them; after the body each input's buffer at its
    block and each output's at the body's result; the scoped rest and the generator register untouched; nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => out9_8 (iblk9 V c 0 t) (iblk9 V c 1 t) (iblk9 V c 2 t) (iblk9 V c 5 t) (iblk9 V c 6 t)
    | ⟨9, _⟩ => out9_9 (iblk9 V c 1 t) (iblk9 V c 2 t) (iblk9 V c 3 t) (iblk9 V c 6 t) (iblk9 V c 7 t)
    | ⟨10, _⟩ => out9_10 (iblk9 V c 2 t) (iblk9 V c 3 t) (iblk9 V c 4 t) (iblk9 V c 7 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = out9_8 (iblk9 V c 0 t) (iblk9 V c 1 t) (iblk9 V c 2 t) (iblk9 V c 5 t) (iblk9 V c 6 t) := by dsimp only [dat9]
theorem after9_9 (c : Dev nD) (t : Fin cfg9.N) : (dat9 V c).after 9 t = out9_9 (iblk9 V c 1 t) (iblk9 V c 2 t) (iblk9 V c 3 t) (iblk9 V c 6 t) (iblk9 V c 7 t) := by dsimp only [dat9]
theorem after9_10 (c : Dev nD) (t : Fin cfg9.N) : (dat9 V c).after 10 t = out9_10 (iblk9 V c 2 t) (iblk9 V c 3 t) (iblk9 V c 4 t) (iblk9 V c 7 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d

/-- What the body is called with at the point, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d))
    ∗ (∃ d, owns (c : Thread nD τ) (st9_10 t) fullShare ((dat9 V c).before 10 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t)
    ∗ owns (c : Thread nD τ) (st9_10 t) fullShare ((dat9 V c).after 10 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8, after9_9, after9_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel9 c Set.univ _ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation9 (c : Dev nD) : BodyObligation (dat9 (F := F) V c) (defs₀ (F := F)) Variants.none () Set.univ := fun t => by
  rw [bigSep_W9, bigSep_W9]
  exact sound_body9 V c t

end Cert.Kernel.Reg

end
-- ==== Proof.KBRegion8.lean ====
/-
  Region 8 of @main: a later relaxation step — each state moved by half its direct gradient, the states taken as
  independent —; one gridless kernel over whole arrays.
  Stated at a parameter `V`, the buffers' contents when the region is entered, and at any float instance:
  what each output buffer holds after the body (`out8_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- The whole-buffer rectangles the body loads and stores through. -/
abbrev rA8 : Rect S1024x1024 := Rect.unit (s := S1024x1024) ![0, 0] S1024x1024.size inb_S1024x1024_S1024x1024_0_0
abbrev rB8 : Rect S1024x512 := Rect.unit (s := S1024x512) ![0, 0] S1024x512.size inb_S1024x512_S1024x512_0_0

/-- One whole-buffer store covers its buffer. -/
theorem coverA8 (p0 : Vec F S1024x1024 .f32) (y : S1024x1024.Idx) :
    ∃ pc ∈ ([⟨rA8, p0⟩] : List (View.Piece (Elt F) S1024x1024 .f32)), y ∈ pc.1.set :=
  View.cover_of_tiled [⟨rA8, p0⟩] S1024x1024.size (by rfl) y
theorem coverB8 (p0 : Vec F S1024x512 .f32) (y : S1024x512.Idx) :
    ∃ pc ∈ ([⟨rB8, p0⟩] : List (View.Piece (Elt F) S1024x512 .f32)), y ∈ pc.1.set :=
  View.cover_of_tiled [⟨rB8, p0⟩] S1024x512.size (by rfl) y

/-- What the body leaves in each output buffer: its one whole-buffer store, of the payload of the inputs. -/
def out8_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA8, k8_pay8 (View.ld x0 rA8) (View.ld x1 rA8) (View.ld x2 rA8) (View.ld x5 rA8) (View.ld x6 rA8)⟩]
def out8_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA8, k8_pay1 (k8_pay4 (View.ld x2 rA8)) (k8_pay6 (View.ld x1 rA8) (View.ld x2 rA8) (View.ld x3 rB8) (View.ld x6 rA8) (View.ld x7 rB8))⟩]
def out8_10 (x2 : Vec F S1024x1024 .f32) (x3 : Vec F S1024x512 .f32) (x4 : Vec F S1024x512 .f32) (x7 : Vec F S1024x512 .f32) : Vec F S1024x512 .f32 :=
  View.canon [⟨rB8, k8_pay2 (k8_pay5 (View.ld x3 rB8)) (k8_pay7 (View.ld x2 rA8) (View.ld x3 rB8) (View.ld x4 rB8) (View.ld x7 rB8))⟩]

set_option maxHeartbeats 4000000 in
/-- The body on whole buffers: the inputs' read and kept, each output's left at `out8_w` of the inputs'. -/
theorem sound_kernel8 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out8_8 x0 x1 x2 x5 x6) ∗ owns (c : Thread nD τ) arg9 fullShare (out8_9 x1 x2 x3 x6 x7) ∗ owns (c : Thread nD τ) arg10 fullShare (out8_10 x2 x3 x4 x7)) -∗ K ⟨⟩))
      ⊢ wp frame (wpE (defs₀ (F := F)) Variants.none c none) E (cc8__state_update_kernel arg0 harg0 arg1 harg1 arg2 harg2 arg3 harg3 arg4 harg4 arg5 harg5 arg6 harg6 arg7 harg7 arg8 harg8 arg9 harg9 arg10 harg10) K := by
  simp only [cc8__state_update_kernel_eq_skeleton]; unfold cc8__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA8 _)
  isplitl [H9]
  · iexists _; isplitr
    swap; · iexact H9
    ipureintro
    exact View.read_writes_eq_canon _ _ _ (coverA8 _)
  iexists _; isplitr
  swap; · iexact H10
  ipureintro
  exact View.read_writes_eq_canon _ _ _ (coverB8 _)

/-- The proof data of pipeline 8: the arrays as the region finds them; after the body each input's buffer at its
    block and each output's at the body's result; the scoped rest and the generator register untouched; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => out8_8 (iblk8 V c 0 t) (iblk8 V c 1 t) (iblk8 V c 2 t) (iblk8 V c 5 t) (iblk8 V c 6 t)
    | ⟨9, _⟩ => out8_9 (iblk8 V c 1 t) (iblk8 V c 2 t) (iblk8 V c 3 t) (iblk8 V c 6 t) (iblk8 V c 7 t)
    | ⟨10, _⟩ => out8_10 (iblk8 V c 2 t) (iblk8 V c 3 t) (iblk8 V c 4 t) (iblk8 V c 7 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = out8_8 (iblk8 V c 0 t) (iblk8 V c 1 t) (iblk8 V c 2 t) (iblk8 V c 5 t) (iblk8 V c 6 t) := by dsimp only [dat8]
theorem after8_9 (c : Dev nD) (t : Fin cfg8.N) : (dat8 V c).after 9 t = out8_9 (iblk8 V c 1 t) (iblk8 V c 2 t) (iblk8 V c 3 t) (iblk8 V c 6 t) (iblk8 V c 7 t) := by dsimp only [dat8]
theorem after8_10 (c : Dev nD) (t : Fin cfg8.N) : (dat8 V c).after 10 t = out8_10 (iblk8 V c 2 t) (iblk8 V c 3 t) (iblk8 V c 4 t) (iblk8 V c 7 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d

/-- What the body is called with at the point, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel8 c Set.univ _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation8 (c : Dev nD) : BodyObligation (dat8 (F := F) V c) (defs₀ (F := F)) Variants.none () Set.univ := fun t => by
  rw [bigSep_W8, bigSep_W8]
  exact sound_body8 V c t

end Cert.Kernel.Reg

end
-- ==== Proof.KBRegion7.lean ====
/-
  Region 7 of @main: a later relaxation step — each state moved by half its direct gradient, the states taken as
  independent —; one gridless kernel over whole arrays.
  Stated at a parameter `V`, the buffers' contents when the region is entered, and at any float instance:
  what each output buffer holds after the body (`out7_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev rA7 : Rect S1024x1024 := Rect.unit (s := S1024x1024) ![0, 0] S1024x1024.size inb_S1024x1024_S1024x1024_0_0
abbrev rB7 : Rect S1024x512 := Rect.unit (s := S1024x512) ![0, 0] S1024x512.size inb_S1024x512_S1024x512_0_0

/-- One whole-buffer store covers its buffer. -/
theorem coverA7 (p0 : Vec F S1024x1024 .f32) (y : S1024x1024.Idx) :
    ∃ pc ∈ ([⟨rA7, p0⟩] : List (View.Piece (Elt F) S1024x1024 .f32)), y ∈ pc.1.set :=
  View.cover_of_tiled [⟨rA7, p0⟩] S1024x1024.size (by rfl) y
theorem coverB7 (p0 : Vec F S1024x512 .f32) (y : S1024x512.Idx) :
    ∃ pc ∈ ([⟨rB7, p0⟩] : List (View.Piece (Elt F) S1024x512 .f32)), y ∈ pc.1.set :=
  View.cover_of_tiled [⟨rB7, p0⟩] S1024x512.size (by rfl) y

/-- What the body leaves in each output buffer: its one whole-buffer store, of the payload of the inputs. -/
def out7_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA7, k7_pay8 (View.ld x0 rA7) (View.ld x1 rA7) (View.ld x2 rA7) (View.ld x5 rA7) (View.ld x6 rA7)⟩]
def out7_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA7, k7_pay1 (k7_pay4 (View.ld x2 rA7)) (k7_pay6 (View.ld x1 rA7) (View.ld x2 rA7) (View.ld x3 rB7) (View.ld x6 rA7) (View.ld x7 rB7))⟩]
def out7_10 (x2 : Vec F S1024x1024 .f32) (x3 : Vec F S1024x512 .f32) (x4 : Vec F S1024x512 .f32) (x7 : Vec F S1024x512 .f32) : Vec F S1024x512 .f32 :=
  View.canon [⟨rB7, k7_pay2 (k7_pay5 (View.ld x3 rB7)) (k7_pay7 (View.ld x2 rA7) (View.ld x3 rB7) (View.ld x4 rB7) (View.ld x7 rB7))⟩]

set_option maxHeartbeats 4000000 in
/-- The body on whole buffers: the inputs' read and kept, each output's left at `out7_w` of the inputs'. -/
theorem sound_kernel7 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out7_8 x0 x1 x2 x5 x6) ∗ owns (c : Thread nD τ) arg9 fullShare (out7_9 x1 x2 x3 x6 x7) ∗ owns (c : Thread nD τ) arg10 fullShare (out7_10 x2 x3 x4 x7)) -∗ K ⟨⟩))
      ⊢ wp frame (wpE (defs₀ (F := F)) Variants.none c none) E (cc7__state_update_kernel arg0 harg0 arg1 harg1 arg2 harg2 arg3 harg3 arg4 harg4 arg5 harg5 arg6 harg6 arg7 harg7 arg8 harg8 arg9 harg9 arg10 harg10) K := by
  simp only [cc7__state_update_kernel_eq_skeleton]; unfold cc7__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA7 _)
  isplitl [H9]
  · iexists _; isplitr
    swap; · iexact H9
    ipureintro
    exact View.read_writes_eq_canon _ _ _ (coverA7 _)
  iexists _; isplitr
  swap; · iexact H10
  ipureintro
  exact View.read_writes_eq_canon _ _ _ (coverB7 _)

/-- The proof data of pipeline 7: the arrays as the region finds them; after the body each input's buffer at its
    block and each output's at the body's result; the scoped rest and the generator register untouched; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => out7_8 (iblk7 V c 0 t) (iblk7 V c 1 t) (iblk7 V c 2 t) (iblk7 V c 5 t) (iblk7 V c 6 t)
    | ⟨9, _⟩ => out7_9 (iblk7 V c 1 t) (iblk7 V c 2 t) (iblk7 V c 3 t) (iblk7 V c 6 t) (iblk7 V c 7 t)
    | ⟨10, _⟩ => out7_10 (iblk7 V c 2 t) (iblk7 V c 3 t) (iblk7 V c 4 t) (iblk7 V c 7 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = out7_8 (iblk7 V c 0 t) (iblk7 V c 1 t) (iblk7 V c 2 t) (iblk7 V c 5 t) (iblk7 V c 6 t) := by dsimp only [dat7]
theorem after7_9 (c : Dev nD) (t : Fin cfg7.N) : (dat7 V c).after 9 t = out7_9 (iblk7 V c 1 t) (iblk7 V c 2 t) (iblk7 V c 3 t) (iblk7 V c 6 t) (iblk7 V c 7 t) := by dsimp only [dat7]
theorem after7_10 (c : Dev nD) (t : Fin cfg7.N) : (dat7 V c).after 10 t = out7_10 (iblk7 V c 2 t) (iblk7 V c 3 t) (iblk7 V c 4 t) (iblk7 V c 7 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d

/-- What the body is called with at the point, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel7 c Set.univ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation7 (c : Dev nD) : BodyObligation (dat7 (F := F) V c) (defs₀ (F := F)) Variants.none () Set.univ := fun t => by
  rw [bigSep_W7, bigSep_W7]
  exact sound_body7 V c t

end Cert.Kernel.Reg

end
-- ==== Proof.KBRegion6.lean ====
/-
  Region 6 of @main: a later relaxation step — each state moved by half its direct gradient, the states taken as
  independent —; one gridless kernel over whole arrays.
  Stated at a parameter `V`, the buffers' contents when the region is entered, and at any float instance:
  what each output buffer holds after the body (`out6_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev rA6 : Rect S1024x1024 := Rect.unit (s := S1024x1024) ![0, 0] S1024x1024.size inb_S1024x1024_S1024x1024_0_0
abbrev rB6 : Rect S1024x512 := Rect.unit (s := S1024x512) ![0, 0] S1024x512.size inb_S1024x512_S1024x512_0_0

/-- One whole-buffer store covers its buffer. -/
theorem coverA6 (p0 : Vec F S1024x1024 .f32) (y : S1024x1024.Idx) :
    ∃ pc ∈ ([⟨rA6, p0⟩] : List (View.Piece (Elt F) S1024x1024 .f32)), y ∈ pc.1.set :=
  View.cover_of_tiled [⟨rA6, p0⟩] S1024x1024.size (by rfl) y
theorem coverB6 (p0 : Vec F S1024x512 .f32) (y : S1024x512.Idx) :
    ∃ pc ∈ ([⟨rB6, p0⟩] : List (View.Piece (Elt F) S1024x512 .f32)), y ∈ pc.1.set :=
  View.cover_of_tiled [⟨rB6, p0⟩] S1024x512.size (by rfl) y

/-- What the body leaves in each output buffer: its one whole-buffer store, of the payload of the inputs. -/
def out6_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA6, k6_pay8 (View.ld x0 rA6) (View.ld x1 rA6) (View.ld x2 rA6) (View.ld x5 rA6) (View.ld x6 rA6)⟩]
def out6_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA6, k6_pay1 (k6_pay4 (View.ld x2 rA6)) (k6_pay6 (View.ld x1 rA6) (View.ld x2 rA6) (View.ld x3 rB6) (View.ld x6 rA6) (View.ld x7 rB6))⟩]
def out6_10 (x2 : Vec F S1024x1024 .f32) (x3 : Vec F S1024x512 .f32) (x4 : Vec F S1024x512 .f32) (x7 : Vec F S1024x512 .f32) : Vec F S1024x512 .f32 :=
  View.canon [⟨rB6, k6_pay2 (k6_pay5 (View.ld x3 rB6)) (k6_pay7 (View.ld x2 rA6) (View.ld x3 rB6) (View.ld x4 rB6) (View.ld x7 rB6))⟩]

set_option maxHeartbeats 4000000 in
/-- The body on whole buffers: the inputs' read and kept, each output's left at `out6_w` of the inputs'. -/
theorem sound_kernel6 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out6_8 x0 x1 x2 x5 x6) ∗ owns (c : Thread nD τ) arg9 fullShare (out6_9 x1 x2 x3 x6 x7) ∗ owns (c : Thread nD τ) arg10 fullShare (out6_10 x2 x3 x4 x7)) -∗ K ⟨⟩))
      ⊢ wp frame (wpE (defs₀ (F := F)) Variants.none c none) E (cc6__state_update_kernel arg0 harg0 arg1 harg1 arg2 harg2 arg3 harg3 arg4 harg4 arg5 harg5 arg6 harg6 arg7 harg7 arg8 harg8 arg9 harg9 arg10 harg10) K := by
  simp only [cc6__state_update_kernel_eq_skeleton]; unfold cc6__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA6 _)
  isplitl [H9]
  · iexists _; isplitr
    swap; · iexact H9
    ipureintro
    exact View.read_writes_eq_canon _ _ _ (coverA6 _)
  iexists _; isplitr
  swap; · iexact H10
  ipureintro
  exact View.read_writes_eq_canon _ _ _ (coverB6 _)

/-- The proof data of pipeline 6: the arrays as the region finds them; after the body each input's buffer at its
    block and each output's at the body's result; the scoped rest and the generator register untouched; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 5 t) (iblk6 V c 6 t)
    | ⟨9, _⟩ => out6_9 (iblk6 V c 1 t) (iblk6 V c 2 t) (iblk6 V c 3 t) (iblk6 V c 6 t) (iblk6 V c 7 t)
    | ⟨10, _⟩ => out6_10 (iblk6 V c 2 t) (iblk6 V c 3 t) (iblk6 V c 4 t) (iblk6 V c 7 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = out6_8 (iblk6 V c 0 t) (iblk6 V c 1 t) (iblk6 V c 2 t) (iblk6 V c 5 t) (iblk6 V c 6 t) := by dsimp only [dat6]
theorem after6_9 (c : Dev nD) (t : Fin cfg6.N) : (dat6 V c).after 9 t = out6_9 (iblk6 V c 1 t) (iblk6 V c 2 t) (iblk6 V c 3 t) (iblk6 V c 6 t) (iblk6 V c 7 t) := by dsimp only [dat6]
theorem after6_10 (c : Dev nD) (t : Fin cfg6.N) : (dat6 V c).after 10 t = out6_10 (iblk6 V c 2 t) (iblk6 V c 3 t) (iblk6 V c 4 t) (iblk6 V c 7 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-- What the body is called with at the point, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation6 (c : Dev nD) : BodyObligation (dat6 (F := F) V c) (defs₀ (F := F)) Variants.none () Set.univ := fun t => by
  rw [bigSep_W6, bigSep_W6]
  exact sound_body6 V c t

end Cert.Kernel.Reg

end
-- ==== Proof.KBRegion5.lean ====
/-
  Region 5 of @main: a later relaxation step — each state moved by half its direct gradient, the states taken as
  independent —; one gridless kernel over whole arrays.
  Stated at a parameter `V`, the buffers' contents when the region is entered, and at any float instance:
  what each output buffer holds after the body (`out5_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev rA5 : Rect S1024x1024 := Rect.unit (s := S1024x1024) ![0, 0] S1024x1024.size inb_S1024x1024_S1024x1024_0_0
abbrev rB5 : Rect S1024x512 := Rect.unit (s := S1024x512) ![0, 0] S1024x512.size inb_S1024x512_S1024x512_0_0

/-- One whole-buffer store covers its buffer. -/
theorem coverA5 (p0 : Vec F S1024x1024 .f32) (y : S1024x1024.Idx) :
    ∃ pc ∈ ([⟨rA5, p0⟩] : List (View.Piece (Elt F) S1024x1024 .f32)), y ∈ pc.1.set :=
  View.cover_of_tiled [⟨rA5, p0⟩] S1024x1024.size (by rfl) y
theorem coverB5 (p0 : Vec F S1024x512 .f32) (y : S1024x512.Idx) :
    ∃ pc ∈ ([⟨rB5, p0⟩] : List (View.Piece (Elt F) S1024x512 .f32)), y ∈ pc.1.set :=
  View.cover_of_tiled [⟨rB5, p0⟩] S1024x512.size (by rfl) y

/-- What the body leaves in each output buffer: its one whole-buffer store, of the payload of the inputs. -/
def out5_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA5, k5_pay8 (View.ld x0 rA5) (View.ld x1 rA5) (View.ld x2 rA5) (View.ld x5 rA5) (View.ld x6 rA5)⟩]
def out5_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA5, k5_pay1 (k5_pay4 (View.ld x2 rA5)) (k5_pay6 (View.ld x1 rA5) (View.ld x2 rA5) (View.ld x3 rB5) (View.ld x6 rA5) (View.ld x7 rB5))⟩]
def out5_10 (x2 : Vec F S1024x1024 .f32) (x3 : Vec F S1024x512 .f32) (x4 : Vec F S1024x512 .f32) (x7 : Vec F S1024x512 .f32) : Vec F S1024x512 .f32 :=
  View.canon [⟨rB5, k5_pay2 (k5_pay5 (View.ld x3 rB5)) (k5_pay7 (View.ld x2 rA5) (View.ld x3 rB5) (View.ld x4 rB5) (View.ld x7 rB5))⟩]

set_option maxHeartbeats 4000000 in
/-- The body on whole buffers: the inputs' read and kept, each output's left at `out5_w` of the inputs'. -/
theorem sound_kernel5 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out5_8 x0 x1 x2 x5 x6) ∗ owns (c : Thread nD τ) arg9 fullShare (out5_9 x1 x2 x3 x6 x7) ∗ owns (c : Thread nD τ) arg10 fullShare (out5_10 x2 x3 x4 x7)) -∗ K ⟨⟩))
      ⊢ wp frame (wpE (defs₀ (F := F)) Variants.none c none) E (cc5__state_update_kernel arg0 harg0 arg1 harg1 arg2 harg2 arg3 harg3 arg4 harg4 arg5 harg5 arg6 harg6 arg7 harg7 arg8 harg8 arg9 harg9 arg10 harg10) K := by
  simp only [cc5__state_update_kernel_eq_skeleton]; unfold cc5__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA5 _)
  isplitl [H9]
  · iexists _; isplitr
    swap; · iexact H9
    ipureintro
    exact View.read_writes_eq_canon _ _ _ (coverA5 _)
  iexists _; isplitr
  swap; · iexact H10
  ipureintro
  exact View.read_writes_eq_canon _ _ _ (coverB5 _)

/-- The proof data of pipeline 5: the arrays as the region finds them; after the body each input's buffer at its
    block and each output's at the body's result; the scoped rest and the generator register untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 5 t) (iblk5 V c 6 t)
    | ⟨9, _⟩ => out5_9 (iblk5 V c 1 t) (iblk5 V c 2 t) (iblk5 V c 3 t) (iblk5 V c 6 t) (iblk5 V c 7 t)
    | ⟨10, _⟩ => out5_10 (iblk5 V c 2 t) (iblk5 V c 3 t) (iblk5 V c 4 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 5 t) (iblk5 V c 6 t) := by dsimp only [dat5]
theorem after5_9 (c : Dev nD) (t : Fin cfg5.N) : (dat5 V c).after 9 t = out5_9 (iblk5 V c 1 t) (iblk5 V c 2 t) (iblk5 V c 3 t) (iblk5 V c 6 t) (iblk5 V c 7 t) := by dsimp only [dat5]
theorem after5_10 (c : Dev nD) (t : Fin cfg5.N) : (dat5 V c).after 10 t = out5_10 (iblk5 V c 2 t) (iblk5 V c 3 t) (iblk5 V c 4 t) (iblk5 V c 7 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-- What the body is called with at the point, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.KBRegion4.lean ====
/-
  Region 4 of @main: a later relaxation step — each state moved by half its direct gradient, the states taken as
  independent —; one gridless kernel over whole arrays.
  Stated at a parameter `V`, the buffers' contents when the region is entered, and at any float instance:
  what each output buffer holds after the body (`out4_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev rA4 : Rect S1024x1024 := Rect.unit (s := S1024x1024) ![0, 0] S1024x1024.size inb_S1024x1024_S1024x1024_0_0
abbrev rB4 : Rect S1024x512 := Rect.unit (s := S1024x512) ![0, 0] S1024x512.size inb_S1024x512_S1024x512_0_0

/-- One whole-buffer store covers its buffer. -/
theorem coverA4 (p0 : Vec F S1024x1024 .f32) (y : S1024x1024.Idx) :
    ∃ pc ∈ ([⟨rA4, p0⟩] : List (View.Piece (Elt F) S1024x1024 .f32)), y ∈ pc.1.set :=
  View.cover_of_tiled [⟨rA4, p0⟩] S1024x1024.size (by rfl) y
theorem coverB4 (p0 : Vec F S1024x512 .f32) (y : S1024x512.Idx) :
    ∃ pc ∈ ([⟨rB4, p0⟩] : List (View.Piece (Elt F) S1024x512 .f32)), y ∈ pc.1.set :=
  View.cover_of_tiled [⟨rB4, p0⟩] S1024x512.size (by rfl) y

/-- What the body leaves in each output buffer: its one whole-buffer store, of the payload of the inputs. -/
def out4_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA4, k4_pay8 (View.ld x0 rA4) (View.ld x1 rA4) (View.ld x2 rA4) (View.ld x5 rA4) (View.ld x6 rA4)⟩]
def out4_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA4, k4_pay1 (k4_pay4 (View.ld x2 rA4)) (k4_pay6 (View.ld x1 rA4) (View.ld x2 rA4) (View.ld x3 rB4) (View.ld x6 rA4) (View.ld x7 rB4))⟩]
def out4_10 (x2 : Vec F S1024x1024 .f32) (x3 : Vec F S1024x512 .f32) (x4 : Vec F S1024x512 .f32) (x7 : Vec F S1024x512 .f32) : Vec F S1024x512 .f32 :=
  View.canon [⟨rB4, k4_pay2 (k4_pay5 (View.ld x3 rB4)) (k4_pay7 (View.ld x2 rA4) (View.ld x3 rB4) (View.ld x4 rB4) (View.ld x7 rB4))⟩]

set_option maxHeartbeats 4000000 in
/-- The body on whole buffers: the inputs' read and kept, each output's left at `out4_w` of the inputs'. -/
theorem sound_kernel4 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out4_8 x0 x1 x2 x5 x6) ∗ owns (c : Thread nD τ) arg9 fullShare (out4_9 x1 x2 x3 x6 x7) ∗ owns (c : Thread nD τ) arg10 fullShare (out4_10 x2 x3 x4 x7)) -∗ K ⟨⟩))
      ⊢ wp frame (wpE (defs₀ (F := F)) Variants.none c none) E (cc4__state_update_kernel arg0 harg0 arg1 harg1 arg2 harg2 arg3 harg3 arg4 harg4 arg5 harg5 arg6 harg6 arg7 harg7 arg8 harg8 arg9 harg9 arg10 harg10) K := by
  simp only [cc4__state_update_kernel_eq_skeleton]; unfold cc4__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA4 _)
  isplitl [H9]
  · iexists _; isplitr
    swap; · iexact H9
    ipureintro
    exact View.read_writes_eq_canon _ _ _ (coverA4 _)
  iexists _; isplitr
  swap; · iexact H10
  ipureintro
  exact View.read_writes_eq_canon _ _ _ (coverB4 _)

/-- The proof data of pipeline 4: the arrays as the region finds them; after the body each input's buffer at its
    block and each output's at the body's result; the scoped rest and the generator register untouched; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 5 t) (iblk4 V c 6 t)
    | ⟨9, _⟩ => out4_9 (iblk4 V c 1 t) (iblk4 V c 2 t) (iblk4 V c 3 t) (iblk4 V c 6 t) (iblk4 V c 7 t)
    | ⟨10, _⟩ => out4_10 (iblk4 V c 2 t) (iblk4 V c 3 t) (iblk4 V c 4 t) (iblk4 V c 7 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = out4_8 (iblk4 V c 0 t) (iblk4 V c 1 t) (iblk4 V c 2 t) (iblk4 V c 5 t) (iblk4 V c 6 t) := by dsimp only [dat4]
theorem after4_9 (c : Dev nD) (t : Fin cfg4.N) : (dat4 V c).after 9 t = out4_9 (iblk4 V c 1 t) (iblk4 V c 2 t) (iblk4 V c 3 t) (iblk4 V c 6 t) (iblk4 V c 7 t) := by dsimp only [dat4]
theorem after4_10 (c : Dev nD) (t : Fin cfg4.N) : (dat4 V c).after 10 t = out4_10 (iblk4 V c 2 t) (iblk4 V c 3 t) (iblk4 V c 4 t) (iblk4 V c 7 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-- What the body is called with at the point, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.KBRegion3.lean ====
/-
  Region 3 of @main: a later relaxation step — each state moved by half its direct gradient, the states taken as
  independent —; one gridless kernel over whole arrays.
  Stated at a parameter `V`, the buffers' contents when the region is entered, and at any float instance:
  what each output buffer holds after the body (`out3_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rA3 : Rect S1024x1024 := Rect.unit (s := S1024x1024) ![0, 0] S1024x1024.size inb_S1024x1024_S1024x1024_0_0
abbrev rB3 : Rect S1024x512 := Rect.unit (s := S1024x512) ![0, 0] S1024x512.size inb_S1024x512_S1024x512_0_0

/-- One whole-buffer store covers its buffer. -/
theorem coverA3 (p0 : Vec F S1024x1024 .f32) (y : S1024x1024.Idx) :
    ∃ pc ∈ ([⟨rA3, p0⟩] : List (View.Piece (Elt F) S1024x1024 .f32)), y ∈ pc.1.set :=
  View.cover_of_tiled [⟨rA3, p0⟩] S1024x1024.size (by rfl) y
theorem coverB3 (p0 : Vec F S1024x512 .f32) (y : S1024x512.Idx) :
    ∃ pc ∈ ([⟨rB3, p0⟩] : List (View.Piece (Elt F) S1024x512 .f32)), y ∈ pc.1.set :=
  View.cover_of_tiled [⟨rB3, p0⟩] S1024x512.size (by rfl) y

/-- What the body leaves in each output buffer: its one whole-buffer store, of the payload of the inputs. -/
def out3_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA3, k3_pay8 (View.ld x0 rA3) (View.ld x1 rA3) (View.ld x2 rA3) (View.ld x5 rA3) (View.ld x6 rA3)⟩]
def out3_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA3, k3_pay1 (k3_pay4 (View.ld x2 rA3)) (k3_pay6 (View.ld x1 rA3) (View.ld x2 rA3) (View.ld x3 rB3) (View.ld x6 rA3) (View.ld x7 rB3))⟩]
def out3_10 (x2 : Vec F S1024x1024 .f32) (x3 : Vec F S1024x512 .f32) (x4 : Vec F S1024x512 .f32) (x7 : Vec F S1024x512 .f32) : Vec F S1024x512 .f32 :=
  View.canon [⟨rB3, k3_pay2 (k3_pay5 (View.ld x3 rB3)) (k3_pay7 (View.ld x2 rA3) (View.ld x3 rB3) (View.ld x4 rB3) (View.ld x7 rB3))⟩]

set_option maxHeartbeats 4000000 in
/-- The body on whole buffers: the inputs' read and kept, each output's left at `out3_w` of the inputs'. -/
theorem sound_kernel3 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out3_8 x0 x1 x2 x5 x6) ∗ owns (c : Thread nD τ) arg9 fullShare (out3_9 x1 x2 x3 x6 x7) ∗ owns (c : Thread nD τ) arg10 fullShare (out3_10 x2 x3 x4 x7)) -∗ K ⟨⟩))
      ⊢ wp frame (wpE (defs₀ (F := F)) Variants.none c none) E (cc3__state_update_kernel arg0 harg0 arg1 harg1 arg2 harg2 arg3 harg3 arg4 harg4 arg5 harg5 arg6 harg6 arg7 harg7 arg8 harg8 arg9 harg9 arg10 harg10) K := by
  simp only [cc3__state_update_kernel_eq_skeleton]; unfold cc3__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA3 _)
  isplitl [H9]
  · iexists _; isplitr
    swap; · iexact H9
    ipureintro
    exact View.read_writes_eq_canon _ _ _ (coverA3 _)
  iexists _; isplitr
  swap; · iexact H10
  ipureintro
  exact View.read_writes_eq_canon _ _ _ (coverB3 _)

/-- The proof data of pipeline 3: the arrays as the region finds them; after the body each input's buffer at its
    block and each output's at the body's result; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 5 t) (iblk3 V c 6 t)
    | ⟨9, _⟩ => out3_9 (iblk3 V c 1 t) (iblk3 V c 2 t) (iblk3 V c 3 t) (iblk3 V c 6 t) (iblk3 V c 7 t)
    | ⟨10, _⟩ => out3_10 (iblk3 V c 2 t) (iblk3 V c 3 t) (iblk3 V c 4 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 5 t) (iblk3 V c 6 t) := by dsimp only [dat3]
theorem after3_9 (c : Dev nD) (t : Fin cfg3.N) : (dat3 V c).after 9 t = out3_9 (iblk3 V c 1 t) (iblk3 V c 2 t) (iblk3 V c 3 t) (iblk3 V c 6 t) (iblk3 V c 7 t) := by dsimp only [dat3]
theorem after3_10 (c : Dev nD) (t : Fin cfg3.N) : (dat3 V c).after 10 t = out3_10 (iblk3 V c 2 t) (iblk3 V c 3 t) (iblk3 V c 4 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-- What the body is called with at the point, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.KBRegion2.lean ====
/-
  Region 2 of @main: a later relaxation step — each state moved by half its direct gradient, the states taken as
  independent —; one gridless kernel over whole arrays.
  Stated at a parameter `V`, the buffers' contents when the region is entered, and at any float instance:
  what each output buffer holds after the body (`out2_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rA2 : Rect S1024x1024 := Rect.unit (s := S1024x1024) ![0, 0] S1024x1024.size inb_S1024x1024_S1024x1024_0_0
abbrev rB2 : Rect S1024x512 := Rect.unit (s := S1024x512) ![0, 0] S1024x512.size inb_S1024x512_S1024x512_0_0

/-- One whole-buffer store covers its buffer. -/
theorem coverA2 (p0 : Vec F S1024x1024 .f32) (y : S1024x1024.Idx) :
    ∃ pc ∈ ([⟨rA2, p0⟩] : List (View.Piece (Elt F) S1024x1024 .f32)), y ∈ pc.1.set :=
  View.cover_of_tiled [⟨rA2, p0⟩] S1024x1024.size (by rfl) y
theorem coverB2 (p0 : Vec F S1024x512 .f32) (y : S1024x512.Idx) :
    ∃ pc ∈ ([⟨rB2, p0⟩] : List (View.Piece (Elt F) S1024x512 .f32)), y ∈ pc.1.set :=
  View.cover_of_tiled [⟨rB2, p0⟩] S1024x512.size (by rfl) y

/-- What the body leaves in each output buffer: its one whole-buffer store, of the payload of the inputs. -/
def out2_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA2, k2_pay8 (View.ld x0 rA2) (View.ld x1 rA2) (View.ld x2 rA2) (View.ld x5 rA2) (View.ld x6 rA2)⟩]
def out2_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA2, k2_pay1 (k2_pay4 (View.ld x2 rA2)) (k2_pay6 (View.ld x1 rA2) (View.ld x2 rA2) (View.ld x3 rB2) (View.ld x6 rA2) (View.ld x7 rB2))⟩]
def out2_10 (x2 : Vec F S1024x1024 .f32) (x3 : Vec F S1024x512 .f32) (x4 : Vec F S1024x512 .f32) (x7 : Vec F S1024x512 .f32) : Vec F S1024x512 .f32 :=
  View.canon [⟨rB2, k2_pay2 (k2_pay5 (View.ld x3 rB2)) (k2_pay7 (View.ld x2 rA2) (View.ld x3 rB2) (View.ld x4 rB2) (View.ld x7 rB2))⟩]

set_option maxHeartbeats 4000000 in
/-- The body on whole buffers: the inputs' read and kept, each output's left at `out2_w` of the inputs'. -/
theorem sound_kernel2 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out2_8 x0 x1 x2 x5 x6) ∗ owns (c : Thread nD τ) arg9 fullShare (out2_9 x1 x2 x3 x6 x7) ∗ owns (c : Thread nD τ) arg10 fullShare (out2_10 x2 x3 x4 x7)) -∗ K ⟨⟩))
      ⊢ wp frame (wpE (defs₀ (F := F)) Variants.none c none) E (cc2__state_update_kernel arg0 harg0 arg1 harg1 arg2 harg2 arg3 harg3 arg4 harg4 arg5 harg5 arg6 harg6 arg7 harg7 arg8 harg8 arg9 harg9 arg10 harg10) K := by
  simp only [cc2__state_update_kernel_eq_skeleton]; unfold cc2__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA2 _)
  isplitl [H9]
  · iexists _; isplitr
    swap; · iexact H9
    ipureintro
    exact View.read_writes_eq_canon _ _ _ (coverA2 _)
  iexists _; isplitr
  swap; · iexact H10
  ipureintro
  exact View.read_writes_eq_canon _ _ _ (coverB2 _)

/-- The proof data of pipeline 2: the arrays as the region finds them; after the body each input's buffer at its
    block and each output's at the body's result; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 5 t) (iblk2 V c 6 t)
    | ⟨9, _⟩ => out2_9 (iblk2 V c 1 t) (iblk2 V c 2 t) (iblk2 V c 3 t) (iblk2 V c 6 t) (iblk2 V c 7 t)
    | ⟨10, _⟩ => out2_10 (iblk2 V c 2 t) (iblk2 V c 3 t) (iblk2 V c 4 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 5 t) (iblk2 V c 6 t) := by dsimp only [dat2]
theorem after2_9 (c : Dev nD) (t : Fin cfg2.N) : (dat2 V c).after 9 t = out2_9 (iblk2 V c 1 t) (iblk2 V c 2 t) (iblk2 V c 3 t) (iblk2 V c 6 t) (iblk2 V c 7 t) := by dsimp only [dat2]
theorem after2_10 (c : Dev nD) (t : Fin cfg2.N) : (dat2 V c).after 10 t = out2_10 (iblk2 V c 2 t) (iblk2 V c 3 t) (iblk2 V c 4 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at the point, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.KBRegion1.lean ====
/-
  Region 1 of @main: the first relaxation step, whose state gradients also flow back along the chain
  (`g2 += g3·W2ᵀ`, `g1 += g2·W1ᵀ`), each state then moved by half its gradient; one gridless kernel over whole arrays.
  Stated at a parameter `V`, the buffers' contents when the region is entered, and at any float instance:
  what each output buffer holds after the body (`out1_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rA1 : Rect S1024x1024 := Rect.unit (s := S1024x1024) ![0, 0] S1024x1024.size inb_S1024x1024_S1024x1024_0_0
abbrev rB1 : Rect S1024x512 := Rect.unit (s := S1024x512) ![0, 0] S1024x512.size inb_S1024x512_S1024x512_0_0

/-- One whole-buffer store covers its buffer. -/
theorem coverA1 (p0 : Vec F S1024x1024 .f32) (y : S1024x1024.Idx) :
    ∃ pc ∈ ([⟨rA1, p0⟩] : List (View.Piece (Elt F) S1024x1024 .f32)), y ∈ pc.1.set :=
  View.cover_of_tiled [⟨rA1, p0⟩] S1024x1024.size (by rfl) y
theorem coverB1 (p0 : Vec F S1024x512 .f32) (y : S1024x512.Idx) :
    ∃ pc ∈ ([⟨rB1, p0⟩] : List (View.Piece (Elt F) S1024x512 .f32)), y ∈ pc.1.set :=
  View.cover_of_tiled [⟨rB1, p0⟩] S1024x512.size (by rfl) y

/-- What the body leaves in each output buffer: its one whole-buffer store, of the payload of the inputs. -/
def out1_8 (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) : Vec F S1024x1024 .f32 :=
  View.canon [⟨rA1, k1_pay1 (k1_pay4 (View.ld x1 rA1)) (k1_pay9 (View.ld x0 rA1) (View.ld x1 rA1) (View.ld x2 rA1) (View.ld x3 rB1) (View.ld x4 rB1) (View.ld x5 rA1) (View.ld x6 rA1) (View.ld x7 rB1)) (Scalar.ofBits .f32 0x3F000000#32)⟩]
def out1_9 (x1 : Vec F S1024x1024 .f32) (x2 : Vec F S1024x1024 .f32) (x3 : Vec F S1024x512 .f32) (x4 : Vec F S1024x512 .f32) (x6 : Vec F S1024x1024 .f32) (x7 : Vec F S1024x512 .f32) : Vec F S1024x1024 .f32 :=
  View.canon [⟨rA1, k1_pay2 (k1_pay5 (View.ld x2 rA1)) (k1_pay8 (View.ld x1 rA1) (View.ld x2 rA1) (View.ld x3 rB1) (View.ld x4 rB1) (View.ld x6 rA1) (View.ld x7 rB1))⟩]
def out1_10 (x2 : Vec F S1024x1024 .f32) (x3 : Vec F S1024x512 .f32) (x4 : Vec F S1024x512 .f32) (x7 : Vec F S1024x512 .f32) : Vec F S1024x512 .f32 :=
  View.canon [⟨rB1, k1_pay3 (k1_pay6 (View.ld x3 rB1)) (k1_pay7 (View.ld x2 rA1) (View.ld x3 rB1) (View.ld x4 rB1) (View.ld x7 rB1))⟩]

set_option maxHeartbeats 4000000 in
/-- The body on whole buffers: the inputs' read and kept, each output's left at `out1_w` of the inputs'. -/
theorem sound_kernel1 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_8 x0 x1 x2 x3 x4 x5 x6 x7) ∗ owns (c : Thread nD τ) arg9 fullShare (out1_9 x1 x2 x3 x4 x6 x7) ∗ owns (c : Thread nD τ) arg10 fullShare (out1_10 x2 x3 x4 x7)) -∗ K ⟨⟩))
      ⊢ wp frame (wpE (defs₀ (F := F)) Variants.none c none) E (cc1__state_update_kernel arg0 harg0 arg1 harg1 arg2 harg2 arg3 harg3 arg4 harg4 arg5 harg5 arg6 harg6 arg7 harg7 arg8 harg8 arg9 harg9 arg10 harg10) K := by
  simp only [cc1__state_update_kernel_eq_skeleton]; unfold cc1__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA1 _)
  isplitl [H9]
  · iexists _; isplitr
    swap; · iexact H9
    ipureintro
    exact View.read_writes_eq_canon _ _ _ (coverA1 _)
  iexists _; isplitr
  swap; · iexact H10
  ipureintro
  exact View.read_writes_eq_canon _ _ _ (coverB1 _)

/-- The proof data of pipeline 1: the arrays as the region finds them; after the body each input's buffer at its
    block and each output's at the body's result; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 1 t) (iblk1 V c 2 t) (iblk1 V c 3 t) (iblk1 V c 4 t) (iblk1 V c 6 t) (iblk1 V c 7 t)
    | ⟨10, _⟩ => out1_10 (iblk1 V c 2 t) (iblk1 V c 3 t) (iblk1 V c 4 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 1 t) (iblk1 V c 2 t) (iblk1 V c 3 t) (iblk1 V c 4 t) (iblk1 V c 6 t) (iblk1 V c 7 t) := by dsimp only [dat1]
theorem after1_10 (c : Dev nD) (t : Fin cfg1.N) : (dat1 V c).after 10 t = out1_10 (iblk1 V c 2 t) (iblk1 V c 3 t) (iblk1 V c 4 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at the point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.KBRegion0.lean ====
/-
  Region 0 of @main: the forward chain `s1 = x·W0, s2 = s1·W1, s3 = s2·W2` in one gridless kernel over whole arrays.
  Stated at a parameter `V`, the buffers' contents when the region is entered, and at any float instance:
  what each output buffer holds after the body (`out0_w`: the body's one whole-buffer store, of a payload of the
  input buffers), the body's triple, the proof data naming those contents, and the body obligation.
-/
import proofs.«107956_j75110388073098_1_alg».proof.Proof.Gen.Kernel.Launch
import proofs.«107956_j75110388073098_1_alg».proof.Proof.Gen.Kernel.Skeleton
import proofs.«107956_j75110388073098_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA0 : Rect S1024x1024 := Rect.unit (s := S1024x1024) ![0, 0] S1024x1024.size inb_S1024x1024_S1024x1024_0_0
abbrev rB0 : Rect S1024x512 := Rect.unit (s := S1024x512) ![0, 0] S1024x512.size inb_S1024x512_S1024x512_0_0

/-- One whole-buffer store covers its buffer. -/
theorem coverA0 (p0 : Vec F S1024x1024 .f32) (y : S1024x1024.Idx) :
    ∃ pc ∈ ([⟨rA0, p0⟩] : List (View.Piece (Elt F) S1024x1024 .f32)), y ∈ pc.1.set :=
  View.cover_of_tiled [⟨rA0, p0⟩] S1024x1024.size (by rfl) y
theorem coverB0 (p0 : Vec F S1024x512 .f32) (y : S1024x512.Idx) :
    ∃ pc ∈ ([⟨rB0, p0⟩] : List (View.Piece (Elt F) S1024x512 .f32)), y ∈ pc.1.set :=
  View.cover_of_tiled [⟨rB0, p0⟩] S1024x512.size (by rfl) y

/-- What the body leaves in each output buffer: its one whole-buffer store, of the payload of the inputs. -/
def out0_4 (x0 : Vec F S1024x1024 .f32) (x1 : Vec F S1024x1024 .f32) : Vec F S1024x1024 .f32 :=
  View.canon [⟨rA0, k0_pay1 (View.ld x0 rA0) (View.ld x1 rA0)⟩]
def out0_5 (x0 : Vec F S1024x1024 .f32) (x1 : Vec F S1024x1024 .f32) (x2 : Vec F S1024x1024 .f32) : Vec F S1024x1024 .f32 :=
  View.canon [⟨rA0, k0_pay2 (View.ld x0 rA0) (View.ld x1 rA0) (View.ld x2 rA0)⟩]
def out0_6 (x0 : Vec F S1024x1024 .f32) (x1 : Vec F S1024x1024 .f32) (x2 : Vec F S1024x1024 .f32) (x3 : Vec F S1024x512 .f32) : Vec F S1024x512 .f32 :=
  View.canon [⟨rB0, k0_pay3 (View.ld x0 rA0) (View.ld x1 rA0) (View.ld x2 rA0) (View.ld x3 rB0)⟩]

set_option maxHeartbeats 4000000 in
/-- The body on whole buffers: the inputs' read and kept, each output's left at `out0_w` of the inputs'. -/
theorem sound_kernel0 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x512 .f32) (harg6 : arg6.IsWhole)
    (x0 : Vec F S1024x1024 .f32) (x1 : Vec F S1024x1024 .f32) (x2 : Vec F S1024x1024 .f32) (x3 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out0_4 x0 x1) ∗ owns (c : Thread nD τ) arg5 fullShare (out0_5 x0 x1 x2) ∗ owns (c : Thread nD τ) arg6 fullShare (out0_6 x0 x1 x2 x3)) -∗ K ⟨⟩))
      ⊢ wp frame (wpE (defs₀ (F := F)) Variants.none c none) E (cc0__forward_kernel arg0 harg0 arg1 harg1 arg2 harg2 arg3 harg3 arg4 harg4 arg5 harg5 arg6 harg6) K := by
  simp only [cc0__forward_kernel_eq_skeleton]; unfold cc0__forward_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverA0 _)
  isplitl [H5]
  · iexists _; isplitr
    swap; · iexact H5
    ipureintro
    exact View.read_writes_eq_canon _ _ _ (coverA0 _)
  iexists _; isplitr
  swap; · iexact H6
  ipureintro
  exact View.read_writes_eq_canon _ _ _ (coverB0 _)

/-- The proof data of pipeline 0: the arrays as the region finds them; after the body each input's buffer at its
    block and each output's at the body's result; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at the region's point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.KBWalk0.lean ====
/-
  The buffers' contents around region 0: at the launch, and at the region's exit — its arrays at what its pipeline
  leaves, every other buffer untouched.
-/
import proofs.«107956_j75110388073098_1_alg».proof.Proof.KBRegion0

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev Wi0 : Dev nD → Valuation τ sig (Elt F) := fun c b => (s₀ m ρ).mem ((c : Dev nD), b)
theorem Wi0_main_arg0 (c : Dev nD) : Wi0 m ρ c (Proc.devRef .tc main_arg0) = m ((c : Thread nD τ).loc main_arg0) := rfl
theorem Wi0_main_arg1 (c : Dev nD) : Wi0 m ρ c (Proc.devRef .tc main_arg1) = m ((c : Thread nD τ).loc main_arg1) := rfl
theorem Wi0_main_arg2 (c : Dev nD) : Wi0 m ρ c (Proc.devRef .tc main_arg2) = m ((c : Thread nD τ).loc main_arg2) := rfl
theorem Wi0_main_arg3 (c : Dev nD) : Wi0 m ρ c (Proc.devRef .tc main_arg3) = m ((c : Thread nD τ).loc main_arg3) := rfl
theorem Wi0_main_arg4 (c : Dev nD) : Wi0 m ρ c (Proc.devRef .tc main_arg4) = m ((c : Thread nD τ).loc main_arg4) := rfl

/-- The same read at the TensorCore's references (what region 0's proof data take). -/
abbrev Vi0 : (c : Dev nD) → (b : Ref sig .tc) → Buf (Elt F) ((c : Thread nD τ).loc b) := fun c b => Wi0 m ρ c b

/-- At region 0's exit: its arrays at what the pipeline leaves (the inputs as entered, each output's write-back),
    every other buffer as entered. -/
def Wo0 (c : Dev nD) : Valuation τ sig (Elt F) :=
  Pipeline.withArrays spec0 c (Wi0 m ρ c) fun w => (dat0 (Vi0 m ρ) c).arrAt w cfg0.N
theorem Wo0_arr (c : Dev nD) (w : Fin cfg0.W) :
    Wo0 m ρ c (Proc.devRef .tc (Pipeline.arrRef spec0 w)) = (dat0 (Vi0 m ρ) c).arrAt w cfg0.N := by
  unfold Wo0; exact Pipeline.withArrays_arr spec0 launch0.win.arr_inj c _ _ w
theorem Wo0_of_ne (c : Dev nD) (b : Ref sig .tc) (hb : ∀ w, Pipeline.arrRef spec0 w ≠ b) :
    Wo0 m ρ c (Proc.devRef .tc b) = Wi0 m ρ c (Proc.devRef .tc b) := by
  unfold Wo0; exact Pipeline.withArrays_of_ne spec0 c _ _ b hb
/-- A buffer that is no OUTPUT window's array leaves the region as it entered it: an input window's array is only
    read, and a buffer outside the windows is not touched. -/
theorem Wo0_keep (c : Dev nD) (b : Ref sig .tc) (hb : ∀ w, (cfg0.win w).isOut = true → Pipeline.arrRef spec0 w ≠ b) :
    Wo0 m ρ c (Proc.devRef .tc b) = Wi0 m ρ c (Proc.devRef .tc b) := by
  by_cases h : ∃ w, Pipeline.arrRef spec0 w = b
  · obtain ⟨w, rfl⟩ := h
    have hin : (cfg0.win w).isOut = false := by
      cases hw : (cfg0.win w).isOut
      · rfl
      · exact absurd rfl (hb w hw)
    exact (Wo0_arr m ρ c w).trans (((dat0 (Vi0 m ρ) c).arrAt_in w hin _).trans (A_eq0 (Vi0 m ρ) c w))
  · exact Wo0_of_ne m ρ c b fun w e => h ⟨w, e⟩
/-- The same read at the TensorCore's references (region 0's exit contents). -/
abbrev Vo0 : (c : Dev nD) → (b : Ref sig .tc) → Buf (Elt F) ((c : Thread nD τ).loc b) := fun c b => Wo0 m ρ c b
theorem hF0 (c : Dev nD) (w : Fin cfg0.W) : (dat0 (Vi0 m ρ) c).arrAt w cfg0.N = Vo0 m ρ c (Pipeline.arrRef spec0 w) :=
  (Wo0_arr m ρ c w).symm
theorem hrest0 (c : Dev nD) : ∀ b, b ∉ Finset.univ.image (Pipeline.arrRef spec0) → Vo0 m ρ c b = Vi0 m ρ c b :=
  fun b hb => Wo0_of_ne m ρ c b fun w e => hb (Finset.mem_image.mpr ⟨w, Finset.mem_univ _, e⟩)

/-- The arguments leave the region as launched: no region writes one. -/
theorem Wo0_main_arg0 (c : Dev nD) : Wo0 m ρ c (Proc.devRef .tc main_arg0) = m ((c : Thread nD τ).loc main_arg0) :=
  (Wo0_keep m ρ c main_arg0 (by decide)).trans (Wi0_main_arg0 m ρ c)
theorem Wo0_main_arg1 (c : Dev nD) : Wo0 m ρ c (Proc.devRef .tc main_arg1) = m ((c : Thread nD τ).loc main_arg1) :=
  (Wo0_keep m ρ c main_arg1 (by decide)).trans (Wi0_main_arg1 m ρ c)
theorem Wo0_main_arg2 (c : Dev nD) : Wo0 m ρ c (Proc.devRef .tc main_arg2) = m ((c : Thread nD τ).loc main_arg2) :=
  (Wo0_keep m ρ c main_arg2 (by decide)).trans (Wi0_main_arg2 m ρ c)
theorem Wo0_main_arg3 (c : Dev nD) : Wo0 m ρ c (Proc.devRef .tc main_arg3) = m ((c : Thread nD τ).loc main_arg3) :=
  (Wo0_keep m ρ c main_arg3 (by decide)).trans (Wi0_main_arg3 m ρ c)
theorem Wo0_main_arg4 (c : Dev nD) : Wo0 m ρ c (Proc.devRef .tc main_arg4) = m ((c : Thread nD τ).loc main_arg4) :=
  (Wo0_keep m ρ c main_arg4 (by decide)).trans (Wi0_main_arg4 m ρ c)

end Cert.Kernel.Reg

end
-- ==== Proof.KBWalk1.lean ====
/-
  The buffers' contents around region 1: entered after the host stretch that computes the loss from region 0's exit
  contents; left with its arrays at what its pipeline leaves, every other buffer untouched.
-/
import proofs.«107956_j75110388073098_1_alg».proof.Proof.KBRegion1
import proofs.«107956_j75110388073098_1_alg».proof.Proof.KBWalk0
import proofs.«107956_j75110388073098_1_alg».proof.Proof.Gen.Kernel.Regions

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- After the host stretch between regions 0 and 1 (region 1's entry). -/
abbrev Wi1 : Dev nD → Valuation τ sig (Elt F) := fun c => StableHlo.after hostOps1 (Wo0 m ρ c)
/-- That stretch writes only its own results: any other buffer passes through it. -/
theorem Wi1_of (c : Dev nD) (r : Ref sig .tc) (h : r ∉ hostOps1_W) : Wi1 m ρ c (Proc.devRef .tc r) = Wo0 m ρ c (Proc.devRef .tc r) :=
  StableHlo.after_of_writes_sub hostOps1 _ hostOps1_writes h
theorem Wi1_main_arg0 (c : Dev nD) : Wi1 m ρ c (Proc.devRef .tc main_arg0) = m ((c : Thread nD τ).loc main_arg0) :=
  (Wi1_of m ρ c main_arg0 (by decide)).trans (Wo0_main_arg0 m ρ c)
theorem Wi1_main_arg1 (c : Dev nD) : Wi1 m ρ c (Proc.devRef .tc main_arg1) = m ((c : Thread nD τ).loc main_arg1) :=
  (Wi1_of m ρ c main_arg1 (by decide)).trans (Wo0_main_arg1 m ρ c)
theorem Wi1_main_arg2 (c : Dev nD) : Wi1 m ρ c (Proc.devRef .tc main_arg2) = m ((c : Thread nD τ).loc main_arg2) :=
  (Wi1_of m ρ c main_arg2 (by decide)).trans (Wo0_main_arg2 m ρ c)
theorem Wi1_main_arg3 (c : Dev nD) : Wi1 m ρ c (Proc.devRef .tc main_arg3) = m ((c : Thread nD τ).loc main_arg3) :=
  (Wi1_of m ρ c main_arg3 (by decide)).trans (Wo0_main_arg3 m ρ c)
theorem Wi1_main_arg4 (c : Dev nD) : Wi1 m ρ c (Proc.devRef .tc main_arg4) = m ((c : Thread nD τ).loc main_arg4) :=
  (Wi1_of m ρ c main_arg4 (by decide)).trans (Wo0_main_arg4 m ρ c)

/-- The same read at the TensorCore's references (what region 1's proof data take). -/
abbrev Vi1 : (c : Dev nD) → (b : Ref sig .tc) → Buf (Elt F) ((c : Thread nD τ).loc b) := fun c b => Wi1 m ρ c b

/-- At region 1's exit: its arrays at what the pipeline leaves (the inputs as entered, each output's write-back),
    every other buffer as entered. -/
def Wo1 (c : Dev nD) : Valuation τ sig (Elt F) :=
  Pipeline.withArrays spec1 c (Wi1 m ρ c) fun w => (dat1 (Vi1 m ρ) c).arrAt w cfg1.N
theorem Wo1_arr (c : Dev nD) (w : Fin cfg1.W) :
    Wo1 m ρ c (Proc.devRef .tc (Pipeline.arrRef spec1 w)) = (dat1 (Vi1 m ρ) c).arrAt w cfg1.N := by
  unfold Wo1; exact Pipeline.withArrays_arr spec1 launch1.win.arr_inj c _ _ w
theorem Wo1_of_ne (c : Dev nD) (b : Ref sig .tc) (hb : ∀ w, Pipeline.arrRef spec1 w ≠ b) :
    Wo1 m ρ c (Proc.devRef .tc b) = Wi1 m ρ c (Proc.devRef .tc b) := by
  unfold Wo1; exact Pipeline.withArrays_of_ne spec1 c _ _ b hb
/-- A buffer that is no OUTPUT window's array leaves the region as it entered it: an input window's array is only
    read, and a buffer outside the windows is not touched. -/
theorem Wo1_keep (c : Dev nD) (b : Ref sig .tc) (hb : ∀ w, (cfg1.win w).isOut = true → Pipeline.arrRef spec1 w ≠ b) :
    Wo1 m ρ c (Proc.devRef .tc b) = Wi1 m ρ c (Proc.devRef .tc b) := by
  by_cases h : ∃ w, Pipeline.arrRef spec1 w = b
  · obtain ⟨w, rfl⟩ := h
    have hin : (cfg1.win w).isOut = false := by
      cases hw : (cfg1.win w).isOut
      · rfl
      · exact absurd rfl (hb w hw)
    exact (Wo1_arr m ρ c w).trans (((dat1 (Vi1 m ρ) c).arrAt_in w hin _).trans (A_eq1 (Vi1 m ρ) c w))
  · exact Wo1_of_ne m ρ c b fun w e => h ⟨w, e⟩
/-- The same read at the TensorCore's references (region 1's exit contents). -/
abbrev Vo1 : (c : Dev nD) → (b : Ref sig .tc) → Buf (Elt F) ((c : Thread nD τ).loc b) := fun c b => Wo1 m ρ c b
theorem hF1 (c : Dev nD) (w : Fin cfg1.W) : (dat1 (Vi1 m ρ) c).arrAt w cfg1.N = Vo1 m ρ c (Pipeline.arrRef spec1 w) :=
  (Wo1_arr m ρ c w).symm
theorem hrest1 (c : Dev nD) : ∀ b, b ∉ Finset.univ.image (Pipeline.arrRef spec1) → Vo1 m ρ c b = Vi1 m ρ c b :=
  fun b hb => Wo1_of_ne m ρ c b fun w e => hb (Finset.mem_image.mpr ⟨w, Finset.mem_univ _, e⟩)

/-- The arguments leave the region as launched: no region writes one. -/
theorem Wo1_main_arg0 (c : Dev nD) : Wo1 m ρ c (Proc.devRef .tc main_arg0) = m ((c : Thread nD τ).loc main_arg0) :=
  (Wo1_keep m ρ c main_arg0 (by decide)).trans (Wi1_main_arg0 m ρ c)
theorem Wo1_main_arg1 (c : Dev nD) : Wo1 m ρ c (Proc.devRef .tc main_arg1) = m ((c : Thread nD τ).loc main_arg1) :=
  (Wo1_keep m ρ c main_arg1 (by decide)).trans (Wi1_main_arg1 m ρ c)
theorem Wo1_main_arg2 (c : Dev nD) : Wo1 m ρ c (Proc.devRef .tc main_arg2) = m ((c : Thread nD τ).loc main_arg2) :=
  (Wo1_keep m ρ c main_arg2 (by decide)).trans (Wi1_main_arg2 m ρ c)
theorem Wo1_main_arg3 (c : Dev nD) : Wo1 m ρ c (Proc.devRef .tc main_arg3) = m ((c : Thread nD τ).loc main_arg3) :=
  (Wo1_keep m ρ c main_arg3 (by decide)).trans (Wi1_main_arg3 m ρ c)
theorem Wo1_main_arg4 (c : Dev nD) : Wo1 m ρ c (Proc.devRef .tc main_arg4) = m ((c : Thread nD τ).loc main_arg4) :=
  (Wo1_keep m ρ c main_arg4 (by decide)).trans (Wi1_main_arg4 m ρ c)

end Cert.Kernel.Reg

end
-- ==== Proof.KBWalk2.lean ====
/-
  The buffers' contents around region 2: entered from region 1's exit contents; left with its arrays at what its
  pipeline leaves, every other buffer untouched.
-/
import proofs.«107956_j75110388073098_1_alg».proof.Proof.KBRegion2
import proofs.«107956_j75110388073098_1_alg».proof.Proof.KBWalk1

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 2 is entered from what region 1 left. -/
abbrev Wi2 : Dev nD → Valuation τ sig (Elt F) := Wo1 m ρ
theorem Wi2_main_arg0 (c : Dev nD) : Wi2 m ρ c (Proc.devRef .tc main_arg0) = m ((c : Thread nD τ).loc main_arg0) := Wo1_main_arg0 m ρ c
theorem Wi2_main_arg1 (c : Dev nD) : Wi2 m ρ c (Proc.devRef .tc main_arg1) = m ((c : Thread nD τ).loc main_arg1) := Wo1_main_arg1 m ρ c
theorem Wi2_main_arg2 (c : Dev nD) : Wi2 m ρ c (Proc.devRef .tc main_arg2) = m ((c : Thread nD τ).loc main_arg2) := Wo1_main_arg2 m ρ c
theorem Wi2_main_arg3 (c : Dev nD) : Wi2 m ρ c (Proc.devRef .tc main_arg3) = m ((c : Thread nD τ).loc main_arg3) := Wo1_main_arg3 m ρ c
theorem Wi2_main_arg4 (c : Dev nD) : Wi2 m ρ c (Proc.devRef .tc main_arg4) = m ((c : Thread nD τ).loc main_arg4) := Wo1_main_arg4 m ρ c

/-- The same read at the TensorCore's references (what region 2's proof data take). -/
abbrev Vi2 : (c : Dev nD) → (b : Ref sig .tc) → Buf (Elt F) ((c : Thread nD τ).loc b) := fun c b => Wi2 m ρ c b

/-- At region 2's exit: its arrays at what the pipeline leaves (the inputs as entered, each output's write-back),
    every other buffer as entered. -/
def Wo2 (c : Dev nD) : Valuation τ sig (Elt F) :=
  Pipeline.withArrays spec2 c (Wi2 m ρ c) fun w => (dat2 (Vi2 m ρ) c).arrAt w cfg2.N
theorem Wo2_arr (c : Dev nD) (w : Fin cfg2.W) :
    Wo2 m ρ c (Proc.devRef .tc (Pipeline.arrRef spec2 w)) = (dat2 (Vi2 m ρ) c).arrAt w cfg2.N := by
  unfold Wo2; exact Pipeline.withArrays_arr spec2 launch2.win.arr_inj c _ _ w
theorem Wo2_of_ne (c : Dev nD) (b : Ref sig .tc) (hb : ∀ w, Pipeline.arrRef spec2 w ≠ b) :
    Wo2 m ρ c (Proc.devRef .tc b) = Wi2 m ρ c (Proc.devRef .tc b) := by
  unfold Wo2; exact Pipeline.withArrays_of_ne spec2 c _ _ b hb
/-- A buffer that is no OUTPUT window's array leaves the region as it entered it: an input window's array is only
    read, and a buffer outside the windows is not touched. -/
theorem Wo2_keep (c : Dev nD) (b : Ref sig .tc) (hb : ∀ w, (cfg2.win w).isOut = true → Pipeline.arrRef spec2 w ≠ b) :
    Wo2 m ρ c (Proc.devRef .tc b) = Wi2 m ρ c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    exact (Wo2_arr m ρ c w).trans (((dat2 (Vi2 m ρ) c).arrAt_in w hin _).trans (A_eq2 (Vi2 m ρ) c w))
  · exact Wo2_of_ne m ρ c b fun w e => h ⟨w, e⟩
/-- The same read at the TensorCore's references (region 2's exit contents). -/
abbrev Vo2 : (c : Dev nD) → (b : Ref sig .tc) → Buf (Elt F) ((c : Thread nD τ).loc b) := fun c b => Wo2 m ρ c b
theorem hF2 (c : Dev nD) (w : Fin cfg2.W) : (dat2 (Vi2 m ρ) c).arrAt w cfg2.N = Vo2 m ρ c (Pipeline.arrRef spec2 w) :=
  (Wo2_arr m ρ c w).symm
theorem hrest2 (c : Dev nD) : ∀ b, b ∉ Finset.univ.image (Pipeline.arrRef spec2) → Vo2 m ρ c b = Vi2 m ρ c b :=
  fun b hb => Wo2_of_ne m ρ c b fun w e => hb (Finset.mem_image.mpr ⟨w, Finset.mem_univ _, e⟩)

/-- The arguments leave the region as launched: no region writes one. -/
theorem Wo2_main_arg0 (c : Dev nD) : Wo2 m ρ c (Proc.devRef .tc main_arg0) = m ((c : Thread nD τ).loc main_arg0) :=
  (Wo2_keep m ρ c main_arg0 (by decide)).trans (Wi2_main_arg0 m ρ c)
theorem Wo2_main_arg1 (c : Dev nD) : Wo2 m ρ c (Proc.devRef .tc main_arg1) = m ((c : Thread nD τ).loc main_arg1) :=
  (Wo2_keep m ρ c main_arg1 (by decide)).trans (Wi2_main_arg1 m ρ c)
theorem Wo2_main_arg2 (c : Dev nD) : Wo2 m ρ c (Proc.devRef .tc main_arg2) = m ((c : Thread nD τ).loc main_arg2) :=
  (Wo2_keep m ρ c main_arg2 (by decide)).trans (Wi2_main_arg2 m ρ c)
theorem Wo2_main_arg3 (c : Dev nD) : Wo2 m ρ c (Proc.devRef .tc main_arg3) = m ((c : Thread nD τ).loc main_arg3) :=
  (Wo2_keep m ρ c main_arg3 (by decide)).trans (Wi2_main_arg3 m ρ c)
theorem Wo2_main_arg4 (c : Dev nD) : Wo2 m ρ c (Proc.devRef .tc main_arg4) = m ((c : Thread nD τ).loc main_arg4) :=
  (Wo2_keep m ρ c main_arg4 (by decide)).trans (Wi2_main_arg4 m ρ c)

end Cert.Kernel.Reg

end
-- ==== Proof.KBWalk3.lean ====
/-
  The buffers' contents around region 3: entered from region 2's exit contents; left with its arrays at what its
  pipeline leaves, every other buffer untouched.
-/
import proofs.«107956_j75110388073098_1_alg».proof.Proof.KBRegion3
import proofs.«107956_j75110388073098_1_alg».proof.Proof.KBWalk2

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 3 is entered from what region 2 left. -/
abbrev Wi3 : Dev nD → Valuation τ sig (Elt F) := Wo2 m ρ
theorem Wi3_main_arg0 (c : Dev nD) : Wi3 m ρ c (Proc.devRef .tc main_arg0) = m ((c : Thread nD τ).loc main_arg0) := Wo2_main_arg0 m ρ c
theorem Wi3_main_arg1 (c : Dev nD) : Wi3 m ρ c (Proc.devRef .tc main_arg1) = m ((c : Thread nD τ).loc main_arg1) := Wo2_main_arg1 m ρ c
theorem Wi3_main_arg2 (c : Dev nD) : Wi3 m ρ c (Proc.devRef .tc main_arg2) = m ((c : Thread nD τ).loc main_arg2) := Wo2_main_arg2 m ρ c
theorem Wi3_main_arg3 (c : Dev nD) : Wi3 m ρ c (Proc.devRef .tc main_arg3) = m ((c : Thread nD τ).loc main_arg3) := Wo2_main_arg3 m ρ c
theorem Wi3_main_arg4 (c : Dev nD) : Wi3 m ρ c (Proc.devRef .tc main_arg4) = m ((c : Thread nD τ).loc main_arg4) := Wo2_main_arg4 m ρ c

/-- The same read at the TensorCore's references (what region 3's proof data take). -/
abbrev Vi3 : (c : Dev nD) → (b : Ref sig .tc) → Buf (Elt F) ((c : Thread nD τ).loc b) := fun c b => Wi3 m ρ c b

/-- At region 3's exit: its arrays at what the pipeline leaves (the inputs as entered, each output's write-back),
    every other buffer as entered. -/
def Wo3 (c : Dev nD) : Valuation τ sig (Elt F) :=
  Pipeline.withArrays spec3 c (Wi3 m ρ c) fun w => (dat3 (Vi3 m ρ) c).arrAt w cfg3.N
theorem Wo3_arr (c : Dev nD) (w : Fin cfg3.W) :
    Wo3 m ρ c (Proc.devRef .tc (Pipeline.arrRef spec3 w)) = (dat3 (Vi3 m ρ) c).arrAt w cfg3.N := by
  unfold Wo3; exact Pipeline.withArrays_arr spec3 launch3.win.arr_inj c _ _ w
theorem Wo3_of_ne (c : Dev nD) (b : Ref sig .tc) (hb : ∀ w, Pipeline.arrRef spec3 w ≠ b) :
    Wo3 m ρ c (Proc.devRef .tc b) = Wi3 m ρ c (Proc.devRef .tc b) := by
  unfold Wo3; exact Pipeline.withArrays_of_ne spec3 c _ _ b hb
/-- A buffer that is no OUTPUT window's array leaves the region as it entered it: an input window's array is only
    read, and a buffer outside the windows is not touched. -/
theorem Wo3_keep (c : Dev nD) (b : Ref sig .tc) (hb : ∀ w, (cfg3.win w).isOut = true → Pipeline.arrRef spec3 w ≠ b) :
    Wo3 m ρ c (Proc.devRef .tc b) = Wi3 m ρ c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    exact (Wo3_arr m ρ c w).trans (((dat3 (Vi3 m ρ) c).arrAt_in w hin _).trans (A_eq3 (Vi3 m ρ) c w))
  · exact Wo3_of_ne m ρ c b fun w e => h ⟨w, e⟩
/-- The same read at the TensorCore's references (region 3's exit contents). -/
abbrev Vo3 : (c : Dev nD) → (b : Ref sig .tc) → Buf (Elt F) ((c : Thread nD τ).loc b) := fun c b => Wo3 m ρ c b
theorem hF3 (c : Dev nD) (w : Fin cfg3.W) : (dat3 (Vi3 m ρ) c).arrAt w cfg3.N = Vo3 m ρ c (Pipeline.arrRef spec3 w) :=
  (Wo3_arr m ρ c w).symm
theorem hrest3 (c : Dev nD) : ∀ b, b ∉ Finset.univ.image (Pipeline.arrRef spec3) → Vo3 m ρ c b = Vi3 m ρ c b :=
  fun b hb => Wo3_of_ne m ρ c b fun w e => hb (Finset.mem_image.mpr ⟨w, Finset.mem_univ _, e⟩)

/-- The arguments leave the region as launched: no region writes one. -/
theorem Wo3_main_arg0 (c : Dev nD) : Wo3 m ρ c (Proc.devRef .tc main_arg0) = m ((c : Thread nD τ).loc main_arg0) :=
  (Wo3_keep m ρ c main_arg0 (by decide)).trans (Wi3_main_arg0 m ρ c)
theorem Wo3_main_arg1 (c : Dev nD) : Wo3 m ρ c (Proc.devRef .tc main_arg1) = m ((c : Thread nD τ).loc main_arg1) :=
  (Wo3_keep m ρ c main_arg1 (by decide)).trans (Wi3_main_arg1 m ρ c)
theorem Wo3_main_arg2 (c : Dev nD) : Wo3 m ρ c (Proc.devRef .tc main_arg2) = m ((c : Thread nD τ).loc main_arg2) :=
  (Wo3_keep m ρ c main_arg2 (by decide)).trans (Wi3_main_arg2 m ρ c)
theorem Wo3_main_arg3 (c : Dev nD) : Wo3 m ρ c (Proc.devRef .tc main_arg3) = m ((c : Thread nD τ).loc main_arg3) :=
  (Wo3_keep m ρ c main_arg3 (by decide)).trans (Wi3_main_arg3 m ρ c)
theorem Wo3_main_arg4 (c : Dev nD) : Wo3 m ρ c (Proc.devRef .tc main_arg4) = m ((c : Thread nD τ).loc main_arg4) :=
  (Wo3_keep m ρ c main_arg4 (by decide)).trans (Wi3_main_arg4 m ρ c)

end Cert.Kernel.Reg

end
-- ==== Proof.KBWalk4.lean ====
/-
  The buffers' contents around region 4: entered from region 3's exit contents; left with its arrays at what its
  pipeline leaves, every other buffer untouched.
-/
import proofs.«107956_j75110388073098_1_alg».proof.Proof.KBRegion4
import proofs.«107956_j75110388073098_1_alg».proof.Proof.KBWalk3

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 4 is entered from what region 3 left. -/
abbrev Wi4 : Dev nD → Valuation τ sig (Elt F) := Wo3 m ρ
theorem Wi4_main_arg0 (c : Dev nD) : Wi4 m ρ c (Proc.devRef .tc main_arg0) = m ((c : Thread nD τ).loc main_arg0) := Wo3_main_arg0 m ρ c
theorem Wi4_main_arg1 (c : Dev nD) : Wi4 m ρ c (Proc.devRef .tc main_arg1) = m ((c : Thread nD τ).loc main_arg1) := Wo3_main_arg1 m ρ c
theorem Wi4_main_arg2 (c : Dev nD) : Wi4 m ρ c (Proc.devRef .tc main_arg2) = m ((c : Thread nD τ).loc main_arg2) := Wo3_main_arg2 m ρ c
theorem Wi4_main_arg3 (c : Dev nD) : Wi4 m ρ c (Proc.devRef .tc main_arg3) = m ((c : Thread nD τ).loc main_arg3) := Wo3_main_arg3 m ρ c
theorem Wi4_main_arg4 (c : Dev nD) : Wi4 m ρ c (Proc.devRef .tc main_arg4) = m ((c : Thread nD τ).loc main_arg4) := Wo3_main_arg4 m ρ c

/-- The same read at the TensorCore's references (what region 4's proof data take). -/
abbrev Vi4 : (c : Dev nD) → (b : Ref sig .tc) → Buf (Elt F) ((c : Thread nD τ).loc b) := fun c b => Wi4 m ρ c b

/-- At region 4's exit: its arrays at what the pipeline leaves (the inputs as entered, each output's write-back),
    every other buffer as entered. -/
def Wo4 (c : Dev nD) : Valuation τ sig (Elt F) :=
  Pipeline.withArrays spec4 c (Wi4 m ρ c) fun w => (dat4 (Vi4 m ρ) c).arrAt w cfg4.N
theorem Wo4_arr (c : Dev nD) (w : Fin cfg4.W) :
    Wo4 m ρ c (Proc.devRef .tc (Pipeline.arrRef spec4 w)) = (dat4 (Vi4 m ρ) c).arrAt w cfg4.N := by
  unfold Wo4; exact Pipeline.withArrays_arr spec4 launch4.win.arr_inj c _ _ w
theorem Wo4_of_ne (c : Dev nD) (b : Ref sig .tc) (hb : ∀ w, Pipeline.arrRef spec4 w ≠ b) :
    Wo4 m ρ c (Proc.devRef .tc b) = Wi4 m ρ c (Proc.devRef .tc b) := by
  unfold Wo4; exact Pipeline.withArrays_of_ne spec4 c _ _ b hb
/-- A buffer that is no OUTPUT window's array leaves the region as it entered it: an input window's array is only
    read, and a buffer outside the windows is not touched. -/
theorem Wo4_keep (c : Dev nD) (b : Ref sig .tc) (hb : ∀ w, (cfg4.win w).isOut = true → Pipeline.arrRef spec4 w ≠ b) :
    Wo4 m ρ c (Proc.devRef .tc b) = Wi4 m ρ c (Proc.devRef .tc b) := by
  by_cases h : ∃ w, Pipeline.arrRef spec4 w = b
  · obtain ⟨w, rfl⟩ := h
    have hin : (cfg4.win w).isOut = false := by
      cases hw : (cfg4.win w).isOut
      · rfl
      · exact absurd rfl (hb w hw)
    exact (Wo4_arr m ρ c w).trans (((dat4 (Vi4 m ρ) c).arrAt_in w hin _).trans (A_eq4 (Vi4 m ρ) c w))
  · exact Wo4_of_ne m ρ c b fun w e => h ⟨w, e⟩
/-- The same read at the TensorCore's references (region 4's exit contents). -/
abbrev Vo4 : (c : Dev nD) → (b : Ref sig .tc) → Buf (Elt F) ((c : Thread nD τ).loc b) := fun c b => Wo4 m ρ c b
theorem hF4 (c : Dev nD) (w : Fin cfg4.W) : (dat4 (Vi4 m ρ) c).arrAt w cfg4.N = Vo4 m ρ c (Pipeline.arrRef spec4 w) :=
  (Wo4_arr m ρ c w).symm
theorem hrest4 (c : Dev nD) : ∀ b, b ∉ Finset.univ.image (Pipeline.arrRef spec4) → Vo4 m ρ c b = Vi4 m ρ c b :=
  fun b hb => Wo4_of_ne m ρ c b fun w e => hb (Finset.mem_image.mpr ⟨w, Finset.mem_univ _, e⟩)

/-- The arguments leave the region as launched: no region writes one. -/
theorem Wo4_main_arg0 (c : Dev nD) : Wo4 m ρ c (Proc.devRef .tc main_arg0) = m ((c : Thread nD τ).loc main_arg0) :=
  (Wo4_keep m ρ c main_arg0 (by decide)).trans (Wi4_main_arg0 m ρ c)
theorem Wo4_main_arg1 (c : Dev nD) : Wo4 m ρ c (Proc.devRef .tc main_arg1) = m ((c : Thread nD τ).loc main_arg1) :=
  (Wo4_keep m ρ c main_arg1 (by decide)).trans (Wi4_main_arg1 m ρ c)
theorem Wo4_main_arg2 (c : Dev nD) : Wo4 m ρ c (Proc.devRef .tc main_arg2) = m ((c : Thread nD τ).loc main_arg2) :=
  (Wo4_keep m ρ c main_arg2 (by decide)).trans (Wi4_main_arg2 m ρ c)
theorem Wo4_main_arg3 (c : Dev nD) : Wo4 m ρ c (Proc.devRef .tc main_arg3) = m ((c : Thread nD τ).loc main_arg3) :=
  (Wo4_keep m ρ c main_arg3 (by decide)).trans (Wi4_main_arg3 m ρ c)
theorem Wo4_main_arg4 (c : Dev nD) : Wo4 m ρ c (Proc.devRef .tc main_arg4) = m ((c : Thread nD τ).loc main_arg4) :=
  (Wo4_keep m ρ c main_arg4 (by decide)).trans (Wi4_main_arg4 m ρ c)

end Cert.Kernel.Reg

end
-- ==== Proof.KBWalk5.lean ====
/-
  The buffers' contents around region 5: entered from region 4's exit contents; left with its arrays at what its
  pipeline leaves, every other buffer untouched.
-/
import proofs.«107956_j75110388073098_1_alg».proof.Proof.KBRegion5
import proofs.«107956_j75110388073098_1_alg».proof.Proof.KBWalk4

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 5 is entered from what region 4 left. -/
abbrev Wi5 : Dev nD → Valuation τ sig (Elt F) := Wo4 m ρ
theorem Wi5_main_arg0 (c : Dev nD) : Wi5 m ρ c (Proc.devRef .tc main_arg0) = m ((c : Thread nD τ).loc main_arg0) := Wo4_main_arg0 m ρ c
theorem Wi5_main_arg1 (c : Dev nD) : Wi5 m ρ c (Proc.devRef .tc main_arg1) = m ((c : Thread nD τ).loc main_arg1) := Wo4_main_arg1 m ρ c
theorem Wi5_main_arg2 (c : Dev nD) : Wi5 m ρ c (Proc.devRef .tc main_arg2) = m ((c : Thread nD τ).loc main_arg2) := Wo4_main_arg2 m ρ c
theorem Wi5_main_arg3 (c : Dev nD) : Wi5 m ρ c (Proc.devRef .tc main_arg3) = m ((c : Thread nD τ).loc main_arg3) := Wo4_main_arg3 m ρ c
theorem Wi5_main_arg4 (c : Dev nD) : Wi5 m ρ c (Proc.devRef .tc main_arg4) = m ((c : Thread nD τ).loc main_arg4) := Wo4_main_arg4 m ρ c

/-- The same read at the TensorCore's references (what region 5's proof data take). -/
abbrev Vi5 : (c : Dev nD) → (b : Ref sig .tc) → Buf (Elt F) ((c : Thread nD τ).loc b) := fun c b => Wi5 m ρ c b

/-- At region 5's exit: its arrays at what the pipeline leaves (the inputs as entered, each output's write-back),
    every other buffer as entered. -/
def Wo5 (c : Dev nD) : Valuation τ sig (Elt F) :=
  Pipeline.withArrays spec5 c (Wi5 m ρ c) fun w => (dat5 (Vi5 m ρ) c).arrAt w cfg5.N
theorem Wo5_arr (c : Dev nD) (w : Fin cfg5.W) :
    Wo5 m ρ c (Proc.devRef .tc (Pipeline.arrRef spec5 w)) = (dat5 (Vi5 m ρ) c).arrAt w cfg5.N := by
  unfold Wo5; exact Pipeline.withArrays_arr spec5 launch5.win.arr_inj c _ _ w
theorem Wo5_of_ne (c : Dev nD) (b : Ref sig .tc) (hb : ∀ w, Pipeline.arrRef spec5 w ≠ b) :
    Wo5 m ρ c (Proc.devRef .tc b) = Wi5 m ρ c (Proc.devRef .tc b) := by
  unfold Wo5; exact Pipeline.withArrays_of_ne spec5 c _ _ b hb
/-- A buffer that is no OUTPUT window's array leaves the region as it entered it: an input window's array is only
    read, and a buffer outside the windows is not touched. -/
theorem Wo5_keep (c : Dev nD) (b : Ref sig .tc) (hb : ∀ w, (cfg5.win w).isOut = true → Pipeline.arrRef spec5 w ≠ b) :
    Wo5 m ρ c (Proc.devRef .tc b) = Wi5 m ρ c (Proc.devRef .tc b) := by
  by_cases h : ∃ w, Pipeline.arrRef spec5 w = b
  · obtain ⟨w, rfl⟩ := h
    have hin : (cfg5.win w).isOut = false := by
      cases hw : (cfg5.win w).isOut
      · rfl
      · exact absurd rfl (hb w hw)
    exact (Wo5_arr m ρ c w).trans (((dat5 (Vi5 m ρ) c).arrAt_in w hin _).trans (A_eq5 (Vi5 m ρ) c w))
  · exact Wo5_of_ne m ρ c b fun w e => h ⟨w, e⟩
/-- The same read at the TensorCore's references (region 5's exit contents). -/
abbrev Vo5 : (c : Dev nD) → (b : Ref sig .tc) → Buf (Elt F) ((c : Thread nD τ).loc b) := fun c b => Wo5 m ρ c b
theorem hF5 (c : Dev nD) (w : Fin cfg5.W) : (dat5 (Vi5 m ρ) c).arrAt w cfg5.N = Vo5 m ρ c (Pipeline.arrRef spec5 w) :=
  (Wo5_arr m ρ c w).symm
theorem hrest5 (c : Dev nD) : ∀ b, b ∉ Finset.univ.image (Pipeline.arrRef spec5) → Vo5 m ρ c b = Vi5 m ρ c b :=
  fun b hb => Wo5_of_ne m ρ c b fun w e => hb (Finset.mem_image.mpr ⟨w, Finset.mem_univ _, e⟩)

/-- The arguments leave the region as launched: no region writes one. -/
theorem Wo5_main_arg0 (c : Dev nD) : Wo5 m ρ c (Proc.devRef .tc main_arg0) = m ((c : Thread nD τ).loc main_arg0) :=
  (Wo5_keep m ρ c main_arg0 (by decide)).trans (Wi5_main_arg0 m ρ c)
theorem Wo5_main_arg1 (c : Dev nD) : Wo5 m ρ c (Proc.devRef .tc main_arg1) = m ((c : Thread nD τ).loc main_arg1) :=
  (Wo5_keep m ρ c main_arg1 (by decide)).trans (Wi5_main_arg1 m ρ c)
theorem Wo5_main_arg2 (c : Dev nD) : Wo5 m ρ c (Proc.devRef .tc main_arg2) = m ((c : Thread nD τ).loc main_arg2) :=
  (Wo5_keep m ρ c main_arg2 (by decide)).trans (Wi5_main_arg2 m ρ c)
theorem Wo5_main_arg3 (c : Dev nD) : Wo5 m ρ c (Proc.devRef .tc main_arg3) = m ((c : Thread nD τ).loc main_arg3) :=
  (Wo5_keep m ρ c main_arg3 (by decide)).trans (Wi5_main_arg3 m ρ c)
theorem Wo5_main_arg4 (c : Dev nD) : Wo5 m ρ c (Proc.devRef .tc main_arg4) = m ((c : Thread nD τ).loc main_arg4) :=
  (Wo5_keep m ρ c main_arg4 (by decide)).trans (Wi5_main_arg4 m ρ c)

end Cert.Kernel.Reg

end
-- ==== Proof.KBWalk6.lean ====
/-
  The buffers' contents around region 6: entered from region 5's exit contents; left with its arrays at what its
  pipeline leaves, every other buffer untouched.
-/
import proofs.«107956_j75110388073098_1_alg».proof.Proof.KBRegion6
import proofs.«107956_j75110388073098_1_alg».proof.Proof.KBWalk5

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 6 is entered from what region 5 left. -/
abbrev Wi6 : Dev nD → Valuation τ sig (Elt F) := Wo5 m ρ
theorem Wi6_main_arg0 (c : Dev nD) : Wi6 m ρ c (Proc.devRef .tc main_arg0) = m ((c : Thread nD τ).loc main_arg0) := Wo5_main_arg0 m ρ c
theorem Wi6_main_arg1 (c : Dev nD) : Wi6 m ρ c (Proc.devRef .tc main_arg1) = m ((c : Thread nD τ).loc main_arg1) := Wo5_main_arg1 m ρ c
theorem Wi6_main_arg2 (c : Dev nD) : Wi6 m ρ c (Proc.devRef .tc main_arg2) = m ((c : Thread nD τ).loc main_arg2) := Wo5_main_arg2 m ρ c
theorem Wi6_main_arg3 (c : Dev nD) : Wi6 m ρ c (Proc.devRef .tc main_arg3) = m ((c : Thread nD τ).loc main_arg3) := Wo5_main_arg3 m ρ c
theorem Wi6_main_arg4 (c : Dev nD) : Wi6 m ρ c (Proc.devRef .tc main_arg4) = m ((c : Thread nD τ).loc main_arg4) := Wo5_main_arg4 m ρ c

/-- The same read at the TensorCore's references (what region 6's proof data take). -/
abbrev Vi6 : (c : Dev nD) → (b : Ref sig .tc) → Buf (Elt F) ((c : Thread nD τ).loc b) := fun c b => Wi6 m ρ c b

/-- At region 6's exit: its arrays at what the pipeline leaves (the inputs as entered, each output's write-back),
    every other buffer as entered. -/
def Wo6 (c : Dev nD) : Valuation τ sig (Elt F) :=
  Pipeline.withArrays spec6 c (Wi6 m ρ c) fun w => (dat6 (Vi6 m ρ) c).arrAt w cfg6.N
theorem Wo6_arr (c : Dev nD) (w : Fin cfg6.W) :
    Wo6 m ρ c (Proc.devRef .tc (Pipeline.arrRef spec6 w)) = (dat6 (Vi6 m ρ) c).arrAt w cfg6.N := by
  unfold Wo6; exact Pipeline.withArrays_arr spec6 launch6.win.arr_inj c _ _ w
theorem Wo6_of_ne (c : Dev nD) (b : Ref sig .tc) (hb : ∀ w, Pipeline.arrRef spec6 w ≠ b) :
    Wo6 m ρ c (Proc.devRef .tc b) = Wi6 m ρ c (Proc.devRef .tc b) := by
  unfold Wo6; exact Pipeline.withArrays_of_ne spec6 c _ _ b hb
/-- A buffer that is no OUTPUT window's array leaves the region as it entered it: an input window's array is only
    read, and a buffer outside the windows is not touched. -/
theorem Wo6_keep (c : Dev nD) (b : Ref sig .tc) (hb : ∀ w, (cfg6.win w).isOut = true → Pipeline.arrRef spec6 w ≠ b) :
    Wo6 m ρ c (Proc.devRef .tc b) = Wi6 m ρ c (Proc.devRef .tc b) := by
  by_cases h : ∃ w, Pipeline.arrRef spec6 w = b
  · obtain ⟨w, rfl⟩ := h
    have hin : (cfg6.win w).isOut = false := by
      cases hw : (cfg6.win w).isOut
      · rfl
      · exact absurd rfl (hb w hw)
    exact (Wo6_arr m ρ c w).trans (((dat6 (Vi6 m ρ) c).arrAt_in w hin _).trans (A_eq6 (Vi6 m ρ) c w))
  · exact Wo6_of_ne m ρ c b fun w e => h ⟨w, e⟩
/-- The same read at the TensorCore's references (region 6's exit contents). -/
abbrev Vo6 : (c : Dev nD) → (b : Ref sig .tc) → Buf (Elt F) ((c : Thread nD τ).loc b) := fun c b => Wo6 m ρ c b
theorem hF6 (c : Dev nD) (w : Fin cfg6.W) : (dat6 (Vi6 m ρ) c).arrAt w cfg6.N = Vo6 m ρ c (Pipeline.arrRef spec6 w) :=
  (Wo6_arr m ρ c w).symm
theorem hrest6 (c : Dev nD) : ∀ b, b ∉ Finset.univ.image (Pipeline.arrRef spec6) → Vo6 m ρ c b = Vi6 m ρ c b :=
  fun b hb => Wo6_of_ne m ρ c b fun w e => hb (Finset.mem_image.mpr ⟨w, Finset.mem_univ _, e⟩)

/-- The arguments leave the region as launched: no region writes one. -/
theorem Wo6_main_arg0 (c : Dev nD) : Wo6 m ρ c (Proc.devRef .tc main_arg0) = m ((c : Thread nD τ).loc main_arg0) :=
  (Wo6_keep m ρ c main_arg0 (by decide)).trans (Wi6_main_arg0 m ρ c)
theorem Wo6_main_arg1 (c : Dev nD) : Wo6 m ρ c (Proc.devRef .tc main_arg1) = m ((c : Thread nD τ).loc main_arg1) :=
  (Wo6_keep m ρ c main_arg1 (by decide)).trans (Wi6_main_arg1 m ρ c)
theorem Wo6_main_arg2 (c : Dev nD) : Wo6 m ρ c (Proc.devRef .tc main_arg2) = m ((c : Thread nD τ).loc main_arg2) :=
  (Wo6_keep m ρ c main_arg2 (by decide)).trans (Wi6_main_arg2 m ρ c)
theorem Wo6_main_arg3 (c : Dev nD) : Wo6 m ρ c (Proc.devRef .tc main_arg3) = m ((c : Thread nD τ).loc main_arg3) :=
  (Wo6_keep m ρ c main_arg3 (by decide)).trans (Wi6_main_arg3 m ρ c)
theorem Wo6_main_arg4 (c : Dev nD) : Wo6 m ρ c (Proc.devRef .tc main_arg4) = m ((c : Thread nD τ).loc main_arg4) :=
  (Wo6_keep m ρ c main_arg4 (by decide)).trans (Wi6_main_arg4 m ρ c)

end Cert.Kernel.Reg

end
-- ==== Proof.KBWalk7.lean ====
/-
  The buffers' contents around region 7: entered from region 6's exit contents; left with its arrays at what its
  pipeline leaves, every other buffer untouched.
-/
import proofs.«107956_j75110388073098_1_alg».proof.Proof.KBRegion7
import proofs.«107956_j75110388073098_1_alg».proof.Proof.KBWalk6

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 7 is entered from what region 6 left. -/
abbrev Wi7 : Dev nD → Valuation τ sig (Elt F) := Wo6 m ρ
theorem Wi7_main_arg0 (c : Dev nD) : Wi7 m ρ c (Proc.devRef .tc main_arg0) = m ((c : Thread nD τ).loc main_arg0) := Wo6_main_arg0 m ρ c
theorem Wi7_main_arg1 (c : Dev nD) : Wi7 m ρ c (Proc.devRef .tc main_arg1) = m ((c : Thread nD τ).loc main_arg1) := Wo6_main_arg1 m ρ c
theorem Wi7_main_arg2 (c : Dev nD) : Wi7 m ρ c (Proc.devRef .tc main_arg2) = m ((c : Thread nD τ).loc main_arg2) := Wo6_main_arg2 m ρ c
theorem Wi7_main_arg3 (c : Dev nD) : Wi7 m ρ c (Proc.devRef .tc main_arg3) = m ((c : Thread nD τ).loc main_arg3) := Wo6_main_arg3 m ρ c
theorem Wi7_main_arg4 (c : Dev nD) : Wi7 m ρ c (Proc.devRef .tc main_arg4) = m ((c : Thread nD τ).loc main_arg4) := Wo6_main_arg4 m ρ c

/-- The same read at the TensorCore's references (what region 7's proof data take). -/
abbrev Vi7 : (c : Dev nD) → (b : Ref sig .tc) → Buf (Elt F) ((c : Thread nD τ).loc b) := fun c b => Wi7 m ρ c b

/-- At region 7's exit: its arrays at what the pipeline leaves (the inputs as entered, each output's write-back),
    every other buffer as entered. -/
def Wo7 (c : Dev nD) : Valuation τ sig (Elt F) :=
  Pipeline.withArrays spec7 c (Wi7 m ρ c) fun w => (dat7 (Vi7 m ρ) c).arrAt w cfg7.N
theorem Wo7_arr (c : Dev nD) (w : Fin cfg7.W) :
    Wo7 m ρ c (Proc.devRef .tc (Pipeline.arrRef spec7 w)) = (dat7 (Vi7 m ρ) c).arrAt w cfg7.N := by
  unfold Wo7; exact Pipeline.withArrays_arr spec7 launch7.win.arr_inj c _ _ w
theorem Wo7_of_ne (c : Dev nD) (b : Ref sig .tc) (hb : ∀ w, Pipeline.arrRef spec7 w ≠ b) :
    Wo7 m ρ c (Proc.devRef .tc b) = Wi7 m ρ c (Proc.devRef .tc b) := by
  unfold Wo7; exact Pipeline.withArrays_of_ne spec7 c _ _ b hb
/-- A buffer that is no OUTPUT window's array leaves the region as it entered it: an input window's array is only
    read, and a buffer outside the windows is not touched. -/
theorem Wo7_keep (c : Dev nD) (b : Ref sig .tc) (hb : ∀ w, (cfg7.win w).isOut = true → Pipeline.arrRef spec7 w ≠ b) :
    Wo7 m ρ c (Proc.devRef .tc b) = Wi7 m ρ c (Proc.devRef .tc b) := by
  by_cases h : ∃ w, Pipeline.arrRef spec7 w = b
  · obtain ⟨w, rfl⟩ := h
    have hin : (cfg7.win w).isOut = false := by
      cases hw : (cfg7.win w).isOut
      · rfl
      · exact absurd rfl (hb w hw)
    exact (Wo7_arr m ρ c w).trans (((dat7 (Vi7 m ρ) c).arrAt_in w hin _).trans (A_eq7 (Vi7 m ρ) c w))
  · exact Wo7_of_ne m ρ c b fun w e => h ⟨w, e⟩
/-- The same read at the TensorCore's references (region 7's exit contents). -/
abbrev Vo7 : (c : Dev nD) → (b : Ref sig .tc) → Buf (Elt F) ((c : Thread nD τ).loc b) := fun c b => Wo7 m ρ c b
theorem hF7 (c : Dev nD) (w : Fin cfg7.W) : (dat7 (Vi7 m ρ) c).arrAt w cfg7.N = Vo7 m ρ c (Pipeline.arrRef spec7 w) :=
  (Wo7_arr m ρ c w).symm
theorem hrest7 (c : Dev nD) : ∀ b, b ∉ Finset.univ.image (Pipeline.arrRef spec7) → Vo7 m ρ c b = Vi7 m ρ c b :=
  fun b hb => Wo7_of_ne m ρ c b fun w e => hb (Finset.mem_image.mpr ⟨w, Finset.mem_univ _, e⟩)

/-- The arguments leave the region as launched: no region writes one. -/
theorem Wo7_main_arg0 (c : Dev nD) : Wo7 m ρ c (Proc.devRef .tc main_arg0) = m ((c : Thread nD τ).loc main_arg0) :=
  (Wo7_keep m ρ c main_arg0 (by decide)).trans (Wi7_main_arg0 m ρ c)
theorem Wo7_main_arg1 (c : Dev nD) : Wo7 m ρ c (Proc.devRef .tc main_arg1) = m ((c : Thread nD τ).loc main_arg1) :=
  (Wo7_keep m ρ c main_arg1 (by decide)).trans (Wi7_main_arg1 m ρ c)
theorem Wo7_main_arg2 (c : Dev nD) : Wo7 m ρ c (Proc.devRef .tc main_arg2) = m ((c : Thread nD τ).loc main_arg2) :=
  (Wo7_keep m ρ c main_arg2 (by decide)).trans (Wi7_main_arg2 m ρ c)
theorem Wo7_main_arg3 (c : Dev nD) : Wo7 m ρ c (Proc.devRef .tc main_arg3) = m ((c : Thread nD τ).loc main_arg3) :=
  (Wo7_keep m ρ c main_arg3 (by decide)).trans (Wi7_main_arg3 m ρ c)
theorem Wo7_main_arg4 (c : Dev nD) : Wo7 m ρ c (Proc.devRef .tc main_arg4) = m ((c : Thread nD τ).loc main_arg4) :=
  (Wo7_keep m ρ c main_arg4 (by decide)).trans (Wi7_main_arg4 m ρ c)

end Cert.Kernel.Reg

end
-- ==== Proof.KBWalk8.lean ====
/-
  The buffers' contents around region 8: entered from region 7's exit contents; left with its arrays at what its
  pipeline leaves, every other buffer untouched.
-/
import proofs.«107956_j75110388073098_1_alg».proof.Proof.KBRegion8
import proofs.«107956_j75110388073098_1_alg».proof.Proof.KBWalk7

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 8 is entered from what region 7 left. -/
abbrev Wi8 : Dev nD → Valuation τ sig (Elt F) := Wo7 m ρ
theorem Wi8_main_arg0 (c : Dev nD) : Wi8 m ρ c (Proc.devRef .tc main_arg0) = m ((c : Thread nD τ).loc main_arg0) := Wo7_main_arg0 m ρ c
theorem Wi8_main_arg1 (c : Dev nD) : Wi8 m ρ c (Proc.devRef .tc main_arg1) = m ((c : Thread nD τ).loc main_arg1) := Wo7_main_arg1 m ρ c
theorem Wi8_main_arg2 (c : Dev nD) : Wi8 m ρ c (Proc.devRef .tc main_arg2) = m ((c : Thread nD τ).loc main_arg2) := Wo7_main_arg2 m ρ c
theorem Wi8_main_arg3 (c : Dev nD) : Wi8 m ρ c (Proc.devRef .tc main_arg3) = m ((c : Thread nD τ).loc main_arg3) := Wo7_main_arg3 m ρ c
theorem Wi8_main_arg4 (c : Dev nD) : Wi8 m ρ c (Proc.devRef .tc main_arg4) = m ((c : Thread nD τ).loc main_arg4) := Wo7_main_arg4 m ρ c

/-- The same read at the TensorCore's references (what region 8's proof data take). -/
abbrev Vi8 : (c : Dev nD) → (b : Ref sig .tc) → Buf (Elt F) ((c : Thread nD τ).loc b) := fun c b => Wi8 m ρ c b

/-- At region 8's exit: its arrays at what the pipeline leaves (the inputs as entered, each output's write-back),
    every other buffer as entered. -/
def Wo8 (c : Dev nD) : Valuation τ sig (Elt F) :=
  Pipeline.withArrays spec8 c (Wi8 m ρ c) fun w => (dat8 (Vi8 m ρ) c).arrAt w cfg8.N
theorem Wo8_arr (c : Dev nD) (w : Fin cfg8.W) :
    Wo8 m ρ c (Proc.devRef .tc (Pipeline.arrRef spec8 w)) = (dat8 (Vi8 m ρ) c).arrAt w cfg8.N := by
  unfold Wo8; exact Pipeline.withArrays_arr spec8 launch8.win.arr_inj c _ _ w
theorem Wo8_of_ne (c : Dev nD) (b : Ref sig .tc) (hb : ∀ w, Pipeline.arrRef spec8 w ≠ b) :
    Wo8 m ρ c (Proc.devRef .tc b) = Wi8 m ρ c (Proc.devRef .tc b) := by
  unfold Wo8; exact Pipeline.withArrays_of_ne spec8 c _ _ b hb
/-- A buffer that is no OUTPUT window's array leaves the region as it entered it: an input window's array is only
    read, and a buffer outside the windows is not touched. -/
theorem Wo8_keep (c : Dev nD) (b : Ref sig .tc) (hb : ∀ w, (cfg8.win w).isOut = true → Pipeline.arrRef spec8 w ≠ b) :
    Wo8 m ρ c (Proc.devRef .tc b) = Wi8 m ρ c (Proc.devRef .tc b) := by
  by_cases h : ∃ w, Pipeline.arrRef spec8 w = b
  · obtain ⟨w, rfl⟩ := h
    have hin : (cfg8.win w).isOut = false := by
      cases hw : (cfg8.win w).isOut
      · rfl
      · exact absurd rfl (hb w hw)
    exact (Wo8_arr m ρ c w).trans (((dat8 (Vi8 m ρ) c).arrAt_in w hin _).trans (A_eq8 (Vi8 m ρ) c w))
  · exact Wo8_of_ne m ρ c b fun w e => h ⟨w, e⟩
/-- The same read at the TensorCore's references (region 8's exit contents). -/
abbrev Vo8 : (c : Dev nD) → (b : Ref sig .tc) → Buf (Elt F) ((c : Thread nD τ).loc b) := fun c b => Wo8 m ρ c b
theorem hF8 (c : Dev nD) (w : Fin cfg8.W) : (dat8 (Vi8 m ρ) c).arrAt w cfg8.N = Vo8 m ρ c (Pipeline.arrRef spec8 w) :=
  (Wo8_arr m ρ c w).symm
theorem hrest8 (c : Dev nD) : ∀ b, b ∉ Finset.univ.image (Pipeline.arrRef spec8) → Vo8 m ρ c b = Vi8 m ρ c b :=
  fun b hb => Wo8_of_ne m ρ c b fun w e => hb (Finset.mem_image.mpr ⟨w, Finset.mem_univ _, e⟩)

/-- The arguments leave the region as launched: no region writes one. -/
theorem Wo8_main_arg0 (c : Dev nD) : Wo8 m ρ c (Proc.devRef .tc main_arg0) = m ((c : Thread nD τ).loc main_arg0) :=
  (Wo8_keep m ρ c main_arg0 (by decide)).trans (Wi8_main_arg0 m ρ c)
theorem Wo8_main_arg1 (c : Dev nD) : Wo8 m ρ c (Proc.devRef .tc main_arg1) = m ((c : Thread nD τ).loc main_arg1) :=
  (Wo8_keep m ρ c main_arg1 (by decide)).trans (Wi8_main_arg1 m ρ c)
theorem Wo8_main_arg2 (c : Dev nD) : Wo8 m ρ c (Proc.devRef .tc main_arg2) = m ((c : Thread nD τ).loc main_arg2) :=
  (Wo8_keep m ρ c main_arg2 (by decide)).trans (Wi8_main_arg2 m ρ c)
theorem Wo8_main_arg3 (c : Dev nD) : Wo8 m ρ c (Proc.devRef .tc main_arg3) = m ((c : Thread nD τ).loc main_arg3) :=
  (Wo8_keep m ρ c main_arg3 (by decide)).trans (Wi8_main_arg3 m ρ c)
theorem Wo8_main_arg4 (c : Dev nD) : Wo8 m ρ c (Proc.devRef .tc main_arg4) = m ((c : Thread nD τ).loc main_arg4) :=
  (Wo8_keep m ρ c main_arg4 (by decide)).trans (Wi8_main_arg4 m ρ c)

end Cert.Kernel.Reg

end
-- ==== Proof.KBWalk9.lean ====
/-
  The buffers' contents around region 9: entered from region 8's exit contents; left with its arrays at what its
  pipeline leaves, every other buffer untouched.
-/
import proofs.«107956_j75110388073098_1_alg».proof.Proof.KBRegion9
import proofs.«107956_j75110388073098_1_alg».proof.Proof.KBWalk8

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 9 is entered from what region 8 left. -/
abbrev Wi9 : Dev nD → Valuation τ sig (Elt F) := Wo8 m ρ
theorem Wi9_main_arg0 (c : Dev nD) : Wi9 m ρ c (Proc.devRef .tc main_arg0) = m ((c : Thread nD τ).loc main_arg0) := Wo8_main_arg0 m ρ c
theorem Wi9_main_arg1 (c : Dev nD) : Wi9 m ρ c (Proc.devRef .tc main_arg1) = m ((c : Thread nD τ).loc main_arg1) := Wo8_main_arg1 m ρ c
theorem Wi9_main_arg2 (c : Dev nD) : Wi9 m ρ c (Proc.devRef .tc main_arg2) = m ((c : Thread nD τ).loc main_arg2) := Wo8_main_arg2 m ρ c
theorem Wi9_main_arg3 (c : Dev nD) : Wi9 m ρ c (Proc.devRef .tc main_arg3) = m ((c : Thread nD τ).loc main_arg3) := Wo8_main_arg3 m ρ c
theorem Wi9_main_arg4 (c : Dev nD) : Wi9 m ρ c (Proc.devRef .tc main_arg4) = m ((c : Thread nD τ).loc main_arg4) := Wo8_main_arg4 m ρ c

/-- The same read at the TensorCore's references (what region 9's proof data take). -/
abbrev Vi9 : (c : Dev nD) → (b : Ref sig .tc) → Buf (Elt F) ((c : Thread nD τ).loc b) := fun c b => Wi9 m ρ c b

/-- At region 9's exit: its arrays at what the pipeline leaves (the inputs as entered, each output's write-back),
    every other buffer as entered. -/
def Wo9 (c : Dev nD) : Valuation τ sig (Elt F) :=
  Pipeline.withArrays spec9 c (Wi9 m ρ c) fun w => (dat9 (Vi9 m ρ) c).arrAt w cfg9.N
theorem Wo9_arr (c : Dev nD) (w : Fin cfg9.W) :
    Wo9 m ρ c (Proc.devRef .tc (Pipeline.arrRef spec9 w)) = (dat9 (Vi9 m ρ) c).arrAt w cfg9.N := by
  unfold Wo9; exact Pipeline.withArrays_arr spec9 launch9.win.arr_inj c _ _ w
theorem Wo9_of_ne (c : Dev nD) (b : Ref sig .tc) (hb : ∀ w, Pipeline.arrRef spec9 w ≠ b) :
    Wo9 m ρ c (Proc.devRef .tc b) = Wi9 m ρ c (Proc.devRef .tc b) := by
  unfold Wo9; exact Pipeline.withArrays_of_ne spec9 c _ _ b hb
/-- A buffer that is no OUTPUT window's array leaves the region as it entered it: an input window's array is only
    read, and a buffer outside the windows is not touched. -/
theorem Wo9_keep (c : Dev nD) (b : Ref sig .tc) (hb : ∀ w, (cfg9.win w).isOut = true → Pipeline.arrRef spec9 w ≠ b) :
    Wo9 m ρ c (Proc.devRef .tc b) = Wi9 m ρ c (Proc.devRef .tc b) := by
  by_cases h : ∃ w, Pipeline.arrRef spec9 w = b
  · obtain ⟨w, rfl⟩ := h
    have hin : (cfg9.win w).isOut = false := by
      cases hw : (cfg9.win w).isOut
      · rfl
      · exact absurd rfl (hb w hw)
    exact (Wo9_arr m ρ c w).trans (((dat9 (Vi9 m ρ) c).arrAt_in w hin _).trans (A_eq9 (Vi9 m ρ) c w))
  · exact Wo9_of_ne m ρ c b fun w e => h ⟨w, e⟩
/-- The same read at the TensorCore's references (region 9's exit contents). -/
abbrev Vo9 : (c : Dev nD) → (b : Ref sig .tc) → Buf (Elt F) ((c : Thread nD τ).loc b) := fun c b => Wo9 m ρ c b
theorem hF9 (c : Dev nD) (w : Fin cfg9.W) : (dat9 (Vi9 m ρ) c).arrAt w cfg9.N = Vo9 m ρ c (Pipeline.arrRef spec9 w) :=
  (Wo9_arr m ρ c w).symm
theorem hrest9 (c : Dev nD) : ∀ b, b ∉ Finset.univ.image (Pipeline.arrRef spec9) → Vo9 m ρ c b = Vi9 m ρ c b :=
  fun b hb => Wo9_of_ne m ρ c b fun w e => hb (Finset.mem_image.mpr ⟨w, Finset.mem_univ _, e⟩)

/-- The arguments leave the region as launched: no region writes one. -/
theorem Wo9_main_arg0 (c : Dev nD) : Wo9 m ρ c (Proc.devRef .tc main_arg0) = m ((c : Thread nD τ).loc main_arg0) :=
  (Wo9_keep m ρ c main_arg0 (by decide)).trans (Wi9_main_arg0 m ρ c)
theorem Wo9_main_arg1 (c : Dev nD) : Wo9 m ρ c (Proc.devRef .tc main_arg1) = m ((c : Thread nD τ).loc main_arg1) :=
  (Wo9_keep m ρ c main_arg1 (by decide)).trans (Wi9_main_arg1 m ρ c)
theorem Wo9_main_arg2 (c : Dev nD) : Wo9 m ρ c (Proc.devRef .tc main_arg2) = m ((c : Thread nD τ).loc main_arg2) :=
  (Wo9_keep m ρ c main_arg2 (by decide)).trans (Wi9_main_arg2 m ρ c)
theorem Wo9_main_arg3 (c : Dev nD) : Wo9 m ρ c (Proc.devRef .tc main_arg3) = m ((c : Thread nD τ).loc main_arg3) :=
  (Wo9_keep m ρ c main_arg3 (by decide)).trans (Wi9_main_arg3 m ρ c)
theorem Wo9_main_arg4 (c : Dev nD) : Wo9 m ρ c (Proc.devRef .tc main_arg4) = m ((c : Thread nD τ).loc main_arg4) :=
  (Wo9_keep m ρ c main_arg4 (by decide)).trans (Wi9_main_arg4 m ρ c)

end Cert.Kernel.Reg

end
-- ==== Proof.KBWalk10.lean ====
/-
  The buffers' contents around region 10: entered from region 9's exit contents; left with its arrays at what its
  pipeline leaves, every other buffer untouched.
-/
import proofs.«107956_j75110388073098_1_alg».proof.Proof.KBRegion10
import proofs.«107956_j75110388073098_1_alg».proof.Proof.KBWalk9

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 10 is entered from what region 9 left. -/
abbrev Wi10 : Dev nD → Valuation τ sig (Elt F) := Wo9 m ρ
theorem Wi10_main_arg0 (c : Dev nD) : Wi10 m ρ c (Proc.devRef .tc main_arg0) = m ((c : Thread nD τ).loc main_arg0) := Wo9_main_arg0 m ρ c
theorem Wi10_main_arg1 (c : Dev nD) : Wi10 m ρ c (Proc.devRef .tc main_arg1) = m ((c : Thread nD τ).loc main_arg1) := Wo9_main_arg1 m ρ c
theorem Wi10_main_arg2 (c : Dev nD) : Wi10 m ρ c (Proc.devRef .tc main_arg2) = m ((c : Thread nD τ).loc main_arg2) := Wo9_main_arg2 m ρ c
theorem Wi10_main_arg3 (c : Dev nD) : Wi10 m ρ c (Proc.devRef .tc main_arg3) = m ((c : Thread nD τ).loc main_arg3) := Wo9_main_arg3 m ρ c
theorem Wi10_main_arg4 (c : Dev nD) : Wi10 m ρ c (Proc.devRef .tc main_arg4) = m ((c : Thread nD τ).loc main_arg4) := Wo9_main_arg4 m ρ c

/-- The same read at the TensorCore's references (what region 10's proof data take). -/
abbrev Vi10 : (c : Dev nD) → (b : Ref sig .tc) → Buf (Elt F) ((c : Thread nD τ).loc b) := fun c b => Wi10 m ρ c b

/-- At region 10's exit: its arrays at what the pipeline leaves (the inputs as entered, each output's write-back),
    every other buffer as entered. -/
def Wo10 (c : Dev nD) : Valuation τ sig (Elt F) :=
  Pipeline.withArrays spec10 c (Wi10 m ρ c) fun w => (dat10 (Vi10 m ρ) c).arrAt w cfg10.N
theorem Wo10_arr (c : Dev nD) (w : Fin cfg10.W) :
    Wo10 m ρ c (Proc.devRef .tc (Pipeline.arrRef spec10 w)) = (dat10 (Vi10 m ρ) c).arrAt w cfg10.N := by
  unfold Wo10; exact Pipeline.withArrays_arr spec10 launch10.win.arr_inj c _ _ w
theorem Wo10_of_ne (c : Dev nD) (b : Ref sig .tc) (hb : ∀ w, Pipeline.arrRef spec10 w ≠ b) :
    Wo10 m ρ c (Proc.devRef .tc b) = Wi10 m ρ c (Proc.devRef .tc b) := by
  unfold Wo10; exact Pipeline.withArrays_of_ne spec10 c _ _ b hb
/-- A buffer that is no OUTPUT window's array leaves the region as it entered it: an input window's array is only
    read, and a buffer outside the windows is not touched. -/
theorem Wo10_keep (c : Dev nD) (b : Ref sig .tc) (hb : ∀ w, (cfg10.win w).isOut = true → Pipeline.arrRef spec10 w ≠ b) :
    Wo10 m ρ c (Proc.devRef .tc b) = Wi10 m ρ c (Proc.devRef .tc b) := by
  by_cases h : ∃ w, Pipeline.arrRef spec10 w = b
  · obtain ⟨w, rfl⟩ := h
    have hin : (cfg10.win w).isOut = false := by
      cases hw : (cfg10.win w).isOut
      · rfl
      · exact absurd rfl (hb w hw)
    exact (Wo10_arr m ρ c w).trans (((dat10 (Vi10 m ρ) c).arrAt_in w hin _).trans (A_eq10 (Vi10 m ρ) c w))
  · exact Wo10_of_ne m ρ c b fun w e => h ⟨w, e⟩
/-- The same read at the TensorCore's references (region 10's exit contents). -/
abbrev Vo10 : (c : Dev nD) → (b : Ref sig .tc) → Buf (Elt F) ((c : Thread nD τ).loc b) := fun c b => Wo10 m ρ c b
theorem hF10 (c : Dev nD) (w : Fin cfg10.W) : (dat10 (Vi10 m ρ) c).arrAt w cfg10.N = Vo10 m ρ c (Pipeline.arrRef spec10 w) :=
  (Wo10_arr m ρ c w).symm
theorem hrest10 (c : Dev nD) : ∀ b, b ∉ Finset.univ.image (Pipeline.arrRef spec10) → Vo10 m ρ c b = Vi10 m ρ c b :=
  fun b hb => Wo10_of_ne m ρ c b fun w e => hb (Finset.mem_image.mpr ⟨w, Finset.mem_univ _, e⟩)

/-- The arguments leave the region as launched: no region writes one. -/
theorem Wo10_main_arg0 (c : Dev nD) : Wo10 m ρ c (Proc.devRef .tc main_arg0) = m ((c : Thread nD τ).loc main_arg0) :=
  (Wo10_keep m ρ c main_arg0 (by decide)).trans (Wi10_main_arg0 m ρ c)
theorem Wo10_main_arg1 (c : Dev nD) : Wo10 m ρ c (Proc.devRef .tc main_arg1) = m ((c : Thread nD τ).loc main_arg1) :=
  (Wo10_keep m ρ c main_arg1 (by decide)).trans (Wi10_main_arg1 m ρ c)
theorem Wo10_main_arg2 (c : Dev nD) : Wo10 m ρ c (Proc.devRef .tc main_arg2) = m ((c : Thread nD τ).loc main_arg2) :=
  (Wo10_keep m ρ c main_arg2 (by decide)).trans (Wi10_main_arg2 m ρ c)
theorem Wo10_main_arg3 (c : Dev nD) : Wo10 m ρ c (Proc.devRef .tc main_arg3) = m ((c : Thread nD τ).loc main_arg3) :=
  (Wo10_keep m ρ c main_arg3 (by decide)).trans (Wi10_main_arg3 m ρ c)
theorem Wo10_main_arg4 (c : Dev nD) : Wo10 m ρ c (Proc.devRef .tc main_arg4) = m ((c : Thread nD τ).loc main_arg4) :=
  (Wo10_keep m ρ c main_arg4 (by decide)).trans (Wi10_main_arg4 m ρ c)

end Cert.Kernel.Reg

end
-- ==== Proof.KBWalk11.lean ====
/-
  The buffers' contents around region 11: entered from region 10's exit contents; left with its arrays at what its
  pipeline leaves, every other buffer untouched.
-/
import proofs.«107956_j75110388073098_1_alg».proof.Proof.KBRegion11
import proofs.«107956_j75110388073098_1_alg».proof.Proof.KBWalk10

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 11 is entered from what region 10 left. -/
abbrev Wi11 : Dev nD → Valuation τ sig (Elt F) := Wo10 m ρ
theorem Wi11_main_arg0 (c : Dev nD) : Wi11 m ρ c (Proc.devRef .tc main_arg0) = m ((c : Thread nD τ).loc main_arg0) := Wo10_main_arg0 m ρ c
theorem Wi11_main_arg1 (c : Dev nD) : Wi11 m ρ c (Proc.devRef .tc main_arg1) = m ((c : Thread nD τ).loc main_arg1) := Wo10_main_arg1 m ρ c
theorem Wi11_main_arg2 (c : Dev nD) : Wi11 m ρ c (Proc.devRef .tc main_arg2) = m ((c : Thread nD τ).loc main_arg2) := Wo10_main_arg2 m ρ c
theorem Wi11_main_arg3 (c : Dev nD) : Wi11 m ρ c (Proc.devRef .tc main_arg3) = m ((c : Thread nD τ).loc main_arg3) := Wo10_main_arg3 m ρ c
theorem Wi11_main_arg4 (c : Dev nD) : Wi11 m ρ c (Proc.devRef .tc main_arg4) = m ((c : Thread nD τ).loc main_arg4) := Wo10_main_arg4 m ρ c

/-- The same read at the TensorCore's references (what region 11's proof data take). -/
abbrev Vi11 : (c : Dev nD) → (b : Ref sig .tc) → Buf (Elt F) ((c : Thread nD τ).loc b) := fun c b => Wi11 m ρ c b

/-- At region 11's exit: its arrays at what the pipeline leaves (the inputs as entered, each output's write-back),
    every other buffer as entered. -/
def Wo11 (c : Dev nD) : Valuation τ sig (Elt F) :=
  Pipeline.withArrays spec11 c (Wi11 m ρ c) fun w => (dat11 (Vi11 m ρ) c).arrAt w cfg11.N
theorem Wo11_arr (c : Dev nD) (w : Fin cfg11.W) :
    Wo11 m ρ c (Proc.devRef .tc (Pipeline.arrRef spec11 w)) = (dat11 (Vi11 m ρ) c).arrAt w cfg11.N := by
  unfold Wo11; exact Pipeline.withArrays_arr spec11 launch11.win.arr_inj c _ _ w
theorem Wo11_of_ne (c : Dev nD) (b : Ref sig .tc) (hb : ∀ w, Pipeline.arrRef spec11 w ≠ b) :
    Wo11 m ρ c (Proc.devRef .tc b) = Wi11 m ρ c (Proc.devRef .tc b) := by
  unfold Wo11; exact Pipeline.withArrays_of_ne spec11 c _ _ b hb
/-- A buffer that is no OUTPUT window's array leaves the region as it entered it: an input window's array is only
    read, and a buffer outside the windows is not touched. -/
theorem Wo11_keep (c : Dev nD) (b : Ref sig .tc) (hb : ∀ w, (cfg11.win w).isOut = true → Pipeline.arrRef spec11 w ≠ b) :
    Wo11 m ρ c (Proc.devRef .tc b) = Wi11 m ρ c (Proc.devRef .tc b) := by
  by_cases h : ∃ w, Pipeline.arrRef spec11 w = b
  · obtain ⟨w, rfl⟩ := h
    have hin : (cfg11.win w).isOut = false := by
      cases hw : (cfg11.win w).isOut
      · rfl
      · exact absurd rfl (hb w hw)
    exact (Wo11_arr m ρ c w).trans (((dat11 (Vi11 m ρ) c).arrAt_in w hin _).trans (A_eq11 (Vi11 m ρ) c w))
  · exact Wo11_of_ne m ρ c b fun w e => h ⟨w, e⟩
/-- The same read at the TensorCore's references (region 11's exit contents). -/
abbrev Vo11 : (c : Dev nD) → (b : Ref sig .tc) → Buf (Elt F) ((c : Thread nD τ).loc b) := fun c b => Wo11 m ρ c b
theorem hF11 (c : Dev nD) (w : Fin cfg11.W) : (dat11 (Vi11 m ρ) c).arrAt w cfg11.N = Vo11 m ρ c (Pipeline.arrRef spec11 w) :=
  (Wo11_arr m ρ c w).symm
theorem hrest11 (c : Dev nD) : ∀ b, b ∉ Finset.univ.image (Pipeline.arrRef spec11) → Vo11 m ρ c b = Vi11 m ρ c b :=
  fun b hb => Wo11_of_ne m ρ c b fun w e => hb (Finset.mem_image.mpr ⟨w, Finset.mem_univ _, e⟩)

/-- The arguments leave the region as launched: no region writes one. -/
theorem Wo11_main_arg0 (c : Dev nD) : Wo11 m ρ c (Proc.devRef .tc main_arg0) = m ((c : Thread nD τ).loc main_arg0) :=
  (Wo11_keep m ρ c main_arg0 (by decide)).trans (Wi11_main_arg0 m ρ c)
theorem Wo11_main_arg1 (c : Dev nD) : Wo11 m ρ c (Proc.devRef .tc main_arg1) = m ((c : Thread nD τ).loc main_arg1) :=
  (Wo11_keep m ρ c main_arg1 (by decide)).trans (Wi11_main_arg1 m ρ c)
theorem Wo11_main_arg2 (c : Dev nD) : Wo11 m ρ c (Proc.devRef .tc main_arg2) = m ((c : Thread nD τ).loc main_arg2) :=
  (Wo11_keep m ρ c main_arg2 (by decide)).trans (Wi11_main_arg2 m ρ c)
theorem Wo11_main_arg3 (c : Dev nD) : Wo11 m ρ c (Proc.devRef .tc main_arg3) = m ((c : Thread nD τ).loc main_arg3) :=
  (Wo11_keep m ρ c main_arg3 (by decide)).trans (Wi11_main_arg3 m ρ c)
theorem Wo11_main_arg4 (c : Dev nD) : Wo11 m ρ c (Proc.devRef .tc main_arg4) = m ((c : Thread nD τ).loc main_arg4) :=
  (Wo11_keep m ρ c main_arg4 (by decide)).trans (Wi11_main_arg4 m ρ c)

end Cert.Kernel.Reg

end
-- ==== Proof.KBWalk12.lean ====
/-
  The buffers' contents around region 12: entered from region 11's exit contents; left with its arrays at what its
  pipeline leaves, every other buffer untouched.
-/
import proofs.«107956_j75110388073098_1_alg».proof.Proof.KBRegion12
import proofs.«107956_j75110388073098_1_alg».proof.Proof.KBWalk11

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 12 is entered from what region 11 left. -/
abbrev Wi12 : Dev nD → Valuation τ sig (Elt F) := Wo11 m ρ
theorem Wi12_main_arg0 (c : Dev nD) : Wi12 m ρ c (Proc.devRef .tc main_arg0) = m ((c : Thread nD τ).loc main_arg0) := Wo11_main_arg0 m ρ c
theorem Wi12_main_arg1 (c : Dev nD) : Wi12 m ρ c (Proc.devRef .tc main_arg1) = m ((c : Thread nD τ).loc main_arg1) := Wo11_main_arg1 m ρ c
theorem Wi12_main_arg2 (c : Dev nD) : Wi12 m ρ c (Proc.devRef .tc main_arg2) = m ((c : Thread nD τ).loc main_arg2) := Wo11_main_arg2 m ρ c
theorem Wi12_main_arg3 (c : Dev nD) : Wi12 m ρ c (Proc.devRef .tc main_arg3) = m ((c : Thread nD τ).loc main_arg3) := Wo11_main_arg3 m ρ c
theorem Wi12_main_arg4 (c : Dev nD) : Wi12 m ρ c (Proc.devRef .tc main_arg4) = m ((c : Thread nD τ).loc main_arg4) := Wo11_main_arg4 m ρ c

/-- The same read at the TensorCore's references (what region 12's proof data take). -/
abbrev Vi12 : (c : Dev nD) → (b : Ref sig .tc) → Buf (Elt F) ((c : Thread nD τ).loc b) := fun c b => Wi12 m ρ c b

/-- At region 12's exit: its arrays at what the pipeline leaves (the inputs as entered, each output's write-back),
    every other buffer as entered. -/
def Wo12 (c : Dev nD) : Valuation τ sig (Elt F) :=
  Pipeline.withArrays spec12 c (Wi12 m ρ c) fun w => (dat12 (Vi12 m ρ) c).arrAt w cfg12.N
theorem Wo12_arr (c : Dev nD) (w : Fin cfg12.W) :
    Wo12 m ρ c (Proc.devRef .tc (Pipeline.arrRef spec12 w)) = (dat12 (Vi12 m ρ) c).arrAt w cfg12.N := by
  unfold Wo12; exact Pipeline.withArrays_arr spec12 launch12.win.arr_inj c _ _ w
theorem Wo12_of_ne (c : Dev nD) (b : Ref sig .tc) (hb : ∀ w, Pipeline.arrRef spec12 w ≠ b) :
    Wo12 m ρ c (Proc.devRef .tc b) = Wi12 m ρ c (Proc.devRef .tc b) := by
  unfold Wo12; exact Pipeline.withArrays_of_ne spec12 c _ _ b hb
/-- A buffer that is no OUTPUT window's array leaves the region as it entered it: an input window's array is only
    read, and a buffer outside the windows is not touched. -/
theorem Wo12_keep (c : Dev nD) (b : Ref sig .tc) (hb : ∀ w, (cfg12.win w).isOut = true → Pipeline.arrRef spec12 w ≠ b) :
    Wo12 m ρ c (Proc.devRef .tc b) = Wi12 m ρ c (Proc.devRef .tc b) := by
  by_cases h : ∃ w, Pipeline.arrRef spec12 w = b
  · obtain ⟨w, rfl⟩ := h
    have hin : (cfg12.win w).isOut = false := by
      cases hw : (cfg12.win w).isOut
      · rfl
      · exact absurd rfl (hb w hw)
    exact (Wo12_arr m ρ c w).trans (((dat12 (Vi12 m ρ) c).arrAt_in w hin _).trans (A_eq12 (Vi12 m ρ) c w))
  · exact Wo12_of_ne m ρ c b fun w e => h ⟨w, e⟩
/-- The same read at the TensorCore's references (region 12's exit contents). -/
abbrev Vo12 : (c : Dev nD) → (b : Ref sig .tc) → Buf (Elt F) ((c : Thread nD τ).loc b) := fun c b => Wo12 m ρ c b
theorem hF12 (c : Dev nD) (w : Fin cfg12.W) : (dat12 (Vi12 m ρ) c).arrAt w cfg12.N = Vo12 m ρ c (Pipeline.arrRef spec12 w) :=
  (Wo12_arr m ρ c w).symm
theorem hrest12 (c : Dev nD) : ∀ b, b ∉ Finset.univ.image (Pipeline.arrRef spec12) → Vo12 m ρ c b = Vi12 m ρ c b :=
  fun b hb => Wo12_of_ne m ρ c b fun w e => hb (Finset.mem_image.mpr ⟨w, Finset.mem_univ _, e⟩)

/-- The arguments leave the region as launched: no region writes one. -/
theorem Wo12_main_arg0 (c : Dev nD) : Wo12 m ρ c (Proc.devRef .tc main_arg0) = m ((c : Thread nD τ).loc main_arg0) :=
  (Wo12_keep m ρ c main_arg0 (by decide)).trans (Wi12_main_arg0 m ρ c)
theorem Wo12_main_arg1 (c : Dev nD) : Wo12 m ρ c (Proc.devRef .tc main_arg1) = m ((c : Thread nD τ).loc main_arg1) :=
  (Wo12_keep m ρ c main_arg1 (by decide)).trans (Wi12_main_arg1 m ρ c)
theorem Wo12_main_arg2 (c : Dev nD) : Wo12 m ρ c (Proc.devRef .tc main_arg2) = m ((c : Thread nD τ).loc main_arg2) :=
  (Wo12_keep m ρ c main_arg2 (by decide)).trans (Wi12_main_arg2 m ρ c)
theorem Wo12_main_arg3 (c : Dev nD) : Wo12 m ρ c (Proc.devRef .tc main_arg3) = m ((c : Thread nD τ).loc main_arg3) :=
  (Wo12_keep m ρ c main_arg3 (by decide)).trans (Wi12_main_arg3 m ρ c)
theorem Wo12_main_arg4 (c : Dev nD) : Wo12 m ρ c (Proc.devRef .tc main_arg4) = m ((c : Thread nD τ).loc main_arg4) :=
  (Wo12_keep m ρ c main_arg4 (by decide)).trans (Wi12_main_arg4 m ρ c)

end Cert.Kernel.Reg

end
-- ==== Proof.KBWalk13.lean ====
/-
  The buffers' contents around region 13: entered from region 12's exit contents; left with its arrays at what its
  pipeline leaves, every other buffer untouched.
-/
import proofs.«107956_j75110388073098_1_alg».proof.Proof.KBRegion13
import proofs.«107956_j75110388073098_1_alg».proof.Proof.KBWalk12

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 13 is entered from what region 12 left. -/
abbrev Wi13 : Dev nD → Valuation τ sig (Elt F) := Wo12 m ρ
theorem Wi13_main_arg0 (c : Dev nD) : Wi13 m ρ c (Proc.devRef .tc main_arg0) = m ((c : Thread nD τ).loc main_arg0) := Wo12_main_arg0 m ρ c
theorem Wi13_main_arg1 (c : Dev nD) : Wi13 m ρ c (Proc.devRef .tc main_arg1) = m ((c : Thread nD τ).loc main_arg1) := Wo12_main_arg1 m ρ c
theorem Wi13_main_arg2 (c : Dev nD) : Wi13 m ρ c (Proc.devRef .tc main_arg2) = m ((c : Thread nD τ).loc main_arg2) := Wo12_main_arg2 m ρ c
theorem Wi13_main_arg3 (c : Dev nD) : Wi13 m ρ c (Proc.devRef .tc main_arg3) = m ((c : Thread nD τ).loc main_arg3) := Wo12_main_arg3 m ρ c
theorem Wi13_main_arg4 (c : Dev nD) : Wi13 m ρ c (Proc.devRef .tc main_arg4) = m ((c : Thread nD τ).loc main_arg4) := Wo12_main_arg4 m ρ c

/-- The same read at the TensorCore's references (what region 13's proof data take). -/
abbrev Vi13 : (c : Dev nD) → (b : Ref sig .tc) → Buf (Elt F) ((c : Thread nD τ).loc b) := fun c b => Wi13 m ρ c b

/-- At region 13's exit: its arrays at what the pipeline leaves (the inputs as entered, each output's write-back),
    every other buffer as entered. -/
def Wo13 (c : Dev nD) : Valuation τ sig (Elt F) :=
  Pipeline.withArrays spec13 c (Wi13 m ρ c) fun w => (dat13 (Vi13 m ρ) c).arrAt w cfg13.N
theorem Wo13_arr (c : Dev nD) (w : Fin cfg13.W) :
    Wo13 m ρ c (Proc.devRef .tc (Pipeline.arrRef spec13 w)) = (dat13 (Vi13 m ρ) c).arrAt w cfg13.N := by
  unfold Wo13; exact Pipeline.withArrays_arr spec13 launch13.win.arr_inj c _ _ w
theorem Wo13_of_ne (c : Dev nD) (b : Ref sig .tc) (hb : ∀ w, Pipeline.arrRef spec13 w ≠ b) :
    Wo13 m ρ c (Proc.devRef .tc b) = Wi13 m ρ c (Proc.devRef .tc b) := by
  unfold Wo13; exact Pipeline.withArrays_of_ne spec13 c _ _ b hb
/-- A buffer that is no OUTPUT window's array leaves the region as it entered it: an input window's array is only
    read, and a buffer outside the windows is not touched. -/
theorem Wo13_keep (c : Dev nD) (b : Ref sig .tc) (hb : ∀ w, (cfg13.win w).isOut = true → Pipeline.arrRef spec13 w ≠ b) :
    Wo13 m ρ c (Proc.devRef .tc b) = Wi13 m ρ c (Proc.devRef .tc b) := by
  by_cases h : ∃ w, Pipeline.arrRef spec13 w = b
  · obtain ⟨w, rfl⟩ := h
    have hin : (cfg13.win w).isOut = false := by
      cases hw : (cfg13.win w).isOut
      · rfl
      · exact absurd rfl (hb w hw)
    exact (Wo13_arr m ρ c w).trans (((dat13 (Vi13 m ρ) c).arrAt_in w hin _).trans (A_eq13 (Vi13 m ρ) c w))
  · exact Wo13_of_ne m ρ c b fun w e => h ⟨w, e⟩
/-- The same read at the TensorCore's references (region 13's exit contents). -/
abbrev Vo13 : (c : Dev nD) → (b : Ref sig .tc) → Buf (Elt F) ((c : Thread nD τ).loc b) := fun c b => Wo13 m ρ c b
theorem hF13 (c : Dev nD) (w : Fin cfg13.W) : (dat13 (Vi13 m ρ) c).arrAt w cfg13.N = Vo13 m ρ c (Pipeline.arrRef spec13 w) :=
  (Wo13_arr m ρ c w).symm
theorem hrest13 (c : Dev nD) : ∀ b, b ∉ Finset.univ.image (Pipeline.arrRef spec13) → Vo13 m ρ c b = Vi13 m ρ c b :=
  fun b hb => Wo13_of_ne m ρ c b fun w e => hb (Finset.mem_image.mpr ⟨w, Finset.mem_univ _, e⟩)

/-- The arguments leave the region as launched: no region writes one. -/
theorem Wo13_main_arg0 (c : Dev nD) : Wo13 m ρ c (Proc.devRef .tc main_arg0) = m ((c : Thread nD τ).loc main_arg0) :=
  (Wo13_keep m ρ c main_arg0 (by decide)).trans (Wi13_main_arg0 m ρ c)
theorem Wo13_main_arg1 (c : Dev nD) : Wo13 m ρ c (Proc.devRef .tc main_arg1) = m ((c : Thread nD τ).loc main_arg1) :=
  (Wo13_keep m ρ c main_arg1 (by decide)).trans (Wi13_main_arg1 m ρ c)
theorem Wo13_main_arg2 (c : Dev nD) : Wo13 m ρ c (Proc.devRef .tc main_arg2) = m ((c : Thread nD τ).loc main_arg2) :=
  (Wo13_keep m ρ c main_arg2 (by decide)).trans (Wi13_main_arg2 m ρ c)
theorem Wo13_main_arg3 (c : Dev nD) : Wo13 m ρ c (Proc.devRef .tc main_arg3) = m ((c : Thread nD τ).loc main_arg3) :=
  (Wo13_keep m ρ c main_arg3 (by decide)).trans (Wi13_main_arg3 m ρ c)
theorem Wo13_main_arg4 (c : Dev nD) : Wo13 m ρ c (Proc.devRef .tc main_arg4) = m ((c : Thread nD τ).loc main_arg4) :=
  (Wo13_keep m ρ c main_arg4 (by decide)).trans (Wi13_main_arg4 m ρ c)

end Cert.Kernel.Reg

end
-- ==== Proof.KBWalk14.lean ====
/-
  The buffers' contents around region 14: entered from region 13's exit contents; left with its arrays at what its
  pipeline leaves, every other buffer untouched.
-/
import proofs.«107956_j75110388073098_1_alg».proof.Proof.KBRegion14
import proofs.«107956_j75110388073098_1_alg».proof.Proof.KBWalk13

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 14 is entered from what region 13 left. -/
abbrev Wi14 : Dev nD → Valuation τ sig (Elt F) := Wo13 m ρ
theorem Wi14_main_arg0 (c : Dev nD) : Wi14 m ρ c (Proc.devRef .tc main_arg0) = m ((c : Thread nD τ).loc main_arg0) := Wo13_main_arg0 m ρ c
theorem Wi14_main_arg1 (c : Dev nD) : Wi14 m ρ c (Proc.devRef .tc main_arg1) = m ((c : Thread nD τ).loc main_arg1) := Wo13_main_arg1 m ρ c
theorem Wi14_main_arg2 (c : Dev nD) : Wi14 m ρ c (Proc.devRef .tc main_arg2) = m ((c : Thread nD τ).loc main_arg2) := Wo13_main_arg2 m ρ c
theorem Wi14_main_arg3 (c : Dev nD) : Wi14 m ρ c (Proc.devRef .tc main_arg3) = m ((c : Thread nD τ).loc main_arg3) := Wo13_main_arg3 m ρ c
theorem Wi14_main_arg4 (c : Dev nD) : Wi14 m ρ c (Proc.devRef .tc main_arg4) = m ((c : Thread nD τ).loc main_arg4) := Wo13_main_arg4 m ρ c

/-- The same read at the TensorCore's references (what region 14's proof data take). -/
abbrev Vi14 : (c : Dev nD) → (b : Ref sig .tc) → Buf (Elt F) ((c : Thread nD τ).loc b) := fun c b => Wi14 m ρ c b

/-- At region 14's exit: its arrays at what the pipeline leaves (the inputs as entered, each output's write-back),
    every other buffer as entered. -/
def Wo14 (c : Dev nD) : Valuation τ sig (Elt F) :=
  Pipeline.withArrays spec14 c (Wi14 m ρ c) fun w => (dat14 (Vi14 m ρ) c).arrAt w cfg14.N
theorem Wo14_arr (c : Dev nD) (w : Fin cfg14.W) :
    Wo14 m ρ c (Proc.devRef .tc (Pipeline.arrRef spec14 w)) = (dat14 (Vi14 m ρ) c).arrAt w cfg14.N := by
  unfold Wo14; exact Pipeline.withArrays_arr spec14 launch14.win.arr_inj c _ _ w
theorem Wo14_of_ne (c : Dev nD) (b : Ref sig .tc) (hb : ∀ w, Pipeline.arrRef spec14 w ≠ b) :
    Wo14 m ρ c (Proc.devRef .tc b) = Wi14 m ρ c (Proc.devRef .tc b) := by
  unfold Wo14; exact Pipeline.withArrays_of_ne spec14 c _ _ b hb
/-- A buffer that is no OUTPUT window's array leaves the region as it entered it: an input window's array is only
    read, and a buffer outside the windows is not touched. -/
theorem Wo14_keep (c : Dev nD) (b : Ref sig .tc) (hb : ∀ w, (cfg14.win w).isOut = true → Pipeline.arrRef spec14 w ≠ b) :
    Wo14 m ρ c (Proc.devRef .tc b) = Wi14 m ρ c (Proc.devRef .tc b) := by
  by_cases h : ∃ w, Pipeline.arrRef spec14 w = b
  · obtain ⟨w, rfl⟩ := h
    have hin : (cfg14.win w).isOut = false := by
      cases hw : (cfg14.win w).isOut
      · rfl
      · exact absurd rfl (hb w hw)
    exact (Wo14_arr m ρ c w).trans (((dat14 (Vi14 m ρ) c).arrAt_in w hin _).trans (A_eq14 (Vi14 m ρ) c w))
  · exact Wo14_of_ne m ρ c b fun w e => h ⟨w, e⟩
/-- The same read at the TensorCore's references (region 14's exit contents). -/
abbrev Vo14 : (c : Dev nD) → (b : Ref sig .tc) → Buf (Elt F) ((c : Thread nD τ).loc b) := fun c b => Wo14 m ρ c b
theorem hF14 (c : Dev nD) (w : Fin cfg14.W) : (dat14 (Vi14 m ρ) c).arrAt w cfg14.N = Vo14 m ρ c (Pipeline.arrRef spec14 w) :=
  (Wo14_arr m ρ c w).symm
theorem hrest14 (c : Dev nD) : ∀ b, b ∉ Finset.univ.image (Pipeline.arrRef spec14) → Vo14 m ρ c b = Vi14 m ρ c b :=
  fun b hb => Wo14_of_ne m ρ c b fun w e => hb (Finset.mem_image.mpr ⟨w, Finset.mem_univ _, e⟩)

/-- The arguments leave the region as launched: no region writes one. -/
theorem Wo14_main_arg0 (c : Dev nD) : Wo14 m ρ c (Proc.devRef .tc main_arg0) = m ((c : Thread nD τ).loc main_arg0) :=
  (Wo14_keep m ρ c main_arg0 (by decide)).trans (Wi14_main_arg0 m ρ c)
theorem Wo14_main_arg1 (c : Dev nD) : Wo14 m ρ c (Proc.devRef .tc main_arg1) = m ((c : Thread nD τ).loc main_arg1) :=
  (Wo14_keep m ρ c main_arg1 (by decide)).trans (Wi14_main_arg1 m ρ c)
theorem Wo14_main_arg2 (c : Dev nD) : Wo14 m ρ c (Proc.devRef .tc main_arg2) = m ((c : Thread nD τ).loc main_arg2) :=
  (Wo14_keep m ρ c main_arg2 (by decide)).trans (Wi14_main_arg2 m ρ c)
theorem Wo14_main_arg3 (c : Dev nD) : Wo14 m ρ c (Proc.devRef .tc main_arg3) = m ((c : Thread nD τ).loc main_arg3) :=
  (Wo14_keep m ρ c main_arg3 (by decide)).trans (Wi14_main_arg3 m ρ c)
theorem Wo14_main_arg4 (c : Dev nD) : Wo14 m ρ c (Proc.devRef .tc main_arg4) = m ((c : Thread nD τ).loc main_arg4) :=
  (Wo14_keep m ρ c main_arg4 (by decide)).trans (Wi14_main_arg4 m ρ c)

end Cert.Kernel.Reg

end
-- ==== Proof.KBWalk15.lean ====
/-
  The buffers' contents around region 15: entered from region 14's exit contents; left with its arrays at what its
  pipeline leaves, every other buffer untouched.
-/
import proofs.«107956_j75110388073098_1_alg».proof.Proof.KBRegion15
import proofs.«107956_j75110388073098_1_alg».proof.Proof.KBWalk14

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 15 is entered from what region 14 left. -/
abbrev Wi15 : Dev nD → Valuation τ sig (Elt F) := Wo14 m ρ
theorem Wi15_main_arg0 (c : Dev nD) : Wi15 m ρ c (Proc.devRef .tc main_arg0) = m ((c : Thread nD τ).loc main_arg0) := Wo14_main_arg0 m ρ c
theorem Wi15_main_arg1 (c : Dev nD) : Wi15 m ρ c (Proc.devRef .tc main_arg1) = m ((c : Thread nD τ).loc main_arg1) := Wo14_main_arg1 m ρ c
theorem Wi15_main_arg2 (c : Dev nD) : Wi15 m ρ c (Proc.devRef .tc main_arg2) = m ((c : Thread nD τ).loc main_arg2) := Wo14_main_arg2 m ρ c
theorem Wi15_main_arg3 (c : Dev nD) : Wi15 m ρ c (Proc.devRef .tc main_arg3) = m ((c : Thread nD τ).loc main_arg3) := Wo14_main_arg3 m ρ c
theorem Wi15_main_arg4 (c : Dev nD) : Wi15 m ρ c (Proc.devRef .tc main_arg4) = m ((c : Thread nD τ).loc main_arg4) := Wo14_main_arg4 m ρ c

/-- The same read at the TensorCore's references (what region 15's proof data take). -/
abbrev Vi15 : (c : Dev nD) → (b : Ref sig .tc) → Buf (Elt F) ((c : Thread nD τ).loc b) := fun c b => Wi15 m ρ c b

/-- At region 15's exit: its arrays at what the pipeline leaves (the inputs as entered, each output's write-back),
    every other buffer as entered. -/
def Wo15 (c : Dev nD) : Valuation τ sig (Elt F) :=
  Pipeline.withArrays spec15 c (Wi15 m ρ c) fun w => (dat15 (Vi15 m ρ) c).arrAt w cfg15.N
theorem Wo15_arr (c : Dev nD) (w : Fin cfg15.W) :
    Wo15 m ρ c (Proc.devRef .tc (Pipeline.arrRef spec15 w)) = (dat15 (Vi15 m ρ) c).arrAt w cfg15.N := by
  unfold Wo15; exact Pipeline.withArrays_arr spec15 launch15.win.arr_inj c _ _ w
theorem Wo15_of_ne (c : Dev nD) (b : Ref sig .tc) (hb : ∀ w, Pipeline.arrRef spec15 w ≠ b) :
    Wo15 m ρ c (Proc.devRef .tc b) = Wi15 m ρ c (Proc.devRef .tc b) := by
  unfold Wo15; exact Pipeline.withArrays_of_ne spec15 c _ _ b hb
/-- A buffer that is no OUTPUT window's array leaves the region as it entered it: an input window's array is only
    read, and a buffer outside the windows is not touched. -/
theorem Wo15_keep (c : Dev nD) (b : Ref sig .tc) (hb : ∀ w, (cfg15.win w).isOut = true → Pipeline.arrRef spec15 w ≠ b) :
    Wo15 m ρ c (Proc.devRef .tc b) = Wi15 m ρ c (Proc.devRef .tc b) := by
  by_cases h : ∃ w, Pipeline.arrRef spec15 w = b
  · obtain ⟨w, rfl⟩ := h
    have hin : (cfg15.win w).isOut = false := by
      cases hw : (cfg15.win w).isOut
      · rfl
      · exact absurd rfl (hb w hw)
    exact (Wo15_arr m ρ c w).trans (((dat15 (Vi15 m ρ) c).arrAt_in w hin _).trans (A_eq15 (Vi15 m ρ) c w))
  · exact Wo15_of_ne m ρ c b fun w e => h ⟨w, e⟩
/-- The same read at the TensorCore's references (region 15's exit contents). -/
abbrev Vo15 : (c : Dev nD) → (b : Ref sig .tc) → Buf (Elt F) ((c : Thread nD τ).loc b) := fun c b => Wo15 m ρ c b
theorem hF15 (c : Dev nD) (w : Fin cfg15.W) : (dat15 (Vi15 m ρ) c).arrAt w cfg15.N = Vo15 m ρ c (Pipeline.arrRef spec15 w) :=
  (Wo15_arr m ρ c w).symm
theorem hrest15 (c : Dev nD) : ∀ b, b ∉ Finset.univ.image (Pipeline.arrRef spec15) → Vo15 m ρ c b = Vi15 m ρ c b :=
  fun b hb => Wo15_of_ne m ρ c b fun w e => hb (Finset.mem_image.mpr ⟨w, Finset.mem_univ _, e⟩)

/-- The arguments leave the region as launched: no region writes one. -/
theorem Wo15_main_arg0 (c : Dev nD) : Wo15 m ρ c (Proc.devRef .tc main_arg0) = m ((c : Thread nD τ).loc main_arg0) :=
  (Wo15_keep m ρ c main_arg0 (by decide)).trans (Wi15_main_arg0 m ρ c)
theorem Wo15_main_arg1 (c : Dev nD) : Wo15 m ρ c (Proc.devRef .tc main_arg1) = m ((c : Thread nD τ).loc main_arg1) :=
  (Wo15_keep m ρ c main_arg1 (by decide)).trans (Wi15_main_arg1 m ρ c)
theorem Wo15_main_arg2 (c : Dev nD) : Wo15 m ρ c (Proc.devRef .tc main_arg2) = m ((c : Thread nD τ).loc main_arg2) :=
  (Wo15_keep m ρ c main_arg2 (by decide)).trans (Wi15_main_arg2 m ρ c)
theorem Wo15_main_arg3 (c : Dev nD) : Wo15 m ρ c (Proc.devRef .tc main_arg3) = m ((c : Thread nD τ).loc main_arg3) :=
  (Wo15_keep m ρ c main_arg3 (by decide)).trans (Wi15_main_arg3 m ρ c)
theorem Wo15_main_arg4 (c : Dev nD) : Wo15 m ρ c (Proc.devRef .tc main_arg4) = m ((c : Thread nD τ).loc main_arg4) :=
  (Wo15_keep m ρ c main_arg4 (by decide)).trans (Wi15_main_arg4 m ρ c)

end Cert.Kernel.Reg

end
-- ==== Proof.KBWalk16.lean ====
/-
  The buffers' contents around region 16: entered from region 15's exit contents; left with its arrays at what its
  pipeline leaves, every other buffer untouched.
-/
import proofs.«107956_j75110388073098_1_alg».proof.Proof.KBRegion16
import proofs.«107956_j75110388073098_1_alg».proof.Proof.KBWalk15

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 16 is entered from what region 15 left. -/
abbrev Wi16 : Dev nD → Valuation τ sig (Elt F) := Wo15 m ρ
theorem Wi16_main_arg0 (c : Dev nD) : Wi16 m ρ c (Proc.devRef .tc main_arg0) = m ((c : Thread nD τ).loc main_arg0) := Wo15_main_arg0 m ρ c
theorem Wi16_main_arg1 (c : Dev nD) : Wi16 m ρ c (Proc.devRef .tc main_arg1) = m ((c : Thread nD τ).loc main_arg1) := Wo15_main_arg1 m ρ c
theorem Wi16_main_arg2 (c : Dev nD) : Wi16 m ρ c (Proc.devRef .tc main_arg2) = m ((c : Thread nD τ).loc main_arg2) := Wo15_main_arg2 m ρ c
theorem Wi16_main_arg3 (c : Dev nD) : Wi16 m ρ c (Proc.devRef .tc main_arg3) = m ((c : Thread nD τ).loc main_arg3) := Wo15_main_arg3 m ρ c
theorem Wi16_main_arg4 (c : Dev nD) : Wi16 m ρ c (Proc.devRef .tc main_arg4) = m ((c : Thread nD τ).loc main_arg4) := Wo15_main_arg4 m ρ c

/-- The same read at the TensorCore's references (what region 16's proof data take). -/
abbrev Vi16 : (c : Dev nD) → (b : Ref sig .tc) → Buf (Elt F) ((c : Thread nD τ).loc b) := fun c b => Wi16 m ρ c b

/-- At region 16's exit: its arrays at what the pipeline leaves (the inputs as entered, each output's write-back),
    every other buffer as entered. -/
def Wo16 (c : Dev nD) : Valuation τ sig (Elt F) :=
  Pipeline.withArrays spec16 c (Wi16 m ρ c) fun w => (dat16 (Vi16 m ρ) c).arrAt w cfg16.N
theorem Wo16_arr (c : Dev nD) (w : Fin cfg16.W) :
    Wo16 m ρ c (Proc.devRef .tc (Pipeline.arrRef spec16 w)) = (dat16 (Vi16 m ρ) c).arrAt w cfg16.N := by
  unfold Wo16; exact Pipeline.withArrays_arr spec16 launch16.win.arr_inj c _ _ w
theorem Wo16_of_ne (c : Dev nD) (b : Ref sig .tc) (hb : ∀ w, Pipeline.arrRef spec16 w ≠ b) :
    Wo16 m ρ c (Proc.devRef .tc b) = Wi16 m ρ c (Proc.devRef .tc b) := by
  unfold Wo16; exact Pipeline.withArrays_of_ne spec16 c _ _ b hb
/-- A buffer that is no OUTPUT window's array leaves the region as it entered it: an input window's array is only
    read, and a buffer outside the windows is not touched. -/
theorem Wo16_keep (c : Dev nD) (b : Ref sig .tc) (hb : ∀ w, (cfg16.win w).isOut = true → Pipeline.arrRef spec16 w ≠ b) :
    Wo16 m ρ c (Proc.devRef .tc b) = Wi16 m ρ c (Proc.devRef .tc b) := by
  by_cases h : ∃ w, Pipeline.arrRef spec16 w = b
  · obtain ⟨w, rfl⟩ := h
    have hin : (cfg16.win w).isOut = false := by
      cases hw : (cfg16.win w).isOut
      · rfl
      · exact absurd rfl (hb w hw)
    exact (Wo16_arr m ρ c w).trans (((dat16 (Vi16 m ρ) c).arrAt_in w hin _).trans (A_eq16 (Vi16 m ρ) c w))
  · exact Wo16_of_ne m ρ c b fun w e => h ⟨w, e⟩
/-- The same read at the TensorCore's references (region 16's exit contents). -/
abbrev Vo16 : (c : Dev nD) → (b : Ref sig .tc) → Buf (Elt F) ((c : Thread nD τ).loc b) := fun c b => Wo16 m ρ c b
theorem hF16 (c : Dev nD) (w : Fin cfg16.W) : (dat16 (Vi16 m ρ) c).arrAt w cfg16.N = Vo16 m ρ c (Pipeline.arrRef spec16 w) :=
  (Wo16_arr m ρ c w).symm
theorem hrest16 (c : Dev nD) : ∀ b, b ∉ Finset.univ.image (Pipeline.arrRef spec16) → Vo16 m ρ c b = Vi16 m ρ c b :=
  fun b hb => Wo16_of_ne m ρ c b fun w e => hb (Finset.mem_image.mpr ⟨w, Finset.mem_univ _, e⟩)

/-- The arguments leave the region as launched: no region writes one. -/
theorem Wo16_main_arg0 (c : Dev nD) : Wo16 m ρ c (Proc.devRef .tc main_arg0) = m ((c : Thread nD τ).loc main_arg0) :=
  (Wo16_keep m ρ c main_arg0 (by decide)).trans (Wi16_main_arg0 m ρ c)
theorem Wo16_main_arg1 (c : Dev nD) : Wo16 m ρ c (Proc.devRef .tc main_arg1) = m ((c : Thread nD τ).loc main_arg1) :=
  (Wo16_keep m ρ c main_arg1 (by decide)).trans (Wi16_main_arg1 m ρ c)
theorem Wo16_main_arg2 (c : Dev nD) : Wo16 m ρ c (Proc.devRef .tc main_arg2) = m ((c : Thread nD τ).loc main_arg2) :=
  (Wo16_keep m ρ c main_arg2 (by decide)).trans (Wi16_main_arg2 m ρ c)
theorem Wo16_main_arg3 (c : Dev nD) : Wo16 m ρ c (Proc.devRef .tc main_arg3) = m ((c : Thread nD τ).loc main_arg3) :=
  (Wo16_keep m ρ c main_arg3 (by decide)).trans (Wi16_main_arg3 m ρ c)
theorem Wo16_main_arg4 (c : Dev nD) : Wo16 m ρ c (Proc.devRef .tc main_arg4) = m ((c : Thread nD τ).loc main_arg4) :=
  (Wo16_keep m ρ c main_arg4 (by decide)).trans (Wi16_main_arg4 m ρ c)

end Cert.Kernel.Reg

end
-- ==== Proof.KBWalk17.lean ====
/-
  The buffers' contents around region 17: entered from region 16's exit contents; left with its arrays at what its
  pipeline leaves, every other buffer untouched.
-/
import proofs.«107956_j75110388073098_1_alg».proof.Proof.KBRegion17
import proofs.«107956_j75110388073098_1_alg».proof.Proof.KBWalk16

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 17 is entered from what region 16 left. -/
abbrev Wi17 : Dev nD → Valuation τ sig (Elt F) := Wo16 m ρ
theorem Wi17_main_arg0 (c : Dev nD) : Wi17 m ρ c (Proc.devRef .tc main_arg0) = m ((c : Thread nD τ).loc main_arg0) := Wo16_main_arg0 m ρ c
theorem Wi17_main_arg1 (c : Dev nD) : Wi17 m ρ c (Proc.devRef .tc main_arg1) = m ((c : Thread nD τ).loc main_arg1) := Wo16_main_arg1 m ρ c
theorem Wi17_main_arg2 (c : Dev nD) : Wi17 m ρ c (Proc.devRef .tc main_arg2) = m ((c : Thread nD τ).loc main_arg2) := Wo16_main_arg2 m ρ c
theorem Wi17_main_arg3 (c : Dev nD) : Wi17 m ρ c (Proc.devRef .tc main_arg3) = m ((c : Thread nD τ).loc main_arg3) := Wo16_main_arg3 m ρ c
theorem Wi17_main_arg4 (c : Dev nD) : Wi17 m ρ c (Proc.devRef .tc main_arg4) = m ((c : Thread nD τ).loc main_arg4) := Wo16_main_arg4 m ρ c

/-- The same read at the TensorCore's references (what region 17's proof data take). -/
abbrev Vi17 : (c : Dev nD) → (b : Ref sig .tc) → Buf (Elt F) ((c : Thread nD τ).loc b) := fun c b => Wi17 m ρ c b

/-- At region 17's exit: its arrays at what the pipeline leaves (the inputs as entered, each output's write-back),
    every other buffer as entered. -/
def Wo17 (c : Dev nD) : Valuation τ sig (Elt F) :=
  Pipeline.withArrays spec17 c (Wi17 m ρ c) fun w => (dat17 (Vi17 m ρ) c).arrAt w cfg17.N
theorem Wo17_arr (c : Dev nD) (w : Fin cfg17.W) :
    Wo17 m ρ c (Proc.devRef .tc (Pipeline.arrRef spec17 w)) = (dat17 (Vi17 m ρ) c).arrAt w cfg17.N := by
  unfold Wo17; exact Pipeline.withArrays_arr spec17 launch17.win.arr_inj c _ _ w
theorem Wo17_of_ne (c : Dev nD) (b : Ref sig .tc) (hb : ∀ w, Pipeline.arrRef spec17 w ≠ b) :
    Wo17 m ρ c (Proc.devRef .tc b) = Wi17 m ρ c (Proc.devRef .tc b) := by
  unfold Wo17; exact Pipeline.withArrays_of_ne spec17 c _ _ b hb
/-- A buffer that is no OUTPUT window's array leaves the region as it entered it: an input window's array is only
    read, and a buffer outside the windows is not touched. -/
theorem Wo17_keep (c : Dev nD) (b : Ref sig .tc) (hb : ∀ w, (cfg17.win w).isOut = true → Pipeline.arrRef spec17 w ≠ b) :
    Wo17 m ρ c (Proc.devRef .tc b) = Wi17 m ρ c (Proc.devRef .tc b) := by
  by_cases h : ∃ w, Pipeline.arrRef spec17 w = b
  · obtain ⟨w, rfl⟩ := h
    have hin : (cfg17.win w).isOut = false := by
      cases hw : (cfg17.win w).isOut
      · rfl
      · exact absurd rfl (hb w hw)
    exact (Wo17_arr m ρ c w).trans (((dat17 (Vi17 m ρ) c).arrAt_in w hin _).trans (A_eq17 (Vi17 m ρ) c w))
  · exact Wo17_of_ne m ρ c b fun w e => h ⟨w, e⟩
/-- The same read at the TensorCore's references (region 17's exit contents). -/
abbrev Vo17 : (c : Dev nD) → (b : Ref sig .tc) → Buf (Elt F) ((c : Thread nD τ).loc b) := fun c b => Wo17 m ρ c b
theorem hF17 (c : Dev nD) (w : Fin cfg17.W) : (dat17 (Vi17 m ρ) c).arrAt w cfg17.N = Vo17 m ρ c (Pipeline.arrRef spec17 w) :=
  (Wo17_arr m ρ c w).symm
theorem hrest17 (c : Dev nD) : ∀ b, b ∉ Finset.univ.image (Pipeline.arrRef spec17) → Vo17 m ρ c b = Vi17 m ρ c b :=
  fun b hb => Wo17_of_ne m ρ c b fun w e => hb (Finset.mem_image.mpr ⟨w, Finset.mem_univ _, e⟩)

/-- The arguments leave the region as launched: no region writes one. -/
theorem Wo17_main_arg0 (c : Dev nD) : Wo17 m ρ c (Proc.devRef .tc main_arg0) = m ((c : Thread nD τ).loc main_arg0) :=
  (Wo17_keep m ρ c main_arg0 (by decide)).trans (Wi17_main_arg0 m ρ c)
theorem Wo17_main_arg1 (c : Dev nD) : Wo17 m ρ c (Proc.devRef .tc main_arg1) = m ((c : Thread nD τ).loc main_arg1) :=
  (Wo17_keep m ρ c main_arg1 (by decide)).trans (Wi17_main_arg1 m ρ c)
theorem Wo17_main_arg2 (c : Dev nD) : Wo17 m ρ c (Proc.devRef .tc main_arg2) = m ((c : Thread nD τ).loc main_arg2) :=
  (Wo17_keep m ρ c main_arg2 (by decide)).trans (Wi17_main_arg2 m ρ c)
theorem Wo17_main_arg3 (c : Dev nD) : Wo17 m ρ c (Proc.devRef .tc main_arg3) = m ((c : Thread nD τ).loc main_arg3) :=
  (Wo17_keep m ρ c main_arg3 (by decide)).trans (Wi17_main_arg3 m ρ c)
theorem Wo17_main_arg4 (c : Dev nD) : Wo17 m ρ c (Proc.devRef .tc main_arg4) = m ((c : Thread nD τ).loc main_arg4) :=
  (Wo17_keep m ρ c main_arg4 (by decide)).trans (Wi17_main_arg4 m ρ c)

end Cert.Kernel.Reg

end
-- ==== Proof.KBWalk18.lean ====
/-
  The buffers' contents around region 18: entered from region 17's exit contents; left with its arrays at what its
  pipeline leaves, every other buffer untouched.
-/
import proofs.«107956_j75110388073098_1_alg».proof.Proof.KBRegion18
import proofs.«107956_j75110388073098_1_alg».proof.Proof.KBWalk17

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 18 is entered from what region 17 left. -/
abbrev Wi18 : Dev nD → Valuation τ sig (Elt F) := Wo17 m ρ
theorem Wi18_main_arg0 (c : Dev nD) : Wi18 m ρ c (Proc.devRef .tc main_arg0) = m ((c : Thread nD τ).loc main_arg0) := Wo17_main_arg0 m ρ c
theorem Wi18_main_arg1 (c : Dev nD) : Wi18 m ρ c (Proc.devRef .tc main_arg1) = m ((c : Thread nD τ).loc main_arg1) := Wo17_main_arg1 m ρ c
theorem Wi18_main_arg2 (c : Dev nD) : Wi18 m ρ c (Proc.devRef .tc main_arg2) = m ((c : Thread nD τ).loc main_arg2) := Wo17_main_arg2 m ρ c
theorem Wi18_main_arg3 (c : Dev nD) : Wi18 m ρ c (Proc.devRef .tc main_arg3) = m ((c : Thread nD τ).loc main_arg3) := Wo17_main_arg3 m ρ c
theorem Wi18_main_arg4 (c : Dev nD) : Wi18 m ρ c (Proc.devRef .tc main_arg4) = m ((c : Thread nD τ).loc main_arg4) := Wo17_main_arg4 m ρ c

/-- The same read at the TensorCore's references (what region 18's proof data take). -/
abbrev Vi18 : (c : Dev nD) → (b : Ref sig .tc) → Buf (Elt F) ((c : Thread nD τ).loc b) := fun c b => Wi18 m ρ c b

/-- At region 18's exit: its arrays at what the pipeline leaves (the inputs as entered, each output's write-back),
    every other buffer as entered. -/
def Wo18 (c : Dev nD) : Valuation τ sig (Elt F) :=
  Pipeline.withArrays spec18 c (Wi18 m ρ c) fun w => (dat18 (Vi18 m ρ) c).arrAt w cfg18.N
theorem Wo18_arr (c : Dev nD) (w : Fin cfg18.W) :
    Wo18 m ρ c (Proc.devRef .tc (Pipeline.arrRef spec18 w)) = (dat18 (Vi18 m ρ) c).arrAt w cfg18.N := by
  unfold Wo18; exact Pipeline.withArrays_arr spec18 launch18.win.arr_inj c _ _ w
theorem Wo18_of_ne (c : Dev nD) (b : Ref sig .tc) (hb : ∀ w, Pipeline.arrRef spec18 w ≠ b) :
    Wo18 m ρ c (Proc.devRef .tc b) = Wi18 m ρ c (Proc.devRef .tc b) := by
  unfold Wo18; exact Pipeline.withArrays_of_ne spec18 c _ _ b hb
/-- A buffer that is no OUTPUT window's array leaves the region as it entered it: an input window's array is only
    read, and a buffer outside the windows is not touched. -/
theorem Wo18_keep (c : Dev nD) (b : Ref sig .tc) (hb : ∀ w, (cfg18.win w).isOut = true → Pipeline.arrRef spec18 w ≠ b) :
    Wo18 m ρ c (Proc.devRef .tc b) = Wi18 m ρ c (Proc.devRef .tc b) := by
  by_cases h : ∃ w, Pipeline.arrRef spec18 w = b
  · obtain ⟨w, rfl⟩ := h
    have hin : (cfg18.win w).isOut = false := by
      cases hw : (cfg18.win w).isOut
      · rfl
      · exact absurd rfl (hb w hw)
    exact (Wo18_arr m ρ c w).trans (((dat18 (Vi18 m ρ) c).arrAt_in w hin _).trans (A_eq18 (Vi18 m ρ) c w))
  · exact Wo18_of_ne m ρ c b fun w e => h ⟨w, e⟩
/-- The same read at the TensorCore's references (region 18's exit contents). -/
abbrev Vo18 : (c : Dev nD) → (b : Ref sig .tc) → Buf (Elt F) ((c : Thread nD τ).loc b) := fun c b => Wo18 m ρ c b
theorem hF18 (c : Dev nD) (w : Fin cfg18.W) : (dat18 (Vi18 m ρ) c).arrAt w cfg18.N = Vo18 m ρ c (Pipeline.arrRef spec18 w) :=
  (Wo18_arr m ρ c w).symm
theorem hrest18 (c : Dev nD) : ∀ b, b ∉ Finset.univ.image (Pipeline.arrRef spec18) → Vo18 m ρ c b = Vi18 m ρ c b :=
  fun b hb => Wo18_of_ne m ρ c b fun w e => hb (Finset.mem_image.mpr ⟨w, Finset.mem_univ _, e⟩)

/-- The arguments leave the region as launched: no region writes one. -/
theorem Wo18_main_arg0 (c : Dev nD) : Wo18 m ρ c (Proc.devRef .tc main_arg0) = m ((c : Thread nD τ).loc main_arg0) :=
  (Wo18_keep m ρ c main_arg0 (by decide)).trans (Wi18_main_arg0 m ρ c)
theorem Wo18_main_arg1 (c : Dev nD) : Wo18 m ρ c (Proc.devRef .tc main_arg1) = m ((c : Thread nD τ).loc main_arg1) :=
  (Wo18_keep m ρ c main_arg1 (by decide)).trans (Wi18_main_arg1 m ρ c)
theorem Wo18_main_arg2 (c : Dev nD) : Wo18 m ρ c (Proc.devRef .tc main_arg2) = m ((c : Thread nD τ).loc main_arg2) :=
  (Wo18_keep m ρ c main_arg2 (by decide)).trans (Wi18_main_arg2 m ρ c)
theorem Wo18_main_arg3 (c : Dev nD) : Wo18 m ρ c (Proc.devRef .tc main_arg3) = m ((c : Thread nD τ).loc main_arg3) :=
  (Wo18_keep m ρ c main_arg3 (by decide)).trans (Wi18_main_arg3 m ρ c)
theorem Wo18_main_arg4 (c : Dev nD) : Wo18 m ρ c (Proc.devRef .tc main_arg4) = m ((c : Thread nD τ).loc main_arg4) :=
  (Wo18_keep m ρ c main_arg4 (by decide)).trans (Wi18_main_arg4 m ρ c)

end Cert.Kernel.Reg

end
-- ==== Proof.KBWalk19.lean ====
/-
  The buffers' contents around region 19: entered from region 18's exit contents; left with its arrays at what its
  pipeline leaves, every other buffer untouched.
-/
import proofs.«107956_j75110388073098_1_alg».proof.Proof.KBRegion19
import proofs.«107956_j75110388073098_1_alg».proof.Proof.KBWalk18

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 19 is entered from what region 18 left. -/
abbrev Wi19 : Dev nD → Valuation τ sig (Elt F) := Wo18 m ρ
theorem Wi19_main_arg0 (c : Dev nD) : Wi19 m ρ c (Proc.devRef .tc main_arg0) = m ((c : Thread nD τ).loc main_arg0) := Wo18_main_arg0 m ρ c
theorem Wi19_main_arg1 (c : Dev nD) : Wi19 m ρ c (Proc.devRef .tc main_arg1) = m ((c : Thread nD τ).loc main_arg1) := Wo18_main_arg1 m ρ c
theorem Wi19_main_arg2 (c : Dev nD) : Wi19 m ρ c (Proc.devRef .tc main_arg2) = m ((c : Thread nD τ).loc main_arg2) := Wo18_main_arg2 m ρ c
theorem Wi19_main_arg3 (c : Dev nD) : Wi19 m ρ c (Proc.devRef .tc main_arg3) = m ((c : Thread nD τ).loc main_arg3) := Wo18_main_arg3 m ρ c
theorem Wi19_main_arg4 (c : Dev nD) : Wi19 m ρ c (Proc.devRef .tc main_arg4) = m ((c : Thread nD τ).loc main_arg4) := Wo18_main_arg4 m ρ c

/-- The same read at the TensorCore's references (what region 19's proof data take). -/
abbrev Vi19 : (c : Dev nD) → (b : Ref sig .tc) → Buf (Elt F) ((c : Thread nD τ).loc b) := fun c b => Wi19 m ρ c b

/-- At region 19's exit: its arrays at what the pipeline leaves (the inputs as entered, each output's write-back),
    every other buffer as entered. -/
def Wo19 (c : Dev nD) : Valuation τ sig (Elt F) :=
  Pipeline.withArrays spec19 c (Wi19 m ρ c) fun w => (dat19 (Vi19 m ρ) c).arrAt w cfg19.N
theorem Wo19_arr (c : Dev nD) (w : Fin cfg19.W) :
    Wo19 m ρ c (Proc.devRef .tc (Pipeline.arrRef spec19 w)) = (dat19 (Vi19 m ρ) c).arrAt w cfg19.N := by
  unfold Wo19; exact Pipeline.withArrays_arr spec19 launch19.win.arr_inj c _ _ w
theorem Wo19_of_ne (c : Dev nD) (b : Ref sig .tc) (hb : ∀ w, Pipeline.arrRef spec19 w ≠ b) :
    Wo19 m ρ c (Proc.devRef .tc b) = Wi19 m ρ c (Proc.devRef .tc b) := by
  unfold Wo19; exact Pipeline.withArrays_of_ne spec19 c _ _ b hb
/-- A buffer that is no OUTPUT window's array leaves the region as it entered it: an input window's array is only
    read, and a buffer outside the windows is not touched. -/
theorem Wo19_keep (c : Dev nD) (b : Ref sig .tc) (hb : ∀ w, (cfg19.win w).isOut = true → Pipeline.arrRef spec19 w ≠ b) :
    Wo19 m ρ c (Proc.devRef .tc b) = Wi19 m ρ c (Proc.devRef .tc b) := by
  by_cases h : ∃ w, Pipeline.arrRef spec19 w = b
  · obtain ⟨w, rfl⟩ := h
    have hin : (cfg19.win w).isOut = false := by
      cases hw : (cfg19.win w).isOut
      · rfl
      · exact absurd rfl (hb w hw)
    exact (Wo19_arr m ρ c w).trans (((dat19 (Vi19 m ρ) c).arrAt_in w hin _).trans (A_eq19 (Vi19 m ρ) c w))
  · exact Wo19_of_ne m ρ c b fun w e => h ⟨w, e⟩
/-- The same read at the TensorCore's references (region 19's exit contents). -/
abbrev Vo19 : (c : Dev nD) → (b : Ref sig .tc) → Buf (Elt F) ((c : Thread nD τ).loc b) := fun c b => Wo19 m ρ c b
theorem hF19 (c : Dev nD) (w : Fin cfg19.W) : (dat19 (Vi19 m ρ) c).arrAt w cfg19.N = Vo19 m ρ c (Pipeline.arrRef spec19 w) :=
  (Wo19_arr m ρ c w).symm
theorem hrest19 (c : Dev nD) : ∀ b, b ∉ Finset.univ.image (Pipeline.arrRef spec19) → Vo19 m ρ c b = Vi19 m ρ c b :=
  fun b hb => Wo19_of_ne m ρ c b fun w e => hb (Finset.mem_image.mpr ⟨w, Finset.mem_univ _, e⟩)

/-- The arguments leave the region as launched: no region writes one. -/
theorem Wo19_main_arg0 (c : Dev nD) : Wo19 m ρ c (Proc.devRef .tc main_arg0) = m ((c : Thread nD τ).loc main_arg0) :=
  (Wo19_keep m ρ c main_arg0 (by decide)).trans (Wi19_main_arg0 m ρ c)
theorem Wo19_main_arg1 (c : Dev nD) : Wo19 m ρ c (Proc.devRef .tc main_arg1) = m ((c : Thread nD τ).loc main_arg1) :=
  (Wo19_keep m ρ c main_arg1 (by decide)).trans (Wi19_main_arg1 m ρ c)
theorem Wo19_main_arg2 (c : Dev nD) : Wo19 m ρ c (Proc.devRef .tc main_arg2) = m ((c : Thread nD τ).loc main_arg2) :=
  (Wo19_keep m ρ c main_arg2 (by decide)).trans (Wi19_main_arg2 m ρ c)
theorem Wo19_main_arg3 (c : Dev nD) : Wo19 m ρ c (Proc.devRef .tc main_arg3) = m ((c : Thread nD τ).loc main_arg3) :=
  (Wo19_keep m ρ c main_arg3 (by decide)).trans (Wi19_main_arg3 m ρ c)
theorem Wo19_main_arg4 (c : Dev nD) : Wo19 m ρ c (Proc.devRef .tc main_arg4) = m ((c : Thread nD τ).loc main_arg4) :=
  (Wo19_keep m ρ c main_arg4 (by decide)).trans (Wi19_main_arg4 m ρ c)

end Cert.Kernel.Reg

end
-- ==== Proof.KBWalk20.lean ====
/-
  The buffers' contents around region 20: entered from region 19's exit contents; left with its arrays at what its
  pipeline leaves, every other buffer untouched.
-/
import proofs.«107956_j75110388073098_1_alg».proof.Proof.KBRegion20
import proofs.«107956_j75110388073098_1_alg».proof.Proof.KBWalk19

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 20 is entered from what region 19 left. -/
abbrev Wi20 : Dev nD → Valuation τ sig (Elt F) := Wo19 m ρ
theorem Wi20_main_arg0 (c : Dev nD) : Wi20 m ρ c (Proc.devRef .tc main_arg0) = m ((c : Thread nD τ).loc main_arg0) := Wo19_main_arg0 m ρ c
theorem Wi20_main_arg1 (c : Dev nD) : Wi20 m ρ c (Proc.devRef .tc main_arg1) = m ((c : Thread nD τ).loc main_arg1) := Wo19_main_arg1 m ρ c
theorem Wi20_main_arg2 (c : Dev nD) : Wi20 m ρ c (Proc.devRef .tc main_arg2) = m ((c : Thread nD τ).loc main_arg2) := Wo19_main_arg2 m ρ c
theorem Wi20_main_arg3 (c : Dev nD) : Wi20 m ρ c (Proc.devRef .tc main_arg3) = m ((c : Thread nD τ).loc main_arg3) := Wo19_main_arg3 m ρ c
theorem Wi20_main_arg4 (c : Dev nD) : Wi20 m ρ c (Proc.devRef .tc main_arg4) = m ((c : Thread nD τ).loc main_arg4) := Wo19_main_arg4 m ρ c

/-- The same read at the TensorCore's references (what region 20's proof data take). -/
abbrev Vi20 : (c : Dev nD) → (b : Ref sig .tc) → Buf (Elt F) ((c : Thread nD τ).loc b) := fun c b => Wi20 m ρ c b

/-- At region 20's exit: its arrays at what the pipeline leaves (the inputs as entered, each output's write-back),
    every other buffer as entered. -/
def Wo20 (c : Dev nD) : Valuation τ sig (Elt F) :=
  Pipeline.withArrays spec20 c (Wi20 m ρ c) fun w => (dat20 (Vi20 m ρ) c).arrAt w cfg20.N
theorem Wo20_arr (c : Dev nD) (w : Fin cfg20.W) :
    Wo20 m ρ c (Proc.devRef .tc (Pipeline.arrRef spec20 w)) = (dat20 (Vi20 m ρ) c).arrAt w cfg20.N := by
  unfold Wo20; exact Pipeline.withArrays_arr spec20 launch20.win.arr_inj c _ _ w
theorem Wo20_of_ne (c : Dev nD) (b : Ref sig .tc) (hb : ∀ w, Pipeline.arrRef spec20 w ≠ b) :
    Wo20 m ρ c (Proc.devRef .tc b) = Wi20 m ρ c (Proc.devRef .tc b) := by
  unfold Wo20; exact Pipeline.withArrays_of_ne spec20 c _ _ b hb
/-- A buffer that is no OUTPUT window's array leaves the region as it entered it: an input window's array is only
    read, and a buffer outside the windows is not touched. -/
theorem Wo20_keep (c : Dev nD) (b : Ref sig .tc) (hb : ∀ w, (cfg20.win w).isOut = true → Pipeline.arrRef spec20 w ≠ b) :
    Wo20 m ρ c (Proc.devRef .tc b) = Wi20 m ρ c (Proc.devRef .tc b) := by
  by_cases h : ∃ w, Pipeline.arrRef spec20 w = b
  · obtain ⟨w, rfl⟩ := h
    have hin : (cfg20.win w).isOut = false := by
      cases hw : (cfg20.win w).isOut
      · rfl
      · exact absurd rfl (hb w hw)
    exact (Wo20_arr m ρ c w).trans (((dat20 (Vi20 m ρ) c).arrAt_in w hin _).trans (A_eq20 (Vi20 m ρ) c w))
  · exact Wo20_of_ne m ρ c b fun w e => h ⟨w, e⟩
/-- The same read at the TensorCore's references (region 20's exit contents). -/
abbrev Vo20 : (c : Dev nD) → (b : Ref sig .tc) → Buf (Elt F) ((c : Thread nD τ).loc b) := fun c b => Wo20 m ρ c b
theorem hF20 (c : Dev nD) (w : Fin cfg20.W) : (dat20 (Vi20 m ρ) c).arrAt w cfg20.N = Vo20 m ρ c (Pipeline.arrRef spec20 w) :=
  (Wo20_arr m ρ c w).symm
theorem hrest20 (c : Dev nD) : ∀ b, b ∉ Finset.univ.image (Pipeline.arrRef spec20) → Vo20 m ρ c b = Vi20 m ρ c b :=
  fun b hb => Wo20_of_ne m ρ c b fun w e => hb (Finset.mem_image.mpr ⟨w, Finset.mem_univ _, e⟩)

/-- The arguments leave the region as launched: no region writes one. -/
theorem Wo20_main_arg0 (c : Dev nD) : Wo20 m ρ c (Proc.devRef .tc main_arg0) = m ((c : Thread nD τ).loc main_arg0) :=
  (Wo20_keep m ρ c main_arg0 (by decide)).trans (Wi20_main_arg0 m ρ c)
theorem Wo20_main_arg1 (c : Dev nD) : Wo20 m ρ c (Proc.devRef .tc main_arg1) = m ((c : Thread nD τ).loc main_arg1) :=
  (Wo20_keep m ρ c main_arg1 (by decide)).trans (Wi20_main_arg1 m ρ c)
theorem Wo20_main_arg2 (c : Dev nD) : Wo20 m ρ c (Proc.devRef .tc main_arg2) = m ((c : Thread nD τ).loc main_arg2) :=
  (Wo20_keep m ρ c main_arg2 (by decide)).trans (Wi20_main_arg2 m ρ c)
theorem Wo20_main_arg3 (c : Dev nD) : Wo20 m ρ c (Proc.devRef .tc main_arg3) = m ((c : Thread nD τ).loc main_arg3) :=
  (Wo20_keep m ρ c main_arg3 (by decide)).trans (Wi20_main_arg3 m ρ c)
theorem Wo20_main_arg4 (c : Dev nD) : Wo20 m ρ c (Proc.devRef .tc main_arg4) = m ((c : Thread nD τ).loc main_arg4) :=
  (Wo20_keep m ρ c main_arg4 (by decide)).trans (Wi20_main_arg4 m ρ c)

end Cert.Kernel.Reg

end
-- ==== Proof.KBWalk21.lean ====
/-
  The buffers' contents around region 21: entered from region 20's exit contents; left with its arrays at what its
  pipeline leaves, every other buffer untouched.
-/
import proofs.«107956_j75110388073098_1_alg».proof.Proof.KBRegion21
import proofs.«107956_j75110388073098_1_alg».proof.Proof.KBWalk20

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 21 is entered from what region 20 left. -/
abbrev Wi21 : Dev nD → Valuation τ sig (Elt F) := Wo20 m ρ
theorem Wi21_main_arg0 (c : Dev nD) : Wi21 m ρ c (Proc.devRef .tc main_arg0) = m ((c : Thread nD τ).loc main_arg0) := Wo20_main_arg0 m ρ c
theorem Wi21_main_arg1 (c : Dev nD) : Wi21 m ρ c (Proc.devRef .tc main_arg1) = m ((c : Thread nD τ).loc main_arg1) := Wo20_main_arg1 m ρ c
theorem Wi21_main_arg2 (c : Dev nD) : Wi21 m ρ c (Proc.devRef .tc main_arg2) = m ((c : Thread nD τ).loc main_arg2) := Wo20_main_arg2 m ρ c
theorem Wi21_main_arg3 (c : Dev nD) : Wi21 m ρ c (Proc.devRef .tc main_arg3) = m ((c : Thread nD τ).loc main_arg3) := Wo20_main_arg3 m ρ c
theorem Wi21_main_arg4 (c : Dev nD) : Wi21 m ρ c (Proc.devRef .tc main_arg4) = m ((c : Thread nD τ).loc main_arg4) := Wo20_main_arg4 m ρ c

/-- The same read at the TensorCore's references (what region 21's proof data take). -/
abbrev Vi21 : (c : Dev nD) → (b : Ref sig .tc) → Buf (Elt F) ((c : Thread nD τ).loc b) := fun c b => Wi21 m ρ c b

/-- At region 21's exit: its arrays at what the pipeline leaves (the inputs as entered, each output's write-back),
    every other buffer as entered. -/
def Wo21 (c : Dev nD) : Valuation τ sig (Elt F) :=
  Pipeline.withArrays spec21 c (Wi21 m ρ c) fun w => (dat21 (Vi21 m ρ) c).arrAt w cfg21.N
theorem Wo21_arr (c : Dev nD) (w : Fin cfg21.W) :
    Wo21 m ρ c (Proc.devRef .tc (Pipeline.arrRef spec21 w)) = (dat21 (Vi21 m ρ) c).arrAt w cfg21.N := by
  unfold Wo21; exact Pipeline.withArrays_arr spec21 launch21.win.arr_inj c _ _ w
theorem Wo21_of_ne (c : Dev nD) (b : Ref sig .tc) (hb : ∀ w, Pipeline.arrRef spec21 w ≠ b) :
    Wo21 m ρ c (Proc.devRef .tc b) = Wi21 m ρ c (Proc.devRef .tc b) := by
  unfold Wo21; exact Pipeline.withArrays_of_ne spec21 c _ _ b hb
/-- A buffer that is no OUTPUT window's array leaves the region as it entered it: an input window's array is only
    read, and a buffer outside the windows is not touched. -/
theorem Wo21_keep (c : Dev nD) (b : Ref sig .tc) (hb : ∀ w, (cfg21.win w).isOut = true → Pipeline.arrRef spec21 w ≠ b) :
    Wo21 m ρ c (Proc.devRef .tc b) = Wi21 m ρ c (Proc.devRef .tc b) := by
  by_cases h : ∃ w, Pipeline.arrRef spec21 w = b
  · obtain ⟨w, rfl⟩ := h
    have hin : (cfg21.win w).isOut = false := by
      cases hw : (cfg21.win w).isOut
      · rfl
      · exact absurd rfl (hb w hw)
    exact (Wo21_arr m ρ c w).trans (((dat21 (Vi21 m ρ) c).arrAt_in w hin _).trans (A_eq21 (Vi21 m ρ) c w))
  · exact Wo21_of_ne m ρ c b fun w e => h ⟨w, e⟩
/-- The same read at the TensorCore's references (region 21's exit contents). -/
abbrev Vo21 : (c : Dev nD) → (b : Ref sig .tc) → Buf (Elt F) ((c : Thread nD τ).loc b) := fun c b => Wo21 m ρ c b
theorem hF21 (c : Dev nD) (w : Fin cfg21.W) : (dat21 (Vi21 m ρ) c).arrAt w cfg21.N = Vo21 m ρ c (Pipeline.arrRef spec21 w) :=
  (Wo21_arr m ρ c w).symm
theorem hrest21 (c : Dev nD) : ∀ b, b ∉ Finset.univ.image (Pipeline.arrRef spec21) → Vo21 m ρ c b = Vi21 m ρ c b :=
  fun b hb => Wo21_of_ne m ρ c b fun w e => hb (Finset.mem_image.mpr ⟨w, Finset.mem_univ _, e⟩)

/-- The arguments leave the region as launched: no region writes one. -/
theorem Wo21_main_arg0 (c : Dev nD) : Wo21 m ρ c (Proc.devRef .tc main_arg0) = m ((c : Thread nD τ).loc main_arg0) :=
  (Wo21_keep m ρ c main_arg0 (by decide)).trans (Wi21_main_arg0 m ρ c)
theorem Wo21_main_arg1 (c : Dev nD) : Wo21 m ρ c (Proc.devRef .tc main_arg1) = m ((c : Thread nD τ).loc main_arg1) :=
  (Wo21_keep m ρ c main_arg1 (by decide)).trans (Wi21_main_arg1 m ρ c)
theorem Wo21_main_arg2 (c : Dev nD) : Wo21 m ρ c (Proc.devRef .tc main_arg2) = m ((c : Thread nD τ).loc main_arg2) :=
  (Wo21_keep m ρ c main_arg2 (by decide)).trans (Wi21_main_arg2 m ρ c)
theorem Wo21_main_arg3 (c : Dev nD) : Wo21 m ρ c (Proc.devRef .tc main_arg3) = m ((c : Thread nD τ).loc main_arg3) :=
  (Wo21_keep m ρ c main_arg3 (by decide)).trans (Wi21_main_arg3 m ρ c)
theorem Wo21_main_arg4 (c : Dev nD) : Wo21 m ρ c (Proc.devRef .tc main_arg4) = m ((c : Thread nD τ).loc main_arg4) :=
  (Wo21_keep m ρ c main_arg4 (by decide)).trans (Wi21_main_arg4 m ρ c)

end Cert.Kernel.Reg

end
-- ==== Proof.KBWalk22.lean ====
/-
  The buffers' contents around region 22: entered from region 21's exit contents; left with its arrays at what its
  pipeline leaves, every other buffer untouched.
-/
import proofs.«107956_j75110388073098_1_alg».proof.Proof.KBRegion22
import proofs.«107956_j75110388073098_1_alg».proof.Proof.KBWalk21

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 22 is entered from what region 21 left. -/
abbrev Wi22 : Dev nD → Valuation τ sig (Elt F) := Wo21 m ρ
theorem Wi22_main_arg0 (c : Dev nD) : Wi22 m ρ c (Proc.devRef .tc main_arg0) = m ((c : Thread nD τ).loc main_arg0) := Wo21_main_arg0 m ρ c
theorem Wi22_main_arg1 (c : Dev nD) : Wi22 m ρ c (Proc.devRef .tc main_arg1) = m ((c : Thread nD τ).loc main_arg1) := Wo21_main_arg1 m ρ c
theorem Wi22_main_arg2 (c : Dev nD) : Wi22 m ρ c (Proc.devRef .tc main_arg2) = m ((c : Thread nD τ).loc main_arg2) := Wo21_main_arg2 m ρ c
theorem Wi22_main_arg3 (c : Dev nD) : Wi22 m ρ c (Proc.devRef .tc main_arg3) = m ((c : Thread nD τ).loc main_arg3) := Wo21_main_arg3 m ρ c
theorem Wi22_main_arg4 (c : Dev nD) : Wi22 m ρ c (Proc.devRef .tc main_arg4) = m ((c : Thread nD τ).loc main_arg4) := Wo21_main_arg4 m ρ c

/-- The same read at the TensorCore's references (what region 22's proof data take). -/
abbrev Vi22 : (c : Dev nD) → (b : Ref sig .tc) → Buf (Elt F) ((c : Thread nD τ).loc b) := fun c b => Wi22 m ρ c b

/-- At region 22's exit: its arrays at what the pipeline leaves (the inputs as entered, each output's write-back),
    every other buffer as entered. -/
def Wo22 (c : Dev nD) : Valuation τ sig (Elt F) :=
  Pipeline.withArrays spec22 c (Wi22 m ρ c) fun w => (dat22 (Vi22 m ρ) c).arrAt w cfg22.N
theorem Wo22_arr (c : Dev nD) (w : Fin cfg22.W) :
    Wo22 m ρ c (Proc.devRef .tc (Pipeline.arrRef spec22 w)) = (dat22 (Vi22 m ρ) c).arrAt w cfg22.N := by
  unfold Wo22; exact Pipeline.withArrays_arr spec22 launch22.win.arr_inj c _ _ w
theorem Wo22_of_ne (c : Dev nD) (b : Ref sig .tc) (hb : ∀ w, Pipeline.arrRef spec22 w ≠ b) :
    Wo22 m ρ c (Proc.devRef .tc b) = Wi22 m ρ c (Proc.devRef .tc b) := by
  unfold Wo22; exact Pipeline.withArrays_of_ne spec22 c _ _ b hb
/-- A buffer that is no OUTPUT window's array leaves the region as it entered it: an input window's array is only
    read, and a buffer outside the windows is not touched. -/
theorem Wo22_keep (c : Dev nD) (b : Ref sig .tc) (hb : ∀ w, (cfg22.win w).isOut = true → Pipeline.arrRef spec22 w ≠ b) :
    Wo22 m ρ c (Proc.devRef .tc b) = Wi22 m ρ c (Proc.devRef .tc b) := by
  by_cases h : ∃ w, Pipeline.arrRef spec22 w = b
  · obtain ⟨w, rfl⟩ := h
    have hin : (cfg22.win w).isOut = false := by
      cases hw : (cfg22.win w).isOut
      · rfl
      · exact absurd rfl (hb w hw)
    exact (Wo22_arr m ρ c w).trans (((dat22 (Vi22 m ρ) c).arrAt_in w hin _).trans (A_eq22 (Vi22 m ρ) c w))
  · exact Wo22_of_ne m ρ c b fun w e => h ⟨w, e⟩
/-- The same read at the TensorCore's references (region 22's exit contents). -/
abbrev Vo22 : (c : Dev nD) → (b : Ref sig .tc) → Buf (Elt F) ((c : Thread nD τ).loc b) := fun c b => Wo22 m ρ c b
theorem hF22 (c : Dev nD) (w : Fin cfg22.W) : (dat22 (Vi22 m ρ) c).arrAt w cfg22.N = Vo22 m ρ c (Pipeline.arrRef spec22 w) :=
  (Wo22_arr m ρ c w).symm
theorem hrest22 (c : Dev nD) : ∀ b, b ∉ Finset.univ.image (Pipeline.arrRef spec22) → Vo22 m ρ c b = Vi22 m ρ c b :=
  fun b hb => Wo22_of_ne m ρ c b fun w e => hb (Finset.mem_image.mpr ⟨w, Finset.mem_univ _, e⟩)

/-- The arguments leave the region as launched: no region writes one. -/
theorem Wo22_main_arg0 (c : Dev nD) : Wo22 m ρ c (Proc.devRef .tc main_arg0) = m ((c : Thread nD τ).loc main_arg0) :=
  (Wo22_keep m ρ c main_arg0 (by decide)).trans (Wi22_main_arg0 m ρ c)
theorem Wo22_main_arg1 (c : Dev nD) : Wo22 m ρ c (Proc.devRef .tc main_arg1) = m ((c : Thread nD τ).loc main_arg1) :=
  (Wo22_keep m ρ c main_arg1 (by decide)).trans (Wi22_main_arg1 m ρ c)
theorem Wo22_main_arg2 (c : Dev nD) : Wo22 m ρ c (Proc.devRef .tc main_arg2) = m ((c : Thread nD τ).loc main_arg2) :=
  (Wo22_keep m ρ c main_arg2 (by decide)).trans (Wi22_main_arg2 m ρ c)
theorem Wo22_main_arg3 (c : Dev nD) : Wo22 m ρ c (Proc.devRef .tc main_arg3) = m ((c : Thread nD τ).loc main_arg3) :=
  (Wo22_keep m ρ c main_arg3 (by decide)).trans (Wi22_main_arg3 m ρ c)
theorem Wo22_main_arg4 (c : Dev nD) : Wo22 m ρ c (Proc.devRef .tc main_arg4) = m ((c : Thread nD τ).loc main_arg4) :=
  (Wo22_keep m ρ c main_arg4 (by decide)).trans (Wi22_main_arg4 m ρ c)

end Cert.Kernel.Reg

end
-- ==== Proof.KBData.lean ====
/-
  Every pipeline's proof data, each at its region's entry contents, and what rides beside the buffers through every
  segment of @main: the core's generator register at some state and its dues, at nothing.
-/
import proofs.«107956_j75110388073098_1_alg».proof.Proof.KBWalk22

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents: a literal match on the pipeline's index. -/
def pdats : (p : Fin 23) → (c : Dev nD) → Dat τ (Elt F) Unit ℕ (UR sig nD τ) ℕ (Pipeline.pin (pcfgs (F := F)) adm p) c
  | ⟨0, _⟩ => fun c => dat0 (Vi0 m ρ) c
  | ⟨1, _⟩ => fun c => dat1 (Vi1 m ρ) c
  | ⟨2, _⟩ => fun c => dat2 (Vi2 m ρ) c
  | ⟨3, _⟩ => fun c => dat3 (Vi3 m ρ) c
  | ⟨4, _⟩ => fun c => dat4 (Vi4 m ρ) c
  | ⟨5, _⟩ => fun c => dat5 (Vi5 m ρ) c
  | ⟨6, _⟩ => fun c => dat6 (Vi6 m ρ) c
  | ⟨7, _⟩ => fun c => dat7 (Vi7 m ρ) c
  | ⟨8, _⟩ => fun c => dat8 (Vi8 m ρ) c
  | ⟨9, _⟩ => fun c => dat9 (Vi9 m ρ) c
  | ⟨10, _⟩ => fun c => dat10 (Vi10 m ρ) c
  | ⟨11, _⟩ => fun c => dat11 (Vi11 m ρ) c
  | ⟨12, _⟩ => fun c => dat12 (Vi12 m ρ) c
  | ⟨13, _⟩ => fun c => dat13 (Vi13 m ρ) c
  | ⟨14, _⟩ => fun c => dat14 (Vi14 m ρ) c
  | ⟨15, _⟩ => fun c => dat15 (Vi15 m ρ) c
  | ⟨16, _⟩ => fun c => dat16 (Vi16 m ρ) c
  | ⟨17, _⟩ => fun c => dat17 (Vi17 m ρ) c
  | ⟨18, _⟩ => fun c => dat18 (Vi18 m ρ) c
  | ⟨19, _⟩ => fun c => dat19 (Vi19 m ρ) c
  | ⟨20, _⟩ => fun c => dat20 (Vi20 m ρ) c
  | ⟨21, _⟩ => fun c => dat21 (Vi21 m ρ) c
  | ⟨22, _⟩ => fun c => dat22 (Vi22 m ρ) c
  | ⟨_ + 23, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Reg

end
-- ==== Proof.KBSeg0.lean ====
/-
  Region 0 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vi0 m ρ) c).loose
  hwaits := Pipeline.hwaits_of_owed_zero _ _ _ _ L lv 0 fun _ _ => rfl
  pre c := iprop(StableHlo.held (c : Thread nD τ) (Pipeline.ucRefs τ sig) (Wi0 m ρ c) ∗ R c)
  post c := iprop(StableHlo.held (c : Thread nD τ) (Pipeline.ucRefs τ sig) (Wo0 m ρ c) ∗ R c)
  X c := iprop(∃ r, prngReg c r)
  Y c := iprop(∃ r, prngReg c r)
  Z c := Pipeline.unscopedRest (Ix := Unit) (Name := ℕ) (U := UR sig nD τ) (Lvl := ℕ) spec0 c (Vi0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vi0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vi0 m ρ c) (Vo0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg1.lean ====
/-
  Region 0 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vi1 m ρ) c).loose
  hwaits := Pipeline.hwaits_of_owed_zero _ _ _ _ L lv 1 fun _ _ => rfl
  pre c := iprop(StableHlo.held (c : Thread nD τ) (Pipeline.ucRefs τ sig) (Wi1 m ρ c) ∗ R c)
  post c := iprop(StableHlo.held (c : Thread nD τ) (Pipeline.ucRefs τ sig) (Wo1 m ρ c) ∗ R c)
  X c := iprop(∃ r, prngReg c r)
  Y c := iprop(∃ r, prngReg c r)
  Z c := Pipeline.unscopedRest (Ix := Unit) (Name := ℕ) (U := UR sig nD τ) (Lvl := ℕ) spec1 c (Vi1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vi1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vi1 m ρ c) (Vo1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg2.lean ====
/-
  Region 2 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vi2 m ρ) c).loose
  hwaits := Pipeline.hwaits_of_owed_zero _ _ _ _ L lv 2 fun _ _ => rfl
  pre c := iprop(StableHlo.held (c : Thread nD τ) (Pipeline.ucRefs τ sig) (Wi2 m ρ c) ∗ R c)
  post c := iprop(StableHlo.held (c : Thread nD τ) (Pipeline.ucRefs τ sig) (Wo2 m ρ c) ∗ R c)
  X c := iprop(∃ r, prngReg c r)
  Y c := iprop(∃ r, prngReg c r)
  Z c := Pipeline.unscopedRest (Ix := Unit) (Name := ℕ) (U := UR sig nD τ) (Lvl := ℕ) spec2 c (Vi2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vi2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vi2 m ρ c) (Vo2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg3.lean ====
/-
  Region 3 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vi3 m ρ) c).loose
  hwaits := Pipeline.hwaits_of_owed_zero _ _ _ _ L lv 3 fun _ _ => rfl
  pre c := iprop(StableHlo.held (c : Thread nD τ) (Pipeline.ucRefs τ sig) (Wi3 m ρ c) ∗ R c)
  post c := iprop(StableHlo.held (c : Thread nD τ) (Pipeline.ucRefs τ sig) (Wo3 m ρ c) ∗ R c)
  X c := iprop(∃ r, prngReg c r)
  Y c := iprop(∃ r, prngReg c r)
  Z c := Pipeline.unscopedRest (Ix := Unit) (Name := ℕ) (U := UR sig nD τ) (Lvl := ℕ) spec3 c (Vi3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vi3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vi3 m ρ c) (Vo3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg4.lean ====
/-
  Region 4 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vi4 m ρ) c).loose
  hwaits := Pipeline.hwaits_of_owed_zero _ _ _ _ L lv 4 fun _ _ => rfl
  pre c := iprop(StableHlo.held (c : Thread nD τ) (Pipeline.ucRefs τ sig) (Wi4 m ρ c) ∗ R c)
  post c := iprop(StableHlo.held (c : Thread nD τ) (Pipeline.ucRefs τ sig) (Wo4 m ρ c) ∗ R c)
  X c := iprop(∃ r, prngReg c r)
  Y c := iprop(∃ r, prngReg c r)
  Z c := Pipeline.unscopedRest (Ix := Unit) (Name := ℕ) (U := UR sig nD τ) (Lvl := ℕ) spec4 c (Vi4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vi4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vi4 m ρ c) (Vo4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg5.lean ====
/-
  Region 5 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vi5 m ρ) c).loose
  hwaits := Pipeline.hwaits_of_owed_zero _ _ _ _ L lv 5 fun _ _ => rfl
  pre c := iprop(StableHlo.held (c : Thread nD τ) (Pipeline.ucRefs τ sig) (Wi5 m ρ c) ∗ R c)
  post c := iprop(StableHlo.held (c : Thread nD τ) (Pipeline.ucRefs τ sig) (Wo5 m ρ c) ∗ R c)
  X c := iprop(∃ r, prngReg c r)
  Y c := iprop(∃ r, prngReg c r)
  Z c := Pipeline.unscopedRest (Ix := Unit) (Name := ℕ) (U := UR sig nD τ) (Lvl := ℕ) spec5 c (Vi5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vi5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vi5 m ρ c) (Vo5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg6.lean ====
/-
  Region 6 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vi6 m ρ) c).loose
  hwaits := Pipeline.hwaits_of_owed_zero _ _ _ _ L lv 6 fun _ _ => rfl
  pre c := iprop(StableHlo.held (c : Thread nD τ) (Pipeline.ucRefs τ sig) (Wi6 m ρ c) ∗ R c)
  post c := iprop(StableHlo.held (c : Thread nD τ) (Pipeline.ucRefs τ sig) (Wo6 m ρ c) ∗ R c)
  X c := iprop(∃ r, prngReg c r)
  Y c := iprop(∃ r, prngReg c r)
  Z c := Pipeline.unscopedRest (Ix := Unit) (Name := ℕ) (U := UR sig nD τ) (Lvl := ℕ) spec6 c (Vi6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vi6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vi6 m ρ c) (Vo6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg7.lean ====
/-
  Region 7 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vi7 m ρ) c).loose
  hwaits := Pipeline.hwaits_of_owed_zero _ _ _ _ L lv 7 fun _ _ => rfl
  pre c := iprop(StableHlo.held (c : Thread nD τ) (Pipeline.ucRefs τ sig) (Wi7 m ρ c) ∗ R c)
  post c := iprop(StableHlo.held (c : Thread nD τ) (Pipeline.ucRefs τ sig) (Wo7 m ρ c) ∗ R c)
  X c := iprop(∃ r, prngReg c r)
  Y c := iprop(∃ r, prngReg c r)
  Z c := Pipeline.unscopedRest (Ix := Unit) (Name := ℕ) (U := UR sig nD τ) (Lvl := ℕ) spec7 c (Vi7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vi7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vi7 m ρ c) (Vo7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg8.lean ====
/-
  Region 8 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vi8 m ρ) c).loose
  hwaits := Pipeline.hwaits_of_owed_zero _ _ _ _ L lv 8 fun _ _ => rfl
  pre c := iprop(StableHlo.held (c : Thread nD τ) (Pipeline.ucRefs τ sig) (Wi8 m ρ c) ∗ R c)
  post c := iprop(StableHlo.held (c : Thread nD τ) (Pipeline.ucRefs τ sig) (Wo8 m ρ c) ∗ R c)
  X c := iprop(∃ r, prngReg c r)
  Y c := iprop(∃ r, prngReg c r)
  Z c := Pipeline.unscopedRest (Ix := Unit) (Name := ℕ) (U := UR sig nD τ) (Lvl := ℕ) spec8 c (Vi8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vi8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vi8 m ρ c) (Vo8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg9.lean ====
/-
  Region 9 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vi9 m ρ) c).loose
  hwaits := Pipeline.hwaits_of_owed_zero _ _ _ _ L lv 9 fun _ _ => rfl
  pre c := iprop(StableHlo.held (c : Thread nD τ) (Pipeline.ucRefs τ sig) (Wi9 m ρ c) ∗ R c)
  post c := iprop(StableHlo.held (c : Thread nD τ) (Pipeline.ucRefs τ sig) (Wo9 m ρ c) ∗ R c)
  X c := iprop(∃ r, prngReg c r)
  Y c := iprop(∃ r, prngReg c r)
  Z c := Pipeline.unscopedRest (Ix := Unit) (Name := ℕ) (U := UR sig nD τ) (Lvl := ℕ) spec9 c (Vi9 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (Vi9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (Vi9 m ρ c) (Vo9 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg10.lean ====
/-
  Region 10 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vi10 m ρ) c).loose
  hwaits := Pipeline.hwaits_of_owed_zero _ _ _ _ L lv 10 fun _ _ => rfl
  pre c := iprop(StableHlo.held (c : Thread nD τ) (Pipeline.ucRefs τ sig) (Wi10 m ρ c) ∗ R c)
  post c := iprop(StableHlo.held (c : Thread nD τ) (Pipeline.ucRefs τ sig) (Wo10 m ρ c) ∗ R c)
  X c := iprop(∃ r, prngReg c r)
  Y c := iprop(∃ r, prngReg c r)
  Z c := Pipeline.unscopedRest (Ix := Unit) (Name := ℕ) (U := UR sig nD τ) (Lvl := ℕ) spec10 c (Vi10 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (Vi10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (Vi10 m ρ c) (Vo10 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg11.lean ====
/-
  Region 11 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vi11 m ρ) c).loose
  hwaits := Pipeline.hwaits_of_owed_zero _ _ _ _ L lv 11 fun _ _ => rfl
  pre c := iprop(StableHlo.held (c : Thread nD τ) (Pipeline.ucRefs τ sig) (Wi11 m ρ c) ∗ R c)
  post c := iprop(StableHlo.held (c : Thread nD τ) (Pipeline.ucRefs τ sig) (Wo11 m ρ c) ∗ R c)
  X c := iprop(∃ r, prngReg c r)
  Y c := iprop(∃ r, prngReg c r)
  Z c := Pipeline.unscopedRest (Ix := Unit) (Name := ℕ) (U := UR sig nD τ) (Lvl := ℕ) spec11 c (Vi11 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (Vi11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (Vi11 m ρ c) (Vo11 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg12.lean ====
/-
  Region 12 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vi12 m ρ) c).loose
  hwaits := Pipeline.hwaits_of_owed_zero _ _ _ _ L lv 12 fun _ _ => rfl
  pre c := iprop(StableHlo.held (c : Thread nD τ) (Pipeline.ucRefs τ sig) (Wi12 m ρ c) ∗ R c)
  post c := iprop(StableHlo.held (c : Thread nD τ) (Pipeline.ucRefs τ sig) (Wo12 m ρ c) ∗ R c)
  X c := iprop(∃ r, prngReg c r)
  Y c := iprop(∃ r, prngReg c r)
  Z c := Pipeline.unscopedRest (Ix := Unit) (Name := ℕ) (U := UR sig nD τ) (Lvl := ℕ) spec12 c (Vi12 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (Vi12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (Vi12 m ρ c) (Vo12 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg13.lean ====
/-
  Region 13 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vi13 m ρ) c).loose
  hwaits := Pipeline.hwaits_of_owed_zero _ _ _ _ L lv 13 fun _ _ => rfl
  pre c := iprop(StableHlo.held (c : Thread nD τ) (Pipeline.ucRefs τ sig) (Wi13 m ρ c) ∗ R c)
  post c := iprop(StableHlo.held (c : Thread nD τ) (Pipeline.ucRefs τ sig) (Wo13 m ρ c) ∗ R c)
  X c := iprop(∃ r, prngReg c r)
  Y c := iprop(∃ r, prngReg c r)
  Z c := Pipeline.unscopedRest (Ix := Unit) (Name := ℕ) (U := UR sig nD τ) (Lvl := ℕ) spec13 c (Vi13 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (Vi13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (Vi13 m ρ c) (Vo13 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg14.lean ====
/-
  Region 14 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (Vi14 m ρ) c).loose
  hwaits := Pipeline.hwaits_of_owed_zero _ _ _ _ L lv 14 fun _ _ => rfl
  pre c := iprop(StableHlo.held (c : Thread nD τ) (Pipeline.ucRefs τ sig) (Wi14 m ρ c) ∗ R c)
  post c := iprop(StableHlo.held (c : Thread nD τ) (Pipeline.ucRefs τ sig) (Wo14 m ρ c) ∗ R c)
  X c := iprop(∃ r, prngReg c r)
  Y c := iprop(∃ r, prngReg c r)
  Z c := Pipeline.unscopedRest (Ix := Unit) (Name := ℕ) (U := UR sig nD τ) (Lvl := ℕ) spec14 c (Vi14 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (Vi14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (Vi14 m ρ c) (Vo14 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg15.lean ====
/-
  Region 15 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (Vi15 m ρ) c).loose
  hwaits := Pipeline.hwaits_of_owed_zero _ _ _ _ L lv 15 fun _ _ => rfl
  pre c := iprop(StableHlo.held (c : Thread nD τ) (Pipeline.ucRefs τ sig) (Wi15 m ρ c) ∗ R c)
  post c := iprop(StableHlo.held (c : Thread nD τ) (Pipeline.ucRefs τ sig) (Wo15 m ρ c) ∗ R c)
  X c := iprop(∃ r, prngReg c r)
  Y c := iprop(∃ r, prngReg c r)
  Z c := Pipeline.unscopedRest (Ix := Unit) (Name := ℕ) (U := UR sig nD τ) (Lvl := ℕ) spec15 c (Vi15 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (Vi15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (Vi15 m ρ c) (Vo15 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg16.lean ====
/-
  Region 16 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (Vi16 m ρ) c).loose
  hwaits := Pipeline.hwaits_of_owed_zero _ _ _ _ L lv 16 fun _ _ => rfl
  pre c := iprop(StableHlo.held (c : Thread nD τ) (Pipeline.ucRefs τ sig) (Wi16 m ρ c) ∗ R c)
  post c := iprop(StableHlo.held (c : Thread nD τ) (Pipeline.ucRefs τ sig) (Wo16 m ρ c) ∗ R c)
  X c := iprop(∃ r, prngReg c r)
  Y c := iprop(∃ r, prngReg c r)
  Z c := Pipeline.unscopedRest (Ix := Unit) (Name := ℕ) (U := UR sig nD τ) (Lvl := ℕ) spec16 c (Vi16 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (Vi16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (Vi16 m ρ c) (Vo16 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg17.lean ====
/-
  Region 17 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (Vi17 m ρ) c).loose
  hwaits := Pipeline.hwaits_of_owed_zero _ _ _ _ L lv 17 fun _ _ => rfl
  pre c := iprop(StableHlo.held (c : Thread nD τ) (Pipeline.ucRefs τ sig) (Wi17 m ρ c) ∗ R c)
  post c := iprop(StableHlo.held (c : Thread nD τ) (Pipeline.ucRefs τ sig) (Wo17 m ρ c) ∗ R c)
  X c := iprop(∃ r, prngReg c r)
  Y c := iprop(∃ r, prngReg c r)
  Z c := Pipeline.unscopedRest (Ix := Unit) (Name := ℕ) (U := UR sig nD τ) (Lvl := ℕ) spec17 c (Vi17 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (Vi17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (Vi17 m ρ c) (Vo17 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg18.lean ====
/-
  Region 18 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (Vi18 m ρ) c).loose
  hwaits := Pipeline.hwaits_of_owed_zero _ _ _ _ L lv 18 fun _ _ => rfl
  pre c := iprop(StableHlo.held (c : Thread nD τ) (Pipeline.ucRefs τ sig) (Wi18 m ρ c) ∗ R c)
  post c := iprop(StableHlo.held (c : Thread nD τ) (Pipeline.ucRefs τ sig) (Wo18 m ρ c) ∗ R c)
  X c := iprop(∃ r, prngReg c r)
  Y c := iprop(∃ r, prngReg c r)
  Z c := Pipeline.unscopedRest (Ix := Unit) (Name := ℕ) (U := UR sig nD τ) (Lvl := ℕ) spec18 c (Vi18 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (Vi18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m ρ 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (Vi18 m ρ c) (Vo18 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg19.lean ====
/-
  Region 19 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (Vi19 m ρ) c).loose
  hwaits := Pipeline.hwaits_of_owed_zero _ _ _ _ L lv 19 fun _ _ => rfl
  pre c := iprop(StableHlo.held (c : Thread nD τ) (Pipeline.ucRefs τ sig) (Wi19 m ρ c) ∗ R c)
  post c := iprop(StableHlo.held (c : Thread nD τ) (Pipeline.ucRefs τ sig) (Wo19 m ρ c) ∗ R c)
  X c := iprop(∃ r, prngReg c r)
  Y c := iprop(∃ r, prngReg c r)
  Z c := Pipeline.unscopedRest (Ix := Unit) (Name := ℕ) (U := UR sig nD τ) (Lvl := ℕ) spec19 c (Vi19 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (Vi19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m ρ 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (Vi19 m ρ c) (Vo19 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg20.lean ====
/-
  Region 20 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg20 : Pipeline.RegionSeg (pcfgs (F := F)) adm (pdats m ρ) () defs₀ 𝒱₀ L lv 20 where
  win := launch20.win.to₀
  block_pos := launch20.block_pos
  stage_whole := launch20.stage_whole
  K := PEmpty
  osem k := k.elim
  ho := Pipeline.OwnSemFacts.none _
  hbody c := (body_obligation20 (Vi20 m ρ) c).loose
  hwaits := Pipeline.hwaits_of_owed_zero _ _ _ _ L lv 20 fun _ _ => rfl
  pre c := iprop(StableHlo.held (c : Thread nD τ) (Pipeline.ucRefs τ sig) (Wi20 m ρ c) ∗ R c)
  post c := iprop(StableHlo.held (c : Thread nD τ) (Pipeline.ucRefs τ sig) (Wo20 m ρ c) ∗ R c)
  X c := iprop(∃ r, prngReg c r)
  Y c := iprop(∃ r, prngReg c r)
  Z c := Pipeline.unscopedRest (Ix := Unit) (Name := ℕ) (U := UR sig nD τ) (Lvl := ℕ) spec20 c (Vi20 m ρ c)
  hentry c := by
    rw [Pipeline.ownSems0_none]
    have hsplit := Pipeline.arrays_of_unscopedBufs (p := 20) (pcfgs (F := F)) adm (pdats m ρ) launch20.win launch20.arr_whole c
      ((pdats m ρ 20 c).share_full fun _ => rfl) (Vi20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m ρ 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m ρ) ((pdats m ρ 20 c).share_full fun _ => rfl)
      (Vi20 m ρ c) (Vo20 m ρ c) ((pdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg21.lean ====
/-
  Region 21 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg21 : Pipeline.RegionSeg (pcfgs (F := F)) adm (pdats m ρ) () defs₀ 𝒱₀ L lv 21 where
  win := launch21.win.to₀
  block_pos := launch21.block_pos
  stage_whole := launch21.stage_whole
  K := PEmpty
  osem k := k.elim
  ho := Pipeline.OwnSemFacts.none _
  hbody c := (body_obligation21 (Vi21 m ρ) c).loose
  hwaits := Pipeline.hwaits_of_owed_zero _ _ _ _ L lv 21 fun _ _ => rfl
  pre c := iprop(StableHlo.held (c : Thread nD τ) (Pipeline.ucRefs τ sig) (Wi21 m ρ c) ∗ R c)
  post c := iprop(StableHlo.held (c : Thread nD τ) (Pipeline.ucRefs τ sig) (Wo21 m ρ c) ∗ R c)
  X c := iprop(∃ r, prngReg c r)
  Y c := iprop(∃ r, prngReg c r)
  Z c := Pipeline.unscopedRest (Ix := Unit) (Name := ℕ) (U := UR sig nD τ) (Lvl := ℕ) spec21 c (Vi21 m ρ c)
  hentry c := by
    rw [Pipeline.ownSems0_none]
    have hsplit := Pipeline.arrays_of_unscopedBufs (p := 21) (pcfgs (F := F)) adm (pdats m ρ) launch21.win launch21.arr_whole c
      ((pdats m ρ 21 c).share_full fun _ => rfl) (Vi21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m ρ) ((pdats m ρ 21 c).share_full fun _ => rfl)
      (Vi21 m ρ c) (Vo21 m ρ c) ((pdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBSeg22.lean ====
/-
  Region 22 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KBData

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg22 : Pipeline.RegionSeg (pcfgs (F := F)) adm (pdats m ρ) () defs₀ 𝒱₀ L lv 22 where
  win := launch22.win.to₀
  block_pos := launch22.block_pos
  stage_whole := launch22.stage_whole
  K := PEmpty
  osem k := k.elim
  ho := Pipeline.OwnSemFacts.none _
  hbody c := (body_obligation22 (Vi22 m ρ) c).loose
  hwaits := Pipeline.hwaits_of_owed_zero _ _ _ _ L lv 22 fun _ _ => rfl
  pre c := iprop(StableHlo.held (c : Thread nD τ) (Pipeline.ucRefs τ sig) (Wi22 m ρ c) ∗ R c)
  post c := iprop(StableHlo.held (c : Thread nD τ) (Pipeline.ucRefs τ sig) (Wo22 m ρ c) ∗ R c)
  X c := iprop(∃ r, prngReg c r)
  Y c := iprop(∃ r, prngReg c r)
  Z c := Pipeline.unscopedRest (Ix := Unit) (Name := ℕ) (U := UR sig nD τ) (Lvl := ℕ) spec22 c (Vi22 m ρ c)
  hentry c := by
    rw [Pipeline.ownSems0_none]
    have hsplit := Pipeline.arrays_of_unscopedBufs (p := 22) (pcfgs (F := F)) adm (pdats m ρ) launch22.win launch22.arr_whole c
      ((pdats m ρ 22 c).share_full fun _ => rfl) (Vi22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m ρ 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m ρ) ((pdats m ρ 22 c).share_full fun _ => rfl)
      (Vi22 m ρ c) (Vo22 m ρ c) ((pdats m ρ 22 c).arrAt · cfg22.N) (hF22 m ρ c) (hrest22 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.KBRun.lean ====
/-
  The run of @main: region 0, the host stretch that computes the loss, regions 1 to 22, and the host tail that
  assembles the result — composed by the several-regions launch. Every weakly fair execution from memory `m` with zero
  counters terminates, and every final memory holds each unscoped buffer at the last boundary's contents `Wend`.
-/
import proofs.«107956_j75110388073098_1_alg».proof.Proof.KBSeg0
import proofs.«107956_j75110388073098_1_alg».proof.Proof.KBSeg1
import proofs.«107956_j75110388073098_1_alg».proof.Proof.KBSeg2
import proofs.«107956_j75110388073098_1_alg».proof.Proof.KBSeg3
import proofs.«107956_j75110388073098_1_alg».proof.Proof.KBSeg4
import proofs.«107956_j75110388073098_1_alg».proof.Proof.KBSeg5
import proofs.«107956_j75110388073098_1_alg».proof.Proof.KBSeg6
import proofs.«107956_j75110388073098_1_alg».proof.Proof.KBSeg7
import proofs.«107956_j75110388073098_1_alg».proof.Proof.KBSeg8
import proofs.«107956_j75110388073098_1_alg».proof.Proof.KBSeg9
import proofs.«107956_j75110388073098_1_alg».proof.Proof.KBSeg10
import proofs.«107956_j75110388073098_1_alg».proof.Proof.KBSeg11
import proofs.«107956_j75110388073098_1_alg».proof.Proof.KBSeg12
import proofs.«107956_j75110388073098_1_alg».proof.Proof.KBSeg13
import proofs.«107956_j75110388073098_1_alg».proof.Proof.KBSeg14
import proofs.«107956_j75110388073098_1_alg».proof.Proof.KBSeg15
import proofs.«107956_j75110388073098_1_alg».proof.Proof.KBSeg16
import proofs.«107956_j75110388073098_1_alg».proof.Proof.KBSeg17
import proofs.«107956_j75110388073098_1_alg».proof.Proof.KBSeg18
import proofs.«107956_j75110388073098_1_alg».proof.Proof.KBSeg19
import proofs.«107956_j75110388073098_1_alg».proof.Proof.KBSeg20
import proofs.«107956_j75110388073098_1_alg».proof.Proof.KBSeg21
import proofs.«107956_j75110388073098_1_alg».proof.Proof.KBSeg22

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents after the host tail: what @main returns with. -/
abbrev Wend : Dev nD → Valuation τ sig (Elt F) := fun c => StableHlo.after hostOps23 (Wo22 m ρ c)
/-- The tail writes only its own results: any other buffer passes through it. -/
theorem Wend_of (c : Dev nD) (r : Ref sig .tc) (h : r ∉ hostOps23_W) : Wend m ρ c (Proc.devRef .tc r) = Wo22 m ρ c (Proc.devRef .tc r) :=
  StableHlo.after_of_writes_sub hostOps23 _ hostOps23_writes h
theorem Wend_main_arg0 (c : Dev nD) : Wend m ρ c (Proc.devRef .tc main_arg0) = m ((c : Thread nD τ).loc main_arg0) :=
  (Wend_of m ρ c main_arg0 (by decide)).trans (Wo22_main_arg0 m ρ c)
theorem Wend_main_arg1 (c : Dev nD) : Wend m ρ c (Proc.devRef .tc main_arg1) = m ((c : Thread nD τ).loc main_arg1) :=
  (Wend_of m ρ c main_arg1 (by decide)).trans (Wo22_main_arg1 m ρ c)
theorem Wend_main_arg2 (c : Dev nD) : Wend m ρ c (Proc.devRef .tc main_arg2) = m ((c : Thread nD τ).loc main_arg2) :=
  (Wend_of m ρ c main_arg2 (by decide)).trans (Wo22_main_arg2 m ρ c)
theorem Wend_main_arg3 (c : Dev nD) : Wend m ρ c (Proc.devRef .tc main_arg3) = m ((c : Thread nD τ).loc main_arg3) :=
  (Wend_of m ρ c main_arg3 (by decide)).trans (Wo22_main_arg3 m ρ c)
theorem Wend_main_arg4 (c : Dev nD) : Wend m ρ c (Proc.devRef .tc main_arg4) = m ((c : Thread nD τ).loc main_arg4) :=
  (Wend_of m ρ c main_arg4 (by decide)).trans (Wo22_main_arg4 m ρ c)

/-- The last thread state without the dues: every unscoped buffer at `Wend`, the generator register at some state. -/
abbrev Tₙ (c : Dev nD) : sProp 𝕄 := iprop(StableHlo.held (c : Thread nD τ) (Pipeline.ucRefs τ sig) (Wend m ρ c) ∗ ∃ r, prngReg c r)

/-- @main's 25 segments in order. -/
abbrev segs : List (Pipeline.Seg (pcfgs (F := F)) adm (pdats m ρ) () defs₀ 𝒱₀ L lv) :=
  [ .region (reg0 m ρ),
    .host (hseg hostOps1 hostOps1_sub hostOps1_fresh (Wo0 m ρ)),
    .region (reg1 m ρ),
    .region (reg2 m ρ),
    .region (reg3 m ρ),
    .region (reg4 m ρ),
    .region (reg5 m ρ),
    .region (reg6 m ρ),
    .region (reg7 m ρ),
    .region (reg8 m ρ),
    .region (reg9 m ρ),
    .region (reg10 m ρ),
    .region (reg11 m ρ),
    .region (reg12 m ρ),
    .region (reg13 m ρ),
    .region (reg14 m ρ),
    .region (reg15 m ρ),
    .region (reg16 m ρ),
    .region (reg17 m ρ),
    .region (reg18 m ρ),
    .region (reg19 m ρ),
    .region (reg20 m ρ),
    .region (reg21 m ρ),
    .region (reg22 m ρ),
    .host (hseg hostOps23 hostOps23_sub hostOps23_fresh (Wo22 m ρ)) ]

/-- @main IS the run of the segments. -/
theorem main_run (c : Dev nD) : main (F := F) c = Pipeline.Seg.run (segs m ρ) := (main_chain c).trans (by chain_rfl)

set_option backward.isDefEq.respectTransparency.types false in
/-- THE RUN: every weakly fair execution of @main terminates, nothing faulting, and every final memory has each
    unscoped buffer at `Wend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wi0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Wend m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wi0 m ρ c)
        from Pipeline.unscopedBufs_held c (Wi0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c => h c)

/-- THE FRAME, at any float instance: the run, each argument read off the final contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c)⟩) (run_all m ρ)

end Cert.Kernel.Reg

end
-- ==== Proof.KIRegion22.lean ====
/-
  Region 22 of @main: the weight gradients `sᵢᵀ·(sᵢ·Wᵢ − sᵢ₊₁)` of the three layers at the free-phase states; one gridless
  kernel over whole arrays.
  Stated at a parameter `V`, the buffers' contents when the region is entered, and at any float instance:
  what each output buffer holds after the body (`out22_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk22 (c : Dev nD) (w : Fin cfg22.W) (t : Fin cfg22.N) : ((cfg22.win w).xblock (cfg22.grid.coords t)).Idx → Elt F (cfg22.win w).elt :=
  ((cfg22.win w).blk t).view.read (Elt F) (V c (Pipeline.arrRef spec22 w))

theorem before22_0_of {c : Dev nD} (dat : Dat τ (Elt F) Unit ℕ (UR sig nD τ) ℕ cfg22 c) (hA : dat.A 0 = V c (Pipeline.arrRef spec22 0))
    (hafter : ∀ t, dat.after 0 t = iblk22 V c 0 t) (t : Fin cfg22.N) (d) : dat.before 0 t d = iblk22 V c 0 t :=
  (dat.before_in_eq_fetched 0 rfl (fun _ => rfl) (fun _ _ _ => rfl) (fun t => by rw [hafter]; unfold Dat.blockOf iblk22; rw [hA]; try rfl) t d).trans
    (by unfold Dat.fetched Dat.blockOf iblk22; rw [hA]; try rfl)
theorem before22_1_of {c : Dev nD} (dat : Dat τ (Elt F) Unit ℕ (UR sig nD τ) ℕ cfg22 c) (hA : dat.A 1 = V c (Pipeline.arrRef spec22 1))
    (hafter : ∀ t, dat.after 1 t = iblk22 V c 1 t) (t : Fin cfg22.N) (d) : dat.before 1 t d = iblk22 V c 1 t :=
  (dat.before_in_eq_fetched 1 rfl (fun _ => rfl) (fun _ _ _ => rfl) (fun t => by rw [hafter]; unfold Dat.blockOf iblk22; rw [hA]; try rfl) t d).trans
    (by unfold Dat.fetched Dat.blockOf iblk22; rw [hA]; try rfl)
theorem before22_2_of {c : Dev nD} (dat : Dat τ (Elt F) Unit ℕ (UR sig nD τ) ℕ cfg22 c) (hA : dat.A 2 = V c (Pipeline.arrRef spec22 2))
    (hafter : ∀ t, dat.after 2 t = iblk22 V c 2 t) (t : Fin cfg22.N) (d) : dat.before 2 t d = iblk22 V c 2 t :=
  (dat.before_in_eq_fetched 2 rfl (fun _ => rfl) (fun _ _ _ => rfl) (fun t => by rw [hafter]; unfold Dat.blockOf iblk22; rw [hA]; try rfl) t d).trans
    (by unfold Dat.fetched Dat.blockOf iblk22; rw [hA]; try rfl)
theorem before22_3_of {c : Dev nD} (dat : Dat τ (Elt F) Unit ℕ (UR sig nD τ) ℕ cfg22 c) (hA : dat.A 3 = V c (Pipeline.arrRef spec22 3))
    (hafter : ∀ t, dat.after 3 t = iblk22 V c 3 t) (t : Fin cfg22.N) (d) : dat.before 3 t d = iblk22 V c 3 t :=
  (dat.before_in_eq_fetched 3 rfl (fun _ => rfl) (fun _ _ _ => rfl) (fun t => by rw [hafter]; unfold Dat.blockOf iblk22; rw [hA]; try rfl) t d).trans
    (by unfold Dat.fetched Dat.blockOf iblk22; rw [hA]; try rfl)
theorem before22_4_of {c : Dev nD} (dat : Dat τ (Elt F) Unit ℕ (UR sig nD τ) ℕ cfg22 c) (hA : dat.A 4 = V c (Pipeline.arrRef spec22 4))
    (hafter : ∀ t, dat.after 4 t = iblk22 V c 4 t) (t : Fin cfg22.N) (d) : dat.before 4 t d = iblk22 V c 4 t :=
  (dat.before_in_eq_fetched 4 rfl (fun _ => rfl) (fun _ _ _ => rfl) (fun t => by rw [hafter]; unfold Dat.blockOf iblk22; rw [hA]; try rfl) t d).trans
    (by unfold Dat.fetched Dat.blockOf iblk22; rw [hA]; try rfl)
theorem before22_5_of {c : Dev nD} (dat : Dat τ (Elt F) Unit ℕ (UR sig nD τ) ℕ cfg22 c) (hA : dat.A 5 = V c (Pipeline.arrRef spec22 5))
    (hafter : ∀ t, dat.after 5 t = iblk22 V c 5 t) (t : Fin cfg22.N) (d) : dat.before 5 t d = iblk22 V c 5 t :=
  (dat.before_in_eq_fetched 5 rfl (fun _ => rfl) (fun _ _ _ => rfl) (fun t => by rw [hafter]; unfold Dat.blockOf iblk22; rw [hA]; try rfl) t d).trans
    (by unfold Dat.fetched Dat.blockOf iblk22; rw [hA]; try rfl)
theorem before22_6_of {c : Dev nD} (dat : Dat τ (Elt F) Unit ℕ (UR sig nD τ) ℕ cfg22 c) (hA : dat.A 6 = V c (Pipeline.arrRef spec22 6))
    (hafter : ∀ t, dat.after 6 t = iblk22 V c 6 t) (t : Fin cfg22.N) (d) : dat.before 6 t d = iblk22 V c 6 t :=
  (dat.before_in_eq_fetched 6 rfl (fun _ => rfl) (fun _ _ _ => rfl) (fun t => by rw [hafter]; unfold Dat.blockOf iblk22; rw [hA]; try rfl) t d).trans
    (by unfold Dat.fetched Dat.blockOf iblk22; rw [hA]; try rfl)

/-- The whole-buffer rectangles the body loads and stores through. -/
abbrev rA22 : Rect S1024x1024 := Rect.unit (s := S1024x1024) ![0, 0] S1024x1024.size inb_S1024x1024_S1024x1024_0_0
abbrev rB22 : Rect S1024x512 := Rect.unit (s := S1024x512) ![0, 0] S1024x512.size inb_S1024x512_S1024x512_0_0

/-- One whole-buffer store covers its buffer. -/
theorem coverA22 (p0 : Vec F S1024x1024 .f32) (y : S1024x1024.Idx) :
    ∃ pc ∈ ([⟨rA22, p0⟩] : List (View.Piece (Elt F) S1024x1024 .f32)), y ∈ pc.1.set :=
  View.cover_of_tiled [⟨rA22, p0⟩] S1024x1024.size (by rfl) y
theorem coverB22 (p0 : Vec F S1024x512 .f32) (y : S1024x512.Idx) :
    ∃ pc ∈ ([⟨rB22, p0⟩] : List (View.Piece (Elt F) S1024x512 .f32)), y ∈ pc.1.set :=
  View.cover_of_tiled [⟨rB22, p0⟩] S1024x512.size (by rfl) y

/-- What the body leaves in each output buffer: its one whole-buffer store, of the payload of the inputs. -/
def out22_7 (x0 : Vec F S1024x1024 .f32) (x1 : Vec F S1024x1024 .f32) (x4 : Vec F S1024x1024 .f32) : Vec F S1024x1024 .f32 :=
  View.canon [⟨rA22, k22_pay3 (View.ld x0 rA22) (View.ld x1 rA22) (View.ld x4 rA22)⟩]
def out22_8 (x1 : Vec F S1024x1024 .f32) (x2 : Vec F S1024x1024 .f32) (x5 : Vec F S1024x1024 .f32) : Vec F S1024x1024 .f32 :=
  View.canon [⟨rA22, k22_pay4 (View.ld x1 rA22) (View.ld x2 rA22) (View.ld x5 rA22)⟩]
def out22_9 (x2 : Vec F S1024x1024 .f32) (x3 : Vec F S1024x512 .f32) (x6 : Vec F S1024x512 .f32) : Vec F S1024x512 .f32 :=
  View.canon [⟨rB22, k22_pay5 (View.ld x2 rA22) (View.ld x3 rB22) (View.ld x6 rB22)⟩]

set_option maxHeartbeats 4000000 in
/-- The body on whole buffers: the inputs' read and kept, each output's left at `out22_w` of the inputs'. -/
theorem sound_kernel22 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x512 .f32) (harg9 : arg9.IsWhole)
    (x0 : Vec F S1024x1024 .f32) (x1 : Vec F S1024x1024 .f32) (x2 : Vec F S1024x1024 .f32) (x3 : Vec F S1024x512 .f32) (x4 : Vec F S1024x1024 .f32) (x5 : Vec F S1024x1024 .f32) (x6 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out22_7 x0 x1 x4) ∗ owns (c : Thread nD τ) arg8 fullShare (out22_8 x1 x2 x5) ∗ owns (c : Thread nD τ) arg9 fullShare (out22_9 x2 x3 x6)) -∗ K ⟨⟩))
      ⊢ wp frame (wpE (defs₀ (F := F)) Variants.none c none) E (cc22__weight_grads_kernel arg0 harg0 arg1 harg1 arg2 harg2 arg3 harg3 arg4 harg4 arg5 harg5 arg6 harg6 arg7 harg7 arg8 harg8 arg9 harg9) K := by
  simp only [cc22__weight_grads_kernel_eq_skeleton]; unfold cc22__weight_grads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverA22 _)
  isplitl [H8]
  · iexists _; isplitr
    swap; · iexact H8
    ipureintro
    exact View.read_writes_eq_canon _ _ _ (coverA22 _)
  iexists _; isplitr
  swap; · iexact H9
  ipureintro
  exact View.read_writes_eq_canon _ _ _ (coverB22 _)

/-- The proof data of pipeline 22: the arrays as the region finds them; after the body each input's buffer at its
    block and each output's at the body's result; the scoped rest and the generator register untouched; nothing owed. -/
def dat22 (c : Dev nD) : Dat τ (Elt F) Unit ℕ (UR sig nD τ) ℕ cfg22 c where
  A w := V c (Pipeline.arrRef spec22 w)
  after w t := match w with
    | ⟨0, _⟩ => iblk22 V c 0 t
    | ⟨1, _⟩ => iblk22 V c 1 t
    | ⟨2, _⟩ => iblk22 V c 2 t
    | ⟨3, _⟩ => iblk22 V c 3 t
    | ⟨4, _⟩ => iblk22 V c 4 t
    | ⟨5, _⟩ => iblk22 V c 5 t
    | ⟨6, _⟩ => iblk22 V c 6 t
    | ⟨7, _⟩ => out22_7 (iblk22 V c 0 t) (iblk22 V c 1 t) (iblk22 V c 4 t)
    | ⟨8, _⟩ => out22_8 (iblk22 V c 1 t) (iblk22 V c 2 t) (iblk22 V c 5 t)
    | ⟨9, _⟩ => out22_9 (iblk22 V c 2 t) (iblk22 V c 3 t) (iblk22 V c 6 t)
  Φ _ := Pipeline.ΦA spec22 c
  q _ := fullShare
  owed _ := 0

theorem A_eq22 (c : Dev nD) (w : Fin cfg22.W) : (dat22 V c).A w = V c (Pipeline.arrRef spec22 w) := by
  dsimp only [dat22]

theorem after22_0 (c : Dev nD) (t : Fin cfg22.N) : (dat22 V c).after 0 t = iblk22 V c 0 t := by dsimp only [dat22]
theorem after22_1 (c : Dev nD) (t : Fin cfg22.N) : (dat22 V c).after 1 t = iblk22 V c 1 t := by dsimp only [dat22]
theorem after22_2 (c : Dev nD) (t : Fin cfg22.N) : (dat22 V c).after 2 t = iblk22 V c 2 t := by dsimp only [dat22]
theorem after22_3 (c : Dev nD) (t : Fin cfg22.N) : (dat22 V c).after 3 t = iblk22 V c 3 t := by dsimp only [dat22]
theorem after22_4 (c : Dev nD) (t : Fin cfg22.N) : (dat22 V c).after 4 t = iblk22 V c 4 t := by dsimp only [dat22]
theorem after22_5 (c : Dev nD) (t : Fin cfg22.N) : (dat22 V c).after 5 t = iblk22 V c 5 t := by dsimp only [dat22]
theorem after22_6 (c : Dev nD) (t : Fin cfg22.N) : (dat22 V c).after 6 t = iblk22 V c 6 t := by dsimp only [dat22]
theorem after22_7 (c : Dev nD) (t : Fin cfg22.N) : (dat22 V c).after 7 t = out22_7 (iblk22 V c 0 t) (iblk22 V c 1 t) (iblk22 V c 4 t) := by dsimp only [dat22]
theorem after22_8 (c : Dev nD) (t : Fin cfg22.N) : (dat22 V c).after 8 t = out22_8 (iblk22 V c 1 t) (iblk22 V c 2 t) (iblk22 V c 5 t) := by dsimp only [dat22]
theorem after22_9 (c : Dev nD) (t : Fin cfg22.N) : (dat22 V c).after 9 t = out22_9 (iblk22 V c 2 t) (iblk22 V c 3 t) (iblk22 V c 6 t) := by dsimp only [dat22]

theorem before22_0 (c : Dev nD) (t : Fin cfg22.N) (d) : (dat22 V c).before 0 t d = iblk22 V c 0 t :=
  before22_0_of V (dat22 V c) (A_eq22 V c 0) (after22_0 V c) t d
theorem before22_1 (c : Dev nD) (t : Fin cfg22.N) (d) : (dat22 V c).before 1 t d = iblk22 V c 1 t :=
  before22_1_of V (dat22 V c) (A_eq22 V c 1) (after22_1 V c) t d
theorem before22_2 (c : Dev nD) (t : Fin cfg22.N) (d) : (dat22 V c).before 2 t d = iblk22 V c 2 t :=
  before22_2_of V (dat22 V c) (A_eq22 V c 2) (after22_2 V c) t d
theorem before22_3 (c : Dev nD) (t : Fin cfg22.N) (d) : (dat22 V c).before 3 t d = iblk22 V c 3 t :=
  before22_3_of V (dat22 V c) (A_eq22 V c 3) (after22_3 V c) t d
theorem before22_4 (c : Dev nD) (t : Fin cfg22.N) (d) : (dat22 V c).before 4 t d = iblk22 V c 4 t :=
  before22_4_of V (dat22 V c) (A_eq22 V c 4) (after22_4 V c) t d
theorem before22_5 (c : Dev nD) (t : Fin cfg22.N) (d) : (dat22 V c).before 5 t d = iblk22 V c 5 t :=
  before22_5_of V (dat22 V c) (A_eq22 V c 5) (after22_5 V c) t d
theorem before22_6 (c : Dev nD) (t : Fin cfg22.N) (d) : (dat22 V c).before 6 t d = iblk22 V c 6 t :=
  before22_6_of V (dat22 V c) (A_eq22 V c 6) (after22_6 V c) t d

/-- What the body is called with at the point, the windows one by one, -/
def bodyPre22 (c : Dev nD) (t : Fin cfg22.N) : sProp 𝕄 :=
  iprop((dat22 V c).Φ t.castSucc ∗ (dat22 V c).owesAt () t.castSucc
    ∗ (∃ d, owns (c : Thread nD τ) (st22_0 t) fullShare ((dat22 V c).before 0 t d))
    ∗ (∃ d, owns (c : Thread nD τ) (st22_1 t) fullShare ((dat22 V c).before 1 t d))
    ∗ (∃ d, owns (c : Thread nD τ) (st22_2 t) fullShare ((dat22 V c).before 2 t d))
    ∗ (∃ d, owns (c : Thread nD τ) (st22_3 t) fullShare ((dat22 V c).before 3 t d))
    ∗ (∃ d, owns (c : Thread nD τ) (st22_4 t) fullShare ((dat22 V c).before 4 t d))
    ∗ (∃ d, owns (c : Thread nD τ) (st22_5 t) fullShare ((dat22 V c).before 5 t d))
    ∗ (∃ d, owns (c : Thread nD τ) (st22_6 t) fullShare ((dat22 V c).before 6 t d))
    ∗ (∃ d, owns (c : Thread nD τ) (st22_7 t) fullShare ((dat22 V c).before 7 t d))
    ∗ (∃ d, owns (c : Thread nD τ) (st22_8 t) fullShare ((dat22 V c).before 8 t d))
    ∗ (∃ d, owns (c : Thread nD τ) (st22_9 t) fullShare ((dat22 V c).before 9 t d)))

/-- and what it returns. -/
def bodyPost22 (c : Dev nD) (t : Fin cfg22.N) : sProp 𝕄 :=
  iprop((dat22 V c).Φ t.succ ∗ (dat22 V c).owesAt () t.succ
    ∗ owns (c : Thread nD τ) (st22_0 t) fullShare ((dat22 V c).after 0 t)
    ∗ owns (c : Thread nD τ) (st22_1 t) fullShare ((dat22 V c).after 1 t)
    ∗ owns (c : Thread nD τ) (st22_2 t) fullShare ((dat22 V c).after 2 t)
    ∗ owns (c : Thread nD τ) (st22_3 t) fullShare ((dat22 V c).after 3 t)
    ∗ owns (c : Thread nD τ) (st22_4 t) fullShare ((dat22 V c).after 4 t)
    ∗ owns (c : Thread nD τ) (st22_5 t) fullShare ((dat22 V c).after 5 t)
    ∗ owns (c : Thread nD τ) (st22_6 t) fullShare ((dat22 V c).after 6 t)
    ∗ owns (c : Thread nD τ) (st22_7 t) fullShare ((dat22 V c).after 7 t)
    ∗ owns (c : Thread nD τ) (st22_8 t) fullShare ((dat22 V c).after 8 t)
    ∗ owns (c : Thread nD τ) (st22_9 t) fullShare ((dat22 V c).after 9 t))

theorem sound_body22 (c : Dev nD) (t : Fin cfg22.N) :
    bodyPre22 V c t ⊢ wp frame (wpE (defs₀ (F := F)) Variants.none c none) Set.univ (bodyAt22 t) (fun _ => bodyPost22 V c t) := by
  unfold bodyPre22 bodyPost22 bodyAt22
  simp only [before22_0, before22_1, before22_2, before22_3, before22_4, before22_5, before22_6]
  rw [show (dat22 V c).Φ t.succ = (dat22 V c).Φ t.castSucc from rfl,
    show (dat22 V c).owesAt () t.succ = (dat22 V c).owesAt () t.castSucc from rfl,
    after22_0, after22_1, after22_2, after22_3, after22_4, after22_5, after22_6, after22_7, after22_8, after22_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel22 c Set.univ _ _ _ _ _ _ _ _ _ _ _ _ _ _ _ _ _ _ _ _ (iblk22 V c 0 t) (iblk22 V c 1 t) (iblk22 V c 2 t) (iblk22 V c 3 t) (iblk22 V c 4 t) (iblk22 V c 5 t) (iblk22 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at the region's point. -/
theorem body_obligation22 (c : Dev nD) : BodyObligation (dat22 (F := F) V c) (defs₀ (F := F)) Variants.none () Set.univ := fun t => by
  rw [bigSep_W22, bigSep_W22]
  exact sound_body22 V c t

end Cert.KernelIdeal.Reg

end
-- ==== Proof.KIRegion21.lean ====
/-
  Region 21 of @main: the weight gradients `sᵢᵀ·(sᵢ·Wᵢ − sᵢ₊₁)` of the three layers at the free-phase states; one gridless
  kernel over whole arrays.
  Stated at a parameter `V`, the buffers' contents when the region is entered, and at any float instance:
  what each output buffer holds after the body (`out21_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk21 (c : Dev nD) (w : Fin cfg21.W) (t : Fin cfg21.N) : ((cfg21.win w).xblock (cfg21.grid.coords t)).Idx → Elt F (cfg21.win w).elt :=
  ((cfg21.win w).blk t).view.read (Elt F) (V c (Pipeline.arrRef spec21 w))

theorem before21_0_of {c : Dev nD} (dat : Dat τ (Elt F) Unit ℕ (UR sig nD τ) ℕ cfg21 c) (hA : dat.A 0 = V c (Pipeline.arrRef spec21 0))
    (hafter : ∀ t, dat.after 0 t = iblk21 V c 0 t) (t : Fin cfg21.N) (d) : dat.before 0 t d = iblk21 V c 0 t :=
  (dat.before_in_eq_fetched 0 rfl (fun _ => rfl) (fun _ _ _ => rfl) (fun t => by rw [hafter]; unfold Dat.blockOf iblk21; rw [hA]; try rfl) t d).trans
    (by unfold Dat.fetched Dat.blockOf iblk21; rw [hA]; try rfl)
theorem before21_1_of {c : Dev nD} (dat : Dat τ (Elt F) Unit ℕ (UR sig nD τ) ℕ cfg21 c) (hA : dat.A 1 = V c (Pipeline.arrRef spec21 1))
    (hafter : ∀ t, dat.after 1 t = iblk21 V c 1 t) (t : Fin cfg21.N) (d) : dat.before 1 t d = iblk21 V c 1 t :=
  (dat.before_in_eq_fetched 1 rfl (fun _ => rfl) (fun _ _ _ => rfl) (fun t => by rw [hafter]; unfold Dat.blockOf iblk21; rw [hA]; try rfl) t d).trans
    (by unfold Dat.fetched Dat.blockOf iblk21; rw [hA]; try rfl)
theorem before21_2_of {c : Dev nD} (dat : Dat τ (Elt F) Unit ℕ (UR sig nD τ) ℕ cfg21 c) (hA : dat.A 2 = V c (Pipeline.arrRef spec21 2))
    (hafter : ∀ t, dat.after 2 t = iblk21 V c 2 t) (t : Fin cfg21.N) (d) : dat.before 2 t d = iblk21 V c 2 t :=
  (dat.before_in_eq_fetched 2 rfl (fun _ => rfl) (fun _ _ _ => rfl) (fun t => by rw [hafter]; unfold Dat.blockOf iblk21; rw [hA]; try rfl) t d).trans
    (by unfold Dat.fetched Dat.blockOf iblk21; rw [hA]; try rfl)
theorem before21_3_of {c : Dev nD} (dat : Dat τ (Elt F) Unit ℕ (UR sig nD τ) ℕ cfg21 c) (hA : dat.A 3 = V c (Pipeline.arrRef spec21 3))
    (hafter : ∀ t, dat.after 3 t = iblk21 V c 3 t) (t : Fin cfg21.N) (d) : dat.before 3 t d = iblk21 V c 3 t :=
  (dat.before_in_eq_fetched 3 rfl (fun _ => rfl) (fun _ _ _ => rfl) (fun t => by rw [hafter]; unfold Dat.blockOf iblk21; rw [hA]; try rfl) t d).trans
    (by unfold Dat.fetched Dat.blockOf iblk21; rw [hA]; try rfl)
theorem before21_4_of {c : Dev nD} (dat : Dat τ (Elt F) Unit ℕ (UR sig nD τ) ℕ cfg21 c) (hA : dat.A 4 = V c (Pipeline.arrRef spec21 4))
    (hafter : ∀ t, dat.after 4 t = iblk21 V c 4 t) (t : Fin cfg21.N) (d) : dat.before 4 t d = iblk21 V c 4 t :=
  (dat.before_in_eq_fetched 4 rfl (fun _ => rfl) (fun _ _ _ => rfl) (fun t => by rw [hafter]; unfold Dat.blockOf iblk21; rw [hA]; try rfl) t d).trans
    (by unfold Dat.fetched Dat.blockOf iblk21; rw [hA]; try rfl)
theorem before21_5_of {c : Dev nD} (dat : Dat τ (Elt F) Unit ℕ (UR sig nD τ) ℕ cfg21 c) (hA : dat.A 5 = V c (Pipeline.arrRef spec21 5))
    (hafter : ∀ t, dat.after 5 t = iblk21 V c 5 t) (t : Fin cfg21.N) (d) : dat.before 5 t d = iblk21 V c 5 t :=
  (dat.before_in_eq_fetched 5 rfl (fun _ => rfl) (fun _ _ _ => rfl) (fun t => by rw [hafter]; unfold Dat.blockOf iblk21; rw [hA]; try rfl) t d).trans
    (by unfold Dat.fetched Dat.blockOf iblk21; rw [hA]; try rfl)
theorem before21_6_of {c : Dev nD} (dat : Dat τ (Elt F) Unit ℕ (UR sig nD τ) ℕ cfg21 c) (hA : dat.A 6 = V c (Pipeline.arrRef spec21 6))
    (hafter : ∀ t, dat.after 6 t = iblk21 V c 6 t) (t : Fin cfg21.N) (d) : dat.before 6 t d = iblk21 V c 6 t :=
  (dat.before_in_eq_fetched 6 rfl (fun _ => rfl) (fun _ _ _ => rfl) (fun t => by rw [hafter]; unfold Dat.blockOf iblk21; rw [hA]; try rfl) t d).trans
    (by unfold Dat.fetched Dat.blockOf iblk21; rw [hA]; try rfl)

/-- The whole-buffer rectangles the body loads and stores through. -/
abbrev rA21 : Rect S1024x1024 := Rect.unit (s := S1024x1024) ![0, 0] S1024x1024.size inb_S1024x1024_S1024x1024_0_0
abbrev rB21 : Rect S1024x512 := Rect.unit (s := S1024x512) ![0, 0] S1024x512.size inb_S1024x512_S1024x512_0_0

/-- One whole-buffer store covers its buffer. -/
theorem coverA21 (p0 : Vec F S1024x1024 .f32) (y : S1024x1024.Idx) :
    ∃ pc ∈ ([⟨rA21, p0⟩] : List (View.Piece (Elt F) S1024x1024 .f32)), y ∈ pc.1.set :=
  View.cover_of_tiled [⟨rA21, p0⟩] S1024x1024.size (by rfl) y
theorem coverB21 (p0 : Vec F S1024x512 .f32) (y : S1024x512.Idx) :
    ∃ pc ∈ ([⟨rB21, p0⟩] : List (View.Piece (Elt F) S1024x512 .f32)), y ∈ pc.1.set :=
  View.cover_of_tiled [⟨rB21, p0⟩] S1024x512.size (by rfl) y

/-- What the body leaves in each output buffer: its one whole-buffer store, of the payload of the inputs. -/
def out21_7 (x0 : Vec F S1024x1024 .f32) (x1 : Vec F S1024x1024 .f32) (x4 : Vec F S1024x1024 .f32) : Vec F S1024x1024 .f32 :=
  View.canon [⟨rA21, k21_pay3 (View.ld x0 rA21) (View.ld x1 rA21) (View.ld x4 rA21)⟩]
def out21_8 (x1 : Vec F S1024x1024 .f32) (x2 : Vec F S1024x1024 .f32) (x5 : Vec F S1024x1024 .f32) : Vec F S1024x1024 .f32 :=
  View.canon [⟨rA21, k21_pay4 (View.ld x1 rA21) (View.ld x2 rA21) (View.ld x5 rA21)⟩]
def out21_9 (x2 : Vec F S1024x1024 .f32) (x3 : Vec F S1024x512 .f32) (x6 : Vec F S1024x512 .f32) : Vec F S1024x512 .f32 :=
  View.canon [⟨rB21, k21_pay5 (View.ld x2 rA21) (View.ld x3 rB21) (View.ld x6 rB21)⟩]

set_option maxHeartbeats 4000000 in
/-- The body on whole buffers: the inputs' read and kept, each output's left at `out21_w` of the inputs'. -/
theorem sound_kernel21 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x512 .f32) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x512 .f32) (harg9 : arg9.IsWhole)
    (x0 : Vec F S1024x1024 .f32) (x1 : Vec F S1024x1024 .f32) (x2 : Vec F S1024x1024 .f32) (x3 : Vec F S1024x512 .f32) (x4 : Vec F S1024x1024 .f32) (x5 : Vec F S1024x1024 .f32) (x6 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out21_7 x0 x1 x4) ∗ owns (c : Thread nD τ) arg8 fullShare (out21_8 x1 x2 x5) ∗ owns (c : Thread nD τ) arg9 fullShare (out21_9 x2 x3 x6)) -∗ K ⟨⟩))
      ⊢ wp frame (wpE (defs₀ (F := F)) Variants.none c none) E (cc21__weight_grads_kernel arg0 harg0 arg1 harg1 arg2 harg2 arg3 harg3 arg4 harg4 arg5 harg5 arg6 harg6 arg7 harg7 arg8 harg8 arg9 harg9) K := by
  simp only [cc21__weight_grads_kernel_eq_skeleton]; unfold cc21__weight_grads_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (coverA21 _)
  isplitl [H8]
  · iexists _; isplitr
    swap; · iexact H8
    ipureintro
    exact View.read_writes_eq_canon _ _ _ (coverA21 _)
  iexists _; isplitr
  swap; · iexact H9
  ipureintro
  exact View.read_writes_eq_canon _ _ _ (coverB21 _)

/-- The proof data of pipeline 21: the arrays as the region finds them; after the body each input's buffer at its
    block and each output's at the body's result; the scoped rest and the generator register untouched; nothing owed. -/
def dat21 (c : Dev nD) : Dat τ (Elt F) Unit ℕ (UR sig nD τ) ℕ cfg21 c where
  A w := V c (Pipeline.arrRef spec21 w)
  after w t := match w with
    | ⟨0, _⟩ => iblk21 V c 0 t
    | ⟨1, _⟩ => iblk21 V c 1 t
    | ⟨2, _⟩ => iblk21 V c 2 t
    | ⟨3, _⟩ => iblk21 V c 3 t
    | ⟨4, _⟩ => iblk21 V c 4 t
    | ⟨5, _⟩ => iblk21 V c 5 t
    | ⟨6, _⟩ => iblk21 V c 6 t
    | ⟨7, _⟩ => out21_7 (iblk21 V c 0 t) (iblk21 V c 1 t) (iblk21 V c 4 t)
    | ⟨8, _⟩ => out21_8 (iblk21 V c 1 t) (iblk21 V c 2 t) (iblk21 V c 5 t)
    | ⟨9, _⟩ => out21_9 (iblk21 V c 2 t) (iblk21 V c 3 t) (iblk21 V c 6 t)
  Φ _ := Pipeline.ΦA spec21 c
  q _ := fullShare
  owed _ := 0

theorem A_eq21 (c : Dev nD) (w : Fin cfg21.W) : (dat21 V c).A w = V c (Pipeline.arrRef spec21 w) := by
  dsimp only [dat21]

theorem after21_0 (c : Dev nD) (t : Fin cfg21.N) : (dat21 V c).after 0 t = iblk21 V c 0 t := by dsimp only [dat21]
theorem after21_1 (c : Dev nD) (t : Fin cfg21.N) : (dat21 V c).after 1 t = iblk21 V c 1 t := by dsimp only [dat21]
theorem after21_2 (c : Dev nD) (t : Fin cfg21.N) : (dat21 V c).after 2 t = iblk21 V c 2 t := by dsimp only [dat21]
theorem after21_3 (c : Dev nD) (t : Fin cfg21.N) : (dat21 V c).after 3 t = iblk21 V c 3 t := by dsimp only [dat21]
theorem after21_4 (c : Dev nD) (t : Fin cfg21.N) : (dat21 V c).after 4 t = iblk21 V c 4 t := by dsimp only [dat21]
theorem after21_5 (c : Dev nD) (t : Fin cfg21.N) : (dat21 V c).after 5 t = iblk21 V c 5 t := by dsimp only [dat21]
theorem after21_6 (c : Dev nD) (t : Fin cfg21.N) : (dat21 V c).after 6 t = iblk21 V c 6 t := by dsimp only [dat21]
theorem after21_7 (c : Dev nD) (t : Fin cfg21.N) : (dat21 V c).after 7 t = out21_7 (iblk21 V c 0 t) (iblk21 V c 1 t) (iblk21 V c 4 t) := by dsimp only [dat21]
theorem after21_8 (c : Dev nD) (t : Fin cfg21.N) : (dat21 V c).after 8 t = out21_8 (iblk21 V c 1 t) (iblk21 V c 2 t) (iblk21 V c 5 t) := by dsimp only [dat21]
theorem after21_9 (c : Dev nD) (t : Fin cfg21.N) : (dat21 V c).after 9 t = out21_9 (iblk21 V c 2 t) (iblk21 V c 3 t) (iblk21 V c 6 t) := by dsimp only [dat21]

theorem before21_0 (c : Dev nD) (t : Fin cfg21.N) (d) : (dat21 V c).before 0 t d = iblk21 V c 0 t :=
  before21_0_of V (dat21 V c) (A_eq21 V c 0) (after21_0 V c) t d
theorem before21_1 (c : Dev nD) (t : Fin cfg21.N) (d) : (dat21 V c).before 1 t d = iblk21 V c 1 t :=
  before21_1_of V (dat21 V c) (A_eq21 V c 1) (after21_1 V c) t d
theorem before21_2 (c : Dev nD) (t : Fin cfg21.N) (d) : (dat21 V c).before 2 t d = iblk21 V c 2 t :=
  before21_2_of V (dat21 V c) (A_eq21 V c 2) (after21_2 V c) t d
theorem before21_3 (c : Dev nD) (t : Fin cfg21.N) (d) : (dat21 V c).before 3 t d = iblk21 V c 3 t :=
  before21_3_of V (dat21 V c) (A_eq21 V c 3) (after21_3 V c) t d
theorem before21_4 (c : Dev nD) (t : Fin cfg21.N) (d) : (dat21 V c).before 4 t d = iblk21 V c 4 t :=
  before21_4_of V (dat21 V c) (A_eq21 V c 4) (after21_4 V c) t d
theorem before21_5 (c : Dev nD) (t : Fin cfg21.N) (d) : (dat21 V c).before 5 t d = iblk21 V c 5 t :=
  before21_5_of V (dat21 V c) (A_eq21 V c 5) (after21_5 V c) t d
theorem before21_6 (c : Dev nD) (t : Fin cfg21.N) (d) : (dat21 V c).before 6 t d = iblk21 V c 6 t :=
  before21_6_of V (dat21 V c) (A_eq21 V c 6) (after21_6 V c) t d

/-- What the body is called with at the point, the windows one by one, -/
def bodyPre21 (c : Dev nD) (t : Fin cfg21.N) : sProp 𝕄 :=
  iprop((dat21 V c).Φ t.castSucc ∗ (dat21 V c).owesAt () t.castSucc
    ∗ (∃ d, owns (c : Thread nD τ) (st21_0 t) fullShare ((dat21 V c).before 0 t d))
    ∗ (∃ d, owns (c : Thread nD τ) (st21_1 t) fullShare ((dat21 V c).before 1 t d))
    ∗ (∃ d, owns (c : Thread nD τ) (st21_2 t) fullShare ((dat21 V c).before 2 t d))
    ∗ (∃ d, owns (c : Thread nD τ) (st21_3 t) fullShare ((dat21 V c).before 3 t d))
    ∗ (∃ d, owns (c : Thread nD τ) (st21_4 t) fullShare ((dat21 V c).before 4 t d))
    ∗ (∃ d, owns (c : Thread nD τ) (st21_5 t) fullShare ((dat21 V c).before 5 t d))
    ∗ (∃ d, owns (c : Thread nD τ) (st21_6 t) fullShare ((dat21 V c).before 6 t d))
    ∗ (∃ d, owns (c : Thread nD τ) (st21_7 t) fullShare ((dat21 V c).before 7 t d))
    ∗ (∃ d, owns (c : Thread nD τ) (st21_8 t) fullShare ((dat21 V c).before 8 t d))
    ∗ (∃ d, owns (c : Thread nD τ) (st21_9 t) fullShare ((dat21 V c).before 9 t d)))

/-- and what it returns. -/
def bodyPost21 (c : Dev nD) (t : Fin cfg21.N) : sProp 𝕄 :=
  iprop((dat21 V c).Φ t.succ ∗ (dat21 V c).owesAt () t.succ
    ∗ owns (c : Thread nD τ) (st21_0 t) fullShare ((dat21 V c).after 0 t)
    ∗ owns (c : Thread nD τ) (st21_1 t) fullShare ((dat21 V c).after 1 t)
    ∗ owns (c : Thread nD τ) (st21_2 t) fullShare ((dat21 V c).after 2 t)
    ∗ owns (c : Thread nD τ) (st21_3 t) fullShare ((dat21 V c).after 3 t)
    ∗ owns (c : Thread nD τ) (st21_4 t) fullShare ((dat21 V c).after 4 t)
    ∗ owns (c : Thread nD τ) (st21_5 t) fullShare ((dat21 V c).after 5 t)
    ∗ owns (c : Thread nD τ) (st21_6 t) fullShare ((dat21 V c).after 6 t)
    ∗ owns (c : Thread nD τ) (st21_7 t) fullShare ((dat21 V c).after 7 t)
    ∗ owns (c : Thread nD τ) (st21_8 t) fullShare ((dat21 V c).after 8 t)
    ∗ owns (c : Thread nD τ) (st21_9 t) fullShare ((dat21 V c).after 9 t))

theorem sound_body21 (c : Dev nD) (t : Fin cfg21.N) :
    bodyPre21 V c t ⊢ wp frame (wpE (defs₀ (F := F)) Variants.none c none) Set.univ (bodyAt21 t) (fun _ => bodyPost21 V c t) := by
  unfold bodyPre21 bodyPost21 bodyAt21
  simp only [before21_0, before21_1, before21_2, before21_3, before21_4, before21_5, before21_6]
  rw [show (dat21 V c).Φ t.succ = (dat21 V c).Φ t.castSucc from rfl,
    show (dat21 V c).owesAt () t.succ = (dat21 V c).owesAt () t.castSucc from rfl,
    after21_0, after21_1, after21_2, after21_3, after21_4, after21_5, after21_6, after21_7, after21_8, after21_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel21 c Set.univ _ _ _ _ _ _ _ _ _ _ _ _ _ _ _ _ _ _ _ _ (iblk21 V c 0 t) (iblk21 V c 1 t) (iblk21 V c 2 t) (iblk21 V c 3 t) (iblk21 V c 4 t) (iblk21 V c 5 t) (iblk21 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at the region's point. -/
theorem body_obligation21 (c : Dev nD) : BodyObligation (dat21 (F := F) V c) (defs₀ (F := F)) Variants.none () Set.univ := fun t => by
  rw [bigSep_W21, bigSep_W21]
  exact sound_body21 V c t

end Cert.KernelIdeal.Reg

end
-- ==== Proof.KIRegion20.lean ====
/-
  Region 20 of @main: a later relaxation step — each state moved by half its direct gradient, the states taken as
  independent —; one gridless kernel over whole arrays.
  Stated at a parameter `V`, the buffers' contents when the region is entered, and at any float instance:
  what each output buffer holds after the body (`out20_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

theorem before20_0_of {c : Dev nD} (dat : Dat τ (Elt F) Unit ℕ (UR sig nD τ) ℕ cfg20 c) (hA : dat.A 0 = V c (Pipeline.arrRef spec20 0))
    (hafter : ∀ t, dat.after 0 t = iblk20 V c 0 t) (t : Fin cfg20.N) (d) : dat.before 0 t d = iblk20 V c 0 t :=
  (dat.before_in_eq_fetched 0 rfl (fun _ => rfl) (fun _ _ _ => rfl) (fun t => by rw [hafter]; unfold Dat.blockOf iblk20; rw [hA]; try rfl) t d).trans
    (by unfold Dat.fetched Dat.blockOf iblk20; rw [hA]; try rfl)
theorem before20_1_of {c : Dev nD} (dat : Dat τ (Elt F) Unit ℕ (UR sig nD τ) ℕ cfg20 c) (hA : dat.A 1 = V c (Pipeline.arrRef spec20 1))
    (hafter : ∀ t, dat.after 1 t = iblk20 V c 1 t) (t : Fin cfg20.N) (d) : dat.before 1 t d = iblk20 V c 1 t :=
  (dat.before_in_eq_fetched 1 rfl (fun _ => rfl) (fun _ _ _ => rfl) (fun t => by rw [hafter]; unfold Dat.blockOf iblk20; rw [hA]; try rfl) t d).trans
    (by unfold Dat.fetched Dat.blockOf iblk20; rw [hA]; try rfl)
theorem before20_2_of {c : Dev nD} (dat : Dat τ (Elt F) Unit ℕ (UR sig nD τ) ℕ cfg20 c) (hA : dat.A 2 = V c (Pipeline.arrRef spec20 2))
    (hafter : ∀ t, dat.after 2 t = iblk20 V c 2 t) (t : Fin cfg20.N) (d) : dat.before 2 t d = iblk20 V c 2 t :=
  (dat.before_in_eq_fetched 2 rfl (fun _ => rfl) (fun _ _ _ => rfl) (fun t => by rw [hafter]; unfold Dat.blockOf iblk20; rw [hA]; try rfl) t d).trans
    (by unfold Dat.fetched Dat.blockOf iblk20; rw [hA]; try rfl)
theorem before20_3_of {c : Dev nD} (dat : Dat τ (Elt F) Unit ℕ (UR sig nD τ) ℕ cfg20 c) (hA : dat.A 3 = V c (Pipeline.arrRef spec20 3))
    (hafter : ∀ t, dat.after 3 t = iblk20 V c 3 t) (t : Fin cfg20.N) (d) : dat.before 3 t d = iblk20 V c 3 t :=
  (dat.before_in_eq_fetched 3 rfl (fun _ => rfl) (fun _ _ _ => rfl) (fun t => by rw [hafter]; unfold Dat.blockOf iblk20; rw [hA]; try rfl) t d).trans
    (by unfold Dat.fetched Dat.blockOf iblk20; rw [hA]; try rfl)
theorem before20_4_of {c : Dev nD} (dat : Dat τ (Elt F) Unit ℕ (UR sig nD τ) ℕ cfg20 c) (hA : dat.A 4 = V c (Pipeline.arrRef spec20 4))
    (hafter : ∀ t, dat.after 4 t = iblk20 V c 4 t) (t : Fin cfg20.N) (d) : dat.before 4 t d = iblk20 V c 4 t :=
  (dat.before_in_eq_fetched 4 rfl (fun _ => rfl) (fun _ _ _ => rfl) (fun t => by rw [hafter]; unfold Dat.blockOf iblk20; rw [hA]; try rfl) t d).trans
    (by unfold Dat.fetched Dat.blockOf iblk20; rw [hA]; try rfl)
theorem before20_5_of {c : Dev nD} (dat : Dat τ (Elt F) Unit ℕ (UR sig nD τ) ℕ cfg20 c) (hA : dat.A 5 = V c (Pipeline.arrRef spec20 5))
    (hafter : ∀ t, dat.after 5 t = iblk20 V c 5 t) (t : Fin cfg20.N) (d) : dat.before 5 t d = iblk20 V c 5 t :=
  (dat.before_in_eq_fetched 5 rfl (fun _ => rfl) (fun _ _ _ => rfl) (fun t => by rw [hafter]; unfold Dat.blockOf iblk20; rw [hA]; try rfl) t d).trans
    (by unfold Dat.fetched Dat.blockOf iblk20; rw [hA]; try rfl)
theorem before20_6_of {c : Dev nD} (dat : Dat τ (Elt F) Unit ℕ (UR sig nD τ) ℕ cfg20 c) (hA : dat.A 6 = V c (Pipeline.arrRef spec20 6))
    (hafter : ∀ t, dat.after 6 t = iblk20 V c 6 t) (t : Fin cfg20.N) (d) : dat.before 6 t d = iblk20 V c 6 t :=
  (dat.before_in_eq_fetched 6 rfl (fun _ => rfl) (fun _ _ _ => rfl) (fun t => by rw [hafter]; unfold Dat.blockOf iblk20; rw [hA]; try rfl) t d).trans
    (by unfold Dat.fetched Dat.blockOf iblk20; rw [hA]; try rfl)
theorem before20_7_of {c : Dev nD} (dat : Dat τ (Elt F) Unit ℕ (UR sig nD τ) ℕ cfg20 c) (hA : dat.A 7 = V c (Pipeline.arrRef spec20 7))
    (hafter : ∀ t, dat.after 7 t = iblk20 V c 7 t) (t : Fin cfg20.N) (d) : dat.before 7 t d = iblk20 V c 7 t :=
  (dat.before_in_eq_fetched 7 rfl (fun _ => rfl) (fun _ _ _ => rfl) (fun t => by rw [hafter]; unfold Dat.blockOf iblk20; rw [hA]; try rfl) t d).trans
    (by unfold Dat.fetched Dat.blockOf iblk20; rw [hA]; try rfl)

/-- The whole-buffer rectangles the body loads and stores through. -/
abbrev rA20 : Rect S1024x1024 := Rect.unit (s := S1024x1024) ![0, 0] S1024x1024.size inb_S1024x1024_S1024x1024_0_0
abbrev rB20 : Rect S1024x512 := Rect.unit (s := S1024x512) ![0, 0] S1024x512.size inb_S1024x512_S1024x512_0_0

/-- One whole-buffer store covers its buffer. -/
theorem coverA20 (p0 : Vec F S1024x1024 .f32) (y : S1024x1024.Idx) :
    ∃ pc ∈ ([⟨rA20, p0⟩] : List (View.Piece (Elt F) S1024x1024 .f32)), y ∈ pc.1.set :=
  View.cover_of_tiled [⟨rA20, p0⟩] S1024x1024.size (by rfl) y
theorem coverB20 (p0 : Vec F S1024x512 .f32) (y : S1024x512.Idx) :
    ∃ pc ∈ ([⟨rB20, p0⟩] : List (View.Piece (Elt F) S1024x512 .f32)), y ∈ pc.1.set :=
  View.cover_of_tiled [⟨rB20, p0⟩] S1024x512.size (by rfl) y

/-- What the body leaves in each output buffer: its one whole-buffer store, of the payload of the inputs. -/
def out20_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA20, k20_pay8 (View.ld x0 rA20) (View.ld x1 rA20) (View.ld x2 rA20) (View.ld x5 rA20) (View.ld x6 rA20)⟩]
def out20_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA20, k20_pay1 (k20_pay4 (View.ld x2 rA20)) (k20_pay6 (View.ld x1 rA20) (View.ld x2 rA20) (View.ld x3 rB20) (View.ld x6 rA20) (View.ld x7 rB20))⟩]
def out20_10 (x2 : Vec F S1024x1024 .f32) (x3 : Vec F S1024x512 .f32) (x4 : Vec F S1024x512 .f32) (x7 : Vec F S1024x512 .f32) : Vec F S1024x512 .f32 :=
  View.canon [⟨rB20, k20_pay2 (k20_pay5 (View.ld x3 rB20)) (k20_pay7 (View.ld x2 rA20) (View.ld x3 rB20) (View.ld x4 rB20) (View.ld x7 rB20))⟩]

set_option maxHeartbeats 4000000 in
/-- The body on whole buffers: the inputs' read and kept, each output's left at `out20_w` of the inputs'. -/
theorem sound_kernel20 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out20_8 x0 x1 x2 x5 x6) ∗ owns (c : Thread nD τ) arg9 fullShare (out20_9 x1 x2 x3 x6 x7) ∗ owns (c : Thread nD τ) arg10 fullShare (out20_10 x2 x3 x4 x7)) -∗ K ⟨⟩))
      ⊢ wp frame (wpE (defs₀ (F := F)) Variants.none c none) E (cc20__state_update_kernel arg0 harg0 arg1 harg1 arg2 harg2 arg3 harg3 arg4 harg4 arg5 harg5 arg6 harg6 arg7 harg7 arg8 harg8 arg9 harg9 arg10 harg10) K := by
  simp only [cc20__state_update_kernel_eq_skeleton]; unfold cc20__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA20 _)
  isplitl [H9]
  · iexists _; isplitr
    swap; · iexact H9
    ipureintro
    exact View.read_writes_eq_canon _ _ _ (coverA20 _)
  iexists _; isplitr
  swap; · iexact H10
  ipureintro
  exact View.read_writes_eq_canon _ _ _ (coverB20 _)

/-- The proof data of pipeline 20: the arrays as the region finds them; after the body each input's buffer at its
    block and each output's at the body's result; the scoped rest and the generator register untouched; nothing owed. -/
def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => iblk20 V c 2 t
    | ⟨3, _⟩ => iblk20 V c 3 t
    | ⟨4, _⟩ => iblk20 V c 4 t
    | ⟨5, _⟩ => iblk20 V c 5 t
    | ⟨6, _⟩ => iblk20 V c 6 t
    | ⟨7, _⟩ => iblk20 V c 7 t
    | ⟨8, _⟩ => out20_8 (iblk20 V c 0 t) (iblk20 V c 1 t) (iblk20 V c 2 t) (iblk20 V c 5 t) (iblk20 V c 6 t)
    | ⟨9, _⟩ => out20_9 (iblk20 V c 1 t) (iblk20 V c 2 t) (iblk20 V c 3 t) (iblk20 V c 6 t) (iblk20 V c 7 t)
    | ⟨10, _⟩ => out20_10 (iblk20 V c 2 t) (iblk20 V c 3 t) (iblk20 V c 4 t) (iblk20 V c 7 t)
  Φ _ := Pipeline.ΦA spec20 c
  q _ := fullShare
  owed _ := 0

theorem A_eq20 (c : Dev nD) (w : Fin cfg20.W) : (dat20 V c).A w = V c (Pipeline.arrRef spec20 w) := by
  dsimp only [dat20]

theorem after20_0 (c : Dev nD) (t : Fin cfg20.N) : (dat20 V c).after 0 t = iblk20 V c 0 t := by dsimp only [dat20]
theorem after20_1 (c : Dev nD) (t : Fin cfg20.N) : (dat20 V c).after 1 t = iblk20 V c 1 t := by dsimp only [dat20]
theorem after20_2 (c : Dev nD) (t : Fin cfg20.N) : (dat20 V c).after 2 t = iblk20 V c 2 t := by dsimp only [dat20]
theorem after20_3 (c : Dev nD) (t : Fin cfg20.N) : (dat20 V c).after 3 t = iblk20 V c 3 t := by dsimp only [dat20]
theorem after20_4 (c : Dev nD) (t : Fin cfg20.N) : (dat20 V c).after 4 t = iblk20 V c 4 t := by dsimp only [dat20]
theorem after20_5 (c : Dev nD) (t : Fin cfg20.N) : (dat20 V c).after 5 t = iblk20 V c 5 t := by dsimp only [dat20]
theorem after20_6 (c : Dev nD) (t : Fin cfg20.N) : (dat20 V c).after 6 t = iblk20 V c 6 t := by dsimp only [dat20]
theorem after20_7 (c : Dev nD) (t : Fin cfg20.N) : (dat20 V c).after 7 t = iblk20 V c 7 t := by dsimp only [dat20]
theorem after20_8 (c : Dev nD) (t : Fin cfg20.N) : (dat20 V c).after 8 t = out20_8 (iblk20 V c 0 t) (iblk20 V c 1 t) (iblk20 V c 2 t) (iblk20 V c 5 t) (iblk20 V c 6 t) := by dsimp only [dat20]
theorem after20_9 (c : Dev nD) (t : Fin cfg20.N) : (dat20 V c).after 9 t = out20_9 (iblk20 V c 1 t) (iblk20 V c 2 t) (iblk20 V c 3 t) (iblk20 V c 6 t) (iblk20 V c 7 t) := by dsimp only [dat20]
theorem after20_10 (c : Dev nD) (t : Fin cfg20.N) : (dat20 V c).after 10 t = out20_10 (iblk20 V c 2 t) (iblk20 V c 3 t) (iblk20 V c 4 t) (iblk20 V c 7 t) := by dsimp only [dat20]

theorem before20_0 (c : Dev nD) (t : Fin cfg20.N) (d) : (dat20 V c).before 0 t d = iblk20 V c 0 t :=
  before20_0_of V (dat20 V c) (A_eq20 V c 0) (after20_0 V c) t d
theorem before20_1 (c : Dev nD) (t : Fin cfg20.N) (d) : (dat20 V c).before 1 t d = iblk20 V c 1 t :=
  before20_1_of V (dat20 V c) (A_eq20 V c 1) (after20_1 V c) t d
theorem before20_2 (c : Dev nD) (t : Fin cfg20.N) (d) : (dat20 V c).before 2 t d = iblk20 V c 2 t :=
  before20_2_of V (dat20 V c) (A_eq20 V c 2) (after20_2 V c) t d
theorem before20_3 (c : Dev nD) (t : Fin cfg20.N) (d) : (dat20 V c).before 3 t d = iblk20 V c 3 t :=
  before20_3_of V (dat20 V c) (A_eq20 V c 3) (after20_3 V c) t d
theorem before20_4 (c : Dev nD) (t : Fin cfg20.N) (d) : (dat20 V c).before 4 t d = iblk20 V c 4 t :=
  before20_4_of V (dat20 V c) (A_eq20 V c 4) (after20_4 V c) t d
theorem before20_5 (c : Dev nD) (t : Fin cfg20.N) (d) : (dat20 V c).before 5 t d = iblk20 V c 5 t :=
  before20_5_of V (dat20 V c) (A_eq20 V c 5) (after20_5 V c) t d
theorem before20_6 (c : Dev nD) (t : Fin cfg20.N) (d) : (dat20 V c).before 6 t d = iblk20 V c 6 t :=
  before20_6_of V (dat20 V c) (A_eq20 V c 6) (after20_6 V c) t d
theorem before20_7 (c : Dev nD) (t : Fin cfg20.N) (d) : (dat20 V c).before 7 t d = iblk20 V c 7 t :=
  before20_7_of V (dat20 V c) (A_eq20 V c 7) (after20_7 V c) t d

/-- What the body is called with at the point, the windows one by one, -/
def bodyPre20 (c : Dev nD) (t : Fin cfg20.N) : sProp 𝕄 :=
  iprop((dat20 V c).Φ t.castSucc ∗ (dat20 V c).owesAt () t.castSucc
    ∗ (∃ d, owns (c : Thread nD τ) (st20_0 t) fullShare ((dat20 V c).before 0 t d))
    ∗ (∃ d, owns (c : Thread nD τ) (st20_1 t) fullShare ((dat20 V c).before 1 t d))
    ∗ (∃ d, owns (c : Thread nD τ) (st20_2 t) fullShare ((dat20 V c).before 2 t d))
    ∗ (∃ d, owns (c : Thread nD τ) (st20_3 t) fullShare ((dat20 V c).before 3 t d))
    ∗ (∃ d, owns (c : Thread nD τ) (st20_4 t) fullShare ((dat20 V c).before 4 t d))
    ∗ (∃ d, owns (c : Thread nD τ) (st20_5 t) fullShare ((dat20 V c).before 5 t d))
    ∗ (∃ d, owns (c : Thread nD τ) (st20_6 t) fullShare ((dat20 V c).before 6 t d))
    ∗ (∃ d, owns (c : Thread nD τ) (st20_7 t) fullShare ((dat20 V c).before 7 t d))
    ∗ (∃ d, owns (c : Thread nD τ) (st20_8 t) fullShare ((dat20 V c).before 8 t d))
    ∗ (∃ d, owns (c : Thread nD τ) (st20_9 t) fullShare ((dat20 V c).before 9 t d))
    ∗ (∃ d, owns (c : Thread nD τ) (st20_10 t) fullShare ((dat20 V c).before 10 t d)))

/-- and what it returns. -/
def bodyPost20 (c : Dev nD) (t : Fin cfg20.N) : sProp 𝕄 :=
  iprop((dat20 V c).Φ t.succ ∗ (dat20 V c).owesAt () t.succ
    ∗ owns (c : Thread nD τ) (st20_0 t) fullShare ((dat20 V c).after 0 t)
    ∗ owns (c : Thread nD τ) (st20_1 t) fullShare ((dat20 V c).after 1 t)
    ∗ owns (c : Thread nD τ) (st20_2 t) fullShare ((dat20 V c).after 2 t)
    ∗ owns (c : Thread nD τ) (st20_3 t) fullShare ((dat20 V c).after 3 t)
    ∗ owns (c : Thread nD τ) (st20_4 t) fullShare ((dat20 V c).after 4 t)
    ∗ owns (c : Thread nD τ) (st20_5 t) fullShare ((dat20 V c).after 5 t)
    ∗ owns (c : Thread nD τ) (st20_6 t) fullShare ((dat20 V c).after 6 t)
    ∗ owns (c : Thread nD τ) (st20_7 t) fullShare ((dat20 V c).after 7 t)
    ∗ owns (c : Thread nD τ) (st20_8 t) fullShare ((dat20 V c).after 8 t)
    ∗ owns (c : Thread nD τ) (st20_9 t) fullShare ((dat20 V c).after 9 t)
    ∗ owns (c : Thread nD τ) (st20_10 t) fullShare ((dat20 V c).after 10 t))

theorem sound_body20 (c : Dev nD) (t : Fin cfg20.N) :
    bodyPre20 V c t ⊢ wp frame (wpE (defs₀ (F := F)) Variants.none c none) Set.univ (bodyAt20 t) (fun _ => bodyPost20 V c t) := by
  unfold bodyPre20 bodyPost20 bodyAt20
  simp only [before20_0, before20_1, before20_2, before20_3, before20_4, before20_5, before20_6, before20_7]
  rw [show (dat20 V c).Φ t.succ = (dat20 V c).Φ t.castSucc from rfl,
    show (dat20 V c).owesAt () t.succ = (dat20 V c).owesAt () t.castSucc from rfl,
    after20_0, after20_1, after20_2, after20_3, after20_4, after20_5, after20_6, after20_7, after20_8, after20_9, after20_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel20 c Set.univ _ _ _ _ _ _ _ _ _ _ _ _ _ _ _ _ _ _ _ _ _ _ (iblk20 V c 0 t) (iblk20 V c 1 t) (iblk20 V c 2 t) (iblk20 V c 3 t) (iblk20 V c 4 t) (iblk20 V c 5 t) (iblk20 V c 6 t) (iblk20 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation20 (c : Dev nD) : BodyObligation (dat20 (F := F) V c) (defs₀ (F := F)) Variants.none () Set.univ := fun t => by
  rw [bigSep_W20, bigSep_W20]
  exact sound_body20 V c t

end Cert.KernelIdeal.Reg

end
-- ==== Proof.KIRegion19.lean ====
/-
  Region 19 of @main: a later relaxation step — each state moved by half its direct gradient, the states taken as
  independent —; one gridless kernel over whole arrays.
  Stated at a parameter `V`, the buffers' contents when the region is entered, and at any float instance:
  what each output buffer holds after the body (`out19_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

theorem before19_0_of {c : Dev nD} (dat : Dat τ (Elt F) Unit ℕ (UR sig nD τ) ℕ cfg19 c) (hA : dat.A 0 = V c (Pipeline.arrRef spec19 0))
    (hafter : ∀ t, dat.after 0 t = iblk19 V c 0 t) (t : Fin cfg19.N) (d) : dat.before 0 t d = iblk19 V c 0 t :=
  (dat.before_in_eq_fetched 0 rfl (fun _ => rfl) (fun _ _ _ => rfl) (fun t => by rw [hafter]; unfold Dat.blockOf iblk19; rw [hA]; try rfl) t d).trans
    (by unfold Dat.fetched Dat.blockOf iblk19; rw [hA]; try rfl)
theorem before19_1_of {c : Dev nD} (dat : Dat τ (Elt F) Unit ℕ (UR sig nD τ) ℕ cfg19 c) (hA : dat.A 1 = V c (Pipeline.arrRef spec19 1))
    (hafter : ∀ t, dat.after 1 t = iblk19 V c 1 t) (t : Fin cfg19.N) (d) : dat.before 1 t d = iblk19 V c 1 t :=
  (dat.before_in_eq_fetched 1 rfl (fun _ => rfl) (fun _ _ _ => rfl) (fun t => by rw [hafter]; unfold Dat.blockOf iblk19; rw [hA]; try rfl) t d).trans
    (by unfold Dat.fetched Dat.blockOf iblk19; rw [hA]; try rfl)
theorem before19_2_of {c : Dev nD} (dat : Dat τ (Elt F) Unit ℕ (UR sig nD τ) ℕ cfg19 c) (hA : dat.A 2 = V c (Pipeline.arrRef spec19 2))
    (hafter : ∀ t, dat.after 2 t = iblk19 V c 2 t) (t : Fin cfg19.N) (d) : dat.before 2 t d = iblk19 V c 2 t :=
  (dat.before_in_eq_fetched 2 rfl (fun _ => rfl) (fun _ _ _ => rfl) (fun t => by rw [hafter]; unfold Dat.blockOf iblk19; rw [hA]; try rfl) t d).trans
    (by unfold Dat.fetched Dat.blockOf iblk19; rw [hA]; try rfl)
theorem before19_3_of {c : Dev nD} (dat : Dat τ (Elt F) Unit ℕ (UR sig nD τ) ℕ cfg19 c) (hA : dat.A 3 = V c (Pipeline.arrRef spec19 3))
    (hafter : ∀ t, dat.after 3 t = iblk19 V c 3 t) (t : Fin cfg19.N) (d) : dat.before 3 t d = iblk19 V c 3 t :=
  (dat.before_in_eq_fetched 3 rfl (fun _ => rfl) (fun _ _ _ => rfl) (fun t => by rw [hafter]; unfold Dat.blockOf iblk19; rw [hA]; try rfl) t d).trans
    (by unfold Dat.fetched Dat.blockOf iblk19; rw [hA]; try rfl)
theorem before19_4_of {c : Dev nD} (dat : Dat τ (Elt F) Unit ℕ (UR sig nD τ) ℕ cfg19 c) (hA : dat.A 4 = V c (Pipeline.arrRef spec19 4))
    (hafter : ∀ t, dat.after 4 t = iblk19 V c 4 t) (t : Fin cfg19.N) (d) : dat.before 4 t d = iblk19 V c 4 t :=
  (dat.before_in_eq_fetched 4 rfl (fun _ => rfl) (fun _ _ _ => rfl) (fun t => by rw [hafter]; unfold Dat.blockOf iblk19; rw [hA]; try rfl) t d).trans
    (by unfold Dat.fetched Dat.blockOf iblk19; rw [hA]; try rfl)
theorem before19_5_of {c : Dev nD} (dat : Dat τ (Elt F) Unit ℕ (UR sig nD τ) ℕ cfg19 c) (hA : dat.A 5 = V c (Pipeline.arrRef spec19 5))
    (hafter : ∀ t, dat.after 5 t = iblk19 V c 5 t) (t : Fin cfg19.N) (d) : dat.before 5 t d = iblk19 V c 5 t :=
  (dat.before_in_eq_fetched 5 rfl (fun _ => rfl) (fun _ _ _ => rfl) (fun t => by rw [hafter]; unfold Dat.blockOf iblk19; rw [hA]; try rfl) t d).trans
    (by unfold Dat.fetched Dat.blockOf iblk19; rw [hA]; try rfl)
theorem before19_6_of {c : Dev nD} (dat : Dat τ (Elt F) Unit ℕ (UR sig nD τ) ℕ cfg19 c) (hA : dat.A 6 = V c (Pipeline.arrRef spec19 6))
    (hafter : ∀ t, dat.after 6 t = iblk19 V c 6 t) (t : Fin cfg19.N) (d) : dat.before 6 t d = iblk19 V c 6 t :=
  (dat.before_in_eq_fetched 6 rfl (fun _ => rfl) (fun _ _ _ => rfl) (fun t => by rw [hafter]; unfold Dat.blockOf iblk19; rw [hA]; try rfl) t d).trans
    (by unfold Dat.fetched Dat.blockOf iblk19; rw [hA]; try rfl)
theorem before19_7_of {c : Dev nD} (dat : Dat τ (Elt F) Unit ℕ (UR sig nD τ) ℕ cfg19 c) (hA : dat.A 7 = V c (Pipeline.arrRef spec19 7))
    (hafter : ∀ t, dat.after 7 t = iblk19 V c 7 t) (t : Fin cfg19.N) (d) : dat.before 7 t d = iblk19 V c 7 t :=
  (dat.before_in_eq_fetched 7 rfl (fun _ => rfl) (fun _ _ _ => rfl) (fun t => by rw [hafter]; unfold Dat.blockOf iblk19; rw [hA]; try rfl) t d).trans
    (by unfold Dat.fetched Dat.blockOf iblk19; rw [hA]; try rfl)

/-- The whole-buffer rectangles the body loads and stores through. -/
abbrev rA19 : Rect S1024x1024 := Rect.unit (s := S1024x1024) ![0, 0] S1024x1024.size inb_S1024x1024_S1024x1024_0_0
abbrev rB19 : Rect S1024x512 := Rect.unit (s := S1024x512) ![0, 0] S1024x512.size inb_S1024x512_S1024x512_0_0

/-- One whole-buffer store covers its buffer. -/
theorem coverA19 (p0 : Vec F S1024x1024 .f32) (y : S1024x1024.Idx) :
    ∃ pc ∈ ([⟨rA19, p0⟩] : List (View.Piece (Elt F) S1024x1024 .f32)), y ∈ pc.1.set :=
  View.cover_of_tiled [⟨rA19, p0⟩] S1024x1024.size (by rfl) y
theorem coverB19 (p0 : Vec F S1024x512 .f32) (y : S1024x512.Idx) :
    ∃ pc ∈ ([⟨rB19, p0⟩] : List (View.Piece (Elt F) S1024x512 .f32)), y ∈ pc.1.set :=
  View.cover_of_tiled [⟨rB19, p0⟩] S1024x512.size (by rfl) y

/-- What the body leaves in each output buffer: its one whole-buffer store, of the payload of the inputs. -/
def out19_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA19, k19_pay8 (View.ld x0 rA19) (View.ld x1 rA19) (View.ld x2 rA19) (View.ld x5 rA19) (View.ld x6 rA19)⟩]
def out19_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA19, k19_pay1 (k19_pay4 (View.ld x2 rA19)) (k19_pay6 (View.ld x1 rA19) (View.ld x2 rA19) (View.ld x3 rB19) (View.ld x6 rA19) (View.ld x7 rB19))⟩]
def out19_10 (x2 : Vec F S1024x1024 .f32) (x3 : Vec F S1024x512 .f32) (x4 : Vec F S1024x512 .f32) (x7 : Vec F S1024x512 .f32) : Vec F S1024x512 .f32 :=
  View.canon [⟨rB19, k19_pay2 (k19_pay5 (View.ld x3 rB19)) (k19_pay7 (View.ld x2 rA19) (View.ld x3 rB19) (View.ld x4 rB19) (View.ld x7 rB19))⟩]

set_option maxHeartbeats 4000000 in
/-- The body on whole buffers: the inputs' read and kept, each output's left at `out19_w` of the inputs'. -/
theorem sound_kernel19 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out19_8 x0 x1 x2 x5 x6) ∗ owns (c : Thread nD τ) arg9 fullShare (out19_9 x1 x2 x3 x6 x7) ∗ owns (c : Thread nD τ) arg10 fullShare (out19_10 x2 x3 x4 x7)) -∗ K ⟨⟩))
      ⊢ wp frame (wpE (defs₀ (F := F)) Variants.none c none) E (cc19__state_update_kernel arg0 harg0 arg1 harg1 arg2 harg2 arg3 harg3 arg4 harg4 arg5 harg5 arg6 harg6 arg7 harg7 arg8 harg8 arg9 harg9 arg10 harg10) K := by
  simp only [cc19__state_update_kernel_eq_skeleton]; unfold cc19__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA19 _)
  isplitl [H9]
  · iexists _; isplitr
    swap; · iexact H9
    ipureintro
    exact View.read_writes_eq_canon _ _ _ (coverA19 _)
  iexists _; isplitr
  swap; · iexact H10
  ipureintro
  exact View.read_writes_eq_canon _ _ _ (coverB19 _)

/-- The proof data of pipeline 19: the arrays as the region finds them; after the body each input's buffer at its
    block and each output's at the body's result; the scoped rest and the generator register untouched; nothing owed. -/
def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => iblk19 V c 2 t
    | ⟨3, _⟩ => iblk19 V c 3 t
    | ⟨4, _⟩ => iblk19 V c 4 t
    | ⟨5, _⟩ => iblk19 V c 5 t
    | ⟨6, _⟩ => iblk19 V c 6 t
    | ⟨7, _⟩ => iblk19 V c 7 t
    | ⟨8, _⟩ => out19_8 (iblk19 V c 0 t) (iblk19 V c 1 t) (iblk19 V c 2 t) (iblk19 V c 5 t) (iblk19 V c 6 t)
    | ⟨9, _⟩ => out19_9 (iblk19 V c 1 t) (iblk19 V c 2 t) (iblk19 V c 3 t) (iblk19 V c 6 t) (iblk19 V c 7 t)
    | ⟨10, _⟩ => out19_10 (iblk19 V c 2 t) (iblk19 V c 3 t) (iblk19 V c 4 t) (iblk19 V c 7 t)
  Φ _ := Pipeline.ΦA spec19 c
  q _ := fullShare
  owed _ := 0

theorem A_eq19 (c : Dev nD) (w : Fin cfg19.W) : (dat19 V c).A w = V c (Pipeline.arrRef spec19 w) := by
  dsimp only [dat19]

theorem after19_0 (c : Dev nD) (t : Fin cfg19.N) : (dat19 V c).after 0 t = iblk19 V c 0 t := by dsimp only [dat19]
theorem after19_1 (c : Dev nD) (t : Fin cfg19.N) : (dat19 V c).after 1 t = iblk19 V c 1 t := by dsimp only [dat19]
theorem after19_2 (c : Dev nD) (t : Fin cfg19.N) : (dat19 V c).after 2 t = iblk19 V c 2 t := by dsimp only [dat19]
theorem after19_3 (c : Dev nD) (t : Fin cfg19.N) : (dat19 V c).after 3 t = iblk19 V c 3 t := by dsimp only [dat19]
theorem after19_4 (c : Dev nD) (t : Fin cfg19.N) : (dat19 V c).after 4 t = iblk19 V c 4 t := by dsimp only [dat19]
theorem after19_5 (c : Dev nD) (t : Fin cfg19.N) : (dat19 V c).after 5 t = iblk19 V c 5 t := by dsimp only [dat19]
theorem after19_6 (c : Dev nD) (t : Fin cfg19.N) : (dat19 V c).after 6 t = iblk19 V c 6 t := by dsimp only [dat19]
theorem after19_7 (c : Dev nD) (t : Fin cfg19.N) : (dat19 V c).after 7 t = iblk19 V c 7 t := by dsimp only [dat19]
theorem after19_8 (c : Dev nD) (t : Fin cfg19.N) : (dat19 V c).after 8 t = out19_8 (iblk19 V c 0 t) (iblk19 V c 1 t) (iblk19 V c 2 t) (iblk19 V c 5 t) (iblk19 V c 6 t) := by dsimp only [dat19]
theorem after19_9 (c : Dev nD) (t : Fin cfg19.N) : (dat19 V c).after 9 t = out19_9 (iblk19 V c 1 t) (iblk19 V c 2 t) (iblk19 V c 3 t) (iblk19 V c 6 t) (iblk19 V c 7 t) := by dsimp only [dat19]
theorem after19_10 (c : Dev nD) (t : Fin cfg19.N) : (dat19 V c).after 10 t = out19_10 (iblk19 V c 2 t) (iblk19 V c 3 t) (iblk19 V c 4 t) (iblk19 V c 7 t) := by dsimp only [dat19]

theorem before19_0 (c : Dev nD) (t : Fin cfg19.N) (d) : (dat19 V c).before 0 t d = iblk19 V c 0 t :=
  before19_0_of V (dat19 V c) (A_eq19 V c 0) (after19_0 V c) t d
theorem before19_1 (c : Dev nD) (t : Fin cfg19.N) (d) : (dat19 V c).before 1 t d = iblk19 V c 1 t :=
  before19_1_of V (dat19 V c) (A_eq19 V c 1) (after19_1 V c) t d
theorem before19_2 (c : Dev nD) (t : Fin cfg19.N) (d) : (dat19 V c).before 2 t d = iblk19 V c 2 t :=
  before19_2_of V (dat19 V c) (A_eq19 V c 2) (after19_2 V c) t d
theorem before19_3 (c : Dev nD) (t : Fin cfg19.N) (d) : (dat19 V c).before 3 t d = iblk19 V c 3 t :=
  before19_3_of V (dat19 V c) (A_eq19 V c 3) (after19_3 V c) t d
theorem before19_4 (c : Dev nD) (t : Fin cfg19.N) (d) : (dat19 V c).before 4 t d = iblk19 V c 4 t :=
  before19_4_of V (dat19 V c) (A_eq19 V c 4) (after19_4 V c) t d
theorem before19_5 (c : Dev nD) (t : Fin cfg19.N) (d) : (dat19 V c).before 5 t d = iblk19 V c 5 t :=
  before19_5_of V (dat19 V c) (A_eq19 V c 5) (after19_5 V c) t d
theorem before19_6 (c : Dev nD) (t : Fin cfg19.N) (d) : (dat19 V c).before 6 t d = iblk19 V c 6 t :=
  before19_6_of V (dat19 V c) (A_eq19 V c 6) (after19_6 V c) t d
theorem before19_7 (c : Dev nD) (t : Fin cfg19.N) (d) : (dat19 V c).before 7 t d = iblk19 V c 7 t :=
  before19_7_of V (dat19 V c) (A_eq19 V c 7) (after19_7 V c) t d

/-- What the body is called with at the point, the windows one by one, -/
def bodyPre19 (c : Dev nD) (t : Fin cfg19.N) : sProp 𝕄 :=
  iprop((dat19 V c).Φ t.castSucc ∗ (dat19 V c).owesAt () t.castSucc
    ∗ (∃ d, owns (c : Thread nD τ) (st19_0 t) fullShare ((dat19 V c).before 0 t d))
    ∗ (∃ d, owns (c : Thread nD τ) (st19_1 t) fullShare ((dat19 V c).before 1 t d))
    ∗ (∃ d, owns (c : Thread nD τ) (st19_2 t) fullShare ((dat19 V c).before 2 t d))
    ∗ (∃ d, owns (c : Thread nD τ) (st19_3 t) fullShare ((dat19 V c).before 3 t d))
    ∗ (∃ d, owns (c : Thread nD τ) (st19_4 t) fullShare ((dat19 V c).before 4 t d))
    ∗ (∃ d, owns (c : Thread nD τ) (st19_5 t) fullShare ((dat19 V c).before 5 t d))
    ∗ (∃ d, owns (c : Thread nD τ) (st19_6 t) fullShare ((dat19 V c).before 6 t d))
    ∗ (∃ d, owns (c : Thread nD τ) (st19_7 t) fullShare ((dat19 V c).before 7 t d))
    ∗ (∃ d, owns (c : Thread nD τ) (st19_8 t) fullShare ((dat19 V c).before 8 t d))
    ∗ (∃ d, owns (c : Thread nD τ) (st19_9 t) fullShare ((dat19 V c).before 9 t d))
    ∗ (∃ d, owns (c : Thread nD τ) (st19_10 t) fullShare ((dat19 V c).before 10 t d)))

/-- and what it returns. -/
def bodyPost19 (c : Dev nD) (t : Fin cfg19.N) : sProp 𝕄 :=
  iprop((dat19 V c).Φ t.succ ∗ (dat19 V c).owesAt () t.succ
    ∗ owns (c : Thread nD τ) (st19_0 t) fullShare ((dat19 V c).after 0 t)
    ∗ owns (c : Thread nD τ) (st19_1 t) fullShare ((dat19 V c).after 1 t)
    ∗ owns (c : Thread nD τ) (st19_2 t) fullShare ((dat19 V c).after 2 t)
    ∗ owns (c : Thread nD τ) (st19_3 t) fullShare ((dat19 V c).after 3 t)
    ∗ owns (c : Thread nD τ) (st19_4 t) fullShare ((dat19 V c).after 4 t)
    ∗ owns (c : Thread nD τ) (st19_5 t) fullShare ((dat19 V c).after 5 t)
    ∗ owns (c : Thread nD τ) (st19_6 t) fullShare ((dat19 V c).after 6 t)
    ∗ owns (c : Thread nD τ) (st19_7 t) fullShare ((dat19 V c).after 7 t)
    ∗ owns (c : Thread nD τ) (st19_8 t) fullShare ((dat19 V c).after 8 t)
    ∗ owns (c : Thread nD τ) (st19_9 t) fullShare ((dat19 V c).after 9 t)
    ∗ owns (c : Thread nD τ) (st19_10 t) fullShare ((dat19 V c).after 10 t))

theorem sound_body19 (c : Dev nD) (t : Fin cfg19.N) :
    bodyPre19 V c t ⊢ wp frame (wpE (defs₀ (F := F)) Variants.none c none) Set.univ (bodyAt19 t) (fun _ => bodyPost19 V c t) := by
  unfold bodyPre19 bodyPost19 bodyAt19
  simp only [before19_0, before19_1, before19_2, before19_3, before19_4, before19_5, before19_6, before19_7]
  rw [show (dat19 V c).Φ t.succ = (dat19 V c).Φ t.castSucc from rfl,
    show (dat19 V c).owesAt () t.succ = (dat19 V c).owesAt () t.castSucc from rfl,
    after19_0, after19_1, after19_2, after19_3, after19_4, after19_5, after19_6, after19_7, after19_8, after19_9, after19_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel19 c Set.univ _ _ _ _ _ _ _ _ _ _ _ _ _ _ _ _ _ _ _ _ _ _ (iblk19 V c 0 t) (iblk19 V c 1 t) (iblk19 V c 2 t) (iblk19 V c 3 t) (iblk19 V c 4 t) (iblk19 V c 5 t) (iblk19 V c 6 t) (iblk19 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation19 (c : Dev nD) : BodyObligation (dat19 (F := F) V c) (defs₀ (F := F)) Variants.none () Set.univ := fun t => by
  rw [bigSep_W19, bigSep_W19]
  exact sound_body19 V c t

end Cert.KernelIdeal.Reg

end
-- ==== Proof.KIRegion18.lean ====
/-
  Region 18 of @main: a later relaxation step — each state moved by half its direct gradient, the states taken as
  independent —; one gridless kernel over whole arrays.
  Stated at a parameter `V`, the buffers' contents when the region is entered, and at any float instance:
  what each output buffer holds after the body (`out18_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

theorem before18_0_of {c : Dev nD} (dat : Dat τ (Elt F) Unit ℕ (UR sig nD τ) ℕ cfg18 c) (hA : dat.A 0 = V c (Pipeline.arrRef spec18 0))
    (hafter : ∀ t, dat.after 0 t = iblk18 V c 0 t) (t : Fin cfg18.N) (d) : dat.before 0 t d = iblk18 V c 0 t :=
  (dat.before_in_eq_fetched 0 rfl (fun _ => rfl) (fun _ _ _ => rfl) (fun t => by rw [hafter]; unfold Dat.blockOf iblk18; rw [hA]; try rfl) t d).trans
    (by unfold Dat.fetched Dat.blockOf iblk18; rw [hA]; try rfl)
theorem before18_1_of {c : Dev nD} (dat : Dat τ (Elt F) Unit ℕ (UR sig nD τ) ℕ cfg18 c) (hA : dat.A 1 = V c (Pipeline.arrRef spec18 1))
    (hafter : ∀ t, dat.after 1 t = iblk18 V c 1 t) (t : Fin cfg18.N) (d) : dat.before 1 t d = iblk18 V c 1 t :=
  (dat.before_in_eq_fetched 1 rfl (fun _ => rfl) (fun _ _ _ => rfl) (fun t => by rw [hafter]; unfold Dat.blockOf iblk18; rw [hA]; try rfl) t d).trans
    (by unfold Dat.fetched Dat.blockOf iblk18; rw [hA]; try rfl)
theorem before18_2_of {c : Dev nD} (dat : Dat τ (Elt F) Unit ℕ (UR sig nD τ) ℕ cfg18 c) (hA : dat.A 2 = V c (Pipeline.arrRef spec18 2))
    (hafter : ∀ t, dat.after 2 t = iblk18 V c 2 t) (t : Fin cfg18.N) (d) : dat.before 2 t d = iblk18 V c 2 t :=
  (dat.before_in_eq_fetched 2 rfl (fun _ => rfl) (fun _ _ _ => rfl) (fun t => by rw [hafter]; unfold Dat.blockOf iblk18; rw [hA]; try rfl) t d).trans
    (by unfold Dat.fetched Dat.blockOf iblk18; rw [hA]; try rfl)
theorem before18_3_of {c : Dev nD} (dat : Dat τ (Elt F) Unit ℕ (UR sig nD τ) ℕ cfg18 c) (hA : dat.A 3 = V c (Pipeline.arrRef spec18 3))
    (hafter : ∀ t, dat.after 3 t = iblk18 V c 3 t) (t : Fin cfg18.N) (d) : dat.before 3 t d = iblk18 V c 3 t :=
  (dat.before_in_eq_fetched 3 rfl (fun _ => rfl) (fun _ _ _ => rfl) (fun t => by rw [hafter]; unfold Dat.blockOf iblk18; rw [hA]; try rfl) t d).trans
    (by unfold Dat.fetched Dat.blockOf iblk18; rw [hA]; try rfl)
theorem before18_4_of {c : Dev nD} (dat : Dat τ (Elt F) Unit ℕ (UR sig nD τ) ℕ cfg18 c) (hA : dat.A 4 = V c (Pipeline.arrRef spec18 4))
    (hafter : ∀ t, dat.after 4 t = iblk18 V c 4 t) (t : Fin cfg18.N) (d) : dat.before 4 t d = iblk18 V c 4 t :=
  (dat.before_in_eq_fetched 4 rfl (fun _ => rfl) (fun _ _ _ => rfl) (fun t => by rw [hafter]; unfold Dat.blockOf iblk18; rw [hA]; try rfl) t d).trans
    (by unfold Dat.fetched Dat.blockOf iblk18; rw [hA]; try rfl)
theorem before18_5_of {c : Dev nD} (dat : Dat τ (Elt F) Unit ℕ (UR sig nD τ) ℕ cfg18 c) (hA : dat.A 5 = V c (Pipeline.arrRef spec18 5))
    (hafter : ∀ t, dat.after 5 t = iblk18 V c 5 t) (t : Fin cfg18.N) (d) : dat.before 5 t d = iblk18 V c 5 t :=
  (dat.before_in_eq_fetched 5 rfl (fun _ => rfl) (fun _ _ _ => rfl) (fun t => by rw [hafter]; unfold Dat.blockOf iblk18; rw [hA]; try rfl) t d).trans
    (by unfold Dat.fetched Dat.blockOf iblk18; rw [hA]; try rfl)
theorem before18_6_of {c : Dev nD} (dat : Dat τ (Elt F) Unit ℕ (UR sig nD τ) ℕ cfg18 c) (hA : dat.A 6 = V c (Pipeline.arrRef spec18 6))
    (hafter : ∀ t, dat.after 6 t = iblk18 V c 6 t) (t : Fin cfg18.N) (d) : dat.before 6 t d = iblk18 V c 6 t :=
  (dat.before_in_eq_fetched 6 rfl (fun _ => rfl) (fun _ _ _ => rfl) (fun t => by rw [hafter]; unfold Dat.blockOf iblk18; rw [hA]; try rfl) t d).trans
    (by unfold Dat.fetched Dat.blockOf iblk18; rw [hA]; try rfl)
theorem before18_7_of {c : Dev nD} (dat : Dat τ (Elt F) Unit ℕ (UR sig nD τ) ℕ cfg18 c) (hA : dat.A 7 = V c (Pipeline.arrRef spec18 7))
    (hafter : ∀ t, dat.after 7 t = iblk18 V c 7 t) (t : Fin cfg18.N) (d) : dat.before 7 t d = iblk18 V c 7 t :=
  (dat.before_in_eq_fetched 7 rfl (fun _ => rfl) (fun _ _ _ => rfl) (fun t => by rw [hafter]; unfold Dat.blockOf iblk18; rw [hA]; try rfl) t d).trans
    (by unfold Dat.fetched Dat.blockOf iblk18; rw [hA]; try rfl)

/-- The whole-buffer rectangles the body loads and stores through. -/
abbrev rA18 : Rect S1024x1024 := Rect.unit (s := S1024x1024) ![0, 0] S1024x1024.size inb_S1024x1024_S1024x1024_0_0
abbrev rB18 : Rect S1024x512 := Rect.unit (s := S1024x512) ![0, 0] S1024x512.size inb_S1024x512_S1024x512_0_0

/-- One whole-buffer store covers its buffer. -/
theorem coverA18 (p0 : Vec F S1024x1024 .f32) (y : S1024x1024.Idx) :
    ∃ pc ∈ ([⟨rA18, p0⟩] : List (View.Piece (Elt F) S1024x1024 .f32)), y ∈ pc.1.set :=
  View.cover_of_tiled [⟨rA18, p0⟩] S1024x1024.size (by rfl) y
theorem coverB18 (p0 : Vec F S1024x512 .f32) (y : S1024x512.Idx) :
    ∃ pc ∈ ([⟨rB18, p0⟩] : List (View.Piece (Elt F) S1024x512 .f32)), y ∈ pc.1.set :=
  View.cover_of_tiled [⟨rB18, p0⟩] S1024x512.size (by rfl) y

/-- What the body leaves in each output buffer: its one whole-buffer store, of the payload of the inputs. -/
def out18_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA18, k18_pay8 (View.ld x0 rA18) (View.ld x1 rA18) (View.ld x2 rA18) (View.ld x5 rA18) (View.ld x6 rA18)⟩]
def out18_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA18, k18_pay1 (k18_pay4 (View.ld x2 rA18)) (k18_pay6 (View.ld x1 rA18) (View.ld x2 rA18) (View.ld x3 rB18) (View.ld x6 rA18) (View.ld x7 rB18))⟩]
def out18_10 (x2 : Vec F S1024x1024 .f32) (x3 : Vec F S1024x512 .f32) (x4 : Vec F S1024x512 .f32) (x7 : Vec F S1024x512 .f32) : Vec F S1024x512 .f32 :=
  View.canon [⟨rB18, k18_pay2 (k18_pay5 (View.ld x3 rB18)) (k18_pay7 (View.ld x2 rA18) (View.ld x3 rB18) (View.ld x4 rB18) (View.ld x7 rB18))⟩]

set_option maxHeartbeats 4000000 in
/-- The body on whole buffers: the inputs' read and kept, each output's left at `out18_w` of the inputs'. -/
theorem sound_kernel18 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out18_8 x0 x1 x2 x5 x6) ∗ owns (c : Thread nD τ) arg9 fullShare (out18_9 x1 x2 x3 x6 x7) ∗ owns (c : Thread nD τ) arg10 fullShare (out18_10 x2 x3 x4 x7)) -∗ K ⟨⟩))
      ⊢ wp frame (wpE (defs₀ (F := F)) Variants.none c none) E (cc18__state_update_kernel arg0 harg0 arg1 harg1 arg2 harg2 arg3 harg3 arg4 harg4 arg5 harg5 arg6 harg6 arg7 harg7 arg8 harg8 arg9 harg9 arg10 harg10) K := by
  simp only [cc18__state_update_kernel_eq_skeleton]; unfold cc18__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA18 _)
  isplitl [H9]
  · iexists _; isplitr
    swap; · iexact H9
    ipureintro
    exact View.read_writes_eq_canon _ _ _ (coverA18 _)
  iexists _; isplitr
  swap; · iexact H10
  ipureintro
  exact View.read_writes_eq_canon _ _ _ (coverB18 _)

/-- The proof data of pipeline 18: the arrays as the region finds them; after the body each input's buffer at its
    block and each output's at the body's result; the scoped rest and the generator register untouched; nothing owed. -/
def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => iblk18 V c 2 t
    | ⟨3, _⟩ => iblk18 V c 3 t
    | ⟨4, _⟩ => iblk18 V c 4 t
    | ⟨5, _⟩ => iblk18 V c 5 t
    | ⟨6, _⟩ => iblk18 V c 6 t
    | ⟨7, _⟩ => iblk18 V c 7 t
    | ⟨8, _⟩ => out18_8 (iblk18 V c 0 t) (iblk18 V c 1 t) (iblk18 V c 2 t) (iblk18 V c 5 t) (iblk18 V c 6 t)
    | ⟨9, _⟩ => out18_9 (iblk18 V c 1 t) (iblk18 V c 2 t) (iblk18 V c 3 t) (iblk18 V c 6 t) (iblk18 V c 7 t)
    | ⟨10, _⟩ => out18_10 (iblk18 V c 2 t) (iblk18 V c 3 t) (iblk18 V c 4 t) (iblk18 V c 7 t)
  Φ _ := Pipeline.ΦA spec18 c
  q _ := fullShare
  owed _ := 0

theorem A_eq18 (c : Dev nD) (w : Fin cfg18.W) : (dat18 V c).A w = V c (Pipeline.arrRef spec18 w) := by
  dsimp only [dat18]

theorem after18_0 (c : Dev nD) (t : Fin cfg18.N) : (dat18 V c).after 0 t = iblk18 V c 0 t := by dsimp only [dat18]
theorem after18_1 (c : Dev nD) (t : Fin cfg18.N) : (dat18 V c).after 1 t = iblk18 V c 1 t := by dsimp only [dat18]
theorem after18_2 (c : Dev nD) (t : Fin cfg18.N) : (dat18 V c).after 2 t = iblk18 V c 2 t := by dsimp only [dat18]
theorem after18_3 (c : Dev nD) (t : Fin cfg18.N) : (dat18 V c).after 3 t = iblk18 V c 3 t := by dsimp only [dat18]
theorem after18_4 (c : Dev nD) (t : Fin cfg18.N) : (dat18 V c).after 4 t = iblk18 V c 4 t := by dsimp only [dat18]
theorem after18_5 (c : Dev nD) (t : Fin cfg18.N) : (dat18 V c).after 5 t = iblk18 V c 5 t := by dsimp only [dat18]
theorem after18_6 (c : Dev nD) (t : Fin cfg18.N) : (dat18 V c).after 6 t = iblk18 V c 6 t := by dsimp only [dat18]
theorem after18_7 (c : Dev nD) (t : Fin cfg18.N) : (dat18 V c).after 7 t = iblk18 V c 7 t := by dsimp only [dat18]
theorem after18_8 (c : Dev nD) (t : Fin cfg18.N) : (dat18 V c).after 8 t = out18_8 (iblk18 V c 0 t) (iblk18 V c 1 t) (iblk18 V c 2 t) (iblk18 V c 5 t) (iblk18 V c 6 t) := by dsimp only [dat18]
theorem after18_9 (c : Dev nD) (t : Fin cfg18.N) : (dat18 V c).after 9 t = out18_9 (iblk18 V c 1 t) (iblk18 V c 2 t) (iblk18 V c 3 t) (iblk18 V c 6 t) (iblk18 V c 7 t) := by dsimp only [dat18]
theorem after18_10 (c : Dev nD) (t : Fin cfg18.N) : (dat18 V c).after 10 t = out18_10 (iblk18 V c 2 t) (iblk18 V c 3 t) (iblk18 V c 4 t) (iblk18 V c 7 t) := by dsimp only [dat18]

theorem before18_0 (c : Dev nD) (t : Fin cfg18.N) (d) : (dat18 V c).before 0 t d = iblk18 V c 0 t :=
  before18_0_of V (dat18 V c) (A_eq18 V c 0) (after18_0 V c) t d
theorem before18_1 (c : Dev nD) (t : Fin cfg18.N) (d) : (dat18 V c).before 1 t d = iblk18 V c 1 t :=
  before18_1_of V (dat18 V c) (A_eq18 V c 1) (after18_1 V c) t d
theorem before18_2 (c : Dev nD) (t : Fin cfg18.N) (d) : (dat18 V c).before 2 t d = iblk18 V c 2 t :=
  before18_2_of V (dat18 V c) (A_eq18 V c 2) (after18_2 V c) t d
theorem before18_3 (c : Dev nD) (t : Fin cfg18.N) (d) : (dat18 V c).before 3 t d = iblk18 V c 3 t :=
  before18_3_of V (dat18 V c) (A_eq18 V c 3) (after18_3 V c) t d
theorem before18_4 (c : Dev nD) (t : Fin cfg18.N) (d) : (dat18 V c).before 4 t d = iblk18 V c 4 t :=
  before18_4_of V (dat18 V c) (A_eq18 V c 4) (after18_4 V c) t d
theorem before18_5 (c : Dev nD) (t : Fin cfg18.N) (d) : (dat18 V c).before 5 t d = iblk18 V c 5 t :=
  before18_5_of V (dat18 V c) (A_eq18 V c 5) (after18_5 V c) t d
theorem before18_6 (c : Dev nD) (t : Fin cfg18.N) (d) : (dat18 V c).before 6 t d = iblk18 V c 6 t :=
  before18_6_of V (dat18 V c) (A_eq18 V c 6) (after18_6 V c) t d
theorem before18_7 (c : Dev nD) (t : Fin cfg18.N) (d) : (dat18 V c).before 7 t d = iblk18 V c 7 t :=
  before18_7_of V (dat18 V c) (A_eq18 V c 7) (after18_7 V c) t d

/-- What the body is called with at the point, the windows one by one, -/
def bodyPre18 (c : Dev nD) (t : Fin cfg18.N) : sProp 𝕄 :=
  iprop((dat18 V c).Φ t.castSucc ∗ (dat18 V c).owesAt () t.castSucc
    ∗ (∃ d, owns (c : Thread nD τ) (st18_0 t) fullShare ((dat18 V c).before 0 t d))
    ∗ (∃ d, owns (c : Thread nD τ) (st18_1 t) fullShare ((dat18 V c).before 1 t d))
    ∗ (∃ d, owns (c : Thread nD τ) (st18_2 t) fullShare ((dat18 V c).before 2 t d))
    ∗ (∃ d, owns (c : Thread nD τ) (st18_3 t) fullShare ((dat18 V c).before 3 t d))
    ∗ (∃ d, owns (c : Thread nD τ) (st18_4 t) fullShare ((dat18 V c).before 4 t d))
    ∗ (∃ d, owns (c : Thread nD τ) (st18_5 t) fullShare ((dat18 V c).before 5 t d))
    ∗ (∃ d, owns (c : Thread nD τ) (st18_6 t) fullShare ((dat18 V c).before 6 t d))
    ∗ (∃ d, owns (c : Thread nD τ) (st18_7 t) fullShare ((dat18 V c).before 7 t d))
    ∗ (∃ d, owns (c : Thread nD τ) (st18_8 t) fullShare ((dat18 V c).before 8 t d))
    ∗ (∃ d, owns (c : Thread nD τ) (st18_9 t) fullShare ((dat18 V c).before 9 t d))
    ∗ (∃ d, owns (c : Thread nD τ) (st18_10 t) fullShare ((dat18 V c).before 10 t d)))

/-- and what it returns. -/
def bodyPost18 (c : Dev nD) (t : Fin cfg18.N) : sProp 𝕄 :=
  iprop((dat18 V c).Φ t.succ ∗ (dat18 V c).owesAt () t.succ
    ∗ owns (c : Thread nD τ) (st18_0 t) fullShare ((dat18 V c).after 0 t)
    ∗ owns (c : Thread nD τ) (st18_1 t) fullShare ((dat18 V c).after 1 t)
    ∗ owns (c : Thread nD τ) (st18_2 t) fullShare ((dat18 V c).after 2 t)
    ∗ owns (c : Thread nD τ) (st18_3 t) fullShare ((dat18 V c).after 3 t)
    ∗ owns (c : Thread nD τ) (st18_4 t) fullShare ((dat18 V c).after 4 t)
    ∗ owns (c : Thread nD τ) (st18_5 t) fullShare ((dat18 V c).after 5 t)
    ∗ owns (c : Thread nD τ) (st18_6 t) fullShare ((dat18 V c).after 6 t)
    ∗ owns (c : Thread nD τ) (st18_7 t) fullShare ((dat18 V c).after 7 t)
    ∗ owns (c : Thread nD τ) (st18_8 t) fullShare ((dat18 V c).after 8 t)
    ∗ owns (c : Thread nD τ) (st18_9 t) fullShare ((dat18 V c).after 9 t)
    ∗ owns (c : Thread nD τ) (st18_10 t) fullShare ((dat18 V c).after 10 t))

theorem sound_body18 (c : Dev nD) (t : Fin cfg18.N) :
    bodyPre18 V c t ⊢ wp frame (wpE (defs₀ (F := F)) Variants.none c none) Set.univ (bodyAt18 t) (fun _ => bodyPost18 V c t) := by
  unfold bodyPre18 bodyPost18 bodyAt18
  simp only [before18_0, before18_1, before18_2, before18_3, before18_4, before18_5, before18_6, before18_7]
  rw [show (dat18 V c).Φ t.succ = (dat18 V c).Φ t.castSucc from rfl,
    show (dat18 V c).owesAt () t.succ = (dat18 V c).owesAt () t.castSucc from rfl,
    after18_0, after18_1, after18_2, after18_3, after18_4, after18_5, after18_6, after18_7, after18_8, after18_9, after18_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel18 c Set.univ _ _ _ _ _ _ _ _ _ _ _ _ _ _ _ _ _ _ _ _ _ _ (iblk18 V c 0 t) (iblk18 V c 1 t) (iblk18 V c 2 t) (iblk18 V c 3 t) (iblk18 V c 4 t) (iblk18 V c 5 t) (iblk18 V c 6 t) (iblk18 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation18 (c : Dev nD) : BodyObligation (dat18 (F := F) V c) (defs₀ (F := F)) Variants.none () Set.univ := fun t => by
  rw [bigSep_W18, bigSep_W18]
  exact sound_body18 V c t

end Cert.KernelIdeal.Reg

end
-- ==== Proof.KIRegion17.lean ====
/-
  Region 17 of @main: a later relaxation step — each state moved by half its direct gradient, the states taken as
  independent —; one gridless kernel over whole arrays.
  Stated at a parameter `V`, the buffers' contents when the region is entered, and at any float instance:
  what each output buffer holds after the body (`out17_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

theorem before17_0_of {c : Dev nD} (dat : Dat τ (Elt F) Unit ℕ (UR sig nD τ) ℕ cfg17 c) (hA : dat.A 0 = V c (Pipeline.arrRef spec17 0))
    (hafter : ∀ t, dat.after 0 t = iblk17 V c 0 t) (t : Fin cfg17.N) (d) : dat.before 0 t d = iblk17 V c 0 t :=
  (dat.before_in_eq_fetched 0 rfl (fun _ => rfl) (fun _ _ _ => rfl) (fun t => by rw [hafter]; unfold Dat.blockOf iblk17; rw [hA]; try rfl) t d).trans
    (by unfold Dat.fetched Dat.blockOf iblk17; rw [hA]; try rfl)
theorem before17_1_of {c : Dev nD} (dat : Dat τ (Elt F) Unit ℕ (UR sig nD τ) ℕ cfg17 c) (hA : dat.A 1 = V c (Pipeline.arrRef spec17 1))
    (hafter : ∀ t, dat.after 1 t = iblk17 V c 1 t) (t : Fin cfg17.N) (d) : dat.before 1 t d = iblk17 V c 1 t :=
  (dat.before_in_eq_fetched 1 rfl (fun _ => rfl) (fun _ _ _ => rfl) (fun t => by rw [hafter]; unfold Dat.blockOf iblk17; rw [hA]; try rfl) t d).trans
    (by unfold Dat.fetched Dat.blockOf iblk17; rw [hA]; try rfl)
theorem before17_2_of {c : Dev nD} (dat : Dat τ (Elt F) Unit ℕ (UR sig nD τ) ℕ cfg17 c) (hA : dat.A 2 = V c (Pipeline.arrRef spec17 2))
    (hafter : ∀ t, dat.after 2 t = iblk17 V c 2 t) (t : Fin cfg17.N) (d) : dat.before 2 t d = iblk17 V c 2 t :=
  (dat.before_in_eq_fetched 2 rfl (fun _ => rfl) (fun _ _ _ => rfl) (fun t => by rw [hafter]; unfold Dat.blockOf iblk17; rw [hA]; try rfl) t d).trans
    (by unfold Dat.fetched Dat.blockOf iblk17; rw [hA]; try rfl)
theorem before17_3_of {c : Dev nD} (dat : Dat τ (Elt F) Unit ℕ (UR sig nD τ) ℕ cfg17 c) (hA : dat.A 3 = V c (Pipeline.arrRef spec17 3))
    (hafter : ∀ t, dat.after 3 t = iblk17 V c 3 t) (t : Fin cfg17.N) (d) : dat.before 3 t d = iblk17 V c 3 t :=
  (dat.before_in_eq_fetched 3 rfl (fun _ => rfl) (fun _ _ _ => rfl) (fun t => by rw [hafter]; unfold Dat.blockOf iblk17; rw [hA]; try rfl) t d).trans
    (by unfold Dat.fetched Dat.blockOf iblk17; rw [hA]; try rfl)
theorem before17_4_of {c : Dev nD} (dat : Dat τ (Elt F) Unit ℕ (UR sig nD τ) ℕ cfg17 c) (hA : dat.A 4 = V c (Pipeline.arrRef spec17 4))
    (hafter : ∀ t, dat.after 4 t = iblk17 V c 4 t) (t : Fin cfg17.N) (d) : dat.before 4 t d = iblk17 V c 4 t :=
  (dat.before_in_eq_fetched 4 rfl (fun _ => rfl) (fun _ _ _ => rfl) (fun t => by rw [hafter]; unfold Dat.blockOf iblk17; rw [hA]; try rfl) t d).trans
    (by unfold Dat.fetched Dat.blockOf iblk17; rw [hA]; try rfl)
theorem before17_5_of {c : Dev nD} (dat : Dat τ (Elt F) Unit ℕ (UR sig nD τ) ℕ cfg17 c) (hA : dat.A 5 = V c (Pipeline.arrRef spec17 5))
    (hafter : ∀ t, dat.after 5 t = iblk17 V c 5 t) (t : Fin cfg17.N) (d) : dat.before 5 t d = iblk17 V c 5 t :=
  (dat.before_in_eq_fetched 5 rfl (fun _ => rfl) (fun _ _ _ => rfl) (fun t => by rw [hafter]; unfold Dat.blockOf iblk17; rw [hA]; try rfl) t d).trans
    (by unfold Dat.fetched Dat.blockOf iblk17; rw [hA]; try rfl)
theorem before17_6_of {c : Dev nD} (dat : Dat τ (Elt F) Unit ℕ (UR sig nD τ) ℕ cfg17 c) (hA : dat.A 6 = V c (Pipeline.arrRef spec17 6))
    (hafter : ∀ t, dat.after 6 t = iblk17 V c 6 t) (t : Fin cfg17.N) (d) : dat.before 6 t d = iblk17 V c 6 t :=
  (dat.before_in_eq_fetched 6 rfl (fun _ => rfl) (fun _ _ _ => rfl) (fun t => by rw [hafter]; unfold Dat.blockOf iblk17; rw [hA]; try rfl) t d).trans
    (by unfold Dat.fetched Dat.blockOf iblk17; rw [hA]; try rfl)
theorem before17_7_of {c : Dev nD} (dat : Dat τ (Elt F) Unit ℕ (UR sig nD τ) ℕ cfg17 c) (hA : dat.A 7 = V c (Pipeline.arrRef spec17 7))
    (hafter : ∀ t, dat.after 7 t = iblk17 V c 7 t) (t : Fin cfg17.N) (d) : dat.before 7 t d = iblk17 V c 7 t :=
  (dat.before_in_eq_fetched 7 rfl (fun _ => rfl) (fun _ _ _ => rfl) (fun t => by rw [hafter]; unfold Dat.blockOf iblk17; rw [hA]; try rfl) t d).trans
    (by unfold Dat.fetched Dat.blockOf iblk17; rw [hA]; try rfl)

/-- The whole-buffer rectangles the body loads and stores through. -/
abbrev rA17 : Rect S1024x1024 := Rect.unit (s := S1024x1024) ![0, 0] S1024x1024.size inb_S1024x1024_S1024x1024_0_0
abbrev rB17 : Rect S1024x512 := Rect.unit (s := S1024x512) ![0, 0] S1024x512.size inb_S1024x512_S1024x512_0_0

/-- One whole-buffer store covers its buffer. -/
theorem coverA17 (p0 : Vec F S1024x1024 .f32) (y : S1024x1024.Idx) :
    ∃ pc ∈ ([⟨rA17, p0⟩] : List (View.Piece (Elt F) S1024x1024 .f32)), y ∈ pc.1.set :=
  View.cover_of_tiled [⟨rA17, p0⟩] S1024x1024.size (by rfl) y
theorem coverB17 (p0 : Vec F S1024x512 .f32) (y : S1024x512.Idx) :
    ∃ pc ∈ ([⟨rB17, p0⟩] : List (View.Piece (Elt F) S1024x512 .f32)), y ∈ pc.1.set :=
  View.cover_of_tiled [⟨rB17, p0⟩] S1024x512.size (by rfl) y

/-- What the body leaves in each output buffer: its one whole-buffer store, of the payload of the inputs. -/
def out17_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA17, k17_pay8 (View.ld x0 rA17) (View.ld x1 rA17) (View.ld x2 rA17) (View.ld x5 rA17) (View.ld x6 rA17)⟩]
def out17_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA17, k17_pay1 (k17_pay4 (View.ld x2 rA17)) (k17_pay6 (View.ld x1 rA17) (View.ld x2 rA17) (View.ld x3 rB17) (View.ld x6 rA17) (View.ld x7 rB17))⟩]
def out17_10 (x2 : Vec F S1024x1024 .f32) (x3 : Vec F S1024x512 .f32) (x4 : Vec F S1024x512 .f32) (x7 : Vec F S1024x512 .f32) : Vec F S1024x512 .f32 :=
  View.canon [⟨rB17, k17_pay2 (k17_pay5 (View.ld x3 rB17)) (k17_pay7 (View.ld x2 rA17) (View.ld x3 rB17) (View.ld x4 rB17) (View.ld x7 rB17))⟩]

set_option maxHeartbeats 4000000 in
/-- The body on whole buffers: the inputs' read and kept, each output's left at `out17_w` of the inputs'. -/
theorem sound_kernel17 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out17_8 x0 x1 x2 x5 x6) ∗ owns (c : Thread nD τ) arg9 fullShare (out17_9 x1 x2 x3 x6 x7) ∗ owns (c : Thread nD τ) arg10 fullShare (out17_10 x2 x3 x4 x7)) -∗ K ⟨⟩))
      ⊢ wp frame (wpE (defs₀ (F := F)) Variants.none c none) E (cc17__state_update_kernel arg0 harg0 arg1 harg1 arg2 harg2 arg3 harg3 arg4 harg4 arg5 harg5 arg6 harg6 arg7 harg7 arg8 harg8 arg9 harg9 arg10 harg10) K := by
  simp only [cc17__state_update_kernel_eq_skeleton]; unfold cc17__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA17 _)
  isplitl [H9]
  · iexists _; isplitr
    swap; · iexact H9
    ipureintro
    exact View.read_writes_eq_canon _ _ _ (coverA17 _)
  iexists _; isplitr
  swap; · iexact H10
  ipureintro
  exact View.read_writes_eq_canon _ _ _ (coverB17 _)

/-- The proof data of pipeline 17: the arrays as the region finds them; after the body each input's buffer at its
    block and each output's at the body's result; the scoped rest and the generator register untouched; nothing owed. -/
def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => iblk17 V c 2 t
    | ⟨3, _⟩ => iblk17 V c 3 t
    | ⟨4, _⟩ => iblk17 V c 4 t
    | ⟨5, _⟩ => iblk17 V c 5 t
    | ⟨6, _⟩ => iblk17 V c 6 t
    | ⟨7, _⟩ => iblk17 V c 7 t
    | ⟨8, _⟩ => out17_8 (iblk17 V c 0 t) (iblk17 V c 1 t) (iblk17 V c 2 t) (iblk17 V c 5 t) (iblk17 V c 6 t)
    | ⟨9, _⟩ => out17_9 (iblk17 V c 1 t) (iblk17 V c 2 t) (iblk17 V c 3 t) (iblk17 V c 6 t) (iblk17 V c 7 t)
    | ⟨10, _⟩ => out17_10 (iblk17 V c 2 t) (iblk17 V c 3 t) (iblk17 V c 4 t) (iblk17 V c 7 t)
  Φ _ := Pipeline.ΦA spec17 c
  q _ := fullShare
  owed _ := 0

theorem A_eq17 (c : Dev nD) (w : Fin cfg17.W) : (dat17 V c).A w = V c (Pipeline.arrRef spec17 w) := by
  dsimp only [dat17]

theorem after17_0 (c : Dev nD) (t : Fin cfg17.N) : (dat17 V c).after 0 t = iblk17 V c 0 t := by dsimp only [dat17]
theorem after17_1 (c : Dev nD) (t : Fin cfg17.N) : (dat17 V c).after 1 t = iblk17 V c 1 t := by dsimp only [dat17]
theorem after17_2 (c : Dev nD) (t : Fin cfg17.N) : (dat17 V c).after 2 t = iblk17 V c 2 t := by dsimp only [dat17]
theorem after17_3 (c : Dev nD) (t : Fin cfg17.N) : (dat17 V c).after 3 t = iblk17 V c 3 t := by dsimp only [dat17]
theorem after17_4 (c : Dev nD) (t : Fin cfg17.N) : (dat17 V c).after 4 t = iblk17 V c 4 t := by dsimp only [dat17]
theorem after17_5 (c : Dev nD) (t : Fin cfg17.N) : (dat17 V c).after 5 t = iblk17 V c 5 t := by dsimp only [dat17]
theorem after17_6 (c : Dev nD) (t : Fin cfg17.N) : (dat17 V c).after 6 t = iblk17 V c 6 t := by dsimp only [dat17]
theorem after17_7 (c : Dev nD) (t : Fin cfg17.N) : (dat17 V c).after 7 t = iblk17 V c 7 t := by dsimp only [dat17]
theorem after17_8 (c : Dev nD) (t : Fin cfg17.N) : (dat17 V c).after 8 t = out17_8 (iblk17 V c 0 t) (iblk17 V c 1 t) (iblk17 V c 2 t) (iblk17 V c 5 t) (iblk17 V c 6 t) := by dsimp only [dat17]
theorem after17_9 (c : Dev nD) (t : Fin cfg17.N) : (dat17 V c).after 9 t = out17_9 (iblk17 V c 1 t) (iblk17 V c 2 t) (iblk17 V c 3 t) (iblk17 V c 6 t) (iblk17 V c 7 t) := by dsimp only [dat17]
theorem after17_10 (c : Dev nD) (t : Fin cfg17.N) : (dat17 V c).after 10 t = out17_10 (iblk17 V c 2 t) (iblk17 V c 3 t) (iblk17 V c 4 t) (iblk17 V c 7 t) := by dsimp only [dat17]

theorem before17_0 (c : Dev nD) (t : Fin cfg17.N) (d) : (dat17 V c).before 0 t d = iblk17 V c 0 t :=
  before17_0_of V (dat17 V c) (A_eq17 V c 0) (after17_0 V c) t d
theorem before17_1 (c : Dev nD) (t : Fin cfg17.N) (d) : (dat17 V c).before 1 t d = iblk17 V c 1 t :=
  before17_1_of V (dat17 V c) (A_eq17 V c 1) (after17_1 V c) t d
theorem before17_2 (c : Dev nD) (t : Fin cfg17.N) (d) : (dat17 V c).before 2 t d = iblk17 V c 2 t :=
  before17_2_of V (dat17 V c) (A_eq17 V c 2) (after17_2 V c) t d
theorem before17_3 (c : Dev nD) (t : Fin cfg17.N) (d) : (dat17 V c).before 3 t d = iblk17 V c 3 t :=
  before17_3_of V (dat17 V c) (A_eq17 V c 3) (after17_3 V c) t d
theorem before17_4 (c : Dev nD) (t : Fin cfg17.N) (d) : (dat17 V c).before 4 t d = iblk17 V c 4 t :=
  before17_4_of V (dat17 V c) (A_eq17 V c 4) (after17_4 V c) t d
theorem before17_5 (c : Dev nD) (t : Fin cfg17.N) (d) : (dat17 V c).before 5 t d = iblk17 V c 5 t :=
  before17_5_of V (dat17 V c) (A_eq17 V c 5) (after17_5 V c) t d
theorem before17_6 (c : Dev nD) (t : Fin cfg17.N) (d) : (dat17 V c).before 6 t d = iblk17 V c 6 t :=
  before17_6_of V (dat17 V c) (A_eq17 V c 6) (after17_6 V c) t d
theorem before17_7 (c : Dev nD) (t : Fin cfg17.N) (d) : (dat17 V c).before 7 t d = iblk17 V c 7 t :=
  before17_7_of V (dat17 V c) (A_eq17 V c 7) (after17_7 V c) t d

/-- What the body is called with at the point, the windows one by one, -/
def bodyPre17 (c : Dev nD) (t : Fin cfg17.N) : sProp 𝕄 :=
  iprop((dat17 V c).Φ t.castSucc ∗ (dat17 V c).owesAt () t.castSucc
    ∗ (∃ d, owns (c : Thread nD τ) (st17_0 t) fullShare ((dat17 V c).before 0 t d))
    ∗ (∃ d, owns (c : Thread nD τ) (st17_1 t) fullShare ((dat17 V c).before 1 t d))
    ∗ (∃ d, owns (c : Thread nD τ) (st17_2 t) fullShare ((dat17 V c).before 2 t d))
    ∗ (∃ d, owns (c : Thread nD τ) (st17_3 t) fullShare ((dat17 V c).before 3 t d))
    ∗ (∃ d, owns (c : Thread nD τ) (st17_4 t) fullShare ((dat17 V c).before 4 t d))
    ∗ (∃ d, owns (c : Thread nD τ) (st17_5 t) fullShare ((dat17 V c).before 5 t d))
    ∗ (∃ d, owns (c : Thread nD τ) (st17_6 t) fullShare ((dat17 V c).before 6 t d))
    ∗ (∃ d, owns (c : Thread nD τ) (st17_7 t) fullShare ((dat17 V c).before 7 t d))
    ∗ (∃ d, owns (c : Thread nD τ) (st17_8 t) fullShare ((dat17 V c).before 8 t d))
    ∗ (∃ d, owns (c : Thread nD τ) (st17_9 t) fullShare ((dat17 V c).before 9 t d))
    ∗ (∃ d, owns (c : Thread nD τ) (st17_10 t) fullShare ((dat17 V c).before 10 t d)))

/-- and what it returns. -/
def bodyPost17 (c : Dev nD) (t : Fin cfg17.N) : sProp 𝕄 :=
  iprop((dat17 V c).Φ t.succ ∗ (dat17 V c).owesAt () t.succ
    ∗ owns (c : Thread nD τ) (st17_0 t) fullShare ((dat17 V c).after 0 t)
    ∗ owns (c : Thread nD τ) (st17_1 t) fullShare ((dat17 V c).after 1 t)
    ∗ owns (c : Thread nD τ) (st17_2 t) fullShare ((dat17 V c).after 2 t)
    ∗ owns (c : Thread nD τ) (st17_3 t) fullShare ((dat17 V c).after 3 t)
    ∗ owns (c : Thread nD τ) (st17_4 t) fullShare ((dat17 V c).after 4 t)
    ∗ owns (c : Thread nD τ) (st17_5 t) fullShare ((dat17 V c).after 5 t)
    ∗ owns (c : Thread nD τ) (st17_6 t) fullShare ((dat17 V c).after 6 t)
    ∗ owns (c : Thread nD τ) (st17_7 t) fullShare ((dat17 V c).after 7 t)
    ∗ owns (c : Thread nD τ) (st17_8 t) fullShare ((dat17 V c).after 8 t)
    ∗ owns (c : Thread nD τ) (st17_9 t) fullShare ((dat17 V c).after 9 t)
    ∗ owns (c : Thread nD τ) (st17_10 t) fullShare ((dat17 V c).after 10 t))

theorem sound_body17 (c : Dev nD) (t : Fin cfg17.N) :
    bodyPre17 V c t ⊢ wp frame (wpE (defs₀ (F := F)) Variants.none c none) Set.univ (bodyAt17 t) (fun _ => bodyPost17 V c t) := by
  unfold bodyPre17 bodyPost17 bodyAt17
  simp only [before17_0, before17_1, before17_2, before17_3, before17_4, before17_5, before17_6, before17_7]
  rw [show (dat17 V c).Φ t.succ = (dat17 V c).Φ t.castSucc from rfl,
    show (dat17 V c).owesAt () t.succ = (dat17 V c).owesAt () t.castSucc from rfl,
    after17_0, after17_1, after17_2, after17_3, after17_4, after17_5, after17_6, after17_7, after17_8, after17_9, after17_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel17 c Set.univ _ _ _ _ _ _ _ _ _ _ _ _ _ _ _ _ _ _ _ _ _ _ (iblk17 V c 0 t) (iblk17 V c 1 t) (iblk17 V c 2 t) (iblk17 V c 3 t) (iblk17 V c 4 t) (iblk17 V c 5 t) (iblk17 V c 6 t) (iblk17 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation17 (c : Dev nD) : BodyObligation (dat17 (F := F) V c) (defs₀ (F := F)) Variants.none () Set.univ := fun t => by
  rw [bigSep_W17, bigSep_W17]
  exact sound_body17 V c t

end Cert.KernelIdeal.Reg

end
-- ==== Proof.KIRegion16.lean ====
/-
  Region 16 of @main: a later relaxation step — each state moved by half its direct gradient, the states taken as
  independent —; one gridless kernel over whole arrays.
  Stated at a parameter `V`, the buffers' contents when the region is entered, and at any float instance:
  what each output buffer holds after the body (`out16_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

theorem before16_0_of {c : Dev nD} (dat : Dat τ (Elt F) Unit ℕ (UR sig nD τ) ℕ cfg16 c) (hA : dat.A 0 = V c (Pipeline.arrRef spec16 0))
    (hafter : ∀ t, dat.after 0 t = iblk16 V c 0 t) (t : Fin cfg16.N) (d) : dat.before 0 t d = iblk16 V c 0 t :=
  (dat.before_in_eq_fetched 0 rfl (fun _ => rfl) (fun _ _ _ => rfl) (fun t => by rw [hafter]; unfold Dat.blockOf iblk16; rw [hA]; try rfl) t d).trans
    (by unfold Dat.fetched Dat.blockOf iblk16; rw [hA]; try rfl)
theorem before16_1_of {c : Dev nD} (dat : Dat τ (Elt F) Unit ℕ (UR sig nD τ) ℕ cfg16 c) (hA : dat.A 1 = V c (Pipeline.arrRef spec16 1))
    (hafter : ∀ t, dat.after 1 t = iblk16 V c 1 t) (t : Fin cfg16.N) (d) : dat.before 1 t d = iblk16 V c 1 t :=
  (dat.before_in_eq_fetched 1 rfl (fun _ => rfl) (fun _ _ _ => rfl) (fun t => by rw [hafter]; unfold Dat.blockOf iblk16; rw [hA]; try rfl) t d).trans
    (by unfold Dat.fetched Dat.blockOf iblk16; rw [hA]; try rfl)
theorem before16_2_of {c : Dev nD} (dat : Dat τ (Elt F) Unit ℕ (UR sig nD τ) ℕ cfg16 c) (hA : dat.A 2 = V c (Pipeline.arrRef spec16 2))
    (hafter : ∀ t, dat.after 2 t = iblk16 V c 2 t) (t : Fin cfg16.N) (d) : dat.before 2 t d = iblk16 V c 2 t :=
  (dat.before_in_eq_fetched 2 rfl (fun _ => rfl) (fun _ _ _ => rfl) (fun t => by rw [hafter]; unfold Dat.blockOf iblk16; rw [hA]; try rfl) t d).trans
    (by unfold Dat.fetched Dat.blockOf iblk16; rw [hA]; try rfl)
theorem before16_3_of {c : Dev nD} (dat : Dat τ (Elt F) Unit ℕ (UR sig nD τ) ℕ cfg16 c) (hA : dat.A 3 = V c (Pipeline.arrRef spec16 3))
    (hafter : ∀ t, dat.after 3 t = iblk16 V c 3 t) (t : Fin cfg16.N) (d) : dat.before 3 t d = iblk16 V c 3 t :=
  (dat.before_in_eq_fetched 3 rfl (fun _ => rfl) (fun _ _ _ => rfl) (fun t => by rw [hafter]; unfold Dat.blockOf iblk16; rw [hA]; try rfl) t d).trans
    (by unfold Dat.fetched Dat.blockOf iblk16; rw [hA]; try rfl)
theorem before16_4_of {c : Dev nD} (dat : Dat τ (Elt F) Unit ℕ (UR sig nD τ) ℕ cfg16 c) (hA : dat.A 4 = V c (Pipeline.arrRef spec16 4))
    (hafter : ∀ t, dat.after 4 t = iblk16 V c 4 t) (t : Fin cfg16.N) (d) : dat.before 4 t d = iblk16 V c 4 t :=
  (dat.before_in_eq_fetched 4 rfl (fun _ => rfl) (fun _ _ _ => rfl) (fun t => by rw [hafter]; unfold Dat.blockOf iblk16; rw [hA]; try rfl) t d).trans
    (by unfold Dat.fetched Dat.blockOf iblk16; rw [hA]; try rfl)
theorem before16_5_of {c : Dev nD} (dat : Dat τ (Elt F) Unit ℕ (UR sig nD τ) ℕ cfg16 c) (hA : dat.A 5 = V c (Pipeline.arrRef spec16 5))
    (hafter : ∀ t, dat.after 5 t = iblk16 V c 5 t) (t : Fin cfg16.N) (d) : dat.before 5 t d = iblk16 V c 5 t :=
  (dat.before_in_eq_fetched 5 rfl (fun _ => rfl) (fun _ _ _ => rfl) (fun t => by rw [hafter]; unfold Dat.blockOf iblk16; rw [hA]; try rfl) t d).trans
    (by unfold Dat.fetched Dat.blockOf iblk16; rw [hA]; try rfl)
theorem before16_6_of {c : Dev nD} (dat : Dat τ (Elt F) Unit ℕ (UR sig nD τ) ℕ cfg16 c) (hA : dat.A 6 = V c (Pipeline.arrRef spec16 6))
    (hafter : ∀ t, dat.after 6 t = iblk16 V c 6 t) (t : Fin cfg16.N) (d) : dat.before 6 t d = iblk16 V c 6 t :=
  (dat.before_in_eq_fetched 6 rfl (fun _ => rfl) (fun _ _ _ => rfl) (fun t => by rw [hafter]; unfold Dat.blockOf iblk16; rw [hA]; try rfl) t d).trans
    (by unfold Dat.fetched Dat.blockOf iblk16; rw [hA]; try rfl)
theorem before16_7_of {c : Dev nD} (dat : Dat τ (Elt F) Unit ℕ (UR sig nD τ) ℕ cfg16 c) (hA : dat.A 7 = V c (Pipeline.arrRef spec16 7))
    (hafter : ∀ t, dat.after 7 t = iblk16 V c 7 t) (t : Fin cfg16.N) (d) : dat.before 7 t d = iblk16 V c 7 t :=
  (dat.before_in_eq_fetched 7 rfl (fun _ => rfl) (fun _ _ _ => rfl) (fun t => by rw [hafter]; unfold Dat.blockOf iblk16; rw [hA]; try rfl) t d).trans
    (by unfold Dat.fetched Dat.blockOf iblk16; rw [hA]; try rfl)

/-- The whole-buffer rectangles the body loads and stores through. -/
abbrev rA16 : Rect S1024x1024 := Rect.unit (s := S1024x1024) ![0, 0] S1024x1024.size inb_S1024x1024_S1024x1024_0_0
abbrev rB16 : Rect S1024x512 := Rect.unit (s := S1024x512) ![0, 0] S1024x512.size inb_S1024x512_S1024x512_0_0

/-- One whole-buffer store covers its buffer. -/
theorem coverA16 (p0 : Vec F S1024x1024 .f32) (y : S1024x1024.Idx) :
    ∃ pc ∈ ([⟨rA16, p0⟩] : List (View.Piece (Elt F) S1024x1024 .f32)), y ∈ pc.1.set :=
  View.cover_of_tiled [⟨rA16, p0⟩] S1024x1024.size (by rfl) y
theorem coverB16 (p0 : Vec F S1024x512 .f32) (y : S1024x512.Idx) :
    ∃ pc ∈ ([⟨rB16, p0⟩] : List (View.Piece (Elt F) S1024x512 .f32)), y ∈ pc.1.set :=
  View.cover_of_tiled [⟨rB16, p0⟩] S1024x512.size (by rfl) y

/-- What the body leaves in each output buffer: its one whole-buffer store, of the payload of the inputs. -/
def out16_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA16, k16_pay8 (View.ld x0 rA16) (View.ld x1 rA16) (View.ld x2 rA16) (View.ld x5 rA16) (View.ld x6 rA16)⟩]
def out16_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA16, k16_pay1 (k16_pay4 (View.ld x2 rA16)) (k16_pay6 (View.ld x1 rA16) (View.ld x2 rA16) (View.ld x3 rB16) (View.ld x6 rA16) (View.ld x7 rB16))⟩]
def out16_10 (x2 : Vec F S1024x1024 .f32) (x3 : Vec F S1024x512 .f32) (x4 : Vec F S1024x512 .f32) (x7 : Vec F S1024x512 .f32) : Vec F S1024x512 .f32 :=
  View.canon [⟨rB16, k16_pay2 (k16_pay5 (View.ld x3 rB16)) (k16_pay7 (View.ld x2 rA16) (View.ld x3 rB16) (View.ld x4 rB16) (View.ld x7 rB16))⟩]

set_option maxHeartbeats 4000000 in
/-- The body on whole buffers: the inputs' read and kept, each output's left at `out16_w` of the inputs'. -/
theorem sound_kernel16 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out16_8 x0 x1 x2 x5 x6) ∗ owns (c : Thread nD τ) arg9 fullShare (out16_9 x1 x2 x3 x6 x7) ∗ owns (c : Thread nD τ) arg10 fullShare (out16_10 x2 x3 x4 x7)) -∗ K ⟨⟩))
      ⊢ wp frame (wpE (defs₀ (F := F)) Variants.none c none) E (cc16__state_update_kernel arg0 harg0 arg1 harg1 arg2 harg2 arg3 harg3 arg4 harg4 arg5 harg5 arg6 harg6 arg7 harg7 arg8 harg8 arg9 harg9 arg10 harg10) K := by
  simp only [cc16__state_update_kernel_eq_skeleton]; unfold cc16__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA16 _)
  isplitl [H9]
  · iexists _; isplitr
    swap; · iexact H9
    ipureintro
    exact View.read_writes_eq_canon _ _ _ (coverA16 _)
  iexists _; isplitr
  swap; · iexact H10
  ipureintro
  exact View.read_writes_eq_canon _ _ _ (coverB16 _)

/-- The proof data of pipeline 16: the arrays as the region finds them; after the body each input's buffer at its
    block and each output's at the body's result; the scoped rest and the generator register untouched; nothing owed. -/
def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => iblk16 V c 2 t
    | ⟨3, _⟩ => iblk16 V c 3 t
    | ⟨4, _⟩ => iblk16 V c 4 t
    | ⟨5, _⟩ => iblk16 V c 5 t
    | ⟨6, _⟩ => iblk16 V c 6 t
    | ⟨7, _⟩ => iblk16 V c 7 t
    | ⟨8, _⟩ => out16_8 (iblk16 V c 0 t) (iblk16 V c 1 t) (iblk16 V c 2 t) (iblk16 V c 5 t) (iblk16 V c 6 t)
    | ⟨9, _⟩ => out16_9 (iblk16 V c 1 t) (iblk16 V c 2 t) (iblk16 V c 3 t) (iblk16 V c 6 t) (iblk16 V c 7 t)
    | ⟨10, _⟩ => out16_10 (iblk16 V c 2 t) (iblk16 V c 3 t) (iblk16 V c 4 t) (iblk16 V c 7 t)
  Φ _ := Pipeline.ΦA spec16 c
  q _ := fullShare
  owed _ := 0

theorem A_eq16 (c : Dev nD) (w : Fin cfg16.W) : (dat16 V c).A w = V c (Pipeline.arrRef spec16 w) := by
  dsimp only [dat16]

theorem after16_0 (c : Dev nD) (t : Fin cfg16.N) : (dat16 V c).after 0 t = iblk16 V c 0 t := by dsimp only [dat16]
theorem after16_1 (c : Dev nD) (t : Fin cfg16.N) : (dat16 V c).after 1 t = iblk16 V c 1 t := by dsimp only [dat16]
theorem after16_2 (c : Dev nD) (t : Fin cfg16.N) : (dat16 V c).after 2 t = iblk16 V c 2 t := by dsimp only [dat16]
theorem after16_3 (c : Dev nD) (t : Fin cfg16.N) : (dat16 V c).after 3 t = iblk16 V c 3 t := by dsimp only [dat16]
theorem after16_4 (c : Dev nD) (t : Fin cfg16.N) : (dat16 V c).after 4 t = iblk16 V c 4 t := by dsimp only [dat16]
theorem after16_5 (c : Dev nD) (t : Fin cfg16.N) : (dat16 V c).after 5 t = iblk16 V c 5 t := by dsimp only [dat16]
theorem after16_6 (c : Dev nD) (t : Fin cfg16.N) : (dat16 V c).after 6 t = iblk16 V c 6 t := by dsimp only [dat16]
theorem after16_7 (c : Dev nD) (t : Fin cfg16.N) : (dat16 V c).after 7 t = iblk16 V c 7 t := by dsimp only [dat16]
theorem after16_8 (c : Dev nD) (t : Fin cfg16.N) : (dat16 V c).after 8 t = out16_8 (iblk16 V c 0 t) (iblk16 V c 1 t) (iblk16 V c 2 t) (iblk16 V c 5 t) (iblk16 V c 6 t) := by dsimp only [dat16]
theorem after16_9 (c : Dev nD) (t : Fin cfg16.N) : (dat16 V c).after 9 t = out16_9 (iblk16 V c 1 t) (iblk16 V c 2 t) (iblk16 V c 3 t) (iblk16 V c 6 t) (iblk16 V c 7 t) := by dsimp only [dat16]
theorem after16_10 (c : Dev nD) (t : Fin cfg16.N) : (dat16 V c).after 10 t = out16_10 (iblk16 V c 2 t) (iblk16 V c 3 t) (iblk16 V c 4 t) (iblk16 V c 7 t) := by dsimp only [dat16]

theorem before16_0 (c : Dev nD) (t : Fin cfg16.N) (d) : (dat16 V c).before 0 t d = iblk16 V c 0 t :=
  before16_0_of V (dat16 V c) (A_eq16 V c 0) (after16_0 V c) t d
theorem before16_1 (c : Dev nD) (t : Fin cfg16.N) (d) : (dat16 V c).before 1 t d = iblk16 V c 1 t :=
  before16_1_of V (dat16 V c) (A_eq16 V c 1) (after16_1 V c) t d
theorem before16_2 (c : Dev nD) (t : Fin cfg16.N) (d) : (dat16 V c).before 2 t d = iblk16 V c 2 t :=
  before16_2_of V (dat16 V c) (A_eq16 V c 2) (after16_2 V c) t d
theorem before16_3 (c : Dev nD) (t : Fin cfg16.N) (d) : (dat16 V c).before 3 t d = iblk16 V c 3 t :=
  before16_3_of V (dat16 V c) (A_eq16 V c 3) (after16_3 V c) t d
theorem before16_4 (c : Dev nD) (t : Fin cfg16.N) (d) : (dat16 V c).before 4 t d = iblk16 V c 4 t :=
  before16_4_of V (dat16 V c) (A_eq16 V c 4) (after16_4 V c) t d
theorem before16_5 (c : Dev nD) (t : Fin cfg16.N) (d) : (dat16 V c).before 5 t d = iblk16 V c 5 t :=
  before16_5_of V (dat16 V c) (A_eq16 V c 5) (after16_5 V c) t d
theorem before16_6 (c : Dev nD) (t : Fin cfg16.N) (d) : (dat16 V c).before 6 t d = iblk16 V c 6 t :=
  before16_6_of V (dat16 V c) (A_eq16 V c 6) (after16_6 V c) t d
theorem before16_7 (c : Dev nD) (t : Fin cfg16.N) (d) : (dat16 V c).before 7 t d = iblk16 V c 7 t :=
  before16_7_of V (dat16 V c) (A_eq16 V c 7) (after16_7 V c) t d

/-- What the body is called with at the point, the windows one by one, -/
def bodyPre16 (c : Dev nD) (t : Fin cfg16.N) : sProp 𝕄 :=
  iprop((dat16 V c).Φ t.castSucc ∗ (dat16 V c).owesAt () t.castSucc
    ∗ (∃ d, owns (c : Thread nD τ) (st16_0 t) fullShare ((dat16 V c).before 0 t d))
    ∗ (∃ d, owns (c : Thread nD τ) (st16_1 t) fullShare ((dat16 V c).before 1 t d))
    ∗ (∃ d, owns (c : Thread nD τ) (st16_2 t) fullShare ((dat16 V c).before 2 t d))
    ∗ (∃ d, owns (c : Thread nD τ) (st16_3 t) fullShare ((dat16 V c).before 3 t d))
    ∗ (∃ d, owns (c : Thread nD τ) (st16_4 t) fullShare ((dat16 V c).before 4 t d))
    ∗ (∃ d, owns (c : Thread nD τ) (st16_5 t) fullShare ((dat16 V c).before 5 t d))
    ∗ (∃ d, owns (c : Thread nD τ) (st16_6 t) fullShare ((dat16 V c).before 6 t d))
    ∗ (∃ d, owns (c : Thread nD τ) (st16_7 t) fullShare ((dat16 V c).before 7 t d))
    ∗ (∃ d, owns (c : Thread nD τ) (st16_8 t) fullShare ((dat16 V c).before 8 t d))
    ∗ (∃ d, owns (c : Thread nD τ) (st16_9 t) fullShare ((dat16 V c).before 9 t d))
    ∗ (∃ d, owns (c : Thread nD τ) (st16_10 t) fullShare ((dat16 V c).before 10 t d)))

/-- and what it returns. -/
def bodyPost16 (c : Dev nD) (t : Fin cfg16.N) : sProp 𝕄 :=
  iprop((dat16 V c).Φ t.succ ∗ (dat16 V c).owesAt () t.succ
    ∗ owns (c : Thread nD τ) (st16_0 t) fullShare ((dat16 V c).after 0 t)
    ∗ owns (c : Thread nD τ) (st16_1 t) fullShare ((dat16 V c).after 1 t)
    ∗ owns (c : Thread nD τ) (st16_2 t) fullShare ((dat16 V c).after 2 t)
    ∗ owns (c : Thread nD τ) (st16_3 t) fullShare ((dat16 V c).after 3 t)
    ∗ owns (c : Thread nD τ) (st16_4 t) fullShare ((dat16 V c).after 4 t)
    ∗ owns (c : Thread nD τ) (st16_5 t) fullShare ((dat16 V c).after 5 t)
    ∗ owns (c : Thread nD τ) (st16_6 t) fullShare ((dat16 V c).after 6 t)
    ∗ owns (c : Thread nD τ) (st16_7 t) fullShare ((dat16 V c).after 7 t)
    ∗ owns (c : Thread nD τ) (st16_8 t) fullShare ((dat16 V c).after 8 t)
    ∗ owns (c : Thread nD τ) (st16_9 t) fullShare ((dat16 V c).after 9 t)
    ∗ owns (c : Thread nD τ) (st16_10 t) fullShare ((dat16 V c).after 10 t))

theorem sound_body16 (c : Dev nD) (t : Fin cfg16.N) :
    bodyPre16 V c t ⊢ wp frame (wpE (defs₀ (F := F)) Variants.none c none) Set.univ (bodyAt16 t) (fun _ => bodyPost16 V c t) := by
  unfold bodyPre16 bodyPost16 bodyAt16
  simp only [before16_0, before16_1, before16_2, before16_3, before16_4, before16_5, before16_6, before16_7]
  rw [show (dat16 V c).Φ t.succ = (dat16 V c).Φ t.castSucc from rfl,
    show (dat16 V c).owesAt () t.succ = (dat16 V c).owesAt () t.castSucc from rfl,
    after16_0, after16_1, after16_2, after16_3, after16_4, after16_5, after16_6, after16_7, after16_8, after16_9, after16_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel16 c Set.univ _ _ _ _ _ _ _ _ _ _ _ _ _ _ _ _ _ _ _ _ _ _ (iblk16 V c 0 t) (iblk16 V c 1 t) (iblk16 V c 2 t) (iblk16 V c 3 t) (iblk16 V c 4 t) (iblk16 V c 5 t) (iblk16 V c 6 t) (iblk16 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation16 (c : Dev nD) : BodyObligation (dat16 (F := F) V c) (defs₀ (F := F)) Variants.none () Set.univ := fun t => by
  rw [bigSep_W16, bigSep_W16]
  exact sound_body16 V c t

end Cert.KernelIdeal.Reg

end
-- ==== Proof.KIRegion15.lean ====
/-
  Region 15 of @main: a later relaxation step — each state moved by half its direct gradient, the states taken as
  independent —; one gridless kernel over whole arrays.
  Stated at a parameter `V`, the buffers' contents when the region is entered, and at any float instance:
  what each output buffer holds after the body (`out15_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

theorem before15_0_of {c : Dev nD} (dat : Dat τ (Elt F) Unit ℕ (UR sig nD τ) ℕ cfg15 c) (hA : dat.A 0 = V c (Pipeline.arrRef spec15 0))
    (hafter : ∀ t, dat.after 0 t = iblk15 V c 0 t) (t : Fin cfg15.N) (d) : dat.before 0 t d = iblk15 V c 0 t :=
  (dat.before_in_eq_fetched 0 rfl (fun _ => rfl) (fun _ _ _ => rfl) (fun t => by rw [hafter]; unfold Dat.blockOf iblk15; rw [hA]; try rfl) t d).trans
    (by unfold Dat.fetched Dat.blockOf iblk15; rw [hA]; try rfl)
theorem before15_1_of {c : Dev nD} (dat : Dat τ (Elt F) Unit ℕ (UR sig nD τ) ℕ cfg15 c) (hA : dat.A 1 = V c (Pipeline.arrRef spec15 1))
    (hafter : ∀ t, dat.after 1 t = iblk15 V c 1 t) (t : Fin cfg15.N) (d) : dat.before 1 t d = iblk15 V c 1 t :=
  (dat.before_in_eq_fetched 1 rfl (fun _ => rfl) (fun _ _ _ => rfl) (fun t => by rw [hafter]; unfold Dat.blockOf iblk15; rw [hA]; try rfl) t d).trans
    (by unfold Dat.fetched Dat.blockOf iblk15; rw [hA]; try rfl)
theorem before15_2_of {c : Dev nD} (dat : Dat τ (Elt F) Unit ℕ (UR sig nD τ) ℕ cfg15 c) (hA : dat.A 2 = V c (Pipeline.arrRef spec15 2))
    (hafter : ∀ t, dat.after 2 t = iblk15 V c 2 t) (t : Fin cfg15.N) (d) : dat.before 2 t d = iblk15 V c 2 t :=
  (dat.before_in_eq_fetched 2 rfl (fun _ => rfl) (fun _ _ _ => rfl) (fun t => by rw [hafter]; unfold Dat.blockOf iblk15; rw [hA]; try rfl) t d).trans
    (by unfold Dat.fetched Dat.blockOf iblk15; rw [hA]; try rfl)
theorem before15_3_of {c : Dev nD} (dat : Dat τ (Elt F) Unit ℕ (UR sig nD τ) ℕ cfg15 c) (hA : dat.A 3 = V c (Pipeline.arrRef spec15 3))
    (hafter : ∀ t, dat.after 3 t = iblk15 V c 3 t) (t : Fin cfg15.N) (d) : dat.before 3 t d = iblk15 V c 3 t :=
  (dat.before_in_eq_fetched 3 rfl (fun _ => rfl) (fun _ _ _ => rfl) (fun t => by rw [hafter]; unfold Dat.blockOf iblk15; rw [hA]; try rfl) t d).trans
    (by unfold Dat.fetched Dat.blockOf iblk15; rw [hA]; try rfl)
theorem before15_4_of {c : Dev nD} (dat : Dat τ (Elt F) Unit ℕ (UR sig nD τ) ℕ cfg15 c) (hA : dat.A 4 = V c (Pipeline.arrRef spec15 4))
    (hafter : ∀ t, dat.after 4 t = iblk15 V c 4 t) (t : Fin cfg15.N) (d) : dat.before 4 t d = iblk15 V c 4 t :=
  (dat.before_in_eq_fetched 4 rfl (fun _ => rfl) (fun _ _ _ => rfl) (fun t => by rw [hafter]; unfold Dat.blockOf iblk15; rw [hA]; try rfl) t d).trans
    (by unfold Dat.fetched Dat.blockOf iblk15; rw [hA]; try rfl)
theorem before15_5_of {c : Dev nD} (dat : Dat τ (Elt F) Unit ℕ (UR sig nD τ) ℕ cfg15 c) (hA : dat.A 5 = V c (Pipeline.arrRef spec15 5))
    (hafter : ∀ t, dat.after 5 t = iblk15 V c 5 t) (t : Fin cfg15.N) (d) : dat.before 5 t d = iblk15 V c 5 t :=
  (dat.before_in_eq_fetched 5 rfl (fun _ => rfl) (fun _ _ _ => rfl) (fun t => by rw [hafter]; unfold Dat.blockOf iblk15; rw [hA]; try rfl) t d).trans
    (by unfold Dat.fetched Dat.blockOf iblk15; rw [hA]; try rfl)
theorem before15_6_of {c : Dev nD} (dat : Dat τ (Elt F) Unit ℕ (UR sig nD τ) ℕ cfg15 c) (hA : dat.A 6 = V c (Pipeline.arrRef spec15 6))
    (hafter : ∀ t, dat.after 6 t = iblk15 V c 6 t) (t : Fin cfg15.N) (d) : dat.before 6 t d = iblk15 V c 6 t :=
  (dat.before_in_eq_fetched 6 rfl (fun _ => rfl) (fun _ _ _ => rfl) (fun t => by rw [hafter]; unfold Dat.blockOf iblk15; rw [hA]; try rfl) t d).trans
    (by unfold Dat.fetched Dat.blockOf iblk15; rw [hA]; try rfl)
theorem before15_7_of {c : Dev nD} (dat : Dat τ (Elt F) Unit ℕ (UR sig nD τ) ℕ cfg15 c) (hA : dat.A 7 = V c (Pipeline.arrRef spec15 7))
    (hafter : ∀ t, dat.after 7 t = iblk15 V c 7 t) (t : Fin cfg15.N) (d) : dat.before 7 t d = iblk15 V c 7 t :=
  (dat.before_in_eq_fetched 7 rfl (fun _ => rfl) (fun _ _ _ => rfl) (fun t => by rw [hafter]; unfold Dat.blockOf iblk15; rw [hA]; try rfl) t d).trans
    (by unfold Dat.fetched Dat.blockOf iblk15; rw [hA]; try rfl)

/-- The whole-buffer rectangles the body loads and stores through. -/
abbrev rA15 : Rect S1024x1024 := Rect.unit (s := S1024x1024) ![0, 0] S1024x1024.size inb_S1024x1024_S1024x1024_0_0
abbrev rB15 : Rect S1024x512 := Rect.unit (s := S1024x512) ![0, 0] S1024x512.size inb_S1024x512_S1024x512_0_0

/-- One whole-buffer store covers its buffer. -/
theorem coverA15 (p0 : Vec F S1024x1024 .f32) (y : S1024x1024.Idx) :
    ∃ pc ∈ ([⟨rA15, p0⟩] : List (View.Piece (Elt F) S1024x1024 .f32)), y ∈ pc.1.set :=
  View.cover_of_tiled [⟨rA15, p0⟩] S1024x1024.size (by rfl) y
theorem coverB15 (p0 : Vec F S1024x512 .f32) (y : S1024x512.Idx) :
    ∃ pc ∈ ([⟨rB15, p0⟩] : List (View.Piece (Elt F) S1024x512 .f32)), y ∈ pc.1.set :=
  View.cover_of_tiled [⟨rB15, p0⟩] S1024x512.size (by rfl) y

/-- What the body leaves in each output buffer: its one whole-buffer store, of the payload of the inputs. -/
def out15_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA15, k15_pay8 (View.ld x0 rA15) (View.ld x1 rA15) (View.ld x2 rA15) (View.ld x5 rA15) (View.ld x6 rA15)⟩]
def out15_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA15, k15_pay1 (k15_pay4 (View.ld x2 rA15)) (k15_pay6 (View.ld x1 rA15) (View.ld x2 rA15) (View.ld x3 rB15) (View.ld x6 rA15) (View.ld x7 rB15))⟩]
def out15_10 (x2 : Vec F S1024x1024 .f32) (x3 : Vec F S1024x512 .f32) (x4 : Vec F S1024x512 .f32) (x7 : Vec F S1024x512 .f32) : Vec F S1024x512 .f32 :=
  View.canon [⟨rB15, k15_pay2 (k15_pay5 (View.ld x3 rB15)) (k15_pay7 (View.ld x2 rA15) (View.ld x3 rB15) (View.ld x4 rB15) (View.ld x7 rB15))⟩]

set_option maxHeartbeats 4000000 in
/-- The body on whole buffers: the inputs' read and kept, each output's left at `out15_w` of the inputs'. -/
theorem sound_kernel15 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out15_8 x0 x1 x2 x5 x6) ∗ owns (c : Thread nD τ) arg9 fullShare (out15_9 x1 x2 x3 x6 x7) ∗ owns (c : Thread nD τ) arg10 fullShare (out15_10 x2 x3 x4 x7)) -∗ K ⟨⟩))
      ⊢ wp frame (wpE (defs₀ (F := F)) Variants.none c none) E (cc15__state_update_kernel arg0 harg0 arg1 harg1 arg2 harg2 arg3 harg3 arg4 harg4 arg5 harg5 arg6 harg6 arg7 harg7 arg8 harg8 arg9 harg9 arg10 harg10) K := by
  simp only [cc15__state_update_kernel_eq_skeleton]; unfold cc15__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA15 _)
  isplitl [H9]
  · iexists _; isplitr
    swap; · iexact H9
    ipureintro
    exact View.read_writes_eq_canon _ _ _ (coverA15 _)
  iexists _; isplitr
  swap; · iexact H10
  ipureintro
  exact View.read_writes_eq_canon _ _ _ (coverB15 _)

/-- The proof data of pipeline 15: the arrays as the region finds them; after the body each input's buffer at its
    block and each output's at the body's result; the scoped rest and the generator register untouched; nothing owed. -/
def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => iblk15 V c 2 t
    | ⟨3, _⟩ => iblk15 V c 3 t
    | ⟨4, _⟩ => iblk15 V c 4 t
    | ⟨5, _⟩ => iblk15 V c 5 t
    | ⟨6, _⟩ => iblk15 V c 6 t
    | ⟨7, _⟩ => iblk15 V c 7 t
    | ⟨8, _⟩ => out15_8 (iblk15 V c 0 t) (iblk15 V c 1 t) (iblk15 V c 2 t) (iblk15 V c 5 t) (iblk15 V c 6 t)
    | ⟨9, _⟩ => out15_9 (iblk15 V c 1 t) (iblk15 V c 2 t) (iblk15 V c 3 t) (iblk15 V c 6 t) (iblk15 V c 7 t)
    | ⟨10, _⟩ => out15_10 (iblk15 V c 2 t) (iblk15 V c 3 t) (iblk15 V c 4 t) (iblk15 V c 7 t)
  Φ _ := Pipeline.ΦA spec15 c
  q _ := fullShare
  owed _ := 0

theorem A_eq15 (c : Dev nD) (w : Fin cfg15.W) : (dat15 V c).A w = V c (Pipeline.arrRef spec15 w) := by
  dsimp only [dat15]

theorem after15_0 (c : Dev nD) (t : Fin cfg15.N) : (dat15 V c).after 0 t = iblk15 V c 0 t := by dsimp only [dat15]
theorem after15_1 (c : Dev nD) (t : Fin cfg15.N) : (dat15 V c).after 1 t = iblk15 V c 1 t := by dsimp only [dat15]
theorem after15_2 (c : Dev nD) (t : Fin cfg15.N) : (dat15 V c).after 2 t = iblk15 V c 2 t := by dsimp only [dat15]
theorem after15_3 (c : Dev nD) (t : Fin cfg15.N) : (dat15 V c).after 3 t = iblk15 V c 3 t := by dsimp only [dat15]
theorem after15_4 (c : Dev nD) (t : Fin cfg15.N) : (dat15 V c).after 4 t = iblk15 V c 4 t := by dsimp only [dat15]
theorem after15_5 (c : Dev nD) (t : Fin cfg15.N) : (dat15 V c).after 5 t = iblk15 V c 5 t := by dsimp only [dat15]
theorem after15_6 (c : Dev nD) (t : Fin cfg15.N) : (dat15 V c).after 6 t = iblk15 V c 6 t := by dsimp only [dat15]
theorem after15_7 (c : Dev nD) (t : Fin cfg15.N) : (dat15 V c).after 7 t = iblk15 V c 7 t := by dsimp only [dat15]
theorem after15_8 (c : Dev nD) (t : Fin cfg15.N) : (dat15 V c).after 8 t = out15_8 (iblk15 V c 0 t) (iblk15 V c 1 t) (iblk15 V c 2 t) (iblk15 V c 5 t) (iblk15 V c 6 t) := by dsimp only [dat15]
theorem after15_9 (c : Dev nD) (t : Fin cfg15.N) : (dat15 V c).after 9 t = out15_9 (iblk15 V c 1 t) (iblk15 V c 2 t) (iblk15 V c 3 t) (iblk15 V c 6 t) (iblk15 V c 7 t) := by dsimp only [dat15]
theorem after15_10 (c : Dev nD) (t : Fin cfg15.N) : (dat15 V c).after 10 t = out15_10 (iblk15 V c 2 t) (iblk15 V c 3 t) (iblk15 V c 4 t) (iblk15 V c 7 t) := by dsimp only [dat15]

theorem before15_0 (c : Dev nD) (t : Fin cfg15.N) (d) : (dat15 V c).before 0 t d = iblk15 V c 0 t :=
  before15_0_of V (dat15 V c) (A_eq15 V c 0) (after15_0 V c) t d
theorem before15_1 (c : Dev nD) (t : Fin cfg15.N) (d) : (dat15 V c).before 1 t d = iblk15 V c 1 t :=
  before15_1_of V (dat15 V c) (A_eq15 V c 1) (after15_1 V c) t d
theorem before15_2 (c : Dev nD) (t : Fin cfg15.N) (d) : (dat15 V c).before 2 t d = iblk15 V c 2 t :=
  before15_2_of V (dat15 V c) (A_eq15 V c 2) (after15_2 V c) t d
theorem before15_3 (c : Dev nD) (t : Fin cfg15.N) (d) : (dat15 V c).before 3 t d = iblk15 V c 3 t :=
  before15_3_of V (dat15 V c) (A_eq15 V c 3) (after15_3 V c) t d
theorem before15_4 (c : Dev nD) (t : Fin cfg15.N) (d) : (dat15 V c).before 4 t d = iblk15 V c 4 t :=
  before15_4_of V (dat15 V c) (A_eq15 V c 4) (after15_4 V c) t d
theorem before15_5 (c : Dev nD) (t : Fin cfg15.N) (d) : (dat15 V c).before 5 t d = iblk15 V c 5 t :=
  before15_5_of V (dat15 V c) (A_eq15 V c 5) (after15_5 V c) t d
theorem before15_6 (c : Dev nD) (t : Fin cfg15.N) (d) : (dat15 V c).before 6 t d = iblk15 V c 6 t :=
  before15_6_of V (dat15 V c) (A_eq15 V c 6) (after15_6 V c) t d
theorem before15_7 (c : Dev nD) (t : Fin cfg15.N) (d) : (dat15 V c).before 7 t d = iblk15 V c 7 t :=
  before15_7_of V (dat15 V c) (A_eq15 V c 7) (after15_7 V c) t d

/-- What the body is called with at the point, the windows one by one, -/
def bodyPre15 (c : Dev nD) (t : Fin cfg15.N) : sProp 𝕄 :=
  iprop((dat15 V c).Φ t.castSucc ∗ (dat15 V c).owesAt () t.castSucc
    ∗ (∃ d, owns (c : Thread nD τ) (st15_0 t) fullShare ((dat15 V c).before 0 t d))
    ∗ (∃ d, owns (c : Thread nD τ) (st15_1 t) fullShare ((dat15 V c).before 1 t d))
    ∗ (∃ d, owns (c : Thread nD τ) (st15_2 t) fullShare ((dat15 V c).before 2 t d))
    ∗ (∃ d, owns (c : Thread nD τ) (st15_3 t) fullShare ((dat15 V c).before 3 t d))
    ∗ (∃ d, owns (c : Thread nD τ) (st15_4 t) fullShare ((dat15 V c).before 4 t d))
    ∗ (∃ d, owns (c : Thread nD τ) (st15_5 t) fullShare ((dat15 V c).before 5 t d))
    ∗ (∃ d, owns (c : Thread nD τ) (st15_6 t) fullShare ((dat15 V c).before 6 t d))
    ∗ (∃ d, owns (c : Thread nD τ) (st15_7 t) fullShare ((dat15 V c).before 7 t d))
    ∗ (∃ d, owns (c : Thread nD τ) (st15_8 t) fullShare ((dat15 V c).before 8 t d))
    ∗ (∃ d, owns (c : Thread nD τ) (st15_9 t) fullShare ((dat15 V c).before 9 t d))
    ∗ (∃ d, owns (c : Thread nD τ) (st15_10 t) fullShare ((dat15 V c).before 10 t d)))

/-- and what it returns. -/
def bodyPost15 (c : Dev nD) (t : Fin cfg15.N) : sProp 𝕄 :=
  iprop((dat15 V c).Φ t.succ ∗ (dat15 V c).owesAt () t.succ
    ∗ owns (c : Thread nD τ) (st15_0 t) fullShare ((dat15 V c).after 0 t)
    ∗ owns (c : Thread nD τ) (st15_1 t) fullShare ((dat15 V c).after 1 t)
    ∗ owns (c : Thread nD τ) (st15_2 t) fullShare ((dat15 V c).after 2 t)
    ∗ owns (c : Thread nD τ) (st15_3 t) fullShare ((dat15 V c).after 3 t)
    ∗ owns (c : Thread nD τ) (st15_4 t) fullShare ((dat15 V c).after 4 t)
    ∗ owns (c : Thread nD τ) (st15_5 t) fullShare ((dat15 V c).after 5 t)
    ∗ owns (c : Thread nD τ) (st15_6 t) fullShare ((dat15 V c).after 6 t)
    ∗ owns (c : Thread nD τ) (st15_7 t) fullShare ((dat15 V c).after 7 t)
    ∗ owns (c : Thread nD τ) (st15_8 t) fullShare ((dat15 V c).after 8 t)
    ∗ owns (c : Thread nD τ) (st15_9 t) fullShare ((dat15 V c).after 9 t)
    ∗ owns (c : Thread nD τ) (st15_10 t) fullShare ((dat15 V c).after 10 t))

theorem sound_body15 (c : Dev nD) (t : Fin cfg15.N) :
    bodyPre15 V c t ⊢ wp frame (wpE (defs₀ (F := F)) Variants.none c none) Set.univ (bodyAt15 t) (fun _ => bodyPost15 V c t) := by
  unfold bodyPre15 bodyPost15 bodyAt15
  simp only [before15_0, before15_1, before15_2, before15_3, before15_4, before15_5, before15_6, before15_7]
  rw [show (dat15 V c).Φ t.succ = (dat15 V c).Φ t.castSucc from rfl,
    show (dat15 V c).owesAt () t.succ = (dat15 V c).owesAt () t.castSucc from rfl,
    after15_0, after15_1, after15_2, after15_3, after15_4, after15_5, after15_6, after15_7, after15_8, after15_9, after15_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel15 c Set.univ _ _ _ _ _ _ _ _ _ _ _ _ _ _ _ _ _ _ _ _ _ _ (iblk15 V c 0 t) (iblk15 V c 1 t) (iblk15 V c 2 t) (iblk15 V c 3 t) (iblk15 V c 4 t) (iblk15 V c 5 t) (iblk15 V c 6 t) (iblk15 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation15 (c : Dev nD) : BodyObligation (dat15 (F := F) V c) (defs₀ (F := F)) Variants.none () Set.univ := fun t => by
  rw [bigSep_W15, bigSep_W15]
  exact sound_body15 V c t

end Cert.KernelIdeal.Reg

end
-- ==== Proof.KIRegion14.lean ====
/-
  Region 14 of @main: a later relaxation step — each state moved by half its direct gradient, the states taken as
  independent —; one gridless kernel over whole arrays.
  Stated at a parameter `V`, the buffers' contents when the region is entered, and at any float instance:
  what each output buffer holds after the body (`out14_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

theorem before14_0_of {c : Dev nD} (dat : Dat τ (Elt F) Unit ℕ (UR sig nD τ) ℕ cfg14 c) (hA : dat.A 0 = V c (Pipeline.arrRef spec14 0))
    (hafter : ∀ t, dat.after 0 t = iblk14 V c 0 t) (t : Fin cfg14.N) (d) : dat.before 0 t d = iblk14 V c 0 t :=
  (dat.before_in_eq_fetched 0 rfl (fun _ => rfl) (fun _ _ _ => rfl) (fun t => by rw [hafter]; unfold Dat.blockOf iblk14; rw [hA]; try rfl) t d).trans
    (by unfold Dat.fetched Dat.blockOf iblk14; rw [hA]; try rfl)
theorem before14_1_of {c : Dev nD} (dat : Dat τ (Elt F) Unit ℕ (UR sig nD τ) ℕ cfg14 c) (hA : dat.A 1 = V c (Pipeline.arrRef spec14 1))
    (hafter : ∀ t, dat.after 1 t = iblk14 V c 1 t) (t : Fin cfg14.N) (d) : dat.before 1 t d = iblk14 V c 1 t :=
  (dat.before_in_eq_fetched 1 rfl (fun _ => rfl) (fun _ _ _ => rfl) (fun t => by rw [hafter]; unfold Dat.blockOf iblk14; rw [hA]; try rfl) t d).trans
    (by unfold Dat.fetched Dat.blockOf iblk14; rw [hA]; try rfl)
theorem before14_2_of {c : Dev nD} (dat : Dat τ (Elt F) Unit ℕ (UR sig nD τ) ℕ cfg14 c) (hA : dat.A 2 = V c (Pipeline.arrRef spec14 2))
    (hafter : ∀ t, dat.after 2 t = iblk14 V c 2 t) (t : Fin cfg14.N) (d) : dat.before 2 t d = iblk14 V c 2 t :=
  (dat.before_in_eq_fetched 2 rfl (fun _ => rfl) (fun _ _ _ => rfl) (fun t => by rw [hafter]; unfold Dat.blockOf iblk14; rw [hA]; try rfl) t d).trans
    (by unfold Dat.fetched Dat.blockOf iblk14; rw [hA]; try rfl)
theorem before14_3_of {c : Dev nD} (dat : Dat τ (Elt F) Unit ℕ (UR sig nD τ) ℕ cfg14 c) (hA : dat.A 3 = V c (Pipeline.arrRef spec14 3))
    (hafter : ∀ t, dat.after 3 t = iblk14 V c 3 t) (t : Fin cfg14.N) (d) : dat.before 3 t d = iblk14 V c 3 t :=
  (dat.before_in_eq_fetched 3 rfl (fun _ => rfl) (fun _ _ _ => rfl) (fun t => by rw [hafter]; unfold Dat.blockOf iblk14; rw [hA]; try rfl) t d).trans
    (by unfold Dat.fetched Dat.blockOf iblk14; rw [hA]; try rfl)
theorem before14_4_of {c : Dev nD} (dat : Dat τ (Elt F) Unit ℕ (UR sig nD τ) ℕ cfg14 c) (hA : dat.A 4 = V c (Pipeline.arrRef spec14 4))
    (hafter : ∀ t, dat.after 4 t = iblk14 V c 4 t) (t : Fin cfg14.N) (d) : dat.before 4 t d = iblk14 V c 4 t :=
  (dat.before_in_eq_fetched 4 rfl (fun _ => rfl) (fun _ _ _ => rfl) (fun t => by rw [hafter]; unfold Dat.blockOf iblk14; rw [hA]; try rfl) t d).trans
    (by unfold Dat.fetched Dat.blockOf iblk14; rw [hA]; try rfl)
theorem before14_5_of {c : Dev nD} (dat : Dat τ (Elt F) Unit ℕ (UR sig nD τ) ℕ cfg14 c) (hA : dat.A 5 = V c (Pipeline.arrRef spec14 5))
    (hafter : ∀ t, dat.after 5 t = iblk14 V c 5 t) (t : Fin cfg14.N) (d) : dat.before 5 t d = iblk14 V c 5 t :=
  (dat.before_in_eq_fetched 5 rfl (fun _ => rfl) (fun _ _ _ => rfl) (fun t => by rw [hafter]; unfold Dat.blockOf iblk14; rw [hA]; try rfl) t d).trans
    (by unfold Dat.fetched Dat.blockOf iblk14; rw [hA]; try rfl)
theorem before14_6_of {c : Dev nD} (dat : Dat τ (Elt F) Unit ℕ (UR sig nD τ) ℕ cfg14 c) (hA : dat.A 6 = V c (Pipeline.arrRef spec14 6))
    (hafter : ∀ t, dat.after 6 t = iblk14 V c 6 t) (t : Fin cfg14.N) (d) : dat.before 6 t d = iblk14 V c 6 t :=
  (dat.before_in_eq_fetched 6 rfl (fun _ => rfl) (fun _ _ _ => rfl) (fun t => by rw [hafter]; unfold Dat.blockOf iblk14; rw [hA]; try rfl) t d).trans
    (by unfold Dat.fetched Dat.blockOf iblk14; rw [hA]; try rfl)
theorem before14_7_of {c : Dev nD} (dat : Dat τ (Elt F) Unit ℕ (UR sig nD τ) ℕ cfg14 c) (hA : dat.A 7 = V c (Pipeline.arrRef spec14 7))
    (hafter : ∀ t, dat.after 7 t = iblk14 V c 7 t) (t : Fin cfg14.N) (d) : dat.before 7 t d = iblk14 V c 7 t :=
  (dat.before_in_eq_fetched 7 rfl (fun _ => rfl) (fun _ _ _ => rfl) (fun t => by rw [hafter]; unfold Dat.blockOf iblk14; rw [hA]; try rfl) t d).trans
    (by unfold Dat.fetched Dat.blockOf iblk14; rw [hA]; try rfl)

/-- The whole-buffer rectangles the body loads and stores through. -/
abbrev rA14 : Rect S1024x1024 := Rect.unit (s := S1024x1024) ![0, 0] S1024x1024.size inb_S1024x1024_S1024x1024_0_0
abbrev rB14 : Rect S1024x512 := Rect.unit (s := S1024x512) ![0, 0] S1024x512.size inb_S1024x512_S1024x512_0_0

/-- One whole-buffer store covers its buffer. -/
theorem coverA14 (p0 : Vec F S1024x1024 .f32) (y : S1024x1024.Idx) :
    ∃ pc ∈ ([⟨rA14, p0⟩] : List (View.Piece (Elt F) S1024x1024 .f32)), y ∈ pc.1.set :=
  View.cover_of_tiled [⟨rA14, p0⟩] S1024x1024.size (by rfl) y
theorem coverB14 (p0 : Vec F S1024x512 .f32) (y : S1024x512.Idx) :
    ∃ pc ∈ ([⟨rB14, p0⟩] : List (View.Piece (Elt F) S1024x512 .f32)), y ∈ pc.1.set :=
  View.cover_of_tiled [⟨rB14, p0⟩] S1024x512.size (by rfl) y

/-- What the body leaves in each output buffer: its one whole-buffer store, of the payload of the inputs. -/
def out14_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA14, k14_pay8 (View.ld x0 rA14) (View.ld x1 rA14) (View.ld x2 rA14) (View.ld x5 rA14) (View.ld x6 rA14)⟩]
def out14_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA14, k14_pay1 (k14_pay4 (View.ld x2 rA14)) (k14_pay6 (View.ld x1 rA14) (View.ld x2 rA14) (View.ld x3 rB14) (View.ld x6 rA14) (View.ld x7 rB14))⟩]
def out14_10 (x2 : Vec F S1024x1024 .f32) (x3 : Vec F S1024x512 .f32) (x4 : Vec F S1024x512 .f32) (x7 : Vec F S1024x512 .f32) : Vec F S1024x512 .f32 :=
  View.canon [⟨rB14, k14_pay2 (k14_pay5 (View.ld x3 rB14)) (k14_pay7 (View.ld x2 rA14) (View.ld x3 rB14) (View.ld x4 rB14) (View.ld x7 rB14))⟩]

set_option maxHeartbeats 4000000 in
/-- The body on whole buffers: the inputs' read and kept, each output's left at `out14_w` of the inputs'. -/
theorem sound_kernel14 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out14_8 x0 x1 x2 x5 x6) ∗ owns (c : Thread nD τ) arg9 fullShare (out14_9 x1 x2 x3 x6 x7) ∗ owns (c : Thread nD τ) arg10 fullShare (out14_10 x2 x3 x4 x7)) -∗ K ⟨⟩))
      ⊢ wp frame (wpE (defs₀ (F := F)) Variants.none c none) E (cc14__state_update_kernel arg0 harg0 arg1 harg1 arg2 harg2 arg3 harg3 arg4 harg4 arg5 harg5 arg6 harg6 arg7 harg7 arg8 harg8 arg9 harg9 arg10 harg10) K := by
  simp only [cc14__state_update_kernel_eq_skeleton]; unfold cc14__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA14 _)
  isplitl [H9]
  · iexists _; isplitr
    swap; · iexact H9
    ipureintro
    exact View.read_writes_eq_canon _ _ _ (coverA14 _)
  iexists _; isplitr
  swap; · iexact H10
  ipureintro
  exact View.read_writes_eq_canon _ _ _ (coverB14 _)

/-- The proof data of pipeline 14: the arrays as the region finds them; after the body each input's buffer at its
    block and each output's at the body's result; the scoped rest and the generator register untouched; nothing owed. -/
def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => iblk14 V c 2 t
    | ⟨3, _⟩ => iblk14 V c 3 t
    | ⟨4, _⟩ => iblk14 V c 4 t
    | ⟨5, _⟩ => iblk14 V c 5 t
    | ⟨6, _⟩ => iblk14 V c 6 t
    | ⟨7, _⟩ => iblk14 V c 7 t
    | ⟨8, _⟩ => out14_8 (iblk14 V c 0 t) (iblk14 V c 1 t) (iblk14 V c 2 t) (iblk14 V c 5 t) (iblk14 V c 6 t)
    | ⟨9, _⟩ => out14_9 (iblk14 V c 1 t) (iblk14 V c 2 t) (iblk14 V c 3 t) (iblk14 V c 6 t) (iblk14 V c 7 t)
    | ⟨10, _⟩ => out14_10 (iblk14 V c 2 t) (iblk14 V c 3 t) (iblk14 V c 4 t) (iblk14 V c 7 t)
  Φ _ := Pipeline.ΦA spec14 c
  q _ := fullShare
  owed _ := 0

theorem A_eq14 (c : Dev nD) (w : Fin cfg14.W) : (dat14 V c).A w = V c (Pipeline.arrRef spec14 w) := by
  dsimp only [dat14]

theorem after14_0 (c : Dev nD) (t : Fin cfg14.N) : (dat14 V c).after 0 t = iblk14 V c 0 t := by dsimp only [dat14]
theorem after14_1 (c : Dev nD) (t : Fin cfg14.N) : (dat14 V c).after 1 t = iblk14 V c 1 t := by dsimp only [dat14]
theorem after14_2 (c : Dev nD) (t : Fin cfg14.N) : (dat14 V c).after 2 t = iblk14 V c 2 t := by dsimp only [dat14]
theorem after14_3 (c : Dev nD) (t : Fin cfg14.N) : (dat14 V c).after 3 t = iblk14 V c 3 t := by dsimp only [dat14]
theorem after14_4 (c : Dev nD) (t : Fin cfg14.N) : (dat14 V c).after 4 t = iblk14 V c 4 t := by dsimp only [dat14]
theorem after14_5 (c : Dev nD) (t : Fin cfg14.N) : (dat14 V c).after 5 t = iblk14 V c 5 t := by dsimp only [dat14]
theorem after14_6 (c : Dev nD) (t : Fin cfg14.N) : (dat14 V c).after 6 t = iblk14 V c 6 t := by dsimp only [dat14]
theorem after14_7 (c : Dev nD) (t : Fin cfg14.N) : (dat14 V c).after 7 t = iblk14 V c 7 t := by dsimp only [dat14]
theorem after14_8 (c : Dev nD) (t : Fin cfg14.N) : (dat14 V c).after 8 t = out14_8 (iblk14 V c 0 t) (iblk14 V c 1 t) (iblk14 V c 2 t) (iblk14 V c 5 t) (iblk14 V c 6 t) := by dsimp only [dat14]
theorem after14_9 (c : Dev nD) (t : Fin cfg14.N) : (dat14 V c).after 9 t = out14_9 (iblk14 V c 1 t) (iblk14 V c 2 t) (iblk14 V c 3 t) (iblk14 V c 6 t) (iblk14 V c 7 t) := by dsimp only [dat14]
theorem after14_10 (c : Dev nD) (t : Fin cfg14.N) : (dat14 V c).after 10 t = out14_10 (iblk14 V c 2 t) (iblk14 V c 3 t) (iblk14 V c 4 t) (iblk14 V c 7 t) := by dsimp only [dat14]

theorem before14_0 (c : Dev nD) (t : Fin cfg14.N) (d) : (dat14 V c).before 0 t d = iblk14 V c 0 t :=
  before14_0_of V (dat14 V c) (A_eq14 V c 0) (after14_0 V c) t d
theorem before14_1 (c : Dev nD) (t : Fin cfg14.N) (d) : (dat14 V c).before 1 t d = iblk14 V c 1 t :=
  before14_1_of V (dat14 V c) (A_eq14 V c 1) (after14_1 V c) t d
theorem before14_2 (c : Dev nD) (t : Fin cfg14.N) (d) : (dat14 V c).before 2 t d = iblk14 V c 2 t :=
  before14_2_of V (dat14 V c) (A_eq14 V c 2) (after14_2 V c) t d
theorem before14_3 (c : Dev nD) (t : Fin cfg14.N) (d) : (dat14 V c).before 3 t d = iblk14 V c 3 t :=
  before14_3_of V (dat14 V c) (A_eq14 V c 3) (after14_3 V c) t d
theorem before14_4 (c : Dev nD) (t : Fin cfg14.N) (d) : (dat14 V c).before 4 t d = iblk14 V c 4 t :=
  before14_4_of V (dat14 V c) (A_eq14 V c 4) (after14_4 V c) t d
theorem before14_5 (c : Dev nD) (t : Fin cfg14.N) (d) : (dat14 V c).before 5 t d = iblk14 V c 5 t :=
  before14_5_of V (dat14 V c) (A_eq14 V c 5) (after14_5 V c) t d
theorem before14_6 (c : Dev nD) (t : Fin cfg14.N) (d) : (dat14 V c).before 6 t d = iblk14 V c 6 t :=
  before14_6_of V (dat14 V c) (A_eq14 V c 6) (after14_6 V c) t d
theorem before14_7 (c : Dev nD) (t : Fin cfg14.N) (d) : (dat14 V c).before 7 t d = iblk14 V c 7 t :=
  before14_7_of V (dat14 V c) (A_eq14 V c 7) (after14_7 V c) t d

/-- What the body is called with at the point, the windows one by one, -/
def bodyPre14 (c : Dev nD) (t : Fin cfg14.N) : sProp 𝕄 :=
  iprop((dat14 V c).Φ t.castSucc ∗ (dat14 V c).owesAt () t.castSucc
    ∗ (∃ d, owns (c : Thread nD τ) (st14_0 t) fullShare ((dat14 V c).before 0 t d))
    ∗ (∃ d, owns (c : Thread nD τ) (st14_1 t) fullShare ((dat14 V c).before 1 t d))
    ∗ (∃ d, owns (c : Thread nD τ) (st14_2 t) fullShare ((dat14 V c).before 2 t d))
    ∗ (∃ d, owns (c : Thread nD τ) (st14_3 t) fullShare ((dat14 V c).before 3 t d))
    ∗ (∃ d, owns (c : Thread nD τ) (st14_4 t) fullShare ((dat14 V c).before 4 t d))
    ∗ (∃ d, owns (c : Thread nD τ) (st14_5 t) fullShare ((dat14 V c).before 5 t d))
    ∗ (∃ d, owns (c : Thread nD τ) (st14_6 t) fullShare ((dat14 V c).before 6 t d))
    ∗ (∃ d, owns (c : Thread nD τ) (st14_7 t) fullShare ((dat14 V c).before 7 t d))
    ∗ (∃ d, owns (c : Thread nD τ) (st14_8 t) fullShare ((dat14 V c).before 8 t d))
    ∗ (∃ d, owns (c : Thread nD τ) (st14_9 t) fullShare ((dat14 V c).before 9 t d))
    ∗ (∃ d, owns (c : Thread nD τ) (st14_10 t) fullShare ((dat14 V c).before 10 t d)))

/-- and what it returns. -/
def bodyPost14 (c : Dev nD) (t : Fin cfg14.N) : sProp 𝕄 :=
  iprop((dat14 V c).Φ t.succ ∗ (dat14 V c).owesAt () t.succ
    ∗ owns (c : Thread nD τ) (st14_0 t) fullShare ((dat14 V c).after 0 t)
    ∗ owns (c : Thread nD τ) (st14_1 t) fullShare ((dat14 V c).after 1 t)
    ∗ owns (c : Thread nD τ) (st14_2 t) fullShare ((dat14 V c).after 2 t)
    ∗ owns (c : Thread nD τ) (st14_3 t) fullShare ((dat14 V c).after 3 t)
    ∗ owns (c : Thread nD τ) (st14_4 t) fullShare ((dat14 V c).after 4 t)
    ∗ owns (c : Thread nD τ) (st14_5 t) fullShare ((dat14 V c).after 5 t)
    ∗ owns (c : Thread nD τ) (st14_6 t) fullShare ((dat14 V c).after 6 t)
    ∗ owns (c : Thread nD τ) (st14_7 t) fullShare ((dat14 V c).after 7 t)
    ∗ owns (c : Thread nD τ) (st14_8 t) fullShare ((dat14 V c).after 8 t)
    ∗ owns (c : Thread nD τ) (st14_9 t) fullShare ((dat14 V c).after 9 t)
    ∗ owns (c : Thread nD τ) (st14_10 t) fullShare ((dat14 V c).after 10 t))

theorem sound_body14 (c : Dev nD) (t : Fin cfg14.N) :
    bodyPre14 V c t ⊢ wp frame (wpE (defs₀ (F := F)) Variants.none c none) Set.univ (bodyAt14 t) (fun _ => bodyPost14 V c t) := by
  unfold bodyPre14 bodyPost14 bodyAt14
  simp only [before14_0, before14_1, before14_2, before14_3, before14_4, before14_5, before14_6, before14_7]
  rw [show (dat14 V c).Φ t.succ = (dat14 V c).Φ t.castSucc from rfl,
    show (dat14 V c).owesAt () t.succ = (dat14 V c).owesAt () t.castSucc from rfl,
    after14_0, after14_1, after14_2, after14_3, after14_4, after14_5, after14_6, after14_7, after14_8, after14_9, after14_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel14 c Set.univ _ _ _ _ _ _ _ _ _ _ _ _ _ _ _ _ _ _ _ _ _ _ (iblk14 V c 0 t) (iblk14 V c 1 t) (iblk14 V c 2 t) (iblk14 V c 3 t) (iblk14 V c 4 t) (iblk14 V c 5 t) (iblk14 V c 6 t) (iblk14 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation14 (c : Dev nD) : BodyObligation (dat14 (F := F) V c) (defs₀ (F := F)) Variants.none () Set.univ := fun t => by
  rw [bigSep_W14, bigSep_W14]
  exact sound_body14 V c t

end Cert.KernelIdeal.Reg

end
-- ==== Proof.KIRegion13.lean ====
/-
  Region 13 of @main: a later relaxation step — each state moved by half its direct gradient, the states taken as
  independent —; one gridless kernel over whole arrays.
  Stated at a parameter `V`, the buffers' contents when the region is entered, and at any float instance:
  what each output buffer holds after the body (`out13_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)
theorem before13_6_of {c : Dev nD} (dat : Dat τ (Elt F) Unit ℕ (UR sig nD τ) ℕ cfg13 c) (hA : dat.A 6 = V c (Pipeline.arrRef spec13 6))
    (hafter : ∀ t, dat.after 6 t = iblk13 V c 6 t) (t : Fin cfg13.N) (d) : dat.before 6 t d = iblk13 V c 6 t :=
  (dat.before_in_eq_fetched 6 rfl (fun _ => rfl) (fun _ _ _ => rfl) (fun t => by rw [hafter]; unfold Dat.blockOf iblk13; rw [hA]; try rfl) t d).trans
    (by unfold Dat.fetched Dat.blockOf iblk13; rw [hA]; try rfl)
theorem before13_7_of {c : Dev nD} (dat : Dat τ (Elt F) Unit ℕ (UR sig nD τ) ℕ cfg13 c) (hA : dat.A 7 = V c (Pipeline.arrRef spec13 7))
    (hafter : ∀ t, dat.after 7 t = iblk13 V c 7 t) (t : Fin cfg13.N) (d) : dat.before 7 t d = iblk13 V c 7 t :=
  (dat.before_in_eq_fetched 7 rfl (fun _ => rfl) (fun _ _ _ => rfl) (fun t => by rw [hafter]; unfold Dat.blockOf iblk13; rw [hA]; try rfl) t d).trans
    (by unfold Dat.fetched Dat.blockOf iblk13; rw [hA]; try rfl)

/-- The whole-buffer rectangles the body loads and stores through. -/
abbrev rA13 : Rect S1024x1024 := Rect.unit (s := S1024x1024) ![0, 0] S1024x1024.size inb_S1024x1024_S1024x1024_0_0
abbrev rB13 : Rect S1024x512 := Rect.unit (s := S1024x512) ![0, 0] S1024x512.size inb_S1024x512_S1024x512_0_0

/-- One whole-buffer store covers its buffer. -/
theorem coverA13 (p0 : Vec F S1024x1024 .f32) (y : S1024x1024.Idx) :
    ∃ pc ∈ ([⟨rA13, p0⟩] : List (View.Piece (Elt F) S1024x1024 .f32)), y ∈ pc.1.set :=
  View.cover_of_tiled [⟨rA13, p0⟩] S1024x1024.size (by rfl) y
theorem coverB13 (p0 : Vec F S1024x512 .f32) (y : S1024x512.Idx) :
    ∃ pc ∈ ([⟨rB13, p0⟩] : List (View.Piece (Elt F) S1024x512 .f32)), y ∈ pc.1.set :=
  View.cover_of_tiled [⟨rB13, p0⟩] S1024x512.size (by rfl) y

/-- What the body leaves in each output buffer: its one whole-buffer store, of the payload of the inputs. -/
def out13_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA13, k13_pay8 (View.ld x0 rA13) (View.ld x1 rA13) (View.ld x2 rA13) (View.ld x5 rA13) (View.ld x6 rA13)⟩]
def out13_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA13, k13_pay1 (k13_pay4 (View.ld x2 rA13)) (k13_pay6 (View.ld x1 rA13) (View.ld x2 rA13) (View.ld x3 rB13) (View.ld x6 rA13) (View.ld x7 rB13))⟩]
def out13_10 (x2 : Vec F S1024x1024 .f32) (x3 : Vec F S1024x512 .f32) (x4 : Vec F S1024x512 .f32) (x7 : Vec F S1024x512 .f32) : Vec F S1024x512 .f32 :=
  View.canon [⟨rB13, k13_pay2 (k13_pay5 (View.ld x3 rB13)) (k13_pay7 (View.ld x2 rA13) (View.ld x3 rB13) (View.ld x4 rB13) (View.ld x7 rB13))⟩]

set_option maxHeartbeats 4000000 in
/-- The body on whole buffers: the inputs' read and kept, each output's left at `out13_w` of the inputs'. -/
theorem sound_kernel13 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out13_8 x0 x1 x2 x5 x6) ∗ owns (c : Thread nD τ) arg9 fullShare (out13_9 x1 x2 x3 x6 x7) ∗ owns (c : Thread nD τ) arg10 fullShare (out13_10 x2 x3 x4 x7)) -∗ K ⟨⟩))
      ⊢ wp frame (wpE (defs₀ (F := F)) Variants.none c none) E (cc13__state_update_kernel arg0 harg0 arg1 harg1 arg2 harg2 arg3 harg3 arg4 harg4 arg5 harg5 arg6 harg6 arg7 harg7 arg8 harg8 arg9 harg9 arg10 harg10) K := by
  simp only [cc13__state_update_kernel_eq_skeleton]; unfold cc13__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA13 _)
  isplitl [H9]
  · iexists _; isplitr
    swap; · iexact H9
    ipureintro
    exact View.read_writes_eq_canon _ _ _ (coverA13 _)
  iexists _; isplitr
  swap; · iexact H10
  ipureintro
  exact View.read_writes_eq_canon _ _ _ (coverB13 _)

/-- The proof data of pipeline 13: the arrays as the region finds them; after the body each input's buffer at its
    block and each output's at the body's result; the scoped rest and the generator register untouched; nothing owed. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => iblk13 V c 6 t
    | ⟨7, _⟩ => iblk13 V c 7 t
    | ⟨8, _⟩ => out13_8 (iblk13 V c 0 t) (iblk13 V c 1 t) (iblk13 V c 2 t) (iblk13 V c 5 t) (iblk13 V c 6 t)
    | ⟨9, _⟩ => out13_9 (iblk13 V c 1 t) (iblk13 V c 2 t) (iblk13 V c 3 t) (iblk13 V c 6 t) (iblk13 V c 7 t)
    | ⟨10, _⟩ => out13_10 (iblk13 V c 2 t) (iblk13 V c 3 t) (iblk13 V c 4 t) (iblk13 V c 7 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = iblk13 V c 6 t := by dsimp only [dat13]
theorem after13_7 (c : Dev nD) (t : Fin cfg13.N) : (dat13 V c).after 7 t = iblk13 V c 7 t := by dsimp only [dat13]
theorem after13_8 (c : Dev nD) (t : Fin cfg13.N) : (dat13 V c).after 8 t = out13_8 (iblk13 V c 0 t) (iblk13 V c 1 t) (iblk13 V c 2 t) (iblk13 V c 5 t) (iblk13 V c 6 t) := by dsimp only [dat13]
theorem after13_9 (c : Dev nD) (t : Fin cfg13.N) : (dat13 V c).after 9 t = out13_9 (iblk13 V c 1 t) (iblk13 V c 2 t) (iblk13 V c 3 t) (iblk13 V c 6 t) (iblk13 V c 7 t) := by dsimp only [dat13]
theorem after13_10 (c : Dev nD) (t : Fin cfg13.N) : (dat13 V c).after 10 t = out13_10 (iblk13 V c 2 t) (iblk13 V c 3 t) (iblk13 V c 4 t) (iblk13 V c 7 t) := by dsimp only [dat13]

theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d
theorem before13_6 (c : Dev nD) (t : Fin cfg13.N) (d) : (dat13 V c).before 6 t d = iblk13 V c 6 t :=
  before13_6_of V (dat13 V c) (A_eq13 V c 6) (after13_6 V c) t d
theorem before13_7 (c : Dev nD) (t : Fin cfg13.N) (d) : (dat13 V c).before 7 t d = iblk13 V c 7 t :=
  before13_7_of V (dat13 V c) (A_eq13 V c 7) (after13_7 V c) t d

/-- What the body is called with at the point, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d))
    ∗ (∃ d, owns (c : Thread nD τ) (st13_7 t) fullShare ((dat13 V c).before 7 t d))
    ∗ (∃ d, owns (c : Thread nD τ) (st13_8 t) fullShare ((dat13 V c).before 8 t d))
    ∗ (∃ d, owns (c : Thread nD τ) (st13_9 t) fullShare ((dat13 V c).before 9 t d))
    ∗ (∃ d, owns (c : Thread nD τ) (st13_10 t) fullShare ((dat13 V c).before 10 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t)
    ∗ owns (c : Thread nD τ) (st13_7 t) fullShare ((dat13 V c).after 7 t)
    ∗ owns (c : Thread nD τ) (st13_8 t) fullShare ((dat13 V c).after 8 t)
    ∗ owns (c : Thread nD τ) (st13_9 t) fullShare ((dat13 V c).after 9 t)
    ∗ owns (c : Thread nD τ) (st13_10 t) fullShare ((dat13 V c).after 10 t))

theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5, before13_6, before13_7]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6, after13_7, after13_8, after13_9, after13_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel13 c Set.univ _ _ _ _ _ _ _ _ _ _ _ _ _ _ _ _ _ _ _ _ _ _ (iblk13 V c 0 t) (iblk13 V c 1 t) (iblk13 V c 2 t) (iblk13 V c 3 t) (iblk13 V c 4 t) (iblk13 V c 5 t) (iblk13 V c 6 t) (iblk13 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation13 (c : Dev nD) : BodyObligation (dat13 (F := F) V c) (defs₀ (F := F)) Variants.none () Set.univ := fun t => by
  rw [bigSep_W13, bigSep_W13]
  exact sound_body13 V c t

end Cert.KernelIdeal.Reg

end
-- ==== Proof.KIRegion12.lean ====
/-
  Region 12 of @main: a later relaxation step — each state moved by half its direct gradient, the states taken as
  independent —; one gridless kernel over whole arrays.
  Stated at a parameter `V`, the buffers' contents when the region is entered, and at any float instance:
  what each output buffer holds after the body (`out12_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)
theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)
theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)
theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)
theorem before12_7_of {c : Dev nD} (dat : Dat τ (Elt F) Unit ℕ (UR sig nD τ) ℕ cfg12 c) (hA : dat.A 7 = V c (Pipeline.arrRef spec12 7))
    (hafter : ∀ t, dat.after 7 t = iblk12 V c 7 t) (t : Fin cfg12.N) (d) : dat.before 7 t d = iblk12 V c 7 t :=
  (dat.before_in_eq_fetched 7 rfl (fun _ => rfl) (fun _ _ _ => rfl) (fun t => by rw [hafter]; unfold Dat.blockOf iblk12; rw [hA]; try rfl) t d).trans
    (by unfold Dat.fetched Dat.blockOf iblk12; rw [hA]; try rfl)

/-- The whole-buffer rectangles the body loads and stores through. -/
abbrev rA12 : Rect S1024x1024 := Rect.unit (s := S1024x1024) ![0, 0] S1024x1024.size inb_S1024x1024_S1024x1024_0_0
abbrev rB12 : Rect S1024x512 := Rect.unit (s := S1024x512) ![0, 0] S1024x512.size inb_S1024x512_S1024x512_0_0

/-- One whole-buffer store covers its buffer. -/
theorem coverA12 (p0 : Vec F S1024x1024 .f32) (y : S1024x1024.Idx) :
    ∃ pc ∈ ([⟨rA12, p0⟩] : List (View.Piece (Elt F) S1024x1024 .f32)), y ∈ pc.1.set :=
  View.cover_of_tiled [⟨rA12, p0⟩] S1024x1024.size (by rfl) y
theorem coverB12 (p0 : Vec F S1024x512 .f32) (y : S1024x512.Idx) :
    ∃ pc ∈ ([⟨rB12, p0⟩] : List (View.Piece (Elt F) S1024x512 .f32)), y ∈ pc.1.set :=
  View.cover_of_tiled [⟨rB12, p0⟩] S1024x512.size (by rfl) y

/-- What the body leaves in each output buffer: its one whole-buffer store, of the payload of the inputs. -/
def out12_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA12, k12_pay8 (View.ld x0 rA12) (View.ld x1 rA12) (View.ld x2 rA12) (View.ld x5 rA12) (View.ld x6 rA12)⟩]
def out12_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA12, k12_pay1 (k12_pay4 (View.ld x2 rA12)) (k12_pay6 (View.ld x1 rA12) (View.ld x2 rA12) (View.ld x3 rB12) (View.ld x6 rA12) (View.ld x7 rB12))⟩]
def out12_10 (x2 : Vec F S1024x1024 .f32) (x3 : Vec F S1024x512 .f32) (x4 : Vec F S1024x512 .f32) (x7 : Vec F S1024x512 .f32) : Vec F S1024x512 .f32 :=
  View.canon [⟨rB12, k12_pay2 (k12_pay5 (View.ld x3 rB12)) (k12_pay7 (View.ld x2 rA12) (View.ld x3 rB12) (View.ld x4 rB12) (View.ld x7 rB12))⟩]

set_option maxHeartbeats 4000000 in
/-- The body on whole buffers: the inputs' read and kept, each output's left at `out12_w` of the inputs'. -/
theorem sound_kernel12 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out12_8 x0 x1 x2 x5 x6) ∗ owns (c : Thread nD τ) arg9 fullShare (out12_9 x1 x2 x3 x6 x7) ∗ owns (c : Thread nD τ) arg10 fullShare (out12_10 x2 x3 x4 x7)) -∗ K ⟨⟩))
      ⊢ wp frame (wpE (defs₀ (F := F)) Variants.none c none) E (cc12__state_update_kernel arg0 harg0 arg1 harg1 arg2 harg2 arg3 harg3 arg4 harg4 arg5 harg5 arg6 harg6 arg7 harg7 arg8 harg8 arg9 harg9 arg10 harg10) K := by
  simp only [cc12__state_update_kernel_eq_skeleton]; unfold cc12__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA12 _)
  isplitl [H9]
  · iexists _; isplitr
    swap; · iexact H9
    ipureintro
    exact View.read_writes_eq_canon _ _ _ (coverA12 _)
  iexists _; isplitr
  swap; · iexact H10
  ipureintro
  exact View.read_writes_eq_canon _ _ _ (coverB12 _)

/-- The proof data of pipeline 12: the arrays as the region finds them; after the body each input's buffer at its
    block and each output's at the body's result; the scoped rest and the generator register untouched; nothing owed. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => out12_8 (iblk12 V c 0 t) (iblk12 V c 1 t) (iblk12 V c 2 t) (iblk12 V c 5 t) (iblk12 V c 6 t)
    | ⟨9, _⟩ => out12_9 (iblk12 V c 1 t) (iblk12 V c 2 t) (iblk12 V c 3 t) (iblk12 V c 6 t) (iblk12 V c 7 t)
    | ⟨10, _⟩ => out12_10 (iblk12 V c 2 t) (iblk12 V c 3 t) (iblk12 V c 4 t) (iblk12 V c 7 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = iblk12 V c 7 t := by dsimp only [dat12]
theorem after12_8 (c : Dev nD) (t : Fin cfg12.N) : (dat12 V c).after 8 t = out12_8 (iblk12 V c 0 t) (iblk12 V c 1 t) (iblk12 V c 2 t) (iblk12 V c 5 t) (iblk12 V c 6 t) := by dsimp only [dat12]
theorem after12_9 (c : Dev nD) (t : Fin cfg12.N) : (dat12 V c).after 9 t = out12_9 (iblk12 V c 1 t) (iblk12 V c 2 t) (iblk12 V c 3 t) (iblk12 V c 6 t) (iblk12 V c 7 t) := by dsimp only [dat12]
theorem after12_10 (c : Dev nD) (t : Fin cfg12.N) : (dat12 V c).after 10 t = out12_10 (iblk12 V c 2 t) (iblk12 V c 3 t) (iblk12 V c 4 t) (iblk12 V c 7 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d
theorem before12_7 (c : Dev nD) (t : Fin cfg12.N) (d) : (dat12 V c).before 7 t d = iblk12 V c 7 t :=
  before12_7_of V (dat12 V c) (A_eq12 V c 7) (after12_7 V c) t d

/-- What the body is called with at the point, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d))
    ∗ (∃ d, owns (c : Thread nD τ) (st12_8 t) fullShare ((dat12 V c).before 8 t d))
    ∗ (∃ d, owns (c : Thread nD τ) (st12_9 t) fullShare ((dat12 V c).before 9 t d))
    ∗ (∃ d, owns (c : Thread nD τ) (st12_10 t) fullShare ((dat12 V c).before 10 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t)
    ∗ owns (c : Thread nD τ) (st12_8 t) fullShare ((dat12 V c).after 8 t)
    ∗ owns (c : Thread nD τ) (st12_9 t) fullShare ((dat12 V c).after 9 t)
    ∗ owns (c : Thread nD τ) (st12_10 t) fullShare ((dat12 V c).after 10 t))

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6, before12_7]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7, after12_8, after12_9, after12_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel12 c Set.univ _ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation12 (c : Dev nD) : BodyObligation (dat12 (F := F) V c) (defs₀ (F := F)) Variants.none () Set.univ := fun t => by
  rw [bigSep_W12, bigSep_W12]
  exact sound_body12 V c t

end Cert.KernelIdeal.Reg

end
-- ==== Proof.KIRegion11.lean ====
/-
  Region 11 of @main: a later relaxation step — each state moved by half its direct gradient, the states taken as
  independent —; one gridless kernel over whole arrays.
  Stated at a parameter `V`, the buffers' contents when the region is entered, and at any float instance:
  what each output buffer holds after the body (`out11_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)
theorem before11_5_of {c : Dev nD} (dat : Dat τ (Elt F) Unit ℕ (UR sig nD τ) ℕ cfg11 c) (hA : dat.A 5 = V c (Pipeline.arrRef spec11 5))
    (hafter : ∀ t, dat.after 5 t = iblk11 V c 5 t) (t : Fin cfg11.N) (d) : dat.before 5 t d = iblk11 V c 5 t :=
  (dat.before_in_eq_fetched 5 rfl (fun _ => rfl) (fun _ _ _ => rfl) (fun t => by rw [hafter]; unfold Dat.blockOf iblk11; rw [hA]; try rfl) t d).trans
    (by unfold Dat.fetched Dat.blockOf iblk11; rw [hA]; try rfl)
theorem before11_6_of {c : Dev nD} (dat : Dat τ (Elt F) Unit ℕ (UR sig nD τ) ℕ cfg11 c) (hA : dat.A 6 = V c (Pipeline.arrRef spec11 6))
    (hafter : ∀ t, dat.after 6 t = iblk11 V c 6 t) (t : Fin cfg11.N) (d) : dat.before 6 t d = iblk11 V c 6 t :=
  (dat.before_in_eq_fetched 6 rfl (fun _ => rfl) (fun _ _ _ => rfl) (fun t => by rw [hafter]; unfold Dat.blockOf iblk11; rw [hA]; try rfl) t d).trans
    (by unfold Dat.fetched Dat.blockOf iblk11; rw [hA]; try rfl)
theorem before11_7_of {c : Dev nD} (dat : Dat τ (Elt F) Unit ℕ (UR sig nD τ) ℕ cfg11 c) (hA : dat.A 7 = V c (Pipeline.arrRef spec11 7))
    (hafter : ∀ t, dat.after 7 t = iblk11 V c 7 t) (t : Fin cfg11.N) (d) : dat.before 7 t d = iblk11 V c 7 t :=
  (dat.before_in_eq_fetched 7 rfl (fun _ => rfl) (fun _ _ _ => rfl) (fun t => by rw [hafter]; unfold Dat.blockOf iblk11; rw [hA]; try rfl) t d).trans
    (by unfold Dat.fetched Dat.blockOf iblk11; rw [hA]; try rfl)

/-- The whole-buffer rectangles the body loads and stores through. -/
abbrev rA11 : Rect S1024x1024 := Rect.unit (s := S1024x1024) ![0, 0] S1024x1024.size inb_S1024x1024_S1024x1024_0_0
abbrev rB11 : Rect S1024x512 := Rect.unit (s := S1024x512) ![0, 0] S1024x512.size inb_S1024x512_S1024x512_0_0

/-- One whole-buffer store covers its buffer. -/
theorem coverA11 (p0 : Vec F S1024x1024 .f32) (y : S1024x1024.Idx) :
    ∃ pc ∈ ([⟨rA11, p0⟩] : List (View.Piece (Elt F) S1024x1024 .f32)), y ∈ pc.1.set :=
  View.cover_of_tiled [⟨rA11, p0⟩] S1024x1024.size (by rfl) y
theorem coverB11 (p0 : Vec F S1024x512 .f32) (y : S1024x512.Idx) :
    ∃ pc ∈ ([⟨rB11, p0⟩] : List (View.Piece (Elt F) S1024x512 .f32)), y ∈ pc.1.set :=
  View.cover_of_tiled [⟨rB11, p0⟩] S1024x512.size (by rfl) y

/-- What the body leaves in each output buffer: its one whole-buffer store, of the payload of the inputs. -/
def out11_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA11, k11_pay8 (View.ld x0 rA11) (View.ld x1 rA11) (View.ld x2 rA11) (View.ld x5 rA11) (View.ld x6 rA11)⟩]
def out11_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA11, k11_pay1 (k11_pay4 (View.ld x2 rA11)) (k11_pay6 (View.ld x1 rA11) (View.ld x2 rA11) (View.ld x3 rB11) (View.ld x6 rA11) (View.ld x7 rB11))⟩]
def out11_10 (x2 : Vec F S1024x1024 .f32) (x3 : Vec F S1024x512 .f32) (x4 : Vec F S1024x512 .f32) (x7 : Vec F S1024x512 .f32) : Vec F S1024x512 .f32 :=
  View.canon [⟨rB11, k11_pay2 (k11_pay5 (View.ld x3 rB11)) (k11_pay7 (View.ld x2 rA11) (View.ld x3 rB11) (View.ld x4 rB11) (View.ld x7 rB11))⟩]

set_option maxHeartbeats 4000000 in
/-- The body on whole buffers: the inputs' read and kept, each output's left at `out11_w` of the inputs'. -/
theorem sound_kernel11 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out11_8 x0 x1 x2 x5 x6) ∗ owns (c : Thread nD τ) arg9 fullShare (out11_9 x1 x2 x3 x6 x7) ∗ owns (c : Thread nD τ) arg10 fullShare (out11_10 x2 x3 x4 x7)) -∗ K ⟨⟩))
      ⊢ wp frame (wpE (defs₀ (F := F)) Variants.none c none) E (cc11__state_update_kernel arg0 harg0 arg1 harg1 arg2 harg2 arg3 harg3 arg4 harg4 arg5 harg5 arg6 harg6 arg7 harg7 arg8 harg8 arg9 harg9 arg10 harg10) K := by
  simp only [cc11__state_update_kernel_eq_skeleton]; unfold cc11__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA11 _)
  isplitl [H9]
  · iexists _; isplitr
    swap; · iexact H9
    ipureintro
    exact View.read_writes_eq_canon _ _ _ (coverA11 _)
  iexists _; isplitr
  swap; · iexact H10
  ipureintro
  exact View.read_writes_eq_canon _ _ _ (coverB11 _)

/-- The proof data of pipeline 11: the arrays as the region finds them; after the body each input's buffer at its
    block and each output's at the body's result; the scoped rest and the generator register untouched; nothing owed. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => iblk11 V c 5 t
    | ⟨6, _⟩ => iblk11 V c 6 t
    | ⟨7, _⟩ => iblk11 V c 7 t
    | ⟨8, _⟩ => out11_8 (iblk11 V c 0 t) (iblk11 V c 1 t) (iblk11 V c 2 t) (iblk11 V c 5 t) (iblk11 V c 6 t)
    | ⟨9, _⟩ => out11_9 (iblk11 V c 1 t) (iblk11 V c 2 t) (iblk11 V c 3 t) (iblk11 V c 6 t) (iblk11 V c 7 t)
    | ⟨10, _⟩ => out11_10 (iblk11 V c 2 t) (iblk11 V c 3 t) (iblk11 V c 4 t) (iblk11 V c 7 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = iblk11 V c 5 t := by dsimp only [dat11]
theorem after11_6 (c : Dev nD) (t : Fin cfg11.N) : (dat11 V c).after 6 t = iblk11 V c 6 t := by dsimp only [dat11]
theorem after11_7 (c : Dev nD) (t : Fin cfg11.N) : (dat11 V c).after 7 t = iblk11 V c 7 t := by dsimp only [dat11]
theorem after11_8 (c : Dev nD) (t : Fin cfg11.N) : (dat11 V c).after 8 t = out11_8 (iblk11 V c 0 t) (iblk11 V c 1 t) (iblk11 V c 2 t) (iblk11 V c 5 t) (iblk11 V c 6 t) := by dsimp only [dat11]
theorem after11_9 (c : Dev nD) (t : Fin cfg11.N) : (dat11 V c).after 9 t = out11_9 (iblk11 V c 1 t) (iblk11 V c 2 t) (iblk11 V c 3 t) (iblk11 V c 6 t) (iblk11 V c 7 t) := by dsimp only [dat11]
theorem after11_10 (c : Dev nD) (t : Fin cfg11.N) : (dat11 V c).after 10 t = out11_10 (iblk11 V c 2 t) (iblk11 V c 3 t) (iblk11 V c 4 t) (iblk11 V c 7 t) := by dsimp only [dat11]

theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d
theorem before11_5 (c : Dev nD) (t : Fin cfg11.N) (d) : (dat11 V c).before 5 t d = iblk11 V c 5 t :=
  before11_5_of V (dat11 V c) (A_eq11 V c 5) (after11_5 V c) t d
theorem before11_6 (c : Dev nD) (t : Fin cfg11.N) (d) : (dat11 V c).before 6 t d = iblk11 V c 6 t :=
  before11_6_of V (dat11 V c) (A_eq11 V c 6) (after11_6 V c) t d
theorem before11_7 (c : Dev nD) (t : Fin cfg11.N) (d) : (dat11 V c).before 7 t d = iblk11 V c 7 t :=
  before11_7_of V (dat11 V c) (A_eq11 V c 7) (after11_7 V c) t d

/-- What the body is called with at the point, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d))
    ∗ (∃ d, owns (c : Thread nD τ) (st11_6 t) fullShare ((dat11 V c).before 6 t d))
    ∗ (∃ d, owns (c : Thread nD τ) (st11_7 t) fullShare ((dat11 V c).before 7 t d))
    ∗ (∃ d, owns (c : Thread nD τ) (st11_8 t) fullShare ((dat11 V c).before 8 t d))
    ∗ (∃ d, owns (c : Thread nD τ) (st11_9 t) fullShare ((dat11 V c).before 9 t d))
    ∗ (∃ d, owns (c : Thread nD τ) (st11_10 t) fullShare ((dat11 V c).before 10 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t)
    ∗ owns (c : Thread nD τ) (st11_6 t) fullShare ((dat11 V c).after 6 t)
    ∗ owns (c : Thread nD τ) (st11_7 t) fullShare ((dat11 V c).after 7 t)
    ∗ owns (c : Thread nD τ) (st11_8 t) fullShare ((dat11 V c).after 8 t)
    ∗ owns (c : Thread nD τ) (st11_9 t) fullShare ((dat11 V c).after 9 t)
    ∗ owns (c : Thread nD τ) (st11_10 t) fullShare ((dat11 V c).after 10 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4, before11_5, before11_6, before11_7]
  rw [show (dat11 V c).Φ t.succ = (dat11 V c).Φ t.castSucc from rfl,
    show (dat11 V c).owesAt () t.succ = (dat11 V c).owesAt () t.castSucc from rfl,
    after11_0, after11_1, after11_2, after11_3, after11_4, after11_5, after11_6, after11_7, after11_8, after11_9, after11_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel11 c Set.univ _ _ _ _ _ _ _ _ _ _ _ _ _ _ _ _ _ _ _ _ _ _ (iblk11 V c 0 t) (iblk11 V c 1 t) (iblk11 V c 2 t) (iblk11 V c 3 t) (iblk11 V c 4 t) (iblk11 V c 5 t) (iblk11 V c 6 t) (iblk11 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation11 (c : Dev nD) : BodyObligation (dat11 (F := F) V c) (defs₀ (F := F)) Variants.none () Set.univ := fun t => by
  rw [bigSep_W11, bigSep_W11]
  exact sound_body11 V c t

end Cert.KernelIdeal.Reg

end
-- ==== Proof.KIRegion10.lean ====
/-
  Region 10 of @main: a later relaxation step — each state moved by half its direct gradient, the states taken as
  independent —; one gridless kernel over whole arrays.
  Stated at a parameter `V`, the buffers' contents when the region is entered, and at any float instance:
  what each output buffer holds after the body (`out10_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)
theorem before10_5_of {c : Dev nD} (dat : Dat τ (Elt F) Unit ℕ (UR sig nD τ) ℕ cfg10 c) (hA : dat.A 5 = V c (Pipeline.arrRef spec10 5))
    (hafter : ∀ t, dat.after 5 t = iblk10 V c 5 t) (t : Fin cfg10.N) (d) : dat.before 5 t d = iblk10 V c 5 t :=
  (dat.before_in_eq_fetched 5 rfl (fun _ => rfl) (fun _ _ _ => rfl) (fun t => by rw [hafter]; unfold Dat.blockOf iblk10; rw [hA]; try rfl) t d).trans
    (by unfold Dat.fetched Dat.blockOf iblk10; rw [hA]; try rfl)
theorem before10_6_of {c : Dev nD} (dat : Dat τ (Elt F) Unit ℕ (UR sig nD τ) ℕ cfg10 c) (hA : dat.A 6 = V c (Pipeline.arrRef spec10 6))
    (hafter : ∀ t, dat.after 6 t = iblk10 V c 6 t) (t : Fin cfg10.N) (d) : dat.before 6 t d = iblk10 V c 6 t :=
  (dat.before_in_eq_fetched 6 rfl (fun _ => rfl) (fun _ _ _ => rfl) (fun t => by rw [hafter]; unfold Dat.blockOf iblk10; rw [hA]; try rfl) t d).trans
    (by unfold Dat.fetched Dat.blockOf iblk10; rw [hA]; try rfl)
theorem before10_7_of {c : Dev nD} (dat : Dat τ (Elt F) Unit ℕ (UR sig nD τ) ℕ cfg10 c) (hA : dat.A 7 = V c (Pipeline.arrRef spec10 7))
    (hafter : ∀ t, dat.after 7 t = iblk10 V c 7 t) (t : Fin cfg10.N) (d) : dat.before 7 t d = iblk10 V c 7 t :=
  (dat.before_in_eq_fetched 7 rfl (fun _ => rfl) (fun _ _ _ => rfl) (fun t => by rw [hafter]; unfold Dat.blockOf iblk10; rw [hA]; try rfl) t d).trans
    (by unfold Dat.fetched Dat.blockOf iblk10; rw [hA]; try rfl)

/-- The whole-buffer rectangles the body loads and stores through. -/
abbrev rA10 : Rect S1024x1024 := Rect.unit (s := S1024x1024) ![0, 0] S1024x1024.size inb_S1024x1024_S1024x1024_0_0
abbrev rB10 : Rect S1024x512 := Rect.unit (s := S1024x512) ![0, 0] S1024x512.size inb_S1024x512_S1024x512_0_0

/-- One whole-buffer store covers its buffer. -/
theorem coverA10 (p0 : Vec F S1024x1024 .f32) (y : S1024x1024.Idx) :
    ∃ pc ∈ ([⟨rA10, p0⟩] : List (View.Piece (Elt F) S1024x1024 .f32)), y ∈ pc.1.set :=
  View.cover_of_tiled [⟨rA10, p0⟩] S1024x1024.size (by rfl) y
theorem coverB10 (p0 : Vec F S1024x512 .f32) (y : S1024x512.Idx) :
    ∃ pc ∈ ([⟨rB10, p0⟩] : List (View.Piece (Elt F) S1024x512 .f32)), y ∈ pc.1.set :=
  View.cover_of_tiled [⟨rB10, p0⟩] S1024x512.size (by rfl) y

/-- What the body leaves in each output buffer: its one whole-buffer store, of the payload of the inputs. -/
def out10_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA10, k10_pay8 (View.ld x0 rA10) (View.ld x1 rA10) (View.ld x2 rA10) (View.ld x5 rA10) (View.ld x6 rA10)⟩]
def out10_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA10, k10_pay1 (k10_pay4 (View.ld x2 rA10)) (k10_pay6 (View.ld x1 rA10) (View.ld x2 rA10) (View.ld x3 rB10) (View.ld x6 rA10) (View.ld x7 rB10))⟩]
def out10_10 (x2 : Vec F S1024x1024 .f32) (x3 : Vec F S1024x512 .f32) (x4 : Vec F S1024x512 .f32) (x7 : Vec F S1024x512 .f32) : Vec F S1024x512 .f32 :=
  View.canon [⟨rB10, k10_pay2 (k10_pay5 (View.ld x3 rB10)) (k10_pay7 (View.ld x2 rA10) (View.ld x3 rB10) (View.ld x4 rB10) (View.ld x7 rB10))⟩]

set_option maxHeartbeats 4000000 in
/-- The body on whole buffers: the inputs' read and kept, each output's left at `out10_w` of the inputs'. -/
theorem sound_kernel10 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out10_8 x0 x1 x2 x5 x6) ∗ owns (c : Thread nD τ) arg9 fullShare (out10_9 x1 x2 x3 x6 x7) ∗ owns (c : Thread nD τ) arg10 fullShare (out10_10 x2 x3 x4 x7)) -∗ K ⟨⟩))
      ⊢ wp frame (wpE (defs₀ (F := F)) Variants.none c none) E (cc10__state_update_kernel arg0 harg0 arg1 harg1 arg2 harg2 arg3 harg3 arg4 harg4 arg5 harg5 arg6 harg6 arg7 harg7 arg8 harg8 arg9 harg9 arg10 harg10) K := by
  simp only [cc10__state_update_kernel_eq_skeleton]; unfold cc10__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA10 _)
  isplitl [H9]
  · iexists _; isplitr
    swap; · iexact H9
    ipureintro
    exact View.read_writes_eq_canon _ _ _ (coverA10 _)
  iexists _; isplitr
  swap; · iexact H10
  ipureintro
  exact View.read_writes_eq_canon _ _ _ (coverB10 _)

/-- The proof data of pipeline 10: the arrays as the region finds them; after the body each input's buffer at its
    block and each output's at the body's result; the scoped rest and the generator register untouched; nothing owed. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => iblk10 V c 5 t
    | ⟨6, _⟩ => iblk10 V c 6 t
    | ⟨7, _⟩ => iblk10 V c 7 t
    | ⟨8, _⟩ => out10_8 (iblk10 V c 0 t) (iblk10 V c 1 t) (iblk10 V c 2 t) (iblk10 V c 5 t) (iblk10 V c 6 t)
    | ⟨9, _⟩ => out10_9 (iblk10 V c 1 t) (iblk10 V c 2 t) (iblk10 V c 3 t) (iblk10 V c 6 t) (iblk10 V c 7 t)
    | ⟨10, _⟩ => out10_10 (iblk10 V c 2 t) (iblk10 V c 3 t) (iblk10 V c 4 t) (iblk10 V c 7 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = iblk10 V c 5 t := by dsimp only [dat10]
theorem after10_6 (c : Dev nD) (t : Fin cfg10.N) : (dat10 V c).after 6 t = iblk10 V c 6 t := by dsimp only [dat10]
theorem after10_7 (c : Dev nD) (t : Fin cfg10.N) : (dat10 V c).after 7 t = iblk10 V c 7 t := by dsimp only [dat10]
theorem after10_8 (c : Dev nD) (t : Fin cfg10.N) : (dat10 V c).after 8 t = out10_8 (iblk10 V c 0 t) (iblk10 V c 1 t) (iblk10 V c 2 t) (iblk10 V c 5 t) (iblk10 V c 6 t) := by dsimp only [dat10]
theorem after10_9 (c : Dev nD) (t : Fin cfg10.N) : (dat10 V c).after 9 t = out10_9 (iblk10 V c 1 t) (iblk10 V c 2 t) (iblk10 V c 3 t) (iblk10 V c 6 t) (iblk10 V c 7 t) := by dsimp only [dat10]
theorem after10_10 (c : Dev nD) (t : Fin cfg10.N) : (dat10 V c).after 10 t = out10_10 (iblk10 V c 2 t) (iblk10 V c 3 t) (iblk10 V c 4 t) (iblk10 V c 7 t) := by dsimp only [dat10]

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d
theorem before10_5 (c : Dev nD) (t : Fin cfg10.N) (d) : (dat10 V c).before 5 t d = iblk10 V c 5 t :=
  before10_5_of V (dat10 V c) (A_eq10 V c 5) (after10_5 V c) t d
theorem before10_6 (c : Dev nD) (t : Fin cfg10.N) (d) : (dat10 V c).before 6 t d = iblk10 V c 6 t :=
  before10_6_of V (dat10 V c) (A_eq10 V c 6) (after10_6 V c) t d
theorem before10_7 (c : Dev nD) (t : Fin cfg10.N) (d) : (dat10 V c).before 7 t d = iblk10 V c 7 t :=
  before10_7_of V (dat10 V c) (A_eq10 V c 7) (after10_7 V c) t d

/-- What the body is called with at the point, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d))
    ∗ (∃ d, owns (c : Thread nD τ) (st10_5 t) fullShare ((dat10 V c).before 5 t d))
    ∗ (∃ d, owns (c : Thread nD τ) (st10_6 t) fullShare ((dat10 V c).before 6 t d))
    ∗ (∃ d, owns (c : Thread nD τ) (st10_7 t) fullShare ((dat10 V c).before 7 t d))
    ∗ (∃ d, owns (c : Thread nD τ) (st10_8 t) fullShare ((dat10 V c).before 8 t d))
    ∗ (∃ d, owns (c : Thread nD τ) (st10_9 t) fullShare ((dat10 V c).before 9 t d))
    ∗ (∃ d, owns (c : Thread nD τ) (st10_10 t) fullShare ((dat10 V c).before 10 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t)
    ∗ owns (c : Thread nD τ) (st10_5 t) fullShare ((dat10 V c).after 5 t)
    ∗ owns (c : Thread nD τ) (st10_6 t) fullShare ((dat10 V c).after 6 t)
    ∗ owns (c : Thread nD τ) (st10_7 t) fullShare ((dat10 V c).after 7 t)
    ∗ owns (c : Thread nD τ) (st10_8 t) fullShare ((dat10 V c).after 8 t)
    ∗ owns (c : Thread nD τ) (st10_9 t) fullShare ((dat10 V c).after 9 t)
    ∗ owns (c : Thread nD τ) (st10_10 t) fullShare ((dat10 V c).after 10 t))

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4, before10_5, before10_6, before10_7]
  rw [show (dat10 V c).Φ t.succ = (dat10 V c).Φ t.castSucc from rfl,
    show (dat10 V c).owesAt () t.succ = (dat10 V c).owesAt () t.castSucc from rfl,
    after10_0, after10_1, after10_2, after10_3, after10_4, after10_5, after10_6, after10_7, after10_8, after10_9, after10_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel10 c Set.univ _ _ _ _ _ _ _ _ _ _ _ _ _ _ _ _ _ _ _ _ _ _ (iblk10 V c 0 t) (iblk10 V c 1 t) (iblk10 V c 2 t) (iblk10 V c 3 t) (iblk10 V c 4 t) (iblk10 V c 5 t) (iblk10 V c 6 t) (iblk10 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation10 (c : Dev nD) : BodyObligation (dat10 (F := F) V c) (defs₀ (F := F)) Variants.none () Set.univ := fun t => by
  rw [bigSep_W10, bigSep_W10]
  exact sound_body10 V c t

end Cert.KernelIdeal.Reg

end
-- ==== Proof.KIRegion9.lean ====
/-
  Region 9 of @main: a later relaxation step — each state moved by half its direct gradient, the states taken as
  independent —; one gridless kernel over whole arrays.
  Stated at a parameter `V`, the buffers' contents when the region is entered, and at any float instance:
  what each output buffer holds after the body (`out9_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)
theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)
theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)
theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)
theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)
theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-- The whole-buffer rectangles the body loads and stores through. -/
abbrev rA9 : Rect S1024x1024 := Rect.unit (s := S1024x1024) ![0, 0] S1024x1024.size inb_S1024x1024_S1024x1024_0_0
abbrev rB9 : Rect S1024x512 := Rect.unit (s := S1024x512) ![0, 0] S1024x512.size inb_S1024x512_S1024x512_0_0

/-- One whole-buffer store covers its buffer. -/
theorem coverA9 (p0 : Vec F S1024x1024 .f32) (y : S1024x1024.Idx) :
    ∃ pc ∈ ([⟨rA9, p0⟩] : List (View.Piece (Elt F) S1024x1024 .f32)), y ∈ pc.1.set :=
  View.cover_of_tiled [⟨rA9, p0⟩] S1024x1024.size (by rfl) y
theorem coverB9 (p0 : Vec F S1024x512 .f32) (y : S1024x512.Idx) :
    ∃ pc ∈ ([⟨rB9, p0⟩] : List (View.Piece (Elt F) S1024x512 .f32)), y ∈ pc.1.set :=
  View.cover_of_tiled [⟨rB9, p0⟩] S1024x512.size (by rfl) y

/-- What the body leaves in each output buffer: its one whole-buffer store, of the payload of the inputs. -/
def out9_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA9, k9_pay8 (View.ld x0 rA9) (View.ld x1 rA9) (View.ld x2 rA9) (View.ld x5 rA9) (View.ld x6 rA9)⟩]
def out9_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA9, k9_pay1 (k9_pay4 (View.ld x2 rA9)) (k9_pay6 (View.ld x1 rA9) (View.ld x2 rA9) (View.ld x3 rB9) (View.ld x6 rA9) (View.ld x7 rB9))⟩]
def out9_10 (x2 : Vec F S1024x1024 .f32) (x3 : Vec F S1024x512 .f32) (x4 : Vec F S1024x512 .f32) (x7 : Vec F S1024x512 .f32) : Vec F S1024x512 .f32 :=
  View.canon [⟨rB9, k9_pay2 (k9_pay5 (View.ld x3 rB9)) (k9_pay7 (View.ld x2 rA9) (View.ld x3 rB9) (View.ld x4 rB9) (View.ld x7 rB9))⟩]

set_option maxHeartbeats 4000000 in
/-- The body on whole buffers: the inputs' read and kept, each output's left at `out9_w` of the inputs'. -/
theorem sound_kernel9 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out9_8 x0 x1 x2 x5 x6) ∗ owns (c : Thread nD τ) arg9 fullShare (out9_9 x1 x2 x3 x6 x7) ∗ owns (c : Thread nD τ) arg10 fullShare (out9_10 x2 x3 x4 x7)) -∗ K ⟨⟩))
      ⊢ wp frame (wpE (defs₀ (F := F)) Variants.none c none) E (cc9__state_update_kernel arg0 harg0 arg1 harg1 arg2 harg2 arg3 harg3 arg4 harg4 arg5 harg5 arg6 harg6 arg7 harg7 arg8 harg8 arg9 harg9 arg10 harg10) K := by
  simp only [cc9__state_update_kernel_eq_skeleton]; unfold cc9__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA9 _)
  isplitl [H9]
  · iexists _; isplitr
    swap; · iexact H9
    ipureintro
    exact View.read_writes_eq_canon _ _ _ (coverA9 _)
  iexists _; isplitr
  swap; · iexact H10
  ipureintro
  exact View.read_writes_eq_canon _ _ _ (coverB9 _)

/-- The proof data of pipeline 9: the arrays as the region finds them; after the body each input's buffer at its
    block and each output's at the body's result; the scoped rest and the generator register untouched; nothing owed. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => out9_8 (iblk9 V c 0 t) (iblk9 V c 1 t) (iblk9 V c 2 t) (iblk9 V c 5 t) (iblk9 V c 6 t)
    | ⟨9, _⟩ => out9_9 (iblk9 V c 1 t) (iblk9 V c 2 t) (iblk9 V c 3 t) (iblk9 V c 6 t) (iblk9 V c 7 t)
    | ⟨10, _⟩ => out9_10 (iblk9 V c 2 t) (iblk9 V c 3 t) (iblk9 V c 4 t) (iblk9 V c 7 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = out9_8 (iblk9 V c 0 t) (iblk9 V c 1 t) (iblk9 V c 2 t) (iblk9 V c 5 t) (iblk9 V c 6 t) := by dsimp only [dat9]
theorem after9_9 (c : Dev nD) (t : Fin cfg9.N) : (dat9 V c).after 9 t = out9_9 (iblk9 V c 1 t) (iblk9 V c 2 t) (iblk9 V c 3 t) (iblk9 V c 6 t) (iblk9 V c 7 t) := by dsimp only [dat9]
theorem after9_10 (c : Dev nD) (t : Fin cfg9.N) : (dat9 V c).after 10 t = out9_10 (iblk9 V c 2 t) (iblk9 V c 3 t) (iblk9 V c 4 t) (iblk9 V c 7 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d

/-- What the body is called with at the point, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d))
    ∗ (∃ d, owns (c : Thread nD τ) (st9_10 t) fullShare ((dat9 V c).before 10 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t)
    ∗ owns (c : Thread nD τ) (st9_10 t) fullShare ((dat9 V c).after 10 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8, after9_9, after9_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel9 c Set.univ _ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation9 (c : Dev nD) : BodyObligation (dat9 (F := F) V c) (defs₀ (F := F)) Variants.none () Set.univ := fun t => by
  rw [bigSep_W9, bigSep_W9]
  exact sound_body9 V c t

end Cert.KernelIdeal.Reg

end
-- ==== Proof.KIRegion8.lean ====
/-
  Region 8 of @main: a later relaxation step — each state moved by half its direct gradient, the states taken as
  independent —; one gridless kernel over whole arrays.
  Stated at a parameter `V`, the buffers' contents when the region is entered, and at any float instance:
  what each output buffer holds after the body (`out8_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)
theorem before8_5_of {c : Dev nD} (dat : Dat τ (Elt F) Unit ℕ (UR sig nD τ) ℕ cfg8 c) (hA : dat.A 5 = V c (Pipeline.arrRef spec8 5))
    (hafter : ∀ t, dat.after 5 t = iblk8 V c 5 t) (t : Fin cfg8.N) (d) : dat.before 5 t d = iblk8 V c 5 t :=
  (dat.before_in_eq_fetched 5 rfl (fun _ => rfl) (fun _ _ _ => rfl) (fun t => by rw [hafter]; unfold Dat.blockOf iblk8; rw [hA]; try rfl) t d).trans
    (by unfold Dat.fetched Dat.blockOf iblk8; rw [hA]; try rfl)
theorem before8_6_of {c : Dev nD} (dat : Dat τ (Elt F) Unit ℕ (UR sig nD τ) ℕ cfg8 c) (hA : dat.A 6 = V c (Pipeline.arrRef spec8 6))
    (hafter : ∀ t, dat.after 6 t = iblk8 V c 6 t) (t : Fin cfg8.N) (d) : dat.before 6 t d = iblk8 V c 6 t :=
  (dat.before_in_eq_fetched 6 rfl (fun _ => rfl) (fun _ _ _ => rfl) (fun t => by rw [hafter]; unfold Dat.blockOf iblk8; rw [hA]; try rfl) t d).trans
    (by unfold Dat.fetched Dat.blockOf iblk8; rw [hA]; try rfl)
theorem before8_7_of {c : Dev nD} (dat : Dat τ (Elt F) Unit ℕ (UR sig nD τ) ℕ cfg8 c) (hA : dat.A 7 = V c (Pipeline.arrRef spec8 7))
    (hafter : ∀ t, dat.after 7 t = iblk8 V c 7 t) (t : Fin cfg8.N) (d) : dat.before 7 t d = iblk8 V c 7 t :=
  (dat.before_in_eq_fetched 7 rfl (fun _ => rfl) (fun _ _ _ => rfl) (fun t => by rw [hafter]; unfold Dat.blockOf iblk8; rw [hA]; try rfl) t d).trans
    (by unfold Dat.fetched Dat.blockOf iblk8; rw [hA]; try rfl)

/-- The whole-buffer rectangles the body loads and stores through. -/
abbrev rA8 : Rect S1024x1024 := Rect.unit (s := S1024x1024) ![0, 0] S1024x1024.size inb_S1024x1024_S1024x1024_0_0
abbrev rB8 : Rect S1024x512 := Rect.unit (s := S1024x512) ![0, 0] S1024x512.size inb_S1024x512_S1024x512_0_0

/-- One whole-buffer store covers its buffer. -/
theorem coverA8 (p0 : Vec F S1024x1024 .f32) (y : S1024x1024.Idx) :
    ∃ pc ∈ ([⟨rA8, p0⟩] : List (View.Piece (Elt F) S1024x1024 .f32)), y ∈ pc.1.set :=
  View.cover_of_tiled [⟨rA8, p0⟩] S1024x1024.size (by rfl) y
theorem coverB8 (p0 : Vec F S1024x512 .f32) (y : S1024x512.Idx) :
    ∃ pc ∈ ([⟨rB8, p0⟩] : List (View.Piece (Elt F) S1024x512 .f32)), y ∈ pc.1.set :=
  View.cover_of_tiled [⟨rB8, p0⟩] S1024x512.size (by rfl) y

/-- What the body leaves in each output buffer: its one whole-buffer store, of the payload of the inputs. -/
def out8_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA8, k8_pay8 (View.ld x0 rA8) (View.ld x1 rA8) (View.ld x2 rA8) (View.ld x5 rA8) (View.ld x6 rA8)⟩]
def out8_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA8, k8_pay1 (k8_pay4 (View.ld x2 rA8)) (k8_pay6 (View.ld x1 rA8) (View.ld x2 rA8) (View.ld x3 rB8) (View.ld x6 rA8) (View.ld x7 rB8))⟩]
def out8_10 (x2 : Vec F S1024x1024 .f32) (x3 : Vec F S1024x512 .f32) (x4 : Vec F S1024x512 .f32) (x7 : Vec F S1024x512 .f32) : Vec F S1024x512 .f32 :=
  View.canon [⟨rB8, k8_pay2 (k8_pay5 (View.ld x3 rB8)) (k8_pay7 (View.ld x2 rA8) (View.ld x3 rB8) (View.ld x4 rB8) (View.ld x7 rB8))⟩]

set_option maxHeartbeats 4000000 in
/-- The body on whole buffers: the inputs' read and kept, each output's left at `out8_w` of the inputs'. -/
theorem sound_kernel8 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out8_8 x0 x1 x2 x5 x6) ∗ owns (c : Thread nD τ) arg9 fullShare (out8_9 x1 x2 x3 x6 x7) ∗ owns (c : Thread nD τ) arg10 fullShare (out8_10 x2 x3 x4 x7)) -∗ K ⟨⟩))
      ⊢ wp frame (wpE (defs₀ (F := F)) Variants.none c none) E (cc8__state_update_kernel arg0 harg0 arg1 harg1 arg2 harg2 arg3 harg3 arg4 harg4 arg5 harg5 arg6 harg6 arg7 harg7 arg8 harg8 arg9 harg9 arg10 harg10) K := by
  simp only [cc8__state_update_kernel_eq_skeleton]; unfold cc8__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA8 _)
  isplitl [H9]
  · iexists _; isplitr
    swap; · iexact H9
    ipureintro
    exact View.read_writes_eq_canon _ _ _ (coverA8 _)
  iexists _; isplitr
  swap; · iexact H10
  ipureintro
  exact View.read_writes_eq_canon _ _ _ (coverB8 _)

/-- The proof data of pipeline 8: the arrays as the region finds them; after the body each input's buffer at its
    block and each output's at the body's result; the scoped rest and the generator register untouched; nothing owed. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => iblk8 V c 5 t
    | ⟨6, _⟩ => iblk8 V c 6 t
    | ⟨7, _⟩ => iblk8 V c 7 t
    | ⟨8, _⟩ => out8_8 (iblk8 V c 0 t) (iblk8 V c 1 t) (iblk8 V c 2 t) (iblk8 V c 5 t) (iblk8 V c 6 t)
    | ⟨9, _⟩ => out8_9 (iblk8 V c 1 t) (iblk8 V c 2 t) (iblk8 V c 3 t) (iblk8 V c 6 t) (iblk8 V c 7 t)
    | ⟨10, _⟩ => out8_10 (iblk8 V c 2 t) (iblk8 V c 3 t) (iblk8 V c 4 t) (iblk8 V c 7 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = iblk8 V c 5 t := by dsimp only [dat8]
theorem after8_6 (c : Dev nD) (t : Fin cfg8.N) : (dat8 V c).after 6 t = iblk8 V c 6 t := by dsimp only [dat8]
theorem after8_7 (c : Dev nD) (t : Fin cfg8.N) : (dat8 V c).after 7 t = iblk8 V c 7 t := by dsimp only [dat8]
theorem after8_8 (c : Dev nD) (t : Fin cfg8.N) : (dat8 V c).after 8 t = out8_8 (iblk8 V c 0 t) (iblk8 V c 1 t) (iblk8 V c 2 t) (iblk8 V c 5 t) (iblk8 V c 6 t) := by dsimp only [dat8]
theorem after8_9 (c : Dev nD) (t : Fin cfg8.N) : (dat8 V c).after 9 t = out8_9 (iblk8 V c 1 t) (iblk8 V c 2 t) (iblk8 V c 3 t) (iblk8 V c 6 t) (iblk8 V c 7 t) := by dsimp only [dat8]
theorem after8_10 (c : Dev nD) (t : Fin cfg8.N) : (dat8 V c).after 10 t = out8_10 (iblk8 V c 2 t) (iblk8 V c 3 t) (iblk8 V c 4 t) (iblk8 V c 7 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d
theorem before8_5 (c : Dev nD) (t : Fin cfg8.N) (d) : (dat8 V c).before 5 t d = iblk8 V c 5 t :=
  before8_5_of V (dat8 V c) (A_eq8 V c 5) (after8_5 V c) t d
theorem before8_6 (c : Dev nD) (t : Fin cfg8.N) (d) : (dat8 V c).before 6 t d = iblk8 V c 6 t :=
  before8_6_of V (dat8 V c) (A_eq8 V c 6) (after8_6 V c) t d
theorem before8_7 (c : Dev nD) (t : Fin cfg8.N) (d) : (dat8 V c).before 7 t d = iblk8 V c 7 t :=
  before8_7_of V (dat8 V c) (A_eq8 V c 7) (after8_7 V c) t d

/-- What the body is called with at the point, the windows one by one, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d))
    ∗ (∃ d, owns (c : Thread nD τ) (st8_6 t) fullShare ((dat8 V c).before 6 t d))
    ∗ (∃ d, owns (c : Thread nD τ) (st8_7 t) fullShare ((dat8 V c).before 7 t d))
    ∗ (∃ d, owns (c : Thread nD τ) (st8_8 t) fullShare ((dat8 V c).before 8 t d))
    ∗ (∃ d, owns (c : Thread nD τ) (st8_9 t) fullShare ((dat8 V c).before 9 t d))
    ∗ (∃ d, owns (c : Thread nD τ) (st8_10 t) fullShare ((dat8 V c).before 10 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t)
    ∗ owns (c : Thread nD τ) (st8_6 t) fullShare ((dat8 V c).after 6 t)
    ∗ owns (c : Thread nD τ) (st8_7 t) fullShare ((dat8 V c).after 7 t)
    ∗ owns (c : Thread nD τ) (st8_8 t) fullShare ((dat8 V c).after 8 t)
    ∗ owns (c : Thread nD τ) (st8_9 t) fullShare ((dat8 V c).after 9 t)
    ∗ owns (c : Thread nD τ) (st8_10 t) fullShare ((dat8 V c).after 10 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4, before8_5, before8_6, before8_7]
  rw [show (dat8 V c).Φ t.succ = (dat8 V c).Φ t.castSucc from rfl,
    show (dat8 V c).owesAt () t.succ = (dat8 V c).owesAt () t.castSucc from rfl,
    after8_0, after8_1, after8_2, after8_3, after8_4, after8_5, after8_6, after8_7, after8_8, after8_9, after8_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel8 c Set.univ _ _ _ _ _ _ _ _ _ _ _ _ _ _ _ _ _ _ _ _ _ _ (iblk8 V c 0 t) (iblk8 V c 1 t) (iblk8 V c 2 t) (iblk8 V c 3 t) (iblk8 V c 4 t) (iblk8 V c 5 t) (iblk8 V c 6 t) (iblk8 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation8 (c : Dev nD) : BodyObligation (dat8 (F := F) V c) (defs₀ (F := F)) Variants.none () Set.univ := fun t => by
  rw [bigSep_W8, bigSep_W8]
  exact sound_body8 V c t

end Cert.KernelIdeal.Reg

end
-- ==== Proof.KIRegion7.lean ====
/-
  Region 7 of @main: a later relaxation step — each state moved by half its direct gradient, the states taken as
  independent —; one gridless kernel over whole arrays.
  Stated at a parameter `V`, the buffers' contents when the region is entered, and at any float instance:
  what each output buffer holds after the body (`out7_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)
theorem before7_5_of {c : Dev nD} (dat : Dat τ (Elt F) Unit ℕ (UR sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)
theorem before7_6_of {c : Dev nD} (dat : Dat τ (Elt F) Unit ℕ (UR sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)
theorem before7_7_of {c : Dev nD} (dat : Dat τ (Elt F) Unit ℕ (UR sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- The whole-buffer rectangles the body loads and stores through. -/
abbrev rA7 : Rect S1024x1024 := Rect.unit (s := S1024x1024) ![0, 0] S1024x1024.size inb_S1024x1024_S1024x1024_0_0
abbrev rB7 : Rect S1024x512 := Rect.unit (s := S1024x512) ![0, 0] S1024x512.size inb_S1024x512_S1024x512_0_0

/-- One whole-buffer store covers its buffer. -/
theorem coverA7 (p0 : Vec F S1024x1024 .f32) (y : S1024x1024.Idx) :
    ∃ pc ∈ ([⟨rA7, p0⟩] : List (View.Piece (Elt F) S1024x1024 .f32)), y ∈ pc.1.set :=
  View.cover_of_tiled [⟨rA7, p0⟩] S1024x1024.size (by rfl) y
theorem coverB7 (p0 : Vec F S1024x512 .f32) (y : S1024x512.Idx) :
    ∃ pc ∈ ([⟨rB7, p0⟩] : List (View.Piece (Elt F) S1024x512 .f32)), y ∈ pc.1.set :=
  View.cover_of_tiled [⟨rB7, p0⟩] S1024x512.size (by rfl) y

/-- What the body leaves in each output buffer: its one whole-buffer store, of the payload of the inputs. -/
def out7_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA7, k7_pay8 (View.ld x0 rA7) (View.ld x1 rA7) (View.ld x2 rA7) (View.ld x5 rA7) (View.ld x6 rA7)⟩]
def out7_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA7, k7_pay1 (k7_pay4 (View.ld x2 rA7)) (k7_pay6 (View.ld x1 rA7) (View.ld x2 rA7) (View.ld x3 rB7) (View.ld x6 rA7) (View.ld x7 rB7))⟩]
def out7_10 (x2 : Vec F S1024x1024 .f32) (x3 : Vec F S1024x512 .f32) (x4 : Vec F S1024x512 .f32) (x7 : Vec F S1024x512 .f32) : Vec F S1024x512 .f32 :=
  View.canon [⟨rB7, k7_pay2 (k7_pay5 (View.ld x3 rB7)) (k7_pay7 (View.ld x2 rA7) (View.ld x3 rB7) (View.ld x4 rB7) (View.ld x7 rB7))⟩]

set_option maxHeartbeats 4000000 in
/-- The body on whole buffers: the inputs' read and kept, each output's left at `out7_w` of the inputs'. -/
theorem sound_kernel7 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out7_8 x0 x1 x2 x5 x6) ∗ owns (c : Thread nD τ) arg9 fullShare (out7_9 x1 x2 x3 x6 x7) ∗ owns (c : Thread nD τ) arg10 fullShare (out7_10 x2 x3 x4 x7)) -∗ K ⟨⟩))
      ⊢ wp frame (wpE (defs₀ (F := F)) Variants.none c none) E (cc7__state_update_kernel arg0 harg0 arg1 harg1 arg2 harg2 arg3 harg3 arg4 harg4 arg5 harg5 arg6 harg6 arg7 harg7 arg8 harg8 arg9 harg9 arg10 harg10) K := by
  simp only [cc7__state_update_kernel_eq_skeleton]; unfold cc7__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA7 _)
  isplitl [H9]
  · iexists _; isplitr
    swap; · iexact H9
    ipureintro
    exact View.read_writes_eq_canon _ _ _ (coverA7 _)
  iexists _; isplitr
  swap; · iexact H10
  ipureintro
  exact View.read_writes_eq_canon _ _ _ (coverB7 _)

/-- The proof data of pipeline 7: the arrays as the region finds them; after the body each input's buffer at its
    block and each output's at the body's result; the scoped rest and the generator register untouched; nothing owed. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => out7_8 (iblk7 V c 0 t) (iblk7 V c 1 t) (iblk7 V c 2 t) (iblk7 V c 5 t) (iblk7 V c 6 t)
    | ⟨9, _⟩ => out7_9 (iblk7 V c 1 t) (iblk7 V c 2 t) (iblk7 V c 3 t) (iblk7 V c 6 t) (iblk7 V c 7 t)
    | ⟨10, _⟩ => out7_10 (iblk7 V c 2 t) (iblk7 V c 3 t) (iblk7 V c 4 t) (iblk7 V c 7 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = out7_8 (iblk7 V c 0 t) (iblk7 V c 1 t) (iblk7 V c 2 t) (iblk7 V c 5 t) (iblk7 V c 6 t) := by dsimp only [dat7]
theorem after7_9 (c : Dev nD) (t : Fin cfg7.N) : (dat7 V c).after 9 t = out7_9 (iblk7 V c 1 t) (iblk7 V c 2 t) (iblk7 V c 3 t) (iblk7 V c 6 t) (iblk7 V c 7 t) := by dsimp only [dat7]
theorem after7_10 (c : Dev nD) (t : Fin cfg7.N) : (dat7 V c).after 10 t = out7_10 (iblk7 V c 2 t) (iblk7 V c 3 t) (iblk7 V c 4 t) (iblk7 V c 7 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d

/-- What the body is called with at the point, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t))

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8, after7_9, after7_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel7 c Set.univ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation7 (c : Dev nD) : BodyObligation (dat7 (F := F) V c) (defs₀ (F := F)) Variants.none () Set.univ := fun t => by
  rw [bigSep_W7, bigSep_W7]
  exact sound_body7 V c t

end Cert.KernelIdeal.Reg

end
-- ==== Proof.KIRegion6.lean ====
/-
  Region 6 of @main: a later relaxation step — each state moved by half its direct gradient, the states taken as
  independent —; one gridless kernel over whole arrays.
  Stated at a parameter `V`, the buffers' contents when the region is entered, and at any float instance:
  what each output buffer holds after the body (`out6_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)
theorem before6_7_of {c : Dev nD} (dat : Dat τ (Elt F) Unit ℕ (UR sig nD τ) ℕ cfg6 c) (hA : dat.A 7 = V c (Pipeline.arrRef spec6 7))
    (hafter : ∀ t, dat.after 7 t = iblk6 V c 7 t) (t : Fin cfg6.N) (d) : dat.before 7 t d = iblk6 V c 7 t :=
  (dat.before_in_eq_fetched 7 rfl (fun _ => rfl) (fun _ _ _ => rfl) (fun t => by rw [hafter]; unfold Dat.blockOf iblk6; rw [hA]; try rfl) t d).trans
    (by unfold Dat.fetched Dat.blockOf iblk6; rw [hA]; try rfl)

/-- The whole-buffer rectangles the body loads and stores through. -/
abbrev rA6 : Rect S1024x1024 := Rect.unit (s := S1024x1024) ![0, 0] S1024x1024.size inb_S1024x1024_S1024x1024_0_0
abbrev rB6 : Rect S1024x512 := Rect.unit (s := S1024x512) ![0, 0] S1024x512.size inb_S1024x512_S1024x512_0_0

/-- One whole-buffer store covers its buffer. -/
theorem coverA6 (p0 : Vec F S1024x1024 .f32) (y : S1024x1024.Idx) :
    ∃ pc ∈ ([⟨rA6, p0⟩] : List (View.Piece (Elt F) S1024x1024 .f32)), y ∈ pc.1.set :=
  View.cover_of_tiled [⟨rA6, p0⟩] S1024x1024.size (by rfl) y
theorem coverB6 (p0 : Vec F S1024x512 .f32) (y : S1024x512.Idx) :
    ∃ pc ∈ ([⟨rB6, p0⟩] : List (View.Piece (Elt F) S1024x512 .f32)), y ∈ pc.1.set :=
  View.cover_of_tiled [⟨rB6, p0⟩] S1024x512.size (by rfl) y

/-- What the body leaves in each output buffer: its one whole-buffer store, of the payload of the inputs. -/
def out6_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA6, k6_pay8 (View.ld x0 rA6) (View.ld x1 rA6) (View.ld x2 rA6) (View.ld x5 rA6) (View.ld x6 rA6)⟩]
def out6_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA6, k6_pay1 (k6_pay4 (View.ld x2 rA6)) (k6_pay6 (View.ld x1 rA6) (View.ld x2 rA6) (View.ld x3 rB6) (View.ld x6 rA6) (View.ld x7 rB6))⟩]
def out6_10 (x2 : Vec F S1024x1024 .f32) (x3 : Vec F S1024x512 .f32) (x4 : Vec F S1024x512 .f32) (x7 : Vec F S1024x512 .f32) : Vec F S1024x512 .f32 :=
  View.canon [⟨rB6, k6_pay2 (k6_pay5 (View.ld x3 rB6)) (k6_pay7 (View.ld x2 rA6) (View.ld x3 rB6) (View.ld x4 rB6) (View.ld x7 rB6))⟩]

set_option maxHeartbeats 4000000 in
/-- The body on whole buffers: the inputs' read and kept, each output's left at `out6_w` of the inputs'. -/
theorem sound_kernel6 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out6_8 x0 x1 x2 x5 x6) ∗ owns (c : Thread nD τ) arg9 fullShare (out6_9 x1 x2 x3 x6 x7) ∗ owns (c : Thread nD τ) arg10 fullShare (out6_10 x2 x3 x4 x7)) -∗ K ⟨⟩))
      ⊢ wp frame (wpE (defs₀ (F := F)) Variants.none c none) E (cc6__state_update_kernel arg0 harg0 arg1 harg1 arg2 harg2 arg3 harg3 arg4 harg4 arg5 harg5 arg6 harg6 arg7 harg7 arg8 harg8 arg9 harg9 arg10 harg10) K := by
  simp only [cc6__state_update_kernel_eq_skeleton]; unfold cc6__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA6 _)
  isplitl [H9]
  · iexists _; isplitr
    swap; · iexact H9
    ipureintro
    exact View.read_writes_eq_canon _ _ _ (coverA6 _)
  iexists _; isplitr
  swap; · iexact H10
  ipureintro
  exact View.read_writes_eq_canon _ _ _ (coverB6 _)

/-- The proof data of pipeline 6: the arrays as the region finds them; after the body each input's buffer at its
    block and each output's at the body's result; the scoped rest and the generator register untouched; nothing owed. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => out6_8 (iblk6 V c 0 t) (iblk6 V c 1 t) (iblk6 V c 2 t) (iblk6 V c 5 t) (iblk6 V c 6 t)
    | ⟨9, _⟩ => out6_9 (iblk6 V c 1 t) (iblk6 V c 2 t) (iblk6 V c 3 t) (iblk6 V c 6 t) (iblk6 V c 7 t)
    | ⟨10, _⟩ => out6_10 (iblk6 V c 2 t) (iblk6 V c 3 t) (iblk6 V c 4 t) (iblk6 V c 7 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = iblk6 V c 7 t := by dsimp only [dat6]
theorem after6_8 (c : Dev nD) (t : Fin cfg6.N) : (dat6 V c).after 8 t = out6_8 (iblk6 V c 0 t) (iblk6 V c 1 t) (iblk6 V c 2 t) (iblk6 V c 5 t) (iblk6 V c 6 t) := by dsimp only [dat6]
theorem after6_9 (c : Dev nD) (t : Fin cfg6.N) : (dat6 V c).after 9 t = out6_9 (iblk6 V c 1 t) (iblk6 V c 2 t) (iblk6 V c 3 t) (iblk6 V c 6 t) (iblk6 V c 7 t) := by dsimp only [dat6]
theorem after6_10 (c : Dev nD) (t : Fin cfg6.N) : (dat6 V c).after 10 t = out6_10 (iblk6 V c 2 t) (iblk6 V c 3 t) (iblk6 V c 4 t) (iblk6 V c 7 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d
theorem before6_7 (c : Dev nD) (t : Fin cfg6.N) (d) : (dat6 V c).before 7 t d = iblk6 V c 7 t :=
  before6_7_of V (dat6 V c) (A_eq6 V c 7) (after6_7 V c) t d

/-- What the body is called with at the point, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d))
    ∗ (∃ d, owns (c : Thread nD τ) (st6_8 t) fullShare ((dat6 V c).before 8 t d))
    ∗ (∃ d, owns (c : Thread nD τ) (st6_9 t) fullShare ((dat6 V c).before 9 t d))
    ∗ (∃ d, owns (c : Thread nD τ) (st6_10 t) fullShare ((dat6 V c).before 10 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t)
    ∗ owns (c : Thread nD τ) (st6_8 t) fullShare ((dat6 V c).after 8 t)
    ∗ owns (c : Thread nD τ) (st6_9 t) fullShare ((dat6 V c).after 9 t)
    ∗ owns (c : Thread nD τ) (st6_10 t) fullShare ((dat6 V c).after 10 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6, before6_7]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7, after6_8, after6_9, after6_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation6 (c : Dev nD) : BodyObligation (dat6 (F := F) V c) (defs₀ (F := F)) Variants.none () Set.univ := fun t => by
  rw [bigSep_W6, bigSep_W6]
  exact sound_body6 V c t

end Cert.KernelIdeal.Reg

end
-- ==== Proof.KIRegion5.lean ====
/-
  Region 5 of @main: a later relaxation step — each state moved by half its direct gradient, the states taken as
  independent —; one gridless kernel over whole arrays.
  Stated at a parameter `V`, the buffers' contents when the region is entered, and at any float instance:
  what each output buffer holds after the body (`out5_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)
theorem before5_5_of {c : Dev nD} (dat : Dat τ (Elt F) Unit ℕ (UR sig nD τ) ℕ cfg5 c) (hA : dat.A 5 = V c (Pipeline.arrRef spec5 5))
    (hafter : ∀ t, dat.after 5 t = iblk5 V c 5 t) (t : Fin cfg5.N) (d) : dat.before 5 t d = iblk5 V c 5 t :=
  (dat.before_in_eq_fetched 5 rfl (fun _ => rfl) (fun _ _ _ => rfl) (fun t => by rw [hafter]; unfold Dat.blockOf iblk5; rw [hA]; try rfl) t d).trans
    (by unfold Dat.fetched Dat.blockOf iblk5; rw [hA]; try rfl)
theorem before5_6_of {c : Dev nD} (dat : Dat τ (Elt F) Unit ℕ (UR sig nD τ) ℕ cfg5 c) (hA : dat.A 6 = V c (Pipeline.arrRef spec5 6))
    (hafter : ∀ t, dat.after 6 t = iblk5 V c 6 t) (t : Fin cfg5.N) (d) : dat.before 6 t d = iblk5 V c 6 t :=
  (dat.before_in_eq_fetched 6 rfl (fun _ => rfl) (fun _ _ _ => rfl) (fun t => by rw [hafter]; unfold Dat.blockOf iblk5; rw [hA]; try rfl) t d).trans
    (by unfold Dat.fetched Dat.blockOf iblk5; rw [hA]; try rfl)
theorem before5_7_of {c : Dev nD} (dat : Dat τ (Elt F) Unit ℕ (UR sig nD τ) ℕ cfg5 c) (hA : dat.A 7 = V c (Pipeline.arrRef spec5 7))
    (hafter : ∀ t, dat.after 7 t = iblk5 V c 7 t) (t : Fin cfg5.N) (d) : dat.before 7 t d = iblk5 V c 7 t :=
  (dat.before_in_eq_fetched 7 rfl (fun _ => rfl) (fun _ _ _ => rfl) (fun t => by rw [hafter]; unfold Dat.blockOf iblk5; rw [hA]; try rfl) t d).trans
    (by unfold Dat.fetched Dat.blockOf iblk5; rw [hA]; try rfl)

/-- The whole-buffer rectangles the body loads and stores through. -/
abbrev rA5 : Rect S1024x1024 := Rect.unit (s := S1024x1024) ![0, 0] S1024x1024.size inb_S1024x1024_S1024x1024_0_0
abbrev rB5 : Rect S1024x512 := Rect.unit (s := S1024x512) ![0, 0] S1024x512.size inb_S1024x512_S1024x512_0_0

/-- One whole-buffer store covers its buffer. -/
theorem coverA5 (p0 : Vec F S1024x1024 .f32) (y : S1024x1024.Idx) :
    ∃ pc ∈ ([⟨rA5, p0⟩] : List (View.Piece (Elt F) S1024x1024 .f32)), y ∈ pc.1.set :=
  View.cover_of_tiled [⟨rA5, p0⟩] S1024x1024.size (by rfl) y
theorem coverB5 (p0 : Vec F S1024x512 .f32) (y : S1024x512.Idx) :
    ∃ pc ∈ ([⟨rB5, p0⟩] : List (View.Piece (Elt F) S1024x512 .f32)), y ∈ pc.1.set :=
  View.cover_of_tiled [⟨rB5, p0⟩] S1024x512.size (by rfl) y

/-- What the body leaves in each output buffer: its one whole-buffer store, of the payload of the inputs. -/
def out5_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA5, k5_pay8 (View.ld x0 rA5) (View.ld x1 rA5) (View.ld x2 rA5) (View.ld x5 rA5) (View.ld x6 rA5)⟩]
def out5_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA5, k5_pay1 (k5_pay4 (View.ld x2 rA5)) (k5_pay6 (View.ld x1 rA5) (View.ld x2 rA5) (View.ld x3 rB5) (View.ld x6 rA5) (View.ld x7 rB5))⟩]
def out5_10 (x2 : Vec F S1024x1024 .f32) (x3 : Vec F S1024x512 .f32) (x4 : Vec F S1024x512 .f32) (x7 : Vec F S1024x512 .f32) : Vec F S1024x512 .f32 :=
  View.canon [⟨rB5, k5_pay2 (k5_pay5 (View.ld x3 rB5)) (k5_pay7 (View.ld x2 rA5) (View.ld x3 rB5) (View.ld x4 rB5) (View.ld x7 rB5))⟩]

set_option maxHeartbeats 4000000 in
/-- The body on whole buffers: the inputs' read and kept, each output's left at `out5_w` of the inputs'. -/
theorem sound_kernel5 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out5_8 x0 x1 x2 x5 x6) ∗ owns (c : Thread nD τ) arg9 fullShare (out5_9 x1 x2 x3 x6 x7) ∗ owns (c : Thread nD τ) arg10 fullShare (out5_10 x2 x3 x4 x7)) -∗ K ⟨⟩))
      ⊢ wp frame (wpE (defs₀ (F := F)) Variants.none c none) E (cc5__state_update_kernel arg0 harg0 arg1 harg1 arg2 harg2 arg3 harg3 arg4 harg4 arg5 harg5 arg6 harg6 arg7 harg7 arg8 harg8 arg9 harg9 arg10 harg10) K := by
  simp only [cc5__state_update_kernel_eq_skeleton]; unfold cc5__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA5 _)
  isplitl [H9]
  · iexists _; isplitr
    swap; · iexact H9
    ipureintro
    exact View.read_writes_eq_canon _ _ _ (coverA5 _)
  iexists _; isplitr
  swap; · iexact H10
  ipureintro
  exact View.read_writes_eq_canon _ _ _ (coverB5 _)

/-- The proof data of pipeline 5: the arrays as the region finds them; after the body each input's buffer at its
    block and each output's at the body's result; the scoped rest and the generator register untouched; nothing owed. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => out5_8 (iblk5 V c 0 t) (iblk5 V c 1 t) (iblk5 V c 2 t) (iblk5 V c 5 t) (iblk5 V c 6 t)
    | ⟨9, _⟩ => out5_9 (iblk5 V c 1 t) (iblk5 V c 2 t) (iblk5 V c 3 t) (iblk5 V c 6 t) (iblk5 V c 7 t)
    | ⟨10, _⟩ => out5_10 (iblk5 V c 2 t) (iblk5 V c 3 t) (iblk5 V c 4 t) (iblk5 V c 7 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = out5_8 (iblk5 V c 0 t) (iblk5 V c 1 t) (iblk5 V c 2 t) (iblk5 V c 5 t) (iblk5 V c 6 t) := by dsimp only [dat5]
theorem after5_9 (c : Dev nD) (t : Fin cfg5.N) : (dat5 V c).after 9 t = out5_9 (iblk5 V c 1 t) (iblk5 V c 2 t) (iblk5 V c 3 t) (iblk5 V c 6 t) (iblk5 V c 7 t) := by dsimp only [dat5]
theorem after5_10 (c : Dev nD) (t : Fin cfg5.N) : (dat5 V c).after 10 t = out5_10 (iblk5 V c 2 t) (iblk5 V c 3 t) (iblk5 V c 4 t) (iblk5 V c 7 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d
theorem before5_6 (c : Dev nD) (t : Fin cfg5.N) (d) : (dat5 V c).before 6 t d = iblk5 V c 6 t :=
  before5_6_of V (dat5 V c) (A_eq5 V c 6) (after5_6 V c) t d
theorem before5_7 (c : Dev nD) (t : Fin cfg5.N) (d) : (dat5 V c).before 7 t d = iblk5 V c 7 t :=
  before5_7_of V (dat5 V c) (A_eq5 V c 7) (after5_7 V c) t d

/-- What the body is called with at the point, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5, before5_6, before5_7]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6, after5_7, after5_8, after5_9, after5_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel5 c Set.univ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.KIRegion4.lean ====
/-
  Region 4 of @main: a later relaxation step — each state moved by half its direct gradient, the states taken as
  independent —; one gridless kernel over whole arrays.
  Stated at a parameter `V`, the buffers' contents when the region is entered, and at any float instance:
  what each output buffer holds after the body (`out4_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)

/-- The whole-buffer rectangles the body loads and stores through. -/
abbrev rA4 : Rect S1024x1024 := Rect.unit (s := S1024x1024) ![0, 0] S1024x1024.size inb_S1024x1024_S1024x1024_0_0
abbrev rB4 : Rect S1024x512 := Rect.unit (s := S1024x512) ![0, 0] S1024x512.size inb_S1024x512_S1024x512_0_0

/-- One whole-buffer store covers its buffer. -/
theorem coverA4 (p0 : Vec F S1024x1024 .f32) (y : S1024x1024.Idx) :
    ∃ pc ∈ ([⟨rA4, p0⟩] : List (View.Piece (Elt F) S1024x1024 .f32)), y ∈ pc.1.set :=
  View.cover_of_tiled [⟨rA4, p0⟩] S1024x1024.size (by rfl) y
theorem coverB4 (p0 : Vec F S1024x512 .f32) (y : S1024x512.Idx) :
    ∃ pc ∈ ([⟨rB4, p0⟩] : List (View.Piece (Elt F) S1024x512 .f32)), y ∈ pc.1.set :=
  View.cover_of_tiled [⟨rB4, p0⟩] S1024x512.size (by rfl) y

/-- What the body leaves in each output buffer: its one whole-buffer store, of the payload of the inputs. -/
def out4_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA4, k4_pay8 (View.ld x0 rA4) (View.ld x1 rA4) (View.ld x2 rA4) (View.ld x5 rA4) (View.ld x6 rA4)⟩]
def out4_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA4, k4_pay1 (k4_pay4 (View.ld x2 rA4)) (k4_pay6 (View.ld x1 rA4) (View.ld x2 rA4) (View.ld x3 rB4) (View.ld x6 rA4) (View.ld x7 rB4))⟩]
def out4_10 (x2 : Vec F S1024x1024 .f32) (x3 : Vec F S1024x512 .f32) (x4 : Vec F S1024x512 .f32) (x7 : Vec F S1024x512 .f32) : Vec F S1024x512 .f32 :=
  View.canon [⟨rB4, k4_pay2 (k4_pay5 (View.ld x3 rB4)) (k4_pay7 (View.ld x2 rA4) (View.ld x3 rB4) (View.ld x4 rB4) (View.ld x7 rB4))⟩]

set_option maxHeartbeats 4000000 in
/-- The body on whole buffers: the inputs' read and kept, each output's left at `out4_w` of the inputs'. -/
theorem sound_kernel4 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out4_8 x0 x1 x2 x5 x6) ∗ owns (c : Thread nD τ) arg9 fullShare (out4_9 x1 x2 x3 x6 x7) ∗ owns (c : Thread nD τ) arg10 fullShare (out4_10 x2 x3 x4 x7)) -∗ K ⟨⟩))
      ⊢ wp frame (wpE (defs₀ (F := F)) Variants.none c none) E (cc4__state_update_kernel arg0 harg0 arg1 harg1 arg2 harg2 arg3 harg3 arg4 harg4 arg5 harg5 arg6 harg6 arg7 harg7 arg8 harg8 arg9 harg9 arg10 harg10) K := by
  simp only [cc4__state_update_kernel_eq_skeleton]; unfold cc4__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA4 _)
  isplitl [H9]
  · iexists _; isplitr
    swap; · iexact H9
    ipureintro
    exact View.read_writes_eq_canon _ _ _ (coverA4 _)
  iexists _; isplitr
  swap; · iexact H10
  ipureintro
  exact View.read_writes_eq_canon _ _ _ (coverB4 _)

/-- The proof data of pipeline 4: the arrays as the region finds them; after the body each input's buffer at its
    block and each output's at the body's result; the scoped rest and the generator register untouched; nothing owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => out4_8 (iblk4 V c 0 t) (iblk4 V c 1 t) (iblk4 V c 2 t) (iblk4 V c 5 t) (iblk4 V c 6 t)
    | ⟨9, _⟩ => out4_9 (iblk4 V c 1 t) (iblk4 V c 2 t) (iblk4 V c 3 t) (iblk4 V c 6 t) (iblk4 V c 7 t)
    | ⟨10, _⟩ => out4_10 (iblk4 V c 2 t) (iblk4 V c 3 t) (iblk4 V c 4 t) (iblk4 V c 7 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = out4_8 (iblk4 V c 0 t) (iblk4 V c 1 t) (iblk4 V c 2 t) (iblk4 V c 5 t) (iblk4 V c 6 t) := by dsimp only [dat4]
theorem after4_9 (c : Dev nD) (t : Fin cfg4.N) : (dat4 V c).after 9 t = out4_9 (iblk4 V c 1 t) (iblk4 V c 2 t) (iblk4 V c 3 t) (iblk4 V c 6 t) (iblk4 V c 7 t) := by dsimp only [dat4]
theorem after4_10 (c : Dev nD) (t : Fin cfg4.N) : (dat4 V c).after 10 t = out4_10 (iblk4 V c 2 t) (iblk4 V c 3 t) (iblk4 V c 4 t) (iblk4 V c 7 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d

/-- What the body is called with at the point, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel4 c Set.univ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.KIRegion3.lean ====
/-
  Region 3 of @main: a later relaxation step — each state moved by half its direct gradient, the states taken as
  independent —; one gridless kernel over whole arrays.
  Stated at a parameter `V`, the buffers' contents when the region is entered, and at any float instance:
  what each output buffer holds after the body (`out3_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rA3 : Rect S1024x1024 := Rect.unit (s := S1024x1024) ![0, 0] S1024x1024.size inb_S1024x1024_S1024x1024_0_0
abbrev rB3 : Rect S1024x512 := Rect.unit (s := S1024x512) ![0, 0] S1024x512.size inb_S1024x512_S1024x512_0_0

/-- One whole-buffer store covers its buffer. -/
theorem coverA3 (p0 : Vec F S1024x1024 .f32) (y : S1024x1024.Idx) :
    ∃ pc ∈ ([⟨rA3, p0⟩] : List (View.Piece (Elt F) S1024x1024 .f32)), y ∈ pc.1.set :=
  View.cover_of_tiled [⟨rA3, p0⟩] S1024x1024.size (by rfl) y
theorem coverB3 (p0 : Vec F S1024x512 .f32) (y : S1024x512.Idx) :
    ∃ pc ∈ ([⟨rB3, p0⟩] : List (View.Piece (Elt F) S1024x512 .f32)), y ∈ pc.1.set :=
  View.cover_of_tiled [⟨rB3, p0⟩] S1024x512.size (by rfl) y

/-- What the body leaves in each output buffer: its one whole-buffer store, of the payload of the inputs. -/
def out3_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA3, k3_pay8 (View.ld x0 rA3) (View.ld x1 rA3) (View.ld x2 rA3) (View.ld x5 rA3) (View.ld x6 rA3)⟩]
def out3_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA3, k3_pay1 (k3_pay4 (View.ld x2 rA3)) (k3_pay6 (View.ld x1 rA3) (View.ld x2 rA3) (View.ld x3 rB3) (View.ld x6 rA3) (View.ld x7 rB3))⟩]
def out3_10 (x2 : Vec F S1024x1024 .f32) (x3 : Vec F S1024x512 .f32) (x4 : Vec F S1024x512 .f32) (x7 : Vec F S1024x512 .f32) : Vec F S1024x512 .f32 :=
  View.canon [⟨rB3, k3_pay2 (k3_pay5 (View.ld x3 rB3)) (k3_pay7 (View.ld x2 rA3) (View.ld x3 rB3) (View.ld x4 rB3) (View.ld x7 rB3))⟩]

set_option maxHeartbeats 4000000 in
/-- The body on whole buffers: the inputs' read and kept, each output's left at `out3_w` of the inputs'. -/
theorem sound_kernel3 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out3_8 x0 x1 x2 x5 x6) ∗ owns (c : Thread nD τ) arg9 fullShare (out3_9 x1 x2 x3 x6 x7) ∗ owns (c : Thread nD τ) arg10 fullShare (out3_10 x2 x3 x4 x7)) -∗ K ⟨⟩))
      ⊢ wp frame (wpE (defs₀ (F := F)) Variants.none c none) E (cc3__state_update_kernel arg0 harg0 arg1 harg1 arg2 harg2 arg3 harg3 arg4 harg4 arg5 harg5 arg6 harg6 arg7 harg7 arg8 harg8 arg9 harg9 arg10 harg10) K := by
  simp only [cc3__state_update_kernel_eq_skeleton]; unfold cc3__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA3 _)
  isplitl [H9]
  · iexists _; isplitr
    swap; · iexact H9
    ipureintro
    exact View.read_writes_eq_canon _ _ _ (coverA3 _)
  iexists _; isplitr
  swap; · iexact H10
  ipureintro
  exact View.read_writes_eq_canon _ _ _ (coverB3 _)

/-- The proof data of pipeline 3: the arrays as the region finds them; after the body each input's buffer at its
    block and each output's at the body's result; the scoped rest and the generator register untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 5 t) (iblk3 V c 6 t)
    | ⟨9, _⟩ => out3_9 (iblk3 V c 1 t) (iblk3 V c 2 t) (iblk3 V c 3 t) (iblk3 V c 6 t) (iblk3 V c 7 t)
    | ⟨10, _⟩ => out3_10 (iblk3 V c 2 t) (iblk3 V c 3 t) (iblk3 V c 4 t) (iblk3 V c 7 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 5 t) (iblk3 V c 6 t) := by dsimp only [dat3]
theorem after3_9 (c : Dev nD) (t : Fin cfg3.N) : (dat3 V c).after 9 t = out3_9 (iblk3 V c 1 t) (iblk3 V c 2 t) (iblk3 V c 3 t) (iblk3 V c 6 t) (iblk3 V c 7 t) := by dsimp only [dat3]
theorem after3_10 (c : Dev nD) (t : Fin cfg3.N) : (dat3 V c).after 10 t = out3_10 (iblk3 V c 2 t) (iblk3 V c 3 t) (iblk3 V c 4 t) (iblk3 V c 7 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-- What the body is called with at the point, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel3 c Set.univ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.KIRegion2.lean ====
/-
  Region 2 of @main: a later relaxation step — each state moved by half its direct gradient, the states taken as
  independent —; one gridless kernel over whole arrays.
  Stated at a parameter `V`, the buffers' contents when the region is entered, and at any float instance:
  what each output buffer holds after the body (`out2_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rA2 : Rect S1024x1024 := Rect.unit (s := S1024x1024) ![0, 0] S1024x1024.size inb_S1024x1024_S1024x1024_0_0
abbrev rB2 : Rect S1024x512 := Rect.unit (s := S1024x512) ![0, 0] S1024x512.size inb_S1024x512_S1024x512_0_0

/-- One whole-buffer store covers its buffer. -/
theorem coverA2 (p0 : Vec F S1024x1024 .f32) (y : S1024x1024.Idx) :
    ∃ pc ∈ ([⟨rA2, p0⟩] : List (View.Piece (Elt F) S1024x1024 .f32)), y ∈ pc.1.set :=
  View.cover_of_tiled [⟨rA2, p0⟩] S1024x1024.size (by rfl) y
theorem coverB2 (p0 : Vec F S1024x512 .f32) (y : S1024x512.Idx) :
    ∃ pc ∈ ([⟨rB2, p0⟩] : List (View.Piece (Elt F) S1024x512 .f32)), y ∈ pc.1.set :=
  View.cover_of_tiled [⟨rB2, p0⟩] S1024x512.size (by rfl) y

/-- What the body leaves in each output buffer: its one whole-buffer store, of the payload of the inputs. -/
def out2_8 (x0 : Vec F S1024x1024 .f32) (x1 : Vec F S1024x1024 .f32) (x2 : Vec F S1024x1024 .f32) (x5 : Vec F S1024x1024 .f32) (x6 : Vec F S1024x1024 .f32) : Vec F S1024x1024 .f32 :=
  View.canon [⟨rA2, k2_pay8 (View.ld x0 rA2) (View.ld x1 rA2) (View.ld x2 rA2) (View.ld x5 rA2) (View.ld x6 rA2)⟩]
def out2_9 (x1 : Vec F S1024x1024 .f32) (x2 : Vec F S1024x1024 .f32) (x3 : Vec F S1024x512 .f32) (x6 : Vec F S1024x1024 .f32) (x7 : Vec F S1024x512 .f32) : Vec F S1024x1024 .f32 :=
  View.canon [⟨rA2, k2_pay1 (k2_pay4 (View.ld x2 rA2)) (k2_pay6 (View.ld x1 rA2) (View.ld x2 rA2) (View.ld x3 rB2) (View.ld x6 rA2) (View.ld x7 rB2))⟩]
def out2_10 (x2 : Vec F S1024x1024 .f32) (x3 : Vec F S1024x512 .f32) (x4 : Vec F S1024x512 .f32) (x7 : Vec F S1024x512 .f32) : Vec F S1024x512 .f32 :=
  View.canon [⟨rB2, k2_pay2 (k2_pay5 (View.ld x3 rB2)) (k2_pay7 (View.ld x2 rA2) (View.ld x3 rB2) (View.ld x4 rB2) (View.ld x7 rB2))⟩]

set_option maxHeartbeats 4000000 in
/-- The body on whole buffers: the inputs' read and kept, each output's left at `out2_w` of the inputs'. -/
theorem sound_kernel2 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out2_8 x0 x1 x2 x5 x6) ∗ owns (c : Thread nD τ) arg9 fullShare (out2_9 x1 x2 x3 x6 x7) ∗ owns (c : Thread nD τ) arg10 fullShare (out2_10 x2 x3 x4 x7)) -∗ K ⟨⟩))
      ⊢ wp frame (wpE (defs₀ (F := F)) Variants.none c none) E (cc2__state_update_kernel arg0 harg0 arg1 harg1 arg2 harg2 arg3 harg3 arg4 harg4 arg5 harg5 arg6 harg6 arg7 harg7 arg8 harg8 arg9 harg9 arg10 harg10) K := by
  simp only [cc2__state_update_kernel_eq_skeleton]; unfold cc2__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA2 _)
  isplitl [H9]
  · iexists _; isplitr
    swap; · iexact H9
    ipureintro
    exact View.read_writes_eq_canon _ _ _ (coverA2 _)
  iexists _; isplitr
  swap; · iexact H10
  ipureintro
  exact View.read_writes_eq_canon _ _ _ (coverB2 _)

/-- The proof data of pipeline 2: the arrays as the region finds them; after the body each input's buffer at its
    block and each output's at the body's result; the scoped rest and the generator register untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => out2_8 (iblk2 V c 0 t) (iblk2 V c 1 t) (iblk2 V c 2 t) (iblk2 V c 5 t) (iblk2 V c 6 t)
    | ⟨9, _⟩ => out2_9 (iblk2 V c 1 t) (iblk2 V c 2 t) (iblk2 V c 3 t) (iblk2 V c 6 t) (iblk2 V c 7 t)
    | ⟨10, _⟩ => out2_10 (iblk2 V c 2 t) (iblk2 V c 3 t) (iblk2 V c 4 t) (iblk2 V c 7 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = out2_8 (iblk2 V c 0 t) (iblk2 V c 1 t) (iblk2 V c 2 t) (iblk2 V c 5 t) (iblk2 V c 6 t) := by dsimp only [dat2]
theorem after2_9 (c : Dev nD) (t : Fin cfg2.N) : (dat2 V c).after 9 t = out2_9 (iblk2 V c 1 t) (iblk2 V c 2 t) (iblk2 V c 3 t) (iblk2 V c 6 t) (iblk2 V c 7 t) := by dsimp only [dat2]
theorem after2_10 (c : Dev nD) (t : Fin cfg2.N) : (dat2 V c).after 10 t = out2_10 (iblk2 V c 2 t) (iblk2 V c 3 t) (iblk2 V c 4 t) (iblk2 V c 7 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d

/-- What the body is called with at the point, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 c Set.univ _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.KIRegion1.lean ====
/-
  Region 1 of @main: the first relaxation step, whose state gradients also flow back along the chain
  (`g2 += g3·W2ᵀ`, `g1 += g2·W1ᵀ`), each state then moved by half its gradient; one gridless kernel over whole arrays.
  Stated at a parameter `V`, the buffers' contents when the region is entered, and at any float instance:
  what each output buffer holds after the body (`out1_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rA1 : Rect S1024x1024 := Rect.unit (s := S1024x1024) ![0, 0] S1024x1024.size inb_S1024x1024_S1024x1024_0_0
abbrev rB1 : Rect S1024x512 := Rect.unit (s := S1024x512) ![0, 0] S1024x512.size inb_S1024x512_S1024x512_0_0

/-- One whole-buffer store covers its buffer. -/
theorem coverA1 (p0 : Vec F S1024x1024 .f32) (y : S1024x1024.Idx) :
    ∃ pc ∈ ([⟨rA1, p0⟩] : List (View.Piece (Elt F) S1024x1024 .f32)), y ∈ pc.1.set :=
  View.cover_of_tiled [⟨rA1, p0⟩] S1024x1024.size (by rfl) y
theorem coverB1 (p0 : Vec F S1024x512 .f32) (y : S1024x512.Idx) :
    ∃ pc ∈ ([⟨rB1, p0⟩] : List (View.Piece (Elt F) S1024x512 .f32)), y ∈ pc.1.set :=
  View.cover_of_tiled [⟨rB1, p0⟩] S1024x512.size (by rfl) y

/-- What the body leaves in each output buffer: its one whole-buffer store, of the payload of the inputs. -/
def out1_8 (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) : Vec F S1024x1024 .f32 :=
  View.canon [⟨rA1, k1_pay1 (k1_pay4 (View.ld x1 rA1)) (k1_pay9 (View.ld x0 rA1) (View.ld x1 rA1) (View.ld x2 rA1) (View.ld x3 rB1) (View.ld x4 rB1) (View.ld x5 rA1) (View.ld x6 rA1) (View.ld x7 rB1)) (Scalar.ofBits .f32 0x3F000000#32)⟩]
def out1_9 (x1 : Vec F S1024x1024 .f32) (x2 : Vec F S1024x1024 .f32) (x3 : Vec F S1024x512 .f32) (x4 : Vec F S1024x512 .f32) (x6 : Vec F S1024x1024 .f32) (x7 : Vec F S1024x512 .f32) : Vec F S1024x1024 .f32 :=
  View.canon [⟨rA1, k1_pay2 (k1_pay5 (View.ld x2 rA1)) (k1_pay8 (View.ld x1 rA1) (View.ld x2 rA1) (View.ld x3 rB1) (View.ld x4 rB1) (View.ld x6 rA1) (View.ld x7 rB1))⟩]
def out1_10 (x2 : Vec F S1024x1024 .f32) (x3 : Vec F S1024x512 .f32) (x4 : Vec F S1024x512 .f32) (x7 : Vec F S1024x512 .f32) : Vec F S1024x512 .f32 :=
  View.canon [⟨rB1, k1_pay3 (k1_pay6 (View.ld x3 rB1)) (k1_pay7 (View.ld x2 rA1) (View.ld x3 rB1) (View.ld x4 rB1) (View.ld x7 rB1))⟩]

set_option maxHeartbeats 4000000 in
/-- The body on whole buffers: the inputs' read and kept, each output's left at `out1_w` of the inputs'. -/
theorem sound_kernel1 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x512 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x512 .f32) (harg10 : arg10.IsWhole)
    (x0 : Vec F S1024x1024 .f32) (x1 : Vec F S1024x1024 .f32) (x2 : Vec F S1024x1024 .f32) (x3 : Vec F S1024x512 .f32) (x4 : Vec F S1024x512 .f32) (x5 : Vec F S1024x1024 .f32) (x6 : Vec F S1024x1024 .f32) (x7 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (out1_8 x0 x1 x2 x3 x4 x5 x6 x7) ∗ owns (c : Thread nD τ) arg9 fullShare (out1_9 x1 x2 x3 x4 x6 x7) ∗ owns (c : Thread nD τ) arg10 fullShare (out1_10 x2 x3 x4 x7)) -∗ K ⟨⟩))
      ⊢ wp frame (wpE (defs₀ (F := F)) Variants.none c none) E (cc1__state_update_kernel arg0 harg0 arg1 harg1 arg2 harg2 arg3 harg3 arg4 harg4 arg5 harg5 arg6 harg6 arg7 harg7 arg8 harg8 arg9 harg9 arg10 harg10) K := by
  simp only [cc1__state_update_kernel_eq_skeleton]; unfold cc1__state_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (coverA1 _)
  isplitl [H9]
  · iexists _; isplitr
    swap; · iexact H9
    ipureintro
    exact View.read_writes_eq_canon _ _ _ (coverA1 _)
  iexists _; isplitr
  swap; · iexact H10
  ipureintro
  exact View.read_writes_eq_canon _ _ _ (coverB1 _)

/-- The proof data of pipeline 1: the arrays as the region finds them; after the body each input's buffer at its
    block and each output's at the body's result; the scoped rest and the generator register untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
    | ⟨9, _⟩ => out1_9 (iblk1 V c 1 t) (iblk1 V c 2 t) (iblk1 V c 3 t) (iblk1 V c 4 t) (iblk1 V c 6 t) (iblk1 V c 7 t)
    | ⟨10, _⟩ => out1_10 (iblk1 V c 2 t) (iblk1 V c 3 t) (iblk1 V c 4 t) (iblk1 V c 7 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]
theorem after1_9 (c : Dev nD) (t : Fin cfg1.N) : (dat1 V c).after 9 t = out1_9 (iblk1 V c 1 t) (iblk1 V c 2 t) (iblk1 V c 3 t) (iblk1 V c 4 t) (iblk1 V c 6 t) (iblk1 V c 7 t) := by dsimp only [dat1]
theorem after1_10 (c : Dev nD) (t : Fin cfg1.N) : (dat1 V c).after 10 t = out1_10 (iblk1 V c 2 t) (iblk1 V c 3 t) (iblk1 V c 4 t) (iblk1 V c 7 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at the point, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel1 c Set.univ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at the region's point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.KIRegion0.lean ====
/-
  Region 0 of @main: the forward chain `s1 = x·W0, s2 = s1·W1, s3 = s2·W2` in one gridless kernel over whole arrays.
  Stated at a parameter `V`, the buffers' contents when the region is entered, and at any float instance:
  what each output buffer holds after the body (`out0_w`: the body's one whole-buffer store, of a payload of the
  input buffers), the body's triple, the proof data naming those contents, and the body obligation.
-/
import proofs.«107956_j75110388073098_1_alg».proof.Proof.Gen.KernelIdeal.Launch
import proofs.«107956_j75110388073098_1_alg».proof.Proof.Gen.KernelIdeal.Skeleton
import proofs.«107956_j75110388073098_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the region's one point: the whole array as the region finds it. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rA0 : Rect S1024x1024 := Rect.unit (s := S1024x1024) ![0, 0] S1024x1024.size inb_S1024x1024_S1024x1024_0_0
abbrev rB0 : Rect S1024x512 := Rect.unit (s := S1024x512) ![0, 0] S1024x512.size inb_S1024x512_S1024x512_0_0

/-- One whole-buffer store covers its buffer. -/
theorem coverA0 (p0 : Vec F S1024x1024 .f32) (y : S1024x1024.Idx) :
    ∃ pc ∈ ([⟨rA0, p0⟩] : List (View.Piece (Elt F) S1024x1024 .f32)), y ∈ pc.1.set :=
  View.cover_of_tiled [⟨rA0, p0⟩] S1024x1024.size (by rfl) y
theorem coverB0 (p0 : Vec F S1024x512 .f32) (y : S1024x512.Idx) :
    ∃ pc ∈ ([⟨rB0, p0⟩] : List (View.Piece (Elt F) S1024x512 .f32)), y ∈ pc.1.set :=
  View.cover_of_tiled [⟨rB0, p0⟩] S1024x512.size (by rfl) y

/-- What the body leaves in each output buffer: its one whole-buffer store, of the payload of the inputs. -/
def out0_4 (x0 : Vec F S1024x1024 .f32) (x1 : Vec F S1024x1024 .f32) : Vec F S1024x1024 .f32 :=
  View.canon [⟨rA0, k0_pay1 (View.ld x0 rA0) (View.ld x1 rA0)⟩]
def out0_5 (x0 : Vec F S1024x1024 .f32) (x1 : Vec F S1024x1024 .f32) (x2 : Vec F S1024x1024 .f32) : Vec F S1024x1024 .f32 :=
  View.canon [⟨rA0, k0_pay2 (View.ld x0 rA0) (View.ld x1 rA0) (View.ld x2 rA0)⟩]
def out0_6 (x0 : Vec F S1024x1024 .f32) (x1 : Vec F S1024x1024 .f32) (x2 : Vec F S1024x1024 .f32) (x3 : Vec F S1024x512 .f32) : Vec F S1024x512 .f32 :=
  View.canon [⟨rB0, k0_pay3 (View.ld x0 rA0) (View.ld x1 rA0) (View.ld x2 rA0) (View.ld x3 rB0)⟩]

set_option maxHeartbeats 4000000 in
/-- The body on whole buffers: the inputs' read and kept, each output's left at `out0_w` of the inputs'. -/
theorem sound_kernel0 (c : Dev nD) (E : Set ℕ)
    (arg0 : Memref sig .tc .vmem S1024x1024 .f32) (harg0 : arg0.IsWhole) (arg1 : Memref sig .tc .vmem S1024x1024 .f32) (harg1 : arg1.IsWhole) (arg2 : Memref sig .tc .vmem S1024x1024 .f32) (harg2 : arg2.IsWhole) (arg3 : Memref sig .tc .vmem S1024x512 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x512 .f32) (harg6 : arg6.IsWhole)
    (x0 : Vec F S1024x1024 .f32) (x1 : Vec F S1024x1024 .f32) (x2 : Vec F S1024x1024 .f32) (x3 : Vec F S1024x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3
            ∗ owns (c : Thread nD τ) arg4 fullShare (out0_4 x0 x1) ∗ owns (c : Thread nD τ) arg5 fullShare (out0_5 x0 x1 x2) ∗ owns (c : Thread nD τ) arg6 fullShare (out0_6 x0 x1 x2 x3)) -∗ K ⟨⟩))
      ⊢ wp frame (wpE (defs₀ (F := F)) Variants.none c none) E (cc0__forward_kernel arg0 harg0 arg1 harg1 arg2 harg2 arg3 harg3 arg4 harg4 arg5 harg5 arg6 harg6) K := by
  simp only [cc0__forward_kernel_eq_skeleton]; unfold cc0__forward_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverA0 _)
  isplitl [H5]
  · iexists _; isplitr
    swap; · iexact H5
    ipureintro
    exact View.read_writes_eq_canon _ _ _ (coverA0 _)
  iexists _; isplitr
  swap; · iexact H6
  ipureintro
  exact View.read_writes_eq_canon _ _ _ (coverB0 _)

/-- The proof data of pipeline 0: the arrays as the region finds them; after the body each input's buffer at its
    block and each output's at the body's result; the scoped rest and the generator register untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 1 t) (iblk0 V c 2 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 1 t) (iblk0 V c 2 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at the point, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at the region's point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.KIWalk0.lean ====
/-
  The buffers' contents around region 0: at the launch, and at the region's exit — its arrays at what its pipeline
  leaves, every other buffer untouched.
-/
import proofs.«107956_j75110388073098_1_alg».proof.Proof.KIRegion0

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers at launch. -/
abbrev Wi0 : Dev nD → Valuation τ sig (Elt F) := fun c b => (s₀ m ρ).mem ((c : Dev nD), b)
theorem Wi0_main_arg0 (c : Dev nD) : Wi0 m ρ c (Proc.devRef .tc main_arg0) = m ((c : Thread nD τ).loc main_arg0) := rfl
theorem Wi0_main_arg1 (c : Dev nD) : Wi0 m ρ c (Proc.devRef .tc main_arg1) = m ((c : Thread nD τ).loc main_arg1) := rfl
theorem Wi0_main_arg2 (c : Dev nD) : Wi0 m ρ c (Proc.devRef .tc main_arg2) = m ((c : Thread nD τ).loc main_arg2) := rfl
theorem Wi0_main_arg3 (c : Dev nD) : Wi0 m ρ c (Proc.devRef .tc main_arg3) = m ((c : Thread nD τ).loc main_arg3) := rfl
theorem Wi0_main_arg4 (c : Dev nD) : Wi0 m ρ c (Proc.devRef .tc main_arg4) = m ((c : Thread nD τ).loc main_arg4) := rfl

/-- The same read at the TensorCore's references (what region 0's proof data take). -/
abbrev Vi0 : (c : Dev nD) → (b : Ref sig .tc) → Buf (Elt F) ((c : Thread nD τ).loc b) := fun c b => Wi0 m ρ c b

/-- At region 0's exit: its arrays at what the pipeline leaves (the inputs as entered, each output's write-back),
    every other buffer as entered. -/
def Wo0 (c : Dev nD) : Valuation τ sig (Elt F) :=
  Pipeline.withArrays spec0 c (Wi0 m ρ c) fun w => (dat0 (Vi0 m ρ) c).arrAt w cfg0.N
theorem Wo0_arr (c : Dev nD) (w : Fin cfg0.W) :
    Wo0 m ρ c (Proc.devRef .tc (Pipeline.arrRef spec0 w)) = (dat0 (Vi0 m ρ) c).arrAt w cfg0.N := by
  unfold Wo0; exact Pipeline.withArrays_arr spec0 launch0.win.arr_inj c _ _ w
theorem Wo0_of_ne (c : Dev nD) (b : Ref sig .tc) (hb : ∀ w, Pipeline.arrRef spec0 w ≠ b) :
    Wo0 m ρ c (Proc.devRef .tc b) = Wi0 m ρ c (Proc.devRef .tc b) := by
  unfold Wo0; exact Pipeline.withArrays_of_ne spec0 c _ _ b hb
/-- A buffer that is no OUTPUT window's array leaves the region as it entered it: an input window's array is only
    read, and a buffer outside the windows is not touched. -/
theorem Wo0_keep (c : Dev nD) (b : Ref sig .tc) (hb : ∀ w, (cfg0.win w).isOut = true → Pipeline.arrRef spec0 w ≠ b) :
    Wo0 m ρ c (Proc.devRef .tc b) = Wi0 m ρ c (Proc.devRef .tc b) := by
  by_cases h : ∃ w, Pipeline.arrRef spec0 w = b
  · obtain ⟨w, rfl⟩ := h
    have hin : (cfg0.win w).isOut = false := by
      cases hw : (cfg0.win w).isOut
      · rfl
      · exact absurd rfl (hb w hw)
    exact (Wo0_arr m ρ c w).trans (((dat0 (Vi0 m ρ) c).arrAt_in w hin _).trans (A_eq0 (Vi0 m ρ) c w))
  · exact Wo0_of_ne m ρ c b fun w e => h ⟨w, e⟩
/-- The same read at the TensorCore's references (region 0's exit contents). -/
abbrev Vo0 : (c : Dev nD) → (b : Ref sig .tc) → Buf (Elt F) ((c : Thread nD τ).loc b) := fun c b => Wo0 m ρ c b
theorem hF0 (c : Dev nD) (w : Fin cfg0.W) : (dat0 (Vi0 m ρ) c).arrAt w cfg0.N = Vo0 m ρ c (Pipeline.arrRef spec0 w) :=
  (Wo0_arr m ρ c w).symm
theorem hrest0 (c : Dev nD) : ∀ b, b ∉ Finset.univ.image (Pipeline.arrRef spec0) → Vo0 m ρ c b = Vi0 m ρ c b :=
  fun b hb => Wo0_of_ne m ρ c b fun w e => hb (Finset.mem_image.mpr ⟨w, Finset.mem_univ _, e⟩)

/-- The arguments leave the region as launched: no region writes one. -/
theorem Wo0_main_arg0 (c : Dev nD) : Wo0 m ρ c (Proc.devRef .tc main_arg0) = m ((c : Thread nD τ).loc main_arg0) :=
  (Wo0_keep m ρ c main_arg0 (by decide)).trans (Wi0_main_arg0 m ρ c)
theorem Wo0_main_arg1 (c : Dev nD) : Wo0 m ρ c (Proc.devRef .tc main_arg1) = m ((c : Thread nD τ).loc main_arg1) :=
  (Wo0_keep m ρ c main_arg1 (by decide)).trans (Wi0_main_arg1 m ρ c)
theorem Wo0_main_arg2 (c : Dev nD) : Wo0 m ρ c (Proc.devRef .tc main_arg2) = m ((c : Thread nD τ).loc main_arg2) :=
  (Wo0_keep m ρ c main_arg2 (by decide)).trans (Wi0_main_arg2 m ρ c)
theorem Wo0_main_arg3 (c : Dev nD) : Wo0 m ρ c (Proc.devRef .tc main_arg3) = m ((c : Thread nD τ).loc main_arg3) :=
  (Wo0_keep m ρ c main_arg3 (by decide)).trans (Wi0_main_arg3 m ρ c)
theorem Wo0_main_arg4 (c : Dev nD) : Wo0 m ρ c (Proc.devRef .tc main_arg4) = m ((c : Thread nD τ).loc main_arg4) :=
  (Wo0_keep m ρ c main_arg4 (by decide)).trans (Wi0_main_arg4 m ρ c)

end Cert.KernelIdeal.Reg

end
-- ==== Proof.KIWalk1.lean ====
/-
  The buffers' contents around region 1: entered after the host stretch that computes the loss from region 0's exit
  contents; left with its arrays at what its pipeline leaves, every other buffer untouched.
-/
import proofs.«107956_j75110388073098_1_alg».proof.Proof.KIRegion1
import proofs.«107956_j75110388073098_1_alg».proof.Proof.KIWalk0
import proofs.«107956_j75110388073098_1_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- After the host stretch between regions 0 and 1 (region 1's entry). -/
abbrev Wi1 : Dev nD → Valuation τ sig (Elt F) := fun c => StableHlo.after hostOps1 (Wo0 m ρ c)
/-- That stretch writes only its own results: any other buffer passes through it. -/
theorem Wi1_of (c : Dev nD) (r : Ref sig .tc) (h : r ∉ hostOps1_W) : Wi1 m ρ c (Proc.devRef .tc r) = Wo0 m ρ c (Proc.devRef .tc r) :=
  StableHlo.after_of_writes_sub hostOps1 _ hostOps1_writes h
theorem Wi1_main_arg0 (c : Dev nD) : Wi1 m ρ c (Proc.devRef .tc main_arg0) = m ((c : Thread nD τ).loc main_arg0) :=
  (Wi1_of m ρ c main_arg0 (by decide)).trans (Wo0_main_arg0 m ρ c)
theorem Wi1_main_arg1 (c : Dev nD) : Wi1 m ρ c (Proc.devRef .tc main_arg1) = m ((c : Thread nD τ).loc main_arg1) :=
  (Wi1_of m ρ c main_arg1 (by decide)).trans (Wo0_main_arg1 m ρ c)
theorem Wi1_main_arg2 (c : Dev nD) : Wi1 m ρ c (Proc.devRef .tc main_arg2) = m ((c : Thread nD τ).loc main_arg2) :=
  (Wi1_of m ρ c main_arg2 (by decide)).trans (Wo0_main_arg2 m ρ c)
theorem Wi1_main_arg3 (c : Dev nD) : Wi1 m ρ c (Proc.devRef .tc main_arg3) = m ((c : Thread nD τ).loc main_arg3) :=
  (Wi1_of m ρ c main_arg3 (by decide)).trans (Wo0_main_arg3 m ρ c)
theorem Wi1_main_arg4 (c : Dev nD) : Wi1 m ρ c (Proc.devRef .tc main_arg4) = m ((c : Thread nD τ).loc main_arg4) :=
  (Wi1_of m ρ c main_arg4 (by decide)).trans (Wo0_main_arg4 m ρ c)

/-- The same read at the TensorCore's references (what region 1's proof data take). -/
abbrev Vi1 : (c : Dev nD) → (b : Ref sig .tc) → Buf (Elt F) ((c : Thread nD τ).loc b) := fun c b => Wi1 m ρ c b

/-- At region 1's exit: its arrays at what the pipeline leaves (the inputs as entered, each output's write-back),
    every other buffer as entered. -/
def Wo1 (c : Dev nD) : Valuation τ sig (Elt F) :=
  Pipeline.withArrays spec1 c (Wi1 m ρ c) fun w => (dat1 (Vi1 m ρ) c).arrAt w cfg1.N
theorem Wo1_arr (c : Dev nD) (w : Fin cfg1.W) :
    Wo1 m ρ c (Proc.devRef .tc (Pipeline.arrRef spec1 w)) = (dat1 (Vi1 m ρ) c).arrAt w cfg1.N := by
  unfold Wo1; exact Pipeline.withArrays_arr spec1 launch1.win.arr_inj c _ _ w
theorem Wo1_of_ne (c : Dev nD) (b : Ref sig .tc) (hb : ∀ w, Pipeline.arrRef spec1 w ≠ b) :
    Wo1 m ρ c (Proc.devRef .tc b) = Wi1 m ρ c (Proc.devRef .tc b) := by
  unfold Wo1; exact Pipeline.withArrays_of_ne spec1 c _ _ b hb
/-- A buffer that is no OUTPUT window's array leaves the region as it entered it: an input window's array is only
    read, and a buffer outside the windows is not touched. -/
theorem Wo1_keep (c : Dev nD) (b : Ref sig .tc) (hb : ∀ w, (cfg1.win w).isOut = true → Pipeline.arrRef spec1 w ≠ b) :
    Wo1 m ρ c (Proc.devRef .tc b) = Wi1 m ρ c (Proc.devRef .tc b) := by
  by_cases h : ∃ w, Pipeline.arrRef spec1 w = b
  · obtain ⟨w, rfl⟩ := h
    have hin : (cfg1.win w).isOut = false := by
      cases hw : (cfg1.win w).isOut
      · rfl
      · exact absurd rfl (hb w hw)
    exact (Wo1_arr m ρ c w).trans (((dat1 (Vi1 m ρ) c).arrAt_in w hin _).trans (A_eq1 (Vi1 m ρ) c w))
  · exact Wo1_of_ne m ρ c b fun w e => h ⟨w, e⟩
/-- The same read at the TensorCore's references (region 1's exit contents). -/
abbrev Vo1 : (c : Dev nD) → (b : Ref sig .tc) → Buf (Elt F) ((c : Thread nD τ).loc b) := fun c b => Wo1 m ρ c b
theorem hF1 (c : Dev nD) (w : Fin cfg1.W) : (dat1 (Vi1 m ρ) c).arrAt w cfg1.N = Vo1 m ρ c (Pipeline.arrRef spec1 w) :=
  (Wo1_arr m ρ c w).symm
theorem hrest1 (c : Dev nD) : ∀ b, b ∉ Finset.univ.image (Pipeline.arrRef spec1) → Vo1 m ρ c b = Vi1 m ρ c b :=
  fun b hb => Wo1_of_ne m ρ c b fun w e => hb (Finset.mem_image.mpr ⟨w, Finset.mem_univ _, e⟩)

/-- The arguments leave the region as launched: no region writes one. -/
theorem Wo1_main_arg0 (c : Dev nD) : Wo1 m ρ c (Proc.devRef .tc main_arg0) = m ((c : Thread nD τ).loc main_arg0) :=
  (Wo1_keep m ρ c main_arg0 (by decide)).trans (Wi1_main_arg0 m ρ c)
theorem Wo1_main_arg1 (c : Dev nD) : Wo1 m ρ c (Proc.devRef .tc main_arg1) = m ((c : Thread nD τ).loc main_arg1) :=
  (Wo1_keep m ρ c main_arg1 (by decide)).trans (Wi1_main_arg1 m ρ c)
theorem Wo1_main_arg2 (c : Dev nD) : Wo1 m ρ c (Proc.devRef .tc main_arg2) = m ((c : Thread nD τ).loc main_arg2) :=
  (Wo1_keep m ρ c main_arg2 (by decide)).trans (Wi1_main_arg2 m ρ c)
theorem Wo1_main_arg3 (c : Dev nD) : Wo1 m ρ c (Proc.devRef .tc main_arg3) = m ((c : Thread nD τ).loc main_arg3) :=
  (Wo1_keep m ρ c main_arg3 (by decide)).trans (Wi1_main_arg3 m ρ c)
theorem Wo1_main_arg4 (c : Dev nD) : Wo1 m ρ c (Proc.devRef .tc main_arg4) = m ((c : Thread nD τ).loc main_arg4) :=
  (Wo1_keep m ρ c main_arg4 (by decide)).trans (Wi1_main_arg4 m ρ c)

end Cert.KernelIdeal.Reg

end
-- ==== Proof.KIWalk2.lean ====
/-
  The buffers' contents around region 2: entered from region 1's exit contents; left with its arrays at what its
  pipeline leaves, every other buffer untouched.
-/
import proofs.«107956_j75110388073098_1_alg».proof.Proof.KIRegion2
import proofs.«107956_j75110388073098_1_alg».proof.Proof.KIWalk1

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 2 is entered from what region 1 left. -/
abbrev Wi2 : Dev nD → Valuation τ sig (Elt F) := Wo1 m ρ
theorem Wi2_main_arg0 (c : Dev nD) : Wi2 m ρ c (Proc.devRef .tc main_arg0) = m ((c : Thread nD τ).loc main_arg0) := Wo1_main_arg0 m ρ c
theorem Wi2_main_arg1 (c : Dev nD) : Wi2 m ρ c (Proc.devRef .tc main_arg1) = m ((c : Thread nD τ).loc main_arg1) := Wo1_main_arg1 m ρ c
theorem Wi2_main_arg2 (c : Dev nD) : Wi2 m ρ c (Proc.devRef .tc main_arg2) = m ((c : Thread nD τ).loc main_arg2) := Wo1_main_arg2 m ρ c
theorem Wi2_main_arg3 (c : Dev nD) : Wi2 m ρ c (Proc.devRef .tc main_arg3) = m ((c : Thread nD τ).loc main_arg3) := Wo1_main_arg3 m ρ c
theorem Wi2_main_arg4 (c : Dev nD) : Wi2 m ρ c (Proc.devRef .tc main_arg4) = m ((c : Thread nD τ).loc main_arg4) := Wo1_main_arg4 m ρ c

/-- The same read at the TensorCore's references (what region 2's proof data take). -/
abbrev Vi2 : (c : Dev nD) → (b : Ref sig .tc) → Buf (Elt F) ((c : Thread nD τ).loc b) := fun c b => Wi2 m ρ c b

/-- At region 2's exit: its arrays at what the pipeline leaves (the inputs as entered, each output's write-back),
    every other buffer as entered. -/
def Wo2 (c : Dev nD) : Valuation τ sig (Elt F) :=
  Pipeline.withArrays spec2 c (Wi2 m ρ c) fun w => (dat2 (Vi2 m ρ) c).arrAt w cfg2.N
theorem Wo2_arr (c : Dev nD) (w : Fin cfg2.W) :
    Wo2 m ρ c (Proc.devRef .tc (Pipeline.arrRef spec2 w)) = (dat2 (Vi2 m ρ) c).arrAt w cfg2.N := by
  unfold Wo2; exact Pipeline.withArrays_arr spec2 launch2.win.arr_inj c _ _ w
theorem Wo2_of_ne (c : Dev nD) (b : Ref sig .tc) (hb : ∀ w, Pipeline.arrRef spec2 w ≠ b) :
    Wo2 m ρ c (Proc.devRef .tc b) = Wi2 m ρ c (Proc.devRef .tc b) := by
  unfold Wo2; exact Pipeline.withArrays_of_ne spec2 c _ _ b hb
/-- A buffer that is no OUTPUT window's array leaves the region as it entered it: an input window's array is only
    read, and a buffer outside the windows is not touched. -/
theorem Wo2_keep (c : Dev nD) (b : Ref sig .tc) (hb : ∀ w, (cfg2.win w).isOut = true → Pipeline.arrRef spec2 w ≠ b) :
    Wo2 m ρ c (Proc.devRef .tc b) = Wi2 m ρ c (Proc.devRef .tc b) := by
  by_cases h : ∃ w, Pipeline.arrRef spec2 w = b
  · obtain ⟨w, rfl⟩ := h
    have hin : (cfg2.win w).isOut = false := by
      cases hw : (cfg2.win w).isOut
      · rfl
      · exact absurd rfl (hb w hw)
    exact (Wo2_arr m ρ c w).trans (((dat2 (Vi2 m ρ) c).arrAt_in w hin _).trans (A_eq2 (Vi2 m ρ) c w))
  · exact Wo2_of_ne m ρ c b fun w e => h ⟨w, e⟩
/-- The same read at the TensorCore's references (region 2's exit contents). -/
abbrev Vo2 : (c : Dev nD) → (b : Ref sig .tc) → Buf (Elt F) ((c : Thread nD τ).loc b) := fun c b => Wo2 m ρ c b
theorem hF2 (c : Dev nD) (w : Fin cfg2.W) : (dat2 (Vi2 m ρ) c).arrAt w cfg2.N = Vo2 m ρ c (Pipeline.arrRef spec2 w) :=
  (Wo2_arr m ρ c w).symm
theorem hrest2 (c : Dev nD) : ∀ b, b ∉ Finset.univ.image (Pipeline.arrRef spec2) → Vo2 m ρ c b = Vi2 m ρ c b :=
  fun b hb => Wo2_of_ne m ρ c b fun w e => hb (Finset.mem_image.mpr ⟨w, Finset.mem_univ _, e⟩)

/-- The arguments leave the region as launched: no region writes one. -/
theorem Wo2_main_arg0 (c : Dev nD) : Wo2 m ρ c (Proc.devRef .tc main_arg0) = m ((c : Thread nD τ).loc main_arg0) :=
  (Wo2_keep m ρ c main_arg0 (by decide)).trans (Wi2_main_arg0 m ρ c)
theorem Wo2_main_arg1 (c : Dev nD) : Wo2 m ρ c (Proc.devRef .tc main_arg1) = m ((c : Thread nD τ).loc main_arg1) :=
  (Wo2_keep m ρ c main_arg1 (by decide)).trans (Wi2_main_arg1 m ρ c)
theorem Wo2_main_arg2 (c : Dev nD) : Wo2 m ρ c (Proc.devRef .tc main_arg2) = m ((c : Thread nD τ).loc main_arg2) :=
  (Wo2_keep m ρ c main_arg2 (by decide)).trans (Wi2_main_arg2 m ρ c)
theorem Wo2_main_arg3 (c : Dev nD) : Wo2 m ρ c (Proc.devRef .tc main_arg3) = m ((c : Thread nD τ).loc main_arg3) :=
  (Wo2_keep m ρ c main_arg3 (by decide)).trans (Wi2_main_arg3 m ρ c)
theorem Wo2_main_arg4 (c : Dev nD) : Wo2 m ρ c (Proc.devRef .tc main_arg4) = m ((c : Thread nD τ).loc main_arg4) :=
  (Wo2_keep m ρ c main_arg4 (by decide)).trans (Wi2_main_arg4 m ρ c)

end Cert.KernelIdeal.Reg

end
-- ==== Proof.KIWalk3.lean ====
/-
  The buffers' contents around region 3: entered from region 2's exit contents; left with its arrays at what its
  pipeline leaves, every other buffer untouched.
-/
import proofs.«107956_j75110388073098_1_alg».proof.Proof.KIRegion3
import proofs.«107956_j75110388073098_1_alg».proof.Proof.KIWalk2

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 3 is entered from what region 2 left. -/
abbrev Wi3 : Dev nD → Valuation τ sig (Elt F) := Wo2 m ρ
theorem Wi3_main_arg0 (c : Dev nD) : Wi3 m ρ c (Proc.devRef .tc main_arg0) = m ((c : Thread nD τ).loc main_arg0) := Wo2_main_arg0 m ρ c
theorem Wi3_main_arg1 (c : Dev nD) : Wi3 m ρ c (Proc.devRef .tc main_arg1) = m ((c : Thread nD τ).loc main_arg1) := Wo2_main_arg1 m ρ c
theorem Wi3_main_arg2 (c : Dev nD) : Wi3 m ρ c (Proc.devRef .tc main_arg2) = m ((c : Thread nD τ).loc main_arg2) := Wo2_main_arg2 m ρ c
theorem Wi3_main_arg3 (c : Dev nD) : Wi3 m ρ c (Proc.devRef .tc main_arg3) = m ((c : Thread nD τ).loc main_arg3) := Wo2_main_arg3 m ρ c
theorem Wi3_main_arg4 (c : Dev nD) : Wi3 m ρ c (Proc.devRef .tc main_arg4) = m ((c : Thread nD τ).loc main_arg4) := Wo2_main_arg4 m ρ c

/-- The same read at the TensorCore's references (what region 3's proof data take). -/
abbrev Vi3 : (c : Dev nD) → (b : Ref sig .tc) → Buf (Elt F) ((c : Thread nD τ).loc b) := fun c b => Wi3 m ρ c b

/-- At region 3's exit: its arrays at what the pipeline leaves (the inputs as entered, each output's write-back),
    every other buffer as entered. -/
def Wo3 (c : Dev nD) : Valuation τ sig (Elt F) :=
  Pipeline.withArrays spec3 c (Wi3 m ρ c) fun w => (dat3 (Vi3 m ρ) c).arrAt w cfg3.N
theorem Wo3_arr (c : Dev nD) (w : Fin cfg3.W) :
    Wo3 m ρ c (Proc.devRef .tc (Pipeline.arrRef spec3 w)) = (dat3 (Vi3 m ρ) c).arrAt w cfg3.N := by
  unfold Wo3; exact Pipeline.withArrays_arr spec3 launch3.win.arr_inj c _ _ w
theorem Wo3_of_ne (c : Dev nD) (b : Ref sig .tc) (hb : ∀ w, Pipeline.arrRef spec3 w ≠ b) :
    Wo3 m ρ c (Proc.devRef .tc b) = Wi3 m ρ c (Proc.devRef .tc b) := by
  unfold Wo3; exact Pipeline.withArrays_of_ne spec3 c _ _ b hb
/-- A buffer that is no OUTPUT window's array leaves the region as it entered it: an input window's array is only
    read, and a buffer outside the windows is not touched. -/
theorem Wo3_keep (c : Dev nD) (b : Ref sig .tc) (hb : ∀ w, (cfg3.win w).isOut = true → Pipeline.arrRef spec3 w ≠ b) :
    Wo3 m ρ c (Proc.devRef .tc b) = Wi3 m ρ c (Proc.devRef .tc b) := by
  by_cases h : ∃ w, Pipeline.arrRef spec3 w = b
  · obtain ⟨w, rfl⟩ := h
    have hin : (cfg3.win w).isOut = false := by
      cases hw : (cfg3.win w).isOut
      · rfl
      · exact absurd rfl (hb w hw)
    exact (Wo3_arr m ρ c w).trans (((dat3 (Vi3 m ρ) c).arrAt_in w hin _).trans (A_eq3 (Vi3 m ρ) c w))
  · exact Wo3_of_ne m ρ c b fun w e => h ⟨w, e⟩
/-- The same read at the TensorCore's references (region 3's exit contents). -/
abbrev Vo3 : (c : Dev nD) → (b : Ref sig .tc) → Buf (Elt F) ((c : Thread nD τ).loc b) := fun c b => Wo3 m ρ c b
theorem hF3 (c : Dev nD) (w : Fin cfg3.W) : (dat3 (Vi3 m ρ) c).arrAt w cfg3.N = Vo3 m ρ c (Pipeline.arrRef spec3 w) :=
  (Wo3_arr m ρ c w).symm
theorem hrest3 (c : Dev nD) : ∀ b, b ∉ Finset.univ.image (Pipeline.arrRef spec3) → Vo3 m ρ c b = Vi3 m ρ c b :=
  fun b hb => Wo3_of_ne m ρ c b fun w e => hb (Finset.mem_image.mpr ⟨w, Finset.mem_univ _, e⟩)

/-- The arguments leave the region as launched: no region writes one. -/
theorem Wo3_main_arg0 (c : Dev nD) : Wo3 m ρ c (Proc.devRef .tc main_arg0) = m ((c : Thread nD τ).loc main_arg0) :=
  (Wo3_keep m ρ c main_arg0 (by decide)).trans (Wi3_main_arg0 m ρ c)
theorem Wo3_main_arg1 (c : Dev nD) : Wo3 m ρ c (Proc.devRef .tc main_arg1) = m ((c : Thread nD τ).loc main_arg1) :=
  (Wo3_keep m ρ c main_arg1 (by decide)).trans (Wi3_main_arg1 m ρ c)
theorem Wo3_main_arg2 (c : Dev nD) : Wo3 m ρ c (Proc.devRef .tc main_arg2) = m ((c : Thread nD τ).loc main_arg2) :=
  (Wo3_keep m ρ c main_arg2 (by decide)).trans (Wi3_main_arg2 m ρ c)
theorem Wo3_main_arg3 (c : Dev nD) : Wo3 m ρ c (Proc.devRef .tc main_arg3) = m ((c : Thread nD τ).loc main_arg3) :=
  (Wo3_keep m ρ c main_arg3 (by decide)).trans (Wi3_main_arg3 m ρ c)
theorem Wo3_main_arg4 (c : Dev nD) : Wo3 m ρ c (Proc.devRef .tc main_arg4) = m ((c : Thread nD τ).loc main_arg4) :=
  (Wo3_keep m ρ c main_arg4 (by decide)).trans (Wi3_main_arg4 m ρ c)

end Cert.KernelIdeal.Reg

end
-- ==== Proof.KIWalk4.lean ====
/-
  The buffers' contents around region 4: entered from region 3's exit contents; left with its arrays at what its
  pipeline leaves, every other buffer untouched.
-/
import proofs.«107956_j75110388073098_1_alg».proof.Proof.KIRegion4
import proofs.«107956_j75110388073098_1_alg».proof.Proof.KIWalk3

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 4 is entered from what region 3 left. -/
abbrev Wi4 : Dev nD → Valuation τ sig (Elt F) := Wo3 m ρ
theorem Wi4_main_arg0 (c : Dev nD) : Wi4 m ρ c (Proc.devRef .tc main_arg0) = m ((c : Thread nD τ).loc main_arg0) := Wo3_main_arg0 m ρ c
theorem Wi4_main_arg1 (c : Dev nD) : Wi4 m ρ c (Proc.devRef .tc main_arg1) = m ((c : Thread nD τ).loc main_arg1) := Wo3_main_arg1 m ρ c
theorem Wi4_main_arg2 (c : Dev nD) : Wi4 m ρ c (Proc.devRef .tc main_arg2) = m ((c : Thread nD τ).loc main_arg2) := Wo3_main_arg2 m ρ c
theorem Wi4_main_arg3 (c : Dev nD) : Wi4 m ρ c (Proc.devRef .tc main_arg3) = m ((c : Thread nD τ).loc main_arg3) := Wo3_main_arg3 m ρ c
theorem Wi4_main_arg4 (c : Dev nD) : Wi4 m ρ c (Proc.devRef .tc main_arg4) = m ((c : Thread nD τ).loc main_arg4) := Wo3_main_arg4 m ρ c

/-- The same read at the TensorCore's references (what region 4's proof data take). -/
abbrev Vi4 : (c : Dev nD) → (b : Ref sig .tc) → Buf (Elt F) ((c : Thread nD τ).loc b) := fun c b => Wi4 m ρ c b

/-- At region 4's exit: its arrays at what the pipeline leaves (the inputs as entered, each output's write-back),
    every other buffer as entered. -/
def Wo4 (c : Dev nD) : Valuation τ sig (Elt F) :=
  Pipeline.withArrays spec4 c (Wi4 m ρ c) fun w => (dat4 (Vi4 m ρ) c).arrAt w cfg4.N
theorem Wo4_arr (c : Dev nD) (w : Fin cfg4.W) :
    Wo4 m ρ c (Proc.devRef .tc (Pipeline.arrRef spec4 w)) = (dat4 (Vi4 m ρ) c).arrAt w cfg4.N := by
  unfold Wo4; exact Pipeline.withArrays_arr spec4 launch4.win.arr_inj c _ _ w
theorem Wo4_of_ne (c : Dev nD) (b : Ref sig .tc) (hb : ∀ w, Pipeline.arrRef spec4 w ≠ b) :
    Wo4 m ρ c (Proc.devRef .tc b) = Wi4 m ρ c (Proc.devRef .tc b) := by
  unfold Wo4; exact Pipeline.withArrays_of_ne spec4 c _ _ b hb
/-- A buffer that is no OUTPUT window's array leaves the region as it entered it: an input window's array is only
    read, and a buffer outside the windows is not touched. -/
theorem Wo4_keep (c : Dev nD) (b : Ref sig .tc) (hb : ∀ w, (cfg4.win w).isOut = true → Pipeline.arrRef spec4 w ≠ b) :
    Wo4 m ρ c (Proc.devRef .tc b) = Wi4 m ρ c (Proc.devRef .tc b) := by
  by_cases h : ∃ w, Pipeline.arrRef spec4 w = b
  · obtain ⟨w, rfl⟩ := h
    have hin : (cfg4.win w).isOut = false := by
      cases hw : (cfg4.win w).isOut
      · rfl
      · exact absurd rfl (hb w hw)
    exact (Wo4_arr m ρ c w).trans (((dat4 (Vi4 m ρ) c).arrAt_in w hin _).trans (A_eq4 (Vi4 m ρ) c w))
  · exact Wo4_of_ne m ρ c b fun w e => h ⟨w, e⟩
/-- The same read at the TensorCore's references (region 4's exit contents). -/
abbrev Vo4 : (c : Dev nD) → (b : Ref sig .tc) → Buf (Elt F) ((c : Thread nD τ).loc b) := fun c b => Wo4 m ρ c b
theorem hF4 (c : Dev nD) (w : Fin cfg4.W) : (dat4 (Vi4 m ρ) c).arrAt w cfg4.N = Vo4 m ρ c (Pipeline.arrRef spec4 w) :=
  (Wo4_arr m ρ c w).symm
theorem hrest4 (c : Dev nD) : ∀ b, b ∉ Finset.univ.image (Pipeline.arrRef spec4) → Vo4 m ρ c b = Vi4 m ρ c b :=
  fun b hb => Wo4_of_ne m ρ c b fun w e => hb (Finset.mem_image.mpr ⟨w, Finset.mem_univ _, e⟩)

/-- The arguments leave the region as launched: no region writes one. -/
theorem Wo4_main_arg0 (c : Dev nD) : Wo4 m ρ c (Proc.devRef .tc main_arg0) = m ((c : Thread nD τ).loc main_arg0) :=
  (Wo4_keep m ρ c main_arg0 (by decide)).trans (Wi4_main_arg0 m ρ c)
theorem Wo4_main_arg1 (c : Dev nD) : Wo4 m ρ c (Proc.devRef .tc main_arg1) = m ((c : Thread nD τ).loc main_arg1) :=
  (Wo4_keep m ρ c main_arg1 (by decide)).trans (Wi4_main_arg1 m ρ c)
theorem Wo4_main_arg2 (c : Dev nD) : Wo4 m ρ c (Proc.devRef .tc main_arg2) = m ((c : Thread nD τ).loc main_arg2) :=
  (Wo4_keep m ρ c main_arg2 (by decide)).trans (Wi4_main_arg2 m ρ c)
theorem Wo4_main_arg3 (c : Dev nD) : Wo4 m ρ c (Proc.devRef .tc main_arg3) = m ((c : Thread nD τ).loc main_arg3) :=
  (Wo4_keep m ρ c main_arg3 (by decide)).trans (Wi4_main_arg3 m ρ c)
theorem Wo4_main_arg4 (c : Dev nD) : Wo4 m ρ c (Proc.devRef .tc main_arg4) = m ((c : Thread nD τ).loc main_arg4) :=
  (Wo4_keep m ρ c main_arg4 (by decide)).trans (Wi4_main_arg4 m ρ c)

end Cert.KernelIdeal.Reg

end
-- ==== Proof.KIWalk5.lean ====
/-
  The buffers' contents around region 5: entered from region 4's exit contents; left with its arrays at what its
  pipeline leaves, every other buffer untouched.
-/
import proofs.«107956_j75110388073098_1_alg».proof.Proof.KIRegion5
import proofs.«107956_j75110388073098_1_alg».proof.Proof.KIWalk4

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 5 is entered from what region 4 left. -/
abbrev Wi5 : Dev nD → Valuation τ sig (Elt F) := Wo4 m ρ
theorem Wi5_main_arg0 (c : Dev nD) : Wi5 m ρ c (Proc.devRef .tc main_arg0) = m ((c : Thread nD τ).loc main_arg0) := Wo4_main_arg0 m ρ c
theorem Wi5_main_arg1 (c : Dev nD) : Wi5 m ρ c (Proc.devRef .tc main_arg1) = m ((c : Thread nD τ).loc main_arg1) := Wo4_main_arg1 m ρ c
theorem Wi5_main_arg2 (c : Dev nD) : Wi5 m ρ c (Proc.devRef .tc main_arg2) = m ((c : Thread nD τ).loc main_arg2) := Wo4_main_arg2 m ρ c
theorem Wi5_main_arg3 (c : Dev nD) : Wi5 m ρ c (Proc.devRef .tc main_arg3) = m ((c : Thread nD τ).loc main_arg3) := Wo4_main_arg3 m ρ c
theorem Wi5_main_arg4 (c : Dev nD) : Wi5 m ρ c (Proc.devRef .tc main_arg4) = m ((c : Thread nD τ).loc main_arg4) := Wo4_main_arg4 m ρ c

/-- The same read at the TensorCore's references (what region 5's proof data take). -/
abbrev Vi5 : (c : Dev nD) → (b : Ref sig .tc) → Buf (Elt F) ((c : Thread nD τ).loc b) := fun c b => Wi5 m ρ c b

/-- At region 5's exit: its arrays at what the pipeline leaves (the inputs as entered, each output's write-back),
    every other buffer as entered. -/
def Wo5 (c : Dev nD) : Valuation τ sig (Elt F) :=
  Pipeline.withArrays spec5 c (Wi5 m ρ c) fun w => (dat5 (Vi5 m ρ) c).arrAt w cfg5.N
theorem Wo5_arr (c : Dev nD) (w : Fin cfg5.W) :
    Wo5 m ρ c (Proc.devRef .tc (Pipeline.arrRef spec5 w)) = (dat5 (Vi5 m ρ) c).arrAt w cfg5.N := by
  unfold Wo5; exact Pipeline.withArrays_arr spec5 launch5.win.arr_inj c _ _ w
theorem Wo5_of_ne (c : Dev nD) (b : Ref sig .tc) (hb : ∀ w, Pipeline.arrRef spec5 w ≠ b) :
    Wo5 m ρ c (Proc.devRef .tc b) = Wi5 m ρ c (Proc.devRef .tc b) := by
  unfold Wo5; exact Pipeline.withArrays_of_ne spec5 c _ _ b hb
/-- A buffer that is no OUTPUT window's array leaves the region as it entered it: an input window's array is only
    read, and a buffer outside the windows is not touched. -/
theorem Wo5_keep (c : Dev nD) (b : Ref sig .tc) (hb : ∀ w, (cfg5.win w).isOut = true → Pipeline.arrRef spec5 w ≠ b) :
    Wo5 m ρ c (Proc.devRef .tc b) = Wi5 m ρ c (Proc.devRef .tc b) := by
  by_cases h : ∃ w, Pipeline.arrRef spec5 w = b
  · obtain ⟨w, rfl⟩ := h
    have hin : (cfg5.win w).isOut = false := by
      cases hw : (cfg5.win w).isOut
      · rfl
      · exact absurd rfl (hb w hw)
    exact (Wo5_arr m ρ c w).trans (((dat5 (Vi5 m ρ) c).arrAt_in w hin _).trans (A_eq5 (Vi5 m ρ) c w))
  · exact Wo5_of_ne m ρ c b fun w e => h ⟨w, e⟩
/-- The same read at the TensorCore's references (region 5's exit contents). -/
abbrev Vo5 : (c : Dev nD) → (b : Ref sig .tc) → Buf (Elt F) ((c : Thread nD τ).loc b) := fun c b => Wo5 m ρ c b
theorem hF5 (c : Dev nD) (w : Fin cfg5.W) : (dat5 (Vi5 m ρ) c).arrAt w cfg5.N = Vo5 m ρ c (Pipeline.arrRef spec5 w) :=
  (Wo5_arr m ρ c w).symm
theorem hrest5 (c : Dev nD) : ∀ b, b ∉ Finset.univ.image (Pipeline.arrRef spec5) → Vo5 m ρ c b = Vi5 m ρ c b :=
  fun b hb => Wo5_of_ne m ρ c b fun w e => hb (Finset.mem_image.mpr ⟨w, Finset.mem_univ _, e⟩)

/-- The arguments leave the region as launched: no region writes one. -/
theorem Wo5_main_arg0 (c : Dev nD) : Wo5 m ρ c (Proc.devRef .tc main_arg0) = m ((c : Thread nD τ).loc main_arg0) :=
  (Wo5_keep m ρ c main_arg0 (by decide)).trans (Wi5_main_arg0 m ρ c)
theorem Wo5_main_arg1 (c : Dev nD) : Wo5 m ρ c (Proc.devRef .tc main_arg1) = m ((c : Thread nD τ).loc main_arg1) :=
  (Wo5_keep m ρ c main_arg1 (by decide)).trans (Wi5_main_arg1 m ρ c)
theorem Wo5_main_arg2 (c : Dev nD) : Wo5 m ρ c (Proc.devRef .tc main_arg2) = m ((c : Thread nD τ).loc main_arg2) :=
  (Wo5_keep m ρ c main_arg2 (by decide)).trans (Wi5_main_arg2 m ρ c)
theorem Wo5_main_arg3 (c : Dev nD) : Wo5 m ρ c (Proc.devRef .tc main_arg3) = m ((c : Thread nD τ).loc main_arg3) :=
  (Wo5_keep m ρ c main_arg3 (by decide)).trans (Wi5_main_arg3 m ρ c)
theorem Wo5_main_arg4 (c : Dev nD) : Wo5 m ρ c (Proc.devRef .tc main_arg4) = m ((c : Thread nD τ).loc main_arg4) :=
  (Wo5_keep m ρ c main_arg4 (by decide)).trans (Wi5_main_arg4 m ρ c)

end Cert.KernelIdeal.Reg

end
-- ==== Proof.KIWalk6.lean ====
/-
  The buffers' contents around region 6: entered from region 5's exit contents; left with its arrays at what its
  pipeline leaves, every other buffer untouched.
-/
import proofs.«107956_j75110388073098_1_alg».proof.Proof.KIRegion6
import proofs.«107956_j75110388073098_1_alg».proof.Proof.KIWalk5

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 6 is entered from what region 5 left. -/
abbrev Wi6 : Dev nD → Valuation τ sig (Elt F) := Wo5 m ρ
theorem Wi6_main_arg0 (c : Dev nD) : Wi6 m ρ c (Proc.devRef .tc main_arg0) = m ((c : Thread nD τ).loc main_arg0) := Wo5_main_arg0 m ρ c
theorem Wi6_main_arg1 (c : Dev nD) : Wi6 m ρ c (Proc.devRef .tc main_arg1) = m ((c : Thread nD τ).loc main_arg1) := Wo5_main_arg1 m ρ c
theorem Wi6_main_arg2 (c : Dev nD) : Wi6 m ρ c (Proc.devRef .tc main_arg2) = m ((c : Thread nD τ).loc main_arg2) := Wo5_main_arg2 m ρ c
theorem Wi6_main_arg3 (c : Dev nD) : Wi6 m ρ c (Proc.devRef .tc main_arg3) = m ((c : Thread nD τ).loc main_arg3) := Wo5_main_arg3 m ρ c
theorem Wi6_main_arg4 (c : Dev nD) : Wi6 m ρ c (Proc.devRef .tc main_arg4) = m ((c : Thread nD τ).loc main_arg4) := Wo5_main_arg4 m ρ c

/-- The same read at the TensorCore's references (what region 6's proof data take). -/
abbrev Vi6 : (c : Dev nD) → (b : Ref sig .tc) → Buf (Elt F) ((c : Thread nD τ).loc b) := fun c b => Wi6 m ρ c b

/-- At region 6's exit: its arrays at what the pipeline leaves (the inputs as entered, each output's write-back),
    every other buffer as entered. -/
def Wo6 (c : Dev nD) : Valuation τ sig (Elt F) :=
  Pipeline.withArrays spec6 c (Wi6 m ρ c) fun w => (dat6 (Vi6 m ρ) c).arrAt w cfg6.N
theorem Wo6_arr (c : Dev nD) (w : Fin cfg6.W) :
    Wo6 m ρ c (Proc.devRef .tc (Pipeline.arrRef spec6 w)) = (dat6 (Vi6 m ρ) c).arrAt w cfg6.N := by
  unfold Wo6; exact Pipeline.withArrays_arr spec6 launch6.win.arr_inj c _ _ w
theorem Wo6_of_ne (c : Dev nD) (b : Ref sig .tc) (hb : ∀ w, Pipeline.arrRef spec6 w ≠ b) :
    Wo6 m ρ c (Proc.devRef .tc b) = Wi6 m ρ c (Proc.devRef .tc b) := by
  unfold Wo6; exact Pipeline.withArrays_of_ne spec6 c _ _ b hb
/-- A buffer that is no OUTPUT window's array leaves the region as it entered it: an input window's array is only
    read, and a buffer outside the windows is not touched. -/
theorem Wo6_keep (c : Dev nD) (b : Ref sig .tc) (hb : ∀ w, (cfg6.win w).isOut = true → Pipeline.arrRef spec6 w ≠ b) :
    Wo6 m ρ c (Proc.devRef .tc b) = Wi6 m ρ c (Proc.devRef .tc b) := by
  by_cases h : ∃ w, Pipeline.arrRef spec6 w = b
  · obtain ⟨w, rfl⟩ := h
    have hin : (cfg6.win w).isOut = false := by
      cases hw : (cfg6.win w).isOut
      · rfl
      · exact absurd rfl (hb w hw)
    exact (Wo6_arr m ρ c w).trans (((dat6 (Vi6 m ρ) c).arrAt_in w hin _).trans (A_eq6 (Vi6 m ρ) c w))
  · exact Wo6_of_ne m ρ c b fun w e => h ⟨w, e⟩
/-- The same read at the TensorCore's references (region 6's exit contents). -/
abbrev Vo6 : (c : Dev nD) → (b : Ref sig .tc) → Buf (Elt F) ((c : Thread nD τ).loc b) := fun c b => Wo6 m ρ c b
theorem hF6 (c : Dev nD) (w : Fin cfg6.W) : (dat6 (Vi6 m ρ) c).arrAt w cfg6.N = Vo6 m ρ c (Pipeline.arrRef spec6 w) :=
  (Wo6_arr m ρ c w).symm
theorem hrest6 (c : Dev nD) : ∀ b, b ∉ Finset.univ.image (Pipeline.arrRef spec6) → Vo6 m ρ c b = Vi6 m ρ c b :=
  fun b hb => Wo6_of_ne m ρ c b fun w e => hb (Finset.mem_image.mpr ⟨w, Finset.mem_univ _, e⟩)

/-- The arguments leave the region as launched: no region writes one. -/
theorem Wo6_main_arg0 (c : Dev nD) : Wo6 m ρ c (Proc.devRef .tc main_arg0) = m ((c : Thread nD τ).loc main_arg0) :=
  (Wo6_keep m ρ c main_arg0 (by decide)).trans (Wi6_main_arg0 m ρ c)
theorem Wo6_main_arg1 (c : Dev nD) : Wo6 m ρ c (Proc.devRef .tc main_arg1) = m ((c : Thread nD τ).loc main_arg1) :=
  (Wo6_keep m ρ c main_arg1 (by decide)).trans (Wi6_main_arg1 m ρ c)
theorem Wo6_main_arg2 (c : Dev nD) : Wo6 m ρ c (Proc.devRef .tc main_arg2) = m ((c : Thread nD τ).loc main_arg2) :=
  (Wo6_keep m ρ c main_arg2 (by decide)).trans (Wi6_main_arg2 m ρ c)
theorem Wo6_main_arg3 (c : Dev nD) : Wo6 m ρ c (Proc.devRef .tc main_arg3) = m ((c : Thread nD τ).loc main_arg3) :=
  (Wo6_keep m ρ c main_arg3 (by decide)).trans (Wi6_main_arg3 m ρ c)
theorem Wo6_main_arg4 (c : Dev nD) : Wo6 m ρ c (Proc.devRef .tc main_arg4) = m ((c : Thread nD τ).loc main_arg4) :=
  (Wo6_keep m ρ c main_arg4 (by decide)).trans (Wi6_main_arg4 m ρ c)

end Cert.KernelIdeal.Reg

end
-- ==== Proof.KIWalk7.lean ====
/-
  The buffers' contents around region 7: entered from region 6's exit contents; left with its arrays at what its
  pipeline leaves, every other buffer untouched.
-/
import proofs.«107956_j75110388073098_1_alg».proof.Proof.KIRegion7
import proofs.«107956_j75110388073098_1_alg».proof.Proof.KIWalk6

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 7 is entered from what region 6 left. -/
abbrev Wi7 : Dev nD → Valuation τ sig (Elt F) := Wo6 m ρ
theorem Wi7_main_arg0 (c : Dev nD) : Wi7 m ρ c (Proc.devRef .tc main_arg0) = m ((c : Thread nD τ).loc main_arg0) := Wo6_main_arg0 m ρ c
theorem Wi7_main_arg1 (c : Dev nD) : Wi7 m ρ c (Proc.devRef .tc main_arg1) = m ((c : Thread nD τ).loc main_arg1) := Wo6_main_arg1 m ρ c
theorem Wi7_main_arg2 (c : Dev nD) : Wi7 m ρ c (Proc.devRef .tc main_arg2) = m ((c : Thread nD τ).loc main_arg2) := Wo6_main_arg2 m ρ c
theorem Wi7_main_arg3 (c : Dev nD) : Wi7 m ρ c (Proc.devRef .tc main_arg3) = m ((c : Thread nD τ).loc main_arg3) := Wo6_main_arg3 m ρ c
theorem Wi7_main_arg4 (c : Dev nD) : Wi7 m ρ c (Proc.devRef .tc main_arg4) = m ((c : Thread nD τ).loc main_arg4) := Wo6_main_arg4 m ρ c

/-- The same read at the TensorCore's references (what region 7's proof data take). -/
abbrev Vi7 : (c : Dev nD) → (b : Ref sig .tc) → Buf (Elt F) ((c : Thread nD τ).loc b) := fun c b => Wi7 m ρ c b

/-- At region 7's exit: its arrays at what the pipeline leaves (the inputs as entered, each output's write-back),
    every other buffer as entered. -/
def Wo7 (c : Dev nD) : Valuation τ sig (Elt F) :=
  Pipeline.withArrays spec7 c (Wi7 m ρ c) fun w => (dat7 (Vi7 m ρ) c).arrAt w cfg7.N
theorem Wo7_arr (c : Dev nD) (w : Fin cfg7.W) :
    Wo7 m ρ c (Proc.devRef .tc (Pipeline.arrRef spec7 w)) = (dat7 (Vi7 m ρ) c).arrAt w cfg7.N := by
  unfold Wo7; exact Pipeline.withArrays_arr spec7 launch7.win.arr_inj c _ _ w
theorem Wo7_of_ne (c : Dev nD) (b : Ref sig .tc) (hb : ∀ w, Pipeline.arrRef spec7 w ≠ b) :
    Wo7 m ρ c (Proc.devRef .tc b) = Wi7 m ρ c (Proc.devRef .tc b) := by
  unfold Wo7; exact Pipeline.withArrays_of_ne spec7 c _ _ b hb
/-- A buffer that is no OUTPUT window's array leaves the region as it entered it: an input window's array is only
    read, and a buffer outside the windows is not touched. -/
theorem Wo7_keep (c : Dev nD) (b : Ref sig .tc) (hb : ∀ w, (cfg7.win w).isOut = true → Pipeline.arrRef spec7 w ≠ b) :
    Wo7 m ρ c (Proc.devRef .tc b) = Wi7 m ρ c (Proc.devRef .tc b) := by
  by_cases h : ∃ w, Pipeline.arrRef spec7 w = b
  · obtain ⟨w, rfl⟩ := h
    have hin : (cfg7.win w).isOut = false := by
      cases hw : (cfg7.win w).isOut
      · rfl
      · exact absurd rfl (hb w hw)
    exact (Wo7_arr m ρ c w).trans (((dat7 (Vi7 m ρ) c).arrAt_in w hin _).trans (A_eq7 (Vi7 m ρ) c w))
  · exact Wo7_of_ne m ρ c b fun w e => h ⟨w, e⟩
/-- The same read at the TensorCore's references (region 7's exit contents). -/
abbrev Vo7 : (c : Dev nD) → (b : Ref sig .tc) → Buf (Elt F) ((c : Thread nD τ).loc b) := fun c b => Wo7 m ρ c b
theorem hF7 (c : Dev nD) (w : Fin cfg7.W) : (dat7 (Vi7 m ρ) c).arrAt w cfg7.N = Vo7 m ρ c (Pipeline.arrRef spec7 w) :=
  (Wo7_arr m ρ c w).symm
theorem hrest7 (c : Dev nD) : ∀ b, b ∉ Finset.univ.image (Pipeline.arrRef spec7) → Vo7 m ρ c b = Vi7 m ρ c b :=
  fun b hb => Wo7_of_ne m ρ c b fun w e => hb (Finset.mem_image.mpr ⟨w, Finset.mem_univ _, e⟩)

/-- The arguments leave the region as launched: no region writes one. -/
theorem Wo7_main_arg0 (c : Dev nD) : Wo7 m ρ c (Proc.devRef .tc main_arg0) = m ((c : Thread nD τ).loc main_arg0) :=
  (Wo7_keep m ρ c main_arg0 (by decide)).trans (Wi7_main_arg0 m ρ c)
theorem Wo7_main_arg1 (c : Dev nD) : Wo7 m ρ c (Proc.devRef .tc main_arg1) = m ((c : Thread nD τ).loc main_arg1) :=
  (Wo7_keep m ρ c main_arg1 (by decide)).trans (Wi7_main_arg1 m ρ c)
theorem Wo7_main_arg2 (c : Dev nD) : Wo7 m ρ c (Proc.devRef .tc main_arg2) = m ((c : Thread nD τ).loc main_arg2) :=
  (Wo7_keep m ρ c main_arg2 (by decide)).trans (Wi7_main_arg2 m ρ c)
theorem Wo7_main_arg3 (c : Dev nD) : Wo7 m ρ c (Proc.devRef .tc main_arg3) = m ((c : Thread nD τ).loc main_arg3) :=
  (Wo7_keep m ρ c main_arg3 (by decide)).trans (Wi7_main_arg3 m ρ c)
theorem Wo7_main_arg4 (c : Dev nD) : Wo7 m ρ c (Proc.devRef .tc main_arg4) = m ((c : Thread nD τ).loc main_arg4) :=
  (Wo7_keep m ρ c main_arg4 (by decide)).trans (Wi7_main_arg4 m ρ c)

end Cert.KernelIdeal.Reg

end
-- ==== Proof.KIWalk8.lean ====
/-
  The buffers' contents around region 8: entered from region 7's exit contents; left with its arrays at what its
  pipeline leaves, every other buffer untouched.
-/
import proofs.«107956_j75110388073098_1_alg».proof.Proof.KIRegion8
import proofs.«107956_j75110388073098_1_alg».proof.Proof.KIWalk7

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 8 is entered from what region 7 left. -/
abbrev Wi8 : Dev nD → Valuation τ sig (Elt F) := Wo7 m ρ
theorem Wi8_main_arg0 (c : Dev nD) : Wi8 m ρ c (Proc.devRef .tc main_arg0) = m ((c : Thread nD τ).loc main_arg0) := Wo7_main_arg0 m ρ c
theorem Wi8_main_arg1 (c : Dev nD) : Wi8 m ρ c (Proc.devRef .tc main_arg1) = m ((c : Thread nD τ).loc main_arg1) := Wo7_main_arg1 m ρ c
theorem Wi8_main_arg2 (c : Dev nD) : Wi8 m ρ c (Proc.devRef .tc main_arg2) = m ((c : Thread nD τ).loc main_arg2) := Wo7_main_arg2 m ρ c
theorem Wi8_main_arg3 (c : Dev nD) : Wi8 m ρ c (Proc.devRef .tc main_arg3) = m ((c : Thread nD τ).loc main_arg3) := Wo7_main_arg3 m ρ c
theorem Wi8_main_arg4 (c : Dev nD) : Wi8 m ρ c (Proc.devRef .tc main_arg4) = m ((c : Thread nD τ).loc main_arg4) := Wo7_main_arg4 m ρ c

/-- The same read at the TensorCore's references (what region 8's proof data take). -/
abbrev Vi8 : (c : Dev nD) → (b : Ref sig .tc) → Buf (Elt F) ((c : Thread nD τ).loc b) := fun c b => Wi8 m ρ c b

/-- At region 8's exit: its arrays at what the pipeline leaves (the inputs as entered, each output's write-back),
    every other buffer as entered. -/
def Wo8 (c : Dev nD) : Valuation τ sig (Elt F) :=
  Pipeline.withArrays spec8 c (Wi8 m ρ c) fun w => (dat8 (Vi8 m ρ) c).arrAt w cfg8.N
theorem Wo8_arr (c : Dev nD) (w : Fin cfg8.W) :
    Wo8 m ρ c (Proc.devRef .tc (Pipeline.arrRef spec8 w)) = (dat8 (Vi8 m ρ) c).arrAt w cfg8.N := by
  unfold Wo8; exact Pipeline.withArrays_arr spec8 launch8.win.arr_inj c _ _ w
theorem Wo8_of_ne (c : Dev nD) (b : Ref sig .tc) (hb : ∀ w, Pipeline.arrRef spec8 w ≠ b) :
    Wo8 m ρ c (Proc.devRef .tc b) = Wi8 m ρ c (Proc.devRef .tc b) := by
  unfold Wo8; exact Pipeline.withArrays_of_ne spec8 c _ _ b hb
/-- A buffer that is no OUTPUT window's array leaves the region as it entered it: an input window's array is only
    read, and a buffer outside the windows is not touched. -/
theorem Wo8_keep (c : Dev nD) (b : Ref sig .tc) (hb : ∀ w, (cfg8.win w).isOut = true → Pipeline.arrRef spec8 w ≠ b) :
    Wo8 m ρ c (Proc.devRef .tc b) = Wi8 m ρ c (Proc.devRef .tc b) := by
  by_cases h : ∃ w, Pipeline.arrRef spec8 w = b
  · obtain ⟨w, rfl⟩ := h
    have hin : (cfg8.win w).isOut = false := by
      cases hw : (cfg8.win w).isOut
      · rfl
      · exact absurd rfl (hb w hw)
    exact (Wo8_arr m ρ c w).trans (((dat8 (Vi8 m ρ) c).arrAt_in w hin _).trans (A_eq8 (Vi8 m ρ) c w))
  · exact Wo8_of_ne m ρ c b fun w e => h ⟨w, e⟩
/-- The same read at the TensorCore's references (region 8's exit contents). -/
abbrev Vo8 : (c : Dev nD) → (b : Ref sig .tc) → Buf (Elt F) ((c : Thread nD τ).loc b) := fun c b => Wo8 m ρ c b
theorem hF8 (c : Dev nD) (w : Fin cfg8.W) : (dat8 (Vi8 m ρ) c).arrAt w cfg8.N = Vo8 m ρ c (Pipeline.arrRef spec8 w) :=
  (Wo8_arr m ρ c w).symm
theorem hrest8 (c : Dev nD) : ∀ b, b ∉ Finset.univ.image (Pipeline.arrRef spec8) → Vo8 m ρ c b = Vi8 m ρ c b :=
  fun b hb => Wo8_of_ne m ρ c b fun w e => hb (Finset.mem_image.mpr ⟨w, Finset.mem_univ _, e⟩)

/-- The arguments leave the region as launched: no region writes one. -/
theorem Wo8_main_arg0 (c : Dev nD) : Wo8 m ρ c (Proc.devRef .tc main_arg0) = m ((c : Thread nD τ).loc main_arg0) :=
  (Wo8_keep m ρ c main_arg0 (by decide)).trans (Wi8_main_arg0 m ρ c)
theorem Wo8_main_arg1 (c : Dev nD) : Wo8 m ρ c (Proc.devRef .tc main_arg1) = m ((c : Thread nD τ).loc main_arg1) :=
  (Wo8_keep m ρ c main_arg1 (by decide)).trans (Wi8_main_arg1 m ρ c)
theorem Wo8_main_arg2 (c : Dev nD) : Wo8 m ρ c (Proc.devRef .tc main_arg2) = m ((c : Thread nD τ).loc main_arg2) :=
  (Wo8_keep m ρ c main_arg2 (by decide)).trans (Wi8_main_arg2 m ρ c)
theorem Wo8_main_arg3 (c : Dev nD) : Wo8 m ρ c (Proc.devRef .tc main_arg3) = m ((c : Thread nD τ).loc main_arg3) :=
  (Wo8_keep m ρ c main_arg3 (by decide)).trans (Wi8_main_arg3 m ρ c)
theorem Wo8_main_arg4 (c : Dev nD) : Wo8 m ρ c (Proc.devRef .tc main_arg4) = m ((c : Thread nD τ).loc main_arg4) :=
  (Wo8_keep m ρ c main_arg4 (by decide)).trans (Wi8_main_arg4 m ρ c)

end Cert.KernelIdeal.Reg

end
-- ==== Proof.KIWalk9.lean ====
/-
  The buffers' contents around region 9: entered from region 8's exit contents; left with its arrays at what its
  pipeline leaves, every other buffer untouched.
-/
import proofs.«107956_j75110388073098_1_alg».proof.Proof.KIRegion9
import proofs.«107956_j75110388073098_1_alg».proof.Proof.KIWalk8

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 9 is entered from what region 8 left. -/
abbrev Wi9 : Dev nD → Valuation τ sig (Elt F) := Wo8 m ρ
theorem Wi9_main_arg0 (c : Dev nD) : Wi9 m ρ c (Proc.devRef .tc main_arg0) = m ((c : Thread nD τ).loc main_arg0) := Wo8_main_arg0 m ρ c
theorem Wi9_main_arg1 (c : Dev nD) : Wi9 m ρ c (Proc.devRef .tc main_arg1) = m ((c : Thread nD τ).loc main_arg1) := Wo8_main_arg1 m ρ c
theorem Wi9_main_arg2 (c : Dev nD) : Wi9 m ρ c (Proc.devRef .tc main_arg2) = m ((c : Thread nD τ).loc main_arg2) := Wo8_main_arg2 m ρ c
theorem Wi9_main_arg3 (c : Dev nD) : Wi9 m ρ c (Proc.devRef .tc main_arg3) = m ((c : Thread nD τ).loc main_arg3) := Wo8_main_arg3 m ρ c
theorem Wi9_main_arg4 (c : Dev nD) : Wi9 m ρ c (Proc.devRef .tc main_arg4) = m ((c : Thread nD τ).loc main_arg4) := Wo8_main_arg4 m ρ c

/-- The same read at the TensorCore's references (what region 9's proof data take). -/
abbrev Vi9 : (c : Dev nD) → (b : Ref sig .tc) → Buf (Elt F) ((c : Thread nD τ).loc b) := fun c b => Wi9 m ρ c b

/-- At region 9's exit: its arrays at what the pipeline leaves (the inputs as entered, each output's write-back),
    every other buffer as entered. -/
def Wo9 (c : Dev nD) : Valuation τ sig (Elt F) :=
  Pipeline.withArrays spec9 c (Wi9 m ρ c) fun w => (dat9 (Vi9 m ρ) c).arrAt w cfg9.N
theorem Wo9_arr (c : Dev nD) (w : Fin cfg9.W) :
    Wo9 m ρ c (Proc.devRef .tc (Pipeline.arrRef spec9 w)) = (dat9 (Vi9 m ρ) c).arrAt w cfg9.N := by
  unfold Wo9; exact Pipeline.withArrays_arr spec9 launch9.win.arr_inj c _ _ w
theorem Wo9_of_ne (c : Dev nD) (b : Ref sig .tc) (hb : ∀ w, Pipeline.arrRef spec9 w ≠ b) :
    Wo9 m ρ c (Proc.devRef .tc b) = Wi9 m ρ c (Proc.devRef .tc b) := by
  unfold Wo9; exact Pipeline.withArrays_of_ne spec9 c _ _ b hb
/-- A buffer that is no OUTPUT window's array leaves the region as it entered it: an input window's array is only
    read, and a buffer outside the windows is not touched. -/
theorem Wo9_keep (c : Dev nD) (b : Ref sig .tc) (hb : ∀ w, (cfg9.win w).isOut = true → Pipeline.arrRef spec9 w ≠ b) :
    Wo9 m ρ c (Proc.devRef .tc b) = Wi9 m ρ c (Proc.devRef .tc b) := by
  by_cases h : ∃ w, Pipeline.arrRef spec9 w = b
  · obtain ⟨w, rfl⟩ := h
    have hin : (cfg9.win w).isOut = false := by
      cases hw : (cfg9.win w).isOut
      · rfl
      · exact absurd rfl (hb w hw)
    exact (Wo9_arr m ρ c w).trans (((dat9 (Vi9 m ρ) c).arrAt_in w hin _).trans (A_eq9 (Vi9 m ρ) c w))
  · exact Wo9_of_ne m ρ c b fun w e => h ⟨w, e⟩
/-- The same read at the TensorCore's references (region 9's exit contents). -/
abbrev Vo9 : (c : Dev nD) → (b : Ref sig .tc) → Buf (Elt F) ((c : Thread nD τ).loc b) := fun c b => Wo9 m ρ c b
theorem hF9 (c : Dev nD) (w : Fin cfg9.W) : (dat9 (Vi9 m ρ) c).arrAt w cfg9.N = Vo9 m ρ c (Pipeline.arrRef spec9 w) :=
  (Wo9_arr m ρ c w).symm
theorem hrest9 (c : Dev nD) : ∀ b, b ∉ Finset.univ.image (Pipeline.arrRef spec9) → Vo9 m ρ c b = Vi9 m ρ c b :=
  fun b hb => Wo9_of_ne m ρ c b fun w e => hb (Finset.mem_image.mpr ⟨w, Finset.mem_univ _, e⟩)

/-- The arguments leave the region as launched: no region writes one. -/
theorem Wo9_main_arg0 (c : Dev nD) : Wo9 m ρ c (Proc.devRef .tc main_arg0) = m ((c : Thread nD τ).loc main_arg0) :=
  (Wo9_keep m ρ c main_arg0 (by decide)).trans (Wi9_main_arg0 m ρ c)
theorem Wo9_main_arg1 (c : Dev nD) : Wo9 m ρ c (Proc.devRef .tc main_arg1) = m ((c : Thread nD τ).loc main_arg1) :=
  (Wo9_keep m ρ c main_arg1 (by decide)).trans (Wi9_main_arg1 m ρ c)
theorem Wo9_main_arg2 (c : Dev nD) : Wo9 m ρ c (Proc.devRef .tc main_arg2) = m ((c : Thread nD τ).loc main_arg2) :=
  (Wo9_keep m ρ c main_arg2 (by decide)).trans (Wi9_main_arg2 m ρ c)
theorem Wo9_main_arg3 (c : Dev nD) : Wo9 m ρ c (Proc.devRef .tc main_arg3) = m ((c : Thread nD τ).loc main_arg3) :=
  (Wo9_keep m ρ c main_arg3 (by decide)).trans (Wi9_main_arg3 m ρ c)
theorem Wo9_main_arg4 (c : Dev nD) : Wo9 m ρ c (Proc.devRef .tc main_arg4) = m ((c : Thread nD τ).loc main_arg4) :=
  (Wo9_keep m ρ c main_arg4 (by decide)).trans (Wi9_main_arg4 m ρ c)

end Cert.KernelIdeal.Reg

end
-- ==== Proof.KIWalk10.lean ====
/-
  The buffers' contents around region 10: entered from region 9's exit contents; left with its arrays at what its
  pipeline leaves, every other buffer untouched.
-/
import proofs.«107956_j75110388073098_1_alg».proof.Proof.KIRegion10
import proofs.«107956_j75110388073098_1_alg».proof.Proof.KIWalk9

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 10 is entered from what region 9 left. -/
abbrev Wi10 : Dev nD → Valuation τ sig (Elt F) := Wo9 m ρ
theorem Wi10_main_arg0 (c : Dev nD) : Wi10 m ρ c (Proc.devRef .tc main_arg0) = m ((c : Thread nD τ).loc main_arg0) := Wo9_main_arg0 m ρ c
theorem Wi10_main_arg1 (c : Dev nD) : Wi10 m ρ c (Proc.devRef .tc main_arg1) = m ((c : Thread nD τ).loc main_arg1) := Wo9_main_arg1 m ρ c
theorem Wi10_main_arg2 (c : Dev nD) : Wi10 m ρ c (Proc.devRef .tc main_arg2) = m ((c : Thread nD τ).loc main_arg2) := Wo9_main_arg2 m ρ c
theorem Wi10_main_arg3 (c : Dev nD) : Wi10 m ρ c (Proc.devRef .tc main_arg3) = m ((c : Thread nD τ).loc main_arg3) := Wo9_main_arg3 m ρ c
theorem Wi10_main_arg4 (c : Dev nD) : Wi10 m ρ c (Proc.devRef .tc main_arg4) = m ((c : Thread nD τ).loc main_arg4) := Wo9_main_arg4 m ρ c

/-- The same read at the TensorCore's references (what region 10's proof data take). -/
abbrev Vi10 : (c : Dev nD) → (b : Ref sig .tc) → Buf (Elt F) ((c : Thread nD τ).loc b) := fun c b => Wi10 m ρ c b

/-- At region 10's exit: its arrays at what the pipeline leaves (the inputs as entered, each output's write-back),
    every other buffer as entered. -/
def Wo10 (c : Dev nD) : Valuation τ sig (Elt F) :=
  Pipeline.withArrays spec10 c (Wi10 m ρ c) fun w => (dat10 (Vi10 m ρ) c).arrAt w cfg10.N
theorem Wo10_arr (c : Dev nD) (w : Fin cfg10.W) :
    Wo10 m ρ c (Proc.devRef .tc (Pipeline.arrRef spec10 w)) = (dat10 (Vi10 m ρ) c).arrAt w cfg10.N := by
  unfold Wo10; exact Pipeline.withArrays_arr spec10 launch10.win.arr_inj c _ _ w
theorem Wo10_of_ne (c : Dev nD) (b : Ref sig .tc) (hb : ∀ w, Pipeline.arrRef spec10 w ≠ b) :
    Wo10 m ρ c (Proc.devRef .tc b) = Wi10 m ρ c (Proc.devRef .tc b) := by
  unfold Wo10; exact Pipeline.withArrays_of_ne spec10 c _ _ b hb
/-- A buffer that is no OUTPUT window's array leaves the region as it entered it: an input window's array is only
    read, and a buffer outside the windows is not touched. -/
theorem Wo10_keep (c : Dev nD) (b : Ref sig .tc) (hb : ∀ w, (cfg10.win w).isOut = true → Pipeline.arrRef spec10 w ≠ b) :
    Wo10 m ρ c (Proc.devRef .tc b) = Wi10 m ρ c (Proc.devRef .tc b) := by
  by_cases h : ∃ w, Pipeline.arrRef spec10 w = b
  · obtain ⟨w, rfl⟩ := h
    have hin : (cfg10.win w).isOut = false := by
      cases hw : (cfg10.win w).isOut
      · rfl
      · exact absurd rfl (hb w hw)
    exact (Wo10_arr m ρ c w).trans (((dat10 (Vi10 m ρ) c).arrAt_in w hin _).trans (A_eq10 (Vi10 m ρ) c w))
  · exact Wo10_of_ne m ρ c b fun w e => h ⟨w, e⟩
/-- The same read at the TensorCore's references (region 10's exit contents). -/
abbrev Vo10 : (c : Dev nD) → (b : Ref sig .tc) → Buf (Elt F) ((c : Thread nD τ).loc b) := fun c b => Wo10 m ρ c b
theorem hF10 (c : Dev nD) (w : Fin cfg10.W) : (dat10 (Vi10 m ρ) c).arrAt w cfg10.N = Vo10 m ρ c (Pipeline.arrRef spec10 w) :=
  (Wo10_arr m ρ c w).symm
theorem hrest10 (c : Dev nD) : ∀ b, b ∉ Finset.univ.image (Pipeline.arrRef spec10) → Vo10 m ρ c b = Vi10 m ρ c b :=
  fun b hb => Wo10_of_ne m ρ c b fun w e => hb (Finset.mem_image.mpr ⟨w, Finset.mem_univ _, e⟩)

/-- The arguments leave the region as launched: no region writes one. -/
theorem Wo10_main_arg0 (c : Dev nD) : Wo10 m ρ c (Proc.devRef .tc main_arg0) = m ((c : Thread nD τ).loc main_arg0) :=
  (Wo10_keep m ρ c main_arg0 (by decide)).trans (Wi10_main_arg0 m ρ c)
theorem Wo10_main_arg1 (c : Dev nD) : Wo10 m ρ c (Proc.devRef .tc main_arg1) = m ((c : Thread nD τ).loc main_arg1) :=
  (Wo10_keep m ρ c main_arg1 (by decide)).trans (Wi10_main_arg1 m ρ c)
theorem Wo10_main_arg2 (c : Dev nD) : Wo10 m ρ c (Proc.devRef .tc main_arg2) = m ((c : Thread nD τ).loc main_arg2) :=
  (Wo10_keep m ρ c main_arg2 (by decide)).trans (Wi10_main_arg2 m ρ c)
theorem Wo10_main_arg3 (c : Dev nD) : Wo10 m ρ c (Proc.devRef .tc main_arg3) = m ((c : Thread nD τ).loc main_arg3) :=
  (Wo10_keep m ρ c main_arg3 (by decide)).trans (Wi10_main_arg3 m ρ c)
theorem Wo10_main_arg4 (c : Dev nD) : Wo10 m ρ c (Proc.devRef .tc main_arg4) = m ((c : Thread nD τ).loc main_arg4) :=
  (Wo10_keep m ρ c main_arg4 (by decide)).trans (Wi10_main_arg4 m ρ c)

end Cert.KernelIdeal.Reg

end
-- ==== Proof.KIWalk11.lean ====
/-
  The buffers' contents around region 11: entered from region 10's exit contents; left with its arrays at what its
  pipeline leaves, every other buffer untouched.
-/
import proofs.«107956_j75110388073098_1_alg».proof.Proof.KIRegion11
import proofs.«107956_j75110388073098_1_alg».proof.Proof.KIWalk10

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 11 is entered from what region 10 left. -/
abbrev Wi11 : Dev nD → Valuation τ sig (Elt F) := Wo10 m ρ
theorem Wi11_main_arg0 (c : Dev nD) : Wi11 m ρ c (Proc.devRef .tc main_arg0) = m ((c : Thread nD τ).loc main_arg0) := Wo10_main_arg0 m ρ c
theorem Wi11_main_arg1 (c : Dev nD) : Wi11 m ρ c (Proc.devRef .tc main_arg1) = m ((c : Thread nD τ).loc main_arg1) := Wo10_main_arg1 m ρ c
theorem Wi11_main_arg2 (c : Dev nD) : Wi11 m ρ c (Proc.devRef .tc main_arg2) = m ((c : Thread nD τ).loc main_arg2) := Wo10_main_arg2 m ρ c
theorem Wi11_main_arg3 (c : Dev nD) : Wi11 m ρ c (Proc.devRef .tc main_arg3) = m ((c : Thread nD τ).loc main_arg3) := Wo10_main_arg3 m ρ c
theorem Wi11_main_arg4 (c : Dev nD) : Wi11 m ρ c (Proc.devRef .tc main_arg4) = m ((c : Thread nD τ).loc main_arg4) := Wo10_main_arg4 m ρ c

/-- The same read at the TensorCore's references (what region 11's proof data take). -/
abbrev Vi11 : (c : Dev nD) → (b : Ref sig .tc) → Buf (Elt F) ((c : Thread nD τ).loc b) := fun c b => Wi11 m ρ c b

/-- At region 11's exit: its arrays at what the pipeline leaves (the inputs as entered, each output's write-back),
    every other buffer as entered. -/
def Wo11 (c : Dev nD) : Valuation τ sig (Elt F) :=
  Pipeline.withArrays spec11 c (Wi11 m ρ c) fun w => (dat11 (Vi11 m ρ) c).arrAt w cfg11.N
theorem Wo11_arr (c : Dev nD) (w : Fin cfg11.W) :
    Wo11 m ρ c (Proc.devRef .tc (Pipeline.arrRef spec11 w)) = (dat11 (Vi11 m ρ) c).arrAt w cfg11.N := by
  unfold Wo11; exact Pipeline.withArrays_arr spec11 launch11.win.arr_inj c _ _ w
theorem Wo11_of_ne (c : Dev nD) (b : Ref sig .tc) (hb : ∀ w, Pipeline.arrRef spec11 w ≠ b) :
    Wo11 m ρ c (Proc.devRef .tc b) = Wi11 m ρ c (Proc.devRef .tc b) := by
  unfold Wo11; exact Pipeline.withArrays_of_ne spec11 c _ _ b hb
/-- A buffer that is no OUTPUT window's array leaves the region as it entered it: an input window's array is only
    read, and a buffer outside the windows is not touched. -/
theorem Wo11_keep (c : Dev nD) (b : Ref sig .tc) (hb : ∀ w, (cfg11.win w).isOut = true → Pipeline.arrRef spec11 w ≠ b) :
    Wo11 m ρ c (Proc.devRef .tc b) = Wi11 m ρ c (Proc.devRef .tc b) := by
  by_cases h : ∃ w, Pipeline.arrRef spec11 w = b
  · obtain ⟨w, rfl⟩ := h
    have hin : (cfg11.win w).isOut = false := by
      cases hw : (cfg11.win w).isOut
      · rfl
      · exact absurd rfl (hb w hw)
    exact (Wo11_arr m ρ c w).trans (((dat11 (Vi11 m ρ) c).arrAt_in w hin _).trans (A_eq11 (Vi11 m ρ) c w))
  · exact Wo11_of_ne m ρ c b fun w e => h ⟨w, e⟩
/-- The same read at the TensorCore's references (region 11's exit contents). -/
abbrev Vo11 : (c : Dev nD) → (b : Ref sig .tc) → Buf (Elt F) ((c : Thread nD τ).loc b) := fun c b => Wo11 m ρ c b
theorem hF11 (c : Dev nD) (w : Fin cfg11.W) : (dat11 (Vi11 m ρ) c).arrAt w cfg11.N = Vo11 m ρ c (Pipeline.arrRef spec11 w) :=
  (Wo11_arr m ρ c w).symm
theorem hrest11 (c : Dev nD) : ∀ b, b ∉ Finset.univ.image (Pipeline.arrRef spec11) → Vo11 m ρ c b = Vi11 m ρ c b :=
  fun b hb => Wo11_of_ne m ρ c b fun w e => hb (Finset.mem_image.mpr ⟨w, Finset.mem_univ _, e⟩)

/-- The arguments leave the region as launched: no region writes one. -/
theorem Wo11_main_arg0 (c : Dev nD) : Wo11 m ρ c (Proc.devRef .tc main_arg0) = m ((c : Thread nD τ).loc main_arg0) :=
  (Wo11_keep m ρ c main_arg0 (by decide)).trans (Wi11_main_arg0 m ρ c)
theorem Wo11_main_arg1 (c : Dev nD) : Wo11 m ρ c (Proc.devRef .tc main_arg1) = m ((c : Thread nD τ).loc main_arg1) :=
  (Wo11_keep m ρ c main_arg1 (by decide)).trans (Wi11_main_arg1 m ρ c)
theorem Wo11_main_arg2 (c : Dev nD) : Wo11 m ρ c (Proc.devRef .tc main_arg2) = m ((c : Thread nD τ).loc main_arg2) :=
  (Wo11_keep m ρ c main_arg2 (by decide)).trans (Wi11_main_arg2 m ρ c)
theorem Wo11_main_arg3 (c : Dev nD) : Wo11 m ρ c (Proc.devRef .tc main_arg3) = m ((c : Thread nD τ).loc main_arg3) :=
  (Wo11_keep m ρ c main_arg3 (by decide)).trans (Wi11_main_arg3 m ρ c)
theorem Wo11_main_arg4 (c : Dev nD) : Wo11 m ρ c (Proc.devRef .tc main_arg4) = m ((c : Thread nD τ).loc main_arg4) :=
  (Wo11_keep m ρ c main_arg4 (by decide)).trans (Wi11_main_arg4 m ρ c)

end Cert.KernelIdeal.Reg

end
-- ==== Proof.KIWalk12.lean ====
/-
  The buffers' contents around region 12: entered from region 11's exit contents; left with its arrays at what its
  pipeline leaves, every other buffer untouched.
-/
import proofs.«107956_j75110388073098_1_alg».proof.Proof.KIRegion12
import proofs.«107956_j75110388073098_1_alg».proof.Proof.KIWalk11

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 12 is entered from what region 11 left. -/
abbrev Wi12 : Dev nD → Valuation τ sig (Elt F) := Wo11 m ρ
theorem Wi12_main_arg0 (c : Dev nD) : Wi12 m ρ c (Proc.devRef .tc main_arg0) = m ((c : Thread nD τ).loc main_arg0) := Wo11_main_arg0 m ρ c
theorem Wi12_main_arg1 (c : Dev nD) : Wi12 m ρ c (Proc.devRef .tc main_arg1) = m ((c : Thread nD τ).loc main_arg1) := Wo11_main_arg1 m ρ c
theorem Wi12_main_arg2 (c : Dev nD) : Wi12 m ρ c (Proc.devRef .tc main_arg2) = m ((c : Thread nD τ).loc main_arg2) := Wo11_main_arg2 m ρ c
theorem Wi12_main_arg3 (c : Dev nD) : Wi12 m ρ c (Proc.devRef .tc main_arg3) = m ((c : Thread nD τ).loc main_arg3) := Wo11_main_arg3 m ρ c
theorem Wi12_main_arg4 (c : Dev nD) : Wi12 m ρ c (Proc.devRef .tc main_arg4) = m ((c : Thread nD τ).loc main_arg4) := Wo11_main_arg4 m ρ c

/-- The same read at the TensorCore's references (what region 12's proof data take). -/
abbrev Vi12 : (c : Dev nD) → (b : Ref sig .tc) → Buf (Elt F) ((c : Thread nD τ).loc b) := fun c b => Wi12 m ρ c b

/-- At region 12's exit: its arrays at what the pipeline leaves (the inputs as entered, each output's write-back),
    every other buffer as entered. -/
def Wo12 (c : Dev nD) : Valuation τ sig (Elt F) :=
  Pipeline.withArrays spec12 c (Wi12 m ρ c) fun w => (dat12 (Vi12 m ρ) c).arrAt w cfg12.N
theorem Wo12_arr (c : Dev nD) (w : Fin cfg12.W) :
    Wo12 m ρ c (Proc.devRef .tc (Pipeline.arrRef spec12 w)) = (dat12 (Vi12 m ρ) c).arrAt w cfg12.N := by
  unfold Wo12; exact Pipeline.withArrays_arr spec12 launch12.win.arr_inj c _ _ w
theorem Wo12_of_ne (c : Dev nD) (b : Ref sig .tc) (hb : ∀ w, Pipeline.arrRef spec12 w ≠ b) :
    Wo12 m ρ c (Proc.devRef .tc b) = Wi12 m ρ c (Proc.devRef .tc b) := by
  unfold Wo12; exact Pipeline.withArrays_of_ne spec12 c _ _ b hb
/-- A buffer that is no OUTPUT window's array leaves the region as it entered it: an input window's array is only
    read, and a buffer outside the windows is not touched. -/
theorem Wo12_keep (c : Dev nD) (b : Ref sig .tc) (hb : ∀ w, (cfg12.win w).isOut = true → Pipeline.arrRef spec12 w ≠ b) :
    Wo12 m ρ c (Proc.devRef .tc b) = Wi12 m ρ c (Proc.devRef .tc b) := by
  by_cases h : ∃ w, Pipeline.arrRef spec12 w = b
  · obtain ⟨w, rfl⟩ := h
    have hin : (cfg12.win w).isOut = false := by
      cases hw : (cfg12.win w).isOut
      · rfl
      · exact absurd rfl (hb w hw)
    exact (Wo12_arr m ρ c w).trans (((dat12 (Vi12 m ρ) c).arrAt_in w hin _).trans (A_eq12 (Vi12 m ρ) c w))
  · exact Wo12_of_ne m ρ c b fun w e => h ⟨w, e⟩
/-- The same read at the TensorCore's references (region 12's exit contents). -/
abbrev Vo12 : (c : Dev nD) → (b : Ref sig .tc) → Buf (Elt F) ((c : Thread nD τ).loc b) := fun c b => Wo12 m ρ c b
theorem hF12 (c : Dev nD) (w : Fin cfg12.W) : (dat12 (Vi12 m ρ) c).arrAt w cfg12.N = Vo12 m ρ c (Pipeline.arrRef spec12 w) :=
  (Wo12_arr m ρ c w).symm
theorem hrest12 (c : Dev nD) : ∀ b, b ∉ Finset.univ.image (Pipeline.arrRef spec12) → Vo12 m ρ c b = Vi12 m ρ c b :=
  fun b hb => Wo12_of_ne m ρ c b fun w e => hb (Finset.mem_image.mpr ⟨w, Finset.mem_univ _, e⟩)

/-- The arguments leave the region as launched: no region writes one. -/
theorem Wo12_main_arg0 (c : Dev nD) : Wo12 m ρ c (Proc.devRef .tc main_arg0) = m ((c : Thread nD τ).loc main_arg0) :=
  (Wo12_keep m ρ c main_arg0 (by decide)).trans (Wi12_main_arg0 m ρ c)
theorem Wo12_main_arg1 (c : Dev nD) : Wo12 m ρ c (Proc.devRef .tc main_arg1) = m ((c : Thread nD τ).loc main_arg1) :=
  (Wo12_keep m ρ c main_arg1 (by decide)).trans (Wi12_main_arg1 m ρ c)
theorem Wo12_main_arg2 (c : Dev nD) : Wo12 m ρ c (Proc.devRef .tc main_arg2) = m ((c : Thread nD τ).loc main_arg2) :=
  (Wo12_keep m ρ c main_arg2 (by decide)).trans (Wi12_main_arg2 m ρ c)
theorem Wo12_main_arg3 (c : Dev nD) : Wo12 m ρ c (Proc.devRef .tc main_arg3) = m ((c : Thread nD τ).loc main_arg3) :=
  (Wo12_keep m ρ c main_arg3 (by decide)).trans (Wi12_main_arg3 m ρ c)
theorem Wo12_main_arg4 (c : Dev nD) : Wo12 m ρ c (Proc.devRef .tc main_arg4) = m ((c : Thread nD τ).loc main_arg4) :=
  (Wo12_keep m ρ c main_arg4 (by decide)).trans (Wi12_main_arg4 m ρ c)

end Cert.KernelIdeal.Reg

end
-- ==== Proof.KIWalk13.lean ====
/-
  The buffers' contents around region 13: entered from region 12's exit contents; left with its arrays at what its
  pipeline leaves, every other buffer untouched.
-/
import proofs.«107956_j75110388073098_1_alg».proof.Proof.KIRegion13
import proofs.«107956_j75110388073098_1_alg».proof.Proof.KIWalk12

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 13 is entered from what region 12 left. -/
abbrev Wi13 : Dev nD → Valuation τ sig (Elt F) := Wo12 m ρ
theorem Wi13_main_arg0 (c : Dev nD) : Wi13 m ρ c (Proc.devRef .tc main_arg0) = m ((c : Thread nD τ).loc main_arg0) := Wo12_main_arg0 m ρ c
theorem Wi13_main_arg1 (c : Dev nD) : Wi13 m ρ c (Proc.devRef .tc main_arg1) = m ((c : Thread nD τ).loc main_arg1) := Wo12_main_arg1 m ρ c
theorem Wi13_main_arg2 (c : Dev nD) : Wi13 m ρ c (Proc.devRef .tc main_arg2) = m ((c : Thread nD τ).loc main_arg2) := Wo12_main_arg2 m ρ c
theorem Wi13_main_arg3 (c : Dev nD) : Wi13 m ρ c (Proc.devRef .tc main_arg3) = m ((c : Thread nD τ).loc main_arg3) := Wo12_main_arg3 m ρ c
theorem Wi13_main_arg4 (c : Dev nD) : Wi13 m ρ c (Proc.devRef .tc main_arg4) = m ((c : Thread nD τ).loc main_arg4) := Wo12_main_arg4 m ρ c

/-- The same read at the TensorCore's references (what region 13's proof data take). -/
abbrev Vi13 : (c : Dev nD) → (b : Ref sig .tc) → Buf (Elt F) ((c : Thread nD τ).loc b) := fun c b => Wi13 m ρ c b

/-- At region 13's exit: its arrays at what the pipeline leaves (the inputs as entered, each output's write-back),
    every other buffer as entered. -/
def Wo13 (c : Dev nD) : Valuation τ sig (Elt F) :=
  Pipeline.withArrays spec13 c (Wi13 m ρ c) fun w => (dat13 (Vi13 m ρ) c).arrAt w cfg13.N
theorem Wo13_arr (c : Dev nD) (w : Fin cfg13.W) :
    Wo13 m ρ c (Proc.devRef .tc (Pipeline.arrRef spec13 w)) = (dat13 (Vi13 m ρ) c).arrAt w cfg13.N := by
  unfold Wo13; exact Pipeline.withArrays_arr spec13 launch13.win.arr_inj c _ _ w
theorem Wo13_of_ne (c : Dev nD) (b : Ref sig .tc) (hb : ∀ w, Pipeline.arrRef spec13 w ≠ b) :
    Wo13 m ρ c (Proc.devRef .tc b) = Wi13 m ρ c (Proc.devRef .tc b) := by
  unfold Wo13; exact Pipeline.withArrays_of_ne spec13 c _ _ b hb
/-- A buffer that is no OUTPUT window's array leaves the region as it entered it: an input window's array is only
    read, and a buffer outside the windows is not touched. -/
theorem Wo13_keep (c : Dev nD) (b : Ref sig .tc) (hb : ∀ w, (cfg13.win w).isOut = true → Pipeline.arrRef spec13 w ≠ b) :
    Wo13 m ρ c (Proc.devRef .tc b) = Wi13 m ρ c (Proc.devRef .tc b) := by
  by_cases h : ∃ w, Pipeline.arrRef spec13 w = b
  · obtain ⟨w, rfl⟩ := h
    have hin : (cfg13.win w).isOut = false := by
      cases hw : (cfg13.win w).isOut
      · rfl
      · exact absurd rfl (hb w hw)
    exact (Wo13_arr m ρ c w).trans (((dat13 (Vi13 m ρ) c).arrAt_in w hin _).trans (A_eq13 (Vi13 m ρ) c w))
  · exact Wo13_of_ne m ρ c b fun w e => h ⟨w, e⟩
/-- The same read at the TensorCore's references (region 13's exit contents). -/
abbrev Vo13 : (c : Dev nD) → (b : Ref sig .tc) → Buf (Elt F) ((c : Thread nD τ).loc b) := fun c b => Wo13 m ρ c b
theorem hF13 (c : Dev nD) (w : Fin cfg13.W) : (dat13 (Vi13 m ρ) c).arrAt w cfg13.N = Vo13 m ρ c (Pipeline.arrRef spec13 w) :=
  (Wo13_arr m ρ c w).symm
theorem hrest13 (c : Dev nD) : ∀ b, b ∉ Finset.univ.image (Pipeline.arrRef spec13) → Vo13 m ρ c b = Vi13 m ρ c b :=
  fun b hb => Wo13_of_ne m ρ c b fun w e => hb (Finset.mem_image.mpr ⟨w, Finset.mem_univ _, e⟩)

/-- The arguments leave the region as launched: no region writes one. -/
theorem Wo13_main_arg0 (c : Dev nD) : Wo13 m ρ c (Proc.devRef .tc main_arg0) = m ((c : Thread nD τ).loc main_arg0) :=
  (Wo13_keep m ρ c main_arg0 (by decide)).trans (Wi13_main_arg0 m ρ c)
theorem Wo13_main_arg1 (c : Dev nD) : Wo13 m ρ c (Proc.devRef .tc main_arg1) = m ((c : Thread nD τ).loc main_arg1) :=
  (Wo13_keep m ρ c main_arg1 (by decide)).trans (Wi13_main_arg1 m ρ c)
theorem Wo13_main_arg2 (c : Dev nD) : Wo13 m ρ c (Proc.devRef .tc main_arg2) = m ((c : Thread nD τ).loc main_arg2) :=
  (Wo13_keep m ρ c main_arg2 (by decide)).trans (Wi13_main_arg2 m ρ c)
theorem Wo13_main_arg3 (c : Dev nD) : Wo13 m ρ c (Proc.devRef .tc main_arg3) = m ((c : Thread nD τ).loc main_arg3) :=
  (Wo13_keep m ρ c main_arg3 (by decide)).trans (Wi13_main_arg3 m ρ c)
theorem Wo13_main_arg4 (c : Dev nD) : Wo13 m ρ c (Proc.devRef .tc main_arg4) = m ((c : Thread nD τ).loc main_arg4) :=
  (Wo13_keep m ρ c main_arg4 (by decide)).trans (Wi13_main_arg4 m ρ c)

end Cert.KernelIdeal.Reg

end
-- ==== Proof.KIWalk14.lean ====
/-
  The buffers' contents around region 14: entered from region 13's exit contents; left with its arrays at what its
  pipeline leaves, every other buffer untouched.
-/
import proofs.«107956_j75110388073098_1_alg».proof.Proof.KIRegion14
import proofs.«107956_j75110388073098_1_alg».proof.Proof.KIWalk13

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 14 is entered from what region 13 left. -/
abbrev Wi14 : Dev nD → Valuation τ sig (Elt F) := Wo13 m ρ
theorem Wi14_main_arg0 (c : Dev nD) : Wi14 m ρ c (Proc.devRef .tc main_arg0) = m ((c : Thread nD τ).loc main_arg0) := Wo13_main_arg0 m ρ c
theorem Wi14_main_arg1 (c : Dev nD) : Wi14 m ρ c (Proc.devRef .tc main_arg1) = m ((c : Thread nD τ).loc main_arg1) := Wo13_main_arg1 m ρ c
theorem Wi14_main_arg2 (c : Dev nD) : Wi14 m ρ c (Proc.devRef .tc main_arg2) = m ((c : Thread nD τ).loc main_arg2) := Wo13_main_arg2 m ρ c
theorem Wi14_main_arg3 (c : Dev nD) : Wi14 m ρ c (Proc.devRef .tc main_arg3) = m ((c : Thread nD τ).loc main_arg3) := Wo13_main_arg3 m ρ c
theorem Wi14_main_arg4 (c : Dev nD) : Wi14 m ρ c (Proc.devRef .tc main_arg4) = m ((c : Thread nD τ).loc main_arg4) := Wo13_main_arg4 m ρ c

/-- The same read at the TensorCore's references (what region 14's proof data take). -/
abbrev Vi14 : (c : Dev nD) → (b : Ref sig .tc) → Buf (Elt F) ((c : Thread nD τ).loc b) := fun c b => Wi14 m ρ c b

/-- At region 14's exit: its arrays at what the pipeline leaves (the inputs as entered, each output's write-back),
    every other buffer as entered. -/
def Wo14 (c : Dev nD) : Valuation τ sig (Elt F) :=
  Pipeline.withArrays spec14 c (Wi14 m ρ c) fun w => (dat14 (Vi14 m ρ) c).arrAt w cfg14.N
theorem Wo14_arr (c : Dev nD) (w : Fin cfg14.W) :
    Wo14 m ρ c (Proc.devRef .tc (Pipeline.arrRef spec14 w)) = (dat14 (Vi14 m ρ) c).arrAt w cfg14.N := by
  unfold Wo14; exact Pipeline.withArrays_arr spec14 launch14.win.arr_inj c _ _ w
theorem Wo14_of_ne (c : Dev nD) (b : Ref sig .tc) (hb : ∀ w, Pipeline.arrRef spec14 w ≠ b) :
    Wo14 m ρ c (Proc.devRef .tc b) = Wi14 m ρ c (Proc.devRef .tc b) := by
  unfold Wo14; exact Pipeline.withArrays_of_ne spec14 c _ _ b hb
/-- A buffer that is no OUTPUT window's array leaves the region as it entered it: an input window's array is only
    read, and a buffer outside the windows is not touched. -/
theorem Wo14_keep (c : Dev nD) (b : Ref sig .tc) (hb : ∀ w, (cfg14.win w).isOut = true → Pipeline.arrRef spec14 w ≠ b) :
    Wo14 m ρ c (Proc.devRef .tc b) = Wi14 m ρ c (Proc.devRef .tc b) := by
  by_cases h : ∃ w, Pipeline.arrRef spec14 w = b
  · obtain ⟨w, rfl⟩ := h
    have hin : (cfg14.win w).isOut = false := by
      cases hw : (cfg14.win w).isOut
      · rfl
      · exact absurd rfl (hb w hw)
    exact (Wo14_arr m ρ c w).trans (((dat14 (Vi14 m ρ) c).arrAt_in w hin _).trans (A_eq14 (Vi14 m ρ) c w))
  · exact Wo14_of_ne m ρ c b fun w e => h ⟨w, e⟩
/-- The same read at the TensorCore's references (region 14's exit contents). -/
abbrev Vo14 : (c : Dev nD) → (b : Ref sig .tc) → Buf (Elt F) ((c : Thread nD τ).loc b) := fun c b => Wo14 m ρ c b
theorem hF14 (c : Dev nD) (w : Fin cfg14.W) : (dat14 (Vi14 m ρ) c).arrAt w cfg14.N = Vo14 m ρ c (Pipeline.arrRef spec14 w) :=
  (Wo14_arr m ρ c w).symm
theorem hrest14 (c : Dev nD) : ∀ b, b ∉ Finset.univ.image (Pipeline.arrRef spec14) → Vo14 m ρ c b = Vi14 m ρ c b :=
  fun b hb => Wo14_of_ne m ρ c b fun w e => hb (Finset.mem_image.mpr ⟨w, Finset.mem_univ _, e⟩)

/-- The arguments leave the region as launched: no region writes one. -/
theorem Wo14_main_arg0 (c : Dev nD) : Wo14 m ρ c (Proc.devRef .tc main_arg0) = m ((c : Thread nD τ).loc main_arg0) :=
  (Wo14_keep m ρ c main_arg0 (by decide)).trans (Wi14_main_arg0 m ρ c)
theorem Wo14_main_arg1 (c : Dev nD) : Wo14 m ρ c (Proc.devRef .tc main_arg1) = m ((c : Thread nD τ).loc main_arg1) :=
  (Wo14_keep m ρ c main_arg1 (by decide)).trans (Wi14_main_arg1 m ρ c)
theorem Wo14_main_arg2 (c : Dev nD) : Wo14 m ρ c (Proc.devRef .tc main_arg2) = m ((c : Thread nD τ).loc main_arg2) :=
  (Wo14_keep m ρ c main_arg2 (by decide)).trans (Wi14_main_arg2 m ρ c)
theorem Wo14_main_arg3 (c : Dev nD) : Wo14 m ρ c (Proc.devRef .tc main_arg3) = m ((c : Thread nD τ).loc main_arg3) :=
  (Wo14_keep m ρ c main_arg3 (by decide)).trans (Wi14_main_arg3 m ρ c)
theorem Wo14_main_arg4 (c : Dev nD) : Wo14 m ρ c (Proc.devRef .tc main_arg4) = m ((c : Thread nD τ).loc main_arg4) :=
  (Wo14_keep m ρ c main_arg4 (by decide)).trans (Wi14_main_arg4 m ρ c)

end Cert.KernelIdeal.Reg

end
-- ==== Proof.KIWalk15.lean ====
/-
  The buffers' contents around region 15: entered from region 14's exit contents; left with its arrays at what its
  pipeline leaves, every other buffer untouched.
-/
import proofs.«107956_j75110388073098_1_alg».proof.Proof.KIRegion15
import proofs.«107956_j75110388073098_1_alg».proof.Proof.KIWalk14

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 15 is entered from what region 14 left. -/
abbrev Wi15 : Dev nD → Valuation τ sig (Elt F) := Wo14 m ρ
theorem Wi15_main_arg0 (c : Dev nD) : Wi15 m ρ c (Proc.devRef .tc main_arg0) = m ((c : Thread nD τ).loc main_arg0) := Wo14_main_arg0 m ρ c
theorem Wi15_main_arg1 (c : Dev nD) : Wi15 m ρ c (Proc.devRef .tc main_arg1) = m ((c : Thread nD τ).loc main_arg1) := Wo14_main_arg1 m ρ c
theorem Wi15_main_arg2 (c : Dev nD) : Wi15 m ρ c (Proc.devRef .tc main_arg2) = m ((c : Thread nD τ).loc main_arg2) := Wo14_main_arg2 m ρ c
theorem Wi15_main_arg3 (c : Dev nD) : Wi15 m ρ c (Proc.devRef .tc main_arg3) = m ((c : Thread nD τ).loc main_arg3) := Wo14_main_arg3 m ρ c
theorem Wi15_main_arg4 (c : Dev nD) : Wi15 m ρ c (Proc.devRef .tc main_arg4) = m ((c : Thread nD τ).loc main_arg4) := Wo14_main_arg4 m ρ c

/-- The same read at the TensorCore's references (what region 15's proof data take). -/
abbrev Vi15 : (c : Dev nD) → (b : Ref sig .tc) → Buf (Elt F) ((c : Thread nD τ).loc b) := fun c b => Wi15 m ρ c b

/-- At region 15's exit: its arrays at what the pipeline leaves (the inputs as entered, each output's write-back),
    every other buffer as entered. -/
def Wo15 (c : Dev nD) : Valuation τ sig (Elt F) :=
  Pipeline.withArrays spec15 c (Wi15 m ρ c) fun w => (dat15 (Vi15 m ρ) c).arrAt w cfg15.N
theorem Wo15_arr (c : Dev nD) (w : Fin cfg15.W) :
    Wo15 m ρ c (Proc.devRef .tc (Pipeline.arrRef spec15 w)) = (dat15 (Vi15 m ρ) c).arrAt w cfg15.N := by
  unfold Wo15; exact Pipeline.withArrays_arr spec15 launch15.win.arr_inj c _ _ w
theorem Wo15_of_ne (c : Dev nD) (b : Ref sig .tc) (hb : ∀ w, Pipeline.arrRef spec15 w ≠ b) :
    Wo15 m ρ c (Proc.devRef .tc b) = Wi15 m ρ c (Proc.devRef .tc b) := by
  unfold Wo15; exact Pipeline.withArrays_of_ne spec15 c _ _ b hb
/-- A buffer that is no OUTPUT window's array leaves the region as it entered it: an input window's array is only
    read, and a buffer outside the windows is not touched. -/
theorem Wo15_keep (c : Dev nD) (b : Ref sig .tc) (hb : ∀ w, (cfg15.win w).isOut = true → Pipeline.arrRef spec15 w ≠ b) :
    Wo15 m ρ c (Proc.devRef .tc b) = Wi15 m ρ c (Proc.devRef .tc b) := by
  by_cases h : ∃ w, Pipeline.arrRef spec15 w = b
  · obtain ⟨w, rfl⟩ := h
    have hin : (cfg15.win w).isOut = false := by
      cases hw : (cfg15.win w).isOut
      · rfl
      · exact absurd rfl (hb w hw)
    exact (Wo15_arr m ρ c w).trans (((dat15 (Vi15 m ρ) c).arrAt_in w hin _).trans (A_eq15 (Vi15 m ρ) c w))
  · exact Wo15_of_ne m ρ c b fun w e => h ⟨w, e⟩
/-- The same read at the TensorCore's references (region 15's exit contents). -/
abbrev Vo15 : (c : Dev nD) → (b : Ref sig .tc) → Buf (Elt F) ((c : Thread nD τ).loc b) := fun c b => Wo15 m ρ c b
theorem hF15 (c : Dev nD) (w : Fin cfg15.W) : (dat15 (Vi15 m ρ) c).arrAt w cfg15.N = Vo15 m ρ c (Pipeline.arrRef spec15 w) :=
  (Wo15_arr m ρ c w).symm
theorem hrest15 (c : Dev nD) : ∀ b, b ∉ Finset.univ.image (Pipeline.arrRef spec15) → Vo15 m ρ c b = Vi15 m ρ c b :=
  fun b hb => Wo15_of_ne m ρ c b fun w e => hb (Finset.mem_image.mpr ⟨w, Finset.mem_univ _, e⟩)

/-- The arguments leave the region as launched: no region writes one. -/
theorem Wo15_main_arg0 (c : Dev nD) : Wo15 m ρ c (Proc.devRef .tc main_arg0) = m ((c : Thread nD τ).loc main_arg0) :=
  (Wo15_keep m ρ c main_arg0 (by decide)).trans (Wi15_main_arg0 m ρ c)
theorem Wo15_main_arg1 (c : Dev nD) : Wo15 m ρ c (Proc.devRef .tc main_arg1) = m ((c : Thread nD τ).loc main_arg1) :=
  (Wo15_keep m ρ c main_arg1 (by decide)).trans (Wi15_main_arg1 m ρ c)
theorem Wo15_main_arg2 (c : Dev nD) : Wo15 m ρ c (Proc.devRef .tc main_arg2) = m ((c : Thread nD τ).loc main_arg2) :=
  (Wo15_keep m ρ c main_arg2 (by decide)).trans (Wi15_main_arg2 m ρ c)
theorem Wo15_main_arg3 (c : Dev nD) : Wo15 m ρ c (Proc.devRef .tc main_arg3) = m ((c : Thread nD τ).loc main_arg3) :=
  (Wo15_keep m ρ c main_arg3 (by decide)).trans (Wi15_main_arg3 m ρ c)
theorem Wo15_main_arg4 (c : Dev nD) : Wo15 m ρ c (Proc.devRef .tc main_arg4) = m ((c : Thread nD τ).loc main_arg4) :=
  (Wo15_keep m ρ c main_arg4 (by decide)).trans (Wi15_main_arg4 m ρ c)

end Cert.KernelIdeal.Reg

end
-- ==== Proof.KIWalk16.lean ====
/-
  The buffers' contents around region 16: entered from region 15's exit contents; left with its arrays at what its
  pipeline leaves, every other buffer untouched.
-/
import proofs.«107956_j75110388073098_1_alg».proof.Proof.KIRegion16
import proofs.«107956_j75110388073098_1_alg».proof.Proof.KIWalk15

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 16 is entered from what region 15 left. -/
abbrev Wi16 : Dev nD → Valuation τ sig (Elt F) := Wo15 m ρ
theorem Wi16_main_arg0 (c : Dev nD) : Wi16 m ρ c (Proc.devRef .tc main_arg0) = m ((c : Thread nD τ).loc main_arg0) := Wo15_main_arg0 m ρ c
theorem Wi16_main_arg1 (c : Dev nD) : Wi16 m ρ c (Proc.devRef .tc main_arg1) = m ((c : Thread nD τ).loc main_arg1) := Wo15_main_arg1 m ρ c
theorem Wi16_main_arg2 (c : Dev nD) : Wi16 m ρ c (Proc.devRef .tc main_arg2) = m ((c : Thread nD τ).loc main_arg2) := Wo15_main_arg2 m ρ c
theorem Wi16_main_arg3 (c : Dev nD) : Wi16 m ρ c (Proc.devRef .tc main_arg3) = m ((c : Thread nD τ).loc main_arg3) := Wo15_main_arg3 m ρ c
theorem Wi16_main_arg4 (c : Dev nD) : Wi16 m ρ c (Proc.devRef .tc main_arg4) = m ((c : Thread nD τ).loc main_arg4) := Wo15_main_arg4 m ρ c

/-- The same read at the TensorCore's references (what region 16's proof data take). -/
abbrev Vi16 : (c : Dev nD) → (b : Ref sig .tc) → Buf (Elt F) ((c : Thread nD τ).loc b) := fun c b => Wi16 m ρ c b

/-- At region 16's exit: its arrays at what the pipeline leaves (the inputs as entered, each output's write-back),
    every other buffer as entered. -/
def Wo16 (c : Dev nD) : Valuation τ sig (Elt F) :=
  Pipeline.withArrays spec16 c (Wi16 m ρ c) fun w => (dat16 (Vi16 m ρ) c).arrAt w cfg16.N
theorem Wo16_arr (c : Dev nD) (w : Fin cfg16.W) :
    Wo16 m ρ c (Proc.devRef .tc (Pipeline.arrRef spec16 w)) = (dat16 (Vi16 m ρ) c).arrAt w cfg16.N := by
  unfold Wo16; exact Pipeline.withArrays_arr spec16 launch16.win.arr_inj c _ _ w
theorem Wo16_of_ne (c : Dev nD) (b : Ref sig .tc) (hb : ∀ w, Pipeline.arrRef spec16 w ≠ b) :
    Wo16 m ρ c (Proc.devRef .tc b) = Wi16 m ρ c (Proc.devRef .tc b) := by
  unfold Wo16; exact Pipeline.withArrays_of_ne spec16 c _ _ b hb
/-- A buffer that is no OUTPUT window's array leaves the region as it entered it: an input window's array is only
    read, and a buffer outside the windows is not touched. -/
theorem Wo16_keep (c : Dev nD) (b : Ref sig .tc) (hb : ∀ w, (cfg16.win w).isOut = true → Pipeline.arrRef spec16 w ≠ b) :
    Wo16 m ρ c (Proc.devRef .tc b) = Wi16 m ρ c (Proc.devRef .tc b) := by
  by_cases h : ∃ w, Pipeline.arrRef spec16 w = b
  · obtain ⟨w, rfl⟩ := h
    have hin : (cfg16.win w).isOut = false := by
      cases hw : (cfg16.win w).isOut
      · rfl
      · exact absurd rfl (hb w hw)
    exact (Wo16_arr m ρ c w).trans (((dat16 (Vi16 m ρ) c).arrAt_in w hin _).trans (A_eq16 (Vi16 m ρ) c w))
  · exact Wo16_of_ne m ρ c b fun w e => h ⟨w, e⟩
/-- The same read at the TensorCore's references (region 16's exit contents). -/
abbrev Vo16 : (c : Dev nD) → (b : Ref sig .tc) → Buf (Elt F) ((c : Thread nD τ).loc b) := fun c b => Wo16 m ρ c b
theorem hF16 (c : Dev nD) (w : Fin cfg16.W) : (dat16 (Vi16 m ρ) c).arrAt w cfg16.N = Vo16 m ρ c (Pipeline.arrRef spec16 w) :=
  (Wo16_arr m ρ c w).symm
theorem hrest16 (c : Dev nD) : ∀ b, b ∉ Finset.univ.image (Pipeline.arrRef spec16) → Vo16 m ρ c b = Vi16 m ρ c b :=
  fun b hb => Wo16_of_ne m ρ c b fun w e => hb (Finset.mem_image.mpr ⟨w, Finset.mem_univ _, e⟩)

/-- The arguments leave the region as launched: no region writes one. -/
theorem Wo16_main_arg0 (c : Dev nD) : Wo16 m ρ c (Proc.devRef .tc main_arg0) = m ((c : Thread nD τ).loc main_arg0) :=
  (Wo16_keep m ρ c main_arg0 (by decide)).trans (Wi16_main_arg0 m ρ c)
theorem Wo16_main_arg1 (c : Dev nD) : Wo16 m ρ c (Proc.devRef .tc main_arg1) = m ((c : Thread nD τ).loc main_arg1) :=
  (Wo16_keep m ρ c main_arg1 (by decide)).trans (Wi16_main_arg1 m ρ c)
theorem Wo16_main_arg2 (c : Dev nD) : Wo16 m ρ c (Proc.devRef .tc main_arg2) = m ((c : Thread nD τ).loc main_arg2) :=
  (Wo16_keep m ρ c main_arg2 (by decide)).trans (Wi16_main_arg2 m ρ c)
theorem Wo16_main_arg3 (c : Dev nD) : Wo16 m ρ c (Proc.devRef .tc main_arg3) = m ((c : Thread nD τ).loc main_arg3) :=
  (Wo16_keep m ρ c main_arg3 (by decide)).trans (Wi16_main_arg3 m ρ c)
theorem Wo16_main_arg4 (c : Dev nD) : Wo16 m ρ c (Proc.devRef .tc main_arg4) = m ((c : Thread nD τ).loc main_arg4) :=
  (Wo16_keep m ρ c main_arg4 (by decide)).trans (Wi16_main_arg4 m ρ c)

end Cert.KernelIdeal.Reg

end
-- ==== Proof.KIWalk17.lean ====
/-
  The buffers' contents around region 17: entered from region 16's exit contents; left with its arrays at what its
  pipeline leaves, every other buffer untouched.
-/
import proofs.«107956_j75110388073098_1_alg».proof.Proof.KIRegion17
import proofs.«107956_j75110388073098_1_alg».proof.Proof.KIWalk16

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 17 is entered from what region 16 left. -/
abbrev Wi17 : Dev nD → Valuation τ sig (Elt F) := Wo16 m ρ
theorem Wi17_main_arg0 (c : Dev nD) : Wi17 m ρ c (Proc.devRef .tc main_arg0) = m ((c : Thread nD τ).loc main_arg0) := Wo16_main_arg0 m ρ c
theorem Wi17_main_arg1 (c : Dev nD) : Wi17 m ρ c (Proc.devRef .tc main_arg1) = m ((c : Thread nD τ).loc main_arg1) := Wo16_main_arg1 m ρ c
theorem Wi17_main_arg2 (c : Dev nD) : Wi17 m ρ c (Proc.devRef .tc main_arg2) = m ((c : Thread nD τ).loc main_arg2) := Wo16_main_arg2 m ρ c
theorem Wi17_main_arg3 (c : Dev nD) : Wi17 m ρ c (Proc.devRef .tc main_arg3) = m ((c : Thread nD τ).loc main_arg3) := Wo16_main_arg3 m ρ c
theorem Wi17_main_arg4 (c : Dev nD) : Wi17 m ρ c (Proc.devRef .tc main_arg4) = m ((c : Thread nD τ).loc main_arg4) := Wo16_main_arg4 m ρ c

/-- The same read at the TensorCore's references (what region 17's proof data take). -/
abbrev Vi17 : (c : Dev nD) → (b : Ref sig .tc) → Buf (Elt F) ((c : Thread nD τ).loc b) := fun c b => Wi17 m ρ c b

/-- At region 17's exit: its arrays at what the pipeline leaves (the inputs as entered, each output's write-back),
    every other buffer as entered. -/
def Wo17 (c : Dev nD) : Valuation τ sig (Elt F) :=
  Pipeline.withArrays spec17 c (Wi17 m ρ c) fun w => (dat17 (Vi17 m ρ) c).arrAt w cfg17.N
theorem Wo17_arr (c : Dev nD) (w : Fin cfg17.W) :
    Wo17 m ρ c (Proc.devRef .tc (Pipeline.arrRef spec17 w)) = (dat17 (Vi17 m ρ) c).arrAt w cfg17.N := by
  unfold Wo17; exact Pipeline.withArrays_arr spec17 launch17.win.arr_inj c _ _ w
theorem Wo17_of_ne (c : Dev nD) (b : Ref sig .tc) (hb : ∀ w, Pipeline.arrRef spec17 w ≠ b) :
    Wo17 m ρ c (Proc.devRef .tc b) = Wi17 m ρ c (Proc.devRef .tc b) := by
  unfold Wo17; exact Pipeline.withArrays_of_ne spec17 c _ _ b hb
/-- A buffer that is no OUTPUT window's array leaves the region as it entered it: an input window's array is only
    read, and a buffer outside the windows is not touched. -/
theorem Wo17_keep (c : Dev nD) (b : Ref sig .tc) (hb : ∀ w, (cfg17.win w).isOut = true → Pipeline.arrRef spec17 w ≠ b) :
    Wo17 m ρ c (Proc.devRef .tc b) = Wi17 m ρ c (Proc.devRef .tc b) := by
  by_cases h : ∃ w, Pipeline.arrRef spec17 w = b
  · obtain ⟨w, rfl⟩ := h
    have hin : (cfg17.win w).isOut = false := by
      cases hw : (cfg17.win w).isOut
      · rfl
      · exact absurd rfl (hb w hw)
    exact (Wo17_arr m ρ c w).trans (((dat17 (Vi17 m ρ) c).arrAt_in w hin _).trans (A_eq17 (Vi17 m ρ) c w))
  · exact Wo17_of_ne m ρ c b fun w e => h ⟨w, e⟩
/-- The same read at the TensorCore's references (region 17's exit contents). -/
abbrev Vo17 : (c : Dev nD) → (b : Ref sig .tc) → Buf (Elt F) ((c : Thread nD τ).loc b) := fun c b => Wo17 m ρ c b
theorem hF17 (c : Dev nD) (w : Fin cfg17.W) : (dat17 (Vi17 m ρ) c).arrAt w cfg17.N = Vo17 m ρ c (Pipeline.arrRef spec17 w) :=
  (Wo17_arr m ρ c w).symm
theorem hrest17 (c : Dev nD) : ∀ b, b ∉ Finset.univ.image (Pipeline.arrRef spec17) → Vo17 m ρ c b = Vi17 m ρ c b :=
  fun b hb => Wo17_of_ne m ρ c b fun w e => hb (Finset.mem_image.mpr ⟨w, Finset.mem_univ _, e⟩)

/-- The arguments leave the region as launched: no region writes one. -/
theorem Wo17_main_arg0 (c : Dev nD) : Wo17 m ρ c (Proc.devRef .tc main_arg0) = m ((c : Thread nD τ).loc main_arg0) :=
  (Wo17_keep m ρ c main_arg0 (by decide)).trans (Wi17_main_arg0 m ρ c)
theorem Wo17_main_arg1 (c : Dev nD) : Wo17 m ρ c (Proc.devRef .tc main_arg1) = m ((c : Thread nD τ).loc main_arg1) :=
  (Wo17_keep m ρ c main_arg1 (by decide)).trans (Wi17_main_arg1 m ρ c)
theorem Wo17_main_arg2 (c : Dev nD) : Wo17 m ρ c (Proc.devRef .tc main_arg2) = m ((c : Thread nD τ).loc main_arg2) :=
  (Wo17_keep m ρ c main_arg2 (by decide)).trans (Wi17_main_arg2 m ρ c)
theorem Wo17_main_arg3 (c : Dev nD) : Wo17 m ρ c (Proc.devRef .tc main_arg3) = m ((c : Thread nD τ).loc main_arg3) :=
  (Wo17_keep m ρ c main_arg3 (by decide)).trans (Wi17_main_arg3 m ρ c)
theorem Wo17_main_arg4 (c : Dev nD) : Wo17 m ρ c (Proc.devRef .tc main_arg4) = m ((c : Thread nD τ).loc main_arg4) :=
  (Wo17_keep m ρ c main_arg4 (by decide)).trans (Wi17_main_arg4 m ρ c)

end Cert.KernelIdeal.Reg

end
-- ==== Proof.KIWalk18.lean ====
/-
  The buffers' contents around region 18: entered from region 17's exit contents; left with its arrays at what its
  pipeline leaves, every other buffer untouched.
-/
import proofs.«107956_j75110388073098_1_alg».proof.Proof.KIRegion18
import proofs.«107956_j75110388073098_1_alg».proof.Proof.KIWalk17

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 18 is entered from what region 17 left. -/
abbrev Wi18 : Dev nD → Valuation τ sig (Elt F) := Wo17 m ρ
theorem Wi18_main_arg0 (c : Dev nD) : Wi18 m ρ c (Proc.devRef .tc main_arg0) = m ((c : Thread nD τ).loc main_arg0) := Wo17_main_arg0 m ρ c
theorem Wi18_main_arg1 (c : Dev nD) : Wi18 m ρ c (Proc.devRef .tc main_arg1) = m ((c : Thread nD τ).loc main_arg1) := Wo17_main_arg1 m ρ c
theorem Wi18_main_arg2 (c : Dev nD) : Wi18 m ρ c (Proc.devRef .tc main_arg2) = m ((c : Thread nD τ).loc main_arg2) := Wo17_main_arg2 m ρ c
theorem Wi18_main_arg3 (c : Dev nD) : Wi18 m ρ c (Proc.devRef .tc main_arg3) = m ((c : Thread nD τ).loc main_arg3) := Wo17_main_arg3 m ρ c
theorem Wi18_main_arg4 (c : Dev nD) : Wi18 m ρ c (Proc.devRef .tc main_arg4) = m ((c : Thread nD τ).loc main_arg4) := Wo17_main_arg4 m ρ c

/-- The same read at the TensorCore's references (what region 18's proof data take). -/
abbrev Vi18 : (c : Dev nD) → (b : Ref sig .tc) → Buf (Elt F) ((c : Thread nD τ).loc b) := fun c b => Wi18 m ρ c b

/-- At region 18's exit: its arrays at what the pipeline leaves (the inputs as entered, each output's write-back),
    every other buffer as entered. -/
def Wo18 (c : Dev nD) : Valuation τ sig (Elt F) :=
  Pipeline.withArrays spec18 c (Wi18 m ρ c) fun w => (dat18 (Vi18 m ρ) c).arrAt w cfg18.N
theorem Wo18_arr (c : Dev nD) (w : Fin cfg18.W) :
    Wo18 m ρ c (Proc.devRef .tc (Pipeline.arrRef spec18 w)) = (dat18 (Vi18 m ρ) c).arrAt w cfg18.N := by
  unfold Wo18; exact Pipeline.withArrays_arr spec18 launch18.win.arr_inj c _ _ w
theorem Wo18_of_ne (c : Dev nD) (b : Ref sig .tc) (hb : ∀ w, Pipeline.arrRef spec18 w ≠ b) :
    Wo18 m ρ c (Proc.devRef .tc b) = Wi18 m ρ c (Proc.devRef .tc b) := by
  unfold Wo18; exact Pipeline.withArrays_of_ne spec18 c _ _ b hb
/-- A buffer that is no OUTPUT window's array leaves the region as it entered it: an input window's array is only
    read, and a buffer outside the windows is not touched. -/
theorem Wo18_keep (c : Dev nD) (b : Ref sig .tc) (hb : ∀ w, (cfg18.win w).isOut = true → Pipeline.arrRef spec18 w ≠ b) :
    Wo18 m ρ c (Proc.devRef .tc b) = Wi18 m ρ c (Proc.devRef .tc b) := by
  by_cases h : ∃ w, Pipeline.arrRef spec18 w = b
  · obtain ⟨w, rfl⟩ := h
    have hin : (cfg18.win w).isOut = false := by
      cases hw : (cfg18.win w).isOut
      · rfl
      · exact absurd rfl (hb w hw)
    exact (Wo18_arr m ρ c w).trans (((dat18 (Vi18 m ρ) c).arrAt_in w hin _).trans (A_eq18 (Vi18 m ρ) c w))
  · exact Wo18_of_ne m ρ c b fun w e => h ⟨w, e⟩
/-- The same read at the TensorCore's references (region 18's exit contents). -/
abbrev Vo18 : (c : Dev nD) → (b : Ref sig .tc) → Buf (Elt F) ((c : Thread nD τ).loc b) := fun c b => Wo18 m ρ c b
theorem hF18 (c : Dev nD) (w : Fin cfg18.W) : (dat18 (Vi18 m ρ) c).arrAt w cfg18.N = Vo18 m ρ c (Pipeline.arrRef spec18 w) :=
  (Wo18_arr m ρ c w).symm
theorem hrest18 (c : Dev nD) : ∀ b, b ∉ Finset.univ.image (Pipeline.arrRef spec18) → Vo18 m ρ c b = Vi18 m ρ c b :=
  fun b hb => Wo18_of_ne m ρ c b fun w e => hb (Finset.mem_image.mpr ⟨w, Finset.mem_univ _, e⟩)

/-- The arguments leave the region as launched: no region writes one. -/
theorem Wo18_main_arg0 (c : Dev nD) : Wo18 m ρ c (Proc.devRef .tc main_arg0) = m ((c : Thread nD τ).loc main_arg0) :=
  (Wo18_keep m ρ c main_arg0 (by decide)).trans (Wi18_main_arg0 m ρ c)
theorem Wo18_main_arg1 (c : Dev nD) : Wo18 m ρ c (Proc.devRef .tc main_arg1) = m ((c : Thread nD τ).loc main_arg1) :=
  (Wo18_keep m ρ c main_arg1 (by decide)).trans (Wi18_main_arg1 m ρ c)
theorem Wo18_main_arg2 (c : Dev nD) : Wo18 m ρ c (Proc.devRef .tc main_arg2) = m ((c : Thread nD τ).loc main_arg2) :=
  (Wo18_keep m ρ c main_arg2 (by decide)).trans (Wi18_main_arg2 m ρ c)
theorem Wo18_main_arg3 (c : Dev nD) : Wo18 m ρ c (Proc.devRef .tc main_arg3) = m ((c : Thread nD τ).loc main_arg3) :=
  (Wo18_keep m ρ c main_arg3 (by decide)).trans (Wi18_main_arg3 m ρ c)
theorem Wo18_main_arg4 (c : Dev nD) : Wo18 m ρ c (Proc.devRef .tc main_arg4) = m ((c : Thread nD τ).loc main_arg4) :=
  (Wo18_keep m ρ c main_arg4 (by decide)).trans (Wi18_main_arg4 m ρ c)

end Cert.KernelIdeal.Reg

end
-- ==== Proof.KIWalk19.lean ====
/-
  The buffers' contents around region 19: entered from region 18's exit contents; left with its arrays at what its
  pipeline leaves, every other buffer untouched.
-/
import proofs.«107956_j75110388073098_1_alg».proof.Proof.KIRegion19
import proofs.«107956_j75110388073098_1_alg».proof.Proof.KIWalk18

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 19 is entered from what region 18 left. -/
abbrev Wi19 : Dev nD → Valuation τ sig (Elt F) := Wo18 m ρ
theorem Wi19_main_arg0 (c : Dev nD) : Wi19 m ρ c (Proc.devRef .tc main_arg0) = m ((c : Thread nD τ).loc main_arg0) := Wo18_main_arg0 m ρ c
theorem Wi19_main_arg1 (c : Dev nD) : Wi19 m ρ c (Proc.devRef .tc main_arg1) = m ((c : Thread nD τ).loc main_arg1) := Wo18_main_arg1 m ρ c
theorem Wi19_main_arg2 (c : Dev nD) : Wi19 m ρ c (Proc.devRef .tc main_arg2) = m ((c : Thread nD τ).loc main_arg2) := Wo18_main_arg2 m ρ c
theorem Wi19_main_arg3 (c : Dev nD) : Wi19 m ρ c (Proc.devRef .tc main_arg3) = m ((c : Thread nD τ).loc main_arg3) := Wo18_main_arg3 m ρ c
theorem Wi19_main_arg4 (c : Dev nD) : Wi19 m ρ c (Proc.devRef .tc main_arg4) = m ((c : Thread nD τ).loc main_arg4) := Wo18_main_arg4 m ρ c

/-- The same read at the TensorCore's references (what region 19's proof data take). -/
abbrev Vi19 : (c : Dev nD) → (b : Ref sig .tc) → Buf (Elt F) ((c : Thread nD τ).loc b) := fun c b => Wi19 m ρ c b

/-- At region 19's exit: its arrays at what the pipeline leaves (the inputs as entered, each output's write-back),
    every other buffer as entered. -/
def Wo19 (c : Dev nD) : Valuation τ sig (Elt F) :=
  Pipeline.withArrays spec19 c (Wi19 m ρ c) fun w => (dat19 (Vi19 m ρ) c).arrAt w cfg19.N
theorem Wo19_arr (c : Dev nD) (w : Fin cfg19.W) :
    Wo19 m ρ c (Proc.devRef .tc (Pipeline.arrRef spec19 w)) = (dat19 (Vi19 m ρ) c).arrAt w cfg19.N := by
  unfold Wo19; exact Pipeline.withArrays_arr spec19 launch19.win.arr_inj c _ _ w
theorem Wo19_of_ne (c : Dev nD) (b : Ref sig .tc) (hb : ∀ w, Pipeline.arrRef spec19 w ≠ b) :
    Wo19 m ρ c (Proc.devRef .tc b) = Wi19 m ρ c (Proc.devRef .tc b) := by
  unfold Wo19; exact Pipeline.withArrays_of_ne spec19 c _ _ b hb
/-- A buffer that is no OUTPUT window's array leaves the region as it entered it: an input window's array is only
    read, and a buffer outside the windows is not touched. -/
theorem Wo19_keep (c : Dev nD) (b : Ref sig .tc) (hb : ∀ w, (cfg19.win w).isOut = true → Pipeline.arrRef spec19 w ≠ b) :
    Wo19 m ρ c (Proc.devRef .tc b) = Wi19 m ρ c (Proc.devRef .tc b) := by
  by_cases h : ∃ w, Pipeline.arrRef spec19 w = b
  · obtain ⟨w, rfl⟩ := h
    have hin : (cfg19.win w).isOut = false := by
      cases hw : (cfg19.win w).isOut
      · rfl
      · exact absurd rfl (hb w hw)
    exact (Wo19_arr m ρ c w).trans (((dat19 (Vi19 m ρ) c).arrAt_in w hin _).trans (A_eq19 (Vi19 m ρ) c w))
  · exact Wo19_of_ne m ρ c b fun w e => h ⟨w, e⟩
/-- The same read at the TensorCore's references (region 19's exit contents). -/
abbrev Vo19 : (c : Dev nD) → (b : Ref sig .tc) → Buf (Elt F) ((c : Thread nD τ).loc b) := fun c b => Wo19 m ρ c b
theorem hF19 (c : Dev nD) (w : Fin cfg19.W) : (dat19 (Vi19 m ρ) c).arrAt w cfg19.N = Vo19 m ρ c (Pipeline.arrRef spec19 w) :=
  (Wo19_arr m ρ c w).symm
theorem hrest19 (c : Dev nD) : ∀ b, b ∉ Finset.univ.image (Pipeline.arrRef spec19) → Vo19 m ρ c b = Vi19 m ρ c b :=
  fun b hb => Wo19_of_ne m ρ c b fun w e => hb (Finset.mem_image.mpr ⟨w, Finset.mem_univ _, e⟩)

/-- The arguments leave the region as launched: no region writes one. -/
theorem Wo19_main_arg0 (c : Dev nD) : Wo19 m ρ c (Proc.devRef .tc main_arg0) = m ((c : Thread nD τ).loc main_arg0) :=
  (Wo19_keep m ρ c main_arg0 (by decide)).trans (Wi19_main_arg0 m ρ c)
theorem Wo19_main_arg1 (c : Dev nD) : Wo19 m ρ c (Proc.devRef .tc main_arg1) = m ((c : Thread nD τ).loc main_arg1) :=
  (Wo19_keep m ρ c main_arg1 (by decide)).trans (Wi19_main_arg1 m ρ c)
theorem Wo19_main_arg2 (c : Dev nD) : Wo19 m ρ c (Proc.devRef .tc main_arg2) = m ((c : Thread nD τ).loc main_arg2) :=
  (Wo19_keep m ρ c main_arg2 (by decide)).trans (Wi19_main_arg2 m ρ c)
theorem Wo19_main_arg3 (c : Dev nD) : Wo19 m ρ c (Proc.devRef .tc main_arg3) = m ((c : Thread nD τ).loc main_arg3) :=
  (Wo19_keep m ρ c main_arg3 (by decide)).trans (Wi19_main_arg3 m ρ c)
theorem Wo19_main_arg4 (c : Dev nD) : Wo19 m ρ c (Proc.devRef .tc main_arg4) = m ((c : Thread nD τ).loc main_arg4) :=
  (Wo19_keep m ρ c main_arg4 (by decide)).trans (Wi19_main_arg4 m ρ c)

end Cert.KernelIdeal.Reg

end
-- ==== Proof.KIWalk20.lean ====
/-
  The buffers' contents around region 20: entered from region 19's exit contents; left with its arrays at what its
  pipeline leaves, every other buffer untouched.
-/
import proofs.«107956_j75110388073098_1_alg».proof.Proof.KIRegion20
import proofs.«107956_j75110388073098_1_alg».proof.Proof.KIWalk19

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 20 is entered from what region 19 left. -/
abbrev Wi20 : Dev nD → Valuation τ sig (Elt F) := Wo19 m ρ
theorem Wi20_main_arg0 (c : Dev nD) : Wi20 m ρ c (Proc.devRef .tc main_arg0) = m ((c : Thread nD τ).loc main_arg0) := Wo19_main_arg0 m ρ c
theorem Wi20_main_arg1 (c : Dev nD) : Wi20 m ρ c (Proc.devRef .tc main_arg1) = m ((c : Thread nD τ).loc main_arg1) := Wo19_main_arg1 m ρ c
theorem Wi20_main_arg2 (c : Dev nD) : Wi20 m ρ c (Proc.devRef .tc main_arg2) = m ((c : Thread nD τ).loc main_arg2) := Wo19_main_arg2 m ρ c
theorem Wi20_main_arg3 (c : Dev nD) : Wi20 m ρ c (Proc.devRef .tc main_arg3) = m ((c : Thread nD τ).loc main_arg3) := Wo19_main_arg3 m ρ c
theorem Wi20_main_arg4 (c : Dev nD) : Wi20 m ρ c (Proc.devRef .tc main_arg4) = m ((c : Thread nD τ).loc main_arg4) := Wo19_main_arg4 m ρ c

/-- The same read at the TensorCore's references (what region 20's proof data take). -/
abbrev Vi20 : (c : Dev nD) → (b : Ref sig .tc) → Buf (Elt F) ((c : Thread nD τ).loc b) := fun c b => Wi20 m ρ c b

/-- At region 20's exit: its arrays at what the pipeline leaves (the inputs as entered, each output's write-back),
    every other buffer as entered. -/
def Wo20 (c : Dev nD) : Valuation τ sig (Elt F) :=
  Pipeline.withArrays spec20 c (Wi20 m ρ c) fun w => (dat20 (Vi20 m ρ) c).arrAt w cfg20.N
theorem Wo20_arr (c : Dev nD) (w : Fin cfg20.W) :
    Wo20 m ρ c (Proc.devRef .tc (Pipeline.arrRef spec20 w)) = (dat20 (Vi20 m ρ) c).arrAt w cfg20.N := by
  unfold Wo20; exact Pipeline.withArrays_arr spec20 launch20.win.arr_inj c _ _ w
theorem Wo20_of_ne (c : Dev nD) (b : Ref sig .tc) (hb : ∀ w, Pipeline.arrRef spec20 w ≠ b) :
    Wo20 m ρ c (Proc.devRef .tc b) = Wi20 m ρ c (Proc.devRef .tc b) := by
  unfold Wo20; exact Pipeline.withArrays_of_ne spec20 c _ _ b hb
/-- A buffer that is no OUTPUT window's array leaves the region as it entered it: an input window's array is only
    read, and a buffer outside the windows is not touched. -/
theorem Wo20_keep (c : Dev nD) (b : Ref sig .tc) (hb : ∀ w, (cfg20.win w).isOut = true → Pipeline.arrRef spec20 w ≠ b) :
    Wo20 m ρ c (Proc.devRef .tc b) = Wi20 m ρ c (Proc.devRef .tc b) := by
  by_cases h : ∃ w, Pipeline.arrRef spec20 w = b
  · obtain ⟨w, rfl⟩ := h
    have hin : (cfg20.win w).isOut = false := by
      cases hw : (cfg20.win w).isOut
      · rfl
      · exact absurd rfl (hb w hw)
    exact (Wo20_arr m ρ c w).trans (((dat20 (Vi20 m ρ) c).arrAt_in w hin _).trans (A_eq20 (Vi20 m ρ) c w))
  · exact Wo20_of_ne m ρ c b fun w e => h ⟨w, e⟩
/-- The same read at the TensorCore's references (region 20's exit contents). -/
abbrev Vo20 : (c : Dev nD) → (b : Ref sig .tc) → Buf (Elt F) ((c : Thread nD τ).loc b) := fun c b => Wo20 m ρ c b
theorem hF20 (c : Dev nD) (w : Fin cfg20.W) : (dat20 (Vi20 m ρ) c).arrAt w cfg20.N = Vo20 m ρ c (Pipeline.arrRef spec20 w) :=
  (Wo20_arr m ρ c w).symm
theorem hrest20 (c : Dev nD) : ∀ b, b ∉ Finset.univ.image (Pipeline.arrRef spec20) → Vo20 m ρ c b = Vi20 m ρ c b :=
  fun b hb => Wo20_of_ne m ρ c b fun w e => hb (Finset.mem_image.mpr ⟨w, Finset.mem_univ _, e⟩)

/-- The arguments leave the region as launched: no region writes one. -/
theorem Wo20_main_arg0 (c : Dev nD) : Wo20 m ρ c (Proc.devRef .tc main_arg0) = m ((c : Thread nD τ).loc main_arg0) :=
  (Wo20_keep m ρ c main_arg0 (by decide)).trans (Wi20_main_arg0 m ρ c)
theorem Wo20_main_arg1 (c : Dev nD) : Wo20 m ρ c (Proc.devRef .tc main_arg1) = m ((c : Thread nD τ).loc main_arg1) :=
  (Wo20_keep m ρ c main_arg1 (by decide)).trans (Wi20_main_arg1 m ρ c)
theorem Wo20_main_arg2 (c : Dev nD) : Wo20 m ρ c (Proc.devRef .tc main_arg2) = m ((c : Thread nD τ).loc main_arg2) :=
  (Wo20_keep m ρ c main_arg2 (by decide)).trans (Wi20_main_arg2 m ρ c)
theorem Wo20_main_arg3 (c : Dev nD) : Wo20 m ρ c (Proc.devRef .tc main_arg3) = m ((c : Thread nD τ).loc main_arg3) :=
  (Wo20_keep m ρ c main_arg3 (by decide)).trans (Wi20_main_arg3 m ρ c)
theorem Wo20_main_arg4 (c : Dev nD) : Wo20 m ρ c (Proc.devRef .tc main_arg4) = m ((c : Thread nD τ).loc main_arg4) :=
  (Wo20_keep m ρ c main_arg4 (by decide)).trans (Wi20_main_arg4 m ρ c)

end Cert.KernelIdeal.Reg

end
-- ==== Proof.KIWalk21.lean ====
/-
  The buffers' contents around region 21: entered from region 20's exit contents; left with its arrays at what its
  pipeline leaves, every other buffer untouched.
-/
import proofs.«107956_j75110388073098_1_alg».proof.Proof.KIRegion21
import proofs.«107956_j75110388073098_1_alg».proof.Proof.KIWalk20

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 21 is entered from what region 20 left. -/
abbrev Wi21 : Dev nD → Valuation τ sig (Elt F) := Wo20 m ρ
theorem Wi21_main_arg0 (c : Dev nD) : Wi21 m ρ c (Proc.devRef .tc main_arg0) = m ((c : Thread nD τ).loc main_arg0) := Wo20_main_arg0 m ρ c
theorem Wi21_main_arg1 (c : Dev nD) : Wi21 m ρ c (Proc.devRef .tc main_arg1) = m ((c : Thread nD τ).loc main_arg1) := Wo20_main_arg1 m ρ c
theorem Wi21_main_arg2 (c : Dev nD) : Wi21 m ρ c (Proc.devRef .tc main_arg2) = m ((c : Thread nD τ).loc main_arg2) := Wo20_main_arg2 m ρ c
theorem Wi21_main_arg3 (c : Dev nD) : Wi21 m ρ c (Proc.devRef .tc main_arg3) = m ((c : Thread nD τ).loc main_arg3) := Wo20_main_arg3 m ρ c
theorem Wi21_main_arg4 (c : Dev nD) : Wi21 m ρ c (Proc.devRef .tc main_arg4) = m ((c : Thread nD τ).loc main_arg4) := Wo20_main_arg4 m ρ c

/-- The same read at the TensorCore's references (what region 21's proof data take). -/
abbrev Vi21 : (c : Dev nD) → (b : Ref sig .tc) → Buf (Elt F) ((c : Thread nD τ).loc b) := fun c b => Wi21 m ρ c b

/-- At region 21's exit: its arrays at what the pipeline leaves (the inputs as entered, each output's write-back),
    every other buffer as entered. -/
def Wo21 (c : Dev nD) : Valuation τ sig (Elt F) :=
  Pipeline.withArrays spec21 c (Wi21 m ρ c) fun w => (dat21 (Vi21 m ρ) c).arrAt w cfg21.N
theorem Wo21_arr (c : Dev nD) (w : Fin cfg21.W) :
    Wo21 m ρ c (Proc.devRef .tc (Pipeline.arrRef spec21 w)) = (dat21 (Vi21 m ρ) c).arrAt w cfg21.N := by
  unfold Wo21; exact Pipeline.withArrays_arr spec21 launch21.win.arr_inj c _ _ w
theorem Wo21_of_ne (c : Dev nD) (b : Ref sig .tc) (hb : ∀ w, Pipeline.arrRef spec21 w ≠ b) :
    Wo21 m ρ c (Proc.devRef .tc b) = Wi21 m ρ c (Proc.devRef .tc b) := by
  unfold Wo21; exact Pipeline.withArrays_of_ne spec21 c _ _ b hb
/-- A buffer that is no OUTPUT window's array leaves the region as it entered it: an input window's array is only
    read, and a buffer outside the windows is not touched. -/
theorem Wo21_keep (c : Dev nD) (b : Ref sig .tc) (hb : ∀ w, (cfg21.win w).isOut = true → Pipeline.arrRef spec21 w ≠ b) :
    Wo21 m ρ c (Proc.devRef .tc b) = Wi21 m ρ c (Proc.devRef .tc b) := by
  by_cases h : ∃ w, Pipeline.arrRef spec21 w = b
  · obtain ⟨w, rfl⟩ := h
    have hin : (cfg21.win w).isOut = false := by
      cases hw : (cfg21.win w).isOut
      · rfl
      · exact absurd rfl (hb w hw)
    exact (Wo21_arr m ρ c w).trans (((dat21 (Vi21 m ρ) c).arrAt_in w hin _).trans (A_eq21 (Vi21 m ρ) c w))
  · exact Wo21_of_ne m ρ c b fun w e => h ⟨w, e⟩
/-- The same read at the TensorCore's references (region 21's exit contents). -/
abbrev Vo21 : (c : Dev nD) → (b : Ref sig .tc) → Buf (Elt F) ((c : Thread nD τ).loc b) := fun c b => Wo21 m ρ c b
theorem hF21 (c : Dev nD) (w : Fin cfg21.W) : (dat21 (Vi21 m ρ) c).arrAt w cfg21.N = Vo21 m ρ c (Pipeline.arrRef spec21 w) :=
  (Wo21_arr m ρ c w).symm
theorem hrest21 (c : Dev nD) : ∀ b, b ∉ Finset.univ.image (Pipeline.arrRef spec21) → Vo21 m ρ c b = Vi21 m ρ c b :=
  fun b hb => Wo21_of_ne m ρ c b fun w e => hb (Finset.mem_image.mpr ⟨w, Finset.mem_univ _, e⟩)

/-- The arguments leave the region as launched: no region writes one. -/
theorem Wo21_main_arg0 (c : Dev nD) : Wo21 m ρ c (Proc.devRef .tc main_arg0) = m ((c : Thread nD τ).loc main_arg0) :=
  (Wo21_keep m ρ c main_arg0 (by decide)).trans (Wi21_main_arg0 m ρ c)
theorem Wo21_main_arg1 (c : Dev nD) : Wo21 m ρ c (Proc.devRef .tc main_arg1) = m ((c : Thread nD τ).loc main_arg1) :=
  (Wo21_keep m ρ c main_arg1 (by decide)).trans (Wi21_main_arg1 m ρ c)
theorem Wo21_main_arg2 (c : Dev nD) : Wo21 m ρ c (Proc.devRef .tc main_arg2) = m ((c : Thread nD τ).loc main_arg2) :=
  (Wo21_keep m ρ c main_arg2 (by decide)).trans (Wi21_main_arg2 m ρ c)
theorem Wo21_main_arg3 (c : Dev nD) : Wo21 m ρ c (Proc.devRef .tc main_arg3) = m ((c : Thread nD τ).loc main_arg3) :=
  (Wo21_keep m ρ c main_arg3 (by decide)).trans (Wi21_main_arg3 m ρ c)
theorem Wo21_main_arg4 (c : Dev nD) : Wo21 m ρ c (Proc.devRef .tc main_arg4) = m ((c : Thread nD τ).loc main_arg4) :=
  (Wo21_keep m ρ c main_arg4 (by decide)).trans (Wi21_main_arg4 m ρ c)

end Cert.KernelIdeal.Reg

end
-- ==== Proof.KIWalk22.lean ====
/-
  The buffers' contents around region 22: entered from region 21's exit contents; left with its arrays at what its
  pipeline leaves, every other buffer untouched.
-/
import proofs.«107956_j75110388073098_1_alg».proof.Proof.KIRegion22
import proofs.«107956_j75110388073098_1_alg».proof.Proof.KIWalk21

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Region 22 is entered from what region 21 left. -/
abbrev Wi22 : Dev nD → Valuation τ sig (Elt F) := Wo21 m ρ
theorem Wi22_main_arg0 (c : Dev nD) : Wi22 m ρ c (Proc.devRef .tc main_arg0) = m ((c : Thread nD τ).loc main_arg0) := Wo21_main_arg0 m ρ c
theorem Wi22_main_arg1 (c : Dev nD) : Wi22 m ρ c (Proc.devRef .tc main_arg1) = m ((c : Thread nD τ).loc main_arg1) := Wo21_main_arg1 m ρ c
theorem Wi22_main_arg2 (c : Dev nD) : Wi22 m ρ c (Proc.devRef .tc main_arg2) = m ((c : Thread nD τ).loc main_arg2) := Wo21_main_arg2 m ρ c
theorem Wi22_main_arg3 (c : Dev nD) : Wi22 m ρ c (Proc.devRef .tc main_arg3) = m ((c : Thread nD τ).loc main_arg3) := Wo21_main_arg3 m ρ c
theorem Wi22_main_arg4 (c : Dev nD) : Wi22 m ρ c (Proc.devRef .tc main_arg4) = m ((c : Thread nD τ).loc main_arg4) := Wo21_main_arg4 m ρ c

/-- The same read at the TensorCore's references (what region 22's proof data take). -/
abbrev Vi22 : (c : Dev nD) → (b : Ref sig .tc) → Buf (Elt F) ((c : Thread nD τ).loc b) := fun c b => Wi22 m ρ c b

/-- At region 22's exit: its arrays at what the pipeline leaves (the inputs as entered, each output's write-back),
    every other buffer as entered. -/
def Wo22 (c : Dev nD) : Valuation τ sig (Elt F) :=
  Pipeline.withArrays spec22 c (Wi22 m ρ c) fun w => (dat22 (Vi22 m ρ) c).arrAt w cfg22.N
theorem Wo22_arr (c : Dev nD) (w : Fin cfg22.W) :
    Wo22 m ρ c (Proc.devRef .tc (Pipeline.arrRef spec22 w)) = (dat22 (Vi22 m ρ) c).arrAt w cfg22.N := by
  unfold Wo22; exact Pipeline.withArrays_arr spec22 launch22.win.arr_inj c _ _ w
theorem Wo22_of_ne (c : Dev nD) (b : Ref sig .tc) (hb : ∀ w, Pipeline.arrRef spec22 w ≠ b) :
    Wo22 m ρ c (Proc.devRef .tc b) = Wi22 m ρ c (Proc.devRef .tc b) := by
  unfold Wo22; exact Pipeline.withArrays_of_ne spec22 c _ _ b hb
/-- A buffer that is no OUTPUT window's array leaves the region as it entered it: an input window's array is only
    read, and a buffer outside the windows is not touched. -/
theorem Wo22_keep (c : Dev nD) (b : Ref sig .tc) (hb : ∀ w, (cfg22.win w).isOut = true → Pipeline.arrRef spec22 w ≠ b) :
    Wo22 m ρ c (Proc.devRef .tc b) = Wi22 m ρ c (Proc.devRef .tc b) := by
  by_cases h : ∃ w, Pipeline.arrRef spec22 w = b
  · obtain ⟨w, rfl⟩ := h
    have hin : (cfg22.win w).isOut = false := by
      cases hw : (cfg22.win w).isOut
      · rfl
      · exact absurd rfl (hb w hw)
    exact (Wo22_arr m ρ c w).trans (((dat22 (Vi22 m ρ) c).arrAt_in w hin _).trans (A_eq22 (Vi22 m ρ) c w))
  · exact Wo22_of_ne m ρ c b fun w e => h ⟨w, e⟩
/-- The same read at the TensorCore's references (region 22's exit contents). -/
abbrev Vo22 : (c : Dev nD) → (b : Ref sig .tc) → Buf (Elt F) ((c : Thread nD τ).loc b) := fun c b => Wo22 m ρ c b
theorem hF22 (c : Dev nD) (w : Fin cfg22.W) : (dat22 (Vi22 m ρ) c).arrAt w cfg22.N = Vo22 m ρ c (Pipeline.arrRef spec22 w) :=
  (Wo22_arr m ρ c w).symm
theorem hrest22 (c : Dev nD) : ∀ b, b ∉ Finset.univ.image (Pipeline.arrRef spec22) → Vo22 m ρ c b = Vi22 m ρ c b :=
  fun b hb => Wo22_of_ne m ρ c b fun w e => hb (Finset.mem_image.mpr ⟨w, Finset.mem_univ _, e⟩)

/-- The arguments leave the region as launched: no region writes one. -/
theorem Wo22_main_arg0 (c : Dev nD) : Wo22 m ρ c (Proc.devRef .tc main_arg0) = m ((c : Thread nD τ).loc main_arg0) :=
  (Wo22_keep m ρ c main_arg0 (by decide)).trans (Wi22_main_arg0 m ρ c)
theorem Wo22_main_arg1 (c : Dev nD) : Wo22 m ρ c (Proc.devRef .tc main_arg1) = m ((c : Thread nD τ).loc main_arg1) :=
  (Wo22_keep m ρ c main_arg1 (by decide)).trans (Wi22_main_arg1 m ρ c)
theorem Wo22_main_arg2 (c : Dev nD) : Wo22 m ρ c (Proc.devRef .tc main_arg2) = m ((c : Thread nD τ).loc main_arg2) :=
  (Wo22_keep m ρ c main_arg2 (by decide)).trans (Wi22_main_arg2 m ρ c)
theorem Wo22_main_arg3 (c : Dev nD) : Wo22 m ρ c (Proc.devRef .tc main_arg3) = m ((c : Thread nD τ).loc main_arg3) :=
  (Wo22_keep m ρ c main_arg3 (by decide)).trans (Wi22_main_arg3 m ρ c)
theorem Wo22_main_arg4 (c : Dev nD) : Wo22 m ρ c (Proc.devRef .tc main_arg4) = m ((c : Thread nD τ).loc main_arg4) :=
  (Wo22_keep m ρ c main_arg4 (by decide)).trans (Wi22_main_arg4 m ρ c)

end Cert.KernelIdeal.Reg

end
-- ==== Proof.KIData.lean ====
/-
  Every pipeline's proof data, each at its region's entry contents, and what rides beside the buffers through every
  segment of @main: the core's generator register at some state and its dues, at nothing.
-/
import proofs.«107956_j75110388073098_1_alg».proof.Proof.KIWalk22

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents: a literal match on the pipeline's index. -/
def pdats : (p : Fin 23) → (c : Dev nD) → Dat τ (Elt F) Unit ℕ (UR sig nD τ) ℕ (Pipeline.pin (pcfgs (F := F)) adm p) c
  | ⟨0, _⟩ => fun c => dat0 (Vi0 m ρ) c
  | ⟨1, _⟩ => fun c => dat1 (Vi1 m ρ) c
  | ⟨2, _⟩ => fun c => dat2 (Vi2 m ρ) c
  | ⟨3, _⟩ => fun c => dat3 (Vi3 m ρ) c
  | ⟨4, _⟩ => fun c => dat4 (Vi4 m ρ) c
  | ⟨5, _⟩ => fun c => dat5 (Vi5 m ρ) c
  | ⟨6, _⟩ => fun c => dat6 (Vi6 m ρ) c
  | ⟨7, _⟩ => fun c => dat7 (Vi7 m ρ) c
  | ⟨8, _⟩ => fun c => dat8 (Vi8 m ρ) c
  | ⟨9, _⟩ => fun c => dat9 (Vi9 m ρ) c
  | ⟨10, _⟩ => fun c => dat10 (Vi10 m ρ) c
  | ⟨11, _⟩ => fun c => dat11 (Vi11 m ρ) c
  | ⟨12, _⟩ => fun c => dat12 (Vi12 m ρ) c
  | ⟨13, _⟩ => fun c => dat13 (Vi13 m ρ) c
  | ⟨14, _⟩ => fun c => dat14 (Vi14 m ρ) c
  | ⟨15, _⟩ => fun c => dat15 (Vi15 m ρ) c
  | ⟨16, _⟩ => fun c => dat16 (Vi16 m ρ) c
  | ⟨17, _⟩ => fun c => dat17 (Vi17 m ρ) c
  | ⟨18, _⟩ => fun c => dat18 (Vi18 m ρ) c
  | ⟨19, _⟩ => fun c => dat19 (Vi19 m ρ) c
  | ⟨20, _⟩ => fun c => dat20 (Vi20 m ρ) c
  | ⟨21, _⟩ => fun c => dat21 (Vi21 m ρ) c
  | ⟨22, _⟩ => fun c => dat22 (Vi22 m ρ) c
  | ⟨_ + 23, h⟩ => absurd h (Nat.not_lt.2 (Nat.le_add_left _ _))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Reg

end
-- ==== Proof.KISeg0.lean ====
/-
  Region 0 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vi0 m ρ) c).loose
  hwaits := Pipeline.hwaits_of_owed_zero _ _ _ _ L lv 0 fun _ _ => rfl
  pre c := iprop(StableHlo.held (c : Thread nD τ) (Pipeline.ucRefs τ sig) (Wi0 m ρ c) ∗ R c)
  post c := iprop(StableHlo.held (c : Thread nD τ) (Pipeline.ucRefs τ sig) (Wo0 m ρ c) ∗ R c)
  X c := iprop(∃ r, prngReg c r)
  Y c := iprop(∃ r, prngReg c r)
  Z c := Pipeline.unscopedRest (Ix := Unit) (Name := ℕ) (U := UR sig nD τ) (Lvl := ℕ) spec0 c (Vi0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vi0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vi0 m ρ c) (Vo0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg1.lean ====
/-
  Region 0 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vi1 m ρ) c).loose
  hwaits := Pipeline.hwaits_of_owed_zero _ _ _ _ L lv 1 fun _ _ => rfl
  pre c := iprop(StableHlo.held (c : Thread nD τ) (Pipeline.ucRefs τ sig) (Wi1 m ρ c) ∗ R c)
  post c := iprop(StableHlo.held (c : Thread nD τ) (Pipeline.ucRefs τ sig) (Wo1 m ρ c) ∗ R c)
  X c := iprop(∃ r, prngReg c r)
  Y c := iprop(∃ r, prngReg c r)
  Z c := Pipeline.unscopedRest (Ix := Unit) (Name := ℕ) (U := UR sig nD τ) (Lvl := ℕ) spec1 c (Vi1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vi1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vi1 m ρ c) (Vo1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg2.lean ====
/-
  Region 2 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vi2 m ρ) c).loose
  hwaits := Pipeline.hwaits_of_owed_zero _ _ _ _ L lv 2 fun _ _ => rfl
  pre c := iprop(StableHlo.held (c : Thread nD τ) (Pipeline.ucRefs τ sig) (Wi2 m ρ c) ∗ R c)
  post c := iprop(StableHlo.held (c : Thread nD τ) (Pipeline.ucRefs τ sig) (Wo2 m ρ c) ∗ R c)
  X c := iprop(∃ r, prngReg c r)
  Y c := iprop(∃ r, prngReg c r)
  Z c := Pipeline.unscopedRest (Ix := Unit) (Name := ℕ) (U := UR sig nD τ) (Lvl := ℕ) spec2 c (Vi2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vi2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vi2 m ρ c) (Vo2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg3.lean ====
/-
  Region 3 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vi3 m ρ) c).loose
  hwaits := Pipeline.hwaits_of_owed_zero _ _ _ _ L lv 3 fun _ _ => rfl
  pre c := iprop(StableHlo.held (c : Thread nD τ) (Pipeline.ucRefs τ sig) (Wi3 m ρ c) ∗ R c)
  post c := iprop(StableHlo.held (c : Thread nD τ) (Pipeline.ucRefs τ sig) (Wo3 m ρ c) ∗ R c)
  X c := iprop(∃ r, prngReg c r)
  Y c := iprop(∃ r, prngReg c r)
  Z c := Pipeline.unscopedRest (Ix := Unit) (Name := ℕ) (U := UR sig nD τ) (Lvl := ℕ) spec3 c (Vi3 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vi3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vi3 m ρ c) (Vo3 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg4.lean ====
/-
  Region 4 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vi4 m ρ) c).loose
  hwaits := Pipeline.hwaits_of_owed_zero _ _ _ _ L lv 4 fun _ _ => rfl
  pre c := iprop(StableHlo.held (c : Thread nD τ) (Pipeline.ucRefs τ sig) (Wi4 m ρ c) ∗ R c)
  post c := iprop(StableHlo.held (c : Thread nD τ) (Pipeline.ucRefs τ sig) (Wo4 m ρ c) ∗ R c)
  X c := iprop(∃ r, prngReg c r)
  Y c := iprop(∃ r, prngReg c r)
  Z c := Pipeline.unscopedRest (Ix := Unit) (Name := ℕ) (U := UR sig nD τ) (Lvl := ℕ) spec4 c (Vi4 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (Vi4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (Vi4 m ρ c) (Vo4 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg5.lean ====
/-
  Region 5 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg5 : Pipeline.RegionSeg (pcfgs (F := F)) adm (pdats m ρ) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vi5 m ρ) c).loose
  hwaits := Pipeline.hwaits_of_owed_zero _ _ _ _ L lv 5 fun _ _ => rfl
  pre c := iprop(StableHlo.held (c : Thread nD τ) (Pipeline.ucRefs τ sig) (Wi5 m ρ c) ∗ R c)
  post c := iprop(StableHlo.held (c : Thread nD τ) (Pipeline.ucRefs τ sig) (Wo5 m ρ c) ∗ R c)
  X c := iprop(∃ r, prngReg c r)
  Y c := iprop(∃ r, prngReg c r)
  Z c := Pipeline.unscopedRest (Ix := Unit) (Name := ℕ) (U := UR sig nD τ) (Lvl := ℕ) spec5 c (Vi5 m ρ c)
  hentry c := by
    rw [Pipeline.ownSems0_none]
    have hsplit := Pipeline.arrays_of_unscopedBufs (p := 5) (pcfgs (F := F)) adm (pdats m ρ) launch5.win launch5.arr_whole c
      ((pdats m ρ 5 c).share_full fun _ => rfl) (Vi5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m ρ) ((pdats m ρ 5 c).share_full fun _ => rfl)
      (Vi5 m ρ c) (Vo5 m ρ c) ((pdats m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg6.lean ====
/-
  Region 6 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg6 : Pipeline.RegionSeg (pcfgs (F := F)) adm (pdats m ρ) () defs₀ 𝒱₀ L lv 6 where
  win := launch6.win.to₀
  block_pos := launch6.block_pos
  stage_whole := launch6.stage_whole
  K := PEmpty
  osem k := k.elim
  ho := Pipeline.OwnSemFacts.none _
  hbody c := (body_obligation6 (Vi6 m ρ) c).loose
  hwaits := Pipeline.hwaits_of_owed_zero _ _ _ _ L lv 6 fun _ _ => rfl
  pre c := iprop(StableHlo.held (c : Thread nD τ) (Pipeline.ucRefs τ sig) (Wi6 m ρ c) ∗ R c)
  post c := iprop(StableHlo.held (c : Thread nD τ) (Pipeline.ucRefs τ sig) (Wo6 m ρ c) ∗ R c)
  X c := iprop(∃ r, prngReg c r)
  Y c := iprop(∃ r, prngReg c r)
  Z c := Pipeline.unscopedRest (Ix := Unit) (Name := ℕ) (U := UR sig nD τ) (Lvl := ℕ) spec6 c (Vi6 m ρ c)
  hentry c := by
    rw [Pipeline.ownSems0_none]
    have hsplit := Pipeline.arrays_of_unscopedBufs (p := 6) (pcfgs (F := F)) adm (pdats m ρ) launch6.win launch6.arr_whole c
      ((pdats m ρ 6 c).share_full fun _ => rfl) (Vi6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m ρ) ((pdats m ρ 6 c).share_full fun _ => rfl)
      (Vi6 m ρ c) (Vo6 m ρ c) ((pdats m ρ 6 c).arrAt · cfg6.N) (hF6 m ρ c) (hrest6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg7.lean ====
/-
  Region 7 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg7 : Pipeline.RegionSeg (pcfgs (F := F)) adm (pdats m ρ) () defs₀ 𝒱₀ L lv 7 where
  win := launch7.win.to₀
  block_pos := launch7.block_pos
  stage_whole := launch7.stage_whole
  K := PEmpty
  osem k := k.elim
  ho := Pipeline.OwnSemFacts.none _
  hbody c := (body_obligation7 (Vi7 m ρ) c).loose
  hwaits := Pipeline.hwaits_of_owed_zero _ _ _ _ L lv 7 fun _ _ => rfl
  pre c := iprop(StableHlo.held (c : Thread nD τ) (Pipeline.ucRefs τ sig) (Wi7 m ρ c) ∗ R c)
  post c := iprop(StableHlo.held (c : Thread nD τ) (Pipeline.ucRefs τ sig) (Wo7 m ρ c) ∗ R c)
  X c := iprop(∃ r, prngReg c r)
  Y c := iprop(∃ r, prngReg c r)
  Z c := Pipeline.unscopedRest (Ix := Unit) (Name := ℕ) (U := UR sig nD τ) (Lvl := ℕ) spec7 c (Vi7 m ρ c)
  hentry c := by
    rw [Pipeline.ownSems0_none]
    have hsplit := Pipeline.arrays_of_unscopedBufs (p := 7) (pcfgs (F := F)) adm (pdats m ρ) launch7.win launch7.arr_whole c
      ((pdats m ρ 7 c).share_full fun _ => rfl) (Vi7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m ρ) ((pdats m ρ 7 c).share_full fun _ => rfl)
      (Vi7 m ρ c) (Vo7 m ρ c) ((pdats m ρ 7 c).arrAt · cfg7.N) (hF7 m ρ c) (hrest7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg8.lean ====
/-
  Region 8 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg8 : Pipeline.RegionSeg (pcfgs (F := F)) adm (pdats m ρ) () defs₀ 𝒱₀ L lv 8 where
  win := launch8.win.to₀
  block_pos := launch8.block_pos
  stage_whole := launch8.stage_whole
  K := PEmpty
  osem k := k.elim
  ho := Pipeline.OwnSemFacts.none _
  hbody c := (body_obligation8 (Vi8 m ρ) c).loose
  hwaits := Pipeline.hwaits_of_owed_zero _ _ _ _ L lv 8 fun _ _ => rfl
  pre c := iprop(StableHlo.held (c : Thread nD τ) (Pipeline.ucRefs τ sig) (Wi8 m ρ c) ∗ R c)
  post c := iprop(StableHlo.held (c : Thread nD τ) (Pipeline.ucRefs τ sig) (Wo8 m ρ c) ∗ R c)
  X c := iprop(∃ r, prngReg c r)
  Y c := iprop(∃ r, prngReg c r)
  Z c := Pipeline.unscopedRest (Ix := Unit) (Name := ℕ) (U := UR sig nD τ) (Lvl := ℕ) spec8 c (Vi8 m ρ c)
  hentry c := by
    rw [Pipeline.ownSems0_none]
    have hsplit := Pipeline.arrays_of_unscopedBufs (p := 8) (pcfgs (F := F)) adm (pdats m ρ) launch8.win launch8.arr_whole c
      ((pdats m ρ 8 c).share_full fun _ => rfl) (Vi8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m ρ 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m ρ) ((pdats m ρ 8 c).share_full fun _ => rfl)
      (Vi8 m ρ c) (Vo8 m ρ c) ((pdats m ρ 8 c).arrAt · cfg8.N) (hF8 m ρ c) (hrest8 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg9.lean ====
/-
  Region 9 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg9 : Pipeline.RegionSeg (pcfgs (F := F)) adm (pdats m ρ) () defs₀ 𝒱₀ L lv 9 where
  win := launch9.win.to₀
  block_pos := launch9.block_pos
  stage_whole := launch9.stage_whole
  K := PEmpty
  osem k := k.elim
  ho := Pipeline.OwnSemFacts.none _
  hbody c := (body_obligation9 (Vi9 m ρ) c).loose
  hwaits := Pipeline.hwaits_of_owed_zero _ _ _ _ L lv 9 fun _ _ => rfl
  pre c := iprop(StableHlo.held (c : Thread nD τ) (Pipeline.ucRefs τ sig) (Wi9 m ρ c) ∗ R c)
  post c := iprop(StableHlo.held (c : Thread nD τ) (Pipeline.ucRefs τ sig) (Wo9 m ρ c) ∗ R c)
  X c := iprop(∃ r, prngReg c r)
  Y c := iprop(∃ r, prngReg c r)
  Z c := Pipeline.unscopedRest (Ix := Unit) (Name := ℕ) (U := UR sig nD τ) (Lvl := ℕ) spec9 c (Vi9 m ρ c)
  hentry c := by
    rw [Pipeline.ownSems0_none]
    have hsplit := Pipeline.arrays_of_unscopedBufs (p := 9) (pcfgs (F := F)) adm (pdats m ρ) launch9.win launch9.arr_whole c
      ((pdats m ρ 9 c).share_full fun _ => rfl) (Vi9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m ρ 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m ρ) ((pdats m ρ 9 c).share_full fun _ => rfl)
      (Vi9 m ρ c) (Vo9 m ρ c) ((pdats m ρ 9 c).arrAt · cfg9.N) (hF9 m ρ c) (hrest9 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg10.lean ====
/-
  Region 10 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg10 : Pipeline.RegionSeg (pcfgs (F := F)) adm (pdats m ρ) () defs₀ 𝒱₀ L lv 10 where
  win := launch10.win.to₀
  block_pos := launch10.block_pos
  stage_whole := launch10.stage_whole
  K := PEmpty
  osem k := k.elim
  ho := Pipeline.OwnSemFacts.none _
  hbody c := (body_obligation10 (Vi10 m ρ) c).loose
  hwaits := Pipeline.hwaits_of_owed_zero _ _ _ _ L lv 10 fun _ _ => rfl
  pre c := iprop(StableHlo.held (c : Thread nD τ) (Pipeline.ucRefs τ sig) (Wi10 m ρ c) ∗ R c)
  post c := iprop(StableHlo.held (c : Thread nD τ) (Pipeline.ucRefs τ sig) (Wo10 m ρ c) ∗ R c)
  X c := iprop(∃ r, prngReg c r)
  Y c := iprop(∃ r, prngReg c r)
  Z c := Pipeline.unscopedRest (Ix := Unit) (Name := ℕ) (U := UR sig nD τ) (Lvl := ℕ) spec10 c (Vi10 m ρ c)
  hentry c := by
    rw [Pipeline.ownSems0_none]
    have hsplit := Pipeline.arrays_of_unscopedBufs (p := 10) (pcfgs (F := F)) adm (pdats m ρ) launch10.win launch10.arr_whole c
      ((pdats m ρ 10 c).share_full fun _ => rfl) (Vi10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m ρ 10 c).Φ (Fin.last _) = Pipeline.ΦA spec10 c from rfl]; unfold Pipeline.ΦA
    iintro ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m ρ) ((pdats m ρ 10 c).share_full fun _ => rfl)
      (Vi10 m ρ c) (Vo10 m ρ c) ((pdats m ρ 10 c).arrAt · cfg10.N) (hF10 m ρ c) (hrest10 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg11.lean ====
/-
  Region 11 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg11 : Pipeline.RegionSeg (pcfgs (F := F)) adm (pdats m ρ) () defs₀ 𝒱₀ L lv 11 where
  win := launch11.win.to₀
  block_pos := launch11.block_pos
  stage_whole := launch11.stage_whole
  K := PEmpty
  osem k := k.elim
  ho := Pipeline.OwnSemFacts.none _
  hbody c := (body_obligation11 (Vi11 m ρ) c).loose
  hwaits := Pipeline.hwaits_of_owed_zero _ _ _ _ L lv 11 fun _ _ => rfl
  pre c := iprop(StableHlo.held (c : Thread nD τ) (Pipeline.ucRefs τ sig) (Wi11 m ρ c) ∗ R c)
  post c := iprop(StableHlo.held (c : Thread nD τ) (Pipeline.ucRefs τ sig) (Wo11 m ρ c) ∗ R c)
  X c := iprop(∃ r, prngReg c r)
  Y c := iprop(∃ r, prngReg c r)
  Z c := Pipeline.unscopedRest (Ix := Unit) (Name := ℕ) (U := UR sig nD τ) (Lvl := ℕ) spec11 c (Vi11 m ρ c)
  hentry c := by
    rw [Pipeline.ownSems0_none]
    have hsplit := Pipeline.arrays_of_unscopedBufs (p := 11) (pcfgs (F := F)) adm (pdats m ρ) launch11.win launch11.arr_whole c
      ((pdats m ρ 11 c).share_full fun _ => rfl) (Vi11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m ρ 11 c).Φ (Fin.last _) = Pipeline.ΦA spec11 c from rfl]; unfold Pipeline.ΦA
    iintro ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m ρ) ((pdats m ρ 11 c).share_full fun _ => rfl)
      (Vi11 m ρ c) (Vo11 m ρ c) ((pdats m ρ 11 c).arrAt · cfg11.N) (hF11 m ρ c) (hrest11 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg12.lean ====
/-
  Region 12 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg12 : Pipeline.RegionSeg (pcfgs (F := F)) adm (pdats m ρ) () defs₀ 𝒱₀ L lv 12 where
  win := launch12.win.to₀
  block_pos := launch12.block_pos
  stage_whole := launch12.stage_whole
  K := PEmpty
  osem k := k.elim
  ho := Pipeline.OwnSemFacts.none _
  hbody c := (body_obligation12 (Vi12 m ρ) c).loose
  hwaits := Pipeline.hwaits_of_owed_zero _ _ _ _ L lv 12 fun _ _ => rfl
  pre c := iprop(StableHlo.held (c : Thread nD τ) (Pipeline.ucRefs τ sig) (Wi12 m ρ c) ∗ R c)
  post c := iprop(StableHlo.held (c : Thread nD τ) (Pipeline.ucRefs τ sig) (Wo12 m ρ c) ∗ R c)
  X c := iprop(∃ r, prngReg c r)
  Y c := iprop(∃ r, prngReg c r)
  Z c := Pipeline.unscopedRest (Ix := Unit) (Name := ℕ) (U := UR sig nD τ) (Lvl := ℕ) spec12 c (Vi12 m ρ c)
  hentry c := by
    rw [Pipeline.ownSems0_none]
    have hsplit := Pipeline.arrays_of_unscopedBufs (p := 12) (pcfgs (F := F)) adm (pdats m ρ) launch12.win launch12.arr_whole c
      ((pdats m ρ 12 c).share_full fun _ => rfl) (Vi12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m ρ 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m ρ) ((pdats m ρ 12 c).share_full fun _ => rfl)
      (Vi12 m ρ c) (Vo12 m ρ c) ((pdats m ρ 12 c).arrAt · cfg12.N) (hF12 m ρ c) (hrest12 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg13.lean ====
/-
  Region 13 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg13 : Pipeline.RegionSeg (pcfgs (F := F)) adm (pdats m ρ) () defs₀ 𝒱₀ L lv 13 where
  win := launch13.win.to₀
  block_pos := launch13.block_pos
  stage_whole := launch13.stage_whole
  K := PEmpty
  osem k := k.elim
  ho := Pipeline.OwnSemFacts.none _
  hbody c := (body_obligation13 (Vi13 m ρ) c).loose
  hwaits := Pipeline.hwaits_of_owed_zero _ _ _ _ L lv 13 fun _ _ => rfl
  pre c := iprop(StableHlo.held (c : Thread nD τ) (Pipeline.ucRefs τ sig) (Wi13 m ρ c) ∗ R c)
  post c := iprop(StableHlo.held (c : Thread nD τ) (Pipeline.ucRefs τ sig) (Wo13 m ρ c) ∗ R c)
  X c := iprop(∃ r, prngReg c r)
  Y c := iprop(∃ r, prngReg c r)
  Z c := Pipeline.unscopedRest (Ix := Unit) (Name := ℕ) (U := UR sig nD τ) (Lvl := ℕ) spec13 c (Vi13 m ρ c)
  hentry c := by
    rw [Pipeline.ownSems0_none]
    have hsplit := Pipeline.arrays_of_unscopedBufs (p := 13) (pcfgs (F := F)) adm (pdats m ρ) launch13.win launch13.arr_whole c
      ((pdats m ρ 13 c).share_full fun _ => rfl) (Vi13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 13 c).Φ 0 = Pipeline.ΦA spec13 c from rfl]; unfold Pipeline.ΦA
    iintro ⟨Hp, -, Hr⟩
    isplitl [Hr]; · iexact Hr
    iexact Hp
  hout c := by
    rw [Pipeline.ownSems0_none, show (pdats m ρ 13 c).Φ (Fin.last _) = Pipeline.ΦA spec13 c from rfl]; unfold Pipeline.ΦA
    iintro ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m ρ) ((pdats m ρ 13 c).share_full fun _ => rfl)
      (Vi13 m ρ c) (Vo13 m ρ c) ((pdats m ρ 13 c).arrAt · cfg13.N) (hF13 m ρ c) (hrest13 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg14.lean ====
/-
  Region 14 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg14 : Pipeline.RegionSeg (pcfgs (F := F)) adm (pdats m ρ) () defs₀ 𝒱₀ L lv 14 where
  win := launch14.win.to₀
  block_pos := launch14.block_pos
  stage_whole := launch14.stage_whole
  K := PEmpty
  osem k := k.elim
  ho := Pipeline.OwnSemFacts.none _
  hbody c := (body_obligation14 (Vi14 m ρ) c).loose
  hwaits := Pipeline.hwaits_of_owed_zero _ _ _ _ L lv 14 fun _ _ => rfl
  pre c := iprop(StableHlo.held (c : Thread nD τ) (Pipeline.ucRefs τ sig) (Wi14 m ρ c) ∗ R c)
  post c := iprop(StableHlo.held (c : Thread nD τ) (Pipeline.ucRefs τ sig) (Wo14 m ρ c) ∗ R c)
  X c := iprop(∃ r, prngReg c r)
  Y c := iprop(∃ r, prngReg c r)
  Z c := Pipeline.unscopedRest (Ix := Unit) (Name := ℕ) (U := UR sig nD τ) (Lvl := ℕ) spec14 c (Vi14 m ρ c)
  hentry c := by
    rw [Pipeline.ownSems0_none]
    have hsplit := Pipeline.arrays_of_unscopedBufs (p := 14) (pcfgs (F := F)) adm (pdats m ρ) launch14.win launch14.arr_whole c
      ((pdats m ρ 14 c).share_full fun _ => rfl) (Vi14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 14 c).Φ 0 = Pipeline.ΦA spec14 c from rfl]; unfold Pipeline.ΦA
    iintro ⟨Hp, -, Hr⟩
    isplitl [Hr]; · iexact Hr
    iexact Hp
  hout c := by
    rw [Pipeline.ownSems0_none, show (pdats m ρ 14 c).Φ (Fin.last _) = Pipeline.ΦA spec14 c from rfl]; unfold Pipeline.ΦA
    iintro ⟨Hr, Hp⟩
    isplitl [Hp]; · iexact Hp
    isplitr; · iempintro
    iexact Hr
  hexit c := by
    have hjoin := Pipeline.unscopedBufs_of_arrays (p := 14) (pcfgs (F := F)) adm (Ix := Unit) (Name := ℕ) (U := UR sig nD τ) (Lvl := ℕ)
      launch14.win launch14.arr_whole c (pdats m ρ) ((pdats m ρ 14 c).share_full fun _ => rfl)
      (Vi14 m ρ c) (Vo14 m ρ c) ((pdats m ρ 14 c).arrAt · cfg14.N) (hF14 m ρ c) (hrest14 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg15.lean ====
/-
  Region 15 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg15 : Pipeline.RegionSeg (pcfgs (F := F)) adm (pdats m ρ) () defs₀ 𝒱₀ L lv 15 where
  win := launch15.win.to₀
  block_pos := launch15.block_pos
  stage_whole := launch15.stage_whole
  K := PEmpty
  osem k := k.elim
  ho := Pipeline.OwnSemFacts.none _
  hbody c := (body_obligation15 (Vi15 m ρ) c).loose
  hwaits := Pipeline.hwaits_of_owed_zero _ _ _ _ L lv 15 fun _ _ => rfl
  pre c := iprop(StableHlo.held (c : Thread nD τ) (Pipeline.ucRefs τ sig) (Wi15 m ρ c) ∗ R c)
  post c := iprop(StableHlo.held (c : Thread nD τ) (Pipeline.ucRefs τ sig) (Wo15 m ρ c) ∗ R c)
  X c := iprop(∃ r, prngReg c r)
  Y c := iprop(∃ r, prngReg c r)
  Z c := Pipeline.unscopedRest (Ix := Unit) (Name := ℕ) (U := UR sig nD τ) (Lvl := ℕ) spec15 c (Vi15 m ρ c)
  hentry c := by
    rw [Pipeline.ownSems0_none]
    have hsplit := Pipeline.arrays_of_unscopedBufs (p := 15) (pcfgs (F := F)) adm (pdats m ρ) launch15.win launch15.arr_whole c
      ((pdats m ρ 15 c).share_full fun _ => rfl) (Vi15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 15 c).Φ 0 = Pipeline.ΦA spec15 c from rfl]; unfold Pipeline.ΦA
    iintro ⟨Hp, -, Hr⟩
    isplitl [Hr]; · iexact Hr
    iexact Hp
  hout c := by
    rw [Pipeline.ownSems0_none, show (pdats m ρ 15 c).Φ (Fin.last _) = Pipeline.ΦA spec15 c from rfl]; unfold Pipeline.ΦA
    iintro ⟨Hr, Hp⟩
    isplitl [Hp]; · iexact Hp
    isplitr; · iempintro
    iexact Hr
  hexit c := by
    have hjoin := Pipeline.unscopedBufs_of_arrays (p := 15) (pcfgs (F := F)) adm (Ix := Unit) (Name := ℕ) (U := UR sig nD τ) (Lvl := ℕ)
      launch15.win launch15.arr_whole c (pdats m ρ) ((pdats m ρ 15 c).share_full fun _ => rfl)
      (Vi15 m ρ c) (Vo15 m ρ c) ((pdats m ρ 15 c).arrAt · cfg15.N) (hF15 m ρ c) (hrest15 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg16.lean ====
/-
  Region 16 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg16 : Pipeline.RegionSeg (pcfgs (F := F)) adm (pdats m ρ) () defs₀ 𝒱₀ L lv 16 where
  win := launch16.win.to₀
  block_pos := launch16.block_pos
  stage_whole := launch16.stage_whole
  K := PEmpty
  osem k := k.elim
  ho := Pipeline.OwnSemFacts.none _
  hbody c := (body_obligation16 (Vi16 m ρ) c).loose
  hwaits := Pipeline.hwaits_of_owed_zero _ _ _ _ L lv 16 fun _ _ => rfl
  pre c := iprop(StableHlo.held (c : Thread nD τ) (Pipeline.ucRefs τ sig) (Wi16 m ρ c) ∗ R c)
  post c := iprop(StableHlo.held (c : Thread nD τ) (Pipeline.ucRefs τ sig) (Wo16 m ρ c) ∗ R c)
  X c := iprop(∃ r, prngReg c r)
  Y c := iprop(∃ r, prngReg c r)
  Z c := Pipeline.unscopedRest (Ix := Unit) (Name := ℕ) (U := UR sig nD τ) (Lvl := ℕ) spec16 c (Vi16 m ρ c)
  hentry c := by
    rw [Pipeline.ownSems0_none]
    have hsplit := Pipeline.arrays_of_unscopedBufs (p := 16) (pcfgs (F := F)) adm (pdats m ρ) launch16.win launch16.arr_whole c
      ((pdats m ρ 16 c).share_full fun _ => rfl) (Vi16 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 16 c).Φ 0 = Pipeline.ΦA spec16 c from rfl]; unfold Pipeline.ΦA
    iintro ⟨Hp, -, Hr⟩
    isplitl [Hr]; · iexact Hr
    iexact Hp
  hout c := by
    rw [Pipeline.ownSems0_none, show (pdats m ρ 16 c).Φ (Fin.last _) = Pipeline.ΦA spec16 c from rfl]; unfold Pipeline.ΦA
    iintro ⟨Hr, Hp⟩
    isplitl [Hp]; · iexact Hp
    isplitr; · iempintro
    iexact Hr
  hexit c := by
    have hjoin := Pipeline.unscopedBufs_of_arrays (p := 16) (pcfgs (F := F)) adm (Ix := Unit) (Name := ℕ) (U := UR sig nD τ) (Lvl := ℕ)
      launch16.win launch16.arr_whole c (pdats m ρ) ((pdats m ρ 16 c).share_full fun _ => rfl)
      (Vi16 m ρ c) (Vo16 m ρ c) ((pdats m ρ 16 c).arrAt · cfg16.N) (hF16 m ρ c) (hrest16 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg17.lean ====
/-
  Region 17 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg17 : Pipeline.RegionSeg (pcfgs (F := F)) adm (pdats m ρ) () defs₀ 𝒱₀ L lv 17 where
  win := launch17.win.to₀
  block_pos := launch17.block_pos
  stage_whole := launch17.stage_whole
  K := PEmpty
  osem k := k.elim
  ho := Pipeline.OwnSemFacts.none _
  hbody c := (body_obligation17 (Vi17 m ρ) c).loose
  hwaits := Pipeline.hwaits_of_owed_zero _ _ _ _ L lv 17 fun _ _ => rfl
  pre c := iprop(StableHlo.held (c : Thread nD τ) (Pipeline.ucRefs τ sig) (Wi17 m ρ c) ∗ R c)
  post c := iprop(StableHlo.held (c : Thread nD τ) (Pipeline.ucRefs τ sig) (Wo17 m ρ c) ∗ R c)
  X c := iprop(∃ r, prngReg c r)
  Y c := iprop(∃ r, prngReg c r)
  Z c := Pipeline.unscopedRest (Ix := Unit) (Name := ℕ) (U := UR sig nD τ) (Lvl := ℕ) spec17 c (Vi17 m ρ c)
  hentry c := by
    rw [Pipeline.ownSems0_none]
    have hsplit := Pipeline.arrays_of_unscopedBufs (p := 17) (pcfgs (F := F)) adm (pdats m ρ) launch17.win launch17.arr_whole c
      ((pdats m ρ 17 c).share_full fun _ => rfl) (Vi17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 17 c).Φ 0 = Pipeline.ΦA spec17 c from rfl]; unfold Pipeline.ΦA
    iintro ⟨Hp, -, Hr⟩
    isplitl [Hr]; · iexact Hr
    iexact Hp
  hout c := by
    rw [Pipeline.ownSems0_none, show (pdats m ρ 17 c).Φ (Fin.last _) = Pipeline.ΦA spec17 c from rfl]; unfold Pipeline.ΦA
    iintro ⟨Hr, Hp⟩
    isplitl [Hp]; · iexact Hp
    isplitr; · iempintro
    iexact Hr
  hexit c := by
    have hjoin := Pipeline.unscopedBufs_of_arrays (p := 17) (pcfgs (F := F)) adm (Ix := Unit) (Name := ℕ) (U := UR sig nD τ) (Lvl := ℕ)
      launch17.win launch17.arr_whole c (pdats m ρ) ((pdats m ρ 17 c).share_full fun _ => rfl)
      (Vi17 m ρ c) (Vo17 m ρ c) ((pdats m ρ 17 c).arrAt · cfg17.N) (hF17 m ρ c) (hrest17 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg18.lean ====
/-
  Region 18 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg18 : Pipeline.RegionSeg (pcfgs (F := F)) adm (pdats m ρ) () defs₀ 𝒱₀ L lv 18 where
  win := launch18.win.to₀
  block_pos := launch18.block_pos
  stage_whole := launch18.stage_whole
  K := PEmpty
  osem k := k.elim
  ho := Pipeline.OwnSemFacts.none _
  hbody c := (body_obligation18 (Vi18 m ρ) c).loose
  hwaits := Pipeline.hwaits_of_owed_zero _ _ _ _ L lv 18 fun _ _ => rfl
  pre c := iprop(StableHlo.held (c : Thread nD τ) (Pipeline.ucRefs τ sig) (Wi18 m ρ c) ∗ R c)
  post c := iprop(StableHlo.held (c : Thread nD τ) (Pipeline.ucRefs τ sig) (Wo18 m ρ c) ∗ R c)
  X c := iprop(∃ r, prngReg c r)
  Y c := iprop(∃ r, prngReg c r)
  Z c := Pipeline.unscopedRest (Ix := Unit) (Name := ℕ) (U := UR sig nD τ) (Lvl := ℕ) spec18 c (Vi18 m ρ c)
  hentry c := by
    rw [Pipeline.ownSems0_none]
    have hsplit := Pipeline.arrays_of_unscopedBufs (p := 18) (pcfgs (F := F)) adm (pdats m ρ) launch18.win launch18.arr_whole c
      ((pdats m ρ 18 c).share_full fun _ => rfl) (Vi18 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 18 c).Φ 0 = Pipeline.ΦA spec18 c from rfl]; unfold Pipeline.ΦA
    iintro ⟨Hp, -, Hr⟩
    isplitl [Hr]; · iexact Hr
    iexact Hp
  hout c := by
    rw [Pipeline.ownSems0_none, show (pdats m ρ 18 c).Φ (Fin.last _) = Pipeline.ΦA spec18 c from rfl]; unfold Pipeline.ΦA
    iintro ⟨Hr, Hp⟩
    isplitl [Hp]; · iexact Hp
    isplitr; · iempintro
    iexact Hr
  hexit c := by
    have hjoin := Pipeline.unscopedBufs_of_arrays (p := 18) (pcfgs (F := F)) adm (Ix := Unit) (Name := ℕ) (U := UR sig nD τ) (Lvl := ℕ)
      launch18.win launch18.arr_whole c (pdats m ρ) ((pdats m ρ 18 c).share_full fun _ => rfl)
      (Vi18 m ρ c) (Vo18 m ρ c) ((pdats m ρ 18 c).arrAt · cfg18.N) (hF18 m ρ c) (hrest18 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg19.lean ====
/-
  Region 19 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg19 : Pipeline.RegionSeg (pcfgs (F := F)) adm (pdats m ρ) () defs₀ 𝒱₀ L lv 19 where
  win := launch19.win.to₀
  block_pos := launch19.block_pos
  stage_whole := launch19.stage_whole
  K := PEmpty
  osem k := k.elim
  ho := Pipeline.OwnSemFacts.none _
  hbody c := (body_obligation19 (Vi19 m ρ) c).loose
  hwaits := Pipeline.hwaits_of_owed_zero _ _ _ _ L lv 19 fun _ _ => rfl
  pre c := iprop(StableHlo.held (c : Thread nD τ) (Pipeline.ucRefs τ sig) (Wi19 m ρ c) ∗ R c)
  post c := iprop(StableHlo.held (c : Thread nD τ) (Pipeline.ucRefs τ sig) (Wo19 m ρ c) ∗ R c)
  X c := iprop(∃ r, prngReg c r)
  Y c := iprop(∃ r, prngReg c r)
  Z c := Pipeline.unscopedRest (Ix := Unit) (Name := ℕ) (U := UR sig nD τ) (Lvl := ℕ) spec19 c (Vi19 m ρ c)
  hentry c := by
    rw [Pipeline.ownSems0_none]
    have hsplit := Pipeline.arrays_of_unscopedBufs (p := 19) (pcfgs (F := F)) adm (pdats m ρ) launch19.win launch19.arr_whole c
      ((pdats m ρ 19 c).share_full fun _ => rfl) (Vi19 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 19 c).Φ 0 = Pipeline.ΦA spec19 c from rfl]; unfold Pipeline.ΦA
    iintro ⟨Hp, -, Hr⟩
    isplitl [Hr]; · iexact Hr
    iexact Hp
  hout c := by
    rw [Pipeline.ownSems0_none, show (pdats m ρ 19 c).Φ (Fin.last _) = Pipeline.ΦA spec19 c from rfl]; unfold Pipeline.ΦA
    iintro ⟨Hr, Hp⟩
    isplitl [Hp]; · iexact Hp
    isplitr; · iempintro
    iexact Hr
  hexit c := by
    have hjoin := Pipeline.unscopedBufs_of_arrays (p := 19) (pcfgs (F := F)) adm (Ix := Unit) (Name := ℕ) (U := UR sig nD τ) (Lvl := ℕ)
      launch19.win launch19.arr_whole c (pdats m ρ) ((pdats m ρ 19 c).share_full fun _ => rfl)
      (Vi19 m ρ c) (Vo19 m ρ c) ((pdats m ρ 19 c).arrAt · cfg19.N) (hF19 m ρ c) (hrest19 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg20.lean ====
/-
  Region 20 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg20 : Pipeline.RegionSeg (pcfgs (F := F)) adm (pdats m ρ) () defs₀ 𝒱₀ L lv 20 where
  win := launch20.win.to₀
  block_pos := launch20.block_pos
  stage_whole := launch20.stage_whole
  K := PEmpty
  osem k := k.elim
  ho := Pipeline.OwnSemFacts.none _
  hbody c := (body_obligation20 (Vi20 m ρ) c).loose
  hwaits := Pipeline.hwaits_of_owed_zero _ _ _ _ L lv 20 fun _ _ => rfl
  pre c := iprop(StableHlo.held (c : Thread nD τ) (Pipeline.ucRefs τ sig) (Wi20 m ρ c) ∗ R c)
  post c := iprop(StableHlo.held (c : Thread nD τ) (Pipeline.ucRefs τ sig) (Wo20 m ρ c) ∗ R c)
  X c := iprop(∃ r, prngReg c r)
  Y c := iprop(∃ r, prngReg c r)
  Z c := Pipeline.unscopedRest (Ix := Unit) (Name := ℕ) (U := UR sig nD τ) (Lvl := ℕ) spec20 c (Vi20 m ρ c)
  hentry c := by
    rw [Pipeline.ownSems0_none]
    have hsplit := Pipeline.arrays_of_unscopedBufs (p := 20) (pcfgs (F := F)) adm (pdats m ρ) launch20.win launch20.arr_whole c
      ((pdats m ρ 20 c).share_full fun _ => rfl) (Vi20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 20 c).Φ 0 = Pipeline.ΦA spec20 c from rfl]; unfold Pipeline.ΦA
    iintro ⟨Hp, -, Hr⟩
    isplitl [Hr]; · iexact Hr
    iexact Hp
  hout c := by
    rw [Pipeline.ownSems0_none, show (pdats m ρ 20 c).Φ (Fin.last _) = Pipeline.ΦA spec20 c from rfl]; unfold Pipeline.ΦA
    iintro ⟨Hr, Hp⟩
    isplitl [Hp]; · iexact Hp
    isplitr; · iempintro
    iexact Hr
  hexit c := by
    have hjoin := Pipeline.unscopedBufs_of_arrays (p := 20) (pcfgs (F := F)) adm (Ix := Unit) (Name := ℕ) (U := UR sig nD τ) (Lvl := ℕ)
      launch20.win launch20.arr_whole c (pdats m ρ) ((pdats m ρ 20 c).share_full fun _ => rfl)
      (Vi20 m ρ c) (Vo20 m ρ c) ((pdats m ρ 20 c).arrAt · cfg20.N) (hF20 m ρ c) (hrest20 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg21.lean ====
/-
  Region 21 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg21 : Pipeline.RegionSeg (pcfgs (F := F)) adm (pdats m ρ) () defs₀ 𝒱₀ L lv 21 where
  win := launch21.win.to₀
  block_pos := launch21.block_pos
  stage_whole := launch21.stage_whole
  K := PEmpty
  osem k := k.elim
  ho := Pipeline.OwnSemFacts.none _
  hbody c := (body_obligation21 (Vi21 m ρ) c).loose
  hwaits := Pipeline.hwaits_of_owed_zero _ _ _ _ L lv 21 fun _ _ => rfl
  pre c := iprop(StableHlo.held (c : Thread nD τ) (Pipeline.ucRefs τ sig) (Wi21 m ρ c) ∗ R c)
  post c := iprop(StableHlo.held (c : Thread nD τ) (Pipeline.ucRefs τ sig) (Wo21 m ρ c) ∗ R c)
  X c := iprop(∃ r, prngReg c r)
  Y c := iprop(∃ r, prngReg c r)
  Z c := Pipeline.unscopedRest (Ix := Unit) (Name := ℕ) (U := UR sig nD τ) (Lvl := ℕ) spec21 c (Vi21 m ρ c)
  hentry c := by
    rw [Pipeline.ownSems0_none]
    have hsplit := Pipeline.arrays_of_unscopedBufs (p := 21) (pcfgs (F := F)) adm (pdats m ρ) launch21.win launch21.arr_whole c
      ((pdats m ρ 21 c).share_full fun _ => rfl) (Vi21 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 21 c).Φ 0 = Pipeline.ΦA spec21 c from rfl]; unfold Pipeline.ΦA
    iintro ⟨Hp, -, Hr⟩
    isplitl [Hr]; · iexact Hr
    iexact Hp
  hout c := by
    rw [Pipeline.ownSems0_none, show (pdats m ρ 21 c).Φ (Fin.last _) = Pipeline.ΦA spec21 c from rfl]; unfold Pipeline.ΦA
    iintro ⟨Hr, Hp⟩
    isplitl [Hp]; · iexact Hp
    isplitr; · iempintro
    iexact Hr
  hexit c := by
    have hjoin := Pipeline.unscopedBufs_of_arrays (p := 21) (pcfgs (F := F)) adm (Ix := Unit) (Name := ℕ) (U := UR sig nD τ) (Lvl := ℕ)
      launch21.win launch21.arr_whole c (pdats m ρ) ((pdats m ρ 21 c).share_full fun _ => rfl)
      (Vi21 m ρ c) (Vo21 m ρ c) ((pdats m ρ 21 c).arrAt · cfg21.N) (hF21 m ρ c) (hrest21 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KISeg22.lean ====
/-
  Region 22 as a segment of @main: entered with every unscoped buffer at its entry contents, left with them at its exit
  contents. Its arrays are split out of the unscoped buffers at the entry and put back at what the pipeline leaves at
  the exit; the generator register passes into the pipeline's invariant and out; nothing is owed; the kernel has no
  semaphore of its own.
-/
import proofs.«107956_j75110388073098_1_alg».proof.Proof.KIData

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
def reg22 : Pipeline.RegionSeg (pcfgs (F := F)) adm (pdats m ρ) () defs₀ 𝒱₀ L lv 22 where
  win := launch22.win.to₀
  block_pos := launch22.block_pos
  stage_whole := launch22.stage_whole
  K := PEmpty
  osem k := k.elim
  ho := Pipeline.OwnSemFacts.none _
  hbody c := (body_obligation22 (Vi22 m ρ) c).loose
  hwaits := Pipeline.hwaits_of_owed_zero _ _ _ _ L lv 22 fun _ _ => rfl
  pre c := iprop(StableHlo.held (c : Thread nD τ) (Pipeline.ucRefs τ sig) (Wi22 m ρ c) ∗ R c)
  post c := iprop(StableHlo.held (c : Thread nD τ) (Pipeline.ucRefs τ sig) (Wo22 m ρ c) ∗ R c)
  X c := iprop(∃ r, prngReg c r)
  Y c := iprop(∃ r, prngReg c r)
  Z c := Pipeline.unscopedRest (Ix := Unit) (Name := ℕ) (U := UR sig nD τ) (Lvl := ℕ) spec22 c (Vi22 m ρ c)
  hentry c := by
    rw [Pipeline.ownSems0_none]
    have hsplit := Pipeline.arrays_of_unscopedBufs (p := 22) (pcfgs (F := F)) adm (pdats m ρ) launch22.win launch22.arr_whole c
      ((pdats m ρ 22 c).share_full fun _ => rfl) (Vi22 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 22 c).Φ 0 = Pipeline.ΦA spec22 c from rfl]; unfold Pipeline.ΦA
    iintro ⟨Hp, -, Hr⟩
    isplitl [Hr]; · iexact Hr
    iexact Hp
  hout c := by
    rw [Pipeline.ownSems0_none, show (pdats m ρ 22 c).Φ (Fin.last _) = Pipeline.ΦA spec22 c from rfl]; unfold Pipeline.ΦA
    iintro ⟨Hr, Hp⟩
    isplitl [Hp]; · iexact Hp
    isplitr; · iempintro
    iexact Hr
  hexit c := by
    have hjoin := Pipeline.unscopedBufs_of_arrays (p := 22) (pcfgs (F := F)) adm (Ix := Unit) (Name := ℕ) (U := UR sig nD τ) (Lvl := ℕ)
      launch22.win launch22.arr_whole c (pdats m ρ) ((pdats m ρ 22 c).share_full fun _ => rfl)
      (Vi22 m ρ c) (Vo22 m ρ c) ((pdats m ρ 22 c).arrAt · cfg22.N) (hF22 m ρ c) (hrest22 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.KIRun.lean ====
/-
  The run of @main: region 0, the host stretch that computes the loss, regions 1 to 22, and the host tail that
  assembles the result — composed by the several-regions launch. Every weakly fair execution from memory `m` with zero
  counters terminates, and every final memory holds each unscoped buffer at the last boundary's contents `Wend`.
-/
import proofs.«107956_j75110388073098_1_alg».proof.Proof.KISeg0
import proofs.«107956_j75110388073098_1_alg».proof.Proof.KISeg1
import proofs.«107956_j75110388073098_1_alg».proof.Proof.KISeg2
import proofs.«107956_j75110388073098_1_alg».proof.Proof.KISeg3
import proofs.«107956_j75110388073098_1_alg».proof.Proof.KISeg4
import proofs.«107956_j75110388073098_1_alg».proof.Proof.KISeg5
import proofs.«107956_j75110388073098_1_alg».proof.Proof.KISeg6
import proofs.«107956_j75110388073098_1_alg».proof.Proof.KISeg7
import proofs.«107956_j75110388073098_1_alg».proof.Proof.KISeg8
import proofs.«107956_j75110388073098_1_alg».proof.Proof.KISeg9
import proofs.«107956_j75110388073098_1_alg».proof.Proof.KISeg10
import proofs.«107956_j75110388073098_1_alg».proof.Proof.KISeg11
import proofs.«107956_j75110388073098_1_alg».proof.Proof.KISeg12
import proofs.«107956_j75110388073098_1_alg».proof.Proof.KISeg13
import proofs.«107956_j75110388073098_1_alg».proof.Proof.KISeg14
import proofs.«107956_j75110388073098_1_alg».proof.Proof.KISeg15
import proofs.«107956_j75110388073098_1_alg».proof.Proof.KISeg16
import proofs.«107956_j75110388073098_1_alg».proof.Proof.KISeg17
import proofs.«107956_j75110388073098_1_alg».proof.Proof.KISeg18
import proofs.«107956_j75110388073098_1_alg».proof.Proof.KISeg19
import proofs.«107956_j75110388073098_1_alg».proof.Proof.KISeg20
import proofs.«107956_j75110388073098_1_alg».proof.Proof.KISeg21
import proofs.«107956_j75110388073098_1_alg».proof.Proof.KISeg22

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents after the host tail: what @main returns with. -/
abbrev Wend : Dev nD → Valuation τ sig (Elt F) := fun c => StableHlo.after hostOps23 (Wo22 m ρ c)
/-- The tail writes only its own results: any other buffer passes through it. -/
theorem Wend_of (c : Dev nD) (r : Ref sig .tc) (h : r ∉ hostOps23_W) : Wend m ρ c (Proc.devRef .tc r) = Wo22 m ρ c (Proc.devRef .tc r) :=
  StableHlo.after_of_writes_sub hostOps23 _ hostOps23_writes h
theorem Wend_main_arg0 (c : Dev nD) : Wend m ρ c (Proc.devRef .tc main_arg0) = m ((c : Thread nD τ).loc main_arg0) :=
  (Wend_of m ρ c main_arg0 (by decide)).trans (Wo22_main_arg0 m ρ c)
theorem Wend_main_arg1 (c : Dev nD) : Wend m ρ c (Proc.devRef .tc main_arg1) = m ((c : Thread nD τ).loc main_arg1) :=
  (Wend_of m ρ c main_arg1 (by decide)).trans (Wo22_main_arg1 m ρ c)
theorem Wend_main_arg2 (c : Dev nD) : Wend m ρ c (Proc.devRef .tc main_arg2) = m ((c : Thread nD τ).loc main_arg2) :=
  (Wend_of m ρ c main_arg2 (by decide)).trans (Wo22_main_arg2 m ρ c)
theorem Wend_main_arg3 (c : Dev nD) : Wend m ρ c (Proc.devRef .tc main_arg3) = m ((c : Thread nD τ).loc main_arg3) :=
  (Wend_of m ρ c main_arg3 (by decide)).trans (Wo22_main_arg3 m ρ c)
theorem Wend_main_arg4 (c : Dev nD) : Wend m ρ c (Proc.devRef .tc main_arg4) = m ((c : Thread nD τ).loc main_arg4) :=
  (Wend_of m ρ c main_arg4 (by decide)).trans (Wo22_main_arg4 m ρ c)

/-- The last thread state without the dues: every unscoped buffer at `Wend`, the generator register at some state. -/
abbrev Tₙ (c : Dev nD) : sProp 𝕄 := iprop(StableHlo.held (c : Thread nD τ) (Pipeline.ucRefs τ sig) (Wend m ρ c) ∗ ∃ r, prngReg c r)

/-- @main's 25 segments in order. -/
abbrev segs : List (Pipeline.Seg (pcfgs (F := F)) adm (pdats m ρ) () defs₀ 𝒱₀ L lv) :=
  [ .region (reg0 m ρ),
    .host (hseg hostOps1 hostOps1_sub hostOps1_fresh (Wo0 m ρ)),
    .region (reg1 m ρ),
    .region (reg2 m ρ),
    .region (reg3 m ρ),
    .region (reg4 m ρ),
    .region (reg5 m ρ),
    .region (reg6 m ρ),
    .region (reg7 m ρ),
    .region (reg8 m ρ),
    .region (reg9 m ρ),
    .region (reg10 m ρ),
    .region (reg11 m ρ),
    .region (reg12 m ρ),
    .region (reg13 m ρ),
    .region (reg14 m ρ),
    .region (reg15 m ρ),
    .region (reg16 m ρ),
    .region (reg17 m ρ),
    .region (reg18 m ρ),
    .region (reg19 m ρ),
    .region (reg20 m ρ),
    .region (reg21 m ρ),
    .region (reg22 m ρ),
    .host (hseg hostOps23 hostOps23_sub hostOps23_fresh (Wo22 m ρ)) ]

/-- @main IS the run of the segments. -/
theorem main_run (c : Dev nD) : main (F := F) c = Pipeline.Seg.run (segs m ρ) := (main_chain c).trans (by chain_rfl)

set_option backward.isDefEq.respectTransparency.types false in
/-- THE RUN: every weakly fair execution of @main terminates, nothing faulting, and every final memory has each
    unscoped buffer at `Wend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wi0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Wend m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wi0 m ρ c)
        from Pipeline.unscopedBufs_held c (Wi0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m ρ c b)
    (hfin := fun c s' => by
      iintro ⟨⟨Hh, -⟩, HSI⟩
      unfold StableHlo.held
      imodintro
      iapply (pointsTo_read_all (Pipeline.ucRefs τ sig) (fun b => (((c : Thread nD τ)).1, b)) (Wend m ρ c) s')
      isplitl [Hh] <;> iassumption)
    (hQ := fun s h c => h c)

/-- THE FRAME, at any float instance: the run, each argument read off the final contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (Wend_main_arg0 m ρ c),
     (h c _ (mem_uc main_arg1 (by decide))).trans (Wend_main_arg1 m ρ c),
     (h c _ (mem_uc main_arg2 (by decide))).trans (Wend_main_arg2 m ρ c),
     (h c _ (mem_uc main_arg3 (by decide))).trans (Wend_main_arg3 m ρ c),
     (h c _ (mem_uc main_arg4 (by decide))).trans (Wend_main_arg4 m ρ c)⟩) (run_all m ρ)

end Cert.KernelIdeal.Reg

end
-- ==== Proof.KIArr22.lean ====
/-
  Region 22's arrays after the region, by name. Every window of this kernel is its whole array and the grid has one point,
  so an input window's block IS its array as the region finds it, and an output window's array after the region IS what
  the body left in its buffer: the body's result of the input arrays.
-/
import proofs.«107956_j75110388073098_1_alg».proof.Proof.KIRegion22
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk22_0 (c : Dev nD) (t : Fin cfg22.N) : iblk22 V c 0 t = V c (Pipeline.arrRef spec22 0) := by
  funext j
  unfold iblk22
  rw [View.read_apply]
  show V c (Pipeline.arrRef spec22 0) (((cfg22.win 0).blk t).view.emb j) = V c (Pipeline.arrRef spec22 0) j
  congr 1
  funext a; apply Fin.ext
  show 0 * _ + 1 * (j a).val = (j a).val
  omega
theorem iblk22_1 (c : Dev nD) (t : Fin cfg22.N) : iblk22 V c 1 t = V c (Pipeline.arrRef spec22 1) := by
  funext j
  unfold iblk22
  rw [View.read_apply]
  show V c (Pipeline.arrRef spec22 1) (((cfg22.win 1).blk t).view.emb j) = V c (Pipeline.arrRef spec22 1) j
  congr 1
  funext a; apply Fin.ext
  show 0 * _ + 1 * (j a).val = (j a).val
  omega
theorem iblk22_2 (c : Dev nD) (t : Fin cfg22.N) : iblk22 V c 2 t = V c (Pipeline.arrRef spec22 2) := by
  funext j
  unfold iblk22
  rw [View.read_apply]
  show V c (Pipeline.arrRef spec22 2) (((cfg22.win 2).blk t).view.emb j) = V c (Pipeline.arrRef spec22 2) j
  congr 1
  funext a; apply Fin.ext
  show 0 * _ + 1 * (j a).val = (j a).val
  omega
theorem iblk22_3 (c : Dev nD) (t : Fin cfg22.N) : iblk22 V c 3 t = V c (Pipeline.arrRef spec22 3) := by
  funext j
  unfold iblk22
  rw [View.read_apply]
  show V c (Pipeline.arrRef spec22 3) (((cfg22.win 3).blk t).view.emb j) = V c (Pipeline.arrRef spec22 3) j
  congr 1
  funext a; apply Fin.ext
  show 0 * _ + 1 * (j a).val = (j a).val
  omega
theorem iblk22_4 (c : Dev nD) (t : Fin cfg22.N) : iblk22 V c 4 t = V c (Pipeline.arrRef spec22 4) := by
  funext j
  unfold iblk22
  rw [View.read_apply]
  show V c (Pipeline.arrRef spec22 4) (((cfg22.win 4).blk t).view.emb j) = V c (Pipeline.arrRef spec22 4) j
  congr 1
  funext a; apply Fin.ext
  show 0 * _ + 1 * (j a).val = (j a).val
  omega
theorem iblk22_5 (c : Dev nD) (t : Fin cfg22.N) : iblk22 V c 5 t = V c (Pipeline.arrRef spec22 5) := by
  funext j
  unfold iblk22
  rw [View.read_apply]
  show V c (Pipeline.arrRef spec22 5) (((cfg22.win 5).blk t).view.emb j) = V c (Pipeline.arrRef spec22 5) j
  congr 1
  funext a; apply Fin.ext
  show 0 * _ + 1 * (j a).val = (j a).val
  omega
theorem iblk22_6 (c : Dev nD) (t : Fin cfg22.N) : iblk22 V c 6 t = V c (Pipeline.arrRef spec22 6) := by
  funext j
  unfold iblk22
  rw [View.read_apply]
  show V c (Pipeline.arrRef spec22 6) (((cfg22.win 6).blk t).view.emb j) = V c (Pipeline.arrRef spec22 6) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut22_7 (t : Fin cfg22.N) (G : (cfg22.win 7).block.Idx → Elt F (cfg22.win 7).elt) :
    (cfg22.win 7).cut (grid22.coords t) G = ((cfg22.win 7).blk t).view.read (Elt F) G := by
  funext j
  rw [View.read_apply]
  show G ((cfg22.win 7).xinj (grid22.coords t) j) = G (((cfg22.win 7).blk t).view.emb j)
  congr 1
  funext a; apply Fin.ext
  show (j a).val = 0 * _ + 1 * (j a).val
  omega
theorem cut22_8 (t : Fin cfg22.N) (G : (cfg22.win 8).block.Idx → Elt F (cfg22.win 8).elt) :
    (cfg22.win 8).cut (grid22.coords t) G = ((cfg22.win 8).blk t).view.read (Elt F) G := by
  funext j
  rw [View.read_apply]
  show G ((cfg22.win 8).xinj (grid22.coords t) j) = G (((cfg22.win 8).blk t).view.emb j)
  congr 1
  funext a; apply Fin.ext
  show (j a).val = 0 * _ + 1 * (j a).val
  omega
theorem cut22_9 (t : Fin cfg22.N) (G : (cfg22.win 9).block.Idx → Elt F (cfg22.win 9).elt) :
    (cfg22.win 9).cut (grid22.coords t) G = ((cfg22.win 9).blk t).view.read (Elt F) G := by
  funext j
  rw [View.read_apply]
  show G ((cfg22.win 9).xinj (grid22.coords t) j) = G (((cfg22.win 9).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover22_7 (c : Dev nD) (i : ((cfg22.win 7).arr.view.loc (c.tc : Thread nD τ)).2.ty.Idx) :
    ∃ t : Fin cfg22.N, (cfg22.win 7).flush t = true ∧ i ∈ ((cfg22.win 7).blk t).view.set := by
  refine ⟨t22_0, flush22_7 t22_0, ?_⟩
  show i ∈ ((View.whole (Pipeline.arrRef spec22 7)).slice ((cfg22.win 7).rect t22_0)).set
  rw [View.set_slice_whole]
  exact View.mem_set_unit_zero (funext fun a => Nat.zero_mul _) _ i
theorem cover22_8 (c : Dev nD) (i : ((cfg22.win 8).arr.view.loc (c.tc : Thread nD τ)).2.ty.Idx) :
    ∃ t : Fin cfg22.N, (cfg22.win 8).flush t = true ∧ i ∈ ((cfg22.win 8).blk t).view.set := by
  refine ⟨t22_0, flush22_8 t22_0, ?_⟩
  show i ∈ ((View.whole (Pipeline.arrRef spec22 8)).slice ((cfg22.win 8).rect t22_0)).set
  rw [View.set_slice_whole]
  exact View.mem_set_unit_zero (funext fun a => Nat.zero_mul _) _ i
theorem cover22_9 (c : Dev nD) (i : ((cfg22.win 9).arr.view.loc (c.tc : Thread nD τ)).2.ty.Idx) :
    ∃ t : Fin cfg22.N, (cfg22.win 9).flush t = true ∧ i ∈ ((cfg22.win 9).blk t).view.set := by
  refine ⟨t22_0, flush22_9 t22_0, ?_⟩
  show i ∈ ((View.whole (Pipeline.arrRef spec22 9)).slice ((cfg22.win 9).rect t22_0)).set
  rw [View.set_slice_whole]
  exact View.mem_set_unit_zero (funext fun a => Nat.zero_mul _) _ i

/-- Each output window's array after the region: the body's result of the input arrays. -/
theorem arr22_7 (c : Dev nD) : (dat22 V c).arrAt 7 cfg22.N
    = out22_7 (V c (Pipeline.arrRef spec22 0)) (V c (Pipeline.arrRef spec22 1)) (V c (Pipeline.arrRef spec22 4)) := by
  refine (dat22 V c).arrAt_eq_of_cover 7 _ (fun t _ => ?_) (cover22_7 c)
  have h : (dat22 V c).after 7 t
    = out22_7 (V c (Pipeline.arrRef spec22 0)) (V c (Pipeline.arrRef spec22 1)) (V c (Pipeline.arrRef spec22 4)) := by
    rw [after22_7, iblk22_0, iblk22_1, iblk22_4]
  show (cfg22.win 7).cut (grid22.coords t) ((dat22 V c).after 7 t) = _
  rw [h]
  exact cut22_7 t _
theorem arr22_8 (c : Dev nD) : (dat22 V c).arrAt 8 cfg22.N
    = out22_8 (V c (Pipeline.arrRef spec22 1)) (V c (Pipeline.arrRef spec22 2)) (V c (Pipeline.arrRef spec22 5)) := by
  refine (dat22 V c).arrAt_eq_of_cover 8 _ (fun t _ => ?_) (cover22_8 c)
  have h : (dat22 V c).after 8 t
    = out22_8 (V c (Pipeline.arrRef spec22 1)) (V c (Pipeline.arrRef spec22 2)) (V c (Pipeline.arrRef spec22 5)) := by
    rw [after22_8, iblk22_1, iblk22_2, iblk22_5]
  show (cfg22.win 8).cut (grid22.coords t) ((dat22 V c).after 8 t) = _
  rw [h]
  exact cut22_8 t _
theorem arr22_9 (c : Dev nD) : (dat22 V c).arrAt 9 cfg22.N
    = out22_9 (V c (Pipeline.arrRef spec22 2)) (V c (Pipeline.arrRef spec22 3)) (V c (Pipeline.arrRef spec22 6)) := by
  refine (dat22 V c).arrAt_eq_of_cover 9 _ (fun t _ => ?_) (cover22_9 c)
  have h : (dat22 V c).after 9 t
    = out22_9 (V c (Pipeline.arrRef spec22 2)) (V c (Pipeline.arrRef spec22 3)) (V c (Pipeline.arrRef spec22 6)) := by
    rw [after22_9, iblk22_2, iblk22_3, iblk22_6]
  show (cfg22.win 9).cut (grid22.coords t) ((dat22 V c).after 9 t) = _
  rw [h]
  exact cut22_9 t _

end Cert.KernelIdeal.Reg

end
-- ==== Proof.BridgeOps.lean ====
/-
  The two programs' operations at the ideal instance, one against the other.
  A kernel's `tpu.matmul` into the zero accumulator and the host's `dot_general` are the same sum over the contracted
  axis; where the kernel contracts an operand's other axis (`a·bᵀ`, `aᵀ·b`) the reference transposes that operand first
  and contracts as usual, which re-indexes the same sum. A scalar splat in the kernel is the reference's broadcast of the
  rank-0 constant, and a shape cast to the same shape is the identity.
-/
import proofs.«107956_j75110388073098_1_alg».proof.KernelIdeal
import proofs.«107956_j75110388073098_1_alg».proof.ReferenceIdeal
import Idealize.ShloMosaic.PureOps.Ideal
import Idealize.ShloMosaic.PureOps.Ideal.Laws
import Idealize.ShloMosaic.Lib.ValueIdx
import Idealize.ShloMosaic.Lib.Pipeline.Value

noncomputable section

namespace Cert.Bridge

open Idealize.ShloMosaic Idealize.ShloMosaic.TcCoe Idealize.SL.Sem

variable [Cert.KernelIdeal.Facts] [Cert.ReferenceIdeal.Facts]

/-- The two programs name the same shapes. -/
abbrev SA : Shape := Cert.KernelIdeal.S1024x1024
abbrev SB : Shape := Cert.KernelIdeal.S1024x512

/-- The plain products' dimension numbers are the same record in the two programs: the same axis lists over the same shapes. -/
private theorem dims_AAA :
    Cert.KernelIdeal.dot_S1024x1024_S1024x1024_S1024x1024_1_0_0_1_n_n = Cert.ReferenceIdeal.dot_S1024x1024_S1024x1024_S1024x1024_1_0_0_1_n_n := rfl
private theorem dims_ABB :
    Cert.KernelIdeal.dot_S1024x1024_S1024x512_S1024x512_1_0_0_1_n_n = Cert.ReferenceIdeal.dot_S1024x1024_S1024x512_S1024x512_1_0_0_1_n_n := rfl

/-- `a·b` over [1024,1024]·[1024,1024]. -/
theorem mm_AAA (a b : FVec Ideal SA .f32) :
    matmul Cert.KernelIdeal.dot_S1024x1024_S1024x1024_S1024x1024_1_0_0_1_n_n none a b (constant Cert.KernelIdeal.S1024x1024 .f32 0x00000000#32)
      = Host.dotGeneral Cert.ReferenceIdeal.dot_S1024x1024_S1024x1024_S1024x1024_1_0_0_1_n_n none a b := by
  -- both sides at an index are the sum over the contracted axis of the operands' products, over one record
  funext j
  rw [dims_AAA]
  simp only [matmul, Host.dotGeneral]
  rw [Ideal.matmul_constant_zero_apply, Ideal.dotGeneral_apply]

/-- `a·b` over [1024,1024]·[1024,512]. -/
theorem mm_ABB (a : FVec Ideal SA .f32) (b : FVec Ideal SB .f32) :
    matmul Cert.KernelIdeal.dot_S1024x1024_S1024x512_S1024x512_1_0_0_1_n_n none a b (constant Cert.KernelIdeal.S1024x512 .f32 0x00000000#32)
      = Host.dotGeneral Cert.ReferenceIdeal.dot_S1024x1024_S1024x512_S1024x512_1_0_0_1_n_n none a b := by
  funext j
  rw [dims_ABB]
  simp only [matmul, Host.dotGeneral]
  rw [Ideal.matmul_constant_zero_apply, Ideal.dotGeneral_apply]

section TransposedProducts
open Idealize.ShloMosaic.ValueIdx

/-- The operand indices of `a·bᵀ`: the left operand is read at (row, k), the right one at (column, k), coordinate by coordinate. -/
private theorem lhs_KT_AAA_0 (j : Cert.KernelIdeal.S1024x1024.Idx) (k : Cert.KernelIdeal.dot_S1024x1024_S1024x1024_S1024x1024_1_1_0_0_n_n.contr.Idx) :
    (Cert.KernelIdeal.dot_S1024x1024_S1024x1024_S1024x1024_1_1_0_0_n_n.lhsIdx j k 0).val = (j 0).val := rfl
private theorem lhs_KT_AAA_1 (j : Cert.KernelIdeal.S1024x1024.Idx) (k : Cert.KernelIdeal.dot_S1024x1024_S1024x1024_S1024x1024_1_1_0_0_n_n.contr.Idx) :
    (Cert.KernelIdeal.dot_S1024x1024_S1024x1024_S1024x1024_1_1_0_0_n_n.lhsIdx j k 1).val = (k ⟨0, Nat.one_pos⟩).val := rfl
private theorem rhs_KT_AAA_0 (j : Cert.KernelIdeal.S1024x1024.Idx) (k : Cert.KernelIdeal.dot_S1024x1024_S1024x1024_S1024x1024_1_1_0_0_n_n.contr.Idx) :
    (Cert.KernelIdeal.dot_S1024x1024_S1024x1024_S1024x1024_1_1_0_0_n_n.rhsIdx j k 0).val = (j 1).val := rfl
private theorem rhs_KT_AAA_1 (j : Cert.KernelIdeal.S1024x1024.Idx) (k : Cert.KernelIdeal.dot_S1024x1024_S1024x1024_S1024x1024_1_1_0_0_n_n.contr.Idx) :
    (Cert.KernelIdeal.dot_S1024x1024_S1024x1024_S1024x1024_1_1_0_0_n_n.rhsIdx j k 1).val = (k ⟨0, Nat.one_pos⟩).val := rfl

/-- The operand indices of `a·bᵀ`: the left operand is read at (row, k), the right one at (column, k), coordinate by coordinate. -/
private theorem lhs_KT_BBA_0 (j : Cert.KernelIdeal.S1024x1024.Idx) (k : Cert.KernelIdeal.dot_S1024x512_S1024x512_S1024x1024_1_1_0_0_n_n.contr.Idx) :
    (Cert.KernelIdeal.dot_S1024x512_S1024x512_S1024x1024_1_1_0_0_n_n.lhsIdx j k 0).val = (j 0).val := rfl
private theorem lhs_KT_BBA_1 (j : Cert.KernelIdeal.S1024x1024.Idx) (k : Cert.KernelIdeal.dot_S1024x512_S1024x512_S1024x1024_1_1_0_0_n_n.contr.Idx) :
    (Cert.KernelIdeal.dot_S1024x512_S1024x512_S1024x1024_1_1_0_0_n_n.lhsIdx j k 1).val = (k ⟨0, Nat.one_pos⟩).val := rfl
private theorem rhs_KT_BBA_0 (j : Cert.KernelIdeal.S1024x1024.Idx) (k : Cert.KernelIdeal.dot_S1024x512_S1024x512_S1024x1024_1_1_0_0_n_n.contr.Idx) :
    (Cert.KernelIdeal.dot_S1024x512_S1024x512_S1024x1024_1_1_0_0_n_n.rhsIdx j k 0).val = (j 1).val := rfl
private theorem rhs_KT_BBA_1 (j : Cert.KernelIdeal.S1024x1024.Idx) (k : Cert.KernelIdeal.dot_S1024x512_S1024x512_S1024x1024_1_1_0_0_n_n.contr.Idx) :
    (Cert.KernelIdeal.dot_S1024x512_S1024x512_S1024x1024_1_1_0_0_n_n.rhsIdx j k 1).val = (k ⟨0, Nat.one_pos⟩).val := rfl

/-- The operand indices of `aᵀ·b`: the left operand is read at (k, row), the right one at (k, column), coordinate by coordinate. -/
private theorem lhs_TK_AAA_0 (j : Cert.KernelIdeal.S1024x1024.Idx) (k : Cert.KernelIdeal.dot_S1024x1024_S1024x1024_S1024x1024_0_0_1_1_n_n.contr.Idx) :
    (Cert.KernelIdeal.dot_S1024x1024_S1024x1024_S1024x1024_0_0_1_1_n_n.lhsIdx j k 0).val = (k ⟨0, Nat.one_pos⟩).val := rfl
private theorem lhs_TK_AAA_1 (j : Cert.KernelIdeal.S1024x1024.Idx) (k : Cert.KernelIdeal.dot_S1024x1024_S1024x1024_S1024x1024_0_0_1_1_n_n.contr.Idx) :
    (Cert.KernelIdeal.dot_S1024x1024_S1024x1024_S1024x1024_0_0_1_1_n_n.lhsIdx j k 1).val = (j 0).val := rfl
private theorem rhs_TK_AAA_0 (j : Cert.KernelIdeal.S1024x1024.Idx) (k : Cert.KernelIdeal.dot_S1024x1024_S1024x1024_S1024x1024_0_0_1_1_n_n.contr.Idx) :
    (Cert.KernelIdeal.dot_S1024x1024_S1024x1024_S1024x1024_0_0_1_1_n_n.rhsIdx j k 0).val = (k ⟨0, Nat.one_pos⟩).val := rfl
private theorem rhs_TK_AAA_1 (j : Cert.KernelIdeal.S1024x1024.Idx) (k : Cert.KernelIdeal.dot_S1024x1024_S1024x1024_S1024x1024_0_0_1_1_n_n.contr.Idx) :
    (Cert.KernelIdeal.dot_S1024x1024_S1024x1024_S1024x1024_0_0_1_1_n_n.rhsIdx j k 1).val = (j 1).val := rfl

/-- The operand indices of `aᵀ·b`: the left operand is read at (k, row), the right one at (k, column), coordinate by coordinate. -/
private theorem lhs_TK_ABB_0 (j : Cert.KernelIdeal.S1024x512.Idx) (k : Cert.KernelIdeal.dot_S1024x1024_S1024x512_S1024x512_0_0_1_1_n_n.contr.Idx) :
    (Cert.KernelIdeal.dot_S1024x1024_S1024x512_S1024x512_0_0_1_1_n_n.lhsIdx j k 0).val = (k ⟨0, Nat.one_pos⟩).val := rfl
private theorem lhs_TK_ABB_1 (j : Cert.KernelIdeal.S1024x512.Idx) (k : Cert.KernelIdeal.dot_S1024x1024_S1024x512_S1024x512_0_0_1_1_n_n.contr.Idx) :
    (Cert.KernelIdeal.dot_S1024x1024_S1024x512_S1024x512_0_0_1_1_n_n.lhsIdx j k 1).val = (j 0).val := rfl
private theorem rhs_TK_ABB_0 (j : Cert.KernelIdeal.S1024x512.Idx) (k : Cert.KernelIdeal.dot_S1024x1024_S1024x512_S1024x512_0_0_1_1_n_n.contr.Idx) :
    (Cert.KernelIdeal.dot_S1024x1024_S1024x512_S1024x512_0_0_1_1_n_n.rhsIdx j k 0).val = (k ⟨0, Nat.one_pos⟩).val := rfl
private theorem rhs_TK_ABB_1 (j : Cert.KernelIdeal.S1024x512.Idx) (k : Cert.KernelIdeal.dot_S1024x1024_S1024x512_S1024x512_0_0_1_1_n_n.contr.Idx) :
    (Cert.KernelIdeal.dot_S1024x1024_S1024x512_S1024x512_0_0_1_1_n_n.rhsIdx j k 1).val = (j 1).val := rfl

/-- The operand indices of `a·b`: the left operand is read at (row, k), the right one at (k, column), coordinate by coordinate. -/
private theorem lhs_R_AAA_0 (j : Cert.ReferenceIdeal.S1024x1024.Idx) (k : Cert.ReferenceIdeal.dot_S1024x1024_S1024x1024_S1024x1024_1_0_0_1_n_n.contr.Idx) :
    (Cert.ReferenceIdeal.dot_S1024x1024_S1024x1024_S1024x1024_1_0_0_1_n_n.lhsIdx j k 0).val = (j 0).val := rfl
private theorem lhs_R_AAA_1 (j : Cert.ReferenceIdeal.S1024x1024.Idx) (k : Cert.ReferenceIdeal.dot_S1024x1024_S1024x1024_S1024x1024_1_0_0_1_n_n.contr.Idx) :
    (Cert.ReferenceIdeal.dot_S1024x1024_S1024x1024_S1024x1024_1_0_0_1_n_n.lhsIdx j k 1).val = (k ⟨0, Nat.one_pos⟩).val := rfl
private theorem rhs_R_AAA_0 (j : Cert.ReferenceIdeal.S1024x1024.Idx) (k : Cert.ReferenceIdeal.dot_S1024x1024_S1024x1024_S1024x1024_1_0_0_1_n_n.contr.Idx) :
    (Cert.ReferenceIdeal.dot_S1024x1024_S1024x1024_S1024x1024_1_0_0_1_n_n.rhsIdx j k 0).val = (k ⟨0, Nat.one_pos⟩).val := rfl
private theorem rhs_R_AAA_1 (j : Cert.ReferenceIdeal.S1024x1024.Idx) (k : Cert.ReferenceIdeal.dot_S1024x1024_S1024x1024_S1024x1024_1_0_0_1_n_n.contr.Idx) :
    (Cert.ReferenceIdeal.dot_S1024x1024_S1024x1024_S1024x1024_1_0_0_1_n_n.rhsIdx j k 1).val = (j 1).val := rfl

/-- The operand indices of `a·b`: the left operand is read at (row, k), the right one at (k, column), coordinate by coordinate. -/
private theorem lhs_R_ABB_0 (j : Cert.ReferenceIdeal.S1024x512.Idx) (k : Cert.ReferenceIdeal.dot_S1024x1024_S1024x512_S1024x512_1_0_0_1_n_n.contr.Idx) :
    (Cert.ReferenceIdeal.dot_S1024x1024_S1024x512_S1024x512_1_0_0_1_n_n.lhsIdx j k 0).val = (j 0).val := rfl
private theorem lhs_R_ABB_1 (j : Cert.ReferenceIdeal.S1024x512.Idx) (k : Cert.ReferenceIdeal.dot_S1024x1024_S1024x512_S1024x512_1_0_0_1_n_n.contr.Idx) :
    (Cert.ReferenceIdeal.dot_S1024x1024_S1024x512_S1024x512_1_0_0_1_n_n.lhsIdx j k 1).val = (k ⟨0, Nat.one_pos⟩).val := rfl
private theorem rhs_R_ABB_0 (j : Cert.ReferenceIdeal.S1024x512.Idx) (k : Cert.ReferenceIdeal.dot_S1024x1024_S1024x512_S1024x512_1_0_0_1_n_n.contr.Idx) :
    (Cert.ReferenceIdeal.dot_S1024x1024_S1024x512_S1024x512_1_0_0_1_n_n.rhsIdx j k 0).val = (k ⟨0, Nat.one_pos⟩).val := rfl
private theorem rhs_R_ABB_1 (j : Cert.ReferenceIdeal.S1024x512.Idx) (k : Cert.ReferenceIdeal.dot_S1024x1024_S1024x512_S1024x512_1_0_0_1_n_n.contr.Idx) :
    (Cert.ReferenceIdeal.dot_S1024x1024_S1024x512_S1024x512_1_0_0_1_n_n.rhsIdx j k 1).val = (j 1).val := rfl

/-- The operand indices of `a·b`: the left operand is read at (row, k), the right one at (k, column), coordinate by coordinate. -/
private theorem lhs_R_BCA_0 (j : Cert.ReferenceIdeal.S1024x1024.Idx) (k : Cert.ReferenceIdeal.dot_S1024x512_S512x1024_S1024x1024_1_0_0_1_n_n.contr.Idx) :
    (Cert.ReferenceIdeal.dot_S1024x512_S512x1024_S1024x1024_1_0_0_1_n_n.lhsIdx j k 0).val = (j 0).val := rfl
private theorem lhs_R_BCA_1 (j : Cert.ReferenceIdeal.S1024x1024.Idx) (k : Cert.ReferenceIdeal.dot_S1024x512_S512x1024_S1024x1024_1_0_0_1_n_n.contr.Idx) :
    (Cert.ReferenceIdeal.dot_S1024x512_S512x1024_S1024x1024_1_0_0_1_n_n.lhsIdx j k 1).val = (k ⟨0, Nat.one_pos⟩).val := rfl
private theorem rhs_R_BCA_0 (j : Cert.ReferenceIdeal.S1024x1024.Idx) (k : Cert.ReferenceIdeal.dot_S1024x512_S512x1024_S1024x1024_1_0_0_1_n_n.contr.Idx) :
    (Cert.ReferenceIdeal.dot_S1024x512_S512x1024_S1024x1024_1_0_0_1_n_n.rhsIdx j k 0).val = (k ⟨0, Nat.one_pos⟩).val := rfl
private theorem rhs_R_BCA_1 (j : Cert.ReferenceIdeal.S1024x1024.Idx) (k : Cert.ReferenceIdeal.dot_S1024x512_S512x1024_S1024x1024_1_0_0_1_n_n.contr.Idx) :
    (Cert.ReferenceIdeal.dot_S1024x512_S512x1024_S1024x1024_1_0_0_1_n_n.rhsIdx j k 1).val = (j 1).val := rfl

/-- `a·bᵀ` over [1024,1024]·[1024,1024]ᵀ: the reference transposes `b` and contracts as usual. -/
theorem mmT_AAA (a b : FVec Ideal SA .f32) :
    matmul Cert.KernelIdeal.dot_S1024x1024_S1024x1024_S1024x1024_1_1_0_0_n_n none a b (constant Cert.KernelIdeal.S1024x1024 .f32 0x00000000#32)
      = Host.dotGeneral Cert.ReferenceIdeal.dot_S1024x1024_S1024x1024_S1024x1024_1_0_0_1_n_n none a
          (transpose Cert.ReferenceIdeal.S1024x1024 [1, 0] b Cert.ReferenceIdeal.Facts₀.transposes_S1024x1024_S1024x1024_1_0) := by
  -- both sides at an index are sums over the contracted axis; re-indexed by that axis' one coordinate `i`, the terms agree:
  -- the transposed operand at (k, c) is the operand at (c, k)
  funext j
  simp only [matmul, Host.dotGeneral]
  rw [Ideal.matmul_constant_zero_apply, Ideal.dotGeneral_apply]
  refine ((Equiv.sum_comp (contrEquiv1 Cert.KernelIdeal.dot_S1024x1024_S1024x1024_S1024x1024_1_1_0_0_n_n 1024 rfl rfl).symm _).symm.trans ?_).trans
    (Equiv.sum_comp (contrEquiv1 Cert.ReferenceIdeal.dot_S1024x1024_S1024x1024_S1024x1024_1_0_0_1_n_n 1024 rfl rfl).symm _)
  refine Finset.sum_congr rfl fun i _ => ?_
  have hK := contrEquiv1_symm_val Cert.KernelIdeal.dot_S1024x1024_S1024x1024_S1024x1024_1_1_0_0_n_n 1024 rfl rfl i
  have hR := contrEquiv1_symm_val Cert.ReferenceIdeal.dot_S1024x1024_S1024x1024_S1024x1024_1_0_0_1_n_n 1024 rfl rfl i
  have hl : Cert.KernelIdeal.dot_S1024x1024_S1024x1024_S1024x1024_1_1_0_0_n_n.lhsIdx j ((contrEquiv1 Cert.KernelIdeal.dot_S1024x1024_S1024x1024_S1024x1024_1_1_0_0_n_n 1024 rfl rfl).symm i)
      = Cert.ReferenceIdeal.dot_S1024x1024_S1024x1024_S1024x1024_1_0_0_1_n_n.lhsIdx j ((contrEquiv1 Cert.ReferenceIdeal.dot_S1024x1024_S1024x1024_S1024x1024_1_0_0_1_n_n 1024 rfl rfl).symm i) :=
    Shape.idx_ext₂ ((lhs_KT_AAA_0 _ _).trans (lhs_R_AAA_0 _ _).symm)
      (((lhs_KT_AAA_1 _ _).trans hK).trans ((lhs_R_AAA_1 _ _).trans hR).symm)
  have hr : transpose Cert.ReferenceIdeal.S1024x1024 [1, 0] b Cert.ReferenceIdeal.Facts₀.transposes_S1024x1024_S1024x1024_1_0
        (Cert.ReferenceIdeal.dot_S1024x1024_S1024x1024_S1024x1024_1_0_0_1_n_n.rhsIdx j ((contrEquiv1 Cert.ReferenceIdeal.dot_S1024x1024_S1024x1024_S1024x1024_1_0_0_1_n_n 1024 rfl rfl).symm i))
      = b (Cert.KernelIdeal.dot_S1024x1024_S1024x1024_S1024x1024_1_1_0_0_n_n.rhsIdx j ((contrEquiv1 Cert.KernelIdeal.dot_S1024x1024_S1024x1024_S1024x1024_1_1_0_0_n_n 1024 rfl rfl).symm i)) :=
    transpose_apply [1, 0] b _ _ _ fun bb => match bb with
      | ⟨0, _⟩ => ((rhs_KT_AAA_1 _ _).trans hK).trans ((rhs_R_AAA_0 _ _).trans hR).symm
      | ⟨1, _⟩ => (rhs_KT_AAA_0 _ _).trans (rhs_R_AAA_1 _ _).symm
  rw [hl, hr]

/-- `a·bᵀ` over [1024,512]·[1024,512]ᵀ. -/
theorem mmT_BBA (a b : FVec Ideal SB .f32) :
    matmul Cert.KernelIdeal.dot_S1024x512_S1024x512_S1024x1024_1_1_0_0_n_n none a b (constant Cert.KernelIdeal.S1024x1024 .f32 0x00000000#32)
      = Host.dotGeneral Cert.ReferenceIdeal.dot_S1024x512_S512x1024_S1024x1024_1_0_0_1_n_n none a
          (transpose Cert.ReferenceIdeal.S512x1024 [1, 0] b Cert.ReferenceIdeal.Facts₀.transposes_S1024x512_S512x1024_1_0) := by
  -- both sides at an index are sums over the contracted axis; re-indexed by that axis' one coordinate `i`, the terms agree:
  -- the transposed operand at (k, c) is the operand at (c, k)
  funext j
  simp only [matmul, Host.dotGeneral]
  rw [Ideal.matmul_constant_zero_apply, Ideal.dotGeneral_apply]
  refine ((Equiv.sum_comp (contrEquiv1 Cert.KernelIdeal.dot_S1024x512_S1024x512_S1024x1024_1_1_0_0_n_n 512 rfl rfl).symm _).symm.trans ?_).trans
    (Equiv.sum_comp (contrEquiv1 Cert.ReferenceIdeal.dot_S1024x512_S512x1024_S1024x1024_1_0_0_1_n_n 512 rfl rfl).symm _)
  refine Finset.sum_congr rfl fun i _ => ?_
  have hK := contrEquiv1_symm_val Cert.KernelIdeal.dot_S1024x512_S1024x512_S1024x1024_1_1_0_0_n_n 512 rfl rfl i
  have hR := contrEquiv1_symm_val Cert.ReferenceIdeal.dot_S1024x512_S512x1024_S1024x1024_1_0_0_1_n_n 512 rfl rfl i
  have hl : Cert.KernelIdeal.dot_S1024x512_S1024x512_S1024x1024_1_1_0_0_n_n.lhsIdx j ((contrEquiv1 Cert.KernelIdeal.dot_S1024x512_S1024x512_S1024x1024_1_1_0_0_n_n 512 rfl rfl).symm i)
      = Cert.ReferenceIdeal.dot_S1024x512_S512x1024_S1024x1024_1_0_0_1_n_n.lhsIdx j ((contrEquiv1 Cert.ReferenceIdeal.dot_S1024x512_S512x1024_S1024x1024_1_0_0_1_n_n 512 rfl rfl).symm i) :=
    Shape.idx_ext₂ ((lhs_KT_BBA_0 _ _).trans (lhs_R_BCA_0 _ _).symm)
      (((lhs_KT_BBA_1 _ _).trans hK).trans ((lhs_R_BCA_1 _ _).trans hR).symm)
  have hr : transpose Cert.ReferenceIdeal.S512x1024 [1, 0] b Cert.ReferenceIdeal.Facts₀.transposes_S1024x512_S512x1024_1_0
        (Cert.ReferenceIdeal.dot_S1024x512_S512x1024_S1024x1024_1_0_0_1_n_n.rhsIdx j ((contrEquiv1 Cert.ReferenceIdeal.dot_S1024x512_S512x1024_S1024x1024_1_0_0_1_n_n 512 rfl rfl).symm i))
      = b (Cert.KernelIdeal.dot_S1024x512_S1024x512_S1024x1024_1_1_0_0_n_n.rhsIdx j ((contrEquiv1 Cert.KernelIdeal.dot_S1024x512_S1024x512_S1024x1024_1_1_0_0_n_n 512 rfl rfl).symm i)) :=
    transpose_apply [1, 0] b _ _ _ fun bb => match bb with
      | ⟨0, _⟩ => ((rhs_KT_BBA_1 _ _).trans hK).trans ((rhs_R_BCA_0 _ _).trans hR).symm
      | ⟨1, _⟩ => (rhs_KT_BBA_0 _ _).trans (rhs_R_BCA_1 _ _).symm
  rw [hl, hr]

/-- `aᵀ·b` over [1024,1024]ᵀ·[1024,1024]: the reference transposes `a` and contracts as usual. -/
theorem mTm_AAA (a b : FVec Ideal SA .f32) :
    matmul Cert.KernelIdeal.dot_S1024x1024_S1024x1024_S1024x1024_0_0_1_1_n_n none a b (constant Cert.KernelIdeal.S1024x1024 .f32 0x00000000#32)
      = Host.dotGeneral Cert.ReferenceIdeal.dot_S1024x1024_S1024x1024_S1024x1024_1_0_0_1_n_n none
          (transpose Cert.ReferenceIdeal.S1024x1024 [1, 0] a Cert.ReferenceIdeal.Facts₀.transposes_S1024x1024_S1024x1024_1_0) b := by
  -- both sides at an index are sums over the contracted axis; re-indexed by that axis' one coordinate `i`, the terms agree:
  -- the transposed operand at (k, c) is the operand at (c, k)
  funext j
  simp only [matmul, Host.dotGeneral]
  rw [Ideal.matmul_constant_zero_apply, Ideal.dotGeneral_apply]
  refine ((Equiv.sum_comp (contrEquiv1 Cert.KernelIdeal.dot_S1024x1024_S1024x1024_S1024x1024_0_0_1_1_n_n 1024 rfl rfl).symm _).symm.trans ?_).trans
    (Equiv.sum_comp (contrEquiv1 Cert.ReferenceIdeal.dot_S1024x1024_S1024x1024_S1024x1024_1_0_0_1_n_n 1024 rfl rfl).symm _)
  refine Finset.sum_congr rfl fun i _ => ?_
  have hK := contrEquiv1_symm_val Cert.KernelIdeal.dot_S1024x1024_S1024x1024_S1024x1024_0_0_1_1_n_n 1024 rfl rfl i
  have hR := contrEquiv1_symm_val Cert.ReferenceIdeal.dot_S1024x1024_S1024x1024_S1024x1024_1_0_0_1_n_n 1024 rfl rfl i
  have hl : transpose Cert.ReferenceIdeal.S1024x1024 [1, 0] a Cert.ReferenceIdeal.Facts₀.transposes_S1024x1024_S1024x1024_1_0
        (Cert.ReferenceIdeal.dot_S1024x1024_S1024x1024_S1024x1024_1_0_0_1_n_n.lhsIdx j ((contrEquiv1 Cert.ReferenceIdeal.dot_S1024x1024_S1024x1024_S1024x1024_1_0_0_1_n_n 1024 rfl rfl).symm i))
      = a (Cert.KernelIdeal.dot_S1024x1024_S1024x1024_S1024x1024_0_0_1_1_n_n.lhsIdx j ((contrEquiv1 Cert.KernelIdeal.dot_S1024x1024_S1024x1024_S1024x1024_0_0_1_1_n_n 1024 rfl rfl).symm i)) :=
    transpose_apply [1, 0] a _ _ _ fun bb => match bb with
      | ⟨0, _⟩ => (lhs_TK_AAA_1 _ _).trans (lhs_R_AAA_0 _ _).symm
      | ⟨1, _⟩ => ((lhs_TK_AAA_0 _ _).trans hK).trans ((lhs_R_AAA_1 _ _).trans hR).symm
  have hr : Cert.KernelIdeal.dot_S1024x1024_S1024x1024_S1024x1024_0_0_1_1_n_n.rhsIdx j ((contrEquiv1 Cert.KernelIdeal.dot_S1024x1024_S1024x1024_S1024x1024_0_0_1_1_n_n 1024 rfl rfl).symm i)
      = Cert.ReferenceIdeal.dot_S1024x1024_S1024x1024_S1024x1024_1_0_0_1_n_n.rhsIdx j ((contrEquiv1 Cert.ReferenceIdeal.dot_S1024x1024_S1024x1024_S1024x1024_1_0_0_1_n_n 1024 rfl rfl).symm i) :=
    Shape.idx_ext₂ (((rhs_TK_AAA_0 _ _).trans hK).trans ((rhs_R_AAA_0 _ _).trans hR).symm)
      ((rhs_TK_AAA_1 _ _).trans (rhs_R_AAA_1 _ _).symm)
  rw [hl, hr]

/-- `aᵀ·b` over [1024,1024]ᵀ·[1024,512]. -/
theorem mTm_ABB (a : FVec Ideal SA .f32) (b : FVec Ideal SB .f32) :
    matmul Cert.KernelIdeal.dot_S1024x1024_S1024x512_S1024x512_0_0_1_1_n_n none a b (constant Cert.KernelIdeal.S1024x512 .f32 0x00000000#32)
      = Host.dotGeneral Cert.ReferenceIdeal.dot_S1024x1024_S1024x512_S1024x512_1_0_0_1_n_n none
          (transpose Cert.ReferenceIdeal.S1024x1024 [1, 0] a Cert.ReferenceIdeal.Facts₀.transposes_S1024x1024_S1024x1024_1_0) b := by
  -- both sides at an index are sums over the contracted axis; re-indexed by that axis' one coordinate `i`, the terms agree:
  -- the transposed operand at (k, c) is the operand at (c, k)
  funext j
  simp only [matmul, Host.dotGeneral]
  rw [Ideal.matmul_constant_zero_apply, Ideal.dotGeneral_apply]
  refine ((Equiv.sum_comp (contrEquiv1 Cert.KernelIdeal.dot_S1024x1024_S1024x512_S1024x512_0_0_1_1_n_n 1024 rfl rfl).symm _).symm.trans ?_).trans
    (Equiv.sum_comp (contrEquiv1 Cert.ReferenceIdeal.dot_S1024x1024_S1024x512_S1024x512_1_0_0_1_n_n 1024 rfl rfl).symm _)
  refine Finset.sum_congr rfl fun i _ => ?_
  have hK := contrEquiv1_symm_val Cert.KernelIdeal.dot_S1024x1024_S1024x512_S1024x512_0_0_1_1_n_n 1024 rfl rfl i
  have hR := contrEquiv1_symm_val Cert.ReferenceIdeal.dot_S1024x1024_S1024x512_S1024x512_1_0_0_1_n_n 1024 rfl rfl i
  have hl : transpose Cert.ReferenceIdeal.S1024x1024 [1, 0] a Cert.ReferenceIdeal.Facts₀.transposes_S1024x1024_S1024x1024_1_0
        (Cert.ReferenceIdeal.dot_S1024x1024_S1024x512_S1024x512_1_0_0_1_n_n.lhsIdx j ((contrEquiv1 Cert.ReferenceIdeal.dot_S1024x1024_S1024x512_S1024x512_1_0_0_1_n_n 1024 rfl rfl).symm i))
      = a (Cert.KernelIdeal.dot_S1024x1024_S1024x512_S1024x512_0_0_1_1_n_n.lhsIdx j ((contrEquiv1 Cert.KernelIdeal.dot_S1024x1024_S1024x512_S1024x512_0_0_1_1_n_n 1024 rfl rfl).symm i)) :=
    transpose_apply [1, 0] a _ _ _ fun bb => match bb with
      | ⟨0, _⟩ => (lhs_TK_ABB_1 _ _).trans (lhs_R_ABB_0 _ _).symm
      | ⟨1, _⟩ => ((lhs_TK_ABB_0 _ _).trans hK).trans ((lhs_R_ABB_1 _ _).trans hR).symm
  have hr : Cert.KernelIdeal.dot_S1024x1024_S1024x512_S1024x512_0_0_1_1_n_n.rhsIdx j ((contrEquiv1 Cert.KernelIdeal.dot_S1024x1024_S1024x512_S1024x512_0_0_1_1_n_n 1024 rfl rfl).symm i)
      = Cert.ReferenceIdeal.dot_S1024x1024_S1024x512_S1024x512_1_0_0_1_n_n.rhsIdx j ((contrEquiv1 Cert.ReferenceIdeal.dot_S1024x1024_S1024x512_S1024x512_1_0_0_1_n_n 1024 rfl rfl).symm i) :=
    Shape.idx_ext₂ (((rhs_TK_ABB_0 _ _).trans hK).trans ((rhs_R_ABB_0 _ _).trans hR).symm)
      ((rhs_TK_ABB_1 _ _).trans (rhs_R_ABB_1 _ _).symm)
  rw [hl, hr]

end TransposedProducts

/-- A scalar splat is the reference's broadcast of the rank-0 constant of the same word. -/
theorem splat_A (w : BitVec 32) :
    (broadcast Cert.KernelIdeal.S1024x1024 (Scalar.ofBits (F := Ideal) .f32 w) : FVec Ideal SA .f32)
      = broadcastInDim Cert.ReferenceIdeal.S1024x1024 ![] Cert.ReferenceIdeal.Facts₀.bcast_S_S1024x1024 (constant (F := Ideal) Cert.ReferenceIdeal.S_ .f32 w) := by
  -- both sides are the constant function at the value of the word `w`
  rfl
theorem splat_B (w : BitVec 32) :
    (broadcast Cert.KernelIdeal.S1024x512 (Scalar.ofBits (F := Ideal) .f32 w) : FVec Ideal SB .f32)
      = broadcastInDim Cert.ReferenceIdeal.S1024x512 ![] Cert.ReferenceIdeal.Facts₀.bcast_S_S1024x512 (constant (F := Ideal) Cert.ReferenceIdeal.S_ .f32 w) := by
  rfl

/-- A shape cast to the same shape is the identity. -/
theorem cast_A (v : FVec Ideal SA .f32) : shapeCast Cert.KernelIdeal.S1024x1024 v Cert.KernelIdeal.Facts₀.shapeCasts_S1024x1024_S1024x1024 = v :=
  shapeCast_self v _
theorem cast_B (v : FVec Ideal SB .f32) : shapeCast Cert.KernelIdeal.S1024x512 v Cert.KernelIdeal.Facts₀.shapeCasts_S1024x512_S1024x512 = v :=
  shapeCast_self v _

/-- The kernel reshapes the rank-0 value to [1], the reference broadcasts it to [1]: both are the constant function on the one
    index, since the rank-0 index set has one element. -/
theorem cast_S1 (v : FVec Ideal Cert.KernelIdeal.S_ .f32) :
    shapeCast Cert.KernelIdeal.S1 v Cert.KernelIdeal.Facts₀.shapeCasts_S_S1
      = broadcastInDim Cert.ReferenceIdeal.S1 ![] Cert.ReferenceIdeal.Facts₀.bcast_S_S1 v := by
  funext i
  unfold shapeCast broadcastInDim
  exact congrArg v (funext fun a => a.elim0)

end Cert.Bridge

end
-- ==== Proof.RefTerms.lean ====
/-
  The reference's arithmetic, step by step, as functions of whole arrays (each is the reference's own host term for that
  value, with the earlier values it reads as parameters): the clamp-layer gradient `g3`, the first step's chained
  gradient `g2`, the three states after the first (chained) relaxation step and after a later (direct) one, and a
  layer's weight gradient `sᵀ·(s·W − s')`.
-/
import proofs.«107956_j75110388073098_1_alg».proof.ReferenceIdeal
import Idealize.ShloMosaic.PureOps.Ideal

noncomputable section

namespace Cert.RefSide

open Idealize.ShloMosaic Idealize.ShloMosaic.TcCoe Idealize.SL.Sem
open Cert.ReferenceIdeal Cert.ReferenceIdeal.Facts₀

variable {F : FTy → Type} [FloatOps F] [Cert.ReferenceIdeal.Facts]

abbrev TA (F : FTy → Type) : Type := FVec F S1024x1024 .f32
abbrev TB (F : FTy → Type) : Type := FVec F S1024x512 .f32

/-- The splats of β = 1e-3 and of ½, as the reference writes them. -/
abbrev betaB : TB F := broadcastInDim S1024x512 ![] bcast_S_S1024x512 (constant S_ .f32 0x3A83126F#32)
abbrev halfA : TA F := broadcastInDim S1024x1024 ![] bcast_S_S1024x1024 (constant S_ .f32 0x3F000000#32)
abbrev halfB : TB F := broadcastInDim S1024x512 ![] bcast_S_S1024x512 (constant S_ .f32 0x3F000000#32)
abbrev betaA : TA F := broadcastInDim S1024x1024 ![] bcast_S_S1024x1024 (constant S_ .f32 0x3A83126F#32)

/-- The products the reference takes. -/
abbrev mAA (a b : TA F) : TA F := Host.dotGeneral dot_S1024x1024_S1024x1024_S1024x1024_1_0_0_1_n_n none a b
abbrev mAB (a : TA F) (b : TB F) : TB F := Host.dotGeneral dot_S1024x1024_S1024x512_S1024x512_1_0_0_1_n_n none a b
/-- `a·W1ᵀ` and `g·W2ᵀ`: the weight transposed first. -/
abbrev mAAt (a W : TA F) : TA F :=
  Host.dotGeneral dot_S1024x1024_S1024x1024_S1024x1024_1_0_0_1_n_n none a (transpose S1024x1024 [1, 0] W transposes_S1024x1024_S1024x1024_1_0)
abbrev mBBt (g W : TB F) : TA F :=
  Host.dotGeneral dot_S1024x512_S512x1024_S1024x1024_1_0_0_1_n_n none g (transpose S512x1024 [1, 0] W transposes_S1024x512_S512x1024_1_0)
/-- `aᵀ·r`: the state transposed first. -/
abbrev mAtA (a r : TA F) : TA F :=
  Host.dotGeneral dot_S1024x1024_S1024x1024_S1024x1024_1_0_0_1_n_n none (transpose S1024x1024 [1, 0] a transposes_S1024x1024_S1024x1024_1_0) r
abbrev mAtB (a : TA F) (r : TB F) : TB F :=
  Host.dotGeneral dot_S1024x1024_S1024x512_S1024x512_1_0_0_1_n_n none (transpose S1024x1024 [1, 0] a transposes_S1024x1024_S1024x1024_1_0) r

/-- The forward chain. -/
def fwd1 (x W0 : TA F) : TA F := mAA x W0
def fwd2 (s1 W1 : TA F) : TA F := mAA s1 W1
def fwd3 (s2 : TA F) (W2 : TB F) : TB F := mAB s2 W2

/-- The clamp layer's gradient: `(s3 − s2·W2) + β·(s3 − y)`. -/
def g3 (s2 : TA F) (s3 y W2 : TB F) : TB F := addf (subf s3 (mAB s2 W2)) (mulf betaB (subf s3 y))
/-- The first step's gradient of the middle state, with the clamp layer's flowing back: `((s2 − s1·W1) − (s3 − s2·W2)·W2ᵀ) + g3·W2ᵀ`. -/
def g2c (s1 s2 : TA F) (s3 : TB F) (W1 : TA F) (W2 g : TB F) : TA F :=
  addf (subf (subf s2 (mAA s1 W1)) (mBBt (subf s3 (mAB s2 W2)) W2)) (mBBt g W2)
/-- The states after the first step. -/
def c1 (x s1 s2 W0 W1 g : TA F) : TA F :=
  subf s1 (mulf halfA (addf (subf (subf s1 (mAA x W0)) (mAAt (subf s2 (mAA s1 W1)) W1)) (mAAt g W1)))
def c2 (s2 g : TA F) : TA F := subf s2 (mulf halfA g)
def c3 (s3 g : TB F) : TB F := subf s3 (mulf halfB g)
/-- The states after a later step: each moved by half its direct gradient. -/
def u1 (x s1 s2 W0 W1 : TA F) : TA F :=
  subf s1 (mulf halfA (subf (subf s1 (mAA x W0)) (mAAt (subf s2 (mAA s1 W1)) W1)))
def u2 (s1 s2 : TA F) (s3 : TB F) (W1 : TA F) (W2 : TB F) : TA F :=
  subf s2 (mulf halfA (subf (subf s2 (mAA s1 W1)) (mBBt (subf s3 (mAB s2 W2)) W2)))
def u3 (s2 : TA F) (s3 y W2 : TB F) : TB F :=
  subf s3 (mulf halfB (addf (subf s3 (mAB s2 W2)) (mulf betaB (subf s3 y))))
/-- A layer's weight gradient `sᵀ·(s·W − s')`. -/
def wgA (s W s' : TA F) : TA F := mAtA s (subf (mAA s W) s')
def wgB (s : TA F) (W s' : TB F) : TB F := mAtB s (subf (mAB s W) s')

/-- The three relaxing states. -/
structure St (F : FTy → Type) where
  s1 : TA F
  s2 : TA F
  s3 : TB F

/-- The free phase: the forward chain. -/
def st0 (x W0 W1 : TA F) (W2 : TB F) : St F :=
  ⟨fwd1 x W0, fwd2 (fwd1 x W0) W1, fwd3 (fwd2 (fwd1 x W0) W1) W2⟩
/-- The first relaxation step (the gradients chained back). -/
def stC (x : TA F) (y : TB F) (W0 W1 : TA F) (W2 : TB F) (s : St F) : St F :=
  ⟨c1 x s.s1 s.s2 W0 W1 (g2c s.s1 s.s2 s.s3 W1 W2 (g3 s.s2 s.s3 y W2)),
   c2 s.s2 (g2c s.s1 s.s2 s.s3 W1 W2 (g3 s.s2 s.s3 y W2)),
   c3 s.s3 (g3 s.s2 s.s3 y W2)⟩
/-- A later relaxation step (direct gradients). -/
def stU (x : TA F) (y : TB F) (W0 W1 : TA F) (W2 : TB F) (s : St F) : St F :=
  ⟨u1 x s.s1 s.s2 W0 W1, u2 s.s1 s.s2 s.s3 W1 W2, u3 s.s2 s.s3 y W2⟩

/-- The states after `k` relaxation steps from the forward chain: the first step chained, the later ones direct. -/
def chain (x : TA F) (y : TB F) (W0 W1 : TA F) (W2 : TB F) : ℕ → St F
  | 0 => st0 x W0 W1 W2
  | 1 => stC x y W0 W1 W2 (st0 x W0 W1 W2)
  | k + 2 => stU x y W0 W1 W2 (chain x y W0 W1 W2 (k + 1))
theorem chain_zero (x : TA F) (y : TB F) (W0 W1 : TA F) (W2 : TB F) : chain x y W0 W1 W2 0 = st0 x W0 W1 W2 := rfl
theorem chain_one (x : TA F) (y : TB F) (W0 W1 : TA F) (W2 : TB F) :
    chain x y W0 W1 W2 1 = stC x y W0 W1 W2 (chain x y W0 W1 W2 0) := rfl
theorem chain_step (x : TA F) (y : TB F) (W0 W1 : TA F) (W2 : TB F) (k : ℕ) :
    chain x y W0 W1 W2 (k + 2) = stU x y W0 W1 W2 (chain x y W0 W1 W2 (k + 1)) := rfl

/-- The mean squared error of the free phase's last state against `y`: the sum over all 1024·512 entries, by their number. -/
def loss (s3 y : TB F) : FVec F S_ .f32 :=
  Host.divf (Host.reduceAdd (mulf (subf s3 y) (subf s3 y)) (constant S_ .f32 0x00000000#32) reducesTo_S1024x512_S_d0_1 h_S_)
    (constant S_ .f32 0x49000000#32)

/-- What the reference returns: the three layers' weight gradients at the relaxed states `b` less those at the free
    states `f`, each divided by β and flattened, then the loss; one vector. -/
def result (x : TA F) (y : TB F) (W0 W1 : TA F) (W2 : TB F) (f b : St F) : FVec F S2621441 .f32 :=
  concatenate S2621441 0
    [⟨S1048576, (shapeCast _ (Host.divf (subf (wgA x W0 b.s1) (wgA x W0 f.s1)) betaA) shapeCasts_S1024x1024_S1048576)⟩,
     ⟨S1048576, (shapeCast _ (Host.divf (subf (wgA b.s1 W1 b.s2) (wgA f.s1 W1 f.s2)) betaA) shapeCasts_S1024x1024_S1048576)⟩,
     ⟨S524288, (shapeCast _ (Host.divf (subf (wgB b.s2 W2 b.s3) (wgB f.s2 W2 f.s3)) betaB) shapeCasts_S1024x512_S524288)⟩,
     ⟨S1, (broadcastInDim S1 ![] bcast_S_S1 (loss f.s3 y))⟩]
    concatenates_S1048576_S1048576_S524288_S1_S2621441_d0

end Cert.RefSide

end
-- ==== Proof.StepEqU.lean ====
/-
  A later relaxation step: the kernel's three results are the reference's states after a direct-gradient step.
  Both sides apply the same operations in the same order; the kernel's `a·bᵀ` products are the reference's products with the
  weight transposed first, its scalar splats the reference's broadcasts, its same-shape casts the identity.
-/
import proofs.«107956_j75110388073098_1_alg».proof.Proof.KIRegion2
import proofs.«107956_j75110388073098_1_alg».proof.Proof.BridgeOps
import proofs.«107956_j75110388073098_1_alg».proof.Proof.RefTerms
import proofs.«107956_j75110388073098_1_alg».proof.Proof.Gen.ReferenceIdeal

noncomputable section

namespace Cert.Bridge

open Idealize.ShloMosaic Idealize.ShloMosaic.TcCoe Idealize.SL.Sem
open Cert.KernelIdeal.Reg Cert.RefSide

/-- The whole-buffer rectangles sit at offset zero on both axes. -/
private theorem zero_off : (![0, 0] : Fin 2 → Nat) = fun _ => 0 := funext fun a => by fin_cases a <;> rfl

theorem out2_8_eq (x s1 s2 W0 W1 : Vec Ideal Cert.KernelIdeal.S1024x1024 .f32) : out2_8 (F := Ideal) x s1 s2 W0 W1 = u1 (F := Ideal) x s1 s2 W0 W1 := by
  -- the one whole-buffer store leaves its payload, each whole-buffer load reads its buffer; then the two terms apply the same
  -- operations to the same operands, the kernel's products, splats and same-shape casts read as the reference's
  unfold out2_8
  rw [View.canon_unit_zero zero_off]
  simp only [View.ld_unit_zero (S := Cert.KernelIdeal.S1024x1024) zero_off, View.ld_unit_zero (S := Cert.KernelIdeal.S1024x512) zero_off]
  unfold Cert.KernelIdeal.Gen.k2_pay8 Cert.KernelIdeal.Gen.k2_pay3 Cert.KernelIdeal.Gen.k2_pay4 u1
  simp only [cast_A, mm_AAA, mmT_AAA, splat_A]
theorem out2_9_eq (s1 s2 : Vec Ideal Cert.KernelIdeal.S1024x1024 .f32) (s3 : Vec Ideal Cert.KernelIdeal.S1024x512 .f32) (W1 : Vec Ideal Cert.KernelIdeal.S1024x1024 .f32) (W2 : Vec Ideal Cert.KernelIdeal.S1024x512 .f32) : out2_9 (F := Ideal) s1 s2 s3 W1 W2 = u2 (F := Ideal) s1 s2 s3 W1 W2 := by
  unfold out2_9
  rw [View.canon_unit_zero zero_off]
  simp only [View.ld_unit_zero (S := Cert.KernelIdeal.S1024x1024) zero_off, View.ld_unit_zero (S := Cert.KernelIdeal.S1024x512) zero_off]
  unfold Cert.KernelIdeal.Gen.k2_pay1 Cert.KernelIdeal.Gen.k2_pay6 Cert.KernelIdeal.Gen.k2_pay3 Cert.KernelIdeal.Gen.k2_pay4 Cert.KernelIdeal.Gen.k2_pay5 u2
  simp only [cast_A, cast_B, mm_AAA, mm_ABB, mmT_BBA, splat_A]
theorem out2_10_eq (s2 : Vec Ideal Cert.KernelIdeal.S1024x1024 .f32) (s3 y W2 : Vec Ideal Cert.KernelIdeal.S1024x512 .f32) : out2_10 (F := Ideal) s2 s3 y W2 = u3 (F := Ideal) s2 s3 y W2 := by
  unfold out2_10
  rw [View.canon_unit_zero zero_off]
  simp only [View.ld_unit_zero (S := Cert.KernelIdeal.S1024x1024) zero_off, View.ld_unit_zero (S := Cert.KernelIdeal.S1024x512) zero_off]
  unfold Cert.KernelIdeal.Gen.k2_pay2 Cert.KernelIdeal.Gen.k2_pay7 Cert.KernelIdeal.Gen.k2_pay4 Cert.KernelIdeal.Gen.k2_pay5 u3
  simp only [cast_A, cast_B, mm_ABB, splat_B]

end Cert.Bridge

end
-- ==== Proof.StepEqW.lean ====
/-
  The weight gradients: each of the kernel's three results `sᵀ·(s·W − s')` is the reference's, whose `sᵀ` is an explicit
  transpose before a plain product where the kernel contracts the first axes of both operands.
-/
import proofs.«107956_j75110388073098_1_alg».proof.Proof.KIRegion21
import proofs.«107956_j75110388073098_1_alg».proof.Proof.BridgeOps
import proofs.«107956_j75110388073098_1_alg».proof.Proof.RefTerms
import proofs.«107956_j75110388073098_1_alg».proof.Proof.Gen.ReferenceIdeal

noncomputable section

namespace Cert.Bridge

open Idealize.ShloMosaic Idealize.ShloMosaic.TcCoe Idealize.SL.Sem
open Cert.KernelIdeal.Reg Cert.RefSide

/-- The whole-buffer rectangles sit at offset zero on both axes. -/
private theorem zero_off : (![0, 0] : Fin 2 → Nat) = fun _ => 0 := funext fun a => by fin_cases a <;> rfl

theorem out21_7_eq (s0 s1 W0 : Vec Ideal Cert.KernelIdeal.S1024x1024 .f32) : out21_7 (F := Ideal) s0 s1 W0 = wgA (F := Ideal) s0 W0 s1 := by
  -- the one whole-buffer store leaves its payload, each whole-buffer load reads its buffer; then the two terms apply the same
  -- operations to the same operands, the kernel's products, splats and same-shape casts read as the reference's
  unfold out21_7
  rw [View.canon_unit_zero zero_off]
  simp only [View.ld_unit_zero (S := Cert.KernelIdeal.S1024x1024) zero_off, View.ld_unit_zero (S := Cert.KernelIdeal.S1024x512) zero_off]
  unfold Cert.KernelIdeal.Gen.k21_pay3 Cert.KernelIdeal.Gen.k21_pay1 wgA
  simp only [cast_A, mm_AAA, mTm_AAA]
theorem out21_8_eq (s1 s2 W1 : Vec Ideal Cert.KernelIdeal.S1024x1024 .f32) : out21_8 (F := Ideal) s1 s2 W1 = wgA (F := Ideal) s1 W1 s2 := by
  unfold out21_8
  rw [View.canon_unit_zero zero_off]
  simp only [View.ld_unit_zero (S := Cert.KernelIdeal.S1024x1024) zero_off, View.ld_unit_zero (S := Cert.KernelIdeal.S1024x512) zero_off]
  unfold Cert.KernelIdeal.Gen.k21_pay4 Cert.KernelIdeal.Gen.k21_pay1 Cert.KernelIdeal.Gen.k21_pay2 wgA
  simp only [cast_A, mm_AAA, mTm_AAA]
theorem out21_9_eq (s2 : Vec Ideal Cert.KernelIdeal.S1024x1024 .f32) (s3 W2 : Vec Ideal Cert.KernelIdeal.S1024x512 .f32) : out21_9 (F := Ideal) s2 s3 W2 = wgB (F := Ideal) s2 W2 s3 := by
  unfold out21_9
  rw [View.canon_unit_zero zero_off]
  simp only [View.ld_unit_zero (S := Cert.KernelIdeal.S1024x1024) zero_off, View.ld_unit_zero (S := Cert.KernelIdeal.S1024x512) zero_off]
  unfold Cert.KernelIdeal.Gen.k21_pay5 Cert.KernelIdeal.Gen.k21_pay2 wgB
  simp only [cast_A, cast_B, mm_ABB, mTm_ABB]

end Cert.Bridge

end
-- ==== Proof.StepAlias.lean ====
/-
  The direct-gradient step's results under names of their own: every later relaxation step of the program runs the same
  kernel text as region 2, so its results are these same functions of its input arrays, and each is the reference's.
-/
import proofs.«107956_j75110388073098_1_alg».proof.Proof.StepEqU
import proofs.«107956_j75110388073098_1_alg».proof.Proof.StepEqW

noncomputable section

namespace Cert.Bridge

open Idealize.ShloMosaic Idealize.ShloMosaic.TcCoe Idealize.SL.Sem
open Cert.KernelIdeal.Reg Cert.RefSide

/-- A later step's three results, as functions of the arrays the kernel reads. -/
def stepA (x s1 s2 W0 W1 : Vec Ideal Cert.KernelIdeal.S1024x1024 .f32) : Vec Ideal Cert.KernelIdeal.S1024x1024 .f32 := out2_8 (F := Ideal) x s1 s2 W0 W1
def stepB (s1 s2 : Vec Ideal Cert.KernelIdeal.S1024x1024 .f32) (s3 : Vec Ideal Cert.KernelIdeal.S1024x512 .f32) (W1 : Vec Ideal Cert.KernelIdeal.S1024x1024 .f32) (W2 : Vec Ideal Cert.KernelIdeal.S1024x512 .f32) : Vec Ideal Cert.KernelIdeal.S1024x1024 .f32 := out2_9 (F := Ideal) s1 s2 s3 W1 W2
def stepC (s2 : Vec Ideal Cert.KernelIdeal.S1024x1024 .f32) (s3 y W2 : Vec Ideal Cert.KernelIdeal.S1024x512 .f32) : Vec Ideal Cert.KernelIdeal.S1024x512 .f32 := out2_10 (F := Ideal) s2 s3 y W2
theorem stepA_eq (x s1 s2 W0 W1 : Vec Ideal Cert.KernelIdeal.S1024x1024 .f32) : stepA x s1 s2 W0 W1 = u1 (F := Ideal) x s1 s2 W0 W1 := out2_8_eq x s1 s2 W0 W1
theorem stepB_eq (s1 s2 : Vec Ideal Cert.KernelIdeal.S1024x1024 .f32) (s3 : Vec Ideal Cert.KernelIdeal.S1024x512 .f32) (W1 : Vec Ideal Cert.KernelIdeal.S1024x1024 .f32) (W2 : Vec Ideal Cert.KernelIdeal.S1024x512 .f32) : stepB s1 s2 s3 W1 W2 = u2 (F := Ideal) s1 s2 s3 W1 W2 :=
  out2_9_eq s1 s2 s3 W1 W2
theorem stepC_eq (s2 : Vec Ideal Cert.KernelIdeal.S1024x1024 .f32) (s3 y W2 : Vec Ideal Cert.KernelIdeal.S1024x512 .f32) : stepC s2 s3 y W2 = u3 (F := Ideal) s2 s3 y W2 := out2_10_eq s2 s3 y W2

/-- A weight-gradient call's three results, likewise (both calls run the same kernel text). -/
def gradA (s s' W : Vec Ideal Cert.KernelIdeal.S1024x1024 .f32) : Vec Ideal Cert.KernelIdeal.S1024x1024 .f32 := out21_7 (F := Ideal) s s' W
def gradB (s : Vec Ideal Cert.KernelIdeal.S1024x1024 .f32) (s' W : Vec Ideal Cert.KernelIdeal.S1024x512 .f32) : Vec Ideal Cert.KernelIdeal.S1024x512 .f32 := out21_9 (F := Ideal) s s' W
theorem gradA_eq (s s' W : Vec Ideal Cert.KernelIdeal.S1024x1024 .f32) : gradA s s' W = wgA (F := Ideal) s W s' := out21_7_eq s s' W
theorem gradA_eq' (s s' W : Vec Ideal Cert.KernelIdeal.S1024x1024 .f32) : out21_8 (F := Ideal) s s' W = wgA (F := Ideal) s W s' := out21_8_eq s s' W
theorem gradB_eq (s : Vec Ideal Cert.KernelIdeal.S1024x1024 .f32) (s' W : Vec Ideal Cert.KernelIdeal.S1024x512 .f32) : gradB s s' W = wgB (F := Ideal) s W s' := out21_9_eq s s' W

end Cert.Bridge

end
-- ==== Proof.KIArr21.lean ====
/-
  Region 21's arrays after the region, by name. Every window of this kernel is its whole array and the grid has one point,
  so an input window's block IS its array as the region finds it, and an output window's array after the region IS what
  the body left in its buffer: the body's result of the input arrays.
-/
import proofs.«107956_j75110388073098_1_alg».proof.Proof.KIRegion21
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk21_0 (c : Dev nD) (t : Fin cfg21.N) : iblk21 V c 0 t = V c (Pipeline.arrRef spec21 0) := by
  funext j
  unfold iblk21
  rw [View.read_apply]
  show V c (Pipeline.arrRef spec21 0) (((cfg21.win 0).blk t).view.emb j) = V c (Pipeline.arrRef spec21 0) j
  congr 1
  funext a; apply Fin.ext
  show 0 * _ + 1 * (j a).val = (j a).val
  omega
theorem iblk21_1 (c : Dev nD) (t : Fin cfg21.N) : iblk21 V c 1 t = V c (Pipeline.arrRef spec21 1) := by
  funext j
  unfold iblk21
  rw [View.read_apply]
  show V c (Pipeline.arrRef spec21 1) (((cfg21.win 1).blk t).view.emb j) = V c (Pipeline.arrRef spec21 1) j
  congr 1
  funext a; apply Fin.ext
  show 0 * _ + 1 * (j a).val = (j a).val
  omega
theorem iblk21_2 (c : Dev nD) (t : Fin cfg21.N) : iblk21 V c 2 t = V c (Pipeline.arrRef spec21 2) := by
  funext j
  unfold iblk21
  rw [View.read_apply]
  show V c (Pipeline.arrRef spec21 2) (((cfg21.win 2).blk t).view.emb j) = V c (Pipeline.arrRef spec21 2) j
  congr 1
  funext a; apply Fin.ext
  show 0 * _ + 1 * (j a).val = (j a).val
  omega
theorem iblk21_3 (c : Dev nD) (t : Fin cfg21.N) : iblk21 V c 3 t = V c (Pipeline.arrRef spec21 3) := by
  funext j
  unfold iblk21
  rw [View.read_apply]
  show V c (Pipeline.arrRef spec21 3) (((cfg21.win 3).blk t).view.emb j) = V c (Pipeline.arrRef spec21 3) j
  congr 1
  funext a; apply Fin.ext
  show 0 * _ + 1 * (j a).val = (j a).val
  omega
theorem iblk21_4 (c : Dev nD) (t : Fin cfg21.N) : iblk21 V c 4 t = V c (Pipeline.arrRef spec21 4) := by
  funext j
  unfold iblk21
  rw [View.read_apply]
  show V c (Pipeline.arrRef spec21 4) (((cfg21.win 4).blk t).view.emb j) = V c (Pipeline.arrRef spec21 4) j
  congr 1
  funext a; apply Fin.ext
  show 0 * _ + 1 * (j a).val = (j a).val
  omega
theorem iblk21_5 (c : Dev nD) (t : Fin cfg21.N) : iblk21 V c 5 t = V c (Pipeline.arrRef spec21 5) := by
  funext j
  unfold iblk21
  rw [View.read_apply]
  show V c (Pipeline.arrRef spec21 5) (((cfg21.win 5).blk t).view.emb j) = V c (Pipeline.arrRef spec21 5) j
  congr 1
  funext a; apply Fin.ext
  show 0 * _ + 1 * (j a).val = (j a).val
  omega
theorem iblk21_6 (c : Dev nD) (t : Fin cfg21.N) : iblk21 V c 6 t = V c (Pipeline.arrRef spec21 6) := by
  funext j
  unfold iblk21
  rw [View.read_apply]
  show V c (Pipeline.arrRef spec21 6) (((cfg21.win 6).blk t).view.emb j) = V c (Pipeline.arrRef spec21 6) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut21_7 (t : Fin cfg21.N) (G : (cfg21.win 7).block.Idx → Elt F (cfg21.win 7).elt) :
    (cfg21.win 7).cut (grid21.coords t) G = ((cfg21.win 7).blk t).view.read (Elt F) G := by
  funext j
  rw [View.read_apply]
  show G ((cfg21.win 7).xinj (grid21.coords t) j) = G (((cfg21.win 7).blk t).view.emb j)
  congr 1
  funext a; apply Fin.ext
  show (j a).val = 0 * _ + 1 * (j a).val
  omega
theorem cut21_8 (t : Fin cfg21.N) (G : (cfg21.win 8).block.Idx → Elt F (cfg21.win 8).elt) :
    (cfg21.win 8).cut (grid21.coords t) G = ((cfg21.win 8).blk t).view.read (Elt F) G := by
  funext j
  rw [View.read_apply]
  show G ((cfg21.win 8).xinj (grid21.coords t) j) = G (((cfg21.win 8).blk t).view.emb j)
  congr 1
  funext a; apply Fin.ext
  show (j a).val = 0 * _ + 1 * (j a).val
  omega
theorem cut21_9 (t : Fin cfg21.N) (G : (cfg21.win 9).block.Idx → Elt F (cfg21.win 9).elt) :
    (cfg21.win 9).cut (grid21.coords t) G = ((cfg21.win 9).blk t).view.read (Elt F) G := by
  funext j
  rw [View.read_apply]
  show G ((cfg21.win 9).xinj (grid21.coords t) j) = G (((cfg21.win 9).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover21_7 (c : Dev nD) (i : ((cfg21.win 7).arr.view.loc (c.tc : Thread nD τ)).2.ty.Idx) :
    ∃ t : Fin cfg21.N, (cfg21.win 7).flush t = true ∧ i ∈ ((cfg21.win 7).blk t).view.set := by
  refine ⟨t21_0, flush21_7 t21_0, ?_⟩
  show i ∈ ((View.whole (Pipeline.arrRef spec21 7)).slice ((cfg21.win 7).rect t21_0)).set
  rw [View.set_slice_whole]
  exact View.mem_set_unit_zero (funext fun a => Nat.zero_mul _) _ i
theorem cover21_8 (c : Dev nD) (i : ((cfg21.win 8).arr.view.loc (c.tc : Thread nD τ)).2.ty.Idx) :
    ∃ t : Fin cfg21.N, (cfg21.win 8).flush t = true ∧ i ∈ ((cfg21.win 8).blk t).view.set := by
  refine ⟨t21_0, flush21_8 t21_0, ?_⟩
  show i ∈ ((View.whole (Pipeline.arrRef spec21 8)).slice ((cfg21.win 8).rect t21_0)).set
  rw [View.set_slice_whole]
  exact View.mem_set_unit_zero (funext fun a => Nat.zero_mul _) _ i
theorem cover21_9 (c : Dev nD) (i : ((cfg21.win 9).arr.view.loc (c.tc : Thread nD τ)).2.ty.Idx) :
    ∃ t : Fin cfg21.N, (cfg21.win 9).flush t = true ∧ i ∈ ((cfg21.win 9).blk t).view.set := by
  refine ⟨t21_0, flush21_9 t21_0, ?_⟩
  show i ∈ ((View.whole (Pipeline.arrRef spec21 9)).slice ((cfg21.win 9).rect t21_0)).set
  rw [View.set_slice_whole]
  exact View.mem_set_unit_zero (funext fun a => Nat.zero_mul _) _ i

/-- Each output window's array after the region: the body's result of the input arrays. -/
theorem arr21_7 (c : Dev nD) : (dat21 V c).arrAt 7 cfg21.N
    = out21_7 (V c (Pipeline.arrRef spec21 0)) (V c (Pipeline.arrRef spec21 1)) (V c (Pipeline.arrRef spec21 4)) := by
  refine (dat21 V c).arrAt_eq_of_cover 7 _ (fun t _ => ?_) (cover21_7 c)
  have h : (dat21 V c).after 7 t
    = out21_7 (V c (Pipeline.arrRef spec21 0)) (V c (Pipeline.arrRef spec21 1)) (V c (Pipeline.arrRef spec21 4)) := by
    rw [after21_7, iblk21_0, iblk21_1, iblk21_4]
  show (cfg21.win 7).cut (grid21.coords t) ((dat21 V c).after 7 t) = _
  rw [h]
  exact cut21_7 t _
theorem arr21_8 (c : Dev nD) : (dat21 V c).arrAt 8 cfg21.N
    = out21_8 (V c (Pipeline.arrRef spec21 1)) (V c (Pipeline.arrRef spec21 2)) (V c (Pipeline.arrRef spec21 5)) := by
  refine (dat21 V c).arrAt_eq_of_cover 8 _ (fun t _ => ?_) (cover21_8 c)
  have h : (dat21 V c).after 8 t
    = out21_8 (V c (Pipeline.arrRef spec21 1)) (V c (Pipeline.arrRef spec21 2)) (V c (Pipeline.arrRef spec21 5)) := by
    rw [after21_8, iblk21_1, iblk21_2, iblk21_5]
  show (cfg21.win 8).cut (grid21.coords t) ((dat21 V c).after 8 t) = _
  rw [h]
  exact cut21_8 t _
theorem arr21_9 (c : Dev nD) : (dat21 V c).arrAt 9 cfg21.N
    = out21_9 (V c (Pipeline.arrRef spec21 2)) (V c (Pipeline.arrRef spec21 3)) (V c (Pipeline.arrRef spec21 6)) := by
  refine (dat21 V c).arrAt_eq_of_cover 9 _ (fun t _ => ?_) (cover21_9 c)
  have h : (dat21 V c).after 9 t
    = out21_9 (V c (Pipeline.arrRef spec21 2)) (V c (Pipeline.arrRef spec21 3)) (V c (Pipeline.arrRef spec21 6)) := by
    rw [after21_9, iblk21_2, iblk21_3, iblk21_6]
  show (cfg21.win 9).cut (grid21.coords t) ((dat21 V c).after 9 t) = _
  rw [h]
  exact cut21_9 t _

end Cert.KernelIdeal.Reg

end
-- ==== Proof.KIArr20.lean ====
/-
  Region 20's arrays after the region, by name. Every window of this kernel is its whole array and the grid has one point,
  so an input window's block IS its array as the region finds it, and an output window's array after the region IS what
  the body left in its buffer: the body's result of the input arrays.
-/
import proofs.«107956_j75110388073098_1_alg».proof.Proof.KIRegion20
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk20_0 (c : Dev nD) (t : Fin cfg20.N) : iblk20 V c 0 t = V c (Pipeline.arrRef spec20 0) := by
  funext j
  unfold iblk20
  rw [View.read_apply]
  show V c (Pipeline.arrRef spec20 0) (((cfg20.win 0).blk t).view.emb j) = V c (Pipeline.arrRef spec20 0) j
  congr 1
  funext a; apply Fin.ext
  show 0 * _ + 1 * (j a).val = (j a).val
  omega
theorem iblk20_1 (c : Dev nD) (t : Fin cfg20.N) : iblk20 V c 1 t = V c (Pipeline.arrRef spec20 1) := by
  funext j
  unfold iblk20
  rw [View.read_apply]
  show V c (Pipeline.arrRef spec20 1) (((cfg20.win 1).blk t).view.emb j) = V c (Pipeline.arrRef spec20 1) j
  congr 1
  funext a; apply Fin.ext
  show 0 * _ + 1 * (j a).val = (j a).val
  omega
theorem iblk20_2 (c : Dev nD) (t : Fin cfg20.N) : iblk20 V c 2 t = V c (Pipeline.arrRef spec20 2) := by
  funext j
  unfold iblk20
  rw [View.read_apply]
  show V c (Pipeline.arrRef spec20 2) (((cfg20.win 2).blk t).view.emb j) = V c (Pipeline.arrRef spec20 2) j
  congr 1
  funext a; apply Fin.ext
  show 0 * _ + 1 * (j a).val = (j a).val
  omega
theorem iblk20_3 (c : Dev nD) (t : Fin cfg20.N) : iblk20 V c 3 t = V c (Pipeline.arrRef spec20 3) := by
  funext j
  unfold iblk20
  rw [View.read_apply]
  show V c (Pipeline.arrRef spec20 3) (((cfg20.win 3).blk t).view.emb j) = V c (Pipeline.arrRef spec20 3) j
  congr 1
  funext a; apply Fin.ext
  show 0 * _ + 1 * (j a).val = (j a).val
  omega
theorem iblk20_4 (c : Dev nD) (t : Fin cfg20.N) : iblk20 V c 4 t = V c (Pipeline.arrRef spec20 4) := by
  funext j
  unfold iblk20
  rw [View.read_apply]
  show V c (Pipeline.arrRef spec20 4) (((cfg20.win 4).blk t).view.emb j) = V c (Pipeline.arrRef spec20 4) j
  congr 1
  funext a; apply Fin.ext
  show 0 * _ + 1 * (j a).val = (j a).val
  omega
theorem iblk20_5 (c : Dev nD) (t : Fin cfg20.N) : iblk20 V c 5 t = V c (Pipeline.arrRef spec20 5) := by
  funext j
  unfold iblk20
  rw [View.read_apply]
  show V c (Pipeline.arrRef spec20 5) (((cfg20.win 5).blk t).view.emb j) = V c (Pipeline.arrRef spec20 5) j
  congr 1
  funext a; apply Fin.ext
  show 0 * _ + 1 * (j a).val = (j a).val
  omega
theorem iblk20_6 (c : Dev nD) (t : Fin cfg20.N) : iblk20 V c 6 t = V c (Pipeline.arrRef spec20 6) := by
  funext j
  unfold iblk20
  rw [View.read_apply]
  show V c (Pipeline.arrRef spec20 6) (((cfg20.win 6).blk t).view.emb j) = V c (Pipeline.arrRef spec20 6) j
  congr 1
  funext a; apply Fin.ext
  show 0 * _ + 1 * (j a).val = (j a).val
  omega
theorem iblk20_7 (c : Dev nD) (t : Fin cfg20.N) : iblk20 V c 7 t = V c (Pipeline.arrRef spec20 7) := by
  funext j
  unfold iblk20
  rw [View.read_apply]
  show V c (Pipeline.arrRef spec20 7) (((cfg20.win 7).blk t).view.emb j) = V c (Pipeline.arrRef spec20 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut20_8 (t : Fin cfg20.N) (G : (cfg20.win 8).block.Idx → Elt F (cfg20.win 8).elt) :
    (cfg20.win 8).cut (grid20.coords t) G = ((cfg20.win 8).blk t).view.read (Elt F) G := by
  funext j
  rw [View.read_apply]
  show G ((cfg20.win 8).xinj (grid20.coords t) j) = G (((cfg20.win 8).blk t).view.emb j)
  congr 1
  funext a; apply Fin.ext
  show (j a).val = 0 * _ + 1 * (j a).val
  omega
theorem cut20_9 (t : Fin cfg20.N) (G : (cfg20.win 9).block.Idx → Elt F (cfg20.win 9).elt) :
    (cfg20.win 9).cut (grid20.coords t) G = ((cfg20.win 9).blk t).view.read (Elt F) G := by
  funext j
  rw [View.read_apply]
  show G ((cfg20.win 9).xinj (grid20.coords t) j) = G (((cfg20.win 9).blk t).view.emb j)
  congr 1
  funext a; apply Fin.ext
  show (j a).val = 0 * _ + 1 * (j a).val
  omega
theorem cut20_10 (t : Fin cfg20.N) (G : (cfg20.win 10).block.Idx → Elt F (cfg20.win 10).elt) :
    (cfg20.win 10).cut (grid20.coords t) G = ((cfg20.win 10).blk t).view.read (Elt F) G := by
  funext j
  rw [View.read_apply]
  show G ((cfg20.win 10).xinj (grid20.coords t) j) = G (((cfg20.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover20_8 (c : Dev nD) (i : ((cfg20.win 8).arr.view.loc (c.tc : Thread nD τ)).2.ty.Idx) :
    ∃ t : Fin cfg20.N, (cfg20.win 8).flush t = true ∧ i ∈ ((cfg20.win 8).blk t).view.set := by
  refine ⟨t20_0, flush20_8 t20_0, ?_⟩
  show i ∈ ((View.whole (Pipeline.arrRef spec20 8)).slice ((cfg20.win 8).rect t20_0)).set
  rw [View.set_slice_whole]
  exact View.mem_set_unit_zero (funext fun a => Nat.zero_mul _) _ i
theorem cover20_9 (c : Dev nD) (i : ((cfg20.win 9).arr.view.loc (c.tc : Thread nD τ)).2.ty.Idx) :
    ∃ t : Fin cfg20.N, (cfg20.win 9).flush t = true ∧ i ∈ ((cfg20.win 9).blk t).view.set := by
  refine ⟨t20_0, flush20_9 t20_0, ?_⟩
  show i ∈ ((View.whole (Pipeline.arrRef spec20 9)).slice ((cfg20.win 9).rect t20_0)).set
  rw [View.set_slice_whole]
  exact View.mem_set_unit_zero (funext fun a => Nat.zero_mul _) _ i
theorem cover20_10 (c : Dev nD) (i : ((cfg20.win 10).arr.view.loc (c.tc : Thread nD τ)).2.ty.Idx) :
    ∃ t : Fin cfg20.N, (cfg20.win 10).flush t = true ∧ i ∈ ((cfg20.win 10).blk t).view.set := by
  refine ⟨t20_0, flush20_10 t20_0, ?_⟩
  show i ∈ ((View.whole (Pipeline.arrRef spec20 10)).slice ((cfg20.win 10).rect t20_0)).set
  rw [View.set_slice_whole]
  exact View.mem_set_unit_zero (funext fun a => Nat.zero_mul _) _ i

/-- Each output window's array after the region: the body's result of the input arrays. -/
theorem arr20_8 (c : Dev nD) : (dat20 V c).arrAt 8 cfg20.N
    = out20_8 (V c (Pipeline.arrRef spec20 0)) (V c (Pipeline.arrRef spec20 1)) (V c (Pipeline.arrRef spec20 2))
        (V c (Pipeline.arrRef spec20 5)) (V c (Pipeline.arrRef spec20 6)) := by
  refine (dat20 V c).arrAt_eq_of_cover 8 _ (fun t _ => ?_) (cover20_8 c)
  have h : (dat20 V c).after 8 t
    = out20_8 (V c (Pipeline.arrRef spec20 0)) (V c (Pipeline.arrRef spec20 1)) (V c (Pipeline.arrRef spec20 2))
        (V c (Pipeline.arrRef spec20 5)) (V c (Pipeline.arrRef spec20 6)) := by
    rw [after20_8, iblk20_0, iblk20_1, iblk20_2, iblk20_5, iblk20_6]
  show (cfg20.win 8).cut (grid20.coords t) ((dat20 V c).after 8 t) = _
  rw [h]
  exact cut20_8 t _
theorem arr20_9 (c : Dev nD) : (dat20 V c).arrAt 9 cfg20.N
    = out20_9 (V c (Pipeline.arrRef spec20 1)) (V c (Pipeline.arrRef spec20 2)) (V c (Pipeline.arrRef spec20 3))
        (V c (Pipeline.arrRef spec20 6)) (V c (Pipeline.arrRef spec20 7)) := by
  refine (dat20 V c).arrAt_eq_of_cover 9 _ (fun t _ => ?_) (cover20_9 c)
  have h : (dat20 V c).after 9 t
    = out20_9 (V c (Pipeline.arrRef spec20 1)) (V c (Pipeline.arrRef spec20 2)) (V c (Pipeline.arrRef spec20 3))
        (V c (Pipeline.arrRef spec20 6)) (V c (Pipeline.arrRef spec20 7)) := by
    rw [after20_9, iblk20_1, iblk20_2, iblk20_3, iblk20_6, iblk20_7]
  show (cfg20.win 9).cut (grid20.coords t) ((dat20 V c).after 9 t) = _
  rw [h]
  exact cut20_9 t _
theorem arr20_10 (c : Dev nD) : (dat20 V c).arrAt 10 cfg20.N
    = out20_10 (V c (Pipeline.arrRef spec20 2)) (V c (Pipeline.arrRef spec20 3)) (V c (Pipeline.arrRef spec20 4))
        (V c (Pipeline.arrRef spec20 7)) := by
  refine (dat20 V c).arrAt_eq_of_cover 10 _ (fun t _ => ?_) (cover20_10 c)
  have h : (dat20 V c).after 10 t
    = out20_10 (V c (Pipeline.arrRef spec20 2)) (V c (Pipeline.arrRef spec20 3)) (V c (Pipeline.arrRef spec20 4))
        (V c (Pipeline.arrRef spec20 7)) := by
    rw [after20_10, iblk20_2, iblk20_3, iblk20_4, iblk20_7]
  show (cfg20.win 10).cut (grid20.coords t) ((dat20 V c).after 10 t) = _
  rw [h]
  exact cut20_10 t _

end Cert.KernelIdeal.Reg

end
-- ==== Proof.KIArr19.lean ====
/-
  Region 19's arrays after the region, by name. Every window of this kernel is its whole array and the grid has one point,
  so an input window's block IS its array as the region finds it, and an output window's array after the region IS what
  the body left in its buffer: the body's result of the input arrays.
-/
import proofs.«107956_j75110388073098_1_alg».proof.Proof.KIRegion19
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk19_0 (c : Dev nD) (t : Fin cfg19.N) : iblk19 V c 0 t = V c (Pipeline.arrRef spec19 0) := by
  funext j
  unfold iblk19
  rw [View.read_apply]
  show V c (Pipeline.arrRef spec19 0) (((cfg19.win 0).blk t).view.emb j) = V c (Pipeline.arrRef spec19 0) j
  congr 1
  funext a; apply Fin.ext
  show 0 * _ + 1 * (j a).val = (j a).val
  omega
theorem iblk19_1 (c : Dev nD) (t : Fin cfg19.N) : iblk19 V c 1 t = V c (Pipeline.arrRef spec19 1) := by
  funext j
  unfold iblk19
  rw [View.read_apply]
  show V c (Pipeline.arrRef spec19 1) (((cfg19.win 1).blk t).view.emb j) = V c (Pipeline.arrRef spec19 1) j
  congr 1
  funext a; apply Fin.ext
  show 0 * _ + 1 * (j a).val = (j a).val
  omega
theorem iblk19_2 (c : Dev nD) (t : Fin cfg19.N) : iblk19 V c 2 t = V c (Pipeline.arrRef spec19 2) := by
  funext j
  unfold iblk19
  rw [View.read_apply]
  show V c (Pipeline.arrRef spec19 2) (((cfg19.win 2).blk t).view.emb j) = V c (Pipeline.arrRef spec19 2) j
  congr 1
  funext a; apply Fin.ext
  show 0 * _ + 1 * (j a).val = (j a).val
  omega
theorem iblk19_3 (c : Dev nD) (t : Fin cfg19.N) : iblk19 V c 3 t = V c (Pipeline.arrRef spec19 3) := by
  funext j
  unfold iblk19
  rw [View.read_apply]
  show V c (Pipeline.arrRef spec19 3) (((cfg19.win 3).blk t).view.emb j) = V c (Pipeline.arrRef spec19 3) j
  congr 1
  funext a; apply Fin.ext
  show 0 * _ + 1 * (j a).val = (j a).val
  omega
theorem iblk19_4 (c : Dev nD) (t : Fin cfg19.N) : iblk19 V c 4 t = V c (Pipeline.arrRef spec19 4) := by
  funext j
  unfold iblk19
  rw [View.read_apply]
  show V c (Pipeline.arrRef spec19 4) (((cfg19.win 4).blk t).view.emb j) = V c (Pipeline.arrRef spec19 4) j
  congr 1
  funext a; apply Fin.ext
  show 0 * _ + 1 * (j a).val = (j a).val
  omega
theorem iblk19_5 (c : Dev nD) (t : Fin cfg19.N) : iblk19 V c 5 t = V c (Pipeline.arrRef spec19 5) := by
  funext j
  unfold iblk19
  rw [View.read_apply]
  show V c (Pipeline.arrRef spec19 5) (((cfg19.win 5).blk t).view.emb j) = V c (Pipeline.arrRef spec19 5) j
  congr 1
  funext a; apply Fin.ext
  show 0 * _ + 1 * (j a).val = (j a).val
  omega
theorem iblk19_6 (c : Dev nD) (t : Fin cfg19.N) : iblk19 V c 6 t = V c (Pipeline.arrRef spec19 6) := by
  funext j
  unfold iblk19
  rw [View.read_apply]
  show V c (Pipeline.arrRef spec19 6) (((cfg19.win 6).blk t).view.emb j) = V c (Pipeline.arrRef spec19 6) j
  congr 1
  funext a; apply Fin.ext
  show 0 * _ + 1 * (j a).val = (j a).val
  omega
theorem iblk19_7 (c : Dev nD) (t : Fin cfg19.N) : iblk19 V c 7 t = V c (Pipeline.arrRef spec19 7) := by
  funext j
  unfold iblk19
  rw [View.read_apply]
  show V c (Pipeline.arrRef spec19 7) (((cfg19.win 7).blk t).view.emb j) = V c (Pipeline.arrRef spec19 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut19_8 (t : Fin cfg19.N) (G : (cfg19.win 8).block.Idx → Elt F (cfg19.win 8).elt) :
    (cfg19.win 8).cut (grid19.coords t) G = ((cfg19.win 8).blk t).view.read (Elt F) G := by
  funext j
  rw [View.read_apply]
  show G ((cfg19.win 8).xinj (grid19.coords t) j) = G (((cfg19.win 8).blk t).view.emb j)
  congr 1
  funext a; apply Fin.ext
  show (j a).val = 0 * _ + 1 * (j a).val
  omega
theorem cut19_9 (t : Fin cfg19.N) (G : (cfg19.win 9).block.Idx → Elt F (cfg19.win 9).elt) :
    (cfg19.win 9).cut (grid19.coords t) G = ((cfg19.win 9).blk t).view.read (Elt F) G := by
  funext j
  rw [View.read_apply]
  show G ((cfg19.win 9).xinj (grid19.coords t) j) = G (((cfg19.win 9).blk t).view.emb j)
  congr 1
  funext a; apply Fin.ext
  show (j a).val = 0 * _ + 1 * (j a).val
  omega
theorem cut19_10 (t : Fin cfg19.N) (G : (cfg19.win 10).block.Idx → Elt F (cfg19.win 10).elt) :
    (cfg19.win 10).cut (grid19.coords t) G = ((cfg19.win 10).blk t).view.read (Elt F) G := by
  funext j
  rw [View.read_apply]
  show G ((cfg19.win 10).xinj (grid19.coords t) j) = G (((cfg19.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover19_8 (c : Dev nD) (i : ((cfg19.win 8).arr.view.loc (c.tc : Thread nD τ)).2.ty.Idx) :
    ∃ t : Fin cfg19.N, (cfg19.win 8).flush t = true ∧ i ∈ ((cfg19.win 8).blk t).view.set := by
  refine ⟨t19_0, flush19_8 t19_0, ?_⟩
  show i ∈ ((View.whole (Pipeline.arrRef spec19 8)).slice ((cfg19.win 8).rect t19_0)).set
  rw [View.set_slice_whole]
  exact View.mem_set_unit_zero (funext fun a => Nat.zero_mul _) _ i
theorem cover19_9 (c : Dev nD) (i : ((cfg19.win 9).arr.view.loc (c.tc : Thread nD τ)).2.ty.Idx) :
    ∃ t : Fin cfg19.N, (cfg19.win 9).flush t = true ∧ i ∈ ((cfg19.win 9).blk t).view.set := by
  refine ⟨t19_0, flush19_9 t19_0, ?_⟩
  show i ∈ ((View.whole (Pipeline.arrRef spec19 9)).slice ((cfg19.win 9).rect t19_0)).set
  rw [View.set_slice_whole]
  exact View.mem_set_unit_zero (funext fun a => Nat.zero_mul _) _ i
theorem cover19_10 (c : Dev nD) (i : ((cfg19.win 10).arr.view.loc (c.tc : Thread nD τ)).2.ty.Idx) :
    ∃ t : Fin cfg19.N, (cfg19.win 10).flush t = true ∧ i ∈ ((cfg19.win 10).blk t).view.set := by
  refine ⟨t19_0, flush19_10 t19_0, ?_⟩
  show i ∈ ((View.whole (Pipeline.arrRef spec19 10)).slice ((cfg19.win 10).rect t19_0)).set
  rw [View.set_slice_whole]
  exact View.mem_set_unit_zero (funext fun a => Nat.zero_mul _) _ i

/-- Each output window's array after the region: the body's result of the input arrays. -/
theorem arr19_8 (c : Dev nD) : (dat19 V c).arrAt 8 cfg19.N
    = out19_8 (V c (Pipeline.arrRef spec19 0)) (V c (Pipeline.arrRef spec19 1)) (V c (Pipeline.arrRef spec19 2))
        (V c (Pipeline.arrRef spec19 5)) (V c (Pipeline.arrRef spec19 6)) := by
  refine (dat19 V c).arrAt_eq_of_cover 8 _ (fun t _ => ?_) (cover19_8 c)
  have h : (dat19 V c).after 8 t
    = out19_8 (V c (Pipeline.arrRef spec19 0)) (V c (Pipeline.arrRef spec19 1)) (V c (Pipeline.arrRef spec19 2))
        (V c (Pipeline.arrRef spec19 5)) (V c (Pipeline.arrRef spec19 6)) := by
    rw [after19_8, iblk19_0, iblk19_1, iblk19_2, iblk19_5, iblk19_6]
  show (cfg19.win 8).cut (grid19.coords t) ((dat19 V c).after 8 t) = _
  rw [h]
  exact cut19_8 t _
theorem arr19_9 (c : Dev nD) : (dat19 V c).arrAt 9 cfg19.N
    = out19_9 (V c (Pipeline.arrRef spec19 1)) (V c (Pipeline.arrRef spec19 2)) (V c (Pipeline.arrRef spec19 3))
        (V c (Pipeline.arrRef spec19 6)) (V c (Pipeline.arrRef spec19 7)) := by
  refine (dat19 V c).arrAt_eq_of_cover 9 _ (fun t _ => ?_) (cover19_9 c)
  have h : (dat19 V c).after 9 t
    = out19_9 (V c (Pipeline.arrRef spec19 1)) (V c (Pipeline.arrRef spec19 2)) (V c (Pipeline.arrRef spec19 3))
        (V c (Pipeline.arrRef spec19 6)) (V c (Pipeline.arrRef spec19 7)) := by
    rw [after19_9, iblk19_1, iblk19_2, iblk19_3, iblk19_6, iblk19_7]
  show (cfg19.win 9).cut (grid19.coords t) ((dat19 V c).after 9 t) = _
  rw [h]
  exact cut19_9 t _
theorem arr19_10 (c : Dev nD) : (dat19 V c).arrAt 10 cfg19.N
    = out19_10 (V c (Pipeline.arrRef spec19 2)) (V c (Pipeline.arrRef spec19 3)) (V c (Pipeline.arrRef spec19 4))
        (V c (Pipeline.arrRef spec19 7)) := by
  refine (dat19 V c).arrAt_eq_of_cover 10 _ (fun t _ => ?_) (cover19_10 c)
  have h : (dat19 V c).after 10 t
    = out19_10 (V c (Pipeline.arrRef spec19 2)) (V c (Pipeline.arrRef spec19 3)) (V c (Pipeline.arrRef spec19 4))
        (V c (Pipeline.arrRef spec19 7)) := by
    rw [after19_10, iblk19_2, iblk19_3, iblk19_4, iblk19_7]
  show (cfg19.win 10).cut (grid19.coords t) ((dat19 V c).after 10 t) = _
  rw [h]
  exact cut19_10 t _

end Cert.KernelIdeal.Reg

end
-- ==== Proof.KIArr18.lean ====
/-
  Region 18's arrays after the region, by name. Every window of this kernel is its whole array and the grid has one point,
  so an input window's block IS its array as the region finds it, and an output window's array after the region IS what
  the body left in its buffer: the body's result of the input arrays.
-/
import proofs.«107956_j75110388073098_1_alg».proof.Proof.KIRegion18
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk18_0 (c : Dev nD) (t : Fin cfg18.N) : iblk18 V c 0 t = V c (Pipeline.arrRef spec18 0) := by
  funext j
  unfold iblk18
  rw [View.read_apply]
  show V c (Pipeline.arrRef spec18 0) (((cfg18.win 0).blk t).view.emb j) = V c (Pipeline.arrRef spec18 0) j
  congr 1
  funext a; apply Fin.ext
  show 0 * _ + 1 * (j a).val = (j a).val
  omega
theorem iblk18_1 (c : Dev nD) (t : Fin cfg18.N) : iblk18 V c 1 t = V c (Pipeline.arrRef spec18 1) := by
  funext j
  unfold iblk18
  rw [View.read_apply]
  show V c (Pipeline.arrRef spec18 1) (((cfg18.win 1).blk t).view.emb j) = V c (Pipeline.arrRef spec18 1) j
  congr 1
  funext a; apply Fin.ext
  show 0 * _ + 1 * (j a).val = (j a).val
  omega
theorem iblk18_2 (c : Dev nD) (t : Fin cfg18.N) : iblk18 V c 2 t = V c (Pipeline.arrRef spec18 2) := by
  funext j
  unfold iblk18
  rw [View.read_apply]
  show V c (Pipeline.arrRef spec18 2) (((cfg18.win 2).blk t).view.emb j) = V c (Pipeline.arrRef spec18 2) j
  congr 1
  funext a; apply Fin.ext
  show 0 * _ + 1 * (j a).val = (j a).val
  omega
theorem iblk18_3 (c : Dev nD) (t : Fin cfg18.N) : iblk18 V c 3 t = V c (Pipeline.arrRef spec18 3) := by
  funext j
  unfold iblk18
  rw [View.read_apply]
  show V c (Pipeline.arrRef spec18 3) (((cfg18.win 3).blk t).view.emb j) = V c (Pipeline.arrRef spec18 3) j
  congr 1
  funext a; apply Fin.ext
  show 0 * _ + 1 * (j a).val = (j a).val
  omega
theorem iblk18_4 (c : Dev nD) (t : Fin cfg18.N) : iblk18 V c 4 t = V c (Pipeline.arrRef spec18 4) := by
  funext j
  unfold iblk18
  rw [View.read_apply]
  show V c (Pipeline.arrRef spec18 4) (((cfg18.win 4).blk t).view.emb j) = V c (Pipeline.arrRef spec18 4) j
  congr 1
  funext a; apply Fin.ext
  show 0 * _ + 1 * (j a).val = (j a).val
  omega
theorem iblk18_5 (c : Dev nD) (t : Fin cfg18.N) : iblk18 V c 5 t = V c (Pipeline.arrRef spec18 5) := by
  funext j
  unfold iblk18
  rw [View.read_apply]
  show V c (Pipeline.arrRef spec18 5) (((cfg18.win 5).blk t).view.emb j) = V c (Pipeline.arrRef spec18 5) j
  congr 1
  funext a; apply Fin.ext
  show 0 * _ + 1 * (j a).val = (j a).val
  omega
theorem iblk18_6 (c : Dev nD) (t : Fin cfg18.N) : iblk18 V c 6 t = V c (Pipeline.arrRef spec18 6) := by
  funext j
  unfold iblk18
  rw [View.read_apply]
  show V c (Pipeline.arrRef spec18 6) (((cfg18.win 6).blk t).view.emb j) = V c (Pipeline.arrRef spec18 6) j
  congr 1
  funext a; apply Fin.ext
  show 0 * _ + 1 * (j a).val = (j a).val
  omega
theorem iblk18_7 (c : Dev nD) (t : Fin cfg18.N) : iblk18 V c 7 t = V c (Pipeline.arrRef spec18 7) := by
  funext j
  unfold iblk18
  rw [View.read_apply]
  show V c (Pipeline.arrRef spec18 7) (((cfg18.win 7).blk t).view.emb j) = V c (Pipeline.arrRef spec18 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut18_8 (t : Fin cfg18.N) (G : (cfg18.win 8).block.Idx → Elt F (cfg18.win 8).elt) :
    (cfg18.win 8).cut (grid18.coords t) G = ((cfg18.win 8).blk t).view.read (Elt F) G := by
  funext j
  rw [View.read_apply]
  show G ((cfg18.win 8).xinj (grid18.coords t) j) = G (((cfg18.win 8).blk t).view.emb j)
  congr 1
  funext a; apply Fin.ext
  show (j a).val = 0 * _ + 1 * (j a).val
  omega
theorem cut18_9 (t : Fin cfg18.N) (G : (cfg18.win 9).block.Idx → Elt F (cfg18.win 9).elt) :
    (cfg18.win 9).cut (grid18.coords t) G = ((cfg18.win 9).blk t).view.read (Elt F) G := by
  funext j
  rw [View.read_apply]
  show G ((cfg18.win 9).xinj (grid18.coords t) j) = G (((cfg18.win 9).blk t).view.emb j)
  congr 1
  funext a; apply Fin.ext
  show (j a).val = 0 * _ + 1 * (j a).val
  omega
theorem cut18_10 (t : Fin cfg18.N) (G : (cfg18.win 10).block.Idx → Elt F (cfg18.win 10).elt) :
    (cfg18.win 10).cut (grid18.coords t) G = ((cfg18.win 10).blk t).view.read (Elt F) G := by
  funext j
  rw [View.read_apply]
  show G ((cfg18.win 10).xinj (grid18.coords t) j) = G (((cfg18.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover18_8 (c : Dev nD) (i : ((cfg18.win 8).arr.view.loc (c.tc : Thread nD τ)).2.ty.Idx) :
    ∃ t : Fin cfg18.N, (cfg18.win 8).flush t = true ∧ i ∈ ((cfg18.win 8).blk t).view.set := by
  refine ⟨t18_0, flush18_8 t18_0, ?_⟩
  show i ∈ ((View.whole (Pipeline.arrRef spec18 8)).slice ((cfg18.win 8).rect t18_0)).set
  rw [View.set_slice_whole]
  exact View.mem_set_unit_zero (funext fun a => Nat.zero_mul _) _ i
theorem cover18_9 (c : Dev nD) (i : ((cfg18.win 9).arr.view.loc (c.tc : Thread nD τ)).2.ty.Idx) :
    ∃ t : Fin cfg18.N, (cfg18.win 9).flush t = true ∧ i ∈ ((cfg18.win 9).blk t).view.set := by
  refine ⟨t18_0, flush18_9 t18_0, ?_⟩
  show i ∈ ((View.whole (Pipeline.arrRef spec18 9)).slice ((cfg18.win 9).rect t18_0)).set
  rw [View.set_slice_whole]
  exact View.mem_set_unit_zero (funext fun a => Nat.zero_mul _) _ i
theorem cover18_10 (c : Dev nD) (i : ((cfg18.win 10).arr.view.loc (c.tc : Thread nD τ)).2.ty.Idx) :
    ∃ t : Fin cfg18.N, (cfg18.win 10).flush t = true ∧ i ∈ ((cfg18.win 10).blk t).view.set := by
  refine ⟨t18_0, flush18_10 t18_0, ?_⟩
  show i ∈ ((View.whole (Pipeline.arrRef spec18 10)).slice ((cfg18.win 10).rect t18_0)).set
  rw [View.set_slice_whole]
  exact View.mem_set_unit_zero (funext fun a => Nat.zero_mul _) _ i

/-- Each output window's array after the region: the body's result of the input arrays. -/
theorem arr18_8 (c : Dev nD) : (dat18 V c).arrAt 8 cfg18.N
    = out18_8 (V c (Pipeline.arrRef spec18 0)) (V c (Pipeline.arrRef spec18 1)) (V c (Pipeline.arrRef spec18 2))
        (V c (Pipeline.arrRef spec18 5)) (V c (Pipeline.arrRef spec18 6)) := by
  refine (dat18 V c).arrAt_eq_of_cover 8 _ (fun t _ => ?_) (cover18_8 c)
  have h : (dat18 V c).after 8 t
    = out18_8 (V c (Pipeline.arrRef spec18 0)) (V c (Pipeline.arrRef spec18 1)) (V c (Pipeline.arrRef spec18 2))
        (V c (Pipeline.arrRef spec18 5)) (V c (Pipeline.arrRef spec18 6)) := by
    rw [after18_8, iblk18_0, iblk18_1, iblk18_2, iblk18_5, iblk18_6]
  show (cfg18.win 8).cut (grid18.coords t) ((dat18 V c).after 8 t) = _
  rw [h]
  exact cut18_8 t _
theorem arr18_9 (c : Dev nD) : (dat18 V c).arrAt 9 cfg18.N
    = out18_9 (V c (Pipeline.arrRef spec18 1)) (V c (Pipeline.arrRef spec18 2)) (V c (Pipeline.arrRef spec18 3))
        (V c (Pipeline.arrRef spec18 6)) (V c (Pipeline.arrRef spec18 7)) := by
  refine (dat18 V c).arrAt_eq_of_cover 9 _ (fun t _ => ?_) (cover18_9 c)
  have h : (dat18 V c).after 9 t
    = out18_9 (V c (Pipeline.arrRef spec18 1)) (V c (Pipeline.arrRef spec18 2)) (V c (Pipeline.arrRef spec18 3))
        (V c (Pipeline.arrRef spec18 6)) (V c (Pipeline.arrRef spec18 7)) := by
    rw [after18_9, iblk18_1, iblk18_2, iblk18_3, iblk18_6, iblk18_7]
  show (cfg18.win 9).cut (grid18.coords t) ((dat18 V c).after 9 t) = _
  rw [h]
  exact cut18_9 t _
theorem arr18_10 (c : Dev nD) : (dat18 V c).arrAt 10 cfg18.N
    = out18_10 (V c (Pipeline.arrRef spec18 2)) (V c (Pipeline.arrRef spec18 3)) (V c (Pipeline.arrRef spec18 4))
        (V c (Pipeline.arrRef spec18 7)) := by
  refine (dat18 V c).arrAt_eq_of_cover 10 _ (fun t _ => ?_) (cover18_10 c)
  have h : (dat18 V c).after 10 t
    = out18_10 (V c (Pipeline.arrRef spec18 2)) (V c (Pipeline.arrRef spec18 3)) (V c (Pipeline.arrRef spec18 4))
        (V c (Pipeline.arrRef spec18 7)) := by
    rw [after18_10, iblk18_2, iblk18_3, iblk18_4, iblk18_7]
  show (cfg18.win 10).cut (grid18.coords t) ((dat18 V c).after 10 t) = _
  rw [h]
  exact cut18_10 t _

end Cert.KernelIdeal.Reg

end
-- ==== Proof.KIArr17.lean ====
/-
  Region 17's arrays after the region, by name. Every window of this kernel is its whole array and the grid has one point,
  so an input window's block IS its array as the region finds it, and an output window's array after the region IS what
  the body left in its buffer: the body's result of the input arrays.
-/
import proofs.«107956_j75110388073098_1_alg».proof.Proof.KIRegion17
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk17_0 (c : Dev nD) (t : Fin cfg17.N) : iblk17 V c 0 t = V c (Pipeline.arrRef spec17 0) := by
  funext j
  unfold iblk17
  rw [View.read_apply]
  show V c (Pipeline.arrRef spec17 0) (((cfg17.win 0).blk t).view.emb j) = V c (Pipeline.arrRef spec17 0) j
  congr 1
  funext a; apply Fin.ext
  show 0 * _ + 1 * (j a).val = (j a).val
  omega
theorem iblk17_1 (c : Dev nD) (t : Fin cfg17.N) : iblk17 V c 1 t = V c (Pipeline.arrRef spec17 1) := by
  funext j
  unfold iblk17
  rw [View.read_apply]
  show V c (Pipeline.arrRef spec17 1) (((cfg17.win 1).blk t).view.emb j) = V c (Pipeline.arrRef spec17 1) j
  congr 1
  funext a; apply Fin.ext
  show 0 * _ + 1 * (j a).val = (j a).val
  omega
theorem iblk17_2 (c : Dev nD) (t : Fin cfg17.N) : iblk17 V c 2 t = V c (Pipeline.arrRef spec17 2) := by
  funext j
  unfold iblk17
  rw [View.read_apply]
  show V c (Pipeline.arrRef spec17 2) (((cfg17.win 2).blk t).view.emb j) = V c (Pipeline.arrRef spec17 2) j
  congr 1
  funext a; apply Fin.ext
  show 0 * _ + 1 * (j a).val = (j a).val
  omega
theorem iblk17_3 (c : Dev nD) (t : Fin cfg17.N) : iblk17 V c 3 t = V c (Pipeline.arrRef spec17 3) := by
  funext j
  unfold iblk17
  rw [View.read_apply]
  show V c (Pipeline.arrRef spec17 3) (((cfg17.win 3).blk t).view.emb j) = V c (Pipeline.arrRef spec17 3) j
  congr 1
  funext a; apply Fin.ext
  show 0 * _ + 1 * (j a).val = (j a).val
  omega
theorem iblk17_4 (c : Dev nD) (t : Fin cfg17.N) : iblk17 V c 4 t = V c (Pipeline.arrRef spec17 4) := by
  funext j
  unfold iblk17
  rw [View.read_apply]
  show V c (Pipeline.arrRef spec17 4) (((cfg17.win 4).blk t).view.emb j) = V c (Pipeline.arrRef spec17 4) j
  congr 1
  funext a; apply Fin.ext
  show 0 * _ + 1 * (j a).val = (j a).val
  omega
theorem iblk17_5 (c : Dev nD) (t : Fin cfg17.N) : iblk17 V c 5 t = V c (Pipeline.arrRef spec17 5) := by
  funext j
  unfold iblk17
  rw [View.read_apply]
  show V c (Pipeline.arrRef spec17 5) (((cfg17.win 5).blk t).view.emb j) = V c (Pipeline.arrRef spec17 5) j
  congr 1
  funext a; apply Fin.ext
  show 0 * _ + 1 * (j a).val = (j a).val
  omega
theorem iblk17_6 (c : Dev nD) (t : Fin cfg17.N) : iblk17 V c 6 t = V c (Pipeline.arrRef spec17 6) := by
  funext j
  unfold iblk17
  rw [View.read_apply]
  show V c (Pipeline.arrRef spec17 6) (((cfg17.win 6).blk t).view.emb j) = V c (Pipeline.arrRef spec17 6) j
  congr 1
  funext a; apply Fin.ext
  show 0 * _ + 1 * (j a).val = (j a).val
  omega
theorem iblk17_7 (c : Dev nD) (t : Fin cfg17.N) : iblk17 V c 7 t = V c (Pipeline.arrRef spec17 7) := by
  funext j
  unfold iblk17
  rw [View.read_apply]
  show V c (Pipeline.arrRef spec17 7) (((cfg17.win 7).blk t).view.emb j) = V c (Pipeline.arrRef spec17 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut17_8 (t : Fin cfg17.N) (G : (cfg17.win 8).block.Idx → Elt F (cfg17.win 8).elt) :
    (cfg17.win 8).cut (grid17.coords t) G = ((cfg17.win 8).blk t).view.read (Elt F) G := by
  funext j
  rw [View.read_apply]
  show G ((cfg17.win 8).xinj (grid17.coords t) j) = G (((cfg17.win 8).blk t).view.emb j)
  congr 1
  funext a; apply Fin.ext
  show (j a).val = 0 * _ + 1 * (j a).val
  omega
theorem cut17_9 (t : Fin cfg17.N) (G : (cfg17.win 9).block.Idx → Elt F (cfg17.win 9).elt) :
    (cfg17.win 9).cut (grid17.coords t) G = ((cfg17.win 9).blk t).view.read (Elt F) G := by
  funext j
  rw [View.read_apply]
  show G ((cfg17.win 9).xinj (grid17.coords t) j) = G (((cfg17.win 9).blk t).view.emb j)
  congr 1
  funext a; apply Fin.ext
  show (j a).val = 0 * _ + 1 * (j a).val
  omega
theorem cut17_10 (t : Fin cfg17.N) (G : (cfg17.win 10).block.Idx → Elt F (cfg17.win 10).elt) :
    (cfg17.win 10).cut (grid17.coords t) G = ((cfg17.win 10).blk t).view.read (Elt F) G := by
  funext j
  rw [View.read_apply]
  show G ((cfg17.win 10).xinj (grid17.coords t) j) = G (((cfg17.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover17_8 (c : Dev nD) (i : ((cfg17.win 8).arr.view.loc (c.tc : Thread nD τ)).2.ty.Idx) :
    ∃ t : Fin cfg17.N, (cfg17.win 8).flush t = true ∧ i ∈ ((cfg17.win 8).blk t).view.set := by
  refine ⟨t17_0, flush17_8 t17_0, ?_⟩
  show i ∈ ((View.whole (Pipeline.arrRef spec17 8)).slice ((cfg17.win 8).rect t17_0)).set
  rw [View.set_slice_whole]
  exact View.mem_set_unit_zero (funext fun a => Nat.zero_mul _) _ i
theorem cover17_9 (c : Dev nD) (i : ((cfg17.win 9).arr.view.loc (c.tc : Thread nD τ)).2.ty.Idx) :
    ∃ t : Fin cfg17.N, (cfg17.win 9).flush t = true ∧ i ∈ ((cfg17.win 9).blk t).view.set := by
  refine ⟨t17_0, flush17_9 t17_0, ?_⟩
  show i ∈ ((View.whole (Pipeline.arrRef spec17 9)).slice ((cfg17.win 9).rect t17_0)).set
  rw [View.set_slice_whole]
  exact View.mem_set_unit_zero (funext fun a => Nat.zero_mul _) _ i
theorem cover17_10 (c : Dev nD) (i : ((cfg17.win 10).arr.view.loc (c.tc : Thread nD τ)).2.ty.Idx) :
    ∃ t : Fin cfg17.N, (cfg17.win 10).flush t = true ∧ i ∈ ((cfg17.win 10).blk t).view.set := by
  refine ⟨t17_0, flush17_10 t17_0, ?_⟩
  show i ∈ ((View.whole (Pipeline.arrRef spec17 10)).slice ((cfg17.win 10).rect t17_0)).set
  rw [View.set_slice_whole]
  exact View.mem_set_unit_zero (funext fun a => Nat.zero_mul _) _ i

/-- Each output window's array after the region: the body's result of the input arrays. -/
theorem arr17_8 (c : Dev nD) : (dat17 V c).arrAt 8 cfg17.N
    = out17_8 (V c (Pipeline.arrRef spec17 0)) (V c (Pipeline.arrRef spec17 1)) (V c (Pipeline.arrRef spec17 2))
        (V c (Pipeline.arrRef spec17 5)) (V c (Pipeline.arrRef spec17 6)) := by
  refine (dat17 V c).arrAt_eq_of_cover 8 _ (fun t _ => ?_) (cover17_8 c)
  have h : (dat17 V c).after 8 t
    = out17_8 (V c (Pipeline.arrRef spec17 0)) (V c (Pipeline.arrRef spec17 1)) (V c (Pipeline.arrRef spec17 2))
        (V c (Pipeline.arrRef spec17 5)) (V c (Pipeline.arrRef spec17 6)) := by
    rw [after17_8, iblk17_0, iblk17_1, iblk17_2, iblk17_5, iblk17_6]
  show (cfg17.win 8).cut (grid17.coords t) ((dat17 V c).after 8 t) = _
  rw [h]
  exact cut17_8 t _
theorem arr17_9 (c : Dev nD) : (dat17 V c).arrAt 9 cfg17.N
    = out17_9 (V c (Pipeline.arrRef spec17 1)) (V c (Pipeline.arrRef spec17 2)) (V c (Pipeline.arrRef spec17 3))
        (V c (Pipeline.arrRef spec17 6)) (V c (Pipeline.arrRef spec17 7)) := by
  refine (dat17 V c).arrAt_eq_of_cover 9 _ (fun t _ => ?_) (cover17_9 c)
  have h : (dat17 V c).after 9 t
    = out17_9 (V c (Pipeline.arrRef spec17 1)) (V c (Pipeline.arrRef spec17 2)) (V c (Pipeline.arrRef spec17 3))
        (V c (Pipeline.arrRef spec17 6)) (V c (Pipeline.arrRef spec17 7)) := by
    rw [after17_9, iblk17_1, iblk17_2, iblk17_3, iblk17_6, iblk17_7]
  show (cfg17.win 9).cut (grid17.coords t) ((dat17 V c).after 9 t) = _
  rw [h]
  exact cut17_9 t _
theorem arr17_10 (c : Dev nD) : (dat17 V c).arrAt 10 cfg17.N
    = out17_10 (V c (Pipeline.arrRef spec17 2)) (V c (Pipeline.arrRef spec17 3)) (V c (Pipeline.arrRef spec17 4))
        (V c (Pipeline.arrRef spec17 7)) := by
  refine (dat17 V c).arrAt_eq_of_cover 10 _ (fun t _ => ?_) (cover17_10 c)
  have h : (dat17 V c).after 10 t
    = out17_10 (V c (Pipeline.arrRef spec17 2)) (V c (Pipeline.arrRef spec17 3)) (V c (Pipeline.arrRef spec17 4))
        (V c (Pipeline.arrRef spec17 7)) := by
    rw [after17_10, iblk17_2, iblk17_3, iblk17_4, iblk17_7]
  show (cfg17.win 10).cut (grid17.coords t) ((dat17 V c).after 10 t) = _
  rw [h]
  exact cut17_10 t _

end Cert.KernelIdeal.Reg

end
-- ==== Proof.KIArr16.lean ====
/-
  Region 16's arrays after the region, by name. Every window of this kernel is its whole array and the grid has one point,
  so an input window's block IS its array as the region finds it, and an output window's array after the region IS what
  the body left in its buffer: the body's result of the input arrays.
-/
import proofs.«107956_j75110388073098_1_alg».proof.Proof.KIRegion16
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk16_0 (c : Dev nD) (t : Fin cfg16.N) : iblk16 V c 0 t = V c (Pipeline.arrRef spec16 0) := by
  funext j
  unfold iblk16
  rw [View.read_apply]
  show V c (Pipeline.arrRef spec16 0) (((cfg16.win 0).blk t).view.emb j) = V c (Pipeline.arrRef spec16 0) j
  congr 1
  funext a; apply Fin.ext
  show 0 * _ + 1 * (j a).val = (j a).val
  omega
theorem iblk16_1 (c : Dev nD) (t : Fin cfg16.N) : iblk16 V c 1 t = V c (Pipeline.arrRef spec16 1) := by
  funext j
  unfold iblk16
  rw [View.read_apply]
  show V c (Pipeline.arrRef spec16 1) (((cfg16.win 1).blk t).view.emb j) = V c (Pipeline.arrRef spec16 1) j
  congr 1
  funext a; apply Fin.ext
  show 0 * _ + 1 * (j a).val = (j a).val
  omega
theorem iblk16_2 (c : Dev nD) (t : Fin cfg16.N) : iblk16 V c 2 t = V c (Pipeline.arrRef spec16 2) := by
  funext j
  unfold iblk16
  rw [View.read_apply]
  show V c (Pipeline.arrRef spec16 2) (((cfg16.win 2).blk t).view.emb j) = V c (Pipeline.arrRef spec16 2) j
  congr 1
  funext a; apply Fin.ext
  show 0 * _ + 1 * (j a).val = (j a).val
  omega
theorem iblk16_3 (c : Dev nD) (t : Fin cfg16.N) : iblk16 V c 3 t = V c (Pipeline.arrRef spec16 3) := by
  funext j
  unfold iblk16
  rw [View.read_apply]
  show V c (Pipeline.arrRef spec16 3) (((cfg16.win 3).blk t).view.emb j) = V c (Pipeline.arrRef spec16 3) j
  congr 1
  funext a; apply Fin.ext
  show 0 * _ + 1 * (j a).val = (j a).val
  omega
theorem iblk16_4 (c : Dev nD) (t : Fin cfg16.N) : iblk16 V c 4 t = V c (Pipeline.arrRef spec16 4) := by
  funext j
  unfold iblk16
  rw [View.read_apply]
  show V c (Pipeline.arrRef spec16 4) (((cfg16.win 4).blk t).view.emb j) = V c (Pipeline.arrRef spec16 4) j
  congr 1
  funext a; apply Fin.ext
  show 0 * _ + 1 * (j a).val = (j a).val
  omega
theorem iblk16_5 (c : Dev nD) (t : Fin cfg16.N) : iblk16 V c 5 t = V c (Pipeline.arrRef spec16 5) := by
  funext j
  unfold iblk16
  rw [View.read_apply]
  show V c (Pipeline.arrRef spec16 5) (((cfg16.win 5).blk t).view.emb j) = V c (Pipeline.arrRef spec16 5) j
  congr 1
  funext a; apply Fin.ext
  show 0 * _ + 1 * (j a).val = (j a).val
  omega
theorem iblk16_6 (c : Dev nD) (t : Fin cfg16.N) : iblk16 V c 6 t = V c (Pipeline.arrRef spec16 6) := by
  funext j
  unfold iblk16
  rw [View.read_apply]
  show V c (Pipeline.arrRef spec16 6) (((cfg16.win 6).blk t).view.emb j) = V c (Pipeline.arrRef spec16 6) j
  congr 1
  funext a; apply Fin.ext
  show 0 * _ + 1 * (j a).val = (j a).val
  omega
theorem iblk16_7 (c : Dev nD) (t : Fin cfg16.N) : iblk16 V c 7 t = V c (Pipeline.arrRef spec16 7) := by
  funext j
  unfold iblk16
  rw [View.read_apply]
  show V c (Pipeline.arrRef spec16 7) (((cfg16.win 7).blk t).view.emb j) = V c (Pipeline.arrRef spec16 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut16_8 (t : Fin cfg16.N) (G : (cfg16.win 8).block.Idx → Elt F (cfg16.win 8).elt) :
    (cfg16.win 8).cut (grid16.coords t) G = ((cfg16.win 8).blk t).view.read (Elt F) G := by
  funext j
  rw [View.read_apply]
  show G ((cfg16.win 8).xinj (grid16.coords t) j) = G (((cfg16.win 8).blk t).view.emb j)
  congr 1
  funext a; apply Fin.ext
  show (j a).val = 0 * _ + 1 * (j a).val
  omega
theorem cut16_9 (t : Fin cfg16.N) (G : (cfg16.win 9).block.Idx → Elt F (cfg16.win 9).elt) :
    (cfg16.win 9).cut (grid16.coords t) G = ((cfg16.win 9).blk t).view.read (Elt F) G := by
  funext j
  rw [View.read_apply]
  show G ((cfg16.win 9).xinj (grid16.coords t) j) = G (((cfg16.win 9).blk t).view.emb j)
  congr 1
  funext a; apply Fin.ext
  show (j a).val = 0 * _ + 1 * (j a).val
  omega
theorem cut16_10 (t : Fin cfg16.N) (G : (cfg16.win 10).block.Idx → Elt F (cfg16.win 10).elt) :
    (cfg16.win 10).cut (grid16.coords t) G = ((cfg16.win 10).blk t).view.read (Elt F) G := by
  funext j
  rw [View.read_apply]
  show G ((cfg16.win 10).xinj (grid16.coords t) j) = G (((cfg16.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover16_8 (c : Dev nD) (i : ((cfg16.win 8).arr.view.loc (c.tc : Thread nD τ)).2.ty.Idx) :
    ∃ t : Fin cfg16.N, (cfg16.win 8).flush t = true ∧ i ∈ ((cfg16.win 8).blk t).view.set := by
  refine ⟨t16_0, flush16_8 t16_0, ?_⟩
  show i ∈ ((View.whole (Pipeline.arrRef spec16 8)).slice ((cfg16.win 8).rect t16_0)).set
  rw [View.set_slice_whole]
  exact View.mem_set_unit_zero (funext fun a => Nat.zero_mul _) _ i
theorem cover16_9 (c : Dev nD) (i : ((cfg16.win 9).arr.view.loc (c.tc : Thread nD τ)).2.ty.Idx) :
    ∃ t : Fin cfg16.N, (cfg16.win 9).flush t = true ∧ i ∈ ((cfg16.win 9).blk t).view.set := by
  refine ⟨t16_0, flush16_9 t16_0, ?_⟩
  show i ∈ ((View.whole (Pipeline.arrRef spec16 9)).slice ((cfg16.win 9).rect t16_0)).set
  rw [View.set_slice_whole]
  exact View.mem_set_unit_zero (funext fun a => Nat.zero_mul _) _ i
theorem cover16_10 (c : Dev nD) (i : ((cfg16.win 10).arr.view.loc (c.tc : Thread nD τ)).2.ty.Idx) :
    ∃ t : Fin cfg16.N, (cfg16.win 10).flush t = true ∧ i ∈ ((cfg16.win 10).blk t).view.set := by
  refine ⟨t16_0, flush16_10 t16_0, ?_⟩
  show i ∈ ((View.whole (Pipeline.arrRef spec16 10)).slice ((cfg16.win 10).rect t16_0)).set
  rw [View.set_slice_whole]
  exact View.mem_set_unit_zero (funext fun a => Nat.zero_mul _) _ i

/-- Each output window's array after the region: the body's result of the input arrays. -/
theorem arr16_8 (c : Dev nD) : (dat16 V c).arrAt 8 cfg16.N
    = out16_8 (V c (Pipeline.arrRef spec16 0)) (V c (Pipeline.arrRef spec16 1)) (V c (Pipeline.arrRef spec16 2))
        (V c (Pipeline.arrRef spec16 5)) (V c (Pipeline.arrRef spec16 6)) := by
  refine (dat16 V c).arrAt_eq_of_cover 8 _ (fun t _ => ?_) (cover16_8 c)
  have h : (dat16 V c).after 8 t
    = out16_8 (V c (Pipeline.arrRef spec16 0)) (V c (Pipeline.arrRef spec16 1)) (V c (Pipeline.arrRef spec16 2))
        (V c (Pipeline.arrRef spec16 5)) (V c (Pipeline.arrRef spec16 6)) := by
    rw [after16_8, iblk16_0, iblk16_1, iblk16_2, iblk16_5, iblk16_6]
  show (cfg16.win 8).cut (grid16.coords t) ((dat16 V c).after 8 t) = _
  rw [h]
  exact cut16_8 t _
theorem arr16_9 (c : Dev nD) : (dat16 V c).arrAt 9 cfg16.N
    = out16_9 (V c (Pipeline.arrRef spec16 1)) (V c (Pipeline.arrRef spec16 2)) (V c (Pipeline.arrRef spec16 3))
        (V c (Pipeline.arrRef spec16 6)) (V c (Pipeline.arrRef spec16 7)) := by
  refine (dat16 V c).arrAt_eq_of_cover 9 _ (fun t _ => ?_) (cover16_9 c)
  have h : (dat16 V c).after 9 t
    = out16_9 (V c (Pipeline.arrRef spec16 1)) (V c (Pipeline.arrRef spec16 2)) (V c (Pipeline.arrRef spec16 3))
        (V c (Pipeline.arrRef spec16 6)) (V c (Pipeline.arrRef spec16 7)) := by
    rw [after16_9, iblk16_1, iblk16_2, iblk16_3, iblk16_6, iblk16_7]
  show (cfg16.win 9).cut (grid16.coords t) ((dat16 V c).after 9 t) = _
  rw [h]
  exact cut16_9 t _
theorem arr16_10 (c : Dev nD) : (dat16 V c).arrAt 10 cfg16.N
    = out16_10 (V c (Pipeline.arrRef spec16 2)) (V c (Pipeline.arrRef spec16 3)) (V c (Pipeline.arrRef spec16 4))
        (V c (Pipeline.arrRef spec16 7)) := by
  refine (dat16 V c).arrAt_eq_of_cover 10 _ (fun t _ => ?_) (cover16_10 c)
  have h : (dat16 V c).after 10 t
    = out16_10 (V c (Pipeline.arrRef spec16 2)) (V c (Pipeline.arrRef spec16 3)) (V c (Pipeline.arrRef spec16 4))
        (V c (Pipeline.arrRef spec16 7)) := by
    rw [after16_10, iblk16_2, iblk16_3, iblk16_4, iblk16_7]
  show (cfg16.win 10).cut (grid16.coords t) ((dat16 V c).after 10 t) = _
  rw [h]
  exact cut16_10 t _

end Cert.KernelIdeal.Reg

end
-- ==== Proof.KIArr15.lean ====
/-
  Region 15's arrays after the region, by name. Every window of this kernel is its whole array and the grid has one point,
  so an input window's block IS its array as the region finds it, and an output window's array after the region IS what
  the body left in its buffer: the body's result of the input arrays.
-/
import proofs.«107956_j75110388073098_1_alg».proof.Proof.KIRegion15
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk15_0 (c : Dev nD) (t : Fin cfg15.N) : iblk15 V c 0 t = V c (Pipeline.arrRef spec15 0) := by
  funext j
  unfold iblk15
  rw [View.read_apply]
  show V c (Pipeline.arrRef spec15 0) (((cfg15.win 0).blk t).view.emb j) = V c (Pipeline.arrRef spec15 0) j
  congr 1
  funext a; apply Fin.ext
  show 0 * _ + 1 * (j a).val = (j a).val
  omega
theorem iblk15_1 (c : Dev nD) (t : Fin cfg15.N) : iblk15 V c 1 t = V c (Pipeline.arrRef spec15 1) := by
  funext j
  unfold iblk15
  rw [View.read_apply]
  show V c (Pipeline.arrRef spec15 1) (((cfg15.win 1).blk t).view.emb j) = V c (Pipeline.arrRef spec15 1) j
  congr 1
  funext a; apply Fin.ext
  show 0 * _ + 1 * (j a).val = (j a).val
  omega
theorem iblk15_2 (c : Dev nD) (t : Fin cfg15.N) : iblk15 V c 2 t = V c (Pipeline.arrRef spec15 2) := by
  funext j
  unfold iblk15
  rw [View.read_apply]
  show V c (Pipeline.arrRef spec15 2) (((cfg15.win 2).blk t).view.emb j) = V c (Pipeline.arrRef spec15 2) j
  congr 1
  funext a; apply Fin.ext
  show 0 * _ + 1 * (j a).val = (j a).val
  omega
theorem iblk15_3 (c : Dev nD) (t : Fin cfg15.N) : iblk15 V c 3 t = V c (Pipeline.arrRef spec15 3) := by
  funext j
  unfold iblk15
  rw [View.read_apply]
  show V c (Pipeline.arrRef spec15 3) (((cfg15.win 3).blk t).view.emb j) = V c (Pipeline.arrRef spec15 3) j
  congr 1
  funext a; apply Fin.ext
  show 0 * _ + 1 * (j a).val = (j a).val
  omega
theorem iblk15_4 (c : Dev nD) (t : Fin cfg15.N) : iblk15 V c 4 t = V c (Pipeline.arrRef spec15 4) := by
  funext j
  unfold iblk15
  rw [View.read_apply]
  show V c (Pipeline.arrRef spec15 4) (((cfg15.win 4).blk t).view.emb j) = V c (Pipeline.arrRef spec15 4) j
  congr 1
  funext a; apply Fin.ext
  show 0 * _ + 1 * (j a).val = (j a).val
  omega
theorem iblk15_5 (c : Dev nD) (t : Fin cfg15.N) : iblk15 V c 5 t = V c (Pipeline.arrRef spec15 5) := by
  funext j
  unfold iblk15
  rw [View.read_apply]
  show V c (Pipeline.arrRef spec15 5) (((cfg15.win 5).blk t).view.emb j) = V c (Pipeline.arrRef spec15 5) j
  congr 1
  funext a; apply Fin.ext
  show 0 * _ + 1 * (j a).val = (j a).val
  omega
theorem iblk15_6 (c : Dev nD) (t : Fin cfg15.N) : iblk15 V c 6 t = V c (Pipeline.arrRef spec15 6) := by
  funext j
  unfold iblk15
  rw [View.read_apply]
  show V c (Pipeline.arrRef spec15 6) (((cfg15.win 6).blk t).view.emb j) = V c (Pipeline.arrRef spec15 6) j
  congr 1
  funext a; apply Fin.ext
  show 0 * _ + 1 * (j a).val = (j a).val
  omega
theorem iblk15_7 (c : Dev nD) (t : Fin cfg15.N) : iblk15 V c 7 t = V c (Pipeline.arrRef spec15 7) := by
  funext j
  unfold iblk15
  rw [View.read_apply]
  show V c (Pipeline.arrRef spec15 7) (((cfg15.win 7).blk t).view.emb j) = V c (Pipeline.arrRef spec15 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut15_8 (t : Fin cfg15.N) (G : (cfg15.win 8).block.Idx → Elt F (cfg15.win 8).elt) :
    (cfg15.win 8).cut (grid15.coords t) G = ((cfg15.win 8).blk t).view.read (Elt F) G := by
  funext j
  rw [View.read_apply]
  show G ((cfg15.win 8).xinj (grid15.coords t) j) = G (((cfg15.win 8).blk t).view.emb j)
  congr 1
  funext a; apply Fin.ext
  show (j a).val = 0 * _ + 1 * (j a).val
  omega
theorem cut15_9 (t : Fin cfg15.N) (G : (cfg15.win 9).block.Idx → Elt F (cfg15.win 9).elt) :
    (cfg15.win 9).cut (grid15.coords t) G = ((cfg15.win 9).blk t).view.read (Elt F) G := by
  funext j
  rw [View.read_apply]
  show G ((cfg15.win 9).xinj (grid15.coords t) j) = G (((cfg15.win 9).blk t).view.emb j)
  congr 1
  funext a; apply Fin.ext
  show (j a).val = 0 * _ + 1 * (j a).val
  omega
theorem cut15_10 (t : Fin cfg15.N) (G : (cfg15.win 10).block.Idx → Elt F (cfg15.win 10).elt) :
    (cfg15.win 10).cut (grid15.coords t) G = ((cfg15.win 10).blk t).view.read (Elt F) G := by
  funext j
  rw [View.read_apply]
  show G ((cfg15.win 10).xinj (grid15.coords t) j) = G (((cfg15.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover15_8 (c : Dev nD) (i : ((cfg15.win 8).arr.view.loc (c.tc : Thread nD τ)).2.ty.Idx) :
    ∃ t : Fin cfg15.N, (cfg15.win 8).flush t = true ∧ i ∈ ((cfg15.win 8).blk t).view.set := by
  refine ⟨t15_0, flush15_8 t15_0, ?_⟩
  show i ∈ ((View.whole (Pipeline.arrRef spec15 8)).slice ((cfg15.win 8).rect t15_0)).set
  rw [View.set_slice_whole]
  exact View.mem_set_unit_zero (funext fun a => Nat.zero_mul _) _ i
theorem cover15_9 (c : Dev nD) (i : ((cfg15.win 9).arr.view.loc (c.tc : Thread nD τ)).2.ty.Idx) :
    ∃ t : Fin cfg15.N, (cfg15.win 9).flush t = true ∧ i ∈ ((cfg15.win 9).blk t).view.set := by
  refine ⟨t15_0, flush15_9 t15_0, ?_⟩
  show i ∈ ((View.whole (Pipeline.arrRef spec15 9)).slice ((cfg15.win 9).rect t15_0)).set
  rw [View.set_slice_whole]
  exact View.mem_set_unit_zero (funext fun a => Nat.zero_mul _) _ i
theorem cover15_10 (c : Dev nD) (i : ((cfg15.win 10).arr.view.loc (c.tc : Thread nD τ)).2.ty.Idx) :
    ∃ t : Fin cfg15.N, (cfg15.win 10).flush t = true ∧ i ∈ ((cfg15.win 10).blk t).view.set := by
  refine ⟨t15_0, flush15_10 t15_0, ?_⟩
  show i ∈ ((View.whole (Pipeline.arrRef spec15 10)).slice ((cfg15.win 10).rect t15_0)).set
  rw [View.set_slice_whole]
  exact View.mem_set_unit_zero (funext fun a => Nat.zero_mul _) _ i

/-- Each output window's array after the region: the body's result of the input arrays. -/
theorem arr15_8 (c : Dev nD) : (dat15 V c).arrAt 8 cfg15.N
    = out15_8 (V c (Pipeline.arrRef spec15 0)) (V c (Pipeline.arrRef spec15 1)) (V c (Pipeline.arrRef spec15 2))
        (V c (Pipeline.arrRef spec15 5)) (V c (Pipeline.arrRef spec15 6)) := by
  refine (dat15 V c).arrAt_eq_of_cover 8 _ (fun t _ => ?_) (cover15_8 c)
  have h : (dat15 V c).after 8 t
    = out15_8 (V c (Pipeline.arrRef spec15 0)) (V c (Pipeline.arrRef spec15 1)) (V c (Pipeline.arrRef spec15 2))
        (V c (Pipeline.arrRef spec15 5)) (V c (Pipeline.arrRef spec15 6)) := by
    rw [after15_8, iblk15_0, iblk15_1, iblk15_2, iblk15_5, iblk15_6]
  show (cfg15.win 8).cut (grid15.coords t) ((dat15 V c).after 8 t) = _
  rw [h]
  exact cut15_8 t _
theorem arr15_9 (c : Dev nD) : (dat15 V c).arrAt 9 cfg15.N
    = out15_9 (V c (Pipeline.arrRef spec15 1)) (V c (Pipeline.arrRef spec15 2)) (V c (Pipeline.arrRef spec15 3))
        (V c (Pipeline.arrRef spec15 6)) (V c (Pipeline.arrRef spec15 7)) := by
  refine (dat15 V c).arrAt_eq_of_cover 9 _ (fun t _ => ?_) (cover15_9 c)
  have h : (dat15 V c).after 9 t
    = out15_9 (V c (Pipeline.arrRef spec15 1)) (V c (Pipeline.arrRef spec15 2)) (V c (Pipeline.arrRef spec15 3))
        (V c (Pipeline.arrRef spec15 6)) (V c (Pipeline.arrRef spec15 7)) := by
    rw [after15_9, iblk15_1, iblk15_2, iblk15_3, iblk15_6, iblk15_7]
  show (cfg15.win 9).cut (grid15.coords t) ((dat15 V c).after 9 t) = _
  rw [h]
  exact cut15_9 t _
theorem arr15_10 (c : Dev nD) : (dat15 V c).arrAt 10 cfg15.N
    = out15_10 (V c (Pipeline.arrRef spec15 2)) (V c (Pipeline.arrRef spec15 3)) (V c (Pipeline.arrRef spec15 4))
        (V c (Pipeline.arrRef spec15 7)) := by
  refine (dat15 V c).arrAt_eq_of_cover 10 _ (fun t _ => ?_) (cover15_10 c)
  have h : (dat15 V c).after 10 t
    = out15_10 (V c (Pipeline.arrRef spec15 2)) (V c (Pipeline.arrRef spec15 3)) (V c (Pipeline.arrRef spec15 4))
        (V c (Pipeline.arrRef spec15 7)) := by
    rw [after15_10, iblk15_2, iblk15_3, iblk15_4, iblk15_7]
  show (cfg15.win 10).cut (grid15.coords t) ((dat15 V c).after 10 t) = _
  rw [h]
  exact cut15_10 t _

end Cert.KernelIdeal.Reg

end
-- ==== Proof.KIArr14.lean ====
/-
  Region 14's arrays after the region, by name. Every window of this kernel is its whole array and the grid has one point,
  so an input window's block IS its array as the region finds it, and an output window's array after the region IS what
  the body left in its buffer: the body's result of the input arrays.
-/
import proofs.«107956_j75110388073098_1_alg».proof.Proof.KIRegion14
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk14_0 (c : Dev nD) (t : Fin cfg14.N) : iblk14 V c 0 t = V c (Pipeline.arrRef spec14 0) := by
  funext j
  unfold iblk14
  rw [View.read_apply]
  show V c (Pipeline.arrRef spec14 0) (((cfg14.win 0).blk t).view.emb j) = V c (Pipeline.arrRef spec14 0) j
  congr 1
  funext a; apply Fin.ext
  show 0 * _ + 1 * (j a).val = (j a).val
  omega
theorem iblk14_1 (c : Dev nD) (t : Fin cfg14.N) : iblk14 V c 1 t = V c (Pipeline.arrRef spec14 1) := by
  funext j
  unfold iblk14
  rw [View.read_apply]
  show V c (Pipeline.arrRef spec14 1) (((cfg14.win 1).blk t).view.emb j) = V c (Pipeline.arrRef spec14 1) j
  congr 1
  funext a; apply Fin.ext
  show 0 * _ + 1 * (j a).val = (j a).val
  omega
theorem iblk14_2 (c : Dev nD) (t : Fin cfg14.N) : iblk14 V c 2 t = V c (Pipeline.arrRef spec14 2) := by
  funext j
  unfold iblk14
  rw [View.read_apply]
  show V c (Pipeline.arrRef spec14 2) (((cfg14.win 2).blk t).view.emb j) = V c (Pipeline.arrRef spec14 2) j
  congr 1
  funext a; apply Fin.ext
  show 0 * _ + 1 * (j a).val = (j a).val
  omega
theorem iblk14_3 (c : Dev nD) (t : Fin cfg14.N) : iblk14 V c 3 t = V c (Pipeline.arrRef spec14 3) := by
  funext j
  unfold iblk14
  rw [View.read_apply]
  show V c (Pipeline.arrRef spec14 3) (((cfg14.win 3).blk t).view.emb j) = V c (Pipeline.arrRef spec14 3) j
  congr 1
  funext a; apply Fin.ext
  show 0 * _ + 1 * (j a).val = (j a).val
  omega
theorem iblk14_4 (c : Dev nD) (t : Fin cfg14.N) : iblk14 V c 4 t = V c (Pipeline.arrRef spec14 4) := by
  funext j
  unfold iblk14
  rw [View.read_apply]
  show V c (Pipeline.arrRef spec14 4) (((cfg14.win 4).blk t).view.emb j) = V c (Pipeline.arrRef spec14 4) j
  congr 1
  funext a; apply Fin.ext
  show 0 * _ + 1 * (j a).val = (j a).val
  omega
theorem iblk14_5 (c : Dev nD) (t : Fin cfg14.N) : iblk14 V c 5 t = V c (Pipeline.arrRef spec14 5) := by
  funext j
  unfold iblk14
  rw [View.read_apply]
  show V c (Pipeline.arrRef spec14 5) (((cfg14.win 5).blk t).view.emb j) = V c (Pipeline.arrRef spec14 5) j
  congr 1
  funext a; apply Fin.ext
  show 0 * _ + 1 * (j a).val = (j a).val
  omega
theorem iblk14_6 (c : Dev nD) (t : Fin cfg14.N) : iblk14 V c 6 t = V c (Pipeline.arrRef spec14 6) := by
  funext j
  unfold iblk14
  rw [View.read_apply]
  show V c (Pipeline.arrRef spec14 6) (((cfg14.win 6).blk t).view.emb j) = V c (Pipeline.arrRef spec14 6) j
  congr 1
  funext a; apply Fin.ext
  show 0 * _ + 1 * (j a).val = (j a).val
  omega
theorem iblk14_7 (c : Dev nD) (t : Fin cfg14.N) : iblk14 V c 7 t = V c (Pipeline.arrRef spec14 7) := by
  funext j
  unfold iblk14
  rw [View.read_apply]
  show V c (Pipeline.arrRef spec14 7) (((cfg14.win 7).blk t).view.emb j) = V c (Pipeline.arrRef spec14 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut14_8 (t : Fin cfg14.N) (G : (cfg14.win 8).block.Idx → Elt F (cfg14.win 8).elt) :
    (cfg14.win 8).cut (grid14.coords t) G = ((cfg14.win 8).blk t).view.read (Elt F) G := by
  funext j
  rw [View.read_apply]
  show G ((cfg14.win 8).xinj (grid14.coords t) j) = G (((cfg14.win 8).blk t).view.emb j)
  congr 1
  funext a; apply Fin.ext
  show (j a).val = 0 * _ + 1 * (j a).val
  omega
theorem cut14_9 (t : Fin cfg14.N) (G : (cfg14.win 9).block.Idx → Elt F (cfg14.win 9).elt) :
    (cfg14.win 9).cut (grid14.coords t) G = ((cfg14.win 9).blk t).view.read (Elt F) G := by
  funext j
  rw [View.read_apply]
  show G ((cfg14.win 9).xinj (grid14.coords t) j) = G (((cfg14.win 9).blk t).view.emb j)
  congr 1
  funext a; apply Fin.ext
  show (j a).val = 0 * _ + 1 * (j a).val
  omega
theorem cut14_10 (t : Fin cfg14.N) (G : (cfg14.win 10).block.Idx → Elt F (cfg14.win 10).elt) :
    (cfg14.win 10).cut (grid14.coords t) G = ((cfg14.win 10).blk t).view.read (Elt F) G := by
  funext j
  rw [View.read_apply]
  show G ((cfg14.win 10).xinj (grid14.coords t) j) = G (((cfg14.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover14_8 (c : Dev nD) (i : ((cfg14.win 8).arr.view.loc (c.tc : Thread nD τ)).2.ty.Idx) :
    ∃ t : Fin cfg14.N, (cfg14.win 8).flush t = true ∧ i ∈ ((cfg14.win 8).blk t).view.set := by
  refine ⟨t14_0, flush14_8 t14_0, ?_⟩
  show i ∈ ((View.whole (Pipeline.arrRef spec14 8)).slice ((cfg14.win 8).rect t14_0)).set
  rw [View.set_slice_whole]
  exact View.mem_set_unit_zero (funext fun a => Nat.zero_mul _) _ i
theorem cover14_9 (c : Dev nD) (i : ((cfg14.win 9).arr.view.loc (c.tc : Thread nD τ)).2.ty.Idx) :
    ∃ t : Fin cfg14.N, (cfg14.win 9).flush t = true ∧ i ∈ ((cfg14.win 9).blk t).view.set := by
  refine ⟨t14_0, flush14_9 t14_0, ?_⟩
  show i ∈ ((View.whole (Pipeline.arrRef spec14 9)).slice ((cfg14.win 9).rect t14_0)).set
  rw [View.set_slice_whole]
  exact View.mem_set_unit_zero (funext fun a => Nat.zero_mul _) _ i
theorem cover14_10 (c : Dev nD) (i : ((cfg14.win 10).arr.view.loc (c.tc : Thread nD τ)).2.ty.Idx) :
    ∃ t : Fin cfg14.N, (cfg14.win 10).flush t = true ∧ i ∈ ((cfg14.win 10).blk t).view.set := by
  refine ⟨t14_0, flush14_10 t14_0, ?_⟩
  show i ∈ ((View.whole (Pipeline.arrRef spec14 10)).slice ((cfg14.win 10).rect t14_0)).set
  rw [View.set_slice_whole]
  exact View.mem_set_unit_zero (funext fun a => Nat.zero_mul _) _ i

/-- Each output window's array after the region: the body's result of the input arrays. -/
theorem arr14_8 (c : Dev nD) : (dat14 V c).arrAt 8 cfg14.N
    = out14_8 (V c (Pipeline.arrRef spec14 0)) (V c (Pipeline.arrRef spec14 1)) (V c (Pipeline.arrRef spec14 2))
        (V c (Pipeline.arrRef spec14 5)) (V c (Pipeline.arrRef spec14 6)) := by
  refine (dat14 V c).arrAt_eq_of_cover 8 _ (fun t _ => ?_) (cover14_8 c)
  have h : (dat14 V c).after 8 t
    = out14_8 (V c (Pipeline.arrRef spec14 0)) (V c (Pipeline.arrRef spec14 1)) (V c (Pipeline.arrRef spec14 2))
        (V c (Pipeline.arrRef spec14 5)) (V c (Pipeline.arrRef spec14 6)) := by
    rw [after14_8, iblk14_0, iblk14_1, iblk14_2, iblk14_5, iblk14_6]
  show (cfg14.win 8).cut (grid14.coords t) ((dat14 V c).after 8 t) = _
  rw [h]
  exact cut14_8 t _
theorem arr14_9 (c : Dev nD) : (dat14 V c).arrAt 9 cfg14.N
    = out14_9 (V c (Pipeline.arrRef spec14 1)) (V c (Pipeline.arrRef spec14 2)) (V c (Pipeline.arrRef spec14 3))
        (V c (Pipeline.arrRef spec14 6)) (V c (Pipeline.arrRef spec14 7)) := by
  refine (dat14 V c).arrAt_eq_of_cover 9 _ (fun t _ => ?_) (cover14_9 c)
  have h : (dat14 V c).after 9 t
    = out14_9 (V c (Pipeline.arrRef spec14 1)) (V c (Pipeline.arrRef spec14 2)) (V c (Pipeline.arrRef spec14 3))
        (V c (Pipeline.arrRef spec14 6)) (V c (Pipeline.arrRef spec14 7)) := by
    rw [after14_9, iblk14_1, iblk14_2, iblk14_3, iblk14_6, iblk14_7]
  show (cfg14.win 9).cut (grid14.coords t) ((dat14 V c).after 9 t) = _
  rw [h]
  exact cut14_9 t _
theorem arr14_10 (c : Dev nD) : (dat14 V c).arrAt 10 cfg14.N
    = out14_10 (V c (Pipeline.arrRef spec14 2)) (V c (Pipeline.arrRef spec14 3)) (V c (Pipeline.arrRef spec14 4))
        (V c (Pipeline.arrRef spec14 7)) := by
  refine (dat14 V c).arrAt_eq_of_cover 10 _ (fun t _ => ?_) (cover14_10 c)
  have h : (dat14 V c).after 10 t
    = out14_10 (V c (Pipeline.arrRef spec14 2)) (V c (Pipeline.arrRef spec14 3)) (V c (Pipeline.arrRef spec14 4))
        (V c (Pipeline.arrRef spec14 7)) := by
    rw [after14_10, iblk14_2, iblk14_3, iblk14_4, iblk14_7]
  show (cfg14.win 10).cut (grid14.coords t) ((dat14 V c).after 10 t) = _
  rw [h]
  exact cut14_10 t _

end Cert.KernelIdeal.Reg

end
-- ==== Proof.KIArr13.lean ====
/-
  Region 13's arrays after the region, by name. Every window of this kernel is its whole array and the grid has one point,
  so an input window's block IS its array as the region finds it, and an output window's array after the region IS what
  the body left in its buffer: the body's result of the input arrays.
-/
import proofs.«107956_j75110388073098_1_alg».proof.Proof.KIRegion13
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk13_0 (c : Dev nD) (t : Fin cfg13.N) : iblk13 V c 0 t = V c (Pipeline.arrRef spec13 0) := by
  funext j
  unfold iblk13
  rw [View.read_apply]
  show V c (Pipeline.arrRef spec13 0) (((cfg13.win 0).blk t).view.emb j) = V c (Pipeline.arrRef spec13 0) j
  congr 1
  funext a; apply Fin.ext
  show 0 * _ + 1 * (j a).val = (j a).val
  omega
theorem iblk13_1 (c : Dev nD) (t : Fin cfg13.N) : iblk13 V c 1 t = V c (Pipeline.arrRef spec13 1) := by
  funext j
  unfold iblk13
  rw [View.read_apply]
  show V c (Pipeline.arrRef spec13 1) (((cfg13.win 1).blk t).view.emb j) = V c (Pipeline.arrRef spec13 1) j
  congr 1
  funext a; apply Fin.ext
  show 0 * _ + 1 * (j a).val = (j a).val
  omega
theorem iblk13_2 (c : Dev nD) (t : Fin cfg13.N) : iblk13 V c 2 t = V c (Pipeline.arrRef spec13 2) := by
  funext j
  unfold iblk13
  rw [View.read_apply]
  show V c (Pipeline.arrRef spec13 2) (((cfg13.win 2).blk t).view.emb j) = V c (Pipeline.arrRef spec13 2) j
  congr 1
  funext a; apply Fin.ext
  show 0 * _ + 1 * (j a).val = (j a).val
  omega
theorem iblk13_3 (c : Dev nD) (t : Fin cfg13.N) : iblk13 V c 3 t = V c (Pipeline.arrRef spec13 3) := by
  funext j
  unfold iblk13
  rw [View.read_apply]
  show V c (Pipeline.arrRef spec13 3) (((cfg13.win 3).blk t).view.emb j) = V c (Pipeline.arrRef spec13 3) j
  congr 1
  funext a; apply Fin.ext
  show 0 * _ + 1 * (j a).val = (j a).val
  omega
theorem iblk13_4 (c : Dev nD) (t : Fin cfg13.N) : iblk13 V c 4 t = V c (Pipeline.arrRef spec13 4) := by
  funext j
  unfold iblk13
  rw [View.read_apply]
  show V c (Pipeline.arrRef spec13 4) (((cfg13.win 4).blk t).view.emb j) = V c (Pipeline.arrRef spec13 4) j
  congr 1
  funext a; apply Fin.ext
  show 0 * _ + 1 * (j a).val = (j a).val
  omega
theorem iblk13_5 (c : Dev nD) (t : Fin cfg13.N) : iblk13 V c 5 t = V c (Pipeline.arrRef spec13 5) := by
  funext j
  unfold iblk13
  rw [View.read_apply]
  show V c (Pipeline.arrRef spec13 5) (((cfg13.win 5).blk t).view.emb j) = V c (Pipeline.arrRef spec13 5) j
  congr 1
  funext a; apply Fin.ext
  show 0 * _ + 1 * (j a).val = (j a).val
  omega
theorem iblk13_6 (c : Dev nD) (t : Fin cfg13.N) : iblk13 V c 6 t = V c (Pipeline.arrRef spec13 6) := by
  funext j
  unfold iblk13
  rw [View.read_apply]
  show V c (Pipeline.arrRef spec13 6) (((cfg13.win 6).blk t).view.emb j) = V c (Pipeline.arrRef spec13 6) j
  congr 1
  funext a; apply Fin.ext
  show 0 * _ + 1 * (j a).val = (j a).val
  omega
theorem iblk13_7 (c : Dev nD) (t : Fin cfg13.N) : iblk13 V c 7 t = V c (Pipeline.arrRef spec13 7) := by
  funext j
  unfold iblk13
  rw [View.read_apply]
  show V c (Pipeline.arrRef spec13 7) (((cfg13.win 7).blk t).view.emb j) = V c (Pipeline.arrRef spec13 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut13_8 (t : Fin cfg13.N) (G : (cfg13.win 8).block.Idx → Elt F (cfg13.win 8).elt) :
    (cfg13.win 8).cut (grid13.coords t) G = ((cfg13.win 8).blk t).view.read (Elt F) G := by
  funext j
  rw [View.read_apply]
  show G ((cfg13.win 8).xinj (grid13.coords t) j) = G (((cfg13.win 8).blk t).view.emb j)
  congr 1
  funext a; apply Fin.ext
  show (j a).val = 0 * _ + 1 * (j a).val
  omega
theorem cut13_9 (t : Fin cfg13.N) (G : (cfg13.win 9).block.Idx → Elt F (cfg13.win 9).elt) :
    (cfg13.win 9).cut (grid13.coords t) G = ((cfg13.win 9).blk t).view.read (Elt F) G := by
  funext j
  rw [View.read_apply]
  show G ((cfg13.win 9).xinj (grid13.coords t) j) = G (((cfg13.win 9).blk t).view.emb j)
  congr 1
  funext a; apply Fin.ext
  show (j a).val = 0 * _ + 1 * (j a).val
  omega
theorem cut13_10 (t : Fin cfg13.N) (G : (cfg13.win 10).block.Idx → Elt F (cfg13.win 10).elt) :
    (cfg13.win 10).cut (grid13.coords t) G = ((cfg13.win 10).blk t).view.read (Elt F) G := by
  funext j
  rw [View.read_apply]
  show G ((cfg13.win 10).xinj (grid13.coords t) j) = G (((cfg13.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover13_8 (c : Dev nD) (i : ((cfg13.win 8).arr.view.loc (c.tc : Thread nD τ)).2.ty.Idx) :
    ∃ t : Fin cfg13.N, (cfg13.win 8).flush t = true ∧ i ∈ ((cfg13.win 8).blk t).view.set := by
  refine ⟨t13_0, flush13_8 t13_0, ?_⟩
  show i ∈ ((View.whole (Pipeline.arrRef spec13 8)).slice ((cfg13.win 8).rect t13_0)).set
  rw [View.set_slice_whole]
  exact View.mem_set_unit_zero (funext fun a => Nat.zero_mul _) _ i
theorem cover13_9 (c : Dev nD) (i : ((cfg13.win 9).arr.view.loc (c.tc : Thread nD τ)).2.ty.Idx) :
    ∃ t : Fin cfg13.N, (cfg13.win 9).flush t = true ∧ i ∈ ((cfg13.win 9).blk t).view.set := by
  refine ⟨t13_0, flush13_9 t13_0, ?_⟩
  show i ∈ ((View.whole (Pipeline.arrRef spec13 9)).slice ((cfg13.win 9).rect t13_0)).set
  rw [View.set_slice_whole]
  exact View.mem_set_unit_zero (funext fun a => Nat.zero_mul _) _ i
theorem cover13_10 (c : Dev nD) (i : ((cfg13.win 10).arr.view.loc (c.tc : Thread nD τ)).2.ty.Idx) :
    ∃ t : Fin cfg13.N, (cfg13.win 10).flush t = true ∧ i ∈ ((cfg13.win 10).blk t).view.set := by
  refine ⟨t13_0, flush13_10 t13_0, ?_⟩
  show i ∈ ((View.whole (Pipeline.arrRef spec13 10)).slice ((cfg13.win 10).rect t13_0)).set
  rw [View.set_slice_whole]
  exact View.mem_set_unit_zero (funext fun a => Nat.zero_mul _) _ i

/-- Each output window's array after the region: the body's result of the input arrays. -/
theorem arr13_8 (c : Dev nD) : (dat13 V c).arrAt 8 cfg13.N
    = out13_8 (V c (Pipeline.arrRef spec13 0)) (V c (Pipeline.arrRef spec13 1)) (V c (Pipeline.arrRef spec13 2))
        (V c (Pipeline.arrRef spec13 5)) (V c (Pipeline.arrRef spec13 6)) := by
  refine (dat13 V c).arrAt_eq_of_cover 8 _ (fun t _ => ?_) (cover13_8 c)
  have h : (dat13 V c).after 8 t
    = out13_8 (V c (Pipeline.arrRef spec13 0)) (V c (Pipeline.arrRef spec13 1)) (V c (Pipeline.arrRef spec13 2))
        (V c (Pipeline.arrRef spec13 5)) (V c (Pipeline.arrRef spec13 6)) := by
    rw [after13_8, iblk13_0, iblk13_1, iblk13_2, iblk13_5, iblk13_6]
  show (cfg13.win 8).cut (grid13.coords t) ((dat13 V c).after 8 t) = _
  rw [h]
  exact cut13_8 t _
theorem arr13_9 (c : Dev nD) : (dat13 V c).arrAt 9 cfg13.N
    = out13_9 (V c (Pipeline.arrRef spec13 1)) (V c (Pipeline.arrRef spec13 2)) (V c (Pipeline.arrRef spec13 3))
        (V c (Pipeline.arrRef spec13 6)) (V c (Pipeline.arrRef spec13 7)) := by
  refine (dat13 V c).arrAt_eq_of_cover 9 _ (fun t _ => ?_) (cover13_9 c)
  have h : (dat13 V c).after 9 t
    = out13_9 (V c (Pipeline.arrRef spec13 1)) (V c (Pipeline.arrRef spec13 2)) (V c (Pipeline.arrRef spec13 3))
        (V c (Pipeline.arrRef spec13 6)) (V c (Pipeline.arrRef spec13 7)) := by
    rw [after13_9, iblk13_1, iblk13_2, iblk13_3, iblk13_6, iblk13_7]
  show (cfg13.win 9).cut (grid13.coords t) ((dat13 V c).after 9 t) = _
  rw [h]
  exact cut13_9 t _
theorem arr13_10 (c : Dev nD) : (dat13 V c).arrAt 10 cfg13.N
    = out13_10 (V c (Pipeline.arrRef spec13 2)) (V c (Pipeline.arrRef spec13 3)) (V c (Pipeline.arrRef spec13 4))
        (V c (Pipeline.arrRef spec13 7)) := by
  refine (dat13 V c).arrAt_eq_of_cover 10 _ (fun t _ => ?_) (cover13_10 c)
  have h : (dat13 V c).after 10 t
    = out13_10 (V c (Pipeline.arrRef spec13 2)) (V c (Pipeline.arrRef spec13 3)) (V c (Pipeline.arrRef spec13 4))
        (V c (Pipeline.arrRef spec13 7)) := by
    rw [after13_10, iblk13_2, iblk13_3, iblk13_4, iblk13_7]
  show (cfg13.win 10).cut (grid13.coords t) ((dat13 V c).after 10 t) = _
  rw [h]
  exact cut13_10 t _

end Cert.KernelIdeal.Reg

end
-- ==== Proof.KIArr12.lean ====
/-
  Region 12's arrays after the region, by name. Every window of this kernel is its whole array and the grid has one point,
  so an input window's block IS its array as the region finds it, and an output window's array after the region IS what
  the body left in its buffer: the body's result of the input arrays.
-/
import proofs.«107956_j75110388073098_1_alg».proof.Proof.KIRegion12
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk12_0 (c : Dev nD) (t : Fin cfg12.N) : iblk12 V c 0 t = V c (Pipeline.arrRef spec12 0) := by
  funext j
  unfold iblk12
  rw [View.read_apply]
  show V c (Pipeline.arrRef spec12 0) (((cfg12.win 0).blk t).view.emb j) = V c (Pipeline.arrRef spec12 0) j
  congr 1
  funext a; apply Fin.ext
  show 0 * _ + 1 * (j a).val = (j a).val
  omega
theorem iblk12_1 (c : Dev nD) (t : Fin cfg12.N) : iblk12 V c 1 t = V c (Pipeline.arrRef spec12 1) := by
  funext j
  unfold iblk12
  rw [View.read_apply]
  show V c (Pipeline.arrRef spec12 1) (((cfg12.win 1).blk t).view.emb j) = V c (Pipeline.arrRef spec12 1) j
  congr 1
  funext a; apply Fin.ext
  show 0 * _ + 1 * (j a).val = (j a).val
  omega
theorem iblk12_2 (c : Dev nD) (t : Fin cfg12.N) : iblk12 V c 2 t = V c (Pipeline.arrRef spec12 2) := by
  funext j
  unfold iblk12
  rw [View.read_apply]
  show V c (Pipeline.arrRef spec12 2) (((cfg12.win 2).blk t).view.emb j) = V c (Pipeline.arrRef spec12 2) j
  congr 1
  funext a; apply Fin.ext
  show 0 * _ + 1 * (j a).val = (j a).val
  omega
theorem iblk12_3 (c : Dev nD) (t : Fin cfg12.N) : iblk12 V c 3 t = V c (Pipeline.arrRef spec12 3) := by
  funext j
  unfold iblk12
  rw [View.read_apply]
  show V c (Pipeline.arrRef spec12 3) (((cfg12.win 3).blk t).view.emb j) = V c (Pipeline.arrRef spec12 3) j
  congr 1
  funext a; apply Fin.ext
  show 0 * _ + 1 * (j a).val = (j a).val
  omega
theorem iblk12_4 (c : Dev nD) (t : Fin cfg12.N) : iblk12 V c 4 t = V c (Pipeline.arrRef spec12 4) := by
  funext j
  unfold iblk12
  rw [View.read_apply]
  show V c (Pipeline.arrRef spec12 4) (((cfg12.win 4).blk t).view.emb j) = V c (Pipeline.arrRef spec12 4) j
  congr 1
  funext a; apply Fin.ext
  show 0 * _ + 1 * (j a).val = (j a).val
  omega
theorem iblk12_5 (c : Dev nD) (t : Fin cfg12.N) : iblk12 V c 5 t = V c (Pipeline.arrRef spec12 5) := by
  funext j
  unfold iblk12
  rw [View.read_apply]
  show V c (Pipeline.arrRef spec12 5) (((cfg12.win 5).blk t).view.emb j) = V c (Pipeline.arrRef spec12 5) j
  congr 1
  funext a; apply Fin.ext
  show 0 * _ + 1 * (j a).val = (j a).val
  omega
theorem iblk12_6 (c : Dev nD) (t : Fin cfg12.N) : iblk12 V c 6 t = V c (Pipeline.arrRef spec12 6) := by
  funext j
  unfold iblk12
  rw [View.read_apply]
  show V c (Pipeline.arrRef spec12 6) (((cfg12.win 6).blk t).view.emb j) = V c (Pipeline.arrRef spec12 6) j
  congr 1
  funext a; apply Fin.ext
  show 0 * _ + 1 * (j a).val = (j a).val
  omega
theorem iblk12_7 (c : Dev nD) (t : Fin cfg12.N) : iblk12 V c 7 t = V c (Pipeline.arrRef spec12 7) := by
  funext j
  unfold iblk12
  rw [View.read_apply]
  show V c (Pipeline.arrRef spec12 7) (((cfg12.win 7).blk t).view.emb j) = V c (Pipeline.arrRef spec12 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut12_8 (t : Fin cfg12.N) (G : (cfg12.win 8).block.Idx → Elt F (cfg12.win 8).elt) :
    (cfg12.win 8).cut (grid12.coords t) G = ((cfg12.win 8).blk t).view.read (Elt F) G := by
  funext j
  rw [View.read_apply]
  show G ((cfg12.win 8).xinj (grid12.coords t) j) = G (((cfg12.win 8).blk t).view.emb j)
  congr 1
  funext a; apply Fin.ext
  show (j a).val = 0 * _ + 1 * (j a).val
  omega
theorem cut12_9 (t : Fin cfg12.N) (G : (cfg12.win 9).block.Idx → Elt F (cfg12.win 9).elt) :
    (cfg12.win 9).cut (grid12.coords t) G = ((cfg12.win 9).blk t).view.read (Elt F) G := by
  funext j
  rw [View.read_apply]
  show G ((cfg12.win 9).xinj (grid12.coords t) j) = G (((cfg12.win 9).blk t).view.emb j)
  congr 1
  funext a; apply Fin.ext
  show (j a).val = 0 * _ + 1 * (j a).val
  omega
theorem cut12_10 (t : Fin cfg12.N) (G : (cfg12.win 10).block.Idx → Elt F (cfg12.win 10).elt) :
    (cfg12.win 10).cut (grid12.coords t) G = ((cfg12.win 10).blk t).view.read (Elt F) G := by
  funext j
  rw [View.read_apply]
  show G ((cfg12.win 10).xinj (grid12.coords t) j) = G (((cfg12.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover12_8 (c : Dev nD) (i : ((cfg12.win 8).arr.view.loc (c.tc : Thread nD τ)).2.ty.Idx) :
    ∃ t : Fin cfg12.N, (cfg12.win 8).flush t = true ∧ i ∈ ((cfg12.win 8).blk t).view.set := by
  refine ⟨t12_0, flush12_8 t12_0, ?_⟩
  show i ∈ ((View.whole (Pipeline.arrRef spec12 8)).slice ((cfg12.win 8).rect t12_0)).set
  rw [View.set_slice_whole]
  exact View.mem_set_unit_zero (funext fun a => Nat.zero_mul _) _ i
theorem cover12_9 (c : Dev nD) (i : ((cfg12.win 9).arr.view.loc (c.tc : Thread nD τ)).2.ty.Idx) :
    ∃ t : Fin cfg12.N, (cfg12.win 9).flush t = true ∧ i ∈ ((cfg12.win 9).blk t).view.set := by
  refine ⟨t12_0, flush12_9 t12_0, ?_⟩
  show i ∈ ((View.whole (Pipeline.arrRef spec12 9)).slice ((cfg12.win 9).rect t12_0)).set
  rw [View.set_slice_whole]
  exact View.mem_set_unit_zero (funext fun a => Nat.zero_mul _) _ i
theorem cover12_10 (c : Dev nD) (i : ((cfg12.win 10).arr.view.loc (c.tc : Thread nD τ)).2.ty.Idx) :
    ∃ t : Fin cfg12.N, (cfg12.win 10).flush t = true ∧ i ∈ ((cfg12.win 10).blk t).view.set := by
  refine ⟨t12_0, flush12_10 t12_0, ?_⟩
  show i ∈ ((View.whole (Pipeline.arrRef spec12 10)).slice ((cfg12.win 10).rect t12_0)).set
  rw [View.set_slice_whole]
  exact View.mem_set_unit_zero (funext fun a => Nat.zero_mul _) _ i

/-- Each output window's array after the region: the body's result of the input arrays. -/
theorem arr12_8 (c : Dev nD) : (dat12 V c).arrAt 8 cfg12.N
    = out12_8 (V c (Pipeline.arrRef spec12 0)) (V c (Pipeline.arrRef spec12 1)) (V c (Pipeline.arrRef spec12 2))
        (V c (Pipeline.arrRef spec12 5)) (V c (Pipeline.arrRef spec12 6)) := by
  refine (dat12 V c).arrAt_eq_of_cover 8 _ (fun t _ => ?_) (cover12_8 c)
  have h : (dat12 V c).after 8 t
    = out12_8 (V c (Pipeline.arrRef spec12 0)) (V c (Pipeline.arrRef spec12 1)) (V c (Pipeline.arrRef spec12 2))
        (V c (Pipeline.arrRef spec12 5)) (V c (Pipeline.arrRef spec12 6)) := by
    rw [after12_8, iblk12_0, iblk12_1, iblk12_2, iblk12_5, iblk12_6]
  show (cfg12.win 8).cut (grid12.coords t) ((dat12 V c).after 8 t) = _
  rw [h]
  exact cut12_8 t _
theorem arr12_9 (c : Dev nD) : (dat12 V c).arrAt 9 cfg12.N
    = out12_9 (V c (Pipeline.arrRef spec12 1)) (V c (Pipeline.arrRef spec12 2)) (V c (Pipeline.arrRef spec12 3))
        (V c (Pipeline.arrRef spec12 6)) (V c (Pipeline.arrRef spec12 7)) := by
  refine (dat12 V c).arrAt_eq_of_cover 9 _ (fun t _ => ?_) (cover12_9 c)
  have h : (dat12 V c).after 9 t
    = out12_9 (V c (Pipeline.arrRef spec12 1)) (V c (Pipeline.arrRef spec12 2)) (V c (Pipeline.arrRef spec12 3))
        (V c (Pipeline.arrRef spec12 6)) (V c (Pipeline.arrRef spec12 7)) := by
    rw [after12_9, iblk12_1, iblk12_2, iblk12_3, iblk12_6, iblk12_7]
  show (cfg12.win 9).cut (grid12.coords t) ((dat12 V c).after 9 t) = _
  rw [h]
  exact cut12_9 t _
theorem arr12_10 (c : Dev nD) : (dat12 V c).arrAt 10 cfg12.N
    = out12_10 (V c (Pipeline.arrRef spec12 2)) (V c (Pipeline.arrRef spec12 3)) (V c (Pipeline.arrRef spec12 4))
        (V c (Pipeline.arrRef spec12 7)) := by
  refine (dat12 V c).arrAt_eq_of_cover 10 _ (fun t _ => ?_) (cover12_10 c)
  have h : (dat12 V c).after 10 t
    = out12_10 (V c (Pipeline.arrRef spec12 2)) (V c (Pipeline.arrRef spec12 3)) (V c (Pipeline.arrRef spec12 4))
        (V c (Pipeline.arrRef spec12 7)) := by
    rw [after12_10, iblk12_2, iblk12_3, iblk12_4, iblk12_7]
  show (cfg12.win 10).cut (grid12.coords t) ((dat12 V c).after 10 t) = _
  rw [h]
  exact cut12_10 t _

end Cert.KernelIdeal.Reg

end
-- ==== Proof.KIArr11.lean ====
/-
  Region 11's arrays after the region, by name. Every window of this kernel is its whole array and the grid has one point,
  so an input window's block IS its array as the region finds it, and an output window's array after the region IS what
  the body left in its buffer: the body's result of the input arrays.
-/
import proofs.«107956_j75110388073098_1_alg».proof.Proof.KIRegion11
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk11_0 (c : Dev nD) (t : Fin cfg11.N) : iblk11 V c 0 t = V c (Pipeline.arrRef spec11 0) := by
  funext j
  unfold iblk11
  rw [View.read_apply]
  show V c (Pipeline.arrRef spec11 0) (((cfg11.win 0).blk t).view.emb j) = V c (Pipeline.arrRef spec11 0) j
  congr 1
  funext a; apply Fin.ext
  show 0 * _ + 1 * (j a).val = (j a).val
  omega
theorem iblk11_1 (c : Dev nD) (t : Fin cfg11.N) : iblk11 V c 1 t = V c (Pipeline.arrRef spec11 1) := by
  funext j
  unfold iblk11
  rw [View.read_apply]
  show V c (Pipeline.arrRef spec11 1) (((cfg11.win 1).blk t).view.emb j) = V c (Pipeline.arrRef spec11 1) j
  congr 1
  funext a; apply Fin.ext
  show 0 * _ + 1 * (j a).val = (j a).val
  omega
theorem iblk11_2 (c : Dev nD) (t : Fin cfg11.N) : iblk11 V c 2 t = V c (Pipeline.arrRef spec11 2) := by
  funext j
  unfold iblk11
  rw [View.read_apply]
  show V c (Pipeline.arrRef spec11 2) (((cfg11.win 2).blk t).view.emb j) = V c (Pipeline.arrRef spec11 2) j
  congr 1
  funext a; apply Fin.ext
  show 0 * _ + 1 * (j a).val = (j a).val
  omega
theorem iblk11_3 (c : Dev nD) (t : Fin cfg11.N) : iblk11 V c 3 t = V c (Pipeline.arrRef spec11 3) := by
  funext j
  unfold iblk11
  rw [View.read_apply]
  show V c (Pipeline.arrRef spec11 3) (((cfg11.win 3).blk t).view.emb j) = V c (Pipeline.arrRef spec11 3) j
  congr 1
  funext a; apply Fin.ext
  show 0 * _ + 1 * (j a).val = (j a).val
  omega
theorem iblk11_4 (c : Dev nD) (t : Fin cfg11.N) : iblk11 V c 4 t = V c (Pipeline.arrRef spec11 4) := by
  funext j
  unfold iblk11
  rw [View.read_apply]
  show V c (Pipeline.arrRef spec11 4) (((cfg11.win 4).blk t).view.emb j) = V c (Pipeline.arrRef spec11 4) j
  congr 1
  funext a; apply Fin.ext
  show 0 * _ + 1 * (j a).val = (j a).val
  omega
theorem iblk11_5 (c : Dev nD) (t : Fin cfg11.N) : iblk11 V c 5 t = V c (Pipeline.arrRef spec11 5) := by
  funext j
  unfold iblk11
  rw [View.read_apply]
  show V c (Pipeline.arrRef spec11 5) (((cfg11.win 5).blk t).view.emb j) = V c (Pipeline.arrRef spec11 5) j
  congr 1
  funext a; apply Fin.ext
  show 0 * _ + 1 * (j a).val = (j a).val
  omega
theorem iblk11_6 (c : Dev nD) (t : Fin cfg11.N) : iblk11 V c 6 t = V c (Pipeline.arrRef spec11 6) := by
  funext j
  unfold iblk11
  rw [View.read_apply]
  show V c (Pipeline.arrRef spec11 6) (((cfg11.win 6).blk t).view.emb j) = V c (Pipeline.arrRef spec11 6) j
  congr 1
  funext a; apply Fin.ext
  show 0 * _ + 1 * (j a).val = (j a).val
  omega
theorem iblk11_7 (c : Dev nD) (t : Fin cfg11.N) : iblk11 V c 7 t = V c (Pipeline.arrRef spec11 7) := by
  funext j
  unfold iblk11
  rw [View.read_apply]
  show V c (Pipeline.arrRef spec11 7) (((cfg11.win 7).blk t).view.emb j) = V c (Pipeline.arrRef spec11 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut11_8 (t : Fin cfg11.N) (G : (cfg11.win 8).block.Idx → Elt F (cfg11.win 8).elt) :
    (cfg11.win 8).cut (grid11.coords t) G = ((cfg11.win 8).blk t).view.read (Elt F) G := by
  funext j
  rw [View.read_apply]
  show G ((cfg11.win 8).xinj (grid11.coords t) j) = G (((cfg11.win 8).blk t).view.emb j)
  congr 1
  funext a; apply Fin.ext
  show (j a).val = 0 * _ + 1 * (j a).val
  omega
theorem cut11_9 (t : Fin cfg11.N) (G : (cfg11.win 9).block.Idx → Elt F (cfg11.win 9).elt) :
    (cfg11.win 9).cut (grid11.coords t) G = ((cfg11.win 9).blk t).view.read (Elt F) G := by
  funext j
  rw [View.read_apply]
  show G ((cfg11.win 9).xinj (grid11.coords t) j) = G (((cfg11.win 9).blk t).view.emb j)
  congr 1
  funext a; apply Fin.ext
  show (j a).val = 0 * _ + 1 * (j a).val
  omega
theorem cut11_10 (t : Fin cfg11.N) (G : (cfg11.win 10).block.Idx → Elt F (cfg11.win 10).elt) :
    (cfg11.win 10).cut (grid11.coords t) G = ((cfg11.win 10).blk t).view.read (Elt F) G := by
  funext j
  rw [View.read_apply]
  show G ((cfg11.win 10).xinj (grid11.coords t) j) = G (((cfg11.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover11_8 (c : Dev nD) (i : ((cfg11.win 8).arr.view.loc (c.tc : Thread nD τ)).2.ty.Idx) :
    ∃ t : Fin cfg11.N, (cfg11.win 8).flush t = true ∧ i ∈ ((cfg11.win 8).blk t).view.set := by
  refine ⟨t11_0, flush11_8 t11_0, ?_⟩
  show i ∈ ((View.whole (Pipeline.arrRef spec11 8)).slice ((cfg11.win 8).rect t11_0)).set
  rw [View.set_slice_whole]
  exact View.mem_set_unit_zero (funext fun a => Nat.zero_mul _) _ i
theorem cover11_9 (c : Dev nD) (i : ((cfg11.win 9).arr.view.loc (c.tc : Thread nD τ)).2.ty.Idx) :
    ∃ t : Fin cfg11.N, (cfg11.win 9).flush t = true ∧ i ∈ ((cfg11.win 9).blk t).view.set := by
  refine ⟨t11_0, flush11_9 t11_0, ?_⟩
  show i ∈ ((View.whole (Pipeline.arrRef spec11 9)).slice ((cfg11.win 9).rect t11_0)).set
  rw [View.set_slice_whole]
  exact View.mem_set_unit_zero (funext fun a => Nat.zero_mul _) _ i
theorem cover11_10 (c : Dev nD) (i : ((cfg11.win 10).arr.view.loc (c.tc : Thread nD τ)).2.ty.Idx) :
    ∃ t : Fin cfg11.N, (cfg11.win 10).flush t = true ∧ i ∈ ((cfg11.win 10).blk t).view.set := by
  refine ⟨t11_0, flush11_10 t11_0, ?_⟩
  show i ∈ ((View.whole (Pipeline.arrRef spec11 10)).slice ((cfg11.win 10).rect t11_0)).set
  rw [View.set_slice_whole]
  exact View.mem_set_unit_zero (funext fun a => Nat.zero_mul _) _ i

/-- Each output window's array after the region: the body's result of the input arrays. -/
theorem arr11_8 (c : Dev nD) : (dat11 V c).arrAt 8 cfg11.N
    = out11_8 (V c (Pipeline.arrRef spec11 0)) (V c (Pipeline.arrRef spec11 1)) (V c (Pipeline.arrRef spec11 2))
        (V c (Pipeline.arrRef spec11 5)) (V c (Pipeline.arrRef spec11 6)) := by
  refine (dat11 V c).arrAt_eq_of_cover 8 _ (fun t _ => ?_) (cover11_8 c)
  have h : (dat11 V c).after 8 t
    = out11_8 (V c (Pipeline.arrRef spec11 0)) (V c (Pipeline.arrRef spec11 1)) (V c (Pipeline.arrRef spec11 2))
        (V c (Pipeline.arrRef spec11 5)) (V c (Pipeline.arrRef spec11 6)) := by
    rw [after11_8, iblk11_0, iblk11_1, iblk11_2, iblk11_5, iblk11_6]
  show (cfg11.win 8).cut (grid11.coords t) ((dat11 V c).after 8 t) = _
  rw [h]
  exact cut11_8 t _
theorem arr11_9 (c : Dev nD) : (dat11 V c).arrAt 9 cfg11.N
    = out11_9 (V c (Pipeline.arrRef spec11 1)) (V c (Pipeline.arrRef spec11 2)) (V c (Pipeline.arrRef spec11 3))
        (V c (Pipeline.arrRef spec11 6)) (V c (Pipeline.arrRef spec11 7)) := by
  refine (dat11 V c).arrAt_eq_of_cover 9 _ (fun t _ => ?_) (cover11_9 c)
  have h : (dat11 V c).after 9 t
    = out11_9 (V c (Pipeline.arrRef spec11 1)) (V c (Pipeline.arrRef spec11 2)) (V c (Pipeline.arrRef spec11 3))
        (V c (Pipeline.arrRef spec11 6)) (V c (Pipeline.arrRef spec11 7)) := by
    rw [after11_9, iblk11_1, iblk11_2, iblk11_3, iblk11_6, iblk11_7]
  show (cfg11.win 9).cut (grid11.coords t) ((dat11 V c).after 9 t) = _
  rw [h]
  exact cut11_9 t _
theorem arr11_10 (c : Dev nD) : (dat11 V c).arrAt 10 cfg11.N
    = out11_10 (V c (Pipeline.arrRef spec11 2)) (V c (Pipeline.arrRef spec11 3)) (V c (Pipeline.arrRef spec11 4))
        (V c (Pipeline.arrRef spec11 7)) := by
  refine (dat11 V c).arrAt_eq_of_cover 10 _ (fun t _ => ?_) (cover11_10 c)
  have h : (dat11 V c).after 10 t
    = out11_10 (V c (Pipeline.arrRef spec11 2)) (V c (Pipeline.arrRef spec11 3)) (V c (Pipeline.arrRef spec11 4))
        (V c (Pipeline.arrRef spec11 7)) := by
    rw [after11_10, iblk11_2, iblk11_3, iblk11_4, iblk11_7]
  show (cfg11.win 10).cut (grid11.coords t) ((dat11 V c).after 10 t) = _
  rw [h]
  exact cut11_10 t _

end Cert.KernelIdeal.Reg

end
-- ==== Proof.KIArr10.lean ====
/-
  Region 10's arrays after the region, by name. Every window of this kernel is its whole array and the grid has one point,
  so an input window's block IS its array as the region finds it, and an output window's array after the region IS what
  the body left in its buffer: the body's result of the input arrays.
-/
import proofs.«107956_j75110388073098_1_alg».proof.Proof.KIRegion10
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk10_0 (c : Dev nD) (t : Fin cfg10.N) : iblk10 V c 0 t = V c (Pipeline.arrRef spec10 0) := by
  funext j
  unfold iblk10
  rw [View.read_apply]
  show V c (Pipeline.arrRef spec10 0) (((cfg10.win 0).blk t).view.emb j) = V c (Pipeline.arrRef spec10 0) j
  congr 1
  funext a; apply Fin.ext
  show 0 * _ + 1 * (j a).val = (j a).val
  omega
theorem iblk10_1 (c : Dev nD) (t : Fin cfg10.N) : iblk10 V c 1 t = V c (Pipeline.arrRef spec10 1) := by
  funext j
  unfold iblk10
  rw [View.read_apply]
  show V c (Pipeline.arrRef spec10 1) (((cfg10.win 1).blk t).view.emb j) = V c (Pipeline.arrRef spec10 1) j
  congr 1
  funext a; apply Fin.ext
  show 0 * _ + 1 * (j a).val = (j a).val
  omega
theorem iblk10_2 (c : Dev nD) (t : Fin cfg10.N) : iblk10 V c 2 t = V c (Pipeline.arrRef spec10 2) := by
  funext j
  unfold iblk10
  rw [View.read_apply]
  show V c (Pipeline.arrRef spec10 2) (((cfg10.win 2).blk t).view.emb j) = V c (Pipeline.arrRef spec10 2) j
  congr 1
  funext a; apply Fin.ext
  show 0 * _ + 1 * (j a).val = (j a).val
  omega
theorem iblk10_3 (c : Dev nD) (t : Fin cfg10.N) : iblk10 V c 3 t = V c (Pipeline.arrRef spec10 3) := by
  funext j
  unfold iblk10
  rw [View.read_apply]
  show V c (Pipeline.arrRef spec10 3) (((cfg10.win 3).blk t).view.emb j) = V c (Pipeline.arrRef spec10 3) j
  congr 1
  funext a; apply Fin.ext
  show 0 * _ + 1 * (j a).val = (j a).val
  omega
theorem iblk10_4 (c : Dev nD) (t : Fin cfg10.N) : iblk10 V c 4 t = V c (Pipeline.arrRef spec10 4) := by
  funext j
  unfold iblk10
  rw [View.read_apply]
  show V c (Pipeline.arrRef spec10 4) (((cfg10.win 4).blk t).view.emb j) = V c (Pipeline.arrRef spec10 4) j
  congr 1
  funext a; apply Fin.ext
  show 0 * _ + 1 * (j a).val = (j a).val
  omega
theorem iblk10_5 (c : Dev nD) (t : Fin cfg10.N) : iblk10 V c 5 t = V c (Pipeline.arrRef spec10 5) := by
  funext j
  unfold iblk10
  rw [View.read_apply]
  show V c (Pipeline.arrRef spec10 5) (((cfg10.win 5).blk t).view.emb j) = V c (Pipeline.arrRef spec10 5) j
  congr 1
  funext a; apply Fin.ext
  show 0 * _ + 1 * (j a).val = (j a).val
  omega
theorem iblk10_6 (c : Dev nD) (t : Fin cfg10.N) : iblk10 V c 6 t = V c (Pipeline.arrRef spec10 6) := by
  funext j
  unfold iblk10
  rw [View.read_apply]
  show V c (Pipeline.arrRef spec10 6) (((cfg10.win 6).blk t).view.emb j) = V c (Pipeline.arrRef spec10 6) j
  congr 1
  funext a; apply Fin.ext
  show 0 * _ + 1 * (j a).val = (j a).val
  omega
theorem iblk10_7 (c : Dev nD) (t : Fin cfg10.N) : iblk10 V c 7 t = V c (Pipeline.arrRef spec10 7) := by
  funext j
  unfold iblk10
  rw [View.read_apply]
  show V c (Pipeline.arrRef spec10 7) (((cfg10.win 7).blk t).view.emb j) = V c (Pipeline.arrRef spec10 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut10_8 (t : Fin cfg10.N) (G : (cfg10.win 8).block.Idx → Elt F (cfg10.win 8).elt) :
    (cfg10.win 8).cut (grid10.coords t) G = ((cfg10.win 8).blk t).view.read (Elt F) G := by
  funext j
  rw [View.read_apply]
  show G ((cfg10.win 8).xinj (grid10.coords t) j) = G (((cfg10.win 8).blk t).view.emb j)
  congr 1
  funext a; apply Fin.ext
  show (j a).val = 0 * _ + 1 * (j a).val
  omega
theorem cut10_9 (t : Fin cfg10.N) (G : (cfg10.win 9).block.Idx → Elt F (cfg10.win 9).elt) :
    (cfg10.win 9).cut (grid10.coords t) G = ((cfg10.win 9).blk t).view.read (Elt F) G := by
  funext j
  rw [View.read_apply]
  show G ((cfg10.win 9).xinj (grid10.coords t) j) = G (((cfg10.win 9).blk t).view.emb j)
  congr 1
  funext a; apply Fin.ext
  show (j a).val = 0 * _ + 1 * (j a).val
  omega
theorem cut10_10 (t : Fin cfg10.N) (G : (cfg10.win 10).block.Idx → Elt F (cfg10.win 10).elt) :
    (cfg10.win 10).cut (grid10.coords t) G = ((cfg10.win 10).blk t).view.read (Elt F) G := by
  funext j
  rw [View.read_apply]
  show G ((cfg10.win 10).xinj (grid10.coords t) j) = G (((cfg10.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover10_8 (c : Dev nD) (i : ((cfg10.win 8).arr.view.loc (c.tc : Thread nD τ)).2.ty.Idx) :
    ∃ t : Fin cfg10.N, (cfg10.win 8).flush t = true ∧ i ∈ ((cfg10.win 8).blk t).view.set := by
  refine ⟨t10_0, flush10_8 t10_0, ?_⟩
  show i ∈ ((View.whole (Pipeline.arrRef spec10 8)).slice ((cfg10.win 8).rect t10_0)).set
  rw [View.set_slice_whole]
  exact View.mem_set_unit_zero (funext fun a => Nat.zero_mul _) _ i
theorem cover10_9 (c : Dev nD) (i : ((cfg10.win 9).arr.view.loc (c.tc : Thread nD τ)).2.ty.Idx) :
    ∃ t : Fin cfg10.N, (cfg10.win 9).flush t = true ∧ i ∈ ((cfg10.win 9).blk t).view.set := by
  refine ⟨t10_0, flush10_9 t10_0, ?_⟩
  show i ∈ ((View.whole (Pipeline.arrRef spec10 9)).slice ((cfg10.win 9).rect t10_0)).set
  rw [View.set_slice_whole]
  exact View.mem_set_unit_zero (funext fun a => Nat.zero_mul _) _ i
theorem cover10_10 (c : Dev nD) (i : ((cfg10.win 10).arr.view.loc (c.tc : Thread nD τ)).2.ty.Idx) :
    ∃ t : Fin cfg10.N, (cfg10.win 10).flush t = true ∧ i ∈ ((cfg10.win 10).blk t).view.set := by
  refine ⟨t10_0, flush10_10 t10_0, ?_⟩
  show i ∈ ((View.whole (Pipeline.arrRef spec10 10)).slice ((cfg10.win 10).rect t10_0)).set
  rw [View.set_slice_whole]
  exact View.mem_set_unit_zero (funext fun a => Nat.zero_mul _) _ i

/-- Each output window's array after the region: the body's result of the input arrays. -/
theorem arr10_8 (c : Dev nD) : (dat10 V c).arrAt 8 cfg10.N
    = out10_8 (V c (Pipeline.arrRef spec10 0)) (V c (Pipeline.arrRef spec10 1)) (V c (Pipeline.arrRef spec10 2))
        (V c (Pipeline.arrRef spec10 5)) (V c (Pipeline.arrRef spec10 6)) := by
  refine (dat10 V c).arrAt_eq_of_cover 8 _ (fun t _ => ?_) (cover10_8 c)
  have h : (dat10 V c).after 8 t
    = out10_8 (V c (Pipeline.arrRef spec10 0)) (V c (Pipeline.arrRef spec10 1)) (V c (Pipeline.arrRef spec10 2))
        (V c (Pipeline.arrRef spec10 5)) (V c (Pipeline.arrRef spec10 6)) := by
    rw [after10_8, iblk10_0, iblk10_1, iblk10_2, iblk10_5, iblk10_6]
  show (cfg10.win 8).cut (grid10.coords t) ((dat10 V c).after 8 t) = _
  rw [h]
  exact cut10_8 t _
theorem arr10_9 (c : Dev nD) : (dat10 V c).arrAt 9 cfg10.N
    = out10_9 (V c (Pipeline.arrRef spec10 1)) (V c (Pipeline.arrRef spec10 2)) (V c (Pipeline.arrRef spec10 3))
        (V c (Pipeline.arrRef spec10 6)) (V c (Pipeline.arrRef spec10 7)) := by
  refine (dat10 V c).arrAt_eq_of_cover 9 _ (fun t _ => ?_) (cover10_9 c)
  have h : (dat10 V c).after 9 t
    = out10_9 (V c (Pipeline.arrRef spec10 1)) (V c (Pipeline.arrRef spec10 2)) (V c (Pipeline.arrRef spec10 3))
        (V c (Pipeline.arrRef spec10 6)) (V c (Pipeline.arrRef spec10 7)) := by
    rw [after10_9, iblk10_1, iblk10_2, iblk10_3, iblk10_6, iblk10_7]
  show (cfg10.win 9).cut (grid10.coords t) ((dat10 V c).after 9 t) = _
  rw [h]
  exact cut10_9 t _
theorem arr10_10 (c : Dev nD) : (dat10 V c).arrAt 10 cfg10.N
    = out10_10 (V c (Pipeline.arrRef spec10 2)) (V c (Pipeline.arrRef spec10 3)) (V c (Pipeline.arrRef spec10 4))
        (V c (Pipeline.arrRef spec10 7)) := by
  refine (dat10 V c).arrAt_eq_of_cover 10 _ (fun t _ => ?_) (cover10_10 c)
  have h : (dat10 V c).after 10 t
    = out10_10 (V c (Pipeline.arrRef spec10 2)) (V c (Pipeline.arrRef spec10 3)) (V c (Pipeline.arrRef spec10 4))
        (V c (Pipeline.arrRef spec10 7)) := by
    rw [after10_10, iblk10_2, iblk10_3, iblk10_4, iblk10_7]
  show (cfg10.win 10).cut (grid10.coords t) ((dat10 V c).after 10 t) = _
  rw [h]
  exact cut10_10 t _

end Cert.KernelIdeal.Reg

end
-- ==== Proof.KIArr9.lean ====
/-
  Region 9's arrays after the region, by name. Every window of this kernel is its whole array and the grid has one point,
  so an input window's block IS its array as the region finds it, and an output window's array after the region IS what
  the body left in its buffer: the body's result of the input arrays.
-/
import proofs.«107956_j75110388073098_1_alg».proof.Proof.KIRegion9
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk9_0 (c : Dev nD) (t : Fin cfg9.N) : iblk9 V c 0 t = V c (Pipeline.arrRef spec9 0) := by
  funext j
  unfold iblk9
  rw [View.read_apply]
  show V c (Pipeline.arrRef spec9 0) (((cfg9.win 0).blk t).view.emb j) = V c (Pipeline.arrRef spec9 0) j
  congr 1
  funext a; apply Fin.ext
  show 0 * _ + 1 * (j a).val = (j a).val
  omega
theorem iblk9_1 (c : Dev nD) (t : Fin cfg9.N) : iblk9 V c 1 t = V c (Pipeline.arrRef spec9 1) := by
  funext j
  unfold iblk9
  rw [View.read_apply]
  show V c (Pipeline.arrRef spec9 1) (((cfg9.win 1).blk t).view.emb j) = V c (Pipeline.arrRef spec9 1) j
  congr 1
  funext a; apply Fin.ext
  show 0 * _ + 1 * (j a).val = (j a).val
  omega
theorem iblk9_2 (c : Dev nD) (t : Fin cfg9.N) : iblk9 V c 2 t = V c (Pipeline.arrRef spec9 2) := by
  funext j
  unfold iblk9
  rw [View.read_apply]
  show V c (Pipeline.arrRef spec9 2) (((cfg9.win 2).blk t).view.emb j) = V c (Pipeline.arrRef spec9 2) j
  congr 1
  funext a; apply Fin.ext
  show 0 * _ + 1 * (j a).val = (j a).val
  omega
theorem iblk9_3 (c : Dev nD) (t : Fin cfg9.N) : iblk9 V c 3 t = V c (Pipeline.arrRef spec9 3) := by
  funext j
  unfold iblk9
  rw [View.read_apply]
  show V c (Pipeline.arrRef spec9 3) (((cfg9.win 3).blk t).view.emb j) = V c (Pipeline.arrRef spec9 3) j
  congr 1
  funext a; apply Fin.ext
  show 0 * _ + 1 * (j a).val = (j a).val
  omega
theorem iblk9_4 (c : Dev nD) (t : Fin cfg9.N) : iblk9 V c 4 t = V c (Pipeline.arrRef spec9 4) := by
  funext j
  unfold iblk9
  rw [View.read_apply]
  show V c (Pipeline.arrRef spec9 4) (((cfg9.win 4).blk t).view.emb j) = V c (Pipeline.arrRef spec9 4) j
  congr 1
  funext a; apply Fin.ext
  show 0 * _ + 1 * (j a).val = (j a).val
  omega
theorem iblk9_5 (c : Dev nD) (t : Fin cfg9.N) : iblk9 V c 5 t = V c (Pipeline.arrRef spec9 5) := by
  funext j
  unfold iblk9
  rw [View.read_apply]
  show V c (Pipeline.arrRef spec9 5) (((cfg9.win 5).blk t).view.emb j) = V c (Pipeline.arrRef spec9 5) j
  congr 1
  funext a; apply Fin.ext
  show 0 * _ + 1 * (j a).val = (j a).val
  omega
theorem iblk9_6 (c : Dev nD) (t : Fin cfg9.N) : iblk9 V c 6 t = V c (Pipeline.arrRef spec9 6) := by
  funext j
  unfold iblk9
  rw [View.read_apply]
  show V c (Pipeline.arrRef spec9 6) (((cfg9.win 6).blk t).view.emb j) = V c (Pipeline.arrRef spec9 6) j
  congr 1
  funext a; apply Fin.ext
  show 0 * _ + 1 * (j a).val = (j a).val
  omega
theorem iblk9_7 (c : Dev nD) (t : Fin cfg9.N) : iblk9 V c 7 t = V c (Pipeline.arrRef spec9 7) := by
  funext j
  unfold iblk9
  rw [View.read_apply]
  show V c (Pipeline.arrRef spec9 7) (((cfg9.win 7).blk t).view.emb j) = V c (Pipeline.arrRef spec9 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut9_8 (t : Fin cfg9.N) (G : (cfg9.win 8).block.Idx → Elt F (cfg9.win 8).elt) :
    (cfg9.win 8).cut (grid9.coords t) G = ((cfg9.win 8).blk t).view.read (Elt F) G := by
  funext j
  rw [View.read_apply]
  show G ((cfg9.win 8).xinj (grid9.coords t) j) = G (((cfg9.win 8).blk t).view.emb j)
  congr 1
  funext a; apply Fin.ext
  show (j a).val = 0 * _ + 1 * (j a).val
  omega
theorem cut9_9 (t : Fin cfg9.N) (G : (cfg9.win 9).block.Idx → Elt F (cfg9.win 9).elt) :
    (cfg9.win 9).cut (grid9.coords t) G = ((cfg9.win 9).blk t).view.read (Elt F) G := by
  funext j
  rw [View.read_apply]
  show G ((cfg9.win 9).xinj (grid9.coords t) j) = G (((cfg9.win 9).blk t).view.emb j)
  congr 1
  funext a; apply Fin.ext
  show (j a).val = 0 * _ + 1 * (j a).val
  omega
theorem cut9_10 (t : Fin cfg9.N) (G : (cfg9.win 10).block.Idx → Elt F (cfg9.win 10).elt) :
    (cfg9.win 10).cut (grid9.coords t) G = ((cfg9.win 10).blk t).view.read (Elt F) G := by
  funext j
  rw [View.read_apply]
  show G ((cfg9.win 10).xinj (grid9.coords t) j) = G (((cfg9.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover9_8 (c : Dev nD) (i : ((cfg9.win 8).arr.view.loc (c.tc : Thread nD τ)).2.ty.Idx) :
    ∃ t : Fin cfg9.N, (cfg9.win 8).flush t = true ∧ i ∈ ((cfg9.win 8).blk t).view.set := by
  refine ⟨t9_0, flush9_8 t9_0, ?_⟩
  show i ∈ ((View.whole (Pipeline.arrRef spec9 8)).slice ((cfg9.win 8).rect t9_0)).set
  rw [View.set_slice_whole]
  exact View.mem_set_unit_zero (funext fun a => Nat.zero_mul _) _ i
theorem cover9_9 (c : Dev nD) (i : ((cfg9.win 9).arr.view.loc (c.tc : Thread nD τ)).2.ty.Idx) :
    ∃ t : Fin cfg9.N, (cfg9.win 9).flush t = true ∧ i ∈ ((cfg9.win 9).blk t).view.set := by
  refine ⟨t9_0, flush9_9 t9_0, ?_⟩
  show i ∈ ((View.whole (Pipeline.arrRef spec9 9)).slice ((cfg9.win 9).rect t9_0)).set
  rw [View.set_slice_whole]
  exact View.mem_set_unit_zero (funext fun a => Nat.zero_mul _) _ i
theorem cover9_10 (c : Dev nD) (i : ((cfg9.win 10).arr.view.loc (c.tc : Thread nD τ)).2.ty.Idx) :
    ∃ t : Fin cfg9.N, (cfg9.win 10).flush t = true ∧ i ∈ ((cfg9.win 10).blk t).view.set := by
  refine ⟨t9_0, flush9_10 t9_0, ?_⟩
  show i ∈ ((View.whole (Pipeline.arrRef spec9 10)).slice ((cfg9.win 10).rect t9_0)).set
  rw [View.set_slice_whole]
  exact View.mem_set_unit_zero (funext fun a => Nat.zero_mul _) _ i

/-- Each output window's array after the region: the body's result of the input arrays. -/
theorem arr9_8 (c : Dev nD) : (dat9 V c).arrAt 8 cfg9.N
    = out9_8 (V c (Pipeline.arrRef spec9 0)) (V c (Pipeline.arrRef spec9 1)) (V c (Pipeline.arrRef spec9 2))
        (V c (Pipeline.arrRef spec9 5)) (V c (Pipeline.arrRef spec9 6)) := by
  refine (dat9 V c).arrAt_eq_of_cover 8 _ (fun t _ => ?_) (cover9_8 c)
  have h : (dat9 V c).after 8 t
    = out9_8 (V c (Pipeline.arrRef spec9 0)) (V c (Pipeline.arrRef spec9 1)) (V c (Pipeline.arrRef spec9 2))
        (V c (Pipeline.arrRef spec9 5)) (V c (Pipeline.arrRef spec9 6)) := by
    rw [after9_8, iblk9_0, iblk9_1, iblk9_2, iblk9_5, iblk9_6]
  show (cfg9.win 8).cut (grid9.coords t) ((dat9 V c).after 8 t) = _
  rw [h]
  exact cut9_8 t _
theorem arr9_9 (c : Dev nD) : (dat9 V c).arrAt 9 cfg9.N
    = out9_9 (V c (Pipeline.arrRef spec9 1)) (V c (Pipeline.arrRef spec9 2)) (V c (Pipeline.arrRef spec9 3))
        (V c (Pipeline.arrRef spec9 6)) (V c (Pipeline.arrRef spec9 7)) := by
  refine (dat9 V c).arrAt_eq_of_cover 9 _ (fun t _ => ?_) (cover9_9 c)
  have h : (dat9 V c).after 9 t
    = out9_9 (V c (Pipeline.arrRef spec9 1)) (V c (Pipeline.arrRef spec9 2)) (V c (Pipeline.arrRef spec9 3))
        (V c (Pipeline.arrRef spec9 6)) (V c (Pipeline.arrRef spec9 7)) := by
    rw [after9_9, iblk9_1, iblk9_2, iblk9_3, iblk9_6, iblk9_7]
  show (cfg9.win 9).cut (grid9.coords t) ((dat9 V c).after 9 t) = _
  rw [h]
  exact cut9_9 t _
theorem arr9_10 (c : Dev nD) : (dat9 V c).arrAt 10 cfg9.N
    = out9_10 (V c (Pipeline.arrRef spec9 2)) (V c (Pipeline.arrRef spec9 3)) (V c (Pipeline.arrRef spec9 4))
        (V c (Pipeline.arrRef spec9 7)) := by
  refine (dat9 V c).arrAt_eq_of_cover 10 _ (fun t _ => ?_) (cover9_10 c)
  have h : (dat9 V c).after 10 t
    = out9_10 (V c (Pipeline.arrRef spec9 2)) (V c (Pipeline.arrRef spec9 3)) (V c (Pipeline.arrRef spec9 4))
        (V c (Pipeline.arrRef spec9 7)) := by
    rw [after9_10, iblk9_2, iblk9_3, iblk9_4, iblk9_7]
  show (cfg9.win 10).cut (grid9.coords t) ((dat9 V c).after 10 t) = _
  rw [h]
  exact cut9_10 t _

end Cert.KernelIdeal.Reg

end
-- ==== Proof.KIArr8.lean ====
/-
  Region 8's arrays after the region, by name. Every window of this kernel is its whole array and the grid has one point,
  so an input window's block IS its array as the region finds it, and an output window's array after the region IS what
  the body left in its buffer: the body's result of the input arrays.
-/
import proofs.«107956_j75110388073098_1_alg».proof.Proof.KIRegion8
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk8_0 (c : Dev nD) (t : Fin cfg8.N) : iblk8 V c 0 t = V c (Pipeline.arrRef spec8 0) := by
  funext j
  unfold iblk8
  rw [View.read_apply]
  show V c (Pipeline.arrRef spec8 0) (((cfg8.win 0).blk t).view.emb j) = V c (Pipeline.arrRef spec8 0) j
  congr 1
  funext a; apply Fin.ext
  show 0 * _ + 1 * (j a).val = (j a).val
  omega
theorem iblk8_1 (c : Dev nD) (t : Fin cfg8.N) : iblk8 V c 1 t = V c (Pipeline.arrRef spec8 1) := by
  funext j
  unfold iblk8
  rw [View.read_apply]
  show V c (Pipeline.arrRef spec8 1) (((cfg8.win 1).blk t).view.emb j) = V c (Pipeline.arrRef spec8 1) j
  congr 1
  funext a; apply Fin.ext
  show 0 * _ + 1 * (j a).val = (j a).val
  omega
theorem iblk8_2 (c : Dev nD) (t : Fin cfg8.N) : iblk8 V c 2 t = V c (Pipeline.arrRef spec8 2) := by
  funext j
  unfold iblk8
  rw [View.read_apply]
  show V c (Pipeline.arrRef spec8 2) (((cfg8.win 2).blk t).view.emb j) = V c (Pipeline.arrRef spec8 2) j
  congr 1
  funext a; apply Fin.ext
  show 0 * _ + 1 * (j a).val = (j a).val
  omega
theorem iblk8_3 (c : Dev nD) (t : Fin cfg8.N) : iblk8 V c 3 t = V c (Pipeline.arrRef spec8 3) := by
  funext j
  unfold iblk8
  rw [View.read_apply]
  show V c (Pipeline.arrRef spec8 3) (((cfg8.win 3).blk t).view.emb j) = V c (Pipeline.arrRef spec8 3) j
  congr 1
  funext a; apply Fin.ext
  show 0 * _ + 1 * (j a).val = (j a).val
  omega
theorem iblk8_4 (c : Dev nD) (t : Fin cfg8.N) : iblk8 V c 4 t = V c (Pipeline.arrRef spec8 4) := by
  funext j
  unfold iblk8
  rw [View.read_apply]
  show V c (Pipeline.arrRef spec8 4) (((cfg8.win 4).blk t).view.emb j) = V c (Pipeline.arrRef spec8 4) j
  congr 1
  funext a; apply Fin.ext
  show 0 * _ + 1 * (j a).val = (j a).val
  omega
theorem iblk8_5 (c : Dev nD) (t : Fin cfg8.N) : iblk8 V c 5 t = V c (Pipeline.arrRef spec8 5) := by
  funext j
  unfold iblk8
  rw [View.read_apply]
  show V c (Pipeline.arrRef spec8 5) (((cfg8.win 5).blk t).view.emb j) = V c (Pipeline.arrRef spec8 5) j
  congr 1
  funext a; apply Fin.ext
  show 0 * _ + 1 * (j a).val = (j a).val
  omega
theorem iblk8_6 (c : Dev nD) (t : Fin cfg8.N) : iblk8 V c 6 t = V c (Pipeline.arrRef spec8 6) := by
  funext j
  unfold iblk8
  rw [View.read_apply]
  show V c (Pipeline.arrRef spec8 6) (((cfg8.win 6).blk t).view.emb j) = V c (Pipeline.arrRef spec8 6) j
  congr 1
  funext a; apply Fin.ext
  show 0 * _ + 1 * (j a).val = (j a).val
  omega
theorem iblk8_7 (c : Dev nD) (t : Fin cfg8.N) : iblk8 V c 7 t = V c (Pipeline.arrRef spec8 7) := by
  funext j
  unfold iblk8
  rw [View.read_apply]
  show V c (Pipeline.arrRef spec8 7) (((cfg8.win 7).blk t).view.emb j) = V c (Pipeline.arrRef spec8 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut8_8 (t : Fin cfg8.N) (G : (cfg8.win 8).block.Idx → Elt F (cfg8.win 8).elt) :
    (cfg8.win 8).cut (grid8.coords t) G = ((cfg8.win 8).blk t).view.read (Elt F) G := by
  funext j
  rw [View.read_apply]
  show G ((cfg8.win 8).xinj (grid8.coords t) j) = G (((cfg8.win 8).blk t).view.emb j)
  congr 1
  funext a; apply Fin.ext
  show (j a).val = 0 * _ + 1 * (j a).val
  omega
theorem cut8_9 (t : Fin cfg8.N) (G : (cfg8.win 9).block.Idx → Elt F (cfg8.win 9).elt) :
    (cfg8.win 9).cut (grid8.coords t) G = ((cfg8.win 9).blk t).view.read (Elt F) G := by
  funext j
  rw [View.read_apply]
  show G ((cfg8.win 9).xinj (grid8.coords t) j) = G (((cfg8.win 9).blk t).view.emb j)
  congr 1
  funext a; apply Fin.ext
  show (j a).val = 0 * _ + 1 * (j a).val
  omega
theorem cut8_10 (t : Fin cfg8.N) (G : (cfg8.win 10).block.Idx → Elt F (cfg8.win 10).elt) :
    (cfg8.win 10).cut (grid8.coords t) G = ((cfg8.win 10).blk t).view.read (Elt F) G := by
  funext j
  rw [View.read_apply]
  show G ((cfg8.win 10).xinj (grid8.coords t) j) = G (((cfg8.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover8_8 (c : Dev nD) (i : ((cfg8.win 8).arr.view.loc (c.tc : Thread nD τ)).2.ty.Idx) :
    ∃ t : Fin cfg8.N, (cfg8.win 8).flush t = true ∧ i ∈ ((cfg8.win 8).blk t).view.set := by
  refine ⟨t8_0, flush8_8 t8_0, ?_⟩
  show i ∈ ((View.whole (Pipeline.arrRef spec8 8)).slice ((cfg8.win 8).rect t8_0)).set
  rw [View.set_slice_whole]
  exact View.mem_set_unit_zero (funext fun a => Nat.zero_mul _) _ i
theorem cover8_9 (c : Dev nD) (i : ((cfg8.win 9).arr.view.loc (c.tc : Thread nD τ)).2.ty.Idx) :
    ∃ t : Fin cfg8.N, (cfg8.win 9).flush t = true ∧ i ∈ ((cfg8.win 9).blk t).view.set := by
  refine ⟨t8_0, flush8_9 t8_0, ?_⟩
  show i ∈ ((View.whole (Pipeline.arrRef spec8 9)).slice ((cfg8.win 9).rect t8_0)).set
  rw [View.set_slice_whole]
  exact View.mem_set_unit_zero (funext fun a => Nat.zero_mul _) _ i
theorem cover8_10 (c : Dev nD) (i : ((cfg8.win 10).arr.view.loc (c.tc : Thread nD τ)).2.ty.Idx) :
    ∃ t : Fin cfg8.N, (cfg8.win 10).flush t = true ∧ i ∈ ((cfg8.win 10).blk t).view.set := by
  refine ⟨t8_0, flush8_10 t8_0, ?_⟩
  show i ∈ ((View.whole (Pipeline.arrRef spec8 10)).slice ((cfg8.win 10).rect t8_0)).set
  rw [View.set_slice_whole]
  exact View.mem_set_unit_zero (funext fun a => Nat.zero_mul _) _ i

/-- Each output window's array after the region: the body's result of the input arrays. -/
theorem arr8_8 (c : Dev nD) : (dat8 V c).arrAt 8 cfg8.N
    = out8_8 (V c (Pipeline.arrRef spec8 0)) (V c (Pipeline.arrRef spec8 1)) (V c (Pipeline.arrRef spec8 2))
        (V c (Pipeline.arrRef spec8 5)) (V c (Pipeline.arrRef spec8 6)) := by
  refine (dat8 V c).arrAt_eq_of_cover 8 _ (fun t _ => ?_) (cover8_8 c)
  have h : (dat8 V c).after 8 t
    = out8_8 (V c (Pipeline.arrRef spec8 0)) (V c (Pipeline.arrRef spec8 1)) (V c (Pipeline.arrRef spec8 2))
        (V c (Pipeline.arrRef spec8 5)) (V c (Pipeline.arrRef spec8 6)) := by
    rw [after8_8, iblk8_0, iblk8_1, iblk8_2, iblk8_5, iblk8_6]
  show (cfg8.win 8).cut (grid8.coords t) ((dat8 V c).after 8 t) = _
  rw [h]
  exact cut8_8 t _
theorem arr8_9 (c : Dev nD) : (dat8 V c).arrAt 9 cfg8.N
    = out8_9 (V c (Pipeline.arrRef spec8 1)) (V c (Pipeline.arrRef spec8 2)) (V c (Pipeline.arrRef spec8 3))
        (V c (Pipeline.arrRef spec8 6)) (V c (Pipeline.arrRef spec8 7)) := by
  refine (dat8 V c).arrAt_eq_of_cover 9 _ (fun t _ => ?_) (cover8_9 c)
  have h : (dat8 V c).after 9 t
    = out8_9 (V c (Pipeline.arrRef spec8 1)) (V c (Pipeline.arrRef spec8 2)) (V c (Pipeline.arrRef spec8 3))
        (V c (Pipeline.arrRef spec8 6)) (V c (Pipeline.arrRef spec8 7)) := by
    rw [after8_9, iblk8_1, iblk8_2, iblk8_3, iblk8_6, iblk8_7]
  show (cfg8.win 9).cut (grid8.coords t) ((dat8 V c).after 9 t) = _
  rw [h]
  exact cut8_9 t _
theorem arr8_10 (c : Dev nD) : (dat8 V c).arrAt 10 cfg8.N
    = out8_10 (V c (Pipeline.arrRef spec8 2)) (V c (Pipeline.arrRef spec8 3)) (V c (Pipeline.arrRef spec8 4))
        (V c (Pipeline.arrRef spec8 7)) := by
  refine (dat8 V c).arrAt_eq_of_cover 10 _ (fun t _ => ?_) (cover8_10 c)
  have h : (dat8 V c).after 10 t
    = out8_10 (V c (Pipeline.arrRef spec8 2)) (V c (Pipeline.arrRef spec8 3)) (V c (Pipeline.arrRef spec8 4))
        (V c (Pipeline.arrRef spec8 7)) := by
    rw [after8_10, iblk8_2, iblk8_3, iblk8_4, iblk8_7]
  show (cfg8.win 10).cut (grid8.coords t) ((dat8 V c).after 10 t) = _
  rw [h]
  exact cut8_10 t _

end Cert.KernelIdeal.Reg

end
-- ==== Proof.KIArr7.lean ====
/-
  Region 7's arrays after the region, by name. Every window of this kernel is its whole array and the grid has one point,
  so an input window's block IS its array as the region finds it, and an output window's array after the region IS what
  the body left in its buffer: the body's result of the input arrays.
-/
import proofs.«107956_j75110388073098_1_alg».proof.Proof.KIRegion7
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk7_0 (c : Dev nD) (t : Fin cfg7.N) : iblk7 V c 0 t = V c (Pipeline.arrRef spec7 0) := by
  funext j
  unfold iblk7
  rw [View.read_apply]
  show V c (Pipeline.arrRef spec7 0) (((cfg7.win 0).blk t).view.emb j) = V c (Pipeline.arrRef spec7 0) j
  congr 1
  funext a; apply Fin.ext
  show 0 * _ + 1 * (j a).val = (j a).val
  omega
theorem iblk7_1 (c : Dev nD) (t : Fin cfg7.N) : iblk7 V c 1 t = V c (Pipeline.arrRef spec7 1) := by
  funext j
  unfold iblk7
  rw [View.read_apply]
  show V c (Pipeline.arrRef spec7 1) (((cfg7.win 1).blk t).view.emb j) = V c (Pipeline.arrRef spec7 1) j
  congr 1
  funext a; apply Fin.ext
  show 0 * _ + 1 * (j a).val = (j a).val
  omega
theorem iblk7_2 (c : Dev nD) (t : Fin cfg7.N) : iblk7 V c 2 t = V c (Pipeline.arrRef spec7 2) := by
  funext j
  unfold iblk7
  rw [View.read_apply]
  show V c (Pipeline.arrRef spec7 2) (((cfg7.win 2).blk t).view.emb j) = V c (Pipeline.arrRef spec7 2) j
  congr 1
  funext a; apply Fin.ext
  show 0 * _ + 1 * (j a).val = (j a).val
  omega
theorem iblk7_3 (c : Dev nD) (t : Fin cfg7.N) : iblk7 V c 3 t = V c (Pipeline.arrRef spec7 3) := by
  funext j
  unfold iblk7
  rw [View.read_apply]
  show V c (Pipeline.arrRef spec7 3) (((cfg7.win 3).blk t).view.emb j) = V c (Pipeline.arrRef spec7 3) j
  congr 1
  funext a; apply Fin.ext
  show 0 * _ + 1 * (j a).val = (j a).val
  omega
theorem iblk7_4 (c : Dev nD) (t : Fin cfg7.N) : iblk7 V c 4 t = V c (Pipeline.arrRef spec7 4) := by
  funext j
  unfold iblk7
  rw [View.read_apply]
  show V c (Pipeline.arrRef spec7 4) (((cfg7.win 4).blk t).view.emb j) = V c (Pipeline.arrRef spec7 4) j
  congr 1
  funext a; apply Fin.ext
  show 0 * _ + 1 * (j a).val = (j a).val
  omega
theorem iblk7_5 (c : Dev nD) (t : Fin cfg7.N) : iblk7 V c 5 t = V c (Pipeline.arrRef spec7 5) := by
  funext j
  unfold iblk7
  rw [View.read_apply]
  show V c (Pipeline.arrRef spec7 5) (((cfg7.win 5).blk t).view.emb j) = V c (Pipeline.arrRef spec7 5) j
  congr 1
  funext a; apply Fin.ext
  show 0 * _ + 1 * (j a).val = (j a).val
  omega
theorem iblk7_6 (c : Dev nD) (t : Fin cfg7.N) : iblk7 V c 6 t = V c (Pipeline.arrRef spec7 6) := by
  funext j
  unfold iblk7
  rw [View.read_apply]
  show V c (Pipeline.arrRef spec7 6) (((cfg7.win 6).blk t).view.emb j) = V c (Pipeline.arrRef spec7 6) j
  congr 1
  funext a; apply Fin.ext
  show 0 * _ + 1 * (j a).val = (j a).val
  omega
theorem iblk7_7 (c : Dev nD) (t : Fin cfg7.N) : iblk7 V c 7 t = V c (Pipeline.arrRef spec7 7) := by
  funext j
  unfold iblk7
  rw [View.read_apply]
  show V c (Pipeline.arrRef spec7 7) (((cfg7.win 7).blk t).view.emb j) = V c (Pipeline.arrRef spec7 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut7_8 (t : Fin cfg7.N) (G : (cfg7.win 8).block.Idx → Elt F (cfg7.win 8).elt) :
    (cfg7.win 8).cut (grid7.coords t) G = ((cfg7.win 8).blk t).view.read (Elt F) G := by
  funext j
  rw [View.read_apply]
  show G ((cfg7.win 8).xinj (grid7.coords t) j) = G (((cfg7.win 8).blk t).view.emb j)
  congr 1
  funext a; apply Fin.ext
  show (j a).val = 0 * _ + 1 * (j a).val
  omega
theorem cut7_9 (t : Fin cfg7.N) (G : (cfg7.win 9).block.Idx → Elt F (cfg7.win 9).elt) :
    (cfg7.win 9).cut (grid7.coords t) G = ((cfg7.win 9).blk t).view.read (Elt F) G := by
  funext j
  rw [View.read_apply]
  show G ((cfg7.win 9).xinj (grid7.coords t) j) = G (((cfg7.win 9).blk t).view.emb j)
  congr 1
  funext a; apply Fin.ext
  show (j a).val = 0 * _ + 1 * (j a).val
  omega
theorem cut7_10 (t : Fin cfg7.N) (G : (cfg7.win 10).block.Idx → Elt F (cfg7.win 10).elt) :
    (cfg7.win 10).cut (grid7.coords t) G = ((cfg7.win 10).blk t).view.read (Elt F) G := by
  funext j
  rw [View.read_apply]
  show G ((cfg7.win 10).xinj (grid7.coords t) j) = G (((cfg7.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover7_8 (c : Dev nD) (i : ((cfg7.win 8).arr.view.loc (c.tc : Thread nD τ)).2.ty.Idx) :
    ∃ t : Fin cfg7.N, (cfg7.win 8).flush t = true ∧ i ∈ ((cfg7.win 8).blk t).view.set := by
  refine ⟨t7_0, flush7_8 t7_0, ?_⟩
  show i ∈ ((View.whole (Pipeline.arrRef spec7 8)).slice ((cfg7.win 8).rect t7_0)).set
  rw [View.set_slice_whole]
  exact View.mem_set_unit_zero (funext fun a => Nat.zero_mul _) _ i
theorem cover7_9 (c : Dev nD) (i : ((cfg7.win 9).arr.view.loc (c.tc : Thread nD τ)).2.ty.Idx) :
    ∃ t : Fin cfg7.N, (cfg7.win 9).flush t = true ∧ i ∈ ((cfg7.win 9).blk t).view.set := by
  refine ⟨t7_0, flush7_9 t7_0, ?_⟩
  show i ∈ ((View.whole (Pipeline.arrRef spec7 9)).slice ((cfg7.win 9).rect t7_0)).set
  rw [View.set_slice_whole]
  exact View.mem_set_unit_zero (funext fun a => Nat.zero_mul _) _ i
theorem cover7_10 (c : Dev nD) (i : ((cfg7.win 10).arr.view.loc (c.tc : Thread nD τ)).2.ty.Idx) :
    ∃ t : Fin cfg7.N, (cfg7.win 10).flush t = true ∧ i ∈ ((cfg7.win 10).blk t).view.set := by
  refine ⟨t7_0, flush7_10 t7_0, ?_⟩
  show i ∈ ((View.whole (Pipeline.arrRef spec7 10)).slice ((cfg7.win 10).rect t7_0)).set
  rw [View.set_slice_whole]
  exact View.mem_set_unit_zero (funext fun a => Nat.zero_mul _) _ i

/-- Each output window's array after the region: the body's result of the input arrays. -/
theorem arr7_8 (c : Dev nD) : (dat7 V c).arrAt 8 cfg7.N
    = out7_8 (V c (Pipeline.arrRef spec7 0)) (V c (Pipeline.arrRef spec7 1)) (V c (Pipeline.arrRef spec7 2))
        (V c (Pipeline.arrRef spec7 5)) (V c (Pipeline.arrRef spec7 6)) := by
  refine (dat7 V c).arrAt_eq_of_cover 8 _ (fun t _ => ?_) (cover7_8 c)
  have h : (dat7 V c).after 8 t
    = out7_8 (V c (Pipeline.arrRef spec7 0)) (V c (Pipeline.arrRef spec7 1)) (V c (Pipeline.arrRef spec7 2))
        (V c (Pipeline.arrRef spec7 5)) (V c (Pipeline.arrRef spec7 6)) := by
    rw [after7_8, iblk7_0, iblk7_1, iblk7_2, iblk7_5, iblk7_6]
  show (cfg7.win 8).cut (grid7.coords t) ((dat7 V c).after 8 t) = _
  rw [h]
  exact cut7_8 t _
theorem arr7_9 (c : Dev nD) : (dat7 V c).arrAt 9 cfg7.N
    = out7_9 (V c (Pipeline.arrRef spec7 1)) (V c (Pipeline.arrRef spec7 2)) (V c (Pipeline.arrRef spec7 3))
        (V c (Pipeline.arrRef spec7 6)) (V c (Pipeline.arrRef spec7 7)) := by
  refine (dat7 V c).arrAt_eq_of_cover 9 _ (fun t _ => ?_) (cover7_9 c)
  have h : (dat7 V c).after 9 t
    = out7_9 (V c (Pipeline.arrRef spec7 1)) (V c (Pipeline.arrRef spec7 2)) (V c (Pipeline.arrRef spec7 3))
        (V c (Pipeline.arrRef spec7 6)) (V c (Pipeline.arrRef spec7 7)) := by
    rw [after7_9, iblk7_1, iblk7_2, iblk7_3, iblk7_6, iblk7_7]
  show (cfg7.win 9).cut (grid7.coords t) ((dat7 V c).after 9 t) = _
  rw [h]
  exact cut7_9 t _
theorem arr7_10 (c : Dev nD) : (dat7 V c).arrAt 10 cfg7.N
    = out7_10 (V c (Pipeline.arrRef spec7 2)) (V c (Pipeline.arrRef spec7 3)) (V c (Pipeline.arrRef spec7 4))
        (V c (Pipeline.arrRef spec7 7)) := by
  refine (dat7 V c).arrAt_eq_of_cover 10 _ (fun t _ => ?_) (cover7_10 c)
  have h : (dat7 V c).after 10 t
    = out7_10 (V c (Pipeline.arrRef spec7 2)) (V c (Pipeline.arrRef spec7 3)) (V c (Pipeline.arrRef spec7 4))
        (V c (Pipeline.arrRef spec7 7)) := by
    rw [after7_10, iblk7_2, iblk7_3, iblk7_4, iblk7_7]
  show (cfg7.win 10).cut (grid7.coords t) ((dat7 V c).after 10 t) = _
  rw [h]
  exact cut7_10 t _

end Cert.KernelIdeal.Reg

end
-- ==== Proof.KIArr6.lean ====
/-
  Region 6's arrays after the region, by name. Every window of this kernel is its whole array and the grid has one point,
  so an input window's block IS its array as the region finds it, and an output window's array after the region IS what
  the body left in its buffer: the body's result of the input arrays.
-/
import proofs.«107956_j75110388073098_1_alg».proof.Proof.KIRegion6
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk6_0 (c : Dev nD) (t : Fin cfg6.N) : iblk6 V c 0 t = V c (Pipeline.arrRef spec6 0) := by
  funext j
  unfold iblk6
  rw [View.read_apply]
  show V c (Pipeline.arrRef spec6 0) (((cfg6.win 0).blk t).view.emb j) = V c (Pipeline.arrRef spec6 0) j
  congr 1
  funext a; apply Fin.ext
  show 0 * _ + 1 * (j a).val = (j a).val
  omega
theorem iblk6_1 (c : Dev nD) (t : Fin cfg6.N) : iblk6 V c 1 t = V c (Pipeline.arrRef spec6 1) := by
  funext j
  unfold iblk6
  rw [View.read_apply]
  show V c (Pipeline.arrRef spec6 1) (((cfg6.win 1).blk t).view.emb j) = V c (Pipeline.arrRef spec6 1) j
  congr 1
  funext a; apply Fin.ext
  show 0 * _ + 1 * (j a).val = (j a).val
  omega
theorem iblk6_2 (c : Dev nD) (t : Fin cfg6.N) : iblk6 V c 2 t = V c (Pipeline.arrRef spec6 2) := by
  funext j
  unfold iblk6
  rw [View.read_apply]
  show V c (Pipeline.arrRef spec6 2) (((cfg6.win 2).blk t).view.emb j) = V c (Pipeline.arrRef spec6 2) j
  congr 1
  funext a; apply Fin.ext
  show 0 * _ + 1 * (j a).val = (j a).val
  omega
theorem iblk6_3 (c : Dev nD) (t : Fin cfg6.N) : iblk6 V c 3 t = V c (Pipeline.arrRef spec6 3) := by
  funext j
  unfold iblk6
  rw [View.read_apply]
  show V c (Pipeline.arrRef spec6 3) (((cfg6.win 3).blk t).view.emb j) = V c (Pipeline.arrRef spec6 3) j
  congr 1
  funext a; apply Fin.ext
  show 0 * _ + 1 * (j a).val = (j a).val
  omega
theorem iblk6_4 (c : Dev nD) (t : Fin cfg6.N) : iblk6 V c 4 t = V c (Pipeline.arrRef spec6 4) := by
  funext j
  unfold iblk6
  rw [View.read_apply]
  show V c (Pipeline.arrRef spec6 4) (((cfg6.win 4).blk t).view.emb j) = V c (Pipeline.arrRef spec6 4) j
  congr 1
  funext a; apply Fin.ext
  show 0 * _ + 1 * (j a).val = (j a).val
  omega
theorem iblk6_5 (c : Dev nD) (t : Fin cfg6.N) : iblk6 V c 5 t = V c (Pipeline.arrRef spec6 5) := by
  funext j
  unfold iblk6
  rw [View.read_apply]
  show V c (Pipeline.arrRef spec6 5) (((cfg6.win 5).blk t).view.emb j) = V c (Pipeline.arrRef spec6 5) j
  congr 1
  funext a; apply Fin.ext
  show 0 * _ + 1 * (j a).val = (j a).val
  omega
theorem iblk6_6 (c : Dev nD) (t : Fin cfg6.N) : iblk6 V c 6 t = V c (Pipeline.arrRef spec6 6) := by
  funext j
  unfold iblk6
  rw [View.read_apply]
  show V c (Pipeline.arrRef spec6 6) (((cfg6.win 6).blk t).view.emb j) = V c (Pipeline.arrRef spec6 6) j
  congr 1
  funext a; apply Fin.ext
  show 0 * _ + 1 * (j a).val = (j a).val
  omega
theorem iblk6_7 (c : Dev nD) (t : Fin cfg6.N) : iblk6 V c 7 t = V c (Pipeline.arrRef spec6 7) := by
  funext j
  unfold iblk6
  rw [View.read_apply]
  show V c (Pipeline.arrRef spec6 7) (((cfg6.win 7).blk t).view.emb j) = V c (Pipeline.arrRef spec6 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut6_8 (t : Fin cfg6.N) (G : (cfg6.win 8).block.Idx → Elt F (cfg6.win 8).elt) :
    (cfg6.win 8).cut (grid6.coords t) G = ((cfg6.win 8).blk t).view.read (Elt F) G := by
  funext j
  rw [View.read_apply]
  show G ((cfg6.win 8).xinj (grid6.coords t) j) = G (((cfg6.win 8).blk t).view.emb j)
  congr 1
  funext a; apply Fin.ext
  show (j a).val = 0 * _ + 1 * (j a).val
  omega
theorem cut6_9 (t : Fin cfg6.N) (G : (cfg6.win 9).block.Idx → Elt F (cfg6.win 9).elt) :
    (cfg6.win 9).cut (grid6.coords t) G = ((cfg6.win 9).blk t).view.read (Elt F) G := by
  funext j
  rw [View.read_apply]
  show G ((cfg6.win 9).xinj (grid6.coords t) j) = G (((cfg6.win 9).blk t).view.emb j)
  congr 1
  funext a; apply Fin.ext
  show (j a).val = 0 * _ + 1 * (j a).val
  omega
theorem cut6_10 (t : Fin cfg6.N) (G : (cfg6.win 10).block.Idx → Elt F (cfg6.win 10).elt) :
    (cfg6.win 10).cut (grid6.coords t) G = ((cfg6.win 10).blk t).view.read (Elt F) G := by
  funext j
  rw [View.read_apply]
  show G ((cfg6.win 10).xinj (grid6.coords t) j) = G (((cfg6.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover6_8 (c : Dev nD) (i : ((cfg6.win 8).arr.view.loc (c.tc : Thread nD τ)).2.ty.Idx) :
    ∃ t : Fin cfg6.N, (cfg6.win 8).flush t = true ∧ i ∈ ((cfg6.win 8).blk t).view.set := by
  refine ⟨t6_0, flush6_8 t6_0, ?_⟩
  show i ∈ ((View.whole (Pipeline.arrRef spec6 8)).slice ((cfg6.win 8).rect t6_0)).set
  rw [View.set_slice_whole]
  exact View.mem_set_unit_zero (funext fun a => Nat.zero_mul _) _ i
theorem cover6_9 (c : Dev nD) (i : ((cfg6.win 9).arr.view.loc (c.tc : Thread nD τ)).2.ty.Idx) :
    ∃ t : Fin cfg6.N, (cfg6.win 9).flush t = true ∧ i ∈ ((cfg6.win 9).blk t).view.set := by
  refine ⟨t6_0, flush6_9 t6_0, ?_⟩
  show i ∈ ((View.whole (Pipeline.arrRef spec6 9)).slice ((cfg6.win 9).rect t6_0)).set
  rw [View.set_slice_whole]
  exact View.mem_set_unit_zero (funext fun a => Nat.zero_mul _) _ i
theorem cover6_10 (c : Dev nD) (i : ((cfg6.win 10).arr.view.loc (c.tc : Thread nD τ)).2.ty.Idx) :
    ∃ t : Fin cfg6.N, (cfg6.win 10).flush t = true ∧ i ∈ ((cfg6.win 10).blk t).view.set := by
  refine ⟨t6_0, flush6_10 t6_0, ?_⟩
  show i ∈ ((View.whole (Pipeline.arrRef spec6 10)).slice ((cfg6.win 10).rect t6_0)).set
  rw [View.set_slice_whole]
  exact View.mem_set_unit_zero (funext fun a => Nat.zero_mul _) _ i

/-- Each output window's array after the region: the body's result of the input arrays. -/
theorem arr6_8 (c : Dev nD) : (dat6 V c).arrAt 8 cfg6.N
    = out6_8 (V c (Pipeline.arrRef spec6 0)) (V c (Pipeline.arrRef spec6 1)) (V c (Pipeline.arrRef spec6 2))
        (V c (Pipeline.arrRef spec6 5)) (V c (Pipeline.arrRef spec6 6)) := by
  refine (dat6 V c).arrAt_eq_of_cover 8 _ (fun t _ => ?_) (cover6_8 c)
  have h : (dat6 V c).after 8 t
    = out6_8 (V c (Pipeline.arrRef spec6 0)) (V c (Pipeline.arrRef spec6 1)) (V c (Pipeline.arrRef spec6 2))
        (V c (Pipeline.arrRef spec6 5)) (V c (Pipeline.arrRef spec6 6)) := by
    rw [after6_8, iblk6_0, iblk6_1, iblk6_2, iblk6_5, iblk6_6]
  show (cfg6.win 8).cut (grid6.coords t) ((dat6 V c).after 8 t) = _
  rw [h]
  exact cut6_8 t _
theorem arr6_9 (c : Dev nD) : (dat6 V c).arrAt 9 cfg6.N
    = out6_9 (V c (Pipeline.arrRef spec6 1)) (V c (Pipeline.arrRef spec6 2)) (V c (Pipeline.arrRef spec6 3))
        (V c (Pipeline.arrRef spec6 6)) (V c (Pipeline.arrRef spec6 7)) := by
  refine (dat6 V c).arrAt_eq_of_cover 9 _ (fun t _ => ?_) (cover6_9 c)
  have h : (dat6 V c).after 9 t
    = out6_9 (V c (Pipeline.arrRef spec6 1)) (V c (Pipeline.arrRef spec6 2)) (V c (Pipeline.arrRef spec6 3))
        (V c (Pipeline.arrRef spec6 6)) (V c (Pipeline.arrRef spec6 7)) := by
    rw [after6_9, iblk6_1, iblk6_2, iblk6_3, iblk6_6, iblk6_7]
  show (cfg6.win 9).cut (grid6.coords t) ((dat6 V c).after 9 t) = _
  rw [h]
  exact cut6_9 t _
theorem arr6_10 (c : Dev nD) : (dat6 V c).arrAt 10 cfg6.N
    = out6_10 (V c (Pipeline.arrRef spec6 2)) (V c (Pipeline.arrRef spec6 3)) (V c (Pipeline.arrRef spec6 4))
        (V c (Pipeline.arrRef spec6 7)) := by
  refine (dat6 V c).arrAt_eq_of_cover 10 _ (fun t _ => ?_) (cover6_10 c)
  have h : (dat6 V c).after 10 t
    = out6_10 (V c (Pipeline.arrRef spec6 2)) (V c (Pipeline.arrRef spec6 3)) (V c (Pipeline.arrRef spec6 4))
        (V c (Pipeline.arrRef spec6 7)) := by
    rw [after6_10, iblk6_2, iblk6_3, iblk6_4, iblk6_7]
  show (cfg6.win 10).cut (grid6.coords t) ((dat6 V c).after 10 t) = _
  rw [h]
  exact cut6_10 t _

end Cert.KernelIdeal.Reg

end
-- ==== Proof.KIArr5.lean ====
/-
  Region 5's arrays after the region, by name. Every window of this kernel is its whole array and the grid has one point,
  so an input window's block IS its array as the region finds it, and an output window's array after the region IS what
  the body left in its buffer: the body's result of the input arrays.
-/
import proofs.«107956_j75110388073098_1_alg».proof.Proof.KIRegion5
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk5_0 (c : Dev nD) (t : Fin cfg5.N) : iblk5 V c 0 t = V c (Pipeline.arrRef spec5 0) := by
  funext j
  unfold iblk5
  rw [View.read_apply]
  show V c (Pipeline.arrRef spec5 0) (((cfg5.win 0).blk t).view.emb j) = V c (Pipeline.arrRef spec5 0) j
  congr 1
  funext a; apply Fin.ext
  show 0 * _ + 1 * (j a).val = (j a).val
  omega
theorem iblk5_1 (c : Dev nD) (t : Fin cfg5.N) : iblk5 V c 1 t = V c (Pipeline.arrRef spec5 1) := by
  funext j
  unfold iblk5
  rw [View.read_apply]
  show V c (Pipeline.arrRef spec5 1) (((cfg5.win 1).blk t).view.emb j) = V c (Pipeline.arrRef spec5 1) j
  congr 1
  funext a; apply Fin.ext
  show 0 * _ + 1 * (j a).val = (j a).val
  omega
theorem iblk5_2 (c : Dev nD) (t : Fin cfg5.N) : iblk5 V c 2 t = V c (Pipeline.arrRef spec5 2) := by
  funext j
  unfold iblk5
  rw [View.read_apply]
  show V c (Pipeline.arrRef spec5 2) (((cfg5.win 2).blk t).view.emb j) = V c (Pipeline.arrRef spec5 2) j
  congr 1
  funext a; apply Fin.ext
  show 0 * _ + 1 * (j a).val = (j a).val
  omega
theorem iblk5_3 (c : Dev nD) (t : Fin cfg5.N) : iblk5 V c 3 t = V c (Pipeline.arrRef spec5 3) := by
  funext j
  unfold iblk5
  rw [View.read_apply]
  show V c (Pipeline.arrRef spec5 3) (((cfg5.win 3).blk t).view.emb j) = V c (Pipeline.arrRef spec5 3) j
  congr 1
  funext a; apply Fin.ext
  show 0 * _ + 1 * (j a).val = (j a).val
  omega
theorem iblk5_4 (c : Dev nD) (t : Fin cfg5.N) : iblk5 V c 4 t = V c (Pipeline.arrRef spec5 4) := by
  funext j
  unfold iblk5
  rw [View.read_apply]
  show V c (Pipeline.arrRef spec5 4) (((cfg5.win 4).blk t).view.emb j) = V c (Pipeline.arrRef spec5 4) j
  congr 1
  funext a; apply Fin.ext
  show 0 * _ + 1 * (j a).val = (j a).val
  omega
theorem iblk5_5 (c : Dev nD) (t : Fin cfg5.N) : iblk5 V c 5 t = V c (Pipeline.arrRef spec5 5) := by
  funext j
  unfold iblk5
  rw [View.read_apply]
  show V c (Pipeline.arrRef spec5 5) (((cfg5.win 5).blk t).view.emb j) = V c (Pipeline.arrRef spec5 5) j
  congr 1
  funext a; apply Fin.ext
  show 0 * _ + 1 * (j a).val = (j a).val
  omega
theorem iblk5_6 (c : Dev nD) (t : Fin cfg5.N) : iblk5 V c 6 t = V c (Pipeline.arrRef spec5 6) := by
  funext j
  unfold iblk5
  rw [View.read_apply]
  show V c (Pipeline.arrRef spec5 6) (((cfg5.win 6).blk t).view.emb j) = V c (Pipeline.arrRef spec5 6) j
  congr 1
  funext a; apply Fin.ext
  show 0 * _ + 1 * (j a).val = (j a).val
  omega
theorem iblk5_7 (c : Dev nD) (t : Fin cfg5.N) : iblk5 V c 7 t = V c (Pipeline.arrRef spec5 7) := by
  funext j
  unfold iblk5
  rw [View.read_apply]
  show V c (Pipeline.arrRef spec5 7) (((cfg5.win 7).blk t).view.emb j) = V c (Pipeline.arrRef spec5 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut5_8 (t : Fin cfg5.N) (G : (cfg5.win 8).block.Idx → Elt F (cfg5.win 8).elt) :
    (cfg5.win 8).cut (grid5.coords t) G = ((cfg5.win 8).blk t).view.read (Elt F) G := by
  funext j
  rw [View.read_apply]
  show G ((cfg5.win 8).xinj (grid5.coords t) j) = G (((cfg5.win 8).blk t).view.emb j)
  congr 1
  funext a; apply Fin.ext
  show (j a).val = 0 * _ + 1 * (j a).val
  omega
theorem cut5_9 (t : Fin cfg5.N) (G : (cfg5.win 9).block.Idx → Elt F (cfg5.win 9).elt) :
    (cfg5.win 9).cut (grid5.coords t) G = ((cfg5.win 9).blk t).view.read (Elt F) G := by
  funext j
  rw [View.read_apply]
  show G ((cfg5.win 9).xinj (grid5.coords t) j) = G (((cfg5.win 9).blk t).view.emb j)
  congr 1
  funext a; apply Fin.ext
  show (j a).val = 0 * _ + 1 * (j a).val
  omega
theorem cut5_10 (t : Fin cfg5.N) (G : (cfg5.win 10).block.Idx → Elt F (cfg5.win 10).elt) :
    (cfg5.win 10).cut (grid5.coords t) G = ((cfg5.win 10).blk t).view.read (Elt F) G := by
  funext j
  rw [View.read_apply]
  show G ((cfg5.win 10).xinj (grid5.coords t) j) = G (((cfg5.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover5_8 (c : Dev nD) (i : ((cfg5.win 8).arr.view.loc (c.tc : Thread nD τ)).2.ty.Idx) :
    ∃ t : Fin cfg5.N, (cfg5.win 8).flush t = true ∧ i ∈ ((cfg5.win 8).blk t).view.set := by
  refine ⟨t5_0, flush5_8 t5_0, ?_⟩
  show i ∈ ((View.whole (Pipeline.arrRef spec5 8)).slice ((cfg5.win 8).rect t5_0)).set
  rw [View.set_slice_whole]
  exact View.mem_set_unit_zero (funext fun a => Nat.zero_mul _) _ i
theorem cover5_9 (c : Dev nD) (i : ((cfg5.win 9).arr.view.loc (c.tc : Thread nD τ)).2.ty.Idx) :
    ∃ t : Fin cfg5.N, (cfg5.win 9).flush t = true ∧ i ∈ ((cfg5.win 9).blk t).view.set := by
  refine ⟨t5_0, flush5_9 t5_0, ?_⟩
  show i ∈ ((View.whole (Pipeline.arrRef spec5 9)).slice ((cfg5.win 9).rect t5_0)).set
  rw [View.set_slice_whole]
  exact View.mem_set_unit_zero (funext fun a => Nat.zero_mul _) _ i
theorem cover5_10 (c : Dev nD) (i : ((cfg5.win 10).arr.view.loc (c.tc : Thread nD τ)).2.ty.Idx) :
    ∃ t : Fin cfg5.N, (cfg5.win 10).flush t = true ∧ i ∈ ((cfg5.win 10).blk t).view.set := by
  refine ⟨t5_0, flush5_10 t5_0, ?_⟩
  show i ∈ ((View.whole (Pipeline.arrRef spec5 10)).slice ((cfg5.win 10).rect t5_0)).set
  rw [View.set_slice_whole]
  exact View.mem_set_unit_zero (funext fun a => Nat.zero_mul _) _ i

/-- Each output window's array after the region: the body's result of the input arrays. -/
theorem arr5_8 (c : Dev nD) : (dat5 V c).arrAt 8 cfg5.N
    = out5_8 (V c (Pipeline.arrRef spec5 0)) (V c (Pipeline.arrRef spec5 1)) (V c (Pipeline.arrRef spec5 2))
        (V c (Pipeline.arrRef spec5 5)) (V c (Pipeline.arrRef spec5 6)) := by
  refine (dat5 V c).arrAt_eq_of_cover 8 _ (fun t _ => ?_) (cover5_8 c)
  have h : (dat5 V c).after 8 t
    = out5_8 (V c (Pipeline.arrRef spec5 0)) (V c (Pipeline.arrRef spec5 1)) (V c (Pipeline.arrRef spec5 2))
        (V c (Pipeline.arrRef spec5 5)) (V c (Pipeline.arrRef spec5 6)) := by
    rw [after5_8, iblk5_0, iblk5_1, iblk5_2, iblk5_5, iblk5_6]
  show (cfg5.win 8).cut (grid5.coords t) ((dat5 V c).after 8 t) = _
  rw [h]
  exact cut5_8 t _
theorem arr5_9 (c : Dev nD) : (dat5 V c).arrAt 9 cfg5.N
    = out5_9 (V c (Pipeline.arrRef spec5 1)) (V c (Pipeline.arrRef spec5 2)) (V c (Pipeline.arrRef spec5 3))
        (V c (Pipeline.arrRef spec5 6)) (V c (Pipeline.arrRef spec5 7)) := by
  refine (dat5 V c).arrAt_eq_of_cover 9 _ (fun t _ => ?_) (cover5_9 c)
  have h : (dat5 V c).after 9 t
    = out5_9 (V c (Pipeline.arrRef spec5 1)) (V c (Pipeline.arrRef spec5 2)) (V c (Pipeline.arrRef spec5 3))
        (V c (Pipeline.arrRef spec5 6)) (V c (Pipeline.arrRef spec5 7)) := by
    rw [after5_9, iblk5_1, iblk5_2, iblk5_3, iblk5_6, iblk5_7]
  show (cfg5.win 9).cut (grid5.coords t) ((dat5 V c).after 9 t) = _
  rw [h]
  exact cut5_9 t _
theorem arr5_10 (c : Dev nD) : (dat5 V c).arrAt 10 cfg5.N
    = out5_10 (V c (Pipeline.arrRef spec5 2)) (V c (Pipeline.arrRef spec5 3)) (V c (Pipeline.arrRef spec5 4))
        (V c (Pipeline.arrRef spec5 7)) := by
  refine (dat5 V c).arrAt_eq_of_cover 10 _ (fun t _ => ?_) (cover5_10 c)
  have h : (dat5 V c).after 10 t
    = out5_10 (V c (Pipeline.arrRef spec5 2)) (V c (Pipeline.arrRef spec5 3)) (V c (Pipeline.arrRef spec5 4))
        (V c (Pipeline.arrRef spec5 7)) := by
    rw [after5_10, iblk5_2, iblk5_3, iblk5_4, iblk5_7]
  show (cfg5.win 10).cut (grid5.coords t) ((dat5 V c).after 10 t) = _
  rw [h]
  exact cut5_10 t _

end Cert.KernelIdeal.Reg

end
-- ==== Proof.KIArr4.lean ====
/-
  Region 4's arrays after the region, by name. Every window of this kernel is its whole array and the grid has one point,
  so an input window's block IS its array as the region finds it, and an output window's array after the region IS what
  the body left in its buffer: the body's result of the input arrays.
-/
import proofs.«107956_j75110388073098_1_alg».proof.Proof.KIRegion4
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk4_0 (c : Dev nD) (t : Fin cfg4.N) : iblk4 V c 0 t = V c (Pipeline.arrRef spec4 0) := by
  funext j
  unfold iblk4
  rw [View.read_apply]
  show V c (Pipeline.arrRef spec4 0) (((cfg4.win 0).blk t).view.emb j) = V c (Pipeline.arrRef spec4 0) j
  congr 1
  funext a; apply Fin.ext
  show 0 * _ + 1 * (j a).val = (j a).val
  omega
theorem iblk4_1 (c : Dev nD) (t : Fin cfg4.N) : iblk4 V c 1 t = V c (Pipeline.arrRef spec4 1) := by
  funext j
  unfold iblk4
  rw [View.read_apply]
  show V c (Pipeline.arrRef spec4 1) (((cfg4.win 1).blk t).view.emb j) = V c (Pipeline.arrRef spec4 1) j
  congr 1
  funext a; apply Fin.ext
  show 0 * _ + 1 * (j a).val = (j a).val
  omega
theorem iblk4_2 (c : Dev nD) (t : Fin cfg4.N) : iblk4 V c 2 t = V c (Pipeline.arrRef spec4 2) := by
  funext j
  unfold iblk4
  rw [View.read_apply]
  show V c (Pipeline.arrRef spec4 2) (((cfg4.win 2).blk t).view.emb j) = V c (Pipeline.arrRef spec4 2) j
  congr 1
  funext a; apply Fin.ext
  show 0 * _ + 1 * (j a).val = (j a).val
  omega
theorem iblk4_3 (c : Dev nD) (t : Fin cfg4.N) : iblk4 V c 3 t = V c (Pipeline.arrRef spec4 3) := by
  funext j
  unfold iblk4
  rw [View.read_apply]
  show V c (Pipeline.arrRef spec4 3) (((cfg4.win 3).blk t).view.emb j) = V c (Pipeline.arrRef spec4 3) j
  congr 1
  funext a; apply Fin.ext
  show 0 * _ + 1 * (j a).val = (j a).val
  omega
theorem iblk4_4 (c : Dev nD) (t : Fin cfg4.N) : iblk4 V c 4 t = V c (Pipeline.arrRef spec4 4) := by
  funext j
  unfold iblk4
  rw [View.read_apply]
  show V c (Pipeline.arrRef spec4 4) (((cfg4.win 4).blk t).view.emb j) = V c (Pipeline.arrRef spec4 4) j
  congr 1
  funext a; apply Fin.ext
  show 0 * _ + 1 * (j a).val = (j a).val
  omega
theorem iblk4_5 (c : Dev nD) (t : Fin cfg4.N) : iblk4 V c 5 t = V c (Pipeline.arrRef spec4 5) := by
  funext j
  unfold iblk4
  rw [View.read_apply]
  show V c (Pipeline.arrRef spec4 5) (((cfg4.win 5).blk t).view.emb j) = V c (Pipeline.arrRef spec4 5) j
  congr 1
  funext a; apply Fin.ext
  show 0 * _ + 1 * (j a).val = (j a).val
  omega
theorem iblk4_6 (c : Dev nD) (t : Fin cfg4.N) : iblk4 V c 6 t = V c (Pipeline.arrRef spec4 6) := by
  funext j
  unfold iblk4
  rw [View.read_apply]
  show V c (Pipeline.arrRef spec4 6) (((cfg4.win 6).blk t).view.emb j) = V c (Pipeline.arrRef spec4 6) j
  congr 1
  funext a; apply Fin.ext
  show 0 * _ + 1 * (j a).val = (j a).val
  omega
theorem iblk4_7 (c : Dev nD) (t : Fin cfg4.N) : iblk4 V c 7 t = V c (Pipeline.arrRef spec4 7) := by
  funext j
  unfold iblk4
  rw [View.read_apply]
  show V c (Pipeline.arrRef spec4 7) (((cfg4.win 7).blk t).view.emb j) = V c (Pipeline.arrRef spec4 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut4_8 (t : Fin cfg4.N) (G : (cfg4.win 8).block.Idx → Elt F (cfg4.win 8).elt) :
    (cfg4.win 8).cut (grid4.coords t) G = ((cfg4.win 8).blk t).view.read (Elt F) G := by
  funext j
  rw [View.read_apply]
  show G ((cfg4.win 8).xinj (grid4.coords t) j) = G (((cfg4.win 8).blk t).view.emb j)
  congr 1
  funext a; apply Fin.ext
  show (j a).val = 0 * _ + 1 * (j a).val
  omega
theorem cut4_9 (t : Fin cfg4.N) (G : (cfg4.win 9).block.Idx → Elt F (cfg4.win 9).elt) :
    (cfg4.win 9).cut (grid4.coords t) G = ((cfg4.win 9).blk t).view.read (Elt F) G := by
  funext j
  rw [View.read_apply]
  show G ((cfg4.win 9).xinj (grid4.coords t) j) = G (((cfg4.win 9).blk t).view.emb j)
  congr 1
  funext a; apply Fin.ext
  show (j a).val = 0 * _ + 1 * (j a).val
  omega
theorem cut4_10 (t : Fin cfg4.N) (G : (cfg4.win 10).block.Idx → Elt F (cfg4.win 10).elt) :
    (cfg4.win 10).cut (grid4.coords t) G = ((cfg4.win 10).blk t).view.read (Elt F) G := by
  funext j
  rw [View.read_apply]
  show G ((cfg4.win 10).xinj (grid4.coords t) j) = G (((cfg4.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover4_8 (c : Dev nD) (i : ((cfg4.win 8).arr.view.loc (c.tc : Thread nD τ)).2.ty.Idx) :
    ∃ t : Fin cfg4.N, (cfg4.win 8).flush t = true ∧ i ∈ ((cfg4.win 8).blk t).view.set := by
  refine ⟨t4_0, flush4_8 t4_0, ?_⟩
  show i ∈ ((View.whole (Pipeline.arrRef spec4 8)).slice ((cfg4.win 8).rect t4_0)).set
  rw [View.set_slice_whole]
  exact View.mem_set_unit_zero (funext fun a => Nat.zero_mul _) _ i
theorem cover4_9 (c : Dev nD) (i : ((cfg4.win 9).arr.view.loc (c.tc : Thread nD τ)).2.ty.Idx) :
    ∃ t : Fin cfg4.N, (cfg4.win 9).flush t = true ∧ i ∈ ((cfg4.win 9).blk t).view.set := by
  refine ⟨t4_0, flush4_9 t4_0, ?_⟩
  show i ∈ ((View.whole (Pipeline.arrRef spec4 9)).slice ((cfg4.win 9).rect t4_0)).set
  rw [View.set_slice_whole]
  exact View.mem_set_unit_zero (funext fun a => Nat.zero_mul _) _ i
theorem cover4_10 (c : Dev nD) (i : ((cfg4.win 10).arr.view.loc (c.tc : Thread nD τ)).2.ty.Idx) :
    ∃ t : Fin cfg4.N, (cfg4.win 10).flush t = true ∧ i ∈ ((cfg4.win 10).blk t).view.set := by
  refine ⟨t4_0, flush4_10 t4_0, ?_⟩
  show i ∈ ((View.whole (Pipeline.arrRef spec4 10)).slice ((cfg4.win 10).rect t4_0)).set
  rw [View.set_slice_whole]
  exact View.mem_set_unit_zero (funext fun a => Nat.zero_mul _) _ i

/-- Each output window's array after the region: the body's result of the input arrays. -/
theorem arr4_8 (c : Dev nD) : (dat4 V c).arrAt 8 cfg4.N
    = out4_8 (V c (Pipeline.arrRef spec4 0)) (V c (Pipeline.arrRef spec4 1)) (V c (Pipeline.arrRef spec4 2))
        (V c (Pipeline.arrRef spec4 5)) (V c (Pipeline.arrRef spec4 6)) := by
  refine (dat4 V c).arrAt_eq_of_cover 8 _ (fun t _ => ?_) (cover4_8 c)
  have h : (dat4 V c).after 8 t
    = out4_8 (V c (Pipeline.arrRef spec4 0)) (V c (Pipeline.arrRef spec4 1)) (V c (Pipeline.arrRef spec4 2))
        (V c (Pipeline.arrRef spec4 5)) (V c (Pipeline.arrRef spec4 6)) := by
    rw [after4_8, iblk4_0, iblk4_1, iblk4_2, iblk4_5, iblk4_6]
  show (cfg4.win 8).cut (grid4.coords t) ((dat4 V c).after 8 t) = _
  rw [h]
  exact cut4_8 t _
theorem arr4_9 (c : Dev nD) : (dat4 V c).arrAt 9 cfg4.N
    = out4_9 (V c (Pipeline.arrRef spec4 1)) (V c (Pipeline.arrRef spec4 2)) (V c (Pipeline.arrRef spec4 3))
        (V c (Pipeline.arrRef spec4 6)) (V c (Pipeline.arrRef spec4 7)) := by
  refine (dat4 V c).arrAt_eq_of_cover 9 _ (fun t _ => ?_) (cover4_9 c)
  have h : (dat4 V c).after 9 t
    = out4_9 (V c (Pipeline.arrRef spec4 1)) (V c (Pipeline.arrRef spec4 2)) (V c (Pipeline.arrRef spec4 3))
        (V c (Pipeline.arrRef spec4 6)) (V c (Pipeline.arrRef spec4 7)) := by
    rw [after4_9, iblk4_1, iblk4_2, iblk4_3, iblk4_6, iblk4_7]
  show (cfg4.win 9).cut (grid4.coords t) ((dat4 V c).after 9 t) = _
  rw [h]
  exact cut4_9 t _
theorem arr4_10 (c : Dev nD) : (dat4 V c).arrAt 10 cfg4.N
    = out4_10 (V c (Pipeline.arrRef spec4 2)) (V c (Pipeline.arrRef spec4 3)) (V c (Pipeline.arrRef spec4 4))
        (V c (Pipeline.arrRef spec4 7)) := by
  refine (dat4 V c).arrAt_eq_of_cover 10 _ (fun t _ => ?_) (cover4_10 c)
  have h : (dat4 V c).after 10 t
    = out4_10 (V c (Pipeline.arrRef spec4 2)) (V c (Pipeline.arrRef spec4 3)) (V c (Pipeline.arrRef spec4 4))
        (V c (Pipeline.arrRef spec4 7)) := by
    rw [after4_10, iblk4_2, iblk4_3, iblk4_4, iblk4_7]
  show (cfg4.win 10).cut (grid4.coords t) ((dat4 V c).after 10 t) = _
  rw [h]
  exact cut4_10 t _

end Cert.KernelIdeal.Reg

end
-- ==== Proof.KIArr3.lean ====
/-
  Region 3's arrays after the region, by name. Every window of this kernel is its whole array and the grid has one point,
  so an input window's block IS its array as the region finds it, and an output window's array after the region IS what
  the body left in its buffer: the body's result of the input arrays.
-/
import proofs.«107956_j75110388073098_1_alg».proof.Proof.KIRegion3
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk3_0 (c : Dev nD) (t : Fin cfg3.N) : iblk3 V c 0 t = V c (Pipeline.arrRef spec3 0) := by
  funext j
  unfold iblk3
  rw [View.read_apply]
  show V c (Pipeline.arrRef spec3 0) (((cfg3.win 0).blk t).view.emb j) = V c (Pipeline.arrRef spec3 0) j
  congr 1
  funext a; apply Fin.ext
  show 0 * _ + 1 * (j a).val = (j a).val
  omega
theorem iblk3_1 (c : Dev nD) (t : Fin cfg3.N) : iblk3 V c 1 t = V c (Pipeline.arrRef spec3 1) := by
  funext j
  unfold iblk3
  rw [View.read_apply]
  show V c (Pipeline.arrRef spec3 1) (((cfg3.win 1).blk t).view.emb j) = V c (Pipeline.arrRef spec3 1) j
  congr 1
  funext a; apply Fin.ext
  show 0 * _ + 1 * (j a).val = (j a).val
  omega
theorem iblk3_2 (c : Dev nD) (t : Fin cfg3.N) : iblk3 V c 2 t = V c (Pipeline.arrRef spec3 2) := by
  funext j
  unfold iblk3
  rw [View.read_apply]
  show V c (Pipeline.arrRef spec3 2) (((cfg3.win 2).blk t).view.emb j) = V c (Pipeline.arrRef spec3 2) j
  congr 1
  funext a; apply Fin.ext
  show 0 * _ + 1 * (j a).val = (j a).val
  omega
theorem iblk3_3 (c : Dev nD) (t : Fin cfg3.N) : iblk3 V c 3 t = V c (Pipeline.arrRef spec3 3) := by
  funext j
  unfold iblk3
  rw [View.read_apply]
  show V c (Pipeline.arrRef spec3 3) (((cfg3.win 3).blk t).view.emb j) = V c (Pipeline.arrRef spec3 3) j
  congr 1
  funext a; apply Fin.ext
  show 0 * _ + 1 * (j a).val = (j a).val
  omega
theorem iblk3_4 (c : Dev nD) (t : Fin cfg3.N) : iblk3 V c 4 t = V c (Pipeline.arrRef spec3 4) := by
  funext j
  unfold iblk3
  rw [View.read_apply]
  show V c (Pipeline.arrRef spec3 4) (((cfg3.win 4).blk t).view.emb j) = V c (Pipeline.arrRef spec3 4) j
  congr 1
  funext a; apply Fin.ext
  show 0 * _ + 1 * (j a).val = (j a).val
  omega
theorem iblk3_5 (c : Dev nD) (t : Fin cfg3.N) : iblk3 V c 5 t = V c (Pipeline.arrRef spec3 5) := by
  funext j
  unfold iblk3
  rw [View.read_apply]
  show V c (Pipeline.arrRef spec3 5) (((cfg3.win 5).blk t).view.emb j) = V c (Pipeline.arrRef spec3 5) j
  congr 1
  funext a; apply Fin.ext
  show 0 * _ + 1 * (j a).val = (j a).val
  omega
theorem iblk3_6 (c : Dev nD) (t : Fin cfg3.N) : iblk3 V c 6 t = V c (Pipeline.arrRef spec3 6) := by
  funext j
  unfold iblk3
  rw [View.read_apply]
  show V c (Pipeline.arrRef spec3 6) (((cfg3.win 6).blk t).view.emb j) = V c (Pipeline.arrRef spec3 6) j
  congr 1
  funext a; apply Fin.ext
  show 0 * _ + 1 * (j a).val = (j a).val
  omega
theorem iblk3_7 (c : Dev nD) (t : Fin cfg3.N) : iblk3 V c 7 t = V c (Pipeline.arrRef spec3 7) := by
  funext j
  unfold iblk3
  rw [View.read_apply]
  show V c (Pipeline.arrRef spec3 7) (((cfg3.win 7).blk t).view.emb j) = V c (Pipeline.arrRef spec3 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut3_8 (t : Fin cfg3.N) (G : (cfg3.win 8).block.Idx → Elt F (cfg3.win 8).elt) :
    (cfg3.win 8).cut (grid3.coords t) G = ((cfg3.win 8).blk t).view.read (Elt F) G := by
  funext j
  rw [View.read_apply]
  show G ((cfg3.win 8).xinj (grid3.coords t) j) = G (((cfg3.win 8).blk t).view.emb j)
  congr 1
  funext a; apply Fin.ext
  show (j a).val = 0 * _ + 1 * (j a).val
  omega
theorem cut3_9 (t : Fin cfg3.N) (G : (cfg3.win 9).block.Idx → Elt F (cfg3.win 9).elt) :
    (cfg3.win 9).cut (grid3.coords t) G = ((cfg3.win 9).blk t).view.read (Elt F) G := by
  funext j
  rw [View.read_apply]
  show G ((cfg3.win 9).xinj (grid3.coords t) j) = G (((cfg3.win 9).blk t).view.emb j)
  congr 1
  funext a; apply Fin.ext
  show (j a).val = 0 * _ + 1 * (j a).val
  omega
theorem cut3_10 (t : Fin cfg3.N) (G : (cfg3.win 10).block.Idx → Elt F (cfg3.win 10).elt) :
    (cfg3.win 10).cut (grid3.coords t) G = ((cfg3.win 10).blk t).view.read (Elt F) G := by
  funext j
  rw [View.read_apply]
  show G ((cfg3.win 10).xinj (grid3.coords t) j) = G (((cfg3.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover3_8 (c : Dev nD) (i : ((cfg3.win 8).arr.view.loc (c.tc : Thread nD τ)).2.ty.Idx) :
    ∃ t : Fin cfg3.N, (cfg3.win 8).flush t = true ∧ i ∈ ((cfg3.win 8).blk t).view.set := by
  refine ⟨t3_0, flush3_8 t3_0, ?_⟩
  show i ∈ ((View.whole (Pipeline.arrRef spec3 8)).slice ((cfg3.win 8).rect t3_0)).set
  rw [View.set_slice_whole]
  exact View.mem_set_unit_zero (funext fun a => Nat.zero_mul _) _ i
theorem cover3_9 (c : Dev nD) (i : ((cfg3.win 9).arr.view.loc (c.tc : Thread nD τ)).2.ty.Idx) :
    ∃ t : Fin cfg3.N, (cfg3.win 9).flush t = true ∧ i ∈ ((cfg3.win 9).blk t).view.set := by
  refine ⟨t3_0, flush3_9 t3_0, ?_⟩
  show i ∈ ((View.whole (Pipeline.arrRef spec3 9)).slice ((cfg3.win 9).rect t3_0)).set
  rw [View.set_slice_whole]
  exact View.mem_set_unit_zero (funext fun a => Nat.zero_mul _) _ i
theorem cover3_10 (c : Dev nD) (i : ((cfg3.win 10).arr.view.loc (c.tc : Thread nD τ)).2.ty.Idx) :
    ∃ t : Fin cfg3.N, (cfg3.win 10).flush t = true ∧ i ∈ ((cfg3.win 10).blk t).view.set := by
  refine ⟨t3_0, flush3_10 t3_0, ?_⟩
  show i ∈ ((View.whole (Pipeline.arrRef spec3 10)).slice ((cfg3.win 10).rect t3_0)).set
  rw [View.set_slice_whole]
  exact View.mem_set_unit_zero (funext fun a => Nat.zero_mul _) _ i

/-- Each output window's array after the region: the body's result of the input arrays. -/
theorem arr3_8 (c : Dev nD) : (dat3 V c).arrAt 8 cfg3.N
    = out3_8 (V c (Pipeline.arrRef spec3 0)) (V c (Pipeline.arrRef spec3 1)) (V c (Pipeline.arrRef spec3 2))
        (V c (Pipeline.arrRef spec3 5)) (V c (Pipeline.arrRef spec3 6)) := by
  refine (dat3 V c).arrAt_eq_of_cover 8 _ (fun t _ => ?_) (cover3_8 c)
  have h : (dat3 V c).after 8 t
    = out3_8 (V c (Pipeline.arrRef spec3 0)) (V c (Pipeline.arrRef spec3 1)) (V c (Pipeline.arrRef spec3 2))
        (V c (Pipeline.arrRef spec3 5)) (V c (Pipeline.arrRef spec3 6)) := by
    rw [after3_8, iblk3_0, iblk3_1, iblk3_2, iblk3_5, iblk3_6]
  show (cfg3.win 8).cut (grid3.coords t) ((dat3 V c).after 8 t) = _
  rw [h]
  exact cut3_8 t _
theorem arr3_9 (c : Dev nD) : (dat3 V c).arrAt 9 cfg3.N
    = out3_9 (V c (Pipeline.arrRef spec3 1)) (V c (Pipeline.arrRef spec3 2)) (V c (Pipeline.arrRef spec3 3))
        (V c (Pipeline.arrRef spec3 6)) (V c (Pipeline.arrRef spec3 7)) := by
  refine (dat3 V c).arrAt_eq_of_cover 9 _ (fun t _ => ?_) (cover3_9 c)
  have h : (dat3 V c).after 9 t
    = out3_9 (V c (Pipeline.arrRef spec3 1)) (V c (Pipeline.arrRef spec3 2)) (V c (Pipeline.arrRef spec3 3))
        (V c (Pipeline.arrRef spec3 6)) (V c (Pipeline.arrRef spec3 7)) := by
    rw [after3_9, iblk3_1, iblk3_2, iblk3_3, iblk3_6, iblk3_7]
  show (cfg3.win 9).cut (grid3.coords t) ((dat3 V c).after 9 t) = _
  rw [h]
  exact cut3_9 t _
theorem arr3_10 (c : Dev nD) : (dat3 V c).arrAt 10 cfg3.N
    = out3_10 (V c (Pipeline.arrRef spec3 2)) (V c (Pipeline.arrRef spec3 3)) (V c (Pipeline.arrRef spec3 4))
        (V c (Pipeline.arrRef spec3 7)) := by
  refine (dat3 V c).arrAt_eq_of_cover 10 _ (fun t _ => ?_) (cover3_10 c)
  have h : (dat3 V c).after 10 t
    = out3_10 (V c (Pipeline.arrRef spec3 2)) (V c (Pipeline.arrRef spec3 3)) (V c (Pipeline.arrRef spec3 4))
        (V c (Pipeline.arrRef spec3 7)) := by
    rw [after3_10, iblk3_2, iblk3_3, iblk3_4, iblk3_7]
  show (cfg3.win 10).cut (grid3.coords t) ((dat3 V c).after 10 t) = _
  rw [h]
  exact cut3_10 t _

end Cert.KernelIdeal.Reg

end
-- ==== Proof.KIArr2.lean ====
/-
  Region 2's arrays after the region, by name. Every window of this kernel is its whole array and the grid has one point,
  so an input window's block IS its array as the region finds it, and an output window's array after the region IS what
  the body left in its buffer: the body's result of the input arrays.
-/
import proofs.«107956_j75110388073098_1_alg».proof.Proof.KIRegion2
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk2_0 (c : Dev nD) (t : Fin cfg2.N) : iblk2 V c 0 t = V c (Pipeline.arrRef spec2 0) := by
  funext j
  unfold iblk2
  rw [View.read_apply]
  show V c (Pipeline.arrRef spec2 0) (((cfg2.win 0).blk t).view.emb j) = V c (Pipeline.arrRef spec2 0) j
  congr 1
  funext a; apply Fin.ext
  show 0 * _ + 1 * (j a).val = (j a).val
  omega
theorem iblk2_1 (c : Dev nD) (t : Fin cfg2.N) : iblk2 V c 1 t = V c (Pipeline.arrRef spec2 1) := by
  funext j
  unfold iblk2
  rw [View.read_apply]
  show V c (Pipeline.arrRef spec2 1) (((cfg2.win 1).blk t).view.emb j) = V c (Pipeline.arrRef spec2 1) j
  congr 1
  funext a; apply Fin.ext
  show 0 * _ + 1 * (j a).val = (j a).val
  omega
theorem iblk2_2 (c : Dev nD) (t : Fin cfg2.N) : iblk2 V c 2 t = V c (Pipeline.arrRef spec2 2) := by
  funext j
  unfold iblk2
  rw [View.read_apply]
  show V c (Pipeline.arrRef spec2 2) (((cfg2.win 2).blk t).view.emb j) = V c (Pipeline.arrRef spec2 2) j
  congr 1
  funext a; apply Fin.ext
  show 0 * _ + 1 * (j a).val = (j a).val
  omega
theorem iblk2_3 (c : Dev nD) (t : Fin cfg2.N) : iblk2 V c 3 t = V c (Pipeline.arrRef spec2 3) := by
  funext j
  unfold iblk2
  rw [View.read_apply]
  show V c (Pipeline.arrRef spec2 3) (((cfg2.win 3).blk t).view.emb j) = V c (Pipeline.arrRef spec2 3) j
  congr 1
  funext a; apply Fin.ext
  show 0 * _ + 1 * (j a).val = (j a).val
  omega
theorem iblk2_4 (c : Dev nD) (t : Fin cfg2.N) : iblk2 V c 4 t = V c (Pipeline.arrRef spec2 4) := by
  funext j
  unfold iblk2
  rw [View.read_apply]
  show V c (Pipeline.arrRef spec2 4) (((cfg2.win 4).blk t).view.emb j) = V c (Pipeline.arrRef spec2 4) j
  congr 1
  funext a; apply Fin.ext
  show 0 * _ + 1 * (j a).val = (j a).val
  omega
theorem iblk2_5 (c : Dev nD) (t : Fin cfg2.N) : iblk2 V c 5 t = V c (Pipeline.arrRef spec2 5) := by
  funext j
  unfold iblk2
  rw [View.read_apply]
  show V c (Pipeline.arrRef spec2 5) (((cfg2.win 5).blk t).view.emb j) = V c (Pipeline.arrRef spec2 5) j
  congr 1
  funext a; apply Fin.ext
  show 0 * _ + 1 * (j a).val = (j a).val
  omega
theorem iblk2_6 (c : Dev nD) (t : Fin cfg2.N) : iblk2 V c 6 t = V c (Pipeline.arrRef spec2 6) := by
  funext j
  unfold iblk2
  rw [View.read_apply]
  show V c (Pipeline.arrRef spec2 6) (((cfg2.win 6).blk t).view.emb j) = V c (Pipeline.arrRef spec2 6) j
  congr 1
  funext a; apply Fin.ext
  show 0 * _ + 1 * (j a).val = (j a).val
  omega
theorem iblk2_7 (c : Dev nD) (t : Fin cfg2.N) : iblk2 V c 7 t = V c (Pipeline.arrRef spec2 7) := by
  funext j
  unfold iblk2
  rw [View.read_apply]
  show V c (Pipeline.arrRef spec2 7) (((cfg2.win 7).blk t).view.emb j) = V c (Pipeline.arrRef spec2 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut2_8 (t : Fin cfg2.N) (G : (cfg2.win 8).block.Idx → Elt F (cfg2.win 8).elt) :
    (cfg2.win 8).cut (grid2.coords t) G = ((cfg2.win 8).blk t).view.read (Elt F) G := by
  funext j
  rw [View.read_apply]
  show G ((cfg2.win 8).xinj (grid2.coords t) j) = G (((cfg2.win 8).blk t).view.emb j)
  congr 1
  funext a; apply Fin.ext
  show (j a).val = 0 * _ + 1 * (j a).val
  omega
theorem cut2_9 (t : Fin cfg2.N) (G : (cfg2.win 9).block.Idx → Elt F (cfg2.win 9).elt) :
    (cfg2.win 9).cut (grid2.coords t) G = ((cfg2.win 9).blk t).view.read (Elt F) G := by
  funext j
  rw [View.read_apply]
  show G ((cfg2.win 9).xinj (grid2.coords t) j) = G (((cfg2.win 9).blk t).view.emb j)
  congr 1
  funext a; apply Fin.ext
  show (j a).val = 0 * _ + 1 * (j a).val
  omega
theorem cut2_10 (t : Fin cfg2.N) (G : (cfg2.win 10).block.Idx → Elt F (cfg2.win 10).elt) :
    (cfg2.win 10).cut (grid2.coords t) G = ((cfg2.win 10).blk t).view.read (Elt F) G := by
  funext j
  rw [View.read_apply]
  show G ((cfg2.win 10).xinj (grid2.coords t) j) = G (((cfg2.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover2_8 (c : Dev nD) (i : ((cfg2.win 8).arr.view.loc (c.tc : Thread nD τ)).2.ty.Idx) :
    ∃ t : Fin cfg2.N, (cfg2.win 8).flush t = true ∧ i ∈ ((cfg2.win 8).blk t).view.set := by
  refine ⟨t2_0, flush2_8 t2_0, ?_⟩
  show i ∈ ((View.whole (Pipeline.arrRef spec2 8)).slice ((cfg2.win 8).rect t2_0)).set
  rw [View.set_slice_whole]
  exact View.mem_set_unit_zero (funext fun a => Nat.zero_mul _) _ i
theorem cover2_9 (c : Dev nD) (i : ((cfg2.win 9).arr.view.loc (c.tc : Thread nD τ)).2.ty.Idx) :
    ∃ t : Fin cfg2.N, (cfg2.win 9).flush t = true ∧ i ∈ ((cfg2.win 9).blk t).view.set := by
  refine ⟨t2_0, flush2_9 t2_0, ?_⟩
  show i ∈ ((View.whole (Pipeline.arrRef spec2 9)).slice ((cfg2.win 9).rect t2_0)).set
  rw [View.set_slice_whole]
  exact View.mem_set_unit_zero (funext fun a => Nat.zero_mul _) _ i
theorem cover2_10 (c : Dev nD) (i : ((cfg2.win 10).arr.view.loc (c.tc : Thread nD τ)).2.ty.Idx) :
    ∃ t : Fin cfg2.N, (cfg2.win 10).flush t = true ∧ i ∈ ((cfg2.win 10).blk t).view.set := by
  refine ⟨t2_0, flush2_10 t2_0, ?_⟩
  show i ∈ ((View.whole (Pipeline.arrRef spec2 10)).slice ((cfg2.win 10).rect t2_0)).set
  rw [View.set_slice_whole]
  exact View.mem_set_unit_zero (funext fun a => Nat.zero_mul _) _ i

/-- Each output window's array after the region: the body's result of the input arrays. -/
theorem arr2_8 (c : Dev nD) : (dat2 V c).arrAt 8 cfg2.N
    = out2_8 (V c (Pipeline.arrRef spec2 0)) (V c (Pipeline.arrRef spec2 1)) (V c (Pipeline.arrRef spec2 2))
        (V c (Pipeline.arrRef spec2 5)) (V c (Pipeline.arrRef spec2 6)) := by
  refine (dat2 V c).arrAt_eq_of_cover 8 _ (fun t _ => ?_) (cover2_8 c)
  have h : (dat2 V c).after 8 t
    = out2_8 (V c (Pipeline.arrRef spec2 0)) (V c (Pipeline.arrRef spec2 1)) (V c (Pipeline.arrRef spec2 2))
        (V c (Pipeline.arrRef spec2 5)) (V c (Pipeline.arrRef spec2 6)) := by
    rw [after2_8, iblk2_0, iblk2_1, iblk2_2, iblk2_5, iblk2_6]
  show (cfg2.win 8).cut (grid2.coords t) ((dat2 V c).after 8 t) = _
  rw [h]
  exact cut2_8 t _
theorem arr2_9 (c : Dev nD) : (dat2 V c).arrAt 9 cfg2.N
    = out2_9 (V c (Pipeline.arrRef spec2 1)) (V c (Pipeline.arrRef spec2 2)) (V c (Pipeline.arrRef spec2 3))
        (V c (Pipeline.arrRef spec2 6)) (V c (Pipeline.arrRef spec2 7)) := by
  refine (dat2 V c).arrAt_eq_of_cover 9 _ (fun t _ => ?_) (cover2_9 c)
  have h : (dat2 V c).after 9 t
    = out2_9 (V c (Pipeline.arrRef spec2 1)) (V c (Pipeline.arrRef spec2 2)) (V c (Pipeline.arrRef spec2 3))
        (V c (Pipeline.arrRef spec2 6)) (V c (Pipeline.arrRef spec2 7)) := by
    rw [after2_9, iblk2_1, iblk2_2, iblk2_3, iblk2_6, iblk2_7]
  show (cfg2.win 9).cut (grid2.coords t) ((dat2 V c).after 9 t) = _
  rw [h]
  exact cut2_9 t _
theorem arr2_10 (c : Dev nD) : (dat2 V c).arrAt 10 cfg2.N
    = out2_10 (V c (Pipeline.arrRef spec2 2)) (V c (Pipeline.arrRef spec2 3)) (V c (Pipeline.arrRef spec2 4))
        (V c (Pipeline.arrRef spec2 7)) := by
  refine (dat2 V c).arrAt_eq_of_cover 10 _ (fun t _ => ?_) (cover2_10 c)
  have h : (dat2 V c).after 10 t
    = out2_10 (V c (Pipeline.arrRef spec2 2)) (V c (Pipeline.arrRef spec2 3)) (V c (Pipeline.arrRef spec2 4))
        (V c (Pipeline.arrRef spec2 7)) := by
    rw [after2_10, iblk2_2, iblk2_3, iblk2_4, iblk2_7]
  show (cfg2.win 10).cut (grid2.coords t) ((dat2 V c).after 10 t) = _
  rw [h]
  exact cut2_10 t _

end Cert.KernelIdeal.Reg

end
-- ==== Proof.KIArr1.lean ====
/-
  Region 1's arrays after the region, by name. Every window of this kernel is its whole array and the grid has one point,
  so an input window's block IS its array as the region finds it, and an output window's array after the region IS what
  the body left in its buffer: the body's result of the input arrays.
-/
import proofs.«107956_j75110388073098_1_alg».proof.Proof.KIRegion1
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk1_0 (c : Dev nD) (t : Fin cfg1.N) : iblk1 V c 0 t = V c (Pipeline.arrRef spec1 0) := by
  funext j
  unfold iblk1
  rw [View.read_apply]
  show V c (Pipeline.arrRef spec1 0) (((cfg1.win 0).blk t).view.emb j) = V c (Pipeline.arrRef spec1 0) j
  congr 1
  funext a; apply Fin.ext
  show 0 * _ + 1 * (j a).val = (j a).val
  omega
theorem iblk1_1 (c : Dev nD) (t : Fin cfg1.N) : iblk1 V c 1 t = V c (Pipeline.arrRef spec1 1) := by
  funext j
  unfold iblk1
  rw [View.read_apply]
  show V c (Pipeline.arrRef spec1 1) (((cfg1.win 1).blk t).view.emb j) = V c (Pipeline.arrRef spec1 1) j
  congr 1
  funext a; apply Fin.ext
  show 0 * _ + 1 * (j a).val = (j a).val
  omega
theorem iblk1_2 (c : Dev nD) (t : Fin cfg1.N) : iblk1 V c 2 t = V c (Pipeline.arrRef spec1 2) := by
  funext j
  unfold iblk1
  rw [View.read_apply]
  show V c (Pipeline.arrRef spec1 2) (((cfg1.win 2).blk t).view.emb j) = V c (Pipeline.arrRef spec1 2) j
  congr 1
  funext a; apply Fin.ext
  show 0 * _ + 1 * (j a).val = (j a).val
  omega
theorem iblk1_3 (c : Dev nD) (t : Fin cfg1.N) : iblk1 V c 3 t = V c (Pipeline.arrRef spec1 3) := by
  funext j
  unfold iblk1
  rw [View.read_apply]
  show V c (Pipeline.arrRef spec1 3) (((cfg1.win 3).blk t).view.emb j) = V c (Pipeline.arrRef spec1 3) j
  congr 1
  funext a; apply Fin.ext
  show 0 * _ + 1 * (j a).val = (j a).val
  omega
theorem iblk1_4 (c : Dev nD) (t : Fin cfg1.N) : iblk1 V c 4 t = V c (Pipeline.arrRef spec1 4) := by
  funext j
  unfold iblk1
  rw [View.read_apply]
  show V c (Pipeline.arrRef spec1 4) (((cfg1.win 4).blk t).view.emb j) = V c (Pipeline.arrRef spec1 4) j
  congr 1
  funext a; apply Fin.ext
  show 0 * _ + 1 * (j a).val = (j a).val
  omega
theorem iblk1_5 (c : Dev nD) (t : Fin cfg1.N) : iblk1 V c 5 t = V c (Pipeline.arrRef spec1 5) := by
  funext j
  unfold iblk1
  rw [View.read_apply]
  show V c (Pipeline.arrRef spec1 5) (((cfg1.win 5).blk t).view.emb j) = V c (Pipeline.arrRef spec1 5) j
  congr 1
  funext a; apply Fin.ext
  show 0 * _ + 1 * (j a).val = (j a).val
  omega
theorem iblk1_6 (c : Dev nD) (t : Fin cfg1.N) : iblk1 V c 6 t = V c (Pipeline.arrRef spec1 6) := by
  funext j
  unfold iblk1
  rw [View.read_apply]
  show V c (Pipeline.arrRef spec1 6) (((cfg1.win 6).blk t).view.emb j) = V c (Pipeline.arrRef spec1 6) j
  congr 1
  funext a; apply Fin.ext
  show 0 * _ + 1 * (j a).val = (j a).val
  omega
theorem iblk1_7 (c : Dev nD) (t : Fin cfg1.N) : iblk1 V c 7 t = V c (Pipeline.arrRef spec1 7) := by
  funext j
  unfold iblk1
  rw [View.read_apply]
  show V c (Pipeline.arrRef spec1 7) (((cfg1.win 7).blk t).view.emb j) = V c (Pipeline.arrRef spec1 7) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut1_8 (t : Fin cfg1.N) (G : (cfg1.win 8).block.Idx → Elt F (cfg1.win 8).elt) :
    (cfg1.win 8).cut (grid1.coords t) G = ((cfg1.win 8).blk t).view.read (Elt F) G := by
  funext j
  rw [View.read_apply]
  show G ((cfg1.win 8).xinj (grid1.coords t) j) = G (((cfg1.win 8).blk t).view.emb j)
  congr 1
  funext a; apply Fin.ext
  show (j a).val = 0 * _ + 1 * (j a).val
  omega
theorem cut1_9 (t : Fin cfg1.N) (G : (cfg1.win 9).block.Idx → Elt F (cfg1.win 9).elt) :
    (cfg1.win 9).cut (grid1.coords t) G = ((cfg1.win 9).blk t).view.read (Elt F) G := by
  funext j
  rw [View.read_apply]
  show G ((cfg1.win 9).xinj (grid1.coords t) j) = G (((cfg1.win 9).blk t).view.emb j)
  congr 1
  funext a; apply Fin.ext
  show (j a).val = 0 * _ + 1 * (j a).val
  omega
theorem cut1_10 (t : Fin cfg1.N) (G : (cfg1.win 10).block.Idx → Elt F (cfg1.win 10).elt) :
    (cfg1.win 10).cut (grid1.coords t) G = ((cfg1.win 10).blk t).view.read (Elt F) G := by
  funext j
  rw [View.read_apply]
  show G ((cfg1.win 10).xinj (grid1.coords t) j) = G (((cfg1.win 10).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover1_8 (c : Dev nD) (i : ((cfg1.win 8).arr.view.loc (c.tc : Thread nD τ)).2.ty.Idx) :
    ∃ t : Fin cfg1.N, (cfg1.win 8).flush t = true ∧ i ∈ ((cfg1.win 8).blk t).view.set := by
  refine ⟨t1_0, flush1_8 t1_0, ?_⟩
  show i ∈ ((View.whole (Pipeline.arrRef spec1 8)).slice ((cfg1.win 8).rect t1_0)).set
  rw [View.set_slice_whole]
  exact View.mem_set_unit_zero (funext fun a => Nat.zero_mul _) _ i
theorem cover1_9 (c : Dev nD) (i : ((cfg1.win 9).arr.view.loc (c.tc : Thread nD τ)).2.ty.Idx) :
    ∃ t : Fin cfg1.N, (cfg1.win 9).flush t = true ∧ i ∈ ((cfg1.win 9).blk t).view.set := by
  refine ⟨t1_0, flush1_9 t1_0, ?_⟩
  show i ∈ ((View.whole (Pipeline.arrRef spec1 9)).slice ((cfg1.win 9).rect t1_0)).set
  rw [View.set_slice_whole]
  exact View.mem_set_unit_zero (funext fun a => Nat.zero_mul _) _ i
theorem cover1_10 (c : Dev nD) (i : ((cfg1.win 10).arr.view.loc (c.tc : Thread nD τ)).2.ty.Idx) :
    ∃ t : Fin cfg1.N, (cfg1.win 10).flush t = true ∧ i ∈ ((cfg1.win 10).blk t).view.set := by
  refine ⟨t1_0, flush1_10 t1_0, ?_⟩
  show i ∈ ((View.whole (Pipeline.arrRef spec1 10)).slice ((cfg1.win 10).rect t1_0)).set
  rw [View.set_slice_whole]
  exact View.mem_set_unit_zero (funext fun a => Nat.zero_mul _) _ i

/-- Each output window's array after the region: the body's result of the input arrays. -/
theorem arr1_8 (c : Dev nD) : (dat1 V c).arrAt 8 cfg1.N
    = out1_8 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (V c (Pipeline.arrRef spec1 6)) (V c (Pipeline.arrRef spec1 7)) := by
  refine (dat1 V c).arrAt_eq_of_cover 8 _ (fun t _ => ?_) (cover1_8 c)
  have h : (dat1 V c).after 8 t
    = out1_8 (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5)) (V c (Pipeline.arrRef spec1 6)) (V c (Pipeline.arrRef spec1 7)) := by
    rw [after1_8, iblk1_0, iblk1_1, iblk1_2, iblk1_3, iblk1_4, iblk1_5, iblk1_6, iblk1_7]
  show (cfg1.win 8).cut (grid1.coords t) ((dat1 V c).after 8 t) = _
  rw [h]
  exact cut1_8 t _
theorem arr1_9 (c : Dev nD) : (dat1 V c).arrAt 9 cfg1.N
    = out1_9 (V c (Pipeline.arrRef spec1 1)) (V c (Pipeline.arrRef spec1 2)) (V c (Pipeline.arrRef spec1 3))
        (V c (Pipeline.arrRef spec1 4)) (V c (Pipeline.arrRef spec1 6)) (V c (Pipeline.arrRef spec1 7)) := by
  refine (dat1 V c).arrAt_eq_of_cover 9 _ (fun t _ => ?_) (cover1_9 c)
  have h : (dat1 V c).after 9 t
    = out1_9 (V c (Pipeline.arrRef spec1 1)) (V c (Pipeline.arrRef spec1 2)) (V c (Pipeline.arrRef spec1 3))
        (V c (Pipeline.arrRef spec1 4)) (V c (Pipeline.arrRef spec1 6)) (V c (Pipeline.arrRef spec1 7)) := by
    rw [after1_9, iblk1_1, iblk1_2, iblk1_3, iblk1_4, iblk1_6, iblk1_7]
  show (cfg1.win 9).cut (grid1.coords t) ((dat1 V c).after 9 t) = _
  rw [h]
  exact cut1_9 t _
theorem arr1_10 (c : Dev nD) : (dat1 V c).arrAt 10 cfg1.N
    = out1_10 (V c (Pipeline.arrRef spec1 2)) (V c (Pipeline.arrRef spec1 3)) (V c (Pipeline.arrRef spec1 4))
        (V c (Pipeline.arrRef spec1 7)) := by
  refine (dat1 V c).arrAt_eq_of_cover 10 _ (fun t _ => ?_) (cover1_10 c)
  have h : (dat1 V c).after 10 t
    = out1_10 (V c (Pipeline.arrRef spec1 2)) (V c (Pipeline.arrRef spec1 3)) (V c (Pipeline.arrRef spec1 4))
        (V c (Pipeline.arrRef spec1 7)) := by
    rw [after1_10, iblk1_2, iblk1_3, iblk1_4, iblk1_7]
  show (cfg1.win 10).cut (grid1.coords t) ((dat1 V c).after 10 t) = _
  rw [h]
  exact cut1_10 t _

end Cert.KernelIdeal.Reg

end
-- ==== Proof.StepEqC.lean ====
/-
  The first relaxation step: the kernel's three results are the reference's states after its first (chained) step.
  Both sides apply the same operations in the same order; the kernel's `a·bᵀ` products are the reference's products with the
  weight transposed first, its scalar splats the reference's broadcasts, its same-shape casts the identity.
-/
import proofs.«107956_j75110388073098_1_alg».proof.Proof.KIRegion1
import proofs.«107956_j75110388073098_1_alg».proof.Proof.BridgeOps
import proofs.«107956_j75110388073098_1_alg».proof.Proof.RefTerms
import proofs.«107956_j75110388073098_1_alg».proof.Proof.Gen.ReferenceIdeal

noncomputable section

namespace Cert.Bridge

open Idealize.ShloMosaic Idealize.ShloMosaic.TcCoe Idealize.SL.Sem
open Cert.KernelIdeal.Reg Cert.RefSide

/-- The whole-buffer rectangles sit at offset zero on both axes. -/
private theorem zero_off : (![0, 0] : Fin 2 → Nat) = fun _ => 0 := funext fun a => by fin_cases a <;> rfl

theorem out1_10_eq (s2 : Vec Ideal Cert.KernelIdeal.S1024x1024 .f32) (s3 y W2 : Vec Ideal Cert.KernelIdeal.S1024x512 .f32) :
    out1_10 (F := Ideal) s2 s3 y W2 = c3 (F := Ideal) s3 (g3 s2 s3 y W2) := by
  -- the one whole-buffer store leaves its payload, each whole-buffer load reads its buffer; then the two terms apply the same
  -- operations to the same operands, the kernel's products, splats and same-shape casts read as the reference's
  unfold out1_10
  rw [View.canon_unit_zero zero_off]
  simp only [View.ld_unit_zero (S := Cert.KernelIdeal.S1024x1024) zero_off, View.ld_unit_zero (S := Cert.KernelIdeal.S1024x512) zero_off]
  unfold Cert.KernelIdeal.Gen.k1_pay3 Cert.KernelIdeal.Gen.k1_pay7 Cert.KernelIdeal.Gen.k1_pay5 Cert.KernelIdeal.Gen.k1_pay6 c3 g3
  simp only [cast_A, cast_B, mm_ABB, splat_B]
theorem out1_9_eq (s1 s2 : Vec Ideal Cert.KernelIdeal.S1024x1024 .f32) (s3 y : Vec Ideal Cert.KernelIdeal.S1024x512 .f32) (W1 : Vec Ideal Cert.KernelIdeal.S1024x1024 .f32) (W2 : Vec Ideal Cert.KernelIdeal.S1024x512 .f32) :
    out1_9 (F := Ideal) s1 s2 s3 y W1 W2 = c2 (F := Ideal) s2 (g2c s1 s2 s3 W1 W2 (g3 s2 s3 y W2)) := by
  unfold out1_9
  rw [View.canon_unit_zero zero_off]
  simp only [View.ld_unit_zero (S := Cert.KernelIdeal.S1024x1024) zero_off, View.ld_unit_zero (S := Cert.KernelIdeal.S1024x512) zero_off]
  unfold Cert.KernelIdeal.Gen.k1_pay2 Cert.KernelIdeal.Gen.k1_pay8 Cert.KernelIdeal.Gen.k1_pay7 Cert.KernelIdeal.Gen.k1_pay4 Cert.KernelIdeal.Gen.k1_pay5 Cert.KernelIdeal.Gen.k1_pay6 c2 g2c g3
  simp only [cast_A, cast_B, mm_AAA, mm_ABB, mmT_BBA, splat_A, splat_B]
theorem out1_8_eq (x s1 s2 : Vec Ideal Cert.KernelIdeal.S1024x1024 .f32) (s3 y : Vec Ideal Cert.KernelIdeal.S1024x512 .f32) (W0 W1 : Vec Ideal Cert.KernelIdeal.S1024x1024 .f32) (W2 : Vec Ideal Cert.KernelIdeal.S1024x512 .f32) :
    out1_8 (F := Ideal) x s1 s2 s3 y W0 W1 W2 = c1 (F := Ideal) x s1 s2 W0 W1 (g2c s1 s2 s3 W1 W2 (g3 s2 s3 y W2)) := by
  unfold out1_8
  rw [View.canon_unit_zero zero_off]
  simp only [View.ld_unit_zero (S := Cert.KernelIdeal.S1024x1024) zero_off, View.ld_unit_zero (S := Cert.KernelIdeal.S1024x512) zero_off]
  unfold Cert.KernelIdeal.Gen.k1_pay1 Cert.KernelIdeal.Gen.k1_pay9 Cert.KernelIdeal.Gen.k1_pay8 Cert.KernelIdeal.Gen.k1_pay7 Cert.KernelIdeal.Gen.k1_pay4 Cert.KernelIdeal.Gen.k1_pay5 Cert.KernelIdeal.Gen.k1_pay6 c1 g2c g3
  simp only [cast_A, cast_B, mm_AAA, mm_ABB, mmT_AAA, mmT_BBA, splat_A, splat_B]

end Cert.Bridge

end
-- ==== Proof.KIArr0.lean ====
/-
  Region 0's arrays after the region, by name. Every window of this kernel is its whole array and the grid has one point,
  so an input window's block IS its array as the region finds it, and an output window's array after the region IS what
  the body left in its buffer: the body's result of the input arrays.
-/
import proofs.«107956_j75110388073098_1_alg».proof.Proof.KIRegion0
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

/-- An input window's block at the one point is its whole array. -/
theorem iblk0_0 (c : Dev nD) (t : Fin cfg0.N) : iblk0 V c 0 t = V c (Pipeline.arrRef spec0 0) := by
  funext j
  unfold iblk0
  rw [View.read_apply]
  show V c (Pipeline.arrRef spec0 0) (((cfg0.win 0).blk t).view.emb j) = V c (Pipeline.arrRef spec0 0) j
  congr 1
  funext a; apply Fin.ext
  show 0 * _ + 1 * (j a).val = (j a).val
  omega
theorem iblk0_1 (c : Dev nD) (t : Fin cfg0.N) : iblk0 V c 1 t = V c (Pipeline.arrRef spec0 1) := by
  funext j
  unfold iblk0
  rw [View.read_apply]
  show V c (Pipeline.arrRef spec0 1) (((cfg0.win 1).blk t).view.emb j) = V c (Pipeline.arrRef spec0 1) j
  congr 1
  funext a; apply Fin.ext
  show 0 * _ + 1 * (j a).val = (j a).val
  omega
theorem iblk0_2 (c : Dev nD) (t : Fin cfg0.N) : iblk0 V c 2 t = V c (Pipeline.arrRef spec0 2) := by
  funext j
  unfold iblk0
  rw [View.read_apply]
  show V c (Pipeline.arrRef spec0 2) (((cfg0.win 2).blk t).view.emb j) = V c (Pipeline.arrRef spec0 2) j
  congr 1
  funext a; apply Fin.ext
  show 0 * _ + 1 * (j a).val = (j a).val
  omega
theorem iblk0_3 (c : Dev nD) (t : Fin cfg0.N) : iblk0 V c 3 t = V c (Pipeline.arrRef spec0 3) := by
  funext j
  unfold iblk0
  rw [View.read_apply]
  show V c (Pipeline.arrRef spec0 3) (((cfg0.win 3).blk t).view.emb j) = V c (Pipeline.arrRef spec0 3) j
  congr 1
  funext a; apply Fin.ext
  show 0 * _ + 1 * (j a).val = (j a).val
  omega

/-- What an output window writes back, of contents `G` of its buffer, is `G` read through the window's block: the block is
    uncut (its moved part is all of it) and sits at offset `0 * size = 0` with unit stride, so both sides are `G` at one index. -/
theorem cut0_4 (t : Fin cfg0.N) (G : (cfg0.win 4).block.Idx → Elt F (cfg0.win 4).elt) :
    (cfg0.win 4).cut (grid0.coords t) G = ((cfg0.win 4).blk t).view.read (Elt F) G := by
  funext j
  rw [View.read_apply]
  show G ((cfg0.win 4).xinj (grid0.coords t) j) = G (((cfg0.win 4).blk t).view.emb j)
  congr 1
  funext a; apply Fin.ext
  show (j a).val = 0 * _ + 1 * (j a).val
  omega
theorem cut0_5 (t : Fin cfg0.N) (G : (cfg0.win 5).block.Idx → Elt F (cfg0.win 5).elt) :
    (cfg0.win 5).cut (grid0.coords t) G = ((cfg0.win 5).blk t).view.read (Elt F) G := by
  funext j
  rw [View.read_apply]
  show G ((cfg0.win 5).xinj (grid0.coords t) j) = G (((cfg0.win 5).blk t).view.emb j)
  congr 1
  funext a; apply Fin.ext
  show (j a).val = 0 * _ + 1 * (j a).val
  omega
theorem cut0_6 (t : Fin cfg0.N) (G : (cfg0.win 6).block.Idx → Elt F (cfg0.win 6).elt) :
    (cfg0.win 6).cut (grid0.coords t) G = ((cfg0.win 6).blk t).view.read (Elt F) G := by
  funext j
  rw [View.read_apply]
  show G ((cfg0.win 6).xinj (grid0.coords t) j) = G (((cfg0.win 6).blk t).view.emb j)
  congr 1
  funext a; apply Fin.ext
  show (j a).val = 0 * _ + 1 * (j a).val
  omega

/-- Every index of an output array is in the one point's block, which that point writes back: the block's rectangle is the
    whole shape (offsets `0 * size = 0`, the array's own sizes). -/
theorem cover0_4 (c : Dev nD) (i : ((cfg0.win 4).arr.view.loc (c.tc : Thread nD τ)).2.ty.Idx) :
    ∃ t : Fin cfg0.N, (cfg0.win 4).flush t = true ∧ i ∈ ((cfg0.win 4).blk t).view.set := by
  refine ⟨t0_0, flush0_4 t0_0, ?_⟩
  show i ∈ ((View.whole (Pipeline.arrRef spec0 4)).slice ((cfg0.win 4).rect t0_0)).set
  rw [View.set_slice_whole]
  exact View.mem_set_unit_zero (funext fun a => Nat.zero_mul _) _ i
theorem cover0_5 (c : Dev nD) (i : ((cfg0.win 5).arr.view.loc (c.tc : Thread nD τ)).2.ty.Idx) :
    ∃ t : Fin cfg0.N, (cfg0.win 5).flush t = true ∧ i ∈ ((cfg0.win 5).blk t).view.set := by
  refine ⟨t0_0, flush0_5 t0_0, ?_⟩
  show i ∈ ((View.whole (Pipeline.arrRef spec0 5)).slice ((cfg0.win 5).rect t0_0)).set
  rw [View.set_slice_whole]
  exact View.mem_set_unit_zero (funext fun a => Nat.zero_mul _) _ i
theorem cover0_6 (c : Dev nD) (i : ((cfg0.win 6).arr.view.loc (c.tc : Thread nD τ)).2.ty.Idx) :
    ∃ t : Fin cfg0.N, (cfg0.win 6).flush t = true ∧ i ∈ ((cfg0.win 6).blk t).view.set := by
  refine ⟨t0_0, flush0_6 t0_0, ?_⟩
  show i ∈ ((View.whole (Pipeline.arrRef spec0 6)).slice ((cfg0.win 6).rect t0_0)).set
  rw [View.set_slice_whole]
  exact View.mem_set_unit_zero (funext fun a => Nat.zero_mul _) _ i

/-- Each output window's array after the region: the body's result of the input arrays. -/
theorem arr0_4 (c : Dev nD) : (dat0 V c).arrAt 4 cfg0.N
    = out0_4 (V c (Pipeline.arrRef spec0 0)) (V c (Pipeline.arrRef spec0 1)) := by
  refine (dat0 V c).arrAt_eq_of_cover 4 _ (fun t _ => ?_) (cover0_4 c)
  have h : (dat0 V c).after 4 t
    = out0_4 (V c (Pipeline.arrRef spec0 0)) (V c (Pipeline.arrRef spec0 1)) := by
    rw [after0_4, iblk0_0, iblk0_1]
  show (cfg0.win 4).cut (grid0.coords t) ((dat0 V c).after 4 t) = _
  rw [h]
  exact cut0_4 t _
theorem arr0_5 (c : Dev nD) : (dat0 V c).arrAt 5 cfg0.N
    = out0_5 (V c (Pipeline.arrRef spec0 0)) (V c (Pipeline.arrRef spec0 1)) (V c (Pipeline.arrRef spec0 2)) := by
  refine (dat0 V c).arrAt_eq_of_cover 5 _ (fun t _ => ?_) (cover0_5 c)
  have h : (dat0 V c).after 5 t
    = out0_5 (V c (Pipeline.arrRef spec0 0)) (V c (Pipeline.arrRef spec0 1)) (V c (Pipeline.arrRef spec0 2)) := by
    rw [after0_5, iblk0_0, iblk0_1, iblk0_2]
  show (cfg0.win 5).cut (grid0.coords t) ((dat0 V c).after 5 t) = _
  rw [h]
  exact cut0_5 t _
theorem arr0_6 (c : Dev nD) : (dat0 V c).arrAt 6 cfg0.N
    = out0_6 (V c (Pipeline.arrRef spec0 0)) (V c (Pipeline.arrRef spec0 1)) (V c (Pipeline.arrRef spec0 2))
        (V c (Pipeline.arrRef spec0 3)) := by
  refine (dat0 V c).arrAt_eq_of_cover 6 _ (fun t _ => ?_) (cover0_6 c)
  have h : (dat0 V c).after 6 t
    = out0_6 (V c (Pipeline.arrRef spec0 0)) (V c (Pipeline.arrRef spec0 1)) (V c (Pipeline.arrRef spec0 2))
        (V c (Pipeline.arrRef spec0 3)) := by
    rw [after0_6, iblk0_0, iblk0_1, iblk0_2, iblk0_3]
  show (cfg0.win 6).cut (grid0.coords t) ((dat0 V c).after 6 t) = _
  rw [h]
  exact cut0_6 t _

end Cert.KernelIdeal.Reg

end
-- ==== Proof.StepEqF.lean ====
/-
  The forward kernel's three results are the reference's forward chain: at the ideal instance each `tpu.matmul` into the
  zero accumulator is the host's `dot_general` of the same operands, so the stored blocks are `x·W0`, `(x·W0)·W1`, `((x·W0)·W1)·W2`.
-/
import proofs.«107956_j75110388073098_1_alg».proof.Proof.KIRegion0
import proofs.«107956_j75110388073098_1_alg».proof.Proof.BridgeOps
import proofs.«107956_j75110388073098_1_alg».proof.Proof.RefTerms
import proofs.«107956_j75110388073098_1_alg».proof.Proof.Gen.ReferenceIdeal

noncomputable section

namespace Cert.Bridge

open Idealize.ShloMosaic Idealize.ShloMosaic.TcCoe Idealize.SL.Sem
open Cert.KernelIdeal.Reg Cert.RefSide

/-- The whole-buffer rectangles sit at offset zero on both axes. -/
private theorem zero_off : (![0, 0] : Fin 2 → Nat) = fun _ => 0 := funext fun a => by fin_cases a <;> rfl

theorem out0_4_eq (x W0 : Vec Ideal Cert.KernelIdeal.S1024x1024 .f32) : out0_4 (F := Ideal) x W0 = fwd1 (F := Ideal) x W0 := by
  -- the one whole-buffer store leaves its payload, each whole-buffer load reads its buffer; then the two terms apply the same
  -- operations to the same operands, the kernel's products, splats and same-shape casts read as the reference's
  unfold out0_4
  rw [View.canon_unit_zero zero_off]
  simp only [View.ld_unit_zero (S := Cert.KernelIdeal.S1024x1024) zero_off, View.ld_unit_zero (S := Cert.KernelIdeal.S1024x512) zero_off]
  unfold Cert.KernelIdeal.Gen.k0_pay1 fwd1
  simp only [mm_AAA]
theorem out0_5_eq (x W0 W1 : Vec Ideal Cert.KernelIdeal.S1024x1024 .f32) : out0_5 (F := Ideal) x W0 W1 = fwd2 (F := Ideal) (fwd1 x W0) W1 := by
  unfold out0_5
  rw [View.canon_unit_zero zero_off]
  simp only [View.ld_unit_zero (S := Cert.KernelIdeal.S1024x1024) zero_off, View.ld_unit_zero (S := Cert.KernelIdeal.S1024x512) zero_off]
  unfold Cert.KernelIdeal.Gen.k0_pay2 Cert.KernelIdeal.Gen.k0_pay1 fwd2 fwd1
  simp only [mm_AAA]
theorem out0_6_eq (x W0 W1 : Vec Ideal Cert.KernelIdeal.S1024x1024 .f32) (W2 : Vec Ideal Cert.KernelIdeal.S1024x512 .f32) : out0_6 (F := Ideal) x W0 W1 W2 = fwd3 (F := Ideal) (fwd2 (fwd1 x W0) W1) W2 := by
  unfold out0_6
  rw [View.canon_unit_zero zero_off]
  simp only [View.ld_unit_zero (S := Cert.KernelIdeal.S1024x1024) zero_off, View.ld_unit_zero (S := Cert.KernelIdeal.S1024x512) zero_off]
  unfold Cert.KernelIdeal.Gen.k0_pay3 Cert.KernelIdeal.Gen.k0_pay2 Cert.KernelIdeal.Gen.k0_pay1 fwd3 fwd2 fwd1
  simp only [mm_AAA, mm_ABB]

end Cert.Bridge

end
-- ==== Proof.KIVal0.lean ====
/-
  What region 0 leaves, at the ideal instance: its three output arrays are the forward chain of the launch memory's
  arguments — the relaxation chain's state after no step.
-/
import proofs.«107956_j75110388073098_1_alg».proof.Proof.KIWalk0
import proofs.«107956_j75110388073098_1_alg».proof.Proof.KIArr0
import proofs.«107956_j75110388073098_1_alg».proof.Proof.StepEqF

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The argument arrays of the launch memory, and the relaxation chain over them. -/
abbrev aX (c : Dev nD) : TA Ideal := m ((c : Thread nD τ).loc main_arg0)
abbrev aY (c : Dev nD) : TB Ideal := m ((c : Thread nD τ).loc main_arg1)
abbrev aW0 (c : Dev nD) : TA Ideal := m ((c : Thread nD τ).loc main_arg2)
abbrev aW1 (c : Dev nD) : TA Ideal := m ((c : Thread nD τ).loc main_arg3)
abbrev aW2 (c : Dev nD) : TB Ideal := m ((c : Thread nD τ).loc main_arg4)
abbrev chainAt (c : Dev nD) (k : ℕ) : St Ideal := chain (aX m c) (aY m c) (aW0 m c) (aW1 m c) (aW2 m c) k

/-- Region 0's outputs are the free-phase states. -/
theorem val0 (c : Dev nD) :
    Wo0 m ρ c (Proc.devRef .tc main_v0_0) = (chainAt m c 0).s1
    ∧ Wo0 m ρ c (Proc.devRef .tc main_v0_1) = (chainAt m c 0).s2
    ∧ Wo0 m ρ c (Proc.devRef .tc main_v0_2) = (chainAt m c 0).s3 := by
  refine ⟨?_, ?_, ?_⟩
  · exact ((Wo0_arr m ρ c 4).trans (arr0_4 (Vi0 m ρ) c)).trans (out0_4_eq (aX m c) (aW0 m c))
  · exact ((Wo0_arr m ρ c 5).trans (arr0_5 (Vi0 m ρ) c)).trans (out0_5_eq (aX m c) (aW0 m c) (aW1 m c))
  · exact ((Wo0_arr m ρ c 6).trans (arr0_6 (Vi0 m ρ) c)).trans (out0_6_eq (aX m c) (aW0 m c) (aW1 m c) (aW2 m c))

end Cert.KernelIdeal.Reg

end
-- ==== Proof.KIVal1.lean ====
/-
  What region 1 leaves, at the ideal instance: entered after the host stretch that computes the loss (which touches
  none of its operands), its three output arrays are the relaxation chain's state after the first step; the free-phase
  states and the loss pass through it.
-/
import proofs.«107956_j75110388073098_1_alg».proof.Proof.KIWalk1
import proofs.«107956_j75110388073098_1_alg».proof.Proof.KIArr1
import proofs.«107956_j75110388073098_1_alg».proof.Proof.StepEqC
import proofs.«107956_j75110388073098_1_alg».proof.Proof.KIVal0

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The loss, as the host stretch after region 0 leaves it. -/
abbrev lossAt (c : Dev nD) : FVec Ideal S_ .f32 := Wi1 m ρ c (Proc.devRef .tc main_v4)

/-- The free-phase states at region 1's entry and exit: the host stretch does not write them, the region only reads them. -/
theorem free1 (c : Dev nD) :
    Wo1 m ρ c (Proc.devRef .tc main_v0_0) = (chainAt m c 0).s1
    ∧ Wo1 m ρ c (Proc.devRef .tc main_v0_1) = (chainAt m c 0).s2
    ∧ Wo1 m ρ c (Proc.devRef .tc main_v0_2) = (chainAt m c 0).s3 :=
  ⟨((Wo1_keep m ρ c main_v0_0 (by decide)).trans (Wi1_of m ρ c main_v0_0 (by decide))).trans (val0 m ρ c).1,
   ((Wo1_keep m ρ c main_v0_1 (by decide)).trans (Wi1_of m ρ c main_v0_1 (by decide))).trans (val0 m ρ c).2.1,
   ((Wo1_keep m ρ c main_v0_2 (by decide)).trans (Wi1_of m ρ c main_v0_2 (by decide))).trans (val0 m ρ c).2.2⟩
theorem loss1 (c : Dev nD) : Wo1 m ρ c (Proc.devRef .tc main_v4) = lossAt m ρ c :=
  Wo1_keep m ρ c main_v4 (by decide)

/-- Region 1's outputs are the states after the first step. -/
theorem val1 (c : Dev nD) :
    Wo1 m ρ c (Proc.devRef .tc (Pipeline.arrRef spec1 8)) = (chainAt m c 1).s1
    ∧ Wo1 m ρ c (Proc.devRef .tc (Pipeline.arrRef spec1 9)) = (chainAt m c 1).s2
    ∧ Wo1 m ρ c (Proc.devRef .tc (Pipeline.arrRef spec1 10)) = (chainAt m c 1).s3 := by
  have e0 : Vi1 m ρ c (Pipeline.arrRef spec1 0) = aX m c := Wi1_main_arg0 m ρ c
  have e1 : Vi1 m ρ c (Pipeline.arrRef spec1 1) = (chainAt m c 0).s1 := (Wi1_of m ρ c main_v0_0 (by decide)).trans (val0 m ρ c).1
  have e2 : Vi1 m ρ c (Pipeline.arrRef spec1 2) = (chainAt m c 0).s2 := (Wi1_of m ρ c main_v0_1 (by decide)).trans (val0 m ρ c).2.1
  have e3 : Vi1 m ρ c (Pipeline.arrRef spec1 3) = (chainAt m c 0).s3 := (Wi1_of m ρ c main_v0_2 (by decide)).trans (val0 m ρ c).2.2
  have e4 : Vi1 m ρ c (Pipeline.arrRef spec1 4) = aY m c := Wi1_main_arg1 m ρ c
  have e5 : Vi1 m ρ c (Pipeline.arrRef spec1 5) = aW0 m c := Wi1_main_arg2 m ρ c
  have e6 : Vi1 m ρ c (Pipeline.arrRef spec1 6) = aW1 m c := Wi1_main_arg3 m ρ c
  have e7 : Vi1 m ρ c (Pipeline.arrRef spec1 7) = aW2 m c := Wi1_main_arg4 m ρ c
  refine ⟨?_, ?_, ?_⟩
  · rw [Wo1_arr, arr1_8, e0, e1, e2, e3, e4, e5, e6, e7]
    exact out1_8_eq _ _ _ _ _ _ _ _
  · rw [Wo1_arr, arr1_9, e1, e2, e3, e4, e6, e7]
    exact out1_9_eq _ _ _ _ _ _
  · rw [Wo1_arr, arr1_10, e2, e3, e4, e7]
    exact out1_10_eq _ _ _ _

end Cert.KernelIdeal.Reg

end
-- ==== Proof.KIVal2.lean ====
/-
  What region 2 leaves, at the ideal instance: entered from region 1's exit contents, its three output arrays are the
  relaxation chain's state one step further; the free-phase states and the loss pass through it.
-/
import proofs.«107956_j75110388073098_1_alg».proof.Proof.KIWalk2
import proofs.«107956_j75110388073098_1_alg».proof.Proof.KIArr2
import proofs.«107956_j75110388073098_1_alg».proof.Proof.StepAlias
import proofs.«107956_j75110388073098_1_alg».proof.Proof.KIVal1

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free2 (c : Dev nD) :
    Wo2 m ρ c (Proc.devRef .tc main_v0_0) = (chainAt m c 0).s1
    ∧ Wo2 m ρ c (Proc.devRef .tc main_v0_1) = (chainAt m c 0).s2
    ∧ Wo2 m ρ c (Proc.devRef .tc main_v0_2) = (chainAt m c 0).s3 :=
  ⟨(Wo2_keep m ρ c main_v0_0 (by decide)).trans (free1 m ρ c).1,
   (Wo2_keep m ρ c main_v0_1 (by decide)).trans (free1 m ρ c).2.1,
   (Wo2_keep m ρ c main_v0_2 (by decide)).trans (free1 m ρ c).2.2⟩
theorem loss2 (c : Dev nD) : Wo2 m ρ c (Proc.devRef .tc main_v4) = lossAt m ρ c :=
  (Wo2_keep m ρ c main_v4 (by decide)).trans (loss1 m ρ c)

/-- This step's kernel text is the direct-gradient step's: its results are the same functions of its input arrays. -/
theorem same2_8 (x s1 s2 W0 W1 : Vec Ideal S1024x1024 .f32) : out2_8 (F := Ideal) x s1 s2 W0 W1 = stepA x s1 s2 W0 W1 := rfl
theorem same2_9 (s1 s2 : Vec Ideal S1024x1024 .f32) (s3 : Vec Ideal S1024x512 .f32) (W1 : Vec Ideal S1024x1024 .f32) (W2 : Vec Ideal S1024x512 .f32) :
    out2_9 (F := Ideal) s1 s2 s3 W1 W2 = stepB s1 s2 s3 W1 W2 := rfl
theorem same2_10 (s2 : Vec Ideal S1024x1024 .f32) (s3 y W2 : Vec Ideal S1024x512 .f32) : out2_10 (F := Ideal) s2 s3 y W2 = stepC s2 s3 y W2 := rfl

/-- Region 2's outputs are the states one step further. -/
theorem val2 (c : Dev nD) :
    Wo2 m ρ c (Proc.devRef .tc (Pipeline.arrRef spec2 8)) = (chainAt m c 2).s1
    ∧ Wo2 m ρ c (Proc.devRef .tc (Pipeline.arrRef spec2 9)) = (chainAt m c 2).s2
    ∧ Wo2 m ρ c (Proc.devRef .tc (Pipeline.arrRef spec2 10)) = (chainAt m c 2).s3 := by
  have e0 : Vi2 m ρ c (Pipeline.arrRef spec2 0) = aX m c := Wi2_main_arg0 m ρ c
  have e1 : Vi2 m ρ c (Pipeline.arrRef spec2 1) = (chainAt m c 1).s1 := (val1 m ρ c).1
  have e2 : Vi2 m ρ c (Pipeline.arrRef spec2 2) = (chainAt m c 1).s2 := (val1 m ρ c).2.1
  have e3 : Vi2 m ρ c (Pipeline.arrRef spec2 3) = (chainAt m c 1).s3 := (val1 m ρ c).2.2
  have e4 : Vi2 m ρ c (Pipeline.arrRef spec2 4) = aY m c := Wi2_main_arg1 m ρ c
  have e5 : Vi2 m ρ c (Pipeline.arrRef spec2 5) = aW0 m c := Wi2_main_arg2 m ρ c
  have e6 : Vi2 m ρ c (Pipeline.arrRef spec2 6) = aW1 m c := Wi2_main_arg3 m ρ c
  have e7 : Vi2 m ρ c (Pipeline.arrRef spec2 7) = aW2 m c := Wi2_main_arg4 m ρ c
  refine ⟨?_, ?_, ?_⟩
  · rw [Wo2_arr, arr2_8, e0, e1, e2, e5, e6, same2_8]
    exact stepA_eq _ _ _ _ _
  · rw [Wo2_arr, arr2_9, e1, e2, e3, e6, e7, same2_9]
    exact stepB_eq _ _ _ _ _
  · rw [Wo2_arr, arr2_10, e2, e3, e4, e7, same2_10]
    exact stepC_eq _ _ _ _

end Cert.KernelIdeal.Reg

end
-- ==== Proof.KIVal3.lean ====
/-
  What region 3 leaves, at the ideal instance: entered from region 2's exit contents, its three output arrays are the
  relaxation chain's state one step further; the free-phase states and the loss pass through it.
-/
import proofs.«107956_j75110388073098_1_alg».proof.Proof.KIWalk3
import proofs.«107956_j75110388073098_1_alg».proof.Proof.KIArr3
import proofs.«107956_j75110388073098_1_alg».proof.Proof.StepAlias
import proofs.«107956_j75110388073098_1_alg».proof.Proof.KIVal2

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free3 (c : Dev nD) :
    Wo3 m ρ c (Proc.devRef .tc main_v0_0) = (chainAt m c 0).s1
    ∧ Wo3 m ρ c (Proc.devRef .tc main_v0_1) = (chainAt m c 0).s2
    ∧ Wo3 m ρ c (Proc.devRef .tc main_v0_2) = (chainAt m c 0).s3 :=
  ⟨(Wo3_keep m ρ c main_v0_0 (by decide)).trans (free2 m ρ c).1,
   (Wo3_keep m ρ c main_v0_1 (by decide)).trans (free2 m ρ c).2.1,
   (Wo3_keep m ρ c main_v0_2 (by decide)).trans (free2 m ρ c).2.2⟩
theorem loss3 (c : Dev nD) : Wo3 m ρ c (Proc.devRef .tc main_v4) = lossAt m ρ c :=
  (Wo3_keep m ρ c main_v4 (by decide)).trans (loss2 m ρ c)

/-- This step's kernel text is the direct-gradient step's: its results are the same functions of its input arrays. -/
theorem same3_8 (x s1 s2 W0 W1 : Vec Ideal S1024x1024 .f32) : out3_8 (F := Ideal) x s1 s2 W0 W1 = stepA x s1 s2 W0 W1 := rfl
theorem same3_9 (s1 s2 : Vec Ideal S1024x1024 .f32) (s3 : Vec Ideal S1024x512 .f32) (W1 : Vec Ideal S1024x1024 .f32) (W2 : Vec Ideal S1024x512 .f32) :
    out3_9 (F := Ideal) s1 s2 s3 W1 W2 = stepB s1 s2 s3 W1 W2 := rfl
theorem same3_10 (s2 : Vec Ideal S1024x1024 .f32) (s3 y W2 : Vec Ideal S1024x512 .f32) : out3_10 (F := Ideal) s2 s3 y W2 = stepC s2 s3 y W2 := rfl

/-- Region 3's outputs are the states one step further. -/
theorem val3 (c : Dev nD) :
    Wo3 m ρ c (Proc.devRef .tc (Pipeline.arrRef spec3 8)) = (chainAt m c 3).s1
    ∧ Wo3 m ρ c (Proc.devRef .tc (Pipeline.arrRef spec3 9)) = (chainAt m c 3).s2
    ∧ Wo3 m ρ c (Proc.devRef .tc (Pipeline.arrRef spec3 10)) = (chainAt m c 3).s3 := by
  have e0 : Vi3 m ρ c (Pipeline.arrRef spec3 0) = aX m c := Wi3_main_arg0 m ρ c
  have e1 : Vi3 m ρ c (Pipeline.arrRef spec3 1) = (chainAt m c 2).s1 := (val2 m ρ c).1
  have e2 : Vi3 m ρ c (Pipeline.arrRef spec3 2) = (chainAt m c 2).s2 := (val2 m ρ c).2.1
  have e3 : Vi3 m ρ c (Pipeline.arrRef spec3 3) = (chainAt m c 2).s3 := (val2 m ρ c).2.2
  have e4 : Vi3 m ρ c (Pipeline.arrRef spec3 4) = aY m c := Wi3_main_arg1 m ρ c
  have e5 : Vi3 m ρ c (Pipeline.arrRef spec3 5) = aW0 m c := Wi3_main_arg2 m ρ c
  have e6 : Vi3 m ρ c (Pipeline.arrRef spec3 6) = aW1 m c := Wi3_main_arg3 m ρ c
  have e7 : Vi3 m ρ c (Pipeline.arrRef spec3 7) = aW2 m c := Wi3_main_arg4 m ρ c
  refine ⟨?_, ?_, ?_⟩
  · rw [Wo3_arr, arr3_8, e0, e1, e2, e5, e6, same3_8]
    exact stepA_eq _ _ _ _ _
  · rw [Wo3_arr, arr3_9, e1, e2, e3, e6, e7, same3_9]
    exact stepB_eq _ _ _ _ _
  · rw [Wo3_arr, arr3_10, e2, e3, e4, e7, same3_10]
    exact stepC_eq _ _ _ _

end Cert.KernelIdeal.Reg

end
-- ==== Proof.KIVal4.lean ====
/-
  What region 4 leaves, at the ideal instance: entered from region 3's exit contents, its three output arrays are the
  relaxation chain's state one step further; the free-phase states and the loss pass through it.
-/
import proofs.«107956_j75110388073098_1_alg».proof.Proof.KIWalk4
import proofs.«107956_j75110388073098_1_alg».proof.Proof.KIArr4
import proofs.«107956_j75110388073098_1_alg».proof.Proof.StepAlias
import proofs.«107956_j75110388073098_1_alg».proof.Proof.KIVal3

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free4 (c : Dev nD) :
    Wo4 m ρ c (Proc.devRef .tc main_v0_0) = (chainAt m c 0).s1
    ∧ Wo4 m ρ c (Proc.devRef .tc main_v0_1) = (chainAt m c 0).s2
    ∧ Wo4 m ρ c (Proc.devRef .tc main_v0_2) = (chainAt m c 0).s3 :=
  ⟨(Wo4_keep m ρ c main_v0_0 (by decide)).trans (free3 m ρ c).1,
   (Wo4_keep m ρ c main_v0_1 (by decide)).trans (free3 m ρ c).2.1,
   (Wo4_keep m ρ c main_v0_2 (by decide)).trans (free3 m ρ c).2.2⟩
theorem loss4 (c : Dev nD) : Wo4 m ρ c (Proc.devRef .tc main_v4) = lossAt m ρ c :=
  (Wo4_keep m ρ c main_v4 (by decide)).trans (loss3 m ρ c)

/-- This step's kernel text is the direct-gradient step's: its results are the same functions of its input arrays. -/
theorem same4_8 (x s1 s2 W0 W1 : Vec Ideal S1024x1024 .f32) : out4_8 (F := Ideal) x s1 s2 W0 W1 = stepA x s1 s2 W0 W1 := rfl
theorem same4_9 (s1 s2 : Vec Ideal S1024x1024 .f32) (s3 : Vec Ideal S1024x512 .f32) (W1 : Vec Ideal S1024x1024 .f32) (W2 : Vec Ideal S1024x512 .f32) :
    out4_9 (F := Ideal) s1 s2 s3 W1 W2 = stepB s1 s2 s3 W1 W2 := rfl
theorem same4_10 (s2 : Vec Ideal S1024x1024 .f32) (s3 y W2 : Vec Ideal S1024x512 .f32) : out4_10 (F := Ideal) s2 s3 y W2 = stepC s2 s3 y W2 := rfl

/-- Region 4's outputs are the states one step further. -/
theorem val4 (c : Dev nD) :
    Wo4 m ρ c (Proc.devRef .tc (Pipeline.arrRef spec4 8)) = (chainAt m c 4).s1
    ∧ Wo4 m ρ c (Proc.devRef .tc (Pipeline.arrRef spec4 9)) = (chainAt m c 4).s2
    ∧ Wo4 m ρ c (Proc.devRef .tc (Pipeline.arrRef spec4 10)) = (chainAt m c 4).s3 := by
  have e0 : Vi4 m ρ c (Pipeline.arrRef spec4 0) = aX m c := Wi4_main_arg0 m ρ c
  have e1 : Vi4 m ρ c (Pipeline.arrRef spec4 1) = (chainAt m c 3).s1 := (val3 m ρ c).1
  have e2 : Vi4 m ρ c (Pipeline.arrRef spec4 2) = (chainAt m c 3).s2 := (val3 m ρ c).2.1
  have e3 : Vi4 m ρ c (Pipeline.arrRef spec4 3) = (chainAt m c 3).s3 := (val3 m ρ c).2.2
  have e4 : Vi4 m ρ c (Pipeline.arrRef spec4 4) = aY m c := Wi4_main_arg1 m ρ c
  have e5 : Vi4 m ρ c (Pipeline.arrRef spec4 5) = aW0 m c := Wi4_main_arg2 m ρ c
  have e6 : Vi4 m ρ c (Pipeline.arrRef spec4 6) = aW1 m c := Wi4_main_arg3 m ρ c
  have e7 : Vi4 m ρ c (Pipeline.arrRef spec4 7) = aW2 m c := Wi4_main_arg4 m ρ c
  refine ⟨?_, ?_, ?_⟩
  · rw [Wo4_arr, arr4_8, e0, e1, e2, e5, e6, same4_8]
    exact stepA_eq _ _ _ _ _
  · rw [Wo4_arr, arr4_9, e1, e2, e3, e6, e7, same4_9]
    exact stepB_eq _ _ _ _ _
  · rw [Wo4_arr, arr4_10, e2, e3, e4, e7, same4_10]
    exact stepC_eq _ _ _ _

end Cert.KernelIdeal.Reg

end
-- ==== Proof.KIVal5.lean ====
/-
  What region 5 leaves, at the ideal instance: entered from region 4's exit contents, its three output arrays are the
  relaxation chain's state one step further; the free-phase states and the loss pass through it.
-/
import proofs.«107956_j75110388073098_1_alg».proof.Proof.KIWalk5
import proofs.«107956_j75110388073098_1_alg».proof.Proof.KIArr5
import proofs.«107956_j75110388073098_1_alg».proof.Proof.StepAlias
import proofs.«107956_j75110388073098_1_alg».proof.Proof.KIVal4

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free5 (c : Dev nD) :
    Wo5 m ρ c (Proc.devRef .tc main_v0_0) = (chainAt m c 0).s1
    ∧ Wo5 m ρ c (Proc.devRef .tc main_v0_1) = (chainAt m c 0).s2
    ∧ Wo5 m ρ c (Proc.devRef .tc main_v0_2) = (chainAt m c 0).s3 :=
  ⟨(Wo5_keep m ρ c main_v0_0 (by decide)).trans (free4 m ρ c).1,
   (Wo5_keep m ρ c main_v0_1 (by decide)).trans (free4 m ρ c).2.1,
   (Wo5_keep m ρ c main_v0_2 (by decide)).trans (free4 m ρ c).2.2⟩
theorem loss5 (c : Dev nD) : Wo5 m ρ c (Proc.devRef .tc main_v4) = lossAt m ρ c :=
  (Wo5_keep m ρ c main_v4 (by decide)).trans (loss4 m ρ c)

/-- This step's kernel text is the direct-gradient step's: its results are the same functions of its input arrays. -/
theorem same5_8 (x s1 s2 W0 W1 : Vec Ideal S1024x1024 .f32) : out5_8 (F := Ideal) x s1 s2 W0 W1 = stepA x s1 s2 W0 W1 := rfl
theorem same5_9 (s1 s2 : Vec Ideal S1024x1024 .f32) (s3 : Vec Ideal S1024x512 .f32) (W1 : Vec Ideal S1024x1024 .f32) (W2 : Vec Ideal S1024x512 .f32) :
    out5_9 (F := Ideal) s1 s2 s3 W1 W2 = stepB s1 s2 s3 W1 W2 := rfl
theorem same5_10 (s2 : Vec Ideal S1024x1024 .f32) (s3 y W2 : Vec Ideal S1024x512 .f32) : out5_10 (F := Ideal) s2 s3 y W2 = stepC s2 s3 y W2 := rfl

/-- Region 5's outputs are the states one step further. -/
theorem val5 (c : Dev nD) :
    Wo5 m ρ c (Proc.devRef .tc (Pipeline.arrRef spec5 8)) = (chainAt m c 5).s1
    ∧ Wo5 m ρ c (Proc.devRef .tc (Pipeline.arrRef spec5 9)) = (chainAt m c 5).s2
    ∧ Wo5 m ρ c (Proc.devRef .tc (Pipeline.arrRef spec5 10)) = (chainAt m c 5).s3 := by
  have e0 : Vi5 m ρ c (Pipeline.arrRef spec5 0) = aX m c := Wi5_main_arg0 m ρ c
  have e1 : Vi5 m ρ c (Pipeline.arrRef spec5 1) = (chainAt m c 4).s1 := (val4 m ρ c).1
  have e2 : Vi5 m ρ c (Pipeline.arrRef spec5 2) = (chainAt m c 4).s2 := (val4 m ρ c).2.1
  have e3 : Vi5 m ρ c (Pipeline.arrRef spec5 3) = (chainAt m c 4).s3 := (val4 m ρ c).2.2
  have e4 : Vi5 m ρ c (Pipeline.arrRef spec5 4) = aY m c := Wi5_main_arg1 m ρ c
  have e5 : Vi5 m ρ c (Pipeline.arrRef spec5 5) = aW0 m c := Wi5_main_arg2 m ρ c
  have e6 : Vi5 m ρ c (Pipeline.arrRef spec5 6) = aW1 m c := Wi5_main_arg3 m ρ c
  have e7 : Vi5 m ρ c (Pipeline.arrRef spec5 7) = aW2 m c := Wi5_main_arg4 m ρ c
  refine ⟨?_, ?_, ?_⟩
  · rw [Wo5_arr, arr5_8, e0, e1, e2, e5, e6, same5_8]
    exact stepA_eq _ _ _ _ _
  · rw [Wo5_arr, arr5_9, e1, e2, e3, e6, e7, same5_9]
    exact stepB_eq _ _ _ _ _
  · rw [Wo5_arr, arr5_10, e2, e3, e4, e7, same5_10]
    exact stepC_eq _ _ _ _

end Cert.KernelIdeal.Reg

end
-- ==== Proof.KIVal6.lean ====
/-
  What region 6 leaves, at the ideal instance: entered from region 5's exit contents, its three output arrays are the
  relaxation chain's state one step further; the free-phase states and the loss pass through it.
-/
import proofs.«107956_j75110388073098_1_alg».proof.Proof.KIWalk6
import proofs.«107956_j75110388073098_1_alg».proof.Proof.KIArr6
import proofs.«107956_j75110388073098_1_alg».proof.Proof.StepAlias
import proofs.«107956_j75110388073098_1_alg».proof.Proof.KIVal5

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free6 (c : Dev nD) :
    Wo6 m ρ c (Proc.devRef .tc main_v0_0) = (chainAt m c 0).s1
    ∧ Wo6 m ρ c (Proc.devRef .tc main_v0_1) = (chainAt m c 0).s2
    ∧ Wo6 m ρ c (Proc.devRef .tc main_v0_2) = (chainAt m c 0).s3 :=
  ⟨(Wo6_keep m ρ c main_v0_0 (by decide)).trans (free5 m ρ c).1,
   (Wo6_keep m ρ c main_v0_1 (by decide)).trans (free5 m ρ c).2.1,
   (Wo6_keep m ρ c main_v0_2 (by decide)).trans (free5 m ρ c).2.2⟩
theorem loss6 (c : Dev nD) : Wo6 m ρ c (Proc.devRef .tc main_v4) = lossAt m ρ c :=
  (Wo6_keep m ρ c main_v4 (by decide)).trans (loss5 m ρ c)

/-- This step's kernel text is the direct-gradient step's: its results are the same functions of its input arrays. -/
theorem same6_8 (x s1 s2 W0 W1 : Vec Ideal S1024x1024 .f32) : out6_8 (F := Ideal) x s1 s2 W0 W1 = stepA x s1 s2 W0 W1 := rfl
theorem same6_9 (s1 s2 : Vec Ideal S1024x1024 .f32) (s3 : Vec Ideal S1024x512 .f32) (W1 : Vec Ideal S1024x1024 .f32) (W2 : Vec Ideal S1024x512 .f32) :
    out6_9 (F := Ideal) s1 s2 s3 W1 W2 = stepB s1 s2 s3 W1 W2 := rfl
theorem same6_10 (s2 : Vec Ideal S1024x1024 .f32) (s3 y W2 : Vec Ideal S1024x512 .f32) : out6_10 (F := Ideal) s2 s3 y W2 = stepC s2 s3 y W2 := rfl

/-- Region 6's outputs are the states one step further. -/
theorem val6 (c : Dev nD) :
    Wo6 m ρ c (Proc.devRef .tc (Pipeline.arrRef spec6 8)) = (chainAt m c 6).s1
    ∧ Wo6 m ρ c (Proc.devRef .tc (Pipeline.arrRef spec6 9)) = (chainAt m c 6).s2
    ∧ Wo6 m ρ c (Proc.devRef .tc (Pipeline.arrRef spec6 10)) = (chainAt m c 6).s3 := by
  have e0 : Vi6 m ρ c (Pipeline.arrRef spec6 0) = aX m c := Wi6_main_arg0 m ρ c
  have e1 : Vi6 m ρ c (Pipeline.arrRef spec6 1) = (chainAt m c 5).s1 := (val5 m ρ c).1
  have e2 : Vi6 m ρ c (Pipeline.arrRef spec6 2) = (chainAt m c 5).s2 := (val5 m ρ c).2.1
  have e3 : Vi6 m ρ c (Pipeline.arrRef spec6 3) = (chainAt m c 5).s3 := (val5 m ρ c).2.2
  have e4 : Vi6 m ρ c (Pipeline.arrRef spec6 4) = aY m c := Wi6_main_arg1 m ρ c
  have e5 : Vi6 m ρ c (Pipeline.arrRef spec6 5) = aW0 m c := Wi6_main_arg2 m ρ c
  have e6 : Vi6 m ρ c (Pipeline.arrRef spec6 6) = aW1 m c := Wi6_main_arg3 m ρ c
  have e7 : Vi6 m ρ c (Pipeline.arrRef spec6 7) = aW2 m c := Wi6_main_arg4 m ρ c
  refine ⟨?_, ?_, ?_⟩
  · rw [Wo6_arr, arr6_8, e0, e1, e2, e5, e6, same6_8]
    exact stepA_eq _ _ _ _ _
  · rw [Wo6_arr, arr6_9, e1, e2, e3, e6, e7, same6_9]
    exact stepB_eq _ _ _ _ _
  · rw [Wo6_arr, arr6_10, e2, e3, e4, e7, same6_10]
    exact stepC_eq _ _ _ _

end Cert.KernelIdeal.Reg

end
-- ==== Proof.KIVal7.lean ====
/-
  What region 7 leaves, at the ideal instance: entered from region 6's exit contents, its three output arrays are the
  relaxation chain's state one step further; the free-phase states and the loss pass through it.
-/
import proofs.«107956_j75110388073098_1_alg».proof.Proof.KIWalk7
import proofs.«107956_j75110388073098_1_alg».proof.Proof.KIArr7
import proofs.«107956_j75110388073098_1_alg».proof.Proof.StepAlias
import proofs.«107956_j75110388073098_1_alg».proof.Proof.KIVal6

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free7 (c : Dev nD) :
    Wo7 m ρ c (Proc.devRef .tc main_v0_0) = (chainAt m c 0).s1
    ∧ Wo7 m ρ c (Proc.devRef .tc main_v0_1) = (chainAt m c 0).s2
    ∧ Wo7 m ρ c (Proc.devRef .tc main_v0_2) = (chainAt m c 0).s3 :=
  ⟨(Wo7_keep m ρ c main_v0_0 (by decide)).trans (free6 m ρ c).1,
   (Wo7_keep m ρ c main_v0_1 (by decide)).trans (free6 m ρ c).2.1,
   (Wo7_keep m ρ c main_v0_2 (by decide)).trans (free6 m ρ c).2.2⟩
theorem loss7 (c : Dev nD) : Wo7 m ρ c (Proc.devRef .tc main_v4) = lossAt m ρ c :=
  (Wo7_keep m ρ c main_v4 (by decide)).trans (loss6 m ρ c)

/-- This step's kernel text is the direct-gradient step's: its results are the same functions of its input arrays. -/
theorem same7_8 (x s1 s2 W0 W1 : Vec Ideal S1024x1024 .f32) : out7_8 (F := Ideal) x s1 s2 W0 W1 = stepA x s1 s2 W0 W1 := rfl
theorem same7_9 (s1 s2 : Vec Ideal S1024x1024 .f32) (s3 : Vec Ideal S1024x512 .f32) (W1 : Vec Ideal S1024x1024 .f32) (W2 : Vec Ideal S1024x512 .f32) :
    out7_9 (F := Ideal) s1 s2 s3 W1 W2 = stepB s1 s2 s3 W1 W2 := rfl
theorem same7_10 (s2 : Vec Ideal S1024x1024 .f32) (s3 y W2 : Vec Ideal S1024x512 .f32) : out7_10 (F := Ideal) s2 s3 y W2 = stepC s2 s3 y W2 := rfl

/-- Region 7's outputs are the states one step further. -/
theorem val7 (c : Dev nD) :
    Wo7 m ρ c (Proc.devRef .tc (Pipeline.arrRef spec7 8)) = (chainAt m c 7).s1
    ∧ Wo7 m ρ c (Proc.devRef .tc (Pipeline.arrRef spec7 9)) = (chainAt m c 7).s2
    ∧ Wo7 m ρ c (Proc.devRef .tc (Pipeline.arrRef spec7 10)) = (chainAt m c 7).s3 := by
  have e0 : Vi7 m ρ c (Pipeline.arrRef spec7 0) = aX m c := Wi7_main_arg0 m ρ c
  have e1 : Vi7 m ρ c (Pipeline.arrRef spec7 1) = (chainAt m c 6).s1 := (val6 m ρ c).1
  have e2 : Vi7 m ρ c (Pipeline.arrRef spec7 2) = (chainAt m c 6).s2 := (val6 m ρ c).2.1
  have e3 : Vi7 m ρ c (Pipeline.arrRef spec7 3) = (chainAt m c 6).s3 := (val6 m ρ c).2.2
  have e4 : Vi7 m ρ c (Pipeline.arrRef spec7 4) = aY m c := Wi7_main_arg1 m ρ c
  have e5 : Vi7 m ρ c (Pipeline.arrRef spec7 5) = aW0 m c := Wi7_main_arg2 m ρ c
  have e6 : Vi7 m ρ c (Pipeline.arrRef spec7 6) = aW1 m c := Wi7_main_arg3 m ρ c
  have e7 : Vi7 m ρ c (Pipeline.arrRef spec7 7) = aW2 m c := Wi7_main_arg4 m ρ c
  refine ⟨?_, ?_, ?_⟩
  · rw [Wo7_arr, arr7_8, e0, e1, e2, e5, e6, same7_8]
    exact stepA_eq _ _ _ _ _
  · rw [Wo7_arr, arr7_9, e1, e2, e3, e6, e7, same7_9]
    exact stepB_eq _ _ _ _ _
  · rw [Wo7_arr, arr7_10, e2, e3, e4, e7, same7_10]
    exact stepC_eq _ _ _ _

end Cert.KernelIdeal.Reg

end
-- ==== Proof.KIVal8.lean ====
/-
  What region 8 leaves, at the ideal instance: entered from region 7's exit contents, its three output arrays are the
  relaxation chain's state one step further; the free-phase states and the loss pass through it.
-/
import proofs.«107956_j75110388073098_1_alg».proof.Proof.KIWalk8
import proofs.«107956_j75110388073098_1_alg».proof.Proof.KIArr8
import proofs.«107956_j75110388073098_1_alg».proof.Proof.StepAlias
import proofs.«107956_j75110388073098_1_alg».proof.Proof.KIVal7

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free8 (c : Dev nD) :
    Wo8 m ρ c (Proc.devRef .tc main_v0_0) = (chainAt m c 0).s1
    ∧ Wo8 m ρ c (Proc.devRef .tc main_v0_1) = (chainAt m c 0).s2
    ∧ Wo8 m ρ c (Proc.devRef .tc main_v0_2) = (chainAt m c 0).s3 :=
  ⟨(Wo8_keep m ρ c main_v0_0 (by decide)).trans (free7 m ρ c).1,
   (Wo8_keep m ρ c main_v0_1 (by decide)).trans (free7 m ρ c).2.1,
   (Wo8_keep m ρ c main_v0_2 (by decide)).trans (free7 m ρ c).2.2⟩
theorem loss8 (c : Dev nD) : Wo8 m ρ c (Proc.devRef .tc main_v4) = lossAt m ρ c :=
  (Wo8_keep m ρ c main_v4 (by decide)).trans (loss7 m ρ c)

/-- This step's kernel text is the direct-gradient step's: its results are the same functions of its input arrays. -/
theorem same8_8 (x s1 s2 W0 W1 : Vec Ideal S1024x1024 .f32) : out8_8 (F := Ideal) x s1 s2 W0 W1 = stepA x s1 s2 W0 W1 := rfl
theorem same8_9 (s1 s2 : Vec Ideal S1024x1024 .f32) (s3 : Vec Ideal S1024x512 .f32) (W1 : Vec Ideal S1024x1024 .f32) (W2 : Vec Ideal S1024x512 .f32) :
    out8_9 (F := Ideal) s1 s2 s3 W1 W2 = stepB s1 s2 s3 W1 W2 := rfl
theorem same8_10 (s2 : Vec Ideal S1024x1024 .f32) (s3 y W2 : Vec Ideal S1024x512 .f32) : out8_10 (F := Ideal) s2 s3 y W2 = stepC s2 s3 y W2 := rfl

/-- Region 8's outputs are the states one step further. -/
theorem val8 (c : Dev nD) :
    Wo8 m ρ c (Proc.devRef .tc (Pipeline.arrRef spec8 8)) = (chainAt m c 8).s1
    ∧ Wo8 m ρ c (Proc.devRef .tc (Pipeline.arrRef spec8 9)) = (chainAt m c 8).s2
    ∧ Wo8 m ρ c (Proc.devRef .tc (Pipeline.arrRef spec8 10)) = (chainAt m c 8).s3 := by
  have e0 : Vi8 m ρ c (Pipeline.arrRef spec8 0) = aX m c := Wi8_main_arg0 m ρ c
  have e1 : Vi8 m ρ c (Pipeline.arrRef spec8 1) = (chainAt m c 7).s1 := (val7 m ρ c).1
  have e2 : Vi8 m ρ c (Pipeline.arrRef spec8 2) = (chainAt m c 7).s2 := (val7 m ρ c).2.1
  have e3 : Vi8 m ρ c (Pipeline.arrRef spec8 3) = (chainAt m c 7).s3 := (val7 m ρ c).2.2
  have e4 : Vi8 m ρ c (Pipeline.arrRef spec8 4) = aY m c := Wi8_main_arg1 m ρ c
  have e5 : Vi8 m ρ c (Pipeline.arrRef spec8 5) = aW0 m c := Wi8_main_arg2 m ρ c
  have e6 : Vi8 m ρ c (Pipeline.arrRef spec8 6) = aW1 m c := Wi8_main_arg3 m ρ c
  have e7 : Vi8 m ρ c (Pipeline.arrRef spec8 7) = aW2 m c := Wi8_main_arg4 m ρ c
  refine ⟨?_, ?_, ?_⟩
  · rw [Wo8_arr, arr8_8, e0, e1, e2, e5, e6, same8_8]
    exact stepA_eq _ _ _ _ _
  · rw [Wo8_arr, arr8_9, e1, e2, e3, e6, e7, same8_9]
    exact stepB_eq _ _ _ _ _
  · rw [Wo8_arr, arr8_10, e2, e3, e4, e7, same8_10]
    exact stepC_eq _ _ _ _

end Cert.KernelIdeal.Reg

end
-- ==== Proof.KIVal9.lean ====
/-
  What region 9 leaves, at the ideal instance: entered from region 8's exit contents, its three output arrays are the
  relaxation chain's state one step further; the free-phase states and the loss pass through it.
-/
import proofs.«107956_j75110388073098_1_alg».proof.Proof.KIWalk9
import proofs.«107956_j75110388073098_1_alg».proof.Proof.KIArr9
import proofs.«107956_j75110388073098_1_alg».proof.Proof.StepAlias
import proofs.«107956_j75110388073098_1_alg».proof.Proof.KIVal8

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free9 (c : Dev nD) :
    Wo9 m ρ c (Proc.devRef .tc main_v0_0) = (chainAt m c 0).s1
    ∧ Wo9 m ρ c (Proc.devRef .tc main_v0_1) = (chainAt m c 0).s2
    ∧ Wo9 m ρ c (Proc.devRef .tc main_v0_2) = (chainAt m c 0).s3 :=
  ⟨(Wo9_keep m ρ c main_v0_0 (by decide)).trans (free8 m ρ c).1,
   (Wo9_keep m ρ c main_v0_1 (by decide)).trans (free8 m ρ c).2.1,
   (Wo9_keep m ρ c main_v0_2 (by decide)).trans (free8 m ρ c).2.2⟩
theorem loss9 (c : Dev nD) : Wo9 m ρ c (Proc.devRef .tc main_v4) = lossAt m ρ c :=
  (Wo9_keep m ρ c main_v4 (by decide)).trans (loss8 m ρ c)

/-- This step's kernel text is the direct-gradient step's: its results are the same functions of its input arrays. -/
theorem same9_8 (x s1 s2 W0 W1 : Vec Ideal S1024x1024 .f32) : out9_8 (F := Ideal) x s1 s2 W0 W1 = stepA x s1 s2 W0 W1 := rfl
theorem same9_9 (s1 s2 : Vec Ideal S1024x1024 .f32) (s3 : Vec Ideal S1024x512 .f32) (W1 : Vec Ideal S1024x1024 .f32) (W2 : Vec Ideal S1024x512 .f32) :
    out9_9 (F := Ideal) s1 s2 s3 W1 W2 = stepB s1 s2 s3 W1 W2 := rfl
theorem same9_10 (s2 : Vec Ideal S1024x1024 .f32) (s3 y W2 : Vec Ideal S1024x512 .f32) : out9_10 (F := Ideal) s2 s3 y W2 = stepC s2 s3 y W2 := rfl

/-- Region 9's outputs are the states one step further. -/
theorem val9 (c : Dev nD) :
    Wo9 m ρ c (Proc.devRef .tc (Pipeline.arrRef spec9 8)) = (chainAt m c 9).s1
    ∧ Wo9 m ρ c (Proc.devRef .tc (Pipeline.arrRef spec9 9)) = (chainAt m c 9).s2
    ∧ Wo9 m ρ c (Proc.devRef .tc (Pipeline.arrRef spec9 10)) = (chainAt m c 9).s3 := by
  have e0 : Vi9 m ρ c (Pipeline.arrRef spec9 0) = aX m c := Wi9_main_arg0 m ρ c
  have e1 : Vi9 m ρ c (Pipeline.arrRef spec9 1) = (chainAt m c 8).s1 := (val8 m ρ c).1
  have e2 : Vi9 m ρ c (Pipeline.arrRef spec9 2) = (chainAt m c 8).s2 := (val8 m ρ c).2.1
  have e3 : Vi9 m ρ c (Pipeline.arrRef spec9 3) = (chainAt m c 8).s3 := (val8 m ρ c).2.2
  have e4 : Vi9 m ρ c (Pipeline.arrRef spec9 4) = aY m c := Wi9_main_arg1 m ρ c
  have e5 : Vi9 m ρ c (Pipeline.arrRef spec9 5) = aW0 m c := Wi9_main_arg2 m ρ c
  have e6 : Vi9 m ρ c (Pipeline.arrRef spec9 6) = aW1 m c := Wi9_main_arg3 m ρ c
  have e7 : Vi9 m ρ c (Pipeline.arrRef spec9 7) = aW2 m c := Wi9_main_arg4 m ρ c
  refine ⟨?_, ?_, ?_⟩
  · rw [Wo9_arr, arr9_8, e0, e1, e2, e5, e6, same9_8]
    exact stepA_eq _ _ _ _ _
  · rw [Wo9_arr, arr9_9, e1, e2, e3, e6, e7, same9_9]
    exact stepB_eq _ _ _ _ _
  · rw [Wo9_arr, arr9_10, e2, e3, e4, e7, same9_10]
    exact stepC_eq _ _ _ _

end Cert.KernelIdeal.Reg

end
-- ==== Proof.KIVal10.lean ====
/-
  What region 10 leaves, at the ideal instance: entered from region 9's exit contents, its three output arrays are the
  relaxation chain's state one step further; the free-phase states and the loss pass through it.
-/
import proofs.«107956_j75110388073098_1_alg».proof.Proof.KIWalk10
import proofs.«107956_j75110388073098_1_alg».proof.Proof.KIArr10
import proofs.«107956_j75110388073098_1_alg».proof.Proof.StepAlias
import proofs.«107956_j75110388073098_1_alg».proof.Proof.KIVal9

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free10 (c : Dev nD) :
    Wo10 m ρ c (Proc.devRef .tc main_v0_0) = (chainAt m c 0).s1
    ∧ Wo10 m ρ c (Proc.devRef .tc main_v0_1) = (chainAt m c 0).s2
    ∧ Wo10 m ρ c (Proc.devRef .tc main_v0_2) = (chainAt m c 0).s3 :=
  ⟨(Wo10_keep m ρ c main_v0_0 (by decide)).trans (free9 m ρ c).1,
   (Wo10_keep m ρ c main_v0_1 (by decide)).trans (free9 m ρ c).2.1,
   (Wo10_keep m ρ c main_v0_2 (by decide)).trans (free9 m ρ c).2.2⟩
theorem loss10 (c : Dev nD) : Wo10 m ρ c (Proc.devRef .tc main_v4) = lossAt m ρ c :=
  (Wo10_keep m ρ c main_v4 (by decide)).trans (loss9 m ρ c)

/-- This step's kernel text is the direct-gradient step's: its results are the same functions of its input arrays. -/
theorem same10_8 (x s1 s2 W0 W1 : Vec Ideal S1024x1024 .f32) : out10_8 (F := Ideal) x s1 s2 W0 W1 = stepA x s1 s2 W0 W1 := rfl
theorem same10_9 (s1 s2 : Vec Ideal S1024x1024 .f32) (s3 : Vec Ideal S1024x512 .f32) (W1 : Vec Ideal S1024x1024 .f32) (W2 : Vec Ideal S1024x512 .f32) :
    out10_9 (F := Ideal) s1 s2 s3 W1 W2 = stepB s1 s2 s3 W1 W2 := rfl
theorem same10_10 (s2 : Vec Ideal S1024x1024 .f32) (s3 y W2 : Vec Ideal S1024x512 .f32) : out10_10 (F := Ideal) s2 s3 y W2 = stepC s2 s3 y W2 := rfl

/-- Region 10's outputs are the states one step further. -/
theorem val10 (c : Dev nD) :
    Wo10 m ρ c (Proc.devRef .tc (Pipeline.arrRef spec10 8)) = (chainAt m c 10).s1
    ∧ Wo10 m ρ c (Proc.devRef .tc (Pipeline.arrRef spec10 9)) = (chainAt m c 10).s2
    ∧ Wo10 m ρ c (Proc.devRef .tc (Pipeline.arrRef spec10 10)) = (chainAt m c 10).s3 := by
  have e0 : Vi10 m ρ c (Pipeline.arrRef spec10 0) = aX m c := Wi10_main_arg0 m ρ c
  have e1 : Vi10 m ρ c (Pipeline.arrRef spec10 1) = (chainAt m c 9).s1 := (val9 m ρ c).1
  have e2 : Vi10 m ρ c (Pipeline.arrRef spec10 2) = (chainAt m c 9).s2 := (val9 m ρ c).2.1
  have e3 : Vi10 m ρ c (Pipeline.arrRef spec10 3) = (chainAt m c 9).s3 := (val9 m ρ c).2.2
  have e4 : Vi10 m ρ c (Pipeline.arrRef spec10 4) = aY m c := Wi10_main_arg1 m ρ c
  have e5 : Vi10 m ρ c (Pipeline.arrRef spec10 5) = aW0 m c := Wi10_main_arg2 m ρ c
  have e6 : Vi10 m ρ c (Pipeline.arrRef spec10 6) = aW1 m c := Wi10_main_arg3 m ρ c
  have e7 : Vi10 m ρ c (Pipeline.arrRef spec10 7) = aW2 m c := Wi10_main_arg4 m ρ c
  refine ⟨?_, ?_, ?_⟩
  · rw [Wo10_arr, arr10_8, e0, e1, e2, e5, e6, same10_8]
    exact stepA_eq _ _ _ _ _
  · rw [Wo10_arr, arr10_9, e1, e2, e3, e6, e7, same10_9]
    exact stepB_eq _ _ _ _ _
  · rw [Wo10_arr, arr10_10, e2, e3, e4, e7, same10_10]
    exact stepC_eq _ _ _ _

end Cert.KernelIdeal.Reg

end
-- ==== Proof.KIVal11.lean ====
/-
  What region 11 leaves, at the ideal instance: entered from region 10's exit contents, its three output arrays are the
  relaxation chain's state one step further; the free-phase states and the loss pass through it.
-/
import proofs.«107956_j75110388073098_1_alg».proof.Proof.KIWalk11
import proofs.«107956_j75110388073098_1_alg».proof.Proof.KIArr11
import proofs.«107956_j75110388073098_1_alg».proof.Proof.StepAlias
import proofs.«107956_j75110388073098_1_alg».proof.Proof.KIVal10

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free11 (c : Dev nD) :
    Wo11 m ρ c (Proc.devRef .tc main_v0_0) = (chainAt m c 0).s1
    ∧ Wo11 m ρ c (Proc.devRef .tc main_v0_1) = (chainAt m c 0).s2
    ∧ Wo11 m ρ c (Proc.devRef .tc main_v0_2) = (chainAt m c 0).s3 :=
  ⟨(Wo11_keep m ρ c main_v0_0 (by decide)).trans (free10 m ρ c).1,
   (Wo11_keep m ρ c main_v0_1 (by decide)).trans (free10 m ρ c).2.1,
   (Wo11_keep m ρ c main_v0_2 (by decide)).trans (free10 m ρ c).2.2⟩
theorem loss11 (c : Dev nD) : Wo11 m ρ c (Proc.devRef .tc main_v4) = lossAt m ρ c :=
  (Wo11_keep m ρ c main_v4 (by decide)).trans (loss10 m ρ c)

/-- This step's kernel text is the direct-gradient step's: its results are the same functions of its input arrays. -/
theorem same11_8 (x s1 s2 W0 W1 : Vec Ideal S1024x1024 .f32) : out11_8 (F := Ideal) x s1 s2 W0 W1 = stepA x s1 s2 W0 W1 := rfl
theorem same11_9 (s1 s2 : Vec Ideal S1024x1024 .f32) (s3 : Vec Ideal S1024x512 .f32) (W1 : Vec Ideal S1024x1024 .f32) (W2 : Vec Ideal S1024x512 .f32) :
    out11_9 (F := Ideal) s1 s2 s3 W1 W2 = stepB s1 s2 s3 W1 W2 := rfl
theorem same11_10 (s2 : Vec Ideal S1024x1024 .f32) (s3 y W2 : Vec Ideal S1024x512 .f32) : out11_10 (F := Ideal) s2 s3 y W2 = stepC s2 s3 y W2 := rfl

/-- Region 11's outputs are the states one step further. -/
theorem val11 (c : Dev nD) :
    Wo11 m ρ c (Proc.devRef .tc (Pipeline.arrRef spec11 8)) = (chainAt m c 11).s1
    ∧ Wo11 m ρ c (Proc.devRef .tc (Pipeline.arrRef spec11 9)) = (chainAt m c 11).s2
    ∧ Wo11 m ρ c (Proc.devRef .tc (Pipeline.arrRef spec11 10)) = (chainAt m c 11).s3 := by
  have e0 : Vi11 m ρ c (Pipeline.arrRef spec11 0) = aX m c := Wi11_main_arg0 m ρ c
  have e1 : Vi11 m ρ c (Pipeline.arrRef spec11 1) = (chainAt m c 10).s1 := (val10 m ρ c).1
  have e2 : Vi11 m ρ c (Pipeline.arrRef spec11 2) = (chainAt m c 10).s2 := (val10 m ρ c).2.1
  have e3 : Vi11 m ρ c (Pipeline.arrRef spec11 3) = (chainAt m c 10).s3 := (val10 m ρ c).2.2
  have e4 : Vi11 m ρ c (Pipeline.arrRef spec11 4) = aY m c := Wi11_main_arg1 m ρ c
  have e5 : Vi11 m ρ c (Pipeline.arrRef spec11 5) = aW0 m c := Wi11_main_arg2 m ρ c
  have e6 : Vi11 m ρ c (Pipeline.arrRef spec11 6) = aW1 m c := Wi11_main_arg3 m ρ c
  have e7 : Vi11 m ρ c (Pipeline.arrRef spec11 7) = aW2 m c := Wi11_main_arg4 m ρ c
  refine ⟨?_, ?_, ?_⟩
  · rw [Wo11_arr, arr11_8, e0, e1, e2, e5, e6, same11_8]
    exact stepA_eq _ _ _ _ _
  · rw [Wo11_arr, arr11_9, e1, e2, e3, e6, e7, same11_9]
    exact stepB_eq _ _ _ _ _
  · rw [Wo11_arr, arr11_10, e2, e3, e4, e7, same11_10]
    exact stepC_eq _ _ _ _

end Cert.KernelIdeal.Reg

end
-- ==== Proof.KIVal12.lean ====
/-
  What region 12 leaves, at the ideal instance: entered from region 11's exit contents, its three output arrays are the
  relaxation chain's state one step further; the free-phase states and the loss pass through it.
-/
import proofs.«107956_j75110388073098_1_alg».proof.Proof.KIWalk12
import proofs.«107956_j75110388073098_1_alg».proof.Proof.KIArr12
import proofs.«107956_j75110388073098_1_alg».proof.Proof.StepAlias
import proofs.«107956_j75110388073098_1_alg».proof.Proof.KIVal11

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free12 (c : Dev nD) :
    Wo12 m ρ c (Proc.devRef .tc main_v0_0) = (chainAt m c 0).s1
    ∧ Wo12 m ρ c (Proc.devRef .tc main_v0_1) = (chainAt m c 0).s2
    ∧ Wo12 m ρ c (Proc.devRef .tc main_v0_2) = (chainAt m c 0).s3 :=
  ⟨(Wo12_keep m ρ c main_v0_0 (by decide)).trans (free11 m ρ c).1,
   (Wo12_keep m ρ c main_v0_1 (by decide)).trans (free11 m ρ c).2.1,
   (Wo12_keep m ρ c main_v0_2 (by decide)).trans (free11 m ρ c).2.2⟩
theorem loss12 (c : Dev nD) : Wo12 m ρ c (Proc.devRef .tc main_v4) = lossAt m ρ c :=
  (Wo12_keep m ρ c main_v4 (by decide)).trans (loss11 m ρ c)

/-- This step's kernel text is the direct-gradient step's: its results are the same functions of its input arrays. -/
theorem same12_8 (x s1 s2 W0 W1 : Vec Ideal S1024x1024 .f32) : out12_8 (F := Ideal) x s1 s2 W0 W1 = stepA x s1 s2 W0 W1 := rfl
theorem same12_9 (s1 s2 : Vec Ideal S1024x1024 .f32) (s3 : Vec Ideal S1024x512 .f32) (W1 : Vec Ideal S1024x1024 .f32) (W2 : Vec Ideal S1024x512 .f32) :
    out12_9 (F := Ideal) s1 s2 s3 W1 W2 = stepB s1 s2 s3 W1 W2 := rfl
theorem same12_10 (s2 : Vec Ideal S1024x1024 .f32) (s3 y W2 : Vec Ideal S1024x512 .f32) : out12_10 (F := Ideal) s2 s3 y W2 = stepC s2 s3 y W2 := rfl

/-- Region 12's outputs are the states one step further. -/
theorem val12 (c : Dev nD) :
    Wo12 m ρ c (Proc.devRef .tc (Pipeline.arrRef spec12 8)) = (chainAt m c 12).s1
    ∧ Wo12 m ρ c (Proc.devRef .tc (Pipeline.arrRef spec12 9)) = (chainAt m c 12).s2
    ∧ Wo12 m ρ c (Proc.devRef .tc (Pipeline.arrRef spec12 10)) = (chainAt m c 12).s3 := by
  have e0 : Vi12 m ρ c (Pipeline.arrRef spec12 0) = aX m c := Wi12_main_arg0 m ρ c
  have e1 : Vi12 m ρ c (Pipeline.arrRef spec12 1) = (chainAt m c 11).s1 := (val11 m ρ c).1
  have e2 : Vi12 m ρ c (Pipeline.arrRef spec12 2) = (chainAt m c 11).s2 := (val11 m ρ c).2.1
  have e3 : Vi12 m ρ c (Pipeline.arrRef spec12 3) = (chainAt m c 11).s3 := (val11 m ρ c).2.2
  have e4 : Vi12 m ρ c (Pipeline.arrRef spec12 4) = aY m c := Wi12_main_arg1 m ρ c
  have e5 : Vi12 m ρ c (Pipeline.arrRef spec12 5) = aW0 m c := Wi12_main_arg2 m ρ c
  have e6 : Vi12 m ρ c (Pipeline.arrRef spec12 6) = aW1 m c := Wi12_main_arg3 m ρ c
  have e7 : Vi12 m ρ c (Pipeline.arrRef spec12 7) = aW2 m c := Wi12_main_arg4 m ρ c
  refine ⟨?_, ?_, ?_⟩
  · rw [Wo12_arr, arr12_8, e0, e1, e2, e5, e6, same12_8]
    exact stepA_eq _ _ _ _ _
  · rw [Wo12_arr, arr12_9, e1, e2, e3, e6, e7, same12_9]
    exact stepB_eq _ _ _ _ _
  · rw [Wo12_arr, arr12_10, e2, e3, e4, e7, same12_10]
    exact stepC_eq _ _ _ _

end Cert.KernelIdeal.Reg

end
-- ==== Proof.KIVal13.lean ====
/-
  What region 13 leaves, at the ideal instance: entered from region 12's exit contents, its three output arrays are the
  relaxation chain's state one step further; the free-phase states and the loss pass through it.
-/
import proofs.«107956_j75110388073098_1_alg».proof.Proof.KIWalk13
import proofs.«107956_j75110388073098_1_alg».proof.Proof.KIArr13
import proofs.«107956_j75110388073098_1_alg».proof.Proof.StepAlias
import proofs.«107956_j75110388073098_1_alg».proof.Proof.KIVal12

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free13 (c : Dev nD) :
    Wo13 m ρ c (Proc.devRef .tc main_v0_0) = (chainAt m c 0).s1
    ∧ Wo13 m ρ c (Proc.devRef .tc main_v0_1) = (chainAt m c 0).s2
    ∧ Wo13 m ρ c (Proc.devRef .tc main_v0_2) = (chainAt m c 0).s3 :=
  ⟨(Wo13_keep m ρ c main_v0_0 (by decide)).trans (free12 m ρ c).1,
   (Wo13_keep m ρ c main_v0_1 (by decide)).trans (free12 m ρ c).2.1,
   (Wo13_keep m ρ c main_v0_2 (by decide)).trans (free12 m ρ c).2.2⟩
theorem loss13 (c : Dev nD) : Wo13 m ρ c (Proc.devRef .tc main_v4) = lossAt m ρ c :=
  (Wo13_keep m ρ c main_v4 (by decide)).trans (loss12 m ρ c)

/-- This step's kernel text is the direct-gradient step's: its results are the same functions of its input arrays. -/
theorem same13_8 (x s1 s2 W0 W1 : Vec Ideal S1024x1024 .f32) : out13_8 (F := Ideal) x s1 s2 W0 W1 = stepA x s1 s2 W0 W1 := rfl
theorem same13_9 (s1 s2 : Vec Ideal S1024x1024 .f32) (s3 : Vec Ideal S1024x512 .f32) (W1 : Vec Ideal S1024x1024 .f32) (W2 : Vec Ideal S1024x512 .f32) :
    out13_9 (F := Ideal) s1 s2 s3 W1 W2 = stepB s1 s2 s3 W1 W2 := rfl
theorem same13_10 (s2 : Vec Ideal S1024x1024 .f32) (s3 y W2 : Vec Ideal S1024x512 .f32) : out13_10 (F := Ideal) s2 s3 y W2 = stepC s2 s3 y W2 := rfl

/-- Region 13's outputs are the states one step further. -/
theorem val13 (c : Dev nD) :
    Wo13 m ρ c (Proc.devRef .tc (Pipeline.arrRef spec13 8)) = (chainAt m c 13).s1
    ∧ Wo13 m ρ c (Proc.devRef .tc (Pipeline.arrRef spec13 9)) = (chainAt m c 13).s2
    ∧ Wo13 m ρ c (Proc.devRef .tc (Pipeline.arrRef spec13 10)) = (chainAt m c 13).s3 := by
  have e0 : Vi13 m ρ c (Pipeline.arrRef spec13 0) = aX m c := Wi13_main_arg0 m ρ c
  have e1 : Vi13 m ρ c (Pipeline.arrRef spec13 1) = (chainAt m c 12).s1 := (val12 m ρ c).1
  have e2 : Vi13 m ρ c (Pipeline.arrRef spec13 2) = (chainAt m c 12).s2 := (val12 m ρ c).2.1
  have e3 : Vi13 m ρ c (Pipeline.arrRef spec13 3) = (chainAt m c 12).s3 := (val12 m ρ c).2.2
  have e4 : Vi13 m ρ c (Pipeline.arrRef spec13 4) = aY m c := Wi13_main_arg1 m ρ c
  have e5 : Vi13 m ρ c (Pipeline.arrRef spec13 5) = aW0 m c := Wi13_main_arg2 m ρ c
  have e6 : Vi13 m ρ c (Pipeline.arrRef spec13 6) = aW1 m c := Wi13_main_arg3 m ρ c
  have e7 : Vi13 m ρ c (Pipeline.arrRef spec13 7) = aW2 m c := Wi13_main_arg4 m ρ c
  refine ⟨?_, ?_, ?_⟩
  · rw [Wo13_arr, arr13_8, e0, e1, e2, e5, e6, same13_8]
    exact stepA_eq _ _ _ _ _
  · rw [Wo13_arr, arr13_9, e1, e2, e3, e6, e7, same13_9]
    exact stepB_eq _ _ _ _ _
  · rw [Wo13_arr, arr13_10, e2, e3, e4, e7, same13_10]
    exact stepC_eq _ _ _ _

end Cert.KernelIdeal.Reg

end
-- ==== Proof.KIVal14.lean ====
/-
  What region 14 leaves, at the ideal instance: entered from region 13's exit contents, its three output arrays are the
  relaxation chain's state one step further; the free-phase states and the loss pass through it.
-/
import proofs.«107956_j75110388073098_1_alg».proof.Proof.KIWalk14
import proofs.«107956_j75110388073098_1_alg».proof.Proof.KIArr14
import proofs.«107956_j75110388073098_1_alg».proof.Proof.StepAlias
import proofs.«107956_j75110388073098_1_alg».proof.Proof.KIVal13

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free14 (c : Dev nD) :
    Wo14 m ρ c (Proc.devRef .tc main_v0_0) = (chainAt m c 0).s1
    ∧ Wo14 m ρ c (Proc.devRef .tc main_v0_1) = (chainAt m c 0).s2
    ∧ Wo14 m ρ c (Proc.devRef .tc main_v0_2) = (chainAt m c 0).s3 :=
  ⟨(Wo14_keep m ρ c main_v0_0 (by decide)).trans (free13 m ρ c).1,
   (Wo14_keep m ρ c main_v0_1 (by decide)).trans (free13 m ρ c).2.1,
   (Wo14_keep m ρ c main_v0_2 (by decide)).trans (free13 m ρ c).2.2⟩
theorem loss14 (c : Dev nD) : Wo14 m ρ c (Proc.devRef .tc main_v4) = lossAt m ρ c :=
  (Wo14_keep m ρ c main_v4 (by decide)).trans (loss13 m ρ c)

/-- This step's kernel text is the direct-gradient step's: its results are the same functions of its input arrays. -/
theorem same14_8 (x s1 s2 W0 W1 : Vec Ideal S1024x1024 .f32) : out14_8 (F := Ideal) x s1 s2 W0 W1 = stepA x s1 s2 W0 W1 := rfl
theorem same14_9 (s1 s2 : Vec Ideal S1024x1024 .f32) (s3 : Vec Ideal S1024x512 .f32) (W1 : Vec Ideal S1024x1024 .f32) (W2 : Vec Ideal S1024x512 .f32) :
    out14_9 (F := Ideal) s1 s2 s3 W1 W2 = stepB s1 s2 s3 W1 W2 := rfl
theorem same14_10 (s2 : Vec Ideal S1024x1024 .f32) (s3 y W2 : Vec Ideal S1024x512 .f32) : out14_10 (F := Ideal) s2 s3 y W2 = stepC s2 s3 y W2 := rfl

/-- Region 14's outputs are the states one step further. -/
theorem val14 (c : Dev nD) :
    Wo14 m ρ c (Proc.devRef .tc (Pipeline.arrRef spec14 8)) = (chainAt m c 14).s1
    ∧ Wo14 m ρ c (Proc.devRef .tc (Pipeline.arrRef spec14 9)) = (chainAt m c 14).s2
    ∧ Wo14 m ρ c (Proc.devRef .tc (Pipeline.arrRef spec14 10)) = (chainAt m c 14).s3 := by
  have e0 : Vi14 m ρ c (Pipeline.arrRef spec14 0) = aX m c := Wi14_main_arg0 m ρ c
  have e1 : Vi14 m ρ c (Pipeline.arrRef spec14 1) = (chainAt m c 13).s1 := (val13 m ρ c).1
  have e2 : Vi14 m ρ c (Pipeline.arrRef spec14 2) = (chainAt m c 13).s2 := (val13 m ρ c).2.1
  have e3 : Vi14 m ρ c (Pipeline.arrRef spec14 3) = (chainAt m c 13).s3 := (val13 m ρ c).2.2
  have e4 : Vi14 m ρ c (Pipeline.arrRef spec14 4) = aY m c := Wi14_main_arg1 m ρ c
  have e5 : Vi14 m ρ c (Pipeline.arrRef spec14 5) = aW0 m c := Wi14_main_arg2 m ρ c
  have e6 : Vi14 m ρ c (Pipeline.arrRef spec14 6) = aW1 m c := Wi14_main_arg3 m ρ c
  have e7 : Vi14 m ρ c (Pipeline.arrRef spec14 7) = aW2 m c := Wi14_main_arg4 m ρ c
  refine ⟨?_, ?_, ?_⟩
  · rw [Wo14_arr, arr14_8, e0, e1, e2, e5, e6, same14_8]
    exact stepA_eq _ _ _ _ _
  · rw [Wo14_arr, arr14_9, e1, e2, e3, e6, e7, same14_9]
    exact stepB_eq _ _ _ _ _
  · rw [Wo14_arr, arr14_10, e2, e3, e4, e7, same14_10]
    exact stepC_eq _ _ _ _

end Cert.KernelIdeal.Reg

end
-- ==== Proof.KIVal15.lean ====
/-
  What region 15 leaves, at the ideal instance: entered from region 14's exit contents, its three output arrays are the
  relaxation chain's state one step further; the free-phase states and the loss pass through it.
-/
import proofs.«107956_j75110388073098_1_alg».proof.Proof.KIWalk15
import proofs.«107956_j75110388073098_1_alg».proof.Proof.KIArr15
import proofs.«107956_j75110388073098_1_alg».proof.Proof.StepAlias
import proofs.«107956_j75110388073098_1_alg».proof.Proof.KIVal14

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free15 (c : Dev nD) :
    Wo15 m ρ c (Proc.devRef .tc main_v0_0) = (chainAt m c 0).s1
    ∧ Wo15 m ρ c (Proc.devRef .tc main_v0_1) = (chainAt m c 0).s2
    ∧ Wo15 m ρ c (Proc.devRef .tc main_v0_2) = (chainAt m c 0).s3 :=
  ⟨(Wo15_keep m ρ c main_v0_0 (by decide)).trans (free14 m ρ c).1,
   (Wo15_keep m ρ c main_v0_1 (by decide)).trans (free14 m ρ c).2.1,
   (Wo15_keep m ρ c main_v0_2 (by decide)).trans (free14 m ρ c).2.2⟩
theorem loss15 (c : Dev nD) : Wo15 m ρ c (Proc.devRef .tc main_v4) = lossAt m ρ c :=
  (Wo15_keep m ρ c main_v4 (by decide)).trans (loss14 m ρ c)

/-- This step's kernel text is the direct-gradient step's: its results are the same functions of its input arrays. -/
theorem same15_8 (x s1 s2 W0 W1 : Vec Ideal S1024x1024 .f32) : out15_8 (F := Ideal) x s1 s2 W0 W1 = stepA x s1 s2 W0 W1 := rfl
theorem same15_9 (s1 s2 : Vec Ideal S1024x1024 .f32) (s3 : Vec Ideal S1024x512 .f32) (W1 : Vec Ideal S1024x1024 .f32) (W2 : Vec Ideal S1024x512 .f32) :
    out15_9 (F := Ideal) s1 s2 s3 W1 W2 = stepB s1 s2 s3 W1 W2 := rfl
theorem same15_10 (s2 : Vec Ideal S1024x1024 .f32) (s3 y W2 : Vec Ideal S1024x512 .f32) : out15_10 (F := Ideal) s2 s3 y W2 = stepC s2 s3 y W2 := rfl

/-- Region 15's outputs are the states one step further. -/
theorem val15 (c : Dev nD) :
    Wo15 m ρ c (Proc.devRef .tc (Pipeline.arrRef spec15 8)) = (chainAt m c 15).s1
    ∧ Wo15 m ρ c (Proc.devRef .tc (Pipeline.arrRef spec15 9)) = (chainAt m c 15).s2
    ∧ Wo15 m ρ c (Proc.devRef .tc (Pipeline.arrRef spec15 10)) = (chainAt m c 15).s3 := by
  have e0 : Vi15 m ρ c (Pipeline.arrRef spec15 0) = aX m c := Wi15_main_arg0 m ρ c
  have e1 : Vi15 m ρ c (Pipeline.arrRef spec15 1) = (chainAt m c 14).s1 := (val14 m ρ c).1
  have e2 : Vi15 m ρ c (Pipeline.arrRef spec15 2) = (chainAt m c 14).s2 := (val14 m ρ c).2.1
  have e3 : Vi15 m ρ c (Pipeline.arrRef spec15 3) = (chainAt m c 14).s3 := (val14 m ρ c).2.2
  have e4 : Vi15 m ρ c (Pipeline.arrRef spec15 4) = aY m c := Wi15_main_arg1 m ρ c
  have e5 : Vi15 m ρ c (Pipeline.arrRef spec15 5) = aW0 m c := Wi15_main_arg2 m ρ c
  have e6 : Vi15 m ρ c (Pipeline.arrRef spec15 6) = aW1 m c := Wi15_main_arg3 m ρ c
  have e7 : Vi15 m ρ c (Pipeline.arrRef spec15 7) = aW2 m c := Wi15_main_arg4 m ρ c
  refine ⟨?_, ?_, ?_⟩
  · rw [Wo15_arr, arr15_8, e0, e1, e2, e5, e6, same15_8]
    exact stepA_eq _ _ _ _ _
  · rw [Wo15_arr, arr15_9, e1, e2, e3, e6, e7, same15_9]
    exact stepB_eq _ _ _ _ _
  · rw [Wo15_arr, arr15_10, e2, e3, e4, e7, same15_10]
    exact stepC_eq _ _ _ _

end Cert.KernelIdeal.Reg

end
-- ==== Proof.KIVal16.lean ====
/-
  What region 16 leaves, at the ideal instance: entered from region 15's exit contents, its three output arrays are the
  relaxation chain's state one step further; the free-phase states and the loss pass through it.
-/
import proofs.«107956_j75110388073098_1_alg».proof.Proof.KIWalk16
import proofs.«107956_j75110388073098_1_alg».proof.Proof.KIArr16
import proofs.«107956_j75110388073098_1_alg».proof.Proof.StepAlias
import proofs.«107956_j75110388073098_1_alg».proof.Proof.KIVal15

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free16 (c : Dev nD) :
    Wo16 m ρ c (Proc.devRef .tc main_v0_0) = (chainAt m c 0).s1
    ∧ Wo16 m ρ c (Proc.devRef .tc main_v0_1) = (chainAt m c 0).s2
    ∧ Wo16 m ρ c (Proc.devRef .tc main_v0_2) = (chainAt m c 0).s3 :=
  ⟨(Wo16_keep m ρ c main_v0_0 (by decide)).trans (free15 m ρ c).1,
   (Wo16_keep m ρ c main_v0_1 (by decide)).trans (free15 m ρ c).2.1,
   (Wo16_keep m ρ c main_v0_2 (by decide)).trans (free15 m ρ c).2.2⟩
theorem loss16 (c : Dev nD) : Wo16 m ρ c (Proc.devRef .tc main_v4) = lossAt m ρ c :=
  (Wo16_keep m ρ c main_v4 (by decide)).trans (loss15 m ρ c)

/-- This step's kernel text is the direct-gradient step's: its results are the same functions of its input arrays. -/
theorem same16_8 (x s1 s2 W0 W1 : Vec Ideal S1024x1024 .f32) : out16_8 (F := Ideal) x s1 s2 W0 W1 = stepA x s1 s2 W0 W1 := rfl
theorem same16_9 (s1 s2 : Vec Ideal S1024x1024 .f32) (s3 : Vec Ideal S1024x512 .f32) (W1 : Vec Ideal S1024x1024 .f32) (W2 : Vec Ideal S1024x512 .f32) :
    out16_9 (F := Ideal) s1 s2 s3 W1 W2 = stepB s1 s2 s3 W1 W2 := rfl
theorem same16_10 (s2 : Vec Ideal S1024x1024 .f32) (s3 y W2 : Vec Ideal S1024x512 .f32) : out16_10 (F := Ideal) s2 s3 y W2 = stepC s2 s3 y W2 := rfl

/-- Region 16's outputs are the states one step further. -/
theorem val16 (c : Dev nD) :
    Wo16 m ρ c (Proc.devRef .tc (Pipeline.arrRef spec16 8)) = (chainAt m c 16).s1
    ∧ Wo16 m ρ c (Proc.devRef .tc (Pipeline.arrRef spec16 9)) = (chainAt m c 16).s2
    ∧ Wo16 m ρ c (Proc.devRef .tc (Pipeline.arrRef spec16 10)) = (chainAt m c 16).s3 := by
  have e0 : Vi16 m ρ c (Pipeline.arrRef spec16 0) = aX m c := Wi16_main_arg0 m ρ c
  have e1 : Vi16 m ρ c (Pipeline.arrRef spec16 1) = (chainAt m c 15).s1 := (val15 m ρ c).1
  have e2 : Vi16 m ρ c (Pipeline.arrRef spec16 2) = (chainAt m c 15).s2 := (val15 m ρ c).2.1
  have e3 : Vi16 m ρ c (Pipeline.arrRef spec16 3) = (chainAt m c 15).s3 := (val15 m ρ c).2.2
  have e4 : Vi16 m ρ c (Pipeline.arrRef spec16 4) = aY m c := Wi16_main_arg1 m ρ c
  have e5 : Vi16 m ρ c (Pipeline.arrRef spec16 5) = aW0 m c := Wi16_main_arg2 m ρ c
  have e6 : Vi16 m ρ c (Pipeline.arrRef spec16 6) = aW1 m c := Wi16_main_arg3 m ρ c
  have e7 : Vi16 m ρ c (Pipeline.arrRef spec16 7) = aW2 m c := Wi16_main_arg4 m ρ c
  refine ⟨?_, ?_, ?_⟩
  · rw [Wo16_arr, arr16_8, e0, e1, e2, e5, e6, same16_8]
    exact stepA_eq _ _ _ _ _
  · rw [Wo16_arr, arr16_9, e1, e2, e3, e6, e7, same16_9]
    exact stepB_eq _ _ _ _ _
  · rw [Wo16_arr, arr16_10, e2, e3, e4, e7, same16_10]
    exact stepC_eq _ _ _ _

end Cert.KernelIdeal.Reg

end
-- ==== Proof.KIVal17.lean ====
/-
  What region 17 leaves, at the ideal instance: entered from region 16's exit contents, its three output arrays are the
  relaxation chain's state one step further; the free-phase states and the loss pass through it.
-/
import proofs.«107956_j75110388073098_1_alg».proof.Proof.KIWalk17
import proofs.«107956_j75110388073098_1_alg».proof.Proof.KIArr17
import proofs.«107956_j75110388073098_1_alg».proof.Proof.StepAlias
import proofs.«107956_j75110388073098_1_alg».proof.Proof.KIVal16

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free17 (c : Dev nD) :
    Wo17 m ρ c (Proc.devRef .tc main_v0_0) = (chainAt m c 0).s1
    ∧ Wo17 m ρ c (Proc.devRef .tc main_v0_1) = (chainAt m c 0).s2
    ∧ Wo17 m ρ c (Proc.devRef .tc main_v0_2) = (chainAt m c 0).s3 :=
  ⟨(Wo17_keep m ρ c main_v0_0 (by decide)).trans (free16 m ρ c).1,
   (Wo17_keep m ρ c main_v0_1 (by decide)).trans (free16 m ρ c).2.1,
   (Wo17_keep m ρ c main_v0_2 (by decide)).trans (free16 m ρ c).2.2⟩
theorem loss17 (c : Dev nD) : Wo17 m ρ c (Proc.devRef .tc main_v4) = lossAt m ρ c :=
  (Wo17_keep m ρ c main_v4 (by decide)).trans (loss16 m ρ c)

/-- This step's kernel text is the direct-gradient step's: its results are the same functions of its input arrays. -/
theorem same17_8 (x s1 s2 W0 W1 : Vec Ideal S1024x1024 .f32) : out17_8 (F := Ideal) x s1 s2 W0 W1 = stepA x s1 s2 W0 W1 := rfl
theorem same17_9 (s1 s2 : Vec Ideal S1024x1024 .f32) (s3 : Vec Ideal S1024x512 .f32) (W1 : Vec Ideal S1024x1024 .f32) (W2 : Vec Ideal S1024x512 .f32) :
    out17_9 (F := Ideal) s1 s2 s3 W1 W2 = stepB s1 s2 s3 W1 W2 := rfl
theorem same17_10 (s2 : Vec Ideal S1024x1024 .f32) (s3 y W2 : Vec Ideal S1024x512 .f32) : out17_10 (F := Ideal) s2 s3 y W2 = stepC s2 s3 y W2 := rfl

/-- Region 17's outputs are the states one step further. -/
theorem val17 (c : Dev nD) :
    Wo17 m ρ c (Proc.devRef .tc (Pipeline.arrRef spec17 8)) = (chainAt m c 17).s1
    ∧ Wo17 m ρ c (Proc.devRef .tc (Pipeline.arrRef spec17 9)) = (chainAt m c 17).s2
    ∧ Wo17 m ρ c (Proc.devRef .tc (Pipeline.arrRef spec17 10)) = (chainAt m c 17).s3 := by
  have e0 : Vi17 m ρ c (Pipeline.arrRef spec17 0) = aX m c := Wi17_main_arg0 m ρ c
  have e1 : Vi17 m ρ c (Pipeline.arrRef spec17 1) = (chainAt m c 16).s1 := (val16 m ρ c).1
  have e2 : Vi17 m ρ c (Pipeline.arrRef spec17 2) = (chainAt m c 16).s2 := (val16 m ρ c).2.1
  have e3 : Vi17 m ρ c (Pipeline.arrRef spec17 3) = (chainAt m c 16).s3 := (val16 m ρ c).2.2
  have e4 : Vi17 m ρ c (Pipeline.arrRef spec17 4) = aY m c := Wi17_main_arg1 m ρ c
  have e5 : Vi17 m ρ c (Pipeline.arrRef spec17 5) = aW0 m c := Wi17_main_arg2 m ρ c
  have e6 : Vi17 m ρ c (Pipeline.arrRef spec17 6) = aW1 m c := Wi17_main_arg3 m ρ c
  have e7 : Vi17 m ρ c (Pipeline.arrRef spec17 7) = aW2 m c := Wi17_main_arg4 m ρ c
  refine ⟨?_, ?_, ?_⟩
  · rw [Wo17_arr, arr17_8, e0, e1, e2, e5, e6, same17_8]
    exact stepA_eq _ _ _ _ _
  · rw [Wo17_arr, arr17_9, e1, e2, e3, e6, e7, same17_9]
    exact stepB_eq _ _ _ _ _
  · rw [Wo17_arr, arr17_10, e2, e3, e4, e7, same17_10]
    exact stepC_eq _ _ _ _

end Cert.KernelIdeal.Reg

end
-- ==== Proof.KIVal18.lean ====
/-
  What region 18 leaves, at the ideal instance: entered from region 17's exit contents, its three output arrays are the
  relaxation chain's state one step further; the free-phase states and the loss pass through it.
-/
import proofs.«107956_j75110388073098_1_alg».proof.Proof.KIWalk18
import proofs.«107956_j75110388073098_1_alg».proof.Proof.KIArr18
import proofs.«107956_j75110388073098_1_alg».proof.Proof.StepAlias
import proofs.«107956_j75110388073098_1_alg».proof.Proof.KIVal17

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free18 (c : Dev nD) :
    Wo18 m ρ c (Proc.devRef .tc main_v0_0) = (chainAt m c 0).s1
    ∧ Wo18 m ρ c (Proc.devRef .tc main_v0_1) = (chainAt m c 0).s2
    ∧ Wo18 m ρ c (Proc.devRef .tc main_v0_2) = (chainAt m c 0).s3 :=
  ⟨(Wo18_keep m ρ c main_v0_0 (by decide)).trans (free17 m ρ c).1,
   (Wo18_keep m ρ c main_v0_1 (by decide)).trans (free17 m ρ c).2.1,
   (Wo18_keep m ρ c main_v0_2 (by decide)).trans (free17 m ρ c).2.2⟩
theorem loss18 (c : Dev nD) : Wo18 m ρ c (Proc.devRef .tc main_v4) = lossAt m ρ c :=
  (Wo18_keep m ρ c main_v4 (by decide)).trans (loss17 m ρ c)

/-- This step's kernel text is the direct-gradient step's: its results are the same functions of its input arrays. -/
theorem same18_8 (x s1 s2 W0 W1 : Vec Ideal S1024x1024 .f32) : out18_8 (F := Ideal) x s1 s2 W0 W1 = stepA x s1 s2 W0 W1 := rfl
theorem same18_9 (s1 s2 : Vec Ideal S1024x1024 .f32) (s3 : Vec Ideal S1024x512 .f32) (W1 : Vec Ideal S1024x1024 .f32) (W2 : Vec Ideal S1024x512 .f32) :
    out18_9 (F := Ideal) s1 s2 s3 W1 W2 = stepB s1 s2 s3 W1 W2 := rfl
theorem same18_10 (s2 : Vec Ideal S1024x1024 .f32) (s3 y W2 : Vec Ideal S1024x512 .f32) : out18_10 (F := Ideal) s2 s3 y W2 = stepC s2 s3 y W2 := rfl

/-- Region 18's outputs are the states one step further. -/
theorem val18 (c : Dev nD) :
    Wo18 m ρ c (Proc.devRef .tc (Pipeline.arrRef spec18 8)) = (chainAt m c 18).s1
    ∧ Wo18 m ρ c (Proc.devRef .tc (Pipeline.arrRef spec18 9)) = (chainAt m c 18).s2
    ∧ Wo18 m ρ c (Proc.devRef .tc (Pipeline.arrRef spec18 10)) = (chainAt m c 18).s3 := by
  have e0 : Vi18 m ρ c (Pipeline.arrRef spec18 0) = aX m c := Wi18_main_arg0 m ρ c
  have e1 : Vi18 m ρ c (Pipeline.arrRef spec18 1) = (chainAt m c 17).s1 := (val17 m ρ c).1
  have e2 : Vi18 m ρ c (Pipeline.arrRef spec18 2) = (chainAt m c 17).s2 := (val17 m ρ c).2.1
  have e3 : Vi18 m ρ c (Pipeline.arrRef spec18 3) = (chainAt m c 17).s3 := (val17 m ρ c).2.2
  have e4 : Vi18 m ρ c (Pipeline.arrRef spec18 4) = aY m c := Wi18_main_arg1 m ρ c
  have e5 : Vi18 m ρ c (Pipeline.arrRef spec18 5) = aW0 m c := Wi18_main_arg2 m ρ c
  have e6 : Vi18 m ρ c (Pipeline.arrRef spec18 6) = aW1 m c := Wi18_main_arg3 m ρ c
  have e7 : Vi18 m ρ c (Pipeline.arrRef spec18 7) = aW2 m c := Wi18_main_arg4 m ρ c
  refine ⟨?_, ?_, ?_⟩
  · rw [Wo18_arr, arr18_8, e0, e1, e2, e5, e6, same18_8]
    exact stepA_eq _ _ _ _ _
  · rw [Wo18_arr, arr18_9, e1, e2, e3, e6, e7, same18_9]
    exact stepB_eq _ _ _ _ _
  · rw [Wo18_arr, arr18_10, e2, e3, e4, e7, same18_10]
    exact stepC_eq _ _ _ _

end Cert.KernelIdeal.Reg

end
-- ==== Proof.KIVal19.lean ====
/-
  What region 19 leaves, at the ideal instance: entered from region 18's exit contents, its three output arrays are the
  relaxation chain's state one step further; the free-phase states and the loss pass through it.
-/
import proofs.«107956_j75110388073098_1_alg».proof.Proof.KIWalk19
import proofs.«107956_j75110388073098_1_alg».proof.Proof.KIArr19
import proofs.«107956_j75110388073098_1_alg».proof.Proof.StepAlias
import proofs.«107956_j75110388073098_1_alg».proof.Proof.KIVal18

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free19 (c : Dev nD) :
    Wo19 m ρ c (Proc.devRef .tc main_v0_0) = (chainAt m c 0).s1
    ∧ Wo19 m ρ c (Proc.devRef .tc main_v0_1) = (chainAt m c 0).s2
    ∧ Wo19 m ρ c (Proc.devRef .tc main_v0_2) = (chainAt m c 0).s3 :=
  ⟨(Wo19_keep m ρ c main_v0_0 (by decide)).trans (free18 m ρ c).1,
   (Wo19_keep m ρ c main_v0_1 (by decide)).trans (free18 m ρ c).2.1,
   (Wo19_keep m ρ c main_v0_2 (by decide)).trans (free18 m ρ c).2.2⟩
theorem loss19 (c : Dev nD) : Wo19 m ρ c (Proc.devRef .tc main_v4) = lossAt m ρ c :=
  (Wo19_keep m ρ c main_v4 (by decide)).trans (loss18 m ρ c)

/-- This step's kernel text is the direct-gradient step's: its results are the same functions of its input arrays. -/
theorem same19_8 (x s1 s2 W0 W1 : Vec Ideal S1024x1024 .f32) : out19_8 (F := Ideal) x s1 s2 W0 W1 = stepA x s1 s2 W0 W1 := rfl
theorem same19_9 (s1 s2 : Vec Ideal S1024x1024 .f32) (s3 : Vec Ideal S1024x512 .f32) (W1 : Vec Ideal S1024x1024 .f32) (W2 : Vec Ideal S1024x512 .f32) :
    out19_9 (F := Ideal) s1 s2 s3 W1 W2 = stepB s1 s2 s3 W1 W2 := rfl
theorem same19_10 (s2 : Vec Ideal S1024x1024 .f32) (s3 y W2 : Vec Ideal S1024x512 .f32) : out19_10 (F := Ideal) s2 s3 y W2 = stepC s2 s3 y W2 := rfl

/-- Region 19's outputs are the states one step further. -/
theorem val19 (c : Dev nD) :
    Wo19 m ρ c (Proc.devRef .tc (Pipeline.arrRef spec19 8)) = (chainAt m c 19).s1
    ∧ Wo19 m ρ c (Proc.devRef .tc (Pipeline.arrRef spec19 9)) = (chainAt m c 19).s2
    ∧ Wo19 m ρ c (Proc.devRef .tc (Pipeline.arrRef spec19 10)) = (chainAt m c 19).s3 := by
  have e0 : Vi19 m ρ c (Pipeline.arrRef spec19 0) = aX m c := Wi19_main_arg0 m ρ c
  have e1 : Vi19 m ρ c (Pipeline.arrRef spec19 1) = (chainAt m c 18).s1 := (val18 m ρ c).1
  have e2 : Vi19 m ρ c (Pipeline.arrRef spec19 2) = (chainAt m c 18).s2 := (val18 m ρ c).2.1
  have e3 : Vi19 m ρ c (Pipeline.arrRef spec19 3) = (chainAt m c 18).s3 := (val18 m ρ c).2.2
  have e4 : Vi19 m ρ c (Pipeline.arrRef spec19 4) = aY m c := Wi19_main_arg1 m ρ c
  have e5 : Vi19 m ρ c (Pipeline.arrRef spec19 5) = aW0 m c := Wi19_main_arg2 m ρ c
  have e6 : Vi19 m ρ c (Pipeline.arrRef spec19 6) = aW1 m c := Wi19_main_arg3 m ρ c
  have e7 : Vi19 m ρ c (Pipeline.arrRef spec19 7) = aW2 m c := Wi19_main_arg4 m ρ c
  refine ⟨?_, ?_, ?_⟩
  · rw [Wo19_arr, arr19_8, e0, e1, e2, e5, e6, same19_8]
    exact stepA_eq _ _ _ _ _
  · rw [Wo19_arr, arr19_9, e1, e2, e3, e6, e7, same19_9]
    exact stepB_eq _ _ _ _ _
  · rw [Wo19_arr, arr19_10, e2, e3, e4, e7, same19_10]
    exact stepC_eq _ _ _ _

end Cert.KernelIdeal.Reg

end
-- ==== Proof.KIVal20.lean ====
/-
  What region 20 leaves, at the ideal instance: entered from region 19's exit contents, its three output arrays are the
  relaxation chain's state one step further; the free-phase states and the loss pass through it.
-/
import proofs.«107956_j75110388073098_1_alg».proof.Proof.KIWalk20
import proofs.«107956_j75110388073098_1_alg».proof.Proof.KIArr20
import proofs.«107956_j75110388073098_1_alg».proof.Proof.StepAlias
import proofs.«107956_j75110388073098_1_alg».proof.Proof.KIVal19

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

/-- The free-phase states and the loss pass through: the region writes neither. -/
theorem free20 (c : Dev nD) :
    Wo20 m ρ c (Proc.devRef .tc main_v0_0) = (chainAt m c 0).s1
    ∧ Wo20 m ρ c (Proc.devRef .tc main_v0_1) = (chainAt m c 0).s2
    ∧ Wo20 m ρ c (Proc.devRef .tc main_v0_2) = (chainAt m c 0).s3 :=
  ⟨(Wo20_keep m ρ c main_v0_0 (by decide)).trans (free19 m ρ c).1,
   (Wo20_keep m ρ c main_v0_1 (by decide)).trans (free19 m ρ c).2.1,
   (Wo20_keep m ρ c main_v0_2 (by decide)).trans (free19 m ρ c).2.2⟩
theorem loss20 (c : Dev nD) : Wo20 m ρ c (Proc.devRef .tc main_v4) = lossAt m ρ c :=
  (Wo20_keep m ρ c main_v4 (by decide)).trans (loss19 m ρ c)

/-- This step's kernel text is the direct-gradient step's: its results are the same functions of its input arrays. -/
theorem same20_8 (x s1 s2 W0 W1 : Vec Ideal S1024x1024 .f32) : out20_8 (F := Ideal) x s1 s2 W0 W1 = stepA x s1 s2 W0 W1 := rfl
theorem same20_9 (s1 s2 : Vec Ideal S1024x1024 .f32) (s3 : Vec Ideal S1024x512 .f32) (W1 : Vec Ideal S1024x1024 .f32) (W2 : Vec Ideal S1024x512 .f32) :
    out20_9 (F := Ideal) s1 s2 s3 W1 W2 = stepB s1 s2 s3 W1 W2 := rfl
theorem same20_10 (s2 : Vec Ideal S1024x1024 .f32) (s3 y W2 : Vec Ideal S1024x512 .f32) : out20_10 (F := Ideal) s2 s3 y W2 = stepC s2 s3 y W2 := rfl

/-- Region 20's outputs are the states one step further. -/
theorem val20 (c : Dev nD) :
    Wo20 m ρ c (Proc.devRef .tc (Pipeline.arrRef spec20 8)) = (chainAt m c 20).s1
    ∧ Wo20 m ρ c (Proc.devRef .tc (Pipeline.arrRef spec20 9)) = (chainAt m c 20).s2
    ∧ Wo20 m ρ c (Proc.devRef .tc (Pipeline.arrRef spec20 10)) = (chainAt m c 20).s3 := by
  have e0 : Vi20 m ρ c (Pipeline.arrRef spec20 0) = aX m c := Wi20_main_arg0 m ρ c
  have e1 : Vi20 m ρ c (Pipeline.arrRef spec20 1) = (chainAt m c 19).s1 := (val19 m ρ c).1
  have e2 : Vi20 m ρ c (Pipeline.arrRef spec20 2) = (chainAt m c 19).s2 := (val19 m ρ c).2.1
  have e3 : Vi20 m ρ c (Pipeline.arrRef spec20 3) = (chainAt m c 19).s3 := (val19 m ρ c).2.2
  have e4 : Vi20 m ρ c (Pipeline.arrRef spec20 4) = aY m c := Wi20_main_arg1 m ρ c
  have e5 : Vi20 m ρ c (Pipeline.arrRef spec20 5) = aW0 m c := Wi20_main_arg2 m ρ c
  have e6 : Vi20 m ρ c (Pipeline.arrRef spec20 6) = aW1 m c := Wi20_main_arg3 m ρ c
  have e7 : Vi20 m ρ c (Pipeline.arrRef spec20 7) = aW2 m c := Wi20_main_arg4 m ρ c
  refine ⟨?_, ?_, ?_⟩
  · rw [Wo20_arr, arr20_8, e0, e1, e2, e5, e6, same20_8]
    exact stepA_eq _ _ _ _ _
  · rw [Wo20_arr, arr20_9, e1, e2, e3, e6, e7, same20_9]
    exact stepB_eq _ _ _ _ _
  · rw [Wo20_arr, arr20_10, e2, e3, e4, e7, same20_10]
    exact stepC_eq _ _ _ _

end Cert.KernelIdeal.Reg

end
-- ==== Proof.KIVal21.lean ====
/-
  What region 21 leaves, at the ideal instance: the three layers' weight gradients at the free-phase states; the
  relaxed states (region 20's outputs) and the loss pass through it.
-/
import proofs.«107956_j75110388073098_1_alg».proof.Proof.KIWalk21
import proofs.«107956_j75110388073098_1_alg».proof.Proof.KIArr21
import proofs.«107956_j75110388073098_1_alg».proof.Proof.StepAlias
import proofs.«107956_j75110388073098_1_alg».proof.Proof.KIVal20

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

theorem loss21 (c : Dev nD) : Wo21 m ρ c (Proc.devRef .tc main_v4) = lossAt m ρ c :=
  (Wo21_keep m ρ c main_v4 (by decide)).trans (loss20 m ρ c)
/-- The relaxed states pass through: region 21 does not touch them. -/
theorem relaxed21 (c : Dev nD) :
    Wo21 m ρ c (Proc.devRef .tc main_v24_0) = (chainAt m c 20).s1
    ∧ Wo21 m ρ c (Proc.devRef .tc main_v24_1) = (chainAt m c 20).s2
    ∧ Wo21 m ρ c (Proc.devRef .tc main_v24_2) = (chainAt m c 20).s3 :=
  ⟨(Wo21_keep m ρ c main_v24_0 (by decide)).trans (val20 m ρ c).1,
   (Wo21_keep m ρ c main_v24_1 (by decide)).trans (val20 m ρ c).2.1,
   (Wo21_keep m ρ c main_v24_2 (by decide)).trans (val20 m ρ c).2.2⟩

/-- Region 21's outputs: each layer's weight gradient at the free-phase states. -/
theorem val21 (c : Dev nD) :
    Wo21 m ρ c (Proc.devRef .tc main_v25_0) = wgA (F := Ideal) (aX m c) (aW0 m c) (chainAt m c 0).s1
    ∧ Wo21 m ρ c (Proc.devRef .tc main_v25_1) = wgA (F := Ideal) (chainAt m c 0).s1 (aW1 m c) (chainAt m c 0).s2
    ∧ Wo21 m ρ c (Proc.devRef .tc main_v25_2) = wgB (F := Ideal) (chainAt m c 0).s2 (aW2 m c) (chainAt m c 0).s3 := by
  have e0 : Vi21 m ρ c (Pipeline.arrRef spec21 0) = aX m c := Wi21_main_arg0 m ρ c
  have e1 : Vi21 m ρ c (Pipeline.arrRef spec21 1) = (chainAt m c 0).s1 := (free20 m ρ c).1
  have e2 : Vi21 m ρ c (Pipeline.arrRef spec21 2) = (chainAt m c 0).s2 := (free20 m ρ c).2.1
  have e3 : Vi21 m ρ c (Pipeline.arrRef spec21 3) = (chainAt m c 0).s3 := (free20 m ρ c).2.2
  have e4 : Vi21 m ρ c (Pipeline.arrRef spec21 4) = aW0 m c := Wi21_main_arg2 m ρ c
  have e5 : Vi21 m ρ c (Pipeline.arrRef spec21 5) = aW1 m c := Wi21_main_arg3 m ρ c
  have e6 : Vi21 m ρ c (Pipeline.arrRef spec21 6) = aW2 m c := Wi21_main_arg4 m ρ c
  refine ⟨?_, ?_, ?_⟩
  · refine (Wo21_arr m ρ c 7).trans ?_
    rw [arr21_7, e0, e1, e4]
    exact out21_7_eq _ _ _
  · refine (Wo21_arr m ρ c 8).trans ?_
    rw [arr21_8, e1, e2, e5]
    exact out21_8_eq _ _ _
  · refine (Wo21_arr m ρ c 9).trans ?_
    rw [arr21_9, e2, e3, e6]
    exact out21_9_eq _ _ _

end Cert.KernelIdeal.Reg

end
-- ==== Proof.KIVal22.lean ====
/-
  What region 22 leaves, at the ideal instance: the three layers' weight gradients at the relaxed states; the
  gradients at the free-phase states (region 21's outputs) and the loss pass through it.
-/
import proofs.«107956_j75110388073098_1_alg».proof.Proof.KIWalk22
import proofs.«107956_j75110388073098_1_alg».proof.Proof.KIArr22
import proofs.«107956_j75110388073098_1_alg».proof.Proof.StepAlias
import proofs.«107956_j75110388073098_1_alg».proof.Proof.KIVal21

set_option maxRecDepth 16384

noncomputable section

namespace Cert.KernelIdeal.Reg

open Cert.KernelIdeal Cert.KernelIdeal.Gen
open Idealize.ShloMosaic Idealize.ShloMosaic.TcCoe
open Idealize.SL.Sem
open Cert.RefSide Cert.Bridge

variable (m : (ℓ : Loc nD τ sig) → Buf (Elt Ideal) ℓ) (ρ : Dev nD → PrngReg)

theorem loss22 (c : Dev nD) : Wo22 m ρ c (Proc.devRef .tc main_v4) = lossAt m ρ c :=
  (Wo22_keep m ρ c main_v4 (by decide)).trans (loss21 m ρ c)
/-- The free-phase gradients pass through: region 22 does not touch them. -/
theorem grads22 (c : Dev nD) :
    Wo22 m ρ c (Proc.devRef .tc main_v25_0) = wgA (F := Ideal) (aX m c) (aW0 m c) (chainAt m c 0).s1
    ∧ Wo22 m ρ c (Proc.devRef .tc main_v25_1) = wgA (F := Ideal) (chainAt m c 0).s1 (aW1 m c) (chainAt m c 0).s2
    ∧ Wo22 m ρ c (Proc.devRef .tc main_v25_2) = wgB (F := Ideal) (chainAt m c 0).s2 (aW2 m c) (chainAt m c 0).s3 :=
  ⟨(Wo22_keep m ρ c main_v25_0 (by decide)).trans (val21 m ρ c).1,
   (Wo22_keep m ρ c main_v25_1 (by decide)).trans (val21 m ρ c).2.1,
   (Wo22_keep m ρ c main_v25_2 (by decide)).trans (val21 m ρ c).2.2⟩

/-- This call's kernel text is the other weight-gradient call's: its results are the same functions of its input arrays. -/
theorem same22_7 (s s' W : Vec Ideal S1024x1024 .f32) : out22_7 (F := Ideal) s s' W = out21_7 (F := Ideal) s s' W := rfl
theorem same22_8 (s s' W : Vec Ideal S1024x1024 .f32) : out22_8 (F := Ideal) s s' W = out21_8 (F := Ideal) s s' W := rfl
theorem same22_9 (s : Vec Ideal S1024x1024 .f32) (s' W : Vec Ideal S1024x512 .f32) : out22_9 (F := Ideal) s s' W = out21_9 (F := Ideal) s s' W := rfl

/-- Region 22's outputs: each layer's weight gradient at the relaxed states. -/
theorem val22 (c : Dev nD) :
    Wo22 m ρ c (Proc.devRef .tc main_v26_0) = wgA (F := Ideal) (aX m c) (aW0 m c) (chainAt m c 20).s1
    ∧ Wo22 m ρ c (Proc.devRef .tc main_v26_1) = wgA (F := Ideal) (chainAt m c 20).s1 (aW1 m c) (chainAt m c 20).s2
    ∧ Wo22 m ρ c (Proc.devRef .tc main_v26_2) = wgB (F := Ideal) (chainAt m c 20).s2 (aW2 m c) (chainAt m c 20).s3 := by
  have e0 : Vi22 m ρ c (Pipeline.arrRef spec22 0) = aX m c := Wi22_main_arg0 m ρ c
  have e1 : Vi22 m ρ c (Pipeline.arrRef spec22 1) = (chainAt m c 20).s1 := (relaxed21 m ρ c).1
  have e2 : Vi22 m ρ c (Pipeline.arrRef spec22 2) = (chainAt m c 20).s2 := (relaxed21 m ρ c).2.1
  have e3 : Vi22 m ρ c (Pipeline.arrRef spec22 3) = (chainAt m c 20).s3 := (relaxed21 m ρ c).2.2
  have e4 : Vi22 m ρ c (Pipeline.arrRef spec22 4) = aW0 m c := Wi22_main_arg2 m ρ c
  have e5 : Vi22 m ρ c (Pipeline.arrRef spec22 5) = aW1 m c := Wi22_main_arg3 m ρ c
  have e6 : Vi22 m ρ c (Pipeline.arrRef spec22 6) = aW2 m c := Wi22_main_arg4 m ρ c
  refine ⟨?_, ?_, ?_⟩
  · refine (Wo22_arr m ρ c 7).trans ?_
    rw [arr22_7, e0, e1, e4, same22_7]
    exact out21_7_eq _ _ _
  · refine (Wo22_arr m ρ c 8).trans ?_
    rw [arr22_8, e1, e2, e5, same22_8]
    exact out21_8_eq _ _ _
  · refine (Wo22_arr m ρ c 9).trans ?_
    rw [arr22_9, e2, e3, e6, same22_9]
    exact out21_9_eq _ _ _

end Cert.KernelIdeal.Reg

end
-- ==== Proof.KITail.lean ====
/-
  What @main returns with, at the ideal instance. The host stretch after region 0 leaves the loss — the mean of the squared
  difference of the free phase's last state and `y` —; the host tail takes each layer's weight gradient at the relaxed
  states less that at the free states, divides by β, flattens, and appends the loss: the reference's `result` of the
  launch memory's arguments, the free-phase states and the states after twenty steps.
-/
import proofs.«107956_j75110388073098_1_alg».proof.Proof.KIRun
import proofs.«107956_j75110388073098_1_alg».proof.Proof.KIVal22
import Idealize.ShloMosaic.Lib.StableHlo.Run

set_option maxRecDepth 16384

noncomputable section

namespace Cert.KernelIdeal.Reg

open Cert.KernelIdeal Cert.KernelIdeal.Gen
open Idealize.ShloMosaic Idealize.ShloMosaic.TcCoe Idealize.ShloMosaic.StableHlo
open Idealize.SL.Sem
open Cert.RefSide Cert.Bridge

variable (m : (ℓ : Loc nD τ sig) → Buf (Elt Ideal) ℓ) (ρ : Dev nD → PrngReg)

/-- The loss the first host stretch leaves is the reference's, of the free phase's last state. -/
theorem lossAt_eq (c : Dev nD) : lossAt m ρ c = loss (F := Ideal) (chainAt m c 0).s3 (aY m c) := by
  show StableHlo.after hostOps1 (Wo0 m ρ c) (Proc.devRef .tc main_v4) = _
  after_results
  rw [(val0 m ρ c).2.2, Wo0_main_arg1 m ρ c]
  rfl

set_option maxHeartbeats 4000000 in
/-- The result buffer after the host tail is the reference's `result`. -/
theorem tail_eq (c : Dev nD) :
    Wend m ρ c (Proc.devRef .tc main_v40)
      = result (F := Ideal) (aX m c) (aY m c) (aW0 m c) (aW1 m c) (aW2 m c) (chainAt m c 0) (chainAt m c 20) := by
  have hv := val22 m ρ c
  have hg := grads22 m ρ c
  have hl := loss22 m ρ c
  have hle := lossAt_eq m ρ c
  show StableHlo.after hostOps23 (Wo22 m ρ c) (Proc.devRef .tc main_v40) = _
  -- the result is the concatenation of four flattened pieces, read off the contents `V16` the operations before it leave
  simp only [after_cons, after_nil]
  rw [nary_result]
  generalize hV : (reshape main_v4 main_v39 _ _ _ _ : HloOp τ sig (Elt Ideal)).result _ = V16
  -- each piece is the reference's: a layer's gradient at the relaxed states less that at the free states, over β, flattened
  have k36 : V16 (Proc.devRef .tc main_v36)
      = shapeCast Cert.ReferenceIdeal.S1048576 (Host.divf (subf (wgA (F := Ideal) (aX m c) (aW0 m c) (chainAt m c 20).s1) (wgA (F := Ideal) (aX m c) (aW0 m c) (chainAt m c 0).s1)) betaA)
          Cert.ReferenceIdeal.Facts₀.shapeCasts_S1024x1024_S1048576 := by
    subst hV
    repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide))
    rw [hv.1, hg.1]
    rfl
  have k37 : V16 (Proc.devRef .tc main_v37)
      = shapeCast Cert.ReferenceIdeal.S1048576 (Host.divf (subf (wgA (F := Ideal) (chainAt m c 20).s1 (aW1 m c) (chainAt m c 20).s2) (wgA (F := Ideal) (chainAt m c 0).s1 (aW1 m c) (chainAt m c 0).s2)) betaA)
          Cert.ReferenceIdeal.Facts₀.shapeCasts_S1024x1024_S1048576 := by
    subst hV
    repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide))
    rw [hv.2.1, hg.2.1]
    rfl
  have k38 : V16 (Proc.devRef .tc main_v38)
      = shapeCast Cert.ReferenceIdeal.S524288 (Host.divf (subf (wgB (F := Ideal) (chainAt m c 20).s2 (aW2 m c) (chainAt m c 20).s3) (wgB (F := Ideal) (chainAt m c 0).s2 (aW2 m c) (chainAt m c 0).s3)) betaB)
          Cert.ReferenceIdeal.Facts₀.shapeCasts_S1024x512_S524288 := by
    subst hV
    repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide))
    rw [hv.2.2, hg.2.2]
    rfl
  have k39 : V16 (Proc.devRef .tc main_v39)
      = broadcastInDim Cert.ReferenceIdeal.S1 ![] Cert.ReferenceIdeal.Facts₀.bcast_S_S1 (loss (F := Ideal) (chainAt m c 0).s3 (aY m c)) := by
    subst hV
    repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide))
    rw [hl, hle]
    exact cast_S1 _
  -- the concatenation of equal pieces
  show concatenate _ _ [⟨_, V16 (Proc.devRef .tc main_v36)⟩, ⟨_, V16 (Proc.devRef .tc main_v37)⟩, ⟨_, V16 (Proc.devRef .tc main_v38)⟩, ⟨_, V16 (Proc.devRef .tc main_v39)⟩] _ = _
  rw [k36, k37, k38, k39]
  rfl

end Cert.KernelIdeal.Reg

end
-- ==== Proof.RefWin.lean ====
/-
  The reference's host operations, cut where its arithmetic is cut: the two forward chains, the first relaxation step, each of
  the nineteen later steps, and the closing stretch (weight gradients, loss, assembly). Per window: the references it writes, and
  that a buffer it does not write keeps its contents through it. Appended in order, the windows are the program's operations.
-/
import proofs.«107956_j75110388073098_1_alg».proof.Proof.RefOps

set_option maxRecDepth 8192

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- 6 operations. -/
abbrev wFwd : List (HloOp τ sig (Elt F)) :=
  [ binary main_arg0 main_arg2 main_v0 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v0 main_arg3 main_v1 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v1 main_arg4 main_v2 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_arg0 main_arg2 main_v3 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v3 main_arg3 main_v4 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v4 main_arg4 main_v5 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)) ]
abbrev wFwd_W : List (Ref sig .tc) := [main_v0, main_v1, main_v2, main_v3, main_v4, main_v5]
theorem wFwd_writes : (wFwd : List (HloOp τ sig (Elt F))).Forall fun op => op.writes ⊆ (wFwd_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wFwd_keep (V : Valuation τ sig (Elt F)) (r : Ref sig .tc) (h : r ∉ wFwd_W) :
    after wFwd V (Proc.devRef .tc r) = V (Proc.devRef .tc r) := after_of_writes_sub wFwd _ wFwd_writes h

/-- 39 operations. -/
abbrev wC : List (HloOp τ sig (Elt F)) :=
  [ binary main_arg0 main_arg2 main_v6 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v3 main_v6 main_v7 (subf : (⟨S1024x1024, .f32⟩ : BufTy).Contents (Elt F) → (⟨S1024x1024, .f32⟩ : BufTy).Contents (Elt F) → (⟨S1024x1024, .f32⟩ : BufTy).Contents (Elt F)),
    binary main_v3 main_arg3 main_v8 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v4 main_v8 main_v9 (subf : (⟨S1024x1024, .f32⟩ : BufTy).Contents (Elt F) → (⟨S1024x1024, .f32⟩ : BufTy).Contents (Elt F) → (⟨S1024x1024, .f32⟩ : BufTy).Contents (Elt F)),
    unary main_arg3 main_v10 ((transpose S1024x1024 [1, 0] · transposes_S1024x1024_S1024x1024_1_0) : (⟨S1024x1024, .f32⟩ : BufTy).Contents (Elt F) → (⟨S1024x1024, .f32⟩ : BufTy).Contents (Elt F)),
    binary main_v9 main_v10 main_v11 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v7 main_v11 main_v12 (subf : (⟨S1024x1024, .f32⟩ : BufTy).Contents (Elt F) → (⟨S1024x1024, .f32⟩ : BufTy).Contents (Elt F) → (⟨S1024x1024, .f32⟩ : BufTy).Contents (Elt F)),
    binary main_v3 main_arg3 main_v13 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v4 main_v13 main_v14 (subf : (⟨S1024x1024, .f32⟩ : BufTy).Contents (Elt F) → (⟨S1024x1024, .f32⟩ : BufTy).Contents (Elt F) → (⟨S1024x1024, .f32⟩ : BufTy).Contents (Elt F)),
    binary main_v4 main_arg4 main_v15 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v5 main_v15 main_v16 (subf : (⟨S1024x512, .f32⟩ : BufTy).Contents (Elt F) → (⟨S1024x512, .f32⟩ : BufTy).Contents (Elt F) → (⟨S1024x512, .f32⟩ : BufTy).Contents (Elt F)),
    unary main_arg4 main_v17 ((transpose S512x1024 [1, 0] · transposes_S1024x512_S512x1024_1_0) : (⟨S1024x512, .f32⟩ : BufTy).Contents (Elt F) → (⟨S512x1024, .f32⟩ : BufTy).Contents (Elt F)),
    binary main_v16 main_v17 main_v18 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v14 main_v18 main_v19 (subf : (⟨S1024x1024, .f32⟩ : BufTy).Contents (Elt F) → (⟨S1024x1024, .f32⟩ : BufTy).Contents (Elt F) → (⟨S1024x1024, .f32⟩ : BufTy).Contents (Elt F)),
    binary main_v4 main_arg4 main_v20 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v5 main_v20 main_v21 (subf : (⟨S1024x512, .f32⟩ : BufTy).Contents (Elt F) → (⟨S1024x512, .f32⟩ : BufTy).Contents (Elt F) → (⟨S1024x512, .f32⟩ : BufTy).Contents (Elt F)),
    binary main_v5 main_arg1 main_v22 (subf : (⟨S1024x512, .f32⟩ : BufTy).Contents (Elt F) → (⟨S1024x512, .f32⟩ : BufTy).Contents (Elt F) → (⟨S1024x512, .f32⟩ : BufTy).Contents (Elt F)),
    nullary main_cst (constant S_ .f32 0x3A83126F#32),
    unary main_cst main_v23 (broadcastInDim S1024x512 ![] bcast_S_S1024x512 : (⟨S_, .f32⟩ : BufTy).Contents (Elt F) → (⟨S1024x512, .f32⟩ : BufTy).Contents (Elt F)),
    binary main_v23 main_v22 main_v24 (mulf : (⟨S1024x512, .f32⟩ : BufTy).Contents (Elt F) → (⟨S1024x512, .f32⟩ : BufTy).Contents (Elt F) → (⟨S1024x512, .f32⟩ : BufTy).Contents (Elt F)),
    binary main_v21 main_v24 main_v25 (addf : (⟨S1024x512, .f32⟩ : BufTy).Contents (Elt F) → (⟨S1024x512, .f32⟩ : BufTy).Contents (Elt F) → (⟨S1024x512, .f32⟩ : BufTy).Contents (Elt F)),
    unary main_arg4 main_v26 ((transpose S512x1024 [1, 0] · transposes_S1024x512_S512x1024_1_0) : (⟨S1024x512, .f32⟩ : BufTy).Contents (Elt F) → (⟨S512x1024, .f32⟩ : BufTy).Contents (Elt F)),
    binary main_v25 main_v26 main_v27 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v19 main_v27 main_v28 (addf : (⟨S1024x1024, .f32⟩ : BufTy).Contents (Elt F) → (⟨S1024x1024, .f32⟩ : BufTy).Contents (Elt F) → (⟨S1024x1024, .f32⟩ : BufTy).Contents (Elt F)),
    unary main_arg3 main_v29 ((transpose S1024x1024 [1, 0] · transposes_S1024x1024_S1024x1024_1_0) : (⟨S1024x1024, .f32⟩ : BufTy).Contents (Elt F) → (⟨S1024x1024, .f32⟩ : BufTy).Contents (Elt F)),
    binary main_v28 main_v29 main_v30 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v12 main_v30 main_v31 (addf : (⟨S1024x1024, .f32⟩ : BufTy).Contents (Elt F) → (⟨S1024x1024, .f32⟩ : BufTy).Contents (Elt F) → (⟨S1024x1024, .f32⟩ : BufTy).Contents (Elt F)),
    nullary main_cst_0 (constant S_ .f32 0x3F000000#32),
    unary main_cst_0 main_v32 (broadcastInDim S1024x1024 ![] bcast_S_S1024x1024 : (⟨S_, .f32⟩ : BufTy).Contents (Elt F) → (⟨S1024x1024, .f32⟩ : BufTy).Contents (Elt F)),
    binary main_v32 main_v31 main_v33 (mulf : (⟨S1024x1024, .f32⟩ : BufTy).Contents (Elt F) → (⟨S1024x1024, .f32⟩ : BufTy).Contents (Elt F) → (⟨S1024x1024, .f32⟩ : BufTy).Contents (Elt F)),
    binary main_v3 main_v33 main_v34 (subf : (⟨S1024x1024, .f32⟩ : BufTy).Contents (Elt F) → (⟨S1024x1024, .f32⟩ : BufTy).Contents (Elt F) → (⟨S1024x1024, .f32⟩ : BufTy).Contents (Elt F)),
    nullary main_cst_1 (constant S_ .f32 0x3F000000#32),
    unary main_cst_1 main_v35 (broadcastInDim S1024x1024 ![] bcast_S_S1024x1024 : (⟨S_, .f32⟩ : BufTy).Contents (Elt F) → (⟨S1024x1024, .f32⟩ : BufTy).Contents (Elt F)),
    binary main_v35 main_v28 main_v36 (mulf : (⟨S1024x1024, .f32⟩ : BufTy).Contents (Elt F) → (⟨S1024x1024, .f32⟩ : BufTy).Contents (Elt F) → (⟨S1024x1024, .f32⟩ : BufTy).Contents (Elt F)),
    binary main_v4 main_v36 main_v37 (subf : (⟨S1024x1024, .f32⟩ : BufTy).Contents (Elt F) → (⟨S1024x1024, .f32⟩ : BufTy).Contents (Elt F) → (⟨S1024x1024, .f32⟩ : BufTy).Contents (Elt F)),
    nullary main_cst_2 (constant S_ .f32 0x3F000000#32),
    unary main_cst_2 main_v38 (broadcastInDim S1024x512 ![] bcast_S_S1024x512 : (⟨S_, .f32⟩ : BufTy).Contents (Elt F) → (⟨S1024x512, .f32⟩ : BufTy).Contents (Elt F)),
    binary main_v38 main_v25 main_v39 (mulf : (⟨S1024x512, .f32⟩ : BufTy).Contents (Elt F) → (⟨S1024x512, .f32⟩ : BufTy).Contents (Elt F) → (⟨S1024x512, .f32⟩ : BufTy).Contents (Elt F)),
    binary main_v5 main_v39 main_v40 (subf : (⟨S1024x512, .f32⟩ : BufTy).Contents (Elt F) → (⟨S1024x512, .f32⟩ : BufTy).Contents (Elt F) → (⟨S1024x512, .f32⟩ : BufTy).Contents (Elt F)) ]
abbrev wC_W : List (Ref sig .tc) := [main_v6, main_v7, main_v8, main_v9, main_v10, main_v11, main_v12, main_v13, main_v14, main_v15, main_v16, main_v17, main_v18, main_v19, main_v20, main_v21, main_v22, main_cst, main_v23, main_v24, main_v25, main_v26, main_v27, main_v28, main_v29, main_v30, main_v31, main_cst_0, main_v32, main_v33, main_v34, main_cst_1, main_v35, main_v36, main_v37, main_cst_2, main_v38, main_v39, main_v40]
theorem wC_writes : (wC : List (HloOp τ sig (Elt F))).Forall fun op => op.writes ⊆ (wC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wC_keep (V : Valuation τ sig (Elt F)) (r : Ref sig .tc) (h : r ∉ wC_W) :
    after wC V (Proc.devRef .tc r) = V (Proc.devRef .tc r) := after_of_writes_sub wC _ wC_writes h

/-- 33 operations. -/
abbrev wU1 : List (HloOp τ sig (Elt F)) :=
  [ binary main_arg0 main_arg2 main_v41 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v34 main_v41 main_v42 (subf : (⟨S1024x1024, .f32⟩ : BufTy).Contents (Elt F) → (⟨S1024x1024, .f32⟩ : BufTy).Contents (Elt F) → (⟨S1024x1024, .f32⟩ : BufTy).Contents (Elt F)),
    binary main_v34 main_arg3 main_v43 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v37 main_v43 main_v44 (subf : (⟨S1024x1024, .f32⟩ : BufTy).Contents (Elt F) → (⟨S1024x1024, .f32⟩ : BufTy).Contents (Elt F) → (⟨S1024x1024, .f32⟩ : BufTy).Contents (Elt F)),
    unary main_arg3 main_v45 ((transpose S1024x1024 [1, 0] · transposes_S1024x1024_S1024x1024_1_0) : (⟨S1024x1024, .f32⟩ : BufTy).Contents (Elt F) → (⟨S1024x1024, .f32⟩ : BufTy).Contents (Elt F)),
    binary main_v44 main_v45 main_v46 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v42 main_v46 main_v47 (subf : (⟨S1024x1024, .f32⟩ : BufTy).Contents (Elt F) → (⟨S1024x1024, .f32⟩ : BufTy).Contents (Elt F) → (⟨S1024x1024, .f32⟩ : BufTy).Contents (Elt F)),
    binary main_v34 main_arg3 main_v48 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v37 main_v48 main_v49 (subf : (⟨S1024x1024, .f32⟩ : BufTy).Contents (Elt F) → (⟨S1024x1024, .f32⟩ : BufTy).Contents (Elt F) → (⟨S1024x1024, .f32⟩ : BufTy).Contents (Elt F)),
    binary main_v37 main_arg4 main_v50 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v40 main_v50 main_v51 (subf : (⟨S1024x512, .f32⟩ : BufTy).Contents (Elt F) → (⟨S1024x512, .f32⟩ : BufTy).Contents (Elt F) → (⟨S1024x512, .f32⟩ : BufTy).Contents (Elt F)),
    unary main_arg4 main_v52 ((transpose S512x1024 [1, 0] · transposes_S1024x512_S512x1024_1_0) : (⟨S1024x512, .f32⟩ : BufTy).Contents (Elt F) → (⟨S512x1024, .f32⟩ : BufTy).Contents (Elt F)),
    binary main_v51 main_v52 main_v53 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v49 main_v53 main_v54 (subf : (⟨S1024x1024, .f32⟩ : BufTy).Contents (Elt F) → (⟨S1024x1024, .f32⟩ : BufTy).Contents (Elt F) → (⟨S1024x1024, .f32⟩ : BufTy).Contents (Elt F)),
    binary main_v37 main_arg4 main_v55 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v40 main_v55 main_v56 (subf : (⟨S1024x512, .f32⟩ : BufTy).Contents (Elt F) → (⟨S1024x512, .f32⟩ : BufTy).Contents (Elt F) → (⟨S1024x512, .f32⟩ : BufTy).Contents (Elt F)),
    binary main_v40 main_arg1 main_v57 (subf : (⟨S1024x512, .f32⟩ : BufTy).Contents (Elt F) → (⟨S1024x512, .f32⟩ : BufTy).Contents (Elt F) → (⟨S1024x512, .f32⟩ : BufTy).Contents (Elt F)),
    nullary main_cst_3 (constant S_ .f32 0x3A83126F#32),
    unary main_cst_3 main_v58 (broadcastInDim S1024x512 ![] bcast_S_S1024x512 : (⟨S_, .f32⟩ : BufTy).Contents (Elt F) → (⟨S1024x512, .f32⟩ : BufTy).Contents (Elt F)),
    binary main_v58 main_v57 main_v59 (mulf : (⟨S1024x512, .f32⟩ : BufTy).Contents (Elt F) → (⟨S1024x512, .f32⟩ : BufTy).Contents (Elt F) → (⟨S1024x512, .f32⟩ : BufTy).Contents (Elt F)),
    binary main_v56 main_v59 main_v60 (addf : (⟨S1024x512, .f32⟩ : BufTy).Contents (Elt F) → (⟨S1024x512, .f32⟩ : BufTy).Contents (Elt F) → (⟨S1024x512, .f32⟩ : BufTy).Contents (Elt F)),
    nullary main_cst_4 (constant S_ .f32 0x3F000000#32),
    unary main_cst_4 main_v61 (broadcastInDim S1024x1024 ![] bcast_S_S1024x1024 : (⟨S_, .f32⟩ : BufTy).Contents (Elt F) → (⟨S1024x1024, .f32⟩ : BufTy).Contents (Elt F)),
    binary main_v61 main_v47 main_v62 (mulf : (⟨S1024x1024, .f32⟩ : BufTy).Contents (Elt F) → (⟨S1024x1024, .f32⟩ : BufTy).Contents (Elt F) → (⟨S1024x1024, .f32⟩ : BufTy).Contents (Elt F)),
    binary main_v34 main_v62 main_v63 (subf : (⟨S1024x1024, .f32⟩ : BufTy).Contents (Elt F) → (⟨S1024x1024, .f32⟩ : BufTy).Contents (Elt F) → (⟨S1024x1024, .f32⟩ : BufTy).Contents (Elt F)),
    nullary main_cst_5 (constant S_ .f32 0x3F000000#32),
    unary main_cst_5 main_v64 (broadcastInDim S1024x1024 ![] bcast_S_S1024x1024 : (⟨S_, .f32⟩ : BufTy).Contents (Elt F) → (⟨S1024x1024, .f32⟩ : BufTy).Contents (Elt F)),
    binary main_v64 main_v54 main_v65 (mulf : (⟨S1024x1024, .f32⟩ : BufTy).Contents (Elt F) → (⟨S1024x1024, .f32⟩ : BufTy).Contents (Elt F) → (⟨S1024x1024, .f32⟩ : BufTy).Contents (Elt F)),
    binary main_v37 main_v65 main_v66 (subf : (⟨S1024x1024, .f32⟩ : BufTy).Contents (Elt F) → (⟨S1024x1024, .f32⟩ : BufTy).Contents (Elt F) → (⟨S1024x1024, .f32⟩ : BufTy).Contents (Elt F)),
    nullary main_cst_6 (constant S_ .f32 0x3F000000#32),
    unary main_cst_6 main_v67 (broadcastInDim S1024x512 ![] bcast_S_S1024x512 : (⟨S_, .f32⟩ : BufTy).Contents (Elt F) → (⟨S1024x512, .f32⟩ : BufTy).Contents (Elt F)),
    binary main_v67 main_v60 main_v68 (mulf : (⟨S1024x512, .f32⟩ : BufTy).Contents (Elt F) → (⟨S1024x512, .f32⟩ : BufTy).Contents (Elt F) → (⟨S1024x512, .f32⟩ : BufTy).Contents (Elt F)),
    binary main_v40 main_v68 main_v69 (subf : (⟨S1024x512, .f32⟩ : BufTy).Contents (Elt F) → (⟨S1024x512, .f32⟩ : BufTy).Contents (Elt F) → (⟨S1024x512, .f32⟩ : BufTy).Contents (Elt F)) ]
abbrev wU1_W : List (Ref sig .tc) := [main_v41, main_v42, main_v43, main_v44, main_v45, main_v46, main_v47, main_v48, main_v49, main_v50, main_v51, main_v52, main_v53, main_v54, main_v55, main_v56, main_v57, main_cst_3, main_v58, main_v59, main_v60, main_cst_4, main_v61, main_v62, main_v63, main_cst_5, main_v64, main_v65, main_v66, main_cst_6, main_v67, main_v68, main_v69]
theorem wU1_writes : (wU1 : List (HloOp τ sig (Elt F))).Forall fun op => op.writes ⊆ (wU1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU1_keep (V : Valuation τ sig (Elt F)) (r : Ref sig .tc) (h : r ∉ wU1_W) :
    after wU1 V (Proc.devRef .tc r) = V (Proc.devRef .tc r) := after_of_writes_sub wU1 _ wU1_writes h

/-- 33 operations. -/
abbrev wU2 : List (HloOp τ sig (Elt F)) :=
  [ binary main_arg0 main_arg2 main_v70 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v63 main_v70 main_v71 (subf : (⟨S1024x1024, .f32⟩ : BufTy).Contents (Elt F) → (⟨S1024x1024, .f32⟩ : BufTy).Contents (Elt F) → (⟨S1024x1024, .f32⟩ : BufTy).Contents (Elt F)),
    binary main_v63 main_arg3 main_v72 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v66 main_v72 main_v73 (subf : (⟨S1024x1024, .f32⟩ : BufTy).Contents (Elt F) → (⟨S1024x1024, .f32⟩ : BufTy).Contents (Elt F) → (⟨S1024x1024, .f32⟩ : BufTy).Contents (Elt F)),
    unary main_arg3 main_v74 ((transpose S1024x1024 [1, 0] · transposes_S1024x1024_S1024x1024_1_0) : (⟨S1024x1024, .f32⟩ : BufTy).Contents (Elt F) → (⟨S1024x1024, .f32⟩ : BufTy).Contents (Elt F)),
    binary main_v73 main_v74 main_v75 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v71 main_v75 main_v76 (subf : (⟨S1024x1024, .f32⟩ : BufTy).Contents (Elt F) → (⟨S1024x1024, .f32⟩ : BufTy).Contents (Elt F) → (⟨S1024x1024, .f32⟩ : BufTy).Contents (Elt F)),
    binary main_v63 main_arg3 main_v77 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v66 main_v77 main_v78 (subf : (⟨S1024x1024, .f32⟩ : BufTy).Contents (Elt F) → (⟨S1024x1024, .f32⟩ : BufTy).Contents (Elt F) → (⟨S1024x1024, .f32⟩ : BufTy).Contents (Elt F)),
    binary main_v66 main_arg4 main_v79 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v69 main_v79 main_v80 (subf : (⟨S1024x512, .f32⟩ : BufTy).Contents (Elt F) → (⟨S1024x512, .f32⟩ : BufTy).Contents (Elt F) → (⟨S1024x512, .f32⟩ : BufTy).Contents (Elt F)),
    unary main_arg4 main_v81 ((transpose S512x1024 [1, 0] · transposes_S1024x512_S512x1024_1_0) : (⟨S1024x512, .f32⟩ : BufTy).Contents (Elt F) → (⟨S512x1024, .f32⟩ : BufTy).Contents (Elt F)),
    binary main_v80 main_v81 main_v82 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v78 main_v82 main_v83 (subf : (⟨S1024x1024, .f32⟩ : BufTy).Contents (Elt F) → (⟨S1024x1024, .f32⟩ : BufTy).Contents (Elt F) → (⟨S1024x1024, .f32⟩ : BufTy).Contents (Elt F)),
    binary main_v66 main_arg4 main_v84 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v69 main_v84 main_v85 (subf : (⟨S1024x512, .f32⟩ : BufTy).Contents (Elt F) → (⟨S1024x512, .f32⟩ : BufTy).Contents (Elt F) → (⟨S1024x512, .f32⟩ : BufTy).Contents (Elt F)),
    binary main_v69 main_arg1 main_v86 (subf : (⟨S1024x512, .f32⟩ : BufTy).Contents (Elt F) → (⟨S1024x512, .f32⟩ : BufTy).Contents (Elt F) → (⟨S1024x512, .f32⟩ : BufTy).Contents (Elt F)),
    nullary main_cst_7 (constant S_ .f32 0x3A83126F#32),
    unary main_cst_7 main_v87 (broadcastInDim S1024x512 ![] bcast_S_S1024x512 : (⟨S_, .f32⟩ : BufTy).Contents (Elt F) → (⟨S1024x512, .f32⟩ : BufTy).Contents (Elt F)),
    binary main_v87 main_v86 main_v88 (mulf : (⟨S1024x512, .f32⟩ : BufTy).Contents (Elt F) → (⟨S1024x512, .f32⟩ : BufTy).Contents (Elt F) → (⟨S1024x512, .f32⟩ : BufTy).Contents (Elt F)),
    binary main_v85 main_v88 main_v89 (addf : (⟨S1024x512, .f32⟩ : BufTy).Contents (Elt F) → (⟨S1024x512, .f32⟩ : BufTy).Contents (Elt F) → (⟨S1024x512, .f32⟩ : BufTy).Contents (Elt F)),
    nullary main_cst_8 (constant S_ .f32 0x3F000000#32),
    unary main_cst_8 main_v90 (broadcastInDim S1024x1024 ![] bcast_S_S1024x1024 : (⟨S_, .f32⟩ : BufTy).Contents (Elt F) → (⟨S1024x1024, .f32⟩ : BufTy).Contents (Elt F)),
    binary main_v90 main_v76 main_v91 (mulf : (⟨S1024x1024, .f32⟩ : BufTy).Contents (Elt F) → (⟨S1024x1024, .f32⟩ : BufTy).Contents (Elt F) → (⟨S1024x1024, .f32⟩ : BufTy).Contents (Elt F)),
    binary main_v63 main_v91 main_v92 (subf : (⟨S1024x1024, .f32⟩ : BufTy).Contents (Elt F) → (⟨S1024x1024, .f32⟩ : BufTy).Contents (Elt F) → (⟨S1024x1024, .f32⟩ : BufTy).Contents (Elt F)),
    nullary main_cst_9 (constant S_ .f32 0x3F000000#32),
    unary main_cst_9 main_v93 (broadcastInDim S1024x1024 ![] bcast_S_S1024x1024 : (⟨S_, .f32⟩ : BufTy).Contents (Elt F) → (⟨S1024x1024, .f32⟩ : BufTy).Contents (Elt F)),
    binary main_v93 main_v83 main_v94 (mulf : (⟨S1024x1024, .f32⟩ : BufTy).Contents (Elt F) → (⟨S1024x1024, .f32⟩ : BufTy).Contents (Elt F) → (⟨S1024x1024, .f32⟩ : BufTy).Contents (Elt F)),
    binary main_v66 main_v94 main_v95 (subf : (⟨S1024x1024, .f32⟩ : BufTy).Contents (Elt F) → (⟨S1024x1024, .f32⟩ : BufTy).Contents (Elt F) → (⟨S1024x1024, .f32⟩ : BufTy).Contents (Elt F)),
    nullary main_cst_10 (constant S_ .f32 0x3F000000#32),
    unary main_cst_10 main_v96 (broadcastInDim S1024x512 ![] bcast_S_S1024x512 : (⟨S_, .f32⟩ : BufTy).Contents (Elt F) → (⟨S1024x512, .f32⟩ : BufTy).Contents (Elt F)),
    binary main_v96 main_v89 main_v97 (mulf : (⟨S1024x512, .f32⟩ : BufTy).Contents (Elt F) → (⟨S1024x512, .f32⟩ : BufTy).Contents (Elt F) → (⟨S1024x512, .f32⟩ : BufTy).Contents (Elt F)),
    binary main_v69 main_v97 main_v98 (subf : (⟨S1024x512, .f32⟩ : BufTy).Contents (Elt F) → (⟨S1024x512, .f32⟩ : BufTy).Contents (Elt F) → (⟨S1024x512, .f32⟩ : BufTy).Contents (Elt F)) ]
abbrev wU2_W : List (Ref sig .tc) := [main_v70, main_v71, main_v72, main_v73, main_v74, main_v75, main_v76, main_v77, main_v78, main_v79, main_v80, main_v81, main_v82, main_v83, main_v84, main_v85, main_v86, main_cst_7, main_v87, main_v88, main_v89, main_cst_8, main_v90, main_v91, main_v92, main_cst_9, main_v93, main_v94, main_v95, main_cst_10, main_v96, main_v97, main_v98]
theorem wU2_writes : (wU2 : List (HloOp τ sig (Elt F))).Forall fun op => op.writes ⊆ (wU2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU2_keep (V : Valuation τ sig (Elt F)) (r : Ref sig .tc) (h : r ∉ wU2_W) :
    after wU2 V (Proc.devRef .tc r) = V (Proc.devRef .tc r) := after_of_writes_sub wU2 _ wU2_writes h

/-- 33 operations. -/
abbrev wU3 : List (HloOp τ sig (Elt F)) :=
  [ binary main_arg0 main_arg2 main_v99 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v92 main_v99 main_v100 (subf : (⟨S1024x1024, .f32⟩ : BufTy).Contents (Elt F) → (⟨S1024x1024, .f32⟩ : BufTy).Contents (Elt F) → (⟨S1024x1024, .f32⟩ : BufTy).Contents (Elt F)),
    binary main_v92 main_arg3 main_v101 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v95 main_v101 main_v102 (subf : (⟨S1024x1024, .f32⟩ : BufTy).Contents (Elt F) → (⟨S1024x1024, .f32⟩ : BufTy).Contents (Elt F) → (⟨S1024x1024, .f32⟩ : BufTy).Contents (Elt F)),
    unary main_arg3 main_v103 ((transpose S1024x1024 [1, 0] · transposes_S1024x1024_S1024x1024_1_0) : (⟨S1024x1024, .f32⟩ : BufTy).Contents (Elt F) → (⟨S1024x1024, .f32⟩ : BufTy).Contents (Elt F)),
    binary main_v102 main_v103 main_v104 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v100 main_v104 main_v105 (subf : (⟨S1024x1024, .f32⟩ : BufTy).Contents (Elt F) → (⟨S1024x1024, .f32⟩ : BufTy).Contents (Elt F) → (⟨S1024x1024, .f32⟩ : BufTy).Contents (Elt F)),
    binary main_v92 main_arg3 main_v106 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v95 main_v106 main_v107 (subf : (⟨S1024x1024, .f32⟩ : BufTy).Contents (Elt F) → (⟨S1024x1024, .f32⟩ : BufTy).Contents (Elt F) → (⟨S1024x1024, .f32⟩ : BufTy).Contents (Elt F)),
    binary main_v95 main_arg4 main_v108 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v98 main_v108 main_v109 (subf : (⟨S1024x512, .f32⟩ : BufTy).Contents (Elt F) → (⟨S1024x512, .f32⟩ : BufTy).Contents (Elt F) → (⟨S1024x512, .f32⟩ : BufTy).Contents (Elt F)),
    unary main_arg4 main_v110 ((transpose S512x1024 [1, 0] · transposes_S1024x512_S512x1024_1_0) : (⟨S1024x512, .f32⟩ : BufTy).Contents (Elt F) → (⟨S512x1024, .f32⟩ : BufTy).Contents (Elt F)),
    binary main_v109 main_v110 main_v111 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v107 main_v111 main_v112 (subf : (⟨S1024x1024, .f32⟩ : BufTy).Contents (Elt F) → (⟨S1024x1024, .f32⟩ : BufTy).Contents (Elt F) → (⟨S1024x1024, .f32⟩ : BufTy).Contents (Elt F)),
    binary main_v95 main_arg4 main_v113 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v98 main_v113 main_v114 (subf : (⟨S1024x512, .f32⟩ : BufTy).Contents (Elt F) → (⟨S1024x512, .f32⟩ : BufTy).Contents (Elt F) → (⟨S1024x512, .f32⟩ : BufTy).Contents (Elt F)),
    binary main_v98 main_arg1 main_v115 (subf : (⟨S1024x512, .f32⟩ : BufTy).Contents (Elt F) → (⟨S1024x512, .f32⟩ : BufTy).Contents (Elt F) → (⟨S1024x512, .f32⟩ : BufTy).Contents (Elt F)),
    nullary main_cst_11 (constant S_ .f32 0x3A83126F#32),
    unary main_cst_11 main_v116 (broadcastInDim S1024x512 ![] bcast_S_S1024x512 : (⟨S_, .f32⟩ : BufTy).Contents (Elt F) → (⟨S1024x512, .f32⟩ : BufTy).Contents (Elt F)),
    binary main_v116 main_v115 main_v117 (mulf : (⟨S1024x512, .f32⟩ : BufTy).Contents (Elt F) → (⟨S1024x512, .f32⟩ : BufTy).Contents (Elt F) → (⟨S1024x512, .f32⟩ : BufTy).Contents (Elt F)),
    binary main_v114 main_v117 main_v118 (addf : (⟨S1024x512, .f32⟩ : BufTy).Contents (Elt F) → (⟨S1024x512, .f32⟩ : BufTy).Contents (Elt F) → (⟨S1024x512, .f32⟩ : BufTy).Contents (Elt F)),
    nullary main_cst_12 (constant S_ .f32 0x3F000000#32),
    unary main_cst_12 main_v119 (broadcastInDim S1024x1024 ![] bcast_S_S1024x1024 : (⟨S_, .f32⟩ : BufTy).Contents (Elt F) → (⟨S1024x1024, .f32⟩ : BufTy).Contents (Elt F)),
    binary main_v119 main_v105 main_v120 (mulf : (⟨S1024x1024, .f32⟩ : BufTy).Contents (Elt F) → (⟨S1024x1024, .f32⟩ : BufTy).Contents (Elt F) → (⟨S1024x1024, .f32⟩ : BufTy).Contents (Elt F)),
    binary main_v92 main_v120 main_v121 (subf : (⟨S1024x1024, .f32⟩ : BufTy).Contents (Elt F) → (⟨S1024x1024, .f32⟩ : BufTy).Contents (Elt F) → (⟨S1024x1024, .f32⟩ : BufTy).Contents (Elt F)),
    nullary main_cst_13 (constant S_ .f32 0x3F000000#32),
    unary main_cst_13 main_v122 (broadcastInDim S1024x1024 ![] bcast_S_S1024x1024 : (⟨S_, .f32⟩ : BufTy).Contents (Elt F) → (⟨S1024x1024, .f32⟩ : BufTy).Contents (Elt F)),
    binary main_v122 main_v112 main_v123 (mulf : (⟨S1024x1024, .f32⟩ : BufTy).Contents (Elt F) → (⟨S1024x1024, .f32⟩ : BufTy).Contents (Elt F) → (⟨S1024x1024, .f32⟩ : BufTy).Contents (Elt F)),
    binary main_v95 main_v123 main_v124 (subf : (⟨S1024x1024, .f32⟩ : BufTy).Contents (Elt F) → (⟨S1024x1024, .f32⟩ : BufTy).Contents (Elt F) → (⟨S1024x1024, .f32⟩ : BufTy).Contents (Elt F)),
    nullary main_cst_14 (constant S_ .f32 0x3F000000#32),
    unary main_cst_14 main_v125 (broadcastInDim S1024x512 ![] bcast_S_S1024x512 : (⟨S_, .f32⟩ : BufTy).Contents (Elt F) → (⟨S1024x512, .f32⟩ : BufTy).Contents (Elt F)),
    binary main_v125 main_v118 main_v126 (mulf : (⟨S1024x512, .f32⟩ : BufTy).Contents (Elt F) → (⟨S1024x512, .f32⟩ : BufTy).Contents (Elt F) → (⟨S1024x512, .f32⟩ : BufTy).Contents (Elt F)),
    binary main_v98 main_v126 main_v127 (subf : (⟨S1024x512, .f32⟩ : BufTy).Contents (Elt F) → (⟨S1024x512, .f32⟩ : BufTy).Contents (Elt F) → (⟨S1024x512, .f32⟩ : BufTy).Contents (Elt F)) ]
abbrev wU3_W : List (Ref sig .tc) := [main_v99, main_v100, main_v101, main_v102, main_v103, main_v104, main_v105, main_v106, main_v107, main_v108, main_v109, main_v110, main_v111, main_v112, main_v113, main_v114, main_v115, main_cst_11, main_v116, main_v117, main_v118, main_cst_12, main_v119, main_v120, main_v121, main_cst_13, main_v122, main_v123, main_v124, main_cst_14, main_v125, main_v126, main_v127]
theorem wU3_writes : (wU3 : List (HloOp τ sig (Elt F))).Forall fun op => op.writes ⊆ (wU3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU3_keep (V : Valuation τ sig (Elt F)) (r : Ref sig .tc) (h : r ∉ wU3_W) :
    after wU3 V (Proc.devRef .tc r) = V (Proc.devRef .tc r) := after_of_writes_sub wU3 _ wU3_writes h

/-- 33 operations. -/
abbrev wU4 : List (HloOp τ sig (Elt F)) :=
  [ binary main_arg0 main_arg2 main_v128 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v121 main_v128 main_v129 (subf : (⟨S1024x1024, .f32⟩ : BufTy).Contents (Elt F) → (⟨S1024x1024, .f32⟩ : BufTy).Contents (Elt F) → (⟨S1024x1024, .f32⟩ : BufTy).Contents (Elt F)),
    binary main_v121 main_arg3 main_v130 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v124 main_v130 main_v131 (subf : (⟨S1024x1024, .f32⟩ : BufTy).Contents (Elt F) → (⟨S1024x1024, .f32⟩ : BufTy).Contents (Elt F) → (⟨S1024x1024, .f32⟩ : BufTy).Contents (Elt F)),
    unary main_arg3 main_v132 ((transpose S1024x1024 [1, 0] · transposes_S1024x1024_S1024x1024_1_0) : (⟨S1024x1024, .f32⟩ : BufTy).Contents (Elt F) → (⟨S1024x1024, .f32⟩ : BufTy).Contents (Elt F)),
    binary main_v131 main_v132 main_v133 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v129 main_v133 main_v134 (subf : (⟨S1024x1024, .f32⟩ : BufTy).Contents (Elt F) → (⟨S1024x1024, .f32⟩ : BufTy).Contents (Elt F) → (⟨S1024x1024, .f32⟩ : BufTy).Contents (Elt F)),
    binary main_v121 main_arg3 main_v135 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v124 main_v135 main_v136 (subf : (⟨S1024x1024, .f32⟩ : BufTy).Contents (Elt F) → (⟨S1024x1024, .f32⟩ : BufTy).Contents (Elt F) → (⟨S1024x1024, .f32⟩ : BufTy).Contents (Elt F)),
    binary main_v124 main_arg4 main_v137 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v127 main_v137 main_v138 (subf : (⟨S1024x512, .f32⟩ : BufTy).Contents (Elt F) → (⟨S1024x512, .f32⟩ : BufTy).Contents (Elt F) → (⟨S1024x512, .f32⟩ : BufTy).Contents (Elt F)),
    unary main_arg4 main_v139 ((transpose S512x1024 [1, 0] · transposes_S1024x512_S512x1024_1_0) : (⟨S1024x512, .f32⟩ : BufTy).Contents (Elt F) → (⟨S512x1024, .f32⟩ : BufTy).Contents (Elt F)),
    binary main_v138 main_v139 main_v140 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v136 main_v140 main_v141 (subf : (⟨S1024x1024, .f32⟩ : BufTy).Contents (Elt F) → (⟨S1024x1024, .f32⟩ : BufTy).Contents (Elt F) → (⟨S1024x1024, .f32⟩ : BufTy).Contents (Elt F)),
    binary main_v124 main_arg4 main_v142 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v127 main_v142 main_v143 (subf : (⟨S1024x512, .f32⟩ : BufTy).Contents (Elt F) → (⟨S1024x512, .f32⟩ : BufTy).Contents (Elt F) → (⟨S1024x512, .f32⟩ : BufTy).Contents (Elt F)),
    binary main_v127 main_arg1 main_v144 (subf : (⟨S1024x512, .f32⟩ : BufTy).Contents (Elt F) → (⟨S1024x512, .f32⟩ : BufTy).Contents (Elt F) → (⟨S1024x512, .f32⟩ : BufTy).Contents (Elt F)),
    nullary main_cst_15 (constant S_ .f32 0x3A83126F#32),
    unary main_cst_15 main_v145 (broadcastInDim S1024x512 ![] bcast_S_S1024x512 : (⟨S_, .f32⟩ : BufTy).Contents (Elt F) → (⟨S1024x512, .f32⟩ : BufTy).Contents (Elt F)),
    binary main_v145 main_v144 main_v146 (mulf : (⟨S1024x512, .f32⟩ : BufTy).Contents (Elt F) → (⟨S1024x512, .f32⟩ : BufTy).Contents (Elt F) → (⟨S1024x512, .f32⟩ : BufTy).Contents (Elt F)),
    binary main_v143 main_v146 main_v147 (addf : (⟨S1024x512, .f32⟩ : BufTy).Contents (Elt F) → (⟨S1024x512, .f32⟩ : BufTy).Contents (Elt F) → (⟨S1024x512, .f32⟩ : BufTy).Contents (Elt F)),
    nullary main_cst_16 (constant S_ .f32 0x3F000000#32),
    unary main_cst_16 main_v148 (broadcastInDim S1024x1024 ![] bcast_S_S1024x1024 : (⟨S_, .f32⟩ : BufTy).Contents (Elt F) → (⟨S1024x1024, .f32⟩ : BufTy).Contents (Elt F)),
    binary main_v148 main_v134 main_v149 (mulf : (⟨S1024x1024, .f32⟩ : BufTy).Contents (Elt F) → (⟨S1024x1024, .f32⟩ : BufTy).Contents (Elt F) → (⟨S1024x1024, .f32⟩ : BufTy).Contents (Elt F)),
    binary main_v121 main_v149 main_v150 (subf : (⟨S1024x1024, .f32⟩ : BufTy).Contents (Elt F) → (⟨S1024x1024, .f32⟩ : BufTy).Contents (Elt F) → (⟨S1024x1024, .f32⟩ : BufTy).Contents (Elt F)),
    nullary main_cst_17 (constant S_ .f32 0x3F000000#32),
    unary main_cst_17 main_v151 (broadcastInDim S1024x1024 ![] bcast_S_S1024x1024 : (⟨S_, .f32⟩ : BufTy).Contents (Elt F) → (⟨S1024x1024, .f32⟩ : BufTy).Contents (Elt F)),
    binary main_v151 main_v141 main_v152 (mulf : (⟨S1024x1024, .f32⟩ : BufTy).Contents (Elt F) → (⟨S1024x1024, .f32⟩ : BufTy).Contents (Elt F) → (⟨S1024x1024, .f32⟩ : BufTy).Contents (Elt F)),
    binary main_v124 main_v152 main_v153 (subf : (⟨S1024x1024, .f32⟩ : BufTy).Contents (Elt F) → (⟨S1024x1024, .f32⟩ : BufTy).Contents (Elt F) → (⟨S1024x1024, .f32⟩ : BufTy).Contents (Elt F)),
    nullary main_cst_18 (constant S_ .f32 0x3F000000#32),
    unary main_cst_18 main_v154 (broadcastInDim S1024x512 ![] bcast_S_S1024x512 : (⟨S_, .f32⟩ : BufTy).Contents (Elt F) → (⟨S1024x512, .f32⟩ : BufTy).Contents (Elt F)),
    binary main_v154 main_v147 main_v155 (mulf : (⟨S1024x512, .f32⟩ : BufTy).Contents (Elt F) → (⟨S1024x512, .f32⟩ : BufTy).Contents (Elt F) → (⟨S1024x512, .f32⟩ : BufTy).Contents (Elt F)),
    binary main_v127 main_v155 main_v156 (subf : (⟨S1024x512, .f32⟩ : BufTy).Contents (Elt F) → (⟨S1024x512, .f32⟩ : BufTy).Contents (Elt F) → (⟨S1024x512, .f32⟩ : BufTy).Contents (Elt F)) ]
abbrev wU4_W : List (Ref sig .tc) := [main_v128, main_v129, main_v130, main_v131, main_v132, main_v133, main_v134, main_v135, main_v136, main_v137, main_v138, main_v139, main_v140, main_v141, main_v142, main_v143, main_v144, main_cst_15, main_v145, main_v146, main_v147, main_cst_16, main_v148, main_v149, main_v150, main_cst_17, main_v151, main_v152, main_v153, main_cst_18, main_v154, main_v155, main_v156]
theorem wU4_writes : (wU4 : List (HloOp τ sig (Elt F))).Forall fun op => op.writes ⊆ (wU4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU4_keep (V : Valuation τ sig (Elt F)) (r : Ref sig .tc) (h : r ∉ wU4_W) :
    after wU4 V (Proc.devRef .tc r) = V (Proc.devRef .tc r) := after_of_writes_sub wU4 _ wU4_writes h

/-- 33 operations. -/
abbrev wU5 : List (HloOp τ sig (Elt F)) :=
  [ binary main_arg0 main_arg2 main_v157 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v150 main_v157 main_v158 (subf : (⟨S1024x1024, .f32⟩ : BufTy).Contents (Elt F) → (⟨S1024x1024, .f32⟩ : BufTy).Contents (Elt F) → (⟨S1024x1024, .f32⟩ : BufTy).Contents (Elt F)),
    binary main_v150 main_arg3 main_v159 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v153 main_v159 main_v160 (subf : (⟨S1024x1024, .f32⟩ : BufTy).Contents (Elt F) → (⟨S1024x1024, .f32⟩ : BufTy).Contents (Elt F) → (⟨S1024x1024, .f32⟩ : BufTy).Contents (Elt F)),
    unary main_arg3 main_v161 ((transpose S1024x1024 [1, 0] · transposes_S1024x1024_S1024x1024_1_0) : (⟨S1024x1024, .f32⟩ : BufTy).Contents (Elt F) → (⟨S1024x1024, .f32⟩ : BufTy).Contents (Elt F)),
    binary main_v160 main_v161 main_v162 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v158 main_v162 main_v163 (subf : (⟨S1024x1024, .f32⟩ : BufTy).Contents (Elt F) → (⟨S1024x1024, .f32⟩ : BufTy).Contents (Elt F) → (⟨S1024x1024, .f32⟩ : BufTy).Contents (Elt F)),
    binary main_v150 main_arg3 main_v164 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v153 main_v164 main_v165 (subf : (⟨S1024x1024, .f32⟩ : BufTy).Contents (Elt F) → (⟨S1024x1024, .f32⟩ : BufTy).Contents (Elt F) → (⟨S1024x1024, .f32⟩ : BufTy).Contents (Elt F)),
    binary main_v153 main_arg4 main_v166 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v156 main_v166 main_v167 (subf : (⟨S1024x512, .f32⟩ : BufTy).Contents (Elt F) → (⟨S1024x512, .f32⟩ : BufTy).Contents (Elt F) → (⟨S1024x512, .f32⟩ : BufTy).Contents (Elt F)),
    unary main_arg4 main_v168 ((transpose S512x1024 [1, 0] · transposes_S1024x512_S512x1024_1_0) : (⟨S1024x512, .f32⟩ : BufTy).Contents (Elt F) → (⟨S512x1024, .f32⟩ : BufTy).Contents (Elt F)),
    binary main_v167 main_v168 main_v169 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v165 main_v169 main_v170 (subf : (⟨S1024x1024, .f32⟩ : BufTy).Contents (Elt F) → (⟨S1024x1024, .f32⟩ : BufTy).Contents (Elt F) → (⟨S1024x1024, .f32⟩ : BufTy).Contents (Elt F)),
    binary main_v153 main_arg4 main_v171 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v156 main_v171 main_v172 (subf : (⟨S1024x512, .f32⟩ : BufTy).Contents (Elt F) → (⟨S1024x512, .f32⟩ : BufTy).Contents (Elt F) → (⟨S1024x512, .f32⟩ : BufTy).Contents (Elt F)),
    binary main_v156 main_arg1 main_v173 (subf : (⟨S1024x512, .f32⟩ : BufTy).Contents (Elt F) → (⟨S1024x512, .f32⟩ : BufTy).Contents (Elt F) → (⟨S1024x512, .f32⟩ : BufTy).Contents (Elt F)),
    nullary main_cst_19 (constant S_ .f32 0x3A83126F#32),
    unary main_cst_19 main_v174 (broadcastInDim S1024x512 ![] bcast_S_S1024x512 : (⟨S_, .f32⟩ : BufTy).Contents (Elt F) → (⟨S1024x512, .f32⟩ : BufTy).Contents (Elt F)),
    binary main_v174 main_v173 main_v175 (mulf : (⟨S1024x512, .f32⟩ : BufTy).Contents (Elt F) → (⟨S1024x512, .f32⟩ : BufTy).Contents (Elt F) → (⟨S1024x512, .f32⟩ : BufTy).Contents (Elt F)),
    binary main_v172 main_v175 main_v176 (addf : (⟨S1024x512, .f32⟩ : BufTy).Contents (Elt F) → (⟨S1024x512, .f32⟩ : BufTy).Contents (Elt F) → (⟨S1024x512, .f32⟩ : BufTy).Contents (Elt F)),
    nullary main_cst_20 (constant S_ .f32 0x3F000000#32),
    unary main_cst_20 main_v177 (broadcastInDim S1024x1024 ![] bcast_S_S1024x1024 : (⟨S_, .f32⟩ : BufTy).Contents (Elt F) → (⟨S1024x1024, .f32⟩ : BufTy).Contents (Elt F)),
    binary main_v177 main_v163 main_v178 (mulf : (⟨S1024x1024, .f32⟩ : BufTy).Contents (Elt F) → (⟨S1024x1024, .f32⟩ : BufTy).Contents (Elt F) → (⟨S1024x1024, .f32⟩ : BufTy).Contents (Elt F)),
    binary main_v150 main_v178 main_v179 (subf : (⟨S1024x1024, .f32⟩ : BufTy).Contents (Elt F) → (⟨S1024x1024, .f32⟩ : BufTy).Contents (Elt F) → (⟨S1024x1024, .f32⟩ : BufTy).Contents (Elt F)),
    nullary main_cst_21 (constant S_ .f32 0x3F000000#32),
    unary main_cst_21 main_v180 (broadcastInDim S1024x1024 ![] bcast_S_S1024x1024 : (⟨S_, .f32⟩ : BufTy).Contents (Elt F) → (⟨S1024x1024, .f32⟩ : BufTy).Contents (Elt F)),
    binary main_v180 main_v170 main_v181 (mulf : (⟨S1024x1024, .f32⟩ : BufTy).Contents (Elt F) → (⟨S1024x1024, .f32⟩ : BufTy).Contents (Elt F) → (⟨S1024x1024, .f32⟩ : BufTy).Contents (Elt F)),
    binary main_v153 main_v181 main_v182 (subf : (⟨S1024x1024, .f32⟩ : BufTy).Contents (Elt F) → (⟨S1024x1024, .f32⟩ : BufTy).Contents (Elt F) → (⟨S1024x1024, .f32⟩ : BufTy).Contents (Elt F)),
    nullary main_cst_22 (constant S_ .f32 0x3F000000#32),
    unary main_cst_22 main_v183 (broadcastInDim S1024x512 ![] bcast_S_S1024x512 : (⟨S_, .f32⟩ : BufTy).Contents (Elt F) → (⟨S1024x512, .f32⟩ : BufTy).Contents (Elt F)),
    binary main_v183 main_v176 main_v184 (mulf : (⟨S1024x512, .f32⟩ : BufTy).Contents (Elt F) → (⟨S1024x512, .f32⟩ : BufTy).Contents (Elt F) → (⟨S1024x512, .f32⟩ : BufTy).Contents (Elt F)),
    binary main_v156 main_v184 main_v185 (subf : (⟨S1024x512, .f32⟩ : BufTy).Contents (Elt F) → (⟨S1024x512, .f32⟩ : BufTy).Contents (Elt F) → (⟨S1024x512, .f32⟩ : BufTy).Contents (Elt F)) ]
abbrev wU5_W : List (Ref sig .tc) := [main_v157, main_v158, main_v159, main_v160, main_v161, main_v162, main_v163, main_v164, main_v165, main_v166, main_v167, main_v168, main_v169, main_v170, main_v171, main_v172, main_v173, main_cst_19, main_v174, main_v175, main_v176, main_cst_20, main_v177, main_v178, main_v179, main_cst_21, main_v180, main_v181, main_v182, main_cst_22, main_v183, main_v184, main_v185]
theorem wU5_writes : (wU5 : List (HloOp τ sig (Elt F))).Forall fun op => op.writes ⊆ (wU5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU5_keep (V : Valuation τ sig (Elt F)) (r : Ref sig .tc) (h : r ∉ wU5_W) :
    after wU5 V (Proc.devRef .tc r) = V (Proc.devRef .tc r) := after_of_writes_sub wU5 _ wU5_writes h

/-- 33 operations. -/
abbrev wU6 : List (HloOp τ sig (Elt F)) :=
  [ binary main_arg0 main_arg2 main_v186 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v179 main_v186 main_v187 (subf : (⟨S1024x1024, .f32⟩ : BufTy).Contents (Elt F) → (⟨S1024x1024, .f32⟩ : BufTy).Contents (Elt F) → (⟨S1024x1024, .f32⟩ : BufTy).Contents (Elt F)),
    binary main_v179 main_arg3 main_v188 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v182 main_v188 main_v189 (subf : (⟨S1024x1024, .f32⟩ : BufTy).Contents (Elt F) → (⟨S1024x1024, .f32⟩ : BufTy).Contents (Elt F) → (⟨S1024x1024, .f32⟩ : BufTy).Contents (Elt F)),
    unary main_arg3 main_v190 ((transpose S1024x1024 [1, 0] · transposes_S1024x1024_S1024x1024_1_0) : (⟨S1024x1024, .f32⟩ : BufTy).Contents (Elt F) → (⟨S1024x1024, .f32⟩ : BufTy).Contents (Elt F)),
    binary main_v189 main_v190 main_v191 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v187 main_v191 main_v192 (subf : (⟨S1024x1024, .f32⟩ : BufTy).Contents (Elt F) → (⟨S1024x1024, .f32⟩ : BufTy).Contents (Elt F) → (⟨S1024x1024, .f32⟩ : BufTy).Contents (Elt F)),
    binary main_v179 main_arg3 main_v193 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v182 main_v193 main_v194 (subf : (⟨S1024x1024, .f32⟩ : BufTy).Contents (Elt F) → (⟨S1024x1024, .f32⟩ : BufTy).Contents (Elt F) → (⟨S1024x1024, .f32⟩ : BufTy).Contents (Elt F)),
    binary main_v182 main_arg4 main_v195 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v185 main_v195 main_v196 (subf : (⟨S1024x512, .f32⟩ : BufTy).Contents (Elt F) → (⟨S1024x512, .f32⟩ : BufTy).Contents (Elt F) → (⟨S1024x512, .f32⟩ : BufTy).Contents (Elt F)),
    unary main_arg4 main_v197 ((transpose S512x1024 [1, 0] · transposes_S1024x512_S512x1024_1_0) : (⟨S1024x512, .f32⟩ : BufTy).Contents (Elt F) → (⟨S512x1024, .f32⟩ : BufTy).Contents (Elt F)),
    binary main_v196 main_v197 main_v198 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v194 main_v198 main_v199 (subf : (⟨S1024x1024, .f32⟩ : BufTy).Contents (Elt F) → (⟨S1024x1024, .f32⟩ : BufTy).Contents (Elt F) → (⟨S1024x1024, .f32⟩ : BufTy).Contents (Elt F)),
    binary main_v182 main_arg4 main_v200 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v185 main_v200 main_v201 (subf : (⟨S1024x512, .f32⟩ : BufTy).Contents (Elt F) → (⟨S1024x512, .f32⟩ : BufTy).Contents (Elt F) → (⟨S1024x512, .f32⟩ : BufTy).Contents (Elt F)),
    binary main_v185 main_arg1 main_v202 (subf : (⟨S1024x512, .f32⟩ : BufTy).Contents (Elt F) → (⟨S1024x512, .f32⟩ : BufTy).Contents (Elt F) → (⟨S1024x512, .f32⟩ : BufTy).Contents (Elt F)),
    nullary main_cst_23 (constant S_ .f32 0x3A83126F#32),
    unary main_cst_23 main_v203 (broadcastInDim S1024x512 ![] bcast_S_S1024x512 : (⟨S_, .f32⟩ : BufTy).Contents (Elt F) → (⟨S1024x512, .f32⟩ : BufTy).Contents (Elt F)),
    binary main_v203 main_v202 main_v204 (mulf : (⟨S1024x512, .f32⟩ : BufTy).Contents (Elt F) → (⟨S1024x512, .f32⟩ : BufTy).Contents (Elt F) → (⟨S1024x512, .f32⟩ : BufTy).Contents (Elt F)),
    binary main_v201 main_v204 main_v205 (addf : (⟨S1024x512, .f32⟩ : BufTy).Contents (Elt F) → (⟨S1024x512, .f32⟩ : BufTy).Contents (Elt F) → (⟨S1024x512, .f32⟩ : BufTy).Contents (Elt F)),
    nullary main_cst_24 (constant S_ .f32 0x3F000000#32),
    unary main_cst_24 main_v206 (broadcastInDim S1024x1024 ![] bcast_S_S1024x1024 : (⟨S_, .f32⟩ : BufTy).Contents (Elt F) → (⟨S1024x1024, .f32⟩ : BufTy).Contents (Elt F)),
    binary main_v206 main_v192 main_v207 (mulf : (⟨S1024x1024, .f32⟩ : BufTy).Contents (Elt F) → (⟨S1024x1024, .f32⟩ : BufTy).Contents (Elt F) → (⟨S1024x1024, .f32⟩ : BufTy).Contents (Elt F)),
    binary main_v179 main_v207 main_v208 (subf : (⟨S1024x1024, .f32⟩ : BufTy).Contents (Elt F) → (⟨S1024x1024, .f32⟩ : BufTy).Contents (Elt F) → (⟨S1024x1024, .f32⟩ : BufTy).Contents (Elt F)),
    nullary main_cst_25 (constant S_ .f32 0x3F000000#32),
    unary main_cst_25 main_v209 (broadcastInDim S1024x1024 ![] bcast_S_S1024x1024 : (⟨S_, .f32⟩ : BufTy).Contents (Elt F) → (⟨S1024x1024, .f32⟩ : BufTy).Contents (Elt F)),
    binary main_v209 main_v199 main_v210 (mulf : (⟨S1024x1024, .f32⟩ : BufTy).Contents (Elt F) → (⟨S1024x1024, .f32⟩ : BufTy).Contents (Elt F) → (⟨S1024x1024, .f32⟩ : BufTy).Contents (Elt F)),
    binary main_v182 main_v210 main_v211 (subf : (⟨S1024x1024, .f32⟩ : BufTy).Contents (Elt F) → (⟨S1024x1024, .f32⟩ : BufTy).Contents (Elt F) → (⟨S1024x1024, .f32⟩ : BufTy).Contents (Elt F)),
    nullary main_cst_26 (constant S_ .f32 0x3F000000#32),
    unary main_cst_26 main_v212 (broadcastInDim S1024x512 ![] bcast_S_S1024x512 : (⟨S_, .f32⟩ : BufTy).Contents (Elt F) → (⟨S1024x512, .f32⟩ : BufTy).Contents (Elt F)),
    binary main_v212 main_v205 main_v213 (mulf : (⟨S1024x512, .f32⟩ : BufTy).Contents (Elt F) → (⟨S1024x512, .f32⟩ : BufTy).Contents (Elt F) → (⟨S1024x512, .f32⟩ : BufTy).Contents (Elt F)),
    binary main_v185 main_v213 main_v214 (subf : (⟨S1024x512, .f32⟩ : BufTy).Contents (Elt F) → (⟨S1024x512, .f32⟩ : BufTy).Contents (Elt F) → (⟨S1024x512, .f32⟩ : BufTy).Contents (Elt F)) ]
abbrev wU6_W : List (Ref sig .tc) := [main_v186, main_v187, main_v188, main_v189, main_v190, main_v191, main_v192, main_v193, main_v194, main_v195, main_v196, main_v197, main_v198, main_v199, main_v200, main_v201, main_v202, main_cst_23, main_v203, main_v204, main_v205, main_cst_24, main_v206, main_v207, main_v208, main_cst_25, main_v209, main_v210, main_v211, main_cst_26, main_v212, main_v213, main_v214]
theorem wU6_writes : (wU6 : List (HloOp τ sig (Elt F))).Forall fun op => op.writes ⊆ (wU6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU6_keep (V : Valuation τ sig (Elt F)) (r : Ref sig .tc) (h : r ∉ wU6_W) :
    after wU6 V (Proc.devRef .tc r) = V (Proc.devRef .tc r) := after_of_writes_sub wU6 _ wU6_writes h

/-- 33 operations. -/
abbrev wU7 : List (HloOp τ sig (Elt F)) :=
  [ binary main_arg0 main_arg2 main_v215 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v208 main_v215 main_v216 (subf : (⟨S1024x1024, .f32⟩ : BufTy).Contents (Elt F) → (⟨S1024x1024, .f32⟩ : BufTy).Contents (Elt F) → (⟨S1024x1024, .f32⟩ : BufTy).Contents (Elt F)),
    binary main_v208 main_arg3 main_v217 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v211 main_v217 main_v218 (subf : (⟨S1024x1024, .f32⟩ : BufTy).Contents (Elt F) → (⟨S1024x1024, .f32⟩ : BufTy).Contents (Elt F) → (⟨S1024x1024, .f32⟩ : BufTy).Contents (Elt F)),
    unary main_arg3 main_v219 ((transpose S1024x1024 [1, 0] · transposes_S1024x1024_S1024x1024_1_0) : (⟨S1024x1024, .f32⟩ : BufTy).Contents (Elt F) → (⟨S1024x1024, .f32⟩ : BufTy).Contents (Elt F)),
    binary main_v218 main_v219 main_v220 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v216 main_v220 main_v221 (subf : (⟨S1024x1024, .f32⟩ : BufTy).Contents (Elt F) → (⟨S1024x1024, .f32⟩ : BufTy).Contents (Elt F) → (⟨S1024x1024, .f32⟩ : BufTy).Contents (Elt F)),
    binary main_v208 main_arg3 main_v222 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v211 main_v222 main_v223 (subf : (⟨S1024x1024, .f32⟩ : BufTy).Contents (Elt F) → (⟨S1024x1024, .f32⟩ : BufTy).Contents (Elt F) → (⟨S1024x1024, .f32⟩ : BufTy).Contents (Elt F)),
    binary main_v211 main_arg4 main_v224 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v214 main_v224 main_v225 (subf : (⟨S1024x512, .f32⟩ : BufTy).Contents (Elt F) → (⟨S1024x512, .f32⟩ : BufTy).Contents (Elt F) → (⟨S1024x512, .f32⟩ : BufTy).Contents (Elt F)),
    unary main_arg4 main_v226 ((transpose S512x1024 [1, 0] · transposes_S1024x512_S512x1024_1_0) : (⟨S1024x512, .f32⟩ : BufTy).Contents (Elt F) → (⟨S512x1024, .f32⟩ : BufTy).Contents (Elt F)),
    binary main_v225 main_v226 main_v227 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v223 main_v227 main_v228 (subf : (⟨S1024x1024, .f32⟩ : BufTy).Contents (Elt F) → (⟨S1024x1024, .f32⟩ : BufTy).Contents (Elt F) → (⟨S1024x1024, .f32⟩ : BufTy).Contents (Elt F)),
    binary main_v211 main_arg4 main_v229 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v214 main_v229 main_v230 (subf : (⟨S1024x512, .f32⟩ : BufTy).Contents (Elt F) → (⟨S1024x512, .f32⟩ : BufTy).Contents (Elt F) → (⟨S1024x512, .f32⟩ : BufTy).Contents (Elt F)),
    binary main_v214 main_arg1 main_v231 (subf : (⟨S1024x512, .f32⟩ : BufTy).Contents (Elt F) → (⟨S1024x512, .f32⟩ : BufTy).Contents (Elt F) → (⟨S1024x512, .f32⟩ : BufTy).Contents (Elt F)),
    nullary main_cst_27 (constant S_ .f32 0x3A83126F#32),
    unary main_cst_27 main_v232 (broadcastInDim S1024x512 ![] bcast_S_S1024x512 : (⟨S_, .f32⟩ : BufTy).Contents (Elt F) → (⟨S1024x512, .f32⟩ : BufTy).Contents (Elt F)),
    binary main_v232 main_v231 main_v233 (mulf : (⟨S1024x512, .f32⟩ : BufTy).Contents (Elt F) → (⟨S1024x512, .f32⟩ : BufTy).Contents (Elt F) → (⟨S1024x512, .f32⟩ : BufTy).Contents (Elt F)),
    binary main_v230 main_v233 main_v234 (addf : (⟨S1024x512, .f32⟩ : BufTy).Contents (Elt F) → (⟨S1024x512, .f32⟩ : BufTy).Contents (Elt F) → (⟨S1024x512, .f32⟩ : BufTy).Contents (Elt F)),
    nullary main_cst_28 (constant S_ .f32 0x3F000000#32),
    unary main_cst_28 main_v235 (broadcastInDim S1024x1024 ![] bcast_S_S1024x1024 : (⟨S_, .f32⟩ : BufTy).Contents (Elt F) → (⟨S1024x1024, .f32⟩ : BufTy).Contents (Elt F)),
    binary main_v235 main_v221 main_v236 (mulf : (⟨S1024x1024, .f32⟩ : BufTy).Contents (Elt F) → (⟨S1024x1024, .f32⟩ : BufTy).Contents (Elt F) → (⟨S1024x1024, .f32⟩ : BufTy).Contents (Elt F)),
    binary main_v208 main_v236 main_v237 (subf : (⟨S1024x1024, .f32⟩ : BufTy).Contents (Elt F) → (⟨S1024x1024, .f32⟩ : BufTy).Contents (Elt F) → (⟨S1024x1024, .f32⟩ : BufTy).Contents (Elt F)),
    nullary main_cst_29 (constant S_ .f32 0x3F000000#32),
    unary main_cst_29 main_v238 (broadcastInDim S1024x1024 ![] bcast_S_S1024x1024 : (⟨S_, .f32⟩ : BufTy).Contents (Elt F) → (⟨S1024x1024, .f32⟩ : BufTy).Contents (Elt F)),
    binary main_v238 main_v228 main_v239 (mulf : (⟨S1024x1024, .f32⟩ : BufTy).Contents (Elt F) → (⟨S1024x1024, .f32⟩ : BufTy).Contents (Elt F) → (⟨S1024x1024, .f32⟩ : BufTy).Contents (Elt F)),
    binary main_v211 main_v239 main_v240 (subf : (⟨S1024x1024, .f32⟩ : BufTy).Contents (Elt F) → (⟨S1024x1024, .f32⟩ : BufTy).Contents (Elt F) → (⟨S1024x1024, .f32⟩ : BufTy).Contents (Elt F)),
    nullary main_cst_30 (constant S_ .f32 0x3F000000#32),
    unary main_cst_30 main_v241 (broadcastInDim S1024x512 ![] bcast_S_S1024x512 : (⟨S_, .f32⟩ : BufTy).Contents (Elt F) → (⟨S1024x512, .f32⟩ : BufTy).Contents (Elt F)),
    binary main_v241 main_v234 main_v242 (mulf : (⟨S1024x512, .f32⟩ : BufTy).Contents (Elt F) → (⟨S1024x512, .f32⟩ : BufTy).Contents (Elt F) → (⟨S1024x512, .f32⟩ : BufTy).Contents (Elt F)),
    binary main_v214 main_v242 main_v243 (subf : (⟨S1024x512, .f32⟩ : BufTy).Contents (Elt F) → (⟨S1024x512, .f32⟩ : BufTy).Contents (Elt F) → (⟨S1024x512, .f32⟩ : BufTy).Contents (Elt F)) ]
abbrev wU7_W : List (Ref sig .tc) := [main_v215, main_v216, main_v217, main_v218, main_v219, main_v220, main_v221, main_v222, main_v223, main_v224, main_v225, main_v226, main_v227, main_v228, main_v229, main_v230, main_v231, main_cst_27, main_v232, main_v233, main_v234, main_cst_28, main_v235, main_v236, main_v237, main_cst_29, main_v238, main_v239, main_v240, main_cst_30, main_v241, main_v242, main_v243]
theorem wU7_writes : (wU7 : List (HloOp τ sig (Elt F))).Forall fun op => op.writes ⊆ (wU7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU7_keep (V : Valuation τ sig (Elt F)) (r : Ref sig .tc) (h : r ∉ wU7_W) :
    after wU7 V (Proc.devRef .tc r) = V (Proc.devRef .tc r) := after_of_writes_sub wU7 _ wU7_writes h

/-- 33 operations. -/
abbrev wU8 : List (HloOp τ sig (Elt F)) :=
  [ binary main_arg0 main_arg2 main_v244 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v237 main_v244 main_v245 (subf : (⟨S1024x1024, .f32⟩ : BufTy).Contents (Elt F) → (⟨S1024x1024, .f32⟩ : BufTy).Contents (Elt F) → (⟨S1024x1024, .f32⟩ : BufTy).Contents (Elt F)),
    binary main_v237 main_arg3 main_v246 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v240 main_v246 main_v247 (subf : (⟨S1024x1024, .f32⟩ : BufTy).Contents (Elt F) → (⟨S1024x1024, .f32⟩ : BufTy).Contents (Elt F) → (⟨S1024x1024, .f32⟩ : BufTy).Contents (Elt F)),
    unary main_arg3 main_v248 ((transpose S1024x1024 [1, 0] · transposes_S1024x1024_S1024x1024_1_0) : (⟨S1024x1024, .f32⟩ : BufTy).Contents (Elt F) → (⟨S1024x1024, .f32⟩ : BufTy).Contents (Elt F)),
    binary main_v247 main_v248 main_v249 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v245 main_v249 main_v250 (subf : (⟨S1024x1024, .f32⟩ : BufTy).Contents (Elt F) → (⟨S1024x1024, .f32⟩ : BufTy).Contents (Elt F) → (⟨S1024x1024, .f32⟩ : BufTy).Contents (Elt F)),
    binary main_v237 main_arg3 main_v251 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v240 main_v251 main_v252 (subf : (⟨S1024x1024, .f32⟩ : BufTy).Contents (Elt F) → (⟨S1024x1024, .f32⟩ : BufTy).Contents (Elt F) → (⟨S1024x1024, .f32⟩ : BufTy).Contents (Elt F)),
    binary main_v240 main_arg4 main_v253 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v243 main_v253 main_v254 (subf : (⟨S1024x512, .f32⟩ : BufTy).Contents (Elt F) → (⟨S1024x512, .f32⟩ : BufTy).Contents (Elt F) → (⟨S1024x512, .f32⟩ : BufTy).Contents (Elt F)),
    unary main_arg4 main_v255 ((transpose S512x1024 [1, 0] · transposes_S1024x512_S512x1024_1_0) : (⟨S1024x512, .f32⟩ : BufTy).Contents (Elt F) → (⟨S512x1024, .f32⟩ : BufTy).Contents (Elt F)),
    binary main_v254 main_v255 main_v256 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v252 main_v256 main_v257 (subf : (⟨S1024x1024, .f32⟩ : BufTy).Contents (Elt F) → (⟨S1024x1024, .f32⟩ : BufTy).Contents (Elt F) → (⟨S1024x1024, .f32⟩ : BufTy).Contents (Elt F)),
    binary main_v240 main_arg4 main_v258 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v243 main_v258 main_v259 (subf : (⟨S1024x512, .f32⟩ : BufTy).Contents (Elt F) → (⟨S1024x512, .f32⟩ : BufTy).Contents (Elt F) → (⟨S1024x512, .f32⟩ : BufTy).Contents (Elt F)),
    binary main_v243 main_arg1 main_v260 (subf : (⟨S1024x512, .f32⟩ : BufTy).Contents (Elt F) → (⟨S1024x512, .f32⟩ : BufTy).Contents (Elt F) → (⟨S1024x512, .f32⟩ : BufTy).Contents (Elt F)),
    nullary main_cst_31 (constant S_ .f32 0x3A83126F#32),
    unary main_cst_31 main_v261 (broadcastInDim S1024x512 ![] bcast_S_S1024x512 : (⟨S_, .f32⟩ : BufTy).Contents (Elt F) → (⟨S1024x512, .f32⟩ : BufTy).Contents (Elt F)),
    binary main_v261 main_v260 main_v262 (mulf : (⟨S1024x512, .f32⟩ : BufTy).Contents (Elt F) → (⟨S1024x512, .f32⟩ : BufTy).Contents (Elt F) → (⟨S1024x512, .f32⟩ : BufTy).Contents (Elt F)),
    binary main_v259 main_v262 main_v263 (addf : (⟨S1024x512, .f32⟩ : BufTy).Contents (Elt F) → (⟨S1024x512, .f32⟩ : BufTy).Contents (Elt F) → (⟨S1024x512, .f32⟩ : BufTy).Contents (Elt F)),
    nullary main_cst_32 (constant S_ .f32 0x3F000000#32),
    unary main_cst_32 main_v264 (broadcastInDim S1024x1024 ![] bcast_S_S1024x1024 : (⟨S_, .f32⟩ : BufTy).Contents (Elt F) → (⟨S1024x1024, .f32⟩ : BufTy).Contents (Elt F)),
    binary main_v264 main_v250 main_v265 (mulf : (⟨S1024x1024, .f32⟩ : BufTy).Contents (Elt F) → (⟨S1024x1024, .f32⟩ : BufTy).Contents (Elt F) → (⟨S1024x1024, .f32⟩ : BufTy).Contents (Elt F)),
    binary main_v237 main_v265 main_v266 (subf : (⟨S1024x1024, .f32⟩ : BufTy).Contents (Elt F) → (⟨S1024x1024, .f32⟩ : BufTy).Contents (Elt F) → (⟨S1024x1024, .f32⟩ : BufTy).Contents (Elt F)),
    nullary main_cst_33 (constant S_ .f32 0x3F000000#32),
    unary main_cst_33 main_v267 (broadcastInDim S1024x1024 ![] bcast_S_S1024x1024 : (⟨S_, .f32⟩ : BufTy).Contents (Elt F) → (⟨S1024x1024, .f32⟩ : BufTy).Contents (Elt F)),
    binary main_v267 main_v257 main_v268 (mulf : (⟨S1024x1024, .f32⟩ : BufTy).Contents (Elt F) → (⟨S1024x1024, .f32⟩ : BufTy).Contents (Elt F) → (⟨S1024x1024, .f32⟩ : BufTy).Contents (Elt F)),
    binary main_v240 main_v268 main_v269 (subf : (⟨S1024x1024, .f32⟩ : BufTy).Contents (Elt F) → (⟨S1024x1024, .f32⟩ : BufTy).Contents (Elt F) → (⟨S1024x1024, .f32⟩ : BufTy).Contents (Elt F)),
    nullary main_cst_34 (constant S_ .f32 0x3F000000#32),
    unary main_cst_34 main_v270 (broadcastInDim S1024x512 ![] bcast_S_S1024x512 : (⟨S_, .f32⟩ : BufTy).Contents (Elt F) → (⟨S1024x512, .f32⟩ : BufTy).Contents (Elt F)),
    binary main_v270 main_v263 main_v271 (mulf : (⟨S1024x512, .f32⟩ : BufTy).Contents (Elt F) → (⟨S1024x512, .f32⟩ : BufTy).Contents (Elt F) → (⟨S1024x512, .f32⟩ : BufTy).Contents (Elt F)),
    binary main_v243 main_v271 main_v272 (subf : (⟨S1024x512, .f32⟩ : BufTy).Contents (Elt F) → (⟨S1024x512, .f32⟩ : BufTy).Contents (Elt F) → (⟨S1024x512, .f32⟩ : BufTy).Contents (Elt F)) ]
abbrev wU8_W : List (Ref sig .tc) := [main_v244, main_v245, main_v246, main_v247, main_v248, main_v249, main_v250, main_v251, main_v252, main_v253, main_v254, main_v255, main_v256, main_v257, main_v258, main_v259, main_v260, main_cst_31, main_v261, main_v262, main_v263, main_cst_32, main_v264, main_v265, main_v266, main_cst_33, main_v267, main_v268, main_v269, main_cst_34, main_v270, main_v271, main_v272]
theorem wU8_writes : (wU8 : List (HloOp τ sig (Elt F))).Forall fun op => op.writes ⊆ (wU8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU8_keep (V : Valuation τ sig (Elt F)) (r : Ref sig .tc) (h : r ∉ wU8_W) :
    after wU8 V (Proc.devRef .tc r) = V (Proc.devRef .tc r) := after_of_writes_sub wU8 _ wU8_writes h

/-- 33 operations. -/
abbrev wU9 : List (HloOp τ sig (Elt F)) :=
  [ binary main_arg0 main_arg2 main_v273 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v266 main_v273 main_v274 (subf : (⟨S1024x1024, .f32⟩ : BufTy).Contents (Elt F) → (⟨S1024x1024, .f32⟩ : BufTy).Contents (Elt F) → (⟨S1024x1024, .f32⟩ : BufTy).Contents (Elt F)),
    binary main_v266 main_arg3 main_v275 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v269 main_v275 main_v276 (subf : (⟨S1024x1024, .f32⟩ : BufTy).Contents (Elt F) → (⟨S1024x1024, .f32⟩ : BufTy).Contents (Elt F) → (⟨S1024x1024, .f32⟩ : BufTy).Contents (Elt F)),
    unary main_arg3 main_v277 ((transpose S1024x1024 [1, 0] · transposes_S1024x1024_S1024x1024_1_0) : (⟨S1024x1024, .f32⟩ : BufTy).Contents (Elt F) → (⟨S1024x1024, .f32⟩ : BufTy).Contents (Elt F)),
    binary main_v276 main_v277 main_v278 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v274 main_v278 main_v279 (subf : (⟨S1024x1024, .f32⟩ : BufTy).Contents (Elt F) → (⟨S1024x1024, .f32⟩ : BufTy).Contents (Elt F) → (⟨S1024x1024, .f32⟩ : BufTy).Contents (Elt F)),
    binary main_v266 main_arg3 main_v280 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v269 main_v280 main_v281 (subf : (⟨S1024x1024, .f32⟩ : BufTy).Contents (Elt F) → (⟨S1024x1024, .f32⟩ : BufTy).Contents (Elt F) → (⟨S1024x1024, .f32⟩ : BufTy).Contents (Elt F)),
    binary main_v269 main_arg4 main_v282 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v272 main_v282 main_v283 (subf : (⟨S1024x512, .f32⟩ : BufTy).Contents (Elt F) → (⟨S1024x512, .f32⟩ : BufTy).Contents (Elt F) → (⟨S1024x512, .f32⟩ : BufTy).Contents (Elt F)),
    unary main_arg4 main_v284 ((transpose S512x1024 [1, 0] · transposes_S1024x512_S512x1024_1_0) : (⟨S1024x512, .f32⟩ : BufTy).Contents (Elt F) → (⟨S512x1024, .f32⟩ : BufTy).Contents (Elt F)),
    binary main_v283 main_v284 main_v285 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v281 main_v285 main_v286 (subf : (⟨S1024x1024, .f32⟩ : BufTy).Contents (Elt F) → (⟨S1024x1024, .f32⟩ : BufTy).Contents (Elt F) → (⟨S1024x1024, .f32⟩ : BufTy).Contents (Elt F)),
    binary main_v269 main_arg4 main_v287 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v272 main_v287 main_v288 (subf : (⟨S1024x512, .f32⟩ : BufTy).Contents (Elt F) → (⟨S1024x512, .f32⟩ : BufTy).Contents (Elt F) → (⟨S1024x512, .f32⟩ : BufTy).Contents (Elt F)),
    binary main_v272 main_arg1 main_v289 (subf : (⟨S1024x512, .f32⟩ : BufTy).Contents (Elt F) → (⟨S1024x512, .f32⟩ : BufTy).Contents (Elt F) → (⟨S1024x512, .f32⟩ : BufTy).Contents (Elt F)),
    nullary main_cst_35 (constant S_ .f32 0x3A83126F#32),
    unary main_cst_35 main_v290 (broadcastInDim S1024x512 ![] bcast_S_S1024x512 : (⟨S_, .f32⟩ : BufTy).Contents (Elt F) → (⟨S1024x512, .f32⟩ : BufTy).Contents (Elt F)),
    binary main_v290 main_v289 main_v291 (mulf : (⟨S1024x512, .f32⟩ : BufTy).Contents (Elt F) → (⟨S1024x512, .f32⟩ : BufTy).Contents (Elt F) → (⟨S1024x512, .f32⟩ : BufTy).Contents (Elt F)),
    binary main_v288 main_v291 main_v292 (addf : (⟨S1024x512, .f32⟩ : BufTy).Contents (Elt F) → (⟨S1024x512, .f32⟩ : BufTy).Contents (Elt F) → (⟨S1024x512, .f32⟩ : BufTy).Contents (Elt F)),
    nullary main_cst_36 (constant S_ .f32 0x3F000000#32),
    unary main_cst_36 main_v293 (broadcastInDim S1024x1024 ![] bcast_S_S1024x1024 : (⟨S_, .f32⟩ : BufTy).Contents (Elt F) → (⟨S1024x1024, .f32⟩ : BufTy).Contents (Elt F)),
    binary main_v293 main_v279 main_v294 (mulf : (⟨S1024x1024, .f32⟩ : BufTy).Contents (Elt F) → (⟨S1024x1024, .f32⟩ : BufTy).Contents (Elt F) → (⟨S1024x1024, .f32⟩ : BufTy).Contents (Elt F)),
    binary main_v266 main_v294 main_v295 (subf : (⟨S1024x1024, .f32⟩ : BufTy).Contents (Elt F) → (⟨S1024x1024, .f32⟩ : BufTy).Contents (Elt F) → (⟨S1024x1024, .f32⟩ : BufTy).Contents (Elt F)),
    nullary main_cst_37 (constant S_ .f32 0x3F000000#32),
    unary main_cst_37 main_v296 (broadcastInDim S1024x1024 ![] bcast_S_S1024x1024 : (⟨S_, .f32⟩ : BufTy).Contents (Elt F) → (⟨S1024x1024, .f32⟩ : BufTy).Contents (Elt F)),
    binary main_v296 main_v286 main_v297 (mulf : (⟨S1024x1024, .f32⟩ : BufTy).Contents (Elt F) → (⟨S1024x1024, .f32⟩ : BufTy).Contents (Elt F) → (⟨S1024x1024, .f32⟩ : BufTy).Contents (Elt F)),
    binary main_v269 main_v297 main_v298 (subf : (⟨S1024x1024, .f32⟩ : BufTy).Contents (Elt F) → (⟨S1024x1024, .f32⟩ : BufTy).Contents (Elt F) → (⟨S1024x1024, .f32⟩ : BufTy).Contents (Elt F)),
    nullary main_cst_38 (constant S_ .f32 0x3F000000#32),
    unary main_cst_38 main_v299 (broadcastInDim S1024x512 ![] bcast_S_S1024x512 : (⟨S_, .f32⟩ : BufTy).Contents (Elt F) → (⟨S1024x512, .f32⟩ : BufTy).Contents (Elt F)),
    binary main_v299 main_v292 main_v300 (mulf : (⟨S1024x512, .f32⟩ : BufTy).Contents (Elt F) → (⟨S1024x512, .f32⟩ : BufTy).Contents (Elt F) → (⟨S1024x512, .f32⟩ : BufTy).Contents (Elt F)),
    binary main_v272 main_v300 main_v301 (subf : (⟨S1024x512, .f32⟩ : BufTy).Contents (Elt F) → (⟨S1024x512, .f32⟩ : BufTy).Contents (Elt F) → (⟨S1024x512, .f32⟩ : BufTy).Contents (Elt F)) ]
abbrev wU9_W : List (Ref sig .tc) := [main_v273, main_v274, main_v275, main_v276, main_v277, main_v278, main_v279, main_v280, main_v281, main_v282, main_v283, main_v284, main_v285, main_v286, main_v287, main_v288, main_v289, main_cst_35, main_v290, main_v291, main_v292, main_cst_36, main_v293, main_v294, main_v295, main_cst_37, main_v296, main_v297, main_v298, main_cst_38, main_v299, main_v300, main_v301]
theorem wU9_writes : (wU9 : List (HloOp τ sig (Elt F))).Forall fun op => op.writes ⊆ (wU9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU9_keep (V : Valuation τ sig (Elt F)) (r : Ref sig .tc) (h : r ∉ wU9_W) :
    after wU9 V (Proc.devRef .tc r) = V (Proc.devRef .tc r) := after_of_writes_sub wU9 _ wU9_writes h

/-- 33 operations. -/
abbrev wU10 : List (HloOp τ sig (Elt F)) :=
  [ binary main_arg0 main_arg2 main_v302 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v295 main_v302 main_v303 (subf : (⟨S1024x1024, .f32⟩ : BufTy).Contents (Elt F) → (⟨S1024x1024, .f32⟩ : BufTy).Contents (Elt F) → (⟨S1024x1024, .f32⟩ : BufTy).Contents (Elt F)),
    binary main_v295 main_arg3 main_v304 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v298 main_v304 main_v305 (subf : (⟨S1024x1024, .f32⟩ : BufTy).Contents (Elt F) → (⟨S1024x1024, .f32⟩ : BufTy).Contents (Elt F) → (⟨S1024x1024, .f32⟩ : BufTy).Contents (Elt F)),
    unary main_arg3 main_v306 ((transpose S1024x1024 [1, 0] · transposes_S1024x1024_S1024x1024_1_0) : (⟨S1024x1024, .f32⟩ : BufTy).Contents (Elt F) → (⟨S1024x1024, .f32⟩ : BufTy).Contents (Elt F)),
    binary main_v305 main_v306 main_v307 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v303 main_v307 main_v308 (subf : (⟨S1024x1024, .f32⟩ : BufTy).Contents (Elt F) → (⟨S1024x1024, .f32⟩ : BufTy).Contents (Elt F) → (⟨S1024x1024, .f32⟩ : BufTy).Contents (Elt F)),
    binary main_v295 main_arg3 main_v309 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v298 main_v309 main_v310 (subf : (⟨S1024x1024, .f32⟩ : BufTy).Contents (Elt F) → (⟨S1024x1024, .f32⟩ : BufTy).Contents (Elt F) → (⟨S1024x1024, .f32⟩ : BufTy).Contents (Elt F)),
    binary main_v298 main_arg4 main_v311 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v301 main_v311 main_v312 (subf : (⟨S1024x512, .f32⟩ : BufTy).Contents (Elt F) → (⟨S1024x512, .f32⟩ : BufTy).Contents (Elt F) → (⟨S1024x512, .f32⟩ : BufTy).Contents (Elt F)),
    unary main_arg4 main_v313 ((transpose S512x1024 [1, 0] · transposes_S1024x512_S512x1024_1_0) : (⟨S1024x512, .f32⟩ : BufTy).Contents (Elt F) → (⟨S512x1024, .f32⟩ : BufTy).Contents (Elt F)),
    binary main_v312 main_v313 main_v314 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v310 main_v314 main_v315 (subf : (⟨S1024x1024, .f32⟩ : BufTy).Contents (Elt F) → (⟨S1024x1024, .f32⟩ : BufTy).Contents (Elt F) → (⟨S1024x1024, .f32⟩ : BufTy).Contents (Elt F)),
    binary main_v298 main_arg4 main_v316 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v301 main_v316 main_v317 (subf : (⟨S1024x512, .f32⟩ : BufTy).Contents (Elt F) → (⟨S1024x512, .f32⟩ : BufTy).Contents (Elt F) → (⟨S1024x512, .f32⟩ : BufTy).Contents (Elt F)),
    binary main_v301 main_arg1 main_v318 (subf : (⟨S1024x512, .f32⟩ : BufTy).Contents (Elt F) → (⟨S1024x512, .f32⟩ : BufTy).Contents (Elt F) → (⟨S1024x512, .f32⟩ : BufTy).Contents (Elt F)),
    nullary main_cst_39 (constant S_ .f32 0x3A83126F#32),
    unary main_cst_39 main_v319 (broadcastInDim S1024x512 ![] bcast_S_S1024x512 : (⟨S_, .f32⟩ : BufTy).Contents (Elt F) → (⟨S1024x512, .f32⟩ : BufTy).Contents (Elt F)),
    binary main_v319 main_v318 main_v320 (mulf : (⟨S1024x512, .f32⟩ : BufTy).Contents (Elt F) → (⟨S1024x512, .f32⟩ : BufTy).Contents (Elt F) → (⟨S1024x512, .f32⟩ : BufTy).Contents (Elt F)),
    binary main_v317 main_v320 main_v321 (addf : (⟨S1024x512, .f32⟩ : BufTy).Contents (Elt F) → (⟨S1024x512, .f32⟩ : BufTy).Contents (Elt F) → (⟨S1024x512, .f32⟩ : BufTy).Contents (Elt F)),
    nullary main_cst_40 (constant S_ .f32 0x3F000000#32),
    unary main_cst_40 main_v322 (broadcastInDim S1024x1024 ![] bcast_S_S1024x1024 : (⟨S_, .f32⟩ : BufTy).Contents (Elt F) → (⟨S1024x1024, .f32⟩ : BufTy).Contents (Elt F)),
    binary main_v322 main_v308 main_v323 (mulf : (⟨S1024x1024, .f32⟩ : BufTy).Contents (Elt F) → (⟨S1024x1024, .f32⟩ : BufTy).Contents (Elt F) → (⟨S1024x1024, .f32⟩ : BufTy).Contents (Elt F)),
    binary main_v295 main_v323 main_v324 (subf : (⟨S1024x1024, .f32⟩ : BufTy).Contents (Elt F) → (⟨S1024x1024, .f32⟩ : BufTy).Contents (Elt F) → (⟨S1024x1024, .f32⟩ : BufTy).Contents (Elt F)),
    nullary main_cst_41 (constant S_ .f32 0x3F000000#32),
    unary main_cst_41 main_v325 (broadcastInDim S1024x1024 ![] bcast_S_S1024x1024 : (⟨S_, .f32⟩ : BufTy).Contents (Elt F) → (⟨S1024x1024, .f32⟩ : BufTy).Contents (Elt F)),
    binary main_v325 main_v315 main_v326 (mulf : (⟨S1024x1024, .f32⟩ : BufTy).Contents (Elt F) → (⟨S1024x1024, .f32⟩ : BufTy).Contents (Elt F) → (⟨S1024x1024, .f32⟩ : BufTy).Contents (Elt F)),
    binary main_v298 main_v326 main_v327 (subf : (⟨S1024x1024, .f32⟩ : BufTy).Contents (Elt F) → (⟨S1024x1024, .f32⟩ : BufTy).Contents (Elt F) → (⟨S1024x1024, .f32⟩ : BufTy).Contents (Elt F)),
    nullary main_cst_42 (constant S_ .f32 0x3F000000#32),
    unary main_cst_42 main_v328 (broadcastInDim S1024x512 ![] bcast_S_S1024x512 : (⟨S_, .f32⟩ : BufTy).Contents (Elt F) → (⟨S1024x512, .f32⟩ : BufTy).Contents (Elt F)),
    binary main_v328 main_v321 main_v329 (mulf : (⟨S1024x512, .f32⟩ : BufTy).Contents (Elt F) → (⟨S1024x512, .f32⟩ : BufTy).Contents (Elt F) → (⟨S1024x512, .f32⟩ : BufTy).Contents (Elt F)),
    binary main_v301 main_v329 main_v330 (subf : (⟨S1024x512, .f32⟩ : BufTy).Contents (Elt F) → (⟨S1024x512, .f32⟩ : BufTy).Contents (Elt F) → (⟨S1024x512, .f32⟩ : BufTy).Contents (Elt F)) ]
abbrev wU10_W : List (Ref sig .tc) := [main_v302, main_v303, main_v304, main_v305, main_v306, main_v307, main_v308, main_v309, main_v310, main_v311, main_v312, main_v313, main_v314, main_v315, main_v316, main_v317, main_v318, main_cst_39, main_v319, main_v320, main_v321, main_cst_40, main_v322, main_v323, main_v324, main_cst_41, main_v325, main_v326, main_v327, main_cst_42, main_v328, main_v329, main_v330]
theorem wU10_writes : (wU10 : List (HloOp τ sig (Elt F))).Forall fun op => op.writes ⊆ (wU10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU10_keep (V : Valuation τ sig (Elt F)) (r : Ref sig .tc) (h : r ∉ wU10_W) :
    after wU10 V (Proc.devRef .tc r) = V (Proc.devRef .tc r) := after_of_writes_sub wU10 _ wU10_writes h

/-- 33 operations. -/
abbrev wU11 : List (HloOp τ sig (Elt F)) :=
  [ binary main_arg0 main_arg2 main_v331 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v324 main_v331 main_v332 (subf : (⟨S1024x1024, .f32⟩ : BufTy).Contents (Elt F) → (⟨S1024x1024, .f32⟩ : BufTy).Contents (Elt F) → (⟨S1024x1024, .f32⟩ : BufTy).Contents (Elt F)),
    binary main_v324 main_arg3 main_v333 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v327 main_v333 main_v334 (subf : (⟨S1024x1024, .f32⟩ : BufTy).Contents (Elt F) → (⟨S1024x1024, .f32⟩ : BufTy).Contents (Elt F) → (⟨S1024x1024, .f32⟩ : BufTy).Contents (Elt F)),
    unary main_arg3 main_v335 ((transpose S1024x1024 [1, 0] · transposes_S1024x1024_S1024x1024_1_0) : (⟨S1024x1024, .f32⟩ : BufTy).Contents (Elt F) → (⟨S1024x1024, .f32⟩ : BufTy).Contents (Elt F)),
    binary main_v334 main_v335 main_v336 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v332 main_v336 main_v337 (subf : (⟨S1024x1024, .f32⟩ : BufTy).Contents (Elt F) → (⟨S1024x1024, .f32⟩ : BufTy).Contents (Elt F) → (⟨S1024x1024, .f32⟩ : BufTy).Contents (Elt F)),
    binary main_v324 main_arg3 main_v338 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v327 main_v338 main_v339 (subf : (⟨S1024x1024, .f32⟩ : BufTy).Contents (Elt F) → (⟨S1024x1024, .f32⟩ : BufTy).Contents (Elt F) → (⟨S1024x1024, .f32⟩ : BufTy).Contents (Elt F)),
    binary main_v327 main_arg4 main_v340 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v330 main_v340 main_v341 (subf : (⟨S1024x512, .f32⟩ : BufTy).Contents (Elt F) → (⟨S1024x512, .f32⟩ : BufTy).Contents (Elt F) → (⟨S1024x512, .f32⟩ : BufTy).Contents (Elt F)),
    unary main_arg4 main_v342 ((transpose S512x1024 [1, 0] · transposes_S1024x512_S512x1024_1_0) : (⟨S1024x512, .f32⟩ : BufTy).Contents (Elt F) → (⟨S512x1024, .f32⟩ : BufTy).Contents (Elt F)),
    binary main_v341 main_v342 main_v343 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v339 main_v343 main_v344 (subf : (⟨S1024x1024, .f32⟩ : BufTy).Contents (Elt F) → (⟨S1024x1024, .f32⟩ : BufTy).Contents (Elt F) → (⟨S1024x1024, .f32⟩ : BufTy).Contents (Elt F)),
    binary main_v327 main_arg4 main_v345 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v330 main_v345 main_v346 (subf : (⟨S1024x512, .f32⟩ : BufTy).Contents (Elt F) → (⟨S1024x512, .f32⟩ : BufTy).Contents (Elt F) → (⟨S1024x512, .f32⟩ : BufTy).Contents (Elt F)),
    binary main_v330 main_arg1 main_v347 (subf : (⟨S1024x512, .f32⟩ : BufTy).Contents (Elt F) → (⟨S1024x512, .f32⟩ : BufTy).Contents (Elt F) → (⟨S1024x512, .f32⟩ : BufTy).Contents (Elt F)),
    nullary main_cst_43 (constant S_ .f32 0x3A83126F#32),
    unary main_cst_43 main_v348 (broadcastInDim S1024x512 ![] bcast_S_S1024x512 : (⟨S_, .f32⟩ : BufTy).Contents (Elt F) → (⟨S1024x512, .f32⟩ : BufTy).Contents (Elt F)),
    binary main_v348 main_v347 main_v349 (mulf : (⟨S1024x512, .f32⟩ : BufTy).Contents (Elt F) → (⟨S1024x512, .f32⟩ : BufTy).Contents (Elt F) → (⟨S1024x512, .f32⟩ : BufTy).Contents (Elt F)),
    binary main_v346 main_v349 main_v350 (addf : (⟨S1024x512, .f32⟩ : BufTy).Contents (Elt F) → (⟨S1024x512, .f32⟩ : BufTy).Contents (Elt F) → (⟨S1024x512, .f32⟩ : BufTy).Contents (Elt F)),
    nullary main_cst_44 (constant S_ .f32 0x3F000000#32),
    unary main_cst_44 main_v351 (broadcastInDim S1024x1024 ![] bcast_S_S1024x1024 : (⟨S_, .f32⟩ : BufTy).Contents (Elt F) → (⟨S1024x1024, .f32⟩ : BufTy).Contents (Elt F)),
    binary main_v351 main_v337 main_v352 (mulf : (⟨S1024x1024, .f32⟩ : BufTy).Contents (Elt F) → (⟨S1024x1024, .f32⟩ : BufTy).Contents (Elt F) → (⟨S1024x1024, .f32⟩ : BufTy).Contents (Elt F)),
    binary main_v324 main_v352 main_v353 (subf : (⟨S1024x1024, .f32⟩ : BufTy).Contents (Elt F) → (⟨S1024x1024, .f32⟩ : BufTy).Contents (Elt F) → (⟨S1024x1024, .f32⟩ : BufTy).Contents (Elt F)),
    nullary main_cst_45 (constant S_ .f32 0x3F000000#32),
    unary main_cst_45 main_v354 (broadcastInDim S1024x1024 ![] bcast_S_S1024x1024 : (⟨S_, .f32⟩ : BufTy).Contents (Elt F) → (⟨S1024x1024, .f32⟩ : BufTy).Contents (Elt F)),
    binary main_v354 main_v344 main_v355 (mulf : (⟨S1024x1024, .f32⟩ : BufTy).Contents (Elt F) → (⟨S1024x1024, .f32⟩ : BufTy).Contents (Elt F) → (⟨S1024x1024, .f32⟩ : BufTy).Contents (Elt F)),
    binary main_v327 main_v355 main_v356 (subf : (⟨S1024x1024, .f32⟩ : BufTy).Contents (Elt F) → (⟨S1024x1024, .f32⟩ : BufTy).Contents (Elt F) → (⟨S1024x1024, .f32⟩ : BufTy).Contents (Elt F)),
    nullary main_cst_46 (constant S_ .f32 0x3F000000#32),
    unary main_cst_46 main_v357 (broadcastInDim S1024x512 ![] bcast_S_S1024x512 : (⟨S_, .f32⟩ : BufTy).Contents (Elt F) → (⟨S1024x512, .f32⟩ : BufTy).Contents (Elt F)),
    binary main_v357 main_v350 main_v358 (mulf : (⟨S1024x512, .f32⟩ : BufTy).Contents (Elt F) → (⟨S1024x512, .f32⟩ : BufTy).Contents (Elt F) → (⟨S1024x512, .f32⟩ : BufTy).Contents (Elt F)),
    binary main_v330 main_v358 main_v359 (subf : (⟨S1024x512, .f32⟩ : BufTy).Contents (Elt F) → (⟨S1024x512, .f32⟩ : BufTy).Contents (Elt F) → (⟨S1024x512, .f32⟩ : BufTy).Contents (Elt F)) ]
abbrev wU11_W : List (Ref sig .tc) := [main_v331, main_v332, main_v333, main_v334, main_v335, main_v336, main_v337, main_v338, main_v339, main_v340, main_v341, main_v342, main_v343, main_v344, main_v345, main_v346, main_v347, main_cst_43, main_v348, main_v349, main_v350, main_cst_44, main_v351, main_v352, main_v353, main_cst_45, main_v354, main_v355, main_v356, main_cst_46, main_v357, main_v358, main_v359]
theorem wU11_writes : (wU11 : List (HloOp τ sig (Elt F))).Forall fun op => op.writes ⊆ (wU11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU11_keep (V : Valuation τ sig (Elt F)) (r : Ref sig .tc) (h : r ∉ wU11_W) :
    after wU11 V (Proc.devRef .tc r) = V (Proc.devRef .tc r) := after_of_writes_sub wU11 _ wU11_writes h

/-- 33 operations. -/
abbrev wU12 : List (HloOp τ sig (Elt F)) :=
  [ binary main_arg0 main_arg2 main_v360 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v353 main_v360 main_v361 (subf : (⟨S1024x1024, .f32⟩ : BufTy).Contents (Elt F) → (⟨S1024x1024, .f32⟩ : BufTy).Contents (Elt F) → (⟨S1024x1024, .f32⟩ : BufTy).Contents (Elt F)),
    binary main_v353 main_arg3 main_v362 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v356 main_v362 main_v363 (subf : (⟨S1024x1024, .f32⟩ : BufTy).Contents (Elt F) → (⟨S1024x1024, .f32⟩ : BufTy).Contents (Elt F) → (⟨S1024x1024, .f32⟩ : BufTy).Contents (Elt F)),
    unary main_arg3 main_v364 ((transpose S1024x1024 [1, 0] · transposes_S1024x1024_S1024x1024_1_0) : (⟨S1024x1024, .f32⟩ : BufTy).Contents (Elt F) → (⟨S1024x1024, .f32⟩ : BufTy).Contents (Elt F)),
    binary main_v363 main_v364 main_v365 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v361 main_v365 main_v366 (subf : (⟨S1024x1024, .f32⟩ : BufTy).Contents (Elt F) → (⟨S1024x1024, .f32⟩ : BufTy).Contents (Elt F) → (⟨S1024x1024, .f32⟩ : BufTy).Contents (Elt F)),
    binary main_v353 main_arg3 main_v367 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v356 main_v367 main_v368 (subf : (⟨S1024x1024, .f32⟩ : BufTy).Contents (Elt F) → (⟨S1024x1024, .f32⟩ : BufTy).Contents (Elt F) → (⟨S1024x1024, .f32⟩ : BufTy).Contents (Elt F)),
    binary main_v356 main_arg4 main_v369 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v359 main_v369 main_v370 (subf : (⟨S1024x512, .f32⟩ : BufTy).Contents (Elt F) → (⟨S1024x512, .f32⟩ : BufTy).Contents (Elt F) → (⟨S1024x512, .f32⟩ : BufTy).Contents (Elt F)),
    unary main_arg4 main_v371 ((transpose S512x1024 [1, 0] · transposes_S1024x512_S512x1024_1_0) : (⟨S1024x512, .f32⟩ : BufTy).Contents (Elt F) → (⟨S512x1024, .f32⟩ : BufTy).Contents (Elt F)),
    binary main_v370 main_v371 main_v372 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v368 main_v372 main_v373 (subf : (⟨S1024x1024, .f32⟩ : BufTy).Contents (Elt F) → (⟨S1024x1024, .f32⟩ : BufTy).Contents (Elt F) → (⟨S1024x1024, .f32⟩ : BufTy).Contents (Elt F)),
    binary main_v356 main_arg4 main_v374 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v359 main_v374 main_v375 (subf : (⟨S1024x512, .f32⟩ : BufTy).Contents (Elt F) → (⟨S1024x512, .f32⟩ : BufTy).Contents (Elt F) → (⟨S1024x512, .f32⟩ : BufTy).Contents (Elt F)),
    binary main_v359 main_arg1 main_v376 (subf : (⟨S1024x512, .f32⟩ : BufTy).Contents (Elt F) → (⟨S1024x512, .f32⟩ : BufTy).Contents (Elt F) → (⟨S1024x512, .f32⟩ : BufTy).Contents (Elt F)),
    nullary main_cst_47 (constant S_ .f32 0x3A83126F#32),
    unary main_cst_47 main_v377 (broadcastInDim S1024x512 ![] bcast_S_S1024x512 : (⟨S_, .f32⟩ : BufTy).Contents (Elt F) → (⟨S1024x512, .f32⟩ : BufTy).Contents (Elt F)),
    binary main_v377 main_v376 main_v378 (mulf : (⟨S1024x512, .f32⟩ : BufTy).Contents (Elt F) → (⟨S1024x512, .f32⟩ : BufTy).Contents (Elt F) → (⟨S1024x512, .f32⟩ : BufTy).Contents (Elt F)),
    binary main_v375 main_v378 main_v379 (addf : (⟨S1024x512, .f32⟩ : BufTy).Contents (Elt F) → (⟨S1024x512, .f32⟩ : BufTy).Contents (Elt F) → (⟨S1024x512, .f32⟩ : BufTy).Contents (Elt F)),
    nullary main_cst_48 (constant S_ .f32 0x3F000000#32),
    unary main_cst_48 main_v380 (broadcastInDim S1024x1024 ![] bcast_S_S1024x1024 : (⟨S_, .f32⟩ : BufTy).Contents (Elt F) → (⟨S1024x1024, .f32⟩ : BufTy).Contents (Elt F)),
    binary main_v380 main_v366 main_v381 (mulf : (⟨S1024x1024, .f32⟩ : BufTy).Contents (Elt F) → (⟨S1024x1024, .f32⟩ : BufTy).Contents (Elt F) → (⟨S1024x1024, .f32⟩ : BufTy).Contents (Elt F)),
    binary main_v353 main_v381 main_v382 (subf : (⟨S1024x1024, .f32⟩ : BufTy).Contents (Elt F) → (⟨S1024x1024, .f32⟩ : BufTy).Contents (Elt F) → (⟨S1024x1024, .f32⟩ : BufTy).Contents (Elt F)),
    nullary main_cst_49 (constant S_ .f32 0x3F000000#32),
    unary main_cst_49 main_v383 (broadcastInDim S1024x1024 ![] bcast_S_S1024x1024 : (⟨S_, .f32⟩ : BufTy).Contents (Elt F) → (⟨S1024x1024, .f32⟩ : BufTy).Contents (Elt F)),
    binary main_v383 main_v373 main_v384 (mulf : (⟨S1024x1024, .f32⟩ : BufTy).Contents (Elt F) → (⟨S1024x1024, .f32⟩ : BufTy).Contents (Elt F) → (⟨S1024x1024, .f32⟩ : BufTy).Contents (Elt F)),
    binary main_v356 main_v384 main_v385 (subf : (⟨S1024x1024, .f32⟩ : BufTy).Contents (Elt F) → (⟨S1024x1024, .f32⟩ : BufTy).Contents (Elt F) → (⟨S1024x1024, .f32⟩ : BufTy).Contents (Elt F)),
    nullary main_cst_50 (constant S_ .f32 0x3F000000#32),
    unary main_cst_50 main_v386 (broadcastInDim S1024x512 ![] bcast_S_S1024x512 : (⟨S_, .f32⟩ : BufTy).Contents (Elt F) → (⟨S1024x512, .f32⟩ : BufTy).Contents (Elt F)),
    binary main_v386 main_v379 main_v387 (mulf : (⟨S1024x512, .f32⟩ : BufTy).Contents (Elt F) → (⟨S1024x512, .f32⟩ : BufTy).Contents (Elt F) → (⟨S1024x512, .f32⟩ : BufTy).Contents (Elt F)),
    binary main_v359 main_v387 main_v388 (subf : (⟨S1024x512, .f32⟩ : BufTy).Contents (Elt F) → (⟨S1024x512, .f32⟩ : BufTy).Contents (Elt F) → (⟨S1024x512, .f32⟩ : BufTy).Contents (Elt F)) ]
abbrev wU12_W : List (Ref sig .tc) := [main_v360, main_v361, main_v362, main_v363, main_v364, main_v365, main_v366, main_v367, main_v368, main_v369, main_v370, main_v371, main_v372, main_v373, main_v374, main_v375, main_v376, main_cst_47, main_v377, main_v378, main_v379, main_cst_48, main_v380, main_v381, main_v382, main_cst_49, main_v383, main_v384, main_v385, main_cst_50, main_v386, main_v387, main_v388]
theorem wU12_writes : (wU12 : List (HloOp τ sig (Elt F))).Forall fun op => op.writes ⊆ (wU12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU12_keep (V : Valuation τ sig (Elt F)) (r : Ref sig .tc) (h : r ∉ wU12_W) :
    after wU12 V (Proc.devRef .tc r) = V (Proc.devRef .tc r) := after_of_writes_sub wU12 _ wU12_writes h

/-- 33 operations. -/
abbrev wU13 : List (HloOp τ sig (Elt F)) :=
  [ binary main_arg0 main_arg2 main_v389 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v382 main_v389 main_v390 (subf : (⟨S1024x1024, .f32⟩ : BufTy).Contents (Elt F) → (⟨S1024x1024, .f32⟩ : BufTy).Contents (Elt F) → (⟨S1024x1024, .f32⟩ : BufTy).Contents (Elt F)),
    binary main_v382 main_arg3 main_v391 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v385 main_v391 main_v392 (subf : (⟨S1024x1024, .f32⟩ : BufTy).Contents (Elt F) → (⟨S1024x1024, .f32⟩ : BufTy).Contents (Elt F) → (⟨S1024x1024, .f32⟩ : BufTy).Contents (Elt F)),
    unary main_arg3 main_v393 ((transpose S1024x1024 [1, 0] · transposes_S1024x1024_S1024x1024_1_0) : (⟨S1024x1024, .f32⟩ : BufTy).Contents (Elt F) → (⟨S1024x1024, .f32⟩ : BufTy).Contents (Elt F)),
    binary main_v392 main_v393 main_v394 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v390 main_v394 main_v395 (subf : (⟨S1024x1024, .f32⟩ : BufTy).Contents (Elt F) → (⟨S1024x1024, .f32⟩ : BufTy).Contents (Elt F) → (⟨S1024x1024, .f32⟩ : BufTy).Contents (Elt F)),
    binary main_v382 main_arg3 main_v396 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v385 main_v396 main_v397 (subf : (⟨S1024x1024, .f32⟩ : BufTy).Contents (Elt F) → (⟨S1024x1024, .f32⟩ : BufTy).Contents (Elt F) → (⟨S1024x1024, .f32⟩ : BufTy).Contents (Elt F)),
    binary main_v385 main_arg4 main_v398 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v388 main_v398 main_v399 (subf : (⟨S1024x512, .f32⟩ : BufTy).Contents (Elt F) → (⟨S1024x512, .f32⟩ : BufTy).Contents (Elt F) → (⟨S1024x512, .f32⟩ : BufTy).Contents (Elt F)),
    unary main_arg4 main_v400 ((transpose S512x1024 [1, 0] · transposes_S1024x512_S512x1024_1_0) : (⟨S1024x512, .f32⟩ : BufTy).Contents (Elt F) → (⟨S512x1024, .f32⟩ : BufTy).Contents (Elt F)),
    binary main_v399 main_v400 main_v401 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v397 main_v401 main_v402 (subf : (⟨S1024x1024, .f32⟩ : BufTy).Contents (Elt F) → (⟨S1024x1024, .f32⟩ : BufTy).Contents (Elt F) → (⟨S1024x1024, .f32⟩ : BufTy).Contents (Elt F)),
    binary main_v385 main_arg4 main_v403 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v388 main_v403 main_v404 (subf : (⟨S1024x512, .f32⟩ : BufTy).Contents (Elt F) → (⟨S1024x512, .f32⟩ : BufTy).Contents (Elt F) → (⟨S1024x512, .f32⟩ : BufTy).Contents (Elt F)),
    binary main_v388 main_arg1 main_v405 (subf : (⟨S1024x512, .f32⟩ : BufTy).Contents (Elt F) → (⟨S1024x512, .f32⟩ : BufTy).Contents (Elt F) → (⟨S1024x512, .f32⟩ : BufTy).Contents (Elt F)),
    nullary main_cst_51 (constant S_ .f32 0x3A83126F#32),
    unary main_cst_51 main_v406 (broadcastInDim S1024x512 ![] bcast_S_S1024x512 : (⟨S_, .f32⟩ : BufTy).Contents (Elt F) → (⟨S1024x512, .f32⟩ : BufTy).Contents (Elt F)),
    binary main_v406 main_v405 main_v407 (mulf : (⟨S1024x512, .f32⟩ : BufTy).Contents (Elt F) → (⟨S1024x512, .f32⟩ : BufTy).Contents (Elt F) → (⟨S1024x512, .f32⟩ : BufTy).Contents (Elt F)),
    binary main_v404 main_v407 main_v408 (addf : (⟨S1024x512, .f32⟩ : BufTy).Contents (Elt F) → (⟨S1024x512, .f32⟩ : BufTy).Contents (Elt F) → (⟨S1024x512, .f32⟩ : BufTy).Contents (Elt F)),
    nullary main_cst_52 (constant S_ .f32 0x3F000000#32),
    unary main_cst_52 main_v409 (broadcastInDim S1024x1024 ![] bcast_S_S1024x1024 : (⟨S_, .f32⟩ : BufTy).Contents (Elt F) → (⟨S1024x1024, .f32⟩ : BufTy).Contents (Elt F)),
    binary main_v409 main_v395 main_v410 (mulf : (⟨S1024x1024, .f32⟩ : BufTy).Contents (Elt F) → (⟨S1024x1024, .f32⟩ : BufTy).Contents (Elt F) → (⟨S1024x1024, .f32⟩ : BufTy).Contents (Elt F)),
    binary main_v382 main_v410 main_v411 (subf : (⟨S1024x1024, .f32⟩ : BufTy).Contents (Elt F) → (⟨S1024x1024, .f32⟩ : BufTy).Contents (Elt F) → (⟨S1024x1024, .f32⟩ : BufTy).Contents (Elt F)),
    nullary main_cst_53 (constant S_ .f32 0x3F000000#32),
    unary main_cst_53 main_v412 (broadcastInDim S1024x1024 ![] bcast_S_S1024x1024 : (⟨S_, .f32⟩ : BufTy).Contents (Elt F) → (⟨S1024x1024, .f32⟩ : BufTy).Contents (Elt F)),
    binary main_v412 main_v402 main_v413 (mulf : (⟨S1024x1024, .f32⟩ : BufTy).Contents (Elt F) → (⟨S1024x1024, .f32⟩ : BufTy).Contents (Elt F) → (⟨S1024x1024, .f32⟩ : BufTy).Contents (Elt F)),
    binary main_v385 main_v413 main_v414 (subf : (⟨S1024x1024, .f32⟩ : BufTy).Contents (Elt F) → (⟨S1024x1024, .f32⟩ : BufTy).Contents (Elt F) → (⟨S1024x1024, .f32⟩ : BufTy).Contents (Elt F)),
    nullary main_cst_54 (constant S_ .f32 0x3F000000#32),
    unary main_cst_54 main_v415 (broadcastInDim S1024x512 ![] bcast_S_S1024x512 : (⟨S_, .f32⟩ : BufTy).Contents (Elt F) → (⟨S1024x512, .f32⟩ : BufTy).Contents (Elt F)),
    binary main_v415 main_v408 main_v416 (mulf : (⟨S1024x512, .f32⟩ : BufTy).Contents (Elt F) → (⟨S1024x512, .f32⟩ : BufTy).Contents (Elt F) → (⟨S1024x512, .f32⟩ : BufTy).Contents (Elt F)),
    binary main_v388 main_v416 main_v417 (subf : (⟨S1024x512, .f32⟩ : BufTy).Contents (Elt F) → (⟨S1024x512, .f32⟩ : BufTy).Contents (Elt F) → (⟨S1024x512, .f32⟩ : BufTy).Contents (Elt F)) ]
abbrev wU13_W : List (Ref sig .tc) := [main_v389, main_v390, main_v391, main_v392, main_v393, main_v394, main_v395, main_v396, main_v397, main_v398, main_v399, main_v400, main_v401, main_v402, main_v403, main_v404, main_v405, main_cst_51, main_v406, main_v407, main_v408, main_cst_52, main_v409, main_v410, main_v411, main_cst_53, main_v412, main_v413, main_v414, main_cst_54, main_v415, main_v416, main_v417]
theorem wU13_writes : (wU13 : List (HloOp τ sig (Elt F))).Forall fun op => op.writes ⊆ (wU13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU13_keep (V : Valuation τ sig (Elt F)) (r : Ref sig .tc) (h : r ∉ wU13_W) :
    after wU13 V (Proc.devRef .tc r) = V (Proc.devRef .tc r) := after_of_writes_sub wU13 _ wU13_writes h

/-- 33 operations. -/
abbrev wU14 : List (HloOp τ sig (Elt F)) :=
  [ binary main_arg0 main_arg2 main_v418 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v411 main_v418 main_v419 (subf : (⟨S1024x1024, .f32⟩ : BufTy).Contents (Elt F) → (⟨S1024x1024, .f32⟩ : BufTy).Contents (Elt F) → (⟨S1024x1024, .f32⟩ : BufTy).Contents (Elt F)),
    binary main_v411 main_arg3 main_v420 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v414 main_v420 main_v421 (subf : (⟨S1024x1024, .f32⟩ : BufTy).Contents (Elt F) → (⟨S1024x1024, .f32⟩ : BufTy).Contents (Elt F) → (⟨S1024x1024, .f32⟩ : BufTy).Contents (Elt F)),
    unary main_arg3 main_v422 ((transpose S1024x1024 [1, 0] · transposes_S1024x1024_S1024x1024_1_0) : (⟨S1024x1024, .f32⟩ : BufTy).Contents (Elt F) → (⟨S1024x1024, .f32⟩ : BufTy).Contents (Elt F)),
    binary main_v421 main_v422 main_v423 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v419 main_v423 main_v424 (subf : (⟨S1024x1024, .f32⟩ : BufTy).Contents (Elt F) → (⟨S1024x1024, .f32⟩ : BufTy).Contents (Elt F) → (⟨S1024x1024, .f32⟩ : BufTy).Contents (Elt F)),
    binary main_v411 main_arg3 main_v425 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v414 main_v425 main_v426 (subf : (⟨S1024x1024, .f32⟩ : BufTy).Contents (Elt F) → (⟨S1024x1024, .f32⟩ : BufTy).Contents (Elt F) → (⟨S1024x1024, .f32⟩ : BufTy).Contents (Elt F)),
    binary main_v414 main_arg4 main_v427 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v417 main_v427 main_v428 (subf : (⟨S1024x512, .f32⟩ : BufTy).Contents (Elt F) → (⟨S1024x512, .f32⟩ : BufTy).Contents (Elt F) → (⟨S1024x512, .f32⟩ : BufTy).Contents (Elt F)),
    unary main_arg4 main_v429 ((transpose S512x1024 [1, 0] · transposes_S1024x512_S512x1024_1_0) : (⟨S1024x512, .f32⟩ : BufTy).Contents (Elt F) → (⟨S512x1024, .f32⟩ : BufTy).Contents (Elt F)),
    binary main_v428 main_v429 main_v430 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v426 main_v430 main_v431 (subf : (⟨S1024x1024, .f32⟩ : BufTy).Contents (Elt F) → (⟨S1024x1024, .f32⟩ : BufTy).Contents (Elt F) → (⟨S1024x1024, .f32⟩ : BufTy).Contents (Elt F)),
    binary main_v414 main_arg4 main_v432 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v417 main_v432 main_v433 (subf : (⟨S1024x512, .f32⟩ : BufTy).Contents (Elt F) → (⟨S1024x512, .f32⟩ : BufTy).Contents (Elt F) → (⟨S1024x512, .f32⟩ : BufTy).Contents (Elt F)),
    binary main_v417 main_arg1 main_v434 (subf : (⟨S1024x512, .f32⟩ : BufTy).Contents (Elt F) → (⟨S1024x512, .f32⟩ : BufTy).Contents (Elt F) → (⟨S1024x512, .f32⟩ : BufTy).Contents (Elt F)),
    nullary main_cst_55 (constant S_ .f32 0x3A83126F#32),
    unary main_cst_55 main_v435 (broadcastInDim S1024x512 ![] bcast_S_S1024x512 : (⟨S_, .f32⟩ : BufTy).Contents (Elt F) → (⟨S1024x512, .f32⟩ : BufTy).Contents (Elt F)),
    binary main_v435 main_v434 main_v436 (mulf : (⟨S1024x512, .f32⟩ : BufTy).Contents (Elt F) → (⟨S1024x512, .f32⟩ : BufTy).Contents (Elt F) → (⟨S1024x512, .f32⟩ : BufTy).Contents (Elt F)),
    binary main_v433 main_v436 main_v437 (addf : (⟨S1024x512, .f32⟩ : BufTy).Contents (Elt F) → (⟨S1024x512, .f32⟩ : BufTy).Contents (Elt F) → (⟨S1024x512, .f32⟩ : BufTy).Contents (Elt F)),
    nullary main_cst_56 (constant S_ .f32 0x3F000000#32),
    unary main_cst_56 main_v438 (broadcastInDim S1024x1024 ![] bcast_S_S1024x1024 : (⟨S_, .f32⟩ : BufTy).Contents (Elt F) → (⟨S1024x1024, .f32⟩ : BufTy).Contents (Elt F)),
    binary main_v438 main_v424 main_v439 (mulf : (⟨S1024x1024, .f32⟩ : BufTy).Contents (Elt F) → (⟨S1024x1024, .f32⟩ : BufTy).Contents (Elt F) → (⟨S1024x1024, .f32⟩ : BufTy).Contents (Elt F)),
    binary main_v411 main_v439 main_v440 (subf : (⟨S1024x1024, .f32⟩ : BufTy).Contents (Elt F) → (⟨S1024x1024, .f32⟩ : BufTy).Contents (Elt F) → (⟨S1024x1024, .f32⟩ : BufTy).Contents (Elt F)),
    nullary main_cst_57 (constant S_ .f32 0x3F000000#32),
    unary main_cst_57 main_v441 (broadcastInDim S1024x1024 ![] bcast_S_S1024x1024 : (⟨S_, .f32⟩ : BufTy).Contents (Elt F) → (⟨S1024x1024, .f32⟩ : BufTy).Contents (Elt F)),
    binary main_v441 main_v431 main_v442 (mulf : (⟨S1024x1024, .f32⟩ : BufTy).Contents (Elt F) → (⟨S1024x1024, .f32⟩ : BufTy).Contents (Elt F) → (⟨S1024x1024, .f32⟩ : BufTy).Contents (Elt F)),
    binary main_v414 main_v442 main_v443 (subf : (⟨S1024x1024, .f32⟩ : BufTy).Contents (Elt F) → (⟨S1024x1024, .f32⟩ : BufTy).Contents (Elt F) → (⟨S1024x1024, .f32⟩ : BufTy).Contents (Elt F)),
    nullary main_cst_58 (constant S_ .f32 0x3F000000#32),
    unary main_cst_58 main_v444 (broadcastInDim S1024x512 ![] bcast_S_S1024x512 : (⟨S_, .f32⟩ : BufTy).Contents (Elt F) → (⟨S1024x512, .f32⟩ : BufTy).Contents (Elt F)),
    binary main_v444 main_v437 main_v445 (mulf : (⟨S1024x512, .f32⟩ : BufTy).Contents (Elt F) → (⟨S1024x512, .f32⟩ : BufTy).Contents (Elt F) → (⟨S1024x512, .f32⟩ : BufTy).Contents (Elt F)),
    binary main_v417 main_v445 main_v446 (subf : (⟨S1024x512, .f32⟩ : BufTy).Contents (Elt F) → (⟨S1024x512, .f32⟩ : BufTy).Contents (Elt F) → (⟨S1024x512, .f32⟩ : BufTy).Contents (Elt F)) ]
abbrev wU14_W : List (Ref sig .tc) := [main_v418, main_v419, main_v420, main_v421, main_v422, main_v423, main_v424, main_v425, main_v426, main_v427, main_v428, main_v429, main_v430, main_v431, main_v432, main_v433, main_v434, main_cst_55, main_v435, main_v436, main_v437, main_cst_56, main_v438, main_v439, main_v440, main_cst_57, main_v441, main_v442, main_v443, main_cst_58, main_v444, main_v445, main_v446]
theorem wU14_writes : (wU14 : List (HloOp τ sig (Elt F))).Forall fun op => op.writes ⊆ (wU14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU14_keep (V : Valuation τ sig (Elt F)) (r : Ref sig .tc) (h : r ∉ wU14_W) :
    after wU14 V (Proc.devRef .tc r) = V (Proc.devRef .tc r) := after_of_writes_sub wU14 _ wU14_writes h

/-- 33 operations. -/
abbrev wU15 : List (HloOp τ sig (Elt F)) :=
  [ binary main_arg0 main_arg2 main_v447 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v440 main_v447 main_v448 (subf : (⟨S1024x1024, .f32⟩ : BufTy).Contents (Elt F) → (⟨S1024x1024, .f32⟩ : BufTy).Contents (Elt F) → (⟨S1024x1024, .f32⟩ : BufTy).Contents (Elt F)),
    binary main_v440 main_arg3 main_v449 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v443 main_v449 main_v450 (subf : (⟨S1024x1024, .f32⟩ : BufTy).Contents (Elt F) → (⟨S1024x1024, .f32⟩ : BufTy).Contents (Elt F) → (⟨S1024x1024, .f32⟩ : BufTy).Contents (Elt F)),
    unary main_arg3 main_v451 ((transpose S1024x1024 [1, 0] · transposes_S1024x1024_S1024x1024_1_0) : (⟨S1024x1024, .f32⟩ : BufTy).Contents (Elt F) → (⟨S1024x1024, .f32⟩ : BufTy).Contents (Elt F)),
    binary main_v450 main_v451 main_v452 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v448 main_v452 main_v453 (subf : (⟨S1024x1024, .f32⟩ : BufTy).Contents (Elt F) → (⟨S1024x1024, .f32⟩ : BufTy).Contents (Elt F) → (⟨S1024x1024, .f32⟩ : BufTy).Contents (Elt F)),
    binary main_v440 main_arg3 main_v454 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v443 main_v454 main_v455 (subf : (⟨S1024x1024, .f32⟩ : BufTy).Contents (Elt F) → (⟨S1024x1024, .f32⟩ : BufTy).Contents (Elt F) → (⟨S1024x1024, .f32⟩ : BufTy).Contents (Elt F)),
    binary main_v443 main_arg4 main_v456 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v446 main_v456 main_v457 (subf : (⟨S1024x512, .f32⟩ : BufTy).Contents (Elt F) → (⟨S1024x512, .f32⟩ : BufTy).Contents (Elt F) → (⟨S1024x512, .f32⟩ : BufTy).Contents (Elt F)),
    unary main_arg4 main_v458 ((transpose S512x1024 [1, 0] · transposes_S1024x512_S512x1024_1_0) : (⟨S1024x512, .f32⟩ : BufTy).Contents (Elt F) → (⟨S512x1024, .f32⟩ : BufTy).Contents (Elt F)),
    binary main_v457 main_v458 main_v459 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v455 main_v459 main_v460 (subf : (⟨S1024x1024, .f32⟩ : BufTy).Contents (Elt F) → (⟨S1024x1024, .f32⟩ : BufTy).Contents (Elt F) → (⟨S1024x1024, .f32⟩ : BufTy).Contents (Elt F)),
    binary main_v443 main_arg4 main_v461 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v446 main_v461 main_v462 (subf : (⟨S1024x512, .f32⟩ : BufTy).Contents (Elt F) → (⟨S1024x512, .f32⟩ : BufTy).Contents (Elt F) → (⟨S1024x512, .f32⟩ : BufTy).Contents (Elt F)),
    binary main_v446 main_arg1 main_v463 (subf : (⟨S1024x512, .f32⟩ : BufTy).Contents (Elt F) → (⟨S1024x512, .f32⟩ : BufTy).Contents (Elt F) → (⟨S1024x512, .f32⟩ : BufTy).Contents (Elt F)),
    nullary main_cst_59 (constant S_ .f32 0x3A83126F#32),
    unary main_cst_59 main_v464 (broadcastInDim S1024x512 ![] bcast_S_S1024x512 : (⟨S_, .f32⟩ : BufTy).Contents (Elt F) → (⟨S1024x512, .f32⟩ : BufTy).Contents (Elt F)),
    binary main_v464 main_v463 main_v465 (mulf : (⟨S1024x512, .f32⟩ : BufTy).Contents (Elt F) → (⟨S1024x512, .f32⟩ : BufTy).Contents (Elt F) → (⟨S1024x512, .f32⟩ : BufTy).Contents (Elt F)),
    binary main_v462 main_v465 main_v466 (addf : (⟨S1024x512, .f32⟩ : BufTy).Contents (Elt F) → (⟨S1024x512, .f32⟩ : BufTy).Contents (Elt F) → (⟨S1024x512, .f32⟩ : BufTy).Contents (Elt F)),
    nullary main_cst_60 (constant S_ .f32 0x3F000000#32),
    unary main_cst_60 main_v467 (broadcastInDim S1024x1024 ![] bcast_S_S1024x1024 : (⟨S_, .f32⟩ : BufTy).Contents (Elt F) → (⟨S1024x1024, .f32⟩ : BufTy).Contents (Elt F)),
    binary main_v467 main_v453 main_v468 (mulf : (⟨S1024x1024, .f32⟩ : BufTy).Contents (Elt F) → (⟨S1024x1024, .f32⟩ : BufTy).Contents (Elt F) → (⟨S1024x1024, .f32⟩ : BufTy).Contents (Elt F)),
    binary main_v440 main_v468 main_v469 (subf : (⟨S1024x1024, .f32⟩ : BufTy).Contents (Elt F) → (⟨S1024x1024, .f32⟩ : BufTy).Contents (Elt F) → (⟨S1024x1024, .f32⟩ : BufTy).Contents (Elt F)),
    nullary main_cst_61 (constant S_ .f32 0x3F000000#32),
    unary main_cst_61 main_v470 (broadcastInDim S1024x1024 ![] bcast_S_S1024x1024 : (⟨S_, .f32⟩ : BufTy).Contents (Elt F) → (⟨S1024x1024, .f32⟩ : BufTy).Contents (Elt F)),
    binary main_v470 main_v460 main_v471 (mulf : (⟨S1024x1024, .f32⟩ : BufTy).Contents (Elt F) → (⟨S1024x1024, .f32⟩ : BufTy).Contents (Elt F) → (⟨S1024x1024, .f32⟩ : BufTy).Contents (Elt F)),
    binary main_v443 main_v471 main_v472 (subf : (⟨S1024x1024, .f32⟩ : BufTy).Contents (Elt F) → (⟨S1024x1024, .f32⟩ : BufTy).Contents (Elt F) → (⟨S1024x1024, .f32⟩ : BufTy).Contents (Elt F)),
    nullary main_cst_62 (constant S_ .f32 0x3F000000#32),
    unary main_cst_62 main_v473 (broadcastInDim S1024x512 ![] bcast_S_S1024x512 : (⟨S_, .f32⟩ : BufTy).Contents (Elt F) → (⟨S1024x512, .f32⟩ : BufTy).Contents (Elt F)),
    binary main_v473 main_v466 main_v474 (mulf : (⟨S1024x512, .f32⟩ : BufTy).Contents (Elt F) → (⟨S1024x512, .f32⟩ : BufTy).Contents (Elt F) → (⟨S1024x512, .f32⟩ : BufTy).Contents (Elt F)),
    binary main_v446 main_v474 main_v475 (subf : (⟨S1024x512, .f32⟩ : BufTy).Contents (Elt F) → (⟨S1024x512, .f32⟩ : BufTy).Contents (Elt F) → (⟨S1024x512, .f32⟩ : BufTy).Contents (Elt F)) ]
abbrev wU15_W : List (Ref sig .tc) := [main_v447, main_v448, main_v449, main_v450, main_v451, main_v452, main_v453, main_v454, main_v455, main_v456, main_v457, main_v458, main_v459, main_v460, main_v461, main_v462, main_v463, main_cst_59, main_v464, main_v465, main_v466, main_cst_60, main_v467, main_v468, main_v469, main_cst_61, main_v470, main_v471, main_v472, main_cst_62, main_v473, main_v474, main_v475]
theorem wU15_writes : (wU15 : List (HloOp τ sig (Elt F))).Forall fun op => op.writes ⊆ (wU15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU15_keep (V : Valuation τ sig (Elt F)) (r : Ref sig .tc) (h : r ∉ wU15_W) :
    after wU15 V (Proc.devRef .tc r) = V (Proc.devRef .tc r) := after_of_writes_sub wU15 _ wU15_writes h

/-- 33 operations. -/
abbrev wU16 : List (HloOp τ sig (Elt F)) :=
  [ binary main_arg0 main_arg2 main_v476 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v469 main_v476 main_v477 (subf : (⟨S1024x1024, .f32⟩ : BufTy).Contents (Elt F) → (⟨S1024x1024, .f32⟩ : BufTy).Contents (Elt F) → (⟨S1024x1024, .f32⟩ : BufTy).Contents (Elt F)),
    binary main_v469 main_arg3 main_v478 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v472 main_v478 main_v479 (subf : (⟨S1024x1024, .f32⟩ : BufTy).Contents (Elt F) → (⟨S1024x1024, .f32⟩ : BufTy).Contents (Elt F) → (⟨S1024x1024, .f32⟩ : BufTy).Contents (Elt F)),
    unary main_arg3 main_v480 ((transpose S1024x1024 [1, 0] · transposes_S1024x1024_S1024x1024_1_0) : (⟨S1024x1024, .f32⟩ : BufTy).Contents (Elt F) → (⟨S1024x1024, .f32⟩ : BufTy).Contents (Elt F)),
    binary main_v479 main_v480 main_v481 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v477 main_v481 main_v482 (subf : (⟨S1024x1024, .f32⟩ : BufTy).Contents (Elt F) → (⟨S1024x1024, .f32⟩ : BufTy).Contents (Elt F) → (⟨S1024x1024, .f32⟩ : BufTy).Contents (Elt F)),
    binary main_v469 main_arg3 main_v483 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v472 main_v483 main_v484 (subf : (⟨S1024x1024, .f32⟩ : BufTy).Contents (Elt F) → (⟨S1024x1024, .f32⟩ : BufTy).Contents (Elt F) → (⟨S1024x1024, .f32⟩ : BufTy).Contents (Elt F)),
    binary main_v472 main_arg4 main_v485 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v475 main_v485 main_v486 (subf : (⟨S1024x512, .f32⟩ : BufTy).Contents (Elt F) → (⟨S1024x512, .f32⟩ : BufTy).Contents (Elt F) → (⟨S1024x512, .f32⟩ : BufTy).Contents (Elt F)),
    unary main_arg4 main_v487 ((transpose S512x1024 [1, 0] · transposes_S1024x512_S512x1024_1_0) : (⟨S1024x512, .f32⟩ : BufTy).Contents (Elt F) → (⟨S512x1024, .f32⟩ : BufTy).Contents (Elt F)),
    binary main_v486 main_v487 main_v488 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v484 main_v488 main_v489 (subf : (⟨S1024x1024, .f32⟩ : BufTy).Contents (Elt F) → (⟨S1024x1024, .f32⟩ : BufTy).Contents (Elt F) → (⟨S1024x1024, .f32⟩ : BufTy).Contents (Elt F)),
    binary main_v472 main_arg4 main_v490 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v475 main_v490 main_v491 (subf : (⟨S1024x512, .f32⟩ : BufTy).Contents (Elt F) → (⟨S1024x512, .f32⟩ : BufTy).Contents (Elt F) → (⟨S1024x512, .f32⟩ : BufTy).Contents (Elt F)),
    binary main_v475 main_arg1 main_v492 (subf : (⟨S1024x512, .f32⟩ : BufTy).Contents (Elt F) → (⟨S1024x512, .f32⟩ : BufTy).Contents (Elt F) → (⟨S1024x512, .f32⟩ : BufTy).Contents (Elt F)),
    nullary main_cst_63 (constant S_ .f32 0x3A83126F#32),
    unary main_cst_63 main_v493 (broadcastInDim S1024x512 ![] bcast_S_S1024x512 : (⟨S_, .f32⟩ : BufTy).Contents (Elt F) → (⟨S1024x512, .f32⟩ : BufTy).Contents (Elt F)),
    binary main_v493 main_v492 main_v494 (mulf : (⟨S1024x512, .f32⟩ : BufTy).Contents (Elt F) → (⟨S1024x512, .f32⟩ : BufTy).Contents (Elt F) → (⟨S1024x512, .f32⟩ : BufTy).Contents (Elt F)),
    binary main_v491 main_v494 main_v495 (addf : (⟨S1024x512, .f32⟩ : BufTy).Contents (Elt F) → (⟨S1024x512, .f32⟩ : BufTy).Contents (Elt F) → (⟨S1024x512, .f32⟩ : BufTy).Contents (Elt F)),
    nullary main_cst_64 (constant S_ .f32 0x3F000000#32),
    unary main_cst_64 main_v496 (broadcastInDim S1024x1024 ![] bcast_S_S1024x1024 : (⟨S_, .f32⟩ : BufTy).Contents (Elt F) → (⟨S1024x1024, .f32⟩ : BufTy).Contents (Elt F)),
    binary main_v496 main_v482 main_v497 (mulf : (⟨S1024x1024, .f32⟩ : BufTy).Contents (Elt F) → (⟨S1024x1024, .f32⟩ : BufTy).Contents (Elt F) → (⟨S1024x1024, .f32⟩ : BufTy).Contents (Elt F)),
    binary main_v469 main_v497 main_v498 (subf : (⟨S1024x1024, .f32⟩ : BufTy).Contents (Elt F) → (⟨S1024x1024, .f32⟩ : BufTy).Contents (Elt F) → (⟨S1024x1024, .f32⟩ : BufTy).Contents (Elt F)),
    nullary main_cst_65 (constant S_ .f32 0x3F000000#32),
    unary main_cst_65 main_v499 (broadcastInDim S1024x1024 ![] bcast_S_S1024x1024 : (⟨S_, .f32⟩ : BufTy).Contents (Elt F) → (⟨S1024x1024, .f32⟩ : BufTy).Contents (Elt F)),
    binary main_v499 main_v489 main_v500 (mulf : (⟨S1024x1024, .f32⟩ : BufTy).Contents (Elt F) → (⟨S1024x1024, .f32⟩ : BufTy).Contents (Elt F) → (⟨S1024x1024, .f32⟩ : BufTy).Contents (Elt F)),
    binary main_v472 main_v500 main_v501 (subf : (⟨S1024x1024, .f32⟩ : BufTy).Contents (Elt F) → (⟨S1024x1024, .f32⟩ : BufTy).Contents (Elt F) → (⟨S1024x1024, .f32⟩ : BufTy).Contents (Elt F)),
    nullary main_cst_66 (constant S_ .f32 0x3F000000#32),
    unary main_cst_66 main_v502 (broadcastInDim S1024x512 ![] bcast_S_S1024x512 : (⟨S_, .f32⟩ : BufTy).Contents (Elt F) → (⟨S1024x512, .f32⟩ : BufTy).Contents (Elt F)),
    binary main_v502 main_v495 main_v503 (mulf : (⟨S1024x512, .f32⟩ : BufTy).Contents (Elt F) → (⟨S1024x512, .f32⟩ : BufTy).Contents (Elt F) → (⟨S1024x512, .f32⟩ : BufTy).Contents (Elt F)),
    binary main_v475 main_v503 main_v504 (subf : (⟨S1024x512, .f32⟩ : BufTy).Contents (Elt F) → (⟨S1024x512, .f32⟩ : BufTy).Contents (Elt F) → (⟨S1024x512, .f32⟩ : BufTy).Contents (Elt F)) ]
abbrev wU16_W : List (Ref sig .tc) := [main_v476, main_v477, main_v478, main_v479, main_v480, main_v481, main_v482, main_v483, main_v484, main_v485, main_v486, main_v487, main_v488, main_v489, main_v490, main_v491, main_v492, main_cst_63, main_v493, main_v494, main_v495, main_cst_64, main_v496, main_v497, main_v498, main_cst_65, main_v499, main_v500, main_v501, main_cst_66, main_v502, main_v503, main_v504]
theorem wU16_writes : (wU16 : List (HloOp τ sig (Elt F))).Forall fun op => op.writes ⊆ (wU16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU16_keep (V : Valuation τ sig (Elt F)) (r : Ref sig .tc) (h : r ∉ wU16_W) :
    after wU16 V (Proc.devRef .tc r) = V (Proc.devRef .tc r) := after_of_writes_sub wU16 _ wU16_writes h

/-- 33 operations. -/
abbrev wU17 : List (HloOp τ sig (Elt F)) :=
  [ binary main_arg0 main_arg2 main_v505 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v498 main_v505 main_v506 (subf : (⟨S1024x1024, .f32⟩ : BufTy).Contents (Elt F) → (⟨S1024x1024, .f32⟩ : BufTy).Contents (Elt F) → (⟨S1024x1024, .f32⟩ : BufTy).Contents (Elt F)),
    binary main_v498 main_arg3 main_v507 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v501 main_v507 main_v508 (subf : (⟨S1024x1024, .f32⟩ : BufTy).Contents (Elt F) → (⟨S1024x1024, .f32⟩ : BufTy).Contents (Elt F) → (⟨S1024x1024, .f32⟩ : BufTy).Contents (Elt F)),
    unary main_arg3 main_v509 ((transpose S1024x1024 [1, 0] · transposes_S1024x1024_S1024x1024_1_0) : (⟨S1024x1024, .f32⟩ : BufTy).Contents (Elt F) → (⟨S1024x1024, .f32⟩ : BufTy).Contents (Elt F)),
    binary main_v508 main_v509 main_v510 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v506 main_v510 main_v511 (subf : (⟨S1024x1024, .f32⟩ : BufTy).Contents (Elt F) → (⟨S1024x1024, .f32⟩ : BufTy).Contents (Elt F) → (⟨S1024x1024, .f32⟩ : BufTy).Contents (Elt F)),
    binary main_v498 main_arg3 main_v512 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v501 main_v512 main_v513 (subf : (⟨S1024x1024, .f32⟩ : BufTy).Contents (Elt F) → (⟨S1024x1024, .f32⟩ : BufTy).Contents (Elt F) → (⟨S1024x1024, .f32⟩ : BufTy).Contents (Elt F)),
    binary main_v501 main_arg4 main_v514 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v504 main_v514 main_v515 (subf : (⟨S1024x512, .f32⟩ : BufTy).Contents (Elt F) → (⟨S1024x512, .f32⟩ : BufTy).Contents (Elt F) → (⟨S1024x512, .f32⟩ : BufTy).Contents (Elt F)),
    unary main_arg4 main_v516 ((transpose S512x1024 [1, 0] · transposes_S1024x512_S512x1024_1_0) : (⟨S1024x512, .f32⟩ : BufTy).Contents (Elt F) → (⟨S512x1024, .f32⟩ : BufTy).Contents (Elt F)),
    binary main_v515 main_v516 main_v517 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v513 main_v517 main_v518 (subf : (⟨S1024x1024, .f32⟩ : BufTy).Contents (Elt F) → (⟨S1024x1024, .f32⟩ : BufTy).Contents (Elt F) → (⟨S1024x1024, .f32⟩ : BufTy).Contents (Elt F)),
    binary main_v501 main_arg4 main_v519 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v504 main_v519 main_v520 (subf : (⟨S1024x512, .f32⟩ : BufTy).Contents (Elt F) → (⟨S1024x512, .f32⟩ : BufTy).Contents (Elt F) → (⟨S1024x512, .f32⟩ : BufTy).Contents (Elt F)),
    binary main_v504 main_arg1 main_v521 (subf : (⟨S1024x512, .f32⟩ : BufTy).Contents (Elt F) → (⟨S1024x512, .f32⟩ : BufTy).Contents (Elt F) → (⟨S1024x512, .f32⟩ : BufTy).Contents (Elt F)),
    nullary main_cst_67 (constant S_ .f32 0x3A83126F#32),
    unary main_cst_67 main_v522 (broadcastInDim S1024x512 ![] bcast_S_S1024x512 : (⟨S_, .f32⟩ : BufTy).Contents (Elt F) → (⟨S1024x512, .f32⟩ : BufTy).Contents (Elt F)),
    binary main_v522 main_v521 main_v523 (mulf : (⟨S1024x512, .f32⟩ : BufTy).Contents (Elt F) → (⟨S1024x512, .f32⟩ : BufTy).Contents (Elt F) → (⟨S1024x512, .f32⟩ : BufTy).Contents (Elt F)),
    binary main_v520 main_v523 main_v524 (addf : (⟨S1024x512, .f32⟩ : BufTy).Contents (Elt F) → (⟨S1024x512, .f32⟩ : BufTy).Contents (Elt F) → (⟨S1024x512, .f32⟩ : BufTy).Contents (Elt F)),
    nullary main_cst_68 (constant S_ .f32 0x3F000000#32),
    unary main_cst_68 main_v525 (broadcastInDim S1024x1024 ![] bcast_S_S1024x1024 : (⟨S_, .f32⟩ : BufTy).Contents (Elt F) → (⟨S1024x1024, .f32⟩ : BufTy).Contents (Elt F)),
    binary main_v525 main_v511 main_v526 (mulf : (⟨S1024x1024, .f32⟩ : BufTy).Contents (Elt F) → (⟨S1024x1024, .f32⟩ : BufTy).Contents (Elt F) → (⟨S1024x1024, .f32⟩ : BufTy).Contents (Elt F)),
    binary main_v498 main_v526 main_v527 (subf : (⟨S1024x1024, .f32⟩ : BufTy).Contents (Elt F) → (⟨S1024x1024, .f32⟩ : BufTy).Contents (Elt F) → (⟨S1024x1024, .f32⟩ : BufTy).Contents (Elt F)),
    nullary main_cst_69 (constant S_ .f32 0x3F000000#32),
    unary main_cst_69 main_v528 (broadcastInDim S1024x1024 ![] bcast_S_S1024x1024 : (⟨S_, .f32⟩ : BufTy).Contents (Elt F) → (⟨S1024x1024, .f32⟩ : BufTy).Contents (Elt F)),
    binary main_v528 main_v518 main_v529 (mulf : (⟨S1024x1024, .f32⟩ : BufTy).Contents (Elt F) → (⟨S1024x1024, .f32⟩ : BufTy).Contents (Elt F) → (⟨S1024x1024, .f32⟩ : BufTy).Contents (Elt F)),
    binary main_v501 main_v529 main_v530 (subf : (⟨S1024x1024, .f32⟩ : BufTy).Contents (Elt F) → (⟨S1024x1024, .f32⟩ : BufTy).Contents (Elt F) → (⟨S1024x1024, .f32⟩ : BufTy).Contents (Elt F)),
    nullary main_cst_70 (constant S_ .f32 0x3F000000#32),
    unary main_cst_70 main_v531 (broadcastInDim S1024x512 ![] bcast_S_S1024x512 : (⟨S_, .f32⟩ : BufTy).Contents (Elt F) → (⟨S1024x512, .f32⟩ : BufTy).Contents (Elt F)),
    binary main_v531 main_v524 main_v532 (mulf : (⟨S1024x512, .f32⟩ : BufTy).Contents (Elt F) → (⟨S1024x512, .f32⟩ : BufTy).Contents (Elt F) → (⟨S1024x512, .f32⟩ : BufTy).Contents (Elt F)),
    binary main_v504 main_v532 main_v533 (subf : (⟨S1024x512, .f32⟩ : BufTy).Contents (Elt F) → (⟨S1024x512, .f32⟩ : BufTy).Contents (Elt F) → (⟨S1024x512, .f32⟩ : BufTy).Contents (Elt F)) ]
abbrev wU17_W : List (Ref sig .tc) := [main_v505, main_v506, main_v507, main_v508, main_v509, main_v510, main_v511, main_v512, main_v513, main_v514, main_v515, main_v516, main_v517, main_v518, main_v519, main_v520, main_v521, main_cst_67, main_v522, main_v523, main_v524, main_cst_68, main_v525, main_v526, main_v527, main_cst_69, main_v528, main_v529, main_v530, main_cst_70, main_v531, main_v532, main_v533]
theorem wU17_writes : (wU17 : List (HloOp τ sig (Elt F))).Forall fun op => op.writes ⊆ (wU17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU17_keep (V : Valuation τ sig (Elt F)) (r : Ref sig .tc) (h : r ∉ wU17_W) :
    after wU17 V (Proc.devRef .tc r) = V (Proc.devRef .tc r) := after_of_writes_sub wU17 _ wU17_writes h

/-- 33 operations. -/
abbrev wU18 : List (HloOp τ sig (Elt F)) :=
  [ binary main_arg0 main_arg2 main_v534 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v527 main_v534 main_v535 (subf : (⟨S1024x1024, .f32⟩ : BufTy).Contents (Elt F) → (⟨S1024x1024, .f32⟩ : BufTy).Contents (Elt F) → (⟨S1024x1024, .f32⟩ : BufTy).Contents (Elt F)),
    binary main_v527 main_arg3 main_v536 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v530 main_v536 main_v537 (subf : (⟨S1024x1024, .f32⟩ : BufTy).Contents (Elt F) → (⟨S1024x1024, .f32⟩ : BufTy).Contents (Elt F) → (⟨S1024x1024, .f32⟩ : BufTy).Contents (Elt F)),
    unary main_arg3 main_v538 ((transpose S1024x1024 [1, 0] · transposes_S1024x1024_S1024x1024_1_0) : (⟨S1024x1024, .f32⟩ : BufTy).Contents (Elt F) → (⟨S1024x1024, .f32⟩ : BufTy).Contents (Elt F)),
    binary main_v537 main_v538 main_v539 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v535 main_v539 main_v540 (subf : (⟨S1024x1024, .f32⟩ : BufTy).Contents (Elt F) → (⟨S1024x1024, .f32⟩ : BufTy).Contents (Elt F) → (⟨S1024x1024, .f32⟩ : BufTy).Contents (Elt F)),
    binary main_v527 main_arg3 main_v541 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v530 main_v541 main_v542 (subf : (⟨S1024x1024, .f32⟩ : BufTy).Contents (Elt F) → (⟨S1024x1024, .f32⟩ : BufTy).Contents (Elt F) → (⟨S1024x1024, .f32⟩ : BufTy).Contents (Elt F)),
    binary main_v530 main_arg4 main_v543 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v533 main_v543 main_v544 (subf : (⟨S1024x512, .f32⟩ : BufTy).Contents (Elt F) → (⟨S1024x512, .f32⟩ : BufTy).Contents (Elt F) → (⟨S1024x512, .f32⟩ : BufTy).Contents (Elt F)),
    unary main_arg4 main_v545 ((transpose S512x1024 [1, 0] · transposes_S1024x512_S512x1024_1_0) : (⟨S1024x512, .f32⟩ : BufTy).Contents (Elt F) → (⟨S512x1024, .f32⟩ : BufTy).Contents (Elt F)),
    binary main_v544 main_v545 main_v546 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v542 main_v546 main_v547 (subf : (⟨S1024x1024, .f32⟩ : BufTy).Contents (Elt F) → (⟨S1024x1024, .f32⟩ : BufTy).Contents (Elt F) → (⟨S1024x1024, .f32⟩ : BufTy).Contents (Elt F)),
    binary main_v530 main_arg4 main_v548 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v533 main_v548 main_v549 (subf : (⟨S1024x512, .f32⟩ : BufTy).Contents (Elt F) → (⟨S1024x512, .f32⟩ : BufTy).Contents (Elt F) → (⟨S1024x512, .f32⟩ : BufTy).Contents (Elt F)),
    binary main_v533 main_arg1 main_v550 (subf : (⟨S1024x512, .f32⟩ : BufTy).Contents (Elt F) → (⟨S1024x512, .f32⟩ : BufTy).Contents (Elt F) → (⟨S1024x512, .f32⟩ : BufTy).Contents (Elt F)),
    nullary main_cst_71 (constant S_ .f32 0x3A83126F#32),
    unary main_cst_71 main_v551 (broadcastInDim S1024x512 ![] bcast_S_S1024x512 : (⟨S_, .f32⟩ : BufTy).Contents (Elt F) → (⟨S1024x512, .f32⟩ : BufTy).Contents (Elt F)),
    binary main_v551 main_v550 main_v552 (mulf : (⟨S1024x512, .f32⟩ : BufTy).Contents (Elt F) → (⟨S1024x512, .f32⟩ : BufTy).Contents (Elt F) → (⟨S1024x512, .f32⟩ : BufTy).Contents (Elt F)),
    binary main_v549 main_v552 main_v553 (addf : (⟨S1024x512, .f32⟩ : BufTy).Contents (Elt F) → (⟨S1024x512, .f32⟩ : BufTy).Contents (Elt F) → (⟨S1024x512, .f32⟩ : BufTy).Contents (Elt F)),
    nullary main_cst_72 (constant S_ .f32 0x3F000000#32),
    unary main_cst_72 main_v554 (broadcastInDim S1024x1024 ![] bcast_S_S1024x1024 : (⟨S_, .f32⟩ : BufTy).Contents (Elt F) → (⟨S1024x1024, .f32⟩ : BufTy).Contents (Elt F)),
    binary main_v554 main_v540 main_v555 (mulf : (⟨S1024x1024, .f32⟩ : BufTy).Contents (Elt F) → (⟨S1024x1024, .f32⟩ : BufTy).Contents (Elt F) → (⟨S1024x1024, .f32⟩ : BufTy).Contents (Elt F)),
    binary main_v527 main_v555 main_v556 (subf : (⟨S1024x1024, .f32⟩ : BufTy).Contents (Elt F) → (⟨S1024x1024, .f32⟩ : BufTy).Contents (Elt F) → (⟨S1024x1024, .f32⟩ : BufTy).Contents (Elt F)),
    nullary main_cst_73 (constant S_ .f32 0x3F000000#32),
    unary main_cst_73 main_v557 (broadcastInDim S1024x1024 ![] bcast_S_S1024x1024 : (⟨S_, .f32⟩ : BufTy).Contents (Elt F) → (⟨S1024x1024, .f32⟩ : BufTy).Contents (Elt F)),
    binary main_v557 main_v547 main_v558 (mulf : (⟨S1024x1024, .f32⟩ : BufTy).Contents (Elt F) → (⟨S1024x1024, .f32⟩ : BufTy).Contents (Elt F) → (⟨S1024x1024, .f32⟩ : BufTy).Contents (Elt F)),
    binary main_v530 main_v558 main_v559 (subf : (⟨S1024x1024, .f32⟩ : BufTy).Contents (Elt F) → (⟨S1024x1024, .f32⟩ : BufTy).Contents (Elt F) → (⟨S1024x1024, .f32⟩ : BufTy).Contents (Elt F)),
    nullary main_cst_74 (constant S_ .f32 0x3F000000#32),
    unary main_cst_74 main_v560 (broadcastInDim S1024x512 ![] bcast_S_S1024x512 : (⟨S_, .f32⟩ : BufTy).Contents (Elt F) → (⟨S1024x512, .f32⟩ : BufTy).Contents (Elt F)),
    binary main_v560 main_v553 main_v561 (mulf : (⟨S1024x512, .f32⟩ : BufTy).Contents (Elt F) → (⟨S1024x512, .f32⟩ : BufTy).Contents (Elt F) → (⟨S1024x512, .f32⟩ : BufTy).Contents (Elt F)),
    binary main_v533 main_v561 main_v562 (subf : (⟨S1024x512, .f32⟩ : BufTy).Contents (Elt F) → (⟨S1024x512, .f32⟩ : BufTy).Contents (Elt F) → (⟨S1024x512, .f32⟩ : BufTy).Contents (Elt F)) ]
abbrev wU18_W : List (Ref sig .tc) := [main_v534, main_v535, main_v536, main_v537, main_v538, main_v539, main_v540, main_v541, main_v542, main_v543, main_v544, main_v545, main_v546, main_v547, main_v548, main_v549, main_v550, main_cst_71, main_v551, main_v552, main_v553, main_cst_72, main_v554, main_v555, main_v556, main_cst_73, main_v557, main_v558, main_v559, main_cst_74, main_v560, main_v561, main_v562]
theorem wU18_writes : (wU18 : List (HloOp τ sig (Elt F))).Forall fun op => op.writes ⊆ (wU18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU18_keep (V : Valuation τ sig (Elt F)) (r : Ref sig .tc) (h : r ∉ wU18_W) :
    after wU18 V (Proc.devRef .tc r) = V (Proc.devRef .tc r) := after_of_writes_sub wU18 _ wU18_writes h

/-- 33 operations. -/
abbrev wU19 : List (HloOp τ sig (Elt F)) :=
  [ binary main_arg0 main_arg2 main_v563 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v556 main_v563 main_v564 (subf : (⟨S1024x1024, .f32⟩ : BufTy).Contents (Elt F) → (⟨S1024x1024, .f32⟩ : BufTy).Contents (Elt F) → (⟨S1024x1024, .f32⟩ : BufTy).Contents (Elt F)),
    binary main_v556 main_arg3 main_v565 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v559 main_v565 main_v566 (subf : (⟨S1024x1024, .f32⟩ : BufTy).Contents (Elt F) → (⟨S1024x1024, .f32⟩ : BufTy).Contents (Elt F) → (⟨S1024x1024, .f32⟩ : BufTy).Contents (Elt F)),
    unary main_arg3 main_v567 ((transpose S1024x1024 [1, 0] · transposes_S1024x1024_S1024x1024_1_0) : (⟨S1024x1024, .f32⟩ : BufTy).Contents (Elt F) → (⟨S1024x1024, .f32⟩ : BufTy).Contents (Elt F)),
    binary main_v566 main_v567 main_v568 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v564 main_v568 main_v569 (subf : (⟨S1024x1024, .f32⟩ : BufTy).Contents (Elt F) → (⟨S1024x1024, .f32⟩ : BufTy).Contents (Elt F) → (⟨S1024x1024, .f32⟩ : BufTy).Contents (Elt F)),
    binary main_v556 main_arg3 main_v570 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v559 main_v570 main_v571 (subf : (⟨S1024x1024, .f32⟩ : BufTy).Contents (Elt F) → (⟨S1024x1024, .f32⟩ : BufTy).Contents (Elt F) → (⟨S1024x1024, .f32⟩ : BufTy).Contents (Elt F)),
    binary main_v559 main_arg4 main_v572 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v562 main_v572 main_v573 (subf : (⟨S1024x512, .f32⟩ : BufTy).Contents (Elt F) → (⟨S1024x512, .f32⟩ : BufTy).Contents (Elt F) → (⟨S1024x512, .f32⟩ : BufTy).Contents (Elt F)),
    unary main_arg4 main_v574 ((transpose S512x1024 [1, 0] · transposes_S1024x512_S512x1024_1_0) : (⟨S1024x512, .f32⟩ : BufTy).Contents (Elt F) → (⟨S512x1024, .f32⟩ : BufTy).Contents (Elt F)),
    binary main_v573 main_v574 main_v575 ((fun l r => Host.dotGeneral dot_S1024x512_S512x1024_S1024x1024_1_0_0_1_n_n none l r) : (⟨S1024x512, .f32⟩ : BufTy).Contents (Elt F) → (⟨S512x1024, .f32⟩ : BufTy).Contents (Elt F) → (⟨S1024x1024, .f32⟩ : BufTy).Contents (Elt F)),
    binary main_v571 main_v575 main_v576 (subf : (⟨S1024x1024, .f32⟩ : BufTy).Contents (Elt F) → (⟨S1024x1024, .f32⟩ : BufTy).Contents (Elt F) → (⟨S1024x1024, .f32⟩ : BufTy).Contents (Elt F)),
    binary main_v559 main_arg4 main_v577 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v562 main_v577 main_v578 (subf : (⟨S1024x512, .f32⟩ : BufTy).Contents (Elt F) → (⟨S1024x512, .f32⟩ : BufTy).Contents (Elt F) → (⟨S1024x512, .f32⟩ : BufTy).Contents (Elt F)),
    binary main_v562 main_arg1 main_v579 (subf : (⟨S1024x512, .f32⟩ : BufTy).Contents (Elt F) → (⟨S1024x512, .f32⟩ : BufTy).Contents (Elt F) → (⟨S1024x512, .f32⟩ : BufTy).Contents (Elt F)),
    nullary main_cst_75 (constant S_ .f32 0x3A83126F#32),
    unary main_cst_75 main_v580 (broadcastInDim S1024x512 ![] bcast_S_S1024x512 : (⟨S_, .f32⟩ : BufTy).Contents (Elt F) → (⟨S1024x512, .f32⟩ : BufTy).Contents (Elt F)),
    binary main_v580 main_v579 main_v581 (mulf : (⟨S1024x512, .f32⟩ : BufTy).Contents (Elt F) → (⟨S1024x512, .f32⟩ : BufTy).Contents (Elt F) → (⟨S1024x512, .f32⟩ : BufTy).Contents (Elt F)),
    binary main_v578 main_v581 main_v582 (addf : (⟨S1024x512, .f32⟩ : BufTy).Contents (Elt F) → (⟨S1024x512, .f32⟩ : BufTy).Contents (Elt F) → (⟨S1024x512, .f32⟩ : BufTy).Contents (Elt F)),
    nullary main_cst_76 (constant S_ .f32 0x3F000000#32),
    unary main_cst_76 main_v583 (broadcastInDim S1024x1024 ![] bcast_S_S1024x1024 : (⟨S_, .f32⟩ : BufTy).Contents (Elt F) → (⟨S1024x1024, .f32⟩ : BufTy).Contents (Elt F)),
    binary main_v583 main_v569 main_v584 (mulf : (⟨S1024x1024, .f32⟩ : BufTy).Contents (Elt F) → (⟨S1024x1024, .f32⟩ : BufTy).Contents (Elt F) → (⟨S1024x1024, .f32⟩ : BufTy).Contents (Elt F)),
    binary main_v556 main_v584 main_v585 (subf : (⟨S1024x1024, .f32⟩ : BufTy).Contents (Elt F) → (⟨S1024x1024, .f32⟩ : BufTy).Contents (Elt F) → (⟨S1024x1024, .f32⟩ : BufTy).Contents (Elt F)),
    nullary main_cst_77 (constant S_ .f32 0x3F000000#32),
    unary main_cst_77 main_v586 (broadcastInDim S1024x1024 ![] bcast_S_S1024x1024 : (⟨S_, .f32⟩ : BufTy).Contents (Elt F) → (⟨S1024x1024, .f32⟩ : BufTy).Contents (Elt F)),
    binary main_v586 main_v576 main_v587 (mulf : (⟨S1024x1024, .f32⟩ : BufTy).Contents (Elt F) → (⟨S1024x1024, .f32⟩ : BufTy).Contents (Elt F) → (⟨S1024x1024, .f32⟩ : BufTy).Contents (Elt F)),
    binary main_v559 main_v587 main_v588 (subf : (⟨S1024x1024, .f32⟩ : BufTy).Contents (Elt F) → (⟨S1024x1024, .f32⟩ : BufTy).Contents (Elt F) → (⟨S1024x1024, .f32⟩ : BufTy).Contents (Elt F)),
    nullary main_cst_78 (constant S_ .f32 0x3F000000#32),
    unary main_cst_78 main_v589 (broadcastInDim S1024x512 ![] bcast_S_S1024x512 : (⟨S_, .f32⟩ : BufTy).Contents (Elt F) → (⟨S1024x512, .f32⟩ : BufTy).Contents (Elt F)),
    binary main_v589 main_v582 main_v590 (mulf : (⟨S1024x512, .f32⟩ : BufTy).Contents (Elt F) → (⟨S1024x512, .f32⟩ : BufTy).Contents (Elt F) → (⟨S1024x512, .f32⟩ : BufTy).Contents (Elt F)),
    binary main_v562 main_v590 main_v591 (subf : (⟨S1024x512, .f32⟩ : BufTy).Contents (Elt F) → (⟨S1024x512, .f32⟩ : BufTy).Contents (Elt F) → (⟨S1024x512, .f32⟩ : BufTy).Contents (Elt F)) ]
abbrev wU19_W : List (Ref sig .tc) := [main_v563, main_v564, main_v565, main_v566, main_v567, main_v568, main_v569, main_v570, main_v571, main_v572, main_v573, main_v574, main_v575, main_v576, main_v577, main_v578, main_v579, main_cst_75, main_v580, main_v581, main_v582, main_cst_76, main_v583, main_v584, main_v585, main_cst_77, main_v586, main_v587, main_v588, main_cst_78, main_v589, main_v590, main_v591]
theorem wU19_writes : (wU19 : List (HloOp τ sig (Elt F))).Forall fun op => op.writes ⊆ (wU19_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wU19_keep (V : Valuation τ sig (Elt F)) (r : Ref sig .tc) (h : r ∉ wU19_W) :
    after wU19 V (Proc.devRef .tc r) = V (Proc.devRef .tc r) := after_of_writes_sub wU19 _ wU19_writes h

/-- 47 operations. -/
abbrev wFin : List (HloOp τ sig (Elt F)) :=
  [ unary main_arg0 main_v592 ((transpose S1024x1024 [1, 0] · transposes_S1024x1024_S1024x1024_1_0) : (⟨S1024x1024, .f32⟩ : BufTy).Contents (Elt F) → (⟨S1024x1024, .f32⟩ : BufTy).Contents (Elt F)),
    binary main_arg0 main_arg2 main_v593 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v593 main_v0 main_v594 (subf : (⟨S1024x1024, .f32⟩ : BufTy).Contents (Elt F) → (⟨S1024x1024, .f32⟩ : BufTy).Contents (Elt F) → (⟨S1024x1024, .f32⟩ : BufTy).Contents (Elt F)),
    binary main_v592 main_v594 main_v595 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v0 main_v596 ((transpose S1024x1024 [1, 0] · transposes_S1024x1024_S1024x1024_1_0) : (⟨S1024x1024, .f32⟩ : BufTy).Contents (Elt F) → (⟨S1024x1024, .f32⟩ : BufTy).Contents (Elt F)),
    binary main_v0 main_arg3 main_v597 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v597 main_v1 main_v598 (subf : (⟨S1024x1024, .f32⟩ : BufTy).Contents (Elt F) → (⟨S1024x1024, .f32⟩ : BufTy).Contents (Elt F) → (⟨S1024x1024, .f32⟩ : BufTy).Contents (Elt F)),
    binary main_v596 main_v598 main_v599 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v1 main_v600 ((transpose S1024x1024 [1, 0] · transposes_S1024x1024_S1024x1024_1_0) : (⟨S1024x1024, .f32⟩ : BufTy).Contents (Elt F) → (⟨S1024x1024, .f32⟩ : BufTy).Contents (Elt F)),
    binary main_v1 main_arg4 main_v601 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v601 main_v2 main_v602 (subf : (⟨S1024x512, .f32⟩ : BufTy).Contents (Elt F) → (⟨S1024x512, .f32⟩ : BufTy).Contents (Elt F) → (⟨S1024x512, .f32⟩ : BufTy).Contents (Elt F)),
    binary main_v600 main_v602 main_v603 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    unary main_arg0 main_v604 ((transpose S1024x1024 [1, 0] · transposes_S1024x1024_S1024x1024_1_0) : (⟨S1024x1024, .f32⟩ : BufTy).Contents (Elt F) → (⟨S1024x1024, .f32⟩ : BufTy).Contents (Elt F)),
    binary main_arg0 main_arg2 main_v605 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v605 main_v585 main_v606 (subf : (⟨S1024x1024, .f32⟩ : BufTy).Contents (Elt F) → (⟨S1024x1024, .f32⟩ : BufTy).Contents (Elt F) → (⟨S1024x1024, .f32⟩ : BufTy).Contents (Elt F)),
    binary main_v604 main_v606 main_v607 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v585 main_v608 ((transpose S1024x1024 [1, 0] · transposes_S1024x1024_S1024x1024_1_0) : (⟨S1024x1024, .f32⟩ : BufTy).Contents (Elt F) → (⟨S1024x1024, .f32⟩ : BufTy).Contents (Elt F)),
    binary main_v585 main_arg3 main_v609 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    binary main_v609 main_v588 main_v610 (subf : (⟨S1024x1024, .f32⟩ : BufTy).Contents (Elt F) → (⟨S1024x1024, .f32⟩ : BufTy).Contents (Elt F) → (⟨S1024x1024, .f32⟩ : BufTy).Contents (Elt F)),
    binary main_v608 main_v610 main_v611 ((fun l r => Host.dotGeneral dot_S1024x1024_S1024x1024_S1024x1024_1_0_0_1_n_n none l r) : (⟨S1024x1024, .f32⟩ : BufTy).Contents (Elt F) → (⟨S1024x1024, .f32⟩ : BufTy).Contents (Elt F) → (⟨S1024x1024, .f32⟩ : BufTy).Contents (Elt F)),
    unary main_v588 main_v612 ((transpose S1024x1024 [1, 0] · transposes_S1024x1024_S1024x1024_1_0) : (⟨S1024x1024, .f32⟩ : BufTy).Contents (Elt F) → (⟨S1024x1024, .f32⟩ : BufTy).Contents (Elt F)),
    binary main_v588 main_arg4 main_v613 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v613 main_v591 main_v614 (subf : (⟨S1024x512, .f32⟩ : BufTy).Contents (Elt F) → (⟨S1024x512, .f32⟩ : BufTy).Contents (Elt F) → (⟨S1024x512, .f32⟩ : BufTy).Contents (Elt F)),
    binary main_v612 main_v614 main_v615 ((fun l r => Host.dotGeneral dot_S1024x1024_S1024x512_S1024x512_1_0_0_1_n_n none l r) : (⟨S1024x1024, .f32⟩ : BufTy).Contents (Elt F) → (⟨S1024x512, .f32⟩ : BufTy).Contents (Elt F) → (⟨S1024x512, .f32⟩ : BufTy).Contents (Elt F)),
    binary main_v607 main_v595 main_v616 (subf : (⟨S1024x1024, .f32⟩ : BufTy).Contents (Elt F) → (⟨S1024x1024, .f32⟩ : BufTy).Contents (Elt F) → (⟨S1024x1024, .f32⟩ : BufTy).Contents (Elt F)),
    nullary main_cst_79 (constant S_ .f32 0x3A83126F#32),
    unary main_cst_79 main_v617 (broadcastInDim S1024x1024 ![] bcast_S_S1024x1024 : (⟨S_, .f32⟩ : BufTy).Contents (Elt F) → (⟨S1024x1024, .f32⟩ : BufTy).Contents (Elt F)),
    binary main_v616 main_v617 main_v618 (Host.divf : (⟨S1024x1024, .f32⟩ : BufTy).Contents (Elt F) → (⟨S1024x1024, .f32⟩ : BufTy).Contents (Elt F) → (⟨S1024x1024, .f32⟩ : BufTy).Contents (Elt F)),
    binary main_v611 main_v599 main_v619 (subf : (⟨S1024x1024, .f32⟩ : BufTy).Contents (Elt F) → (⟨S1024x1024, .f32⟩ : BufTy).Contents (Elt F) → (⟨S1024x1024, .f32⟩ : BufTy).Contents (Elt F)),
    nullary main_cst_80 (constant S_ .f32 0x3A83126F#32),
    unary main_cst_80 main_v620 (broadcastInDim S1024x1024 ![] bcast_S_S1024x1024 : (⟨S_, .f32⟩ : BufTy).Contents (Elt F) → (⟨S1024x1024, .f32⟩ : BufTy).Contents (Elt F)),
    binary main_v619 main_v620 main_v621 (Host.divf : (⟨S1024x1024, .f32⟩ : BufTy).Contents (Elt F) → (⟨S1024x1024, .f32⟩ : BufTy).Contents (Elt F) → (⟨S1024x1024, .f32⟩ : BufTy).Contents (Elt F)),
    binary main_v615 main_v603 main_v622 (subf : (⟨S1024x512, .f32⟩ : BufTy).Contents (Elt F) → (⟨S1024x512, .f32⟩ : BufTy).Contents (Elt F) → (⟨S1024x512, .f32⟩ : BufTy).Contents (Elt F)),
    nullary main_cst_81 (constant S_ .f32 0x3A83126F#32),
    unary main_cst_81 main_v623 (broadcastInDim S1024x512 ![] bcast_S_S1024x512 : (⟨S_, .f32⟩ : BufTy).Contents (Elt F) → (⟨S1024x512, .f32⟩ : BufTy).Contents (Elt F)),
    binary main_v622 main_v623 main_v624 (Host.divf : (⟨S1024x512, .f32⟩ : BufTy).Contents (Elt F) → (⟨S1024x512, .f32⟩ : BufTy).Contents (Elt F) → (⟨S1024x512, .f32⟩ : BufTy).Contents (Elt F)),
    binary main_v2 main_arg1 main_v625 (subf : (⟨S1024x512, .f32⟩ : BufTy).Contents (Elt F) → (⟨S1024x512, .f32⟩ : BufTy).Contents (Elt F) → (⟨S1024x512, .f32⟩ : BufTy).Contents (Elt F)),
    binary main_v625 main_v625 main_v626 (mulf : (⟨S1024x512, .f32⟩ : BufTy).Contents (Elt F) → (⟨S1024x512, .f32⟩ : BufTy).Contents (Elt F) → (⟨S1024x512, .f32⟩ : BufTy).Contents (Elt F)),
    nullary main_cst_82 (constant S_ .f32 0x00000000#32),
    binary main_v626 main_cst_82 main_v627 ((fun x v => Host.reduceAdd x v reducesTo_S1024x512_S_d0_1 h_S_) : (⟨S1024x512, .f32⟩ : BufTy).Contents (Elt F) → (⟨S_, .f32⟩ : BufTy).Contents (Elt F) → (⟨S_, .f32⟩ : BufTy).Contents (Elt F)),
    nullary main_cst_83 (constant S_ .f32 0x49000000#32),
    binary main_v627 main_cst_83 main_v628 (Host.divf : (⟨S_, .f32⟩ : BufTy).Contents (Elt F) → (⟨S_, .f32⟩ : BufTy).Contents (Elt F) → (⟨S_, .f32⟩ : BufTy).Contents (Elt F)),
    reshape main_v618 main_v629 rfl shapeCasts_S1024x1024_S1048576,
    reshape main_v621 main_v630 rfl shapeCasts_S1024x1024_S1048576,
    reshape main_v624 main_v631 rfl shapeCasts_S1024x512_S524288,
    unary main_v628 main_v632 (broadcastInDim S1 ![] bcast_S_S1 : (⟨S_, .f32⟩ : BufTy).Contents (Elt F) → (⟨S1, .f32⟩ : BufTy).Contents (Elt F)),
    nary ![main_v629, main_v630, main_v631, main_v632] main_v633 (fun u => fn_main_v633 (F := F) (u 0) (u 1) (u 2) (u 3)) ]
abbrev wFin_W : List (Ref sig .tc) := [main_v592, main_v593, main_v594, main_v595, main_v596, main_v597, main_v598, main_v599, main_v600, main_v601, main_v602, main_v603, main_v604, main_v605, main_v606, main_v607, main_v608, main_v609, main_v610, main_v611, main_v612, main_v613, main_v614, main_v615, main_v616, main_cst_79, main_v617, main_v618, main_v619, main_cst_80, main_v620, main_v621, main_v622, main_cst_81, main_v623, main_v624, main_v625, main_v626, main_cst_82, main_v627, main_cst_83, main_v628, main_v629, main_v630, main_v631, main_v632, main_v633]
theorem wFin_writes : (wFin : List (HloOp τ sig (Elt F))).Forall fun op => op.writes ⊆ (wFin_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
theorem wFin_keep (V : Valuation τ sig (Elt F)) (r : Ref sig .tc) (h : r ∉ wFin_W) :
    after wFin V (Proc.devRef .tc r) = V (Proc.devRef .tc r) := after_of_writes_sub wFin _ wFin_writes h

/-- The windows, appended in order, are the program's operations. -/
theorem ops_split : (ops : List (HloOp τ sig (Elt F))) = wFwd ++ (wC ++ (wU1 ++ (wU2 ++ (wU3 ++ (wU4 ++ (wU5 ++ (wU6 ++ (wU7 ++ (wU8 ++ (wU9 ++ (wU10 ++ (wU11 ++ (wU12 ++ (wU13 ++ (wU14 ++ (wU15 ++ (wU16 ++ (wU17 ++ (wU18 ++ (wU19 ++ (wFin))))))))))))))))))))) := rfl

end Cert.ReferenceIdeal.ValueP

end
-- ==== Proof.RefFwd.lean ====
/-
  The reference's two forward chains (host operations 1 … 6), from ANY contents `V` of the buffers: the chain the weight
  gradients and the loss read (`main_v0 … main_v2`) and the chain the relaxation starts from (`main_v3 … main_v5`) are the same products.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem fwd_v0 : after wFwd V (Proc.devRef .tc main_v0) = fwd1 (V (Proc.devRef .tc main_arg0)) (V (Proc.devRef .tc main_arg2)) := by
  after_results_simp
  rfl
theorem fwd_v1 : after wFwd V (Proc.devRef .tc main_v1) = fwd2 (fwd1 (V (Proc.devRef .tc main_arg0)) (V (Proc.devRef .tc main_arg2))) (V (Proc.devRef .tc main_arg3)) := by
  after_results_simp
  rfl
theorem fwd_v2 : after wFwd V (Proc.devRef .tc main_v2)
    = fwd3 (fwd2 (fwd1 (V (Proc.devRef .tc main_arg0)) (V (Proc.devRef .tc main_arg2))) (V (Proc.devRef .tc main_arg3))) (V (Proc.devRef .tc main_arg4)) := by
  after_results_simp
  rfl
theorem fwd_v3 : after wFwd V (Proc.devRef .tc main_v3) = fwd1 (V (Proc.devRef .tc main_arg0)) (V (Proc.devRef .tc main_arg2)) := by
  after_results_simp
  rfl
theorem fwd_v4 : after wFwd V (Proc.devRef .tc main_v4) = fwd2 (fwd1 (V (Proc.devRef .tc main_arg0)) (V (Proc.devRef .tc main_arg2))) (V (Proc.devRef .tc main_arg3)) := by
  after_results_simp
  rfl
theorem fwd_v5 : after wFwd V (Proc.devRef .tc main_v5)
    = fwd3 (fwd2 (fwd1 (V (Proc.devRef .tc main_arg0)) (V (Proc.devRef .tc main_arg2))) (V (Proc.devRef .tc main_arg3))) (V (Proc.devRef .tc main_arg4)) := by
  after_results_simp
  rfl

end Cert.RefSide

end
-- ==== Proof.RefStepC.lean ====
/-
  The reference's first relaxation step (host operations 7 … 45), from ANY contents `V` of the buffers: the three states it
  leaves are the chained-gradient step of the forward chain it finds (the relaxation's own copy, `main_v3 … main_v5`) and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepC_3 : after wC V (Proc.devRef .tc main_v40)
    = c3 (V (Proc.devRef .tc main_v5)) (g3 (V (Proc.devRef .tc main_v4)) (V (Proc.devRef .tc main_v5)) (V (Proc.devRef .tc main_arg1)) (V (Proc.devRef .tc main_arg4))) := by
  -- definitional: the fold over the window's operations computes — an operation leaves every buffer but its own result as it
  -- finds it, and writes its function of its operands there — and what is read back is this term, operation for operation
  rfl
theorem stepC_2 : after wC V (Proc.devRef .tc main_v37)
    = c2 (V (Proc.devRef .tc main_v4)) (g2c (V (Proc.devRef .tc main_v3)) (V (Proc.devRef .tc main_v4)) (V (Proc.devRef .tc main_v5)) (V (Proc.devRef .tc main_arg3)) (V (Proc.devRef .tc main_arg4))
        (g3 (V (Proc.devRef .tc main_v4)) (V (Proc.devRef .tc main_v5)) (V (Proc.devRef .tc main_arg1)) (V (Proc.devRef .tc main_arg4)))) := by
  rfl
theorem stepC_1 : after wC V (Proc.devRef .tc main_v34)
    = c1 (V (Proc.devRef .tc main_arg0)) (V (Proc.devRef .tc main_v3)) (V (Proc.devRef .tc main_v4)) (V (Proc.devRef .tc main_arg2)) (V (Proc.devRef .tc main_arg3))
        (g2c (V (Proc.devRef .tc main_v3)) (V (Proc.devRef .tc main_v4)) (V (Proc.devRef .tc main_v5)) (V (Proc.devRef .tc main_arg3)) (V (Proc.devRef .tc main_arg4))
          (g3 (V (Proc.devRef .tc main_v4)) (V (Proc.devRef .tc main_v5)) (V (Proc.devRef .tc main_arg1)) (V (Proc.devRef .tc main_arg4)))) := by
  rfl

end Cert.RefSide

end
-- ==== Proof.RefStep1.lean ====
/-
  The reference's first later relaxation step (host operations 46 … 78), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU1_1 : after wU1 V (Proc.devRef .tc main_v63)
    = u1 (V (Proc.devRef .tc main_arg0)) (V (Proc.devRef .tc main_v34)) (V (Proc.devRef .tc main_v37)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU1_2 : after wU1 V (Proc.devRef .tc main_v66)
    = u2 (V (Proc.devRef .tc main_v34)) (V (Proc.devRef .tc main_v37)) (V (Proc.devRef .tc main_v40)) (V (Proc.devRef .tc main_arg3)) (V (Proc.devRef .tc main_arg4)) := by
  rfl
theorem stepU1_3 : after wU1 V (Proc.devRef .tc main_v69)
    = u3 (V (Proc.devRef .tc main_v37)) (V (Proc.devRef .tc main_v40)) (V (Proc.devRef .tc main_arg1)) (V (Proc.devRef .tc main_arg4)) := by
  rfl

end Cert.RefSide

end
-- ==== Proof.RefStep2.lean ====
/-
  The reference's later relaxation step number 2 (host operations 79 … 111), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU2_1 : after wU2 V (Proc.devRef .tc main_v92)
    = u1 (V (Proc.devRef .tc main_arg0)) (V (Proc.devRef .tc main_v63)) (V (Proc.devRef .tc main_v66)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU2_2 : after wU2 V (Proc.devRef .tc main_v95)
    = u2 (V (Proc.devRef .tc main_v63)) (V (Proc.devRef .tc main_v66)) (V (Proc.devRef .tc main_v69)) (V (Proc.devRef .tc main_arg3)) (V (Proc.devRef .tc main_arg4)) := by
  rfl
theorem stepU2_3 : after wU2 V (Proc.devRef .tc main_v98)
    = u3 (V (Proc.devRef .tc main_v66)) (V (Proc.devRef .tc main_v69)) (V (Proc.devRef .tc main_arg1)) (V (Proc.devRef .tc main_arg4)) := by
  rfl

end Cert.RefSide

end
-- ==== Proof.RefStep3.lean ====
/-
  The reference's later relaxation step number 3 (host operations 112 … 144), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU3_1 : after wU3 V (Proc.devRef .tc main_v121)
    = u1 (V (Proc.devRef .tc main_arg0)) (V (Proc.devRef .tc main_v92)) (V (Proc.devRef .tc main_v95)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU3_2 : after wU3 V (Proc.devRef .tc main_v124)
    = u2 (V (Proc.devRef .tc main_v92)) (V (Proc.devRef .tc main_v95)) (V (Proc.devRef .tc main_v98)) (V (Proc.devRef .tc main_arg3)) (V (Proc.devRef .tc main_arg4)) := by
  rfl
theorem stepU3_3 : after wU3 V (Proc.devRef .tc main_v127)
    = u3 (V (Proc.devRef .tc main_v95)) (V (Proc.devRef .tc main_v98)) (V (Proc.devRef .tc main_arg1)) (V (Proc.devRef .tc main_arg4)) := by
  rfl

end Cert.RefSide

end
-- ==== Proof.RefStep4.lean ====
/-
  The reference's later relaxation step number 4 (host operations 145 … 177), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU4_1 : after wU4 V (Proc.devRef .tc main_v150)
    = u1 (V (Proc.devRef .tc main_arg0)) (V (Proc.devRef .tc main_v121)) (V (Proc.devRef .tc main_v124)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU4_2 : after wU4 V (Proc.devRef .tc main_v153)
    = u2 (V (Proc.devRef .tc main_v121)) (V (Proc.devRef .tc main_v124)) (V (Proc.devRef .tc main_v127)) (V (Proc.devRef .tc main_arg3)) (V (Proc.devRef .tc main_arg4)) := by
  rfl
theorem stepU4_3 : after wU4 V (Proc.devRef .tc main_v156)
    = u3 (V (Proc.devRef .tc main_v124)) (V (Proc.devRef .tc main_v127)) (V (Proc.devRef .tc main_arg1)) (V (Proc.devRef .tc main_arg4)) := by
  rfl

end Cert.RefSide

end
-- ==== Proof.RefStep5.lean ====
/-
  The reference's later relaxation step number 5 (host operations 178 … 210), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU5_1 : after wU5 V (Proc.devRef .tc main_v179)
    = u1 (V (Proc.devRef .tc main_arg0)) (V (Proc.devRef .tc main_v150)) (V (Proc.devRef .tc main_v153)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU5_2 : after wU5 V (Proc.devRef .tc main_v182)
    = u2 (V (Proc.devRef .tc main_v150)) (V (Proc.devRef .tc main_v153)) (V (Proc.devRef .tc main_v156)) (V (Proc.devRef .tc main_arg3)) (V (Proc.devRef .tc main_arg4)) := by
  rfl
theorem stepU5_3 : after wU5 V (Proc.devRef .tc main_v185)
    = u3 (V (Proc.devRef .tc main_v153)) (V (Proc.devRef .tc main_v156)) (V (Proc.devRef .tc main_arg1)) (V (Proc.devRef .tc main_arg4)) := by
  rfl

end Cert.RefSide

end
-- ==== Proof.RefStep6.lean ====
/-
  The reference's later relaxation step number 6 (host operations 211 … 243), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU6_1 : after wU6 V (Proc.devRef .tc main_v208)
    = u1 (V (Proc.devRef .tc main_arg0)) (V (Proc.devRef .tc main_v179)) (V (Proc.devRef .tc main_v182)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU6_2 : after wU6 V (Proc.devRef .tc main_v211)
    = u2 (V (Proc.devRef .tc main_v179)) (V (Proc.devRef .tc main_v182)) (V (Proc.devRef .tc main_v185)) (V (Proc.devRef .tc main_arg3)) (V (Proc.devRef .tc main_arg4)) := by
  rfl
theorem stepU6_3 : after wU6 V (Proc.devRef .tc main_v214)
    = u3 (V (Proc.devRef .tc main_v182)) (V (Proc.devRef .tc main_v185)) (V (Proc.devRef .tc main_arg1)) (V (Proc.devRef .tc main_arg4)) := by
  rfl

end Cert.RefSide

end
-- ==== Proof.RefStep7.lean ====
/-
  The reference's later relaxation step number 7 (host operations 244 … 276), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU7_1 : after wU7 V (Proc.devRef .tc main_v237)
    = u1 (V (Proc.devRef .tc main_arg0)) (V (Proc.devRef .tc main_v208)) (V (Proc.devRef .tc main_v211)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU7_2 : after wU7 V (Proc.devRef .tc main_v240)
    = u2 (V (Proc.devRef .tc main_v208)) (V (Proc.devRef .tc main_v211)) (V (Proc.devRef .tc main_v214)) (V (Proc.devRef .tc main_arg3)) (V (Proc.devRef .tc main_arg4)) := by
  rfl
theorem stepU7_3 : after wU7 V (Proc.devRef .tc main_v243)
    = u3 (V (Proc.devRef .tc main_v211)) (V (Proc.devRef .tc main_v214)) (V (Proc.devRef .tc main_arg1)) (V (Proc.devRef .tc main_arg4)) := by
  rfl

end Cert.RefSide

end
-- ==== Proof.RefStep8.lean ====
/-
  The reference's later relaxation step number 8 (host operations 277 … 309), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU8_1 : after wU8 V (Proc.devRef .tc main_v266)
    = u1 (V (Proc.devRef .tc main_arg0)) (V (Proc.devRef .tc main_v237)) (V (Proc.devRef .tc main_v240)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU8_2 : after wU8 V (Proc.devRef .tc main_v269)
    = u2 (V (Proc.devRef .tc main_v237)) (V (Proc.devRef .tc main_v240)) (V (Proc.devRef .tc main_v243)) (V (Proc.devRef .tc main_arg3)) (V (Proc.devRef .tc main_arg4)) := by
  rfl
theorem stepU8_3 : after wU8 V (Proc.devRef .tc main_v272)
    = u3 (V (Proc.devRef .tc main_v240)) (V (Proc.devRef .tc main_v243)) (V (Proc.devRef .tc main_arg1)) (V (Proc.devRef .tc main_arg4)) := by
  rfl

end Cert.RefSide

end
-- ==== Proof.RefStep9.lean ====
/-
  The reference's later relaxation step number 9 (host operations 310 … 342), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU9_1 : after wU9 V (Proc.devRef .tc main_v295)
    = u1 (V (Proc.devRef .tc main_arg0)) (V (Proc.devRef .tc main_v266)) (V (Proc.devRef .tc main_v269)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU9_2 : after wU9 V (Proc.devRef .tc main_v298)
    = u2 (V (Proc.devRef .tc main_v266)) (V (Proc.devRef .tc main_v269)) (V (Proc.devRef .tc main_v272)) (V (Proc.devRef .tc main_arg3)) (V (Proc.devRef .tc main_arg4)) := by
  rfl
theorem stepU9_3 : after wU9 V (Proc.devRef .tc main_v301)
    = u3 (V (Proc.devRef .tc main_v269)) (V (Proc.devRef .tc main_v272)) (V (Proc.devRef .tc main_arg1)) (V (Proc.devRef .tc main_arg4)) := by
  rfl

end Cert.RefSide

end
-- ==== Proof.RefStep10.lean ====
/-
  The reference's later relaxation step number 10 (host operations 343 … 375), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU10_1 : after wU10 V (Proc.devRef .tc main_v324)
    = u1 (V (Proc.devRef .tc main_arg0)) (V (Proc.devRef .tc main_v295)) (V (Proc.devRef .tc main_v298)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU10_2 : after wU10 V (Proc.devRef .tc main_v327)
    = u2 (V (Proc.devRef .tc main_v295)) (V (Proc.devRef .tc main_v298)) (V (Proc.devRef .tc main_v301)) (V (Proc.devRef .tc main_arg3)) (V (Proc.devRef .tc main_arg4)) := by
  rfl
theorem stepU10_3 : after wU10 V (Proc.devRef .tc main_v330)
    = u3 (V (Proc.devRef .tc main_v298)) (V (Proc.devRef .tc main_v301)) (V (Proc.devRef .tc main_arg1)) (V (Proc.devRef .tc main_arg4)) := by
  rfl

end Cert.RefSide

end
-- ==== Proof.RefStep11.lean ====
/-
  The reference's later relaxation step number 11 (host operations 376 … 408), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU11_1 : after wU11 V (Proc.devRef .tc main_v353)
    = u1 (V (Proc.devRef .tc main_arg0)) (V (Proc.devRef .tc main_v324)) (V (Proc.devRef .tc main_v327)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU11_2 : after wU11 V (Proc.devRef .tc main_v356)
    = u2 (V (Proc.devRef .tc main_v324)) (V (Proc.devRef .tc main_v327)) (V (Proc.devRef .tc main_v330)) (V (Proc.devRef .tc main_arg3)) (V (Proc.devRef .tc main_arg4)) := by
  rfl
theorem stepU11_3 : after wU11 V (Proc.devRef .tc main_v359)
    = u3 (V (Proc.devRef .tc main_v327)) (V (Proc.devRef .tc main_v330)) (V (Proc.devRef .tc main_arg1)) (V (Proc.devRef .tc main_arg4)) := by
  rfl

end Cert.RefSide

end
-- ==== Proof.RefStep12.lean ====
/-
  The reference's later relaxation step number 12 (host operations 409 … 441), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU12_1 : after wU12 V (Proc.devRef .tc main_v382)
    = u1 (V (Proc.devRef .tc main_arg0)) (V (Proc.devRef .tc main_v353)) (V (Proc.devRef .tc main_v356)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU12_2 : after wU12 V (Proc.devRef .tc main_v385)
    = u2 (V (Proc.devRef .tc main_v353)) (V (Proc.devRef .tc main_v356)) (V (Proc.devRef .tc main_v359)) (V (Proc.devRef .tc main_arg3)) (V (Proc.devRef .tc main_arg4)) := by
  rfl
theorem stepU12_3 : after wU12 V (Proc.devRef .tc main_v388)
    = u3 (V (Proc.devRef .tc main_v356)) (V (Proc.devRef .tc main_v359)) (V (Proc.devRef .tc main_arg1)) (V (Proc.devRef .tc main_arg4)) := by
  rfl

end Cert.RefSide

end
-- ==== Proof.RefStep13.lean ====
/-
  The reference's later relaxation step number 13 (host operations 442 … 474), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU13_1 : after wU13 V (Proc.devRef .tc main_v411)
    = u1 (V (Proc.devRef .tc main_arg0)) (V (Proc.devRef .tc main_v382)) (V (Proc.devRef .tc main_v385)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU13_2 : after wU13 V (Proc.devRef .tc main_v414)
    = u2 (V (Proc.devRef .tc main_v382)) (V (Proc.devRef .tc main_v385)) (V (Proc.devRef .tc main_v388)) (V (Proc.devRef .tc main_arg3)) (V (Proc.devRef .tc main_arg4)) := by
  rfl
theorem stepU13_3 : after wU13 V (Proc.devRef .tc main_v417)
    = u3 (V (Proc.devRef .tc main_v385)) (V (Proc.devRef .tc main_v388)) (V (Proc.devRef .tc main_arg1)) (V (Proc.devRef .tc main_arg4)) := by
  rfl

end Cert.RefSide

end
-- ==== Proof.RefStep14.lean ====
/-
  The reference's later relaxation step number 14 (host operations 475 … 507), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU14_1 : after wU14 V (Proc.devRef .tc main_v440)
    = u1 (V (Proc.devRef .tc main_arg0)) (V (Proc.devRef .tc main_v411)) (V (Proc.devRef .tc main_v414)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU14_2 : after wU14 V (Proc.devRef .tc main_v443)
    = u2 (V (Proc.devRef .tc main_v411)) (V (Proc.devRef .tc main_v414)) (V (Proc.devRef .tc main_v417)) (V (Proc.devRef .tc main_arg3)) (V (Proc.devRef .tc main_arg4)) := by
  rfl
theorem stepU14_3 : after wU14 V (Proc.devRef .tc main_v446)
    = u3 (V (Proc.devRef .tc main_v414)) (V (Proc.devRef .tc main_v417)) (V (Proc.devRef .tc main_arg1)) (V (Proc.devRef .tc main_arg4)) := by
  rfl

end Cert.RefSide

end
-- ==== Proof.RefStep15.lean ====
/-
  The reference's later relaxation step number 15 (host operations 508 … 540), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU15_1 : after wU15 V (Proc.devRef .tc main_v469)
    = u1 (V (Proc.devRef .tc main_arg0)) (V (Proc.devRef .tc main_v440)) (V (Proc.devRef .tc main_v443)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU15_2 : after wU15 V (Proc.devRef .tc main_v472)
    = u2 (V (Proc.devRef .tc main_v440)) (V (Proc.devRef .tc main_v443)) (V (Proc.devRef .tc main_v446)) (V (Proc.devRef .tc main_arg3)) (V (Proc.devRef .tc main_arg4)) := by
  rfl
theorem stepU15_3 : after wU15 V (Proc.devRef .tc main_v475)
    = u3 (V (Proc.devRef .tc main_v443)) (V (Proc.devRef .tc main_v446)) (V (Proc.devRef .tc main_arg1)) (V (Proc.devRef .tc main_arg4)) := by
  rfl

end Cert.RefSide

end
-- ==== Proof.RefStep16.lean ====
/-
  The reference's later relaxation step number 16 (host operations 541 … 573), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU16_1 : after wU16 V (Proc.devRef .tc main_v498)
    = u1 (V (Proc.devRef .tc main_arg0)) (V (Proc.devRef .tc main_v469)) (V (Proc.devRef .tc main_v472)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU16_2 : after wU16 V (Proc.devRef .tc main_v501)
    = u2 (V (Proc.devRef .tc main_v469)) (V (Proc.devRef .tc main_v472)) (V (Proc.devRef .tc main_v475)) (V (Proc.devRef .tc main_arg3)) (V (Proc.devRef .tc main_arg4)) := by
  rfl
theorem stepU16_3 : after wU16 V (Proc.devRef .tc main_v504)
    = u3 (V (Proc.devRef .tc main_v472)) (V (Proc.devRef .tc main_v475)) (V (Proc.devRef .tc main_arg1)) (V (Proc.devRef .tc main_arg4)) := by
  rfl

end Cert.RefSide

end
-- ==== Proof.RefStep17.lean ====
/-
  The reference's later relaxation step number 17 (host operations 574 … 606), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU17_1 : after wU17 V (Proc.devRef .tc main_v527)
    = u1 (V (Proc.devRef .tc main_arg0)) (V (Proc.devRef .tc main_v498)) (V (Proc.devRef .tc main_v501)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU17_2 : after wU17 V (Proc.devRef .tc main_v530)
    = u2 (V (Proc.devRef .tc main_v498)) (V (Proc.devRef .tc main_v501)) (V (Proc.devRef .tc main_v504)) (V (Proc.devRef .tc main_arg3)) (V (Proc.devRef .tc main_arg4)) := by
  rfl
theorem stepU17_3 : after wU17 V (Proc.devRef .tc main_v533)
    = u3 (V (Proc.devRef .tc main_v501)) (V (Proc.devRef .tc main_v504)) (V (Proc.devRef .tc main_arg1)) (V (Proc.devRef .tc main_arg4)) := by
  rfl

end Cert.RefSide

end
-- ==== Proof.RefStep18.lean ====
/-
  The reference's later relaxation step number 18 (host operations 607 … 639), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU18_1 : after wU18 V (Proc.devRef .tc main_v556)
    = u1 (V (Proc.devRef .tc main_arg0)) (V (Proc.devRef .tc main_v527)) (V (Proc.devRef .tc main_v530)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU18_2 : after wU18 V (Proc.devRef .tc main_v559)
    = u2 (V (Proc.devRef .tc main_v527)) (V (Proc.devRef .tc main_v530)) (V (Proc.devRef .tc main_v533)) (V (Proc.devRef .tc main_arg3)) (V (Proc.devRef .tc main_arg4)) := by
  rfl
theorem stepU18_3 : after wU18 V (Proc.devRef .tc main_v562)
    = u3 (V (Proc.devRef .tc main_v530)) (V (Proc.devRef .tc main_v533)) (V (Proc.devRef .tc main_arg1)) (V (Proc.devRef .tc main_arg4)) := by
  rfl

end Cert.RefSide

end
-- ==== Proof.RefStep19.lean ====
/-
  The reference's later relaxation step number 19 (host operations 640 … 672), from ANY contents `V` of the buffers: the three
  states it leaves are the direct-gradient step of the three states it finds and the arguments.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem stepU19_1 : after wU19 V (Proc.devRef .tc main_v585)
    = u1 (V (Proc.devRef .tc main_arg0)) (V (Proc.devRef .tc main_v556)) (V (Proc.devRef .tc main_v559)) (V (Proc.devRef .tc main_arg2)) (V (Proc.devRef .tc main_arg3)) := by
  -- definitional: the fold over the window's operations computes — an operation leaves every buffer but its own result as it
  -- finds it, and writes its function of its operands there — and what is read back is this term, operation for operation
  rfl
theorem stepU19_2 : after wU19 V (Proc.devRef .tc main_v588)
    = u2 (V (Proc.devRef .tc main_v556)) (V (Proc.devRef .tc main_v559)) (V (Proc.devRef .tc main_v562)) (V (Proc.devRef .tc main_arg3)) (V (Proc.devRef .tc main_arg4)) := by
  rfl
theorem stepU19_3 : after wU19 V (Proc.devRef .tc main_v591)
    = u3 (V (Proc.devRef .tc main_v559)) (V (Proc.devRef .tc main_v562)) (V (Proc.devRef .tc main_arg1)) (V (Proc.devRef .tc main_arg4)) := by
  rfl

end Cert.RefSide

end
-- ==== Proof.RefFin.lean ====
/-
  The reference's closing stretch (host operations 673 … 719), from ANY contents `V` of the buffers: the weight gradients at
  the relaxed states (`main_v585`, `main_v588`, `main_v591`) less those at the free states (`main_v0 … main_v2`), over β, flattened, with
  the loss: `result` of the arguments and those two triples.
-/
import proofs.«107956_j75110388073098_1_alg».proof.Proof.RefWin
import proofs.«107956_j75110388073098_1_alg».proof.Proof.RefTerms
import Idealize.ShloMosaic.Lib.StableHlo.Run

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F] (V : Valuation τ sig (Elt F))

theorem fin_result : after wFin V (Proc.devRef .tc main_v633)
    = result (V (Proc.devRef .tc main_arg0)) (V (Proc.devRef .tc main_arg1)) (V (Proc.devRef .tc main_arg2)) (V (Proc.devRef .tc main_arg3)) (V (Proc.devRef .tc main_arg4))
        ⟨(V (Proc.devRef .tc main_v0)), (V (Proc.devRef .tc main_v1)), (V (Proc.devRef .tc main_v2))⟩ ⟨(V (Proc.devRef .tc main_v585)), (V (Proc.devRef .tc main_v588)), (V (Proc.devRef .tc main_v591))⟩ := by
  -- definitional: the fold over the window's operations computes, and what is read back at the result buffer is `result`'s own
  -- term of the same contents, operation for operation
  rfl

end Cert.RefSide

end
-- ==== Proof.RefChain.lean ====
/-
  The reference's run, read against the relaxation chain. Its host operations are cut where its arithmetic is cut — the two
  forward chains, the first relaxation step, the nineteen later steps, the closing stretch — and the buffers' contents are
  followed window by window: through each window the arguments and the free-phase states pass untouched (the window does not
  write them) and the three relaxing states advance by that step's function of the level before. The closing stretch then
  returns `result` of the arguments, the free states and the states after twenty steps.
-/
import proofs.«107956_j75110388073098_1_alg».proof.Proof.RefFwd
import proofs.«107956_j75110388073098_1_alg».proof.Proof.RefStepC
import proofs.«107956_j75110388073098_1_alg».proof.Proof.RefStep1
import proofs.«107956_j75110388073098_1_alg».proof.Proof.RefStep2
import proofs.«107956_j75110388073098_1_alg».proof.Proof.RefStep3
import proofs.«107956_j75110388073098_1_alg».proof.Proof.RefStep4
import proofs.«107956_j75110388073098_1_alg».proof.Proof.RefStep5
import proofs.«107956_j75110388073098_1_alg».proof.Proof.RefStep6
import proofs.«107956_j75110388073098_1_alg».proof.Proof.RefStep7
import proofs.«107956_j75110388073098_1_alg».proof.Proof.RefStep8
import proofs.«107956_j75110388073098_1_alg».proof.Proof.RefStep9
import proofs.«107956_j75110388073098_1_alg».proof.Proof.RefStep10
import proofs.«107956_j75110388073098_1_alg».proof.Proof.RefStep11
import proofs.«107956_j75110388073098_1_alg».proof.Proof.RefStep12
import proofs.«107956_j75110388073098_1_alg».proof.Proof.RefStep13
import proofs.«107956_j75110388073098_1_alg».proof.Proof.RefStep14
import proofs.«107956_j75110388073098_1_alg».proof.Proof.RefStep15
import proofs.«107956_j75110388073098_1_alg».proof.Proof.RefStep16
import proofs.«107956_j75110388073098_1_alg».proof.Proof.RefStep17
import proofs.«107956_j75110388073098_1_alg».proof.Proof.RefStep18
import proofs.«107956_j75110388073098_1_alg».proof.Proof.RefStep19
import proofs.«107956_j75110388073098_1_alg».proof.Proof.RefFin

set_option maxRecDepth 8192

noncomputable section

namespace Cert.RefSide

open Idealize.ShloMosaic Idealize.ShloMosaic.TcCoe Idealize.SL.Sem Idealize.ShloMosaic.StableHlo
open Cert.ReferenceIdeal Cert.ReferenceIdeal.Facts₀ Cert.ReferenceIdeal.ValueP

variable {F : FTy → Type} [FloatOps F]

section
variable (V0 : Valuation τ sig (Elt F))

/-- The reference's arguments in a valuation, and the chain over them. -/
abbrev vX : TA F := V0 (Proc.devRef .tc main_arg0)
abbrev vY : TB F := V0 (Proc.devRef .tc main_arg1)
abbrev vW0 : TA F := V0 (Proc.devRef .tc main_arg2)
abbrev vW1 : TA F := V0 (Proc.devRef .tc main_arg3)
abbrev vW2 : TB F := V0 (Proc.devRef .tc main_arg4)
abbrev chainV (k : ℕ) : St F := chain (vX V0) (vY V0) (vW0 V0) (vW1 V0) (vW2 V0) k

/-- The buffers' contents after the two forward chains. -/
def rvF : Valuation τ sig (Elt F) := after wFwd V0
theorem rvF_arg0 : rvF V0 (Proc.devRef .tc main_arg0) = V0 (Proc.devRef .tc main_arg0) := wFwd_keep V0 main_arg0 (by decide)
theorem rvF_arg1 : rvF V0 (Proc.devRef .tc main_arg1) = V0 (Proc.devRef .tc main_arg1) := wFwd_keep V0 main_arg1 (by decide)
theorem rvF_arg2 : rvF V0 (Proc.devRef .tc main_arg2) = V0 (Proc.devRef .tc main_arg2) := wFwd_keep V0 main_arg2 (by decide)
theorem rvF_arg3 : rvF V0 (Proc.devRef .tc main_arg3) = V0 (Proc.devRef .tc main_arg3) := wFwd_keep V0 main_arg3 (by decide)
theorem rvF_arg4 : rvF V0 (Proc.devRef .tc main_arg4) = V0 (Proc.devRef .tc main_arg4) := wFwd_keep V0 main_arg4 (by decide)
/-- The free-phase states, as the weight gradients and the loss read them … -/
theorem rvF_f1 : rvF V0 (Proc.devRef .tc main_v0) = (chainV V0 0).s1 := fwd_v0 V0
theorem rvF_f2 : rvF V0 (Proc.devRef .tc main_v1) = (chainV V0 0).s2 := fwd_v1 V0
theorem rvF_f3 : rvF V0 (Proc.devRef .tc main_v2) = (chainV V0 0).s3 := fwd_v2 V0
/-- … and as the relaxation starts from them. -/
theorem rvF_s1 : rvF V0 (Proc.devRef .tc main_v3) = (chainV V0 0).s1 := fwd_v3 V0
theorem rvF_s2 : rvF V0 (Proc.devRef .tc main_v4) = (chainV V0 0).s2 := fwd_v4 V0
theorem rvF_s3 : rvF V0 (Proc.devRef .tc main_v5) = (chainV V0 0).s3 := fwd_v5 V0

/-- The buffers' contents after the first step. -/
def rvC : Valuation τ sig (Elt F) := after wC (rvF V0)
theorem rvC_arg0 : rvC V0 (Proc.devRef .tc main_arg0) = V0 (Proc.devRef .tc main_arg0) :=
  (wC_keep (rvF V0) main_arg0 (by decide)).trans (rvF_arg0 V0)
theorem rvC_arg1 : rvC V0 (Proc.devRef .tc main_arg1) = V0 (Proc.devRef .tc main_arg1) :=
  (wC_keep (rvF V0) main_arg1 (by decide)).trans (rvF_arg1 V0)
theorem rvC_arg2 : rvC V0 (Proc.devRef .tc main_arg2) = V0 (Proc.devRef .tc main_arg2) :=
  (wC_keep (rvF V0) main_arg2 (by decide)).trans (rvF_arg2 V0)
theorem rvC_arg3 : rvC V0 (Proc.devRef .tc main_arg3) = V0 (Proc.devRef .tc main_arg3) :=
  (wC_keep (rvF V0) main_arg3 (by decide)).trans (rvF_arg3 V0)
theorem rvC_arg4 : rvC V0 (Proc.devRef .tc main_arg4) = V0 (Proc.devRef .tc main_arg4) :=
  (wC_keep (rvF V0) main_arg4 (by decide)).trans (rvF_arg4 V0)
theorem rvC_f1 : rvC V0 (Proc.devRef .tc main_v0) = (chainV V0 0).s1 :=
  (wC_keep (rvF V0) main_v0 (by decide)).trans (rvF_f1 V0)
theorem rvC_f2 : rvC V0 (Proc.devRef .tc main_v1) = (chainV V0 0).s2 :=
  (wC_keep (rvF V0) main_v1 (by decide)).trans (rvF_f2 V0)
theorem rvC_f3 : rvC V0 (Proc.devRef .tc main_v2) = (chainV V0 0).s3 :=
  (wC_keep (rvF V0) main_v2 (by decide)).trans (rvF_f3 V0)
theorem rvC_s1 : rvC V0 (Proc.devRef .tc main_v34) = (chainV V0 1).s1 := by
  unfold rvC; rw [stepC_1, rvF_arg0, rvF_arg1, rvF_arg2, rvF_arg3, rvF_arg4, rvF_s1, rvF_s2, rvF_s3]; rfl
theorem rvC_s2 : rvC V0 (Proc.devRef .tc main_v37) = (chainV V0 1).s2 := by
  unfold rvC; rw [stepC_2, rvF_arg1, rvF_arg3, rvF_arg4, rvF_s1, rvF_s2, rvF_s3]; rfl
theorem rvC_s3 : rvC V0 (Proc.devRef .tc main_v40) = (chainV V0 1).s3 := by
  unfold rvC; rw [stepC_3, rvF_arg1, rvF_arg4, rvF_s2, rvF_s3]; rfl

/-- The buffers' contents after step 2. -/
def rv1 : Valuation τ sig (Elt F) := after wU1 (rvC V0)
theorem rv1_arg0 : rv1 V0 (Proc.devRef .tc main_arg0) = V0 (Proc.devRef .tc main_arg0) :=
  (wU1_keep (rvC V0) main_arg0 (by decide)).trans (rvC_arg0 V0)
theorem rv1_arg1 : rv1 V0 (Proc.devRef .tc main_arg1) = V0 (Proc.devRef .tc main_arg1) :=
  (wU1_keep (rvC V0) main_arg1 (by decide)).trans (rvC_arg1 V0)
theorem rv1_arg2 : rv1 V0 (Proc.devRef .tc main_arg2) = V0 (Proc.devRef .tc main_arg2) :=
  (wU1_keep (rvC V0) main_arg2 (by decide)).trans (rvC_arg2 V0)
theorem rv1_arg3 : rv1 V0 (Proc.devRef .tc main_arg3) = V0 (Proc.devRef .tc main_arg3) :=
  (wU1_keep (rvC V0) main_arg3 (by decide)).trans (rvC_arg3 V0)
theorem rv1_arg4 : rv1 V0 (Proc.devRef .tc main_arg4) = V0 (Proc.devRef .tc main_arg4) :=
  (wU1_keep (rvC V0) main_arg4 (by decide)).trans (rvC_arg4 V0)
theorem rv1_f1 : rv1 V0 (Proc.devRef .tc main_v0) = (chainV V0 0).s1 :=
  (wU1_keep (rvC V0) main_v0 (by decide)).trans (rvC_f1 V0)
theorem rv1_f2 : rv1 V0 (Proc.devRef .tc main_v1) = (chainV V0 0).s2 :=
  (wU1_keep (rvC V0) main_v1 (by decide)).trans (rvC_f2 V0)
theorem rv1_f3 : rv1 V0 (Proc.devRef .tc main_v2) = (chainV V0 0).s3 :=
  (wU1_keep (rvC V0) main_v2 (by decide)).trans (rvC_f3 V0)
theorem rv1_s1 : rv1 V0 (Proc.devRef .tc main_v63) = (chainV V0 2).s1 := by
  unfold rv1; rw [stepU1_1, rvC_arg0, rvC_s1, rvC_s2, rvC_arg2, rvC_arg3]; rfl
theorem rv1_s2 : rv1 V0 (Proc.devRef .tc main_v66) = (chainV V0 2).s2 := by
  unfold rv1; rw [stepU1_2, rvC_s1, rvC_s2, rvC_s3, rvC_arg3, rvC_arg4]; rfl
theorem rv1_s3 : rv1 V0 (Proc.devRef .tc main_v69) = (chainV V0 2).s3 := by
  unfold rv1; rw [stepU1_3, rvC_s2, rvC_s3, rvC_arg1, rvC_arg4]; rfl
/-- The buffers' contents after step 3. -/
def rv2 : Valuation τ sig (Elt F) := after wU2 (rv1 V0)
theorem rv2_arg0 : rv2 V0 (Proc.devRef .tc main_arg0) = V0 (Proc.devRef .tc main_arg0) :=
  (wU2_keep (rv1 V0) main_arg0 (by decide)).trans (rv1_arg0 V0)
theorem rv2_arg1 : rv2 V0 (Proc.devRef .tc main_arg1) = V0 (Proc.devRef .tc main_arg1) :=
  (wU2_keep (rv1 V0) main_arg1 (by decide)).trans (rv1_arg1 V0)
theorem rv2_arg2 : rv2 V0 (Proc.devRef .tc main_arg2) = V0 (Proc.devRef .tc main_arg2) :=
  (wU2_keep (rv1 V0) main_arg2 (by decide)).trans (rv1_arg2 V0)
theorem rv2_arg3 : rv2 V0 (Proc.devRef .tc main_arg3) = V0 (Proc.devRef .tc main_arg3) :=
  (wU2_keep (rv1 V0) main_arg3 (by decide)).trans (rv1_arg3 V0)
theorem rv2_arg4 : rv2 V0 (Proc.devRef .tc main_arg4) = V0 (Proc.devRef .tc main_arg4) :=
  (wU2_keep (rv1 V0) main_arg4 (by decide)).trans (rv1_arg4 V0)
theorem rv2_f1 : rv2 V0 (Proc.devRef .tc main_v0) = (chainV V0 0).s1 :=
  (wU2_keep (rv1 V0) main_v0 (by decide)).trans (rv1_f1 V0)
theorem rv2_f2 : rv2 V0 (Proc.devRef .tc main_v1) = (chainV V0 0).s2 :=
  (wU2_keep (rv1 V0) main_v1 (by decide)).trans (rv1_f2 V0)
theorem rv2_f3 : rv2 V0 (Proc.devRef .tc main_v2) = (chainV V0 0).s3 :=
  (wU2_keep (rv1 V0) main_v2 (by decide)).trans (rv1_f3 V0)
theorem rv2_s1 : rv2 V0 (Proc.devRef .tc main_v92) = (chainV V0 3).s1 := by
  unfold rv2; rw [stepU2_1, rv1_arg0, rv1_s1, rv1_s2, rv1_arg2, rv1_arg3]; rfl
theorem rv2_s2 : rv2 V0 (Proc.devRef .tc main_v95) = (chainV V0 3).s2 := by
  unfold rv2; rw [stepU2_2, rv1_s1, rv1_s2, rv1_s3, rv1_arg3, rv1_arg4]; rfl
theorem rv2_s3 : rv2 V0 (Proc.devRef .tc main_v98) = (chainV V0 3).s3 := by
  unfold rv2; rw [stepU2_3, rv1_s2, rv1_s3, rv1_arg1, rv1_arg4]; rfl
/-- The buffers' contents after step 4. -/
def rv3 : Valuation τ sig (Elt F) := after wU3 (rv2 V0)
theorem rv3_arg0 : rv3 V0 (Proc.devRef .tc main_arg0) = V0 (Proc.devRef .tc main_arg0) :=
  (wU3_keep (rv2 V0) main_arg0 (by decide)).trans (rv2_arg0 V0)
theorem rv3_arg1 : rv3 V0 (Proc.devRef .tc main_arg1) = V0 (Proc.devRef .tc main_arg1) :=
  (wU3_keep (rv2 V0) main_arg1 (by decide)).trans (rv2_arg1 V0)
theorem rv3_arg2 : rv3 V0 (Proc.devRef .tc main_arg2) = V0 (Proc.devRef .tc main_arg2) :=
  (wU3_keep (rv2 V0) main_arg2 (by decide)).trans (rv2_arg2 V0)
theorem rv3_arg3 : rv3 V0 (Proc.devRef .tc main_arg3) = V0 (Proc.devRef .tc main_arg3) :=
  (wU3_keep (rv2 V0) main_arg3 (by decide)).trans (rv2_arg3 V0)
theorem rv3_arg4 : rv3 V0 (Proc.devRef .tc main_arg4) = V0 (Proc.devRef .tc main_arg4) :=
  (wU3_keep (rv2 V0) main_arg4 (by decide)).trans (rv2_arg4 V0)
theorem rv3_f1 : rv3 V0 (Proc.devRef .tc main_v0) = (chainV V0 0).s1 :=
  (wU3_keep (rv2 V0) main_v0 (by decide)).trans (rv2_f1 V0)
theorem rv3_f2 : rv3 V0 (Proc.devRef .tc main_v1) = (chainV V0 0).s2 :=
  (wU3_keep (rv2 V0) main_v1 (by decide)).trans (rv2_f2 V0)
theorem rv3_f3 : rv3 V0 (Proc.devRef .tc main_v2) = (chainV V0 0).s3 :=
  (wU3_keep (rv2 V0) main_v2 (by decide)).trans (rv2_f3 V0)
theorem rv3_s1 : rv3 V0 (Proc.devRef .tc main_v121) = (chainV V0 4).s1 := by
  unfold rv3; rw [stepU3_1, rv2_arg0, rv2_s1, rv2_s2, rv2_arg2, rv2_arg3]; rfl
theorem rv3_s2 : rv3 V0 (Proc.devRef .tc main_v124) = (chainV V0 4).s2 := by
  unfold rv3; rw [stepU3_2, rv2_s1, rv2_s2, rv2_s3, rv2_arg3, rv2_arg4]; rfl
theorem rv3_s3 : rv3 V0 (Proc.devRef .tc main_v127) = (chainV V0 4).s3 := by
  unfold rv3; rw [stepU3_3, rv2_s2, rv2_s3, rv2_arg1, rv2_arg4]; rfl
/-- The buffers' contents after step 5. -/
def rv4 : Valuation τ sig (Elt F) := after wU4 (rv3 V0)
theorem rv4_arg0 : rv4 V0 (Proc.devRef .tc main_arg0) = V0 (Proc.devRef .tc main_arg0) :=
  (wU4_keep (rv3 V0) main_arg0 (by decide)).trans (rv3_arg0 V0)
theorem rv4_arg1 : rv4 V0 (Proc.devRef .tc main_arg1) = V0 (Proc.devRef .tc main_arg1) :=
  (wU4_keep (rv3 V0) main_arg1 (by decide)).trans (rv3_arg1 V0)
theorem rv4_arg2 : rv4 V0 (Proc.devRef .tc main_arg2) = V0 (Proc.devRef .tc main_arg2) :=
  (wU4_keep (rv3 V0) main_arg2 (by decide)).trans (rv3_arg2 V0)
theorem rv4_arg3 : rv4 V0 (Proc.devRef .tc main_arg3) = V0 (Proc.devRef .tc main_arg3) :=
  (wU4_keep (rv3 V0) main_arg3 (by decide)).trans (rv3_arg3 V0)
theorem rv4_arg4 : rv4 V0 (Proc.devRef .tc main_arg4) = V0 (Proc.devRef .tc main_arg4) :=
  (wU4_keep (rv3 V0) main_arg4 (by decide)).trans (rv3_arg4 V0)
theorem rv4_f1 : rv4 V0 (Proc.devRef .tc main_v0) = (chainV V0 0).s1 :=
  (wU4_keep (rv3 V0) main_v0 (by decide)).trans (rv3_f1 V0)
theorem rv4_f2 : rv4 V0 (Proc.devRef .tc main_v1) = (chainV V0 0).s2 :=
  (wU4_keep (rv3 V0) main_v1 (by decide)).trans (rv3_f2 V0)
theorem rv4_f3 : rv4 V0 (Proc.devRef .tc main_v2) = (chainV V0 0).s3 :=
  (wU4_keep (rv3 V0) main_v2 (by decide)).trans (rv3_f3 V0)
theorem rv4_s1 : rv4 V0 (Proc.devRef .tc main_v150) = (chainV V0 5).s1 := by
  unfold rv4; rw [stepU4_1, rv3_arg0, rv3_s1, rv3_s2, rv3_arg2, rv3_arg3]; rfl
theorem rv4_s2 : rv4 V0 (Proc.devRef .tc main_v153) = (chainV V0 5).s2 := by
  unfold rv4; rw [stepU4_2, rv3_s1, rv3_s2, rv3_s3, rv3_arg3, rv3_arg4]; rfl
theorem rv4_s3 : rv4 V0 (Proc.devRef .tc main_v156) = (chainV V0 5).s3 := by
  unfold rv4; rw [stepU4_3, rv3_s2, rv3_s3, rv3_arg1, rv3_arg4]; rfl
/-- The buffers' contents after step 6. -/
def rv5 : Valuation τ sig (Elt F) := after wU5 (rv4 V0)
theorem rv5_arg0 : rv5 V0 (Proc.devRef .tc main_arg0) = V0 (Proc.devRef .tc main_arg0) :=
  (wU5_keep (rv4 V0) main_arg0 (by decide)).trans (rv4_arg0 V0)
theorem rv5_arg1 : rv5 V0 (Proc.devRef .tc main_arg1) = V0 (Proc.devRef .tc main_arg1) :=
  (wU5_keep (rv4 V0) main_arg1 (by decide)).trans (rv4_arg1 V0)
theorem rv5_arg2 : rv5 V0 (Proc.devRef .tc main_arg2) = V0 (Proc.devRef .tc main_arg2) :=
  (wU5_keep (rv4 V0) main_arg2 (by decide)).trans (rv4_arg2 V0)
theorem rv5_arg3 : rv5 V0 (Proc.devRef .tc main_arg3) = V0 (Proc.devRef .tc main_arg3) :=
  (wU5_keep (rv4 V0) main_arg3 (by decide)).trans (rv4_arg3 V0)
theorem rv5_arg4 : rv5 V0 (Proc.devRef .tc main_arg4) = V0 (Proc.devRef .tc main_arg4) :=
  (wU5_keep (rv4 V0) main_arg4 (by decide)).trans (rv4_arg4 V0)
theorem rv5_f1 : rv5 V0 (Proc.devRef .tc main_v0) = (chainV V0 0).s1 :=
  (wU5_keep (rv4 V0) main_v0 (by decide)).trans (rv4_f1 V0)
theorem rv5_f2 : rv5 V0 (Proc.devRef .tc main_v1) = (chainV V0 0).s2 :=
  (wU5_keep (rv4 V0) main_v1 (by decide)).trans (rv4_f2 V0)
theorem rv5_f3 : rv5 V0 (Proc.devRef .tc main_v2) = (chainV V0 0).s3 :=
  (wU5_keep (rv4 V0) main_v2 (by decide)).trans (rv4_f3 V0)
theorem rv5_s1 : rv5 V0 (Proc.devRef .tc main_v179) = (chainV V0 6).s1 := by
  unfold rv5; rw [stepU5_1, rv4_arg0, rv4_s1, rv4_s2, rv4_arg2, rv4_arg3]; rfl
theorem rv5_s2 : rv5 V0 (Proc.devRef .tc main_v182) = (chainV V0 6).s2 := by
  unfold rv5; rw [stepU5_2, rv4_s1, rv4_s2, rv4_s3, rv4_arg3, rv4_arg4]; rfl
theorem rv5_s3 : rv5 V0 (Proc.devRef .tc main_v185) = (chainV V0 6).s3 := by
  unfold rv5; rw [stepU5_3, rv4_s2, rv4_s3, rv4_arg1, rv4_arg4]; rfl
/-- The buffers' contents after step 7. -/
def rv6 : Valuation τ sig (Elt F) := after wU6 (rv5 V0)
theorem rv6_arg0 : rv6 V0 (Proc.devRef .tc main_arg0) = V0 (Proc.devRef .tc main_arg0) :=
  (wU6_keep (rv5 V0) main_arg0 (by decide)).trans (rv5_arg0 V0)
theorem rv6_arg1 : rv6 V0 (Proc.devRef .tc main_arg1) = V0 (Proc.devRef .tc main_arg1) :=
  (wU6_keep (rv5 V0) main_arg1 (by decide)).trans (rv5_arg1 V0)
theorem rv6_arg2 : rv6 V0 (Proc.devRef .tc main_arg2) = V0 (Proc.devRef .tc main_arg2) :=
  (wU6_keep (rv5 V0) main_arg2 (by decide)).trans (rv5_arg2 V0)
theorem rv6_arg3 : rv6 V0 (Proc.devRef .tc main_arg3) = V0 (Proc.devRef .tc main_arg3) :=
  (wU6_keep (rv5 V0) main_arg3 (by decide)).trans (rv5_arg3 V0)
theorem rv6_arg4 : rv6 V0 (Proc.devRef .tc main_arg4) = V0 (Proc.devRef .tc main_arg4) :=
  (wU6_keep (rv5 V0) main_arg4 (by decide)).trans (rv5_arg4 V0)
theorem rv6_f1 : rv6 V0 (Proc.devRef .tc main_v0) = (chainV V0 0).s1 :=
  (wU6_keep (rv5 V0) main_v0 (by decide)).trans (rv5_f1 V0)
theorem rv6_f2 : rv6 V0 (Proc.devRef .tc main_v1) = (chainV V0 0).s2 :=
  (wU6_keep (rv5 V0) main_v1 (by decide)).trans (rv5_f2 V0)
theorem rv6_f3 : rv6 V0 (Proc.devRef .tc main_v2) = (chainV V0 0).s3 :=
  (wU6_keep (rv5 V0) main_v2 (by decide)).trans (rv5_f3 V0)
theorem rv6_s1 : rv6 V0 (Proc.devRef .tc main_v208) = (chainV V0 7).s1 := by
  unfold rv6; rw [stepU6_1, rv5_arg0, rv5_s1, rv5_s2, rv5_arg2, rv5_arg3]; rfl
theorem rv6_s2 : rv6 V0 (Proc.devRef .tc main_v211) = (chainV V0 7).s2 := by
  unfold rv6; rw [stepU6_2, rv5_s1, rv5_s2, rv5_s3, rv5_arg3, rv5_arg4]; rfl
theorem rv6_s3 : rv6 V0 (Proc.devRef .tc main_v214) = (chainV V0 7).s3 := by
  unfold rv6; rw [stepU6_3, rv5_s2, rv5_s3, rv5_arg1, rv5_arg4]; rfl
/-- The buffers' contents after step 8. -/
def rv7 : Valuation τ sig (Elt F) := after wU7 (rv6 V0)
theorem rv7_arg0 : rv7 V0 (Proc.devRef .tc main_arg0) = V0 (Proc.devRef .tc main_arg0) :=
  (wU7_keep (rv6 V0) main_arg0 (by decide)).trans (rv6_arg0 V0)
theorem rv7_arg1 : rv7 V0 (Proc.devRef .tc main_arg1) = V0 (Proc.devRef .tc main_arg1) :=
  (wU7_keep (rv6 V0) main_arg1 (by decide)).trans (rv6_arg1 V0)
theorem rv7_arg2 : rv7 V0 (Proc.devRef .tc main_arg2) = V0 (Proc.devRef .tc main_arg2) :=
  (wU7_keep (rv6 V0) main_arg2 (by decide)).trans (rv6_arg2 V0)
theorem rv7_arg3 : rv7 V0 (Proc.devRef .tc main_arg3) = V0 (Proc.devRef .tc main_arg3) :=
  (wU7_keep (rv6 V0) main_arg3 (by decide)).trans (rv6_arg3 V0)
theorem rv7_arg4 : rv7 V0 (Proc.devRef .tc main_arg4) = V0 (Proc.devRef .tc main_arg4) :=
  (wU7_keep (rv6 V0) main_arg4 (by decide)).trans (rv6_arg4 V0)
theorem rv7_f1 : rv7 V0 (Proc.devRef .tc main_v0) = (chainV V0 0).s1 :=
  (wU7_keep (rv6 V0) main_v0 (by decide)).trans (rv6_f1 V0)
theorem rv7_f2 : rv7 V0 (Proc.devRef .tc main_v1) = (chainV V0 0).s2 :=
  (wU7_keep (rv6 V0) main_v1 (by decide)).trans (rv6_f2 V0)
theorem rv7_f3 : rv7 V0 (Proc.devRef .tc main_v2) = (chainV V0 0).s3 :=
  (wU7_keep (rv6 V0) main_v2 (by decide)).trans (rv6_f3 V0)
theorem rv7_s1 : rv7 V0 (Proc.devRef .tc main_v237) = (chainV V0 8).s1 := by
  unfold rv7; rw [stepU7_1, rv6_arg0, rv6_s1, rv6_s2, rv6_arg2, rv6_arg3]; rfl
theorem rv7_s2 : rv7 V0 (Proc.devRef .tc main_v240) = (chainV V0 8).s2 := by
  unfold rv7; rw [stepU7_2, rv6_s1, rv6_s2, rv6_s3, rv6_arg3, rv6_arg4]; rfl
theorem rv7_s3 : rv7 V0 (Proc.devRef .tc main_v243) = (chainV V0 8).s3 := by
  unfold rv7; rw [stepU7_3, rv6_s2, rv6_s3, rv6_arg1, rv6_arg4]; rfl
/-- The buffers' contents after step 9. -/
def rv8 : Valuation τ sig (Elt F) := after wU8 (rv7 V0)
theorem rv8_arg0 : rv8 V0 (Proc.devRef .tc main_arg0) = V0 (Proc.devRef .tc main_arg0) :=
  (wU8_keep (rv7 V0) main_arg0 (by decide)).trans (rv7_arg0 V0)
theorem rv8_arg1 : rv8 V0 (Proc.devRef .tc main_arg1) = V0 (Proc.devRef .tc main_arg1) :=
  (wU8_keep (rv7 V0) main_arg1 (by decide)).trans (rv7_arg1 V0)
theorem rv8_arg2 : rv8 V0 (Proc.devRef .tc main_arg2) = V0 (Proc.devRef .tc main_arg2) :=
  (wU8_keep (rv7 V0) main_arg2 (by decide)).trans (rv7_arg2 V0)
theorem rv8_arg3 : rv8 V0 (Proc.devRef .tc main_arg3) = V0 (Proc.devRef .tc main_arg3) :=
  (wU8_keep (rv7 V0) main_arg3 (by decide)).trans (rv7_arg3 V0)
theorem rv8_arg4 : rv8 V0 (Proc.devRef .tc main_arg4) = V0 (Proc.devRef .tc main_arg4) :=
  (wU8_keep (rv7 V0) main_arg4 (by decide)).trans (rv7_arg4 V0)
theorem rv8_f1 : rv8 V0 (Proc.devRef .tc main_v0) = (chainV V0 0).s1 :=
  (wU8_keep (rv7 V0) main_v0 (by decide)).trans (rv7_f1 V0)
theorem rv8_f2 : rv8 V0 (Proc.devRef .tc main_v1) = (chainV V0 0).s2 :=
  (wU8_keep (rv7 V0) main_v1 (by decide)).trans (rv7_f2 V0)
theorem rv8_f3 : rv8 V0 (Proc.devRef .tc main_v2) = (chainV V0 0).s3 :=
  (wU8_keep (rv7 V0) main_v2 (by decide)).trans (rv7_f3 V0)
theorem rv8_s1 : rv8 V0 (Proc.devRef .tc main_v266) = (chainV V0 9).s1 := by
  unfold rv8; rw [stepU8_1, rv7_arg0, rv7_s1, rv7_s2, rv7_arg2, rv7_arg3]; rfl
theorem rv8_s2 : rv8 V0 (Proc.devRef .tc main_v269) = (chainV V0 9).s2 := by
  unfold rv8; rw [stepU8_2, rv7_s1, rv7_s2, rv7_s3, rv7_arg3, rv7_arg4]; rfl
theorem rv8_s3 : rv8 V0 (Proc.devRef .tc main_v272) = (chainV V0 9).s3 := by
  unfold rv8; rw [stepU8_3, rv7_s2, rv7_s3, rv7_arg1, rv7_arg4]; rfl
/-- The buffers' contents after step 10. -/
def rv9 : Valuation τ sig (Elt F) := after wU9 (rv8 V0)
theorem rv9_arg0 : rv9 V0 (Proc.devRef .tc main_arg0) = V0 (Proc.devRef .tc main_arg0) :=
  (wU9_keep (rv8 V0) main_arg0 (by decide)).trans (rv8_arg0 V0)
theorem rv9_arg1 : rv9 V0 (Proc.devRef .tc main_arg1) = V0 (Proc.devRef .tc main_arg1) :=
  (wU9_keep (rv8 V0) main_arg1 (by decide)).trans (rv8_arg1 V0)
theorem rv9_arg2 : rv9 V0 (Proc.devRef .tc main_arg2) = V0 (Proc.devRef .tc main_arg2) :=
  (wU9_keep (rv8 V0) main_arg2 (by decide)).trans (rv8_arg2 V0)
theorem rv9_arg3 : rv9 V0 (Proc.devRef .tc main_arg3) = V0 (Proc.devRef .tc main_arg3) :=
  (wU9_keep (rv8 V0) main_arg3 (by decide)).trans (rv8_arg3 V0)
theorem rv9_arg4 : rv9 V0 (Proc.devRef .tc main_arg4) = V0 (Proc.devRef .tc main_arg4) :=
  (wU9_keep (rv8 V0) main_arg4 (by decide)).trans (rv8_arg4 V0)
theorem rv9_f1 : rv9 V0 (Proc.devRef .tc main_v0) = (chainV V0 0).s1 :=
  (wU9_keep (rv8 V0) main_v0 (by decide)).trans (rv8_f1 V0)
theorem rv9_f2 : rv9 V0 (Proc.devRef .tc main_v1) = (chainV V0 0).s2 :=
  (wU9_keep (rv8 V0) main_v1 (by decide)).trans (rv8_f2 V0)
theorem rv9_f3 : rv9 V0 (Proc.devRef .tc main_v2) = (chainV V0 0).s3 :=
  (wU9_keep (rv8 V0) main_v2 (by decide)).trans (rv8_f3 V0)
theorem rv9_s1 : rv9 V0 (Proc.devRef .tc main_v295) = (chainV V0 10).s1 := by
  unfold rv9; rw [stepU9_1, rv8_arg0, rv8_s1, rv8_s2, rv8_arg2, rv8_arg3]; rfl
theorem rv9_s2 : rv9 V0 (Proc.devRef .tc main_v298) = (chainV V0 10).s2 := by
  unfold rv9; rw [stepU9_2, rv8_s1, rv8_s2, rv8_s3, rv8_arg3, rv8_arg4]; rfl
theorem rv9_s3 : rv9 V0 (Proc.devRef .tc main_v301) = (chainV V0 10).s3 := by
  unfold rv9; rw [stepU9_3, rv8_s2, rv8_s3, rv8_arg1, rv8_arg4]; rfl
/-- The buffers' contents after step 11. -/
def rv10 : Valuation τ sig (Elt F) := after wU10 (rv9 V0)
theorem rv10_arg0 : rv10 V0 (Proc.devRef .tc main_arg0) = V0 (Proc.devRef .tc main_arg0) :=
  (wU10_keep (rv9 V0) main_arg0 (by decide)).trans (rv9_arg0 V0)
theorem rv10_arg1 : rv10 V0 (Proc.devRef .tc main_arg1) = V0 (Proc.devRef .tc main_arg1) :=
  (wU10_keep (rv9 V0) main_arg1 (by decide)).trans (rv9_arg1 V0)
theorem rv10_arg2 : rv10 V0 (Proc.devRef .tc main_arg2) = V0 (Proc.devRef .tc main_arg2) :=
  (wU10_keep (rv9 V0) main_arg2 (by decide)).trans (rv9_arg2 V0)
theorem rv10_arg3 : rv10 V0 (Proc.devRef .tc main_arg3) = V0 (Proc.devRef .tc main_arg3) :=
  (wU10_keep (rv9 V0) main_arg3 (by decide)).trans (rv9_arg3 V0)
theorem rv10_arg4 : rv10 V0 (Proc.devRef .tc main_arg4) = V0 (Proc.devRef .tc main_arg4) :=
  (wU10_keep (rv9 V0) main_arg4 (by decide)).trans (rv9_arg4 V0)
theorem rv10_f1 : rv10 V0 (Proc.devRef .tc main_v0) = (chainV V0 0).s1 :=
  (wU10_keep (rv9 V0) main_v0 (by decide)).trans (rv9_f1 V0)
theorem rv10_f2 : rv10 V0 (Proc.devRef .tc main_v1) = (chainV V0 0).s2 :=
  (wU10_keep (rv9 V0) main_v1 (by decide)).trans (rv9_f2 V0)
theorem rv10_f3 : rv10 V0 (Proc.devRef .tc main_v2) = (chainV V0 0).s3 :=
  (wU10_keep (rv9 V0) main_v2 (by decide)).trans (rv9_f3 V0)
theorem rv10_s1 : rv10 V0 (Proc.devRef .tc main_v324) = (chainV V0 11).s1 := by
  unfold rv10; rw [stepU10_1, rv9_arg0, rv9_s1, rv9_s2, rv9_arg2, rv9_arg3]; rfl
theorem rv10_s2 : rv10 V0 (Proc.devRef .tc main_v327) = (chainV V0 11).s2 := by
  unfold rv10; rw [stepU10_2, rv9_s1, rv9_s2, rv9_s3, rv9_arg3, rv9_arg4]; rfl
theorem rv10_s3 : rv10 V0 (Proc.devRef .tc main_v330) = (chainV V0 11).s3 := by
  unfold rv10; rw [stepU10_3, rv9_s2, rv9_s3, rv9_arg1, rv9_arg4]; rfl
/-- The buffers' contents after step 12. -/
def rv11 : Valuation τ sig (Elt F) := after wU11 (rv10 V0)
theorem rv11_arg0 : rv11 V0 (Proc.devRef .tc main_arg0) = V0 (Proc.devRef .tc main_arg0) :=
  (wU11_keep (rv10 V0) main_arg0 (by decide)).trans (rv10_arg0 V0)
theorem rv11_arg1 : rv11 V0 (Proc.devRef .tc main_arg1) = V0 (Proc.devRef .tc main_arg1) :=
  (wU11_keep (rv10 V0) main_arg1 (by decide)).trans (rv10_arg1 V0)
theorem rv11_arg2 : rv11 V0 (Proc.devRef .tc main_arg2) = V0 (Proc.devRef .tc main_arg2) :=
  (wU11_keep (rv10 V0) main_arg2 (by decide)).trans (rv10_arg2 V0)
theorem rv11_arg3 : rv11 V0 (Proc.devRef .tc main_arg3) = V0 (Proc.devRef .tc main_arg3) :=
  (wU11_keep (rv10 V0) main_arg3 (by decide)).trans (rv10_arg3 V0)
theorem rv11_arg4 : rv11 V0 (Proc.devRef .tc main_arg4) = V0 (Proc.devRef .tc main_arg4) :=
  (wU11_keep (rv10 V0) main_arg4 (by decide)).trans (rv10_arg4 V0)
theorem rv11_f1 : rv11 V0 (Proc.devRef .tc main_v0) = (chainV V0 0).s1 :=
  (wU11_keep (rv10 V0) main_v0 (by decide)).trans (rv10_f1 V0)
theorem rv11_f2 : rv11 V0 (Proc.devRef .tc main_v1) = (chainV V0 0).s2 :=
  (wU11_keep (rv10 V0) main_v1 (by decide)).trans (rv10_f2 V0)
theorem rv11_f3 : rv11 V0 (Proc.devRef .tc main_v2) = (chainV V0 0).s3 :=
  (wU11_keep (rv10 V0) main_v2 (by decide)).trans (rv10_f3 V0)
theorem rv11_s1 : rv11 V0 (Proc.devRef .tc main_v353) = (chainV V0 12).s1 := by
  unfold rv11; rw [stepU11_1, rv10_arg0, rv10_s1, rv10_s2, rv10_arg2, rv10_arg3]; rfl
theorem rv11_s2 : rv11 V0 (Proc.devRef .tc main_v356) = (chainV V0 12).s2 := by
  unfold rv11; rw [stepU11_2, rv10_s1, rv10_s2, rv10_s3, rv10_arg3, rv10_arg4]; rfl
theorem rv11_s3 : rv11 V0 (Proc.devRef .tc main_v359) = (chainV V0 12).s3 := by
  unfold rv11; rw [stepU11_3, rv10_s2, rv10_s3, rv10_arg1, rv10_arg4]; rfl
/-- The buffers' contents after step 13. -/
def rv12 : Valuation τ sig (Elt F) := after wU12 (rv11 V0)
theorem rv12_arg0 : rv12 V0 (Proc.devRef .tc main_arg0) = V0 (Proc.devRef .tc main_arg0) :=
  (wU12_keep (rv11 V0) main_arg0 (by decide)).trans (rv11_arg0 V0)
theorem rv12_arg1 : rv12 V0 (Proc.devRef .tc main_arg1) = V0 (Proc.devRef .tc main_arg1) :=
  (wU12_keep (rv11 V0) main_arg1 (by decide)).trans (rv11_arg1 V0)
theorem rv12_arg2 : rv12 V0 (Proc.devRef .tc main_arg2) = V0 (Proc.devRef .tc main_arg2) :=
  (wU12_keep (rv11 V0) main_arg2 (by decide)).trans (rv11_arg2 V0)
theorem rv12_arg3 : rv12 V0 (Proc.devRef .tc main_arg3) = V0 (Proc.devRef .tc main_arg3) :=
  (wU12_keep (rv11 V0) main_arg3 (by decide)).trans (rv11_arg3 V0)
theorem rv12_arg4 : rv12 V0 (Proc.devRef .tc main_arg4) = V0 (Proc.devRef .tc main_arg4) :=
  (wU12_keep (rv11 V0) main_arg4 (by decide)).trans (rv11_arg4 V0)
theorem rv12_f1 : rv12 V0 (Proc.devRef .tc main_v0) = (chainV V0 0).s1 :=
  (wU12_keep (rv11 V0) main_v0 (by decide)).trans (rv11_f1 V0)
theorem rv12_f2 : rv12 V0 (Proc.devRef .tc main_v1) = (chainV V0 0).s2 :=
  (wU12_keep (rv11 V0) main_v1 (by decide)).trans (rv11_f2 V0)
theorem rv12_f3 : rv12 V0 (Proc.devRef .tc main_v2) = (chainV V0 0).s3 :=
  (wU12_keep (rv11 V0) main_v2 (by decide)).trans (rv11_f3 V0)
theorem rv12_s1 : rv12 V0 (Proc.devRef .tc main_v382) = (chainV V0 13).s1 := by
  unfold rv12; rw [stepU12_1, rv11_arg0, rv11_s1, rv11_s2, rv11_arg2, rv11_arg3]; rfl
theorem rv12_s2 : rv12 V0 (Proc.devRef .tc main_v385) = (chainV V0 13).s2 := by
  unfold rv12; rw [stepU12_2, rv11_s1, rv11_s2, rv11_s3, rv11_arg3, rv11_arg4]; rfl
theorem rv12_s3 : rv12 V0 (Proc.devRef .tc main_v388) = (chainV V0 13).s3 := by
  unfold rv12; rw [stepU12_3, rv11_s2, rv11_s3, rv11_arg1, rv11_arg4]; rfl
/-- The buffers' contents after step 14. -/
def rv13 : Valuation τ sig (Elt F) := after wU13 (rv12 V0)
theorem rv13_arg0 : rv13 V0 (Proc.devRef .tc main_arg0) = V0 (Proc.devRef .tc main_arg0) :=
  (wU13_keep (rv12 V0) main_arg0 (by decide)).trans (rv12_arg0 V0)
theorem rv13_arg1 : rv13 V0 (Proc.devRef .tc main_arg1) = V0 (Proc.devRef .tc main_arg1) :=
  (wU13_keep (rv12 V0) main_arg1 (by decide)).trans (rv12_arg1 V0)
theorem rv13_arg2 : rv13 V0 (Proc.devRef .tc main_arg2) = V0 (Proc.devRef .tc main_arg2) :=
  (wU13_keep (rv12 V0) main_arg2 (by decide)).trans (rv12_arg2 V0)
theorem rv13_arg3 : rv13 V0 (Proc.devRef .tc main_arg3) = V0 (Proc.devRef .tc main_arg3) :=
  (wU13_keep (rv12 V0) main_arg3 (by decide)).trans (rv12_arg3 V0)
theorem rv13_arg4 : rv13 V0 (Proc.devRef .tc main_arg4) = V0 (Proc.devRef .tc main_arg4) :=
  (wU13_keep (rv12 V0) main_arg4 (by decide)).trans (rv12_arg4 V0)
theorem rv13_f1 : rv13 V0 (Proc.devRef .tc main_v0) = (chainV V0 0).s1 :=
  (wU13_keep (rv12 V0) main_v0 (by decide)).trans (rv12_f1 V0)
theorem rv13_f2 : rv13 V0 (Proc.devRef .tc main_v1) = (chainV V0 0).s2 :=
  (wU13_keep (rv12 V0) main_v1 (by decide)).trans (rv12_f2 V0)
theorem rv13_f3 : rv13 V0 (Proc.devRef .tc main_v2) = (chainV V0 0).s3 :=
  (wU13_keep (rv12 V0) main_v2 (by decide)).trans (rv12_f3 V0)
theorem rv13_s1 : rv13 V0 (Proc.devRef .tc main_v411) = (chainV V0 14).s1 := by
  unfold rv13; rw [stepU13_1, rv12_arg0, rv12_s1, rv12_s2, rv12_arg2, rv12_arg3]; rfl
theorem rv13_s2 : rv13 V0 (Proc.devRef .tc main_v414) = (chainV V0 14).s2 := by
  unfold rv13; rw [stepU13_2, rv12_s1, rv12_s2, rv12_s3, rv12_arg3, rv12_arg4]; rfl
theorem rv13_s3 : rv13 V0 (Proc.devRef .tc main_v417) = (chainV V0 14).s3 := by
  unfold rv13; rw [stepU13_3, rv12_s2, rv12_s3, rv12_arg1, rv12_arg4]; rfl
/-- The buffers' contents after step 15. -/
def rv14 : Valuation τ sig (Elt F) := after wU14 (rv13 V0)
theorem rv14_arg0 : rv14 V0 (Proc.devRef .tc main_arg0) = V0 (Proc.devRef .tc main_arg0) :=
  (wU14_keep (rv13 V0) main_arg0 (by decide)).trans (rv13_arg0 V0)
theorem rv14_arg1 : rv14 V0 (Proc.devRef .tc main_arg1) = V0 (Proc.devRef .tc main_arg1) :=
  (wU14_keep (rv13 V0) main_arg1 (by decide)).trans (rv13_arg1 V0)
theorem rv14_arg2 : rv14 V0 (Proc.devRef .tc main_arg2) = V0 (Proc.devRef .tc main_arg2) :=
  (wU14_keep (rv13 V0) main_arg2 (by decide)).trans (rv13_arg2 V0)
theorem rv14_arg3 : rv14 V0 (Proc.devRef .tc main_arg3) = V0 (Proc.devRef .tc main_arg3) :=
  (wU14_keep (rv13 V0) main_arg3 (by decide)).trans (rv13_arg3 V0)
theorem rv14_arg4 : rv14 V0 (Proc.devRef .tc main_arg4) = V0 (Proc.devRef .tc main_arg4) :=
  (wU14_keep (rv13 V0) main_arg4 (by decide)).trans (rv13_arg4 V0)
theorem rv14_f1 : rv14 V0 (Proc.devRef .tc main_v0) = (chainV V0 0).s1 :=
  (wU14_keep (rv13 V0) main_v0 (by decide)).trans (rv13_f1 V0)
theorem rv14_f2 : rv14 V0 (Proc.devRef .tc main_v1) = (chainV V0 0).s2 :=
  (wU14_keep (rv13 V0) main_v1 (by decide)).trans (rv13_f2 V0)
theorem rv14_f3 : rv14 V0 (Proc.devRef .tc main_v2) = (chainV V0 0).s3 :=
  (wU14_keep (rv13 V0) main_v2 (by decide)).trans (rv13_f3 V0)
theorem rv14_s1 : rv14 V0 (Proc.devRef .tc main_v440) = (chainV V0 15).s1 := by
  unfold rv14; rw [stepU14_1, rv13_arg0, rv13_s1, rv13_s2, rv13_arg2, rv13_arg3]; rfl
theorem rv14_s2 : rv14 V0 (Proc.devRef .tc main_v443) = (chainV V0 15).s2 := by
  unfold rv14; rw [stepU14_2, rv13_s1, rv13_s2, rv13_s3, rv13_arg3, rv13_arg4]; rfl
theorem rv14_s3 : rv14 V0 (Proc.devRef .tc main_v446) = (chainV V0 15).s3 := by
  unfold rv14; rw [stepU14_3, rv13_s2, rv13_s3, rv13_arg1, rv13_arg4]; rfl
/-- The buffers' contents after step 16. -/
def rv15 : Valuation τ sig (Elt F) := after wU15 (rv14 V0)
theorem rv15_arg0 : rv15 V0 (Proc.devRef .tc main_arg0) = V0 (Proc.devRef .tc main_arg0) :=
  (wU15_keep (rv14 V0) main_arg0 (by decide)).trans (rv14_arg0 V0)
theorem rv15_arg1 : rv15 V0 (Proc.devRef .tc main_arg1) = V0 (Proc.devRef .tc main_arg1) :=
  (wU15_keep (rv14 V0) main_arg1 (by decide)).trans (rv14_arg1 V0)
theorem rv15_arg2 : rv15 V0 (Proc.devRef .tc main_arg2) = V0 (Proc.devRef .tc main_arg2) :=
  (wU15_keep (rv14 V0) main_arg2 (by decide)).trans (rv14_arg2 V0)
theorem rv15_arg3 : rv15 V0 (Proc.devRef .tc main_arg3) = V0 (Proc.devRef .tc main_arg3) :=
  (wU15_keep (rv14 V0) main_arg3 (by decide)).trans (rv14_arg3 V0)
theorem rv15_arg4 : rv15 V0 (Proc.devRef .tc main_arg4) = V0 (Proc.devRef .tc main_arg4) :=
  (wU15_keep (rv14 V0) main_arg4 (by decide)).trans (rv14_arg4 V0)
theorem rv15_f1 : rv15 V0 (Proc.devRef .tc main_v0) = (chainV V0 0).s1 :=
  (wU15_keep (rv14 V0) main_v0 (by decide)).trans (rv14_f1 V0)
theorem rv15_f2 : rv15 V0 (Proc.devRef .tc main_v1) = (chainV V0 0).s2 :=
  (wU15_keep (rv14 V0) main_v1 (by decide)).trans (rv14_f2 V0)
theorem rv15_f3 : rv15 V0 (Proc.devRef .tc main_v2) = (chainV V0 0).s3 :=
  (wU15_keep (rv14 V0) main_v2 (by decide)).trans (rv14_f3 V0)
theorem rv15_s1 : rv15 V0 (Proc.devRef .tc main_v469) = (chainV V0 16).s1 := by
  unfold rv15; rw [stepU15_1, rv14_arg0, rv14_s1, rv14_s2, rv14_arg2, rv14_arg3]; rfl
theorem rv15_s2 : rv15 V0 (Proc.devRef .tc main_v472) = (chainV V0 16).s2 := by
  unfold rv15; rw [stepU15_2, rv14_s1, rv14_s2, rv14_s3, rv14_arg3, rv14_arg4]; rfl
theorem rv15_s3 : rv15 V0 (Proc.devRef .tc main_v475) = (chainV V0 16).s3 := by
  unfold rv15; rw [stepU15_3, rv14_s2, rv14_s3, rv14_arg1, rv14_arg4]; rfl
/-- The buffers' contents after step 17. -/
def rv16 : Valuation τ sig (Elt F) := after wU16 (rv15 V0)
theorem rv16_arg0 : rv16 V0 (Proc.devRef .tc main_arg0) = V0 (Proc.devRef .tc main_arg0) :=
  (wU16_keep (rv15 V0) main_arg0 (by decide)).trans (rv15_arg0 V0)
theorem rv16_arg1 : rv16 V0 (Proc.devRef .tc main_arg1) = V0 (Proc.devRef .tc main_arg1) :=
  (wU16_keep (rv15 V0) main_arg1 (by decide)).trans (rv15_arg1 V0)
theorem rv16_arg2 : rv16 V0 (Proc.devRef .tc main_arg2) = V0 (Proc.devRef .tc main_arg2) :=
  (wU16_keep (rv15 V0) main_arg2 (by decide)).trans (rv15_arg2 V0)
theorem rv16_arg3 : rv16 V0 (Proc.devRef .tc main_arg3) = V0 (Proc.devRef .tc main_arg3) :=
  (wU16_keep (rv15 V0) main_arg3 (by decide)).trans (rv15_arg3 V0)
theorem rv16_arg4 : rv16 V0 (Proc.devRef .tc main_arg4) = V0 (Proc.devRef .tc main_arg4) :=
  (wU16_keep (rv15 V0) main_arg4 (by decide)).trans (rv15_arg4 V0)
theorem rv16_f1 : rv16 V0 (Proc.devRef .tc main_v0) = (chainV V0 0).s1 :=
  (wU16_keep (rv15 V0) main_v0 (by decide)).trans (rv15_f1 V0)
theorem rv16_f2 : rv16 V0 (Proc.devRef .tc main_v1) = (chainV V0 0).s2 :=
  (wU16_keep (rv15 V0) main_v1 (by decide)).trans (rv15_f2 V0)
theorem rv16_f3 : rv16 V0 (Proc.devRef .tc main_v2) = (chainV V0 0).s3 :=
  (wU16_keep (rv15 V0) main_v2 (by decide)).trans (rv15_f3 V0)
theorem rv16_s1 : rv16 V0 (Proc.devRef .tc main_v498) = (chainV V0 17).s1 := by
  unfold rv16; rw [stepU16_1, rv15_arg0, rv15_s1, rv15_s2, rv15_arg2, rv15_arg3]; rfl
theorem rv16_s2 : rv16 V0 (Proc.devRef .tc main_v501) = (chainV V0 17).s2 := by
  unfold rv16; rw [stepU16_2, rv15_s1, rv15_s2, rv15_s3, rv15_arg3, rv15_arg4]; rfl
theorem rv16_s3 : rv16 V0 (Proc.devRef .tc main_v504) = (chainV V0 17).s3 := by
  unfold rv16; rw [stepU16_3, rv15_s2, rv15_s3, rv15_arg1, rv15_arg4]; rfl
/-- The buffers' contents after step 18. -/
def rv17 : Valuation τ sig (Elt F) := after wU17 (rv16 V0)
theorem rv17_arg0 : rv17 V0 (Proc.devRef .tc main_arg0) = V0 (Proc.devRef .tc main_arg0) :=
  (wU17_keep (rv16 V0) main_arg0 (by decide)).trans (rv16_arg0 V0)
theorem rv17_arg1 : rv17 V0 (Proc.devRef .tc main_arg1) = V0 (Proc.devRef .tc main_arg1) :=
  (wU17_keep (rv16 V0) main_arg1 (by decide)).trans (rv16_arg1 V0)
theorem rv17_arg2 : rv17 V0 (Proc.devRef .tc main_arg2) = V0 (Proc.devRef .tc main_arg2) :=
  (wU17_keep (rv16 V0) main_arg2 (by decide)).trans (rv16_arg2 V0)
theorem rv17_arg3 : rv17 V0 (Proc.devRef .tc main_arg3) = V0 (Proc.devRef .tc main_arg3) :=
  (wU17_keep (rv16 V0) main_arg3 (by decide)).trans (rv16_arg3 V0)
theorem rv17_arg4 : rv17 V0 (Proc.devRef .tc main_arg4) = V0 (Proc.devRef .tc main_arg4) :=
  (wU17_keep (rv16 V0) main_arg4 (by decide)).trans (rv16_arg4 V0)
theorem rv17_f1 : rv17 V0 (Proc.devRef .tc main_v0) = (chainV V0 0).s1 :=
  (wU17_keep (rv16 V0) main_v0 (by decide)).trans (rv16_f1 V0)
theorem rv17_f2 : rv17 V0 (Proc.devRef .tc main_v1) = (chainV V0 0).s2 :=
  (wU17_keep (rv16 V0) main_v1 (by decide)).trans (rv16_f2 V0)
theorem rv17_f3 : rv17 V0 (Proc.devRef .tc main_v2) = (chainV V0 0).s3 :=
  (wU17_keep (rv16 V0) main_v2 (by decide)).trans (rv16_f3 V0)
theorem rv17_s1 : rv17 V0 (Proc.devRef .tc main_v527) = (chainV V0 18).s1 := by
  unfold rv17; rw [stepU17_1, rv16_arg0, rv16_s1, rv16_s2, rv16_arg2, rv16_arg3]; rfl
theorem rv17_s2 : rv17 V0 (Proc.devRef .tc main_v530) = (chainV V0 18).s2 := by
  unfold rv17; rw [stepU17_2, rv16_s1, rv16_s2, rv16_s3, rv16_arg3, rv16_arg4]; rfl
theorem rv17_s3 : rv17 V0 (Proc.devRef .tc main_v533) = (chainV V0 18).s3 := by
  unfold rv17; rw [stepU17_3, rv16_s2, rv16_s3, rv16_arg1, rv16_arg4]; rfl
/-- The buffers' contents after step 19. -/
def rv18 : Valuation τ sig (Elt F) := after wU18 (rv17 V0)
theorem rv18_arg0 : rv18 V0 (Proc.devRef .tc main_arg0) = V0 (Proc.devRef .tc main_arg0) :=
  (wU18_keep (rv17 V0) main_arg0 (by decide)).trans (rv17_arg0 V0)
theorem rv18_arg1 : rv18 V0 (Proc.devRef .tc main_arg1) = V0 (Proc.devRef .tc main_arg1) :=
  (wU18_keep (rv17 V0) main_arg1 (by decide)).trans (rv17_arg1 V0)
theorem rv18_arg2 : rv18 V0 (Proc.devRef .tc main_arg2) = V0 (Proc.devRef .tc main_arg2) :=
  (wU18_keep (rv17 V0) main_arg2 (by decide)).trans (rv17_arg2 V0)
theorem rv18_arg3 : rv18 V0 (Proc.devRef .tc main_arg3) = V0 (Proc.devRef .tc main_arg3) :=
  (wU18_keep (rv17 V0) main_arg3 (by decide)).trans (rv17_arg3 V0)
theorem rv18_arg4 : rv18 V0 (Proc.devRef .tc main_arg4) = V0 (Proc.devRef .tc main_arg4) :=
  (wU18_keep (rv17 V0) main_arg4 (by decide)).trans (rv17_arg4 V0)
theorem rv18_f1 : rv18 V0 (Proc.devRef .tc main_v0) = (chainV V0 0).s1 :=
  (wU18_keep (rv17 V0) main_v0 (by decide)).trans (rv17_f1 V0)
theorem rv18_f2 : rv18 V0 (Proc.devRef .tc main_v1) = (chainV V0 0).s2 :=
  (wU18_keep (rv17 V0) main_v1 (by decide)).trans (rv17_f2 V0)
theorem rv18_f3 : rv18 V0 (Proc.devRef .tc main_v2) = (chainV V0 0).s3 :=
  (wU18_keep (rv17 V0) main_v2 (by decide)).trans (rv17_f3 V0)
theorem rv18_s1 : rv18 V0 (Proc.devRef .tc main_v556) = (chainV V0 19).s1 := by
  unfold rv18; rw [stepU18_1, rv17_arg0, rv17_s1, rv17_s2, rv17_arg2, rv17_arg3]; rfl
theorem rv18_s2 : rv18 V0 (Proc.devRef .tc main_v559) = (chainV V0 19).s2 := by
  unfold rv18; rw [stepU18_2, rv17_s1, rv17_s2, rv17_s3, rv17_arg3, rv17_arg4]; rfl
theorem rv18_s3 : rv18 V0 (Proc.devRef .tc main_v562) = (chainV V0 19).s3 := by
  unfold rv18; rw [stepU18_3, rv17_s2, rv17_s3, rv17_arg1, rv17_arg4]; rfl
/-- The buffers' contents after step 20. -/
def rv19 : Valuation τ sig (Elt F) := after wU19 (rv18 V0)
theorem rv19_arg0 : rv19 V0 (Proc.devRef .tc main_arg0) = V0 (Proc.devRef .tc main_arg0) :=
  (wU19_keep (rv18 V0) main_arg0 (by decide)).trans (rv18_arg0 V0)
theorem rv19_arg1 : rv19 V0 (Proc.devRef .tc main_arg1) = V0 (Proc.devRef .tc main_arg1) :=
  (wU19_keep (rv18 V0) main_arg1 (by decide)).trans (rv18_arg1 V0)
theorem rv19_arg2 : rv19 V0 (Proc.devRef .tc main_arg2) = V0 (Proc.devRef .tc main_arg2) :=
  (wU19_keep (rv18 V0) main_arg2 (by decide)).trans (rv18_arg2 V0)
theorem rv19_arg3 : rv19 V0 (Proc.devRef .tc main_arg3) = V0 (Proc.devRef .tc main_arg3) :=
  (wU19_keep (rv18 V0) main_arg3 (by decide)).trans (rv18_arg3 V0)
theorem rv19_arg4 : rv19 V0 (Proc.devRef .tc main_arg4) = V0 (Proc.devRef .tc main_arg4) :=
  (wU19_keep (rv18 V0) main_arg4 (by decide)).trans (rv18_arg4 V0)
theorem rv19_f1 : rv19 V0 (Proc.devRef .tc main_v0) = (chainV V0 0).s1 :=
  (wU19_keep (rv18 V0) main_v0 (by decide)).trans (rv18_f1 V0)
theorem rv19_f2 : rv19 V0 (Proc.devRef .tc main_v1) = (chainV V0 0).s2 :=
  (wU19_keep (rv18 V0) main_v1 (by decide)).trans (rv18_f2 V0)
theorem rv19_f3 : rv19 V0 (Proc.devRef .tc main_v2) = (chainV V0 0).s3 :=
  (wU19_keep (rv18 V0) main_v2 (by decide)).trans (rv18_f3 V0)
theorem rv19_s1 : rv19 V0 (Proc.devRef .tc main_v585) = (chainV V0 20).s1 := by
  unfold rv19; rw [stepU19_1, rv18_arg0, rv18_s1, rv18_s2, rv18_arg2, rv18_arg3]; rfl
theorem rv19_s2 : rv19 V0 (Proc.devRef .tc main_v588) = (chainV V0 20).s2 := by
  unfold rv19; rw [stepU19_2, rv18_s1, rv18_s2, rv18_s3, rv18_arg3, rv18_arg4]; rfl
theorem rv19_s3 : rv19 V0 (Proc.devRef .tc main_v591) = (chainV V0 20).s3 := by
  unfold rv19; rw [stepU19_3, rv18_s2, rv18_s3, rv18_arg1, rv18_arg4]; rfl

/-- The whole program's contents are the closing stretch's, from the level after the last step. -/
theorem after_ops : after (ops : List (HloOp τ sig (Elt F))) V0 = after wFin (rv19 V0) := by
  rw [ops_split]
  simp only [after_append]
  rfl

/-- The result buffer after the whole program. -/
theorem after_ops_result : after (ops : List (HloOp τ sig (Elt F))) V0 (Proc.devRef .tc main_v633)
    = result (vX V0) (vY V0) (vW0 V0) (vW1 V0) (vW2 V0) (chainV V0 0) (chainV V0 20) := by
  rw [after_ops, fin_result, rv19_arg0, rv19_arg1, rv19_arg2, rv19_arg3, rv19_arg4, rv19_f1, rv19_f2, rv19_f3, rv19_s1, rv19_s2, rv19_s3]
theorem after_ops_arg0 : after (ops : List (HloOp τ sig (Elt F))) V0 (Proc.devRef .tc main_arg0) = V0 (Proc.devRef .tc main_arg0) := by
  rw [after_ops]; exact (wFin_keep (rv19 V0) main_arg0 (by decide)).trans (rv19_arg0 V0)
theorem after_ops_arg1 : after (ops : List (HloOp τ sig (Elt F))) V0 (Proc.devRef .tc main_arg1) = V0 (Proc.devRef .tc main_arg1) := by
  rw [after_ops]; exact (wFin_keep (rv19 V0) main_arg1 (by decide)).trans (rv19_arg1 V0)
theorem after_ops_arg2 : after (ops : List (HloOp τ sig (Elt F))) V0 (Proc.devRef .tc main_arg2) = V0 (Proc.devRef .tc main_arg2) := by
  rw [after_ops]; exact (wFin_keep (rv19 V0) main_arg2 (by decide)).trans (rv19_arg2 V0)
theorem after_ops_arg3 : after (ops : List (HloOp τ sig (Elt F))) V0 (Proc.devRef .tc main_arg3) = V0 (Proc.devRef .tc main_arg3) := by
  rw [after_ops]; exact (wFin_keep (rv19 V0) main_arg3 (by decide)).trans (rv19_arg3 V0)
theorem after_ops_arg4 : after (ops : List (HloOp τ sig (Elt F))) V0 (Proc.devRef .tc main_arg4) = V0 (Proc.devRef .tc main_arg4) := by
  rw [after_ops]; exact (wFin_keep (rv19 V0) main_arg4 (by decide)).trans (rv19_arg4 V0)

end

/-- THE REFERENCE'S RUN: every weakly fair execution terminates with the result at `result` of the arguments, the free
    states and the states after twenty steps, and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v633)
        = result (vX (launchContents m c)) (vY (launchContents m c)) (vW0 (launchContents m c)) (vW1 (launchContents m c))
            (vW2 (launchContents m c)) (chainV (launchContents m c) 0) (chainV (launchContents m c) 20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v633).trans (after_ops_result (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c))⟩)
    (run_seq scopedRefs_eq scopedSems_eq defs main (fun _ => ops) main_eq (fun _ => ops_sub) m ρ)

end Cert.RefSide

end
-- ==== Proof.lean ====
/-
  The certificate: an equilibrium-propagation kernel against its jnp reference, over the extended reals.
  Both programs compute the forward chain `s1 = x·W0, s2 = s1·W1, s3 = s2·W2`, relax the three states for twenty steps
  (the first with the gradients chained back through the layers, the rest with direct gradients), take each layer's
  weight gradient `sᵀ·(s·W − s')` at the relaxed and at the free states, and return their difference over β, flattened,
  with the free phase's mean squared error. The kernel program does each phase in one whole-array kernel call; at the ideal
  instance a kernel's matrix product into the zero accumulator is the host's product of the same operands, and a product
  against a transposed operand is the same sum re-indexed, so each call's results are the reference's terms of the same
  arrays, and the two results are one function of the arguments. No law beyond re-indexing a sum is used: the precondition
  is never opened.
  Frames: @main of the kernel program is twenty-three kernel regions among two host stretches; each region is entered with
  every buffer at the contents the items before it left and leaves its output arrays at the body's result of its input
  arrays, every other buffer untouched, so no argument is ever written. The reference is a host program: its run, with
  the result dropped.
-/
import proofs.«107956_j75110388073098_1_alg».proof.Defs
import proofs.«107956_j75110388073098_1_alg».proof.Proof.Gen.Kernel
import proofs.«107956_j75110388073098_1_alg».proof.Proof.Gen.KernelIdeal
import proofs.«107956_j75110388073098_1_alg».proof.Proof.Gen.ReferenceIdeal
import proofs.«107956_j75110388073098_1_alg».proof.Proof.Gen.Pre_finite_inputs
import proofs.«107956_j75110388073098_1_alg».proof.Proof.KBRun
import proofs.«107956_j75110388073098_1_alg».proof.Proof.KITail
import proofs.«107956_j75110388073098_1_alg».proof.Proof.RefChain

noncomputable section

namespace Cert.Proof

open Idealize.ShloMosaic Idealize.ShloMosaic.TcCoe Idealize.SL.Sem Idealize.ShloMosaic.StableHlo

/-- The word-level program runs and keeps its arguments. -/
theorem frame_k : Cert.frame_Kernel := fun m ρ _ => Cert.Kernel.Reg.frame m ρ
/-- So does its idealization. -/
theorem frame_ki : Cert.frame_KernelIdeal := fun m ρ _ => Cert.KernelIdeal.Reg.frame m ρ
/-- The reference's frame is its run with the result dropped. -/
theorem frame_ri : Cert.frame_ReferenceIdeal := fun m ρ _ =>
  (θ_run Cert.ReferenceIdeal.defs _ _).mono (fun _ h c => (h c).2) (Cert.RefSide.ref_run (F := Ideal) m ρ)

open Cert.KernelIdeal.Reg Cert.RefSide in
/-- At the ideal instance both programs end with `result` of the arguments, the free states and the states after twenty
    steps: the kernel's by the regions' values and the host tail, the reference's by its run; the arguments agree. -/
theorem algebraic : Cert.algebraic_KernelIdeal_ReferenceIdeal := by
  intro m ρ m' ρ' _ hagree
  refine ⟨fun c => result (F := Ideal) (aX m c) (aY m c) (aW0 m c) (aW1 m c) (aW2 m c) (chainAt m c 0) (chainAt m c 20), ?_, ?_⟩
  · exact (θ_run Cert.KernelIdeal.defs _ _).mono (fun r h c =>
      ⟨(h c _ (mem_uc Cert.KernelIdeal.main_v40 (by decide))).trans (tail_eq m ρ c),
       (h c _ (mem_uc Cert.KernelIdeal.main_arg0 (by decide))).trans (Wend_main_arg0 m ρ c),
       (h c _ (mem_uc Cert.KernelIdeal.main_arg1 (by decide))).trans (Wend_main_arg1 m ρ c),
       (h c _ (mem_uc Cert.KernelIdeal.main_arg2 (by decide))).trans (Wend_main_arg2 m ρ c),
       (h c _ (mem_uc Cert.KernelIdeal.main_arg3 (by decide))).trans (Wend_main_arg3 m ρ c),
       (h c _ (mem_uc Cert.KernelIdeal.main_arg4 (by decide))).trans (Wend_main_arg4 m ρ c)⟩) (run_all m ρ)
  · refine (θ_run Cert.ReferenceIdeal.defs _ _).mono (fun r h c => ⟨(h c).1.trans ?_, (h c).2⟩) (ref_run (F := Ideal) m' ρ')
    have h0 : vX (launchContents m' c) = aX m c := (hagree c).1
    have h1 : vY (launchContents m' c) = aY m c := (hagree c).2.1
    have h2 : vW0 (launchContents m' c) = aW0 m c := (hagree c).2.2.1
    have h3 : vW1 (launchContents m' c) = aW1 m c := (hagree c).2.2.2.1
    have h4 : vW2 (launchContents m' c) = aW2 m c := (hagree c).2.2.2.2
    show result (vX (launchContents m' c)) (vY (launchContents m' c)) (vW0 (launchContents m' c)) (vW1 (launchContents m' c))
        (vW2 (launchContents m' c))
        (chain (vX (launchContents m' c)) (vY (launchContents m' c)) (vW0 (launchContents m' c)) (vW1 (launchContents m' c)) (vW2 (launchContents m' c)) 0)
        (chain (vX (launchContents m' c)) (vY (launchContents m' c)) (vW0 (launchContents m' c)) (vW1 (launchContents m' c)) (vW2 (launchContents m' c)) 20) = _
    rw [h0, h1, h2, h3, h4]

theorem claim : Cert.Claim :=
  ⟨Cert.Kernel.Gen.facts, Cert.KernelIdeal.Gen.facts, Cert.ReferenceIdeal.Gen.facts, Cert.Pre_finite_inputs.Gen.facts,
   frame_k, frame_ki, frame_ri, trivial, algebraic⟩

end Cert.Proof

end
